-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v316)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v316) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v391) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S2x256x256 : Shape := ⟨3, ![2, 256, 256]⟩
abbrev S3x256 : Shape := ⟨2, ![3, 256]⟩
abbrev S256x256 : Shape := ⟨2, ![256, 256]⟩
abbrev S2x512x256 : Shape := ⟨3, ![2, 512, 256]⟩
abbrev S3x256x256 : Shape := ⟨3, ![3, 256, 256]⟩
abbrev S256x2 : Shape := ⟨2, ![256, 2]⟩
abbrev S2 : Shape := ⟨1, ![2]⟩
abbrev S3x256x2 : Shape := ⟨3, ![3, 256, 2]⟩
abbrev S3x2 : Shape := ⟨2, ![3, 2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S2x512x256 : S_.BroadcastsInDim S2x512x256 (![] : Fin 0 → Fin S2x512x256.rank)
  reducesTo_S2x512x256_S_d0_1_2 : S2x512x256.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S3x256x2 : S_.BroadcastsInDim S3x256x2 (![] : Fin 0 → Fin S3x256x2.rank)
  reducesTo_S3x256x2_S_d0_1_2 : S3x256x2.ReducesTo [0, 1, 2] S_
  bcast_S_S3x2 : S_.BroadcastsInDim S3x2 (![] : Fin 0 → Fin S3x2.rank)
  reducesTo_S3x2_S_d0_1 : S3x2.ReducesTo [0, 1] S_

variable [Facts]

def fn_part5 {F : FTy → Type} [FloatOps F] (main_arg19 : FVec F S3x2 .f32) (main_v83 : IVec S_ 1) (main_v84 : FVec F S3x256x2 .f32) (main_cst_32 : FVec F S_ .f32) : IVec S_ 1 :=
  let main_v85 : FVec F S3x256x2 .f32 := broadcastInDim S3x256x2 ![] bcast_S_S3x256x2 main_cst_32
  let main_v86 : IVec S3x256x2 1 := cmpf .olt main_v84 main_v85
  let main_c_33 : IVec S_ 1 := constantI S_ 1 1#1
  let main_v87 : IVec S_ 1 := (fun x v => Host.reduce IntOp.andi x v reducesTo_S3x256x2_S_d0_1_2 h_S_) main_v86 main_c_33
  let main_v88 : IVec S_ 1 := andi main_v83 main_v87
  let main_v89 : FVec F S3x2 .f32 := Host.absf main_arg19
  let main_cst_34 : FVec F S_ .f32 := constant S_ .f32 0x7F800000#32
  let main_v90 : FVec F S3x2 .f32 := broadcastInDim S3x2 ![] bcast_S_S3x2 main_cst_34
  let main_v91 : IVec S3x2 1 := cmpf .olt main_v89 main_v90
  let main_c_35 : IVec S_ 1 := constantI S_ 1 1#1
  let main_v92 : IVec S_ 1 := (fun x v => Host.reduce IntOp.andi x v reducesTo_S3x2_S_d0_1 h_S_) main_v91 main_c_35
  let main_v93 : IVec S_ 1 := andi main_v88 main_v92
  main_v93

def fn_part4 {F : FTy → Type} [FloatOps F] (main_arg15 : FVec F S3x256 .f32) (main_arg16 : FVec F S256x2 .f32) (main_arg17 : FVec F S2 .f32) (main_arg18 : FVec F S3x256x2 .f32) (main_arg19 : FVec F S3x2 .f32) (main_v63 : IVec S_ 1) (main_v67 : IVec S_ 1) : IVec S_ 1 :=
  let main_v68 : IVec S_ 1 := andi main_v63 main_v67
  let main_v69 : FVec F S3x256 .f32 := Host.absf main_arg15
  let main_cst_26 : FVec F S_ .f32 := constant S_ .f32 0x7F800000#32
  let main_v70 : FVec F S3x256 .f32 := broadcastInDim S3x256 ![] bcast_S_S3x256 main_cst_26
  let main_v71 : IVec S3x256 1 := cmpf .olt main_v69 main_v70
  let main_c_27 : IVec S_ 1 := constantI S_ 1 1#1
  let main_v72 : IVec S_ 1 := (fun x v => Host.reduce IntOp.andi x v reducesTo_S3x256_S_d0_1 h_S_) main_v71 main_c_27
  let main_v73 : IVec S_ 1 := andi main_v68 main_v72
  let main_v74 : FVec F S256x2 .f32 := Host.absf main_arg16
  let main_cst_28 : FVec F S_ .f32 := constant S_ .f32 0x7F800000#32
  let main_v75 : FVec F S256x2 .f32 := broadcastInDim S256x2 ![] bcast_S_S256x2 main_cst_28
  let main_v76 : IVec S256x2 1 := cmpf .olt main_v74 main_v75
  let main_c_29 : IVec S_ 1 := constantI S_ 1 1#1
  let main_v77 : IVec S_ 1 := (fun x v => Host.reduce IntOp.andi x v reducesTo_S256x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : FVec F S3x256x2 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S3x256x256 .f32) (main_arg13 : FVec F S3x256 .f32) (main_arg14 : FVec F S3x256 .f32) (main_arg15 : FVec F S3x256 .f32) (main_arg16 : FVec F S256x2 .f32) (main_arg17 : FVec F S2 .f32) (main_arg18 : FVec F S3x256x2 .f32) (main_arg19 : FVec F S3x2 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x256x256 .f32 := Host.absf main_arg12
  let main_cst_20 : FVec F S_ .f32 := constant S_ .f32 0x7F800000#32
  let main_v55 : FVec F S3x256x256 .f32 := broadcastInDim S3x256x256 ![] bcast_S_S3x256x256 main_cst_20
  let main_v56 : IVec S3x256x256 1 := cmpf .olt main_v54 main_v55
  let main_c_21 : IVec S_ 1 := constantI S_ 1 1#1
  let main_v57 : IVec S_ 1 := (fun x v => Host.reduce IntOp.andi x v reducesTo_S3x256x256_S_d0_1_2 h_S_) main_v56 main_c_21
  let main_v58 : IVec S_ 1 := andi main_v53 main_v57
  let main_v59 : FVec F S3x256 .f32 := Host.absf main_arg13
  let main_cst_22 : FVec F S_ .f32 := constant S_ .f32 0x7F800000#32
  let main_v60 : FVec F S3x256 .f32 := broadcastInDim S3x256 ![] bcast_S_S3x256 main_cst_22
  let main_v61 : IVec S3x256 1 := cmpf .olt main_v59 main_v60
  let main_c_23 : IVec S_ 1 := constantI S_ 1 1#1
  let main_v62 : IVec S_ 1 := (fun x v => Host.reduce IntOp.andi x v reducesTo_S3x256_S_d0_1 h_S_) main_v61 main_c_23
  let main_v63 : IVec S_ 1 := andi main_v58 main_v62
  let main_v64 : FVec F S3x256 .f32 := Host.absf main_arg14
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_arg15 main_arg16 main_arg17 main_arg18 main_arg19 main_v63 main_v67

def fn_part2 {F : FTy → Type} [FloatOps F] (main_arg8 : FVec F S2x512x256 .f32) (main_arg9 : FVec F S3x256 .f32) (main_arg10 : FVec F S3x256 .f32) (main_arg11 : FVec F S3x256 .f32) (main_arg12 : FVec F S3x256x256 .f32) (main_arg13 : FVec F S3x256 .f32) (main_arg14 : FVec F S3x256 .f32) (main_arg15 : FVec F S3x256 .f32) (main_arg16 : FVec F S256x2 .f32) (main_arg17 : FVec F S2 .f32) (main_arg18 : FVec F S3x256x2 .f32) (main_arg19 : FVec F S3x2 .f32) (main_v33 : IVec S_ 1) : IVec S_ 1 :=
  let main_v34 : FVec F S2x512x256 .f32 := Host.absf main_arg8
  let main_cst_12 : FVec F S_ .f32 := constant S_ .f32 0x7F800000#32
  let main_v35 : FVec F S2x512x256 .f32 := broadcastInDim S2x512x256 ![] bcast_S_S2x512x256 main_cst_12
  let main_v36 : IVec S2x512x256 1 := cmpf .olt main_v34 main_v35
  let main_c_13 : IVec S_ 1 := constantI S_ 1 1#1
  let main_v37 : IVec S_ 1 := (fun x v => Host.reduce IntOp.andi x v reducesTo_S2x512x256_S_d0_1_2 h_S_) main_v36 main_c_13
  let main_v38 : IVec S_ 1 := andi main_v33 main_v37
  let main_v39 : FVec F S3x256 .f32 := Host.absf main_arg9
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256 .f32 := Host.absf main_arg10
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256 .f32 := Host.absf main_arg11
  let main_cst_18 : FVec F S_ .f32 := constant S_ .f32 0x7F800000#32
  let main_v50 : FVec F S3x256 .f32 := broadcastInDim S3x256 ![] bcast_S_S3x256 main_cst_18
  fn_part3 (F := F) main_arg12 main_arg13 main_arg14 main_arg15 main_arg16 main_arg17 main_arg18 main_arg19 main_v48 main_v49 main_v50

def fn_part1 {F : FTy → Type} [FloatOps F] (main_arg5 : FVec F S3x256 .f32) (main_arg6 : FVec F S3x256 .f32) (main_arg7 : FVec F S256x256 .f32) (main_arg8 : FVec F S2x512x256 .f32) (main_arg9 : FVec F S3x256 .f32) (main_arg10 : FVec F S3x256 .f32) (main_arg11 : FVec F S3x256 .f32) (main_arg12 : FVec F S3x256x256 .f32) (main_arg13 : FVec F S3x256 .f32) (main_arg14 : FVec F S3x256 .f32) (main_arg15 : FVec F S3x256 .f32) (main_arg16 : FVec F S256x2 .f32) (main_arg17 : FVec F S2 .f32) (main_arg18 : FVec F S3x256x2 .f32) (main_arg19 : FVec F S3x2 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x512 .f32) (main_arg1 : IVec S2x800000 32) (main_arg2 : FVec F S512x256 .f32) (main_arg3 : FVec F S2x256x256 .f32) (main_arg4 : FVec F S3x256 .f32) (main_arg5 : FVec F S3x256 .f32) (main_arg6 : FVec F S3x256 .f32) (main_arg7 : FVec F S256x256 .f32) (main_arg8 : FVec F S2x512x256 .f32) (main_arg9 : FVec F S3x256 .f32) (main_arg10 : FVec F S3x256 .f32) (main_arg11 : FVec F S3x256 .f32) (main_arg12 : FVec F S3x256x256 .f32) (main_arg13 : FVec F S3x256 .f32) (main_arg14 : FVec F S3x256 .f32) (main_arg15 : FVec F S3x256 .f32) (main_arg16 : FVec F S256x2 .f32) (main_arg17 : FVec F S2 .f32) (main_arg18 : FVec F S3x256x2 .f32) (main_arg19 : FVec F S3x2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x256 .f32 := Host.absf main_arg3
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S2x256x256 : Shape := ⟨3, ![2, 256, 256]⟩
abbrev S3x256 : Shape := ⟨2, ![3, 256]⟩
abbrev S256x256 : Shape := ⟨2, ![256, 256]⟩
abbrev S2x512x256 : Shape := ⟨3, ![2, 512, 256]⟩
abbrev S3x256x256 : Shape := ⟨3, ![3, 256, 256]⟩
abbrev S256x2 : Shape := ⟨2, ![256, 2]⟩
abbrev S2 : Shape := ⟨1, ![2]⟩
abbrev S3x256x2 : Shape := ⟨3, ![3, 256, 2]⟩
abbrev S3x2 : Shape := ⟨2, ![3, 2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S1000x512 : Shape := ⟨2, ![1000, 512]⟩
abbrev S1000x256 : Shape := ⟨2, ![1000, 256]⟩
abbrev S850000x256 : Shape := ⟨2, ![850000, 256]⟩
abbrev S1x256 : Shape := ⟨2, ![1, 256]⟩
abbrev S256 : Shape := ⟨1, ![256]⟩
abbrev S1x256x256 : Shape := ⟨3, ![1, 256, 256]⟩
abbrev S1x512x256 : Shape := ⟨3, ![1, 512, 256]⟩
abbrev S1x2 : Shape := ⟨2, ![1, 2]⟩
abbrev S50000x2 : Shape := ⟨2, ![50000, 2]⟩
abbrev S1000x2 : Shape := ⟨2, ![1000, 2]⟩
abbrev S1000 : Shape := ⟨1, ![1000]⟩
abbrev S1000x1 : Shape := ⟨2, ![1000, 1]⟩
abbrev S1x256x2 : Shape := ⟨3, ![1, 256, 2]⟩
abbrev S1x50000x2 : Shape := ⟨3, ![1, 50000, 2]⟩
abbrev S4x50000x2 : Shape := ⟨3, ![4, 50000, 2]⟩

abbrev nBuf : Space → Nat
  | .hbm => 383
  | .vmem => 186
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S2x256x256, .f32⟩
  | 4 => ⟨S3x256, .f32⟩
  | 5 => ⟨S3x256, .f32⟩
  | 6 => ⟨S3x256, .f32⟩
  | 7 => ⟨S256x256, .f32⟩
  | 8 => ⟨S2x512x256, .f32⟩
  | 9 => ⟨S3x256, .f32⟩
  | 10 => ⟨S3x256, .f32⟩
  | 11 => ⟨S3x256, .f32⟩
  | 12 => ⟨S3x256x256, .f32⟩
  | 13 => ⟨S3x256, .f32⟩
  | 14 => ⟨S3x256, .f32⟩
  | 15 => ⟨S3x256, .f32⟩
  | 16 => ⟨S256x2, .f32⟩
  | 17 => ⟨S2, .f32⟩
  | 18 => ⟨S3x256x2, .f32⟩
  | 19 => ⟨S3x2, .f32⟩
  | 20 => ⟨S50000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S50000x256, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x256, .f32⟩
  | 70 => ⟨S850000x1, .f32⟩
  | 71 => ⟨S850000x256, .f32⟩
  | 72 => ⟨S850000x256, .f32⟩
  | 73 => ⟨S_, .f32⟩
  | 74 => ⟨S50000x256, .f32⟩
  | 75 => ⟨S850000x1, .i32⟩
  | 76 => ⟨S50000x256, .f32⟩
  | 77 => ⟨S1x256, .f32⟩
  | 78 => ⟨S256, .f32⟩
  | 79 => ⟨S1x256, .f32⟩
  | 80 => ⟨S256, .f32⟩
  | 81 => ⟨S1x256, .f32⟩
  | 82 => ⟨S256, .f32⟩
  | 83 => ⟨S1x256, .f32⟩
  | 84 => ⟨S1x256, .f32⟩
  | 85 => ⟨S256, .f32⟩
  | 86 => ⟨S_, .f32⟩
  | 87 => ⟨S256, .f32⟩
  | 88 => ⟨S256, .f32⟩
  | 89 => ⟨S256, .f32⟩
  | 90 => ⟨S256, .f32⟩
  | 91 => ⟨S_, .f32⟩
  | 92 => ⟨S256, .f32⟩
  | 93 => ⟨S256, .f32⟩
  | 94 => ⟨S256, .f32⟩
  | 95 => ⟨S256, .f32⟩
  | 96 => ⟨S1x256, .f32⟩
  | 97 => ⟨S1x256, .f32⟩
  | 98 => ⟨S1x256, .f32⟩
  | 99 => ⟨S1x256, .f32⟩
  | 100 => ⟨S1x256, .f32⟩
  | 101 => ⟨S50000x256, .f32⟩
  | 102 => ⟨S1x256x256, .f32⟩
  | 103 => ⟨S256x256, .f32⟩
  | 104 => ⟨S50000x256, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x256, .f32⟩
  | 114 => ⟨S850000x1, .f32⟩
  | 115 => ⟨S850000x256, .f32⟩
  | 116 => ⟨S850000x256, .f32⟩
  | 117 => ⟨S_, .f32⟩
  | 118 => ⟨S50000x256, .f32⟩
  | 119 => ⟨S850000x1, .i32⟩
  | 120 => ⟨S50000x256, .f32⟩
  | 121 => ⟨S1x256, .f32⟩
  | 122 => ⟨S256, .f32⟩
  | 123 => ⟨S1x256, .f32⟩
  | 124 => ⟨S256, .f32⟩
  | 125 => ⟨S1x256, .f32⟩
  | 126 => ⟨S256, .f32⟩
  | 127 => ⟨S1x256, .f32⟩
  | _ => ⟨S50000x512, .f32⟩

abbrev hbmTy0_1 (i : Nat) : BufTy := match i % 128 with
  | 0 => ⟨S1x256, .f32⟩
  | 1 => ⟨S256, .f32⟩
  | 2 => ⟨S_, .f32⟩
  | 3 => ⟨S256, .f32⟩
  | 4 => ⟨S256, .f32⟩
  | 5 => ⟨S256, .f32⟩
  | 6 => ⟨S256, .f32⟩
  | 7 => ⟨S_, .f32⟩
  | 8 => ⟨S256, .f32⟩
  | 9 => ⟨S256, .f32⟩
  | 10 => ⟨S256, .f32⟩
  | 11 => ⟨S256, .f32⟩
  | 12 => ⟨S1x256, .f32⟩
  | 13 => ⟨S1x256, .f32⟩
  | 14 => ⟨S1x256, .f32⟩
  | 15 => ⟨S1x256, .f32⟩
  | 16 => ⟨S1x256, .f32⟩
  | 17 => ⟨S50000x256, .f32⟩
  | 18 => ⟨S1x256x256, .f32⟩
  | 19 => ⟨S256x256, .f32⟩
  | 20 => ⟨S50000x256, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x256, .f32⟩
  | 30 => ⟨S850000x1, .f32⟩
  | 31 => ⟨S850000x256, .f32⟩
  | 32 => ⟨S850000x256, .f32⟩
  | 33 => ⟨S_, .f32⟩
  | 34 => ⟨S50000x256, .f32⟩
  | 35 => ⟨S850000x1, .i32⟩
  | 36 => ⟨S50000x256, .f32⟩
  | 37 => ⟨S1x256, .f32⟩
  | 38 => ⟨S256, .f32⟩
  | 39 => ⟨S1x256, .f32⟩
  | 40 => ⟨S256, .f32⟩
  | 41 => ⟨S1x256, .f32⟩
  | 42 => ⟨S256, .f32⟩
  | 43 => ⟨S1x256, .f32⟩
  | 44 => ⟨S1x256, .f32⟩
  | 45 => ⟨S256, .f32⟩
  | 46 => ⟨S_, .f32⟩
  | 47 => ⟨S256, .f32⟩
  | 48 => ⟨S256, .f32⟩
  | 49 => ⟨S256, .f32⟩
  | 50 => ⟨S256, .f32⟩
  | 51 => ⟨S_, .f32⟩
  | 52 => ⟨S256, .f32⟩
  | 53 => ⟨S256, .f32⟩
  | 54 => ⟨S256, .f32⟩
  | 55 => ⟨S256, .f32⟩
  | 56 => ⟨S1x256, .f32⟩
  | 57 => ⟨S1x256, .f32⟩
  | 58 => ⟨S1x256, .f32⟩
  | 59 => ⟨S1x256, .f32⟩
  | 60 => ⟨S1x256, .f32⟩
  | 61 => ⟨S50000x256, .f32⟩
  | 62 => ⟨S50000x256, .f32⟩
  | 63 => ⟨S1x256, .f32⟩
  | 64 => ⟨S256, .f32⟩
  | 65 => ⟨S1x256, .f32⟩
  | 66 => ⟨S256, .f32⟩
  | 67 => ⟨S1x256, .f32⟩
  | 68 => ⟨S256, .f32⟩
  | 69 => ⟨S1x256, .f32⟩
  | 70 => ⟨S1x256, .f32⟩
  | 71 => ⟨S256, .f32⟩
  | 72 => ⟨S_, .f32⟩
  | 73 => ⟨S256, .f32⟩
  | 74 => ⟨S256, .f32⟩
  | 75 => ⟨S256, .f32⟩
  | 76 => ⟨S256, .f32⟩
  | 77 => ⟨S_, .f32⟩
  | 78 => ⟨S256, .f32⟩
  | 79 => ⟨S256, .f32⟩
  | 80 => ⟨S256, .f32⟩
  | 81 => ⟨S256, .f32⟩
  | 82 => ⟨S1x256, .f32⟩
  | 83 => ⟨S1x256, .f32⟩
  | 84 => ⟨S1x256, .f32⟩
  | 85 => ⟨S1x256, .f32⟩
  | 86 => ⟨S1x256, .f32⟩
  | 87 => ⟨S50000x256, .f32⟩
  | 88 => ⟨S50000x512, .f32⟩
  | 89 => ⟨S1x512x256, .f32⟩
  | 90 => ⟨S512x256, .f32⟩
  | 91 => ⟨S50000x256, .f32⟩
  | 92 => ⟨S1x256, .f32⟩
  | 93 => ⟨S256, .f32⟩
  | 94 => ⟨S1x256, .f32⟩
  | 95 => ⟨S256, .f32⟩
  | 96 => ⟨S1x256, .f32⟩
  | 97 => ⟨S256, .f32⟩
  | 98 => ⟨S1x256, .f32⟩
  | 99 => ⟨S1x256, .f32⟩
  | 100 => ⟨S256, .f32⟩
  | 101 => ⟨S_, .f32⟩
  | 102 => ⟨S256, .f32⟩
  | 103 => ⟨S256, .f32⟩
  | 104 => ⟨S256, .f32⟩
  | 105 => ⟨S256, .f32⟩
  | 106 => ⟨S_, .f32⟩
  | 107 => ⟨S256, .f32⟩
  | 108 => ⟨S256, .f32⟩
  | 109 => ⟨S256, .f32⟩
  | 110 => ⟨S256, .f32⟩
  | 111 => ⟨S1x256, .f32⟩
  | 112 => ⟨S1x256, .f32⟩
  | 113 => ⟨S1x256, .f32⟩
  | 114 => ⟨S1x256, .f32⟩
  | 115 => ⟨S1x256, .f32⟩
  | 116 => ⟨S50000x256, .f32⟩
  | 117 => ⟨S50000x512, .f32⟩
  | 118 => ⟨S1x512x256, .f32⟩
  | 119 => ⟨S512x256, .f32⟩
  | 120 => ⟨S50000x256, .f32⟩
  | 121 => ⟨S1x256, .f32⟩
  | 122 => ⟨S256, .f32⟩
  | 123 => ⟨S1x256, .f32⟩
  | 124 => ⟨S256, .f32⟩
  | 125 => ⟨S1x256, .f32⟩
  | 126 => ⟨S256, .f32⟩
  | 127 => ⟨S1x256, .f32⟩
  | _ => ⟨S50000x512, .f32⟩

abbrev hbmTy0_2 (i : Nat) : BufTy := match i % 128 with
  | 0 => ⟨S1x256, .f32⟩
  | 1 => ⟨S256, .f32⟩
  | 2 => ⟨S_, .f32⟩
  | 3 => ⟨S256, .f32⟩
  | 4 => ⟨S256, .f32⟩
  | 5 => ⟨S256, .f32⟩
  | 6 => ⟨S256, .f32⟩
  | 7 => ⟨S_, .f32⟩
  | 8 => ⟨S256, .f32⟩
  | 9 => ⟨S256, .f32⟩
  | 10 => ⟨S256, .f32⟩
  | 11 => ⟨S256, .f32⟩
  | 12 => ⟨S1x256, .f32⟩
  | 13 => ⟨S1x256, .f32⟩
  | 14 => ⟨S1x256, .f32⟩
  | 15 => ⟨S1x256, .f32⟩
  | 16 => ⟨S1x256, .f32⟩
  | 17 => ⟨S50000x256, .f32⟩
  | 18 => ⟨S1x2, .f32⟩
  | 19 => ⟨S50000x2, .f32⟩
  | 20 => ⟨S1x256x256, .f32⟩
  | 21 => ⟨S256x256, .f32⟩
  | 22 => ⟨S50000x256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S256, .f32⟩
  | 29 => ⟨S1x256, .f32⟩
  | 30 => ⟨S1x256, .f32⟩
  | 31 => ⟨S256, .f32⟩
  | 32 => ⟨S_, .f32⟩
  | 33 => ⟨S256, .f32⟩
  | 34 => ⟨S256, .f32⟩
  | 35 => ⟨S256, .f32⟩
  | 36 => ⟨S256, .f32⟩
  | 37 => ⟨S_, .f32⟩
  | 38 => ⟨S256, .f32⟩
  | 39 => ⟨S256, .f32⟩
  | 40 => ⟨S256, .f32⟩
  | 41 => ⟨S256, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S50000x256, .f32⟩
  | 48 => ⟨S1x256x2, .f32⟩
  | 49 => ⟨S256x2, .f32⟩
  | 50 => ⟨S1x2, .f32⟩
  | 51 => ⟨S2, .f32⟩
  | 52 => ⟨S1x2, .f32⟩
  | 53 => ⟨S50000x2, .f32⟩
  | 54 => ⟨S1x256x256, .f32⟩
  | 55 => ⟨S256x256, .f32⟩
  | 56 => ⟨S50000x256, .f32⟩
  | 57 => ⟨S1x256, .f32⟩
  | 58 => ⟨S256, .f32⟩
  | 59 => ⟨S1x256, .f32⟩
  | 60 => ⟨S256, .f32⟩
  | 61 => ⟨S1x256, .f32⟩
  | 62 => ⟨S256, .f32⟩
  | 63 => ⟨S1x256, .f32⟩
  | 64 => ⟨S1x256, .f32⟩
  | 65 => ⟨S256, .f32⟩
  | 66 => ⟨S_, .f32⟩
  | 67 => ⟨S256, .f32⟩
  | 68 => ⟨S256, .f32⟩
  | 69 => ⟨S256, .f32⟩
  | 70 => ⟨S256, .f32⟩
  | 71 => ⟨S_, .f32⟩
  | 72 => ⟨S256, .f32⟩
  | 73 => ⟨S256, .f32⟩
  | 74 => ⟨S256, .f32⟩
  | 75 => ⟨S256, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S50000x256, .f32⟩
  | 82 => ⟨S1x256x2, .f32⟩
  | 83 => ⟨S256x2, .f32⟩
  | 84 => ⟨S1x2, .f32⟩
  | 85 => ⟨S2, .f32⟩
  | 86 => ⟨S1x2, .f32⟩
  | 87 => ⟨S50000x2, .f32⟩
  | 88 => ⟨S1x256x256, .f32⟩
  | 89 => ⟨S256x256, .f32⟩
  | 90 => ⟨S50000x256, .f32⟩
  | 91 => ⟨S1x256, .f32⟩
  | 92 => ⟨S256, .f32⟩
  | 93 => ⟨S1x256, .f32⟩
  | 94 => ⟨S256, .f32⟩
  | 95 => ⟨S1x256, .f32⟩
  | 96 => ⟨S256, .f32⟩
  | 97 => ⟨S1x256, .f32⟩
  | 98 => ⟨S1x256, .f32⟩
  | 99 => ⟨S256, .f32⟩
  | 100 => ⟨S_, .f32⟩
  | 101 => ⟨S256, .f32⟩
  | 102 => ⟨S256, .f32⟩
  | 103 => ⟨S256, .f32⟩
  | 104 => ⟨S256, .f32⟩
  | 105 => ⟨S_, .f32⟩
  | 106 => ⟨S256, .f32⟩
  | 107 => ⟨S256, .f32⟩
  | 108 => ⟨S256, .f32⟩
  | 109 => ⟨S256, .f32⟩
  | 110 => ⟨S1x256, .f32⟩
  | 111 => ⟨S1x256, .f32⟩
  | 112 => ⟨S1x256, .f32⟩
  | 113 => ⟨S1x256, .f32⟩
  | 114 => ⟨S1x256, .f32⟩
  | 115 => ⟨S50000x256, .f32⟩
  | 116 => ⟨S1x256x2, .f32⟩
  | 117 => ⟨S256x2, .f32⟩
  | 118 => ⟨S1x2, .f32⟩
  | 119 => ⟨S2, .f32⟩
  | 120 => ⟨S1x2, .f32⟩
  | 121 => ⟨S50000x2, .f32⟩
  | 122 => ⟨S1x50000x2, .f32⟩
  | 123 => ⟨S1x50000x2, .f32⟩
  | 124 => ⟨S1x50000x2, .f32⟩
  | 125 => ⟨S1x50000x2, .f32⟩
  | 126 => ⟨S4x50000x2, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev vmemTy0_0 (i : Nat) : BufTy := match i % 128 with
  | 0 => ⟨S1000x512, .f32⟩
  | 1 => ⟨S1000x512, .f32⟩
  | 2 => ⟨S512x256, .f32⟩
  | 3 => ⟨S1000x256, .f32⟩
  | 4 => ⟨S1000x256, .f32⟩
  | 5 => ⟨S1000x256, .f32⟩
  | 6 => ⟨S1000x256, .f32⟩
  | 7 => ⟨S1x256, .f32⟩
  | 8 => ⟨S1x256, .f32⟩
  | 9 => ⟨S1000x256, .f32⟩
  | 10 => ⟨S1000x256, .f32⟩
  | 11 => ⟨S1x256, .f32⟩
  | 12 => ⟨S1x256, .f32⟩
  | 13 => ⟨S1x256, .f32⟩
  | 14 => ⟨S1x256, .f32⟩
  | 15 => ⟨S1x256, .f32⟩
  | 16 => ⟨S1000x256, .f32⟩
  | 17 => ⟨S1000x256, .f32⟩
  | 18 => ⟨S1000x256, .f32⟩
  | 19 => ⟨S1000x256, .f32⟩
  | 20 => ⟨S256x256, .f32⟩
  | 21 => ⟨S1000x256, .f32⟩
  | 22 => ⟨S1000x256, .f32⟩
  | 23 => ⟨S1000x256, .f32⟩
  | 24 => ⟨S1000x256, .f32⟩
  | 25 => ⟨S1x256, .f32⟩
  | 26 => ⟨S1x256, .f32⟩
  | 27 => ⟨S1000x256, .f32⟩
  | 28 => ⟨S1000x256, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1000x256, .f32⟩
  | 35 => ⟨S1000x256, .f32⟩
  | 36 => ⟨S1000x256, .f32⟩
  | 37 => ⟨S1000x256, .f32⟩
  | 38 => ⟨S256x256, .f32⟩
  | 39 => ⟨S1000x256, .f32⟩
  | 40 => ⟨S1000x256, .f32⟩
  | 41 => ⟨S1000x256, .f32⟩
  | 42 => ⟨S1000x256, .f32⟩
  | 43 => ⟨S1x256, .f32⟩
  | 44 => ⟨S1x256, .f32⟩
  | 45 => ⟨S1000x256, .f32⟩
  | 46 => ⟨S1000x256, .f32⟩
  | 47 => ⟨S1x256, .f32⟩
  | 48 => ⟨S1x256, .f32⟩
  | 49 => ⟨S1x256, .f32⟩
  | 50 => ⟨S1x256, .f32⟩
  | 51 => ⟨S1x256, .f32⟩
  | 52 => ⟨S1000x256, .f32⟩
  | 53 => ⟨S1000x256, .f32⟩
  | 54 => ⟨S1000x256, .f32⟩
  | 55 => ⟨S1000x256, .f32⟩
  | 56 => ⟨S256x256, .f32⟩
  | 57 => ⟨S1000x256, .f32⟩
  | 58 => ⟨S1000x256, .f32⟩
  | 59 => ⟨S1000x256, .f32⟩
  | 60 => ⟨S1000x256, .f32⟩
  | 61 => ⟨S1x256, .f32⟩
  | 62 => ⟨S1x256, .f32⟩
  | 63 => ⟨S1000x256, .f32⟩
  | 64 => ⟨S1000x256, .f32⟩
  | 65 => ⟨S1x256, .f32⟩
  | 66 => ⟨S1x256, .f32⟩
  | 67 => ⟨S1x256, .f32⟩
  | 68 => ⟨S1x256, .f32⟩
  | 69 => ⟨S1x256, .f32⟩
  | 70 => ⟨S1000x256, .f32⟩
  | 71 => ⟨S1000x256, .f32⟩
  | 72 => ⟨S1000x512, .f32⟩
  | 73 => ⟨S1000x512, .f32⟩
  | 74 => ⟨S512x256, .f32⟩
  | 75 => ⟨S1000x256, .f32⟩
  | 76 => ⟨S1000x256, .f32⟩
  | 77 => ⟨S1000x256, .f32⟩
  | 78 => ⟨S1000x256, .f32⟩
  | 79 => ⟨S1x256, .f32⟩
  | 80 => ⟨S1x256, .f32⟩
  | 81 => ⟨S1000x256, .f32⟩
  | 82 => ⟨S1000x256, .f32⟩
  | 83 => ⟨S1x256, .f32⟩
  | 84 => ⟨S1x256, .f32⟩
  | 85 => ⟨S1x256, .f32⟩
  | 86 => ⟨S1x256, .f32⟩
  | 87 => ⟨S1x256, .f32⟩
  | 88 => ⟨S1000x256, .f32⟩
  | 89 => ⟨S1000x256, .f32⟩
  | 90 => ⟨S1000x512, .f32⟩
  | 91 => ⟨S1000x512, .f32⟩
  | 92 => ⟨S512x256, .f32⟩
  | 93 => ⟨S1000x256, .f32⟩
  | 94 => ⟨S1000x256, .f32⟩
  | 95 => ⟨S1000x256, .f32⟩
  | 96 => ⟨S1000x256, .f32⟩
  | 97 => ⟨S1x256, .f32⟩
  | 98 => ⟨S1x256, .f32⟩
  | 99 => ⟨S1000x256, .f32⟩
  | 100 => ⟨S1000x256, .f32⟩
  | 101 => ⟨S1x256, .f32⟩
  | 102 => ⟨S1x256, .f32⟩
  | 103 => ⟨S1x256, .f32⟩
  | 104 => ⟨S1x256, .f32⟩
  | 105 => ⟨S1x256, .f32⟩
  | 106 => ⟨S1000x256, .f32⟩
  | 107 => ⟨S1000x256, .f32⟩
  | 108 => ⟨S1000x256, .f32⟩
  | 109 => ⟨S1000x256, .f32⟩
  | 110 => ⟨S256x2, .f32⟩
  | 111 => ⟨S1x2, .f32⟩
  | 112 => ⟨S1000x2, .f32⟩
  | 113 => ⟨S1000x2, .f32⟩
  | 114 => ⟨S1000x256, .f32⟩
  | 115 => ⟨S1000x256, .f32⟩
  | 116 => ⟨S256x256, .f32⟩
  | 117 => ⟨S1000x256, .f32⟩
  | 118 => ⟨S1000x256, .f32⟩
  | 119 => ⟨S1000x256, .f32⟩
  | 120 => ⟨S1000x256, .f32⟩
  | 121 => ⟨S1x256, .f32⟩
  | 122 => ⟨S1x256, .f32⟩
  | 123 => ⟨S1000x256, .f32⟩
  | 124 => ⟨S1000x256, .f32⟩
  | 125 => ⟨S1x256, .f32⟩
  | 126 => ⟨S1x256, .f32⟩
  | 127 => ⟨S1x256, .f32⟩
  | _ => ⟨S50000x512, .f32⟩

abbrev vmemTy0_1 (i : Nat) : BufTy := match i % 128 with
  | 0 => ⟨S1x256, .f32⟩
  | 1 => ⟨S1x256, .f32⟩
  | 2 => ⟨S1000x256, .f32⟩
  | 3 => ⟨S1000x256, .f32⟩
  | 4 => ⟨S1000x256, .f32⟩
  | 5 => ⟨S1000x256, .f32⟩
  | 6 => ⟨S256x2, .f32⟩
  | 7 => ⟨S1x2, .f32⟩
  | 8 => ⟨S1000x2, .f32⟩
  | 9 => ⟨S1000x2, .f32⟩
  | 10 => ⟨S1000x256, .f32⟩
  | 11 => ⟨S1000x256, .f32⟩
  | 12 => ⟨S256x256, .f32⟩
  | 13 => ⟨S1000x256, .f32⟩
  | 14 => ⟨S1000x256, .f32⟩
  | 15 => ⟨S1000x256, .f32⟩
  | 16 => ⟨S1000x256, .f32⟩
  | 17 => ⟨S1x256, .f32⟩
  | 18 => ⟨S1x256, .f32⟩
  | 19 => ⟨S1000x256, .f32⟩
  | 20 => ⟨S1000x256, .f32⟩
  | 21 => ⟨S1x256, .f32⟩
  | 22 => ⟨S1x256, .f32⟩
  | 23 => ⟨S1x256, .f32⟩
  | 24 => ⟨S1x256, .f32⟩
  | 25 => ⟨S1x256, .f32⟩
  | 26 => ⟨S1000x256, .f32⟩
  | 27 => ⟨S1000x256, .f32⟩
  | 28 => ⟨S1000x256, .f32⟩
  | 29 => ⟨S1000x256, .f32⟩
  | 30 => ⟨S256x2, .f32⟩
  | 31 => ⟨S1x2, .f32⟩
  | 32 => ⟨S1000x2, .f32⟩
  | 33 => ⟨S1000x2, .f32⟩
  | 34 => ⟨S1000x256, .f32⟩
  | 35 => ⟨S1000x256, .f32⟩
  | 36 => ⟨S256x256, .f32⟩
  | 37 => ⟨S1000x256, .f32⟩
  | 38 => ⟨S1000x256, .f32⟩
  | 39 => ⟨S1000x256, .f32⟩
  | 40 => ⟨S1000x256, .f32⟩
  | 41 => ⟨S1x256, .f32⟩
  | 42 => ⟨S1x256, .f32⟩
  | 43 => ⟨S1000x256, .f32⟩
  | 44 => ⟨S1000x256, .f32⟩
  | 45 => ⟨S1x256, .f32⟩
  | 46 => ⟨S1x256, .f32⟩
  | 47 => ⟨S1x256, .f32⟩
  | 48 => ⟨S1x256, .f32⟩
  | 49 => ⟨S1x256, .f32⟩
  | 50 => ⟨S1000x256, .f32⟩
  | 51 => ⟨S1000x256, .f32⟩
  | 52 => ⟨S1000x256, .f32⟩
  | 53 => ⟨S1000x256, .f32⟩
  | 54 => ⟨S256x2, .f32⟩
  | 55 => ⟨S1x2, .f32⟩
  | 56 => ⟨S1000x2, .f32⟩
  | 57 => ⟨S1000x2, .f32⟩
  | _ => ⟨S50000x512, .f32⟩

abbrev vmemTy (i : Nat) : BufTy := match i / 128 with
  | 0 => vmemTy0_0 i
  | 1 => vmemTy0_1 i
  | _ => ⟨S50000x512, .f32⟩

abbrev bufTy : (tb : Table) → Fin (tcTables nBuf tb) → BufTy
  | .hbm, ⟨i, _⟩ => hbmTy i
  | .local _ .vmem, ⟨i, _⟩ => vmemTy i
  | _, _ => ⟨S50000x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 186 → Bool
  | ⟨i, _⟩ => dmaSemScopedAt i

abbrev sig : RefSig :=
  ofTc nBuf bufTy 0 186 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50_0 : Ref sig .tc := ⟨.hbm, 83, rfl⟩
abbrev main_v50_1 : Ref sig .tc := ⟨.hbm, 84, rfl⟩
abbrev main_v51 : Ref sig .tc := ⟨.hbm, 85, rfl⟩
abbrev main_cst_9 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_11 : Ref sig .tc := ⟨.hbm, 105, rfl⟩
abbrev main_v69 : Ref sig .tc := ⟨.hbm, 106, rfl⟩
abbrev main_v70 : Ref sig .tc := ⟨.hbm, 107, rfl⟩
abbrev main_c_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_13 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88_0 : Ref sig .tc := ⟨.hbm, 127, rfl⟩
abbrev main_v88_1 : Ref sig .tc := ⟨.hbm, 128, rfl⟩
abbrev main_v89 : Ref sig .tc := ⟨.hbm, 129, rfl⟩
abbrev main_cst_14 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_15 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_16 : Ref sig .tc := ⟨.hbm, 149, rfl⟩
abbrev main_v107 : Ref sig .tc := ⟨.hbm, 150, rfl⟩
abbrev main_v108 : Ref sig .tc := ⟨.hbm, 151, rfl⟩
abbrev main_c_17 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_18 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126_0 : Ref sig .tc := ⟨.hbm, 171, rfl⟩
abbrev main_v126_1 : Ref sig .tc := ⟨.hbm, 172, rfl⟩
abbrev main_v127 : Ref sig .tc := ⟨.hbm, 173, rfl⟩
abbrev main_cst_19 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_20 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149_0 : Ref sig .tc := ⟨.hbm, 197, rfl⟩
abbrev main_v149_1 : Ref sig .tc := ⟨.hbm, 198, rfl⟩
abbrev main_v150 : Ref sig .tc := ⟨.hbm, 199, rfl⟩
abbrev main_cst_21 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_22 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175_0 : Ref sig .tc := ⟨.hbm, 226, rfl⟩
abbrev main_v175_1 : Ref sig .tc := ⟨.hbm, 227, rfl⟩
abbrev main_v176 : Ref sig .tc := ⟨.hbm, 228, rfl⟩
abbrev main_cst_23 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_24 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201_0 : Ref sig .tc := ⟨.hbm, 255, rfl⟩
abbrev main_v201_1 : Ref sig .tc := ⟨.hbm, 256, rfl⟩
abbrev main_v202 : Ref sig .tc := ⟨.hbm, 257, rfl⟩
abbrev main_cst_25 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_cst_26 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228_0 : Ref sig .tc := ⟨.hbm, 285, rfl⟩
abbrev main_v228_1 : Ref sig .tc := ⟨.hbm, 286, rfl⟩
abbrev main_v229 : Ref sig .tc := ⟨.hbm, 287, rfl⟩
abbrev main_cst_27 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_cst_28 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259_0 : Ref sig .tc := ⟨.hbm, 319, rfl⟩
abbrev main_v259_1 : Ref sig .tc := ⟨.hbm, 320, rfl⟩
abbrev main_v260 : Ref sig .tc := ⟨.hbm, 321, rfl⟩
abbrev main_cst_29 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_cst_30 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290_0 : Ref sig .tc := ⟨.hbm, 353, rfl⟩
abbrev main_v290_1 : Ref sig .tc := ⟨.hbm, 354, rfl⟩
abbrev main_v291 : Ref sig .tc := ⟨.hbm, 355, rfl⟩
abbrev main_cst_31 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_cst_32 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg6_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc5_stg6_0 : Ref sig .tc := ⟨.vmem, 34, rfl⟩
abbrev cc5_stg6_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg4_0 : Ref sig .tc := ⟨.vmem, 50, rfl⟩
abbrev cc8_stg5_0 : Ref sig .tc := ⟨.vmem, 51, rfl⟩
abbrev cc8_stg6_0 : Ref sig .tc := ⟨.vmem, 52, rfl⟩
abbrev cc8_stg6_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg2_0 : Ref sig .tc := ⟨.vmem, 62, rfl⟩
abbrev cc11_stg0_0 : Ref sig .tc := ⟨.vmem, 63, rfl⟩
abbrev cc11_stg0_1 : Ref sig .tc := ⟨.vmem, 64, rfl⟩
abbrev cc11_stg1_0 : Ref sig .tc := ⟨.vmem, 65, rfl⟩
abbrev cc11_stg2_0 : Ref sig .tc := ⟨.vmem, 66, rfl⟩
abbrev cc11_stg3_0 : Ref sig .tc := ⟨.vmem, 67, rfl⟩
abbrev cc11_stg4_0 : Ref sig .tc := ⟨.vmem, 68, rfl⟩
abbrev cc11_stg5_0 : Ref sig .tc := ⟨.vmem, 69, rfl⟩
abbrev cc11_stg6_0 : Ref sig .tc := ⟨.vmem, 70, rfl⟩
abbrev cc11_stg6_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg2_1 : Ref sig .tc := ⟨.vmem, 76, rfl⟩
abbrev cc13_stg0_0 : Ref sig .tc := ⟨.vmem, 77, rfl⟩
abbrev cc13_stg0_1 : Ref sig .tc := ⟨.vmem, 78, rfl⟩
abbrev cc13_stg1_0 : Ref sig .tc := ⟨.vmem, 79, rfl⟩
abbrev cc13_stg2_0 : Ref sig .tc := ⟨.vmem, 80, rfl⟩
abbrev cc14_stg0_0 : Ref sig .tc := ⟨.vmem, 81, rfl⟩
abbrev cc14_stg0_1 : Ref sig .tc := ⟨.vmem, 82, rfl⟩
abbrev cc14_stg1_0 : Ref sig .tc := ⟨.vmem, 83, rfl⟩
abbrev cc14_stg2_0 : Ref sig .tc := ⟨.vmem, 84, rfl⟩
abbrev cc14_stg3_0 : Ref sig .tc := ⟨.vmem, 85, rfl⟩
abbrev cc14_stg4_0 : Ref sig .tc := ⟨.vmem, 86, rfl⟩
abbrev cc14_stg5_0 : Ref sig .tc := ⟨.vmem, 87, rfl⟩
abbrev cc14_stg6_0 : Ref sig .tc := ⟨.vmem, 88, rfl⟩
abbrev cc14_stg6_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg2_0 : Ref sig .tc := ⟨.vmem, 93, rfl⟩
abbrev cc15_stg2_1 : Ref sig .tc := ⟨.vmem, 94, rfl⟩
abbrev cc16_stg0_0 : Ref sig .tc := ⟨.vmem, 95, rfl⟩
abbrev cc16_stg0_1 : Ref sig .tc := ⟨.vmem, 96, rfl⟩
abbrev cc16_stg1_0 : Ref sig .tc := ⟨.vmem, 97, rfl⟩
abbrev cc16_stg2_0 : Ref sig .tc := ⟨.vmem, 98, rfl⟩
abbrev cc17_stg0_0 : Ref sig .tc := ⟨.vmem, 99, rfl⟩
abbrev cc17_stg0_1 : Ref sig .tc := ⟨.vmem, 100, rfl⟩
abbrev cc17_stg1_0 : Ref sig .tc := ⟨.vmem, 101, rfl⟩
abbrev cc17_stg2_0 : Ref sig .tc := ⟨.vmem, 102, rfl⟩
abbrev cc17_stg3_0 : Ref sig .tc := ⟨.vmem, 103, rfl⟩
abbrev cc17_stg4_0 : Ref sig .tc := ⟨.vmem, 104, rfl⟩
abbrev cc17_stg5_0 : Ref sig .tc := ⟨.vmem, 105, rfl⟩
abbrev cc17_stg6_0 : Ref sig .tc := ⟨.vmem, 106, rfl⟩
abbrev cc17_stg6_1 : Ref sig .tc := ⟨.vmem, 107, rfl⟩
abbrev cc18_stg0_0 : Ref sig .tc := ⟨.vmem, 108, rfl⟩
abbrev cc18_stg0_1 : Ref sig .tc := ⟨.vmem, 109, rfl⟩
abbrev cc18_stg1_0 : Ref sig .tc := ⟨.vmem, 110, rfl⟩
abbrev cc18_stg2_0 : Ref sig .tc := ⟨.vmem, 111, rfl⟩
abbrev cc18_stg3_0 : Ref sig .tc := ⟨.vmem, 112, rfl⟩
abbrev cc18_stg3_1 : Ref sig .tc := ⟨.vmem, 113, rfl⟩
abbrev cc19_stg0_0 : Ref sig .tc := ⟨.vmem, 114, rfl⟩
abbrev cc19_stg0_1 : Ref sig .tc := ⟨.vmem, 115, rfl⟩
abbrev cc19_stg1_0 : Ref sig .tc := ⟨.vmem, 116, rfl⟩
abbrev cc19_stg2_0 : Ref sig .tc := ⟨.vmem, 117, rfl⟩
abbrev cc19_stg2_1 : Ref sig .tc := ⟨.vmem, 118, rfl⟩
abbrev cc20_stg0_0 : Ref sig .tc := ⟨.vmem, 119, rfl⟩
abbrev cc20_stg0_1 : Ref sig .tc := ⟨.vmem, 120, rfl⟩
abbrev cc20_stg1_0 : Ref sig .tc := ⟨.vmem, 121, rfl⟩
abbrev cc20_stg2_0 : Ref sig .tc := ⟨.vmem, 122, rfl⟩
abbrev cc21_stg0_0 : Ref sig .tc := ⟨.vmem, 123, rfl⟩
abbrev cc21_stg0_1 : Ref sig .tc := ⟨.vmem, 124, rfl⟩
abbrev cc21_stg1_0 : Ref sig .tc := ⟨.vmem, 125, rfl⟩
abbrev cc21_stg2_0 : Ref sig .tc := ⟨.vmem, 126, rfl⟩
abbrev cc21_stg3_0 : Ref sig .tc := ⟨.vmem, 127, rfl⟩
abbrev cc21_stg4_0 : Ref sig .tc := ⟨.vmem, 128, rfl⟩
abbrev cc21_stg5_0 : Ref sig .tc := ⟨.vmem, 129, rfl⟩
abbrev cc21_stg6_0 : Ref sig .tc := ⟨.vmem, 130, rfl⟩
abbrev cc21_stg6_1 : Ref sig .tc := ⟨.vmem, 131, rfl⟩
abbrev cc22_stg0_0 : Ref sig .tc := ⟨.vmem, 132, rfl⟩
abbrev cc22_stg0_1 : Ref sig .tc := ⟨.vmem, 133, rfl⟩
abbrev cc22_stg1_0 : Ref sig .tc := ⟨.vmem, 134, rfl⟩
abbrev cc22_stg2_0 : Ref sig .tc := ⟨.vmem, 135, rfl⟩
abbrev cc22_stg3_0 : Ref sig .tc := ⟨.vmem, 136, rfl⟩
abbrev cc22_stg3_1 : Ref sig .tc := ⟨.vmem, 137, rfl⟩
abbrev cc23_stg0_0 : Ref sig .tc := ⟨.vmem, 138, rfl⟩
abbrev cc23_stg0_1 : Ref sig .tc := ⟨.vmem, 139, rfl⟩
abbrev cc23_stg1_0 : Ref sig .tc := ⟨.vmem, 140, rfl⟩
abbrev cc23_stg2_0 : Ref sig .tc := ⟨.vmem, 141, rfl⟩
abbrev cc23_stg2_1 : Ref sig .tc := ⟨.vmem, 142, rfl⟩
abbrev cc24_stg0_0 : Ref sig .tc := ⟨.vmem, 143, rfl⟩
abbrev cc24_stg0_1 : Ref sig .tc := ⟨.vmem, 144, rfl⟩
abbrev cc24_stg1_0 : Ref sig .tc := ⟨.vmem, 145, rfl⟩
abbrev cc24_stg2_0 : Ref sig .tc := ⟨.vmem, 146, rfl⟩
abbrev cc25_stg0_0 : Ref sig .tc := ⟨.vmem, 147, rfl⟩
abbrev cc25_stg0_1 : Ref sig .tc := ⟨.vmem, 148, rfl⟩
abbrev cc25_stg1_0 : Ref sig .tc := ⟨.vmem, 149, rfl⟩
abbrev cc25_stg2_0 : Ref sig .tc := ⟨.vmem, 150, rfl⟩
abbrev cc25_stg3_0 : Ref sig .tc := ⟨.vmem, 151, rfl⟩
abbrev cc25_stg4_0 : Ref sig .tc := ⟨.vmem, 152, rfl⟩
abbrev cc25_stg5_0 : Ref sig .tc := ⟨.vmem, 153, rfl⟩
abbrev cc25_stg6_0 : Ref sig .tc := ⟨.vmem, 154, rfl⟩
abbrev cc25_stg6_1 : Ref sig .tc := ⟨.vmem, 155, rfl⟩
abbrev cc26_stg0_0 : Ref sig .tc := ⟨.vmem, 156, rfl⟩
abbrev cc26_stg0_1 : Ref sig .tc := ⟨.vmem, 157, rfl⟩
abbrev cc26_stg1_0 : Ref sig .tc := ⟨.vmem, 158, rfl⟩
abbrev cc26_stg2_0 : Ref sig .tc := ⟨.vmem, 159, rfl⟩
abbrev cc26_stg3_0 : Ref sig .tc := ⟨.vmem, 160, rfl⟩
abbrev cc26_stg3_1 : Ref sig .tc := ⟨.vmem, 161, rfl⟩
abbrev cc27_stg0_0 : Ref sig .tc := ⟨.vmem, 162, rfl⟩
abbrev cc27_stg0_1 : Ref sig .tc := ⟨.vmem, 163, rfl⟩
abbrev cc27_stg1_0 : Ref sig .tc := ⟨.vmem, 164, rfl⟩
abbrev cc27_stg2_0 : Ref sig .tc := ⟨.vmem, 165, rfl⟩
abbrev cc27_stg2_1 : Ref sig .tc := ⟨.vmem, 166, rfl⟩
abbrev cc28_stg0_0 : Ref sig .tc := ⟨.vmem, 167, rfl⟩
abbrev cc28_stg0_1 : Ref sig .tc := ⟨.vmem, 168, rfl⟩
abbrev cc28_stg1_0 : Ref sig .tc := ⟨.vmem, 169, rfl⟩
abbrev cc28_stg2_0 : Ref sig .tc := ⟨.vmem, 170, rfl⟩
abbrev cc29_stg0_0 : Ref sig .tc := ⟨.vmem, 171, rfl⟩
abbrev cc29_stg0_1 : Ref sig .tc := ⟨.vmem, 172, rfl⟩
abbrev cc29_stg1_0 : Ref sig .tc := ⟨.vmem, 173, rfl⟩
abbrev cc29_stg2_0 : Ref sig .tc := ⟨.vmem, 174, rfl⟩
abbrev cc29_stg3_0 : Ref sig .tc := ⟨.vmem, 175, rfl⟩
abbrev cc29_stg4_0 : Ref sig .tc := ⟨.vmem, 176, rfl⟩
abbrev cc29_stg5_0 : Ref sig .tc := ⟨.vmem, 177, rfl⟩
abbrev cc29_stg6_0 : Ref sig .tc := ⟨.vmem, 178, rfl⟩
abbrev cc29_stg6_1 : Ref sig .tc := ⟨.vmem, 179, rfl⟩
abbrev cc30_stg0_0 : Ref sig .tc := ⟨.vmem, 180, rfl⟩
abbrev cc30_stg0_1 : Ref sig .tc := ⟨.vmem, 181, rfl⟩
abbrev cc30_stg1_0 : Ref sig .tc := ⟨.vmem, 182, rfl⟩
abbrev cc30_stg2_0 : Ref sig .tc := ⟨.vmem, 183, rfl⟩
abbrev cc30_stg3_0 : Ref sig .tc := ⟨.vmem, 184, rfl⟩
abbrev cc30_stg3_1 : Ref sig .tc := ⟨.vmem, 185, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem6_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33
abbrev cc5_sem6_0 : DmaSem sig := 34
abbrev cc5_sem6_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem3_0 : DmaSem sig := 49
abbrev cc8_sem4_0 : DmaSem sig := 50
abbrev cc8_sem5_0 : DmaSem sig := 51
abbrev cc8_sem6_0 : DmaSem sig := 52
abbrev cc8_sem6_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc11_sem0_0 : DmaSem sig := 63
abbrev cc11_sem0_1 : DmaSem sig := 64
abbrev cc11_sem1_0 : DmaSem sig := 65
abbrev cc11_sem2_0 : DmaSem sig := 66
abbrev cc11_sem3_0 : DmaSem sig := 67
abbrev cc11_sem4_0 : DmaSem sig := 68
abbrev cc11_sem5_0 : DmaSem sig := 69
abbrev cc11_sem6_0 : DmaSem sig := 70
abbrev cc11_sem6_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem2_1 : DmaSem sig := 76
abbrev cc13_sem0_0 : DmaSem sig := 77
abbrev cc13_sem0_1 : DmaSem sig := 78
abbrev cc13_sem1_0 : DmaSem sig := 79
abbrev cc13_sem2_0 : DmaSem sig := 80
abbrev cc14_sem0_0 : DmaSem sig := 81
abbrev cc14_sem0_1 : DmaSem sig := 82
abbrev cc14_sem1_0 : DmaSem sig := 83
abbrev cc14_sem2_0 : DmaSem sig := 84
abbrev cc14_sem3_0 : DmaSem sig := 85
abbrev cc14_sem4_0 : DmaSem sig := 86
abbrev cc14_sem5_0 : DmaSem sig := 87
abbrev cc14_sem6_0 : DmaSem sig := 88
abbrev cc14_sem6_1 : DmaSem sig := 89
abbrev cc15_sem0_0 : DmaSem sig := 90
abbrev cc15_sem0_1 : DmaSem sig := 91
abbrev cc15_sem1_0 : DmaSem sig := 92
abbrev cc15_sem2_0 : DmaSem sig := 93
abbrev cc15_sem2_1 : DmaSem sig := 94
abbrev cc16_sem0_0 : DmaSem sig := 95
abbrev cc16_sem0_1 : DmaSem sig := 96
abbrev cc16_sem1_0 : DmaSem sig := 97
abbrev cc16_sem2_0 : DmaSem sig := 98
abbrev cc17_sem0_0 : DmaSem sig := 99
abbrev cc17_sem0_1 : DmaSem sig := 100
abbrev cc17_sem1_0 : DmaSem sig := 101
abbrev cc17_sem2_0 : DmaSem sig := 102
abbrev cc17_sem3_0 : DmaSem sig := 103
abbrev cc17_sem4_0 : DmaSem sig := 104
abbrev cc17_sem5_0 : DmaSem sig := 105
abbrev cc17_sem6_0 : DmaSem sig := 106
abbrev cc17_sem6_1 : DmaSem sig := 107
abbrev cc18_sem0_0 : DmaSem sig := 108
abbrev cc18_sem0_1 : DmaSem sig := 109
abbrev cc18_sem1_0 : DmaSem sig := 110
abbrev cc18_sem2_0 : DmaSem sig := 111
abbrev cc18_sem3_0 : DmaSem sig := 112
abbrev cc18_sem3_1 : DmaSem sig := 113
abbrev cc19_sem0_0 : DmaSem sig := 114
abbrev cc19_sem0_1 : DmaSem sig := 115
abbrev cc19_sem1_0 : DmaSem sig := 116
abbrev cc19_sem2_0 : DmaSem sig := 117
abbrev cc19_sem2_1 : DmaSem sig := 118
abbrev cc20_sem0_0 : DmaSem sig := 119
abbrev cc20_sem0_1 : DmaSem sig := 120
abbrev cc20_sem1_0 : DmaSem sig := 121
abbrev cc20_sem2_0 : DmaSem sig := 122
abbrev cc21_sem0_0 : DmaSem sig := 123
abbrev cc21_sem0_1 : DmaSem sig := 124
abbrev cc21_sem1_0 : DmaSem sig := 125
abbrev cc21_sem2_0 : DmaSem sig := 126
abbrev cc21_sem3_0 : DmaSem sig := 127
abbrev cc21_sem4_0 : DmaSem sig := 128
abbrev cc21_sem5_0 : DmaSem sig := 129
abbrev cc21_sem6_0 : DmaSem sig := 130
abbrev cc21_sem6_1 : DmaSem sig := 131
abbrev cc22_sem0_0 : DmaSem sig := 132
abbrev cc22_sem0_1 : DmaSem sig := 133
abbrev cc22_sem1_0 : DmaSem sig := 134
abbrev cc22_sem2_0 : DmaSem sig := 135
abbrev cc22_sem3_0 : DmaSem sig := 136
abbrev cc22_sem3_1 : DmaSem sig := 137
abbrev cc23_sem0_0 : DmaSem sig := 138
abbrev cc23_sem0_1 : DmaSem sig := 139
abbrev cc23_sem1_0 : DmaSem sig := 140
abbrev cc23_sem2_0 : DmaSem sig := 141
abbrev cc23_sem2_1 : DmaSem sig := 142
abbrev cc24_sem0_0 : DmaSem sig := 143
abbrev cc24_sem0_1 : DmaSem sig := 144
abbrev cc24_sem1_0 : DmaSem sig := 145
abbrev cc24_sem2_0 : DmaSem sig := 146
abbrev cc25_sem0_0 : DmaSem sig := 147
abbrev cc25_sem0_1 : DmaSem sig := 148
abbrev cc25_sem1_0 : DmaSem sig := 149
abbrev cc25_sem2_0 : DmaSem sig := 150
abbrev cc25_sem3_0 : DmaSem sig := 151
abbrev cc25_sem4_0 : DmaSem sig := 152
abbrev cc25_sem5_0 : DmaSem sig := 153
abbrev cc25_sem6_0 : DmaSem sig := 154
abbrev cc25_sem6_1 : DmaSem sig := 155
abbrev cc26_sem0_0 : DmaSem sig := 156
abbrev cc26_sem0_1 : DmaSem sig := 157
abbrev cc26_sem1_0 : DmaSem sig := 158
abbrev cc26_sem2_0 : DmaSem sig := 159
abbrev cc26_sem3_0 : DmaSem sig := 160
abbrev cc26_sem3_1 : DmaSem sig := 161
abbrev cc27_sem0_0 : DmaSem sig := 162
abbrev cc27_sem0_1 : DmaSem sig := 163
abbrev cc27_sem1_0 : DmaSem sig := 164
abbrev cc27_sem2_0 : DmaSem sig := 165
abbrev cc27_sem2_1 : DmaSem sig := 166
abbrev cc28_sem0_0 : DmaSem sig := 167
abbrev cc28_sem0_1 : DmaSem sig := 168
abbrev cc28_sem1_0 : DmaSem sig := 169
abbrev cc28_sem2_0 : DmaSem sig := 170
abbrev cc29_sem0_0 : DmaSem sig := 171
abbrev cc29_sem0_1 : DmaSem sig := 172
abbrev cc29_sem1_0 : DmaSem sig := 173
abbrev cc29_sem2_0 : DmaSem sig := 174
abbrev cc29_sem3_0 : DmaSem sig := 175
abbrev cc29_sem4_0 : DmaSem sig := 176
abbrev cc29_sem5_0 : DmaSem sig := 177
abbrev cc29_sem6_0 : DmaSem sig := 178
abbrev cc29_sem6_1 : DmaSem sig := 179
abbrev cc30_sem0_0 : DmaSem sig := 180
abbrev cc30_sem0_1 : DmaSem sig := 181
abbrev cc30_sem1_0 : DmaSem sig := 182
abbrev cc30_sem2_0 : DmaSem sig := 183
abbrev cc30_sem3_0 : DmaSem sig := 184
abbrev cc30_sem3_1 : DmaSem sig := 185

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S1000x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1000x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x256 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S1000x256 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x512 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S512x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1000x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S1000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x256 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S1000x256 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1000x512 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S512x256 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S1000x256 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S1000x256 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x256 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x256 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev grid17 : Pipeline.Grid := ⟨1, ![50], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S1000x256 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x256 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x256 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x256 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x256 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S1x256 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 2 → Memref sig .tc .vmem S1000x256 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![true]

abbrev grid18 : Pipeline.Grid := ⟨1, ![50], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S1000x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S256x2 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x2 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S1000x2 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![50], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S1000x256 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S256x256 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S1000x256 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![50], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S1000x256 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x256 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x256 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev grid21 : Pipeline.Grid := ⟨1, ![50], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_6 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S1000x256 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x256 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x256 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x256 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x256 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 1 → Memref sig .tc .vmem S1x256 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))
abbrev reads21_5 : Fin grid21.rank → Bool := ![false]

abbrev stage21_6 : Fin 2 → Memref sig .tc .vmem S1000x256 .f32 := fun | 0 => Memref.whole cc21_stg6_0 | 1 => Memref.whole cc21_stg6_1 | ⟨_ + 2, h⟩ => absurd h (Nat.not_lt.2 (Nat.le_add_left _ _))
abbrev sem21_6 : Fin 2 → DmaSem sig := fun | 0 => cc21_sem6_0 | 1 => cc21_sem6_1 | ⟨_ + 2, h⟩ => absurd h (Nat.not_lt.2 (Nat.le_add_left _ _))
abbrev reads21_6 : Fin grid21.rank → Bool := ![true]

abbrev grid22 : Pipeline.Grid := ⟨1, ![50], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S1000x256 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S256x2 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x2 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S1000x2 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev grid23 : Pipeline.Grid := ⟨1, ![50], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S1000x256 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S256x256 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 2 → Memref sig .tc .vmem S1000x256 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev grid24 : Pipeline.Grid := ⟨1, ![50], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage24_0 : Fin 2 → Memref sig .tc .vmem S1000x256 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S1x256 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 1 → Memref sig .tc .vmem S1x256 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev grid25 : Pipeline.Grid := ⟨1, ![50], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_4 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_5 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_6 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S1000x256 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S1x256 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1x256 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 1 → Memref sig .tc .vmem S1x256 .f32 := fun | 0 => Memref.whole cc25_stg3_0 | ⟨_ + 1, h⟩ => absurd h (Nat.not_lt.2 (Nat.le_add_left _ _))
abbrev sem25_3 : Fin 1 → DmaSem sig := fun | 0 => cc25_sem3_0 | ⟨_ + 1, h⟩ => absurd h (Nat.not_lt.2 (Nat.le_add_left _ _))
abbrev reads25_3 : Fin grid25.rank → Bool := ![false]

abbrev stage25_4 : Fin 1 → Memref sig .tc .vmem S1x256 .f32 := fun | 0 => Memref.whole cc25_stg4_0 | ⟨_ + 1, h⟩ => absurd h (Nat.not_lt.2 (Nat.le_add_left _ _))
abbrev sem25_4 : Fin 1 → DmaSem sig := fun | 0 => cc25_sem4_0 | ⟨_ + 1, h⟩ => absurd h (Nat.not_lt.2 (Nat.le_add_left _ _))
abbrev reads25_4 : Fin grid25.rank → Bool := ![false]

abbrev stage25_5 : Fin 1 → Memref sig .tc .vmem S1x256 .f32 := fun | 0 => Memref.whole cc25_stg5_0 | ⟨_ + 1, h⟩ => absurd h (Nat.not_lt.2 (Nat.le_add_left _ _))
abbrev sem25_5 : Fin 1 → DmaSem sig := fun | 0 => cc25_sem5_0 | ⟨_ + 1, h⟩ => absurd h (Nat.not_lt.2 (Nat.le_add_left _ _))
abbrev reads25_5 : Fin grid25.rank → Bool := ![false]

abbrev stage25_6 : Fin 2 → Memref sig .tc .vmem S1000x256 .f32 := fun | 0 => Memref.whole cc25_stg6_0 | 1 => Memref.whole cc25_stg6_1 | ⟨_ + 2, h⟩ => absurd h (Nat.not_lt.2 (Nat.le_add_left _ _))
abbrev sem25_6 : Fin 2 → DmaSem sig := fun | 0 => cc25_sem6_0 | 1 => cc25_sem6_1 | ⟨_ + 2, h⟩ => absurd h (Nat.not_lt.2 (Nat.le_add_left _ _))
abbrev reads25_6 : Fin grid25.rank → Bool := ![true]

abbrev grid26 : Pipeline.Grid := ⟨1, ![50], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S1000x256 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S256x2 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 1 → Memref sig .tc .vmem S1x2 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S1000x2 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev grid27 : Pipeline.Grid := ⟨1, ![50], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S1000x256 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S256x256 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 2 → Memref sig .tc .vmem S1000x256 .f32 := fun | 0 => Memref.whole cc27_stg2_0 | 1 => Memref.whole cc27_stg2_1 | ⟨_ + 2, h⟩ => absurd h (Nat.not_lt.2 (Nat.le_add_left _ _))
abbrev sem27_2 : Fin 2 → DmaSem sig := fun | 0 => cc27_sem2_0 | 1 => cc27_sem2_1 | ⟨_ + 2, h⟩ => absurd h (Nat.not_lt.2 (Nat.le_add_left _ _))
abbrev reads27_2 : Fin grid27.rank → Bool := ![true]

abbrev grid28 : Pipeline.Grid := ⟨1, ![50], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage28_0 : Fin 2 → Memref sig .tc .vmem S1000x256 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S1x256 .f32 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 1 → Memref sig .tc .vmem S1x256 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev grid29 : Pipeline.Grid := ⟨1, ![50], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_2 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_3 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_4 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_5 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_6 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S1000x256 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 1 → Memref sig .tc .vmem S1x256 .f32 := fun | 0 => Memref.whole cc29_stg1_0 | ⟨_ + 1, h⟩ => absurd h (Nat.not_lt.2 (Nat.le_add_left _ _))
abbrev sem29_1 : Fin 1 → DmaSem sig := fun | 0 => cc29_sem1_0 | ⟨_ + 1, h⟩ => absurd h (Nat.not_lt.2 (Nat.le_add_left _ _))
abbrev reads29_1 : Fin grid29.rank → Bool := ![false]

abbrev stage29_2 : Fin 1 → Memref sig .tc .vmem S1x256 .f32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))
abbrev reads29_2 : Fin grid29.rank → Bool := ![false]

abbrev stage29_3 : Fin 1 → Memref sig .tc .vmem S1x256 .f32 := fun | 0 => Memref.whole cc29_stg3_0 | ⟨_ + 1, h⟩ => absurd h (Nat.not_lt.2 (Nat.le_add_left _ _))
abbrev sem29_3 : Fin 1 → DmaSem sig := fun | 0 => cc29_sem3_0 | ⟨_ + 1, h⟩ => absurd h (Nat.not_lt.2 (Nat.le_add_left _ _))
abbrev reads29_3 : Fin grid29.rank → Bool := ![false]

abbrev stage29_4 : Fin 1 → Memref sig .tc .vmem S1x256 .f32 := fun | 0 => Memref.whole cc29_stg4_0 | ⟨_ + 1, h⟩ => absurd h (Nat.not_lt.2 (Nat.le_add_left _ _))
abbrev sem29_4 : Fin 1 → DmaSem sig := fun | 0 => cc29_sem4_0 | ⟨_ + 1, h⟩ => absurd h (Nat.not_lt.2 (Nat.le_add_left _ _))
abbrev reads29_4 : Fin grid29.rank → Bool := ![false]

abbrev stage29_5 : Fin 1 → Memref sig .tc .vmem S1x256 .f32 := fun | 0 => Memref.whole cc29_stg5_0 | ⟨_ + 1, h⟩ => absurd h (Nat.not_lt.2 (Nat.le_add_left _ _))
abbrev sem29_5 : Fin 1 → DmaSem sig := fun | 0 => cc29_sem5_0 | ⟨_ + 1, h⟩ => absurd h (Nat.not_lt.2 (Nat.le_add_left _ _))
abbrev reads29_5 : Fin grid29.rank → Bool := ![false]

abbrev stage29_6 : Fin 2 → Memref sig .tc .vmem S1000x256 .f32 := fun | 0 => Memref.whole cc29_stg6_0 | 1 => Memref.whole cc29_stg6_1 | ⟨_ + 2, h⟩ => absurd h (Nat.not_lt.2 (Nat.le_add_left _ _))
abbrev sem29_6 : Fin 2 → DmaSem sig := fun | 0 => cc29_sem6_0 | 1 => cc29_sem6_1 | ⟨_ + 2, h⟩ => absurd h (Nat.not_lt.2 (Nat.le_add_left _ _))
abbrev reads29_6 : Fin grid29.rank → Bool := ![true]

abbrev grid30 : Pipeline.Grid := ⟨1, ![50], ![false]⟩

def cc30_transform_0 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_1 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_2 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_3 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage30_0 : Fin 2 → Memref sig .tc .vmem S1000x256 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 1 → Memref sig .tc .vmem S256x2 .f32 := fun | 0 => Memref.whole cc30_stg1_0 | ⟨_ + 1, h⟩ => absurd h (Nat.not_lt.2 (Nat.le_add_left _ _))
abbrev sem30_1 : Fin 1 → DmaSem sig := fun | 0 => cc30_sem1_0 | ⟨_ + 1, h⟩ => absurd h (Nat.not_lt.2 (Nat.le_add_left _ _))
abbrev reads30_1 : Fin grid30.rank → Bool := ![false]

abbrev stage30_2 : Fin 1 → Memref sig .tc .vmem S1x2 .f32 := fun | 0 => Memref.whole cc30_stg2_0 | ⟨_ + 1, h⟩ => absurd h (Nat.not_lt.2 (Nat.le_add_left _ _))
abbrev sem30_2 : Fin 1 → DmaSem sig := fun | 0 => cc30_sem2_0 | ⟨_ + 1, h⟩ => absurd h (Nat.not_lt.2 (Nat.le_add_left _ _))
abbrev reads30_2 : Fin grid30.rank → Bool := ![false]

abbrev stage30_3 : Fin 2 → Memref sig .tc .vmem S1000x2 .f32 := fun | 0 => Memref.whole cc30_stg3_0 | 1 => Memref.whole cc30_stg3_1 | ⟨_ + 2, h⟩ => absurd h (Nat.not_lt.2 (Nat.le_add_left _ _))
abbrev sem30_3 : Fin 2 → DmaSem sig := fun | 0 => cc30_sem3_0 | 1 => cc30_sem3_1 | ⟨_ + 2, h⟩ => absurd h (Nat.not_lt.2 (Nat.le_add_left _ _))
abbrev reads30_3 : Fin grid30.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  inb_S1x256_S1x256_0_0 : ∀ a, (![0, 0] : Fin 2 → Nat) a + S1x256.size a ≤ S1x256.size a
  h_S1x256 : 0 < S1x256.numel
  shapeCasts_S1000x256_S1000x256 : S1000x256.ShapeCasts S1000x256
  shapeCasts_S1x256_S1x256 : S1x256.ShapeCasts S1x256
  reduces_S1000x256_S256 : S1000x256.Reduces [0] S256
  shapeCasts_S256_S1x256 : S256.ShapeCasts S1x256
  bcast_S_S256 : S_.BroadcastsInDim S256 (![] : Fin 0 → Fin S256.rank)
  broadcasts_S1x256_S1000x256 : S1x256.Broadcasts S1000x256
  slices_S2x256x256_S1x256x256_0_0_0 : S2x256x256.Slices ![0, 0, 0] S1x256x256
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256_S1x256_1_0 : S3x256.Slices ![1, 0] S1x256
  slices_S2x256x256_S1x256x256_1_0_0 : S2x256x256.Slices ![1, 0, 0] S1x256x256
  slices_S3x256_S1x256_2_0 : S3x256.Slices ![2, 0] S1x256
  concatenates_S50000x256_S50000x256_S50000x512_d1 : Shape.Concatenates [S50000x256, S50000x256] S50000x512 1
  slices_S2x512x256_S1x512x256_0_0_0 : S2x512x256.Slices ![0, 0, 0] S1x512x256
  shapeCasts_S1x512x256_S512x256 : S1x512x256.ShapeCasts S512x256
  shapeCasts_S1000x512_S1000x512 : S1000x512.ShapeCasts S1000x512
  shapeCasts_S512x256_S512x256 : S512x256.ShapeCasts S512x256
  slices_S2x512x256_S1x512x256_1_0_0 : S2x512x256.Slices ![1, 0, 0] S1x512x256
  shapeCasts_S2_S1x2 : S2.ShapeCasts S1x2
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  reduces_S1000x2_S1000 : S1000x2.Reduces [1] S1000
  shapeCasts_S1000_S1000x1 : S1000.ShapeCasts S1000x1
  broadcasts_S1000x1_S1000x2 : S1000x1.Broadcasts S1000x2
  inb_S1000x2_S1000x2_0_0 : ∀ a, (![0, 0] : Fin 2 → Nat) a + S1000x2.size a ≤ S1000x2.size a
  h_S1000x2 : 0 < S1000x2.numel
  slices_S3x256x256_S1x256x256_0_0_0 : S3x256x256.Slices ![0, 0, 0] S1x256x256
  slices_S3x256x2_S1x256x2_0_0_0 : S3x256x2.Slices ![0, 0, 0] S1x256x2
  shapeCasts_S1x256x2_S256x2 : S1x256x2.ShapeCasts S256x2
  slices_S3x2_S1x2_0_0 : S3x2.Slices ![0, 0] S1x2
  shapeCasts_S1x2_S2 : S1x2.ShapeCasts S2
  shapeCasts_S256x2_S256x2 : S256x2.ShapeCasts S256x2
  slices_S3x256x256_S1x256x256_1_0_0 : S3x256x256.Slices ![1, 0, 0] S1x256x256
  slices_S3x256x2_S1x256x2_1_0_0 : S3x256x2.Slices ![1, 0, 0] S1x256x2
  slices_S3x2_S1x2_1_0 : S3x2.Slices ![1, 0] S1x2
  slices_S3x256x256_S1x256x256_2_0_0 : S3x256x256.Slices ![2, 0, 0] S1x256x256
  slices_S3x256x2_S1x256x2_2_0_0 : S3x256x2.Slices ![2, 0, 0] S1x256x2
  slices_S3x2_S1x2_2_0 : S3x2.Slices ![2, 0] S1x2
  bcast_S50000x2_S1x50000x2_1_2 : S50000x2.BroadcastsInDim S1x50000x2 (![1, 2] : Fin 2 → Fin S1x50000x2.rank)
  concatenates_S1x50000x2_S1x50000x2_S1x50000x2_S1x50000x2_S4x50000x2_d0 : Shape.Concatenates [S1x50000x2, S1x50000x2, S1x50000x2, S1x50000x2] S4x50000x2 0
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x512_S512x256_S1000x256_1_0_0_1_n_n_wf : DotDims.WF S1000x512 S512x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x256_S256x256_S1000x256_1_0_0_1_n_n_wf : DotDims.WF S1000x256 S256x256 S1000x256 [1] [0] [0] [1] [] []
  dot_S1000x256_S256x2_S1000x2_1_0_0_1_n_n_wf : DotDims.WF S1000x256 S256x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S50000x256.size a
  hwx2_6 : ∀ i : grid2.Coords, EltTy.bits .f32 = 32 ∨ (Rect.block (s := S50000x256) S1000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S50000x256.size a
  hwx3_2 : ∀ i : grid3.Coords, EltTy.bits .f32 = 32 ∨ (Rect.block (s := S50000x256) S1000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S50000x256.size a
  hwx5_0 : ∀ i : grid5.Coords, EltTy.bits .f32 = 32 ∨ (Rect.block (s := S50000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x256.size a ≤ S50000x256.size a
  hwx5_6 : ∀ i : grid5.Coords, EltTy.bits .f32 = 32 ∨ (Rect.block (s := S50000x256) S1000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x256.size a ≤ S50000x256.size a
  hwx6_0 : ∀ i : grid6.Coords, EltTy.bits .f32 = 32 ∨ (Rect.block (s := S50000x256) S1000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x256.size a ≤ S50000x256.size a
  hwx6_2 : ∀ i : grid6.Coords, EltTy.bits .f32 = 32 ∨ (Rect.block (s := S50000x256) S1000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S50000x256.size a
  hwx7_0 : ∀ i : grid7.Coords, EltTy.bits .f32 = 32 ∨ (Rect.block (s := S50000x256) S1000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x256.size a ≤ S50000x256.size a
  hwx8_0 : ∀ i : grid8.Coords, EltTy.bits .f32 = 32 ∨ (Rect.block (s := S50000x256) S1000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1000x256.size a ≤ S50000x256.size a
  hwx8_6 : ∀ i : grid8.Coords, EltTy.bits .f32 = 32 ∨ (Rect.block (s := S50000x256) S1000x256.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x256.size a ≤ S50000x256.size a
  hwx9_0 : ∀ i : grid9.Coords, EltTy.bits .f32 = 32 ∨ (Rect.block (s := S50000x256) S1000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .f32 = 32 ∨ (Rect.block (s := S256x256) S256x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1000x256.size a ≤ S50000x256.size a
  hwx9_2 : ∀ i : grid9.Coords, EltTy.bits .f32 = 32 ∨ (Rect.block (s := S50000x256) S1000x256.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x256.size a ≤ S50000x256.size a
  hwx10_0 : ∀ i : grid10.Coords, EltTy.bits .f32 = 32 ∨ (Rect.block (s := S50000x256) S1000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x256.size a ≤ S50000x256.size a
  hwx11_0 : ∀ i : grid11.Coords, EltTy.bits .f32 = 32 ∨ (Rect.block (s := S50000x256) S1000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x256.size a ≤ S1x256.size a
  hwx11_5 : ∀ i : grid11.Coords, EltTy.bits .f32 = 32 ∨ (Rect.block (s := S1x256) S1x256.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S1000x256.size a ≤ S50000x256.size a
  hwx11_6 : ∀ i : grid11.Coords, EltTy.bits .f32 = 32 ∨ (Rect.block (s := S50000x256) S1000x256.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x512.size a ≤ S50000x512.size a
  hwx12_0 : ∀ i : grid12.Coords, EltTy.bits .f32 = 32 ∨ (Rect.block (s := S50000x512) S1000x512.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S512x256.size a ≤ S512x256.size a
  hwx12_1 : ∀ i : grid12.Coords, EltTy.bits .f32 = 32 ∨ (Rect.block (s := S512x256) S512x256.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1000x256.size a ≤ S50000x256.size a
  hwx12_2 : ∀ i : grid12.Coords, EltTy.bits .f32 = 32 ∨ (Rect.block (s := S50000x256) S1000x256.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1000x256.size a ≤ S50000x256.size a
  hwx13_0 : ∀ i : grid13.Coords, EltTy.bits .f32 = 32 ∨ (Rect.block (s := S50000x256) S1000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1000x256.size a ≤ S50000x256.size a
  hwx14_0 : ∀ i : grid14.Coords, EltTy.bits .f32 = 32 ∨ (Rect.block (s := S50000x256) S1000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x256.size a ≤ S1x256.size a
  hwx14_5 : ∀ i : grid14.Coords, EltTy.bits .f32 = 32 ∨ (Rect.block (s := S1x256) S1x256.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S1000x256.size a ≤ S50000x256.size a
  hwx14_6 : ∀ i : grid14.Coords, EltTy.bits .f32 = 32 ∨ (Rect.block (s := S50000x256) S1000x256.size (cc14_transform_6 i) (hinb14_6 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1000x512.size a ≤ S50000x512.size a
  hwx15_0 : ∀ i : grid15.Coords, EltTy.bits .f32 = 32 ∨ (Rect.block (s := S50000x512) S1000x512.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S512x256.size a ≤ S512x256.size a
  hwx15_1 : ∀ i : grid15.Coords, EltTy.bits .f32 = 32 ∨ (Rect.block (s := S512x256) S512x256.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1000x256.size a ≤ S50000x256.size a
  hwx15_2 : ∀ i : grid15.Coords, EltTy.bits .f32 = 32 ∨ (Rect.block (s := S50000x256) S1000x256.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1000x256.size a ≤ S50000x256.size a
  hwx16_0 : ∀ i : grid16.Coords, EltTy.bits .f32 = 32 ∨ (Rect.block (s := S50000x256) S1000x256.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x256.size a ≤ S1x256.size a
  hwx16_1 : ∀ i : grid16.Coords, EltTy.bits .f32 = 32 ∨ (Rect.block (s := S1x256) S1x256.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x256.size a ≤ S1x256.size a
  hwx16_2 : ∀ i : grid16.Coords, EltTy.bits .f32 = 32 ∨ (Rect.block (s := S1x256) S1x256.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1000x256.size a ≤ S50000x256.size a
  hwx17_0 : ∀ i : grid17.Coords, EltTy.bits .f32 = 32 ∨ (Rect.block (s := S50000x256) S1000x256.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x256.size a ≤ S1x256.size a
  hwx17_1 : ∀ i : grid17.Coords, EltTy.bits .f32 = 32 ∨ (Rect.block (s := S1x256) S1x256.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x256.size a ≤ S1x256.size a
  hwx17_2 : ∀ i : grid17.Coords, EltTy.bits .f32 = 32 ∨ (Rect.block (s := S1x256) S1x256.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x256.size a ≤ S1x256.size a
  hwx17_3 : ∀ i : grid17.Coords, EltTy.bits .f32 = 32 ∨ (Rect.block (s := S1x256) S1x256.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x256.size a ≤ S1x256.size a
  hwx17_4 : ∀ i : grid17.Coords, EltTy.bits .f32 = 32 ∨ (Rect.block (s := S1x256) S1x256.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S1x256.size a ≤ S1x256.size a
  hwx17_5 : ∀ i : grid17.Coords, EltTy.bits .f32 = 32 ∨ (Rect.block (s := S1x256) S1x256.size (cc17_transform_5 i) (hinb17_5 i)).WholeWords (EltTy.packing .f32)
  hstage17_6 : ∀ j, (stage17_6 j).IsWhole
  nbuf17_6 : grid17.bufCount reads17_6 false = 2
  hreads17_6 : ∀ i i' : grid17.Coords, (∀ a, reads17_6 a = true → i a = i' a) → cc17_transform_6 i = cc17_transform_6 i'
  hinb17_6 : ∀ (i : grid17.Coords) a, (cc17_transform_6 i a + 1) * S1000x256.size a ≤ S50000x256.size a
  hwx17_6 : ∀ i : grid17.Coords, EltTy.bits .f32 = 32 ∨ (Rect.block (s := S50000x256) S1000x256.size (cc17_transform_6 i) (hinb17_6 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1000x256.size a ≤ S50000x256.size a
  hwx18_0 : ∀ i : grid18.Coords, EltTy.bits .f32 = 32 ∨ (Rect.block (s := S50000x256) S1000x256.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S256x2.size a ≤ S256x2.size a
  hwx18_1 : ∀ i : grid18.Coords, EltTy.bits .f32 = 32 ∨ (Rect.block (s := S256x2) S256x2.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x2.size a ≤ S1x2.size a
  hwx18_2 : ∀ i : grid18.Coords, EltTy.bits .f32 = 32 ∨ (Rect.block (s := S1x2) S1x2.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S1000x2.size a ≤ S50000x2.size a
  hwx18_3 : ∀ i : grid18.Coords, EltTy.bits .f32 = 32 ∨ (Rect.block (s := S50000x2) S1000x2.size (cc18_transform_3 i) (hinb18_3 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1000x256.size a ≤ S50000x256.size a
  hwx19_0 : ∀ i : grid19.Coords, EltTy.bits .f32 = 32 ∨ (Rect.block (s := S50000x256) S1000x256.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S256x256.size a ≤ S256x256.size a
  hwx19_1 : ∀ i : grid19.Coords, EltTy.bits .f32 = 32 ∨ (Rect.block (s := S256x256) S256x256.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S1000x256.size a ≤ S50000x256.size a
  hwx19_2 : ∀ i : grid19.Coords, EltTy.bits .f32 = 32 ∨ (Rect.block (s := S50000x256) S1000x256.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1000x256.size a ≤ S50000x256.size a
  hwx20_0 : ∀ i : grid20.Coords, EltTy.bits .f32 = 32 ∨ (Rect.block (s := S50000x256) S1000x256.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x256.size a ≤ S1x256.size a
  hwx20_1 : ∀ i : grid20.Coords, EltTy.bits .f32 = 32 ∨ (Rect.block (s := S1x256) S1x256.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x256.size a ≤ S1x256.size a
  hwx20_2 : ∀ i : grid20.Coords, EltTy.bits .f32 = 32 ∨ (Rect.block (s := S1x256) S1x256.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1000x256.size a ≤ S50000x256.size a
  hwx21_0 : ∀ i : grid21.Coords, EltTy.bits .f32 = 32 ∨ (Rect.block (s := S50000x256) S1000x256.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x256.size a ≤ S1x256.size a
  hwx21_1 : ∀ i : grid21.Coords, EltTy.bits .f32 = 32 ∨ (Rect.block (s := S1x256) S1x256.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x256.size a ≤ S1x256.size a
  hwx21_2 : ∀ i : grid21.Coords, EltTy.bits .f32 = 32 ∨ (Rect.block (s := S1x256) S1x256.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x256.size a ≤ S1x256.size a
  hwx21_3 : ∀ i : grid21.Coords, EltTy.bits .f32 = 32 ∨ (Rect.block (s := S1x256) S1x256.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x256.size a ≤ S1x256.size a
  hwx21_4 : ∀ i : grid21.Coords, EltTy.bits .f32 = 32 ∨ (Rect.block (s := S1x256) S1x256.size (cc21_transform_4 i) (hinb21_4 i)).WholeWords (EltTy.packing .f32)
  hstage21_5 : ∀ j, (stage21_5 j).IsWhole
  nbuf21_5 : grid21.bufCount reads21_5 true = 1
  hreads21_5 : ∀ i i' : grid21.Coords, (∀ a, reads21_5 a = true → i a = i' a) → cc21_transform_5 i = cc21_transform_5 i'
  hinb21_5 : ∀ (i : grid21.Coords) a, (cc21_transform_5 i a + 1) * S1x256.size a ≤ S1x256.size a
  hwx21_5 : ∀ i : grid21.Coords, EltTy.bits .f32 = 32 ∨ (Rect.block (s := S1x256) S1x256.size (cc21_transform_5 i) (hinb21_5 i)).WholeWords (EltTy.packing .f32)
  hstage21_6 : ∀ j, (stage21_6 j).IsWhole
  nbuf21_6 : grid21.bufCount reads21_6 false = 2
  hreads21_6 : ∀ i i' : grid21.Coords, (∀ a, reads21_6 a = true → i a = i' a) → cc21_transform_6 i = cc21_transform_6 i'
  hinb21_6 : ∀ (i : grid21.Coords) a, (cc21_transform_6 i a + 1) * S1000x256.size a ≤ S50000x256.size a
  hwx21_6 : ∀ i : grid21.Coords, EltTy.bits .f32 = 32 ∨ (Rect.block (s := S50000x256) S1000x256.size (cc21_transform_6 i) (hinb21_6 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S1000x256.size a ≤ S50000x256.size a
  hwx22_0 : ∀ i : grid22.Coords, EltTy.bits .f32 = 32 ∨ (Rect.block (s := S50000x256) S1000x256.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S256x2.size a ≤ S256x2.size a
  hwx22_1 : ∀ i : grid22.Coords, EltTy.bits .f32 = 32 ∨ (Rect.block (s := S256x2) S256x2.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x2.size a ≤ S1x2.size a
  hwx22_2 : ∀ i : grid22.Coords, EltTy.bits .f32 = 32 ∨ (Rect.block (s := S1x2) S1x2.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S1000x2.size a ≤ S50000x2.size a
  hwx22_3 : ∀ i : grid22.Coords, EltTy.bits .f32 = 32 ∨ (Rect.block (s := S50000x2) S1000x2.size (cc22_transform_3 i) (hinb22_3 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S1000x256.size a ≤ S50000x256.size a
  hwx23_0 : ∀ i : grid23.Coords, EltTy.bits .f32 = 32 ∨ (Rect.block (s := S50000x256) S1000x256.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S256x256.size a ≤ S256x256.size a
  hwx23_1 : ∀ i : grid23.Coords, EltTy.bits .f32 = 32 ∨ (Rect.block (s := S256x256) S256x256.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S1000x256.size a ≤ S50000x256.size a
  hwx23_2 : ∀ i : grid23.Coords, EltTy.bits .f32 = 32 ∨ (Rect.block (s := S50000x256) S1000x256.size (cc23_transform_2 i) (hinb23_2 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S1000x256.size a ≤ S50000x256.size a
  hwx24_0 : ∀ i : grid24.Coords, EltTy.bits .f32 = 32 ∨ (Rect.block (s := S50000x256) S1000x256.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S1x256.size a ≤ S1x256.size a
  hwx24_1 : ∀ i : grid24.Coords, EltTy.bits .f32 = 32 ∨ (Rect.block (s := S1x256) S1x256.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x256.size a ≤ S1x256.size a
  hwx24_2 : ∀ i : grid24.Coords, EltTy.bits .f32 = 32 ∨ (Rect.block (s := S1x256) S1x256.size (cc24_transform_2 i) (hinb24_2 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S1000x256.size a ≤ S50000x256.size a
  hwx25_0 : ∀ i : grid25.Coords, EltTy.bits .f32 = 32 ∨ (Rect.block (s := S50000x256) S1000x256.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S1x256.size a ≤ S1x256.size a
  hwx25_1 : ∀ i : grid25.Coords, EltTy.bits .f32 = 32 ∨ (Rect.block (s := S1x256) S1x256.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x256.size a ≤ S1x256.size a
  hwx25_2 : ∀ i : grid25.Coords, EltTy.bits .f32 = 32 ∨ (Rect.block (s := S1x256) S1x256.size (cc25_transform_2 i) (hinb25_2 i)).WholeWords (EltTy.packing .f32)
  hstage25_3 : ∀ j, (stage25_3 j).IsWhole
  nbuf25_3 : grid25.bufCount reads25_3 true = 1
  hreads25_3 : ∀ i i' : grid25.Coords, (∀ a, reads25_3 a = true → i a = i' a) → cc25_transform_3 i = cc25_transform_3 i'
  hinb25_3 : ∀ (i : grid25.Coords) a, (cc25_transform_3 i a + 1) * S1x256.size a ≤ S1x256.size a
  hwx25_3 : ∀ i : grid25.Coords, EltTy.bits .f32 = 32 ∨ (Rect.block (s := S1x256) S1x256.size (cc25_transform_3 i) (hinb25_3 i)).WholeWords (EltTy.packing .f32)
  hstage25_4 : ∀ j, (stage25_4 j).IsWhole
  nbuf25_4 : grid25.bufCount reads25_4 true = 1
  hreads25_4 : ∀ i i' : grid25.Coords, (∀ a, reads25_4 a = true → i a = i' a) → cc25_transform_4 i = cc25_transform_4 i'
  hinb25_4 : ∀ (i : grid25.Coords) a, (cc25_transform_4 i a + 1) * S1x256.size a ≤ S1x256.size a
  hwx25_4 : ∀ i : grid25.Coords, EltTy.bits .f32 = 32 ∨ (Rect.block (s := S1x256) S1x256.size (cc25_transform_4 i) (hinb25_4 i)).WholeWords (EltTy.packing .f32)
  hstage25_5 : ∀ j, (stage25_5 j).IsWhole
  nbuf25_5 : grid25.bufCount reads25_5 true = 1
  hreads25_5 : ∀ i i' : grid25.Coords, (∀ a, reads25_5 a = true → i a = i' a) → cc25_transform_5 i = cc25_transform_5 i'
  hinb25_5 : ∀ (i : grid25.Coords) a, (cc25_transform_5 i a + 1) * S1x256.size a ≤ S1x256.size a
  hwx25_5 : ∀ i : grid25.Coords, EltTy.bits .f32 = 32 ∨ (Rect.block (s := S1x256) S1x256.size (cc25_transform_5 i) (hinb25_5 i)).WholeWords (EltTy.packing .f32)
  hstage25_6 : ∀ j, (stage25_6 j).IsWhole
  nbuf25_6 : grid25.bufCount reads25_6 false = 2
  hreads25_6 : ∀ i i' : grid25.Coords, (∀ a, reads25_6 a = true → i a = i' a) → cc25_transform_6 i = cc25_transform_6 i'
  hinb25_6 : ∀ (i : grid25.Coords) a, (cc25_transform_6 i a + 1) * S1000x256.size a ≤ S50000x256.size a
  hwx25_6 : ∀ i : grid25.Coords, EltTy.bits .f32 = 32 ∨ (Rect.block (s := S50000x256) S1000x256.size (cc25_transform_6 i) (hinb25_6 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S1000x256.size a ≤ S50000x256.size a
  hwx26_0 : ∀ i : grid26.Coords, EltTy.bits .f32 = 32 ∨ (Rect.block (s := S50000x256) S1000x256.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S256x2.size a ≤ S256x2.size a
  hwx26_1 : ∀ i : grid26.Coords, EltTy.bits .f32 = 32 ∨ (Rect.block (s := S256x2) S256x2.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S1x2.size a ≤ S1x2.size a
  hwx26_2 : ∀ i : grid26.Coords, EltTy.bits .f32 = 32 ∨ (Rect.block (s := S1x2) S1x2.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S1000x2.size a ≤ S50000x2.size a
  hwx26_3 : ∀ i : grid26.Coords, EltTy.bits .f32 = 32 ∨ (Rect.block (s := S50000x2) S1000x2.size (cc26_transform_3 i) (hinb26_3 i)).WholeWords (EltTy.packing .f32)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S1000x256.size a ≤ S50000x256.size a
  hwx27_0 : ∀ i : grid27.Coords, EltTy.bits .f32 = 32 ∨ (Rect.block (s := S50000x256) S1000x256.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S256x256.size a ≤ S256x256.size a
  hwx27_1 : ∀ i : grid27.Coords, EltTy.bits .f32 = 32 ∨ (Rect.block (s := S256x256) S256x256.size (cc27_transform_1 i) (hinb27_1 i)).WholeWords (EltTy.packing .f32)
  hstage27_2 : ∀ j, (stage27_2 j).IsWhole
  nbuf27_2 : grid27.bufCount reads27_2 false = 2
  hreads27_2 : ∀ i i' : grid27.Coords, (∀ a, reads27_2 a = true → i a = i' a) → cc27_transform_2 i = cc27_transform_2 i'
  hinb27_2 : ∀ (i : grid27.Coords) a, (cc27_transform_2 i a + 1) * S1000x256.size a ≤ S50000x256.size a
  hwx27_2 : ∀ i : grid27.Coords, EltTy.bits .f32 = 32 ∨ (Rect.block (s := S50000x256) S1000x256.size (cc27_transform_2 i) (hinb27_2 i)).WholeWords (EltTy.packing .f32)
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S1000x256.size a ≤ S50000x256.size a
  hwx28_0 : ∀ i : grid28.Coords, EltTy.bits .f32 = 32 ∨ (Rect.block (s := S50000x256) S1000x256.size (cc28_transform_0 i) (hinb28_0 i)).WholeWords (EltTy.packing .f32)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S1x256.size a ≤ S1x256.size a
  hwx28_1 : ∀ i : grid28.Coords, EltTy.bits .f32 = 32 ∨ (Rect.block (s := S1x256) S1x256.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S1x256.size a ≤ S1x256.size a
  hwx28_2 : ∀ i : grid28.Coords, EltTy.bits .f32 = 32 ∨ (Rect.block (s := S1x256) S1x256.size (cc28_transform_2 i) (hinb28_2 i)).WholeWords (EltTy.packing .f32)
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S1000x256.size a ≤ S50000x256.size a
  hwx29_0 : ∀ i : grid29.Coords, EltTy.bits .f32 = 32 ∨ (Rect.block (s := S50000x256) S1000x256.size (cc29_transform_0 i) (hinb29_0 i)).WholeWords (EltTy.packing .f32)
  hstage29_1 : ∀ j, (stage29_1 j).IsWhole
  nbuf29_1 : grid29.bufCount reads29_1 true = 1
  hreads29_1 : ∀ i i' : grid29.Coords, (∀ a, reads29_1 a = true → i a = i' a) → cc29_transform_1 i = cc29_transform_1 i'
  hinb29_1 : ∀ (i : grid29.Coords) a, (cc29_transform_1 i a + 1) * S1x256.size a ≤ S1x256.size a
  hwx29_1 : ∀ i : grid29.Coords, EltTy.bits .f32 = 32 ∨ (Rect.block (s := S1x256) S1x256.size (cc29_transform_1 i) (hinb29_1 i)).WholeWords (EltTy.packing .f32)
  hstage29_2 : ∀ j, (stage29_2 j).IsWhole
  nbuf29_2 : grid29.bufCount reads29_2 true = 1
  hreads29_2 : ∀ i i' : grid29.Coords, (∀ a, reads29_2 a = true → i a = i' a) → cc29_transform_2 i = cc29_transform_2 i'
  hinb29_2 : ∀ (i : grid29.Coords) a, (cc29_transform_2 i a + 1) * S1x256.size a ≤ S1x256.size a
  hwx29_2 : ∀ i : grid29.Coords, EltTy.bits .f32 = 32 ∨ (Rect.block (s := S1x256) S1x256.size (cc29_transform_2 i) (hinb29_2 i)).WholeWords (EltTy.packing .f32)
  hstage29_3 : ∀ j, (stage29_3 j).IsWhole
  nbuf29_3 : grid29.bufCount reads29_3 true = 1
  hreads29_3 : ∀ i i' : grid29.Coords, (∀ a, reads29_3 a = true → i a = i' a) → cc29_transform_3 i = cc29_transform_3 i'
  hinb29_3 : ∀ (i : grid29.Coords) a, (cc29_transform_3 i a + 1) * S1x256.size a ≤ S1x256.size a
  hwx29_3 : ∀ i : grid29.Coords, EltTy.bits .f32 = 32 ∨ (Rect.block (s := S1x256) S1x256.size (cc29_transform_3 i) (hinb29_3 i)).WholeWords (EltTy.packing .f32)
  hstage29_4 : ∀ j, (stage29_4 j).IsWhole
  nbuf29_4 : grid29.bufCount reads29_4 true = 1
  hreads29_4 : ∀ i i' : grid29.Coords, (∀ a, reads29_4 a = true → i a = i' a) → cc29_transform_4 i = cc29_transform_4 i'
  hinb29_4 : ∀ (i : grid29.Coords) a, (cc29_transform_4 i a + 1) * S1x256.size a ≤ S1x256.size a
  hwx29_4 : ∀ i : grid29.Coords, EltTy.bits .f32 = 32 ∨ (Rect.block (s := S1x256) S1x256.size (cc29_transform_4 i) (hinb29_4 i)).WholeWords (EltTy.packing .f32)
  hstage29_5 : ∀ j, (stage29_5 j).IsWhole
  nbuf29_5 : grid29.bufCount reads29_5 true = 1
  hreads29_5 : ∀ i i' : grid29.Coords, (∀ a, reads29_5 a = true → i a = i' a) → cc29_transform_5 i = cc29_transform_5 i'
  hinb29_5 : ∀ (i : grid29.Coords) a, (cc29_transform_5 i a + 1) * S1x256.size a ≤ S1x256.size a
  hwx29_5 : ∀ i : grid29.Coords, EltTy.bits .f32 = 32 ∨ (Rect.block (s := S1x256) S1x256.size (cc29_transform_5 i) (hinb29_5 i)).WholeWords (EltTy.packing .f32)
  hstage29_6 : ∀ j, (stage29_6 j).IsWhole
  nbuf29_6 : grid29.bufCount reads29_6 false = 2
  hreads29_6 : ∀ i i' : grid29.Coords, (∀ a, reads29_6 a = true → i a = i' a) → cc29_transform_6 i = cc29_transform_6 i'
  hinb29_6 : ∀ (i : grid29.Coords) a, (cc29_transform_6 i a + 1) * S1000x256.size a ≤ S50000x256.size a
  hwx29_6 : ∀ i : grid29.Coords, EltTy.bits .f32 = 32 ∨ (Rect.block (s := S50000x256) S1000x256.size (cc29_transform_6 i) (hinb29_6 i)).WholeWords (EltTy.packing .f32)
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S1000x256.size a ≤ S50000x256.size a
  hwx30_0 : ∀ i : grid30.Coords, EltTy.bits .f32 = 32 ∨ (Rect.block (s := S50000x256) S1000x256.size (cc30_transform_0 i) (hinb30_0 i)).WholeWords (EltTy.packing .f32)
  hstage30_1 : ∀ j, (stage30_1 j).IsWhole
  nbuf30_1 : grid30.bufCount reads30_1 true = 1
  hreads30_1 : ∀ i i' : grid30.Coords, (∀ a, reads30_1 a = true → i a = i' a) → cc30_transform_1 i = cc30_transform_1 i'
  hinb30_1 : ∀ (i : grid30.Coords) a, (cc30_transform_1 i a + 1) * S256x2.size a ≤ S256x2.size a
  hwx30_1 : ∀ i : grid30.Coords, EltTy.bits .f32 = 32 ∨ (Rect.block (s := S256x2) S256x2.size (cc30_transform_1 i) (hinb30_1 i)).WholeWords (EltTy.packing .f32)
  hstage30_2 : ∀ j, (stage30_2 j).IsWhole
  nbuf30_2 : grid30.bufCount reads30_2 true = 1
  hreads30_2 : ∀ i i' : grid30.Coords, (∀ a, reads30_2 a = true → i a = i' a) → cc30_transform_2 i = cc30_transform_2 i'
  hinb30_2 : ∀ (i : grid30.Coords) a, (cc30_transform_2 i a + 1) * S1x2.size a ≤ S1x2.size a
  hwx30_2 : ∀ i : grid30.Coords, EltTy.bits .f32 = 32 ∨ (Rect.block (s := S1x2) S1x2.size (cc30_transform_2 i) (hinb30_2 i)).WholeWords (EltTy.packing .f32)
  hstage30_3 : ∀ j, (stage30_3 j).IsWhole
  nbuf30_3 : grid30.bufCount reads30_3 false = 2
  hreads30_3 : ∀ i i' : grid30.Coords, (∀ a, reads30_3 a = true → i a = i' a) → cc30_transform_3 i = cc30_transform_3 i'
  hinb30_3 : ∀ (i : grid30.Coords) a, (cc30_transform_3 i a + 1) * S1000x2.size a ≤ S50000x2.size a
  hwx30_3 : ∀ i : grid30.Coords, EltTy.bits .f32 = 32 ∨ (Rect.block (s := S50000x2) S1000x2.size (cc30_transform_3 i) (hinb30_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x2_S1000x2_1_0_0_1_n_n : DotDims S1000x256 S256x2 S1000x2 where
  lhsContracting := [1]
  rhsContracting := [0]
  lhsNonContracting := [0]
  rhsNonContracting := [1]
  lhsBatch := []
  rhsBatch := []
  wf := dot_S1000x256_S256x2_S1000x2_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v65) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88_0) S1x256.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88_1) S1x256.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v102) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v103) S1000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v103) S1000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S1000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v119) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v126_0) S1x256.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v126_1) S1x256.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v119) S1000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v136) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v137) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v138) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v139) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v140) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v141) S1000x256.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v141) S1000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v142) S1000x256.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v142) S1000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v149_0) S1x256.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v149_1) S1x256.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v142) S1000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v159) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v160) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v161) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v162) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v163) S1x256.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v164) S1000x256.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v165) S1000x512.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v167) S512x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v168) S1000x256.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v168) S1000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v175_0) S1x256.size cc13_transform_1 reads13_1 true true 1 stage13_1 sem13_1
    hrank13 hreads13_1 hinb13_1 nbuf13_1 (Memref.isWhole_whole _) hwx13_1 hstage13_1

abbrev win13_2 : Pipeline.Window sig grid13 :=
  Pipeline.Window.ofSpec (Memref.whole main_v175_1) S1x256.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v168) S1000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v185) S1x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v186) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v187) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v188) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v189) S1x256.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v190) S1000x256.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_v191) S1000x512.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v193) S512x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v194) S1000x256.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v194) S1000x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v201_0) S1x256.size cc16_transform_1 reads16_1 true true 1 stage16_1 sem16_1
    hrank16 hreads16_1 hinb16_1 nbuf16_1 (Memref.isWhole_whole _) hwx16_1 hstage16_1

abbrev win16_2 : Pipeline.Window sig grid16 :=
  Pipeline.Window.ofSpec (Memref.whole main_v201_1) S1x256.size cc16_transform_2 reads16_2 true true 1 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v194) S1000x256.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v211) S1x256.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v212) S1x256.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v213) S1x256.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v214) S1x256.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v215) S1x256.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v216) S1000x256.size cc17_transform_6 reads17_6 true false 2 stage17_6 sem17_6
    hrank17 hreads17_6 hinb17_6 nbuf17_6 (Memref.isWhole_whole _) hwx17_6 hstage17_6

abbrev win17 : Fin 7 → Pipeline.Window sig grid17 := fun | 0 => win17_0 | 1 => win17_1 | 2 => win17_2 | 3 => win17_3 | 4 => win17_4 | 5 => win17_5 | 6 => win17_6 | ⟨_ + 7, h⟩ => absurd h (Nat.not_lt.2 (Nat.le_add_left _ _))
abbrev spec17 : Fin 7 → Pipeline.WinSpec sig grid17.rank := fun w => (win17 w).toWinSpec

abbrev win18_0 : Pipeline.Window sig grid18 :=
  Pipeline.Window.ofSpec (Memref.whole main_v216) S1000x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg16) S256x2.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v217) S1x2.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v218) S1000x2.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v164) S1000x256.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v220) S256x256.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v221) S1000x256.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v221) S1000x256.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v228_0) S1x256.size cc20_transform_1 reads20_1 true true 1 stage20_1 sem20_1
    hrank20 hreads20_1 hinb20_1 nbuf20_1 (Memref.isWhole_whole _) hwx20_1 hstage20_1

abbrev win20_2 : Pipeline.Window sig grid20 :=
  Pipeline.Window.ofSpec (Memref.whole main_v228_1) S1x256.size cc20_transform_2 reads20_2 true true 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v221) S1000x256.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v238) S1x256.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v239) S1x256.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v240) S1x256.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v241) S1x256.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v242) S1x256.size cc21_transform_5 reads21_5 false true 1 stage21_5 sem21_5
    hrank21 hreads21_5 hinb21_5 nbuf21_5 (Memref.isWhole_whole _) hwx21_5 hstage21_5

abbrev win21_6 : Pipeline.Window sig grid21 :=
  Pipeline.Window.ofSpec (Memref.whole main_v243) S1000x256.size cc21_transform_6 reads21_6 true false 2 stage21_6 sem21_6
    hrank21 hreads21_6 hinb21_6 nbuf21_6 (Memref.isWhole_whole _) hwx21_6 hstage21_6

abbrev win21 : Fin 7 → Pipeline.Window sig grid21 := fun | 0 => win21_0 | 1 => win21_1 | 2 => win21_2 | 3 => win21_3 | 4 => win21_4 | 5 => win21_5 | 6 => win21_6 | ⟨_ + 7, h⟩ => absurd h (Nat.not_lt.2 (Nat.le_add_left _ _))
abbrev spec21 : Fin 7 → Pipeline.WinSpec sig grid21.rank := fun w => (win21 w).toWinSpec

abbrev win22_0 : Pipeline.Window sig grid22 :=
  Pipeline.Window.ofSpec (Memref.whole main_v243) S1000x256.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v245) S256x2.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v248) S1x2.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v249) S1000x2.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

abbrev win23_0 : Pipeline.Window sig grid23 :=
  Pipeline.Window.ofSpec (Memref.whole main_v190) S1000x256.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v251) S256x256.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v252) S1000x256.size cc23_transform_2 reads23_2 true false 2 stage23_2 sem23_2
    hrank23 hreads23_2 hinb23_2 nbuf23_2 (Memref.isWhole_whole _) hwx23_2 hstage23_2

abbrev win23 : Fin 3 → Pipeline.Window sig grid23 := fun | 0 => win23_0 | 1 => win23_1 | 2 => win23_2 | ⟨_ + 3, h⟩ => absurd h (Nat.not_lt.2 (Nat.le_add_left _ _))
abbrev spec23 : Fin 3 → Pipeline.WinSpec sig grid23.rank := fun w => (win23 w).toWinSpec

abbrev win24_0 : Pipeline.Window sig grid24 :=
  Pipeline.Window.ofSpec (Memref.whole main_v252) S1000x256.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v259_0) S1x256.size cc24_transform_1 reads24_1 true true 1 stage24_1 sem24_1
    hrank24 hreads24_1 hinb24_1 nbuf24_1 (Memref.isWhole_whole _) hwx24_1 hstage24_1

abbrev win24_2 : Pipeline.Window sig grid24 :=
  Pipeline.Window.ofSpec (Memref.whole main_v259_1) S1x256.size cc24_transform_2 reads24_2 true true 1 stage24_2 sem24_2
    hrank24 hreads24_2 hinb24_2 nbuf24_2 (Memref.isWhole_whole _) hwx24_2 hstage24_2

abbrev win24 : Fin 3 → Pipeline.Window sig grid24 := fun | 0 => win24_0 | 1 => win24_1 | 2 => win24_2 | ⟨_ + 3, h⟩ => absurd h (Nat.not_lt.2 (Nat.le_add_left _ _))
abbrev spec24 : Fin 3 → Pipeline.WinSpec sig grid24.rank := fun w => (win24 w).toWinSpec

abbrev win25_0 : Pipeline.Window sig grid25 :=
  Pipeline.Window.ofSpec (Memref.whole main_v252) S1000x256.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v269) S1x256.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v270) S1x256.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v271) S1x256.size cc25_transform_3 reads25_3 false true 1 stage25_3 sem25_3
    hrank25 hreads25_3 hinb25_3 nbuf25_3 (Memref.isWhole_whole _) hwx25_3 hstage25_3

abbrev win25_4 : Pipeline.Window sig grid25 :=
  Pipeline.Window.ofSpec (Memref.whole main_v272) S1x256.size cc25_transform_4 reads25_4 false true 1 stage25_4 sem25_4
    hrank25 hreads25_4 hinb25_4 nbuf25_4 (Memref.isWhole_whole _) hwx25_4 hstage25_4

abbrev win25_5 : Pipeline.Window sig grid25 :=
  Pipeline.Window.ofSpec (Memref.whole main_v273) S1x256.size cc25_transform_5 reads25_5 false true 1 stage25_5 sem25_5
    hrank25 hreads25_5 hinb25_5 nbuf25_5 (Memref.isWhole_whole _) hwx25_5 hstage25_5

abbrev win25_6 : Pipeline.Window sig grid25 :=
  Pipeline.Window.ofSpec (Memref.whole main_v274) S1000x256.size cc25_transform_6 reads25_6 true false 2 stage25_6 sem25_6
    hrank25 hreads25_6 hinb25_6 nbuf25_6 (Memref.isWhole_whole _) hwx25_6 hstage25_6

abbrev win25 : Fin 7 → Pipeline.Window sig grid25 := fun | 0 => win25_0 | 1 => win25_1 | 2 => win25_2 | 3 => win25_3 | 4 => win25_4 | 5 => win25_5 | 6 => win25_6 | ⟨_ + 7, h⟩ => absurd h (Nat.not_lt.2 (Nat.le_add_left _ _))
abbrev spec25 : Fin 7 → Pipeline.WinSpec sig grid25.rank := fun w => (win25 w).toWinSpec

abbrev win26_0 : Pipeline.Window sig grid26 :=
  Pipeline.Window.ofSpec (Memref.whole main_v274) S1000x256.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v276) S256x2.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v279) S1x2.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_v280) S1000x2.size cc26_transform_3 reads26_3 true false 2 stage26_3 sem26_3
    hrank26 hreads26_3 hinb26_3 nbuf26_3 (Memref.isWhole_whole _) hwx26_3 hstage26_3

abbrev win26 : Fin 4 → Pipeline.Window sig grid26 := fun | 0 => win26_0 | 1 => win26_1 | 2 => win26_2 | 3 => win26_3 | ⟨_ + 4, h⟩ => absurd h (Nat.not_lt.2 (Nat.le_add_left _ _))
abbrev spec26 : Fin 4 → Pipeline.WinSpec sig grid26.rank := fun w => (win26 w).toWinSpec

abbrev win27_0 : Pipeline.Window sig grid27 :=
  Pipeline.Window.ofSpec (Memref.whole main_v216) S1000x256.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v282) S256x256.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v283) S1000x256.size cc27_transform_2 reads27_2 true false 2 stage27_2 sem27_2
    hrank27 hreads27_2 hinb27_2 nbuf27_2 (Memref.isWhole_whole _) hwx27_2 hstage27_2

abbrev win27 : Fin 3 → Pipeline.Window sig grid27 := fun | 0 => win27_0 | 1 => win27_1 | 2 => win27_2 | ⟨_ + 3, h⟩ => absurd h (Nat.not_lt.2 (Nat.le_add_left _ _))
abbrev spec27 : Fin 3 → Pipeline.WinSpec sig grid27.rank := fun w => (win27 w).toWinSpec

abbrev win28_0 : Pipeline.Window sig grid28 :=
  Pipeline.Window.ofSpec (Memref.whole main_v283) S1000x256.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v290_0) S1x256.size cc28_transform_1 reads28_1 true true 1 stage28_1 sem28_1
    hrank28 hreads28_1 hinb28_1 nbuf28_1 (Memref.isWhole_whole _) hwx28_1 hstage28_1

abbrev win28_2 : Pipeline.Window sig grid28 :=
  Pipeline.Window.ofSpec (Memref.whole main_v290_1) S1x256.size cc28_transform_2 reads28_2 true true 1 stage28_2 sem28_2
    hrank28 hreads28_2 hinb28_2 nbuf28_2 (Memref.isWhole_whole _) hwx28_2 hstage28_2

abbrev win28 : Fin 3 → Pipeline.Window sig grid28 := fun | 0 => win28_0 | 1 => win28_1 | 2 => win28_2 | ⟨_ + 3, h⟩ => absurd h (Nat.not_lt.2 (Nat.le_add_left _ _))
abbrev spec28 : Fin 3 → Pipeline.WinSpec sig grid28.rank := fun w => (win28 w).toWinSpec

abbrev win29_0 : Pipeline.Window sig grid29 :=
  Pipeline.Window.ofSpec (Memref.whole main_v283) S1000x256.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v300) S1x256.size cc29_transform_1 reads29_1 false true 1 stage29_1 sem29_1
    hrank29 hreads29_1 hinb29_1 nbuf29_1 (Memref.isWhole_whole _) hwx29_1 hstage29_1

abbrev win29_2 : Pipeline.Window sig grid29 :=
  Pipeline.Window.ofSpec (Memref.whole main_v301) S1x256.size cc29_transform_2 reads29_2 false true 1 stage29_2 sem29_2
    hrank29 hreads29_2 hinb29_2 nbuf29_2 (Memref.isWhole_whole _) hwx29_2 hstage29_2

abbrev win29_3 : Pipeline.Window sig grid29 :=
  Pipeline.Window.ofSpec (Memref.whole main_v302) S1x256.size cc29_transform_3 reads29_3 false true 1 stage29_3 sem29_3
    hrank29 hreads29_3 hinb29_3 nbuf29_3 (Memref.isWhole_whole _) hwx29_3 hstage29_3

abbrev win29_4 : Pipeline.Window sig grid29 :=
  Pipeline.Window.ofSpec (Memref.whole main_v303) S1x256.size cc29_transform_4 reads29_4 false true 1 stage29_4 sem29_4
    hrank29 hreads29_4 hinb29_4 nbuf29_4 (Memref.isWhole_whole _) hwx29_4 hstage29_4

abbrev win29_5 : Pipeline.Window sig grid29 :=
  Pipeline.Window.ofSpec (Memref.whole main_v304) S1x256.size cc29_transform_5 reads29_5 false true 1 stage29_5 sem29_5
    hrank29 hreads29_5 hinb29_5 nbuf29_5 (Memref.isWhole_whole _) hwx29_5 hstage29_5

abbrev win29_6 : Pipeline.Window sig grid29 :=
  Pipeline.Window.ofSpec (Memref.whole main_v305) S1000x256.size cc29_transform_6 reads29_6 true false 2 stage29_6 sem29_6
    hrank29 hreads29_6 hinb29_6 nbuf29_6 (Memref.isWhole_whole _) hwx29_6 hstage29_6

abbrev win29 : Fin 7 → Pipeline.Window sig grid29 := fun | 0 => win29_0 | 1 => win29_1 | 2 => win29_2 | 3 => win29_3 | 4 => win29_4 | 5 => win29_5 | 6 => win29_6 | ⟨_ + 7, h⟩ => absurd h (Nat.not_lt.2 (Nat.le_add_left _ _))
abbrev spec29 : Fin 7 → Pipeline.WinSpec sig grid29.rank := fun w => (win29 w).toWinSpec

abbrev win30_0 : Pipeline.Window sig grid30 :=
  Pipeline.Window.ofSpec (Memref.whole main_v305) S1000x256.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_v307) S256x2.size cc30_transform_1 reads30_1 false true 1 stage30_1 sem30_1
    hrank30 hreads30_1 hinb30_1 nbuf30_1 (Memref.isWhole_whole _) hwx30_1 hstage30_1

abbrev win30_2 : Pipeline.Window sig grid30 :=
  Pipeline.Window.ofSpec (Memref.whole main_v310) S1x2.size cc30_transform_2 reads30_2 false true 1 stage30_2 sem30_2
    hrank30 hreads30_2 hinb30_2 nbuf30_2 (Memref.isWhole_whole _) hwx30_2 hstage30_2

abbrev win30_3 : Pipeline.Window sig grid30 :=
  Pipeline.Window.ofSpec (Memref.whole main_v311) S1000x2.size cc30_transform_3 reads30_3 true false 2 stage30_3 sem30_3
    hrank30 hreads30_3 hinb30_3 nbuf30_3 (Memref.isWhole_whole _) hwx30_3 hstage30_3

abbrev win30 : Fin 4 → Pipeline.Window sig grid30 := fun | 0 => win30_0 | 1 => win30_1 | 2 => win30_2 | 3 => win30_3 | ⟨_ + 4, h⟩ => absurd h (Nat.not_lt.2 (Nat.le_add_left _ _))
abbrev spec30 : Fin 4 → Pipeline.WinSpec sig grid30.rank := fun w => (win30 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S2x256x256 : Shape := ⟨3, ![2, 256, 256]⟩
abbrev S3x256 : Shape := ⟨2, ![3, 256]⟩
abbrev S256x256 : Shape := ⟨2, ![256, 256]⟩
abbrev S2x512x256 : Shape := ⟨3, ![2, 512, 256]⟩
abbrev S3x256x256 : Shape := ⟨3, ![3, 256, 256]⟩
abbrev S256x2 : Shape := ⟨2, ![256, 2]⟩
abbrev S2 : Shape := ⟨1, ![2]⟩
abbrev S3x256x2 : Shape := ⟨3, ![3, 256, 2]⟩
abbrev S3x2 : Shape := ⟨2, ![3, 2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S256 : Shape := ⟨1, ![256]⟩
abbrev S1x256x256 : Shape := ⟨3, ![1, 256, 256]⟩
abbrev S1x512x256 : Shape := ⟨3, ![1, 512, 256]⟩
abbrev S50000x2 : Shape := ⟨2, ![50000, 2]⟩
abbrev S1x2 : Shape := ⟨2, ![1, 2]⟩
abbrev S50000x1 : Shape := ⟨2, ![50000, 1]⟩
abbrev S1x256x2 : Shape := ⟨3, ![1, 256, 2]⟩
abbrev S1x50000x2 : Shape := ⟨3, ![1, 50000, 2]⟩
abbrev S4x50000x2 : Shape := ⟨3, ![4, 50000, 2]⟩

abbrev nBuf : Space → Nat
  | .hbm => 730
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S2x256x256, .f32⟩
  | 4 => ⟨S3x256, .f32⟩
  | 5 => ⟨S3x256, .f32⟩
  | 6 => ⟨S3x256, .f32⟩
  | 7 => ⟨S256x256, .f32⟩
  | 8 => ⟨S2x512x256, .f32⟩
  | 9 => ⟨S3x256, .f32⟩
  | 10 => ⟨S3x256, .f32⟩
  | 11 => ⟨S3x256, .f32⟩
  | 12 => ⟨S3x256x256, .f32⟩
  | 13 => ⟨S3x256, .f32⟩
  | 14 => ⟨S3x256, .f32⟩
  | 15 => ⟨S3x256, .f32⟩
  | 16 => ⟨S256x2, .f32⟩
  | 17 => ⟨S2, .f32⟩
  | 18 => ⟨S3x256x2, .f32⟩
  | 19 => ⟨S3x2, .f32⟩
  | 20 => ⟨S50000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S50000x256, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x256, .f32⟩
  | 70 => ⟨S850000x1, .f32⟩
  | 71 => ⟨S850000x256, .f32⟩
  | 72 => ⟨S850000x256, .f32⟩
  | 73 => ⟨S_, .f32⟩
  | 74 => ⟨S50000x256, .f32⟩
  | 75 => ⟨S850000x1, .i32⟩
  | 76 => ⟨S50000x256, .f32⟩
  | 77 => ⟨S1x256, .f32⟩
  | 78 => ⟨S256, .f32⟩
  | 79 => ⟨S1x256, .f32⟩
  | 80 => ⟨S50000x256, .f32⟩
  | 81 => ⟨S50000x256, .f32⟩
  | 82 => ⟨S1x256, .f32⟩
  | 83 => ⟨S256, .f32⟩
  | 84 => ⟨S1x256, .f32⟩
  | 85 => ⟨S256, .f32⟩
  | 86 => ⟨S_, .f32⟩
  | 87 => ⟨S256, .f32⟩
  | 88 => ⟨S_, .f32⟩
  | 89 => ⟨S256, .f32⟩
  | 90 => ⟨S256, .f32⟩
  | 91 => ⟨S_, .i32⟩
  | 92 => ⟨S_, .f32⟩
  | 93 => ⟨S256, .f32⟩
  | 94 => ⟨S1x256, .f32⟩
  | 95 => ⟨S_, .f32⟩
  | 96 => ⟨S1x256, .f32⟩
  | 97 => ⟨S1x256, .f32⟩
  | 98 => ⟨S50000x256, .f32⟩
  | 99 => ⟨S50000x256, .f32⟩
  | 100 => ⟨S50000x256, .f32⟩
  | 101 => ⟨S_, .f32⟩
  | 102 => ⟨S_, .f32⟩
  | 103 => ⟨S_, .f32⟩
  | 104 => ⟨S_, .f32⟩
  | 105 => ⟨S256, .f32⟩
  | 106 => ⟨S256, .f32⟩
  | 107 => ⟨S256, .f32⟩
  | 108 => ⟨S_, .f32⟩
  | 109 => ⟨S_, .i1⟩
  | 110 => ⟨S_, .f32⟩
  | 111 => ⟨S_, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S256, .f32⟩
  | 122 => ⟨S256, .f32⟩
  | 123 => ⟨S256, .f32⟩
  | 124 => ⟨S1x256, .f32⟩
  | 125 => ⟨S50000x256, .f32⟩
  | 126 => ⟨S50000x256, .f32⟩
  | 127 => ⟨S1x256, .f32⟩
  | _ => ⟨S50000x512, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S1x256x256, .f32⟩
  | 6 => ⟨S256x256, .f32⟩
  | 7 => ⟨S50000x256, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x256, .f32⟩
  | 17 => ⟨S850000x1, .f32⟩
  | 18 => ⟨S850000x256, .f32⟩
  | 19 => ⟨S850000x256, .f32⟩
  | 20 => ⟨S_, .f32⟩
  | 21 => ⟨S50000x256, .f32⟩
  | 22 => ⟨S850000x1, .i32⟩
  | 23 => ⟨S50000x256, .f32⟩
  | 24 => ⟨S1x256, .f32⟩
  | 25 => ⟨S256, .f32⟩
  | 26 => ⟨S1x256, .f32⟩
  | 27 => ⟨S50000x256, .f32⟩
  | 28 => ⟨S50000x256, .f32⟩
  | 29 => ⟨S1x256, .f32⟩
  | 30 => ⟨S256, .f32⟩
  | 31 => ⟨S1x256, .f32⟩
  | 32 => ⟨S256, .f32⟩
  | 33 => ⟨S_, .f32⟩
  | 34 => ⟨S256, .f32⟩
  | 35 => ⟨S_, .f32⟩
  | 36 => ⟨S256, .f32⟩
  | 37 => ⟨S256, .f32⟩
  | 38 => ⟨S_, .i32⟩
  | 39 => ⟨S_, .f32⟩
  | 40 => ⟨S256, .f32⟩
  | 41 => ⟨S1x256, .f32⟩
  | 42 => ⟨S_, .f32⟩
  | 43 => ⟨S1x256, .f32⟩
  | 44 => ⟨S1x256, .f32⟩
  | 45 => ⟨S50000x256, .f32⟩
  | 46 => ⟨S50000x256, .f32⟩
  | 47 => ⟨S50000x256, .f32⟩
  | 48 => ⟨S_, .f32⟩
  | 49 => ⟨S_, .f32⟩
  | 50 => ⟨S_, .f32⟩
  | 51 => ⟨S_, .f32⟩
  | 52 => ⟨S256, .f32⟩
  | 53 => ⟨S256, .f32⟩
  | 54 => ⟨S256, .f32⟩
  | 55 => ⟨S_, .f32⟩
  | 56 => ⟨S_, .i1⟩
  | 57 => ⟨S_, .f32⟩
  | 58 => ⟨S_, .f32⟩
  | 59 => ⟨S256, .f32⟩
  | 60 => ⟨S256, .f32⟩
  | 61 => ⟨S1x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S256, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S1x256x256, .f32⟩
  | 81 => ⟨S256x256, .f32⟩
  | 82 => ⟨S50000x256, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x256, .f32⟩
  | 92 => ⟨S850000x1, .f32⟩
  | 93 => ⟨S850000x256, .f32⟩
  | 94 => ⟨S850000x256, .f32⟩
  | 95 => ⟨S_, .f32⟩
  | 96 => ⟨S50000x256, .f32⟩
  | 97 => ⟨S850000x1, .i32⟩
  | 98 => ⟨S50000x256, .f32⟩
  | 99 => ⟨S1x256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S256, .f32⟩
  | 106 => ⟨S1x256, .f32⟩
  | 107 => ⟨S256, .f32⟩
  | 108 => ⟨S_, .f32⟩
  | 109 => ⟨S256, .f32⟩
  | 110 => ⟨S_, .f32⟩
  | 111 => ⟨S256, .f32⟩
  | 112 => ⟨S256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S50000x256, .f32⟩
  | 121 => ⟨S50000x256, .f32⟩
  | 122 => ⟨S50000x256, .f32⟩
  | 123 => ⟨S_, .f32⟩
  | 124 => ⟨S_, .f32⟩
  | 125 => ⟨S_, .f32⟩
  | 126 => ⟨S_, .f32⟩
  | 127 => ⟨S256, .f32⟩
  | _ => ⟨S50000x512, .f32⟩

abbrev hbmTy0_2 (i : Nat) : BufTy := match i % 128 with
  | 0 => ⟨S256, .f32⟩
  | 1 => ⟨S256, .f32⟩
  | 2 => ⟨S_, .f32⟩
  | 3 => ⟨S_, .i1⟩
  | 4 => ⟨S_, .f32⟩
  | 5 => ⟨S_, .f32⟩
  | 6 => ⟨S256, .f32⟩
  | 7 => ⟨S256, .f32⟩
  | 8 => ⟨S1x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S256, .f32⟩
  | 17 => ⟨S256, .f32⟩
  | 18 => ⟨S1x256, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S_, .f32⟩
  | 25 => ⟨S50000x256, .f32⟩
  | 26 => ⟨S50000x256, .f32⟩
  | 27 => ⟨S50000x256, .f32⟩
  | 28 => ⟨S1x256, .f32⟩
  | 29 => ⟨S256, .f32⟩
  | 30 => ⟨S1x256, .f32⟩
  | 31 => ⟨S50000x256, .f32⟩
  | 32 => ⟨S50000x256, .f32⟩
  | 33 => ⟨S1x256, .f32⟩
  | 34 => ⟨S256, .f32⟩
  | 35 => ⟨S1x256, .f32⟩
  | 36 => ⟨S256, .f32⟩
  | 37 => ⟨S_, .f32⟩
  | 38 => ⟨S256, .f32⟩
  | 39 => ⟨S_, .f32⟩
  | 40 => ⟨S256, .f32⟩
  | 41 => ⟨S256, .f32⟩
  | 42 => ⟨S_, .i32⟩
  | 43 => ⟨S_, .f32⟩
  | 44 => ⟨S256, .f32⟩
  | 45 => ⟨S1x256, .f32⟩
  | 46 => ⟨S_, .f32⟩
  | 47 => ⟨S1x256, .f32⟩
  | 48 => ⟨S1x256, .f32⟩
  | 49 => ⟨S50000x256, .f32⟩
  | 50 => ⟨S50000x256, .f32⟩
  | 51 => ⟨S50000x256, .f32⟩
  | 52 => ⟨S_, .f32⟩
  | 53 => ⟨S_, .f32⟩
  | 54 => ⟨S_, .f32⟩
  | 55 => ⟨S_, .f32⟩
  | 56 => ⟨S256, .f32⟩
  | 57 => ⟨S256, .f32⟩
  | 58 => ⟨S256, .f32⟩
  | 59 => ⟨S_, .f32⟩
  | 60 => ⟨S_, .i1⟩
  | 61 => ⟨S_, .f32⟩
  | 62 => ⟨S_, .f32⟩
  | 63 => ⟨S256, .f32⟩
  | 64 => ⟨S256, .f32⟩
  | 65 => ⟨S1x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S256, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S50000x512, .f32⟩
  | 85 => ⟨S1x512x256, .f32⟩
  | 86 => ⟨S512x256, .f32⟩
  | 87 => ⟨S50000x256, .f32⟩
  | 88 => ⟨S1x256, .f32⟩
  | 89 => ⟨S256, .f32⟩
  | 90 => ⟨S1x256, .f32⟩
  | 91 => ⟨S50000x256, .f32⟩
  | 92 => ⟨S50000x256, .f32⟩
  | 93 => ⟨S1x256, .f32⟩
  | 94 => ⟨S256, .f32⟩
  | 95 => ⟨S1x256, .f32⟩
  | 96 => ⟨S256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x512, .f32⟩

abbrev hbmTy0_3 (i : Nat) : BufTy := match i % 128 with
  | 0 => ⟨S1x256, .f32⟩
  | 1 => ⟨S50000x256, .f32⟩
  | 2 => ⟨S50000x256, .f32⟩
  | 3 => ⟨S_, .f32⟩
  | 4 => ⟨S256, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S50000x512, .f32⟩
  | 17 => ⟨S1x512x256, .f32⟩
  | 18 => ⟨S512x256, .f32⟩
  | 19 => ⟨S50000x256, .f32⟩
  | 20 => ⟨S1x256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S256, .f32⟩
  | 27 => ⟨S1x256, .f32⟩
  | 28 => ⟨S256, .f32⟩
  | 29 => ⟨S_, .f32⟩
  | 30 => ⟨S256, .f32⟩
  | 31 => ⟨S_, .f32⟩
  | 32 => ⟨S256, .f32⟩
  | 33 => ⟨S256, .f32⟩
  | 34 => ⟨S_, .i32⟩
  | 35 => ⟨S_, .f32⟩
  | 36 => ⟨S256, .f32⟩
  | 37 => ⟨S1x256, .f32⟩
  | 38 => ⟨S_, .f32⟩
  | 39 => ⟨S1x256, .f32⟩
  | 40 => ⟨S1x256, .f32⟩
  | 41 => ⟨S50000x256, .f32⟩
  | 42 => ⟨S50000x256, .f32⟩
  | 43 => ⟨S50000x256, .f32⟩
  | 44 => ⟨S_, .f32⟩
  | 45 => ⟨S_, .f32⟩
  | 46 => ⟨S_, .f32⟩
  | 47 => ⟨S_, .f32⟩
  | 48 => ⟨S256, .f32⟩
  | 49 => ⟨S256, .f32⟩
  | 50 => ⟨S256, .f32⟩
  | 51 => ⟨S_, .f32⟩
  | 52 => ⟨S_, .i1⟩
  | 53 => ⟨S_, .f32⟩
  | 54 => ⟨S_, .f32⟩
  | 55 => ⟨S256, .f32⟩
  | 56 => ⟨S256, .f32⟩
  | 57 => ⟨S1x256, .f32⟩
  | 58 => ⟨S50000x256, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S256, .f32⟩
  | 65 => ⟨S256, .f32⟩
  | 66 => ⟨S256, .f32⟩
  | 67 => ⟨S1x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x2, .f32⟩
  | 77 => ⟨S1x2, .f32⟩
  | 78 => ⟨S50000x2, .f32⟩
  | 79 => ⟨S50000x2, .f32⟩
  | 80 => ⟨S_, .f32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x2, .f32⟩
  | 87 => ⟨S50000x2, .f32⟩
  | 88 => ⟨S50000x2, .f32⟩
  | 89 => ⟨S_, .f32⟩
  | 90 => ⟨S50000, .f32⟩
  | 91 => ⟨S50000x1, .f32⟩
  | 92 => ⟨S50000x1, .f32⟩
  | 93 => ⟨S50000x2, .f32⟩
  | 94 => ⟨S50000x2, .f32⟩
  | 95 => ⟨S1x256x256, .f32⟩
  | 96 => ⟨S256x256, .f32⟩
  | 97 => ⟨S50000x256, .f32⟩
  | 98 => ⟨S1x256, .f32⟩
  | 99 => ⟨S256, .f32⟩
  | 100 => ⟨S1x256, .f32⟩
  | 101 => ⟨S50000x256, .f32⟩
  | 102 => ⟨S50000x256, .f32⟩
  | 103 => ⟨S1x256, .f32⟩
  | 104 => ⟨S256, .f32⟩
  | 105 => ⟨S1x256, .f32⟩
  | 106 => ⟨S256, .f32⟩
  | 107 => ⟨S_, .f32⟩
  | 108 => ⟨S256, .f32⟩
  | 109 => ⟨S_, .f32⟩
  | 110 => ⟨S256, .f32⟩
  | 111 => ⟨S256, .f32⟩
  | 112 => ⟨S_, .i32⟩
  | 113 => ⟨S_, .f32⟩
  | 114 => ⟨S256, .f32⟩
  | 115 => ⟨S1x256, .f32⟩
  | 116 => ⟨S_, .f32⟩
  | 117 => ⟨S1x256, .f32⟩
  | 118 => ⟨S1x256, .f32⟩
  | 119 => ⟨S50000x256, .f32⟩
  | 120 => ⟨S50000x256, .f32⟩
  | 121 => ⟨S50000x256, .f32⟩
  | 122 => ⟨S_, .f32⟩
  | 123 => ⟨S_, .f32⟩
  | 124 => ⟨S_, .f32⟩
  | 125 => ⟨S_, .f32⟩
  | 126 => ⟨S256, .f32⟩
  | 127 => ⟨S256, .f32⟩
  | _ => ⟨S50000x512, .f32⟩

abbrev hbmTy0_4 (i : Nat) : BufTy := match i % 128 with
  | 0 => ⟨S256, .f32⟩
  | 1 => ⟨S_, .f32⟩
  | 2 => ⟨S_, .i1⟩
  | 3 => ⟨S_, .f32⟩
  | 4 => ⟨S_, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S256, .f32⟩
  | 15 => ⟨S256, .f32⟩
  | 16 => ⟨S256, .f32⟩
  | 17 => ⟨S1x256, .f32⟩
  | 18 => ⟨S50000x256, .f32⟩
  | 19 => ⟨S50000x256, .f32⟩
  | 20 => ⟨S1x256, .f32⟩
  | 21 => ⟨S50000x256, .f32⟩
  | 22 => ⟨S50000x256, .f32⟩
  | 23 => ⟨S_, .f32⟩
  | 24 => ⟨S50000x256, .f32⟩
  | 25 => ⟨S50000x256, .f32⟩
  | 26 => ⟨S1x256x2, .f32⟩
  | 27 => ⟨S256x2, .f32⟩
  | 28 => ⟨S50000x2, .f32⟩
  | 29 => ⟨S1x2, .f32⟩
  | 30 => ⟨S2, .f32⟩
  | 31 => ⟨S1x2, .f32⟩
  | 32 => ⟨S50000x2, .f32⟩
  | 33 => ⟨S50000x2, .f32⟩
  | 34 => ⟨S_, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x2, .f32⟩
  | 41 => ⟨S50000x2, .f32⟩
  | 42 => ⟨S50000x2, .f32⟩
  | 43 => ⟨S_, .f32⟩
  | 44 => ⟨S50000, .f32⟩
  | 45 => ⟨S50000x1, .f32⟩
  | 46 => ⟨S50000x1, .f32⟩
  | 47 => ⟨S50000x2, .f32⟩
  | 48 => ⟨S50000x2, .f32⟩
  | 49 => ⟨S1x256x256, .f32⟩
  | 50 => ⟨S256x256, .f32⟩
  | 51 => ⟨S50000x256, .f32⟩
  | 52 => ⟨S1x256, .f32⟩
  | 53 => ⟨S256, .f32⟩
  | 54 => ⟨S1x256, .f32⟩
  | 55 => ⟨S50000x256, .f32⟩
  | 56 => ⟨S50000x256, .f32⟩
  | 57 => ⟨S1x256, .f32⟩
  | 58 => ⟨S256, .f32⟩
  | 59 => ⟨S1x256, .f32⟩
  | 60 => ⟨S256, .f32⟩
  | 61 => ⟨S_, .f32⟩
  | 62 => ⟨S256, .f32⟩
  | 63 => ⟨S_, .f32⟩
  | 64 => ⟨S256, .f32⟩
  | 65 => ⟨S256, .f32⟩
  | 66 => ⟨S_, .i32⟩
  | 67 => ⟨S_, .f32⟩
  | 68 => ⟨S256, .f32⟩
  | 69 => ⟨S1x256, .f32⟩
  | 70 => ⟨S_, .f32⟩
  | 71 => ⟨S1x256, .f32⟩
  | 72 => ⟨S1x256, .f32⟩
  | 73 => ⟨S50000x256, .f32⟩
  | 74 => ⟨S50000x256, .f32⟩
  | 75 => ⟨S50000x256, .f32⟩
  | 76 => ⟨S_, .f32⟩
  | 77 => ⟨S_, .f32⟩
  | 78 => ⟨S_, .f32⟩
  | 79 => ⟨S_, .f32⟩
  | 80 => ⟨S256, .f32⟩
  | 81 => ⟨S256, .f32⟩
  | 82 => ⟨S256, .f32⟩
  | 83 => ⟨S_, .f32⟩
  | 84 => ⟨S_, .i1⟩
  | 85 => ⟨S_, .f32⟩
  | 86 => ⟨S_, .f32⟩
  | 87 => ⟨S256, .f32⟩
  | 88 => ⟨S256, .f32⟩
  | 89 => ⟨S1x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S_, .f32⟩
  | 96 => ⟨S256, .f32⟩
  | 97 => ⟨S256, .f32⟩
  | 98 => ⟨S256, .f32⟩
  | 99 => ⟨S1x256, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S_, .f32⟩
  | 106 => ⟨S50000x256, .f32⟩
  | 107 => ⟨S50000x256, .f32⟩
  | 108 => ⟨S1x256x2, .f32⟩
  | 109 => ⟨S256x2, .f32⟩
  | 110 => ⟨S50000x2, .f32⟩
  | 111 => ⟨S1x2, .f32⟩
  | 112 => ⟨S2, .f32⟩
  | 113 => ⟨S1x2, .f32⟩
  | 114 => ⟨S50000x2, .f32⟩
  | 115 => ⟨S50000x2, .f32⟩
  | 116 => ⟨S_, .f32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x2, .f32⟩
  | 123 => ⟨S50000x2, .f32⟩
  | 124 => ⟨S50000x2, .f32⟩
  | 125 => ⟨S_, .f32⟩
  | 126 => ⟨S50000, .f32⟩
  | 127 => ⟨S50000x1, .f32⟩
  | _ => ⟨S50000x512, .f32⟩

abbrev hbmTy0_5 (i : Nat) : BufTy := match i % 128 with
  | 0 => ⟨S50000x1, .f32⟩
  | 1 => ⟨S50000x2, .f32⟩
  | 2 => ⟨S50000x2, .f32⟩
  | 3 => ⟨S1x256x256, .f32⟩
  | 4 => ⟨S256x256, .f32⟩
  | 5 => ⟨S50000x256, .f32⟩
  | 6 => ⟨S1x256, .f32⟩
  | 7 => ⟨S256, .f32⟩
  | 8 => ⟨S1x256, .f32⟩
  | 9 => ⟨S50000x256, .f32⟩
  | 10 => ⟨S50000x256, .f32⟩
  | 11 => ⟨S1x256, .f32⟩
  | 12 => ⟨S256, .f32⟩
  | 13 => ⟨S1x256, .f32⟩
  | 14 => ⟨S256, .f32⟩
  | 15 => ⟨S_, .f32⟩
  | 16 => ⟨S256, .f32⟩
  | 17 => ⟨S_, .f32⟩
  | 18 => ⟨S256, .f32⟩
  | 19 => ⟨S256, .f32⟩
  | 20 => ⟨S_, .i32⟩
  | 21 => ⟨S_, .f32⟩
  | 22 => ⟨S256, .f32⟩
  | 23 => ⟨S1x256, .f32⟩
  | 24 => ⟨S_, .f32⟩
  | 25 => ⟨S1x256, .f32⟩
  | 26 => ⟨S1x256, .f32⟩
  | 27 => ⟨S50000x256, .f32⟩
  | 28 => ⟨S50000x256, .f32⟩
  | 29 => ⟨S50000x256, .f32⟩
  | 30 => ⟨S_, .f32⟩
  | 31 => ⟨S_, .f32⟩
  | 32 => ⟨S_, .f32⟩
  | 33 => ⟨S_, .f32⟩
  | 34 => ⟨S256, .f32⟩
  | 35 => ⟨S256, .f32⟩
  | 36 => ⟨S256, .f32⟩
  | 37 => ⟨S_, .f32⟩
  | 38 => ⟨S_, .i1⟩
  | 39 => ⟨S_, .f32⟩
  | 40 => ⟨S_, .f32⟩
  | 41 => ⟨S256, .f32⟩
  | 42 => ⟨S256, .f32⟩
  | 43 => ⟨S1x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S256, .f32⟩
  | 51 => ⟨S256, .f32⟩
  | 52 => ⟨S256, .f32⟩
  | 53 => ⟨S1x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S1x256x2, .f32⟩
  | 63 => ⟨S256x2, .f32⟩
  | 64 => ⟨S50000x2, .f32⟩
  | 65 => ⟨S1x2, .f32⟩
  | 66 => ⟨S2, .f32⟩
  | 67 => ⟨S1x2, .f32⟩
  | 68 => ⟨S50000x2, .f32⟩
  | 69 => ⟨S50000x2, .f32⟩
  | 70 => ⟨S_, .f32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x2, .f32⟩
  | 77 => ⟨S50000x2, .f32⟩
  | 78 => ⟨S50000x2, .f32⟩
  | 79 => ⟨S_, .f32⟩
  | 80 => ⟨S50000, .f32⟩
  | 81 => ⟨S50000x1, .f32⟩
  | 82 => ⟨S50000x1, .f32⟩
  | 83 => ⟨S50000x2, .f32⟩
  | 84 => ⟨S50000x2, .f32⟩
  | 85 => ⟨S1x50000x2, .f32⟩
  | 86 => ⟨S1x50000x2, .f32⟩
  | 87 => ⟨S1x50000x2, .f32⟩
  | 88 => ⟨S1x50000x2, .f32⟩
  | 89 => ⟨S4x50000x2, .f32⟩
  | _ => ⟨S50000x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_cst_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_cst_1 : Ref sig .tc := ⟨.hbm, 102, rfl⟩
abbrev main_call1_v8 : Ref sig .tc := ⟨.hbm, 103, rfl⟩
abbrev main_call1_cst_2 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_cst_3 : Ref sig .tc := ⟨.hbm, 108, rfl⟩
abbrev main_call1_v12 : Ref sig .tc := ⟨.hbm, 109, rfl⟩
abbrev main_call1_cst_4 : Ref sig .tc := ⟨.hbm, 110, rfl⟩
abbrev main_call1_call0_v0 : Ref sig .tc := ⟨.hbm, 111, rfl⟩
abbrev main_call1_call0_v1 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_12 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_call2_cst : Ref sig .tc := ⟨.hbm, 130, rfl⟩
abbrev main_call2_v0 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_13 : Ref sig .tc := ⟨.hbm, 136, rfl⟩
abbrev main_v76 : Ref sig .tc := ⟨.hbm, 137, rfl⟩
abbrev main_v77 : Ref sig .tc := ⟨.hbm, 138, rfl⟩
abbrev main_c_14 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_15 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_16 : Ref sig .tc := ⟨.hbm, 161, rfl⟩
abbrev main_v98 : Ref sig .tc := ⟨.hbm, 162, rfl⟩
abbrev main_cst_17 : Ref sig .tc := ⟨.hbm, 163, rfl⟩
abbrev main_v99 : Ref sig .tc := ⟨.hbm, 164, rfl⟩
abbrev main_v100 : Ref sig .tc := ⟨.hbm, 165, rfl⟩
abbrev main_c_18 : Ref sig .tc := ⟨.hbm, 166, rfl⟩
abbrev main_call3_cst : Ref sig .tc := ⟨.hbm, 167, rfl⟩
abbrev main_call3_v0 : Ref sig .tc := ⟨.hbm, 168, rfl⟩
abbrev main_call3_v1 : Ref sig .tc := ⟨.hbm, 169, rfl⟩
abbrev main_call3_cst_0 : Ref sig .tc := ⟨.hbm, 170, rfl⟩
abbrev main_call3_v2 : Ref sig .tc := ⟨.hbm, 171, rfl⟩
abbrev main_call3_v3 : Ref sig .tc := ⟨.hbm, 172, rfl⟩
abbrev main_call3_v4 : Ref sig .tc := ⟨.hbm, 173, rfl⟩
abbrev main_call3_v5 : Ref sig .tc := ⟨.hbm, 174, rfl⟩
abbrev main_call3_v6 : Ref sig .tc := ⟨.hbm, 175, rfl⟩
abbrev main_call3_v7 : Ref sig .tc := ⟨.hbm, 176, rfl⟩
abbrev main_call3_cst_1 : Ref sig .tc := ⟨.hbm, 177, rfl⟩
abbrev main_call3_v8 : Ref sig .tc := ⟨.hbm, 178, rfl⟩
abbrev main_call3_cst_2 : Ref sig .tc := ⟨.hbm, 179, rfl⟩
abbrev main_call3_v9 : Ref sig .tc := ⟨.hbm, 180, rfl⟩
abbrev main_call3_v10 : Ref sig .tc := ⟨.hbm, 181, rfl⟩
abbrev main_call3_v11 : Ref sig .tc := ⟨.hbm, 182, rfl⟩
abbrev main_call3_cst_3 : Ref sig .tc := ⟨.hbm, 183, rfl⟩
abbrev main_call3_v12 : Ref sig .tc := ⟨.hbm, 184, rfl⟩
abbrev main_call3_cst_4 : Ref sig .tc := ⟨.hbm, 185, rfl⟩
abbrev main_call3_call0_v0 : Ref sig .tc := ⟨.hbm, 186, rfl⟩
abbrev main_call3_call0_v1 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_cst_19 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_call4_cst : Ref sig .tc := ⟨.hbm, 205, rfl⟩
abbrev main_call4_v0 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_c_20 : Ref sig .tc := ⟨.hbm, 211, rfl⟩
abbrev main_v121 : Ref sig .tc := ⟨.hbm, 212, rfl⟩
abbrev main_v122 : Ref sig .tc := ⟨.hbm, 213, rfl⟩
abbrev main_c_21 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_cst_22 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_cst_23 : Ref sig .tc := ⟨.hbm, 236, rfl⟩
abbrev main_v143 : Ref sig .tc := ⟨.hbm, 237, rfl⟩
abbrev main_cst_24 : Ref sig .tc := ⟨.hbm, 238, rfl⟩
abbrev main_v144 : Ref sig .tc := ⟨.hbm, 239, rfl⟩
abbrev main_v145 : Ref sig .tc := ⟨.hbm, 240, rfl⟩
abbrev main_c_25 : Ref sig .tc := ⟨.hbm, 241, rfl⟩
abbrev main_call5_cst : Ref sig .tc := ⟨.hbm, 242, rfl⟩
abbrev main_call5_v0 : Ref sig .tc := ⟨.hbm, 243, rfl⟩
abbrev main_call5_v1 : Ref sig .tc := ⟨.hbm, 244, rfl⟩
abbrev main_call5_cst_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_v5 : Ref sig .tc := ⟨.hbm, 249, rfl⟩
abbrev main_call5_v6 : Ref sig .tc := ⟨.hbm, 250, rfl⟩
abbrev main_call5_v7 : Ref sig .tc := ⟨.hbm, 251, rfl⟩
abbrev main_call5_cst_1 : Ref sig .tc := ⟨.hbm, 252, rfl⟩
abbrev main_call5_v8 : Ref sig .tc := ⟨.hbm, 253, rfl⟩
abbrev main_call5_cst_2 : Ref sig .tc := ⟨.hbm, 254, rfl⟩
abbrev main_call5_v9 : Ref sig .tc := ⟨.hbm, 255, rfl⟩
abbrev main_call5_v10 : Ref sig .tc := ⟨.hbm, 256, rfl⟩
abbrev main_call5_v11 : Ref sig .tc := ⟨.hbm, 257, rfl⟩
abbrev main_call5_cst_3 : Ref sig .tc := ⟨.hbm, 258, rfl⟩
abbrev main_call5_v12 : Ref sig .tc := ⟨.hbm, 259, rfl⟩
abbrev main_call5_cst_4 : Ref sig .tc := ⟨.hbm, 260, rfl⟩
abbrev main_call5_call0_v0 : Ref sig .tc := ⟨.hbm, 261, rfl⟩
abbrev main_call5_call0_v1 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_cst_26 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_call6_cst : Ref sig .tc := ⟨.hbm, 280, rfl⟩
abbrev main_call6_v0 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_cst_27 : Ref sig .tc := ⟨.hbm, 293, rfl⟩
abbrev main_v173 : Ref sig .tc := ⟨.hbm, 294, rfl⟩
abbrev main_cst_28 : Ref sig .tc := ⟨.hbm, 295, rfl⟩
abbrev main_v174 : Ref sig .tc := ⟨.hbm, 296, rfl⟩
abbrev main_v175 : Ref sig .tc := ⟨.hbm, 297, rfl⟩
abbrev main_c_29 : Ref sig .tc := ⟨.hbm, 298, rfl⟩
abbrev main_call7_cst : Ref sig .tc := ⟨.hbm, 299, rfl⟩
abbrev main_call7_v0 : Ref sig .tc := ⟨.hbm, 300, rfl⟩
abbrev main_call7_v1 : Ref sig .tc := ⟨.hbm, 301, rfl⟩
abbrev main_call7_cst_0 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_call7_v5 : Ref sig .tc := ⟨.hbm, 306, rfl⟩
abbrev main_call7_v6 : Ref sig .tc := ⟨.hbm, 307, rfl⟩
abbrev main_call7_v7 : Ref sig .tc := ⟨.hbm, 308, rfl⟩
abbrev main_call7_cst_1 : Ref sig .tc := ⟨.hbm, 309, rfl⟩
abbrev main_call7_v8 : Ref sig .tc := ⟨.hbm, 310, rfl⟩
abbrev main_call7_cst_2 : Ref sig .tc := ⟨.hbm, 311, rfl⟩
abbrev main_call7_v9 : Ref sig .tc := ⟨.hbm, 312, rfl⟩
abbrev main_call7_v10 : Ref sig .tc := ⟨.hbm, 313, rfl⟩
abbrev main_call7_v11 : Ref sig .tc := ⟨.hbm, 314, rfl⟩
abbrev main_call7_cst_3 : Ref sig .tc := ⟨.hbm, 315, rfl⟩
abbrev main_call7_v12 : Ref sig .tc := ⟨.hbm, 316, rfl⟩
abbrev main_call7_cst_4 : Ref sig .tc := ⟨.hbm, 317, rfl⟩
abbrev main_call7_call0_v0 : Ref sig .tc := ⟨.hbm, 318, rfl⟩
abbrev main_call7_call0_v1 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_cst_30 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_v191 : Ref sig .tc := ⟨.hbm, 336, rfl⟩
abbrev main_call8_cst : Ref sig .tc := ⟨.hbm, 337, rfl⟩
abbrev main_call8_v0 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev main_cst_31 : Ref sig .tc := ⟨.hbm, 353, rfl⟩
abbrev main_v206 : Ref sig .tc := ⟨.hbm, 354, rfl⟩
abbrev main_cst_32 : Ref sig .tc := ⟨.hbm, 355, rfl⟩
abbrev main_v207 : Ref sig .tc := ⟨.hbm, 356, rfl⟩
abbrev main_v208 : Ref sig .tc := ⟨.hbm, 357, rfl⟩
abbrev main_c_33 : Ref sig .tc := ⟨.hbm, 358, rfl⟩
abbrev main_call9_cst : Ref sig .tc := ⟨.hbm, 359, rfl⟩
abbrev main_call9_v0 : Ref sig .tc := ⟨.hbm, 360, rfl⟩
abbrev main_call9_v1 : Ref sig .tc := ⟨.hbm, 361, rfl⟩
abbrev main_call9_cst_0 : Ref sig .tc := ⟨.hbm, 362, rfl⟩
abbrev main_call9_v2 : Ref sig .tc := ⟨.hbm, 363, rfl⟩
abbrev main_call9_v3 : Ref sig .tc := ⟨.hbm, 364, rfl⟩
abbrev main_call9_v4 : Ref sig .tc := ⟨.hbm, 365, rfl⟩
abbrev main_call9_v5 : Ref sig .tc := ⟨.hbm, 366, rfl⟩
abbrev main_call9_v6 : Ref sig .tc := ⟨.hbm, 367, rfl⟩
abbrev main_call9_v7 : Ref sig .tc := ⟨.hbm, 368, rfl⟩
abbrev main_call9_cst_1 : Ref sig .tc := ⟨.hbm, 369, rfl⟩
abbrev main_call9_v8 : Ref sig .tc := ⟨.hbm, 370, rfl⟩
abbrev main_call9_cst_2 : Ref sig .tc := ⟨.hbm, 371, rfl⟩
abbrev main_call9_v9 : Ref sig .tc := ⟨.hbm, 372, rfl⟩
abbrev main_call9_v10 : Ref sig .tc := ⟨.hbm, 373, rfl⟩
abbrev main_call9_v11 : Ref sig .tc := ⟨.hbm, 374, rfl⟩
abbrev main_call9_cst_3 : Ref sig .tc := ⟨.hbm, 375, rfl⟩
abbrev main_call9_v12 : Ref sig .tc := ⟨.hbm, 376, rfl⟩
abbrev main_call9_cst_4 : Ref sig .tc := ⟨.hbm, 377, rfl⟩
abbrev main_call9_call0_v0 : Ref sig .tc := ⟨.hbm, 378, rfl⟩
abbrev main_call9_call0_v1 : Ref sig .tc := ⟨.hbm, 379, rfl⟩
abbrev main_v209 : Ref sig .tc := ⟨.hbm, 380, rfl⟩
abbrev main_v210 : Ref sig .tc := ⟨.hbm, 381, rfl⟩
abbrev main_v211 : Ref sig .tc := ⟨.hbm, 382, rfl⟩
abbrev main_v212 : Ref sig .tc := ⟨.hbm, 383, rfl⟩
abbrev main_v213 : Ref sig .tc := ⟨.hbm, 384, rfl⟩
abbrev main_v214 : Ref sig .tc := ⟨.hbm, 385, rfl⟩
abbrev main_v215 : Ref sig .tc := ⟨.hbm, 386, rfl⟩
abbrev main_cst_34 : Ref sig .tc := ⟨.hbm, 387, rfl⟩
abbrev main_v216 : Ref sig .tc := ⟨.hbm, 388, rfl⟩
abbrev main_v217 : Ref sig .tc := ⟨.hbm, 389, rfl⟩
abbrev main_v218 : Ref sig .tc := ⟨.hbm, 390, rfl⟩
abbrev main_v219 : Ref sig .tc := ⟨.hbm, 391, rfl⟩
abbrev main_v220 : Ref sig .tc := ⟨.hbm, 392, rfl⟩
abbrev main_v221 : Ref sig .tc := ⟨.hbm, 393, rfl⟩
abbrev main_v222 : Ref sig .tc := ⟨.hbm, 394, rfl⟩
abbrev main_v223 : Ref sig .tc := ⟨.hbm, 395, rfl⟩
abbrev main_v224 : Ref sig .tc := ⟨.hbm, 396, rfl⟩
abbrev main_call10_cst : Ref sig .tc := ⟨.hbm, 397, rfl⟩
abbrev main_call10_v0 : Ref sig .tc := ⟨.hbm, 398, rfl⟩
abbrev main_v225 : Ref sig .tc := ⟨.hbm, 399, rfl⟩
abbrev main_v226 : Ref sig .tc := ⟨.hbm, 400, rfl⟩
abbrev main_v227 : Ref sig .tc := ⟨.hbm, 401, rfl⟩
abbrev main_v228 : Ref sig .tc := ⟨.hbm, 402, rfl⟩
abbrev main_v229 : Ref sig .tc := ⟨.hbm, 403, rfl⟩
abbrev main_v230 : Ref sig .tc := ⟨.hbm, 404, rfl⟩
abbrev main_v231 : Ref sig .tc := ⟨.hbm, 405, rfl⟩
abbrev main_v232 : Ref sig .tc := ⟨.hbm, 406, rfl⟩
abbrev main_v233 : Ref sig .tc := ⟨.hbm, 407, rfl⟩
abbrev main_v234 : Ref sig .tc := ⟨.hbm, 408, rfl⟩
abbrev main_v235 : Ref sig .tc := ⟨.hbm, 409, rfl⟩
abbrev main_v236 : Ref sig .tc := ⟨.hbm, 410, rfl⟩
abbrev main_v237 : Ref sig .tc := ⟨.hbm, 411, rfl⟩
abbrev main_v238 : Ref sig .tc := ⟨.hbm, 412, rfl⟩
abbrev main_cst_35 : Ref sig .tc := ⟨.hbm, 413, rfl⟩
abbrev main_v239 : Ref sig .tc := ⟨.hbm, 414, rfl⟩
abbrev main_cst_36 : Ref sig .tc := ⟨.hbm, 415, rfl⟩
abbrev main_v240 : Ref sig .tc := ⟨.hbm, 416, rfl⟩
abbrev main_v241 : Ref sig .tc := ⟨.hbm, 417, rfl⟩
abbrev main_c_37 : Ref sig .tc := ⟨.hbm, 418, rfl⟩
abbrev main_call11_cst : Ref sig .tc := ⟨.hbm, 419, rfl⟩
abbrev main_call11_v0 : Ref sig .tc := ⟨.hbm, 420, rfl⟩
abbrev main_call11_v1 : Ref sig .tc := ⟨.hbm, 421, rfl⟩
abbrev main_call11_cst_0 : Ref sig .tc := ⟨.hbm, 422, rfl⟩
abbrev main_call11_v2 : Ref sig .tc := ⟨.hbm, 423, rfl⟩
abbrev main_call11_v3 : Ref sig .tc := ⟨.hbm, 424, rfl⟩
abbrev main_call11_v4 : Ref sig .tc := ⟨.hbm, 425, rfl⟩
abbrev main_call11_v5 : Ref sig .tc := ⟨.hbm, 426, rfl⟩
abbrev main_call11_v6 : Ref sig .tc := ⟨.hbm, 427, rfl⟩
abbrev main_call11_v7 : Ref sig .tc := ⟨.hbm, 428, rfl⟩
abbrev main_call11_cst_1 : Ref sig .tc := ⟨.hbm, 429, rfl⟩
abbrev main_call11_v8 : Ref sig .tc := ⟨.hbm, 430, rfl⟩
abbrev main_call11_cst_2 : Ref sig .tc := ⟨.hbm, 431, rfl⟩
abbrev main_call11_v9 : Ref sig .tc := ⟨.hbm, 432, rfl⟩
abbrev main_call11_v10 : Ref sig .tc := ⟨.hbm, 433, rfl⟩
abbrev main_call11_v11 : Ref sig .tc := ⟨.hbm, 434, rfl⟩
abbrev main_call11_cst_3 : Ref sig .tc := ⟨.hbm, 435, rfl⟩
abbrev main_call11_v12 : Ref sig .tc := ⟨.hbm, 436, rfl⟩
abbrev main_call11_cst_4 : Ref sig .tc := ⟨.hbm, 437, rfl⟩
abbrev main_call11_call0_v0 : Ref sig .tc := ⟨.hbm, 438, rfl⟩
abbrev main_call11_call0_v1 : Ref sig .tc := ⟨.hbm, 439, rfl⟩
abbrev main_v242 : Ref sig .tc := ⟨.hbm, 440, rfl⟩
abbrev main_v243 : Ref sig .tc := ⟨.hbm, 441, rfl⟩
abbrev main_v244 : Ref sig .tc := ⟨.hbm, 442, rfl⟩
abbrev main_v245 : Ref sig .tc := ⟨.hbm, 443, rfl⟩
abbrev main_v246 : Ref sig .tc := ⟨.hbm, 444, rfl⟩
abbrev main_v247 : Ref sig .tc := ⟨.hbm, 445, rfl⟩
abbrev main_v248 : Ref sig .tc := ⟨.hbm, 446, rfl⟩
abbrev main_cst_38 : Ref sig .tc := ⟨.hbm, 447, rfl⟩
abbrev main_v249 : Ref sig .tc := ⟨.hbm, 448, rfl⟩
abbrev main_v250 : Ref sig .tc := ⟨.hbm, 449, rfl⟩
abbrev main_v251 : Ref sig .tc := ⟨.hbm, 450, rfl⟩
abbrev main_v252 : Ref sig .tc := ⟨.hbm, 451, rfl⟩
abbrev main_v253 : Ref sig .tc := ⟨.hbm, 452, rfl⟩
abbrev main_v254 : Ref sig .tc := ⟨.hbm, 453, rfl⟩
abbrev main_v255 : Ref sig .tc := ⟨.hbm, 454, rfl⟩
abbrev main_v256 : Ref sig .tc := ⟨.hbm, 455, rfl⟩
abbrev main_v257 : Ref sig .tc := ⟨.hbm, 456, rfl⟩
abbrev main_call12_cst : Ref sig .tc := ⟨.hbm, 457, rfl⟩
abbrev main_call12_v0 : Ref sig .tc := ⟨.hbm, 458, rfl⟩
abbrev main_v258 : Ref sig .tc := ⟨.hbm, 459, rfl⟩
abbrev main_v259 : Ref sig .tc := ⟨.hbm, 460, rfl⟩
abbrev main_v260 : Ref sig .tc := ⟨.hbm, 461, rfl⟩
abbrev main_v261 : Ref sig .tc := ⟨.hbm, 462, rfl⟩
abbrev main_v262 : Ref sig .tc := ⟨.hbm, 463, rfl⟩
abbrev main_call13_cst : Ref sig .tc := ⟨.hbm, 464, rfl⟩
abbrev main_call13_v0 : Ref sig .tc := ⟨.hbm, 465, rfl⟩
abbrev main_call13_cst_0 : Ref sig .tc := ⟨.hbm, 466, rfl⟩
abbrev main_call13_v1 : Ref sig .tc := ⟨.hbm, 467, rfl⟩
abbrev main_call13_v2 : Ref sig .tc := ⟨.hbm, 468, rfl⟩
abbrev main_call13_v3 : Ref sig .tc := ⟨.hbm, 469, rfl⟩
abbrev main_call13_v4 : Ref sig .tc := ⟨.hbm, 470, rfl⟩
abbrev main_call13_v5 : Ref sig .tc := ⟨.hbm, 471, rfl⟩
abbrev main_call13_v6 : Ref sig .tc := ⟨.hbm, 472, rfl⟩
abbrev main_call13_cst_1 : Ref sig .tc := ⟨.hbm, 473, rfl⟩
abbrev main_call13_v7 : Ref sig .tc := ⟨.hbm, 474, rfl⟩
abbrev main_call13_v8 : Ref sig .tc := ⟨.hbm, 475, rfl⟩
abbrev main_call13_v9 : Ref sig .tc := ⟨.hbm, 476, rfl⟩
abbrev main_call13_v10 : Ref sig .tc := ⟨.hbm, 477, rfl⟩
abbrev main_v263 : Ref sig .tc := ⟨.hbm, 478, rfl⟩
abbrev main_v264 : Ref sig .tc := ⟨.hbm, 479, rfl⟩
abbrev main_v265 : Ref sig .tc := ⟨.hbm, 480, rfl⟩
abbrev main_v266 : Ref sig .tc := ⟨.hbm, 481, rfl⟩
abbrev main_v267 : Ref sig .tc := ⟨.hbm, 482, rfl⟩
abbrev main_v268 : Ref sig .tc := ⟨.hbm, 483, rfl⟩
abbrev main_v269 : Ref sig .tc := ⟨.hbm, 484, rfl⟩
abbrev main_v270 : Ref sig .tc := ⟨.hbm, 485, rfl⟩
abbrev main_v271 : Ref sig .tc := ⟨.hbm, 486, rfl⟩
abbrev main_v272 : Ref sig .tc := ⟨.hbm, 487, rfl⟩
abbrev main_v273 : Ref sig .tc := ⟨.hbm, 488, rfl⟩
abbrev main_v274 : Ref sig .tc := ⟨.hbm, 489, rfl⟩
abbrev main_v275 : Ref sig .tc := ⟨.hbm, 490, rfl⟩
abbrev main_cst_39 : Ref sig .tc := ⟨.hbm, 491, rfl⟩
abbrev main_v276 : Ref sig .tc := ⟨.hbm, 492, rfl⟩
abbrev main_cst_40 : Ref sig .tc := ⟨.hbm, 493, rfl⟩
abbrev main_v277 : Ref sig .tc := ⟨.hbm, 494, rfl⟩
abbrev main_v278 : Ref sig .tc := ⟨.hbm, 495, rfl⟩
abbrev main_c_41 : Ref sig .tc := ⟨.hbm, 496, rfl⟩
abbrev main_call14_cst : Ref sig .tc := ⟨.hbm, 497, rfl⟩
abbrev main_call14_v0 : Ref sig .tc := ⟨.hbm, 498, rfl⟩
abbrev main_call14_v1 : Ref sig .tc := ⟨.hbm, 499, rfl⟩
abbrev main_call14_cst_0 : Ref sig .tc := ⟨.hbm, 500, rfl⟩
abbrev main_call14_v2 : Ref sig .tc := ⟨.hbm, 501, rfl⟩
abbrev main_call14_v3 : Ref sig .tc := ⟨.hbm, 502, rfl⟩
abbrev main_call14_v4 : Ref sig .tc := ⟨.hbm, 503, rfl⟩
abbrev main_call14_v5 : Ref sig .tc := ⟨.hbm, 504, rfl⟩
abbrev main_call14_v6 : Ref sig .tc := ⟨.hbm, 505, rfl⟩
abbrev main_call14_v7 : Ref sig .tc := ⟨.hbm, 506, rfl⟩
abbrev main_call14_cst_1 : Ref sig .tc := ⟨.hbm, 507, rfl⟩
abbrev main_call14_v8 : Ref sig .tc := ⟨.hbm, 508, rfl⟩
abbrev main_call14_cst_2 : Ref sig .tc := ⟨.hbm, 509, rfl⟩
abbrev main_call14_v9 : Ref sig .tc := ⟨.hbm, 510, rfl⟩
abbrev main_call14_v10 : Ref sig .tc := ⟨.hbm, 511, rfl⟩
abbrev main_call14_v11 : Ref sig .tc := ⟨.hbm, 512, rfl⟩
abbrev main_call14_cst_3 : Ref sig .tc := ⟨.hbm, 513, rfl⟩
abbrev main_call14_v12 : Ref sig .tc := ⟨.hbm, 514, rfl⟩
abbrev main_call14_cst_4 : Ref sig .tc := ⟨.hbm, 515, rfl⟩
abbrev main_call14_call0_v0 : Ref sig .tc := ⟨.hbm, 516, rfl⟩
abbrev main_call14_call0_v1 : Ref sig .tc := ⟨.hbm, 517, rfl⟩
abbrev main_v279 : Ref sig .tc := ⟨.hbm, 518, rfl⟩
abbrev main_v280 : Ref sig .tc := ⟨.hbm, 519, rfl⟩
abbrev main_v281 : Ref sig .tc := ⟨.hbm, 520, rfl⟩
abbrev main_v282 : Ref sig .tc := ⟨.hbm, 521, rfl⟩
abbrev main_v283 : Ref sig .tc := ⟨.hbm, 522, rfl⟩
abbrev main_v284 : Ref sig .tc := ⟨.hbm, 523, rfl⟩
abbrev main_v285 : Ref sig .tc := ⟨.hbm, 524, rfl⟩
abbrev main_cst_42 : Ref sig .tc := ⟨.hbm, 525, rfl⟩
abbrev main_v286 : Ref sig .tc := ⟨.hbm, 526, rfl⟩
abbrev main_v287 : Ref sig .tc := ⟨.hbm, 527, rfl⟩
abbrev main_v288 : Ref sig .tc := ⟨.hbm, 528, rfl⟩
abbrev main_v289 : Ref sig .tc := ⟨.hbm, 529, rfl⟩
abbrev main_v290 : Ref sig .tc := ⟨.hbm, 530, rfl⟩
abbrev main_v291 : Ref sig .tc := ⟨.hbm, 531, rfl⟩
abbrev main_v292 : Ref sig .tc := ⟨.hbm, 532, rfl⟩
abbrev main_v293 : Ref sig .tc := ⟨.hbm, 533, rfl⟩
abbrev main_v294 : Ref sig .tc := ⟨.hbm, 534, rfl⟩
abbrev main_call15_cst : Ref sig .tc := ⟨.hbm, 535, rfl⟩
abbrev main_call15_v0 : Ref sig .tc := ⟨.hbm, 536, rfl⟩
abbrev main_v295 : Ref sig .tc := ⟨.hbm, 537, rfl⟩
abbrev main_v296 : Ref sig .tc := ⟨.hbm, 538, rfl⟩
abbrev main_v297 : Ref sig .tc := ⟨.hbm, 539, rfl⟩
abbrev main_v298 : Ref sig .tc := ⟨.hbm, 540, rfl⟩
abbrev main_v299 : Ref sig .tc := ⟨.hbm, 541, rfl⟩
abbrev main_v300 : Ref sig .tc := ⟨.hbm, 542, rfl⟩
abbrev main_v301 : Ref sig .tc := ⟨.hbm, 543, rfl⟩
abbrev main_v302 : Ref sig .tc := ⟨.hbm, 544, rfl⟩
abbrev main_v303 : Ref sig .tc := ⟨.hbm, 545, rfl⟩
abbrev main_call16_cst : Ref sig .tc := ⟨.hbm, 546, rfl⟩
abbrev main_call16_v0 : Ref sig .tc := ⟨.hbm, 547, rfl⟩
abbrev main_call16_cst_0 : Ref sig .tc := ⟨.hbm, 548, rfl⟩
abbrev main_call16_v1 : Ref sig .tc := ⟨.hbm, 549, rfl⟩
abbrev main_call16_v2 : Ref sig .tc := ⟨.hbm, 550, rfl⟩
abbrev main_call16_v3 : Ref sig .tc := ⟨.hbm, 551, rfl⟩
abbrev main_call16_v4 : Ref sig .tc := ⟨.hbm, 552, rfl⟩
abbrev main_call16_v5 : Ref sig .tc := ⟨.hbm, 553, rfl⟩
abbrev main_call16_v6 : Ref sig .tc := ⟨.hbm, 554, rfl⟩
abbrev main_call16_cst_1 : Ref sig .tc := ⟨.hbm, 555, rfl⟩
abbrev main_call16_v7 : Ref sig .tc := ⟨.hbm, 556, rfl⟩
abbrev main_call16_v8 : Ref sig .tc := ⟨.hbm, 557, rfl⟩
abbrev main_call16_v9 : Ref sig .tc := ⟨.hbm, 558, rfl⟩
abbrev main_call16_v10 : Ref sig .tc := ⟨.hbm, 559, rfl⟩
abbrev main_v304 : Ref sig .tc := ⟨.hbm, 560, rfl⟩
abbrev main_v305 : Ref sig .tc := ⟨.hbm, 561, rfl⟩
abbrev main_v306 : Ref sig .tc := ⟨.hbm, 562, rfl⟩
abbrev main_v307 : Ref sig .tc := ⟨.hbm, 563, rfl⟩
abbrev main_v308 : Ref sig .tc := ⟨.hbm, 564, rfl⟩
abbrev main_v309 : Ref sig .tc := ⟨.hbm, 565, rfl⟩
abbrev main_v310 : Ref sig .tc := ⟨.hbm, 566, rfl⟩
abbrev main_v311 : Ref sig .tc := ⟨.hbm, 567, rfl⟩
abbrev main_v312 : Ref sig .tc := ⟨.hbm, 568, rfl⟩
abbrev main_v313 : Ref sig .tc := ⟨.hbm, 569, rfl⟩
abbrev main_v314 : Ref sig .tc := ⟨.hbm, 570, rfl⟩
abbrev main_v315 : Ref sig .tc := ⟨.hbm, 571, rfl⟩
abbrev main_v316 : Ref sig .tc := ⟨.hbm, 572, rfl⟩
abbrev main_cst_43 : Ref sig .tc := ⟨.hbm, 573, rfl⟩
abbrev main_v317 : Ref sig .tc := ⟨.hbm, 574, rfl⟩
abbrev main_cst_44 : Ref sig .tc := ⟨.hbm, 575, rfl⟩
abbrev main_v318 : Ref sig .tc := ⟨.hbm, 576, rfl⟩
abbrev main_v319 : Ref sig .tc := ⟨.hbm, 577, rfl⟩
abbrev main_c_45 : Ref sig .tc := ⟨.hbm, 578, rfl⟩
abbrev main_call17_cst : Ref sig .tc := ⟨.hbm, 579, rfl⟩
abbrev main_call17_v0 : Ref sig .tc := ⟨.hbm, 580, rfl⟩
abbrev main_call17_v1 : Ref sig .tc := ⟨.hbm, 581, rfl⟩
abbrev main_call17_cst_0 : Ref sig .tc := ⟨.hbm, 582, rfl⟩
abbrev main_call17_v2 : Ref sig .tc := ⟨.hbm, 583, rfl⟩
abbrev main_call17_v3 : Ref sig .tc := ⟨.hbm, 584, rfl⟩
abbrev main_call17_v4 : Ref sig .tc := ⟨.hbm, 585, rfl⟩
abbrev main_call17_v5 : Ref sig .tc := ⟨.hbm, 586, rfl⟩
abbrev main_call17_v6 : Ref sig .tc := ⟨.hbm, 587, rfl⟩
abbrev main_call17_v7 : Ref sig .tc := ⟨.hbm, 588, rfl⟩
abbrev main_call17_cst_1 : Ref sig .tc := ⟨.hbm, 589, rfl⟩
abbrev main_call17_v8 : Ref sig .tc := ⟨.hbm, 590, rfl⟩
abbrev main_call17_cst_2 : Ref sig .tc := ⟨.hbm, 591, rfl⟩
abbrev main_call17_v9 : Ref sig .tc := ⟨.hbm, 592, rfl⟩
abbrev main_call17_v10 : Ref sig .tc := ⟨.hbm, 593, rfl⟩
abbrev main_call17_v11 : Ref sig .tc := ⟨.hbm, 594, rfl⟩
abbrev main_call17_cst_3 : Ref sig .tc := ⟨.hbm, 595, rfl⟩
abbrev main_call17_v12 : Ref sig .tc := ⟨.hbm, 596, rfl⟩
abbrev main_call17_cst_4 : Ref sig .tc := ⟨.hbm, 597, rfl⟩
abbrev main_call17_call0_v0 : Ref sig .tc := ⟨.hbm, 598, rfl⟩
abbrev main_call17_call0_v1 : Ref sig .tc := ⟨.hbm, 599, rfl⟩
abbrev main_v320 : Ref sig .tc := ⟨.hbm, 600, rfl⟩
abbrev main_v321 : Ref sig .tc := ⟨.hbm, 601, rfl⟩
abbrev main_v322 : Ref sig .tc := ⟨.hbm, 602, rfl⟩
abbrev main_v323 : Ref sig .tc := ⟨.hbm, 603, rfl⟩
abbrev main_v324 : Ref sig .tc := ⟨.hbm, 604, rfl⟩
abbrev main_v325 : Ref sig .tc := ⟨.hbm, 605, rfl⟩
abbrev main_v326 : Ref sig .tc := ⟨.hbm, 606, rfl⟩
abbrev main_cst_46 : Ref sig .tc := ⟨.hbm, 607, rfl⟩
abbrev main_v327 : Ref sig .tc := ⟨.hbm, 608, rfl⟩
abbrev main_v328 : Ref sig .tc := ⟨.hbm, 609, rfl⟩
abbrev main_v329 : Ref sig .tc := ⟨.hbm, 610, rfl⟩
abbrev main_v330 : Ref sig .tc := ⟨.hbm, 611, rfl⟩
abbrev main_v331 : Ref sig .tc := ⟨.hbm, 612, rfl⟩
abbrev main_v332 : Ref sig .tc := ⟨.hbm, 613, rfl⟩
abbrev main_v333 : Ref sig .tc := ⟨.hbm, 614, rfl⟩
abbrev main_v334 : Ref sig .tc := ⟨.hbm, 615, rfl⟩
abbrev main_v335 : Ref sig .tc := ⟨.hbm, 616, rfl⟩
abbrev main_call18_cst : Ref sig .tc := ⟨.hbm, 617, rfl⟩
abbrev main_call18_v0 : Ref sig .tc := ⟨.hbm, 618, rfl⟩
abbrev main_v336 : Ref sig .tc := ⟨.hbm, 619, rfl⟩
abbrev main_v337 : Ref sig .tc := ⟨.hbm, 620, rfl⟩
abbrev main_v338 : Ref sig .tc := ⟨.hbm, 621, rfl⟩
abbrev main_v339 : Ref sig .tc := ⟨.hbm, 622, rfl⟩
abbrev main_v340 : Ref sig .tc := ⟨.hbm, 623, rfl⟩
abbrev main_v341 : Ref sig .tc := ⟨.hbm, 624, rfl⟩
abbrev main_v342 : Ref sig .tc := ⟨.hbm, 625, rfl⟩
abbrev main_v343 : Ref sig .tc := ⟨.hbm, 626, rfl⟩
abbrev main_v344 : Ref sig .tc := ⟨.hbm, 627, rfl⟩
abbrev main_call19_cst : Ref sig .tc := ⟨.hbm, 628, rfl⟩
abbrev main_call19_v0 : Ref sig .tc := ⟨.hbm, 629, rfl⟩
abbrev main_call19_cst_0 : Ref sig .tc := ⟨.hbm, 630, rfl⟩
abbrev main_call19_v1 : Ref sig .tc := ⟨.hbm, 631, rfl⟩
abbrev main_call19_v2 : Ref sig .tc := ⟨.hbm, 632, rfl⟩
abbrev main_call19_v3 : Ref sig .tc := ⟨.hbm, 633, rfl⟩
abbrev main_call19_v4 : Ref sig .tc := ⟨.hbm, 634, rfl⟩
abbrev main_call19_v5 : Ref sig .tc := ⟨.hbm, 635, rfl⟩
abbrev main_call19_v6 : Ref sig .tc := ⟨.hbm, 636, rfl⟩
abbrev main_call19_cst_1 : Ref sig .tc := ⟨.hbm, 637, rfl⟩
abbrev main_call19_v7 : Ref sig .tc := ⟨.hbm, 638, rfl⟩
abbrev main_call19_v8 : Ref sig .tc := ⟨.hbm, 639, rfl⟩
abbrev main_call19_v9 : Ref sig .tc := ⟨.hbm, 640, rfl⟩
abbrev main_call19_v10 : Ref sig .tc := ⟨.hbm, 641, rfl⟩
abbrev main_v345 : Ref sig .tc := ⟨.hbm, 642, rfl⟩
abbrev main_v346 : Ref sig .tc := ⟨.hbm, 643, rfl⟩
abbrev main_v347 : Ref sig .tc := ⟨.hbm, 644, rfl⟩
abbrev main_v348 : Ref sig .tc := ⟨.hbm, 645, rfl⟩
abbrev main_v349 : Ref sig .tc := ⟨.hbm, 646, rfl⟩
abbrev main_v350 : Ref sig .tc := ⟨.hbm, 647, rfl⟩
abbrev main_v351 : Ref sig .tc := ⟨.hbm, 648, rfl⟩
abbrev main_v352 : Ref sig .tc := ⟨.hbm, 649, rfl⟩
abbrev main_v353 : Ref sig .tc := ⟨.hbm, 650, rfl⟩
abbrev main_v354 : Ref sig .tc := ⟨.hbm, 651, rfl⟩
abbrev main_v355 : Ref sig .tc := ⟨.hbm, 652, rfl⟩
abbrev main_v356 : Ref sig .tc := ⟨.hbm, 653, rfl⟩
abbrev main_v357 : Ref sig .tc := ⟨.hbm, 654, rfl⟩
abbrev main_cst_47 : Ref sig .tc := ⟨.hbm, 655, rfl⟩
abbrev main_v358 : Ref sig .tc := ⟨.hbm, 656, rfl⟩
abbrev main_cst_48 : Ref sig .tc := ⟨.hbm, 657, rfl⟩
abbrev main_v359 : Ref sig .tc := ⟨.hbm, 658, rfl⟩
abbrev main_v360 : Ref sig .tc := ⟨.hbm, 659, rfl⟩
abbrev main_c_49 : Ref sig .tc := ⟨.hbm, 660, rfl⟩
abbrev main_call20_cst : Ref sig .tc := ⟨.hbm, 661, rfl⟩
abbrev main_call20_v0 : Ref sig .tc := ⟨.hbm, 662, rfl⟩
abbrev main_call20_v1 : Ref sig .tc := ⟨.hbm, 663, rfl⟩
abbrev main_call20_cst_0 : Ref sig .tc := ⟨.hbm, 664, rfl⟩
abbrev main_call20_v2 : Ref sig .tc := ⟨.hbm, 665, rfl⟩
abbrev main_call20_v3 : Ref sig .tc := ⟨.hbm, 666, rfl⟩
abbrev main_call20_v4 : Ref sig .tc := ⟨.hbm, 667, rfl⟩
abbrev main_call20_v5 : Ref sig .tc := ⟨.hbm, 668, rfl⟩
abbrev main_call20_v6 : Ref sig .tc := ⟨.hbm, 669, rfl⟩
abbrev main_call20_v7 : Ref sig .tc := ⟨.hbm, 670, rfl⟩
abbrev main_call20_cst_1 : Ref sig .tc := ⟨.hbm, 671, rfl⟩
abbrev main_call20_v8 : Ref sig .tc := ⟨.hbm, 672, rfl⟩
abbrev main_call20_cst_2 : Ref sig .tc := ⟨.hbm, 673, rfl⟩
abbrev main_call20_v9 : Ref sig .tc := ⟨.hbm, 674, rfl⟩
abbrev main_call20_v10 : Ref sig .tc := ⟨.hbm, 675, rfl⟩
abbrev main_call20_v11 : Ref sig .tc := ⟨.hbm, 676, rfl⟩
abbrev main_call20_cst_3 : Ref sig .tc := ⟨.hbm, 677, rfl⟩
abbrev main_call20_v12 : Ref sig .tc := ⟨.hbm, 678, rfl⟩
abbrev main_call20_cst_4 : Ref sig .tc := ⟨.hbm, 679, rfl⟩
abbrev main_call20_call0_v0 : Ref sig .tc := ⟨.hbm, 680, rfl⟩
abbrev main_call20_call0_v1 : Ref sig .tc := ⟨.hbm, 681, rfl⟩
abbrev main_v361 : Ref sig .tc := ⟨.hbm, 682, rfl⟩
abbrev main_v362 : Ref sig .tc := ⟨.hbm, 683, rfl⟩
abbrev main_v363 : Ref sig .tc := ⟨.hbm, 684, rfl⟩
abbrev main_v364 : Ref sig .tc := ⟨.hbm, 685, rfl⟩
abbrev main_v365 : Ref sig .tc := ⟨.hbm, 686, rfl⟩
abbrev main_v366 : Ref sig .tc := ⟨.hbm, 687, rfl⟩
abbrev main_v367 : Ref sig .tc := ⟨.hbm, 688, rfl⟩
abbrev main_cst_50 : Ref sig .tc := ⟨.hbm, 689, rfl⟩
abbrev main_v368 : Ref sig .tc := ⟨.hbm, 690, rfl⟩
abbrev main_v369 : Ref sig .tc := ⟨.hbm, 691, rfl⟩
abbrev main_v370 : Ref sig .tc := ⟨.hbm, 692, rfl⟩
abbrev main_v371 : Ref sig .tc := ⟨.hbm, 693, rfl⟩
abbrev main_v372 : Ref sig .tc := ⟨.hbm, 694, rfl⟩
abbrev main_v373 : Ref sig .tc := ⟨.hbm, 695, rfl⟩
abbrev main_v374 : Ref sig .tc := ⟨.hbm, 696, rfl⟩
abbrev main_v375 : Ref sig .tc := ⟨.hbm, 697, rfl⟩
abbrev main_v376 : Ref sig .tc := ⟨.hbm, 698, rfl⟩
abbrev main_call21_cst : Ref sig .tc := ⟨.hbm, 699, rfl⟩
abbrev main_call21_v0 : Ref sig .tc := ⟨.hbm, 700, rfl⟩
abbrev main_v377 : Ref sig .tc := ⟨.hbm, 701, rfl⟩
abbrev main_v378 : Ref sig .tc := ⟨.hbm, 702, rfl⟩
abbrev main_v379 : Ref sig .tc := ⟨.hbm, 703, rfl⟩
abbrev main_v380 : Ref sig .tc := ⟨.hbm, 704, rfl⟩
abbrev main_v381 : Ref sig .tc := ⟨.hbm, 705, rfl⟩
abbrev main_v382 : Ref sig .tc := ⟨.hbm, 706, rfl⟩
abbrev main_v383 : Ref sig .tc := ⟨.hbm, 707, rfl⟩
abbrev main_v384 : Ref sig .tc := ⟨.hbm, 708, rfl⟩
abbrev main_v385 : Ref sig .tc := ⟨.hbm, 709, rfl⟩
abbrev main_call22_cst : Ref sig .tc := ⟨.hbm, 710, rfl⟩
abbrev main_call22_v0 : Ref sig .tc := ⟨.hbm, 711, rfl⟩
abbrev main_call22_cst_0 : Ref sig .tc := ⟨.hbm, 712, rfl⟩
abbrev main_call22_v1 : Ref sig .tc := ⟨.hbm, 713, rfl⟩
abbrev main_call22_v2 : Ref sig .tc := ⟨.hbm, 714, rfl⟩
abbrev main_call22_v3 : Ref sig .tc := ⟨.hbm, 715, rfl⟩
abbrev main_call22_v4 : Ref sig .tc := ⟨.hbm, 716, rfl⟩
abbrev main_call22_v5 : Ref sig .tc := ⟨.hbm, 717, rfl⟩
abbrev main_call22_v6 : Ref sig .tc := ⟨.hbm, 718, rfl⟩
abbrev main_call22_cst_1 : Ref sig .tc := ⟨.hbm, 719, rfl⟩
abbrev main_call22_v7 : Ref sig .tc := ⟨.hbm, 720, rfl⟩
abbrev main_call22_v8 : Ref sig .tc := ⟨.hbm, 721, rfl⟩
abbrev main_call22_v9 : Ref sig .tc := ⟨.hbm, 722, rfl⟩
abbrev main_call22_v10 : Ref sig .tc := ⟨.hbm, 723, rfl⟩
abbrev main_v386 : Ref sig .tc := ⟨.hbm, 724, rfl⟩
abbrev main_v387 : Ref sig .tc := ⟨.hbm, 725, rfl⟩
abbrev main_v388 : Ref sig .tc := ⟨.hbm, 726, rfl⟩
abbrev main_v389 : Ref sig .tc := ⟨.hbm, 727, rfl⟩
abbrev main_v390 : Ref sig .tc := ⟨.hbm, 728, rfl⟩
abbrev main_v391 : Ref sig .tc := ⟨.hbm, 729, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S2x256x256_S1x256x256_0_0_0 : S2x256x256.Slices ![0, 0, 0] S1x256x256
  shapeCasts_S1x256x256_S256x256 : S1x256x256.ShapeCasts S256x256
  slices_S3x256_S1x256_1_0 : S3x256.Slices ![1, 0] S1x256
  slices_S2x256x256_S1x256x256_1_0_0 : S2x256x256.Slices ![1, 0, 0] S1x256x256
  slices_S3x256_S1x256_2_0 : S3x256.Slices ![2, 0] S1x256
  concatenates_S50000x256_S50000x256_S50000x512_d1 : Shape.Concatenates [S50000x256, S50000x256] S50000x512 1
  slices_S2x512x256_S1x512x256_0_0_0 : S2x512x256.Slices ![0, 0, 0] S1x512x256
  shapeCasts_S1x512x256_S512x256 : S1x512x256.ShapeCasts S512x256
  slices_S2x512x256_S1x512x256_1_0_0 : S2x512x256.Slices ![1, 0, 0] S1x512x256
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  slices_S3x256x256_S1x256x256_0_0_0 : S3x256x256.Slices ![0, 0, 0] S1x256x256
  slices_S3x256x2_S1x256x2_0_0_0 : S3x256x2.Slices ![0, 0, 0] S1x256x2
  shapeCasts_S1x256x2_S256x2 : S1x256x2.ShapeCasts S256x2
  slices_S3x2_S1x2_0_0 : S3x2.Slices ![0, 0] S1x2
  shapeCasts_S1x2_S2 : S1x2.ShapeCasts S2
  slices_S3x256x256_S1x256x256_1_0_0 : S3x256x256.Slices ![1, 0, 0] S1x256x256
  slices_S3x256x2_S1x256x2_1_0_0 : S3x256x2.Slices ![1, 0, 0] S1x256x2
  slices_S3x2_S1x2_1_0 : S3x2.Slices ![1, 0] S1x2
  slices_S3x256x256_S1x256x256_2_0_0 : S3x256x256.Slices ![2, 0, 0] S1x256x256
  slices_S3x256x2_S1x256x2_2_0_0 : S3x256x2.Slices ![2, 0, 0] S1x256x2
  slices_S3x2_S1x2_2_0 : S3x2.Slices ![2, 0] S1x2
  bcast_S50000x2_S1x50000x2_1_2 : S50000x2.BroadcastsInDim S1x50000x2 (![1, 2] : Fin 2 → Fin S1x50000x2.rank)
  concatenates_S1x50000x2_S1x50000x2_S1x50000x2_S1x50000x2_S4x50000x2_d0 : Shape.Concatenates [S1x50000x2, S1x50000x2, S1x50000x2, S1x50000x2] S4x50000x2 0
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KB.Reg0.lean ====
/- REGION 0 of the kernel program (custom_call 0, `cc0__matmul_kernel`, pipeline 0), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk0`); what the body leaves in the output buffer as a function
   of the two input blocks (`out0_2`); the body's triple on whole staging memrefs (`sound_kernel0`); the
   pipeline's proof data at `V` (`dat0`) with its projections; and the body obligation at every point
   (`body_obligation0`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, its index moving with the point): its current staging buffer holds its block at
    every point, for ANY proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The full rectangle of each window's staging buffer: the row block's, the weight's, the output block's. -/
abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out0_2 (xa : Vec F S1000x512 .f32) (xb : Vec F S512x256 .f32) : Vec F S1000x256 .f32 :=
  View.canon [⟨r0_2, k0_pay1 (View.ld xa r0_0) (View.ld xb r0_1)⟩]

/-- The one store is through the full rectangle, so it covers the buffer. -/
theorem cover0_2 (pa : Vec F S1000x256 .f32) (y : S1000x256.Idx) :
    ∃ pc ∈ ([⟨r0_2, pa⟩] : List (View.Piece (Elt F) S1000x256 .f32)), y ∈ pc.1.set :=
  View.cover_of_tiled [⟨r0_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out0_2 xa xb`: the printed function is its skeleton of three loads and one store, run one operation after
    the other; the load of the output buffer reads a value nothing uses. -/
theorem sound_kernel0 (c : Dev nD) (E : Set ℕ) (i : grid0.Coords) (ma : Memref sig .tc .vmem S1000x512 .f32) (hma : ma.IsWhole) (mb : Memref sig .tc .vmem S512x256 .f32) (hmb : mb.IsWhole) (mc : Memref sig .tc .vmem S1000x256 .f32) (hmc : mc.IsWhole)
    (xa : Vec F S1000x512 .f32) (xb : Vec F S512x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out0_2 xa xb)) -∗ K ⟨⟩))
      ⊢ wp frame (wpE (defs₀ (F := F)) Variants.none c none) E (cc0__matmul_kernel i ma hma mb hmb mc hmc) K := by
  simp only [cc0__matmul_kernel_eq_skeleton]; unfold cc0__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%da, Ha⟩, ⟨%db, Hb⟩, ⟨%dc, Hc⟩⟩
  iapply (sound_kernel0 c Set.univ (grid0.coords t) _ _ _ _ _ _ (iblk0 V c 0 t) (iblk0 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg
-- ==== Proof.KB.Reg1.lean ====
/-
  REGION 1 of the kernel program (custom_call 1, the kernel function cc1__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt1, with its two case equations outsAt1_zero and outsAt1_succ).
  Per case the body's triple is a subtype: the lists of stores (rectangle and payload, last first) each output buffer
  ends with, together with the proof that the body runs to a continuation holding exactly those stores written
  (kernelRun1_A, kernelRun1_B). What a buffer then READS is the canonical contents of its list (View.canon), since the
  last store of each list covers the block.

  Exported: the proof data dat1 (arrays at V, full shares, nothing owed), A_eq1, the body obligation
  body_obligation1, the recursion outsAt1 and its equations, after1_0 / after1_1 / after1_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond1_0 (i : grid1.Coords) : Prop :=
  (Scalar.cmpi .ne (Scalar.extui (Scalar.cmpi .eq (BitVec.ofNat 32 (i 0).val) 0#32)) 0#32) = 1#1

/-- It holds at the first point only: decided over the 50 points. -/
theorem hcond1_0 : ∀ t : Fin cfg1.N, cond1_0 (grid1.coords t) ↔ t.val = 0 :=
  (by decide +kernel : ∀ t : Fin grid1.N, cond1_0 (grid1.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun1_A (c : Dev nD) (i : grid1.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond1_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__sumsq_kernel i arg1 harg1 arg2 harg2 arg3 harg3) K } := by
  refine ⟨?_, ?_, fun E K => ?run⟩
  case run =>
    simp only [cc1__sumsq_kernel_eq_skeleton]; unfold cc1__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun1_B (c : Dev nD) (i : grid1.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond1_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__sumsq_kernel i arg1 harg1 arg2 harg2 arg3 harg3) K } := by
  refine ⟨?_, ?_, fun E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s and whose body leaves the block in place: unfetched, the block index has not moved. The
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the two output buffers -/

/-- The whole-block rectangle of a [1,256] buffer at zero offsets: every index lies in it. -/
private theorem mem_whole_S1x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover1_A_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) (y : S1x256.Idx) :
    ∃ pc ∈ (kernelRun1_A c i arg1 harg1 arg2 harg2 arg3 harg3 hc0 x0).1, y ∈ pc.1.set := by
  unfold kernelRun1_A
  dsimp only
  refine ⟨_, List.mem_cons_self, ?_⟩
  exact mem_whole_S1x256 inb_S1x256_S1x256_0_0 y

/-- Case A's stores into output 2 cover its block likewise. -/
theorem cover1_A_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) (y : S1x256.Idx) :
    ∃ pc ∈ (kernelRun1_A c i arg1 harg1 arg2 harg2 arg3 harg3 hc0 x0).2.1, y ∈ pc.1.set := by
  unfold kernelRun1_A
  dsimp only
  refine ⟨_, List.mem_cons_self, ?_⟩
  exact mem_whole_S1x256 inb_S1x256_S1x256_0_0 y

/-- Case B's one store into output 1 covers its block. -/
theorem cover1_B_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) (y : S1x256.Idx) :
    ∃ pc ∈ (kernelRun1_B c i arg1 harg1 arg2 harg2 arg3 harg3 hc0 x0 xo1 xo2).1, y ∈ pc.1.set := by
  unfold kernelRun1_B
  dsimp only
  refine ⟨_, List.mem_cons_self, ?_⟩
  exact mem_whole_S1x256 inb_S1x256_S1x256_0_0 y

/-- Case B's one store into output 2 covers its block. -/
theorem cover1_B_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) (y : S1x256.Idx) :
    ∃ pc ∈ (kernelRun1_B c i arg1 harg1 arg2 harg2 arg3 harg3 hc0 x0 xo1 xo2).2.1, y ∈ pc.1.set := by
  unfold kernelRun1_B
  dsimp only
  refine ⟨_, List.mem_cons_self, ?_⟩
  exact mem_whole_S1x256 inb_S1x256_S1x256_0_0 y

/-- What case A leaves in output 1's staging buffer: the canonical contents of its stores. -/
def out1_A_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) : Vec F S1x256 .f32 :=
  View.canon (kernelRun1_A c i arg1 harg1 arg2 harg2 arg3 harg3 hc0 x0).1

/-- What case A leaves in output 2's staging buffer. -/
def out1_A_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) : Vec F S1x256 .f32 :=
  View.canon (kernelRun1_A c i arg1 harg1 arg2 harg2 arg3 harg3 hc0 x0).2.1

/-- What case B leaves in output 1's staging buffer, from the input block and what the two outputs held. -/
def out1_B_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) : Vec F S1x256 .f32 :=
  View.canon (kernelRun1_B c i arg1 harg1 arg2 harg2 arg3 harg3 hc0 x0 xo1 xo2).1

/-- What case B leaves in output 2's staging buffer. -/
def out1_B_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) : Vec F S1x256 .f32 :=
  View.canon (kernelRun1_B c i arg1 harg1 arg2 harg2 arg3 harg3 hc0 x0 xo1 xo2).2.1

/-! ## What the outputs hold after each point -/

/-- Each window's current staging memref at point `t` is whole. -/
abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)

/-- A later point is not the first, so the conditional is not taken there. -/
theorem ncond1_0 (t : Fin cfg1.N) (h0 : t.val ≠ 0) : ¬cond1_0 (grid1.coords t) := fun h => h0 ((hcond1_0 t).mp h)

/-- THE ACCUMULATION. What the two outputs' staging buffers hold after the body at point `n`: at the first point
    case A's contents of the point's input block; at a later point case B's contents of the point's input block and of
    what this recursion gives at `n - 1` (the buffers are not written back between). -/
def outsAt1 (c : Dev nD) : (n : ℕ) → n < cfg1.N → Vec F S1x256 .f32 × Vec F S1x256 .f32
  | 0, hn =>
    (out1_A_1 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
        ((hcond1_0 ⟨0, hn⟩).mpr rfl) (iblk1 V c 0 ⟨0, hn⟩),
     out1_A_2 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
        ((hcond1_0 ⟨0, hn⟩).mpr rfl) (iblk1 V c 0 ⟨0, hn⟩))
  | n + 1, hn =>
    (out1_B_1 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
        (ncond1_0 ⟨n + 1, hn⟩ (Nat.succ_ne_zero n)) (iblk1 V c 0 ⟨n + 1, hn⟩)
        (outsAt1 c n (Nat.lt_of_succ_lt hn)).1 (outsAt1 c n (Nat.lt_of_succ_lt hn)).2,
     out1_B_2 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
        (ncond1_0 ⟨n + 1, hn⟩ (Nat.succ_ne_zero n)) (iblk1 V c 0 ⟨n + 1, hn⟩)
        (outsAt1 c n (Nat.lt_of_succ_lt hn)).1 (outsAt1 c n (Nat.lt_of_succ_lt hn)).2)

/-- The recursion at point 0. -/
theorem outsAt1_zero (c : Dev nD) (hn : 0 < cfg1.N) :
    outsAt1 V c 0 hn =
      (out1_A_1 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
          ((hcond1_0 ⟨0, hn⟩).mpr rfl) (iblk1 V c 0 ⟨0, hn⟩),
       out1_A_2 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
          ((hcond1_0 ⟨0, hn⟩).mpr rfl) (iblk1 V c 0 ⟨0, hn⟩)) := rfl

/-- The recursion at point `n + 1`. -/
theorem outsAt1_succ (c : Dev nD) (n : ℕ) (hn : n + 1 < cfg1.N) :
    outsAt1 V c (n + 1) hn =
      (out1_B_1 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
          (ncond1_0 ⟨n + 1, hn⟩ (Nat.succ_ne_zero n)) (iblk1 V c 0 ⟨n + 1, hn⟩)
          (outsAt1 V c n (Nat.lt_of_succ_lt hn)).1 (outsAt1 V c n (Nat.lt_of_succ_lt hn)).2,
       out1_B_2 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
          (ncond1_0 ⟨n + 1, hn⟩ (Nat.succ_ne_zero n)) (iblk1 V c 0 ⟨n + 1, hn⟩)
          (outsAt1 V c n (Nat.lt_of_succ_lt hn)).1 (outsAt1 V c n (Nat.lt_of_succ_lt hn)).2) := rfl

/-- The recursion at a point of case A (the first), stated at the point. -/
theorem outsAt1_A (c : Dev nD) (t : Fin cfg1.N) (h0 : t.val = 0) :
    outsAt1 V c t.val t.isLt =
      (out1_A_1 c (grid1.coords t) (st1_0 t) (hs1_0 t) (st1_1 t) (hs1_1 t) (st1_2 t) (hs1_2 t) ((hcond1_0 t).mpr h0) (iblk1 V c 0 t),
       out1_A_2 c (grid1.coords t) (st1_0 t) (hs1_0 t) (st1_1 t) (hs1_1 t) (st1_2 t) (hs1_2 t) ((hcond1_0 t).mpr h0) (iblk1 V c 0 t)) := by
  obtain ⟨n, hn⟩ := t
  cases n with
  | zero => exact rfl
  | succ n => exact absurd h0 (Nat.succ_ne_zero n)

/-- The recursion at a point of case B (a later one), stated at the point: over what the point before left. -/
theorem outsAt1_B (c : Dev nD) (t : Fin cfg1.N) (h0 : t.val ≠ 0) :
    outsAt1 V c t.val t.isLt =
      (out1_B_1 c (grid1.coords t) (st1_0 t) (hs1_0 t) (st1_1 t) (hs1_1 t) (st1_2 t) (hs1_2 t) (ncond1_0 t h0) (iblk1 V c 0 t)
          (outsAt1 V c (t.val - 1) (Nat.lt_of_le_of_lt (Nat.sub_le _ _) t.isLt)).1
          (outsAt1 V c (t.val - 1) (Nat.lt_of_le_of_lt (Nat.sub_le _ _) t.isLt)).2,
       out1_B_2 c (grid1.coords t) (st1_0 t) (hs1_0 t) (st1_1 t) (hs1_1 t) (st1_2 t) (hs1_2 t) (ncond1_0 t h0) (iblk1 V c 0 t)
          (outsAt1 V c (t.val - 1) (Nat.lt_of_le_of_lt (Nat.sub_le _ _) t.isLt)).1
          (outsAt1 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 1 on core `c`: the arrays as the region finds them (`V`); after the body at point
    `t` the input's buffer at its block and the two outputs' at `outsAt1`; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-- At a later point output 1's staging buffer holds what the body left at the point before: the point is not the
    first, the buffer was not written back between (it is written back after point 49 only), the window is live and
    uncut. -/
theorem before1_1_B (c : Dev nD) (t : Fin cfg1.N) (h0 : t.val ≠ 0) (d) :
    (dat1 V c).before 1 t d = (outsAt1 V c (t.val - 1) (Nat.lt_of_le_of_lt (Nat.sub_le _ _) t.isLt)).1 := by
  have hN : t.val < 50 := lt_of_lt_of_eq t.isLt (show cfg1.N = 50 from N_1)
  rw [Dat.before_out_kept _ 1 rfl t h0 (Bool.eq_false_iff.mpr fun h => by have := (flush1_1 _).mp h; dsimp only at this; omega)
    (fun _ => rfl) (fun _ _ => rfl)]
  dsimp only [dat1]

/-- Likewise output 2's. -/
theorem before1_2_B (c : Dev nD) (t : Fin cfg1.N) (h0 : t.val ≠ 0) (d) :
    (dat1 V c).before 2 t d = (outsAt1 V c (t.val - 1) (Nat.lt_of_le_of_lt (Nat.sub_le _ _) t.isLt)).2 := by
  have hN : t.val < 50 := lt_of_lt_of_eq t.isLt (show cfg1.N = 50 from N_1)
  rw [Dat.before_out_kept _ 2 rfl t h0 (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [outsAt1_A V c t h0]
    dsimp only
    unfold out1_A_1 out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover1_A_1 c _ _ _ _ _ _ _ _ _)
    · unfold owns; iexists _; isplitr
      swap; · iexact H2
      ipureintro; exact View.read_writes_eq_canon _ _ _ (cover1_A_2 c _ _ _ _ _ _ _ _ _)
  · rw [outsAt1_B V c t h0]
    dsimp only
    simp only [before1_1_B V c t h0, before1_2_B V c t h0]
    unfold out1_B_1 out1_B_2
    iintro ⟨HΦ, Ho, ⟨%d0, H0⟩, ⟨%d1, H1⟩, ⟨%d2, H2⟩⟩
    iapply ((kernelRun1_B c (grid1.coords t) _ _ _ _ _ _ (ncond1_0 t h0) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover1_B_1 c _ _ _ _ _ _ _ _ _ _ _)
    · unfold owns; iexists _; isplitr
      swap; · iexact H2
      ipureintro; exact View.read_writes_eq_canon _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.KB.Reg2.lean ====
/- REGION 2 of the kernel program: custom_call 2, `cc2__bn_relu_kernel` (pipeline 2), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out2_6`), it keeps nothing from point
   to point and names no semaphore, transfer, table or scratch: the plainest class of pipeline body.
   Stated here, for any float interpretation `F`: each window's block at a point (`iblk2`), that every input's
   staging buffer holds its block at every point (`before2_W_of`), the body's triple (`sound_kernel2`), the
   pipeline's proof data (`dat2`) and the body obligation (`body_obligation2`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [1000,256] buffer, and the whole [1,256] buffer: every load and the one store are of a whole buffer. -/
abbrev r2_0 : Rect S1000x256 := Rect.unit (s := S1000x256) ![0, 0] S1000x256.size inb_S1000x256_S1000x256_0_0
abbrev r2_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out2_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r2_0, k2_pay1 (View.ld x0 r2_0) (View.ld x1 r2_1) (View.ld x2 r2_1) (View.ld x3 r2_1) (View.ld x4 r2_1) (View.ld x5 r2_1)⟩]

/-- The one store is of the whole buffer (checked by evaluation), so it covers it. -/
theorem cover2_6 (p0 : Vec F S1000x256 .f32) (y : S1000x256.Idx) :
    ∃ pc ∈ ([⟨r2_0, p0⟩] : List (View.Piece (Elt F) S1000x256 .f32)), y ∈ pc.1.set :=
  View.cover_of_tiled [⟨r2_0, p0⟩] S1000x256.size (by rfl) y

/-! ## The body's triple -/

set_option maxHeartbeats 1000000 in
/-- The kernel body on whole staging memrefs, the inputs' at read contents `xW` and the output's at anything, runs to
    the continuation holding the inputs' as they were and the output's at `out2_6` of the inputs': the printed function
    is its skeleton, a sequence of whole-buffer loads and one whole-buffer store, which is run step by step. -/
theorem sound_kernel2 (c : Dev nD) (E : Set ℕ) (i : grid2.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_kernel i arg1 harg1 arg2 harg2 arg3 harg3 arg4 harg4 arg5 harg5 arg6 harg6 arg7 harg7) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant that
    of the class (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg
-- ==== Proof.KB.Reg3.lean ====
/- REGION 3 of the kernel program (custom_call 3, `cc3__matmul_kernel`, pipeline 3), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk3`); what the body leaves in the output buffer as a function
   of the two input blocks (`out3_2`); the body's triple on whole staging memrefs (`sound_kernel3`); the
   pipeline's proof data at `V` (`dat3`) with its projections; and the body obligation at every point
   (`body_obligation3`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block, its index moving with the point): its current staging buffer holds its block at
    every point, for ANY proof data whose array is `V`'s (`hA`) and whose body leaves the block in place
    (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The full rectangle of each window's staging buffer: the row block's, the weight's, the output block's. -/
abbrev r3_0 : Rect S1000x256 := Rect.unit (s := S1000x256) ![0, 0] S1000x256.size inb_S1000x256_S1000x256_0_0
abbrev r3_1 : Rect S256x256 := Rect.unit (s := S256x256) ![0, 0] S256x256.size inb_S256x256_S256x256_0_0
abbrev r3_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out3_2 (xa : Vec F S1000x256 .f32) (xb : Vec F S256x256 .f32) : Vec F S1000x256 .f32 :=
  View.canon [⟨r3_2, k3_pay1 (View.ld xa r3_0) (View.ld xb r3_1)⟩]

/-- The one store is through the full rectangle, so it covers the buffer. -/
theorem cover3_2 (pa : Vec F S1000x256 .f32) (y : S1000x256.Idx) :
    ∃ pc ∈ ([⟨r3_2, pa⟩] : List (View.Piece (Elt F) S1000x256 .f32)), y ∈ pc.1.set :=
  View.cover_of_tiled [⟨r3_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out3_2 xa xb`: the printed function is its skeleton of three loads and one store, run one operation after
    the other; the load of the output buffer reads a value nothing uses. -/
theorem sound_kernel3 (c : Dev nD) (E : Set ℕ) (i : grid3.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out3_2 xa xb)) -∗ K ⟨⟩))
      ⊢ wp frame (wpE (defs₀ (F := F)) Variants.none c none) E (cc3__matmul_kernel i ma hma mb hmb mc hmc) K := by
  simp only [cc3__matmul_kernel_eq_skeleton]; unfold cc3__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant the
    class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so `sound_kernel3`
    applies; the invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%da, Ha⟩, ⟨%db, Hb⟩, ⟨%dc, Hc⟩⟩
  iapply (sound_kernel3 c Set.univ (grid3.coords t) _ _ _ _ _ _ (iblk3 V c 0 t) (iblk3 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg
-- ==== Proof.KB.Reg4.lean ====
/-
  REGION 4 of the kernel program (custom_call 4, the kernel function cc4__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt4, with its two case equations outsAt4_zero and outsAt4_succ).
  Per case the body's triple is a subtype: the lists of stores (rectangle and payload, last first) each output buffer
  ends with, together with the proof that the body runs to a continuation holding exactly those stores written
  (kernelRun4_A, kernelRun4_B). What a buffer then READS is the canonical contents of its list (View.canon), since the
  last store of each list covers the block.

  Exported: the proof data dat4 (arrays at V, full shares, nothing owed), A_eq4, the body obligation
  body_obligation4, the recursion outsAt4 and its equations, after4_0 / after4_1 / after4_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond4_0 (i : grid4.Coords) : Prop :=
  (Scalar.cmpi .ne (Scalar.extui (Scalar.cmpi .eq (BitVec.ofNat 32 (i 0).val) 0#32)) 0#32) = 1#1

/-- It holds at the first point only: decided over the 50 points. -/
theorem hcond4_0 : ∀ t : Fin cfg4.N, cond4_0 (grid4.coords t) ↔ t.val = 0 :=
  (by decide +kernel : ∀ t : Fin grid4.N, cond4_0 (grid4.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun4_A (c : Dev nD) (i : grid4.Coords)
    (arg4 : Memref sig .tc .vmem S1000x256 .f32) (harg4 : arg4.IsWhole)
    (arg2 : Memref sig .tc .vmem S1x256 .f32) (harg2 : arg2.IsWhole)
    (arg3 : Memref sig .tc .vmem S1x256 .f32) (harg3 : arg3.IsWhole) (hc0 : cond4_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg4 fullShare x0 ∗ (∃ d, owns (c : Thread nD τ) arg2 fullShare d)
            ∗ (∃ d, owns (c : Thread nD τ) arg3 fullShare d)
            ∗ (iprop(owns (c : Thread nD τ) arg4 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4__sumsq_kernel i arg4 harg4 arg2 harg2 arg3 harg3) K } := by
  refine ⟨?_, ?_, fun E K => ?run⟩
  case run =>
    simp only [cc4__sumsq_kernel_eq_skeleton]; unfold cc4__sumsq_kernel_skel
    unfold owns
    iintro ⟨⟨%f0, %hf0, H0⟩, ⟨%d1, %f1, -, H1⟩, ⟨%d2, %f2, -, H2⟩, Hk⟩
    obtain rfl := harg4.eq_unread hf0
    sl_exec (disch := first | exact hc0)
    sl_step
    iapply Hk
    isplitl [H0]
    · iexists _; isplitr; · ipureintro; exact harg4.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun4_B (c : Dev nD) (i : grid4.Coords)
    (arg4 : Memref sig .tc .vmem S1000x256 .f32) (harg4 : arg4.IsWhole)
    (arg2 : Memref sig .tc .vmem S1x256 .f32) (harg2 : arg2.IsWhole)
    (arg3 : Memref sig .tc .vmem S1x256 .f32) (harg3 : arg3.IsWhole) (hc0 : ¬cond4_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg4 fullShare x0 ∗ owns (c : Thread nD τ) arg2 fullShare xo1
            ∗ owns (c : Thread nD τ) arg3 fullShare xo2
            ∗ (iprop(owns (c : Thread nD τ) arg4 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4__sumsq_kernel i arg4 harg4 arg2 harg2 arg3 harg3) K } := by
  refine ⟨?_, ?_, fun E K => ?run⟩
  case run =>
    simp only [cc4__sumsq_kernel_eq_skeleton]; unfold cc4__sumsq_kernel_skel
    unfold owns
    iintro ⟨⟨%f0, %hf0, H0⟩, ⟨%f1, %hf1, H1⟩, ⟨%f2, %hf2, H2⟩, Hk⟩
    obtain rfl := harg4.eq_unread hf0; obtain rfl := harg2.eq_unread hf1; obtain rfl := harg3.eq_unread hf2
    sl_exec (disch := first | exact hc0)
    sl_step
    iapply Hk
    isplitl [H0]
    · iexists _; isplitr; · ipureintro; exact harg4.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof data
    whose array is `V`'s and whose body leaves the block in place: unfetched, the block index has not moved. The
    window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the two output buffers -/

/-- The whole-block rectangle of a [1,256] buffer at zero offsets: every index lies in it. -/
private theorem mem_whole_S4x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover4_A_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) (y : S1x256.Idx) :
    ∃ pc ∈ (kernelRun4_A c i arg4 harg4 arg2 harg2 arg3 harg3 hc0 x0).1, y ∈ pc.1.set := by
  unfold kernelRun4_A
  dsimp only
  refine ⟨_, List.mem_cons_self, ?_⟩
  exact mem_whole_S4x256 inb_S1x256_S1x256_0_0 y

/-- Case A's stores into output 2 cover its block likewise. -/
theorem cover4_A_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) (y : S1x256.Idx) :
    ∃ pc ∈ (kernelRun4_A c i arg4 harg4 arg2 harg2 arg3 harg3 hc0 x0).2.1, y ∈ pc.1.set := by
  unfold kernelRun4_A
  dsimp only
  refine ⟨_, List.mem_cons_self, ?_⟩
  exact mem_whole_S4x256 inb_S1x256_S1x256_0_0 y

/-- Case B's one store into output 1 covers its block. -/
theorem cover4_B_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) (y : S1x256.Idx) :
    ∃ pc ∈ (kernelRun4_B c i arg4 harg4 arg2 harg2 arg3 harg3 hc0 x0 xo1 xo2).1, y ∈ pc.1.set := by
  unfold kernelRun4_B
  dsimp only
  refine ⟨_, List.mem_cons_self, ?_⟩
  exact mem_whole_S4x256 inb_S1x256_S1x256_0_0 y

/-- Case B's one store into output 2 covers its block. -/
theorem cover4_B_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) (y : S1x256.Idx) :
    ∃ pc ∈ (kernelRun4_B c i arg4 harg4 arg2 harg2 arg3 harg3 hc0 x0 xo1 xo2).2.1, y ∈ pc.1.set := by
  unfold kernelRun4_B
  dsimp only
  refine ⟨_, List.mem_cons_self, ?_⟩
  exact mem_whole_S4x256 inb_S1x256_S1x256_0_0 y

/-- What case A leaves in output 1's staging buffer: the canonical contents of its stores. -/
def out4_A_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) : Vec F S1x256 .f32 :=
  View.canon (kernelRun4_A c i arg4 harg4 arg2 harg2 arg3 harg3 hc0 x0).1

/-- What case A leaves in output 2's staging buffer. -/
def out4_A_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) : Vec F S1x256 .f32 :=
  View.canon (kernelRun4_A c i arg4 harg4 arg2 harg2 arg3 harg3 hc0 x0).2.1

/-- What case B leaves in output 1's staging buffer, from the input block and what the two outputs held. -/
def out4_B_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) : Vec F S1x256 .f32 :=
  View.canon (kernelRun4_B c i arg4 harg4 arg2 harg2 arg3 harg3 hc0 x0 xo1 xo2).1

/-- What case B leaves in output 2's staging buffer. -/
def out4_B_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) : Vec F S1x256 .f32 :=
  View.canon (kernelRun4_B c i arg4 harg4 arg2 harg2 arg3 harg3 hc0 x0 xo1 xo2).2.1

/-! ## What the outputs hold after each point -/

/-- Each window's current staging memref at point `t` is whole. -/
abbrev hs4_0 (t : Fin cfg4.N) : (st4_0 t).IsWhole := hstage4_0 ((cfg4.slots t 0).cast nbuf4_0)
abbrev hs4_1 (t : Fin cfg4.N) : (st4_1 t).IsWhole := hstage4_1 ((cfg4.slots t 1).cast nbuf4_1)
abbrev hs4_2 (t : Fin cfg4.N) : (st4_2 t).IsWhole := hstage4_2 ((cfg4.slots t 2).cast nbuf4_2)

/-- A later point is not the first, so the conditional is not taken there. -/
theorem ncond4_0 (t : Fin cfg4.N) (h0 : t.val ≠ 0) : ¬cond4_0 (grid4.coords t) := fun h => h0 ((hcond4_0 t).mp h)

/-- THE ACCUMULATION. What the two outputs' staging buffers hold after the body at point `n`: at the first point
    case A's contents of the point's input block; at a later point case B's contents of the point's input block and of
    what this recursion gives at `n - 1` (the buffers are not written back between). -/
def outsAt4 (c : Dev nD) : (n : ℕ) → n < cfg4.N → Vec F S1x256 .f32 × Vec F S1x256 .f32
  | 0, hn =>
    (out4_A_1 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
        ((hcond4_0 ⟨0, hn⟩).mpr rfl) (iblk4 V c 0 ⟨0, hn⟩),
     out4_A_2 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
        ((hcond4_0 ⟨0, hn⟩).mpr rfl) (iblk4 V c 0 ⟨0, hn⟩))
  | n + 1, hn =>
    (out4_B_1 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
        (ncond4_0 ⟨n + 1, hn⟩ (Nat.succ_ne_zero n)) (iblk4 V c 0 ⟨n + 1, hn⟩)
        (outsAt4 c n (Nat.lt_of_succ_lt hn)).1 (outsAt4 c n (Nat.lt_of_succ_lt hn)).2,
     out4_B_2 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
        (ncond4_0 ⟨n + 1, hn⟩ (Nat.succ_ne_zero n)) (iblk4 V c 0 ⟨n + 1, hn⟩)
        (outsAt4 c n (Nat.lt_of_succ_lt hn)).1 (outsAt4 c n (Nat.lt_of_succ_lt hn)).2)

/-- The recursion at point 0. -/
theorem outsAt4_zero (c : Dev nD) (hn : 0 < cfg4.N) :
    outsAt4 V c 0 hn =
      (out4_A_1 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
          ((hcond4_0 ⟨0, hn⟩).mpr rfl) (iblk4 V c 0 ⟨0, hn⟩),
       out4_A_2 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
          ((hcond4_0 ⟨0, hn⟩).mpr rfl) (iblk4 V c 0 ⟨0, hn⟩)) := rfl

/-- The recursion at point `n + 1`. -/
theorem outsAt4_succ (c : Dev nD) (n : ℕ) (hn : n + 1 < cfg4.N) :
    outsAt4 V c (n + 1) hn =
      (out4_B_1 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
          (ncond4_0 ⟨n + 1, hn⟩ (Nat.succ_ne_zero n)) (iblk4 V c 0 ⟨n + 1, hn⟩)
          (outsAt4 V c n (Nat.lt_of_succ_lt hn)).1 (outsAt4 V c n (Nat.lt_of_succ_lt hn)).2,
       out4_B_2 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
          (ncond4_0 ⟨n + 1, hn⟩ (Nat.succ_ne_zero n)) (iblk4 V c 0 ⟨n + 1, hn⟩)
          (outsAt4 V c n (Nat.lt_of_succ_lt hn)).1 (outsAt4 V c n (Nat.lt_of_succ_lt hn)).2) := rfl

/-- The recursion at a point of case A (the first), stated at the point. -/
theorem outsAt4_A (c : Dev nD) (t : Fin cfg4.N) (h0 : t.val = 0) :
    outsAt4 V c t.val t.isLt =
      (out4_A_1 c (grid4.coords t) (st4_0 t) (hs4_0 t) (st4_1 t) (hs4_1 t) (st4_2 t) (hs4_2 t) ((hcond4_0 t).mpr h0) (iblk4 V c 0 t),
       out4_A_2 c (grid4.coords t) (st4_0 t) (hs4_0 t) (st4_1 t) (hs4_1 t) (st4_2 t) (hs4_2 t) ((hcond4_0 t).mpr h0) (iblk4 V c 0 t)) := by
  obtain ⟨n, hn⟩ := t
  cases n with
  | zero => exact rfl
  | succ n => exact absurd h0 (Nat.succ_ne_zero n)

/-- The recursion at a point of case B (a later one), stated at the point: over what the point before left. -/
theorem outsAt4_B (c : Dev nD) (t : Fin cfg4.N) (h0 : t.val ≠ 0) :
    outsAt4 V c t.val t.isLt =
      (out4_B_1 c (grid4.coords t) (st4_0 t) (hs4_0 t) (st4_1 t) (hs4_1 t) (st4_2 t) (hs4_2 t) (ncond4_0 t h0) (iblk4 V c 0 t)
          (outsAt4 V c (t.val - 1) (Nat.lt_of_le_of_lt (Nat.sub_le _ _) t.isLt)).1
          (outsAt4 V c (t.val - 1) (Nat.lt_of_le_of_lt (Nat.sub_le _ _) t.isLt)).2,
       out4_B_2 c (grid4.coords t) (st4_0 t) (hs4_0 t) (st4_1 t) (hs4_1 t) (st4_2 t) (hs4_2 t) (ncond4_0 t h0) (iblk4 V c 0 t)
          (outsAt4 V c (t.val - 1) (Nat.lt_of_le_of_lt (Nat.sub_le _ _) t.isLt)).1
          (outsAt4 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 4 on core `c`: the arrays as the region finds them (`V`); after the body at point
    `t` the input's buffer at its block and the two outputs' at `outsAt4`; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]
theorem after4_2 (c : Dev nD) (t : Fin cfg4.N) : (dat4 V c).after 2 t = (outsAt4 V c t.val t.isLt).2 := by dsimp only [dat4]

/-- The input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d

/-- At a later point output 1's staging buffer holds what the body left at the point before: the point is not the
    first, the buffer was not written back between (it is written back after point 49 only), the window is live and
    uncut. -/
theorem before4_1_B (c : Dev nD) (t : Fin cfg4.N) (h0 : t.val ≠ 0) (d) :
    (dat4 V c).before 1 t d = (outsAt4 V c (t.val - 1) (Nat.lt_of_le_of_lt (Nat.sub_le _ _) t.isLt)).1 := by
  have hN : t.val < 50 := lt_of_lt_of_eq t.isLt (show cfg4.N = 50 from N_4)
  rw [Dat.before_out_kept _ 1 rfl t h0 (Bool.eq_false_iff.mpr fun h => by have := (flush4_1 _).mp h; dsimp only at this; omega)
    (fun _ => rfl) (fun _ _ => rfl)]
  dsimp only [dat4]

/-- Likewise output 2's. -/
theorem before4_2_B (c : Dev nD) (t : Fin cfg4.N) (h0 : t.val ≠ 0) (d) :
    (dat4 V c).before 2 t d = (outsAt4 V c (t.val - 1) (Nat.lt_of_le_of_lt (Nat.sub_le _ _) t.isLt)).2 := by
  have hN : t.val < 50 := lt_of_lt_of_eq t.isLt (show cfg4.N = 50 from N_4)
  rw [Dat.before_out_kept _ 2 rfl t h0 (Bool.eq_false_iff.mpr fun h => by have := (flush4_2 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  by_cases h0 : t.val = 0
  · rw [outsAt4_A V c t h0]
    dsimp only
    unfold out4_A_1 out4_A_2
    iintro ⟨HΦ, Ho, ⟨%d0, H0⟩, ⟨%d1, H1⟩, ⟨%d2, H2⟩⟩
    iapply ((kernelRun4_A c (grid4.coords t) _ _ _ _ _ _ ((hcond4_0 t).mpr h0) (iblk4 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover4_A_1 c _ _ _ _ _ _ _ _ _)
    · unfold owns; iexists _; isplitr
      swap; · iexact H2
      ipureintro; exact View.read_writes_eq_canon _ _ _ (cover4_A_2 c _ _ _ _ _ _ _ _ _)
  · rw [outsAt4_B V c t h0]
    dsimp only
    simp only [before4_1_B V c t h0, before4_2_B V c t h0]
    unfold out4_B_1 out4_B_2
    iintro ⟨HΦ, Ho, ⟨%d0, H0⟩, ⟨%d1, H1⟩, ⟨%d2, H2⟩⟩
    iapply ((kernelRun4_B c (grid4.coords t) _ _ _ _ _ _ (ncond4_0 t h0) (iblk4 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover4_B_1 c _ _ _ _ _ _ _ _ _ _ _)
    · unfold owns; iexists _; isplitr
      swap; · iexact H2
      ipureintro; exact View.read_writes_eq_canon _ _ _ (cover4_B_2 c _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.KB.Reg5.lean ====
/- REGION 5 of the kernel program: custom_call 5, `cc5__bn_relu_kernel` (pipeline 5), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out5_6`), it keeps nothing from point
   to point and names no semaphore, transfer, table or scratch: the plainest class of pipeline body.
   Stated here, for any float interpretation `F`: each window's block at a point (`iblk5`), that every input's
   staging buffer holds its block at every point (`before5_W_of`), the body's triple (`sound_kernel5`), the
   pipeline's proof data (`dat5`) and the body obligation (`body_obligation5`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [1000,256] buffer, and the whole [1,256] buffer: every load and the one store are of a whole buffer. -/
abbrev r5_0 : Rect S1000x256 := Rect.unit (s := S1000x256) ![0, 0] S1000x256.size inb_S1000x256_S1000x256_0_0
abbrev r5_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out5_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r5_0, k5_pay1 (View.ld x0 r5_0) (View.ld x1 r5_1) (View.ld x2 r5_1) (View.ld x3 r5_1) (View.ld x4 r5_1) (View.ld x5 r5_1)⟩]

/-- The one store is of the whole buffer (checked by evaluation), so it covers it. -/
theorem cover5_6 (p0 : Vec F S1000x256 .f32) (y : S1000x256.Idx) :
    ∃ pc ∈ ([⟨r5_0, p0⟩] : List (View.Piece (Elt F) S1000x256 .f32)), y ∈ pc.1.set :=
  View.cover_of_tiled [⟨r5_0, p0⟩] S1000x256.size (by rfl) y

/-! ## The body's triple -/

set_option maxHeartbeats 1000000 in
/-- The kernel body on whole staging memrefs, the inputs' at read contents `xW` and the output's at anything, runs to
    the continuation holding the inputs' as they were and the output's at `out5_6` of the inputs': the printed function
    is its skeleton, a sequence of whole-buffer loads and one whole-buffer store, which is run step by step. -/
theorem sound_kernel5 (c : Dev nD) (E : Set ℕ) (i : grid5.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_relu_kernel i arg1 harg1 arg2 harg2 arg3 harg3 arg4 harg4 arg5 harg5 arg6 harg6 arg7 harg7) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant that
    of the class (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents (the proof data's definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t` (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg
-- ==== Proof.KB.Reg6.lean ====
/- REGION 6 of the kernel program (custom_call 6, `cc6__matmul_kernel`, pipeline 6), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk6`); what the body leaves in the output buffer as a function
   of the two input blocks (`out6_2`); the body's triple on whole staging memrefs (`sound_kernel6`); the
   pipeline's proof data at `V` (`dat6`) with its projections; and the body obligation at every point
   (`body_obligation6`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block, its index moving with the point): its current staging buffer holds its block at
    every point, for ANY proof data whose array is `V`'s (`hA`) and whose body leaves the block in place
    (`hafter`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The full rectangle of each window's staging buffer: the row block's, the weight's, the output block's. -/
abbrev r6_0 : Rect S1000x256 := Rect.unit (s := S1000x256) ![0, 0] S1000x256.size inb_S1000x256_S1000x256_0_0
abbrev r6_1 : Rect S256x256 := Rect.unit (s := S256x256) ![0, 0] S256x256.size inb_S256x256_S256x256_0_0
abbrev r6_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out6_2 (xa : Vec F S1000x256 .f32) (xb : Vec F S256x256 .f32) : Vec F S1000x256 .f32 :=
  View.canon [⟨r6_2, k6_pay1 (View.ld xa r6_0) (View.ld xb r6_1)⟩]

/-- The one store is through the full rectangle, so it covers the buffer. -/
theorem cover6_2 (pa : Vec F S1000x256 .f32) (y : S1000x256.Idx) :
    ∃ pc ∈ ([⟨r6_2, pa⟩] : List (View.Piece (Elt F) S1000x256 .f32)), y ∈ pc.1.set :=
  View.cover_of_tiled [⟨r6_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out6_2 xa xb`: the printed function is its skeleton of three loads and one store, run one operation after
    the other; the load of the output buffer reads a value nothing uses. -/
theorem sound_kernel6 (c : Dev nD) (E : Set ℕ) (i : grid6.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out6_2 xa xb)) -∗ K ⟨⟩))
      ⊢ wp frame (wpE (defs₀ (F := F)) Variants.none c none) E (cc6__matmul_kernel i ma hma mb hmb mc hmc) K := by
  simp only [cc6__matmul_kernel_eq_skeleton]; unfold cc6__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover6_2 _)

/-! ## The pipeline's proof data -/

/-- The proof data of pipeline 6 on core `c`: the arrays as the region finds them (`V`); after the body at
    point `t` each input's buffer at its block and the output's at `out6_2` of the input blocks; the invariant the
    class's (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the body obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_0`, `before6_1`), so `sound_kernel6`
    applies; the invariant and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%da, Ha⟩, ⟨%db, Hb⟩, ⟨%dc, Hc⟩⟩
  iapply (sound_kernel6 c Set.univ (grid6.coords t) _ _ _ _ _ _ (iblk6 V c 0 t) (iblk6 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg
-- ==== Proof.KB.Reg7.lean ====
/-
  REGION 7 of the kernel program (custom_call 7, the kernel function cc7__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt7, with its two case equations outsAt7_zero and outsAt7_succ).
  Per case the body's triple is a subtype: the lists of stores (rectangle and payload, last first) each output buffer
  ends with, together with the proof that the body runs to a continuation holding exactly those stores written
  (kernelRun7_A, kernelRun7_B). What a buffer then READS is the canonical contents of its list (View.canon), since the
  last store of each list covers the block.

  Exported: the proof data dat7 (arrays at V, full shares, nothing owed), A_eq7, the body obligation
  body_obligation7, the recursion outsAt7 and its equations, after7_0 / after7_1 / after7_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond7_0 (i : grid7.Coords) : Prop :=
  (Scalar.cmpi .ne (Scalar.extui (Scalar.cmpi .eq (BitVec.ofNat 32 (i 0).val) 0#32)) 0#32) = 1#1

/-- It holds at the first point only: decided over the 50 points. -/
theorem hcond7_0 : ∀ t : Fin cfg7.N, cond7_0 (grid7.coords t) ↔ t.val = 0 :=
  (by decide +kernel : ∀ t : Fin grid7.N, cond7_0 (grid7.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun7_A (c : Dev nD) (i : grid7.Coords)
    (arg7 : Memref sig .tc .vmem S1000x256 .f32) (harg7 : arg7.IsWhole)
    (arg2 : Memref sig .tc .vmem S1x256 .f32) (harg2 : arg2.IsWhole)
    (arg3 : Memref sig .tc .vmem S1x256 .f32) (harg3 : arg3.IsWhole) (hc0 : cond7_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg7 fullShare x0 ∗ (∃ d, owns (c : Thread nD τ) arg2 fullShare d)
            ∗ (∃ d, owns (c : Thread nD τ) arg3 fullShare d)
            ∗ (iprop(owns (c : Thread nD τ) arg7 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7__sumsq_kernel i arg7 harg7 arg2 harg2 arg3 harg3) K } := by
  refine ⟨?_, ?_, fun E K => ?run⟩
  case run =>
    simp only [cc7__sumsq_kernel_eq_skeleton]; unfold cc7__sumsq_kernel_skel
    unfold owns
    iintro ⟨⟨%f0, %hf0, H0⟩, ⟨%d1, %f1, -, H1⟩, ⟨%d2, %f2, -, H2⟩, Hk⟩
    obtain rfl := harg7.eq_unread hf0
    sl_exec (disch := first | exact hc0)
    sl_step
    iapply Hk
    isplitl [H0]
    · iexists _; isplitr; · ipureintro; exact harg7.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun7_B (c : Dev nD) (i : grid7.Coords)
    (arg7 : Memref sig .tc .vmem S1000x256 .f32) (harg7 : arg7.IsWhole)
    (arg2 : Memref sig .tc .vmem S1x256 .f32) (harg2 : arg2.IsWhole)
    (arg3 : Memref sig .tc .vmem S1x256 .f32) (harg3 : arg3.IsWhole) (hc0 : ¬cond7_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg7 fullShare x0 ∗ owns (c : Thread nD τ) arg2 fullShare xo1
            ∗ owns (c : Thread nD τ) arg3 fullShare xo2
            ∗ (iprop(owns (c : Thread nD τ) arg7 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7__sumsq_kernel i arg7 harg7 arg2 harg2 arg3 harg3) K } := by
  refine ⟨?_, ?_, fun E K => ?run⟩
  case run =>
    simp only [cc7__sumsq_kernel_eq_skeleton]; unfold cc7__sumsq_kernel_skel
    unfold owns
    iintro ⟨⟨%f0, %hf0, H0⟩, ⟨%f1, %hf1, H1⟩, ⟨%f2, %hf2, H2⟩, Hk⟩
    obtain rfl := harg7.eq_unread hf0; obtain rfl := harg2.eq_unread hf1; obtain rfl := harg3.eq_unread hf2
    sl_exec (disch := first | exact hc0)
    sl_step
    iapply Hk
    isplitl [H0]
    · iexists _; isplitr; · ipureintro; exact harg7.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof data
    whose array is `V`'s and whose body leaves the block in place: unfetched, the block index has not moved. The
    window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves in the two output buffers -/

/-- The whole-block rectangle of a [1,256] buffer at zero offsets: every index lies in it. -/
private theorem mem_whole_S7x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover7_A_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) (y : S1x256.Idx) :
    ∃ pc ∈ (kernelRun7_A c i arg7 harg7 arg2 harg2 arg3 harg3 hc0 x0).1, y ∈ pc.1.set := by
  unfold kernelRun7_A
  dsimp only
  refine ⟨_, List.mem_cons_self, ?_⟩
  exact mem_whole_S7x256 inb_S1x256_S1x256_0_0 y

/-- Case A's stores into output 2 cover its block likewise. -/
theorem cover7_A_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) (y : S1x256.Idx) :
    ∃ pc ∈ (kernelRun7_A c i arg7 harg7 arg2 harg2 arg3 harg3 hc0 x0).2.1, y ∈ pc.1.set := by
  unfold kernelRun7_A
  dsimp only
  refine ⟨_, List.mem_cons_self, ?_⟩
  exact mem_whole_S7x256 inb_S1x256_S1x256_0_0 y

/-- Case B's one store into output 1 covers its block. -/
theorem cover7_B_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) (y : S1x256.Idx) :
    ∃ pc ∈ (kernelRun7_B c i arg7 harg7 arg2 harg2 arg3 harg3 hc0 x0 xo1 xo2).1, y ∈ pc.1.set := by
  unfold kernelRun7_B
  dsimp only
  refine ⟨_, List.mem_cons_self, ?_⟩
  exact mem_whole_S7x256 inb_S1x256_S1x256_0_0 y

/-- Case B's one store into output 2 covers its block. -/
theorem cover7_B_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) (y : S1x256.Idx) :
    ∃ pc ∈ (kernelRun7_B c i arg7 harg7 arg2 harg2 arg3 harg3 hc0 x0 xo1 xo2).2.1, y ∈ pc.1.set := by
  unfold kernelRun7_B
  dsimp only
  refine ⟨_, List.mem_cons_self, ?_⟩
  exact mem_whole_S7x256 inb_S1x256_S1x256_0_0 y

/-- What case A leaves in output 1's staging buffer: the canonical contents of its stores. -/
def out7_A_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) : Vec F S1x256 .f32 :=
  View.canon (kernelRun7_A c i arg7 harg7 arg2 harg2 arg3 harg3 hc0 x0).1

/-- What case A leaves in output 2's staging buffer. -/
def out7_A_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) : Vec F S1x256 .f32 :=
  View.canon (kernelRun7_A c i arg7 harg7 arg2 harg2 arg3 harg3 hc0 x0).2.1

/-- What case B leaves in output 1's staging buffer, from the input block and what the two outputs held. -/
def out7_B_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) : Vec F S1x256 .f32 :=
  View.canon (kernelRun7_B c i arg7 harg7 arg2 harg2 arg3 harg3 hc0 x0 xo1 xo2).1

/-- What case B leaves in output 2's staging buffer. -/
def out7_B_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) : Vec F S1x256 .f32 :=
  View.canon (kernelRun7_B c i arg7 harg7 arg2 harg2 arg3 harg3 hc0 x0 xo1 xo2).2.1

/-! ## What the outputs hold after each point -/

/-- Each window's current staging memref at point `t` is whole. -/
abbrev hs7_0 (t : Fin cfg7.N) : (st7_0 t).IsWhole := hstage7_0 ((cfg7.slots t 0).cast nbuf7_0)
abbrev hs7_1 (t : Fin cfg7.N) : (st7_1 t).IsWhole := hstage7_1 ((cfg7.slots t 1).cast nbuf7_1)
abbrev hs7_2 (t : Fin cfg7.N) : (st7_2 t).IsWhole := hstage7_2 ((cfg7.slots t 2).cast nbuf7_2)

/-- A later point is not the first, so the conditional is not taken there. -/
theorem ncond7_0 (t : Fin cfg7.N) (h0 : t.val ≠ 0) : ¬cond7_0 (grid7.coords t) := fun h => h0 ((hcond7_0 t).mp h)

/-- THE ACCUMULATION. What the two outputs' staging buffers hold after the body at point `n`: at the first point
    case A's contents of the point's input block; at a later point case B's contents of the point's input block and of
    what this recursion gives at `n - 1` (the buffers are not written back between). -/
def outsAt7 (c : Dev nD) : (n : ℕ) → n < cfg7.N → Vec F S1x256 .f32 × Vec F S1x256 .f32
  | 0, hn =>
    (out7_A_1 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
        ((hcond7_0 ⟨0, hn⟩).mpr rfl) (iblk7 V c 0 ⟨0, hn⟩),
     out7_A_2 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
        ((hcond7_0 ⟨0, hn⟩).mpr rfl) (iblk7 V c 0 ⟨0, hn⟩))
  | n + 1, hn =>
    (out7_B_1 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
        (ncond7_0 ⟨n + 1, hn⟩ (Nat.succ_ne_zero n)) (iblk7 V c 0 ⟨n + 1, hn⟩)
        (outsAt7 c n (Nat.lt_of_succ_lt hn)).1 (outsAt7 c n (Nat.lt_of_succ_lt hn)).2,
     out7_B_2 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
        (ncond7_0 ⟨n + 1, hn⟩ (Nat.succ_ne_zero n)) (iblk7 V c 0 ⟨n + 1, hn⟩)
        (outsAt7 c n (Nat.lt_of_succ_lt hn)).1 (outsAt7 c n (Nat.lt_of_succ_lt hn)).2)

/-- The recursion at point 0. -/
theorem outsAt7_zero (c : Dev nD) (hn : 0 < cfg7.N) :
    outsAt7 V c 0 hn =
      (out7_A_1 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
          ((hcond7_0 ⟨0, hn⟩).mpr rfl) (iblk7 V c 0 ⟨0, hn⟩),
       out7_A_2 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
          ((hcond7_0 ⟨0, hn⟩).mpr rfl) (iblk7 V c 0 ⟨0, hn⟩)) := rfl

/-- The recursion at point `n + 1`. -/
theorem outsAt7_succ (c : Dev nD) (n : ℕ) (hn : n + 1 < cfg7.N) :
    outsAt7 V c (n + 1) hn =
      (out7_B_1 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
          (ncond7_0 ⟨n + 1, hn⟩ (Nat.succ_ne_zero n)) (iblk7 V c 0 ⟨n + 1, hn⟩)
          (outsAt7 V c n (Nat.lt_of_succ_lt hn)).1 (outsAt7 V c n (Nat.lt_of_succ_lt hn)).2,
       out7_B_2 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
          (ncond7_0 ⟨n + 1, hn⟩ (Nat.succ_ne_zero n)) (iblk7 V c 0 ⟨n + 1, hn⟩)
          (outsAt7 V c n (Nat.lt_of_succ_lt hn)).1 (outsAt7 V c n (Nat.lt_of_succ_lt hn)).2) := rfl

/-- The recursion at a point of case A (the first), stated at the point. -/
theorem outsAt7_A (c : Dev nD) (t : Fin cfg7.N) (h0 : t.val = 0) :
    outsAt7 V c t.val t.isLt =
      (out7_A_1 c (grid7.coords t) (st7_0 t) (hs7_0 t) (st7_1 t) (hs7_1 t) (st7_2 t) (hs7_2 t) ((hcond7_0 t).mpr h0) (iblk7 V c 0 t),
       out7_A_2 c (grid7.coords t) (st7_0 t) (hs7_0 t) (st7_1 t) (hs7_1 t) (st7_2 t) (hs7_2 t) ((hcond7_0 t).mpr h0) (iblk7 V c 0 t)) := by
  obtain ⟨n, hn⟩ := t
  cases n with
  | zero => exact rfl
  | succ n => exact absurd h0 (Nat.succ_ne_zero n)

/-- The recursion at a point of case B (a later one), stated at the point: over what the point before left. -/
theorem outsAt7_B (c : Dev nD) (t : Fin cfg7.N) (h0 : t.val ≠ 0) :
    outsAt7 V c t.val t.isLt =
      (out7_B_1 c (grid7.coords t) (st7_0 t) (hs7_0 t) (st7_1 t) (hs7_1 t) (st7_2 t) (hs7_2 t) (ncond7_0 t h0) (iblk7 V c 0 t)
          (outsAt7 V c (t.val - 1) (Nat.lt_of_le_of_lt (Nat.sub_le _ _) t.isLt)).1
          (outsAt7 V c (t.val - 1) (Nat.lt_of_le_of_lt (Nat.sub_le _ _) t.isLt)).2,
       out7_B_2 c (grid7.coords t) (st7_0 t) (hs7_0 t) (st7_1 t) (hs7_1 t) (st7_2 t) (hs7_2 t) (ncond7_0 t h0) (iblk7 V c 0 t)
          (outsAt7 V c (t.val - 1) (Nat.lt_of_le_of_lt (Nat.sub_le _ _) t.isLt)).1
          (outsAt7 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 7 on core `c`: the arrays as the region finds them (`V`); after the body at point
    `t` the input's buffer at its block and the two outputs' at `outsAt7`; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1 := by dsimp only [dat7]
theorem after7_2 (c : Dev nD) (t : Fin cfg7.N) : (dat7 V c).after 2 t = (outsAt7 V c t.val t.isLt).2 := by dsimp only [dat7]

/-- The input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d

/-- At a later point output 1's staging buffer holds what the body left at the point before: the point is not the
    first, the buffer was not written back between (it is written back after point 49 only), the window is live and
    uncut. -/
theorem before7_1_B (c : Dev nD) (t : Fin cfg7.N) (h0 : t.val ≠ 0) (d) :
    (dat7 V c).before 1 t d = (outsAt7 V c (t.val - 1) (Nat.lt_of_le_of_lt (Nat.sub_le _ _) t.isLt)).1 := by
  have hN : t.val < 50 := lt_of_lt_of_eq t.isLt (show cfg7.N = 50 from N_7)
  rw [Dat.before_out_kept _ 1 rfl t h0 (Bool.eq_false_iff.mpr fun h => by have := (flush7_1 _).mp h; dsimp only at this; omega)
    (fun _ => rfl) (fun _ _ => rfl)]
  dsimp only [dat7]

/-- Likewise output 2's. -/
theorem before7_2_B (c : Dev nD) (t : Fin cfg7.N) (h0 : t.val ≠ 0) (d) :
    (dat7 V c).before 2 t d = (outsAt7 V c (t.val - 1) (Nat.lt_of_le_of_lt (Nat.sub_le _ _) t.isLt)).2 := by
  have hN : t.val < 50 := lt_of_lt_of_eq t.isLt (show cfg7.N = 50 from N_7)
  rw [Dat.before_out_kept _ 2 rfl t h0 (Bool.eq_false_iff.mpr fun h => by have := (flush7_2 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1, after7_2]
  by_cases h0 : t.val = 0
  · rw [outsAt7_A V c t h0]
    dsimp only
    unfold out7_A_1 out7_A_2
    iintro ⟨HΦ, Ho, ⟨%d0, H0⟩, ⟨%d1, H1⟩, ⟨%d2, H2⟩⟩
    iapply ((kernelRun7_A c (grid7.coords t) _ _ _ _ _ _ ((hcond7_0 t).mpr h0) (iblk7 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover7_A_1 c _ _ _ _ _ _ _ _ _)
    · unfold owns; iexists _; isplitr
      swap; · iexact H2
      ipureintro; exact View.read_writes_eq_canon _ _ _ (cover7_A_2 c _ _ _ _ _ _ _ _ _)
  · rw [outsAt7_B V c t h0]
    dsimp only
    simp only [before7_1_B V c t h0, before7_2_B V c t h0]
    unfold out7_B_1 out7_B_2
    iintro ⟨HΦ, Ho, ⟨%d0, H0⟩, ⟨%d1, H1⟩, ⟨%d2, H2⟩⟩
    iapply ((kernelRun7_B c (grid7.coords t) _ _ _ _ _ _ (ncond7_0 t h0) (iblk7 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover7_B_1 c _ _ _ _ _ _ _ _ _ _ _)
    · unfold owns; iexists _; isplitr
      swap; · iexact H2
      ipureintro; exact View.read_writes_eq_canon _ _ _ (cover7_B_2 c _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.KB.Reg8.lean ====
/- REGION 8 of the kernel program: custom_call 8, `cc8__bn_relu_kernel` (pipeline 8), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out8_6`), it keeps nothing from point
   to point and names no semaphore, transfer, table or scratch: the plainest class of pipeline body.
   Stated here, for any float interpretation `F`: each window's block at a point (`iblk8`), that every input's
   staging buffer holds its block at every point (`before8_W_of`), the body's triple (`sound_kernel8`), the
   pipeline's proof data (`dat8`) and the body obligation (`body_obligation8`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [1000,256] buffer, and the whole [1,256] buffer: every load and the one store are of a whole buffer. -/
abbrev r8_0 : Rect S1000x256 := Rect.unit (s := S1000x256) ![0, 0] S1000x256.size inb_S1000x256_S1000x256_0_0
abbrev r8_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out8_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r8_0, k8_pay1 (View.ld x0 r8_0) (View.ld x1 r8_1) (View.ld x2 r8_1) (View.ld x3 r8_1) (View.ld x4 r8_1) (View.ld x5 r8_1)⟩]

/-- The one store is of the whole buffer (checked by evaluation), so it covers it. -/
theorem cover8_6 (p0 : Vec F S1000x256 .f32) (y : S1000x256.Idx) :
    ∃ pc ∈ ([⟨r8_0, p0⟩] : List (View.Piece (Elt F) S1000x256 .f32)), y ∈ pc.1.set :=
  View.cover_of_tiled [⟨r8_0, p0⟩] S1000x256.size (by rfl) y

/-! ## The body's triple -/

set_option maxHeartbeats 1000000 in
/-- The kernel body on whole staging memrefs, the inputs' at read contents `xW` and the output's at anything, runs to
    the continuation holding the inputs' as they were and the output's at `out8_6` of the inputs': the printed function
    is its skeleton, a sequence of whole-buffer loads and one whole-buffer store, which is run step by step. -/
theorem sound_kernel8 (c : Dev nD) (E : Set ℕ) (i : grid8.Coords) (arg1 : Memref sig .tc .vmem S1000x256 .f32) (harg1 : arg1.IsWhole) (arg8 : Memref sig .tc .vmem S1x256 .f32) (harg2 : arg8.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg8 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg8 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__bn_relu_kernel i arg1 harg1 arg8 harg2 arg3 harg3 arg4 harg4 arg5 harg5 arg6 harg6 arg7 harg7) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them (`V`); after the body at
    point `t` each input's buffer at its block and the output's at `out8_6` of the input blocks; the invariant that
    of the class (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents (the proof data's definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t` (the body obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks (`before8_W`), so `sound_kernel8` applies; the
    invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Reg
-- ==== Proof.KB.Reg9.lean ====
/- REGION 9 of the kernel program (custom_call 9, `cc9__matmul_kernel`, pipeline 9), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk9`); what the body leaves in the output buffer as a function
   of the two input blocks (`out9_2`); the body's triple on whole staging memrefs (`sound_kernel9`); the
   pipeline's proof data at `V` (`dat9`) with its projections; and the body obligation at every point
   (`body_obligation9`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row block, its index moving with the point): its current staging buffer holds its block at
    every point, for ANY proof data whose array is `V`'s (`hA`) and whose body leaves the block in place
    (`hafter`); the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The full rectangle of each window's staging buffer: the row block's, the weight's, the output block's. -/
abbrev r9_0 : Rect S1000x256 := Rect.unit (s := S1000x256) ![0, 0] S1000x256.size inb_S1000x256_S1000x256_0_0
abbrev r9_1 : Rect S256x256 := Rect.unit (s := S256x256) ![0, 0] S256x256.size inb_S256x256_S256x256_0_0
abbrev r9_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out9_2 (xa : Vec F S1000x256 .f32) (xb : Vec F S256x256 .f32) : Vec F S1000x256 .f32 :=
  View.canon [⟨r9_2, k9_pay1 (View.ld xa r9_0) (View.ld xb r9_1)⟩]

/-- The one store is through the full rectangle, so it covers the buffer. -/
theorem cover9_2 (pa : Vec F S1000x256 .f32) (y : S1000x256.Idx) :
    ∃ pc ∈ ([⟨r9_2, pa⟩] : List (View.Piece (Elt F) S1000x256 .f32)), y ∈ pc.1.set :=
  View.cover_of_tiled [⟨r9_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out9_2 xa xb`: the printed function is its skeleton of three loads and one store, run one operation after
    the other; the load of the output buffer reads a value nothing uses. -/
theorem sound_kernel9 (c : Dev nD) (E : Set ℕ) (i : grid9.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out9_2 xa xb)) -∗ K ⟨⟩))
      ⊢ wp frame (wpE (defs₀ (F := F)) Variants.none c none) E (cc9__matmul_kernel i ma hma mb hmb mc hmc) K := by
  simp only [cc9__matmul_kernel_eq_skeleton]; unfold cc9__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover9_2 _)

/-! ## The pipeline's proof data -/

/-- The proof data of pipeline 9 on core `c`: the arrays as the region finds them (`V`); after the body at
    point `t` each input's buffer at its block and the output's at `out9_2` of the input blocks; the invariant the
    class's (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t` (the body obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks (`before9_0`, `before9_1`), so `sound_kernel9`
    applies; the invariant and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%da, Ha⟩, ⟨%db, Hb⟩, ⟨%dc, Hc⟩⟩
  iapply (sound_kernel9 c Set.univ (grid9.coords t) _ _ _ _ _ _ (iblk9 V c 0 t) (iblk9 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Reg
-- ==== Proof.KB.ChainA.lean ====
-- laid out by: scratch/mkchain.js ChainA proof/Proof/KI/ChainA.lean
/- THE KERNEL PROGRAM'S BUFFER CONTENTS BETWEEN ITEMS, first part: from the launch to region 9's exit.
   @main of the kernel program is 64 items in order: stretches of host operations and 31 kernel regions (regions 8 and
   9 adjacent, three stretches before region 0). Between two items core `c` holds every unscoped buffer whole, at
   contents `WJ m c` (J = 0 … 64) that are a FOLD from the launch memory `m`: a stretch takes `W` to
   `StableHlo.after ops W`; a region entered at `W` leaves its arrays at what its pipeline's write-backs fold to, the
   region's proof data being taken at `W`, and every other buffer as entered. Stated beside each boundary, for any
   float interpretation `F`: what a region's arrays hold (`WJ_arr`), that a buffer the item does not write keeps its
   contents (`WJ_keep`, `WJ_of_ne`), the two facts a region's exit needs (`hFK`, `hrestK`), and that an argument of @main
   still holds its launch contents (`WJ_arg`): the arguments are the first twenty HBM buffers and every buffer an item
   writes has a later index. -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import proofs.«146967_j25786983645193_1_alg».proof.Proof.KB.RegionsP
import proofs.«146967_j25786983645193_1_alg».proof.Proof.KB.Reg0
import proofs.«146967_j25786983645193_1_alg».proof.Proof.KB.Reg1
import proofs.«146967_j25786983645193_1_alg».proof.Proof.KB.Reg2
import proofs.«146967_j25786983645193_1_alg».proof.Proof.KB.Reg3
import proofs.«146967_j25786983645193_1_alg».proof.Proof.KB.Reg4
import proofs.«146967_j25786983645193_1_alg».proof.Proof.KB.Reg5
import proofs.«146967_j25786983645193_1_alg».proof.Proof.KB.Reg6
import proofs.«146967_j25786983645193_1_alg».proof.Proof.KB.Reg7
import proofs.«146967_j25786983645193_1_alg».proof.Proof.KB.Reg8
import proofs.«146967_j25786983645193_1_alg».proof.Proof.KB.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references: the form a region's proof data take them in. -/
abbrev rd (W : Dev nD → Valuation τ sig (Elt F)) : (c : Dev nD) → (b : Ref sig .tc) → Buf (Elt F) ((c : Thread nD τ).loc b) :=
  fun c b => W c b

/-! ## The arguments

@main's arguments are the first twenty HBM buffers; every buffer a host operation writes and every output array of a
region has a later index. So an argument is written by no item, and the fold below, read at an argument's buffer, walks
back to the launch memory. -/

/-- @main's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- An argument's index among the HBM buffers is below twenty. -/
theorem args_lt {b : Ref sig .tc} (hb : b ∈ args) : b.idx.val < 20 :=
  of_decide_eq_true (List.all_eq_true.mp (by decide : (args.all fun b => decide (b.idx.val < 20)) = true) b hb)

/-- An argument is not in a list of references of index twenty or more. -/
theorem args_not_mem {l : List (Ref sig .tc)} (hl : (l.all fun r => decide (20 ≤ r.idx.val)) = true)
    {b : Ref sig .tc} (hb : b ∈ args) : b ∉ l :=
  fun h => absurd (of_decide_eq_true (List.all_eq_true.mp hl b h)) (Nat.not_le.2 (args_lt hb))

/-- Among windows whose output arrays have index twenty or more, a window whose array is an argument is an input. -/
theorem args_in {n : Nat} {isOut : Fin n → Bool} {ref : Fin n → Ref sig .tc}
    (h : ∀ w, isOut w = true → 20 ≤ (ref w).idx.val) {b : Ref sig .tc} (hb : b ∈ args) :
    ∀ w, ref w = b → isOut w = false := fun w e => by
  cases hw : isOut w
  · rfl
  · exact absurd (e ▸ h w hw) (Nat.not_le.2 (args_lt hb))

/-! ## The buffer contents at each boundary between two items of @main: a fold from the launch memory

A stretch of host operations takes the contents `W` to `StableHlo.after ops W`. A kernel region entered at `W` leaves its
arrays at what its pipeline's write-backs fold to (`Dat.arrAt … N`: an input as entered, an output its blocks written
back) and every other buffer as entered (`Pipeline.withArrays`). Beside each boundary: a reference the item does not
write keeps its contents (`WJ_keep`), so an argument still holds its launch contents there (`WJ_arg`). -/

/-- Core `c`'s buffers at launch. -/
abbrev W0 : Dev nD → Valuation τ sig (Elt F) := fun c b => m (c, b)
theorem W0_arg (c : Dev nD) {b : Ref sig .tc} (hb : b ∈ args) :
    W0 m c (Proc.devRef .tc b) = m ((c : Thread nD τ).loc b) := rfl

/-- Every reference `hostOps0` writes has index twenty or more. -/
theorem hostOps0_ge : (hostOps0_W.all fun r => decide (20 ≤ r.idx.val)) = true := by decide
/-- After `hostOps0`. -/
abbrev W1 : Dev nD → Valuation τ sig (Elt F) := fun c => StableHlo.after hostOps0 (W0 m c)
theorem W1_keep (c : Dev nD) (b : Ref sig .tc) (h : b ∉ hostOps0_W) :
    W1 m c (Proc.devRef .tc b) = W0 m c (Proc.devRef .tc b) :=
  StableHlo.after_of_writes_sub hostOps0 _ hostOps0_writes h
theorem W1_arg (c : Dev nD) {b : Ref sig .tc} (hb : b ∈ args) :
    W1 m c (Proc.devRef .tc b) = m ((c : Thread nD τ).loc b) :=
  (W1_keep m c b (args_not_mem hostOps0_ge hb)).trans (W0_arg m c hb)

/-- Every reference `hostOps0_1` writes has index twenty or more. -/
theorem hostOps0_1_ge : (hostOps0_1_W.all fun r => decide (20 ≤ r.idx.val)) = true := by decide
/-- After `hostOps0_1`. -/
abbrev W2 : Dev nD → Valuation τ sig (Elt F) := fun c => StableHlo.after hostOps0_1 (W1 m c)
theorem W2_keep (c : Dev nD) (b : Ref sig .tc) (h : b ∉ hostOps0_1_W) :
    W2 m c (Proc.devRef .tc b) = W1 m c (Proc.devRef .tc b) :=
  StableHlo.after_of_writes_sub hostOps0_1 _ hostOps0_1_writes h
theorem W2_arg (c : Dev nD) {b : Ref sig .tc} (hb : b ∈ args) :
    W2 m c (Proc.devRef .tc b) = m ((c : Thread nD τ).loc b) :=
  (W2_keep m c b (args_not_mem hostOps0_1_ge hb)).trans (W1_arg m c hb)

/-- Every reference `hostOps0_2` writes has index twenty or more. -/
theorem hostOps0_2_ge : (hostOps0_2_W.all fun r => decide (20 ≤ r.idx.val)) = true := by decide
/-- After `hostOps0_2`. -/
abbrev W3 : Dev nD → Valuation τ sig (Elt F) := fun c => StableHlo.after hostOps0_2 (W2 m c)
theorem W3_keep (c : Dev nD) (b : Ref sig .tc) (h : b ∉ hostOps0_2_W) :
    W3 m c (Proc.devRef .tc b) = W2 m c (Proc.devRef .tc b) :=
  StableHlo.after_of_writes_sub hostOps0_2 _ hostOps0_2_writes h
theorem W3_arg (c : Dev nD) {b : Ref sig .tc} (hb : b ∈ args) :
    W3 m c (Proc.devRef .tc b) = m ((c : Thread nD τ).loc b) :=
  (W3_keep m c b (args_not_mem hostOps0_2_ge hb)).trans (W2_arg m c hb)

/-- Every output array of region 0 has index twenty or more. -/
theorem out0_ge : ∀ w, (cfg0.win w).isOut = true → 20 ≤ (Pipeline.arrRef spec0 w).idx.val := by decide
/-- At region 0's exit: its arrays at what the pipeline leaves, every other buffer as entered. -/
def W4 (c : Dev nD) : Valuation τ sig (Elt F) :=
  Pipeline.withArrays spec0 c (W3 m c) fun w => (dat0 (rd (W3 m)) c).arrAt w cfg0.N
theorem W4_arr (c : Dev nD) (w : Fin cfg0.W) :
    W4 m c (Proc.devRef .tc (Pipeline.arrRef spec0 w)) = (dat0 (rd (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- At region 0's exit each of its arrays holds what the pipeline leaves (`hF0`) and every other buffer what it held
    at entry (`hrest0`). -/
theorem hF0 (c : Dev nD) (w : Fin cfg0.W) :
    (dat0 (rd (W3 m)) c).arrAt w cfg0.N = rd (W4 m) c (Pipeline.arrRef spec0 w) :=
  (W4_arr m c w).symm
theorem hrest0 (c : Dev nD) : ∀ b, b ∉ Finset.univ.image (Pipeline.arrRef spec0) → rd (W4 m) c b = rd (W3 m) c b :=
  fun b hb => W4_of_ne m c b fun w e => hb (Finset.mem_image.mpr ⟨w, Finset.mem_univ _, e⟩)
/-- A reference that is no OUTPUT array of region 0 keeps its contents: an input array is left as entered, a buffer
    that is no array of the region bypasses it. -/
theorem W4_keep (c : Dev nD) (b : Ref sig .tc) (hb : ∀ w, Pipeline.arrRef spec0 w = b → (cfg0.win w).isOut = false) :
    W4 m c (Proc.devRef .tc b) = W3 m c (Proc.devRef .tc b) := by
  by_cases h : ∃ w, Pipeline.arrRef spec0 w = b
  · obtain ⟨w, rfl⟩ := h
    exact (W4_arr m c w).trans (((dat0 (rd (W3 m)) c).arrAt_in w (hb w rfl) _).trans (A_eq0 (rd (W3 m)) c w))
  · exact W4_of_ne m c b fun w e => h ⟨w, e⟩
theorem W4_arg (c : Dev nD) {b : Ref sig .tc} (hb : b ∈ args) :
    W4 m c (Proc.devRef .tc b) = m ((c : Thread nD τ).loc b) :=
  (W4_keep m c b (args_in out0_ge hb)).trans (W3_arg m c hb)

/-- Every reference `hostOps1` writes has index twenty or more. -/
theorem hostOps1_ge : (hostOps1_W.all fun r => decide (20 ≤ r.idx.val)) = true := by decide
/-- After `hostOps1`. -/
abbrev W5 : Dev nD → Valuation τ sig (Elt F) := fun c => StableHlo.after hostOps1 (W4 m c)
theorem W5_keep (c : Dev nD) (b : Ref sig .tc) (h : b ∉ hostOps1_W) :
    W5 m c (Proc.devRef .tc b) = W4 m c (Proc.devRef .tc b) :=
  StableHlo.after_of_writes_sub hostOps1 _ hostOps1_writes h
theorem W5_arg (c : Dev nD) {b : Ref sig .tc} (hb : b ∈ args) :
    W5 m c (Proc.devRef .tc b) = m ((c : Thread nD τ).loc b) :=
  (W5_keep m c b (args_not_mem hostOps1_ge hb)).trans (W4_arg m c hb)

/-- Every output array of region 1 has index twenty or more. -/
theorem out1_ge : ∀ w, (cfg1.win w).isOut = true → 20 ≤ (Pipeline.arrRef spec1 w).idx.val := by decide
/-- At region 1's exit: its arrays at what the pipeline leaves, every other buffer as entered. -/
def W6 (c : Dev nD) : Valuation τ sig (Elt F) :=
  Pipeline.withArrays spec1 c (W5 m c) fun w => (dat1 (rd (W5 m)) c).arrAt w cfg1.N
theorem W6_arr (c : Dev nD) (w : Fin cfg1.W) :
    W6 m c (Proc.devRef .tc (Pipeline.arrRef spec1 w)) = (dat1 (rd (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- At region 1's exit each of its arrays holds what the pipeline leaves (`hF1`) and every other buffer what it held
    at entry (`hrest1`). -/
theorem hF1 (c : Dev nD) (w : Fin cfg1.W) :
    (dat1 (rd (W5 m)) c).arrAt w cfg1.N = rd (W6 m) c (Pipeline.arrRef spec1 w) :=
  (W6_arr m c w).symm
theorem hrest1 (c : Dev nD) : ∀ b, b ∉ Finset.univ.image (Pipeline.arrRef spec1) → rd (W6 m) c b = rd (W5 m) c b :=
  fun b hb => W6_of_ne m c b fun w e => hb (Finset.mem_image.mpr ⟨w, Finset.mem_univ _, e⟩)
/-- A reference that is no OUTPUT array of region 1 keeps its contents: an input array is left as entered, a buffer
    that is no array of the region bypasses it. -/
theorem W6_keep (c : Dev nD) (b : Ref sig .tc) (hb : ∀ w, Pipeline.arrRef spec1 w = b → (cfg1.win w).isOut = false) :
    W6 m c (Proc.devRef .tc b) = W5 m c (Proc.devRef .tc b) := by
  by_cases h : ∃ w, Pipeline.arrRef spec1 w = b
  · obtain ⟨w, rfl⟩ := h
    exact (W6_arr m c w).trans (((dat1 (rd (W5 m)) c).arrAt_in w (hb w rfl) _).trans (A_eq1 (rd (W5 m)) c w))
  · exact W6_of_ne m c b fun w e => h ⟨w, e⟩
theorem W6_arg (c : Dev nD) {b : Ref sig .tc} (hb : b ∈ args) :
    W6 m c (Proc.devRef .tc b) = m ((c : Thread nD τ).loc b) :=
  (W6_keep m c b (args_in out1_ge hb)).trans (W5_arg m c hb)

/-- Every reference `hostOps2` writes has index twenty or more. -/
theorem hostOps2_ge : (hostOps2_W.all fun r => decide (20 ≤ r.idx.val)) = true := by decide
/-- After `hostOps2`. -/
abbrev W7 : Dev nD → Valuation τ sig (Elt F) := fun c => StableHlo.after hostOps2 (W6 m c)
theorem W7_keep (c : Dev nD) (b : Ref sig .tc) (h : b ∉ hostOps2_W) :
    W7 m c (Proc.devRef .tc b) = W6 m c (Proc.devRef .tc b) :=
  StableHlo.after_of_writes_sub hostOps2 _ hostOps2_writes h
theorem W7_arg (c : Dev nD) {b : Ref sig .tc} (hb : b ∈ args) :
    W7 m c (Proc.devRef .tc b) = m ((c : Thread nD τ).loc b) :=
  (W7_keep m c b (args_not_mem hostOps2_ge hb)).trans (W6_arg m c hb)

/-- Every output array of region 2 has index twenty or more. -/
theorem out2_ge : ∀ w, (cfg2.win w).isOut = true → 20 ≤ (Pipeline.arrRef spec2 w).idx.val := by decide
/-- At region 2's exit: its arrays at what the pipeline leaves, every other buffer as entered. -/
def W8 (c : Dev nD) : Valuation τ sig (Elt F) :=
  Pipeline.withArrays spec2 c (W7 m c) fun w => (dat2 (rd (W7 m)) c).arrAt w cfg2.N
theorem W8_arr (c : Dev nD) (w : Fin cfg2.W) :
    W8 m c (Proc.devRef .tc (Pipeline.arrRef spec2 w)) = (dat2 (rd (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- At region 2's exit each of its arrays holds what the pipeline leaves (`hF2`) and every other buffer what it held
    at entry (`hrest2`). -/
theorem hF2 (c : Dev nD) (w : Fin cfg2.W) :
    (dat2 (rd (W7 m)) c).arrAt w cfg2.N = rd (W8 m) c (Pipeline.arrRef spec2 w) :=
  (W8_arr m c w).symm
theorem hrest2 (c : Dev nD) : ∀ b, b ∉ Finset.univ.image (Pipeline.arrRef spec2) → rd (W8 m) c b = rd (W7 m) c b :=
  fun b hb => W8_of_ne m c b fun w e => hb (Finset.mem_image.mpr ⟨w, Finset.mem_univ _, e⟩)
/-- A reference that is no OUTPUT array of region 2 keeps its contents: an input array is left as entered, a buffer
    that is no array of the region bypasses it. -/
theorem W8_keep (c : Dev nD) (b : Ref sig .tc) (hb : ∀ w, Pipeline.arrRef spec2 w = b → (cfg2.win w).isOut = false) :
    W8 m c (Proc.devRef .tc b) = W7 m c (Proc.devRef .tc b) := by
  by_cases h : ∃ w, Pipeline.arrRef spec2 w = b
  · obtain ⟨w, rfl⟩ := h
    exact (W8_arr m c w).trans (((dat2 (rd (W7 m)) c).arrAt_in w (hb w rfl) _).trans (A_eq2 (rd (W7 m)) c w))
  · exact W8_of_ne m c b fun w e => h ⟨w, e⟩
theorem W8_arg (c : Dev nD) {b : Ref sig .tc} (hb : b ∈ args) :
    W8 m c (Proc.devRef .tc b) = m ((c : Thread nD τ).loc b) :=
  (W8_keep m c b (args_in out2_ge hb)).trans (W7_arg m c hb)

/-- Every reference `hostOps3` writes has index twenty or more. -/
theorem hostOps3_ge : (hostOps3_W.all fun r => decide (20 ≤ r.idx.val)) = true := by decide
/-- After `hostOps3`. -/
abbrev W9 : Dev nD → Valuation τ sig (Elt F) := fun c => StableHlo.after hostOps3 (W8 m c)
theorem W9_keep (c : Dev nD) (b : Ref sig .tc) (h : b ∉ hostOps3_W) :
    W9 m c (Proc.devRef .tc b) = W8 m c (Proc.devRef .tc b) :=
  StableHlo.after_of_writes_sub hostOps3 _ hostOps3_writes h
theorem W9_arg (c : Dev nD) {b : Ref sig .tc} (hb : b ∈ args) :
    W9 m c (Proc.devRef .tc b) = m ((c : Thread nD τ).loc b) :=
  (W9_keep m c b (args_not_mem hostOps3_ge hb)).trans (W8_arg m c hb)

/-- Every output array of region 3 has index twenty or more. -/
theorem out3_ge : ∀ w, (cfg3.win w).isOut = true → 20 ≤ (Pipeline.arrRef spec3 w).idx.val := by decide
/-- At region 3's exit: its arrays at what the pipeline leaves, every other buffer as entered. -/
def W10 (c : Dev nD) : Valuation τ sig (Elt F) :=
  Pipeline.withArrays spec3 c (W9 m c) fun w => (dat3 (rd (W9 m)) c).arrAt w cfg3.N
theorem W10_arr (c : Dev nD) (w : Fin cfg3.W) :
    W10 m c (Proc.devRef .tc (Pipeline.arrRef spec3 w)) = (dat3 (rd (W9 m)) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- At region 3's exit each of its arrays holds what the pipeline leaves (`hF3`) and every other buffer what it held
    at entry (`hrest3`). -/
theorem hF3 (c : Dev nD) (w : Fin cfg3.W) :
    (dat3 (rd (W9 m)) c).arrAt w cfg3.N = rd (W10 m) c (Pipeline.arrRef spec3 w) :=
  (W10_arr m c w).symm
theorem hrest3 (c : Dev nD) : ∀ b, b ∉ Finset.univ.image (Pipeline.arrRef spec3) → rd (W10 m) c b = rd (W9 m) c b :=
  fun b hb => W10_of_ne m c b fun w e => hb (Finset.mem_image.mpr ⟨w, Finset.mem_univ _, e⟩)
/-- A reference that is no OUTPUT array of region 3 keeps its contents: an input array is left as entered, a buffer
    that is no array of the region bypasses it. -/
theorem W10_keep (c : Dev nD) (b : Ref sig .tc) (hb : ∀ w, Pipeline.arrRef spec3 w = b → (cfg3.win w).isOut = false) :
    W10 m c (Proc.devRef .tc b) = W9 m c (Proc.devRef .tc b) := by
  by_cases h : ∃ w, Pipeline.arrRef spec3 w = b
  · obtain ⟨w, rfl⟩ := h
    exact (W10_arr m c w).trans (((dat3 (rd (W9 m)) c).arrAt_in w (hb w rfl) _).trans (A_eq3 (rd (W9 m)) c w))
  · exact W10_of_ne m c b fun w e => h ⟨w, e⟩
theorem W10_arg (c : Dev nD) {b : Ref sig .tc} (hb : b ∈ args) :
    W10 m c (Proc.devRef .tc b) = m ((c : Thread nD τ).loc b) :=
  (W10_keep m c b (args_in out3_ge hb)).trans (W9_arg m c hb)

/-- Every reference `hostOps4` writes has index twenty or more. -/
theorem hostOps4_ge : (hostOps4_W.all fun r => decide (20 ≤ r.idx.val)) = true := by decide
/-- After `hostOps4`. -/
abbrev W11 : Dev nD → Valuation τ sig (Elt F) := fun c => StableHlo.after hostOps4 (W10 m c)
theorem W11_keep (c : Dev nD) (b : Ref sig .tc) (h : b ∉ hostOps4_W) :
    W11 m c (Proc.devRef .tc b) = W10 m c (Proc.devRef .tc b) :=
  StableHlo.after_of_writes_sub hostOps4 _ hostOps4_writes h
theorem W11_arg (c : Dev nD) {b : Ref sig .tc} (hb : b ∈ args) :
    W11 m c (Proc.devRef .tc b) = m ((c : Thread nD τ).loc b) :=
  (W11_keep m c b (args_not_mem hostOps4_ge hb)).trans (W10_arg m c hb)

/-- Every output array of region 4 has index twenty or more. -/
theorem out4_ge : ∀ w, (cfg4.win w).isOut = true → 20 ≤ (Pipeline.arrRef spec4 w).idx.val := by decide
/-- At region 4's exit: its arrays at what the pipeline leaves, every other buffer as entered. -/
def W12 (c : Dev nD) : Valuation τ sig (Elt F) :=
  Pipeline.withArrays spec4 c (W11 m c) fun w => (dat4 (rd (W11 m)) c).arrAt w cfg4.N
theorem W12_arr (c : Dev nD) (w : Fin cfg4.W) :
    W12 m c (Proc.devRef .tc (Pipeline.arrRef spec4 w)) = (dat4 (rd (W11 m)) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- At region 4's exit each of its arrays holds what the pipeline leaves (`hF4`) and every other buffer what it held
    at entry (`hrest4`). -/
theorem hF4 (c : Dev nD) (w : Fin cfg4.W) :
    (dat4 (rd (W11 m)) c).arrAt w cfg4.N = rd (W12 m) c (Pipeline.arrRef spec4 w) :=
  (W12_arr m c w).symm
theorem hrest4 (c : Dev nD) : ∀ b, b ∉ Finset.univ.image (Pipeline.arrRef spec4) → rd (W12 m) c b = rd (W11 m) c b :=
  fun b hb => W12_of_ne m c b fun w e => hb (Finset.mem_image.mpr ⟨w, Finset.mem_univ _, e⟩)
/-- A reference that is no OUTPUT array of region 4 keeps its contents: an input array is left as entered, a buffer
    that is no array of the region bypasses it. -/
theorem W12_keep (c : Dev nD) (b : Ref sig .tc) (hb : ∀ w, Pipeline.arrRef spec4 w = b → (cfg4.win w).isOut = false) :
    W12 m c (Proc.devRef .tc b) = W11 m c (Proc.devRef .tc b) := by
  by_cases h : ∃ w, Pipeline.arrRef spec4 w = b
  · obtain ⟨w, rfl⟩ := h
    exact (W12_arr m c w).trans (((dat4 (rd (W11 m)) c).arrAt_in w (hb w rfl) _).trans (A_eq4 (rd (W11 m)) c w))
  · exact W12_of_ne m c b fun w e => h ⟨w, e⟩
theorem W12_arg (c : Dev nD) {b : Ref sig .tc} (hb : b ∈ args) :
    W12 m c (Proc.devRef .tc b) = m ((c : Thread nD τ).loc b) :=
  (W12_keep m c b (args_in out4_ge hb)).trans (W11_arg m c hb)

/-- Every reference `hostOps5` writes has index twenty or more. -/
theorem hostOps5_ge : (hostOps5_W.all fun r => decide (20 ≤ r.idx.val)) = true := by decide
/-- After `hostOps5`. -/
abbrev W13 : Dev nD → Valuation τ sig (Elt F) := fun c => StableHlo.after hostOps5 (W12 m c)
theorem W13_keep (c : Dev nD) (b : Ref sig .tc) (h : b ∉ hostOps5_W) :
    W13 m c (Proc.devRef .tc b) = W12 m c (Proc.devRef .tc b) :=
  StableHlo.after_of_writes_sub hostOps5 _ hostOps5_writes h
theorem W13_arg (c : Dev nD) {b : Ref sig .tc} (hb : b ∈ args) :
    W13 m c (Proc.devRef .tc b) = m ((c : Thread nD τ).loc b) :=
  (W13_keep m c b (args_not_mem hostOps5_ge hb)).trans (W12_arg m c hb)

/-- Every output array of region 5 has index twenty or more. -/
theorem out5_ge : ∀ w, (cfg5.win w).isOut = true → 20 ≤ (Pipeline.arrRef spec5 w).idx.val := by decide
/-- At region 5's exit: its arrays at what the pipeline leaves, every other buffer as entered. -/
def W14 (c : Dev nD) : Valuation τ sig (Elt F) :=
  Pipeline.withArrays spec5 c (W13 m c) fun w => (dat5 (rd (W13 m)) c).arrAt w cfg5.N
theorem W14_arr (c : Dev nD) (w : Fin cfg5.W) :
    W14 m c (Proc.devRef .tc (Pipeline.arrRef spec5 w)) = (dat5 (rd (W13 m)) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
/-- At region 5's exit each of its arrays holds what the pipeline leaves (`hF5`) and every other buffer what it held
    at entry (`hrest5`). -/
theorem hF5 (c : Dev nD) (w : Fin cfg5.W) :
    (dat5 (rd (W13 m)) c).arrAt w cfg5.N = rd (W14 m) c (Pipeline.arrRef spec5 w) :=
  (W14_arr m c w).symm
theorem hrest5 (c : Dev nD) : ∀ b, b ∉ Finset.univ.image (Pipeline.arrRef spec5) → rd (W14 m) c b = rd (W13 m) c b :=
  fun b hb => W14_of_ne m c b fun w e => hb (Finset.mem_image.mpr ⟨w, Finset.mem_univ _, e⟩)
/-- A reference that is no OUTPUT array of region 5 keeps its contents: an input array is left as entered, a buffer
    that is no array of the region bypasses it. -/
theorem W14_keep (c : Dev nD) (b : Ref sig .tc) (hb : ∀ w, Pipeline.arrRef spec5 w = b → (cfg5.win w).isOut = false) :
    W14 m c (Proc.devRef .tc b) = W13 m c (Proc.devRef .tc b) := by
  by_cases h : ∃ w, Pipeline.arrRef spec5 w = b
  · obtain ⟨w, rfl⟩ := h
    exact (W14_arr m c w).trans (((dat5 (rd (W13 m)) c).arrAt_in w (hb w rfl) _).trans (A_eq5 (rd (W13 m)) c w))
  · exact W14_of_ne m c b fun w e => h ⟨w, e⟩
theorem W14_arg (c : Dev nD) {b : Ref sig .tc} (hb : b ∈ args) :
    W14 m c (Proc.devRef .tc b) = m ((c : Thread nD τ).loc b) :=
  (W14_keep m c b (args_in out5_ge hb)).trans (W13_arg m c hb)

/-- Every reference `hostOps6` writes has index twenty or more. -/
theorem hostOps6_ge : (hostOps6_W.all fun r => decide (20 ≤ r.idx.val)) = true := by decide
/-- After `hostOps6`. -/
abbrev W15 : Dev nD → Valuation τ sig (Elt F) := fun c => StableHlo.after hostOps6 (W14 m c)
theorem W15_keep (c : Dev nD) (b : Ref sig .tc) (h : b ∉ hostOps6_W) :
    W15 m c (Proc.devRef .tc b) = W14 m c (Proc.devRef .tc b) :=
  StableHlo.after_of_writes_sub hostOps6 _ hostOps6_writes h
theorem W15_arg (c : Dev nD) {b : Ref sig .tc} (hb : b ∈ args) :
    W15 m c (Proc.devRef .tc b) = m ((c : Thread nD τ).loc b) :=
  (W15_keep m c b (args_not_mem hostOps6_ge hb)).trans (W14_arg m c hb)

/-- Every output array of region 6 has index twenty or more. -/
theorem out6_ge : ∀ w, (cfg6.win w).isOut = true → 20 ≤ (Pipeline.arrRef spec6 w).idx.val := by decide
/-- At region 6's exit: its arrays at what the pipeline leaves, every other buffer as entered. -/
def W16 (c : Dev nD) : Valuation τ sig (Elt F) :=
  Pipeline.withArrays spec6 c (W15 m c) fun w => (dat6 (rd (W15 m)) c).arrAt w cfg6.N
theorem W16_arr (c : Dev nD) (w : Fin cfg6.W) :
    W16 m c (Proc.devRef .tc (Pipeline.arrRef spec6 w)) = (dat6 (rd (W15 m)) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) := by
  unfold W16; exact Pipeline.withArrays_of_ne spec6 c _ _ b hb
/-- At region 6's exit each of its arrays holds what the pipeline leaves (`hF6`) and every other buffer what it held
    at entry (`hrest6`). -/
theorem hF6 (c : Dev nD) (w : Fin cfg6.W) :
    (dat6 (rd (W15 m)) c).arrAt w cfg6.N = rd (W16 m) c (Pipeline.arrRef spec6 w) :=
  (W16_arr m c w).symm
theorem hrest6 (c : Dev nD) : ∀ b, b ∉ Finset.univ.image (Pipeline.arrRef spec6) → rd (W16 m) c b = rd (W15 m) c b :=
  fun b hb => W16_of_ne m c b fun w e => hb (Finset.mem_image.mpr ⟨w, Finset.mem_univ _, e⟩)
/-- A reference that is no OUTPUT array of region 6 keeps its contents: an input array is left as entered, a buffer
    that is no array of the region bypasses it. -/
theorem W16_keep (c : Dev nD) (b : Ref sig .tc) (hb : ∀ w, Pipeline.arrRef spec6 w = b → (cfg6.win w).isOut = false) :
    W16 m c (Proc.devRef .tc b) = W15 m c (Proc.devRef .tc b) := by
  by_cases h : ∃ w, Pipeline.arrRef spec6 w = b
  · obtain ⟨w, rfl⟩ := h
    exact (W16_arr m c w).trans (((dat6 (rd (W15 m)) c).arrAt_in w (hb w rfl) _).trans (A_eq6 (rd (W15 m)) c w))
  · exact W16_of_ne m c b fun w e => h ⟨w, e⟩
theorem W16_arg (c : Dev nD) {b : Ref sig .tc} (hb : b ∈ args) :
    W16 m c (Proc.devRef .tc b) = m ((c : Thread nD τ).loc b) :=
  (W16_keep m c b (args_in out6_ge hb)).trans (W15_arg m c hb)

/-- Every reference `hostOps7` writes has index twenty or more. -/
theorem hostOps7_ge : (hostOps7_W.all fun r => decide (20 ≤ r.idx.val)) = true := by decide
/-- After `hostOps7`. -/
abbrev W17 : Dev nD → Valuation τ sig (Elt F) := fun c => StableHlo.after hostOps7 (W16 m c)
theorem W17_keep (c : Dev nD) (b : Ref sig .tc) (h : b ∉ hostOps7_W) :
    W17 m c (Proc.devRef .tc b) = W16 m c (Proc.devRef .tc b) :=
  StableHlo.after_of_writes_sub hostOps7 _ hostOps7_writes h
theorem W17_arg (c : Dev nD) {b : Ref sig .tc} (hb : b ∈ args) :
    W17 m c (Proc.devRef .tc b) = m ((c : Thread nD τ).loc b) :=
  (W17_keep m c b (args_not_mem hostOps7_ge hb)).trans (W16_arg m c hb)

/-- Every output array of region 7 has index twenty or more. -/
theorem out7_ge : ∀ w, (cfg7.win w).isOut = true → 20 ≤ (Pipeline.arrRef spec7 w).idx.val := by decide
/-- At region 7's exit: its arrays at what the pipeline leaves, every other buffer as entered. -/
def W18 (c : Dev nD) : Valuation τ sig (Elt F) :=
  Pipeline.withArrays spec7 c (W17 m c) fun w => (dat7 (rd (W17 m)) c).arrAt w cfg7.N
theorem W18_arr (c : Dev nD) (w : Fin cfg7.W) :
    W18 m c (Proc.devRef .tc (Pipeline.arrRef spec7 w)) = (dat7 (rd (W17 m)) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m c (Proc.devRef .tc b) = W17 m c (Proc.devRef .tc b) := by
  unfold W18; exact Pipeline.withArrays_of_ne spec7 c _ _ b hb
/-- At region 7's exit each of its arrays holds what the pipeline leaves (`hF7`) and every other buffer what it held
    at entry (`hrest7`). -/
theorem hF7 (c : Dev nD) (w : Fin cfg7.W) :
    (dat7 (rd (W17 m)) c).arrAt w cfg7.N = rd (W18 m) c (Pipeline.arrRef spec7 w) :=
  (W18_arr m c w).symm
theorem hrest7 (c : Dev nD) : ∀ b, b ∉ Finset.univ.image (Pipeline.arrRef spec7) → rd (W18 m) c b = rd (W17 m) c b :=
  fun b hb => W18_of_ne m c b fun w e => hb (Finset.mem_image.mpr ⟨w, Finset.mem_univ _, e⟩)
/-- A reference that is no OUTPUT array of region 7 keeps its contents: an input array is left as entered, a buffer
    that is no array of the region bypasses it. -/
theorem W18_keep (c : Dev nD) (b : Ref sig .tc) (hb : ∀ w, Pipeline.arrRef spec7 w = b → (cfg7.win w).isOut = false) :
    W18 m c (Proc.devRef .tc b) = W17 m c (Proc.devRef .tc b) := by
  by_cases h : ∃ w, Pipeline.arrRef spec7 w = b
  · obtain ⟨w, rfl⟩ := h
    exact (W18_arr m c w).trans (((dat7 (rd (W17 m)) c).arrAt_in w (hb w rfl) _).trans (A_eq7 (rd (W17 m)) c w))
  · exact W18_of_ne m c b fun w e => h ⟨w, e⟩
theorem W18_arg (c : Dev nD) {b : Ref sig .tc} (hb : b ∈ args) :
    W18 m c (Proc.devRef .tc b) = m ((c : Thread nD τ).loc b) :=
  (W18_keep m c b (args_in out7_ge hb)).trans (W17_arg m c hb)

/-- Every reference `hostOps8` writes has index twenty or more. -/
theorem hostOps8_ge : (hostOps8_W.all fun r => decide (20 ≤ r.idx.val)) = true := by decide
/-- After `hostOps8`. -/
abbrev W19 : Dev nD → Valuation τ sig (Elt F) := fun c => StableHlo.after hostOps8 (W18 m c)
theorem W19_keep (c : Dev nD) (b : Ref sig .tc) (h : b ∉ hostOps8_W) :
    W19 m c (Proc.devRef .tc b) = W18 m c (Proc.devRef .tc b) :=
  StableHlo.after_of_writes_sub hostOps8 _ hostOps8_writes h
theorem W19_arg (c : Dev nD) {b : Ref sig .tc} (hb : b ∈ args) :
    W19 m c (Proc.devRef .tc b) = m ((c : Thread nD τ).loc b) :=
  (W19_keep m c b (args_not_mem hostOps8_ge hb)).trans (W18_arg m c hb)

/-- Every output array of region 8 has index twenty or more. -/
theorem out8_ge : ∀ w, (cfg8.win w).isOut = true → 20 ≤ (Pipeline.arrRef spec8 w).idx.val := by decide
/-- At region 8's exit: its arrays at what the pipeline leaves, every other buffer as entered. -/
def W20 (c : Dev nD) : Valuation τ sig (Elt F) :=
  Pipeline.withArrays spec8 c (W19 m c) fun w => (dat8 (rd (W19 m)) c).arrAt w cfg8.N
theorem W20_arr (c : Dev nD) (w : Fin cfg8.W) :
    W20 m c (Proc.devRef .tc (Pipeline.arrRef spec8 w)) = (dat8 (rd (W19 m)) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m c (Proc.devRef .tc b) = W19 m c (Proc.devRef .tc b) := by
  unfold W20; exact Pipeline.withArrays_of_ne spec8 c _ _ b hb
/-- At region 8's exit each of its arrays holds what the pipeline leaves (`hF8`) and every other buffer what it held
    at entry (`hrest8`). -/
theorem hF8 (c : Dev nD) (w : Fin cfg8.W) :
    (dat8 (rd (W19 m)) c).arrAt w cfg8.N = rd (W20 m) c (Pipeline.arrRef spec8 w) :=
  (W20_arr m c w).symm
theorem hrest8 (c : Dev nD) : ∀ b, b ∉ Finset.univ.image (Pipeline.arrRef spec8) → rd (W20 m) c b = rd (W19 m) c b :=
  fun b hb => W20_of_ne m c b fun w e => hb (Finset.mem_image.mpr ⟨w, Finset.mem_univ _, e⟩)
/-- A reference that is no OUTPUT array of region 8 keeps its contents: an input array is left as entered, a buffer
    that is no array of the region bypasses it. -/
theorem W20_keep (c : Dev nD) (b : Ref sig .tc) (hb : ∀ w, Pipeline.arrRef spec8 w = b → (cfg8.win w).isOut = false) :
    W20 m c (Proc.devRef .tc b) = W19 m c (Proc.devRef .tc b) := by
  by_cases h : ∃ w, Pipeline.arrRef spec8 w = b
  · obtain ⟨w, rfl⟩ := h
    exact (W20_arr m c w).trans (((dat8 (rd (W19 m)) c).arrAt_in w (hb w rfl) _).trans (A_eq8 (rd (W19 m)) c w))
  · exact W20_of_ne m c b fun w e => h ⟨w, e⟩
theorem W20_arg (c : Dev nD) {b : Ref sig .tc} (hb : b ∈ args) :
    W20 m c (Proc.devRef .tc b) = m ((c : Thread nD τ).loc b) :=
  (W20_keep m c b (args_in out8_ge hb)).trans (W19_arg m c hb)

/-- Every output array of region 9 has index twenty or more. -/
theorem out9_ge : ∀ w, (cfg9.win w).isOut = true → 20 ≤ (Pipeline.arrRef spec9 w).idx.val := by decide
/-- At region 9's exit: its arrays at what the pipeline leaves, every other buffer as entered. -/
def W21 (c : Dev nD) : Valuation τ sig (Elt F) :=
  Pipeline.withArrays spec9 c (W20 m c) fun w => (dat9 (rd (W20 m)) c).arrAt w cfg9.N
theorem W21_arr (c : Dev nD) (w : Fin cfg9.W) :
    W21 m c (Proc.devRef .tc (Pipeline.arrRef spec9 w)) = (dat9 (rd (W20 m)) c).arrAt w cfg9.N := by
  unfold W21; exact Pipeline.withArrays_arr spec9 launch9.win.arr_inj c _ _ w
theorem W21_of_ne (c : Dev nD) (b : Ref sig .tc) (hb : ∀ w, Pipeline.arrRef spec9 w ≠ b) :
    W21 m c (Proc.devRef .tc b) = W20 m c (Proc.devRef .tc b) := by
  unfold W21; exact Pipeline.withArrays_of_ne spec9 c _ _ b hb
/-- At region 9's exit each of its arrays holds what the pipeline leaves (`hF9`) and every other buffer what it held
    at entry (`hrest9`). -/
theorem hF9 (c : Dev nD) (w : Fin cfg9.W) :
    (dat9 (rd (W20 m)) c).arrAt w cfg9.N = rd (W21 m) c (Pipeline.arrRef spec9 w) :=
  (W21_arr m c w).symm
theorem hrest9 (c : Dev nD) : ∀ b, b ∉ Finset.univ.image (Pipeline.arrRef spec9) → rd (W21 m) c b = rd (W20 m) c b :=
  fun b hb => W21_of_ne m c b fun w e => hb (Finset.mem_image.mpr ⟨w, Finset.mem_univ _, e⟩)
/-- A reference that is no OUTPUT array of region 9 keeps its contents: an input array is left as entered, a buffer
    that is no array of the region bypasses it. -/
theorem W21_keep (c : Dev nD) (b : Ref sig .tc) (hb : ∀ w, Pipeline.arrRef spec9 w = b → (cfg9.win w).isOut = false) :
    W21 m c (Proc.devRef .tc b) = W20 m c (Proc.devRef .tc b) := by
  by_cases h : ∃ w, Pipeline.arrRef spec9 w = b
  · obtain ⟨w, rfl⟩ := h
    exact (W21_arr m c w).trans (((dat9 (rd (W20 m)) c).arrAt_in w (hb w rfl) _).trans (A_eq9 (rd (W20 m)) c w))
  · exact W21_of_ne m c b fun w e => h ⟨w, e⟩
theorem W21_arg (c : Dev nD) {b : Ref sig .tc} (hb : b ∈ args) :
    W21 m c (Proc.devRef .tc b) = m ((c : Thread nD τ).loc b) :=
  (W21_keep m c b (args_in out9_ge hb)).trans (W20_arg m c hb)

end Cert.Kernel.Reg

end
-- ==== Proof.KB.Reg10.lean ====
/-
  REGION 10 of the kernel program (custom_call 10, the kernel function cc10__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt10, with its two case equations outsAt10_zero and outsAt10_succ).
  Per case the body's triple is a subtype: the lists of stores (rectangle and payload, last first) each output buffer
  ends with, together with the proof that the body runs to a continuation holding exactly those stores written
  (kernelRun10_A, kernelRun10_B). What a buffer then READS is the canonical contents of its list (View.canon), since the
  last store of each list covers the block.

  Exported: the proof data dat10 (arrays at V, full shares, nothing owed), A_eq10, the body obligation
  body_obligation10, the recursion outsAt10 and its equations, after10_0 / after10_1 / after10_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond10_0 (i : grid10.Coords) : Prop :=
  (Scalar.cmpi .ne (Scalar.extui (Scalar.cmpi .eq (BitVec.ofNat 32 (i 0).val) 0#32)) 0#32) = 1#1

/-- It holds at the first point only: decided over the 50 points. -/
theorem hcond10_0 : ∀ t : Fin cfg10.N, cond10_0 (grid10.coords t) ↔ t.val = 0 :=
  (by decide +kernel : ∀ t : Fin grid10.N, cond10_0 (grid10.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun10_A (c : Dev nD) (i : grid10.Coords)
    (arg10 : Memref sig .tc .vmem S1000x256 .f32) (harg1 : arg10.IsWhole)
    (arg2 : Memref sig .tc .vmem S1x256 .f32) (harg2 : arg2.IsWhole)
    (arg3 : Memref sig .tc .vmem S1x256 .f32) (harg3 : arg3.IsWhole) (hc0 : cond10_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg10 fullShare x0 ∗ (∃ d, owns (c : Thread nD τ) arg2 fullShare d)
            ∗ (∃ d, owns (c : Thread nD τ) arg3 fullShare d)
            ∗ (iprop(owns (c : Thread nD τ) arg10 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc10__sumsq_kernel i arg10 harg1 arg2 harg2 arg3 harg3) K } := by
  refine ⟨?_, ?_, fun E K => ?run⟩
  case run =>
    simp only [cc10__sumsq_kernel_eq_skeleton]; unfold cc10__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun10_B (c : Dev nD) (i : grid10.Coords)
    (arg10 : Memref sig .tc .vmem S1000x256 .f32) (harg1 : arg10.IsWhole)
    (arg2 : Memref sig .tc .vmem S1x256 .f32) (harg2 : arg2.IsWhole)
    (arg3 : Memref sig .tc .vmem S1x256 .f32) (harg3 : arg3.IsWhole) (hc0 : ¬cond10_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg10 fullShare x0 ∗ owns (c : Thread nD τ) arg2 fullShare xo1
            ∗ owns (c : Thread nD τ) arg3 fullShare xo2
            ∗ (iprop(owns (c : Thread nD τ) arg10 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc10__sumsq_kernel i arg10 harg1 arg2 harg2 arg3 harg3) K } := by
  refine ⟨?_, ?_, fun E K => ?run⟩
  case run =>
    simp only [cc10__sumsq_kernel_eq_skeleton]; unfold cc10__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for ANY proof data
    whose array is `V`'s and whose body leaves the block in place: unfetched, the block index has not moved. The
    window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-! ## What each case leaves in the two output buffers -/

/-- The whole-block rectangle of a [1,256] buffer at zero offsets: every index lies in it. -/
private theorem mem_whole_S10x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover10_A_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) (y : S1x256.Idx) :
    ∃ pc ∈ (kernelRun10_A c i arg10 harg1 arg2 harg2 arg3 harg3 hc0 x0).1, y ∈ pc.1.set := by
  unfold kernelRun10_A
  dsimp only
  refine ⟨_, List.mem_cons_self, ?_⟩
  exact mem_whole_S10x256 inb_S1x256_S1x256_0_0 y

/-- Case A's stores into output 2 cover its block likewise. -/
theorem cover10_A_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) (y : S1x256.Idx) :
    ∃ pc ∈ (kernelRun10_A c i arg10 harg1 arg2 harg2 arg3 harg3 hc0 x0).2.1, y ∈ pc.1.set := by
  unfold kernelRun10_A
  dsimp only
  refine ⟨_, List.mem_cons_self, ?_⟩
  exact mem_whole_S10x256 inb_S1x256_S1x256_0_0 y

/-- Case B's one store into output 1 covers its block. -/
theorem cover10_B_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) (y : S1x256.Idx) :
    ∃ pc ∈ (kernelRun10_B c i arg10 harg1 arg2 harg2 arg3 harg3 hc0 x0 xo1 xo2).1, y ∈ pc.1.set := by
  unfold kernelRun10_B
  dsimp only
  refine ⟨_, List.mem_cons_self, ?_⟩
  exact mem_whole_S10x256 inb_S1x256_S1x256_0_0 y

/-- Case B's one store into output 2 covers its block. -/
theorem cover10_B_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) (y : S1x256.Idx) :
    ∃ pc ∈ (kernelRun10_B c i arg10 harg1 arg2 harg2 arg3 harg3 hc0 x0 xo1 xo2).2.1, y ∈ pc.1.set := by
  unfold kernelRun10_B
  dsimp only
  refine ⟨_, List.mem_cons_self, ?_⟩
  exact mem_whole_S10x256 inb_S1x256_S1x256_0_0 y

/-- What case A leaves in output 1's staging buffer: the canonical contents of its stores. -/
def out10_A_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) : Vec F S1x256 .f32 :=
  View.canon (kernelRun10_A c i arg10 harg1 arg2 harg2 arg3 harg3 hc0 x0).1

/-- What case A leaves in output 2's staging buffer. -/
def out10_A_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) : Vec F S1x256 .f32 :=
  View.canon (kernelRun10_A c i arg10 harg1 arg2 harg2 arg3 harg3 hc0 x0).2.1

/-- What case B leaves in output 1's staging buffer, from the input block and what the two outputs held. -/
def out10_B_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) : Vec F S1x256 .f32 :=
  View.canon (kernelRun10_B c i arg10 harg1 arg2 harg2 arg3 harg3 hc0 x0 xo1 xo2).1

/-- What case B leaves in output 2's staging buffer. -/
def out10_B_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) : Vec F S1x256 .f32 :=
  View.canon (kernelRun10_B c i arg10 harg1 arg2 harg2 arg3 harg3 hc0 x0 xo1 xo2).2.1

/-! ## What the outputs hold after each point -/

/-- Each window's current staging memref at point `t` is whole. -/
abbrev hs10_0 (t : Fin cfg10.N) : (st10_0 t).IsWhole := hstage10_0 ((cfg10.slots t 0).cast nbuf10_0)
abbrev hs10_1 (t : Fin cfg10.N) : (st10_1 t).IsWhole := hstage10_1 ((cfg10.slots t 1).cast nbuf10_1)
abbrev hs10_2 (t : Fin cfg10.N) : (st10_2 t).IsWhole := hstage10_2 ((cfg10.slots t 2).cast nbuf10_2)

/-- A later point is not the first, so the conditional is not taken there. -/
theorem ncond10_0 (t : Fin cfg10.N) (h0 : t.val ≠ 0) : ¬cond10_0 (grid10.coords t) := fun h => h0 ((hcond10_0 t).mp h)

/-- THE ACCUMULATION. What the two outputs' staging buffers hold after the body at point `n`: at the first point
    case A's contents of the point's input block; at a later point case B's contents of the point's input block and of
    what this recursion gives at `n - 1` (the buffers are not written back between). -/
def outsAt10 (c : Dev nD) : (n : ℕ) → n < cfg10.N → Vec F S1x256 .f32 × Vec F S1x256 .f32
  | 0, hn =>
    (out10_A_1 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
        ((hcond10_0 ⟨0, hn⟩).mpr rfl) (iblk10 V c 0 ⟨0, hn⟩),
     out10_A_2 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
        ((hcond10_0 ⟨0, hn⟩).mpr rfl) (iblk10 V c 0 ⟨0, hn⟩))
  | n + 1, hn =>
    (out10_B_1 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
        (ncond10_0 ⟨n + 1, hn⟩ (Nat.succ_ne_zero n)) (iblk10 V c 0 ⟨n + 1, hn⟩)
        (outsAt10 c n (Nat.lt_of_succ_lt hn)).1 (outsAt10 c n (Nat.lt_of_succ_lt hn)).2,
     out10_B_2 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
        (ncond10_0 ⟨n + 1, hn⟩ (Nat.succ_ne_zero n)) (iblk10 V c 0 ⟨n + 1, hn⟩)
        (outsAt10 c n (Nat.lt_of_succ_lt hn)).1 (outsAt10 c n (Nat.lt_of_succ_lt hn)).2)

/-- The recursion at point 0. -/
theorem outsAt10_zero (c : Dev nD) (hn : 0 < cfg10.N) :
    outsAt10 V c 0 hn =
      (out10_A_1 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
          ((hcond10_0 ⟨0, hn⟩).mpr rfl) (iblk10 V c 0 ⟨0, hn⟩),
       out10_A_2 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
          ((hcond10_0 ⟨0, hn⟩).mpr rfl) (iblk10 V c 0 ⟨0, hn⟩)) := rfl

/-- The recursion at point `n + 1`. -/
theorem outsAt10_succ (c : Dev nD) (n : ℕ) (hn : n + 1 < cfg10.N) :
    outsAt10 V c (n + 1) hn =
      (out10_B_1 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
          (ncond10_0 ⟨n + 1, hn⟩ (Nat.succ_ne_zero n)) (iblk10 V c 0 ⟨n + 1, hn⟩)
          (outsAt10 V c n (Nat.lt_of_succ_lt hn)).1 (outsAt10 V c n (Nat.lt_of_succ_lt hn)).2,
       out10_B_2 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
          (ncond10_0 ⟨n + 1, hn⟩ (Nat.succ_ne_zero n)) (iblk10 V c 0 ⟨n + 1, hn⟩)
          (outsAt10 V c n (Nat.lt_of_succ_lt hn)).1 (outsAt10 V c n (Nat.lt_of_succ_lt hn)).2) := rfl

/-- The recursion at a point of case A (the first), stated at the point. -/
theorem outsAt10_A (c : Dev nD) (t : Fin cfg10.N) (h0 : t.val = 0) :
    outsAt10 V c t.val t.isLt =
      (out10_A_1 c (grid10.coords t) (st10_0 t) (hs10_0 t) (st10_1 t) (hs10_1 t) (st10_2 t) (hs10_2 t) ((hcond10_0 t).mpr h0) (iblk10 V c 0 t),
       out10_A_2 c (grid10.coords t) (st10_0 t) (hs10_0 t) (st10_1 t) (hs10_1 t) (st10_2 t) (hs10_2 t) ((hcond10_0 t).mpr h0) (iblk10 V c 0 t)) := by
  obtain ⟨n, hn⟩ := t
  cases n with
  | zero => exact rfl
  | succ n => exact absurd h0 (Nat.succ_ne_zero n)

/-- The recursion at a point of case B (a later one), stated at the point: over what the point before left. -/
theorem outsAt10_B (c : Dev nD) (t : Fin cfg10.N) (h0 : t.val ≠ 0) :
    outsAt10 V c t.val t.isLt =
      (out10_B_1 c (grid10.coords t) (st10_0 t) (hs10_0 t) (st10_1 t) (hs10_1 t) (st10_2 t) (hs10_2 t) (ncond10_0 t h0) (iblk10 V c 0 t)
          (outsAt10 V c (t.val - 1) (Nat.lt_of_le_of_lt (Nat.sub_le _ _) t.isLt)).1
          (outsAt10 V c (t.val - 1) (Nat.lt_of_le_of_lt (Nat.sub_le _ _) t.isLt)).2,
       out10_B_2 c (grid10.coords t) (st10_0 t) (hs10_0 t) (st10_1 t) (hs10_1 t) (st10_2 t) (hs10_2 t) (ncond10_0 t h0) (iblk10 V c 0 t)
          (outsAt10 V c (t.val - 1) (Nat.lt_of_le_of_lt (Nat.sub_le _ _) t.isLt)).1
          (outsAt10 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 10 on core `c`: the arrays as the region finds them (`V`); after the body at point
    `t` the input's buffer at its block and the two outputs' at `outsAt10`; the invariant the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => (outsAt10 V c t.val t.isLt).1
    | ⟨2, _⟩ => (outsAt10 V c t.val t.isLt).2
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = (outsAt10 V c t.val t.isLt).1 := by dsimp only [dat10]
theorem after10_2 (c : Dev nD) (t : Fin cfg10.N) : (dat10 V c).after 2 t = (outsAt10 V c t.val t.isLt).2 := by dsimp only [dat10]

/-- The input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d

/-- At a later point output 1's staging buffer holds what the body left at the point before: the point is not the
    first, the buffer was not written back between (it is written back after point 49 only), the window is live and
    uncut. -/
theorem before10_1_B (c : Dev nD) (t : Fin cfg10.N) (h0 : t.val ≠ 0) (d) :
    (dat10 V c).before 1 t d = (outsAt10 V c (t.val - 1) (Nat.lt_of_le_of_lt (Nat.sub_le _ _) t.isLt)).1 := by
  have hN : t.val < 50 := lt_of_lt_of_eq t.isLt (show cfg10.N = 50 from N_10)
  rw [Dat.before_out_kept _ 1 rfl t h0 (Bool.eq_false_iff.mpr fun h => by have := (flush10_1 _).mp h; dsimp only at this; omega)
    (fun _ => rfl) (fun _ _ => rfl)]
  dsimp only [dat10]

/-- Likewise output 2's. -/
theorem before10_2_B (c : Dev nD) (t : Fin cfg10.N) (h0 : t.val ≠ 0) (d) :
    (dat10 V c).before 2 t d = (outsAt10 V c (t.val - 1) (Nat.lt_of_le_of_lt (Nat.sub_le _ _) t.isLt)).2 := by
  have hN : t.val < 50 := lt_of_lt_of_eq t.isLt (show cfg10.N = 50 from N_10)
  rw [Dat.before_out_kept _ 2 rfl t h0 (Bool.eq_false_iff.mpr fun h => by have := (flush10_2 _).mp h; dsimp only at this; omega)
    (fun _ => rfl) (fun _ _ => rfl)]
  dsimp only [dat10]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).Φ t.succ = (dat10 V c).Φ t.castSucc from rfl,
    show (dat10 V c).owesAt () t.succ = (dat10 V c).owesAt () t.castSucc from rfl,
    after10_0, after10_1, after10_2]
  by_cases h0 : t.val = 0
  · rw [outsAt10_A V c t h0]
    dsimp only
    unfold out10_A_1 out10_A_2
    iintro ⟨HΦ, Ho, ⟨%d0, H0⟩, ⟨%d1, H1⟩, ⟨%d2, H2⟩⟩
    iapply ((kernelRun10_A c (grid10.coords t) _ _ _ _ _ _ ((hcond10_0 t).mpr h0) (iblk10 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover10_A_1 c _ _ _ _ _ _ _ _ _)
    · unfold owns; iexists _; isplitr
      swap; · iexact H2
      ipureintro; exact View.read_writes_eq_canon _ _ _ (cover10_A_2 c _ _ _ _ _ _ _ _ _)
  · rw [outsAt10_B V c t h0]
    dsimp only
    simp only [before10_1_B V c t h0, before10_2_B V c t h0]
    unfold out10_B_1 out10_B_2
    iintro ⟨HΦ, Ho, ⟨%d0, H0⟩, ⟨%d1, H1⟩, ⟨%d2, H2⟩⟩
    iapply ((kernelRun10_B c (grid10.coords t) _ _ _ _ _ _ (ncond10_0 t h0) (iblk10 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover10_B_1 c _ _ _ _ _ _ _ _ _ _ _)
    · unfold owns; iexists _; isplitr
      swap; · iexact H2
      ipureintro; exact View.read_writes_eq_canon _ _ _ (cover10_B_2 c _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Reg

end
-- ==== Proof.KB.Reg11.lean ====
/- REGION 11 of the kernel program: custom_call 11, `cc11__bn_relu_kernel` (pipeline 11), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out11_6`), it keeps nothing from point
   to point and names no semaphore, transfer, table or scratch: the plainest class of pipeline body.
   Stated here, for any float interpretation `F`: each window's block at a point (`iblk11`), that every input's
   staging buffer holds its block at every point (`before11_W_of`), the body's triple (`sound_kernel11`), the
   pipeline's proof data (`dat11`) and the body obligation (`body_obligation11`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole [1000,256] buffer, and the whole [1,256] buffer: every load and the one store are of a whole buffer. -/
abbrev r11_0 : Rect S1000x256 := Rect.unit (s := S1000x256) ![0, 0] S1000x256.size inb_S1000x256_S1000x256_0_0
abbrev r11_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out11_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r11_0, k11_pay1 (View.ld x0 r11_0) (View.ld x1 r11_1) (View.ld x2 r11_1) (View.ld x3 r11_1) (View.ld x4 r11_1) (View.ld x5 r11_1)⟩]

/-- The one store is of the whole buffer (checked by evaluation), so it covers it. -/
theorem cover11_6 (p0 : Vec F S1000x256 .f32) (y : S1000x256.Idx) :
    ∃ pc ∈ ([⟨r11_0, p0⟩] : List (View.Piece (Elt F) S1000x256 .f32)), y ∈ pc.1.set :=
  View.cover_of_tiled [⟨r11_0, p0⟩] S1000x256.size (by rfl) y

/-! ## The body's triple -/

set_option maxHeartbeats 1000000 in
/-- The kernel body on whole staging memrefs, the inputs' at read contents `xW` and the output's at anything, runs to
    the continuation holding the inputs' as they were and the output's at `out11_6` of the inputs': the printed function
    is its skeleton, a sequence of whole-buffer loads and one whole-buffer store, which is run step by step. -/
theorem sound_kernel11 (c : Dev nD) (E : Set ℕ) (i : grid11.Coords) (arg1 : Memref sig .tc .vmem S1000x256 .f32) (harg1 : arg1.IsWhole) (arg11 : Memref sig .tc .vmem S1x256 .f32) (harg2 : arg11.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg11 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg11 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__bn_relu_kernel i arg1 harg1 arg11 harg2 arg3 harg3 arg4 harg4 arg5 harg5 arg6 harg6 arg7 harg7) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant that
    of the class (the scoped rest and the generator register, untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents (the proof data's definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t` (the body obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks (`before11_W`), so `sound_kernel11` applies; the
    invariant and the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Reg
-- ==== Proof.KB.Reg12.lean ====
/- REGION 12 of the kernel program (custom_call 12, `cc12__matmul_kernel`, pipeline 12), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk12`); what the body leaves in the output buffer as a function
   of the two input blocks (`out12_2`); the body's triple on whole staging memrefs (`sound_kernel12`); the
   pipeline's proof data at `V` (`dat12`) with its projections; and the body obligation at every point
   (`body_obligation12`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the row block, its index moving with the point): its current staging buffer holds its block at
    every point, for ANY proof data whose array is `V`'s (`hA`) and whose body leaves the block in place
    (`hafter`); the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The full rectangle of each window's staging buffer: the row block's, the weight's, the output block's. -/
abbrev r12_0 : Rect S1000x512 := Rect.unit (s := S1000x512) ![0, 0] S1000x512.size inb_S1000x512_S1000x512_0_0
abbrev r12_1 : Rect S512x256 := Rect.unit (s := S512x256) ![0, 0] S512x256.size inb_S512x256_S512x256_0_0
abbrev r12_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out12_2 (xa : Vec F S1000x512 .f32) (xb : Vec F S512x256 .f32) : Vec F S1000x256 .f32 :=
  View.canon [⟨r12_2, k12_pay1 (View.ld xa r12_0) (View.ld xb r12_1)⟩]

/-- The one store is through the full rectangle, so it covers the buffer. -/
theorem cover12_2 (pa : Vec F S1000x256 .f32) (y : S1000x256.Idx) :
    ∃ pc ∈ ([⟨r12_2, pa⟩] : List (View.Piece (Elt F) S1000x256 .f32)), y ∈ pc.1.set :=
  View.cover_of_tiled [⟨r12_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out12_2 xa xb`: the printed function is its skeleton of three loads and one store, run one operation after
    the other; the load of the output buffer reads a value nothing uses. -/
theorem sound_kernel12 (c : Dev nD) (E : Set ℕ) (i : grid12.Coords) (ma : Memref sig .tc .vmem S1000x512 .f32) (hma : ma.IsWhole) (mb : Memref sig .tc .vmem S512x256 .f32) (hmb : mb.IsWhole) (mc : Memref sig .tc .vmem S1000x256 .f32) (hmc : mc.IsWhole)
    (xa : Vec F S1000x512 .f32) (xb : Vec F S512x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out12_2 xa xb)) -∗ K ⟨⟩))
      ⊢ wp frame (wpE (defs₀ (F := F)) Variants.none c none) E (cc12__matmul_kernel i ma hma mb hmb mc hmc) K := by
  simp only [cc12__matmul_kernel_eq_skeleton]; unfold cc12__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover12_2 _)

/-! ## The pipeline's proof data -/

/-- The proof data of pipeline 12 on core `c`: the arrays as the region finds them (`V`); after the body at
    point `t` each input's buffer at its block and the output's at `out12_2` of the input blocks; the invariant the
    class's (the scoped rest and the generator register, untouched); nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's `match` reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t` (the body obligation's precondition, the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks (`before12_0`, `before12_1`), so `sound_kernel12`
    applies; the invariant and the core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%da, Ha⟩, ⟨%db, Hb⟩, ⟨%dc, Hc⟩⟩
  iapply (sound_kernel12 c Set.univ (grid12.coords t) _ _ _ _ _ _ (iblk12 V c 0 t) (iblk12 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Reg
-- ==== Proof.KB.Reg13.lean ====
/-
  REGION 13 of the kernel program (custom_call 13, the kernel function cc13__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt13, with its two case equations outsAt13_zero and outsAt13_succ).
  Per case the body's triple is a subtype: the lists of stores (rectangle and payload, last first) each output buffer
  ends with, together with the proof that the body runs to a continuation holding exactly those stores written
  (kernelRun13_A, kernelRun13_B). What a buffer then READS is the canonical contents of its list (View.canon), since the
  last store of each list covers the block.

  Exported: the proof data dat13 (arrays at V, full shares, nothing owed), A_eq13, the body obligation
  body_obligation13, the recursion outsAt13 and its equations, after13_0 / after13_1 / after13_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond13_0 (i : grid13.Coords) : Prop :=
  (Scalar.cmpi .ne (Scalar.extui (Scalar.cmpi .eq (BitVec.ofNat 32 (i 0).val) 0#32)) 0#32) = 1#1

/-- It holds at the first point only: decided over the 50 points. -/
theorem hcond13_0 : ∀ t : Fin cfg13.N, cond13_0 (grid13.coords t) ↔ t.val = 0 :=
  (by decide +kernel : ∀ t : Fin grid13.N, cond13_0 (grid13.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun13_A (c : Dev nD) (i : grid13.Coords)
    (arg13 : Memref sig .tc .vmem S1000x256 .f32) (harg1 : arg13.IsWhole)
    (arg2 : Memref sig .tc .vmem S1x256 .f32) (harg2 : arg2.IsWhole)
    (arg3 : Memref sig .tc .vmem S1x256 .f32) (harg3 : arg3.IsWhole) (hc0 : cond13_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg13 fullShare x0 ∗ (∃ d, owns (c : Thread nD τ) arg2 fullShare d)
            ∗ (∃ d, owns (c : Thread nD τ) arg3 fullShare d)
            ∗ (iprop(owns (c : Thread nD τ) arg13 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc13__sumsq_kernel i arg13 harg1 arg2 harg2 arg3 harg3) K } := by
  refine ⟨?_, ?_, fun E K => ?run⟩
  case run =>
    simp only [cc13__sumsq_kernel_eq_skeleton]; unfold cc13__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun13_B (c : Dev nD) (i : grid13.Coords)
    (arg13 : Memref sig .tc .vmem S1000x256 .f32) (harg1 : arg13.IsWhole)
    (arg2 : Memref sig .tc .vmem S1x256 .f32) (harg2 : arg2.IsWhole)
    (arg3 : Memref sig .tc .vmem S1x256 .f32) (harg3 : arg3.IsWhole) (hc0 : ¬cond13_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg13 fullShare x0 ∗ owns (c : Thread nD τ) arg2 fullShare xo1
            ∗ owns (c : Thread nD τ) arg3 fullShare xo2
            ∗ (iprop(owns (c : Thread nD τ) arg13 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc13__sumsq_kernel i arg13 harg1 arg2 harg2 arg3 harg3) K } := by
  refine ⟨?_, ?_, fun E K => ?run⟩
  case run =>
    simp only [cc13__sumsq_kernel_eq_skeleton]; unfold cc13__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for ANY proof data
    whose array is `V`'s and whose body leaves the block in place: unfetched, the block index has not moved. The
    window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-! ## What each case leaves in the two output buffers -/

/-- The whole-block rectangle of a [1,256] buffer at zero offsets: every index lies in it. -/
private theorem mem_whole_S13x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover13_A_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) (y : S1x256.Idx) :
    ∃ pc ∈ (kernelRun13_A c i arg13 harg1 arg2 harg2 arg3 harg3 hc0 x0).1, y ∈ pc.1.set := by
  unfold kernelRun13_A
  dsimp only
  refine ⟨_, List.mem_cons_self, ?_⟩
  exact mem_whole_S13x256 inb_S1x256_S1x256_0_0 y

/-- Case A's stores into output 2 cover its block likewise. -/
theorem cover13_A_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) (y : S1x256.Idx) :
    ∃ pc ∈ (kernelRun13_A c i arg13 harg1 arg2 harg2 arg3 harg3 hc0 x0).2.1, y ∈ pc.1.set := by
  unfold kernelRun13_A
  dsimp only
  refine ⟨_, List.mem_cons_self, ?_⟩
  exact mem_whole_S13x256 inb_S1x256_S1x256_0_0 y

/-- Case B's one store into output 1 covers its block. -/
theorem cover13_B_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) (y : S1x256.Idx) :
    ∃ pc ∈ (kernelRun13_B c i arg13 harg1 arg2 harg2 arg3 harg3 hc0 x0 xo1 xo2).1, y ∈ pc.1.set := by
  unfold kernelRun13_B
  dsimp only
  refine ⟨_, List.mem_cons_self, ?_⟩
  exact mem_whole_S13x256 inb_S1x256_S1x256_0_0 y

/-- Case B's one store into output 2 covers its block. -/
theorem cover13_B_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) (y : S1x256.Idx) :
    ∃ pc ∈ (kernelRun13_B c i arg13 harg1 arg2 harg2 arg3 harg3 hc0 x0 xo1 xo2).2.1, y ∈ pc.1.set := by
  unfold kernelRun13_B
  dsimp only
  refine ⟨_, List.mem_cons_self, ?_⟩
  exact mem_whole_S13x256 inb_S1x256_S1x256_0_0 y

/-- What case A leaves in output 1's staging buffer: the canonical contents of its stores. -/
def out13_A_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) : Vec F S1x256 .f32 :=
  View.canon (kernelRun13_A c i arg13 harg1 arg2 harg2 arg3 harg3 hc0 x0).1

/-- What case A leaves in output 2's staging buffer. -/
def out13_A_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) : Vec F S1x256 .f32 :=
  View.canon (kernelRun13_A c i arg13 harg1 arg2 harg2 arg3 harg3 hc0 x0).2.1

/-- What case B leaves in output 1's staging buffer, from the input block and what the two outputs held. -/
def out13_B_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) : Vec F S1x256 .f32 :=
  View.canon (kernelRun13_B c i arg13 harg1 arg2 harg2 arg3 harg3 hc0 x0 xo1 xo2).1

/-- What case B leaves in output 2's staging buffer. -/
def out13_B_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) : Vec F S1x256 .f32 :=
  View.canon (kernelRun13_B c i arg13 harg1 arg2 harg2 arg3 harg3 hc0 x0 xo1 xo2).2.1

/-! ## What the outputs hold after each point -/

/-- Each window's current staging memref at point `t` is whole. -/
abbrev hs13_0 (t : Fin cfg13.N) : (st13_0 t).IsWhole := hstage13_0 ((cfg13.slots t 0).cast nbuf13_0)
abbrev hs13_1 (t : Fin cfg13.N) : (st13_1 t).IsWhole := hstage13_1 ((cfg13.slots t 1).cast nbuf13_1)
abbrev hs13_2 (t : Fin cfg13.N) : (st13_2 t).IsWhole := hstage13_2 ((cfg13.slots t 2).cast nbuf13_2)

/-- A later point is not the first, so the conditional is not taken there. -/
theorem ncond13_0 (t : Fin cfg13.N) (h0 : t.val ≠ 0) : ¬cond13_0 (grid13.coords t) := fun h => h0 ((hcond13_0 t).mp h)

/-- THE ACCUMULATION. What the two outputs' staging buffers hold after the body at point `n`: at the first point
    case A's contents of the point's input block; at a later point case B's contents of the point's input block and of
    what this recursion gives at `n - 1` (the buffers are not written back between). -/
def outsAt13 (c : Dev nD) : (n : ℕ) → n < cfg13.N → Vec F S1x256 .f32 × Vec F S1x256 .f32
  | 0, hn =>
    (out13_A_1 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
        ((hcond13_0 ⟨0, hn⟩).mpr rfl) (iblk13 V c 0 ⟨0, hn⟩),
     out13_A_2 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
        ((hcond13_0 ⟨0, hn⟩).mpr rfl) (iblk13 V c 0 ⟨0, hn⟩))
  | n + 1, hn =>
    (out13_B_1 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
        (ncond13_0 ⟨n + 1, hn⟩ (Nat.succ_ne_zero n)) (iblk13 V c 0 ⟨n + 1, hn⟩)
        (outsAt13 c n (Nat.lt_of_succ_lt hn)).1 (outsAt13 c n (Nat.lt_of_succ_lt hn)).2,
     out13_B_2 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
        (ncond13_0 ⟨n + 1, hn⟩ (Nat.succ_ne_zero n)) (iblk13 V c 0 ⟨n + 1, hn⟩)
        (outsAt13 c n (Nat.lt_of_succ_lt hn)).1 (outsAt13 c n (Nat.lt_of_succ_lt hn)).2)

/-- The recursion at point 0. -/
theorem outsAt13_zero (c : Dev nD) (hn : 0 < cfg13.N) :
    outsAt13 V c 0 hn =
      (out13_A_1 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
          ((hcond13_0 ⟨0, hn⟩).mpr rfl) (iblk13 V c 0 ⟨0, hn⟩),
       out13_A_2 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
          ((hcond13_0 ⟨0, hn⟩).mpr rfl) (iblk13 V c 0 ⟨0, hn⟩)) := rfl

/-- The recursion at point `n + 1`. -/
theorem outsAt13_succ (c : Dev nD) (n : ℕ) (hn : n + 1 < cfg13.N) :
    outsAt13 V c (n + 1) hn =
      (out13_B_1 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
          (ncond13_0 ⟨n + 1, hn⟩ (Nat.succ_ne_zero n)) (iblk13 V c 0 ⟨n + 1, hn⟩)
          (outsAt13 V c n (Nat.lt_of_succ_lt hn)).1 (outsAt13 V c n (Nat.lt_of_succ_lt hn)).2,
       out13_B_2 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
          (ncond13_0 ⟨n + 1, hn⟩ (Nat.succ_ne_zero n)) (iblk13 V c 0 ⟨n + 1, hn⟩)
          (outsAt13 V c n (Nat.lt_of_succ_lt hn)).1 (outsAt13 V c n (Nat.lt_of_succ_lt hn)).2) := rfl

/-- The recursion at a point of case A (the first), stated at the point. -/
theorem outsAt13_A (c : Dev nD) (t : Fin cfg13.N) (h0 : t.val = 0) :
    outsAt13 V c t.val t.isLt =
      (out13_A_1 c (grid13.coords t) (st13_0 t) (hs13_0 t) (st13_1 t) (hs13_1 t) (st13_2 t) (hs13_2 t) ((hcond13_0 t).mpr h0) (iblk13 V c 0 t),
       out13_A_2 c (grid13.coords t) (st13_0 t) (hs13_0 t) (st13_1 t) (hs13_1 t) (st13_2 t) (hs13_2 t) ((hcond13_0 t).mpr h0) (iblk13 V c 0 t)) := by
  obtain ⟨n, hn⟩ := t
  cases n with
  | zero => exact rfl
  | succ n => exact absurd h0 (Nat.succ_ne_zero n)

/-- The recursion at a point of case B (a later one), stated at the point: over what the point before left. -/
theorem outsAt13_B (c : Dev nD) (t : Fin cfg13.N) (h0 : t.val ≠ 0) :
    outsAt13 V c t.val t.isLt =
      (out13_B_1 c (grid13.coords t) (st13_0 t) (hs13_0 t) (st13_1 t) (hs13_1 t) (st13_2 t) (hs13_2 t) (ncond13_0 t h0) (iblk13 V c 0 t)
          (outsAt13 V c (t.val - 1) (Nat.lt_of_le_of_lt (Nat.sub_le _ _) t.isLt)).1
          (outsAt13 V c (t.val - 1) (Nat.lt_of_le_of_lt (Nat.sub_le _ _) t.isLt)).2,
       out13_B_2 c (grid13.coords t) (st13_0 t) (hs13_0 t) (st13_1 t) (hs13_1 t) (st13_2 t) (hs13_2 t) (ncond13_0 t h0) (iblk13 V c 0 t)
          (outsAt13 V c (t.val - 1) (Nat.lt_of_le_of_lt (Nat.sub_le _ _) t.isLt)).1
          (outsAt13 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 13 on core `c`: the arrays as the region finds them (`V`); after the body at point
    `t` the input's buffer at its block and the two outputs' at `outsAt13`; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => (outsAt13 V c t.val t.isLt).1
    | ⟨2, _⟩ => (outsAt13 V c t.val t.isLt).2
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = (outsAt13 V c t.val t.isLt).1 := by dsimp only [dat13]
theorem after13_2 (c : Dev nD) (t : Fin cfg13.N) : (dat13 V c).after 2 t = (outsAt13 V c t.val t.isLt).2 := by dsimp only [dat13]

/-- The input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d

/-- At a later point output 1's staging buffer holds what the body left at the point before: the point is not the
    first, the buffer was not written back between (it is written back after point 49 only), the window is live and
    uncut. -/
theorem before13_1_B (c : Dev nD) (t : Fin cfg13.N) (h0 : t.val ≠ 0) (d) :
    (dat13 V c).before 1 t d = (outsAt13 V c (t.val - 1) (Nat.lt_of_le_of_lt (Nat.sub_le _ _) t.isLt)).1 := by
  have hN : t.val < 50 := lt_of_lt_of_eq t.isLt (show cfg13.N = 50 from N_13)
  rw [Dat.before_out_kept _ 1 rfl t h0 (Bool.eq_false_iff.mpr fun h => by have := (flush13_1 _).mp h; dsimp only at this; omega)
    (fun _ => rfl) (fun _ _ => rfl)]
  dsimp only [dat13]

/-- Likewise output 2's. -/
theorem before13_2_B (c : Dev nD) (t : Fin cfg13.N) (h0 : t.val ≠ 0) (d) :
    (dat13 V c).before 2 t d = (outsAt13 V c (t.val - 1) (Nat.lt_of_le_of_lt (Nat.sub_le _ _) t.isLt)).2 := by
  have hN : t.val < 50 := lt_of_lt_of_eq t.isLt (show cfg13.N = 50 from N_13)
  rw [Dat.before_out_kept _ 2 rfl t h0 (Bool.eq_false_iff.mpr fun h => by have := (flush13_2 _).mp h; dsimp only at this; omega)
    (fun _ => rfl) (fun _ _ => rfl)]
  dsimp only [dat13]

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).Φ t.succ = (dat13 V c).Φ t.castSucc from rfl,
    show (dat13 V c).owesAt () t.succ = (dat13 V c).owesAt () t.castSucc from rfl,
    after13_0, after13_1, after13_2]
  by_cases h0 : t.val = 0
  · rw [outsAt13_A V c t h0]
    dsimp only
    unfold out13_A_1 out13_A_2
    iintro ⟨HΦ, Ho, ⟨%d0, H0⟩, ⟨%d1, H1⟩, ⟨%d2, H2⟩⟩
    iapply ((kernelRun13_A c (grid13.coords t) _ _ _ _ _ _ ((hcond13_0 t).mpr h0) (iblk13 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover13_A_1 c _ _ _ _ _ _ _ _ _)
    · unfold owns; iexists _; isplitr
      swap; · iexact H2
      ipureintro; exact View.read_writes_eq_canon _ _ _ (cover13_A_2 c _ _ _ _ _ _ _ _ _)
  · rw [outsAt13_B V c t h0]
    dsimp only
    simp only [before13_1_B V c t h0, before13_2_B V c t h0]
    unfold out13_B_1 out13_B_2
    iintro ⟨HΦ, Ho, ⟨%d0, H0⟩, ⟨%d1, H1⟩, ⟨%d2, H2⟩⟩
    iapply ((kernelRun13_B c (grid13.coords t) _ _ _ _ _ _ (ncond13_0 t h0) (iblk13 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover13_B_1 c _ _ _ _ _ _ _ _ _ _ _)
    · unfold owns; iexists _; isplitr
      swap; · iexact H2
      ipureintro; exact View.read_writes_eq_canon _ _ _ (cover13_B_2 c _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Reg

end
-- ==== Proof.KB.Reg14.lean ====
/- REGION 14 of the kernel program: custom_call 14, `cc14__bn_relu_kernel` (pipeline 14), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out14_6`), it keeps nothing from point
   to point and names no semaphore, transfer, table or scratch: the plainest class of pipeline body.
   Stated here, for any float interpretation `F`: each window's block at a point (`iblk14`), that every input's
   staging buffer holds its block at every point (`before14_W_of`), the body's triple (`sound_kernel14`), the
   pipeline's proof data (`dat14`) and the body obligation (`body_obligation14`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole [1000,256] buffer, and the whole [1,256] buffer: every load and the one store are of a whole buffer. -/
abbrev r14_0 : Rect S1000x256 := Rect.unit (s := S1000x256) ![0, 0] S1000x256.size inb_S1000x256_S1000x256_0_0
abbrev r14_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out14_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r14_0, k14_pay1 (View.ld x0 r14_0) (View.ld x1 r14_1) (View.ld x2 r14_1) (View.ld x3 r14_1) (View.ld x4 r14_1) (View.ld x5 r14_1)⟩]

/-- The one store is of the whole buffer (checked by evaluation), so it covers it. -/
theorem cover14_6 (p0 : Vec F S1000x256 .f32) (y : S1000x256.Idx) :
    ∃ pc ∈ ([⟨r14_0, p0⟩] : List (View.Piece (Elt F) S1000x256 .f32)), y ∈ pc.1.set :=
  View.cover_of_tiled [⟨r14_0, p0⟩] S1000x256.size (by rfl) y

/-! ## The body's triple -/

set_option maxHeartbeats 1000000 in
/-- The kernel body on whole staging memrefs, the inputs' at read contents `xW` and the output's at anything, runs to
    the continuation holding the inputs' as they were and the output's at `out14_6` of the inputs': the printed function
    is its skeleton, a sequence of whole-buffer loads and one whole-buffer store, which is run step by step. -/
theorem sound_kernel14 (c : Dev nD) (E : Set ℕ) (i : grid14.Coords) (arg1 : Memref sig .tc .vmem S1000x256 .f32) (harg1 : arg1.IsWhole) (arg14 : Memref sig .tc .vmem S1x256 .f32) (harg2 : arg14.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg14 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg14 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__bn_relu_kernel i arg1 harg1 arg14 harg2 arg3 harg3 arg4 harg4 arg5 harg5 arg6 harg6 arg7 harg7) K := by
  simp only [cc14__bn_relu_kernel_eq_skeleton]; unfold cc14__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them (`V`); after the body at
    point `t` each input's buffer at its block and the output's at `out14_6` of the input blocks; the invariant that
    of the class (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents (the proof data's definition projected). -/
theorem A_eq14 (c : Dev nD) (w : Fin cfg14.W) : (dat14 V c).A w = V c (Pipeline.arrRef spec14 w) := by
  dsimp only [dat14]

/-- What the body leaves, window by window (the proof data's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t` (the body obligation's precondition, the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' memrefs hold their blocks (`before14_W`), so `sound_kernel14` applies; the
    invariant and the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Reg
-- ==== Proof.KB.Reg15.lean ====
/- REGION 15 of the kernel program (custom_call 15, `cc15__matmul_kernel`, pipeline 15), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk15`); what the body leaves in the output buffer as a function
   of the two input blocks (`out15_2`); the body's triple on whole staging memrefs (`sound_kernel15`); the
   pipeline's proof data at `V` (`dat15`) with its projections; and the body obligation at every point
   (`body_obligation15`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 (the row block, its index moving with the point): its current staging buffer holds its block at
    every point, for ANY proof data whose array is `V`'s (`hA`) and whose body leaves the block in place
    (`hafter`); the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The full rectangle of each window's staging buffer: the row block's, the weight's, the output block's. -/
abbrev r15_0 : Rect S1000x512 := Rect.unit (s := S1000x512) ![0, 0] S1000x512.size inb_S1000x512_S1000x512_0_0
abbrev r15_1 : Rect S512x256 := Rect.unit (s := S512x256) ![0, 0] S512x256.size inb_S512x256_S512x256_0_0
abbrev r15_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out15_2 (xa : Vec F S1000x512 .f32) (xb : Vec F S512x256 .f32) : Vec F S1000x256 .f32 :=
  View.canon [⟨r15_2, k15_pay1 (View.ld xa r15_0) (View.ld xb r15_1)⟩]

/-- The one store is through the full rectangle, so it covers the buffer. -/
theorem cover15_2 (pa : Vec F S1000x256 .f32) (y : S1000x256.Idx) :
    ∃ pc ∈ ([⟨r15_2, pa⟩] : List (View.Piece (Elt F) S1000x256 .f32)), y ∈ pc.1.set :=
  View.cover_of_tiled [⟨r15_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out15_2 xa xb`: the printed function is its skeleton of three loads and one store, run one operation after
    the other; the load of the output buffer reads a value nothing uses. -/
theorem sound_kernel15 (c : Dev nD) (E : Set ℕ) (i : grid15.Coords) (ma : Memref sig .tc .vmem S1000x512 .f32) (hma : ma.IsWhole) (mb : Memref sig .tc .vmem S512x256 .f32) (hmb : mb.IsWhole) (mc : Memref sig .tc .vmem S1000x256 .f32) (hmc : mc.IsWhole)
    (xa : Vec F S1000x512 .f32) (xb : Vec F S512x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out15_2 xa xb)) -∗ K ⟨⟩))
      ⊢ wp frame (wpE (defs₀ (F := F)) Variants.none c none) E (cc15__matmul_kernel i ma hma mb hmb mc hmc) K := by
  simp only [cc15__matmul_kernel_eq_skeleton]; unfold cc15__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover15_2 _)

/-! ## The pipeline's proof data -/

/-- The proof data of pipeline 15 on core `c`: the arrays as the region finds them (`V`); after the body at
    point `t` each input's buffer at its block and the output's at `out15_2` of the input blocks; the invariant the
    class's (the scoped rest and the generator register, untouched); nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

/-- The proof data's arrays are the region-entry contents (the definition projected). -/
theorem A_eq15 (c : Dev nD) (w : Fin cfg15.W) : (dat15 V c).A w = V c (Pipeline.arrRef spec15 w) := by
  dsimp only [dat15]

/-- What the body leaves, window by window (the proof data's `match` reduced). -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation, at a generic point -/

/-- What the body is called with at point `t` (the body obligation's precondition, the windows one by one), -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks (`before15_0`, `before15_1`), so `sound_kernel15`
    applies; the invariant and the core's debt pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%da, Ha⟩, ⟨%db, Hb⟩, ⟨%dc, Hc⟩⟩
  iapply (sound_kernel15 c Set.univ (grid15.coords t) _ _ _ _ _ _ (iblk15 V c 0 t) (iblk15 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Reg
-- ==== Proof.KB.Reg16.lean ====
/-
  REGION 16 of the kernel program (custom_call 16, the kernel function cc16__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt16, with its two case equations outsAt16_zero and outsAt16_succ).
  Per case the body's triple is a subtype: the lists of stores (rectangle and payload, last first) each output buffer
  ends with, together with the proof that the body runs to a continuation holding exactly those stores written
  (kernelRun16_A, kernelRun16_B). What a buffer then READS is the canonical contents of its list (View.canon), since the
  last store of each list covers the block.

  Exported: the proof data dat16 (arrays at V, full shares, nothing owed), A_eq16, the body obligation
  body_obligation16, the recursion outsAt16 and its equations, after16_0 / after16_1 / after16_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond16_0 (i : grid16.Coords) : Prop :=
  (Scalar.cmpi .ne (Scalar.extui (Scalar.cmpi .eq (BitVec.ofNat 32 (i 0).val) 0#32)) 0#32) = 1#1

/-- It holds at the first point only: decided over the 50 points. -/
theorem hcond16_0 : ∀ t : Fin cfg16.N, cond16_0 (grid16.coords t) ↔ t.val = 0 :=
  (by decide +kernel : ∀ t : Fin grid16.N, cond16_0 (grid16.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun16_A (c : Dev nD) (i : grid16.Coords)
    (arg16 : Memref sig .tc .vmem S1000x256 .f32) (harg1 : arg16.IsWhole)
    (arg2 : Memref sig .tc .vmem S1x256 .f32) (harg2 : arg2.IsWhole)
    (arg3 : Memref sig .tc .vmem S1x256 .f32) (harg3 : arg3.IsWhole) (hc0 : cond16_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg16 fullShare x0 ∗ (∃ d, owns (c : Thread nD τ) arg2 fullShare d)
            ∗ (∃ d, owns (c : Thread nD τ) arg3 fullShare d)
            ∗ (iprop(owns (c : Thread nD τ) arg16 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc16__sumsq_kernel i arg16 harg1 arg2 harg2 arg3 harg3) K } := by
  refine ⟨?_, ?_, fun E K => ?run⟩
  case run =>
    simp only [cc16__sumsq_kernel_eq_skeleton]; unfold cc16__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun16_B (c : Dev nD) (i : grid16.Coords)
    (arg16 : Memref sig .tc .vmem S1000x256 .f32) (harg1 : arg16.IsWhole)
    (arg2 : Memref sig .tc .vmem S1x256 .f32) (harg2 : arg2.IsWhole)
    (arg3 : Memref sig .tc .vmem S1x256 .f32) (harg3 : arg3.IsWhole) (hc0 : ¬cond16_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg16 fullShare x0 ∗ owns (c : Thread nD τ) arg2 fullShare xo1
            ∗ owns (c : Thread nD τ) arg3 fullShare xo2
            ∗ (iprop(owns (c : Thread nD τ) arg16 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc16__sumsq_kernel i arg16 harg1 arg2 harg2 arg3 harg3) K } := by
  refine ⟨?_, ?_, fun E K => ?run⟩
  case run =>
    simp only [cc16__sumsq_kernel_eq_skeleton]; unfold cc16__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for ANY proof data
    whose array is `V`'s and whose body leaves the block in place: unfetched, the block index has not moved. The
    window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-! ## What each case leaves in the two output buffers -/

/-- The whole-block rectangle of a [1,256] buffer at zero offsets: every index lies in it. -/
private theorem mem_whole_S16x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover16_A_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) (y : S1x256.Idx) :
    ∃ pc ∈ (kernelRun16_A c i arg16 harg1 arg2 harg2 arg3 harg3 hc0 x0).1, y ∈ pc.1.set := by
  unfold kernelRun16_A
  dsimp only
  refine ⟨_, List.mem_cons_self, ?_⟩
  exact mem_whole_S16x256 inb_S1x256_S1x256_0_0 y

/-- Case A's stores into output 2 cover its block likewise. -/
theorem cover16_A_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) (y : S1x256.Idx) :
    ∃ pc ∈ (kernelRun16_A c i arg16 harg1 arg2 harg2 arg3 harg3 hc0 x0).2.1, y ∈ pc.1.set := by
  unfold kernelRun16_A
  dsimp only
  refine ⟨_, List.mem_cons_self, ?_⟩
  exact mem_whole_S16x256 inb_S1x256_S1x256_0_0 y

/-- Case B's one store into output 1 covers its block. -/
theorem cover16_B_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) (y : S1x256.Idx) :
    ∃ pc ∈ (kernelRun16_B c i arg16 harg1 arg2 harg2 arg3 harg3 hc0 x0 xo1 xo2).1, y ∈ pc.1.set := by
  unfold kernelRun16_B
  dsimp only
  refine ⟨_, List.mem_cons_self, ?_⟩
  exact mem_whole_S16x256 inb_S1x256_S1x256_0_0 y

/-- Case B's one store into output 2 covers its block. -/
theorem cover16_B_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) (y : S1x256.Idx) :
    ∃ pc ∈ (kernelRun16_B c i arg16 harg1 arg2 harg2 arg3 harg3 hc0 x0 xo1 xo2).2.1, y ∈ pc.1.set := by
  unfold kernelRun16_B
  dsimp only
  refine ⟨_, List.mem_cons_self, ?_⟩
  exact mem_whole_S16x256 inb_S1x256_S1x256_0_0 y

/-- What case A leaves in output 1's staging buffer: the canonical contents of its stores. -/
def out16_A_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) : Vec F S1x256 .f32 :=
  View.canon (kernelRun16_A c i arg16 harg1 arg2 harg2 arg3 harg3 hc0 x0).1

/-- What case A leaves in output 2's staging buffer. -/
def out16_A_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) : Vec F S1x256 .f32 :=
  View.canon (kernelRun16_A c i arg16 harg1 arg2 harg2 arg3 harg3 hc0 x0).2.1

/-- What case B leaves in output 1's staging buffer, from the input block and what the two outputs held. -/
def out16_B_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) : Vec F S1x256 .f32 :=
  View.canon (kernelRun16_B c i arg16 harg1 arg2 harg2 arg3 harg3 hc0 x0 xo1 xo2).1

/-- What case B leaves in output 2's staging buffer. -/
def out16_B_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) : Vec F S1x256 .f32 :=
  View.canon (kernelRun16_B c i arg16 harg1 arg2 harg2 arg3 harg3 hc0 x0 xo1 xo2).2.1

/-! ## What the outputs hold after each point -/

/-- Each window's current staging memref at point `t` is whole. -/
abbrev hs16_0 (t : Fin cfg16.N) : (st16_0 t).IsWhole := hstage16_0 ((cfg16.slots t 0).cast nbuf16_0)
abbrev hs16_1 (t : Fin cfg16.N) : (st16_1 t).IsWhole := hstage16_1 ((cfg16.slots t 1).cast nbuf16_1)
abbrev hs16_2 (t : Fin cfg16.N) : (st16_2 t).IsWhole := hstage16_2 ((cfg16.slots t 2).cast nbuf16_2)

/-- A later point is not the first, so the conditional is not taken there. -/
theorem ncond16_0 (t : Fin cfg16.N) (h0 : t.val ≠ 0) : ¬cond16_0 (grid16.coords t) := fun h => h0 ((hcond16_0 t).mp h)

/-- THE ACCUMULATION. What the two outputs' staging buffers hold after the body at point `n`: at the first point
    case A's contents of the point's input block; at a later point case B's contents of the point's input block and of
    what this recursion gives at `n - 1` (the buffers are not written back between). -/
def outsAt16 (c : Dev nD) : (n : ℕ) → n < cfg16.N → Vec F S1x256 .f32 × Vec F S1x256 .f32
  | 0, hn =>
    (out16_A_1 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
        ((hcond16_0 ⟨0, hn⟩).mpr rfl) (iblk16 V c 0 ⟨0, hn⟩),
     out16_A_2 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
        ((hcond16_0 ⟨0, hn⟩).mpr rfl) (iblk16 V c 0 ⟨0, hn⟩))
  | n + 1, hn =>
    (out16_B_1 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
        (ncond16_0 ⟨n + 1, hn⟩ (Nat.succ_ne_zero n)) (iblk16 V c 0 ⟨n + 1, hn⟩)
        (outsAt16 c n (Nat.lt_of_succ_lt hn)).1 (outsAt16 c n (Nat.lt_of_succ_lt hn)).2,
     out16_B_2 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
        (ncond16_0 ⟨n + 1, hn⟩ (Nat.succ_ne_zero n)) (iblk16 V c 0 ⟨n + 1, hn⟩)
        (outsAt16 c n (Nat.lt_of_succ_lt hn)).1 (outsAt16 c n (Nat.lt_of_succ_lt hn)).2)

/-- The recursion at point 0. -/
theorem outsAt16_zero (c : Dev nD) (hn : 0 < cfg16.N) :
    outsAt16 V c 0 hn =
      (out16_A_1 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
          ((hcond16_0 ⟨0, hn⟩).mpr rfl) (iblk16 V c 0 ⟨0, hn⟩),
       out16_A_2 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
          ((hcond16_0 ⟨0, hn⟩).mpr rfl) (iblk16 V c 0 ⟨0, hn⟩)) := rfl

/-- The recursion at point `n + 1`. -/
theorem outsAt16_succ (c : Dev nD) (n : ℕ) (hn : n + 1 < cfg16.N) :
    outsAt16 V c (n + 1) hn =
      (out16_B_1 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
          (ncond16_0 ⟨n + 1, hn⟩ (Nat.succ_ne_zero n)) (iblk16 V c 0 ⟨n + 1, hn⟩)
          (outsAt16 V c n (Nat.lt_of_succ_lt hn)).1 (outsAt16 V c n (Nat.lt_of_succ_lt hn)).2,
       out16_B_2 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
          (ncond16_0 ⟨n + 1, hn⟩ (Nat.succ_ne_zero n)) (iblk16 V c 0 ⟨n + 1, hn⟩)
          (outsAt16 V c n (Nat.lt_of_succ_lt hn)).1 (outsAt16 V c n (Nat.lt_of_succ_lt hn)).2) := rfl

/-- The recursion at a point of case A (the first), stated at the point. -/
theorem outsAt16_A (c : Dev nD) (t : Fin cfg16.N) (h0 : t.val = 0) :
    outsAt16 V c t.val t.isLt =
      (out16_A_1 c (grid16.coords t) (st16_0 t) (hs16_0 t) (st16_1 t) (hs16_1 t) (st16_2 t) (hs16_2 t) ((hcond16_0 t).mpr h0) (iblk16 V c 0 t),
       out16_A_2 c (grid16.coords t) (st16_0 t) (hs16_0 t) (st16_1 t) (hs16_1 t) (st16_2 t) (hs16_2 t) ((hcond16_0 t).mpr h0) (iblk16 V c 0 t)) := by
  obtain ⟨n, hn⟩ := t
  cases n with
  | zero => exact rfl
  | succ n => exact absurd h0 (Nat.succ_ne_zero n)

/-- The recursion at a point of case B (a later one), stated at the point: over what the point before left. -/
theorem outsAt16_B (c : Dev nD) (t : Fin cfg16.N) (h0 : t.val ≠ 0) :
    outsAt16 V c t.val t.isLt =
      (out16_B_1 c (grid16.coords t) (st16_0 t) (hs16_0 t) (st16_1 t) (hs16_1 t) (st16_2 t) (hs16_2 t) (ncond16_0 t h0) (iblk16 V c 0 t)
          (outsAt16 V c (t.val - 1) (Nat.lt_of_le_of_lt (Nat.sub_le _ _) t.isLt)).1
          (outsAt16 V c (t.val - 1) (Nat.lt_of_le_of_lt (Nat.sub_le _ _) t.isLt)).2,
       out16_B_2 c (grid16.coords t) (st16_0 t) (hs16_0 t) (st16_1 t) (hs16_1 t) (st16_2 t) (hs16_2 t) (ncond16_0 t h0) (iblk16 V c 0 t)
          (outsAt16 V c (t.val - 1) (Nat.lt_of_le_of_lt (Nat.sub_le _ _) t.isLt)).1
          (outsAt16 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 16 on core `c`: the arrays as the region finds them (`V`); after the body at point
    `t` the input's buffer at its block and the two outputs' at `outsAt16`; the invariant the scoped rest and the
    generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => (outsAt16 V c t.val t.isLt).1
    | ⟨2, _⟩ => (outsAt16 V c t.val t.isLt).2
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = (outsAt16 V c t.val t.isLt).1 := by dsimp only [dat16]
theorem after16_2 (c : Dev nD) (t : Fin cfg16.N) : (dat16 V c).after 2 t = (outsAt16 V c t.val t.isLt).2 := by dsimp only [dat16]

/-- The input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d

/-- At a later point output 1's staging buffer holds what the body left at the point before: the point is not the
    first, the buffer was not written back between (it is written back after point 49 only), the window is live and
    uncut. -/
theorem before16_1_B (c : Dev nD) (t : Fin cfg16.N) (h0 : t.val ≠ 0) (d) :
    (dat16 V c).before 1 t d = (outsAt16 V c (t.val - 1) (Nat.lt_of_le_of_lt (Nat.sub_le _ _) t.isLt)).1 := by
  have hN : t.val < 50 := lt_of_lt_of_eq t.isLt (show cfg16.N = 50 from N_16)
  rw [Dat.before_out_kept _ 1 rfl t h0 (Bool.eq_false_iff.mpr fun h => by have := (flush16_1 _).mp h; dsimp only at this; omega)
    (fun _ => rfl) (fun _ _ => rfl)]
  dsimp only [dat16]

/-- Likewise output 2's. -/
theorem before16_2_B (c : Dev nD) (t : Fin cfg16.N) (h0 : t.val ≠ 0) (d) :
    (dat16 V c).before 2 t d = (outsAt16 V c (t.val - 1) (Nat.lt_of_le_of_lt (Nat.sub_le _ _) t.isLt)).2 := by
  have hN : t.val < 50 := lt_of_lt_of_eq t.isLt (show cfg16.N = 50 from N_16)
  rw [Dat.before_out_kept _ 2 rfl t h0 (Bool.eq_false_iff.mpr fun h => by have := (flush16_2 _).mp h; dsimp only at this; omega)
    (fun _ => rfl) (fun _ _ => rfl)]
  dsimp only [dat16]

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0]
  rw [show (dat16 V c).Φ t.succ = (dat16 V c).Φ t.castSucc from rfl,
    show (dat16 V c).owesAt () t.succ = (dat16 V c).owesAt () t.castSucc from rfl,
    after16_0, after16_1, after16_2]
  by_cases h0 : t.val = 0
  · rw [outsAt16_A V c t h0]
    dsimp only
    unfold out16_A_1 out16_A_2
    iintro ⟨HΦ, Ho, ⟨%d0, H0⟩, ⟨%d1, H1⟩, ⟨%d2, H2⟩⟩
    iapply ((kernelRun16_A c (grid16.coords t) _ _ _ _ _ _ ((hcond16_0 t).mpr h0) (iblk16 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover16_A_1 c _ _ _ _ _ _ _ _ _)
    · unfold owns; iexists _; isplitr
      swap; · iexact H2
      ipureintro; exact View.read_writes_eq_canon _ _ _ (cover16_A_2 c _ _ _ _ _ _ _ _ _)
  · rw [outsAt16_B V c t h0]
    dsimp only
    simp only [before16_1_B V c t h0, before16_2_B V c t h0]
    unfold out16_B_1 out16_B_2
    iintro ⟨HΦ, Ho, ⟨%d0, H0⟩, ⟨%d1, H1⟩, ⟨%d2, H2⟩⟩
    iapply ((kernelRun16_B c (grid16.coords t) _ _ _ _ _ _ (ncond16_0 t h0) (iblk16 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover16_B_1 c _ _ _ _ _ _ _ _ _ _ _)
    · unfold owns; iexists _; isplitr
      swap; · iexact H2
      ipureintro; exact View.read_writes_eq_canon _ _ _ (cover16_B_2 c _ _ _ _ _ _ _ _ _ _ _)

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Reg

end
-- ==== Proof.KB.Reg17.lean ====
/- REGION 17 of the kernel program: custom_call 17, `cc17__bn_relu_kernel` (pipeline 17), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out17_6`), it keeps nothing from point
   to point and names no semaphore, transfer, table or scratch: the plainest class of pipeline body.
   Stated here, for any float interpretation `F`: each window's block at a point (`iblk17`), that every input's
   staging buffer holds its block at every point (`before17_W_of`), the body's triple (`sound_kernel17`), the
   pipeline's proof data (`dat17`) and the body obligation (`body_obligation17`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before17_5_of {c : Dev nD} (dat : Dat τ (Elt F) Unit ℕ (UR sig nD τ) ℕ cfg17 c) (hA : dat.A 5 = V c (Pipeline.arrRef spec17 5))
    (hafter : ∀ t, dat.after 5 t = iblk17 V c 5 t) (t : Fin cfg17.N) (d) : dat.before 5 t d = iblk17 V c 5 t :=
  (dat.before_in_eq_fetched 5 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses -/

/-- The whole [1000,256] buffer, and the whole [1,256] buffer: every load and the one store are of a whole buffer. -/
abbrev r17_0 : Rect S1000x256 := Rect.unit (s := S1000x256) ![0, 0] S1000x256.size inb_S1000x256_S1000x256_0_0
abbrev r17_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out17_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r17_0, k17_pay1 (View.ld x0 r17_0) (View.ld x1 r17_1) (View.ld x2 r17_1) (View.ld x3 r17_1) (View.ld x4 r17_1) (View.ld x5 r17_1)⟩]

/-- The one store is of the whole buffer (checked by evaluation), so it covers it. -/
theorem cover17_6 (p0 : Vec F S1000x256 .f32) (y : S1000x256.Idx) :
    ∃ pc ∈ ([⟨r17_0, p0⟩] : List (View.Piece (Elt F) S1000x256 .f32)), y ∈ pc.1.set :=
  View.cover_of_tiled [⟨r17_0, p0⟩] S1000x256.size (by rfl) y

/-! ## The body's triple -/

set_option maxHeartbeats 1000000 in
/-- The kernel body on whole staging memrefs, the inputs' at read contents `xW` and the output's at anything, runs to
    the continuation holding the inputs' as they were and the output's at `out17_6` of the inputs': the printed function
    is its skeleton, a sequence of whole-buffer loads and one whole-buffer store, which is run step by step. -/
theorem sound_kernel17 (c : Dev nD) (E : Set ℕ) (i : grid17.Coords) (arg1 : Memref sig .tc .vmem S1000x256 .f32) (harg1 : arg1.IsWhole) (arg17 : Memref sig .tc .vmem S1x256 .f32) (harg2 : arg17.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg17 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg17 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out17_6 x0 x1 x2 x3 x4 x5)) -∗ K ⟨⟩))
      ⊢ wp frame (wpE (defs₀ (F := F)) Variants.none c none) E (cc17__bn_relu_kernel i arg1 harg1 arg17 harg2 arg3 harg3 arg4 harg4 arg5 harg5 arg6 harg6 arg7 harg7) K := by
  simp only [cc17__bn_relu_kernel_eq_skeleton]; unfold cc17__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover17_6 _)

/-! ## The pipeline's proof data -/

/-- The proof data of pipeline 17 on core `c`: the arrays as the region finds them (`V`); after the body at
    point `t` each input's buffer at its block and the output's at `out17_6` of the input blocks; the invariant that
    of the class (the scoped rest and the generator register, untouched); nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => iblk17 V c 5 t
    | ⟨6, _⟩ => out17_6 (iblk17 V c 0 t) (iblk17 V c 1 t) (iblk17 V c 2 t) (iblk17 V c 3 t) (iblk17 V c 4 t) (iblk17 V c 5 t)
  Φ _ := Pipeline.ΦA spec17 c
  q _ := fullShare
  owed _ := 0

/-- The proof data's arrays are the region-entry contents (the proof data's definition projected). -/
theorem A_eq17 (c : Dev nD) (w : Fin cfg17.W) : (dat17 V c).A w = V c (Pipeline.arrRef spec17 w) := by
  dsimp only [dat17]

/-- What the body leaves, window by window (the proof data's `match` reduced). -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t = iblk17 V c 5 t := by dsimp only [dat17]
theorem after17_6 (c : Dev nD) (t : Fin cfg17.N) : (dat17 V c).after 6 t = out17_6 (iblk17 V c 0 t) (iblk17 V c 1 t) (iblk17 V c 2 t) (iblk17 V c 3 t) (iblk17 V c 4 t) (iblk17 V c 5 t) := by dsimp only [dat17]

/-- Each input's current staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d
theorem before17_5 (c : Dev nD) (t : Fin cfg17.N) (d) : (dat17 V c).before 5 t d = iblk17 V c 5 t :=
  before17_5_of V (dat17 V c) (A_eq17 V c 5) (after17_5 V c) t d

/-! ## The body obligation, at a generic point -/

/-- What the body is called with at point `t` (the body obligation's precondition, the windows one by one), -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d))
    ∗ (∃ d, owns (c : Thread nD τ) (st17_6 t) fullShare ((dat17 V c).before 6 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t)
    ∗ owns (c : Thread nD τ) (st17_6 t) fullShare ((dat17 V c).after 6 t))

/-- The body at any point: the inputs' memrefs hold their blocks (`before17_W`), so `sound_kernel17` applies; the
    invariant and the core's debts pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4, before17_5]
  rw [show (dat17 V c).Φ t.succ = (dat17 V c).Φ t.castSucc from rfl,
    show (dat17 V c).owesAt () t.succ = (dat17 V c).owesAt () t.castSucc from rfl,
    after17_0, after17_1, after17_2, after17_3, after17_4, after17_5, after17_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel17 c Set.univ (grid17.coords t) _ _ _ _ _ _ _ _ _ _ _ _ _ _ (iblk17 V c 0 t) (iblk17 V c 1 t) (iblk17 V c 2 t) (iblk17 V c 3 t) (iblk17 V c 4 t) (iblk17 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Reg
-- ==== Proof.KB.Reg18.lean ====
/- REGION 18 of the kernel program (custom_call 18, kernel function cc18__out_kernel), at any F, at a parameter V: the
   TensorCore's buffer contents when the region is entered. Each window's block at a point (iblk18), what the body finds
   in each input window's buffer (before18_W), what it leaves in the output window's buffer (out18_3: the one store of
   the body, whose payload is the row log-softmax of block·weight + bias), the body's triple (sound_kernel18), the
   pipeline's proof data (dat18) and the body obligation at every point (body_obligation18). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 18: custom_call 18, the output head, at the entry contents V -/

/-! ## The windows' blocks -/

/-- Window w's block at point t, read off its array as the region finds it (V). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0 (the [1000,256] block of rows, fetched at every point): its current staging buffer holds its block
    at every point, for any proof data whose array is V's (hA) and whose body leaves the block in place (hafter). -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1 (the whole [256,2] weight, fetched at the first point only): its staging buffer holds its block at
    every point, fetched there or not — unfetched, the block index has not moved. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2 (the [1,2] bias, fetched at the first point only): likewise. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

abbrev r18_0 : Rect S1000x256 := Rect.unit (s := S1000x256) ![0, 0] S1000x256.size inb_S1000x256_S1000x256_0_0
abbrev r18_1 : Rect S256x2 := Rect.unit (s := S256x2) ![0, 0] S256x2.size inb_S256x2_S256x2_0_0
abbrev r18_2 : Rect S1x2 := Rect.unit (s := S1x2) ![0, 0] S1x2.size inb_S1x2_S1x2_0_0
abbrev r18_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out18_3 (x0 : Vec F S1000x256 .f32) (x1 : Vec F S256x2 .f32) (x2 : Vec F S1x2 .f32) : Vec F S1000x2 .f32 :=
  View.canon [⟨r18_3, k18_pay1 (View.ld x0 r18_0) (View.ld x1 r18_1) (View.ld x2 r18_2)⟩]

/-- Its store tiles the buffer (checked by evaluation), so it covers it. -/
theorem cover18_3 (p0 : Vec F S1000x2 .f32) (y : S1000x2.Idx) :
    ∃ pc ∈ ([⟨r18_3, p0⟩] : List (View.Piece (Elt F) S1000x2 .f32)), y ∈ pc.1.set :=
  View.cover_of_tiled [⟨r18_3, p0⟩] S1000x2.size (by rfl) y

/-! ## The body's triple -/

set_option maxHeartbeats 1000000 in
/-- The kernel body on whole staging memrefs, the inputs' at read contents xW and the output's at anything, runs to the
    continuation holding the inputs' as they were and the output's at out18_3 of the inputs': the printed function is
    its skeleton, which the executor runs. -/
theorem sound_kernel18 (c : Dev nD) (E : Set ℕ) (i : grid18.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out18_3 x0 x1 x2)) -∗ K ⟨⟩))
      ⊢ wp frame (wpE (defs₀ (F := F)) Variants.none c none) E (cc18__out_kernel i arg1 harg1 arg2 harg2 arg3 harg3 arg4 harg4) K := by
  simp only [cc18__out_kernel_eq_skeleton]; unfold cc18__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-! ## The pipeline's proof data -/

/-- The proof data of pipeline 18 on core c: the arrays as the region finds them (V); after the body at point t each
    input's buffer at its block and the output's at out18_3 of the input blocks; the invariant the scoped rest and the
    generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = out18_3 (iblk18 V c 0 t) (iblk18 V c 1 t) (iblk18 V c 2 t) := by dsimp only [dat18]

/-- Each input's current staging buffer holds its block at every point, fetched there or not. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body obligation, at a generic point -/

/-- What the body is called with at point t (the windows one by one), -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

/-- The body at any point: the inputs' memrefs hold their blocks (before18_W), so sound_kernel18 applies; the invariant
    and the core's owes pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ _ _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation18 (c : Dev nD) : BodyObligation (dat18 (F := F) V c) (defs₀ (F := F)) Variants.none () Set.univ := fun t => by
  rw [bigSep_W18, bigSep_W18]
  exact sound_body18 V c t

/-- info: 'Cert.Kernel.Reg.body_obligation18' depends on axioms: [propext, Classical.choice, Quot.sound] -/
#guard_msgs in #print axioms body_obligation18

end Cert.Kernel.Reg

end
-- ==== Proof.KB.Reg19.lean ====
/- REGION 19 of the kernel program (custom_call 19, `cc19__matmul_kernel`, pipeline 19), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk19`); what the body leaves in the output buffer as a function
   of the two input blocks (`out19_2`); the body's triple on whole staging memrefs (`sound_kernel19`); the
   pipeline's proof data at `V` (`dat19`) with its projections; and the body obligation at every point
   (`body_obligation19`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0 (the row block, its index moving with the point): its current staging buffer holds its block at
    every point, for ANY proof data whose array is `V`'s (`hA`) and whose body leaves the block in place
    (`hafter`); the window is uncut and never idle. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses -/

/-- The full rectangle of each window's staging buffer: the row block's, the weight's, the output block's. -/
abbrev r19_0 : Rect S1000x256 := Rect.unit (s := S1000x256) ![0, 0] S1000x256.size inb_S1000x256_S1000x256_0_0
abbrev r19_1 : Rect S256x256 := Rect.unit (s := S256x256) ![0, 0] S256x256.size inb_S256x256_S256x256_0_0
abbrev r19_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out19_2 (xa : Vec F S1000x256 .f32) (xb : Vec F S256x256 .f32) : Vec F S1000x256 .f32 :=
  View.canon [⟨r19_2, k19_pay1 (View.ld xa r19_0) (View.ld xb r19_1)⟩]

/-- The one store is through the full rectangle, so it covers the buffer. -/
theorem cover19_2 (pa : Vec F S1000x256 .f32) (y : S1000x256.Idx) :
    ∃ pc ∈ ([⟨r19_2, pa⟩] : List (View.Piece (Elt F) S1000x256 .f32)), y ∈ pc.1.set :=
  View.cover_of_tiled [⟨r19_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out19_2 xa xb`: the printed function is its skeleton of three loads and one store, run one operation after
    the other; the load of the output buffer reads a value nothing uses. -/
theorem sound_kernel19 (c : Dev nD) (E : Set ℕ) (i : grid19.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out19_2 xa xb)) -∗ K ⟨⟩))
      ⊢ wp frame (wpE (defs₀ (F := F)) Variants.none c none) E (cc19__matmul_kernel i ma hma mb hmb mc hmc) K := by
  simp only [cc19__matmul_kernel_eq_skeleton]; unfold cc19__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover19_2 _)

/-! ## The pipeline's proof data -/

/-- The proof data of pipeline 19 on core `c`: the arrays as the region finds them (`V`); after the body at
    point `t` each input's buffer at its block and the output's at `out19_2` of the input blocks; the invariant the
    class's (the scoped rest and the generator register, untouched); nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

/-- The proof data's arrays are the region-entry contents (the definition projected). -/
theorem A_eq19 (c : Dev nD) (w : Fin cfg19.W) : (dat19 V c).A w = V c (Pipeline.arrRef spec19 w) := by
  dsimp only [dat19]

/-- What the body leaves, window by window (the proof data's `match` reduced). -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]

/-- Each input's current staging buffer holds its block at every point, fetched there or not. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation, at a generic point -/

/-- What the body is called with at point `t` (the body obligation's precondition, the windows one by one), -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

/-- The body at any point: the inputs' memrefs hold their blocks (`before19_0`, `before19_1`), so `sound_kernel19`
    applies; the invariant and the core's debt pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%da, Ha⟩, ⟨%db, Hb⟩, ⟨%dc, Hc⟩⟩
  iapply (sound_kernel19 c Set.univ (grid19.coords t) _ _ _ _ _ _ (iblk19 V c 0 t) (iblk19 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.Kernel.Reg
-- ==== Proof.KB.ChainB.lean ====
-- laid out by: scratch/mkchain.js ChainB proof/Proof/KI/ChainB.lean
/- THE KERNEL PROGRAM'S BUFFER CONTENTS BETWEEN ITEMS, second part: from region 9's exit to the stretch before
   region 20 (boundaries 22 … 42), continuing the fold of the first part with the same statements beside each boundary. -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import proofs.«146967_j25786983645193_1_alg».proof.Proof.KB.ChainA
import proofs.«146967_j25786983645193_1_alg».proof.Proof.KB.Reg10
import proofs.«146967_j25786983645193_1_alg».proof.Proof.KB.Reg11
import proofs.«146967_j25786983645193_1_alg».proof.Proof.KB.Reg12
import proofs.«146967_j25786983645193_1_alg».proof.Proof.KB.Reg13
import proofs.«146967_j25786983645193_1_alg».proof.Proof.KB.Reg14
import proofs.«146967_j25786983645193_1_alg».proof.Proof.KB.Reg15
import proofs.«146967_j25786983645193_1_alg».proof.Proof.KB.Reg16
import proofs.«146967_j25786983645193_1_alg».proof.Proof.KB.Reg17
import proofs.«146967_j25786983645193_1_alg».proof.Proof.KB.Reg18
import proofs.«146967_j25786983645193_1_alg».proof.Proof.KB.Reg19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every reference `hostOps10` writes has index twenty or more. -/
theorem hostOps10_ge : (hostOps10_W.all fun r => decide (20 ≤ r.idx.val)) = true := by decide
/-- After `hostOps10`. -/
abbrev W22 : Dev nD → Valuation τ sig (Elt F) := fun c => StableHlo.after hostOps10 (W21 m c)
theorem W22_keep (c : Dev nD) (b : Ref sig .tc) (h : b ∉ hostOps10_W) :
    W22 m c (Proc.devRef .tc b) = W21 m c (Proc.devRef .tc b) :=
  StableHlo.after_of_writes_sub hostOps10 _ hostOps10_writes h
theorem W22_arg (c : Dev nD) {b : Ref sig .tc} (hb : b ∈ args) :
    W22 m c (Proc.devRef .tc b) = m ((c : Thread nD τ).loc b) :=
  (W22_keep m c b (args_not_mem hostOps10_ge hb)).trans (W21_arg m c hb)

/-- Every output array of region 10 has index twenty or more. -/
theorem out10_ge : ∀ w, (cfg10.win w).isOut = true → 20 ≤ (Pipeline.arrRef spec10 w).idx.val := by decide
/-- At region 10's exit: its arrays at what the pipeline leaves, every other buffer as entered. -/
def W23 (c : Dev nD) : Valuation τ sig (Elt F) :=
  Pipeline.withArrays spec10 c (W22 m c) fun w => (dat10 (rd (W22 m)) c).arrAt w cfg10.N
theorem W23_arr (c : Dev nD) (w : Fin cfg10.W) :
    W23 m c (Proc.devRef .tc (Pipeline.arrRef spec10 w)) = (dat10 (rd (W22 m)) c).arrAt w cfg10.N := by
  unfold W23; exact Pipeline.withArrays_arr spec10 launch10.win.arr_inj c _ _ w
theorem W23_of_ne (c : Dev nD) (b : Ref sig .tc) (hb : ∀ w, Pipeline.arrRef spec10 w ≠ b) :
    W23 m c (Proc.devRef .tc b) = W22 m c (Proc.devRef .tc b) := by
  unfold W23; exact Pipeline.withArrays_of_ne spec10 c _ _ b hb
/-- At region 10's exit each of its arrays holds what the pipeline leaves (`hF10`) and every other buffer what it held
    at entry (`hrest10`). -/
theorem hF10 (c : Dev nD) (w : Fin cfg10.W) :
    (dat10 (rd (W22 m)) c).arrAt w cfg10.N = rd (W23 m) c (Pipeline.arrRef spec10 w) :=
  (W23_arr m c w).symm
theorem hrest10 (c : Dev nD) : ∀ b, b ∉ Finset.univ.image (Pipeline.arrRef spec10) → rd (W23 m) c b = rd (W22 m) c b :=
  fun b hb => W23_of_ne m c b fun w e => hb (Finset.mem_image.mpr ⟨w, Finset.mem_univ _, e⟩)
/-- A reference that is no OUTPUT array of region 10 keeps its contents: an input array is left as entered, a buffer
    that is no array of the region bypasses it. -/
theorem W23_keep (c : Dev nD) (b : Ref sig .tc) (hb : ∀ w, Pipeline.arrRef spec10 w = b → (cfg10.win w).isOut = false) :
    W23 m c (Proc.devRef .tc b) = W22 m c (Proc.devRef .tc b) := by
  by_cases h : ∃ w, Pipeline.arrRef spec10 w = b
  · obtain ⟨w, rfl⟩ := h
    exact (W23_arr m c w).trans (((dat10 (rd (W22 m)) c).arrAt_in w (hb w rfl) _).trans (A_eq10 (rd (W22 m)) c w))
  · exact W23_of_ne m c b fun w e => h ⟨w, e⟩
theorem W23_arg (c : Dev nD) {b : Ref sig .tc} (hb : b ∈ args) :
    W23 m c (Proc.devRef .tc b) = m ((c : Thread nD τ).loc b) :=
  (W23_keep m c b (args_in out10_ge hb)).trans (W22_arg m c hb)

/-- Every reference `hostOps11` writes has index twenty or more. -/
theorem hostOps11_ge : (hostOps11_W.all fun r => decide (20 ≤ r.idx.val)) = true := by decide
/-- After `hostOps11`. -/
abbrev W24 : Dev nD → Valuation τ sig (Elt F) := fun c => StableHlo.after hostOps11 (W23 m c)
theorem W24_keep (c : Dev nD) (b : Ref sig .tc) (h : b ∉ hostOps11_W) :
    W24 m c (Proc.devRef .tc b) = W23 m c (Proc.devRef .tc b) :=
  StableHlo.after_of_writes_sub hostOps11 _ hostOps11_writes h
theorem W24_arg (c : Dev nD) {b : Ref sig .tc} (hb : b ∈ args) :
    W24 m c (Proc.devRef .tc b) = m ((c : Thread nD τ).loc b) :=
  (W24_keep m c b (args_not_mem hostOps11_ge hb)).trans (W23_arg m c hb)

/-- Every output array of region 11 has index twenty or more. -/
theorem out11_ge : ∀ w, (cfg11.win w).isOut = true → 20 ≤ (Pipeline.arrRef spec11 w).idx.val := by decide
/-- At region 11's exit: its arrays at what the pipeline leaves, every other buffer as entered. -/
def W25 (c : Dev nD) : Valuation τ sig (Elt F) :=
  Pipeline.withArrays spec11 c (W24 m c) fun w => (dat11 (rd (W24 m)) c).arrAt w cfg11.N
theorem W25_arr (c : Dev nD) (w : Fin cfg11.W) :
    W25 m c (Proc.devRef .tc (Pipeline.arrRef spec11 w)) = (dat11 (rd (W24 m)) c).arrAt w cfg11.N := by
  unfold W25; exact Pipeline.withArrays_arr spec11 launch11.win.arr_inj c _ _ w
theorem W25_of_ne (c : Dev nD) (b : Ref sig .tc) (hb : ∀ w, Pipeline.arrRef spec11 w ≠ b) :
    W25 m c (Proc.devRef .tc b) = W24 m c (Proc.devRef .tc b) := by
  unfold W25; exact Pipeline.withArrays_of_ne spec11 c _ _ b hb
/-- At region 11's exit each of its arrays holds what the pipeline leaves (`hF11`) and every other buffer what it held
    at entry (`hrest11`). -/
theorem hF11 (c : Dev nD) (w : Fin cfg11.W) :
    (dat11 (rd (W24 m)) c).arrAt w cfg11.N = rd (W25 m) c (Pipeline.arrRef spec11 w) :=
  (W25_arr m c w).symm
theorem hrest11 (c : Dev nD) : ∀ b, b ∉ Finset.univ.image (Pipeline.arrRef spec11) → rd (W25 m) c b = rd (W24 m) c b :=
  fun b hb => W25_of_ne m c b fun w e => hb (Finset.mem_image.mpr ⟨w, Finset.mem_univ _, e⟩)
/-- A reference that is no OUTPUT array of region 11 keeps its contents: an input array is left as entered, a buffer
    that is no array of the region bypasses it. -/
theorem W25_keep (c : Dev nD) (b : Ref sig .tc) (hb : ∀ w, Pipeline.arrRef spec11 w = b → (cfg11.win w).isOut = false) :
    W25 m c (Proc.devRef .tc b) = W24 m c (Proc.devRef .tc b) := by
  by_cases h : ∃ w, Pipeline.arrRef spec11 w = b
  · obtain ⟨w, rfl⟩ := h
    exact (W25_arr m c w).trans (((dat11 (rd (W24 m)) c).arrAt_in w (hb w rfl) _).trans (A_eq11 (rd (W24 m)) c w))
  · exact W25_of_ne m c b fun w e => h ⟨w, e⟩
theorem W25_arg (c : Dev nD) {b : Ref sig .tc} (hb : b ∈ args) :
    W25 m c (Proc.devRef .tc b) = m ((c : Thread nD τ).loc b) :=
  (W25_keep m c b (args_in out11_ge hb)).trans (W24_arg m c hb)

/-- Every reference `hostOps12` writes has index twenty or more. -/
theorem hostOps12_ge : (hostOps12_W.all fun r => decide (20 ≤ r.idx.val)) = true := by decide
/-- After `hostOps12`. -/
abbrev W26 : Dev nD → Valuation τ sig (Elt F) := fun c => StableHlo.after hostOps12 (W25 m c)
theorem W26_keep (c : Dev nD) (b : Ref sig .tc) (h : b ∉ hostOps12_W) :
    W26 m c (Proc.devRef .tc b) = W25 m c (Proc.devRef .tc b) :=
  StableHlo.after_of_writes_sub hostOps12 _ hostOps12_writes h
theorem W26_arg (c : Dev nD) {b : Ref sig .tc} (hb : b ∈ args) :
    W26 m c (Proc.devRef .tc b) = m ((c : Thread nD τ).loc b) :=
  (W26_keep m c b (args_not_mem hostOps12_ge hb)).trans (W25_arg m c hb)

/-- Every output array of region 12 has index twenty or more. -/
theorem out12_ge : ∀ w, (cfg12.win w).isOut = true → 20 ≤ (Pipeline.arrRef spec12 w).idx.val := by decide
/-- At region 12's exit: its arrays at what the pipeline leaves, every other buffer as entered. -/
def W27 (c : Dev nD) : Valuation τ sig (Elt F) :=
  Pipeline.withArrays spec12 c (W26 m c) fun w => (dat12 (rd (W26 m)) c).arrAt w cfg12.N
theorem W27_arr (c : Dev nD) (w : Fin cfg12.W) :
    W27 m c (Proc.devRef .tc (Pipeline.arrRef spec12 w)) = (dat12 (rd (W26 m)) c).arrAt w cfg12.N := by
  unfold W27; exact Pipeline.withArrays_arr spec12 launch12.win.arr_inj c _ _ w
theorem W27_of_ne (c : Dev nD) (b : Ref sig .tc) (hb : ∀ w, Pipeline.arrRef spec12 w ≠ b) :
    W27 m c (Proc.devRef .tc b) = W26 m c (Proc.devRef .tc b) := by
  unfold W27; exact Pipeline.withArrays_of_ne spec12 c _ _ b hb
/-- At region 12's exit each of its arrays holds what the pipeline leaves (`hF12`) and every other buffer what it held
    at entry (`hrest12`). -/
theorem hF12 (c : Dev nD) (w : Fin cfg12.W) :
    (dat12 (rd (W26 m)) c).arrAt w cfg12.N = rd (W27 m) c (Pipeline.arrRef spec12 w) :=
  (W27_arr m c w).symm
theorem hrest12 (c : Dev nD) : ∀ b, b ∉ Finset.univ.image (Pipeline.arrRef spec12) → rd (W27 m) c b = rd (W26 m) c b :=
  fun b hb => W27_of_ne m c b fun w e => hb (Finset.mem_image.mpr ⟨w, Finset.mem_univ _, e⟩)
/-- A reference that is no OUTPUT array of region 12 keeps its contents: an input array is left as entered, a buffer
    that is no array of the region bypasses it. -/
theorem W27_keep (c : Dev nD) (b : Ref sig .tc) (hb : ∀ w, Pipeline.arrRef spec12 w = b → (cfg12.win w).isOut = false) :
    W27 m c (Proc.devRef .tc b) = W26 m c (Proc.devRef .tc b) := by
  by_cases h : ∃ w, Pipeline.arrRef spec12 w = b
  · obtain ⟨w, rfl⟩ := h
    exact (W27_arr m c w).trans (((dat12 (rd (W26 m)) c).arrAt_in w (hb w rfl) _).trans (A_eq12 (rd (W26 m)) c w))
  · exact W27_of_ne m c b fun w e => h ⟨w, e⟩
theorem W27_arg (c : Dev nD) {b : Ref sig .tc} (hb : b ∈ args) :
    W27 m c (Proc.devRef .tc b) = m ((c : Thread nD τ).loc b) :=
  (W27_keep m c b (args_in out12_ge hb)).trans (W26_arg m c hb)

/-- Every reference `hostOps13` writes has index twenty or more. -/
theorem hostOps13_ge : (hostOps13_W.all fun r => decide (20 ≤ r.idx.val)) = true := by decide
/-- After `hostOps13`. -/
abbrev W28 : Dev nD → Valuation τ sig (Elt F) := fun c => StableHlo.after hostOps13 (W27 m c)
theorem W28_keep (c : Dev nD) (b : Ref sig .tc) (h : b ∉ hostOps13_W) :
    W28 m c (Proc.devRef .tc b) = W27 m c (Proc.devRef .tc b) :=
  StableHlo.after_of_writes_sub hostOps13 _ hostOps13_writes h
theorem W28_arg (c : Dev nD) {b : Ref sig .tc} (hb : b ∈ args) :
    W28 m c (Proc.devRef .tc b) = m ((c : Thread nD τ).loc b) :=
  (W28_keep m c b (args_not_mem hostOps13_ge hb)).trans (W27_arg m c hb)

/-- Every output array of region 13 has index twenty or more. -/
theorem out13_ge : ∀ w, (cfg13.win w).isOut = true → 20 ≤ (Pipeline.arrRef spec13 w).idx.val := by decide
/-- At region 13's exit: its arrays at what the pipeline leaves, every other buffer as entered. -/
def W29 (c : Dev nD) : Valuation τ sig (Elt F) :=
  Pipeline.withArrays spec13 c (W28 m c) fun w => (dat13 (rd (W28 m)) c).arrAt w cfg13.N
theorem W29_arr (c : Dev nD) (w : Fin cfg13.W) :
    W29 m c (Proc.devRef .tc (Pipeline.arrRef spec13 w)) = (dat13 (rd (W28 m)) c).arrAt w cfg13.N := by
  unfold W29; exact Pipeline.withArrays_arr spec13 launch13.win.arr_inj c _ _ w
theorem W29_of_ne (c : Dev nD) (b : Ref sig .tc) (hb : ∀ w, Pipeline.arrRef spec13 w ≠ b) :
    W29 m c (Proc.devRef .tc b) = W28 m c (Proc.devRef .tc b) := by
  unfold W29; exact Pipeline.withArrays_of_ne spec13 c _ _ b hb
/-- At region 13's exit each of its arrays holds what the pipeline leaves (`hF13`) and every other buffer what it held
    at entry (`hrest13`). -/
theorem hF13 (c : Dev nD) (w : Fin cfg13.W) :
    (dat13 (rd (W28 m)) c).arrAt w cfg13.N = rd (W29 m) c (Pipeline.arrRef spec13 w) :=
  (W29_arr m c w).symm
theorem hrest13 (c : Dev nD) : ∀ b, b ∉ Finset.univ.image (Pipeline.arrRef spec13) → rd (W29 m) c b = rd (W28 m) c b :=
  fun b hb => W29_of_ne m c b fun w e => hb (Finset.mem_image.mpr ⟨w, Finset.mem_univ _, e⟩)
/-- A reference that is no OUTPUT array of region 13 keeps its contents: an input array is left as entered, a buffer
    that is no array of the region bypasses it. -/
theorem W29_keep (c : Dev nD) (b : Ref sig .tc) (hb : ∀ w, Pipeline.arrRef spec13 w = b → (cfg13.win w).isOut = false) :
    W29 m c (Proc.devRef .tc b) = W28 m c (Proc.devRef .tc b) := by
  by_cases h : ∃ w, Pipeline.arrRef spec13 w = b
  · obtain ⟨w, rfl⟩ := h
    exact (W29_arr m c w).trans (((dat13 (rd (W28 m)) c).arrAt_in w (hb w rfl) _).trans (A_eq13 (rd (W28 m)) c w))
  · exact W29_of_ne m c b fun w e => h ⟨w, e⟩
theorem W29_arg (c : Dev nD) {b : Ref sig .tc} (hb : b ∈ args) :
    W29 m c (Proc.devRef .tc b) = m ((c : Thread nD τ).loc b) :=
  (W29_keep m c b (args_in out13_ge hb)).trans (W28_arg m c hb)

/-- Every reference `hostOps14` writes has index twenty or more. -/
theorem hostOps14_ge : (hostOps14_W.all fun r => decide (20 ≤ r.idx.val)) = true := by decide
/-- After `hostOps14`. -/
abbrev W30 : Dev nD → Valuation τ sig (Elt F) := fun c => StableHlo.after hostOps14 (W29 m c)
theorem W30_keep (c : Dev nD) (b : Ref sig .tc) (h : b ∉ hostOps14_W) :
    W30 m c (Proc.devRef .tc b) = W29 m c (Proc.devRef .tc b) :=
  StableHlo.after_of_writes_sub hostOps14 _ hostOps14_writes h
theorem W30_arg (c : Dev nD) {b : Ref sig .tc} (hb : b ∈ args) :
    W30 m c (Proc.devRef .tc b) = m ((c : Thread nD τ).loc b) :=
  (W30_keep m c b (args_not_mem hostOps14_ge hb)).trans (W29_arg m c hb)

/-- Every output array of region 14 has index twenty or more. -/
theorem out14_ge : ∀ w, (cfg14.win w).isOut = true → 20 ≤ (Pipeline.arrRef spec14 w).idx.val := by decide
/-- At region 14's exit: its arrays at what the pipeline leaves, every other buffer as entered. -/
def W31 (c : Dev nD) : Valuation τ sig (Elt F) :=
  Pipeline.withArrays spec14 c (W30 m c) fun w => (dat14 (rd (W30 m)) c).arrAt w cfg14.N
theorem W31_arr (c : Dev nD) (w : Fin cfg14.W) :
    W31 m c (Proc.devRef .tc (Pipeline.arrRef spec14 w)) = (dat14 (rd (W30 m)) c).arrAt w cfg14.N := by
  unfold W31; exact Pipeline.withArrays_arr spec14 launch14.win.arr_inj c _ _ w
theorem W31_of_ne (c : Dev nD) (b : Ref sig .tc) (hb : ∀ w, Pipeline.arrRef spec14 w ≠ b) :
    W31 m c (Proc.devRef .tc b) = W30 m c (Proc.devRef .tc b) := by
  unfold W31; exact Pipeline.withArrays_of_ne spec14 c _ _ b hb
/-- At region 14's exit each of its arrays holds what the pipeline leaves (`hF14`) and every other buffer what it held
    at entry (`hrest14`). -/
theorem hF14 (c : Dev nD) (w : Fin cfg14.W) :
    (dat14 (rd (W30 m)) c).arrAt w cfg14.N = rd (W31 m) c (Pipeline.arrRef spec14 w) :=
  (W31_arr m c w).symm
theorem hrest14 (c : Dev nD) : ∀ b, b ∉ Finset.univ.image (Pipeline.arrRef spec14) → rd (W31 m) c b = rd (W30 m) c b :=
  fun b hb => W31_of_ne m c b fun w e => hb (Finset.mem_image.mpr ⟨w, Finset.mem_univ _, e⟩)
/-- A reference that is no OUTPUT array of region 14 keeps its contents: an input array is left as entered, a buffer
    that is no array of the region bypasses it. -/
theorem W31_keep (c : Dev nD) (b : Ref sig .tc) (hb : ∀ w, Pipeline.arrRef spec14 w = b → (cfg14.win w).isOut = false) :
    W31 m c (Proc.devRef .tc b) = W30 m c (Proc.devRef .tc b) := by
  by_cases h : ∃ w, Pipeline.arrRef spec14 w = b
  · obtain ⟨w, rfl⟩ := h
    exact (W31_arr m c w).trans (((dat14 (rd (W30 m)) c).arrAt_in w (hb w rfl) _).trans (A_eq14 (rd (W30 m)) c w))
  · exact W31_of_ne m c b fun w e => h ⟨w, e⟩
theorem W31_arg (c : Dev nD) {b : Ref sig .tc} (hb : b ∈ args) :
    W31 m c (Proc.devRef .tc b) = m ((c : Thread nD τ).loc b) :=
  (W31_keep m c b (args_in out14_ge hb)).trans (W30_arg m c hb)

/-- Every reference `hostOps15` writes has index twenty or more. -/
theorem hostOps15_ge : (hostOps15_W.all fun r => decide (20 ≤ r.idx.val)) = true := by decide
/-- After `hostOps15`. -/
abbrev W32 : Dev nD → Valuation τ sig (Elt F) := fun c => StableHlo.after hostOps15 (W31 m c)
theorem W32_keep (c : Dev nD) (b : Ref sig .tc) (h : b ∉ hostOps15_W) :
    W32 m c (Proc.devRef .tc b) = W31 m c (Proc.devRef .tc b) :=
  StableHlo.after_of_writes_sub hostOps15 _ hostOps15_writes h
theorem W32_arg (c : Dev nD) {b : Ref sig .tc} (hb : b ∈ args) :
    W32 m c (Proc.devRef .tc b) = m ((c : Thread nD τ).loc b) :=
  (W32_keep m c b (args_not_mem hostOps15_ge hb)).trans (W31_arg m c hb)

/-- Every output array of region 15 has index twenty or more. -/
theorem out15_ge : ∀ w, (cfg15.win w).isOut = true → 20 ≤ (Pipeline.arrRef spec15 w).idx.val := by decide
/-- At region 15's exit: its arrays at what the pipeline leaves, every other buffer as entered. -/
def W33 (c : Dev nD) : Valuation τ sig (Elt F) :=
  Pipeline.withArrays spec15 c (W32 m c) fun w => (dat15 (rd (W32 m)) c).arrAt w cfg15.N
theorem W33_arr (c : Dev nD) (w : Fin cfg15.W) :
    W33 m c (Proc.devRef .tc (Pipeline.arrRef spec15 w)) = (dat15 (rd (W32 m)) c).arrAt w cfg15.N := by
  unfold W33; exact Pipeline.withArrays_arr spec15 launch15.win.arr_inj c _ _ w
theorem W33_of_ne (c : Dev nD) (b : Ref sig .tc) (hb : ∀ w, Pipeline.arrRef spec15 w ≠ b) :
    W33 m c (Proc.devRef .tc b) = W32 m c (Proc.devRef .tc b) := by
  unfold W33; exact Pipeline.withArrays_of_ne spec15 c _ _ b hb
/-- At region 15's exit each of its arrays holds what the pipeline leaves (`hF15`) and every other buffer what it held
    at entry (`hrest15`). -/
theorem hF15 (c : Dev nD) (w : Fin cfg15.W) :
    (dat15 (rd (W32 m)) c).arrAt w cfg15.N = rd (W33 m) c (Pipeline.arrRef spec15 w) :=
  (W33_arr m c w).symm
theorem hrest15 (c : Dev nD) : ∀ b, b ∉ Finset.univ.image (Pipeline.arrRef spec15) → rd (W33 m) c b = rd (W32 m) c b :=
  fun b hb => W33_of_ne m c b fun w e => hb (Finset.mem_image.mpr ⟨w, Finset.mem_univ _, e⟩)
/-- A reference that is no OUTPUT array of region 15 keeps its contents: an input array is left as entered, a buffer
    that is no array of the region bypasses it. -/
theorem W33_keep (c : Dev nD) (b : Ref sig .tc) (hb : ∀ w, Pipeline.arrRef spec15 w = b → (cfg15.win w).isOut = false) :
    W33 m c (Proc.devRef .tc b) = W32 m c (Proc.devRef .tc b) := by
  by_cases h : ∃ w, Pipeline.arrRef spec15 w = b
  · obtain ⟨w, rfl⟩ := h
    exact (W33_arr m c w).trans (((dat15 (rd (W32 m)) c).arrAt_in w (hb w rfl) _).trans (A_eq15 (rd (W32 m)) c w))
  · exact W33_of_ne m c b fun w e => h ⟨w, e⟩
theorem W33_arg (c : Dev nD) {b : Ref sig .tc} (hb : b ∈ args) :
    W33 m c (Proc.devRef .tc b) = m ((c : Thread nD τ).loc b) :=
  (W33_keep m c b (args_in out15_ge hb)).trans (W32_arg m c hb)

/-- Every reference `hostOps16` writes has index twenty or more. -/
theorem hostOps16_ge : (hostOps16_W.all fun r => decide (20 ≤ r.idx.val)) = true := by decide
/-- After `hostOps16`. -/
abbrev W34 : Dev nD → Valuation τ sig (Elt F) := fun c => StableHlo.after hostOps16 (W33 m c)
theorem W34_keep (c : Dev nD) (b : Ref sig .tc) (h : b ∉ hostOps16_W) :
    W34 m c (Proc.devRef .tc b) = W33 m c (Proc.devRef .tc b) :=
  StableHlo.after_of_writes_sub hostOps16 _ hostOps16_writes h
theorem W34_arg (c : Dev nD) {b : Ref sig .tc} (hb : b ∈ args) :
    W34 m c (Proc.devRef .tc b) = m ((c : Thread nD τ).loc b) :=
  (W34_keep m c b (args_not_mem hostOps16_ge hb)).trans (W33_arg m c hb)

/-- Every output array of region 16 has index twenty or more. -/
theorem out16_ge : ∀ w, (cfg16.win w).isOut = true → 20 ≤ (Pipeline.arrRef spec16 w).idx.val := by decide
/-- At region 16's exit: its arrays at what the pipeline leaves, every other buffer as entered. -/
def W35 (c : Dev nD) : Valuation τ sig (Elt F) :=
  Pipeline.withArrays spec16 c (W34 m c) fun w => (dat16 (rd (W34 m)) c).arrAt w cfg16.N
theorem W35_arr (c : Dev nD) (w : Fin cfg16.W) :
    W35 m c (Proc.devRef .tc (Pipeline.arrRef spec16 w)) = (dat16 (rd (W34 m)) c).arrAt w cfg16.N := by
  unfold W35; exact Pipeline.withArrays_arr spec16 launch16.win.arr_inj c _ _ w
theorem W35_of_ne (c : Dev nD) (b : Ref sig .tc) (hb : ∀ w, Pipeline.arrRef spec16 w ≠ b) :
    W35 m c (Proc.devRef .tc b) = W34 m c (Proc.devRef .tc b) := by
  unfold W35; exact Pipeline.withArrays_of_ne spec16 c _ _ b hb
/-- At region 16's exit each of its arrays holds what the pipeline leaves (`hF16`) and every other buffer what it held
    at entry (`hrest16`). -/
theorem hF16 (c : Dev nD) (w : Fin cfg16.W) :
    (dat16 (rd (W34 m)) c).arrAt w cfg16.N = rd (W35 m) c (Pipeline.arrRef spec16 w) :=
  (W35_arr m c w).symm
theorem hrest16 (c : Dev nD) : ∀ b, b ∉ Finset.univ.image (Pipeline.arrRef spec16) → rd (W35 m) c b = rd (W34 m) c b :=
  fun b hb => W35_of_ne m c b fun w e => hb (Finset.mem_image.mpr ⟨w, Finset.mem_univ _, e⟩)
/-- A reference that is no OUTPUT array of region 16 keeps its contents: an input array is left as entered, a buffer
    that is no array of the region bypasses it. -/
theorem W35_keep (c : Dev nD) (b : Ref sig .tc) (hb : ∀ w, Pipeline.arrRef spec16 w = b → (cfg16.win w).isOut = false) :
    W35 m c (Proc.devRef .tc b) = W34 m c (Proc.devRef .tc b) := by
  by_cases h : ∃ w, Pipeline.arrRef spec16 w = b
  · obtain ⟨w, rfl⟩ := h
    exact (W35_arr m c w).trans (((dat16 (rd (W34 m)) c).arrAt_in w (hb w rfl) _).trans (A_eq16 (rd (W34 m)) c w))
  · exact W35_of_ne m c b fun w e => h ⟨w, e⟩
theorem W35_arg (c : Dev nD) {b : Ref sig .tc} (hb : b ∈ args) :
    W35 m c (Proc.devRef .tc b) = m ((c : Thread nD τ).loc b) :=
  (W35_keep m c b (args_in out16_ge hb)).trans (W34_arg m c hb)

/-- Every reference `hostOps17` writes has index twenty or more. -/
theorem hostOps17_ge : (hostOps17_W.all fun r => decide (20 ≤ r.idx.val)) = true := by decide
/-- After `hostOps17`. -/
abbrev W36 : Dev nD → Valuation τ sig (Elt F) := fun c => StableHlo.after hostOps17 (W35 m c)
theorem W36_keep (c : Dev nD) (b : Ref sig .tc) (h : b ∉ hostOps17_W) :
    W36 m c (Proc.devRef .tc b) = W35 m c (Proc.devRef .tc b) :=
  StableHlo.after_of_writes_sub hostOps17 _ hostOps17_writes h
theorem W36_arg (c : Dev nD) {b : Ref sig .tc} (hb : b ∈ args) :
    W36 m c (Proc.devRef .tc b) = m ((c : Thread nD τ).loc b) :=
  (W36_keep m c b (args_not_mem hostOps17_ge hb)).trans (W35_arg m c hb)

/-- Every output array of region 17 has index twenty or more. -/
theorem out17_ge : ∀ w, (cfg17.win w).isOut = true → 20 ≤ (Pipeline.arrRef spec17 w).idx.val := by decide
/-- At region 17's exit: its arrays at what the pipeline leaves, every other buffer as entered. -/
def W37 (c : Dev nD) : Valuation τ sig (Elt F) :=
  Pipeline.withArrays spec17 c (W36 m c) fun w => (dat17 (rd (W36 m)) c).arrAt w cfg17.N
theorem W37_arr (c : Dev nD) (w : Fin cfg17.W) :
    W37 m c (Proc.devRef .tc (Pipeline.arrRef spec17 w)) = (dat17 (rd (W36 m)) c).arrAt w cfg17.N := by
  unfold W37; exact Pipeline.withArrays_arr spec17 launch17.win.arr_inj c _ _ w
theorem W37_of_ne (c : Dev nD) (b : Ref sig .tc) (hb : ∀ w, Pipeline.arrRef spec17 w ≠ b) :
    W37 m c (Proc.devRef .tc b) = W36 m c (Proc.devRef .tc b) := by
  unfold W37; exact Pipeline.withArrays_of_ne spec17 c _ _ b hb
/-- At region 17's exit each of its arrays holds what the pipeline leaves (`hF17`) and every other buffer what it held
    at entry (`hrest17`). -/
theorem hF17 (c : Dev nD) (w : Fin cfg17.W) :
    (dat17 (rd (W36 m)) c).arrAt w cfg17.N = rd (W37 m) c (Pipeline.arrRef spec17 w) :=
  (W37_arr m c w).symm
theorem hrest17 (c : Dev nD) : ∀ b, b ∉ Finset.univ.image (Pipeline.arrRef spec17) → rd (W37 m) c b = rd (W36 m) c b :=
  fun b hb => W37_of_ne m c b fun w e => hb (Finset.mem_image.mpr ⟨w, Finset.mem_univ _, e⟩)
/-- A reference that is no OUTPUT array of region 17 keeps its contents: an input array is left as entered, a buffer
    that is no array of the region bypasses it. -/
theorem W37_keep (c : Dev nD) (b : Ref sig .tc) (hb : ∀ w, Pipeline.arrRef spec17 w = b → (cfg17.win w).isOut = false) :
    W37 m c (Proc.devRef .tc b) = W36 m c (Proc.devRef .tc b) := by
  by_cases h : ∃ w, Pipeline.arrRef spec17 w = b
  · obtain ⟨w, rfl⟩ := h
    exact (W37_arr m c w).trans (((dat17 (rd (W36 m)) c).arrAt_in w (hb w rfl) _).trans (A_eq17 (rd (W36 m)) c w))
  · exact W37_of_ne m c b fun w e => h ⟨w, e⟩
theorem W37_arg (c : Dev nD) {b : Ref sig .tc} (hb : b ∈ args) :
    W37 m c (Proc.devRef .tc b) = m ((c : Thread nD τ).loc b) :=
  (W37_keep m c b (args_in out17_ge hb)).trans (W36_arg m c hb)

/-- Every reference `hostOps18` writes has index twenty or more. -/
theorem hostOps18_ge : (hostOps18_W.all fun r => decide (20 ≤ r.idx.val)) = true := by decide
/-- After `hostOps18`. -/
abbrev W38 : Dev nD → Valuation τ sig (Elt F) := fun c => StableHlo.after hostOps18 (W37 m c)
theorem W38_keep (c : Dev nD) (b : Ref sig .tc) (h : b ∉ hostOps18_W) :
    W38 m c (Proc.devRef .tc b) = W37 m c (Proc.devRef .tc b) :=
  StableHlo.after_of_writes_sub hostOps18 _ hostOps18_writes h
theorem W38_arg (c : Dev nD) {b : Ref sig .tc} (hb : b ∈ args) :
    W38 m c (Proc.devRef .tc b) = m ((c : Thread nD τ).loc b) :=
  (W38_keep m c b (args_not_mem hostOps18_ge hb)).trans (W37_arg m c hb)

/-- Every output array of region 18 has index twenty or more. -/
theorem out18_ge : ∀ w, (cfg18.win w).isOut = true → 20 ≤ (Pipeline.arrRef spec18 w).idx.val := by decide
/-- At region 18's exit: its arrays at what the pipeline leaves, every other buffer as entered. -/
def W39 (c : Dev nD) : Valuation τ sig (Elt F) :=
  Pipeline.withArrays spec18 c (W38 m c) fun w => (dat18 (rd (W38 m)) c).arrAt w cfg18.N
theorem W39_arr (c : Dev nD) (w : Fin cfg18.W) :
    W39 m c (Proc.devRef .tc (Pipeline.arrRef spec18 w)) = (dat18 (rd (W38 m)) c).arrAt w cfg18.N := by
  unfold W39; exact Pipeline.withArrays_arr spec18 launch18.win.arr_inj c _ _ w
theorem W39_of_ne (c : Dev nD) (b : Ref sig .tc) (hb : ∀ w, Pipeline.arrRef spec18 w ≠ b) :
    W39 m c (Proc.devRef .tc b) = W38 m c (Proc.devRef .tc b) := by
  unfold W39; exact Pipeline.withArrays_of_ne spec18 c _ _ b hb
/-- At region 18's exit each of its arrays holds what the pipeline leaves (`hF18`) and every other buffer what it held
    at entry (`hrest18`). -/
theorem hF18 (c : Dev nD) (w : Fin cfg18.W) :
    (dat18 (rd (W38 m)) c).arrAt w cfg18.N = rd (W39 m) c (Pipeline.arrRef spec18 w) :=
  (W39_arr m c w).symm
theorem hrest18 (c : Dev nD) : ∀ b, b ∉ Finset.univ.image (Pipeline.arrRef spec18) → rd (W39 m) c b = rd (W38 m) c b :=
  fun b hb => W39_of_ne m c b fun w e => hb (Finset.mem_image.mpr ⟨w, Finset.mem_univ _, e⟩)
/-- A reference that is no OUTPUT array of region 18 keeps its contents: an input array is left as entered, a buffer
    that is no array of the region bypasses it. -/
theorem W39_keep (c : Dev nD) (b : Ref sig .tc) (hb : ∀ w, Pipeline.arrRef spec18 w = b → (cfg18.win w).isOut = false) :
    W39 m c (Proc.devRef .tc b) = W38 m c (Proc.devRef .tc b) := by
  by_cases h : ∃ w, Pipeline.arrRef spec18 w = b
  · obtain ⟨w, rfl⟩ := h
    exact (W39_arr m c w).trans (((dat18 (rd (W38 m)) c).arrAt_in w (hb w rfl) _).trans (A_eq18 (rd (W38 m)) c w))
  · exact W39_of_ne m c b fun w e => h ⟨w, e⟩
theorem W39_arg (c : Dev nD) {b : Ref sig .tc} (hb : b ∈ args) :
    W39 m c (Proc.devRef .tc b) = m ((c : Thread nD τ).loc b) :=
  (W39_keep m c b (args_in out18_ge hb)).trans (W38_arg m c hb)

/-- Every reference `hostOps19` writes has index twenty or more. -/
theorem hostOps19_ge : (hostOps19_W.all fun r => decide (20 ≤ r.idx.val)) = true := by decide
/-- After `hostOps19`. -/
abbrev W40 : Dev nD → Valuation τ sig (Elt F) := fun c => StableHlo.after hostOps19 (W39 m c)
theorem W40_keep (c : Dev nD) (b : Ref sig .tc) (h : b ∉ hostOps19_W) :
    W40 m c (Proc.devRef .tc b) = W39 m c (Proc.devRef .tc b) :=
  StableHlo.after_of_writes_sub hostOps19 _ hostOps19_writes h
theorem W40_arg (c : Dev nD) {b : Ref sig .tc} (hb : b ∈ args) :
    W40 m c (Proc.devRef .tc b) = m ((c : Thread nD τ).loc b) :=
  (W40_keep m c b (args_not_mem hostOps19_ge hb)).trans (W39_arg m c hb)

/-- Every output array of region 19 has index twenty or more. -/
theorem out19_ge : ∀ w, (cfg19.win w).isOut = true → 20 ≤ (Pipeline.arrRef spec19 w).idx.val := by decide
/-- At region 19's exit: its arrays at what the pipeline leaves, every other buffer as entered. -/
def W41 (c : Dev nD) : Valuation τ sig (Elt F) :=
  Pipeline.withArrays spec19 c (W40 m c) fun w => (dat19 (rd (W40 m)) c).arrAt w cfg19.N
theorem W41_arr (c : Dev nD) (w : Fin cfg19.W) :
    W41 m c (Proc.devRef .tc (Pipeline.arrRef spec19 w)) = (dat19 (rd (W40 m)) c).arrAt w cfg19.N := by
  unfold W41; exact Pipeline.withArrays_arr spec19 launch19.win.arr_inj c _ _ w
theorem W41_of_ne (c : Dev nD) (b : Ref sig .tc) (hb : ∀ w, Pipeline.arrRef spec19 w ≠ b) :
    W41 m c (Proc.devRef .tc b) = W40 m c (Proc.devRef .tc b) := by
  unfold W41; exact Pipeline.withArrays_of_ne spec19 c _ _ b hb
/-- At region 19's exit each of its arrays holds what the pipeline leaves (`hF19`) and every other buffer what it held
    at entry (`hrest19`). -/
theorem hF19 (c : Dev nD) (w : Fin cfg19.W) :
    (dat19 (rd (W40 m)) c).arrAt w cfg19.N = rd (W41 m) c (Pipeline.arrRef spec19 w) :=
  (W41_arr m c w).symm
theorem hrest19 (c : Dev nD) : ∀ b, b ∉ Finset.univ.image (Pipeline.arrRef spec19) → rd (W41 m) c b = rd (W40 m) c b :=
  fun b hb => W41_of_ne m c b fun w e => hb (Finset.mem_image.mpr ⟨w, Finset.mem_univ _, e⟩)
/-- A reference that is no OUTPUT array of region 19 keeps its contents: an input array is left as entered, a buffer
    that is no array of the region bypasses it. -/
theorem W41_keep (c : Dev nD) (b : Ref sig .tc) (hb : ∀ w, Pipeline.arrRef spec19 w = b → (cfg19.win w).isOut = false) :
    W41 m c (Proc.devRef .tc b) = W40 m c (Proc.devRef .tc b) := by
  by_cases h : ∃ w, Pipeline.arrRef spec19 w = b
  · obtain ⟨w, rfl⟩ := h
    exact (W41_arr m c w).trans (((dat19 (rd (W40 m)) c).arrAt_in w (hb w rfl) _).trans (A_eq19 (rd (W40 m)) c w))
  · exact W41_of_ne m c b fun w e => h ⟨w, e⟩
theorem W41_arg (c : Dev nD) {b : Ref sig .tc} (hb : b ∈ args) :
    W41 m c (Proc.devRef .tc b) = m ((c : Thread nD τ).loc b) :=
  (W41_keep m c b (args_in out19_ge hb)).trans (W40_arg m c hb)

/-- Every reference `hostOps20` writes has index twenty or more. -/
theorem hostOps20_ge : (hostOps20_W.all fun r => decide (20 ≤ r.idx.val)) = true := by decide
/-- After `hostOps20`. -/
abbrev W42 : Dev nD → Valuation τ sig (Elt F) := fun c => StableHlo.after hostOps20 (W41 m c)
theorem W42_keep (c : Dev nD) (b : Ref sig .tc) (h : b ∉ hostOps20_W) :
    W42 m c (Proc.devRef .tc b) = W41 m c (Proc.devRef .tc b) :=
  StableHlo.after_of_writes_sub hostOps20 _ hostOps20_writes h
theorem W42_arg (c : Dev nD) {b : Ref sig .tc} (hb : b ∈ args) :
    W42 m c (Proc.devRef .tc b) = m ((c : Thread nD τ).loc b) :=
  (W42_keep m c b (args_not_mem hostOps20_ge hb)).trans (W41_arg m c hb)

end Cert.Kernel.Reg

end
-- ==== Proof.KB.Reg20.lean ====
/-
  REGION 20 of the kernel program (custom_call 20, the kernel function cc20__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt20, with its two case equations outsAt20_zero and outsAt20_succ).
  Per case the body's triple is a subtype: the lists of stores (rectangle and payload, last first) each output buffer
  ends with, together with the proof that the body runs to a continuation holding exactly those stores written
  (kernelRun20_A, kernelRun20_B). What a buffer then READS is the canonical contents of its list (View.canon), since the
  last store of each list covers the block.

  Exported: the proof data dat20 (arrays at V, full shares, nothing owed), A_eq20, the body obligation
  body_obligation20, the recursion outsAt20 and its equations, after20_0 / after20_1 / after20_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond20_0 (i : grid20.Coords) : Prop :=
  (Scalar.cmpi .ne (Scalar.extui (Scalar.cmpi .eq (BitVec.ofNat 32 (i 0).val) 0#32)) 0#32) = 1#1

/-- It holds at the first point only: decided over the 50 points. -/
theorem hcond20_0 : ∀ t : Fin cfg20.N, cond20_0 (grid20.coords t) ↔ t.val = 0 :=
  (by decide +kernel : ∀ t : Fin grid20.N, cond20_0 (grid20.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun20_A (c : Dev nD) (i : grid20.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond20_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc20__sumsq_kernel i arg1 harg1 arg2 harg2 arg3 harg3) K } := by
  refine ⟨?_, ?_, fun E K => ?run⟩
  case run =>
    simp only [cc20__sumsq_kernel_eq_skeleton]; unfold cc20__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun20_B (c : Dev nD) (i : grid20.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond20_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc20__sumsq_kernel i arg1 harg1 arg2 harg2 arg3 harg3) K } := by
  refine ⟨?_, ?_, fun E K => ?run⟩
  case run =>
    simp only [cc20__sumsq_kernel_eq_skeleton]; unfold cc20__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's current staging buffer holds its block at every point, fetched there or not, for ANY proof data
    whose array is `V`'s and whose body leaves the block in place: unfetched, the block index has not moved. The
    window is uncut and never idle. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-! ## What each case leaves in the two output buffers -/

/-- The whole-block rectangle of a [1,256] buffer at zero offsets: every index lies in it. -/
private theorem mem_whole_S20x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover20_A_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) (y : S1x256.Idx) :
    ∃ pc ∈ (kernelRun20_A c i arg1 harg1 arg2 harg2 arg3 harg3 hc0 x0).1, y ∈ pc.1.set := by
  unfold kernelRun20_A
  dsimp only
  refine ⟨_, List.mem_cons_self, ?_⟩
  exact mem_whole_S20x256 inb_S1x256_S1x256_0_0 y

/-- Case A's stores into output 2 cover its block likewise. -/
theorem cover20_A_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) (y : S1x256.Idx) :
    ∃ pc ∈ (kernelRun20_A c i arg1 harg1 arg2 harg2 arg3 harg3 hc0 x0).2.1, y ∈ pc.1.set := by
  unfold kernelRun20_A
  dsimp only
  refine ⟨_, List.mem_cons_self, ?_⟩
  exact mem_whole_S20x256 inb_S1x256_S1x256_0_0 y

/-- Case B's one store into output 1 covers its block. -/
theorem cover20_B_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) (y : S1x256.Idx) :
    ∃ pc ∈ (kernelRun20_B c i arg1 harg1 arg2 harg2 arg3 harg3 hc0 x0 xo1 xo2).1, y ∈ pc.1.set := by
  unfold kernelRun20_B
  dsimp only
  refine ⟨_, List.mem_cons_self, ?_⟩
  exact mem_whole_S20x256 inb_S1x256_S1x256_0_0 y

/-- Case B's one store into output 2 covers its block. -/
theorem cover20_B_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) (y : S1x256.Idx) :
    ∃ pc ∈ (kernelRun20_B c i arg1 harg1 arg2 harg2 arg3 harg3 hc0 x0 xo1 xo2).2.1, y ∈ pc.1.set := by
  unfold kernelRun20_B
  dsimp only
  refine ⟨_, List.mem_cons_self, ?_⟩
  exact mem_whole_S20x256 inb_S1x256_S1x256_0_0 y

/-- What case A leaves in output 1's staging buffer: the canonical contents of its stores. -/
def out20_A_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) : Vec F S1x256 .f32 :=
  View.canon (kernelRun20_A c i arg1 harg1 arg2 harg2 arg3 harg3 hc0 x0).1

/-- What case A leaves in output 2's staging buffer. -/
def out20_A_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) : Vec F S1x256 .f32 :=
  View.canon (kernelRun20_A c i arg1 harg1 arg2 harg2 arg3 harg3 hc0 x0).2.1

/-- What case B leaves in output 1's staging buffer, from the input block and what the two outputs held. -/
def out20_B_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) : Vec F S1x256 .f32 :=
  View.canon (kernelRun20_B c i arg1 harg1 arg2 harg2 arg3 harg3 hc0 x0 xo1 xo2).1

/-- What case B leaves in output 2's staging buffer. -/
def out20_B_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) : Vec F S1x256 .f32 :=
  View.canon (kernelRun20_B c i arg1 harg1 arg2 harg2 arg3 harg3 hc0 x0 xo1 xo2).2.1

/-! ## What the outputs hold after each point -/

/-- Each window's current staging memref at point `t` is whole. -/
abbrev hs20_0 (t : Fin cfg20.N) : (st20_0 t).IsWhole := hstage20_0 ((cfg20.slots t 0).cast nbuf20_0)
abbrev hs20_1 (t : Fin cfg20.N) : (st20_1 t).IsWhole := hstage20_1 ((cfg20.slots t 1).cast nbuf20_1)
abbrev hs20_2 (t : Fin cfg20.N) : (st20_2 t).IsWhole := hstage20_2 ((cfg20.slots t 2).cast nbuf20_2)

/-- A later point is not the first, so the conditional is not taken there. -/
theorem ncond20_0 (t : Fin cfg20.N) (h0 : t.val ≠ 0) : ¬cond20_0 (grid20.coords t) := fun h => h0 ((hcond20_0 t).mp h)

/-- THE ACCUMULATION. What the two outputs' staging buffers hold after the body at point `n`: at the first point
    case A's contents of the point's input block; at a later point case B's contents of the point's input block and of
    what this recursion gives at `n - 1` (the buffers are not written back between). -/
def outsAt20 (c : Dev nD) : (n : ℕ) → n < cfg20.N → Vec F S1x256 .f32 × Vec F S1x256 .f32
  | 0, hn =>
    (out20_A_1 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
        ((hcond20_0 ⟨0, hn⟩).mpr rfl) (iblk20 V c 0 ⟨0, hn⟩),
     out20_A_2 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
        ((hcond20_0 ⟨0, hn⟩).mpr rfl) (iblk20 V c 0 ⟨0, hn⟩))
  | n + 1, hn =>
    (out20_B_1 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
        (ncond20_0 ⟨n + 1, hn⟩ (Nat.succ_ne_zero n)) (iblk20 V c 0 ⟨n + 1, hn⟩)
        (outsAt20 c n (Nat.lt_of_succ_lt hn)).1 (outsAt20 c n (Nat.lt_of_succ_lt hn)).2,
     out20_B_2 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
        (ncond20_0 ⟨n + 1, hn⟩ (Nat.succ_ne_zero n)) (iblk20 V c 0 ⟨n + 1, hn⟩)
        (outsAt20 c n (Nat.lt_of_succ_lt hn)).1 (outsAt20 c n (Nat.lt_of_succ_lt hn)).2)

/-- The recursion at point 0. -/
theorem outsAt20_zero (c : Dev nD) (hn : 0 < cfg20.N) :
    outsAt20 V c 0 hn =
      (out20_A_1 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
          ((hcond20_0 ⟨0, hn⟩).mpr rfl) (iblk20 V c 0 ⟨0, hn⟩),
       out20_A_2 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
          ((hcond20_0 ⟨0, hn⟩).mpr rfl) (iblk20 V c 0 ⟨0, hn⟩)) := rfl

/-- The recursion at point `n + 1`. -/
theorem outsAt20_succ (c : Dev nD) (n : ℕ) (hn : n + 1 < cfg20.N) :
    outsAt20 V c (n + 1) hn =
      (out20_B_1 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
          (ncond20_0 ⟨n + 1, hn⟩ (Nat.succ_ne_zero n)) (iblk20 V c 0 ⟨n + 1, hn⟩)
          (outsAt20 V c n (Nat.lt_of_succ_lt hn)).1 (outsAt20 V c n (Nat.lt_of_succ_lt hn)).2,
       out20_B_2 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
          (ncond20_0 ⟨n + 1, hn⟩ (Nat.succ_ne_zero n)) (iblk20 V c 0 ⟨n + 1, hn⟩)
          (outsAt20 V c n (Nat.lt_of_succ_lt hn)).1 (outsAt20 V c n (Nat.lt_of_succ_lt hn)).2) := rfl

/-- The recursion at a point of case A (the first), stated at the point. -/
theorem outsAt20_A (c : Dev nD) (t : Fin cfg20.N) (h0 : t.val = 0) :
    outsAt20 V c t.val t.isLt =
      (out20_A_1 c (grid20.coords t) (st20_0 t) (hs20_0 t) (st20_1 t) (hs20_1 t) (st20_2 t) (hs20_2 t) ((hcond20_0 t).mpr h0) (iblk20 V c 0 t),
       out20_A_2 c (grid20.coords t) (st20_0 t) (hs20_0 t) (st20_1 t) (hs20_1 t) (st20_2 t) (hs20_2 t) ((hcond20_0 t).mpr h0) (iblk20 V c 0 t)) := by
  obtain ⟨n, hn⟩ := t
  cases n with
  | zero => exact rfl
  | succ n => exact absurd h0 (Nat.succ_ne_zero n)

/-- The recursion at a point of case B (a later one), stated at the point: over what the point before left. -/
theorem outsAt20_B (c : Dev nD) (t : Fin cfg20.N) (h0 : t.val ≠ 0) :
    outsAt20 V c t.val t.isLt =
      (out20_B_1 c (grid20.coords t) (st20_0 t) (hs20_0 t) (st20_1 t) (hs20_1 t) (st20_2 t) (hs20_2 t) (ncond20_0 t h0) (iblk20 V c 0 t)
          (outsAt20 V c (t.val - 1) (Nat.lt_of_le_of_lt (Nat.sub_le _ _) t.isLt)).1
          (outsAt20 V c (t.val - 1) (Nat.lt_of_le_of_lt (Nat.sub_le _ _) t.isLt)).2,
       out20_B_2 c (grid20.coords t) (st20_0 t) (hs20_0 t) (st20_1 t) (hs20_1 t) (st20_2 t) (hs20_2 t) (ncond20_0 t h0) (iblk20 V c 0 t)
          (outsAt20 V c (t.val - 1) (Nat.lt_of_le_of_lt (Nat.sub_le _ _) t.isLt)).1
          (outsAt20 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 20 on core `c`: the arrays as the region finds them (`V`); after the body at point
    `t` the input's buffer at its block and the two outputs' at `outsAt20`; the invariant the scoped rest and the
    generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => (outsAt20 V c t.val t.isLt).1
    | ⟨2, _⟩ => (outsAt20 V c t.val t.isLt).2
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = (outsAt20 V c t.val t.isLt).1 := by dsimp only [dat20]
theorem after20_2 (c : Dev nD) (t : Fin cfg20.N) : (dat20 V c).after 2 t = (outsAt20 V c t.val t.isLt).2 := by dsimp only [dat20]

/-- The input's current staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d

/-- At a later point output 1's staging buffer holds what the body left at the point before: the point is not the
    first, the buffer was not written back between (it is written back after point 49 only), the window is live and
    uncut. -/
theorem before20_1_B (c : Dev nD) (t : Fin cfg20.N) (h0 : t.val ≠ 0) (d) :
    (dat20 V c).before 1 t d = (outsAt20 V c (t.val - 1) (Nat.lt_of_le_of_lt (Nat.sub_le _ _) t.isLt)).1 := by
  have hN : t.val < 50 := lt_of_lt_of_eq t.isLt (show cfg20.N = 50 from N_20)
  rw [Dat.before_out_kept _ 1 rfl t h0 (Bool.eq_false_iff.mpr fun h => by have := (flush20_1 _).mp h; dsimp only at this; omega)
    (fun _ => rfl) (fun _ _ => rfl)]
  dsimp only [dat20]

/-- Likewise output 2's. -/
theorem before20_2_B (c : Dev nD) (t : Fin cfg20.N) (h0 : t.val ≠ 0) (d) :
    (dat20 V c).before 2 t d = (outsAt20 V c (t.val - 1) (Nat.lt_of_le_of_lt (Nat.sub_le _ _) t.isLt)).2 := by
  have hN : t.val < 50 := lt_of_lt_of_eq t.isLt (show cfg20.N = 50 from N_20)
  rw [Dat.before_out_kept _ 2 rfl t h0 (Bool.eq_false_iff.mpr fun h => by have := (flush20_2 _).mp h; dsimp only at this; omega)
    (fun _ => rfl) (fun _ _ => rfl)]
  dsimp only [dat20]

/-! ## The body obligation, at a generic point -/

/-- What the body is called with at point `t`, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0]
  rw [show (dat20 V c).Φ t.succ = (dat20 V c).Φ t.castSucc from rfl,
    show (dat20 V c).owesAt () t.succ = (dat20 V c).owesAt () t.castSucc from rfl,
    after20_0, after20_1, after20_2]
  by_cases h0 : t.val = 0
  · rw [outsAt20_A V c t h0]
    dsimp only
    unfold out20_A_1 out20_A_2
    iintro ⟨HΦ, Ho, ⟨%d0, H0⟩, ⟨%d1, H1⟩, ⟨%d2, H2⟩⟩
    iapply ((kernelRun20_A c (grid20.coords t) _ _ _ _ _ _ ((hcond20_0 t).mpr h0) (iblk20 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover20_A_1 c _ _ _ _ _ _ _ _ _)
    · unfold owns; iexists _; isplitr
      swap; · iexact H2
      ipureintro; exact View.read_writes_eq_canon _ _ _ (cover20_A_2 c _ _ _ _ _ _ _ _ _)
  · rw [outsAt20_B V c t h0]
    dsimp only
    simp only [before20_1_B V c t h0, before20_2_B V c t h0]
    unfold out20_B_1 out20_B_2
    iintro ⟨HΦ, Ho, ⟨%d0, H0⟩, ⟨%d1, H1⟩, ⟨%d2, H2⟩⟩
    iapply ((kernelRun20_B c (grid20.coords t) _ _ _ _ _ _ (ncond20_0 t h0) (iblk20 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover20_B_1 c _ _ _ _ _ _ _ _ _ _ _)
    · unfold owns; iexists _; isplitr
      swap; · iexact H2
      ipureintro; exact View.read_writes_eq_canon _ _ _ (cover20_B_2 c _ _ _ _ _ _ _ _ _ _ _)

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.Kernel.Reg

end
-- ==== Proof.KB.Reg21.lean ====
/- REGION 21 of the kernel program: custom_call 21, `cc21__bn_relu_kernel` (pipeline 21), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out21_6`), it keeps nothing from point
   to point and names no semaphore, transfer, table or scratch: the plainest class of pipeline body.
   Stated here, for any float interpretation `F`: each window's block at a point (`iblk21`), that every input's
   staging buffer holds its block at every point (`before21_W_of`), the body's triple (`sound_kernel21`), the
   pipeline's proof data (`dat21`) and the body obligation (`body_obligation21`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before21_5_of {c : Dev nD} (dat : Dat τ (Elt F) Unit ℕ (UR sig nD τ) ℕ cfg21 c) (hA : dat.A 5 = V c (Pipeline.arrRef spec21 5))
    (hafter : ∀ t, dat.after 5 t = iblk21 V c 5 t) (t : Fin cfg21.N) (d) : dat.before 5 t d = iblk21 V c 5 t :=
  (dat.before_in_eq_fetched 5 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses -/

/-- The whole [1000,256] buffer, and the whole [1,256] buffer: every load and the one store are of a whole buffer. -/
abbrev r21_0 : Rect S1000x256 := Rect.unit (s := S1000x256) ![0, 0] S1000x256.size inb_S1000x256_S1000x256_0_0
abbrev r21_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out21_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r21_0, k21_pay1 (View.ld x0 r21_0) (View.ld x1 r21_1) (View.ld x2 r21_1) (View.ld x3 r21_1) (View.ld x4 r21_1) (View.ld x5 r21_1)⟩]

/-- The one store is of the whole buffer (checked by evaluation), so it covers it. -/
theorem cover21_6 (p0 : Vec F S1000x256 .f32) (y : S1000x256.Idx) :
    ∃ pc ∈ ([⟨r21_0, p0⟩] : List (View.Piece (Elt F) S1000x256 .f32)), y ∈ pc.1.set :=
  View.cover_of_tiled [⟨r21_0, p0⟩] S1000x256.size (by rfl) y

/-! ## The body's triple -/

set_option maxHeartbeats 1000000 in
/-- The kernel body on whole staging memrefs, the inputs' at read contents `xW` and the output's at anything, runs to
    the continuation holding the inputs' as they were and the output's at `out21_6` of the inputs': the printed function
    is its skeleton, a sequence of whole-buffer loads and one whole-buffer store, which is run step by step. -/
theorem sound_kernel21 (c : Dev nD) (E : Set ℕ) (i : grid21.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out21_6 x0 x1 x2 x3 x4 x5)) -∗ K ⟨⟩))
      ⊢ wp frame (wpE (defs₀ (F := F)) Variants.none c none) E (cc21__bn_relu_kernel i arg1 harg1 arg2 harg2 arg3 harg3 arg4 harg4 arg5 harg5 arg6 harg6 arg7 harg7) K := by
  simp only [cc21__bn_relu_kernel_eq_skeleton]; unfold cc21__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover21_6 _)

/-! ## The pipeline's proof data -/

/-- The proof data of pipeline 21 on core `c`: the arrays as the region finds them (`V`); after the body at
    point `t` each input's buffer at its block and the output's at `out21_6` of the input blocks; the invariant that
    of the class (the scoped rest and the generator register, untouched); nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => iblk21 V c 5 t
    | ⟨6, _⟩ => out21_6 (iblk21 V c 0 t) (iblk21 V c 1 t) (iblk21 V c 2 t) (iblk21 V c 3 t) (iblk21 V c 4 t) (iblk21 V c 5 t)
  Φ _ := Pipeline.ΦA spec21 c
  q _ := fullShare
  owed _ := 0

/-- The proof data's arrays are the region-entry contents (the proof data's definition projected). -/
theorem A_eq21 (c : Dev nD) (w : Fin cfg21.W) : (dat21 V c).A w = V c (Pipeline.arrRef spec21 w) := by
  dsimp only [dat21]

/-- What the body leaves, window by window (the proof data's `match` reduced). -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) : (dat21 V c).after 4 t = iblk21 V c 4 t := by dsimp only [dat21]
theorem after21_5 (c : Dev nD) (t : Fin cfg21.N) : (dat21 V c).after 5 t = iblk21 V c 5 t := by dsimp only [dat21]
theorem after21_6 (c : Dev nD) (t : Fin cfg21.N) : (dat21 V c).after 6 t = out21_6 (iblk21 V c 0 t) (iblk21 V c 1 t) (iblk21 V c 2 t) (iblk21 V c 3 t) (iblk21 V c 4 t) (iblk21 V c 5 t) := by dsimp only [dat21]

/-- Each input's current staging buffer holds its block at every point, fetched there or not. -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d
theorem before21_4 (c : Dev nD) (t : Fin cfg21.N) (d) : (dat21 V c).before 4 t d = iblk21 V c 4 t :=
  before21_4_of V (dat21 V c) (A_eq21 V c 4) (after21_4 V c) t d
theorem before21_5 (c : Dev nD) (t : Fin cfg21.N) (d) : (dat21 V c).before 5 t d = iblk21 V c 5 t :=
  before21_5_of V (dat21 V c) (A_eq21 V c 5) (after21_5 V c) t d

/-! ## The body obligation, at a generic point -/

/-- What the body is called with at point `t` (the body obligation's precondition, the windows one by one), -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t))

/-- The body at any point: the inputs' memrefs hold their blocks (`before21_W`), so `sound_kernel21` applies; the
    invariant and the core's debts pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4, before21_5]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel21 c Set.univ (grid21.coords t) _ _ _ _ _ _ _ _ _ _ _ _ _ _ (iblk21 V c 0 t) (iblk21 V c 1 t) (iblk21 V c 2 t) (iblk21 V c 3 t) (iblk21 V c 4 t) (iblk21 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.Kernel.Reg
-- ==== Proof.KB.Reg22.lean ====
/- REGION 22 of the kernel program (custom_call 22, kernel function cc22__out_kernel), at any F, at a parameter V: the
   TensorCore's buffer contents when the region is entered. Each window's block at a point (iblk22), what the body finds
   in each input window's buffer (before22_W), what it leaves in the output window's buffer (out22_3: the one store of
   the body, whose payload is the row log-softmax of block·weight + bias), the body's triple (sound_kernel22), the
   pipeline's proof data (dat22) and the body obligation at every point (body_obligation22). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 22: custom_call 22, the output head, at the entry contents V -/

/-! ## The windows' blocks -/

/-- Window w's block at point t, read off its array as the region finds it (V). -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0 (the [1000,256] block of rows, fetched at every point): its current staging buffer holds its block
    at every point, for any proof data whose array is V's (hA) and whose body leaves the block in place (hafter). -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1 (the whole [256,2] weight, fetched at the first point only): its staging buffer holds its block at
    every point, fetched there or not — unfetched, the block index has not moved. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- Input window 2 (the [1,2] bias, fetched at the first point only): likewise. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses -/

abbrev r22_0 : Rect S1000x256 := Rect.unit (s := S1000x256) ![0, 0] S1000x256.size inb_S1000x256_S1000x256_0_0
abbrev r22_1 : Rect S256x2 := Rect.unit (s := S256x2) ![0, 0] S256x2.size inb_S256x2_S256x2_0_0
abbrev r22_2 : Rect S1x2 := Rect.unit (s := S1x2) ![0, 0] S1x2.size inb_S1x2_S1x2_0_0
abbrev r22_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out22_3 (x0 : Vec F S1000x256 .f32) (x1 : Vec F S256x2 .f32) (x2 : Vec F S1x2 .f32) : Vec F S1000x2 .f32 :=
  View.canon [⟨r22_3, k22_pay1 (View.ld x0 r22_0) (View.ld x1 r22_1) (View.ld x2 r22_2)⟩]

/-- Its store tiles the buffer (checked by evaluation), so it covers it. -/
theorem cover22_3 (p0 : Vec F S1000x2 .f32) (y : S1000x2.Idx) :
    ∃ pc ∈ ([⟨r22_3, p0⟩] : List (View.Piece (Elt F) S1000x2 .f32)), y ∈ pc.1.set :=
  View.cover_of_tiled [⟨r22_3, p0⟩] S1000x2.size (by rfl) y

/-! ## The body's triple -/

set_option maxHeartbeats 1000000 in
/-- The kernel body on whole staging memrefs, the inputs' at read contents xW and the output's at anything, runs to the
    continuation holding the inputs' as they were and the output's at out22_3 of the inputs': the printed function is
    its skeleton, which the executor runs. -/
theorem sound_kernel22 (c : Dev nD) (E : Set ℕ) (i : grid22.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out22_3 x0 x1 x2)) -∗ K ⟨⟩))
      ⊢ wp frame (wpE (defs₀ (F := F)) Variants.none c none) E (cc22__out_kernel i arg1 harg1 arg2 harg2 arg3 harg3 arg4 harg4) K := by
  simp only [cc22__out_kernel_eq_skeleton]; unfold cc22__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover22_3 _)

/-! ## The pipeline's proof data -/

/-- The proof data of pipeline 22 on core c: the arrays as the region finds them (V); after the body at point t each
    input's buffer at its block and the output's at out22_3 of the input blocks; the invariant the scoped rest and the
    generator register, untouched; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => out22_3 (iblk22 V c 0 t) (iblk22 V c 1 t) (iblk22 V c 2 t)
  Φ _ := Pipeline.ΦA spec22 c
  q _ := fullShare
  owed _ := 0

/-- The proof data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = out22_3 (iblk22 V c 0 t) (iblk22 V c 1 t) (iblk22 V c 2 t) := by dsimp only [dat22]

/-- Each input's current staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point t (the windows one by one), -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t))

/-- The body at any point: the inputs' memrefs hold their blocks (before22_W), so sound_kernel22 applies; the invariant
    and the core's owes pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2]
  rw [show (dat22 V c).Φ t.succ = (dat22 V c).Φ t.castSucc from rfl,
    show (dat22 V c).owesAt () t.succ = (dat22 V c).owesAt () t.castSucc from rfl,
    after22_0, after22_1, after22_2, after22_3]
  iintro ⟨HΦ, Ho, ⟨%d0, H0⟩, ⟨%d1, H1⟩, ⟨%d2, H2⟩, ⟨%d3, H3⟩⟩
  iapply (sound_kernel22 c Set.univ _ _ _ _ _ _ _ _ _ (iblk22 V c 0 t) (iblk22 V c 1 t) (iblk22 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation22 (c : Dev nD) : BodyObligation (dat22 (F := F) V c) (defs₀ (F := F)) Variants.none () Set.univ := fun t => by
  rw [bigSep_W22, bigSep_W22]
  exact sound_body22 V c t

/-- info: 'Cert.Kernel.Reg.body_obligation22' depends on axioms: [propext, Classical.choice, Quot.sound] -/
#guard_msgs in #print axioms body_obligation22

end Cert.Kernel.Reg

end
-- ==== Proof.KB.Reg23.lean ====
/- REGION 23 of the kernel program (custom_call 23, `cc23__matmul_kernel`, pipeline 23), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk23`); what the body leaves in the output buffer as a function
   of the two input blocks (`out23_2`); the body's triple on whole staging memrefs (`sound_kernel23`); the
   pipeline's proof data at `V` (`dat23`) with its projections; and the body obligation at every point
   (`body_obligation23`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0 (the row block, its index moving with the point): its current staging buffer holds its block at
    every point, for ANY proof data whose array is `V`'s (`hA`) and whose body leaves the block in place
    (`hafter`); the window is uncut and never idle. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-! ## The body's accesses -/

/-- The full rectangle of each window's staging buffer: the row block's, the weight's, the output block's. -/
abbrev r23_0 : Rect S1000x256 := Rect.unit (s := S1000x256) ![0, 0] S1000x256.size inb_S1000x256_S1000x256_0_0
abbrev r23_1 : Rect S256x256 := Rect.unit (s := S256x256) ![0, 0] S256x256.size inb_S256x256_S256x256_0_0
abbrev r23_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out23_2 (xa : Vec F S1000x256 .f32) (xb : Vec F S256x256 .f32) : Vec F S1000x256 .f32 :=
  View.canon [⟨r23_2, k23_pay1 (View.ld xa r23_0) (View.ld xb r23_1)⟩]

/-- The one store is through the full rectangle, so it covers the buffer. -/
theorem cover23_2 (pa : Vec F S1000x256 .f32) (y : S1000x256.Idx) :
    ∃ pc ∈ ([⟨r23_2, pa⟩] : List (View.Piece (Elt F) S1000x256 .f32)), y ∈ pc.1.set :=
  View.cover_of_tiled [⟨r23_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out23_2 xa xb`: the printed function is its skeleton of three loads and one store, run one operation after
    the other; the load of the output buffer reads a value nothing uses. -/
theorem sound_kernel23 (c : Dev nD) (E : Set ℕ) (i : grid23.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out23_2 xa xb)) -∗ K ⟨⟩))
      ⊢ wp frame (wpE (defs₀ (F := F)) Variants.none c none) E (cc23__matmul_kernel i ma hma mb hmb mc hmc) K := by
  simp only [cc23__matmul_kernel_eq_skeleton]; unfold cc23__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover23_2 _)

/-! ## The pipeline's proof data -/

/-- The proof data of pipeline 23 on core `c`: the arrays as the region finds them (`V`); after the body at
    point `t` each input's buffer at its block and the output's at `out23_2` of the input blocks; the invariant the
    class's (the scoped rest and the generator register, untouched); nothing owed; full shares. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => out23_2 (iblk23 V c 0 t) (iblk23 V c 1 t)
  Φ _ := Pipeline.ΦA spec23 c
  q _ := fullShare
  owed _ := 0

/-- The proof data's arrays are the region-entry contents (the definition projected). -/
theorem A_eq23 (c : Dev nD) (w : Fin cfg23.W) : (dat23 V c).A w = V c (Pipeline.arrRef spec23 w) := by
  dsimp only [dat23]

/-- What the body leaves, window by window (the proof data's `match` reduced). -/
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = out23_2 (iblk23 V c 0 t) (iblk23 V c 1 t) := by dsimp only [dat23]

/-- Each input's current staging buffer holds its block at every point, fetched there or not. -/
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-! ## The body obligation, at a generic point -/

/-- What the body is called with at point `t` (the body obligation's precondition, the windows one by one), -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d)))

/-- and what it returns. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t))

/-- The body at any point: the inputs' memrefs hold their blocks (`before23_0`, `before23_1`), so `sound_kernel23`
    applies; the invariant and the core's debt pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).Φ t.succ = (dat23 V c).Φ t.castSucc from rfl,
    show (dat23 V c).owesAt () t.succ = (dat23 V c).owesAt () t.castSucc from rfl,
    after23_0, after23_1, after23_2]
  iintro ⟨HΦ, Ho, ⟨%da, Ha⟩, ⟨%db, Hb⟩, ⟨%dc, Hc⟩⟩
  iapply (sound_kernel23 c Set.univ (grid23.coords t) _ _ _ _ _ _ (iblk23 V c 0 t) (iblk23 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation23 (c : Dev nD) : BodyObligation (dat23 (F := F) V c) (defs₀ (F := F)) Variants.none () Set.univ := fun t => by
  rw [bigSep_W23, bigSep_W23]
  exact sound_body23 V c t

end Cert.Kernel.Reg
-- ==== Proof.KB.Reg24.lean ====
/-
  REGION 24 of the kernel program (custom_call 24, the kernel function cc24__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt24, with its two case equations outsAt24_zero and outsAt24_succ).
  Per case the body's triple is a subtype: the lists of stores (rectangle and payload, last first) each output buffer
  ends with, together with the proof that the body runs to a continuation holding exactly those stores written
  (kernelRun24_A, kernelRun24_B). What a buffer then READS is the canonical contents of its list (View.canon), since the
  last store of each list covers the block.

  Exported: the proof data dat24 (arrays at V, full shares, nothing owed), A_eq24, the body obligation
  body_obligation24, the recursion outsAt24 and its equations, after24_0 / after24_1 / after24_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond24_0 (i : grid24.Coords) : Prop :=
  (Scalar.cmpi .ne (Scalar.extui (Scalar.cmpi .eq (BitVec.ofNat 32 (i 0).val) 0#32)) 0#32) = 1#1

/-- It holds at the first point only: decided over the 50 points. -/
theorem hcond24_0 : ∀ t : Fin cfg24.N, cond24_0 (grid24.coords t) ↔ t.val = 0 :=
  (by decide +kernel : ∀ t : Fin grid24.N, cond24_0 (grid24.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun24_A (c : Dev nD) (i : grid24.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond24_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc24__sumsq_kernel i arg1 harg1 arg2 harg2 arg3 harg3) K } := by
  refine ⟨?_, ?_, fun E K => ?run⟩
  case run =>
    simp only [cc24__sumsq_kernel_eq_skeleton]; unfold cc24__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun24_B (c : Dev nD) (i : grid24.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond24_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc24__sumsq_kernel i arg1 harg1 arg2 harg2 arg3 harg3) K } := by
  refine ⟨?_, ?_, fun E K => ?run⟩
  case run =>
    simp only [cc24__sumsq_kernel_eq_skeleton]; unfold cc24__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's current staging buffer holds its block at every point, fetched there or not, for ANY proof data
    whose array is `V`'s and whose body leaves the block in place: unfetched, the block index has not moved. The
    window is uncut and never idle. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)

/-! ## What each case leaves in the two output buffers -/

/-- The whole-block rectangle of a [1,256] buffer at zero offsets: every index lies in it. -/
private theorem mem_whole_S24x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover24_A_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) (y : S1x256.Idx) :
    ∃ pc ∈ (kernelRun24_A c i arg1 harg1 arg2 harg2 arg3 harg3 hc0 x0).1, y ∈ pc.1.set := by
  unfold kernelRun24_A
  dsimp only
  refine ⟨_, List.mem_cons_self, ?_⟩
  exact mem_whole_S24x256 inb_S1x256_S1x256_0_0 y

/-- Case A's stores into output 2 cover its block likewise. -/
theorem cover24_A_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) (y : S1x256.Idx) :
    ∃ pc ∈ (kernelRun24_A c i arg1 harg1 arg2 harg2 arg3 harg3 hc0 x0).2.1, y ∈ pc.1.set := by
  unfold kernelRun24_A
  dsimp only
  refine ⟨_, List.mem_cons_self, ?_⟩
  exact mem_whole_S24x256 inb_S1x256_S1x256_0_0 y

/-- Case B's one store into output 1 covers its block. -/
theorem cover24_B_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) (y : S1x256.Idx) :
    ∃ pc ∈ (kernelRun24_B c i arg1 harg1 arg2 harg2 arg3 harg3 hc0 x0 xo1 xo2).1, y ∈ pc.1.set := by
  unfold kernelRun24_B
  dsimp only
  refine ⟨_, List.mem_cons_self, ?_⟩
  exact mem_whole_S24x256 inb_S1x256_S1x256_0_0 y

/-- Case B's one store into output 2 covers its block. -/
theorem cover24_B_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) (y : S1x256.Idx) :
    ∃ pc ∈ (kernelRun24_B c i arg1 harg1 arg2 harg2 arg3 harg3 hc0 x0 xo1 xo2).2.1, y ∈ pc.1.set := by
  unfold kernelRun24_B
  dsimp only
  refine ⟨_, List.mem_cons_self, ?_⟩
  exact mem_whole_S24x256 inb_S1x256_S1x256_0_0 y

/-- What case A leaves in output 1's staging buffer: the canonical contents of its stores. -/
def out24_A_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) : Vec F S1x256 .f32 :=
  View.canon (kernelRun24_A c i arg1 harg1 arg2 harg2 arg3 harg3 hc0 x0).1

/-- What case A leaves in output 2's staging buffer. -/
def out24_A_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) : Vec F S1x256 .f32 :=
  View.canon (kernelRun24_A c i arg1 harg1 arg2 harg2 arg3 harg3 hc0 x0).2.1

/-- What case B leaves in output 1's staging buffer, from the input block and what the two outputs held. -/
def out24_B_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) : Vec F S1x256 .f32 :=
  View.canon (kernelRun24_B c i arg1 harg1 arg2 harg2 arg3 harg3 hc0 x0 xo1 xo2).1

/-- What case B leaves in output 2's staging buffer. -/
def out24_B_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) : Vec F S1x256 .f32 :=
  View.canon (kernelRun24_B c i arg1 harg1 arg2 harg2 arg3 harg3 hc0 x0 xo1 xo2).2.1

/-! ## What the outputs hold after each point -/

/-- Each window's current staging memref at point `t` is whole. -/
abbrev hs24_0 (t : Fin cfg24.N) : (st24_0 t).IsWhole := hstage24_0 ((cfg24.slots t 0).cast nbuf24_0)
abbrev hs24_1 (t : Fin cfg24.N) : (st24_1 t).IsWhole := hstage24_1 ((cfg24.slots t 1).cast nbuf24_1)
abbrev hs24_2 (t : Fin cfg24.N) : (st24_2 t).IsWhole := hstage24_2 ((cfg24.slots t 2).cast nbuf24_2)

/-- A later point is not the first, so the conditional is not taken there. -/
theorem ncond24_0 (t : Fin cfg24.N) (h0 : t.val ≠ 0) : ¬cond24_0 (grid24.coords t) := fun h => h0 ((hcond24_0 t).mp h)

/-- THE ACCUMULATION. What the two outputs' staging buffers hold after the body at point `n`: at the first point
    case A's contents of the point's input block; at a later point case B's contents of the point's input block and of
    what this recursion gives at `n - 1` (the buffers are not written back between). -/
def outsAt24 (c : Dev nD) : (n : ℕ) → n < cfg24.N → Vec F S1x256 .f32 × Vec F S1x256 .f32
  | 0, hn =>
    (out24_A_1 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
        ((hcond24_0 ⟨0, hn⟩).mpr rfl) (iblk24 V c 0 ⟨0, hn⟩),
     out24_A_2 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
        ((hcond24_0 ⟨0, hn⟩).mpr rfl) (iblk24 V c 0 ⟨0, hn⟩))
  | n + 1, hn =>
    (out24_B_1 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
        (ncond24_0 ⟨n + 1, hn⟩ (Nat.succ_ne_zero n)) (iblk24 V c 0 ⟨n + 1, hn⟩)
        (outsAt24 c n (Nat.lt_of_succ_lt hn)).1 (outsAt24 c n (Nat.lt_of_succ_lt hn)).2,
     out24_B_2 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
        (ncond24_0 ⟨n + 1, hn⟩ (Nat.succ_ne_zero n)) (iblk24 V c 0 ⟨n + 1, hn⟩)
        (outsAt24 c n (Nat.lt_of_succ_lt hn)).1 (outsAt24 c n (Nat.lt_of_succ_lt hn)).2)

/-- The recursion at point 0. -/
theorem outsAt24_zero (c : Dev nD) (hn : 0 < cfg24.N) :
    outsAt24 V c 0 hn =
      (out24_A_1 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
          ((hcond24_0 ⟨0, hn⟩).mpr rfl) (iblk24 V c 0 ⟨0, hn⟩),
       out24_A_2 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
          ((hcond24_0 ⟨0, hn⟩).mpr rfl) (iblk24 V c 0 ⟨0, hn⟩)) := rfl

/-- The recursion at point `n + 1`. -/
theorem outsAt24_succ (c : Dev nD) (n : ℕ) (hn : n + 1 < cfg24.N) :
    outsAt24 V c (n + 1) hn =
      (out24_B_1 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
          (ncond24_0 ⟨n + 1, hn⟩ (Nat.succ_ne_zero n)) (iblk24 V c 0 ⟨n + 1, hn⟩)
          (outsAt24 V c n (Nat.lt_of_succ_lt hn)).1 (outsAt24 V c n (Nat.lt_of_succ_lt hn)).2,
       out24_B_2 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
          (ncond24_0 ⟨n + 1, hn⟩ (Nat.succ_ne_zero n)) (iblk24 V c 0 ⟨n + 1, hn⟩)
          (outsAt24 V c n (Nat.lt_of_succ_lt hn)).1 (outsAt24 V c n (Nat.lt_of_succ_lt hn)).2) := rfl

/-- The recursion at a point of case A (the first), stated at the point. -/
theorem outsAt24_A (c : Dev nD) (t : Fin cfg24.N) (h0 : t.val = 0) :
    outsAt24 V c t.val t.isLt =
      (out24_A_1 c (grid24.coords t) (st24_0 t) (hs24_0 t) (st24_1 t) (hs24_1 t) (st24_2 t) (hs24_2 t) ((hcond24_0 t).mpr h0) (iblk24 V c 0 t),
       out24_A_2 c (grid24.coords t) (st24_0 t) (hs24_0 t) (st24_1 t) (hs24_1 t) (st24_2 t) (hs24_2 t) ((hcond24_0 t).mpr h0) (iblk24 V c 0 t)) := by
  obtain ⟨n, hn⟩ := t
  cases n with
  | zero => exact rfl
  | succ n => exact absurd h0 (Nat.succ_ne_zero n)

/-- The recursion at a point of case B (a later one), stated at the point: over what the point before left. -/
theorem outsAt24_B (c : Dev nD) (t : Fin cfg24.N) (h0 : t.val ≠ 0) :
    outsAt24 V c t.val t.isLt =
      (out24_B_1 c (grid24.coords t) (st24_0 t) (hs24_0 t) (st24_1 t) (hs24_1 t) (st24_2 t) (hs24_2 t) (ncond24_0 t h0) (iblk24 V c 0 t)
          (outsAt24 V c (t.val - 1) (Nat.lt_of_le_of_lt (Nat.sub_le _ _) t.isLt)).1
          (outsAt24 V c (t.val - 1) (Nat.lt_of_le_of_lt (Nat.sub_le _ _) t.isLt)).2,
       out24_B_2 c (grid24.coords t) (st24_0 t) (hs24_0 t) (st24_1 t) (hs24_1 t) (st24_2 t) (hs24_2 t) (ncond24_0 t h0) (iblk24 V c 0 t)
          (outsAt24 V c (t.val - 1) (Nat.lt_of_le_of_lt (Nat.sub_le _ _) t.isLt)).1
          (outsAt24 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 24 on core `c`: the arrays as the region finds them (`V`); after the body at point
    `t` the input's buffer at its block and the two outputs' at `outsAt24`; the invariant the scoped rest and the
    generator register, untouched; nothing owed; full shares. -/
def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => (outsAt24 V c t.val t.isLt).1
    | ⟨2, _⟩ => (outsAt24 V c t.val t.isLt).2
  Φ _ := Pipeline.ΦA spec24 c
  q _ := fullShare
  owed _ := 0

/-- The proof data's arrays are the region-entry contents. -/
theorem A_eq24 (c : Dev nD) (w : Fin cfg24.W) : (dat24 V c).A w = V c (Pipeline.arrRef spec24 w) := by
  dsimp only [dat24]

/-- What the body leaves, window by window. -/
theorem after24_0 (c : Dev nD) (t : Fin cfg24.N) : (dat24 V c).after 0 t = iblk24 V c 0 t := by dsimp only [dat24]
theorem after24_1 (c : Dev nD) (t : Fin cfg24.N) : (dat24 V c).after 1 t = (outsAt24 V c t.val t.isLt).1 := by dsimp only [dat24]
theorem after24_2 (c : Dev nD) (t : Fin cfg24.N) : (dat24 V c).after 2 t = (outsAt24 V c t.val t.isLt).2 := by dsimp only [dat24]

/-- The input's current staging buffer holds its block at every point, fetched there or not. -/
theorem before24_0 (c : Dev nD) (t : Fin cfg24.N) (d) : (dat24 V c).before 0 t d = iblk24 V c 0 t :=
  before24_0_of V (dat24 V c) (A_eq24 V c 0) (after24_0 V c) t d

/-- At a later point output 1's staging buffer holds what the body left at the point before: the point is not the
    first, the buffer was not written back between (it is written back after point 49 only), the window is live and
    uncut. -/
theorem before24_1_B (c : Dev nD) (t : Fin cfg24.N) (h0 : t.val ≠ 0) (d) :
    (dat24 V c).before 1 t d = (outsAt24 V c (t.val - 1) (Nat.lt_of_le_of_lt (Nat.sub_le _ _) t.isLt)).1 := by
  have hN : t.val < 50 := lt_of_lt_of_eq t.isLt (show cfg24.N = 50 from N_24)
  rw [Dat.before_out_kept _ 1 rfl t h0 (Bool.eq_false_iff.mpr fun h => by have := (flush24_1 _).mp h; dsimp only at this; omega)
    (fun _ => rfl) (fun _ _ => rfl)]
  dsimp only [dat24]

/-- Likewise output 2's. -/
theorem before24_2_B (c : Dev nD) (t : Fin cfg24.N) (h0 : t.val ≠ 0) (d) :
    (dat24 V c).before 2 t d = (outsAt24 V c (t.val - 1) (Nat.lt_of_le_of_lt (Nat.sub_le _ _) t.isLt)).2 := by
  have hN : t.val < 50 := lt_of_lt_of_eq t.isLt (show cfg24.N = 50 from N_24)
  rw [Dat.before_out_kept _ 2 rfl t h0 (Bool.eq_false_iff.mpr fun h => by have := (flush24_2 _).mp h; dsimp only at this; omega)
    (fun _ => rfl) (fun _ _ => rfl)]
  dsimp only [dat24]

/-! ## The body obligation, at a generic point -/

/-- What the body is called with at point `t`, the windows one by one, -/
def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d)))

/-- and what it returns. -/
def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0]
  rw [show (dat24 V c).Φ t.succ = (dat24 V c).Φ t.castSucc from rfl,
    show (dat24 V c).owesAt () t.succ = (dat24 V c).owesAt () t.castSucc from rfl,
    after24_0, after24_1, after24_2]
  by_cases h0 : t.val = 0
  · rw [outsAt24_A V c t h0]
    dsimp only
    unfold out24_A_1 out24_A_2
    iintro ⟨HΦ, Ho, ⟨%d0, H0⟩, ⟨%d1, H1⟩, ⟨%d2, H2⟩⟩
    iapply ((kernelRun24_A c (grid24.coords t) _ _ _ _ _ _ ((hcond24_0 t).mpr h0) (iblk24 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover24_A_1 c _ _ _ _ _ _ _ _ _)
    · unfold owns; iexists _; isplitr
      swap; · iexact H2
      ipureintro; exact View.read_writes_eq_canon _ _ _ (cover24_A_2 c _ _ _ _ _ _ _ _ _)
  · rw [outsAt24_B V c t h0]
    dsimp only
    simp only [before24_1_B V c t h0, before24_2_B V c t h0]
    unfold out24_B_1 out24_B_2
    iintro ⟨HΦ, Ho, ⟨%d0, H0⟩, ⟨%d1, H1⟩, ⟨%d2, H2⟩⟩
    iapply ((kernelRun24_B c (grid24.coords t) _ _ _ _ _ _ (ncond24_0 t h0) (iblk24 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover24_B_1 c _ _ _ _ _ _ _ _ _ _ _)
    · unfold owns; iexists _; isplitr
      swap; · iexact H2
      ipureintro; exact View.read_writes_eq_canon _ _ _ (cover24_B_2 c _ _ _ _ _ _ _ _ _ _ _)

/-- The library's body obligation, at every point. -/
theorem body_obligation24 (c : Dev nD) : BodyObligation (dat24 (F := F) V c) (defs₀ (F := F)) Variants.none () Set.univ := fun t => by
  rw [bigSep_W24, bigSep_W24]
  exact sound_body24 V c t

end Cert.Kernel.Reg

end
-- ==== Proof.KB.Reg25.lean ====
/- REGION 25 of the kernel program: custom_call 25, `cc25__bn_relu_kernel` (pipeline 25), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out25_6`), it keeps nothing from point
   to point and names no semaphore, transfer, table or scratch: the plainest class of pipeline body.
   Stated here, for any float interpretation `F`: each window's block at a point (`iblk25`), that every input's
   staging buffer holds its block at every point (`before25_W_of`), the body's triple (`sound_kernel25`), the
   pipeline's proof data (`dat25`) and the body obligation (`body_obligation25`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before25_3_of {c : Dev nD} (dat : Dat τ (Elt F) Unit ℕ (UR sig nD τ) ℕ cfg25 c) (hA : dat.A 3 = V c (Pipeline.arrRef spec25 3))
    (hafter : ∀ t, dat.after 3 t = iblk25 V c 3 t) (t : Fin cfg25.N) (d) : dat.before 3 t d = iblk25 V c 3 t :=
  (dat.before_in_eq_fetched 3 rfl (fun _ => rfl) (fun _ _ _ => rfl) (fun t => by rw [hafter]; unfold Dat.blockOf iblk25; rw [hA]; try rfl) t d).trans
    (by unfold Dat.fetched Dat.blockOf iblk25; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before25_4_of {c : Dev nD} (dat : Dat τ (Elt F) Unit ℕ (UR sig nD τ) ℕ cfg25 c) (hA : dat.A 4 = V c (Pipeline.arrRef spec25 4))
    (hafter : ∀ t, dat.after 4 t = iblk25 V c 4 t) (t : Fin cfg25.N) (d) : dat.before 4 t d = iblk25 V c 4 t :=
  (dat.before_in_eq_fetched 4 rfl (fun _ => rfl) (fun _ _ _ => rfl) (fun t => by rw [hafter]; unfold Dat.blockOf iblk25; rw [hA]; try rfl) t d).trans
    (by unfold Dat.fetched Dat.blockOf iblk25; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before25_5_of {c : Dev nD} (dat : Dat τ (Elt F) Unit ℕ (UR sig nD τ) ℕ cfg25 c) (hA : dat.A 5 = V c (Pipeline.arrRef spec25 5))
    (hafter : ∀ t, dat.after 5 t = iblk25 V c 5 t) (t : Fin cfg25.N) (d) : dat.before 5 t d = iblk25 V c 5 t :=
  (dat.before_in_eq_fetched 5 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses -/

/-- The whole [1000,256] buffer, and the whole [1,256] buffer: every load and the one store are of a whole buffer. -/
abbrev r25_0 : Rect S1000x256 := Rect.unit (s := S1000x256) ![0, 0] S1000x256.size inb_S1000x256_S1000x256_0_0
abbrev r25_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out25_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r25_0, k25_pay1 (View.ld x0 r25_0) (View.ld x1 r25_1) (View.ld x2 r25_1) (View.ld x3 r25_1) (View.ld x4 r25_1) (View.ld x5 r25_1)⟩]

/-- The one store is of the whole buffer (checked by evaluation), so it covers it. -/
theorem cover25_6 (p0 : Vec F S1000x256 .f32) (y : S1000x256.Idx) :
    ∃ pc ∈ ([⟨r25_0, p0⟩] : List (View.Piece (Elt F) S1000x256 .f32)), y ∈ pc.1.set :=
  View.cover_of_tiled [⟨r25_0, p0⟩] S1000x256.size (by rfl) y

/-! ## The body's triple -/

set_option maxHeartbeats 1000000 in
/-- The kernel body on whole staging memrefs, the inputs' at read contents `xW` and the output's at anything, runs to
    the continuation holding the inputs' as they were and the output's at `out25_6` of the inputs': the printed function
    is its skeleton, a sequence of whole-buffer loads and one whole-buffer store, which is run step by step. -/
theorem sound_kernel25 (c : Dev nD) (E : Set ℕ) (i : grid25.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out25_6 x0 x1 x2 x3 x4 x5)) -∗ K ⟨⟩))
      ⊢ wp frame (wpE (defs₀ (F := F)) Variants.none c none) E (cc25__bn_relu_kernel i arg1 harg1 arg2 harg2 arg3 harg3 arg4 harg4 arg5 harg5 arg6 harg6 arg7 harg7) K := by
  simp only [cc25__bn_relu_kernel_eq_skeleton]; unfold cc25__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover25_6 _)

/-! ## The pipeline's proof data -/

/-- The proof data of pipeline 25 on core `c`: the arrays as the region finds them (`V`); after the body at
    point `t` each input's buffer at its block and the output's at `out25_6` of the input blocks; the invariant that
    of the class (the scoped rest and the generator register, untouched); nothing owed; full shares. -/
def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => iblk25 V c 3 t
    | ⟨4, _⟩ => iblk25 V c 4 t
    | ⟨5, _⟩ => iblk25 V c 5 t
    | ⟨6, _⟩ => out25_6 (iblk25 V c 0 t) (iblk25 V c 1 t) (iblk25 V c 2 t) (iblk25 V c 3 t) (iblk25 V c 4 t) (iblk25 V c 5 t)
  Φ _ := Pipeline.ΦA spec25 c
  q _ := fullShare
  owed _ := 0

/-- The proof data's arrays are the region-entry contents (the proof data's definition projected). -/
theorem A_eq25 (c : Dev nD) (w : Fin cfg25.W) : (dat25 V c).A w = V c (Pipeline.arrRef spec25 w) := by
  dsimp only [dat25]

/-- What the body leaves, window by window (the proof data's `match` reduced). -/
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) : (dat25 V c).after 3 t = iblk25 V c 3 t := by dsimp only [dat25]
theorem after25_4 (c : Dev nD) (t : Fin cfg25.N) : (dat25 V c).after 4 t = iblk25 V c 4 t := by dsimp only [dat25]
theorem after25_5 (c : Dev nD) (t : Fin cfg25.N) : (dat25 V c).after 5 t = iblk25 V c 5 t := by dsimp only [dat25]
theorem after25_6 (c : Dev nD) (t : Fin cfg25.N) : (dat25 V c).after 6 t = out25_6 (iblk25 V c 0 t) (iblk25 V c 1 t) (iblk25 V c 2 t) (iblk25 V c 3 t) (iblk25 V c 4 t) (iblk25 V c 5 t) := by dsimp only [dat25]

/-- Each input's current staging buffer holds its block at every point, fetched there or not. -/
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d
theorem before25_3 (c : Dev nD) (t : Fin cfg25.N) (d) : (dat25 V c).before 3 t d = iblk25 V c 3 t :=
  before25_3_of V (dat25 V c) (A_eq25 V c 3) (after25_3 V c) t d
theorem before25_4 (c : Dev nD) (t : Fin cfg25.N) (d) : (dat25 V c).before 4 t d = iblk25 V c 4 t :=
  before25_4_of V (dat25 V c) (A_eq25 V c 4) (after25_4 V c) t d
theorem before25_5 (c : Dev nD) (t : Fin cfg25.N) (d) : (dat25 V c).before 5 t d = iblk25 V c 5 t :=
  before25_5_of V (dat25 V c) (A_eq25 V c 5) (after25_5 V c) t d

/-! ## The body obligation, at a generic point -/

/-- What the body is called with at point `t` (the body obligation's precondition, the windows one by one), -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d))
    ∗ (∃ d, owns (c : Thread nD τ) (st25_4 t) fullShare ((dat25 V c).before 4 t d))
    ∗ (∃ d, owns (c : Thread nD τ) (st25_5 t) fullShare ((dat25 V c).before 5 t d))
    ∗ (∃ d, owns (c : Thread nD τ) (st25_6 t) fullShare ((dat25 V c).before 6 t d)))

/-- and what it returns. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t)
    ∗ owns (c : Thread nD τ) (st25_4 t) fullShare ((dat25 V c).after 4 t)
    ∗ owns (c : Thread nD τ) (st25_5 t) fullShare ((dat25 V c).after 5 t)
    ∗ owns (c : Thread nD τ) (st25_6 t) fullShare ((dat25 V c).after 6 t))

/-- The body at any point: the inputs' memrefs hold their blocks (`before25_W`), so `sound_kernel25` applies; the
    invariant and the core's debts pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2, before25_3, before25_4, before25_5]
  rw [show (dat25 V c).Φ t.succ = (dat25 V c).Φ t.castSucc from rfl,
    show (dat25 V c).owesAt () t.succ = (dat25 V c).owesAt () t.castSucc from rfl,
    after25_0, after25_1, after25_2, after25_3, after25_4, after25_5, after25_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel25 c Set.univ (grid25.coords t) _ _ _ _ _ _ _ _ _ _ _ _ _ _ (iblk25 V c 0 t) (iblk25 V c 1 t) (iblk25 V c 2 t) (iblk25 V c 3 t) (iblk25 V c 4 t) (iblk25 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation25 (c : Dev nD) : BodyObligation (dat25 (F := F) V c) (defs₀ (F := F)) Variants.none () Set.univ := fun t => by
  rw [bigSep_W25, bigSep_W25]
  exact sound_body25 V c t

end Cert.Kernel.Reg
-- ==== Proof.KB.Reg26.lean ====
/- REGION 26 of the kernel program (custom_call 26, kernel function cc26__out_kernel), at any F, at a parameter V: the
   TensorCore's buffer contents when the region is entered. Each window's block at a point (iblk26), what the body finds
   in each input window's buffer (before26_W), what it leaves in the output window's buffer (out26_3: the one store of
   the body, whose payload is the row log-softmax of block·weight + bias), the body's triple (sound_kernel26), the
   pipeline's proof data (dat26) and the body obligation at every point (body_obligation26). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 26: custom_call 26, the output head, at the entry contents V -/

/-! ## The windows' blocks -/

/-- Window w's block at point t, read off its array as the region finds it (V). -/
def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0 (the [1000,256] block of rows, fetched at every point): its current staging buffer holds its block
    at every point, for any proof data whose array is V's (hA) and whose body leaves the block in place (hafter). -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- Input window 1 (the whole [256,2] weight, fetched at the first point only): its staging buffer holds its block at
    every point, fetched there or not — unfetched, the block index has not moved. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- Input window 2 (the [1,2] bias, fetched at the first point only): likewise. -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-! ## The body's accesses -/

abbrev r26_0 : Rect S1000x256 := Rect.unit (s := S1000x256) ![0, 0] S1000x256.size inb_S1000x256_S1000x256_0_0
abbrev r26_1 : Rect S256x2 := Rect.unit (s := S256x2) ![0, 0] S256x2.size inb_S256x2_S256x2_0_0
abbrev r26_2 : Rect S1x2 := Rect.unit (s := S1x2) ![0, 0] S1x2.size inb_S1x2_S1x2_0_0
abbrev r26_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out26_3 (x0 : Vec F S1000x256 .f32) (x1 : Vec F S256x2 .f32) (x2 : Vec F S1x2 .f32) : Vec F S1000x2 .f32 :=
  View.canon [⟨r26_3, k26_pay1 (View.ld x0 r26_0) (View.ld x1 r26_1) (View.ld x2 r26_2)⟩]

/-- Its store tiles the buffer (checked by evaluation), so it covers it. -/
theorem cover26_3 (p0 : Vec F S1000x2 .f32) (y : S1000x2.Idx) :
    ∃ pc ∈ ([⟨r26_3, p0⟩] : List (View.Piece (Elt F) S1000x2 .f32)), y ∈ pc.1.set :=
  View.cover_of_tiled [⟨r26_3, p0⟩] S1000x2.size (by rfl) y

/-! ## The body's triple -/

set_option maxHeartbeats 1000000 in
/-- The kernel body on whole staging memrefs, the inputs' at read contents xW and the output's at anything, runs to the
    continuation holding the inputs' as they were and the output's at out26_3 of the inputs': the printed function is
    its skeleton, which the executor runs. -/
theorem sound_kernel26 (c : Dev nD) (E : Set ℕ) (i : grid26.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out26_3 x0 x1 x2)) -∗ K ⟨⟩))
      ⊢ wp frame (wpE (defs₀ (F := F)) Variants.none c none) E (cc26__out_kernel i arg1 harg1 arg2 harg2 arg3 harg3 arg4 harg4) K := by
  simp only [cc26__out_kernel_eq_skeleton]; unfold cc26__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover26_3 _)

/-! ## The pipeline's proof data -/

/-- The proof data of pipeline 26 on core c: the arrays as the region finds them (V); after the body at point t each
    input's buffer at its block and the output's at out26_3 of the input blocks; the invariant the scoped rest and the
    generator register, untouched; nothing owed; full shares. -/
def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => out26_3 (iblk26 V c 0 t) (iblk26 V c 1 t) (iblk26 V c 2 t)
  Φ _ := Pipeline.ΦA spec26 c
  q _ := fullShare
  owed _ := 0

/-- The proof data's arrays are the region-entry contents. -/
theorem A_eq26 (c : Dev nD) (w : Fin cfg26.W) : (dat26 V c).A w = V c (Pipeline.arrRef spec26 w) := by
  dsimp only [dat26]

/-- What the body leaves, window by window. -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) : (dat26 V c).after 3 t = out26_3 (iblk26 V c 0 t) (iblk26 V c 1 t) (iblk26 V c 2 t) := by dsimp only [dat26]

/-- Each input's current staging buffer holds its block at every point, fetched there or not. -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-! ## The body obligation, at a generic point -/

/-- What the body is called with at point t (the windows one by one), -/
def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it returns. -/
def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

/-- The body at any point: the inputs' memrefs hold their blocks (before26_W), so sound_kernel26 applies; the invariant
    and the core's owes pass through unread. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ _ _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation26 (c : Dev nD) : BodyObligation (dat26 (F := F) V c) (defs₀ (F := F)) Variants.none () Set.univ := fun t => by
  rw [bigSep_W26, bigSep_W26]
  exact sound_body26 V c t

/-- info: 'Cert.Kernel.Reg.body_obligation26' depends on axioms: [propext, Classical.choice, Quot.sound] -/
#guard_msgs in #print axioms body_obligation26

end Cert.Kernel.Reg

end
-- ==== Proof.KB.Reg27.lean ====
/- REGION 27 of the kernel program (custom_call 27, `cc27__matmul_kernel`, pipeline 27), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk27`); what the body leaves in the output buffer as a function
   of the two input blocks (`out27_2`); the body's triple on whole staging memrefs (`sound_kernel27`); the
   pipeline's proof data at `V` (`dat27`) with its projections; and the body obligation at every point
   (`body_obligation27`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- Input window 0 (the row block, its index moving with the point): its current staging buffer holds its block at
    every point, for ANY proof data whose array is `V`'s (`hA`) and whose body leaves the block in place
    (`hafter`); the window is uncut and never idle. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)

/-! ## The body's accesses -/

/-- The full rectangle of each window's staging buffer: the row block's, the weight's, the output block's. -/
abbrev r27_0 : Rect S1000x256 := Rect.unit (s := S1000x256) ![0, 0] S1000x256.size inb_S1000x256_S1000x256_0_0
abbrev r27_1 : Rect S256x256 := Rect.unit (s := S256x256) ![0, 0] S256x256.size inb_S256x256_S256x256_0_0
abbrev r27_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out27_2 (xa : Vec F S1000x256 .f32) (xb : Vec F S256x256 .f32) : Vec F S1000x256 .f32 :=
  View.canon [⟨r27_2, k27_pay1 (View.ld xa r27_0) (View.ld xb r27_1)⟩]

/-- The one store is through the full rectangle, so it covers the buffer. -/
theorem cover27_2 (pa : Vec F S1000x256 .f32) (y : S1000x256.Idx) :
    ∃ pc ∈ ([⟨r27_2, pa⟩] : List (View.Piece (Elt F) S1000x256 .f32)), y ∈ pc.1.set :=
  View.cover_of_tiled [⟨r27_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out27_2 xa xb`: the printed function is its skeleton of three loads and one store, run one operation after
    the other; the load of the output buffer reads a value nothing uses. -/
theorem sound_kernel27 (c : Dev nD) (E : Set ℕ) (i : grid27.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out27_2 xa xb)) -∗ K ⟨⟩))
      ⊢ wp frame (wpE (defs₀ (F := F)) Variants.none c none) E (cc27__matmul_kernel i ma hma mb hmb mc hmc) K := by
  simp only [cc27__matmul_kernel_eq_skeleton]; unfold cc27__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover27_2 _)

/-! ## The pipeline's proof data -/

/-- The proof data of pipeline 27 on core `c`: the arrays as the region finds them (`V`); after the body at
    point `t` each input's buffer at its block and the output's at `out27_2` of the input blocks; the invariant the
    class's (the scoped rest and the generator register, untouched); nothing owed; full shares. -/
def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => out27_2 (iblk27 V c 0 t) (iblk27 V c 1 t)
  Φ _ := Pipeline.ΦA spec27 c
  q _ := fullShare
  owed _ := 0

/-- The proof data's arrays are the region-entry contents (the definition projected). -/
theorem A_eq27 (c : Dev nD) (w : Fin cfg27.W) : (dat27 V c).A w = V c (Pipeline.arrRef spec27 w) := by
  dsimp only [dat27]

/-- What the body leaves, window by window (the proof data's `match` reduced). -/
theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = out27_2 (iblk27 V c 0 t) (iblk27 V c 1 t) := by dsimp only [dat27]

/-- Each input's current staging buffer holds its block at every point, fetched there or not. -/
theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d

/-! ## The body obligation, at a generic point -/

/-- What the body is called with at point `t` (the body obligation's precondition, the windows one by one), -/
def bodyPre27 (c : Dev nD) (t : Fin cfg27.N) : sProp 𝕄 :=
  iprop((dat27 V c).Φ t.castSucc ∗ (dat27 V c).owesAt () t.castSucc
    ∗ (∃ d, owns (c : Thread nD τ) (st27_0 t) fullShare ((dat27 V c).before 0 t d))
    ∗ (∃ d, owns (c : Thread nD τ) (st27_1 t) fullShare ((dat27 V c).before 1 t d))
    ∗ (∃ d, owns (c : Thread nD τ) (st27_2 t) fullShare ((dat27 V c).before 2 t d)))

/-- and what it returns. -/
def bodyPost27 (c : Dev nD) (t : Fin cfg27.N) : sProp 𝕄 :=
  iprop((dat27 V c).Φ t.succ ∗ (dat27 V c).owesAt () t.succ
    ∗ owns (c : Thread nD τ) (st27_0 t) fullShare ((dat27 V c).after 0 t)
    ∗ owns (c : Thread nD τ) (st27_1 t) fullShare ((dat27 V c).after 1 t)
    ∗ owns (c : Thread nD τ) (st27_2 t) fullShare ((dat27 V c).after 2 t))

/-- The body at any point: the inputs' memrefs hold their blocks (`before27_0`, `before27_1`), so `sound_kernel27`
    applies; the invariant and the core's debt pass through unread. -/
theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1]
  rw [show (dat27 V c).Φ t.succ = (dat27 V c).Φ t.castSucc from rfl,
    show (dat27 V c).owesAt () t.succ = (dat27 V c).owesAt () t.castSucc from rfl,
    after27_0, after27_1, after27_2]
  iintro ⟨HΦ, Ho, ⟨%da, Ha⟩, ⟨%db, Hb⟩, ⟨%dc, Hc⟩⟩
  iapply (sound_kernel27 c Set.univ (grid27.coords t) _ _ _ _ _ _ (iblk27 V c 0 t) (iblk27 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation27 (c : Dev nD) : BodyObligation (dat27 (F := F) V c) (defs₀ (F := F)) Variants.none () Set.univ := fun t => by
  rw [bigSep_W27, bigSep_W27]
  exact sound_body27 V c t

end Cert.Kernel.Reg
-- ==== Proof.KB.Reg28.lean ====
/-
  REGION 28 of the kernel program (custom_call 28, the kernel function cc28__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt28, with its two case equations outsAt28_zero and outsAt28_succ).
  Per case the body's triple is a subtype: the lists of stores (rectangle and payload, last first) each output buffer
  ends with, together with the proof that the body runs to a continuation holding exactly those stores written
  (kernelRun28_A, kernelRun28_B). What a buffer then READS is the canonical contents of its list (View.canon), since the
  last store of each list covers the block.

  Exported: the proof data dat28 (arrays at V, full shares, nothing owed), A_eq28, the body obligation
  body_obligation28, the recursion outsAt28 and its equations, after28_0 / after28_1 / after28_2.
-/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond28_0 (i : grid28.Coords) : Prop :=
  (Scalar.cmpi .ne (Scalar.extui (Scalar.cmpi .eq (BitVec.ofNat 32 (i 0).val) 0#32)) 0#32) = 1#1

/-- It holds at the first point only: decided over the 50 points. -/
theorem hcond28_0 : ∀ t : Fin cfg28.N, cond28_0 (grid28.coords t) ↔ t.val = 0 :=
  (by decide +kernel : ∀ t : Fin grid28.N, cond28_0 (grid28.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun28_A (c : Dev nD) (i : grid28.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond28_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc28__sumsq_kernel i arg1 harg1 arg2 harg2 arg3 harg3) K } := by
  refine ⟨?_, ?_, fun E K => ?run⟩
  case run =>
    simp only [cc28__sumsq_kernel_eq_skeleton]; unfold cc28__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun28_B (c : Dev nD) (i : grid28.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond28_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc28__sumsq_kernel i arg1 harg1 arg2 harg2 arg3 harg3) K } := by
  refine ⟨?_, ?_, fun E K => ?run⟩
  case run =>
    simp only [cc28__sumsq_kernel_eq_skeleton]; unfold cc28__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- Input window 0's current staging buffer holds its block at every point, fetched there or not, for ANY proof data
    whose array is `V`'s and whose body leaves the block in place: unfetched, the block index has not moved. The
    window is uncut and never idle. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)

/-! ## What each case leaves in the two output buffers -/

/-- The whole-block rectangle of a [1,256] buffer at zero offsets: every index lies in it. -/
private theorem mem_whole_S28x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover28_A_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) (y : S1x256.Idx) :
    ∃ pc ∈ (kernelRun28_A c i arg1 harg1 arg2 harg2 arg3 harg3 hc0 x0).1, y ∈ pc.1.set := by
  unfold kernelRun28_A
  dsimp only
  refine ⟨_, List.mem_cons_self, ?_⟩
  exact mem_whole_S28x256 inb_S1x256_S1x256_0_0 y

/-- Case A's stores into output 2 cover its block likewise. -/
theorem cover28_A_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) (y : S1x256.Idx) :
    ∃ pc ∈ (kernelRun28_A c i arg1 harg1 arg2 harg2 arg3 harg3 hc0 x0).2.1, y ∈ pc.1.set := by
  unfold kernelRun28_A
  dsimp only
  refine ⟨_, List.mem_cons_self, ?_⟩
  exact mem_whole_S28x256 inb_S1x256_S1x256_0_0 y

/-- Case B's one store into output 1 covers its block. -/
theorem cover28_B_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) (y : S1x256.Idx) :
    ∃ pc ∈ (kernelRun28_B c i arg1 harg1 arg2 harg2 arg3 harg3 hc0 x0 xo1 xo2).1, y ∈ pc.1.set := by
  unfold kernelRun28_B
  dsimp only
  refine ⟨_, List.mem_cons_self, ?_⟩
  exact mem_whole_S28x256 inb_S1x256_S1x256_0_0 y

/-- Case B's one store into output 2 covers its block. -/
theorem cover28_B_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) (y : S1x256.Idx) :
    ∃ pc ∈ (kernelRun28_B c i arg1 harg1 arg2 harg2 arg3 harg3 hc0 x0 xo1 xo2).2.1, y ∈ pc.1.set := by
  unfold kernelRun28_B
  dsimp only
  refine ⟨_, List.mem_cons_self, ?_⟩
  exact mem_whole_S28x256 inb_S1x256_S1x256_0_0 y

/-- What case A leaves in output 1's staging buffer: the canonical contents of its stores. -/
def out28_A_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) : Vec F S1x256 .f32 :=
  View.canon (kernelRun28_A c i arg1 harg1 arg2 harg2 arg3 harg3 hc0 x0).1

/-- What case A leaves in output 2's staging buffer. -/
def out28_A_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) : Vec F S1x256 .f32 :=
  View.canon (kernelRun28_A c i arg1 harg1 arg2 harg2 arg3 harg3 hc0 x0).2.1

/-- What case B leaves in output 1's staging buffer, from the input block and what the two outputs held. -/
def out28_B_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) : Vec F S1x256 .f32 :=
  View.canon (kernelRun28_B c i arg1 harg1 arg2 harg2 arg3 harg3 hc0 x0 xo1 xo2).1

/-- What case B leaves in output 2's staging buffer. -/
def out28_B_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) : Vec F S1x256 .f32 :=
  View.canon (kernelRun28_B c i arg1 harg1 arg2 harg2 arg3 harg3 hc0 x0 xo1 xo2).2.1

/-! ## What the outputs hold after each point -/

/-- Each window's current staging memref at point `t` is whole. -/
abbrev hs28_0 (t : Fin cfg28.N) : (st28_0 t).IsWhole := hstage28_0 ((cfg28.slots t 0).cast nbuf28_0)
abbrev hs28_1 (t : Fin cfg28.N) : (st28_1 t).IsWhole := hstage28_1 ((cfg28.slots t 1).cast nbuf28_1)
abbrev hs28_2 (t : Fin cfg28.N) : (st28_2 t).IsWhole := hstage28_2 ((cfg28.slots t 2).cast nbuf28_2)

/-- A later point is not the first, so the conditional is not taken there. -/
theorem ncond28_0 (t : Fin cfg28.N) (h0 : t.val ≠ 0) : ¬cond28_0 (grid28.coords t) := fun h => h0 ((hcond28_0 t).mp h)

/-- THE ACCUMULATION. What the two outputs' staging buffers hold after the body at point `n`: at the first point
    case A's contents of the point's input block; at a later point case B's contents of the point's input block and of
    what this recursion gives at `n - 1` (the buffers are not written back between). -/
def outsAt28 (c : Dev nD) : (n : ℕ) → n < cfg28.N → Vec F S1x256 .f32 × Vec F S1x256 .f32
  | 0, hn =>
    (out28_A_1 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
        ((hcond28_0 ⟨0, hn⟩).mpr rfl) (iblk28 V c 0 ⟨0, hn⟩),
     out28_A_2 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
        ((hcond28_0 ⟨0, hn⟩).mpr rfl) (iblk28 V c 0 ⟨0, hn⟩))
  | n + 1, hn =>
    (out28_B_1 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
        (ncond28_0 ⟨n + 1, hn⟩ (Nat.succ_ne_zero n)) (iblk28 V c 0 ⟨n + 1, hn⟩)
        (outsAt28 c n (Nat.lt_of_succ_lt hn)).1 (outsAt28 c n (Nat.lt_of_succ_lt hn)).2,
     out28_B_2 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
        (ncond28_0 ⟨n + 1, hn⟩ (Nat.succ_ne_zero n)) (iblk28 V c 0 ⟨n + 1, hn⟩)
        (outsAt28 c n (Nat.lt_of_succ_lt hn)).1 (outsAt28 c n (Nat.lt_of_succ_lt hn)).2)

/-- The recursion at point 0. -/
theorem outsAt28_zero (c : Dev nD) (hn : 0 < cfg28.N) :
    outsAt28 V c 0 hn =
      (out28_A_1 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
          ((hcond28_0 ⟨0, hn⟩).mpr rfl) (iblk28 V c 0 ⟨0, hn⟩),
       out28_A_2 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
          ((hcond28_0 ⟨0, hn⟩).mpr rfl) (iblk28 V c 0 ⟨0, hn⟩)) := rfl

/-- The recursion at point `n + 1`. -/
theorem outsAt28_succ (c : Dev nD) (n : ℕ) (hn : n + 1 < cfg28.N) :
    outsAt28 V c (n + 1) hn =
      (out28_B_1 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
          (ncond28_0 ⟨n + 1, hn⟩ (Nat.succ_ne_zero n)) (iblk28 V c 0 ⟨n + 1, hn⟩)
          (outsAt28 V c n (Nat.lt_of_succ_lt hn)).1 (outsAt28 V c n (Nat.lt_of_succ_lt hn)).2,
       out28_B_2 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
          (ncond28_0 ⟨n + 1, hn⟩ (Nat.succ_ne_zero n)) (iblk28 V c 0 ⟨n + 1, hn⟩)
          (outsAt28 V c n (Nat.lt_of_succ_lt hn)).1 (outsAt28 V c n (Nat.lt_of_succ_lt hn)).2) := rfl

/-- The recursion at a point of case A (the first), stated at the point. -/
theorem outsAt28_A (c : Dev nD) (t : Fin cfg28.N) (h0 : t.val = 0) :
    outsAt28 V c t.val t.isLt =
      (out28_A_1 c (grid28.coords t) (st28_0 t) (hs28_0 t) (st28_1 t) (hs28_1 t) (st28_2 t) (hs28_2 t) ((hcond28_0 t).mpr h0) (iblk28 V c 0 t),
       out28_A_2 c (grid28.coords t) (st28_0 t) (hs28_0 t) (st28_1 t) (hs28_1 t) (st28_2 t) (hs28_2 t) ((hcond28_0 t).mpr h0) (iblk28 V c 0 t)) := by
  obtain ⟨n, hn⟩ := t
  cases n with
  | zero => exact rfl
  | succ n => exact absurd h0 (Nat.succ_ne_zero n)

/-- The recursion at a point of case B (a later one), stated at the point: over what the point before left. -/
theorem outsAt28_B (c : Dev nD) (t : Fin cfg28.N) (h0 : t.val ≠ 0) :
    outsAt28 V c t.val t.isLt =
      (out28_B_1 c (grid28.coords t) (st28_0 t) (hs28_0 t) (st28_1 t) (hs28_1 t) (st28_2 t) (hs28_2 t) (ncond28_0 t h0) (iblk28 V c 0 t)
          (outsAt28 V c (t.val - 1) (Nat.lt_of_le_of_lt (Nat.sub_le _ _) t.isLt)).1
          (outsAt28 V c (t.val - 1) (Nat.lt_of_le_of_lt (Nat.sub_le _ _) t.isLt)).2,
       out28_B_2 c (grid28.coords t) (st28_0 t) (hs28_0 t) (st28_1 t) (hs28_1 t) (st28_2 t) (hs28_2 t) (ncond28_0 t h0) (iblk28 V c 0 t)
          (outsAt28 V c (t.val - 1) (Nat.lt_of_le_of_lt (Nat.sub_le _ _) t.isLt)).1
          (outsAt28 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 28 on core `c`: the arrays as the region finds them (`V`); after the body at point
    `t` the input's buffer at its block and the two outputs' at `outsAt28`; the invariant the scoped rest and the
    generator register, untouched; nothing owed; full shares. -/
def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => (outsAt28 V c t.val t.isLt).1
    | ⟨2, _⟩ => (outsAt28 V c t.val t.isLt).2
  Φ _ := Pipeline.ΦA spec28 c
  q _ := fullShare
  owed _ := 0

/-- The proof data's arrays are the region-entry contents. -/
theorem A_eq28 (c : Dev nD) (w : Fin cfg28.W) : (dat28 V c).A w = V c (Pipeline.arrRef spec28 w) := by
  dsimp only [dat28]

/-- What the body leaves, window by window. -/
theorem after28_0 (c : Dev nD) (t : Fin cfg28.N) : (dat28 V c).after 0 t = iblk28 V c 0 t := by dsimp only [dat28]
theorem after28_1 (c : Dev nD) (t : Fin cfg28.N) : (dat28 V c).after 1 t = (outsAt28 V c t.val t.isLt).1 := by dsimp only [dat28]
theorem after28_2 (c : Dev nD) (t : Fin cfg28.N) : (dat28 V c).after 2 t = (outsAt28 V c t.val t.isLt).2 := by dsimp only [dat28]

/-- The input's current staging buffer holds its block at every point, fetched there or not. -/
theorem before28_0 (c : Dev nD) (t : Fin cfg28.N) (d) : (dat28 V c).before 0 t d = iblk28 V c 0 t :=
  before28_0_of V (dat28 V c) (A_eq28 V c 0) (after28_0 V c) t d

/-- At a later point output 1's staging buffer holds what the body left at the point before: the point is not the
    first, the buffer was not written back between (it is written back after point 49 only), the window is live and
    uncut. -/
theorem before28_1_B (c : Dev nD) (t : Fin cfg28.N) (h0 : t.val ≠ 0) (d) :
    (dat28 V c).before 1 t d = (outsAt28 V c (t.val - 1) (Nat.lt_of_le_of_lt (Nat.sub_le _ _) t.isLt)).1 := by
  have hN : t.val < 50 := lt_of_lt_of_eq t.isLt (show cfg28.N = 50 from N_28)
  rw [Dat.before_out_kept _ 1 rfl t h0 (Bool.eq_false_iff.mpr fun h => by have := (flush28_1 _).mp h; dsimp only at this; omega)
    (fun _ => rfl) (fun _ _ => rfl)]
  dsimp only [dat28]

/-- Likewise output 2's. -/
theorem before28_2_B (c : Dev nD) (t : Fin cfg28.N) (h0 : t.val ≠ 0) (d) :
    (dat28 V c).before 2 t d = (outsAt28 V c (t.val - 1) (Nat.lt_of_le_of_lt (Nat.sub_le _ _) t.isLt)).2 := by
  have hN : t.val < 50 := lt_of_lt_of_eq t.isLt (show cfg28.N = 50 from N_28)
  rw [Dat.before_out_kept _ 2 rfl t h0 (Bool.eq_false_iff.mpr fun h => by have := (flush28_2 _).mp h; dsimp only at this; omega)
    (fun _ => rfl) (fun _ _ => rfl)]
  dsimp only [dat28]

/-! ## The body obligation, at a generic point -/

/-- What the body is called with at point `t`, the windows one by one, -/
def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d)))

/-- and what it returns. -/
def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0]
  rw [show (dat28 V c).Φ t.succ = (dat28 V c).Φ t.castSucc from rfl,
    show (dat28 V c).owesAt () t.succ = (dat28 V c).owesAt () t.castSucc from rfl,
    after28_0, after28_1, after28_2]
  by_cases h0 : t.val = 0
  · rw [outsAt28_A V c t h0]
    dsimp only
    unfold out28_A_1 out28_A_2
    iintro ⟨HΦ, Ho, ⟨%d0, H0⟩, ⟨%d1, H1⟩, ⟨%d2, H2⟩⟩
    iapply ((kernelRun28_A c (grid28.coords t) _ _ _ _ _ _ ((hcond28_0 t).mpr h0) (iblk28 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover28_A_1 c _ _ _ _ _ _ _ _ _)
    · unfold owns; iexists _; isplitr
      swap; · iexact H2
      ipureintro; exact View.read_writes_eq_canon _ _ _ (cover28_A_2 c _ _ _ _ _ _ _ _ _)
  · rw [outsAt28_B V c t h0]
    dsimp only
    simp only [before28_1_B V c t h0, before28_2_B V c t h0]
    unfold out28_B_1 out28_B_2
    iintro ⟨HΦ, Ho, ⟨%d0, H0⟩, ⟨%d1, H1⟩, ⟨%d2, H2⟩⟩
    iapply ((kernelRun28_B c (grid28.coords t) _ _ _ _ _ _ (ncond28_0 t h0) (iblk28 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover28_B_1 c _ _ _ _ _ _ _ _ _ _ _)
    · unfold owns; iexists _; isplitr
      swap; · iexact H2
      ipureintro; exact View.read_writes_eq_canon _ _ _ (cover28_B_2 c _ _ _ _ _ _ _ _ _ _ _)

/-- The library's body obligation, at every point. -/
theorem body_obligation28 (c : Dev nD) : BodyObligation (dat28 (F := F) V c) (defs₀ (F := F)) Variants.none () Set.univ := fun t => by
  rw [bigSep_W28, bigSep_W28]
  exact sound_body28 V c t

end Cert.Kernel.Reg

end
-- ==== Proof.KB.Reg29.lean ====
/- REGION 29 of the kernel program: custom_call 29, `cc29__bn_relu_kernel` (pipeline 29), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out29_6`), it keeps nothing from point
   to point and names no semaphore, transfer, table or scratch: the plainest class of pipeline body.
   Stated here, for any float interpretation `F`: each window's block at a point (`iblk29`), that every input's
   staging buffer holds its block at every point (`before29_W_of`), the body's triple (`sound_kernel29`), the
   pipeline's proof data (`dat29`) and the body obligation (`body_obligation29`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before29_2_of {c : Dev nD} (dat : Dat τ (Elt F) Unit ℕ (UR sig nD τ) ℕ cfg29 c) (hA : dat.A 2 = V c (Pipeline.arrRef spec29 2))
    (hafter : ∀ t, dat.after 2 t = iblk29 V c 2 t) (t : Fin cfg29.N) (d) : dat.before 2 t d = iblk29 V c 2 t :=
  (dat.before_in_eq_fetched 2 rfl (fun _ => rfl) (fun _ _ _ => rfl) (fun t => by rw [hafter]; unfold Dat.blockOf iblk29; rw [hA]; try rfl) t d).trans
    (by unfold Dat.fetched Dat.blockOf iblk29; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before29_3_of {c : Dev nD} (dat : Dat τ (Elt F) Unit ℕ (UR sig nD τ) ℕ cfg29 c) (hA : dat.A 3 = V c (Pipeline.arrRef spec29 3))
    (hafter : ∀ t, dat.after 3 t = iblk29 V c 3 t) (t : Fin cfg29.N) (d) : dat.before 3 t d = iblk29 V c 3 t :=
  (dat.before_in_eq_fetched 3 rfl (fun _ => rfl) (fun _ _ _ => rfl) (fun t => by rw [hafter]; unfold Dat.blockOf iblk29; rw [hA]; try rfl) t d).trans
    (by unfold Dat.fetched Dat.blockOf iblk29; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before29_4_of {c : Dev nD} (dat : Dat τ (Elt F) Unit ℕ (UR sig nD τ) ℕ cfg29 c) (hA : dat.A 4 = V c (Pipeline.arrRef spec29 4))
    (hafter : ∀ t, dat.after 4 t = iblk29 V c 4 t) (t : Fin cfg29.N) (d) : dat.before 4 t d = iblk29 V c 4 t :=
  (dat.before_in_eq_fetched 4 rfl (fun _ => rfl) (fun _ _ _ => rfl) (fun t => by rw [hafter]; unfold Dat.blockOf iblk29; rw [hA]; try rfl) t d).trans
    (by unfold Dat.fetched Dat.blockOf iblk29; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before29_5_of {c : Dev nD} (dat : Dat τ (Elt F) Unit ℕ (UR sig nD τ) ℕ cfg29 c) (hA : dat.A 5 = V c (Pipeline.arrRef spec29 5))
    (hafter : ∀ t, dat.after 5 t = iblk29 V c 5 t) (t : Fin cfg29.N) (d) : dat.before 5 t d = iblk29 V c 5 t :=
  (dat.before_in_eq_fetched 5 rfl (fun _ => rfl) (fun _ _ _ => rfl) (fun t => by rw [hafter]; unfold Dat.blockOf iblk29; rw [hA]; try rfl) t d).trans
    (by unfold Dat.fetched Dat.blockOf iblk29; rw [hA]; try rfl)

/-! ## The body's accesses -/

/-- The whole [1000,256] buffer, and the whole [1,256] buffer: every load and the one store are of a whole buffer. -/
abbrev r29_0 : Rect S1000x256 := Rect.unit (s := S1000x256) ![0, 0] S1000x256.size inb_S1000x256_S1000x256_0_0
abbrev r29_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out29_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r29_0, k29_pay1 (View.ld x0 r29_0) (View.ld x1 r29_1) (View.ld x2 r29_1) (View.ld x3 r29_1) (View.ld x4 r29_1) (View.ld x5 r29_1)⟩]

/-- The one store is of the whole buffer (checked by evaluation), so it covers it. -/
theorem cover29_6 (p0 : Vec F S1000x256 .f32) (y : S1000x256.Idx) :
    ∃ pc ∈ ([⟨r29_0, p0⟩] : List (View.Piece (Elt F) S1000x256 .f32)), y ∈ pc.1.set :=
  View.cover_of_tiled [⟨r29_0, p0⟩] S1000x256.size (by rfl) y

/-! ## The body's triple -/

set_option maxHeartbeats 1000000 in
/-- The kernel body on whole staging memrefs, the inputs' at read contents `xW` and the output's at anything, runs to
    the continuation holding the inputs' as they were and the output's at `out29_6` of the inputs': the printed function
    is its skeleton, a sequence of whole-buffer loads and one whole-buffer store, which is run step by step. -/
theorem sound_kernel29 (c : Dev nD) (E : Set ℕ) (i : grid29.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out29_6 x0 x1 x2 x3 x4 x5)) -∗ K ⟨⟩))
      ⊢ wp frame (wpE (defs₀ (F := F)) Variants.none c none) E (cc29__bn_relu_kernel i arg1 harg1 arg2 harg2 arg3 harg3 arg4 harg4 arg5 harg5 arg6 harg6 arg7 harg7) K := by
  simp only [cc29__bn_relu_kernel_eq_skeleton]; unfold cc29__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover29_6 _)

/-! ## The pipeline's proof data -/

/-- The proof data of pipeline 29 on core `c`: the arrays as the region finds them (`V`); after the body at
    point `t` each input's buffer at its block and the output's at `out29_6` of the input blocks; the invariant that
    of the class (the scoped rest and the generator register, untouched); nothing owed; full shares. -/
def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => iblk29 V c 2 t
    | ⟨3, _⟩ => iblk29 V c 3 t
    | ⟨4, _⟩ => iblk29 V c 4 t
    | ⟨5, _⟩ => iblk29 V c 5 t
    | ⟨6, _⟩ => out29_6 (iblk29 V c 0 t) (iblk29 V c 1 t) (iblk29 V c 2 t) (iblk29 V c 3 t) (iblk29 V c 4 t) (iblk29 V c 5 t)
  Φ _ := Pipeline.ΦA spec29 c
  q _ := fullShare
  owed _ := 0

/-- The proof data's arrays are the region-entry contents (the proof data's definition projected). -/
theorem A_eq29 (c : Dev nD) (w : Fin cfg29.W) : (dat29 V c).A w = V c (Pipeline.arrRef spec29 w) := by
  dsimp only [dat29]

/-- What the body leaves, window by window (the proof data's `match` reduced). -/
theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = iblk29 V c 2 t := by dsimp only [dat29]
theorem after29_3 (c : Dev nD) (t : Fin cfg29.N) : (dat29 V c).after 3 t = iblk29 V c 3 t := by dsimp only [dat29]
theorem after29_4 (c : Dev nD) (t : Fin cfg29.N) : (dat29 V c).after 4 t = iblk29 V c 4 t := by dsimp only [dat29]
theorem after29_5 (c : Dev nD) (t : Fin cfg29.N) : (dat29 V c).after 5 t = iblk29 V c 5 t := by dsimp only [dat29]
theorem after29_6 (c : Dev nD) (t : Fin cfg29.N) : (dat29 V c).after 6 t = out29_6 (iblk29 V c 0 t) (iblk29 V c 1 t) (iblk29 V c 2 t) (iblk29 V c 3 t) (iblk29 V c 4 t) (iblk29 V c 5 t) := by dsimp only [dat29]

/-- Each input's current staging buffer holds its block at every point, fetched there or not. -/
theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d
theorem before29_2 (c : Dev nD) (t : Fin cfg29.N) (d) : (dat29 V c).before 2 t d = iblk29 V c 2 t :=
  before29_2_of V (dat29 V c) (A_eq29 V c 2) (after29_2 V c) t d
theorem before29_3 (c : Dev nD) (t : Fin cfg29.N) (d) : (dat29 V c).before 3 t d = iblk29 V c 3 t :=
  before29_3_of V (dat29 V c) (A_eq29 V c 3) (after29_3 V c) t d
theorem before29_4 (c : Dev nD) (t : Fin cfg29.N) (d) : (dat29 V c).before 4 t d = iblk29 V c 4 t :=
  before29_4_of V (dat29 V c) (A_eq29 V c 4) (after29_4 V c) t d
theorem before29_5 (c : Dev nD) (t : Fin cfg29.N) (d) : (dat29 V c).before 5 t d = iblk29 V c 5 t :=
  before29_5_of V (dat29 V c) (A_eq29 V c 5) (after29_5 V c) t d

/-! ## The body obligation, at a generic point -/

/-- What the body is called with at point `t` (the body obligation's precondition, the windows one by one), -/
def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d))
    ∗ (∃ d, owns (c : Thread nD τ) (st29_3 t) fullShare ((dat29 V c).before 3 t d))
    ∗ (∃ d, owns (c : Thread nD τ) (st29_4 t) fullShare ((dat29 V c).before 4 t d))
    ∗ (∃ d, owns (c : Thread nD τ) (st29_5 t) fullShare ((dat29 V c).before 5 t d))
    ∗ (∃ d, owns (c : Thread nD τ) (st29_6 t) fullShare ((dat29 V c).before 6 t d)))

/-- and what it returns. -/
def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t)
    ∗ owns (c : Thread nD τ) (st29_3 t) fullShare ((dat29 V c).after 3 t)
    ∗ owns (c : Thread nD τ) (st29_4 t) fullShare ((dat29 V c).after 4 t)
    ∗ owns (c : Thread nD τ) (st29_5 t) fullShare ((dat29 V c).after 5 t)
    ∗ owns (c : Thread nD τ) (st29_6 t) fullShare ((dat29 V c).after 6 t))

/-- The body at any point: the inputs' memrefs hold their blocks (`before29_W`), so `sound_kernel29` applies; the
    invariant and the core's debts pass through unread. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1, before29_2, before29_3, before29_4, before29_5]
  rw [show (dat29 V c).Φ t.succ = (dat29 V c).Φ t.castSucc from rfl,
    show (dat29 V c).owesAt () t.succ = (dat29 V c).owesAt () t.castSucc from rfl,
    after29_0, after29_1, after29_2, after29_3, after29_4, after29_5, after29_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel29 c Set.univ (grid29.coords t) _ _ _ _ _ _ _ _ _ _ _ _ _ _ (iblk29 V c 0 t) (iblk29 V c 1 t) (iblk29 V c 2 t) (iblk29 V c 3 t) (iblk29 V c 4 t) (iblk29 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation29 (c : Dev nD) : BodyObligation (dat29 (F := F) V c) (defs₀ (F := F)) Variants.none () Set.univ := fun t => by
  rw [bigSep_W29, bigSep_W29]
  exact sound_body29 V c t

end Cert.Kernel.Reg
-- ==== Proof.KB.Reg30.lean ====
/- REGION 30 of the kernel program (custom_call 30, kernel function cc30__out_kernel), at any F, at a parameter V: the
   TensorCore's buffer contents when the region is entered. Each window's block at a point (iblk30), what the body finds
   in each input window's buffer (before30_W), what it leaves in the output window's buffer (out30_3: the one store of
   the body, whose payload is the row log-softmax of block·weight + bias), the body's triple (sound_kernel30), the
   pipeline's proof data (dat30) and the body obligation at every point (body_obligation30). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 30: custom_call 30, the output head, at the entry contents V -/

/-! ## The windows' blocks -/

/-- Window w's block at point t, read off its array as the region finds it (V). -/
def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0 (the [1000,256] block of rows, fetched at every point): its current staging buffer holds its block
    at every point, for any proof data whose array is V's (hA) and whose body leaves the block in place (hafter). -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)

/-- Input window 1 (the whole [256,2] weight, fetched at the first point only): its staging buffer holds its block at
    every point, fetched there or not — unfetched, the block index has not moved. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

/-- Input window 2 (the [1,2] bias, fetched at the first point only): likewise. -/
theorem before30_2_of {c : Dev nD} (dat : Dat τ (Elt F) Unit ℕ (UR sig nD τ) ℕ cfg30 c) (hA : dat.A 2 = V c (Pipeline.arrRef spec30 2))
    (hafter : ∀ t, dat.after 2 t = iblk30 V c 2 t) (t : Fin cfg30.N) (d) : dat.before 2 t d = iblk30 V c 2 t :=
  (dat.before_in_eq_fetched 2 rfl (fun _ => rfl) (fun _ _ _ => rfl) (fun t => by rw [hafter]; unfold Dat.blockOf iblk30; rw [hA]; try rfl) t d).trans
    (by unfold Dat.fetched Dat.blockOf iblk30; rw [hA]; try rfl)

/-! ## The body's accesses -/

abbrev r30_0 : Rect S1000x256 := Rect.unit (s := S1000x256) ![0, 0] S1000x256.size inb_S1000x256_S1000x256_0_0
abbrev r30_1 : Rect S256x2 := Rect.unit (s := S256x2) ![0, 0] S256x2.size inb_S256x2_S256x2_0_0
abbrev r30_2 : Rect S1x2 := Rect.unit (s := S1x2) ![0, 0] S1x2.size inb_S1x2_S1x2_0_0
abbrev r30_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out30_3 (x0 : Vec F S1000x256 .f32) (x1 : Vec F S256x2 .f32) (x2 : Vec F S1x2 .f32) : Vec F S1000x2 .f32 :=
  View.canon [⟨r30_3, k30_pay1 (View.ld x0 r30_0) (View.ld x1 r30_1) (View.ld x2 r30_2)⟩]

/-- Its store tiles the buffer (checked by evaluation), so it covers it. -/
theorem cover30_3 (p0 : Vec F S1000x2 .f32) (y : S1000x2.Idx) :
    ∃ pc ∈ ([⟨r30_3, p0⟩] : List (View.Piece (Elt F) S1000x2 .f32)), y ∈ pc.1.set :=
  View.cover_of_tiled [⟨r30_3, p0⟩] S1000x2.size (by rfl) y

/-! ## The body's triple -/

set_option maxHeartbeats 1000000 in
/-- The kernel body on whole staging memrefs, the inputs' at read contents xW and the output's at anything, runs to the
    continuation holding the inputs' as they were and the output's at out30_3 of the inputs': the printed function is
    its skeleton, which the executor runs. -/
theorem sound_kernel30 (c : Dev nD) (E : Set ℕ) (i : grid30.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out30_3 x0 x1 x2)) -∗ K ⟨⟩))
      ⊢ wp frame (wpE (defs₀ (F := F)) Variants.none c none) E (cc30__out_kernel i arg1 harg1 arg2 harg2 arg3 harg3 arg4 harg4) K := by
  simp only [cc30__out_kernel_eq_skeleton]; unfold cc30__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover30_3 _)

/-! ## The pipeline's proof data -/

/-- The proof data of pipeline 30 on core c: the arrays as the region finds them (V); after the body at point t each
    input's buffer at its block and the output's at out30_3 of the input blocks; the invariant the scoped rest and the
    generator register, untouched; nothing owed; full shares. -/
def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => iblk30 V c 2 t
    | ⟨3, _⟩ => out30_3 (iblk30 V c 0 t) (iblk30 V c 1 t) (iblk30 V c 2 t)
  Φ _ := Pipeline.ΦA spec30 c
  q _ := fullShare
  owed _ := 0

/-- The proof data's arrays are the region-entry contents. -/
theorem A_eq30 (c : Dev nD) (w : Fin cfg30.W) : (dat30 V c).A w = V c (Pipeline.arrRef spec30 w) := by
  dsimp only [dat30]

/-- What the body leaves, window by window. -/
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = iblk30 V c 2 t := by dsimp only [dat30]
theorem after30_3 (c : Dev nD) (t : Fin cfg30.N) : (dat30 V c).after 3 t = out30_3 (iblk30 V c 0 t) (iblk30 V c 1 t) (iblk30 V c 2 t) := by dsimp only [dat30]

/-- Each input's current staging buffer holds its block at every point, fetched there or not. -/
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d
theorem before30_2 (c : Dev nD) (t : Fin cfg30.N) (d) : (dat30 V c).before 2 t d = iblk30 V c 2 t :=
  before30_2_of V (dat30 V c) (A_eq30 V c 2) (after30_2 V c) t d

/-! ## The body obligation, at a generic point -/

/-- What the body is called with at point t (the windows one by one), -/
def bodyPre30 (c : Dev nD) (t : Fin cfg30.N) : sProp 𝕄 :=
  iprop((dat30 V c).Φ t.castSucc ∗ (dat30 V c).owesAt () t.castSucc
    ∗ (∃ d, owns (c : Thread nD τ) (st30_0 t) fullShare ((dat30 V c).before 0 t d))
    ∗ (∃ d, owns (c : Thread nD τ) (st30_1 t) fullShare ((dat30 V c).before 1 t d))
    ∗ (∃ d, owns (c : Thread nD τ) (st30_2 t) fullShare ((dat30 V c).before 2 t d))
    ∗ (∃ d, owns (c : Thread nD τ) (st30_3 t) fullShare ((dat30 V c).before 3 t d)))

/-- and what it returns. -/
def bodyPost30 (c : Dev nD) (t : Fin cfg30.N) : sProp 𝕄 :=
  iprop((dat30 V c).Φ t.succ ∗ (dat30 V c).owesAt () t.succ
    ∗ owns (c : Thread nD τ) (st30_0 t) fullShare ((dat30 V c).after 0 t)
    ∗ owns (c : Thread nD τ) (st30_1 t) fullShare ((dat30 V c).after 1 t)
    ∗ owns (c : Thread nD τ) (st30_2 t) fullShare ((dat30 V c).after 2 t)
    ∗ owns (c : Thread nD τ) (st30_3 t) fullShare ((dat30 V c).after 3 t))

/-- The body at any point: the inputs' memrefs hold their blocks (before30_W), so sound_kernel30 applies; the invariant
    and the core's owes pass through unread. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1, before30_2]
  rw [show (dat30 V c).Φ t.succ = (dat30 V c).Φ t.castSucc from rfl,
    show (dat30 V c).owesAt () t.succ = (dat30 V c).owesAt () t.castSucc from rfl,
    after30_0, after30_1, after30_2, after30_3]
  iintro ⟨HΦ, Ho, ⟨%d0, H0⟩, ⟨%d1, H1⟩, ⟨%d2, H2⟩, ⟨%d3, H3⟩⟩
  iapply (sound_kernel30 c Set.univ _ _ _ _ _ _ _ _ _ (iblk30 V c 0 t) (iblk30 V c 1 t) (iblk30 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation30 (c : Dev nD) : BodyObligation (dat30 (F := F) V c) (defs₀ (F := F)) Variants.none () Set.univ := fun t => by
  rw [bigSep_W30, bigSep_W30]
  exact sound_body30 V c t

/-- info: 'Cert.Kernel.Reg.body_obligation30' depends on axioms: [propext, Classical.choice, Quot.sound] -/
#guard_msgs in #print axioms body_obligation30

end Cert.Kernel.Reg

end
-- ==== Proof.KB.ChainC.lean ====
-- laid out by: scratch/mkchain.js ChainC proof/Proof/KI/ChainC.lean
/- THE KERNEL PROGRAM'S BUFFER CONTENTS BETWEEN ITEMS, third part: from region 20 to the return (boundaries
   43 … 64), continuing the fold of the second part with the same statements beside each boundary. `W64` is what the
   cores hold when @main returns. -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import proofs.«146967_j25786983645193_1_alg».proof.Proof.KB.ChainB
import proofs.«146967_j25786983645193_1_alg».proof.Proof.KB.Reg20
import proofs.«146967_j25786983645193_1_alg».proof.Proof.KB.Reg21
import proofs.«146967_j25786983645193_1_alg».proof.Proof.KB.Reg22
import proofs.«146967_j25786983645193_1_alg».proof.Proof.KB.Reg23
import proofs.«146967_j25786983645193_1_alg».proof.Proof.KB.Reg24
import proofs.«146967_j25786983645193_1_alg».proof.Proof.KB.Reg25
import proofs.«146967_j25786983645193_1_alg».proof.Proof.KB.Reg26
import proofs.«146967_j25786983645193_1_alg».proof.Proof.KB.Reg27
import proofs.«146967_j25786983645193_1_alg».proof.Proof.KB.Reg28
import proofs.«146967_j25786983645193_1_alg».proof.Proof.KB.Reg29
import proofs.«146967_j25786983645193_1_alg».proof.Proof.KB.Reg30
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every output array of region 20 has index twenty or more. -/
theorem out20_ge : ∀ w, (cfg20.win w).isOut = true → 20 ≤ (Pipeline.arrRef spec20 w).idx.val := by decide
/-- At region 20's exit: its arrays at what the pipeline leaves, every other buffer as entered. -/
def W43 (c : Dev nD) : Valuation τ sig (Elt F) :=
  Pipeline.withArrays spec20 c (W42 m c) fun w => (dat20 (rd (W42 m)) c).arrAt w cfg20.N
theorem W43_arr (c : Dev nD) (w : Fin cfg20.W) :
    W43 m c (Proc.devRef .tc (Pipeline.arrRef spec20 w)) = (dat20 (rd (W42 m)) c).arrAt w cfg20.N := by
  unfold W43; exact Pipeline.withArrays_arr spec20 launch20.win.arr_inj c _ _ w
theorem W43_of_ne (c : Dev nD) (b : Ref sig .tc) (hb : ∀ w, Pipeline.arrRef spec20 w ≠ b) :
    W43 m c (Proc.devRef .tc b) = W42 m c (Proc.devRef .tc b) := by
  unfold W43; exact Pipeline.withArrays_of_ne spec20 c _ _ b hb
/-- At region 20's exit each of its arrays holds what the pipeline leaves (`hF20`) and every other buffer what it held
    at entry (`hrest20`). -/
theorem hF20 (c : Dev nD) (w : Fin cfg20.W) :
    (dat20 (rd (W42 m)) c).arrAt w cfg20.N = rd (W43 m) c (Pipeline.arrRef spec20 w) :=
  (W43_arr m c w).symm
theorem hrest20 (c : Dev nD) : ∀ b, b ∉ Finset.univ.image (Pipeline.arrRef spec20) → rd (W43 m) c b = rd (W42 m) c b :=
  fun b hb => W43_of_ne m c b fun w e => hb (Finset.mem_image.mpr ⟨w, Finset.mem_univ _, e⟩)
/-- A reference that is no OUTPUT array of region 20 keeps its contents: an input array is left as entered, a buffer
    that is no array of the region bypasses it. -/
theorem W43_keep (c : Dev nD) (b : Ref sig .tc) (hb : ∀ w, Pipeline.arrRef spec20 w = b → (cfg20.win w).isOut = false) :
    W43 m c (Proc.devRef .tc b) = W42 m c (Proc.devRef .tc b) := by
  by_cases h : ∃ w, Pipeline.arrRef spec20 w = b
  · obtain ⟨w, rfl⟩ := h
    exact (W43_arr m c w).trans (((dat20 (rd (W42 m)) c).arrAt_in w (hb w rfl) _).trans (A_eq20 (rd (W42 m)) c w))
  · exact W43_of_ne m c b fun w e => h ⟨w, e⟩
theorem W43_arg (c : Dev nD) {b : Ref sig .tc} (hb : b ∈ args) :
    W43 m c (Proc.devRef .tc b) = m ((c : Thread nD τ).loc b) :=
  (W43_keep m c b (args_in out20_ge hb)).trans (W42_arg m c hb)

/-- Every reference `hostOps21` writes has index twenty or more. -/
theorem hostOps21_ge : (hostOps21_W.all fun r => decide (20 ≤ r.idx.val)) = true := by decide
/-- After `hostOps21`. -/
abbrev W44 : Dev nD → Valuation τ sig (Elt F) := fun c => StableHlo.after hostOps21 (W43 m c)
theorem W44_keep (c : Dev nD) (b : Ref sig .tc) (h : b ∉ hostOps21_W) :
    W44 m c (Proc.devRef .tc b) = W43 m c (Proc.devRef .tc b) :=
  StableHlo.after_of_writes_sub hostOps21 _ hostOps21_writes h
theorem W44_arg (c : Dev nD) {b : Ref sig .tc} (hb : b ∈ args) :
    W44 m c (Proc.devRef .tc b) = m ((c : Thread nD τ).loc b) :=
  (W44_keep m c b (args_not_mem hostOps21_ge hb)).trans (W43_arg m c hb)

/-- Every output array of region 21 has index twenty or more. -/
theorem out21_ge : ∀ w, (cfg21.win w).isOut = true → 20 ≤ (Pipeline.arrRef spec21 w).idx.val := by decide
/-- At region 21's exit: its arrays at what the pipeline leaves, every other buffer as entered. -/
def W45 (c : Dev nD) : Valuation τ sig (Elt F) :=
  Pipeline.withArrays spec21 c (W44 m c) fun w => (dat21 (rd (W44 m)) c).arrAt w cfg21.N
theorem W45_arr (c : Dev nD) (w : Fin cfg21.W) :
    W45 m c (Proc.devRef .tc (Pipeline.arrRef spec21 w)) = (dat21 (rd (W44 m)) c).arrAt w cfg21.N := by
  unfold W45; exact Pipeline.withArrays_arr spec21 launch21.win.arr_inj c _ _ w
theorem W45_of_ne (c : Dev nD) (b : Ref sig .tc) (hb : ∀ w, Pipeline.arrRef spec21 w ≠ b) :
    W45 m c (Proc.devRef .tc b) = W44 m c (Proc.devRef .tc b) := by
  unfold W45; exact Pipeline.withArrays_of_ne spec21 c _ _ b hb
/-- At region 21's exit each of its arrays holds what the pipeline leaves (`hF21`) and every other buffer what it held
    at entry (`hrest21`). -/
theorem hF21 (c : Dev nD) (w : Fin cfg21.W) :
    (dat21 (rd (W44 m)) c).arrAt w cfg21.N = rd (W45 m) c (Pipeline.arrRef spec21 w) :=
  (W45_arr m c w).symm
theorem hrest21 (c : Dev nD) : ∀ b, b ∉ Finset.univ.image (Pipeline.arrRef spec21) → rd (W45 m) c b = rd (W44 m) c b :=
  fun b hb => W45_of_ne m c b fun w e => hb (Finset.mem_image.mpr ⟨w, Finset.mem_univ _, e⟩)
/-- A reference that is no OUTPUT array of region 21 keeps its contents: an input array is left as entered, a buffer
    that is no array of the region bypasses it. -/
theorem W45_keep (c : Dev nD) (b : Ref sig .tc) (hb : ∀ w, Pipeline.arrRef spec21 w = b → (cfg21.win w).isOut = false) :
    W45 m c (Proc.devRef .tc b) = W44 m c (Proc.devRef .tc b) := by
  by_cases h : ∃ w, Pipeline.arrRef spec21 w = b
  · obtain ⟨w, rfl⟩ := h
    exact (W45_arr m c w).trans (((dat21 (rd (W44 m)) c).arrAt_in w (hb w rfl) _).trans (A_eq21 (rd (W44 m)) c w))
  · exact W45_of_ne m c b fun w e => h ⟨w, e⟩
theorem W45_arg (c : Dev nD) {b : Ref sig .tc} (hb : b ∈ args) :
    W45 m c (Proc.devRef .tc b) = m ((c : Thread nD τ).loc b) :=
  (W45_keep m c b (args_in out21_ge hb)).trans (W44_arg m c hb)

/-- Every reference `hostOps22` writes has index twenty or more. -/
theorem hostOps22_ge : (hostOps22_W.all fun r => decide (20 ≤ r.idx.val)) = true := by decide
/-- After `hostOps22`. -/
abbrev W46 : Dev nD → Valuation τ sig (Elt F) := fun c => StableHlo.after hostOps22 (W45 m c)
theorem W46_keep (c : Dev nD) (b : Ref sig .tc) (h : b ∉ hostOps22_W) :
    W46 m c (Proc.devRef .tc b) = W45 m c (Proc.devRef .tc b) :=
  StableHlo.after_of_writes_sub hostOps22 _ hostOps22_writes h
theorem W46_arg (c : Dev nD) {b : Ref sig .tc} (hb : b ∈ args) :
    W46 m c (Proc.devRef .tc b) = m ((c : Thread nD τ).loc b) :=
  (W46_keep m c b (args_not_mem hostOps22_ge hb)).trans (W45_arg m c hb)

/-- Every output array of region 22 has index twenty or more. -/
theorem out22_ge : ∀ w, (cfg22.win w).isOut = true → 20 ≤ (Pipeline.arrRef spec22 w).idx.val := by decide
/-- At region 22's exit: its arrays at what the pipeline leaves, every other buffer as entered. -/
def W47 (c : Dev nD) : Valuation τ sig (Elt F) :=
  Pipeline.withArrays spec22 c (W46 m c) fun w => (dat22 (rd (W46 m)) c).arrAt w cfg22.N
theorem W47_arr (c : Dev nD) (w : Fin cfg22.W) :
    W47 m c (Proc.devRef .tc (Pipeline.arrRef spec22 w)) = (dat22 (rd (W46 m)) c).arrAt w cfg22.N := by
  unfold W47; exact Pipeline.withArrays_arr spec22 launch22.win.arr_inj c _ _ w
theorem W47_of_ne (c : Dev nD) (b : Ref sig .tc) (hb : ∀ w, Pipeline.arrRef spec22 w ≠ b) :
    W47 m c (Proc.devRef .tc b) = W46 m c (Proc.devRef .tc b) := by
  unfold W47; exact Pipeline.withArrays_of_ne spec22 c _ _ b hb
/-- At region 22's exit each of its arrays holds what the pipeline leaves (`hF22`) and every other buffer what it held
    at entry (`hrest22`). -/
theorem hF22 (c : Dev nD) (w : Fin cfg22.W) :
    (dat22 (rd (W46 m)) c).arrAt w cfg22.N = rd (W47 m) c (Pipeline.arrRef spec22 w) :=
  (W47_arr m c w).symm
theorem hrest22 (c : Dev nD) : ∀ b, b ∉ Finset.univ.image (Pipeline.arrRef spec22) → rd (W47 m) c b = rd (W46 m) c b :=
  fun b hb => W47_of_ne m c b fun w e => hb (Finset.mem_image.mpr ⟨w, Finset.mem_univ _, e⟩)
/-- A reference that is no OUTPUT array of region 22 keeps its contents: an input array is left as entered, a buffer
    that is no array of the region bypasses it. -/
theorem W47_keep (c : Dev nD) (b : Ref sig .tc) (hb : ∀ w, Pipeline.arrRef spec22 w = b → (cfg22.win w).isOut = false) :
    W47 m c (Proc.devRef .tc b) = W46 m c (Proc.devRef .tc b) := by
  by_cases h : ∃ w, Pipeline.arrRef spec22 w = b
  · obtain ⟨w, rfl⟩ := h
    exact (W47_arr m c w).trans (((dat22 (rd (W46 m)) c).arrAt_in w (hb w rfl) _).trans (A_eq22 (rd (W46 m)) c w))
  · exact W47_of_ne m c b fun w e => h ⟨w, e⟩
theorem W47_arg (c : Dev nD) {b : Ref sig .tc} (hb : b ∈ args) :
    W47 m c (Proc.devRef .tc b) = m ((c : Thread nD τ).loc b) :=
  (W47_keep m c b (args_in out22_ge hb)).trans (W46_arg m c hb)

/-- Every reference `hostOps23` writes has index twenty or more. -/
theorem hostOps23_ge : (hostOps23_W.all fun r => decide (20 ≤ r.idx.val)) = true := by decide
/-- After `hostOps23`. -/
abbrev W48 : Dev nD → Valuation τ sig (Elt F) := fun c => StableHlo.after hostOps23 (W47 m c)
theorem W48_keep (c : Dev nD) (b : Ref sig .tc) (h : b ∉ hostOps23_W) :
    W48 m c (Proc.devRef .tc b) = W47 m c (Proc.devRef .tc b) :=
  StableHlo.after_of_writes_sub hostOps23 _ hostOps23_writes h
theorem W48_arg (c : Dev nD) {b : Ref sig .tc} (hb : b ∈ args) :
    W48 m c (Proc.devRef .tc b) = m ((c : Thread nD τ).loc b) :=
  (W48_keep m c b (args_not_mem hostOps23_ge hb)).trans (W47_arg m c hb)

/-- Every output array of region 23 has index twenty or more. -/
theorem out23_ge : ∀ w, (cfg23.win w).isOut = true → 20 ≤ (Pipeline.arrRef spec23 w).idx.val := by decide
/-- At region 23's exit: its arrays at what the pipeline leaves, every other buffer as entered. -/
def W49 (c : Dev nD) : Valuation τ sig (Elt F) :=
  Pipeline.withArrays spec23 c (W48 m c) fun w => (dat23 (rd (W48 m)) c).arrAt w cfg23.N
theorem W49_arr (c : Dev nD) (w : Fin cfg23.W) :
    W49 m c (Proc.devRef .tc (Pipeline.arrRef spec23 w)) = (dat23 (rd (W48 m)) c).arrAt w cfg23.N := by
  unfold W49; exact Pipeline.withArrays_arr spec23 launch23.win.arr_inj c _ _ w
theorem W49_of_ne (c : Dev nD) (b : Ref sig .tc) (hb : ∀ w, Pipeline.arrRef spec23 w ≠ b) :
    W49 m c (Proc.devRef .tc b) = W48 m c (Proc.devRef .tc b) := by
  unfold W49; exact Pipeline.withArrays_of_ne spec23 c _ _ b hb
/-- At region 23's exit each of its arrays holds what the pipeline leaves (`hF23`) and every other buffer what it held
    at entry (`hrest23`). -/
theorem hF23 (c : Dev nD) (w : Fin cfg23.W) :
    (dat23 (rd (W48 m)) c).arrAt w cfg23.N = rd (W49 m) c (Pipeline.arrRef spec23 w) :=
  (W49_arr m c w).symm
theorem hrest23 (c : Dev nD) : ∀ b, b ∉ Finset.univ.image (Pipeline.arrRef spec23) → rd (W49 m) c b = rd (W48 m) c b :=
  fun b hb => W49_of_ne m c b fun w e => hb (Finset.mem_image.mpr ⟨w, Finset.mem_univ _, e⟩)
/-- A reference that is no OUTPUT array of region 23 keeps its contents: an input array is left as entered, a buffer
    that is no array of the region bypasses it. -/
theorem W49_keep (c : Dev nD) (b : Ref sig .tc) (hb : ∀ w, Pipeline.arrRef spec23 w = b → (cfg23.win w).isOut = false) :
    W49 m c (Proc.devRef .tc b) = W48 m c (Proc.devRef .tc b) := by
  by_cases h : ∃ w, Pipeline.arrRef spec23 w = b
  · obtain ⟨w, rfl⟩ := h
    exact (W49_arr m c w).trans (((dat23 (rd (W48 m)) c).arrAt_in w (hb w rfl) _).trans (A_eq23 (rd (W48 m)) c w))
  · exact W49_of_ne m c b fun w e => h ⟨w, e⟩
theorem W49_arg (c : Dev nD) {b : Ref sig .tc} (hb : b ∈ args) :
    W49 m c (Proc.devRef .tc b) = m ((c : Thread nD τ).loc b) :=
  (W49_keep m c b (args_in out23_ge hb)).trans (W48_arg m c hb)

/-- Every reference `hostOps24` writes has index twenty or more. -/
theorem hostOps24_ge : (hostOps24_W.all fun r => decide (20 ≤ r.idx.val)) = true := by decide
/-- After `hostOps24`. -/
abbrev W50 : Dev nD → Valuation τ sig (Elt F) := fun c => StableHlo.after hostOps24 (W49 m c)
theorem W50_keep (c : Dev nD) (b : Ref sig .tc) (h : b ∉ hostOps24_W) :
    W50 m c (Proc.devRef .tc b) = W49 m c (Proc.devRef .tc b) :=
  StableHlo.after_of_writes_sub hostOps24 _ hostOps24_writes h
theorem W50_arg (c : Dev nD) {b : Ref sig .tc} (hb : b ∈ args) :
    W50 m c (Proc.devRef .tc b) = m ((c : Thread nD τ).loc b) :=
  (W50_keep m c b (args_not_mem hostOps24_ge hb)).trans (W49_arg m c hb)

/-- Every output array of region 24 has index twenty or more. -/
theorem out24_ge : ∀ w, (cfg24.win w).isOut = true → 20 ≤ (Pipeline.arrRef spec24 w).idx.val := by decide
/-- At region 24's exit: its arrays at what the pipeline leaves, every other buffer as entered. -/
def W51 (c : Dev nD) : Valuation τ sig (Elt F) :=
  Pipeline.withArrays spec24 c (W50 m c) fun w => (dat24 (rd (W50 m)) c).arrAt w cfg24.N
theorem W51_arr (c : Dev nD) (w : Fin cfg24.W) :
    W51 m c (Proc.devRef .tc (Pipeline.arrRef spec24 w)) = (dat24 (rd (W50 m)) c).arrAt w cfg24.N := by
  unfold W51; exact Pipeline.withArrays_arr spec24 launch24.win.arr_inj c _ _ w
theorem W51_of_ne (c : Dev nD) (b : Ref sig .tc) (hb : ∀ w, Pipeline.arrRef spec24 w ≠ b) :
    W51 m c (Proc.devRef .tc b) = W50 m c (Proc.devRef .tc b) := by
  unfold W51; exact Pipeline.withArrays_of_ne spec24 c _ _ b hb
/-- At region 24's exit each of its arrays holds what the pipeline leaves (`hF24`) and every other buffer what it held
    at entry (`hrest24`). -/
theorem hF24 (c : Dev nD) (w : Fin cfg24.W) :
    (dat24 (rd (W50 m)) c).arrAt w cfg24.N = rd (W51 m) c (Pipeline.arrRef spec24 w) :=
  (W51_arr m c w).symm
theorem hrest24 (c : Dev nD) : ∀ b, b ∉ Finset.univ.image (Pipeline.arrRef spec24) → rd (W51 m) c b = rd (W50 m) c b :=
  fun b hb => W51_of_ne m c b fun w e => hb (Finset.mem_image.mpr ⟨w, Finset.mem_univ _, e⟩)
/-- A reference that is no OUTPUT array of region 24 keeps its contents: an input array is left as entered, a buffer
    that is no array of the region bypasses it. -/
theorem W51_keep (c : Dev nD) (b : Ref sig .tc) (hb : ∀ w, Pipeline.arrRef spec24 w = b → (cfg24.win w).isOut = false) :
    W51 m c (Proc.devRef .tc b) = W50 m c (Proc.devRef .tc b) := by
  by_cases h : ∃ w, Pipeline.arrRef spec24 w = b
  · obtain ⟨w, rfl⟩ := h
    exact (W51_arr m c w).trans (((dat24 (rd (W50 m)) c).arrAt_in w (hb w rfl) _).trans (A_eq24 (rd (W50 m)) c w))
  · exact W51_of_ne m c b fun w e => h ⟨w, e⟩
theorem W51_arg (c : Dev nD) {b : Ref sig .tc} (hb : b ∈ args) :
    W51 m c (Proc.devRef .tc b) = m ((c : Thread nD τ).loc b) :=
  (W51_keep m c b (args_in out24_ge hb)).trans (W50_arg m c hb)

/-- Every reference `hostOps25` writes has index twenty or more. -/
theorem hostOps25_ge : (hostOps25_W.all fun r => decide (20 ≤ r.idx.val)) = true := by decide
/-- After `hostOps25`. -/
abbrev W52 : Dev nD → Valuation τ sig (Elt F) := fun c => StableHlo.after hostOps25 (W51 m c)
theorem W52_keep (c : Dev nD) (b : Ref sig .tc) (h : b ∉ hostOps25_W) :
    W52 m c (Proc.devRef .tc b) = W51 m c (Proc.devRef .tc b) :=
  StableHlo.after_of_writes_sub hostOps25 _ hostOps25_writes h
theorem W52_arg (c : Dev nD) {b : Ref sig .tc} (hb : b ∈ args) :
    W52 m c (Proc.devRef .tc b) = m ((c : Thread nD τ).loc b) :=
  (W52_keep m c b (args_not_mem hostOps25_ge hb)).trans (W51_arg m c hb)

/-- Every output array of region 25 has index twenty or more. -/
theorem out25_ge : ∀ w, (cfg25.win w).isOut = true → 20 ≤ (Pipeline.arrRef spec25 w).idx.val := by decide
/-- At region 25's exit: its arrays at what the pipeline leaves, every other buffer as entered. -/
def W53 (c : Dev nD) : Valuation τ sig (Elt F) :=
  Pipeline.withArrays spec25 c (W52 m c) fun w => (dat25 (rd (W52 m)) c).arrAt w cfg25.N
theorem W53_arr (c : Dev nD) (w : Fin cfg25.W) :
    W53 m c (Proc.devRef .tc (Pipeline.arrRef spec25 w)) = (dat25 (rd (W52 m)) c).arrAt w cfg25.N := by
  unfold W53; exact Pipeline.withArrays_arr spec25 launch25.win.arr_inj c _ _ w
theorem W53_of_ne (c : Dev nD) (b : Ref sig .tc) (hb : ∀ w, Pipeline.arrRef spec25 w ≠ b) :
    W53 m c (Proc.devRef .tc b) = W52 m c (Proc.devRef .tc b) := by
  unfold W53; exact Pipeline.withArrays_of_ne spec25 c _ _ b hb
/-- At region 25's exit each of its arrays holds what the pipeline leaves (`hF25`) and every other buffer what it held
    at entry (`hrest25`). -/
theorem hF25 (c : Dev nD) (w : Fin cfg25.W) :
    (dat25 (rd (W52 m)) c).arrAt w cfg25.N = rd (W53 m) c (Pipeline.arrRef spec25 w) :=
  (W53_arr m c w).symm
theorem hrest25 (c : Dev nD) : ∀ b, b ∉ Finset.univ.image (Pipeline.arrRef spec25) → rd (W53 m) c b = rd (W52 m) c b :=
  fun b hb => W53_of_ne m c b fun w e => hb (Finset.mem_image.mpr ⟨w, Finset.mem_univ _, e⟩)
/-- A reference that is no OUTPUT array of region 25 keeps its contents: an input array is left as entered, a buffer
    that is no array of the region bypasses it. -/
theorem W53_keep (c : Dev nD) (b : Ref sig .tc) (hb : ∀ w, Pipeline.arrRef spec25 w = b → (cfg25.win w).isOut = false) :
    W53 m c (Proc.devRef .tc b) = W52 m c (Proc.devRef .tc b) := by
  by_cases h : ∃ w, Pipeline.arrRef spec25 w = b
  · obtain ⟨w, rfl⟩ := h
    exact (W53_arr m c w).trans (((dat25 (rd (W52 m)) c).arrAt_in w (hb w rfl) _).trans (A_eq25 (rd (W52 m)) c w))
  · exact W53_of_ne m c b fun w e => h ⟨w, e⟩
theorem W53_arg (c : Dev nD) {b : Ref sig .tc} (hb : b ∈ args) :
    W53 m c (Proc.devRef .tc b) = m ((c : Thread nD τ).loc b) :=
  (W53_keep m c b (args_in out25_ge hb)).trans (W52_arg m c hb)

/-- Every reference `hostOps26` writes has index twenty or more. -/
theorem hostOps26_ge : (hostOps26_W.all fun r => decide (20 ≤ r.idx.val)) = true := by decide
/-- After `hostOps26`. -/
abbrev W54 : Dev nD → Valuation τ sig (Elt F) := fun c => StableHlo.after hostOps26 (W53 m c)
theorem W54_keep (c : Dev nD) (b : Ref sig .tc) (h : b ∉ hostOps26_W) :
    W54 m c (Proc.devRef .tc b) = W53 m c (Proc.devRef .tc b) :=
  StableHlo.after_of_writes_sub hostOps26 _ hostOps26_writes h
theorem W54_arg (c : Dev nD) {b : Ref sig .tc} (hb : b ∈ args) :
    W54 m c (Proc.devRef .tc b) = m ((c : Thread nD τ).loc b) :=
  (W54_keep m c b (args_not_mem hostOps26_ge hb)).trans (W53_arg m c hb)

/-- Every output array of region 26 has index twenty or more. -/
theorem out26_ge : ∀ w, (cfg26.win w).isOut = true → 20 ≤ (Pipeline.arrRef spec26 w).idx.val := by decide
/-- At region 26's exit: its arrays at what the pipeline leaves, every other buffer as entered. -/
def W55 (c : Dev nD) : Valuation τ sig (Elt F) :=
  Pipeline.withArrays spec26 c (W54 m c) fun w => (dat26 (rd (W54 m)) c).arrAt w cfg26.N
theorem W55_arr (c : Dev nD) (w : Fin cfg26.W) :
    W55 m c (Proc.devRef .tc (Pipeline.arrRef spec26 w)) = (dat26 (rd (W54 m)) c).arrAt w cfg26.N := by
  unfold W55; exact Pipeline.withArrays_arr spec26 launch26.win.arr_inj c _ _ w
theorem W55_of_ne (c : Dev nD) (b : Ref sig .tc) (hb : ∀ w, Pipeline.arrRef spec26 w ≠ b) :
    W55 m c (Proc.devRef .tc b) = W54 m c (Proc.devRef .tc b) := by
  unfold W55; exact Pipeline.withArrays_of_ne spec26 c _ _ b hb
/-- At region 26's exit each of its arrays holds what the pipeline leaves (`hF26`) and every other buffer what it held
    at entry (`hrest26`). -/
theorem hF26 (c : Dev nD) (w : Fin cfg26.W) :
    (dat26 (rd (W54 m)) c).arrAt w cfg26.N = rd (W55 m) c (Pipeline.arrRef spec26 w) :=
  (W55_arr m c w).symm
theorem hrest26 (c : Dev nD) : ∀ b, b ∉ Finset.univ.image (Pipeline.arrRef spec26) → rd (W55 m) c b = rd (W54 m) c b :=
  fun b hb => W55_of_ne m c b fun w e => hb (Finset.mem_image.mpr ⟨w, Finset.mem_univ _, e⟩)
/-- A reference that is no OUTPUT array of region 26 keeps its contents: an input array is left as entered, a buffer
    that is no array of the region bypasses it. -/
theorem W55_keep (c : Dev nD) (b : Ref sig .tc) (hb : ∀ w, Pipeline.arrRef spec26 w = b → (cfg26.win w).isOut = false) :
    W55 m c (Proc.devRef .tc b) = W54 m c (Proc.devRef .tc b) := by
  by_cases h : ∃ w, Pipeline.arrRef spec26 w = b
  · obtain ⟨w, rfl⟩ := h
    exact (W55_arr m c w).trans (((dat26 (rd (W54 m)) c).arrAt_in w (hb w rfl) _).trans (A_eq26 (rd (W54 m)) c w))
  · exact W55_of_ne m c b fun w e => h ⟨w, e⟩
theorem W55_arg (c : Dev nD) {b : Ref sig .tc} (hb : b ∈ args) :
    W55 m c (Proc.devRef .tc b) = m ((c : Thread nD τ).loc b) :=
  (W55_keep m c b (args_in out26_ge hb)).trans (W54_arg m c hb)

/-- Every reference `hostOps27` writes has index twenty or more. -/
theorem hostOps27_ge : (hostOps27_W.all fun r => decide (20 ≤ r.idx.val)) = true := by decide
/-- After `hostOps27`. -/
abbrev W56 : Dev nD → Valuation τ sig (Elt F) := fun c => StableHlo.after hostOps27 (W55 m c)
theorem W56_keep (c : Dev nD) (b : Ref sig .tc) (h : b ∉ hostOps27_W) :
    W56 m c (Proc.devRef .tc b) = W55 m c (Proc.devRef .tc b) :=
  StableHlo.after_of_writes_sub hostOps27 _ hostOps27_writes h
theorem W56_arg (c : Dev nD) {b : Ref sig .tc} (hb : b ∈ args) :
    W56 m c (Proc.devRef .tc b) = m ((c : Thread nD τ).loc b) :=
  (W56_keep m c b (args_not_mem hostOps27_ge hb)).trans (W55_arg m c hb)

/-- Every output array of region 27 has index twenty or more. -/
theorem out27_ge : ∀ w, (cfg27.win w).isOut = true → 20 ≤ (Pipeline.arrRef spec27 w).idx.val := by decide
/-- At region 27's exit: its arrays at what the pipeline leaves, every other buffer as entered. -/
def W57 (c : Dev nD) : Valuation τ sig (Elt F) :=
  Pipeline.withArrays spec27 c (W56 m c) fun w => (dat27 (rd (W56 m)) c).arrAt w cfg27.N
theorem W57_arr (c : Dev nD) (w : Fin cfg27.W) :
    W57 m c (Proc.devRef .tc (Pipeline.arrRef spec27 w)) = (dat27 (rd (W56 m)) c).arrAt w cfg27.N := by
  unfold W57; exact Pipeline.withArrays_arr spec27 launch27.win.arr_inj c _ _ w
theorem W57_of_ne (c : Dev nD) (b : Ref sig .tc) (hb : ∀ w, Pipeline.arrRef spec27 w ≠ b) :
    W57 m c (Proc.devRef .tc b) = W56 m c (Proc.devRef .tc b) := by
  unfold W57; exact Pipeline.withArrays_of_ne spec27 c _ _ b hb
/-- At region 27's exit each of its arrays holds what the pipeline leaves (`hF27`) and every other buffer what it held
    at entry (`hrest27`). -/
theorem hF27 (c : Dev nD) (w : Fin cfg27.W) :
    (dat27 (rd (W56 m)) c).arrAt w cfg27.N = rd (W57 m) c (Pipeline.arrRef spec27 w) :=
  (W57_arr m c w).symm
theorem hrest27 (c : Dev nD) : ∀ b, b ∉ Finset.univ.image (Pipeline.arrRef spec27) → rd (W57 m) c b = rd (W56 m) c b :=
  fun b hb => W57_of_ne m c b fun w e => hb (Finset.mem_image.mpr ⟨w, Finset.mem_univ _, e⟩)
/-- A reference that is no OUTPUT array of region 27 keeps its contents: an input array is left as entered, a buffer
    that is no array of the region bypasses it. -/
theorem W57_keep (c : Dev nD) (b : Ref sig .tc) (hb : ∀ w, Pipeline.arrRef spec27 w = b → (cfg27.win w).isOut = false) :
    W57 m c (Proc.devRef .tc b) = W56 m c (Proc.devRef .tc b) := by
  by_cases h : ∃ w, Pipeline.arrRef spec27 w = b
  · obtain ⟨w, rfl⟩ := h
    exact (W57_arr m c w).trans (((dat27 (rd (W56 m)) c).arrAt_in w (hb w rfl) _).trans (A_eq27 (rd (W56 m)) c w))
  · exact W57_of_ne m c b fun w e => h ⟨w, e⟩
theorem W57_arg (c : Dev nD) {b : Ref sig .tc} (hb : b ∈ args) :
    W57 m c (Proc.devRef .tc b) = m ((c : Thread nD τ).loc b) :=
  (W57_keep m c b (args_in out27_ge hb)).trans (W56_arg m c hb)

/-- Every reference `hostOps28` writes has index twenty or more. -/
theorem hostOps28_ge : (hostOps28_W.all fun r => decide (20 ≤ r.idx.val)) = true := by decide
/-- After `hostOps28`. -/
abbrev W58 : Dev nD → Valuation τ sig (Elt F) := fun c => StableHlo.after hostOps28 (W57 m c)
theorem W58_keep (c : Dev nD) (b : Ref sig .tc) (h : b ∉ hostOps28_W) :
    W58 m c (Proc.devRef .tc b) = W57 m c (Proc.devRef .tc b) :=
  StableHlo.after_of_writes_sub hostOps28 _ hostOps28_writes h
theorem W58_arg (c : Dev nD) {b : Ref sig .tc} (hb : b ∈ args) :
    W58 m c (Proc.devRef .tc b) = m ((c : Thread nD τ).loc b) :=
  (W58_keep m c b (args_not_mem hostOps28_ge hb)).trans (W57_arg m c hb)

/-- Every output array of region 28 has index twenty or more. -/
theorem out28_ge : ∀ w, (cfg28.win w).isOut = true → 20 ≤ (Pipeline.arrRef spec28 w).idx.val := by decide
/-- At region 28's exit: its arrays at what the pipeline leaves, every other buffer as entered. -/
def W59 (c : Dev nD) : Valuation τ sig (Elt F) :=
  Pipeline.withArrays spec28 c (W58 m c) fun w => (dat28 (rd (W58 m)) c).arrAt w cfg28.N
theorem W59_arr (c : Dev nD) (w : Fin cfg28.W) :
    W59 m c (Proc.devRef .tc (Pipeline.arrRef spec28 w)) = (dat28 (rd (W58 m)) c).arrAt w cfg28.N := by
  unfold W59; exact Pipeline.withArrays_arr spec28 launch28.win.arr_inj c _ _ w
theorem W59_of_ne (c : Dev nD) (b : Ref sig .tc) (hb : ∀ w, Pipeline.arrRef spec28 w ≠ b) :
    W59 m c (Proc.devRef .tc b) = W58 m c (Proc.devRef .tc b) := by
  unfold W59; exact Pipeline.withArrays_of_ne spec28 c _ _ b hb
/-- At region 28's exit each of its arrays holds what the pipeline leaves (`hF28`) and every other buffer what it held
    at entry (`hrest28`). -/
theorem hF28 (c : Dev nD) (w : Fin cfg28.W) :
    (dat28 (rd (W58 m)) c).arrAt w cfg28.N = rd (W59 m) c (Pipeline.arrRef spec28 w) :=
  (W59_arr m c w).symm
theorem hrest28 (c : Dev nD) : ∀ b, b ∉ Finset.univ.image (Pipeline.arrRef spec28) → rd (W59 m) c b = rd (W58 m) c b :=
  fun b hb => W59_of_ne m c b fun w e => hb (Finset.mem_image.mpr ⟨w, Finset.mem_univ _, e⟩)
/-- A reference that is no OUTPUT array of region 28 keeps its contents: an input array is left as entered, a buffer
    that is no array of the region bypasses it. -/
theorem W59_keep (c : Dev nD) (b : Ref sig .tc) (hb : ∀ w, Pipeline.arrRef spec28 w = b → (cfg28.win w).isOut = false) :
    W59 m c (Proc.devRef .tc b) = W58 m c (Proc.devRef .tc b) := by
  by_cases h : ∃ w, Pipeline.arrRef spec28 w = b
  · obtain ⟨w, rfl⟩ := h
    exact (W59_arr m c w).trans (((dat28 (rd (W58 m)) c).arrAt_in w (hb w rfl) _).trans (A_eq28 (rd (W58 m)) c w))
  · exact W59_of_ne m c b fun w e => h ⟨w, e⟩
theorem W59_arg (c : Dev nD) {b : Ref sig .tc} (hb : b ∈ args) :
    W59 m c (Proc.devRef .tc b) = m ((c : Thread nD τ).loc b) :=
  (W59_keep m c b (args_in out28_ge hb)).trans (W58_arg m c hb)

/-- Every reference `hostOps29` writes has index twenty or more. -/
theorem hostOps29_ge : (hostOps29_W.all fun r => decide (20 ≤ r.idx.val)) = true := by decide
/-- After `hostOps29`. -/
abbrev W60 : Dev nD → Valuation τ sig (Elt F) := fun c => StableHlo.after hostOps29 (W59 m c)
theorem W60_keep (c : Dev nD) (b : Ref sig .tc) (h : b ∉ hostOps29_W) :
    W60 m c (Proc.devRef .tc b) = W59 m c (Proc.devRef .tc b) :=
  StableHlo.after_of_writes_sub hostOps29 _ hostOps29_writes h
theorem W60_arg (c : Dev nD) {b : Ref sig .tc} (hb : b ∈ args) :
    W60 m c (Proc.devRef .tc b) = m ((c : Thread nD τ).loc b) :=
  (W60_keep m c b (args_not_mem hostOps29_ge hb)).trans (W59_arg m c hb)

/-- Every output array of region 29 has index twenty or more. -/
theorem out29_ge : ∀ w, (cfg29.win w).isOut = true → 20 ≤ (Pipeline.arrRef spec29 w).idx.val := by decide
/-- At region 29's exit: its arrays at what the pipeline leaves, every other buffer as entered. -/
def W61 (c : Dev nD) : Valuation τ sig (Elt F) :=
  Pipeline.withArrays spec29 c (W60 m c) fun w => (dat29 (rd (W60 m)) c).arrAt w cfg29.N
theorem W61_arr (c : Dev nD) (w : Fin cfg29.W) :
    W61 m c (Proc.devRef .tc (Pipeline.arrRef spec29 w)) = (dat29 (rd (W60 m)) c).arrAt w cfg29.N := by
  unfold W61; exact Pipeline.withArrays_arr spec29 launch29.win.arr_inj c _ _ w
theorem W61_of_ne (c : Dev nD) (b : Ref sig .tc) (hb : ∀ w, Pipeline.arrRef spec29 w ≠ b) :
    W61 m c (Proc.devRef .tc b) = W60 m c (Proc.devRef .tc b) := by
  unfold W61; exact Pipeline.withArrays_of_ne spec29 c _ _ b hb
/-- At region 29's exit each of its arrays holds what the pipeline leaves (`hF29`) and every other buffer what it held
    at entry (`hrest29`). -/
theorem hF29 (c : Dev nD) (w : Fin cfg29.W) :
    (dat29 (rd (W60 m)) c).arrAt w cfg29.N = rd (W61 m) c (Pipeline.arrRef spec29 w) :=
  (W61_arr m c w).symm
theorem hrest29 (c : Dev nD) : ∀ b, b ∉ Finset.univ.image (Pipeline.arrRef spec29) → rd (W61 m) c b = rd (W60 m) c b :=
  fun b hb => W61_of_ne m c b fun w e => hb (Finset.mem_image.mpr ⟨w, Finset.mem_univ _, e⟩)
/-- A reference that is no OUTPUT array of region 29 keeps its contents: an input array is left as entered, a buffer
    that is no array of the region bypasses it. -/
theorem W61_keep (c : Dev nD) (b : Ref sig .tc) (hb : ∀ w, Pipeline.arrRef spec29 w = b → (cfg29.win w).isOut = false) :
    W61 m c (Proc.devRef .tc b) = W60 m c (Proc.devRef .tc b) := by
  by_cases h : ∃ w, Pipeline.arrRef spec29 w = b
  · obtain ⟨w, rfl⟩ := h
    exact (W61_arr m c w).trans (((dat29 (rd (W60 m)) c).arrAt_in w (hb w rfl) _).trans (A_eq29 (rd (W60 m)) c w))
  · exact W61_of_ne m c b fun w e => h ⟨w, e⟩
theorem W61_arg (c : Dev nD) {b : Ref sig .tc} (hb : b ∈ args) :
    W61 m c (Proc.devRef .tc b) = m ((c : Thread nD τ).loc b) :=
  (W61_keep m c b (args_in out29_ge hb)).trans (W60_arg m c hb)

/-- Every reference `hostOps30` writes has index twenty or more. -/
theorem hostOps30_ge : (hostOps30_W.all fun r => decide (20 ≤ r.idx.val)) = true := by decide
/-- After `hostOps30`. -/
abbrev W62 : Dev nD → Valuation τ sig (Elt F) := fun c => StableHlo.after hostOps30 (W61 m c)
theorem W62_keep (c : Dev nD) (b : Ref sig .tc) (h : b ∉ hostOps30_W) :
    W62 m c (Proc.devRef .tc b) = W61 m c (Proc.devRef .tc b) :=
  StableHlo.after_of_writes_sub hostOps30 _ hostOps30_writes h
theorem W62_arg (c : Dev nD) {b : Ref sig .tc} (hb : b ∈ args) :
    W62 m c (Proc.devRef .tc b) = m ((c : Thread nD τ).loc b) :=
  (W62_keep m c b (args_not_mem hostOps30_ge hb)).trans (W61_arg m c hb)

/-- Every output array of region 30 has index twenty or more. -/
theorem out30_ge : ∀ w, (cfg30.win w).isOut = true → 20 ≤ (Pipeline.arrRef spec30 w).idx.val := by decide
/-- At region 30's exit: its arrays at what the pipeline leaves, every other buffer as entered. -/
def W63 (c : Dev nD) : Valuation τ sig (Elt F) :=
  Pipeline.withArrays spec30 c (W62 m c) fun w => (dat30 (rd (W62 m)) c).arrAt w cfg30.N
theorem W63_arr (c : Dev nD) (w : Fin cfg30.W) :
    W63 m c (Proc.devRef .tc (Pipeline.arrRef spec30 w)) = (dat30 (rd (W62 m)) c).arrAt w cfg30.N := by
  unfold W63; exact Pipeline.withArrays_arr spec30 launch30.win.arr_inj c _ _ w
theorem W63_of_ne (c : Dev nD) (b : Ref sig .tc) (hb : ∀ w, Pipeline.arrRef spec30 w ≠ b) :
    W63 m c (Proc.devRef .tc b) = W62 m c (Proc.devRef .tc b) := by
  unfold W63; exact Pipeline.withArrays_of_ne spec30 c _ _ b hb
/-- At region 30's exit each of its arrays holds what the pipeline leaves (`hF30`) and every other buffer what it held
    at entry (`hrest30`). -/
theorem hF30 (c : Dev nD) (w : Fin cfg30.W) :
    (dat30 (rd (W62 m)) c).arrAt w cfg30.N = rd (W63 m) c (Pipeline.arrRef spec30 w) :=
  (W63_arr m c w).symm
theorem hrest30 (c : Dev nD) : ∀ b, b ∉ Finset.univ.image (Pipeline.arrRef spec30) → rd (W63 m) c b = rd (W62 m) c b :=
  fun b hb => W63_of_ne m c b fun w e => hb (Finset.mem_image.mpr ⟨w, Finset.mem_univ _, e⟩)
/-- A reference that is no OUTPUT array of region 30 keeps its contents: an input array is left as entered, a buffer
    that is no array of the region bypasses it. -/
theorem W63_keep (c : Dev nD) (b : Ref sig .tc) (hb : ∀ w, Pipeline.arrRef spec30 w = b → (cfg30.win w).isOut = false) :
    W63 m c (Proc.devRef .tc b) = W62 m c (Proc.devRef .tc b) := by
  by_cases h : ∃ w, Pipeline.arrRef spec30 w = b
  · obtain ⟨w, rfl⟩ := h
    exact (W63_arr m c w).trans (((dat30 (rd (W62 m)) c).arrAt_in w (hb w rfl) _).trans (A_eq30 (rd (W62 m)) c w))
  · exact W63_of_ne m c b fun w e => h ⟨w, e⟩
theorem W63_arg (c : Dev nD) {b : Ref sig .tc} (hb : b ∈ args) :
    W63 m c (Proc.devRef .tc b) = m ((c : Thread nD τ).loc b) :=
  (W63_keep m c b (args_in out30_ge hb)).trans (W62_arg m c hb)

/-- Every reference `hostOps31` writes has index twenty or more. -/
theorem hostOps31_ge : (hostOps31_W.all fun r => decide (20 ≤ r.idx.val)) = true := by decide
/-- After `hostOps31`. -/
abbrev W64 : Dev nD → Valuation τ sig (Elt F) := fun c => StableHlo.after hostOps31 (W63 m c)
theorem W64_keep (c : Dev nD) (b : Ref sig .tc) (h : b ∉ hostOps31_W) :
    W64 m c (Proc.devRef .tc b) = W63 m c (Proc.devRef .tc b) :=
  StableHlo.after_of_writes_sub hostOps31 _ hostOps31_writes h
theorem W64_arg (c : Dev nD) {b : Ref sig .tc} (hb : b ∈ args) :
    W64 m c (Proc.devRef .tc b) = m ((c : Thread nD τ).loc b) :=
  (W64_keep m c b (args_not_mem hostOps31_ge hb)).trans (W63_arg m c hb)

end Cert.Kernel.Reg

end
-- ==== Proof.KB.Chain.lean ====
-- laid out by: scratch/mkchain.js Chain proof/Proof/KI/Chain.lean
/- THE PROOF DATA FAMILY AND THE THREAD STATE of the kernel program's run. Every pipeline's proof data is taken at
   the contents its region is entered from (`pdats`); between two items a core's thread state is "every unscoped
   buffer at the boundary's contents, the generator register at some state, nothing owed" (`R` beside
   `StableHlo.held`); a stretch of host operations is a segment over that state (`hseg`); the last state, read at
   the return, is `Tₙ`. -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import proofs.«146967_j25786983645193_1_alg».proof.Proof.KB.ChainC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents — a literal `match`, so that the pinned
    configuration at a numeral reduces to the printed one. -/
def pdats : (p : Fin 31) → (c : Dev nD) → Dat τ (Elt F) Unit ℕ (UR sig nD τ) ℕ (Pipeline.pin (pcfgs (F := F)) adm p) c
  | ⟨0, _⟩ => fun c => dat0 (rd (W3 m)) c
  | ⟨1, _⟩ => fun c => dat1 (rd (W5 m)) c
  | ⟨2, _⟩ => fun c => dat2 (rd (W7 m)) c
  | ⟨3, _⟩ => fun c => dat3 (rd (W9 m)) c
  | ⟨4, _⟩ => fun c => dat4 (rd (W11 m)) c
  | ⟨5, _⟩ => fun c => dat5 (rd (W13 m)) c
  | ⟨6, _⟩ => fun c => dat6 (rd (W15 m)) c
  | ⟨7, _⟩ => fun c => dat7 (rd (W17 m)) c
  | ⟨8, _⟩ => fun c => dat8 (rd (W19 m)) c
  | ⟨9, _⟩ => fun c => dat9 (rd (W20 m)) c
  | ⟨10, _⟩ => fun c => dat10 (rd (W22 m)) c
  | ⟨11, _⟩ => fun c => dat11 (rd (W24 m)) c
  | ⟨12, _⟩ => fun c => dat12 (rd (W26 m)) c
  | ⟨13, _⟩ => fun c => dat13 (rd (W28 m)) c
  | ⟨14, _⟩ => fun c => dat14 (rd (W30 m)) c
  | ⟨15, _⟩ => fun c => dat15 (rd (W32 m)) c
  | ⟨16, _⟩ => fun c => dat16 (rd (W34 m)) c
  | ⟨17, _⟩ => fun c => dat17 (rd (W36 m)) c
  | ⟨18, _⟩ => fun c => dat18 (rd (W38 m)) c
  | ⟨19, _⟩ => fun c => dat19 (rd (W40 m)) c
  | ⟨20, _⟩ => fun c => dat20 (rd (W42 m)) c
  | ⟨21, _⟩ => fun c => dat21 (rd (W44 m)) c
  | ⟨22, _⟩ => fun c => dat22 (rd (W46 m)) c
  | ⟨23, _⟩ => fun c => dat23 (rd (W48 m)) c
  | ⟨24, _⟩ => fun c => dat24 (rd (W50 m)) c
  | ⟨25, _⟩ => fun c => dat25 (rd (W52 m)) c
  | ⟨26, _⟩ => fun c => dat26 (rd (W54 m)) c
  | ⟨27, _⟩ => fun c => dat27 (rd (W56 m)) c
  | ⟨28, _⟩ => fun c => dat28 (rd (W58 m)) c
  | ⟨29, _⟩ => fun c => dat29 (rd (W60 m)) c
  | ⟨30, _⟩ => fun c => dat30 (rd (W62 m)) c
  | ⟨_ + 31, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it is left at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W64 m c) ∗ ∃ r, prngReg c r)

end Cert.Kernel.Reg

end
-- ==== Proof.KB.Seg0.lean ====
/- REGION 0 of the kernel program as a segment of @main's run, at any float interpretation. Between two items of @main a
   core's thread state is "every unscoped buffer whole at the boundary's contents, the generator register at some
   state, nothing owed". The region is entered from that state at the contents `W3` and left in it at `W4`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered from every unscoped buffer at `W3`, left at `W4`. -/
def reg0 : Pipeline.RegionSeg (pcfgs (F := F)) adm (pdats m) () defs₀ 𝒱₀ L lv /-#K-/0/-#-/ where
  win := launch0.win.to₀
  block_pos := launch0.block_pos
  stage_whole := launch0.stage_whole
  K := PEmpty
  osem k := k.elim
  ho := Pipeline.OwnSemFacts.none _
  hbody c := (body_obligation0 (rd (W3 m)) c).loose
  hwaits := Pipeline.hwaits_of_owed_zero _ _ _ _ L lv /-#K-/0/-#-/ fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (rd (W3 m) c)
  hentry c := by
    rw [Pipeline.ownSems0_none]
    have hsplit := Pipeline.arrays_of_unscopedBufs (p := /-#K-/0/-#-/) (pcfgs (F := F)) adm (pdats m) launch0.win launch0.arr_whole c
      ((pdats m /-#K-/0/-#-/ c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/0/-#-/ c).Φ 0 = Pipeline.ΦA spec0 c from rfl]; unfold Pipeline.ΦA
    iintro ⟨Hp, -, Hr⟩
    isplitl [Hr]; · iexact Hr
    iexact Hp
  hout c := by
    rw [Pipeline.ownSems0_none, show (pdats m /-#K-/0/-#-/ c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := /-#K-/0/-#-/) (pcfgs (F := F)) adm (Ix := Unit) (Name := ℕ) (U := UR sig nD τ) (Lvl := ℕ)
      launch0.win launch0.arr_whole c (pdats m) ((pdats m /-#K-/0/-#-/ c).share_full fun _ => rfl)
      (rd (W3 m) c) (rd (W4 m) c) ((pdats m /-#K-/0/-#-/ c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg1.lean ====
/- REGION 1 of the kernel program as a segment of @main's run, at any float interpretation. Between two items of @main a
   core's thread state is "every unscoped buffer whole at the boundary's contents, the generator register at some
   state, nothing owed". The region is entered from that state at the contents `W5` and left in it at `W6`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 1 over the thread state: entered from every unscoped buffer at `W5`, left at `W6`. -/
def reg1 : Pipeline.RegionSeg (pcfgs (F := F)) adm (pdats m) () defs₀ 𝒱₀ L lv /-#K-/1/-#-/ where
  win := launch1.win.to₀
  block_pos := launch1.block_pos
  stage_whole := launch1.stage_whole
  K := PEmpty
  osem k := k.elim
  ho := Pipeline.OwnSemFacts.none _
  hbody c := (body_obligation1 (rd (W5 m)) c).loose
  hwaits := Pipeline.hwaits_of_owed_zero _ _ _ _ L lv /-#K-/1/-#-/ fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (rd (W5 m) c)
  hentry c := by
    rw [Pipeline.ownSems0_none]
    have hsplit := Pipeline.arrays_of_unscopedBufs (p := /-#K-/1/-#-/) (pcfgs (F := F)) adm (pdats m) launch1.win launch1.arr_whole c
      ((pdats m /-#K-/1/-#-/ c).share_full fun _ => rfl) (rd (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/1/-#-/ c).Φ 0 = Pipeline.ΦA spec1 c from rfl]; unfold Pipeline.ΦA
    iintro ⟨Hp, -, Hr⟩
    isplitl [Hr]; · iexact Hr
    iexact Hp
  hout c := by
    rw [Pipeline.ownSems0_none, show (pdats m /-#K-/1/-#-/ c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := /-#K-/1/-#-/) (pcfgs (F := F)) adm (Ix := Unit) (Name := ℕ) (U := UR sig nD τ) (Lvl := ℕ)
      launch1.win launch1.arr_whole c (pdats m) ((pdats m /-#K-/1/-#-/ c).share_full fun _ => rfl)
      (rd (W5 m) c) (rd (W6 m) c) ((pdats m /-#K-/1/-#-/ c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg2.lean ====
/- REGION 2 of the kernel program as a segment of @main's run, at any float interpretation. Between two items of @main a
   core's thread state is "every unscoped buffer whole at the boundary's contents, the generator register at some
   state, nothing owed". The region is entered from that state at the contents `W7` and left in it at `W8`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 2 over the thread state: entered from every unscoped buffer at `W7`, left at `W8`. -/
def reg2 : Pipeline.RegionSeg (pcfgs (F := F)) adm (pdats m) () defs₀ 𝒱₀ L lv /-#K-/2/-#-/ where
  win := launch2.win.to₀
  block_pos := launch2.block_pos
  stage_whole := launch2.stage_whole
  K := PEmpty
  osem k := k.elim
  ho := Pipeline.OwnSemFacts.none _
  hbody c := (body_obligation2 (rd (W7 m)) c).loose
  hwaits := Pipeline.hwaits_of_owed_zero _ _ _ _ L lv /-#K-/2/-#-/ fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (rd (W7 m) c)
  hentry c := by
    rw [Pipeline.ownSems0_none]
    have hsplit := Pipeline.arrays_of_unscopedBufs (p := /-#K-/2/-#-/) (pcfgs (F := F)) adm (pdats m) launch2.win launch2.arr_whole c
      ((pdats m /-#K-/2/-#-/ c).share_full fun _ => rfl) (rd (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/2/-#-/ c).Φ 0 = Pipeline.ΦA spec2 c from rfl]; unfold Pipeline.ΦA
    iintro ⟨Hp, -, Hr⟩
    isplitl [Hr]; · iexact Hr
    iexact Hp
  hout c := by
    rw [Pipeline.ownSems0_none, show (pdats m /-#K-/2/-#-/ c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := /-#K-/2/-#-/) (pcfgs (F := F)) adm (Ix := Unit) (Name := ℕ) (U := UR sig nD τ) (Lvl := ℕ)
      launch2.win launch2.arr_whole c (pdats m) ((pdats m /-#K-/2/-#-/ c).share_full fun _ => rfl)
      (rd (W7 m) c) (rd (W8 m) c) ((pdats m /-#K-/2/-#-/ c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg3.lean ====
/- REGION 3 of the kernel program as a segment of @main's run, at any float interpretation. Between two items of @main a
   core's thread state is "every unscoped buffer whole at the boundary's contents, the generator register at some
   state, nothing owed". The region is entered from that state at the contents `W9` and left in it at `W10`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 3 over the thread state: entered from every unscoped buffer at `W9`, left at `W10`. -/
def reg3 : Pipeline.RegionSeg (pcfgs (F := F)) adm (pdats m) () defs₀ 𝒱₀ L lv /-#K-/3/-#-/ where
  win := launch3.win.to₀
  block_pos := launch3.block_pos
  stage_whole := launch3.stage_whole
  K := PEmpty
  osem k := k.elim
  ho := Pipeline.OwnSemFacts.none _
  hbody c := (body_obligation3 (rd (W9 m)) c).loose
  hwaits := Pipeline.hwaits_of_owed_zero _ _ _ _ L lv /-#K-/3/-#-/ fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (rd (W9 m) c)
  hentry c := by
    rw [Pipeline.ownSems0_none]
    have hsplit := Pipeline.arrays_of_unscopedBufs (p := /-#K-/3/-#-/) (pcfgs (F := F)) adm (pdats m) launch3.win launch3.arr_whole c
      ((pdats m /-#K-/3/-#-/ c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/3/-#-/ c).Φ 0 = Pipeline.ΦA spec3 c from rfl]; unfold Pipeline.ΦA
    iintro ⟨Hp, -, Hr⟩
    isplitl [Hr]; · iexact Hr
    iexact Hp
  hout c := by
    rw [Pipeline.ownSems0_none, show (pdats m /-#K-/3/-#-/ c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := /-#K-/3/-#-/) (pcfgs (F := F)) adm (Ix := Unit) (Name := ℕ) (U := UR sig nD τ) (Lvl := ℕ)
      launch3.win launch3.arr_whole c (pdats m) ((pdats m /-#K-/3/-#-/ c).share_full fun _ => rfl)
      (rd (W9 m) c) (rd (W10 m) c) ((pdats m /-#K-/3/-#-/ c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg4.lean ====
/- REGION 4 of the kernel program as a segment of @main's run, at any float interpretation. Between two items of @main a
   core's thread state is "every unscoped buffer whole at the boundary's contents, the generator register at some
   state, nothing owed". The region is entered from that state at the contents `W11` and left in it at `W12`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 4 over the thread state: entered from every unscoped buffer at `W11`, left at `W12`. -/
def reg4 : Pipeline.RegionSeg (pcfgs (F := F)) adm (pdats m) () defs₀ 𝒱₀ L lv /-#K-/4/-#-/ where
  win := launch4.win.to₀
  block_pos := launch4.block_pos
  stage_whole := launch4.stage_whole
  K := PEmpty
  osem k := k.elim
  ho := Pipeline.OwnSemFacts.none _
  hbody c := (body_obligation4 (rd (W11 m)) c).loose
  hwaits := Pipeline.hwaits_of_owed_zero _ _ _ _ L lv /-#K-/4/-#-/ fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (rd (W11 m) c)
  hentry c := by
    rw [Pipeline.ownSems0_none]
    have hsplit := Pipeline.arrays_of_unscopedBufs (p := /-#K-/4/-#-/) (pcfgs (F := F)) adm (pdats m) launch4.win launch4.arr_whole c
      ((pdats m /-#K-/4/-#-/ c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/4/-#-/ c).Φ 0 = Pipeline.ΦA spec4 c from rfl]; unfold Pipeline.ΦA
    iintro ⟨Hp, -, Hr⟩
    isplitl [Hr]; · iexact Hr
    iexact Hp
  hout c := by
    rw [Pipeline.ownSems0_none, show (pdats m /-#K-/4/-#-/ c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := /-#K-/4/-#-/) (pcfgs (F := F)) adm (Ix := Unit) (Name := ℕ) (U := UR sig nD τ) (Lvl := ℕ)
      launch4.win launch4.arr_whole c (pdats m) ((pdats m /-#K-/4/-#-/ c).share_full fun _ => rfl)
      (rd (W11 m) c) (rd (W12 m) c) ((pdats m /-#K-/4/-#-/ c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg5.lean ====
/- REGION 5 of the kernel program as a segment of @main's run, at any float interpretation. Between two items of @main a
   core's thread state is "every unscoped buffer whole at the boundary's contents, the generator register at some
   state, nothing owed". The region is entered from that state at the contents `W13` and left in it at `W14`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 5 over the thread state: entered from every unscoped buffer at `W13`, left at `W14`. -/
def reg5 : Pipeline.RegionSeg (pcfgs (F := F)) adm (pdats m) () defs₀ 𝒱₀ L lv /-#K-/5/-#-/ where
  win := launch5.win.to₀
  block_pos := launch5.block_pos
  stage_whole := launch5.stage_whole
  K := PEmpty
  osem k := k.elim
  ho := Pipeline.OwnSemFacts.none _
  hbody c := (body_obligation5 (rd (W13 m)) c).loose
  hwaits := Pipeline.hwaits_of_owed_zero _ _ _ _ L lv /-#K-/5/-#-/ fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (rd (W13 m) c)
  hentry c := by
    rw [Pipeline.ownSems0_none]
    have hsplit := Pipeline.arrays_of_unscopedBufs (p := /-#K-/5/-#-/) (pcfgs (F := F)) adm (pdats m) launch5.win launch5.arr_whole c
      ((pdats m /-#K-/5/-#-/ c).share_full fun _ => rfl) (rd (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/5/-#-/ c).Φ 0 = Pipeline.ΦA spec5 c from rfl]; unfold Pipeline.ΦA
    iintro ⟨Hp, -, Hr⟩
    isplitl [Hr]; · iexact Hr
    iexact Hp
  hout c := by
    rw [Pipeline.ownSems0_none, show (pdats m /-#K-/5/-#-/ c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := /-#K-/5/-#-/) (pcfgs (F := F)) adm (Ix := Unit) (Name := ℕ) (U := UR sig nD τ) (Lvl := ℕ)
      launch5.win launch5.arr_whole c (pdats m) ((pdats m /-#K-/5/-#-/ c).share_full fun _ => rfl)
      (rd (W13 m) c) (rd (W14 m) c) ((pdats m /-#K-/5/-#-/ c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg6.lean ====
/- REGION 6 of the kernel program as a segment of @main's run, at any float interpretation. Between two items of @main a
   core's thread state is "every unscoped buffer whole at the boundary's contents, the generator register at some
   state, nothing owed". The region is entered from that state at the contents `W15` and left in it at `W16`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 6 over the thread state: entered from every unscoped buffer at `W15`, left at `W16`. -/
def reg6 : Pipeline.RegionSeg (pcfgs (F := F)) adm (pdats m) () defs₀ 𝒱₀ L lv /-#K-/6/-#-/ where
  win := launch6.win.to₀
  block_pos := launch6.block_pos
  stage_whole := launch6.stage_whole
  K := PEmpty
  osem k := k.elim
  ho := Pipeline.OwnSemFacts.none _
  hbody c := (body_obligation6 (rd (W15 m)) c).loose
  hwaits := Pipeline.hwaits_of_owed_zero _ _ _ _ L lv /-#K-/6/-#-/ fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec6 c (rd (W15 m) c)
  hentry c := by
    rw [Pipeline.ownSems0_none]
    have hsplit := Pipeline.arrays_of_unscopedBufs (p := /-#K-/6/-#-/) (pcfgs (F := F)) adm (pdats m) launch6.win launch6.arr_whole c
      ((pdats m /-#K-/6/-#-/ c).share_full fun _ => rfl) (rd (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/6/-#-/ c).Φ 0 = Pipeline.ΦA spec6 c from rfl]; unfold Pipeline.ΦA
    iintro ⟨Hp, -, Hr⟩
    isplitl [Hr]; · iexact Hr
    iexact Hp
  hout c := by
    rw [Pipeline.ownSems0_none, show (pdats m /-#K-/6/-#-/ c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := /-#K-/6/-#-/) (pcfgs (F := F)) adm (Ix := Unit) (Name := ℕ) (U := UR sig nD τ) (Lvl := ℕ)
      launch6.win launch6.arr_whole c (pdats m) ((pdats m /-#K-/6/-#-/ c).share_full fun _ => rfl)
      (rd (W15 m) c) (rd (W16 m) c) ((pdats m /-#K-/6/-#-/ c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg7.lean ====
/- REGION 7 of the kernel program as a segment of @main's run, at any float interpretation. Between two items of @main a
   core's thread state is "every unscoped buffer whole at the boundary's contents, the generator register at some
   state, nothing owed". The region is entered from that state at the contents `W17` and left in it at `W18`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 7 over the thread state: entered from every unscoped buffer at `W17`, left at `W18`. -/
def reg7 : Pipeline.RegionSeg (pcfgs (F := F)) adm (pdats m) () defs₀ 𝒱₀ L lv /-#K-/7/-#-/ where
  win := launch7.win.to₀
  block_pos := launch7.block_pos
  stage_whole := launch7.stage_whole
  K := PEmpty
  osem k := k.elim
  ho := Pipeline.OwnSemFacts.none _
  hbody c := (body_obligation7 (rd (W17 m)) c).loose
  hwaits := Pipeline.hwaits_of_owed_zero _ _ _ _ L lv /-#K-/7/-#-/ fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec7 c (rd (W17 m) c)
  hentry c := by
    rw [Pipeline.ownSems0_none]
    have hsplit := Pipeline.arrays_of_unscopedBufs (p := /-#K-/7/-#-/) (pcfgs (F := F)) adm (pdats m) launch7.win launch7.arr_whole c
      ((pdats m /-#K-/7/-#-/ c).share_full fun _ => rfl) (rd (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/7/-#-/ c).Φ 0 = Pipeline.ΦA spec7 c from rfl]; unfold Pipeline.ΦA
    iintro ⟨Hp, -, Hr⟩
    isplitl [Hr]; · iexact Hr
    iexact Hp
  hout c := by
    rw [Pipeline.ownSems0_none, show (pdats m /-#K-/7/-#-/ c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := /-#K-/7/-#-/) (pcfgs (F := F)) adm (Ix := Unit) (Name := ℕ) (U := UR sig nD τ) (Lvl := ℕ)
      launch7.win launch7.arr_whole c (pdats m) ((pdats m /-#K-/7/-#-/ c).share_full fun _ => rfl)
      (rd (W17 m) c) (rd (W18 m) c) ((pdats m /-#K-/7/-#-/ c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg8.lean ====
/- REGION 8 of the kernel program as a segment of @main's run, at any float interpretation. Between two items of @main a
   core's thread state is "every unscoped buffer whole at the boundary's contents, the generator register at some
   state, nothing owed". The region is entered from that state at the contents `W19` and left in it at `W20`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 8 over the thread state: entered from every unscoped buffer at `W19`, left at `W20`. -/
def reg8 : Pipeline.RegionSeg (pcfgs (F := F)) adm (pdats m) () defs₀ 𝒱₀ L lv /-#K-/8/-#-/ where
  win := launch8.win.to₀
  block_pos := launch8.block_pos
  stage_whole := launch8.stage_whole
  K := PEmpty
  osem k := k.elim
  ho := Pipeline.OwnSemFacts.none _
  hbody c := (body_obligation8 (rd (W19 m)) c).loose
  hwaits := Pipeline.hwaits_of_owed_zero _ _ _ _ L lv /-#K-/8/-#-/ fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec8 c (rd (W19 m) c)
  hentry c := by
    rw [Pipeline.ownSems0_none]
    have hsplit := Pipeline.arrays_of_unscopedBufs (p := /-#K-/8/-#-/) (pcfgs (F := F)) adm (pdats m) launch8.win launch8.arr_whole c
      ((pdats m /-#K-/8/-#-/ c).share_full fun _ => rfl) (rd (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/8/-#-/ c).Φ 0 = Pipeline.ΦA spec8 c from rfl]; unfold Pipeline.ΦA
    iintro ⟨Hp, -, Hr⟩
    isplitl [Hr]; · iexact Hr
    iexact Hp
  hout c := by
    rw [Pipeline.ownSems0_none, show (pdats m /-#K-/8/-#-/ c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := /-#K-/8/-#-/) (pcfgs (F := F)) adm (Ix := Unit) (Name := ℕ) (U := UR sig nD τ) (Lvl := ℕ)
      launch8.win launch8.arr_whole c (pdats m) ((pdats m /-#K-/8/-#-/ c).share_full fun _ => rfl)
      (rd (W19 m) c) (rd (W20 m) c) ((pdats m /-#K-/8/-#-/ c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg9.lean ====
/- REGION 9 of the kernel program as a segment of @main's run, at any float interpretation. Between two items of @main a
   core's thread state is "every unscoped buffer whole at the boundary's contents, the generator register at some
   state, nothing owed". The region is entered from that state at the contents `W20` and left in it at `W21`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 9 over the thread state: entered from every unscoped buffer at `W20`, left at `W21`. -/
def reg9 : Pipeline.RegionSeg (pcfgs (F := F)) adm (pdats m) () defs₀ 𝒱₀ L lv /-#K-/9/-#-/ where
  win := launch9.win.to₀
  block_pos := launch9.block_pos
  stage_whole := launch9.stage_whole
  K := PEmpty
  osem k := k.elim
  ho := Pipeline.OwnSemFacts.none _
  hbody c := (body_obligation9 (rd (W20 m)) c).loose
  hwaits := Pipeline.hwaits_of_owed_zero _ _ _ _ L lv /-#K-/9/-#-/ fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec9 c (rd (W20 m) c)
  hentry c := by
    rw [Pipeline.ownSems0_none]
    have hsplit := Pipeline.arrays_of_unscopedBufs (p := /-#K-/9/-#-/) (pcfgs (F := F)) adm (pdats m) launch9.win launch9.arr_whole c
      ((pdats m /-#K-/9/-#-/ c).share_full fun _ => rfl) (rd (W20 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/9/-#-/ c).Φ 0 = Pipeline.ΦA spec9 c from rfl]; unfold Pipeline.ΦA
    iintro ⟨Hp, -, Hr⟩
    isplitl [Hr]; · iexact Hr
    iexact Hp
  hout c := by
    rw [Pipeline.ownSems0_none, show (pdats m /-#K-/9/-#-/ c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := /-#K-/9/-#-/) (pcfgs (F := F)) adm (Ix := Unit) (Name := ℕ) (U := UR sig nD τ) (Lvl := ℕ)
      launch9.win launch9.arr_whole c (pdats m) ((pdats m /-#K-/9/-#-/ c).share_full fun _ => rfl)
      (rd (W20 m) c) (rd (W21 m) c) ((pdats m /-#K-/9/-#-/ c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg10.lean ====
/- REGION 10 of the kernel program as a segment of @main's run, at any float interpretation. Between two items of @main a
   core's thread state is "every unscoped buffer whole at the boundary's contents, the generator register at some
   state, nothing owed". The region is entered from that state at the contents `W22` and left in it at `W23`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 10 over the thread state: entered from every unscoped buffer at `W22`, left at `W23`. -/
def reg10 : Pipeline.RegionSeg (pcfgs (F := F)) adm (pdats m) () defs₀ 𝒱₀ L lv /-#K-/10/-#-/ where
  win := launch10.win.to₀
  block_pos := launch10.block_pos
  stage_whole := launch10.stage_whole
  K := PEmpty
  osem k := k.elim
  ho := Pipeline.OwnSemFacts.none _
  hbody c := (body_obligation10 (rd (W22 m)) c).loose
  hwaits := Pipeline.hwaits_of_owed_zero _ _ _ _ L lv /-#K-/10/-#-/ fun _ _ => rfl
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec10 c (rd (W22 m) c)
  hentry c := by
    rw [Pipeline.ownSems0_none]
    have hsplit := Pipeline.arrays_of_unscopedBufs (p := /-#K-/10/-#-/) (pcfgs (F := F)) adm (pdats m) launch10.win launch10.arr_whole c
      ((pdats m /-#K-/10/-#-/ c).share_full fun _ => rfl) (rd (W22 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/10/-#-/ c).Φ 0 = Pipeline.ΦA spec10 c from rfl]; unfold Pipeline.ΦA
    iintro ⟨Hp, -, Hr⟩
    isplitl [Hr]; · iexact Hr
    iexact Hp
  hout c := by
    rw [Pipeline.ownSems0_none, show (pdats m /-#K-/10/-#-/ c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := /-#K-/10/-#-/) (pcfgs (F := F)) adm (Ix := Unit) (Name := ℕ) (U := UR sig nD τ) (Lvl := ℕ)
      launch10.win launch10.arr_whole c (pdats m) ((pdats m /-#K-/10/-#-/ c).share_full fun _ => rfl)
      (rd (W22 m) c) (rd (W23 m) c) ((pdats m /-#K-/10/-#-/ c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg11.lean ====
/- REGION 11 of the kernel program as a segment of @main's run, at any float interpretation. Between two items of @main a
   core's thread state is "every unscoped buffer whole at the boundary's contents, the generator register at some
   state, nothing owed". The region is entered from that state at the contents `W24` and left in it at `W25`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 11 over the thread state: entered from every unscoped buffer at `W24`, left at `W25`. -/
def reg11 : Pipeline.RegionSeg (pcfgs (F := F)) adm (pdats m) () defs₀ 𝒱₀ L lv /-#K-/11/-#-/ where
  win := launch11.win.to₀
  block_pos := launch11.block_pos
  stage_whole := launch11.stage_whole
  K := PEmpty
  osem k := k.elim
  ho := Pipeline.OwnSemFacts.none _
  hbody c := (body_obligation11 (rd (W24 m)) c).loose
  hwaits := Pipeline.hwaits_of_owed_zero _ _ _ _ L lv /-#K-/11/-#-/ fun _ _ => rfl
  pre c := iprop(StableHlo.held (c : Thread nD τ) (Pipeline.ucRefs τ sig) (W24 m c) ∗ R c)
  post c := iprop(StableHlo.held (c : Thread nD τ) (Pipeline.ucRefs τ sig) (W25 m c) ∗ R c)
  X c := iprop(∃ r, prngReg c r)
  Y c := iprop(∃ r, prngReg c r)
  Z c := Pipeline.unscopedRest (Ix := Unit) (Name := ℕ) (U := UR sig nD τ) (Lvl := ℕ) spec11 c (rd (W24 m) c)
  hentry c := by
    rw [Pipeline.ownSems0_none]
    have hsplit := Pipeline.arrays_of_unscopedBufs (p := /-#K-/11/-#-/) (pcfgs (F := F)) adm (pdats m) launch11.win launch11.arr_whole c
      ((pdats m /-#K-/11/-#-/ c).share_full fun _ => rfl) (rd (W24 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/11/-#-/ c).Φ 0 = Pipeline.ΦA spec11 c from rfl]; unfold Pipeline.ΦA
    iintro ⟨Hp, -, Hr⟩
    isplitl [Hr]; · iexact Hr
    iexact Hp
  hout c := by
    rw [Pipeline.ownSems0_none, show (pdats m /-#K-/11/-#-/ c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := /-#K-/11/-#-/) (pcfgs (F := F)) adm (Ix := Unit) (Name := ℕ) (U := UR sig nD τ) (Lvl := ℕ)
      launch11.win launch11.arr_whole c (pdats m) ((pdats m /-#K-/11/-#-/ c).share_full fun _ => rfl)
      (rd (W24 m) c) (rd (W25 m) c) ((pdats m /-#K-/11/-#-/ c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg12.lean ====
/- REGION 12 of the kernel program as a segment of @main's run, at any float interpretation. Between two items of @main a
   core's thread state is "every unscoped buffer whole at the boundary's contents, the generator register at some
   state, nothing owed". The region is entered from that state at the contents `W26` and left in it at `W27`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 12 over the thread state: entered from every unscoped buffer at `W26`, left at `W27`. -/
def reg12 : Pipeline.RegionSeg (pcfgs (F := F)) adm (pdats m) () defs₀ 𝒱₀ L lv /-#K-/12/-#-/ where
  win := launch12.win.to₀
  block_pos := launch12.block_pos
  stage_whole := launch12.stage_whole
  K := PEmpty
  osem k := k.elim
  ho := Pipeline.OwnSemFacts.none _
  hbody c := (body_obligation12 (rd (W26 m)) c).loose
  hwaits := Pipeline.hwaits_of_owed_zero _ _ _ _ L lv /-#K-/12/-#-/ fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec12 c (rd (W26 m) c)
  hentry c := by
    rw [Pipeline.ownSems0_none]
    have hsplit := Pipeline.arrays_of_unscopedBufs (p := /-#K-/12/-#-/) (pcfgs (F := F)) adm (pdats m) launch12.win launch12.arr_whole c
      ((pdats m /-#K-/12/-#-/ c).share_full fun _ => rfl) (rd (W26 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/12/-#-/ c).Φ 0 = Pipeline.ΦA spec12 c from rfl]; unfold Pipeline.ΦA
    iintro ⟨Hp, -, Hr⟩
    isplitl [Hr]; · iexact Hr
    iexact Hp
  hout c := by
    rw [Pipeline.ownSems0_none, show (pdats m /-#K-/12/-#-/ c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := /-#K-/12/-#-/) (pcfgs (F := F)) adm (Ix := Unit) (Name := ℕ) (U := UR sig nD τ) (Lvl := ℕ)
      launch12.win launch12.arr_whole c (pdats m) ((pdats m /-#K-/12/-#-/ c).share_full fun _ => rfl)
      (rd (W26 m) c) (rd (W27 m) c) ((pdats m /-#K-/12/-#-/ c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg13.lean ====
/- REGION 13 of the kernel program as a segment of @main's run, at any float interpretation. Between two items of @main a
   core's thread state is "every unscoped buffer whole at the boundary's contents, the generator register at some
   state, nothing owed". The region is entered from that state at the contents `W28` and left in it at `W29`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 13 over the thread state: entered from every unscoped buffer at `W28`, left at `W29`. -/
def reg13 : Pipeline.RegionSeg (pcfgs (F := F)) adm (pdats m) () defs₀ 𝒱₀ L lv /-#K-/13/-#-/ where
  win := launch13.win.to₀
  block_pos := launch13.block_pos
  stage_whole := launch13.stage_whole
  K := PEmpty
  osem k := k.elim
  ho := Pipeline.OwnSemFacts.none _
  hbody c := (body_obligation13 (rd (W28 m)) c).loose
  hwaits := Pipeline.hwaits_of_owed_zero _ _ _ _ L lv /-#K-/13/-#-/ fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec13 c (rd (W28 m) c)
  hentry c := by
    rw [Pipeline.ownSems0_none]
    have hsplit := Pipeline.arrays_of_unscopedBufs (p := /-#K-/13/-#-/) (pcfgs (F := F)) adm (pdats m) launch13.win launch13.arr_whole c
      ((pdats m /-#K-/13/-#-/ c).share_full fun _ => rfl) (rd (W28 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/13/-#-/ c).Φ 0 = Pipeline.ΦA spec13 c from rfl]; unfold Pipeline.ΦA
    iintro ⟨Hp, -, Hr⟩
    isplitl [Hr]; · iexact Hr
    iexact Hp
  hout c := by
    rw [Pipeline.ownSems0_none, show (pdats m /-#K-/13/-#-/ c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := /-#K-/13/-#-/) (pcfgs (F := F)) adm (Ix := Unit) (Name := ℕ) (U := UR sig nD τ) (Lvl := ℕ)
      launch13.win launch13.arr_whole c (pdats m) ((pdats m /-#K-/13/-#-/ c).share_full fun _ => rfl)
      (rd (W28 m) c) (rd (W29 m) c) ((pdats m /-#K-/13/-#-/ c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg14.lean ====
/- REGION 14 of the kernel program as a segment of @main's run, at any float interpretation. Between two items of @main a
   core's thread state is "every unscoped buffer whole at the boundary's contents, the generator register at some
   state, nothing owed". The region is entered from that state at the contents `W30` and left in it at `W31`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 14 over the thread state: entered from every unscoped buffer at `W30`, left at `W31`. -/
def reg14 : Pipeline.RegionSeg (pcfgs (F := F)) adm (pdats m) () defs₀ 𝒱₀ L lv /-#K-/14/-#-/ where
  win := launch14.win.to₀
  block_pos := launch14.block_pos
  stage_whole := launch14.stage_whole
  K := PEmpty
  osem k := k.elim
  ho := Pipeline.OwnSemFacts.none _
  hbody c := (body_obligation14 (rd (W30 m)) c).loose
  hwaits := Pipeline.hwaits_of_owed_zero _ _ _ _ L lv /-#K-/14/-#-/ fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec14 c (rd (W30 m) c)
  hentry c := by
    rw [Pipeline.ownSems0_none]
    have hsplit := Pipeline.arrays_of_unscopedBufs (p := /-#K-/14/-#-/) (pcfgs (F := F)) adm (pdats m) launch14.win launch14.arr_whole c
      ((pdats m /-#K-/14/-#-/ c).share_full fun _ => rfl) (rd (W30 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/14/-#-/ c).Φ 0 = Pipeline.ΦA spec14 c from rfl]; unfold Pipeline.ΦA
    iintro ⟨Hp, -, Hr⟩
    isplitl [Hr]; · iexact Hr
    iexact Hp
  hout c := by
    rw [Pipeline.ownSems0_none, show (pdats m /-#K-/14/-#-/ c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := /-#K-/14/-#-/) (pcfgs (F := F)) adm (Ix := Unit) (Name := ℕ) (U := UR sig nD τ) (Lvl := ℕ)
      launch14.win launch14.arr_whole c (pdats m) ((pdats m /-#K-/14/-#-/ c).share_full fun _ => rfl)
      (rd (W30 m) c) (rd (W31 m) c) ((pdats m /-#K-/14/-#-/ c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg15.lean ====
/- REGION 15 of the kernel program as a segment of @main's run, at any float interpretation. Between two items of @main a
   core's thread state is "every unscoped buffer whole at the boundary's contents, the generator register at some
   state, nothing owed". The region is entered from that state at the contents `W32` and left in it at `W33`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 15 over the thread state: entered from every unscoped buffer at `W32`, left at `W33`. -/
def reg15 : Pipeline.RegionSeg (pcfgs (F := F)) adm (pdats m) () defs₀ 𝒱₀ L lv /-#K-/15/-#-/ where
  win := launch15.win.to₀
  block_pos := launch15.block_pos
  stage_whole := launch15.stage_whole
  K := PEmpty
  osem k := k.elim
  ho := Pipeline.OwnSemFacts.none _
  hbody c := (body_obligation15 (rd (W32 m)) c).loose
  hwaits := Pipeline.hwaits_of_owed_zero _ _ _ _ L lv /-#K-/15/-#-/ fun _ _ => rfl
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec15 c (rd (W32 m) c)
  hentry c := by
    rw [Pipeline.ownSems0_none]
    have hsplit := Pipeline.arrays_of_unscopedBufs (p := /-#K-/15/-#-/) (pcfgs (F := F)) adm (pdats m) launch15.win launch15.arr_whole c
      ((pdats m /-#K-/15/-#-/ c).share_full fun _ => rfl) (rd (W32 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/15/-#-/ c).Φ 0 = Pipeline.ΦA spec15 c from rfl]; unfold Pipeline.ΦA
    iintro ⟨Hp, -, Hr⟩
    isplitl [Hr]; · iexact Hr
    iexact Hp
  hout c := by
    rw [Pipeline.ownSems0_none, show (pdats m /-#K-/15/-#-/ c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := /-#K-/15/-#-/) (pcfgs (F := F)) adm (Ix := Unit) (Name := ℕ) (U := UR sig nD τ) (Lvl := ℕ)
      launch15.win launch15.arr_whole c (pdats m) ((pdats m /-#K-/15/-#-/ c).share_full fun _ => rfl)
      (rd (W32 m) c) (rd (W33 m) c) ((pdats m /-#K-/15/-#-/ c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg16.lean ====
/- REGION 16 of the kernel program as a segment of @main's run, at any float interpretation. Between two items of @main a
   core's thread state is "every unscoped buffer whole at the boundary's contents, the generator register at some
   state, nothing owed". The region is entered from that state at the contents `W34` and left in it at `W35`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 16 over the thread state: entered from every unscoped buffer at `W34`, left at `W35`. -/
def reg16 : Pipeline.RegionSeg (pcfgs (F := F)) adm (pdats m) () defs₀ 𝒱₀ L lv /-#K-/16/-#-/ where
  win := launch16.win.to₀
  block_pos := launch16.block_pos
  stage_whole := launch16.stage_whole
  K := PEmpty
  osem k := k.elim
  ho := Pipeline.OwnSemFacts.none _
  hbody c := (body_obligation16 (rd (W34 m)) c).loose
  hwaits := Pipeline.hwaits_of_owed_zero _ _ _ _ L lv /-#K-/16/-#-/ fun _ _ => rfl
  pre c := iprop(StableHlo.held (c : Thread nD τ) (Pipeline.ucRefs τ sig) (W34 m c) ∗ R c)
  post c := iprop(StableHlo.held (c : Thread nD τ) (Pipeline.ucRefs τ sig) (W35 m c) ∗ R c)
  X c := iprop(∃ r, prngReg c r)
  Y c := iprop(∃ r, prngReg c r)
  Z c := Pipeline.unscopedRest (Ix := Unit) (Name := ℕ) (U := UR sig nD τ) (Lvl := ℕ) spec16 c (rd (W34 m) c)
  hentry c := by
    rw [Pipeline.ownSems0_none]
    have hsplit := Pipeline.arrays_of_unscopedBufs (p := /-#K-/16/-#-/) (pcfgs (F := F)) adm (pdats m) launch16.win launch16.arr_whole c
      ((pdats m /-#K-/16/-#-/ c).share_full fun _ => rfl) (rd (W34 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/16/-#-/ c).Φ 0 = Pipeline.ΦA spec16 c from rfl]; unfold Pipeline.ΦA
    iintro ⟨Hp, -, Hr⟩
    isplitl [Hr]; · iexact Hr
    iexact Hp
  hout c := by
    rw [Pipeline.ownSems0_none, show (pdats m /-#K-/16/-#-/ c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := /-#K-/16/-#-/) (pcfgs (F := F)) adm (Ix := Unit) (Name := ℕ) (U := UR sig nD τ) (Lvl := ℕ)
      launch16.win launch16.arr_whole c (pdats m) ((pdats m /-#K-/16/-#-/ c).share_full fun _ => rfl)
      (rd (W34 m) c) (rd (W35 m) c) ((pdats m /-#K-/16/-#-/ c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg17.lean ====
/- REGION 17 of the kernel program as a segment of @main's run, at any float interpretation. Between two items of @main a
   core's thread state is "every unscoped buffer whole at the boundary's contents, the generator register at some
   state, nothing owed". The region is entered from that state at the contents `W36` and left in it at `W37`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 17 over the thread state: entered from every unscoped buffer at `W36`, left at `W37`. -/
def reg17 : Pipeline.RegionSeg (pcfgs (F := F)) adm (pdats m) () defs₀ 𝒱₀ L lv /-#K-/17/-#-/ where
  win := launch17.win.to₀
  block_pos := launch17.block_pos
  stage_whole := launch17.stage_whole
  K := PEmpty
  osem k := k.elim
  ho := Pipeline.OwnSemFacts.none _
  hbody c := (body_obligation17 (rd (W36 m)) c).loose
  hwaits := Pipeline.hwaits_of_owed_zero _ _ _ _ L lv /-#K-/17/-#-/ fun _ _ => rfl
  pre c := iprop(StableHlo.held (c : Thread nD τ) (Pipeline.ucRefs τ sig) (W36 m c) ∗ R c)
  post c := iprop(StableHlo.held (c : Thread nD τ) (Pipeline.ucRefs τ sig) (W37 m c) ∗ R c)
  X c := iprop(∃ r, prngReg c r)
  Y c := iprop(∃ r, prngReg c r)
  Z c := Pipeline.unscopedRest (Ix := Unit) (Name := ℕ) (U := UR sig nD τ) (Lvl := ℕ) spec17 c (rd (W36 m) c)
  hentry c := by
    rw [Pipeline.ownSems0_none]
    have hsplit := Pipeline.arrays_of_unscopedBufs (p := /-#K-/17/-#-/) (pcfgs (F := F)) adm (pdats m) launch17.win launch17.arr_whole c
      ((pdats m /-#K-/17/-#-/ c).share_full fun _ => rfl) (rd (W36 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/17/-#-/ c).Φ 0 = Pipeline.ΦA spec17 c from rfl]; unfold Pipeline.ΦA
    iintro ⟨Hp, -, Hr⟩
    isplitl [Hr]; · iexact Hr
    iexact Hp
  hout c := by
    rw [Pipeline.ownSems0_none, show (pdats m /-#K-/17/-#-/ c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := /-#K-/17/-#-/) (pcfgs (F := F)) adm (Ix := Unit) (Name := ℕ) (U := UR sig nD τ) (Lvl := ℕ)
      launch17.win launch17.arr_whole c (pdats m) ((pdats m /-#K-/17/-#-/ c).share_full fun _ => rfl)
      (rd (W36 m) c) (rd (W37 m) c) ((pdats m /-#K-/17/-#-/ c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg18.lean ====
/- REGION 18 of the kernel program as a segment of @main's run, at any float interpretation. Between two items of @main a
   core's thread state is "every unscoped buffer whole at the boundary's contents, the generator register at some
   state, nothing owed". The region is entered from that state at the contents `W38` and left in it at `W39`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 18 over the thread state: entered from every unscoped buffer at `W38`, left at `W39`. -/
def reg18 : Pipeline.RegionSeg (pcfgs (F := F)) adm (pdats m) () defs₀ 𝒱₀ L lv /-#K-/18/-#-/ where
  win := launch18.win.to₀
  block_pos := launch18.block_pos
  stage_whole := launch18.stage_whole
  K := PEmpty
  osem k := k.elim
  ho := Pipeline.OwnSemFacts.none _
  hbody c := (body_obligation18 (rd (W38 m)) c).loose
  hwaits := Pipeline.hwaits_of_owed_zero _ _ _ _ L lv /-#K-/18/-#-/ fun _ _ => rfl
  pre c := iprop(StableHlo.held (c : Thread nD τ) (Pipeline.ucRefs τ sig) (W38 m c) ∗ R c)
  post c := iprop(StableHlo.held (c : Thread nD τ) (Pipeline.ucRefs τ sig) (W39 m c) ∗ R c)
  X c := iprop(∃ r, prngReg c r)
  Y c := iprop(∃ r, prngReg c r)
  Z c := Pipeline.unscopedRest (Ix := Unit) (Name := ℕ) (U := UR sig nD τ) (Lvl := ℕ) spec18 c (rd (W38 m) c)
  hentry c := by
    rw [Pipeline.ownSems0_none]
    have hsplit := Pipeline.arrays_of_unscopedBufs (p := /-#K-/18/-#-/) (pcfgs (F := F)) adm (pdats m) launch18.win launch18.arr_whole c
      ((pdats m /-#K-/18/-#-/ c).share_full fun _ => rfl) (rd (W38 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/18/-#-/ c).Φ 0 = Pipeline.ΦA spec18 c from rfl]; unfold Pipeline.ΦA
    iintro ⟨Hp, -, Hr⟩
    isplitl [Hr]; · iexact Hr
    iexact Hp
  hout c := by
    rw [Pipeline.ownSems0_none, show (pdats m /-#K-/18/-#-/ c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := /-#K-/18/-#-/) (pcfgs (F := F)) adm (Ix := Unit) (Name := ℕ) (U := UR sig nD τ) (Lvl := ℕ)
      launch18.win launch18.arr_whole c (pdats m) ((pdats m /-#K-/18/-#-/ c).share_full fun _ => rfl)
      (rd (W38 m) c) (rd (W39 m) c) ((pdats m /-#K-/18/-#-/ c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg19.lean ====
/- REGION 19 of the kernel program as a segment of @main's run, at any float interpretation. Between two items of @main a
   core's thread state is "every unscoped buffer whole at the boundary's contents, the generator register at some
   state, nothing owed". The region is entered from that state at the contents `W40` and left in it at `W41`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 19 over the thread state: entered from every unscoped buffer at `W40`, left at `W41`. -/
def reg19 : Pipeline.RegionSeg (pcfgs (F := F)) adm (pdats m) () defs₀ 𝒱₀ L lv /-#K-/19/-#-/ where
  win := launch19.win.to₀
  block_pos := launch19.block_pos
  stage_whole := launch19.stage_whole
  K := PEmpty
  osem k := k.elim
  ho := Pipeline.OwnSemFacts.none _
  hbody c := (body_obligation19 (rd (W40 m)) c).loose
  hwaits := Pipeline.hwaits_of_owed_zero _ _ _ _ L lv /-#K-/19/-#-/ fun _ _ => rfl
  pre c := iprop(StableHlo.held (c : Thread nD τ) (Pipeline.ucRefs τ sig) (W40 m c) ∗ R c)
  post c := iprop(StableHlo.held (c : Thread nD τ) (Pipeline.ucRefs τ sig) (W41 m c) ∗ R c)
  X c := iprop(∃ r, prngReg c r)
  Y c := iprop(∃ r, prngReg c r)
  Z c := Pipeline.unscopedRest (Ix := Unit) (Name := ℕ) (U := UR sig nD τ) (Lvl := ℕ) spec19 c (rd (W40 m) c)
  hentry c := by
    rw [Pipeline.ownSems0_none]
    have hsplit := Pipeline.arrays_of_unscopedBufs (p := /-#K-/19/-#-/) (pcfgs (F := F)) adm (pdats m) launch19.win launch19.arr_whole c
      ((pdats m /-#K-/19/-#-/ c).share_full fun _ => rfl) (rd (W40 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/19/-#-/ c).Φ 0 = Pipeline.ΦA spec19 c from rfl]; unfold Pipeline.ΦA
    iintro ⟨Hp, -, Hr⟩
    isplitl [Hr]; · iexact Hr
    iexact Hp
  hout c := by
    rw [Pipeline.ownSems0_none, show (pdats m /-#K-/19/-#-/ c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := /-#K-/19/-#-/) (pcfgs (F := F)) adm (Ix := Unit) (Name := ℕ) (U := UR sig nD τ) (Lvl := ℕ)
      launch19.win launch19.arr_whole c (pdats m) ((pdats m /-#K-/19/-#-/ c).share_full fun _ => rfl)
      (rd (W40 m) c) (rd (W41 m) c) ((pdats m /-#K-/19/-#-/ c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg20.lean ====
/- REGION 20 of the kernel program as a segment of @main's run, at any float interpretation. Between two items of @main a
   core's thread state is "every unscoped buffer whole at the boundary's contents, the generator register at some
   state, nothing owed". The region is entered from that state at the contents `W42` and left in it at `W43`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 20 over the thread state: entered from every unscoped buffer at `W42`, left at `W43`. -/
def reg20 : Pipeline.RegionSeg (pcfgs (F := F)) adm (pdats m) () defs₀ 𝒱₀ L lv /-#K-/20/-#-/ where
  win := launch20.win.to₀
  block_pos := launch20.block_pos
  stage_whole := launch20.stage_whole
  K := PEmpty
  osem k := k.elim
  ho := Pipeline.OwnSemFacts.none _
  hbody c := (body_obligation20 (rd (W42 m)) c).loose
  hwaits := Pipeline.hwaits_of_owed_zero _ _ _ _ L lv /-#K-/20/-#-/ fun _ _ => rfl
  pre c := iprop(StableHlo.held (c : Thread nD τ) (Pipeline.ucRefs τ sig) (W42 m c) ∗ R c)
  post c := iprop(StableHlo.held (c : Thread nD τ) (Pipeline.ucRefs τ sig) (W43 m c) ∗ R c)
  X c := iprop(∃ r, prngReg c r)
  Y c := iprop(∃ r, prngReg c r)
  Z c := Pipeline.unscopedRest (Ix := Unit) (Name := ℕ) (U := UR sig nD τ) (Lvl := ℕ) spec20 c (rd (W42 m) c)
  hentry c := by
    rw [Pipeline.ownSems0_none]
    have hsplit := Pipeline.arrays_of_unscopedBufs (p := /-#K-/20/-#-/) (pcfgs (F := F)) adm (pdats m) launch20.win launch20.arr_whole c
      ((pdats m /-#K-/20/-#-/ c).share_full fun _ => rfl) (rd (W42 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/20/-#-/ c).Φ 0 = Pipeline.ΦA spec20 c from rfl]; unfold Pipeline.ΦA
    iintro ⟨Hp, -, Hr⟩
    isplitl [Hr]; · iexact Hr
    iexact Hp
  hout c := by
    rw [Pipeline.ownSems0_none, show (pdats m /-#K-/20/-#-/ c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := /-#K-/20/-#-/) (pcfgs (F := F)) adm (Ix := Unit) (Name := ℕ) (U := UR sig nD τ) (Lvl := ℕ)
      launch20.win launch20.arr_whole c (pdats m) ((pdats m /-#K-/20/-#-/ c).share_full fun _ => rfl)
      (rd (W42 m) c) (rd (W43 m) c) ((pdats m /-#K-/20/-#-/ c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg21.lean ====
/- REGION 21 of the kernel program as a segment of @main's run, at any float interpretation. Between two items of @main a
   core's thread state is "every unscoped buffer whole at the boundary's contents, the generator register at some
   state, nothing owed". The region is entered from that state at the contents `W44` and left in it at `W45`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 21 over the thread state: entered from every unscoped buffer at `W44`, left at `W45`. -/
def reg21 : Pipeline.RegionSeg (pcfgs (F := F)) adm (pdats m) () defs₀ 𝒱₀ L lv /-#K-/21/-#-/ where
  win := launch21.win.to₀
  block_pos := launch21.block_pos
  stage_whole := launch21.stage_whole
  K := PEmpty
  osem k := k.elim
  ho := Pipeline.OwnSemFacts.none _
  hbody c := (body_obligation21 (rd (W44 m)) c).loose
  hwaits := Pipeline.hwaits_of_owed_zero _ _ _ _ L lv /-#K-/21/-#-/ fun _ _ => rfl
  pre c := iprop(StableHlo.held (c : Thread nD τ) (Pipeline.ucRefs τ sig) (W44 m c) ∗ R c)
  post c := iprop(StableHlo.held (c : Thread nD τ) (Pipeline.ucRefs τ sig) (W45 m c) ∗ R c)
  X c := iprop(∃ r, prngReg c r)
  Y c := iprop(∃ r, prngReg c r)
  Z c := Pipeline.unscopedRest (Ix := Unit) (Name := ℕ) (U := UR sig nD τ) (Lvl := ℕ) spec21 c (rd (W44 m) c)
  hentry c := by
    rw [Pipeline.ownSems0_none]
    have hsplit := Pipeline.arrays_of_unscopedBufs (p := /-#K-/21/-#-/) (pcfgs (F := F)) adm (pdats m) launch21.win launch21.arr_whole c
      ((pdats m /-#K-/21/-#-/ c).share_full fun _ => rfl) (rd (W44 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/21/-#-/ c).Φ 0 = Pipeline.ΦA spec21 c from rfl]; unfold Pipeline.ΦA
    iintro ⟨Hp, -, Hr⟩
    isplitl [Hr]; · iexact Hr
    iexact Hp
  hout c := by
    rw [Pipeline.ownSems0_none, show (pdats m /-#K-/21/-#-/ c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := /-#K-/21/-#-/) (pcfgs (F := F)) adm (Ix := Unit) (Name := ℕ) (U := UR sig nD τ) (Lvl := ℕ)
      launch21.win launch21.arr_whole c (pdats m) ((pdats m /-#K-/21/-#-/ c).share_full fun _ => rfl)
      (rd (W44 m) c) (rd (W45 m) c) ((pdats m /-#K-/21/-#-/ c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg22.lean ====
/- REGION 22 of the kernel program as a segment of @main's run, at any float interpretation. Between two items of @main a
   core's thread state is "every unscoped buffer whole at the boundary's contents, the generator register at some
   state, nothing owed". The region is entered from that state at the contents `W46` and left in it at `W47`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 22 over the thread state: entered from every unscoped buffer at `W46`, left at `W47`. -/
def reg22 : Pipeline.RegionSeg (pcfgs (F := F)) adm (pdats m) () defs₀ 𝒱₀ L lv /-#K-/22/-#-/ where
  win := launch22.win.to₀
  block_pos := launch22.block_pos
  stage_whole := launch22.stage_whole
  K := PEmpty
  osem k := k.elim
  ho := Pipeline.OwnSemFacts.none _
  hbody c := (body_obligation22 (rd (W46 m)) c).loose
  hwaits := Pipeline.hwaits_of_owed_zero _ _ _ _ L lv /-#K-/22/-#-/ fun _ _ => rfl
  pre c := iprop(StableHlo.held (c : Thread nD τ) (Pipeline.ucRefs τ sig) (W46 m c) ∗ R c)
  post c := iprop(StableHlo.held (c : Thread nD τ) (Pipeline.ucRefs τ sig) (W47 m c) ∗ R c)
  X c := iprop(∃ r, prngReg c r)
  Y c := iprop(∃ r, prngReg c r)
  Z c := Pipeline.unscopedRest (Ix := Unit) (Name := ℕ) (U := UR sig nD τ) (Lvl := ℕ) spec22 c (rd (W46 m) c)
  hentry c := by
    rw [Pipeline.ownSems0_none]
    have hsplit := Pipeline.arrays_of_unscopedBufs (p := /-#K-/22/-#-/) (pcfgs (F := F)) adm (pdats m) launch22.win launch22.arr_whole c
      ((pdats m /-#K-/22/-#-/ c).share_full fun _ => rfl) (rd (W46 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/22/-#-/ c).Φ 0 = Pipeline.ΦA spec22 c from rfl]; unfold Pipeline.ΦA
    iintro ⟨Hp, -, Hr⟩
    isplitl [Hr]; · iexact Hr
    iexact Hp
  hout c := by
    rw [Pipeline.ownSems0_none, show (pdats m /-#K-/22/-#-/ c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := /-#K-/22/-#-/) (pcfgs (F := F)) adm (Ix := Unit) (Name := ℕ) (U := UR sig nD τ) (Lvl := ℕ)
      launch22.win launch22.arr_whole c (pdats m) ((pdats m /-#K-/22/-#-/ c).share_full fun _ => rfl)
      (rd (W46 m) c) (rd (W47 m) c) ((pdats m /-#K-/22/-#-/ c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg23.lean ====
/- REGION 23 of the kernel program as a segment of @main's run, at any float interpretation. Between two items of @main a
   core's thread state is "every unscoped buffer whole at the boundary's contents, the generator register at some
   state, nothing owed". The region is entered from that state at the contents `W48` and left in it at `W49`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 23 over the thread state: entered from every unscoped buffer at `W48`, left at `W49`. -/
def reg23 : Pipeline.RegionSeg (pcfgs (F := F)) adm (pdats m) () defs₀ 𝒱₀ L lv /-#K-/23/-#-/ where
  win := launch23.win.to₀
  block_pos := launch23.block_pos
  stage_whole := launch23.stage_whole
  K := PEmpty
  osem k := k.elim
  ho := Pipeline.OwnSemFacts.none _
  hbody c := (body_obligation23 (rd (W48 m)) c).loose
  hwaits := Pipeline.hwaits_of_owed_zero _ _ _ _ L lv /-#K-/23/-#-/ fun _ _ => rfl
  pre c := iprop(StableHlo.held (c : Thread nD τ) (Pipeline.ucRefs τ sig) (W48 m c) ∗ R c)
  post c := iprop(StableHlo.held (c : Thread nD τ) (Pipeline.ucRefs τ sig) (W49 m c) ∗ R c)
  X c := iprop(∃ r, prngReg c r)
  Y c := iprop(∃ r, prngReg c r)
  Z c := Pipeline.unscopedRest (Ix := Unit) (Name := ℕ) (U := UR sig nD τ) (Lvl := ℕ) spec23 c (rd (W48 m) c)
  hentry c := by
    rw [Pipeline.ownSems0_none]
    have hsplit := Pipeline.arrays_of_unscopedBufs (p := /-#K-/23/-#-/) (pcfgs (F := F)) adm (pdats m) launch23.win launch23.arr_whole c
      ((pdats m /-#K-/23/-#-/ c).share_full fun _ => rfl) (rd (W48 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/23/-#-/ c).Φ 0 = Pipeline.ΦA spec23 c from rfl]; unfold Pipeline.ΦA
    iintro ⟨Hp, -, Hr⟩
    isplitl [Hr]; · iexact Hr
    iexact Hp
  hout c := by
    rw [Pipeline.ownSems0_none, show (pdats m /-#K-/23/-#-/ c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := /-#K-/23/-#-/) (pcfgs (F := F)) adm (Ix := Unit) (Name := ℕ) (U := UR sig nD τ) (Lvl := ℕ)
      launch23.win launch23.arr_whole c (pdats m) ((pdats m /-#K-/23/-#-/ c).share_full fun _ => rfl)
      (rd (W48 m) c) (rd (W49 m) c) ((pdats m /-#K-/23/-#-/ c).arrAt · cfg23.N) (hF23 m c) (hrest23 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg24.lean ====
/- REGION 24 of the kernel program as a segment of @main's run, at any float interpretation. Between two items of @main a
   core's thread state is "every unscoped buffer whole at the boundary's contents, the generator register at some
   state, nothing owed". The region is entered from that state at the contents `W50` and left in it at `W51`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 24 over the thread state: entered from every unscoped buffer at `W50`, left at `W51`. -/
def reg24 : Pipeline.RegionSeg (pcfgs (F := F)) adm (pdats m) () defs₀ 𝒱₀ L lv /-#K-/24/-#-/ where
  win := launch24.win.to₀
  block_pos := launch24.block_pos
  stage_whole := launch24.stage_whole
  K := PEmpty
  osem k := k.elim
  ho := Pipeline.OwnSemFacts.none _
  hbody c := (body_obligation24 (rd (W50 m)) c).loose
  hwaits := Pipeline.hwaits_of_owed_zero _ _ _ _ L lv /-#K-/24/-#-/ fun _ _ => rfl
  pre c := iprop(StableHlo.held (c : Thread nD τ) (Pipeline.ucRefs τ sig) (W50 m c) ∗ R c)
  post c := iprop(StableHlo.held (c : Thread nD τ) (Pipeline.ucRefs τ sig) (W51 m c) ∗ R c)
  X c := iprop(∃ r, prngReg c r)
  Y c := iprop(∃ r, prngReg c r)
  Z c := Pipeline.unscopedRest (Ix := Unit) (Name := ℕ) (U := UR sig nD τ) (Lvl := ℕ) spec24 c (rd (W50 m) c)
  hentry c := by
    rw [Pipeline.ownSems0_none]
    have hsplit := Pipeline.arrays_of_unscopedBufs (p := /-#K-/24/-#-/) (pcfgs (F := F)) adm (pdats m) launch24.win launch24.arr_whole c
      ((pdats m /-#K-/24/-#-/ c).share_full fun _ => rfl) (rd (W50 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/24/-#-/ c).Φ 0 = Pipeline.ΦA spec24 c from rfl]; unfold Pipeline.ΦA
    iintro ⟨Hp, -, Hr⟩
    isplitl [Hr]; · iexact Hr
    iexact Hp
  hout c := by
    rw [Pipeline.ownSems0_none, show (pdats m /-#K-/24/-#-/ c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := /-#K-/24/-#-/) (pcfgs (F := F)) adm (Ix := Unit) (Name := ℕ) (U := UR sig nD τ) (Lvl := ℕ)
      launch24.win launch24.arr_whole c (pdats m) ((pdats m /-#K-/24/-#-/ c).share_full fun _ => rfl)
      (rd (W50 m) c) (rd (W51 m) c) ((pdats m /-#K-/24/-#-/ c).arrAt · cfg24.N) (hF24 m c) (hrest24 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg25.lean ====
/- REGION 25 of the kernel program as a segment of @main's run, at any float interpretation. Between two items of @main a
   core's thread state is "every unscoped buffer whole at the boundary's contents, the generator register at some
   state, nothing owed". The region is entered from that state at the contents `W52` and left in it at `W53`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 25 over the thread state: entered from every unscoped buffer at `W52`, left at `W53`. -/
def reg25 : Pipeline.RegionSeg (pcfgs (F := F)) adm (pdats m) () defs₀ 𝒱₀ L lv /-#K-/25/-#-/ where
  win := launch25.win.to₀
  block_pos := launch25.block_pos
  stage_whole := launch25.stage_whole
  K := PEmpty
  osem k := k.elim
  ho := Pipeline.OwnSemFacts.none _
  hbody c := (body_obligation25 (rd (W52 m)) c).loose
  hwaits := Pipeline.hwaits_of_owed_zero _ _ _ _ L lv /-#K-/25/-#-/ fun _ _ => rfl
  pre c := iprop(StableHlo.held (c : Thread nD τ) (Pipeline.ucRefs τ sig) (W52 m c) ∗ R c)
  post c := iprop(StableHlo.held (c : Thread nD τ) (Pipeline.ucRefs τ sig) (W53 m c) ∗ R c)
  X c := iprop(∃ r, prngReg c r)
  Y c := iprop(∃ r, prngReg c r)
  Z c := Pipeline.unscopedRest (Ix := Unit) (Name := ℕ) (U := UR sig nD τ) (Lvl := ℕ) spec25 c (rd (W52 m) c)
  hentry c := by
    rw [Pipeline.ownSems0_none]
    have hsplit := Pipeline.arrays_of_unscopedBufs (p := /-#K-/25/-#-/) (pcfgs (F := F)) adm (pdats m) launch25.win launch25.arr_whole c
      ((pdats m /-#K-/25/-#-/ c).share_full fun _ => rfl) (rd (W52 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/25/-#-/ c).Φ 0 = Pipeline.ΦA spec25 c from rfl]; unfold Pipeline.ΦA
    iintro ⟨Hp, -, Hr⟩
    isplitl [Hr]; · iexact Hr
    iexact Hp
  hout c := by
    rw [Pipeline.ownSems0_none, show (pdats m /-#K-/25/-#-/ c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := /-#K-/25/-#-/) (pcfgs (F := F)) adm (Ix := Unit) (Name := ℕ) (U := UR sig nD τ) (Lvl := ℕ)
      launch25.win launch25.arr_whole c (pdats m) ((pdats m /-#K-/25/-#-/ c).share_full fun _ => rfl)
      (rd (W52 m) c) (rd (W53 m) c) ((pdats m /-#K-/25/-#-/ c).arrAt · cfg25.N) (hF25 m c) (hrest25 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg26.lean ====
/- REGION 26 of the kernel program as a segment of @main's run, at any float interpretation. Between two items of @main a
   core's thread state is "every unscoped buffer whole at the boundary's contents, the generator register at some
   state, nothing owed". The region is entered from that state at the contents `W54` and left in it at `W55`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 26 over the thread state: entered from every unscoped buffer at `W54`, left at `W55`. -/
def reg26 : Pipeline.RegionSeg (pcfgs (F := F)) adm (pdats m) () defs₀ 𝒱₀ L lv /-#K-/26/-#-/ where
  win := launch26.win.to₀
  block_pos := launch26.block_pos
  stage_whole := launch26.stage_whole
  K := PEmpty
  osem k := k.elim
  ho := Pipeline.OwnSemFacts.none _
  hbody c := (body_obligation26 (rd (W54 m)) c).loose
  hwaits := Pipeline.hwaits_of_owed_zero _ _ _ _ L lv /-#K-/26/-#-/ fun _ _ => rfl
  pre c := iprop(StableHlo.held (c : Thread nD τ) (Pipeline.ucRefs τ sig) (W54 m c) ∗ R c)
  post c := iprop(StableHlo.held (c : Thread nD τ) (Pipeline.ucRefs τ sig) (W55 m c) ∗ R c)
  X c := iprop(∃ r, prngReg c r)
  Y c := iprop(∃ r, prngReg c r)
  Z c := Pipeline.unscopedRest (Ix := Unit) (Name := ℕ) (U := UR sig nD τ) (Lvl := ℕ) spec26 c (rd (W54 m) c)
  hentry c := by
    rw [Pipeline.ownSems0_none]
    have hsplit := Pipeline.arrays_of_unscopedBufs (p := /-#K-/26/-#-/) (pcfgs (F := F)) adm (pdats m) launch26.win launch26.arr_whole c
      ((pdats m /-#K-/26/-#-/ c).share_full fun _ => rfl) (rd (W54 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/26/-#-/ c).Φ 0 = Pipeline.ΦA spec26 c from rfl]; unfold Pipeline.ΦA
    iintro ⟨Hp, -, Hr⟩
    isplitl [Hr]; · iexact Hr
    iexact Hp
  hout c := by
    rw [Pipeline.ownSems0_none, show (pdats m /-#K-/26/-#-/ c).Φ (Fin.last _) = Pipeline.ΦA spec26 c from rfl]; unfold Pipeline.ΦA
    iintro ⟨Hr, Hp⟩
    isplitl [Hp]; · iexact Hp
    isplitr; · iempintro
    iexact Hr
  hexit c := by
    have hjoin := Pipeline.unscopedBufs_of_arrays (p := /-#K-/26/-#-/) (pcfgs (F := F)) adm (Ix := Unit) (Name := ℕ) (U := UR sig nD τ) (Lvl := ℕ)
      launch26.win launch26.arr_whole c (pdats m) ((pdats m /-#K-/26/-#-/ c).share_full fun _ => rfl)
      (rd (W54 m) c) (rd (W55 m) c) ((pdats m /-#K-/26/-#-/ c).arrAt · cfg26.N) (hF26 m c) (hrest26 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg27.lean ====
/- REGION 27 of the kernel program as a segment of @main's run, at any float interpretation. Between two items of @main a
   core's thread state is "every unscoped buffer whole at the boundary's contents, the generator register at some
   state, nothing owed". The region is entered from that state at the contents `W56` and left in it at `W57`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 27 over the thread state: entered from every unscoped buffer at `W56`, left at `W57`. -/
def reg27 : Pipeline.RegionSeg (pcfgs (F := F)) adm (pdats m) () defs₀ 𝒱₀ L lv /-#K-/27/-#-/ where
  win := launch27.win.to₀
  block_pos := launch27.block_pos
  stage_whole := launch27.stage_whole
  K := PEmpty
  osem k := k.elim
  ho := Pipeline.OwnSemFacts.none _
  hbody c := (body_obligation27 (rd (W56 m)) c).loose
  hwaits := Pipeline.hwaits_of_owed_zero _ _ _ _ L lv /-#K-/27/-#-/ fun _ _ => rfl
  pre c := iprop(StableHlo.held (c : Thread nD τ) (Pipeline.ucRefs τ sig) (W56 m c) ∗ R c)
  post c := iprop(StableHlo.held (c : Thread nD τ) (Pipeline.ucRefs τ sig) (W57 m c) ∗ R c)
  X c := iprop(∃ r, prngReg c r)
  Y c := iprop(∃ r, prngReg c r)
  Z c := Pipeline.unscopedRest (Ix := Unit) (Name := ℕ) (U := UR sig nD τ) (Lvl := ℕ) spec27 c (rd (W56 m) c)
  hentry c := by
    rw [Pipeline.ownSems0_none]
    have hsplit := Pipeline.arrays_of_unscopedBufs (p := /-#K-/27/-#-/) (pcfgs (F := F)) adm (pdats m) launch27.win launch27.arr_whole c
      ((pdats m /-#K-/27/-#-/ c).share_full fun _ => rfl) (rd (W56 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/27/-#-/ c).Φ 0 = Pipeline.ΦA spec27 c from rfl]; unfold Pipeline.ΦA
    iintro ⟨Hp, -, Hr⟩
    isplitl [Hr]; · iexact Hr
    iexact Hp
  hout c := by
    rw [Pipeline.ownSems0_none, show (pdats m /-#K-/27/-#-/ c).Φ (Fin.last _) = Pipeline.ΦA spec27 c from rfl]; unfold Pipeline.ΦA
    iintro ⟨Hr, Hp⟩
    isplitl [Hp]; · iexact Hp
    isplitr; · iempintro
    iexact Hr
  hexit c := by
    have hjoin := Pipeline.unscopedBufs_of_arrays (p := /-#K-/27/-#-/) (pcfgs (F := F)) adm (Ix := Unit) (Name := ℕ) (U := UR sig nD τ) (Lvl := ℕ)
      launch27.win launch27.arr_whole c (pdats m) ((pdats m /-#K-/27/-#-/ c).share_full fun _ => rfl)
      (rd (W56 m) c) (rd (W57 m) c) ((pdats m /-#K-/27/-#-/ c).arrAt · cfg27.N) (hF27 m c) (hrest27 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg28.lean ====
/- REGION 28 of the kernel program as a segment of @main's run, at any float interpretation. Between two items of @main a
   core's thread state is "every unscoped buffer whole at the boundary's contents, the generator register at some
   state, nothing owed". The region is entered from that state at the contents `W58` and left in it at `W59`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 28 over the thread state: entered from every unscoped buffer at `W58`, left at `W59`. -/
def reg28 : Pipeline.RegionSeg (pcfgs (F := F)) adm (pdats m) () defs₀ 𝒱₀ L lv /-#K-/28/-#-/ where
  win := launch28.win.to₀
  block_pos := launch28.block_pos
  stage_whole := launch28.stage_whole
  K := PEmpty
  osem k := k.elim
  ho := Pipeline.OwnSemFacts.none _
  hbody c := (body_obligation28 (rd (W58 m)) c).loose
  hwaits := Pipeline.hwaits_of_owed_zero _ _ _ _ L lv /-#K-/28/-#-/ fun _ _ => rfl
  pre c := iprop(StableHlo.held (c : Thread nD τ) (Pipeline.ucRefs τ sig) (W58 m c) ∗ R c)
  post c := iprop(StableHlo.held (c : Thread nD τ) (Pipeline.ucRefs τ sig) (W59 m c) ∗ R c)
  X c := iprop(∃ r, prngReg c r)
  Y c := iprop(∃ r, prngReg c r)
  Z c := Pipeline.unscopedRest (Ix := Unit) (Name := ℕ) (U := UR sig nD τ) (Lvl := ℕ) spec28 c (rd (W58 m) c)
  hentry c := by
    rw [Pipeline.ownSems0_none]
    have hsplit := Pipeline.arrays_of_unscopedBufs (p := /-#K-/28/-#-/) (pcfgs (F := F)) adm (pdats m) launch28.win launch28.arr_whole c
      ((pdats m /-#K-/28/-#-/ c).share_full fun _ => rfl) (rd (W58 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/28/-#-/ c).Φ 0 = Pipeline.ΦA spec28 c from rfl]; unfold Pipeline.ΦA
    iintro ⟨Hp, -, Hr⟩
    isplitl [Hr]; · iexact Hr
    iexact Hp
  hout c := by
    rw [Pipeline.ownSems0_none, show (pdats m /-#K-/28/-#-/ c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := /-#K-/28/-#-/) (pcfgs (F := F)) adm (Ix := Unit) (Name := ℕ) (U := UR sig nD τ) (Lvl := ℕ)
      launch28.win launch28.arr_whole c (pdats m) ((pdats m /-#K-/28/-#-/ c).share_full fun _ => rfl)
      (rd (W58 m) c) (rd (W59 m) c) ((pdats m /-#K-/28/-#-/ c).arrAt · cfg28.N) (hF28 m c) (hrest28 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg29.lean ====
/- REGION 29 of the kernel program as a segment of @main's run, at any float interpretation. Between two items of @main a
   core's thread state is "every unscoped buffer whole at the boundary's contents, the generator register at some
   state, nothing owed". The region is entered from that state at the contents `W60` and left in it at `W61`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 29 over the thread state: entered from every unscoped buffer at `W60`, left at `W61`. -/
def reg29 : Pipeline.RegionSeg (pcfgs (F := F)) adm (pdats m) () defs₀ 𝒱₀ L lv /-#K-/29/-#-/ where
  win := launch29.win.to₀
  block_pos := launch29.block_pos
  stage_whole := launch29.stage_whole
  K := PEmpty
  osem k := k.elim
  ho := Pipeline.OwnSemFacts.none _
  hbody c := (body_obligation29 (rd (W60 m)) c).loose
  hwaits := Pipeline.hwaits_of_owed_zero _ _ _ _ L lv /-#K-/29/-#-/ fun _ _ => rfl
  pre c := iprop(StableHlo.held (c : Thread nD τ) (Pipeline.ucRefs τ sig) (W60 m c) ∗ R c)
  post c := iprop(StableHlo.held (c : Thread nD τ) (Pipeline.ucRefs τ sig) (W61 m c) ∗ R c)
  X c := iprop(∃ r, prngReg c r)
  Y c := iprop(∃ r, prngReg c r)
  Z c := Pipeline.unscopedRest (Ix := Unit) (Name := ℕ) (U := UR sig nD τ) (Lvl := ℕ) spec29 c (rd (W60 m) c)
  hentry c := by
    rw [Pipeline.ownSems0_none]
    have hsplit := Pipeline.arrays_of_unscopedBufs (p := /-#K-/29/-#-/) (pcfgs (F := F)) adm (pdats m) launch29.win launch29.arr_whole c
      ((pdats m /-#K-/29/-#-/ c).share_full fun _ => rfl) (rd (W60 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/29/-#-/ c).Φ 0 = Pipeline.ΦA spec29 c from rfl]; unfold Pipeline.ΦA
    iintro ⟨Hp, -, Hr⟩
    isplitl [Hr]; · iexact Hr
    iexact Hp
  hout c := by
    rw [Pipeline.ownSems0_none, show (pdats m /-#K-/29/-#-/ c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := /-#K-/29/-#-/) (pcfgs (F := F)) adm (Ix := Unit) (Name := ℕ) (U := UR sig nD τ) (Lvl := ℕ)
      launch29.win launch29.arr_whole c (pdats m) ((pdats m /-#K-/29/-#-/ c).share_full fun _ => rfl)
      (rd (W60 m) c) (rd (W61 m) c) ((pdats m /-#K-/29/-#-/ c).arrAt · cfg29.N) (hF29 m c) (hrest29 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Seg30.lean ====
/- REGION 30 of the kernel program as a segment of @main's run, at any float interpretation. Between two items of @main a
   core's thread state is "every unscoped buffer whole at the boundary's contents, the generator register at some
   state, nothing owed". The region is entered from that state at the contents `W62` and left in it at `W63`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 30 over the thread state: entered from every unscoped buffer at `W62`, left at `W63`. -/
def reg30 : Pipeline.RegionSeg (pcfgs (F := F)) adm (pdats m) () defs₀ 𝒱₀ L lv /-#K-/30/-#-/ where
  win := launch30.win.to₀
  block_pos := launch30.block_pos
  stage_whole := launch30.stage_whole
  K := PEmpty
  osem k := k.elim
  ho := Pipeline.OwnSemFacts.none _
  hbody c := (body_obligation30 (rd (W62 m)) c).loose
  hwaits := Pipeline.hwaits_of_owed_zero _ _ _ _ L lv /-#K-/30/-#-/ fun _ _ => rfl
  pre c := iprop(StableHlo.held (c : Thread nD τ) (Pipeline.ucRefs τ sig) (W62 m c) ∗ R c)
  post c := iprop(StableHlo.held (c : Thread nD τ) (Pipeline.ucRefs τ sig) (W63 m c) ∗ R c)
  X c := iprop(∃ r, prngReg c r)
  Y c := iprop(∃ r, prngReg c r)
  Z c := Pipeline.unscopedRest (Ix := Unit) (Name := ℕ) (U := UR sig nD τ) (Lvl := ℕ) spec30 c (rd (W62 m) c)
  hentry c := by
    rw [Pipeline.ownSems0_none]
    have hsplit := Pipeline.arrays_of_unscopedBufs (p := /-#K-/30/-#-/) (pcfgs (F := F)) adm (pdats m) launch30.win launch30.arr_whole c
      ((pdats m /-#K-/30/-#-/ c).share_full fun _ => rfl) (rd (W62 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/30/-#-/ c).Φ 0 = Pipeline.ΦA spec30 c from rfl]; unfold Pipeline.ΦA
    iintro ⟨Hp, -, Hr⟩
    isplitl [Hr]; · iexact Hr
    iexact Hp
  hout c := by
    rw [Pipeline.ownSems0_none, show (pdats m /-#K-/30/-#-/ c).Φ (Fin.last _) = Pipeline.ΦA spec30 c from rfl]; unfold Pipeline.ΦA
    iintro ⟨Hr, Hp⟩
    isplitl [Hp]; · iexact Hp
    isplitr; · iempintro
    iexact Hr
  hexit c := by
    have hjoin := Pipeline.unscopedBufs_of_arrays (p := /-#K-/30/-#-/) (pcfgs (F := F)) adm (Ix := Unit) (Name := ℕ) (U := UR sig nD τ) (Lvl := ℕ)
      launch30.win launch30.arr_whole c (pdats m) ((pdats m /-#K-/30/-#-/ c).share_full fun _ => rfl)
      (rd (W62 m) c) (rd (W63 m) c) ((pdats m /-#K-/30/-#-/ c).arrAt · cfg30.N) (hF30 m c) (hrest30 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KB.Run.lean ====
-- laid out by: scratch/mkchain.js Run proof/Proof/KI/Run.lean
/- THE RUN OF THE KERNEL PROGRAM, at any float interpretation: @main as its 64 segments (a host segment per stretch
   from its boundary's contents, a region per pallas_call), the segments' fragments being @main's items, each pipeline
   entered once, each item entered from the thread state the one before it left; then the launch over the segments.
   From any memory `m` with zero counters every weakly fair execution of @main on the TensorCores terminates, nothing
   faulting, and every final state holds the result buffer at the last boundary's contents `W64 m c` and each argument
   as launched (`run_main`). -/
import proofs.«146967_j25786983645193_1_alg».proof.Proof.Gen.Kernel.Launch
import proofs.«146967_j25786983645193_1_alg».proof.Proof.Gen.Kernel.Skeleton
import proofs.«146967_j25786983645193_1_alg».proof.Proof.Gen.Kernel.Points
import proofs.«146967_j25786983645193_1_alg».proof.Proof.KB.Seg0
import proofs.«146967_j25786983645193_1_alg».proof.Proof.KB.Seg1
import proofs.«146967_j25786983645193_1_alg».proof.Proof.KB.Seg2
import proofs.«146967_j25786983645193_1_alg».proof.Proof.KB.Seg3
import proofs.«146967_j25786983645193_1_alg».proof.Proof.KB.Seg4
import proofs.«146967_j25786983645193_1_alg».proof.Proof.KB.Seg5
import proofs.«146967_j25786983645193_1_alg».proof.Proof.KB.Seg6
import proofs.«146967_j25786983645193_1_alg».proof.Proof.KB.Seg7
import proofs.«146967_j25786983645193_1_alg».proof.Proof.KB.Seg8
import proofs.«146967_j25786983645193_1_alg».proof.Proof.KB.Seg9
import proofs.«146967_j25786983645193_1_alg».proof.Proof.KB.Seg10
import proofs.«146967_j25786983645193_1_alg».proof.Proof.KB.Seg11
import proofs.«146967_j25786983645193_1_alg».proof.Proof.KB.Seg12
import proofs.«146967_j25786983645193_1_alg».proof.Proof.KB.Seg13
import proofs.«146967_j25786983645193_1_alg».proof.Proof.KB.Seg14
import proofs.«146967_j25786983645193_1_alg».proof.Proof.KB.Seg15
import proofs.«146967_j25786983645193_1_alg».proof.Proof.KB.Seg16
import proofs.«146967_j25786983645193_1_alg».proof.Proof.KB.Seg17
import proofs.«146967_j25786983645193_1_alg».proof.Proof.KB.Seg18
import proofs.«146967_j25786983645193_1_alg».proof.Proof.KB.Seg19
import proofs.«146967_j25786983645193_1_alg».proof.Proof.KB.Seg20
import proofs.«146967_j25786983645193_1_alg».proof.Proof.KB.Seg21
import proofs.«146967_j25786983645193_1_alg».proof.Proof.KB.Seg22
import proofs.«146967_j25786983645193_1_alg».proof.Proof.KB.Seg23
import proofs.«146967_j25786983645193_1_alg».proof.Proof.KB.Seg24
import proofs.«146967_j25786983645193_1_alg».proof.Proof.KB.Seg25
import proofs.«146967_j25786983645193_1_alg».proof.Proof.KB.Seg26
import proofs.«146967_j25786983645193_1_alg».proof.Proof.KB.Seg27
import proofs.«146967_j25786983645193_1_alg».proof.Proof.KB.Seg28
import proofs.«146967_j25786983645193_1_alg».proof.Proof.KB.Seg29
import proofs.«146967_j25786983645193_1_alg».proof.Proof.KB.Seg30
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments -/

/-- @main's 64 items in order: a host segment per stretch from its boundary's contents, a region per pallas_call. -/
abbrev mainSegs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)),
    .region (reg7 m),
    .host (hseg hostOps8 hostOps8_sub hostOps8_fresh (W18 m)),
    .region (reg8 m),
    .region (reg9 m),
    .host (hseg hostOps10 hostOps10_sub hostOps10_fresh (W21 m)),
    .region (reg10 m),
    .host (hseg hostOps11 hostOps11_sub hostOps11_fresh (W23 m)),
    .region (reg11 m),
    .host (hseg hostOps12 hostOps12_sub hostOps12_fresh (W25 m)),
    .region (reg12 m),
    .host (hseg hostOps13 hostOps13_sub hostOps13_fresh (W27 m)),
    .region (reg13 m),
    .host (hseg hostOps14 hostOps14_sub hostOps14_fresh (W29 m)),
    .region (reg14 m),
    .host (hseg hostOps15 hostOps15_sub hostOps15_fresh (W31 m)),
    .region (reg15 m),
    .host (hseg hostOps16 hostOps16_sub hostOps16_fresh (W33 m)),
    .region (reg16 m),
    .host (hseg hostOps17 hostOps17_sub hostOps17_fresh (W35 m)),
    .region (reg17 m),
    .host (hseg hostOps18 hostOps18_sub hostOps18_fresh (W37 m)),
    .region (reg18 m),
    .host (hseg hostOps19 hostOps19_sub hostOps19_fresh (W39 m)),
    .region (reg19 m),
    .host (hseg hostOps20 hostOps20_sub hostOps20_fresh (W41 m)),
    .region (reg20 m),
    .host (hseg hostOps21 hostOps21_sub hostOps21_fresh (W43 m)),
    .region (reg21 m),
    .host (hseg hostOps22 hostOps22_sub hostOps22_fresh (W45 m)),
    .region (reg22 m),
    .host (hseg hostOps23 hostOps23_sub hostOps23_fresh (W47 m)),
    .region (reg23 m),
    .host (hseg hostOps24 hostOps24_sub hostOps24_fresh (W49 m)),
    .region (reg24 m),
    .host (hseg hostOps25 hostOps25_sub hostOps25_fresh (W51 m)),
    .region (reg25 m),
    .host (hseg hostOps26 hostOps26_sub hostOps26_fresh (W53 m)),
    .region (reg26 m),
    .host (hseg hostOps27 hostOps27_sub hostOps27_fresh (W55 m)),
    .region (reg27 m),
    .host (hseg hostOps28 hostOps28_sub hostOps28_fresh (W57 m)),
    .region (reg28 m),
    .host (hseg hostOps29 hostOps29_sub hostOps29_fresh (W59 m)),
    .region (reg29 m),
    .host (hseg hostOps30 hostOps30_sub hostOps30_fresh (W61 m)),
    .region (reg30 m),
    .host (hseg hostOps31 hostOps31_sub hostOps31_fresh (W63 m)) ]

/-- The first thread state: every unscoped buffer at the launch contents, the generator register, nothing owed. -/
abbrev T₀ (c : Dev nD) : sProp 𝕄 := iprop(StableHlo.held (c : Thread nD τ) (Pipeline.ucRefs τ sig) (W0 m c) ∗ R c)

/-- The segments' fragments are @main's items. -/
theorem mainSegs_prog : (mainSegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          Prog.lift (.customCall (Pipeline.entry 23) ()),
          StableHlo.seq hostOps24,
          Prog.lift (.customCall (Pipeline.entry 24) ()),
          StableHlo.seq hostOps25,
          Prog.lift (.customCall (Pipeline.entry 25) ()),
          StableHlo.seq hostOps26,
          Prog.lift (.customCall (Pipeline.entry 26) ()),
          StableHlo.seq hostOps27,
          Prog.lift (.customCall (Pipeline.entry 27) ()),
          StableHlo.seq hostOps28,
          Prog.lift (.customCall (Pipeline.entry 28) ()),
          StableHlo.seq hostOps29,
          Prog.lift (.customCall (Pipeline.entry 29) ()),
          StableHlo.seq hostOps30,
          Prog.lift (.customCall (Pipeline.entry 30) ()),
          StableHlo.seq hostOps31 ] := rfl

/-- A run of the segments is a run of @main. -/
theorem hmain (c : Dev nD) (Q : PUnit → sProp 𝕄) :
    wp frame (wpE (Pipeline.defs (pcfgs (F := F)) defs₀) (Variants.lift 𝒱₀) (c.tc : Thread nD τ) none) Set.univ (Pipeline.Seg.run (mainSegs m)) Q
      ⊢ wp frame (wpE (Pipeline.defs (pcfgs (F := F)) defs₀) (Variants.lift 𝒱₀) (c.tc : Thread nD τ) none) Set.univ (main (F := F) c) Q := by
  rewrite [main_chain c, Pipeline.Seg.run_eq_chain, mainSegs_prog m]
  exact .rfl

/-- Each pipeline is entered once. -/
theorem hnd : (Pipeline.Seg.pipes (mainSegs m)).Nodup := by
  simp only [mainSegs, Pipeline.Seg.pipes_host, Pipeline.Seg.pipes_region, Pipeline.Seg.pipes_nil]; decide

/-- The last stretch leaves the last thread state beside the core owing nothing. -/
theorem hlast (c : Dev nD) :
    iprop(StableHlo.held (c : Thread nD τ) (Pipeline.ucRefs τ sig) (W64 m c) ∗ R c)
      ⊢ iprop(Tₙ m c ∗ ∃ W, owes (c.tc : Thread nD τ) (0 : CellTallies nD τ sig Unit) W) := by
  iintro ⟨Hh, Hp, HO⟩
  isplitl [Hh Hp]
  · isplitl [Hh] <;> iassumption
  iexact HO

/-- Each item is entered from the thread state the one before it left: the boundaries' contents agree by name. -/
theorem hch (c : Dev nD) : Pipeline.Seg.ChainsAt c (T₀ m) (mainSegs m)
    fun c => iprop(Tₙ m c ∗ ∃ W, owes (c.tc : Thread nD τ) (0 : CellTallies nD τ sig Unit) W) :=
  ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
    hlast m c⟩

-- the launch theorem's implicit arguments are found by unifying its conclusion with this one, which takes unfolding
-- plain definitions in a metavariable's type
set_option backward.isDefEq.respectTransparency.types false in
/-- THE RUN of the kernel program at any float interpretation: from any memory with zero counters every weakly fair
    execution of @main on the TensorCores terminates, nothing faulting, and every final state holds the result buffer
    at the last boundary's contents and each argument as launched. -/
theorem run_main : θ_run defs (onTc (τ := τ) (main (F := F))) ⟨m, fun _ => 0, ρ⟩ (fun r => ∀ c : Dev nD,
      r.2.mem ((c.tc : Thread nD τ).loc main_v316) = W64 m c (Proc.devRef .tc main_v316)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_dev (pcfgs (F := F)) adm (pdats m) () cellOf_inj emb₁ defs₀ 𝒱₀ L lv m ρ main (fun _ => mainSegs m)
    (hmain m) (fun _ => hnd m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T₀ m) (Tₙ := Tₙ m)
    (hch := hch m)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W64 m c b)
    (hfin := fun c s' => by
      iintro ⟨⟨Hh, -⟩, HSI⟩
      unfold StableHlo.held
      imodintro
      iapply (pointsTo_read_all (Pipeline.ucRefs τ sig) (fun b => (((c : Thread nD τ)).1, b)) (W64 m c) s')
      isplitl [Hh] <;> iassumption)
    (hQ := fun s h c =>
      ⟨h c _ (mem_uc main_v316 (by decide)),
       (h c _ (mem_uc main_arg0 (by decide))).trans (W64_arg m c (by decide)),
       (h c _ (mem_uc main_arg1 (by decide))).trans (W64_arg m c (by decide)),
       (h c _ (mem_uc main_arg2 (by decide))).trans (W64_arg m c (by decide)),
       (h c _ (mem_uc main_arg3 (by decide))).trans (W64_arg m c (by decide)),
       (h c _ (mem_uc main_arg4 (by decide))).trans (W64_arg m c (by decide)),
       (h c _ (mem_uc main_arg5 (by decide))).trans (W64_arg m c (by decide)),
       (h c _ (mem_uc main_arg6 (by decide))).trans (W64_arg m c (by decide)),
       (h c _ (mem_uc main_arg7 (by decide))).trans (W64_arg m c (by decide)),
       (h c _ (mem_uc main_arg8 (by decide))).trans (W64_arg m c (by decide)),
       (h c _ (mem_uc main_arg9 (by decide))).trans (W64_arg m c (by decide)),
       (h c _ (mem_uc main_arg10 (by decide))).trans (W64_arg m c (by decide)),
       (h c _ (mem_uc main_arg11 (by decide))).trans (W64_arg m c (by decide)),
       (h c _ (mem_uc main_arg12 (by decide))).trans (W64_arg m c (by decide)),
       (h c _ (mem_uc main_arg13 (by decide))).trans (W64_arg m c (by decide)),
       (h c _ (mem_uc main_arg14 (by decide))).trans (W64_arg m c (by decide)),
       (h c _ (mem_uc main_arg15 (by decide))).trans (W64_arg m c (by decide)),
       (h c _ (mem_uc main_arg16 (by decide))).trans (W64_arg m c (by decide)),
       (h c _ (mem_uc main_arg17 (by decide))).trans (W64_arg m c (by decide)),
       (h c _ (mem_uc main_arg18 (by decide))).trans (W64_arg m c (by decide)),
       (h c _ (mem_uc main_arg19 (by decide))).trans (W64_arg m c (by decide))⟩)

end Cert.Kernel.Reg

end
-- ==== Proof.KI.Reg0.lean ====
/- REGION 0 of the kernel program (custom_call 0, `cc0__matmul_kernel`, pipeline 0), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk0`); what the body leaves in the output buffer as a function
   of the two input blocks (`out0_2`); the body's triple on whole staging memrefs (`sound_kernel0`); the
   pipeline's proof data at `V` (`dat0`) with its projections; and the body obligation at every point
   (`body_obligation0`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, its index moving with the point): its current staging buffer holds its block at
    every point, for ANY proof data whose array is `V`'s (`hA`) and whose body leaves the block in place
    (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The full rectangle of each window's staging buffer: the row block's, the weight's, the output block's. -/
abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out0_2 (xa : Vec F S1000x512 .f32) (xb : Vec F S512x256 .f32) : Vec F S1000x256 .f32 :=
  View.canon [⟨r0_2, k0_pay1 (View.ld xa r0_0) (View.ld xb r0_1)⟩]

/-- The one store is through the full rectangle, so it covers the buffer. -/
theorem cover0_2 (pa : Vec F S1000x256 .f32) (y : S1000x256.Idx) :
    ∃ pc ∈ ([⟨r0_2, pa⟩] : List (View.Piece (Elt F) S1000x256 .f32)), y ∈ pc.1.set :=
  View.cover_of_tiled [⟨r0_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out0_2 xa xb`: the printed function is its skeleton of three loads and one store, run one operation after
    the other; the load of the output buffer reads a value nothing uses. -/
theorem sound_kernel0 (c : Dev nD) (E : Set ℕ) (i : grid0.Coords) (ma : Memref sig .tc .vmem S1000x512 .f32) (hma : ma.IsWhole) (mb : Memref sig .tc .vmem S512x256 .f32) (hmb : mb.IsWhole) (mc : Memref sig .tc .vmem S1000x256 .f32) (hmc : mc.IsWhole)
    (xa : Vec F S1000x512 .f32) (xb : Vec F S512x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out0_2 xa xb)) -∗ K ⟨⟩))
      ⊢ wp frame (wpE (defs₀ (F := F)) Variants.none c none) E (cc0__matmul_kernel i ma hma mb hmb mc hmc) K := by
  simp only [cc0__matmul_kernel_eq_skeleton]; unfold cc0__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%da, Ha⟩, ⟨%db, Hb⟩, ⟨%dc, Hc⟩⟩
  iapply (sound_kernel0 c Set.univ (grid0.coords t) _ _ _ _ _ _ (iblk0 V c 0 t) (iblk0 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg
-- ==== Proof.KI.Reg1.lean ====
/-
  REGION 1 of the kernel program (custom_call 1, the kernel function cc1__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt1, with its two case equations outsAt1_zero and outsAt1_succ).
  Per case the body's triple is a subtype: the lists of stores (rectangle and payload, last first) each output buffer
  ends with, together with the proof that the body runs to a continuation holding exactly those stores written
  (kernelRun1_A, kernelRun1_B). What a buffer then READS is the canonical contents of its list (View.canon), since the
  last store of each list covers the block.

  Exported: the proof data dat1 (arrays at V, full shares, nothing owed), A_eq1, the body obligation
  body_obligation1, the recursion outsAt1 and its equations, after1_0 / after1_1 / after1_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond1_0 (i : grid1.Coords) : Prop :=
  (Scalar.cmpi .ne (Scalar.extui (Scalar.cmpi .eq (BitVec.ofNat 32 (i 0).val) 0#32)) 0#32) = 1#1

/-- It holds at the first point only: decided over the 50 points. -/
theorem hcond1_0 : ∀ t : Fin cfg1.N, cond1_0 (grid1.coords t) ↔ t.val = 0 :=
  (by decide +kernel : ∀ t : Fin grid1.N, cond1_0 (grid1.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun1_A (c : Dev nD) (i : grid1.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond1_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__sumsq_kernel i arg1 harg1 arg2 harg2 arg3 harg3) K } := by
  refine ⟨?_, ?_, fun E K => ?run⟩
  case run =>
    simp only [cc1__sumsq_kernel_eq_skeleton]; unfold cc1__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun1_B (c : Dev nD) (i : grid1.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond1_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__sumsq_kernel i arg1 harg1 arg2 harg2 arg3 harg3) K } := by
  refine ⟨?_, ?_, fun E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s and whose body leaves the block in place: unfetched, the block index has not moved. The
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the two output buffers -/

/-- The whole-block rectangle of a [1,256] buffer at zero offsets: every index lies in it. -/
private theorem mem_whole_S1x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover1_A_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) (y : S1x256.Idx) :
    ∃ pc ∈ (kernelRun1_A c i arg1 harg1 arg2 harg2 arg3 harg3 hc0 x0).1, y ∈ pc.1.set := by
  unfold kernelRun1_A
  dsimp only
  refine ⟨_, List.mem_cons_self, ?_⟩
  exact mem_whole_S1x256 inb_S1x256_S1x256_0_0 y

/-- Case A's stores into output 2 cover its block likewise. -/
theorem cover1_A_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) (y : S1x256.Idx) :
    ∃ pc ∈ (kernelRun1_A c i arg1 harg1 arg2 harg2 arg3 harg3 hc0 x0).2.1, y ∈ pc.1.set := by
  unfold kernelRun1_A
  dsimp only
  refine ⟨_, List.mem_cons_self, ?_⟩
  exact mem_whole_S1x256 inb_S1x256_S1x256_0_0 y

/-- Case B's one store into output 1 covers its block. -/
theorem cover1_B_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) (y : S1x256.Idx) :
    ∃ pc ∈ (kernelRun1_B c i arg1 harg1 arg2 harg2 arg3 harg3 hc0 x0 xo1 xo2).1, y ∈ pc.1.set := by
  unfold kernelRun1_B
  dsimp only
  refine ⟨_, List.mem_cons_self, ?_⟩
  exact mem_whole_S1x256 inb_S1x256_S1x256_0_0 y

/-- Case B's one store into output 2 covers its block. -/
theorem cover1_B_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) (y : S1x256.Idx) :
    ∃ pc ∈ (kernelRun1_B c i arg1 harg1 arg2 harg2 arg3 harg3 hc0 x0 xo1 xo2).2.1, y ∈ pc.1.set := by
  unfold kernelRun1_B
  dsimp only
  refine ⟨_, List.mem_cons_self, ?_⟩
  exact mem_whole_S1x256 inb_S1x256_S1x256_0_0 y

/-- What case A leaves in output 1's staging buffer: the canonical contents of its stores. -/
def out1_A_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) : Vec F S1x256 .f32 :=
  View.canon (kernelRun1_A c i arg1 harg1 arg2 harg2 arg3 harg3 hc0 x0).1

/-- What case A leaves in output 2's staging buffer. -/
def out1_A_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond1_0 i) (x0 : Vec F S1000x256 .f32) : Vec F S1x256 .f32 :=
  View.canon (kernelRun1_A c i arg1 harg1 arg2 harg2 arg3 harg3 hc0 x0).2.1

/-- What case B leaves in output 1's staging buffer, from the input block and what the two outputs held. -/
def out1_B_1 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) : Vec F S1x256 .f32 :=
  View.canon (kernelRun1_B c i arg1 harg1 arg2 harg2 arg3 harg3 hc0 x0 xo1 xo2).1

/-- What case B leaves in output 2's staging buffer. -/
def out1_B_2 (c : Dev nD) (i : grid1.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond1_0 i) (x0 : Vec F S1000x256 .f32) (xo1 xo2 : Vec F S1x256 .f32) : Vec F S1x256 .f32 :=
  View.canon (kernelRun1_B c i arg1 harg1 arg2 harg2 arg3 harg3 hc0 x0 xo1 xo2).2.1

/-! ## What the outputs hold after each point -/

/-- Each window's current staging memref at point `t` is whole. -/
abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)

/-- A later point is not the first, so the conditional is not taken there. -/
theorem ncond1_0 (t : Fin cfg1.N) (h0 : t.val ≠ 0) : ¬cond1_0 (grid1.coords t) := fun h => h0 ((hcond1_0 t).mp h)

/-- THE ACCUMULATION. What the two outputs' staging buffers hold after the body at point `n`: at the first point
    case A's contents of the point's input block; at a later point case B's contents of the point's input block and of
    what this recursion gives at `n - 1` (the buffers are not written back between). -/
def outsAt1 (c : Dev nD) : (n : ℕ) → n < cfg1.N → Vec F S1x256 .f32 × Vec F S1x256 .f32
  | 0, hn =>
    (out1_A_1 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
        ((hcond1_0 ⟨0, hn⟩).mpr rfl) (iblk1 V c 0 ⟨0, hn⟩),
     out1_A_2 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
        ((hcond1_0 ⟨0, hn⟩).mpr rfl) (iblk1 V c 0 ⟨0, hn⟩))
  | n + 1, hn =>
    (out1_B_1 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
        (ncond1_0 ⟨n + 1, hn⟩ (Nat.succ_ne_zero n)) (iblk1 V c 0 ⟨n + 1, hn⟩)
        (outsAt1 c n (Nat.lt_of_succ_lt hn)).1 (outsAt1 c n (Nat.lt_of_succ_lt hn)).2,
     out1_B_2 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
        (ncond1_0 ⟨n + 1, hn⟩ (Nat.succ_ne_zero n)) (iblk1 V c 0 ⟨n + 1, hn⟩)
        (outsAt1 c n (Nat.lt_of_succ_lt hn)).1 (outsAt1 c n (Nat.lt_of_succ_lt hn)).2)

/-- The recursion at point 0. -/
theorem outsAt1_zero (c : Dev nD) (hn : 0 < cfg1.N) :
    outsAt1 V c 0 hn =
      (out1_A_1 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
          ((hcond1_0 ⟨0, hn⟩).mpr rfl) (iblk1 V c 0 ⟨0, hn⟩),
       out1_A_2 c (grid1.coords ⟨0, hn⟩) (st1_0 ⟨0, hn⟩) (hs1_0 ⟨0, hn⟩) (st1_1 ⟨0, hn⟩) (hs1_1 ⟨0, hn⟩) (st1_2 ⟨0, hn⟩) (hs1_2 ⟨0, hn⟩)
          ((hcond1_0 ⟨0, hn⟩).mpr rfl) (iblk1 V c 0 ⟨0, hn⟩)) := rfl

/-- The recursion at point `n + 1`. -/
theorem outsAt1_succ (c : Dev nD) (n : ℕ) (hn : n + 1 < cfg1.N) :
    outsAt1 V c (n + 1) hn =
      (out1_B_1 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
          (ncond1_0 ⟨n + 1, hn⟩ (Nat.succ_ne_zero n)) (iblk1 V c 0 ⟨n + 1, hn⟩)
          (outsAt1 V c n (Nat.lt_of_succ_lt hn)).1 (outsAt1 V c n (Nat.lt_of_succ_lt hn)).2,
       out1_B_2 c (grid1.coords ⟨n + 1, hn⟩) (st1_0 ⟨n + 1, hn⟩) (hs1_0 ⟨n + 1, hn⟩) (st1_1 ⟨n + 1, hn⟩) (hs1_1 ⟨n + 1, hn⟩) (st1_2 ⟨n + 1, hn⟩) (hs1_2 ⟨n + 1, hn⟩)
          (ncond1_0 ⟨n + 1, hn⟩ (Nat.succ_ne_zero n)) (iblk1 V c 0 ⟨n + 1, hn⟩)
          (outsAt1 V c n (Nat.lt_of_succ_lt hn)).1 (outsAt1 V c n (Nat.lt_of_succ_lt hn)).2) := rfl

/-- The recursion at a point of case A (the first), stated at the point. -/
theorem outsAt1_A (c : Dev nD) (t : Fin cfg1.N) (h0 : t.val = 0) :
    outsAt1 V c t.val t.isLt =
      (out1_A_1 c (grid1.coords t) (st1_0 t) (hs1_0 t) (st1_1 t) (hs1_1 t) (st1_2 t) (hs1_2 t) ((hcond1_0 t).mpr h0) (iblk1 V c 0 t),
       out1_A_2 c (grid1.coords t) (st1_0 t) (hs1_0 t) (st1_1 t) (hs1_1 t) (st1_2 t) (hs1_2 t) ((hcond1_0 t).mpr h0) (iblk1 V c 0 t)) := by
  obtain ⟨n, hn⟩ := t
  cases n with
  | zero => exact rfl
  | succ n => exact absurd h0 (Nat.succ_ne_zero n)

/-- The recursion at a point of case B (a later one), stated at the point: over what the point before left. -/
theorem outsAt1_B (c : Dev nD) (t : Fin cfg1.N) (h0 : t.val ≠ 0) :
    outsAt1 V c t.val t.isLt =
      (out1_B_1 c (grid1.coords t) (st1_0 t) (hs1_0 t) (st1_1 t) (hs1_1 t) (st1_2 t) (hs1_2 t) (ncond1_0 t h0) (iblk1 V c 0 t)
          (outsAt1 V c (t.val - 1) (Nat.lt_of_le_of_lt (Nat.sub_le _ _) t.isLt)).1
          (outsAt1 V c (t.val - 1) (Nat.lt_of_le_of_lt (Nat.sub_le _ _) t.isLt)).2,
       out1_B_2 c (grid1.coords t) (st1_0 t) (hs1_0 t) (st1_1 t) (hs1_1 t) (st1_2 t) (hs1_2 t) (ncond1_0 t h0) (iblk1 V c 0 t)
          (outsAt1 V c (t.val - 1) (Nat.lt_of_le_of_lt (Nat.sub_le _ _) t.isLt)).1
          (outsAt1 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 1 on core `c`: the arrays as the region finds them (`V`); after the body at point
    `t` the input's buffer at its block and the two outputs' at `outsAt1`; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-- At a later point output 1's staging buffer holds what the body left at the point before: the point is not the
    first, the buffer was not written back between (it is written back after point 49 only), the window is live and
    uncut. -/
theorem before1_1_B (c : Dev nD) (t : Fin cfg1.N) (h0 : t.val ≠ 0) (d) :
    (dat1 V c).before 1 t d = (outsAt1 V c (t.val - 1) (Nat.lt_of_le_of_lt (Nat.sub_le _ _) t.isLt)).1 := by
  have hN : t.val < 50 := lt_of_lt_of_eq t.isLt (show cfg1.N = 50 from N_1)
  rw [Dat.before_out_kept _ 1 rfl t h0 (Bool.eq_false_iff.mpr fun h => by have := (flush1_1 _).mp h; dsimp only at this; omega)
    (fun _ => rfl) (fun _ _ => rfl)]
  dsimp only [dat1]

/-- Likewise output 2's. -/
theorem before1_2_B (c : Dev nD) (t : Fin cfg1.N) (h0 : t.val ≠ 0) (d) :
    (dat1 V c).before 2 t d = (outsAt1 V c (t.val - 1) (Nat.lt_of_le_of_lt (Nat.sub_le _ _) t.isLt)).2 := by
  have hN : t.val < 50 := lt_of_lt_of_eq t.isLt (show cfg1.N = 50 from N_1)
  rw [Dat.before_out_kept _ 2 rfl t h0 (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [outsAt1_A V c t h0]
    dsimp only
    unfold out1_A_1 out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover1_A_1 c _ _ _ _ _ _ _ _ _)
    · unfold owns; iexists _; isplitr
      swap; · iexact H2
      ipureintro; exact View.read_writes_eq_canon _ _ _ (cover1_A_2 c _ _ _ _ _ _ _ _ _)
  · rw [outsAt1_B V c t h0]
    dsimp only
    simp only [before1_1_B V c t h0, before1_2_B V c t h0]
    unfold out1_B_1 out1_B_2
    iintro ⟨HΦ, Ho, ⟨%d0, H0⟩, ⟨%d1, H1⟩, ⟨%d2, H2⟩⟩
    iapply ((kernelRun1_B c (grid1.coords t) _ _ _ _ _ _ (ncond1_0 t h0) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover1_B_1 c _ _ _ _ _ _ _ _ _ _ _)
    · unfold owns; iexists _; isplitr
      swap; · iexact H2
      ipureintro; exact View.read_writes_eq_canon _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Reg2.lean ====
/- REGION 2 of the kernel program: custom_call 2, `cc2__bn_relu_kernel` (pipeline 2), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out2_6`), it keeps nothing from point
   to point and names no semaphore, transfer, table or scratch: the plainest class of pipeline body.
   Stated here, for any float interpretation `F`: each window's block at a point (`iblk2`), that every input's
   staging buffer holds its block at every point (`before2_W_of`), the body's triple (`sound_kernel2`), the
   pipeline's proof data (`dat2`) and the body obligation (`body_obligation2`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [1000,256] buffer, and the whole [1,256] buffer: every load and the one store are of a whole buffer. -/
abbrev r2_0 : Rect S1000x256 := Rect.unit (s := S1000x256) ![0, 0] S1000x256.size inb_S1000x256_S1000x256_0_0
abbrev r2_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out2_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r2_0, k2_pay1 (View.ld x0 r2_0) (View.ld x1 r2_1) (View.ld x2 r2_1) (View.ld x3 r2_1) (View.ld x4 r2_1) (View.ld x5 r2_1)⟩]

/-- The one store is of the whole buffer (checked by evaluation), so it covers it. -/
theorem cover2_6 (p0 : Vec F S1000x256 .f32) (y : S1000x256.Idx) :
    ∃ pc ∈ ([⟨r2_0, p0⟩] : List (View.Piece (Elt F) S1000x256 .f32)), y ∈ pc.1.set :=
  View.cover_of_tiled [⟨r2_0, p0⟩] S1000x256.size (by rfl) y

/-! ## The body's triple -/

set_option maxHeartbeats 1000000 in
/-- The kernel body on whole staging memrefs, the inputs' at read contents `xW` and the output's at anything, runs to
    the continuation holding the inputs' as they were and the output's at `out2_6` of the inputs': the printed function
    is its skeleton, a sequence of whole-buffer loads and one whole-buffer store, which is run step by step. -/
theorem sound_kernel2 (c : Dev nD) (E : Set ℕ) (i : grid2.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_kernel i arg1 harg1 arg2 harg2 arg3 harg3 arg4 harg4 arg5 harg5 arg6 harg6 arg7 harg7) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant that
    of the class (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg
-- ==== Proof.KI.Reg3.lean ====
/- REGION 3 of the kernel program (custom_call 3, `cc3__matmul_kernel`, pipeline 3), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk3`); what the body leaves in the output buffer as a function
   of the two input blocks (`out3_2`); the body's triple on whole staging memrefs (`sound_kernel3`); the
   pipeline's proof data at `V` (`dat3`) with its projections; and the body obligation at every point
   (`body_obligation3`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block, its index moving with the point): its current staging buffer holds its block at
    every point, for ANY proof data whose array is `V`'s (`hA`) and whose body leaves the block in place
    (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The full rectangle of each window's staging buffer: the row block's, the weight's, the output block's. -/
abbrev r3_0 : Rect S1000x256 := Rect.unit (s := S1000x256) ![0, 0] S1000x256.size inb_S1000x256_S1000x256_0_0
abbrev r3_1 : Rect S256x256 := Rect.unit (s := S256x256) ![0, 0] S256x256.size inb_S256x256_S256x256_0_0
abbrev r3_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out3_2 (xa : Vec F S1000x256 .f32) (xb : Vec F S256x256 .f32) : Vec F S1000x256 .f32 :=
  View.canon [⟨r3_2, k3_pay1 (View.ld xa r3_0) (View.ld xb r3_1)⟩]

/-- The one store is through the full rectangle, so it covers the buffer. -/
theorem cover3_2 (pa : Vec F S1000x256 .f32) (y : S1000x256.Idx) :
    ∃ pc ∈ ([⟨r3_2, pa⟩] : List (View.Piece (Elt F) S1000x256 .f32)), y ∈ pc.1.set :=
  View.cover_of_tiled [⟨r3_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out3_2 xa xb`: the printed function is its skeleton of three loads and one store, run one operation after
    the other; the load of the output buffer reads a value nothing uses. -/
theorem sound_kernel3 (c : Dev nD) (E : Set ℕ) (i : grid3.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out3_2 xa xb)) -∗ K ⟨⟩))
      ⊢ wp frame (wpE (defs₀ (F := F)) Variants.none c none) E (cc3__matmul_kernel i ma hma mb hmb mc hmc) K := by
  simp only [cc3__matmul_kernel_eq_skeleton]; unfold cc3__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant the
    class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so `sound_kernel3`
    applies; the invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%da, Ha⟩, ⟨%db, Hb⟩, ⟨%dc, Hc⟩⟩
  iapply (sound_kernel3 c Set.univ (grid3.coords t) _ _ _ _ _ _ (iblk3 V c 0 t) (iblk3 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg
-- ==== Proof.KI.Reg4.lean ====
/-
  REGION 4 of the kernel program (custom_call 4, the kernel function cc4__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt4, with its two case equations outsAt4_zero and outsAt4_succ).
  Per case the body's triple is a subtype: the lists of stores (rectangle and payload, last first) each output buffer
  ends with, together with the proof that the body runs to a continuation holding exactly those stores written
  (kernelRun4_A, kernelRun4_B). What a buffer then READS is the canonical contents of its list (View.canon), since the
  last store of each list covers the block.

  Exported: the proof data dat4 (arrays at V, full shares, nothing owed), A_eq4, the body obligation
  body_obligation4, the recursion outsAt4 and its equations, after4_0 / after4_1 / after4_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond4_0 (i : grid4.Coords) : Prop :=
  (Scalar.cmpi .ne (Scalar.extui (Scalar.cmpi .eq (BitVec.ofNat 32 (i 0).val) 0#32)) 0#32) = 1#1

/-- It holds at the first point only: decided over the 50 points. -/
theorem hcond4_0 : ∀ t : Fin cfg4.N, cond4_0 (grid4.coords t) ↔ t.val = 0 :=
  (by decide +kernel : ∀ t : Fin grid4.N, cond4_0 (grid4.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun4_A (c : Dev nD) (i : grid4.Coords)
    (arg4 : Memref sig .tc .vmem S1000x256 .f32) (harg4 : arg4.IsWhole)
    (arg2 : Memref sig .tc .vmem S1x256 .f32) (harg2 : arg2.IsWhole)
    (arg3 : Memref sig .tc .vmem S1x256 .f32) (harg3 : arg3.IsWhole) (hc0 : cond4_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg4 fullShare x0 ∗ (∃ d, owns (c : Thread nD τ) arg2 fullShare d)
            ∗ (∃ d, owns (c : Thread nD τ) arg3 fullShare d)
            ∗ (iprop(owns (c : Thread nD τ) arg4 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4__sumsq_kernel i arg4 harg4 arg2 harg2 arg3 harg3) K } := by
  refine ⟨?_, ?_, fun E K => ?run⟩
  case run =>
    simp only [cc4__sumsq_kernel_eq_skeleton]; unfold cc4__sumsq_kernel_skel
    unfold owns
    iintro ⟨⟨%f0, %hf0, H0⟩, ⟨%d1, %f1, -, H1⟩, ⟨%d2, %f2, -, H2⟩, Hk⟩
    obtain rfl := harg4.eq_unread hf0
    sl_exec (disch := first | exact hc0)
    sl_step
    iapply Hk
    isplitl [H0]
    · iexists _; isplitr; · ipureintro; exact harg4.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun4_B (c : Dev nD) (i : grid4.Coords)
    (arg4 : Memref sig .tc .vmem S1000x256 .f32) (harg4 : arg4.IsWhole)
    (arg2 : Memref sig .tc .vmem S1x256 .f32) (harg2 : arg2.IsWhole)
    (arg3 : Memref sig .tc .vmem S1x256 .f32) (harg3 : arg3.IsWhole) (hc0 : ¬cond4_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg4 fullShare x0 ∗ owns (c : Thread nD τ) arg2 fullShare xo1
            ∗ owns (c : Thread nD τ) arg3 fullShare xo2
            ∗ (iprop(owns (c : Thread nD τ) arg4 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4__sumsq_kernel i arg4 harg4 arg2 harg2 arg3 harg3) K } := by
  refine ⟨?_, ?_, fun E K => ?run⟩
  case run =>
    simp only [cc4__sumsq_kernel_eq_skeleton]; unfold cc4__sumsq_kernel_skel
    unfold owns
    iintro ⟨⟨%f0, %hf0, H0⟩, ⟨%f1, %hf1, H1⟩, ⟨%f2, %hf2, H2⟩, Hk⟩
    obtain rfl := harg4.eq_unread hf0; obtain rfl := harg2.eq_unread hf1; obtain rfl := harg3.eq_unread hf2
    sl_exec (disch := first | exact hc0)
    sl_step
    iapply Hk
    isplitl [H0]
    · iexists _; isplitr; · ipureintro; exact harg4.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof data
    whose array is `V`'s and whose body leaves the block in place: unfetched, the block index has not moved. The
    window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the two output buffers -/

/-- The whole-block rectangle of a [1,256] buffer at zero offsets: every index lies in it. -/
private theorem mem_whole_S4x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover4_A_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) (y : S1x256.Idx) :
    ∃ pc ∈ (kernelRun4_A c i arg4 harg4 arg2 harg2 arg3 harg3 hc0 x0).1, y ∈ pc.1.set := by
  unfold kernelRun4_A
  dsimp only
  refine ⟨_, List.mem_cons_self, ?_⟩
  exact mem_whole_S4x256 inb_S1x256_S1x256_0_0 y

/-- Case A's stores into output 2 cover its block likewise. -/
theorem cover4_A_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) (y : S1x256.Idx) :
    ∃ pc ∈ (kernelRun4_A c i arg4 harg4 arg2 harg2 arg3 harg3 hc0 x0).2.1, y ∈ pc.1.set := by
  unfold kernelRun4_A
  dsimp only
  refine ⟨_, List.mem_cons_self, ?_⟩
  exact mem_whole_S4x256 inb_S1x256_S1x256_0_0 y

/-- Case B's one store into output 1 covers its block. -/
theorem cover4_B_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) (y : S1x256.Idx) :
    ∃ pc ∈ (kernelRun4_B c i arg4 harg4 arg2 harg2 arg3 harg3 hc0 x0 xo1 xo2).1, y ∈ pc.1.set := by
  unfold kernelRun4_B
  dsimp only
  refine ⟨_, List.mem_cons_self, ?_⟩
  exact mem_whole_S4x256 inb_S1x256_S1x256_0_0 y

/-- Case B's one store into output 2 covers its block. -/
theorem cover4_B_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) (y : S1x256.Idx) :
    ∃ pc ∈ (kernelRun4_B c i arg4 harg4 arg2 harg2 arg3 harg3 hc0 x0 xo1 xo2).2.1, y ∈ pc.1.set := by
  unfold kernelRun4_B
  dsimp only
  refine ⟨_, List.mem_cons_self, ?_⟩
  exact mem_whole_S4x256 inb_S1x256_S1x256_0_0 y

/-- What case A leaves in output 1's staging buffer: the canonical contents of its stores. -/
def out4_A_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) : Vec F S1x256 .f32 :=
  View.canon (kernelRun4_A c i arg4 harg4 arg2 harg2 arg3 harg3 hc0 x0).1

/-- What case A leaves in output 2's staging buffer. -/
def out4_A_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : cond4_0 i) (x0 : Vec F S1000x256 .f32) : Vec F S1x256 .f32 :=
  View.canon (kernelRun4_A c i arg4 harg4 arg2 harg2 arg3 harg3 hc0 x0).2.1

/-- What case B leaves in output 1's staging buffer, from the input block and what the two outputs held. -/
def out4_B_1 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) : Vec F S1x256 .f32 :=
  View.canon (kernelRun4_B c i arg4 harg4 arg2 harg2 arg3 harg3 hc0 x0 xo1 xo2).1

/-- What case B leaves in output 2's staging buffer. -/
def out4_B_2 (c : Dev nD) (i : grid4.Coords) (arg4 : Memref sig .tc .vmem S1000x256 .f32) (harg4 : arg4.IsWhole)
    (arg2 : Memref sig .tc .vmem S1x256 .f32) (harg2 : arg2.IsWhole) (arg3 : Memref sig .tc .vmem S1x256 .f32) (harg3 : arg3.IsWhole)
    (hc0 : ¬cond4_0 i) (x0 : Vec F S1000x256 .f32) (xo1 xo2 : Vec F S1x256 .f32) : Vec F S1x256 .f32 :=
  View.canon (kernelRun4_B c i arg4 harg4 arg2 harg2 arg3 harg3 hc0 x0 xo1 xo2).2.1

/-! ## What the outputs hold after each point -/

/-- Each window's current staging memref at point `t` is whole. -/
abbrev hs4_0 (t : Fin cfg4.N) : (st4_0 t).IsWhole := hstage4_0 ((cfg4.slots t 0).cast nbuf4_0)
abbrev hs4_1 (t : Fin cfg4.N) : (st4_1 t).IsWhole := hstage4_1 ((cfg4.slots t 1).cast nbuf4_1)
abbrev hs4_2 (t : Fin cfg4.N) : (st4_2 t).IsWhole := hstage4_2 ((cfg4.slots t 2).cast nbuf4_2)

/-- A later point is not the first, so the conditional is not taken there. -/
theorem ncond4_0 (t : Fin cfg4.N) (h0 : t.val ≠ 0) : ¬cond4_0 (grid4.coords t) := fun h => h0 ((hcond4_0 t).mp h)

/-- THE ACCUMULATION. What the two outputs' staging buffers hold after the body at point `n`: at the first point
    case A's contents of the point's input block; at a later point case B's contents of the point's input block and of
    what this recursion gives at `n - 1` (the buffers are not written back between). -/
def outsAt4 (c : Dev nD) : (n : ℕ) → n < cfg4.N → Vec F S1x256 .f32 × Vec F S1x256 .f32
  | 0, hn =>
    (out4_A_1 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
        ((hcond4_0 ⟨0, hn⟩).mpr rfl) (iblk4 V c 0 ⟨0, hn⟩),
     out4_A_2 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
        ((hcond4_0 ⟨0, hn⟩).mpr rfl) (iblk4 V c 0 ⟨0, hn⟩))
  | n + 1, hn =>
    (out4_B_1 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
        (ncond4_0 ⟨n + 1, hn⟩ (Nat.succ_ne_zero n)) (iblk4 V c 0 ⟨n + 1, hn⟩)
        (outsAt4 c n (Nat.lt_of_succ_lt hn)).1 (outsAt4 c n (Nat.lt_of_succ_lt hn)).2,
     out4_B_2 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
        (ncond4_0 ⟨n + 1, hn⟩ (Nat.succ_ne_zero n)) (iblk4 V c 0 ⟨n + 1, hn⟩)
        (outsAt4 c n (Nat.lt_of_succ_lt hn)).1 (outsAt4 c n (Nat.lt_of_succ_lt hn)).2)

/-- The recursion at point 0. -/
theorem outsAt4_zero (c : Dev nD) (hn : 0 < cfg4.N) :
    outsAt4 V c 0 hn =
      (out4_A_1 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
          ((hcond4_0 ⟨0, hn⟩).mpr rfl) (iblk4 V c 0 ⟨0, hn⟩),
       out4_A_2 c (grid4.coords ⟨0, hn⟩) (st4_0 ⟨0, hn⟩) (hs4_0 ⟨0, hn⟩) (st4_1 ⟨0, hn⟩) (hs4_1 ⟨0, hn⟩) (st4_2 ⟨0, hn⟩) (hs4_2 ⟨0, hn⟩)
          ((hcond4_0 ⟨0, hn⟩).mpr rfl) (iblk4 V c 0 ⟨0, hn⟩)) := rfl

/-- The recursion at point `n + 1`. -/
theorem outsAt4_succ (c : Dev nD) (n : ℕ) (hn : n + 1 < cfg4.N) :
    outsAt4 V c (n + 1) hn =
      (out4_B_1 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
          (ncond4_0 ⟨n + 1, hn⟩ (Nat.succ_ne_zero n)) (iblk4 V c 0 ⟨n + 1, hn⟩)
          (outsAt4 V c n (Nat.lt_of_succ_lt hn)).1 (outsAt4 V c n (Nat.lt_of_succ_lt hn)).2,
       out4_B_2 c (grid4.coords ⟨n + 1, hn⟩) (st4_0 ⟨n + 1, hn⟩) (hs4_0 ⟨n + 1, hn⟩) (st4_1 ⟨n + 1, hn⟩) (hs4_1 ⟨n + 1, hn⟩) (st4_2 ⟨n + 1, hn⟩) (hs4_2 ⟨n + 1, hn⟩)
          (ncond4_0 ⟨n + 1, hn⟩ (Nat.succ_ne_zero n)) (iblk4 V c 0 ⟨n + 1, hn⟩)
          (outsAt4 V c n (Nat.lt_of_succ_lt hn)).1 (outsAt4 V c n (Nat.lt_of_succ_lt hn)).2) := rfl

/-- The recursion at a point of case A (the first), stated at the point. -/
theorem outsAt4_A (c : Dev nD) (t : Fin cfg4.N) (h0 : t.val = 0) :
    outsAt4 V c t.val t.isLt =
      (out4_A_1 c (grid4.coords t) (st4_0 t) (hs4_0 t) (st4_1 t) (hs4_1 t) (st4_2 t) (hs4_2 t) ((hcond4_0 t).mpr h0) (iblk4 V c 0 t),
       out4_A_2 c (grid4.coords t) (st4_0 t) (hs4_0 t) (st4_1 t) (hs4_1 t) (st4_2 t) (hs4_2 t) ((hcond4_0 t).mpr h0) (iblk4 V c 0 t)) := by
  obtain ⟨n, hn⟩ := t
  cases n with
  | zero => exact rfl
  | succ n => exact absurd h0 (Nat.succ_ne_zero n)

/-- The recursion at a point of case B (a later one), stated at the point: over what the point before left. -/
theorem outsAt4_B (c : Dev nD) (t : Fin cfg4.N) (h0 : t.val ≠ 0) :
    outsAt4 V c t.val t.isLt =
      (out4_B_1 c (grid4.coords t) (st4_0 t) (hs4_0 t) (st4_1 t) (hs4_1 t) (st4_2 t) (hs4_2 t) (ncond4_0 t h0) (iblk4 V c 0 t)
          (outsAt4 V c (t.val - 1) (Nat.lt_of_le_of_lt (Nat.sub_le _ _) t.isLt)).1
          (outsAt4 V c (t.val - 1) (Nat.lt_of_le_of_lt (Nat.sub_le _ _) t.isLt)).2,
       out4_B_2 c (grid4.coords t) (st4_0 t) (hs4_0 t) (st4_1 t) (hs4_1 t) (st4_2 t) (hs4_2 t) (ncond4_0 t h0) (iblk4 V c 0 t)
          (outsAt4 V c (t.val - 1) (Nat.lt_of_le_of_lt (Nat.sub_le _ _) t.isLt)).1
          (outsAt4 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 4 on core `c`: the arrays as the region finds them (`V`); after the body at point
    `t` the input's buffer at its block and the two outputs' at `outsAt4`; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]
theorem after4_2 (c : Dev nD) (t : Fin cfg4.N) : (dat4 V c).after 2 t = (outsAt4 V c t.val t.isLt).2 := by dsimp only [dat4]

/-- The input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d

/-- At a later point output 1's staging buffer holds what the body left at the point before: the point is not the
    first, the buffer was not written back between (it is written back after point 49 only), the window is live and
    uncut. -/
theorem before4_1_B (c : Dev nD) (t : Fin cfg4.N) (h0 : t.val ≠ 0) (d) :
    (dat4 V c).before 1 t d = (outsAt4 V c (t.val - 1) (Nat.lt_of_le_of_lt (Nat.sub_le _ _) t.isLt)).1 := by
  have hN : t.val < 50 := lt_of_lt_of_eq t.isLt (show cfg4.N = 50 from N_4)
  rw [Dat.before_out_kept _ 1 rfl t h0 (Bool.eq_false_iff.mpr fun h => by have := (flush4_1 _).mp h; dsimp only at this; omega)
    (fun _ => rfl) (fun _ _ => rfl)]
  dsimp only [dat4]

/-- Likewise output 2's. -/
theorem before4_2_B (c : Dev nD) (t : Fin cfg4.N) (h0 : t.val ≠ 0) (d) :
    (dat4 V c).before 2 t d = (outsAt4 V c (t.val - 1) (Nat.lt_of_le_of_lt (Nat.sub_le _ _) t.isLt)).2 := by
  have hN : t.val < 50 := lt_of_lt_of_eq t.isLt (show cfg4.N = 50 from N_4)
  rw [Dat.before_out_kept _ 2 rfl t h0 (Bool.eq_false_iff.mpr fun h => by have := (flush4_2 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  by_cases h0 : t.val = 0
  · rw [outsAt4_A V c t h0]
    dsimp only
    unfold out4_A_1 out4_A_2
    iintro ⟨HΦ, Ho, ⟨%d0, H0⟩, ⟨%d1, H1⟩, ⟨%d2, H2⟩⟩
    iapply ((kernelRun4_A c (grid4.coords t) _ _ _ _ _ _ ((hcond4_0 t).mpr h0) (iblk4 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover4_A_1 c _ _ _ _ _ _ _ _ _)
    · unfold owns; iexists _; isplitr
      swap; · iexact H2
      ipureintro; exact View.read_writes_eq_canon _ _ _ (cover4_A_2 c _ _ _ _ _ _ _ _ _)
  · rw [outsAt4_B V c t h0]
    dsimp only
    simp only [before4_1_B V c t h0, before4_2_B V c t h0]
    unfold out4_B_1 out4_B_2
    iintro ⟨HΦ, Ho, ⟨%d0, H0⟩, ⟨%d1, H1⟩, ⟨%d2, H2⟩⟩
    iapply ((kernelRun4_B c (grid4.coords t) _ _ _ _ _ _ (ncond4_0 t h0) (iblk4 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover4_B_1 c _ _ _ _ _ _ _ _ _ _ _)
    · unfold owns; iexists _; isplitr
      swap; · iexact H2
      ipureintro; exact View.read_writes_eq_canon _ _ _ (cover4_B_2 c _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KI.Reg5.lean ====
/- REGION 5 of the kernel program: custom_call 5, `cc5__bn_relu_kernel` (pipeline 5), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out5_6`), it keeps nothing from point
   to point and names no semaphore, transfer, table or scratch: the plainest class of pipeline body.
   Stated here, for any float interpretation `F`: each window's block at a point (`iblk5`), that every input's
   staging buffer holds its block at every point (`before5_W_of`), the body's triple (`sound_kernel5`), the
   pipeline's proof data (`dat5`) and the body obligation (`body_obligation5`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [1000,256] buffer, and the whole [1,256] buffer: every load and the one store are of a whole buffer. -/
abbrev r5_0 : Rect S1000x256 := Rect.unit (s := S1000x256) ![0, 0] S1000x256.size inb_S1000x256_S1000x256_0_0
abbrev r5_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out5_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r5_0, k5_pay1 (View.ld x0 r5_0) (View.ld x1 r5_1) (View.ld x2 r5_1) (View.ld x3 r5_1) (View.ld x4 r5_1) (View.ld x5 r5_1)⟩]

/-- The one store is of the whole buffer (checked by evaluation), so it covers it. -/
theorem cover5_6 (p0 : Vec F S1000x256 .f32) (y : S1000x256.Idx) :
    ∃ pc ∈ ([⟨r5_0, p0⟩] : List (View.Piece (Elt F) S1000x256 .f32)), y ∈ pc.1.set :=
  View.cover_of_tiled [⟨r5_0, p0⟩] S1000x256.size (by rfl) y

/-! ## The body's triple -/

set_option maxHeartbeats 1000000 in
/-- The kernel body on whole staging memrefs, the inputs' at read contents `xW` and the output's at anything, runs to
    the continuation holding the inputs' as they were and the output's at `out5_6` of the inputs': the printed function
    is its skeleton, a sequence of whole-buffer loads and one whole-buffer store, which is run step by step. -/
theorem sound_kernel5 (c : Dev nD) (E : Set ℕ) (i : grid5.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_relu_kernel i arg1 harg1 arg2 harg2 arg3 harg3 arg4 harg4 arg5 harg5 arg6 harg6 arg7 harg7) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant that
    of the class (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents (the proof data's definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t` (the body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg
-- ==== Proof.KI.Reg6.lean ====
/- REGION 6 of the kernel program (custom_call 6, `cc6__matmul_kernel`, pipeline 6), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk6`); what the body leaves in the output buffer as a function
   of the two input blocks (`out6_2`); the body's triple on whole staging memrefs (`sound_kernel6`); the
   pipeline's proof data at `V` (`dat6`) with its projections; and the body obligation at every point
   (`body_obligation6`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block, its index moving with the point): its current staging buffer holds its block at
    every point, for ANY proof data whose array is `V`'s (`hA`) and whose body leaves the block in place
    (`hafter`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The full rectangle of each window's staging buffer: the row block's, the weight's, the output block's. -/
abbrev r6_0 : Rect S1000x256 := Rect.unit (s := S1000x256) ![0, 0] S1000x256.size inb_S1000x256_S1000x256_0_0
abbrev r6_1 : Rect S256x256 := Rect.unit (s := S256x256) ![0, 0] S256x256.size inb_S256x256_S256x256_0_0
abbrev r6_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out6_2 (xa : Vec F S1000x256 .f32) (xb : Vec F S256x256 .f32) : Vec F S1000x256 .f32 :=
  View.canon [⟨r6_2, k6_pay1 (View.ld xa r6_0) (View.ld xb r6_1)⟩]

/-- The one store is through the full rectangle, so it covers the buffer. -/
theorem cover6_2 (pa : Vec F S1000x256 .f32) (y : S1000x256.Idx) :
    ∃ pc ∈ ([⟨r6_2, pa⟩] : List (View.Piece (Elt F) S1000x256 .f32)), y ∈ pc.1.set :=
  View.cover_of_tiled [⟨r6_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out6_2 xa xb`: the printed function is its skeleton of three loads and one store, run one operation after
    the other; the load of the output buffer reads a value nothing uses. -/
theorem sound_kernel6 (c : Dev nD) (E : Set ℕ) (i : grid6.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out6_2 xa xb)) -∗ K ⟨⟩))
      ⊢ wp frame (wpE (defs₀ (F := F)) Variants.none c none) E (cc6__matmul_kernel i ma hma mb hmb mc hmc) K := by
  simp only [cc6__matmul_kernel_eq_skeleton]; unfold cc6__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover6_2 _)

/-! ## The pipeline's proof data -/

/-- The proof data of pipeline 6 on core `c`: the arrays as the region finds them (`V`); after the body at
    point `t` each input's buffer at its block and the output's at `out6_2` of the input blocks; the invariant the
    class's (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the body obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_0`, `before6_1`), so `sound_kernel6`
    applies; the invariant and the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%da, Ha⟩, ⟨%db, Hb⟩, ⟨%dc, Hc⟩⟩
  iapply (sound_kernel6 c Set.univ (grid6.coords t) _ _ _ _ _ _ (iblk6 V c 0 t) (iblk6 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg
-- ==== Proof.KI.Reg7.lean ====
/-
  REGION 7 of the kernel program (custom_call 7, the kernel function cc7__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt7, with its two case equations outsAt7_zero and outsAt7_succ).
  Per case the body's triple is a subtype: the lists of stores (rectangle and payload, last first) each output buffer
  ends with, together with the proof that the body runs to a continuation holding exactly those stores written
  (kernelRun7_A, kernelRun7_B). What a buffer then READS is the canonical contents of its list (View.canon), since the
  last store of each list covers the block.

  Exported: the proof data dat7 (arrays at V, full shares, nothing owed), A_eq7, the body obligation
  body_obligation7, the recursion outsAt7 and its equations, after7_0 / after7_1 / after7_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond7_0 (i : grid7.Coords) : Prop :=
  (Scalar.cmpi .ne (Scalar.extui (Scalar.cmpi .eq (BitVec.ofNat 32 (i 0).val) 0#32)) 0#32) = 1#1

/-- It holds at the first point only: decided over the 50 points. -/
theorem hcond7_0 : ∀ t : Fin cfg7.N, cond7_0 (grid7.coords t) ↔ t.val = 0 :=
  (by decide +kernel : ∀ t : Fin grid7.N, cond7_0 (grid7.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun7_A (c : Dev nD) (i : grid7.Coords)
    (arg7 : Memref sig .tc .vmem S1000x256 .f32) (harg7 : arg7.IsWhole)
    (arg2 : Memref sig .tc .vmem S1x256 .f32) (harg2 : arg2.IsWhole)
    (arg3 : Memref sig .tc .vmem S1x256 .f32) (harg3 : arg3.IsWhole) (hc0 : cond7_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg7 fullShare x0 ∗ (∃ d, owns (c : Thread nD τ) arg2 fullShare d)
            ∗ (∃ d, owns (c : Thread nD τ) arg3 fullShare d)
            ∗ (iprop(owns (c : Thread nD τ) arg7 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7__sumsq_kernel i arg7 harg7 arg2 harg2 arg3 harg3) K } := by
  refine ⟨?_, ?_, fun E K => ?run⟩
  case run =>
    simp only [cc7__sumsq_kernel_eq_skeleton]; unfold cc7__sumsq_kernel_skel
    unfold owns
    iintro ⟨⟨%f0, %hf0, H0⟩, ⟨%d1, %f1, -, H1⟩, ⟨%d2, %f2, -, H2⟩, Hk⟩
    obtain rfl := harg7.eq_unread hf0
    sl_exec (disch := first | exact hc0)
    sl_step
    iapply Hk
    isplitl [H0]
    · iexists _; isplitr; · ipureintro; exact harg7.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun7_B (c : Dev nD) (i : grid7.Coords)
    (arg7 : Memref sig .tc .vmem S1000x256 .f32) (harg7 : arg7.IsWhole)
    (arg2 : Memref sig .tc .vmem S1x256 .f32) (harg2 : arg2.IsWhole)
    (arg3 : Memref sig .tc .vmem S1x256 .f32) (harg3 : arg3.IsWhole) (hc0 : ¬cond7_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg7 fullShare x0 ∗ owns (c : Thread nD τ) arg2 fullShare xo1
            ∗ owns (c : Thread nD τ) arg3 fullShare xo2
            ∗ (iprop(owns (c : Thread nD τ) arg7 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7__sumsq_kernel i arg7 harg7 arg2 harg2 arg3 harg3) K } := by
  refine ⟨?_, ?_, fun E K => ?run⟩
  case run =>
    simp only [cc7__sumsq_kernel_eq_skeleton]; unfold cc7__sumsq_kernel_skel
    unfold owns
    iintro ⟨⟨%f0, %hf0, H0⟩, ⟨%f1, %hf1, H1⟩, ⟨%f2, %hf2, H2⟩, Hk⟩
    obtain rfl := harg7.eq_unread hf0; obtain rfl := harg2.eq_unread hf1; obtain rfl := harg3.eq_unread hf2
    sl_exec (disch := first | exact hc0)
    sl_step
    iapply Hk
    isplitl [H0]
    · iexists _; isplitr; · ipureintro; exact harg7.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof data
    whose array is `V`'s and whose body leaves the block in place: unfetched, the block index has not moved. The
    window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## What each case leaves in the two output buffers -/

/-- The whole-block rectangle of a [1,256] buffer at zero offsets: every index lies in it. -/
private theorem mem_whole_S7x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover7_A_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) (y : S1x256.Idx) :
    ∃ pc ∈ (kernelRun7_A c i arg7 harg7 arg2 harg2 arg3 harg3 hc0 x0).1, y ∈ pc.1.set := by
  unfold kernelRun7_A
  dsimp only
  refine ⟨_, List.mem_cons_self, ?_⟩
  exact mem_whole_S7x256 inb_S1x256_S1x256_0_0 y

/-- Case A's stores into output 2 cover its block likewise. -/
theorem cover7_A_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) (y : S1x256.Idx) :
    ∃ pc ∈ (kernelRun7_A c i arg7 harg7 arg2 harg2 arg3 harg3 hc0 x0).2.1, y ∈ pc.1.set := by
  unfold kernelRun7_A
  dsimp only
  refine ⟨_, List.mem_cons_self, ?_⟩
  exact mem_whole_S7x256 inb_S1x256_S1x256_0_0 y

/-- Case B's one store into output 1 covers its block. -/
theorem cover7_B_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) (y : S1x256.Idx) :
    ∃ pc ∈ (kernelRun7_B c i arg7 harg7 arg2 harg2 arg3 harg3 hc0 x0 xo1 xo2).1, y ∈ pc.1.set := by
  unfold kernelRun7_B
  dsimp only
  refine ⟨_, List.mem_cons_self, ?_⟩
  exact mem_whole_S7x256 inb_S1x256_S1x256_0_0 y

/-- Case B's one store into output 2 covers its block. -/
theorem cover7_B_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) (y : S1x256.Idx) :
    ∃ pc ∈ (kernelRun7_B c i arg7 harg7 arg2 harg2 arg3 harg3 hc0 x0 xo1 xo2).2.1, y ∈ pc.1.set := by
  unfold kernelRun7_B
  dsimp only
  refine ⟨_, List.mem_cons_self, ?_⟩
  exact mem_whole_S7x256 inb_S1x256_S1x256_0_0 y

/-- What case A leaves in output 1's staging buffer: the canonical contents of its stores. -/
def out7_A_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) : Vec F S1x256 .f32 :=
  View.canon (kernelRun7_A c i arg7 harg7 arg2 harg2 arg3 harg3 hc0 x0).1

/-- What case A leaves in output 2's staging buffer. -/
def out7_A_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : cond7_0 i) (x0 : Vec F S1000x256 .f32) : Vec F S1x256 .f32 :=
  View.canon (kernelRun7_A c i arg7 harg7 arg2 harg2 arg3 harg3 hc0 x0).2.1

/-- What case B leaves in output 1's staging buffer, from the input block and what the two outputs held. -/
def out7_B_1 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) : Vec F S1x256 .f32 :=
  View.canon (kernelRun7_B c i arg7 harg7 arg2 harg2 arg3 harg3 hc0 x0 xo1 xo2).1

/-- What case B leaves in output 2's staging buffer. -/
def out7_B_2 (c : Dev nD) (i : grid7.Coords) (arg7 : Memref sig .tc .vmem S1000x256 .f32) (harg7 : arg7.IsWhole)
    (arg2 : Memref sig .tc .vmem S1x256 .f32) (harg2 : arg2.IsWhole) (arg3 : Memref sig .tc .vmem S1x256 .f32) (harg3 : arg3.IsWhole)
    (hc0 : ¬cond7_0 i) (x0 : Vec F S1000x256 .f32) (xo1 xo2 : Vec F S1x256 .f32) : Vec F S1x256 .f32 :=
  View.canon (kernelRun7_B c i arg7 harg7 arg2 harg2 arg3 harg3 hc0 x0 xo1 xo2).2.1

/-! ## What the outputs hold after each point -/

/-- Each window's current staging memref at point `t` is whole. -/
abbrev hs7_0 (t : Fin cfg7.N) : (st7_0 t).IsWhole := hstage7_0 ((cfg7.slots t 0).cast nbuf7_0)
abbrev hs7_1 (t : Fin cfg7.N) : (st7_1 t).IsWhole := hstage7_1 ((cfg7.slots t 1).cast nbuf7_1)
abbrev hs7_2 (t : Fin cfg7.N) : (st7_2 t).IsWhole := hstage7_2 ((cfg7.slots t 2).cast nbuf7_2)

/-- A later point is not the first, so the conditional is not taken there. -/
theorem ncond7_0 (t : Fin cfg7.N) (h0 : t.val ≠ 0) : ¬cond7_0 (grid7.coords t) := fun h => h0 ((hcond7_0 t).mp h)

/-- THE ACCUMULATION. What the two outputs' staging buffers hold after the body at point `n`: at the first point
    case A's contents of the point's input block; at a later point case B's contents of the point's input block and of
    what this recursion gives at `n - 1` (the buffers are not written back between). -/
def outsAt7 (c : Dev nD) : (n : ℕ) → n < cfg7.N → Vec F S1x256 .f32 × Vec F S1x256 .f32
  | 0, hn =>
    (out7_A_1 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
        ((hcond7_0 ⟨0, hn⟩).mpr rfl) (iblk7 V c 0 ⟨0, hn⟩),
     out7_A_2 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
        ((hcond7_0 ⟨0, hn⟩).mpr rfl) (iblk7 V c 0 ⟨0, hn⟩))
  | n + 1, hn =>
    (out7_B_1 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
        (ncond7_0 ⟨n + 1, hn⟩ (Nat.succ_ne_zero n)) (iblk7 V c 0 ⟨n + 1, hn⟩)
        (outsAt7 c n (Nat.lt_of_succ_lt hn)).1 (outsAt7 c n (Nat.lt_of_succ_lt hn)).2,
     out7_B_2 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
        (ncond7_0 ⟨n + 1, hn⟩ (Nat.succ_ne_zero n)) (iblk7 V c 0 ⟨n + 1, hn⟩)
        (outsAt7 c n (Nat.lt_of_succ_lt hn)).1 (outsAt7 c n (Nat.lt_of_succ_lt hn)).2)

/-- The recursion at point 0. -/
theorem outsAt7_zero (c : Dev nD) (hn : 0 < cfg7.N) :
    outsAt7 V c 0 hn =
      (out7_A_1 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
          ((hcond7_0 ⟨0, hn⟩).mpr rfl) (iblk7 V c 0 ⟨0, hn⟩),
       out7_A_2 c (grid7.coords ⟨0, hn⟩) (st7_0 ⟨0, hn⟩) (hs7_0 ⟨0, hn⟩) (st7_1 ⟨0, hn⟩) (hs7_1 ⟨0, hn⟩) (st7_2 ⟨0, hn⟩) (hs7_2 ⟨0, hn⟩)
          ((hcond7_0 ⟨0, hn⟩).mpr rfl) (iblk7 V c 0 ⟨0, hn⟩)) := rfl

/-- The recursion at point `n + 1`. -/
theorem outsAt7_succ (c : Dev nD) (n : ℕ) (hn : n + 1 < cfg7.N) :
    outsAt7 V c (n + 1) hn =
      (out7_B_1 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
          (ncond7_0 ⟨n + 1, hn⟩ (Nat.succ_ne_zero n)) (iblk7 V c 0 ⟨n + 1, hn⟩)
          (outsAt7 V c n (Nat.lt_of_succ_lt hn)).1 (outsAt7 V c n (Nat.lt_of_succ_lt hn)).2,
       out7_B_2 c (grid7.coords ⟨n + 1, hn⟩) (st7_0 ⟨n + 1, hn⟩) (hs7_0 ⟨n + 1, hn⟩) (st7_1 ⟨n + 1, hn⟩) (hs7_1 ⟨n + 1, hn⟩) (st7_2 ⟨n + 1, hn⟩) (hs7_2 ⟨n + 1, hn⟩)
          (ncond7_0 ⟨n + 1, hn⟩ (Nat.succ_ne_zero n)) (iblk7 V c 0 ⟨n + 1, hn⟩)
          (outsAt7 V c n (Nat.lt_of_succ_lt hn)).1 (outsAt7 V c n (Nat.lt_of_succ_lt hn)).2) := rfl

/-- The recursion at a point of case A (the first), stated at the point. -/
theorem outsAt7_A (c : Dev nD) (t : Fin cfg7.N) (h0 : t.val = 0) :
    outsAt7 V c t.val t.isLt =
      (out7_A_1 c (grid7.coords t) (st7_0 t) (hs7_0 t) (st7_1 t) (hs7_1 t) (st7_2 t) (hs7_2 t) ((hcond7_0 t).mpr h0) (iblk7 V c 0 t),
       out7_A_2 c (grid7.coords t) (st7_0 t) (hs7_0 t) (st7_1 t) (hs7_1 t) (st7_2 t) (hs7_2 t) ((hcond7_0 t).mpr h0) (iblk7 V c 0 t)) := by
  obtain ⟨n, hn⟩ := t
  cases n with
  | zero => exact rfl
  | succ n => exact absurd h0 (Nat.succ_ne_zero n)

/-- The recursion at a point of case B (a later one), stated at the point: over what the point before left. -/
theorem outsAt7_B (c : Dev nD) (t : Fin cfg7.N) (h0 : t.val ≠ 0) :
    outsAt7 V c t.val t.isLt =
      (out7_B_1 c (grid7.coords t) (st7_0 t) (hs7_0 t) (st7_1 t) (hs7_1 t) (st7_2 t) (hs7_2 t) (ncond7_0 t h0) (iblk7 V c 0 t)
          (outsAt7 V c (t.val - 1) (Nat.lt_of_le_of_lt (Nat.sub_le _ _) t.isLt)).1
          (outsAt7 V c (t.val - 1) (Nat.lt_of_le_of_lt (Nat.sub_le _ _) t.isLt)).2,
       out7_B_2 c (grid7.coords t) (st7_0 t) (hs7_0 t) (st7_1 t) (hs7_1 t) (st7_2 t) (hs7_2 t) (ncond7_0 t h0) (iblk7 V c 0 t)
          (outsAt7 V c (t.val - 1) (Nat.lt_of_le_of_lt (Nat.sub_le _ _) t.isLt)).1
          (outsAt7 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 7 on core `c`: the arrays as the region finds them (`V`); after the body at point
    `t` the input's buffer at its block and the two outputs' at `outsAt7`; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1 := by dsimp only [dat7]
theorem after7_2 (c : Dev nD) (t : Fin cfg7.N) : (dat7 V c).after 2 t = (outsAt7 V c t.val t.isLt).2 := by dsimp only [dat7]

/-- The input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d

/-- At a later point output 1's staging buffer holds what the body left at the point before: the point is not the
    first, the buffer was not written back between (it is written back after point 49 only), the window is live and
    uncut. -/
theorem before7_1_B (c : Dev nD) (t : Fin cfg7.N) (h0 : t.val ≠ 0) (d) :
    (dat7 V c).before 1 t d = (outsAt7 V c (t.val - 1) (Nat.lt_of_le_of_lt (Nat.sub_le _ _) t.isLt)).1 := by
  have hN : t.val < 50 := lt_of_lt_of_eq t.isLt (show cfg7.N = 50 from N_7)
  rw [Dat.before_out_kept _ 1 rfl t h0 (Bool.eq_false_iff.mpr fun h => by have := (flush7_1 _).mp h; dsimp only at this; omega)
    (fun _ => rfl) (fun _ _ => rfl)]
  dsimp only [dat7]

/-- Likewise output 2's. -/
theorem before7_2_B (c : Dev nD) (t : Fin cfg7.N) (h0 : t.val ≠ 0) (d) :
    (dat7 V c).before 2 t d = (outsAt7 V c (t.val - 1) (Nat.lt_of_le_of_lt (Nat.sub_le _ _) t.isLt)).2 := by
  have hN : t.val < 50 := lt_of_lt_of_eq t.isLt (show cfg7.N = 50 from N_7)
  rw [Dat.before_out_kept _ 2 rfl t h0 (Bool.eq_false_iff.mpr fun h => by have := (flush7_2 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1, after7_2]
  by_cases h0 : t.val = 0
  · rw [outsAt7_A V c t h0]
    dsimp only
    unfold out7_A_1 out7_A_2
    iintro ⟨HΦ, Ho, ⟨%d0, H0⟩, ⟨%d1, H1⟩, ⟨%d2, H2⟩⟩
    iapply ((kernelRun7_A c (grid7.coords t) _ _ _ _ _ _ ((hcond7_0 t).mpr h0) (iblk7 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover7_A_1 c _ _ _ _ _ _ _ _ _)
    · unfold owns; iexists _; isplitr
      swap; · iexact H2
      ipureintro; exact View.read_writes_eq_canon _ _ _ (cover7_A_2 c _ _ _ _ _ _ _ _ _)
  · rw [outsAt7_B V c t h0]
    dsimp only
    simp only [before7_1_B V c t h0, before7_2_B V c t h0]
    unfold out7_B_1 out7_B_2
    iintro ⟨HΦ, Ho, ⟨%d0, H0⟩, ⟨%d1, H1⟩, ⟨%d2, H2⟩⟩
    iapply ((kernelRun7_B c (grid7.coords t) _ _ _ _ _ _ (ncond7_0 t h0) (iblk7 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover7_B_1 c _ _ _ _ _ _ _ _ _ _ _)
    · unfold owns; iexists _; isplitr
      swap; · iexact H2
      ipureintro; exact View.read_writes_eq_canon _ _ _ (cover7_B_2 c _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.KI.Reg8.lean ====
/- REGION 8 of the kernel program: custom_call 8, `cc8__bn_relu_kernel` (pipeline 8), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out8_6`), it keeps nothing from point
   to point and names no semaphore, transfer, table or scratch: the plainest class of pipeline body.
   Stated here, for any float interpretation `F`: each window's block at a point (`iblk8`), that every input's
   staging buffer holds its block at every point (`before8_W_of`), the body's triple (`sound_kernel8`), the
   pipeline's proof data (`dat8`) and the body obligation (`body_obligation8`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [1000,256] buffer, and the whole [1,256] buffer: every load and the one store are of a whole buffer. -/
abbrev r8_0 : Rect S1000x256 := Rect.unit (s := S1000x256) ![0, 0] S1000x256.size inb_S1000x256_S1000x256_0_0
abbrev r8_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out8_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r8_0, k8_pay1 (View.ld x0 r8_0) (View.ld x1 r8_1) (View.ld x2 r8_1) (View.ld x3 r8_1) (View.ld x4 r8_1) (View.ld x5 r8_1)⟩]

/-- The one store is of the whole buffer (checked by evaluation), so it covers it. -/
theorem cover8_6 (p0 : Vec F S1000x256 .f32) (y : S1000x256.Idx) :
    ∃ pc ∈ ([⟨r8_0, p0⟩] : List (View.Piece (Elt F) S1000x256 .f32)), y ∈ pc.1.set :=
  View.cover_of_tiled [⟨r8_0, p0⟩] S1000x256.size (by rfl) y

/-! ## The body's triple -/

set_option maxHeartbeats 1000000 in
/-- The kernel body on whole staging memrefs, the inputs' at read contents `xW` and the output's at anything, runs to
    the continuation holding the inputs' as they were and the output's at `out8_6` of the inputs': the printed function
    is its skeleton, a sequence of whole-buffer loads and one whole-buffer store, which is run step by step. -/
theorem sound_kernel8 (c : Dev nD) (E : Set ℕ) (i : grid8.Coords) (arg1 : Memref sig .tc .vmem S1000x256 .f32) (harg1 : arg1.IsWhole) (arg8 : Memref sig .tc .vmem S1x256 .f32) (harg2 : arg8.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg8 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg8 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__bn_relu_kernel i arg1 harg1 arg8 harg2 arg3 harg3 arg4 harg4 arg5 harg5 arg6 harg6 arg7 harg7) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them (`V`); after the body at
    point `t` each input's buffer at its block and the output's at `out8_6` of the input blocks; the invariant that
    of the class (the scoped rest and the generator register, untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents (the proof data's definition projected). -/
theorem A_eq8 (c : Dev nD) (w : Fin cfg8.W) : (dat8 V c).A w = V c (Pipeline.arrRef spec8 w) := by
  dsimp only [dat8]

/-- What the body leaves, window by window (the proof data's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t` (the body obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks (`before8_W`), so `sound_kernel8` applies; the
    invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Reg
-- ==== Proof.KI.Reg9.lean ====
/- REGION 9 of the kernel program (custom_call 9, `cc9__matmul_kernel`, pipeline 9), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk9`); what the body leaves in the output buffer as a function
   of the two input blocks (`out9_2`); the body's triple on whole staging memrefs (`sound_kernel9`); the
   pipeline's proof data at `V` (`dat9`) with its projections; and the body obligation at every point
   (`body_obligation9`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row block, its index moving with the point): its current staging buffer holds its block at
    every point, for ANY proof data whose array is `V`'s (`hA`) and whose body leaves the block in place
    (`hafter`); the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The full rectangle of each window's staging buffer: the row block's, the weight's, the output block's. -/
abbrev r9_0 : Rect S1000x256 := Rect.unit (s := S1000x256) ![0, 0] S1000x256.size inb_S1000x256_S1000x256_0_0
abbrev r9_1 : Rect S256x256 := Rect.unit (s := S256x256) ![0, 0] S256x256.size inb_S256x256_S256x256_0_0
abbrev r9_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out9_2 (xa : Vec F S1000x256 .f32) (xb : Vec F S256x256 .f32) : Vec F S1000x256 .f32 :=
  View.canon [⟨r9_2, k9_pay1 (View.ld xa r9_0) (View.ld xb r9_1)⟩]

/-- The one store is through the full rectangle, so it covers the buffer. -/
theorem cover9_2 (pa : Vec F S1000x256 .f32) (y : S1000x256.Idx) :
    ∃ pc ∈ ([⟨r9_2, pa⟩] : List (View.Piece (Elt F) S1000x256 .f32)), y ∈ pc.1.set :=
  View.cover_of_tiled [⟨r9_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out9_2 xa xb`: the printed function is its skeleton of three loads and one store, run one operation after
    the other; the load of the output buffer reads a value nothing uses. -/
theorem sound_kernel9 (c : Dev nD) (E : Set ℕ) (i : grid9.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out9_2 xa xb)) -∗ K ⟨⟩))
      ⊢ wp frame (wpE (defs₀ (F := F)) Variants.none c none) E (cc9__matmul_kernel i ma hma mb hmb mc hmc) K := by
  simp only [cc9__matmul_kernel_eq_skeleton]; unfold cc9__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover9_2 _)

/-! ## The pipeline's proof data -/

/-- The proof data of pipeline 9 on core `c`: the arrays as the region finds them (`V`); after the body at
    point `t` each input's buffer at its block and the output's at `out9_2` of the input blocks; the invariant the
    class's (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t` (the body obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks (`before9_0`, `before9_1`), so `sound_kernel9`
    applies; the invariant and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%da, Ha⟩, ⟨%db, Hb⟩, ⟨%dc, Hc⟩⟩
  iapply (sound_kernel9 c Set.univ (grid9.coords t) _ _ _ _ _ _ (iblk9 V c 0 t) (iblk9 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Reg
-- ==== Proof.KI.ChainA.lean ====
-- laid out by: scratch/mkchain.js ChainA proof/Proof/KI/ChainA.lean
/- THE KERNEL PROGRAM'S BUFFER CONTENTS BETWEEN ITEMS, first part: from the launch to region 9's exit.
   @main of the kernel program is 64 items in order: stretches of host operations and 31 kernel regions (regions 8 and
   9 adjacent, three stretches before region 0). Between two items core `c` holds every unscoped buffer whole, at
   contents `WJ m c` (J = 0 … 64) that are a FOLD from the launch memory `m`: a stretch takes `W` to
   `StableHlo.after ops W`; a region entered at `W` leaves its arrays at what its pipeline's write-backs fold to, the
   region's proof data being taken at `W`, and every other buffer as entered. Stated beside each boundary, for any
   float interpretation `F`: what a region's arrays hold (`WJ_arr`), that a buffer the item does not write keeps its
   contents (`WJ_keep`, `WJ_of_ne`), the two facts a region's exit needs (`hFK`, `hrestK`), and that an argument of @main
   still holds its launch contents (`WJ_arg`): the arguments are the first twenty HBM buffers and every buffer an item
   writes has a later index. -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import proofs.«146967_j25786983645193_1_alg».proof.Proof.KI.RegionsP
import proofs.«146967_j25786983645193_1_alg».proof.Proof.KI.Reg0
import proofs.«146967_j25786983645193_1_alg».proof.Proof.KI.Reg1
import proofs.«146967_j25786983645193_1_alg».proof.Proof.KI.Reg2
import proofs.«146967_j25786983645193_1_alg».proof.Proof.KI.Reg3
import proofs.«146967_j25786983645193_1_alg».proof.Proof.KI.Reg4
import proofs.«146967_j25786983645193_1_alg».proof.Proof.KI.Reg5
import proofs.«146967_j25786983645193_1_alg».proof.Proof.KI.Reg6
import proofs.«146967_j25786983645193_1_alg».proof.Proof.KI.Reg7
import proofs.«146967_j25786983645193_1_alg».proof.Proof.KI.Reg8
import proofs.«146967_j25786983645193_1_alg».proof.Proof.KI.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references: the form a region's proof data take them in. -/
abbrev rd (W : Dev nD → Valuation τ sig (Elt F)) : (c : Dev nD) → (b : Ref sig .tc) → Buf (Elt F) ((c : Thread nD τ).loc b) :=
  fun c b => W c b

/-! ## The arguments

@main's arguments are the first twenty HBM buffers; every buffer a host operation writes and every output array of a
region has a later index. So an argument is written by no item, and the fold below, read at an argument's buffer, walks
back to the launch memory. -/

/-- @main's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- An argument's index among the HBM buffers is below twenty. -/
theorem args_lt {b : Ref sig .tc} (hb : b ∈ args) : b.idx.val < 20 :=
  of_decide_eq_true (List.all_eq_true.mp (by decide : (args.all fun b => decide (b.idx.val < 20)) = true) b hb)

/-- An argument is not in a list of references of index twenty or more. -/
theorem args_not_mem {l : List (Ref sig .tc)} (hl : (l.all fun r => decide (20 ≤ r.idx.val)) = true)
    {b : Ref sig .tc} (hb : b ∈ args) : b ∉ l :=
  fun h => absurd (of_decide_eq_true (List.all_eq_true.mp hl b h)) (Nat.not_le.2 (args_lt hb))

/-- Among windows whose output arrays have index twenty or more, a window whose array is an argument is an input. -/
theorem args_in {n : Nat} {isOut : Fin n → Bool} {ref : Fin n → Ref sig .tc}
    (h : ∀ w, isOut w = true → 20 ≤ (ref w).idx.val) {b : Ref sig .tc} (hb : b ∈ args) :
    ∀ w, ref w = b → isOut w = false := fun w e => by
  cases hw : isOut w
  · rfl
  · exact absurd (e ▸ h w hw) (Nat.not_le.2 (args_lt hb))

/-! ## The buffer contents at each boundary between two items of @main: a fold from the launch memory

A stretch of host operations takes the contents `W` to `StableHlo.after ops W`. A kernel region entered at `W` leaves its
arrays at what its pipeline's write-backs fold to (`Dat.arrAt … N`: an input as entered, an output its blocks written
back) and every other buffer as entered (`Pipeline.withArrays`). Beside each boundary: a reference the item does not
write keeps its contents (`WJ_keep`), so an argument still holds its launch contents there (`WJ_arg`). -/

/-- Core `c`'s buffers at launch. -/
abbrev W0 : Dev nD → Valuation τ sig (Elt F) := fun c b => m (c, b)
theorem W0_arg (c : Dev nD) {b : Ref sig .tc} (hb : b ∈ args) :
    W0 m c (Proc.devRef .tc b) = m ((c : Thread nD τ).loc b) := rfl

/-- Every reference `hostOps0` writes has index twenty or more. -/
theorem hostOps0_ge : (hostOps0_W.all fun r => decide (20 ≤ r.idx.val)) = true := by decide
/-- After `hostOps0`. -/
abbrev W1 : Dev nD → Valuation τ sig (Elt F) := fun c => StableHlo.after hostOps0 (W0 m c)
theorem W1_keep (c : Dev nD) (b : Ref sig .tc) (h : b ∉ hostOps0_W) :
    W1 m c (Proc.devRef .tc b) = W0 m c (Proc.devRef .tc b) :=
  StableHlo.after_of_writes_sub hostOps0 _ hostOps0_writes h
theorem W1_arg (c : Dev nD) {b : Ref sig .tc} (hb : b ∈ args) :
    W1 m c (Proc.devRef .tc b) = m ((c : Thread nD τ).loc b) :=
  (W1_keep m c b (args_not_mem hostOps0_ge hb)).trans (W0_arg m c hb)

/-- Every reference `hostOps0_1` writes has index twenty or more. -/
theorem hostOps0_1_ge : (hostOps0_1_W.all fun r => decide (20 ≤ r.idx.val)) = true := by decide
/-- After `hostOps0_1`. -/
abbrev W2 : Dev nD → Valuation τ sig (Elt F) := fun c => StableHlo.after hostOps0_1 (W1 m c)
theorem W2_keep (c : Dev nD) (b : Ref sig .tc) (h : b ∉ hostOps0_1_W) :
    W2 m c (Proc.devRef .tc b) = W1 m c (Proc.devRef .tc b) :=
  StableHlo.after_of_writes_sub hostOps0_1 _ hostOps0_1_writes h
theorem W2_arg (c : Dev nD) {b : Ref sig .tc} (hb : b ∈ args) :
    W2 m c (Proc.devRef .tc b) = m ((c : Thread nD τ).loc b) :=
  (W2_keep m c b (args_not_mem hostOps0_1_ge hb)).trans (W1_arg m c hb)

/-- Every reference `hostOps0_2` writes has index twenty or more. -/
theorem hostOps0_2_ge : (hostOps0_2_W.all fun r => decide (20 ≤ r.idx.val)) = true := by decide
/-- After `hostOps0_2`. -/
abbrev W3 : Dev nD → Valuation τ sig (Elt F) := fun c => StableHlo.after hostOps0_2 (W2 m c)
theorem W3_keep (c : Dev nD) (b : Ref sig .tc) (h : b ∉ hostOps0_2_W) :
    W3 m c (Proc.devRef .tc b) = W2 m c (Proc.devRef .tc b) :=
  StableHlo.after_of_writes_sub hostOps0_2 _ hostOps0_2_writes h
theorem W3_arg (c : Dev nD) {b : Ref sig .tc} (hb : b ∈ args) :
    W3 m c (Proc.devRef .tc b) = m ((c : Thread nD τ).loc b) :=
  (W3_keep m c b (args_not_mem hostOps0_2_ge hb)).trans (W2_arg m c hb)

/-- Every output array of region 0 has index twenty or more. -/
theorem out0_ge : ∀ w, (cfg0.win w).isOut = true → 20 ≤ (Pipeline.arrRef spec0 w).idx.val := by decide
/-- At region 0's exit: its arrays at what the pipeline leaves, every other buffer as entered. -/
def W4 (c : Dev nD) : Valuation τ sig (Elt F) :=
  Pipeline.withArrays spec0 c (W3 m c) fun w => (dat0 (rd (W3 m)) c).arrAt w cfg0.N
theorem W4_arr (c : Dev nD) (w : Fin cfg0.W) :
    W4 m c (Proc.devRef .tc (Pipeline.arrRef spec0 w)) = (dat0 (rd (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- At region 0's exit each of its arrays holds what the pipeline leaves (`hF0`) and every other buffer what it held
    at entry (`hrest0`). -/
theorem hF0 (c : Dev nD) (w : Fin cfg0.W) :
    (dat0 (rd (W3 m)) c).arrAt w cfg0.N = rd (W4 m) c (Pipeline.arrRef spec0 w) :=
  (W4_arr m c w).symm
theorem hrest0 (c : Dev nD) : ∀ b, b ∉ Finset.univ.image (Pipeline.arrRef spec0) → rd (W4 m) c b = rd (W3 m) c b :=
  fun b hb => W4_of_ne m c b fun w e => hb (Finset.mem_image.mpr ⟨w, Finset.mem_univ _, e⟩)
/-- A reference that is no OUTPUT array of region 0 keeps its contents: an input array is left as entered, a buffer
    that is no array of the region bypasses it. -/
theorem W4_keep (c : Dev nD) (b : Ref sig .tc) (hb : ∀ w, Pipeline.arrRef spec0 w = b → (cfg0.win w).isOut = false) :
    W4 m c (Proc.devRef .tc b) = W3 m c (Proc.devRef .tc b) := by
  by_cases h : ∃ w, Pipeline.arrRef spec0 w = b
  · obtain ⟨w, rfl⟩ := h
    exact (W4_arr m c w).trans (((dat0 (rd (W3 m)) c).arrAt_in w (hb w rfl) _).trans (A_eq0 (rd (W3 m)) c w))
  · exact W4_of_ne m c b fun w e => h ⟨w, e⟩
theorem W4_arg (c : Dev nD) {b : Ref sig .tc} (hb : b ∈ args) :
    W4 m c (Proc.devRef .tc b) = m ((c : Thread nD τ).loc b) :=
  (W4_keep m c b (args_in out0_ge hb)).trans (W3_arg m c hb)

/-- Every reference `hostOps1` writes has index twenty or more. -/
theorem hostOps1_ge : (hostOps1_W.all fun r => decide (20 ≤ r.idx.val)) = true := by decide
/-- After `hostOps1`. -/
abbrev W5 : Dev nD → Valuation τ sig (Elt F) := fun c => StableHlo.after hostOps1 (W4 m c)
theorem W5_keep (c : Dev nD) (b : Ref sig .tc) (h : b ∉ hostOps1_W) :
    W5 m c (Proc.devRef .tc b) = W4 m c (Proc.devRef .tc b) :=
  StableHlo.after_of_writes_sub hostOps1 _ hostOps1_writes h
theorem W5_arg (c : Dev nD) {b : Ref sig .tc} (hb : b ∈ args) :
    W5 m c (Proc.devRef .tc b) = m ((c : Thread nD τ).loc b) :=
  (W5_keep m c b (args_not_mem hostOps1_ge hb)).trans (W4_arg m c hb)

/-- Every output array of region 1 has index twenty or more. -/
theorem out1_ge : ∀ w, (cfg1.win w).isOut = true → 20 ≤ (Pipeline.arrRef spec1 w).idx.val := by decide
/-- At region 1's exit: its arrays at what the pipeline leaves, every other buffer as entered. -/
def W6 (c : Dev nD) : Valuation τ sig (Elt F) :=
  Pipeline.withArrays spec1 c (W5 m c) fun w => (dat1 (rd (W5 m)) c).arrAt w cfg1.N
theorem W6_arr (c : Dev nD) (w : Fin cfg1.W) :
    W6 m c (Proc.devRef .tc (Pipeline.arrRef spec1 w)) = (dat1 (rd (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- At region 1's exit each of its arrays holds what the pipeline leaves (`hF1`) and every other buffer what it held
    at entry (`hrest1`). -/
theorem hF1 (c : Dev nD) (w : Fin cfg1.W) :
    (dat1 (rd (W5 m)) c).arrAt w cfg1.N = rd (W6 m) c (Pipeline.arrRef spec1 w) :=
  (W6_arr m c w).symm
theorem hrest1 (c : Dev nD) : ∀ b, b ∉ Finset.univ.image (Pipeline.arrRef spec1) → rd (W6 m) c b = rd (W5 m) c b :=
  fun b hb => W6_of_ne m c b fun w e => hb (Finset.mem_image.mpr ⟨w, Finset.mem_univ _, e⟩)
/-- A reference that is no OUTPUT array of region 1 keeps its contents: an input array is left as entered, a buffer
    that is no array of the region bypasses it. -/
theorem W6_keep (c : Dev nD) (b : Ref sig .tc) (hb : ∀ w, Pipeline.arrRef spec1 w = b → (cfg1.win w).isOut = false) :
    W6 m c (Proc.devRef .tc b) = W5 m c (Proc.devRef .tc b) := by
  by_cases h : ∃ w, Pipeline.arrRef spec1 w = b
  · obtain ⟨w, rfl⟩ := h
    exact (W6_arr m c w).trans (((dat1 (rd (W5 m)) c).arrAt_in w (hb w rfl) _).trans (A_eq1 (rd (W5 m)) c w))
  · exact W6_of_ne m c b fun w e => h ⟨w, e⟩
theorem W6_arg (c : Dev nD) {b : Ref sig .tc} (hb : b ∈ args) :
    W6 m c (Proc.devRef .tc b) = m ((c : Thread nD τ).loc b) :=
  (W6_keep m c b (args_in out1_ge hb)).trans (W5_arg m c hb)

/-- Every reference `hostOps2` writes has index twenty or more. -/
theorem hostOps2_ge : (hostOps2_W.all fun r => decide (20 ≤ r.idx.val)) = true := by decide
/-- After `hostOps2`. -/
abbrev W7 : Dev nD → Valuation τ sig (Elt F) := fun c => StableHlo.after hostOps2 (W6 m c)
theorem W7_keep (c : Dev nD) (b : Ref sig .tc) (h : b ∉ hostOps2_W) :
    W7 m c (Proc.devRef .tc b) = W6 m c (Proc.devRef .tc b) :=
  StableHlo.after_of_writes_sub hostOps2 _ hostOps2_writes h
theorem W7_arg (c : Dev nD) {b : Ref sig .tc} (hb : b ∈ args) :
    W7 m c (Proc.devRef .tc b) = m ((c : Thread nD τ).loc b) :=
  (W7_keep m c b (args_not_mem hostOps2_ge hb)).trans (W6_arg m c hb)

/-- Every output array of region 2 has index twenty or more. -/
theorem out2_ge : ∀ w, (cfg2.win w).isOut = true → 20 ≤ (Pipeline.arrRef spec2 w).idx.val := by decide
/-- At region 2's exit: its arrays at what the pipeline leaves, every other buffer as entered. -/
def W8 (c : Dev nD) : Valuation τ sig (Elt F) :=
  Pipeline.withArrays spec2 c (W7 m c) fun w => (dat2 (rd (W7 m)) c).arrAt w cfg2.N
theorem W8_arr (c : Dev nD) (w : Fin cfg2.W) :
    W8 m c (Proc.devRef .tc (Pipeline.arrRef spec2 w)) = (dat2 (rd (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- At region 2's exit each of its arrays holds what the pipeline leaves (`hF2`) and every other buffer what it held
    at entry (`hrest2`). -/
theorem hF2 (c : Dev nD) (w : Fin cfg2.W) :
    (dat2 (rd (W7 m)) c).arrAt w cfg2.N = rd (W8 m) c (Pipeline.arrRef spec2 w) :=
  (W8_arr m c w).symm
theorem hrest2 (c : Dev nD) : ∀ b, b ∉ Finset.univ.image (Pipeline.arrRef spec2) → rd (W8 m) c b = rd (W7 m) c b :=
  fun b hb => W8_of_ne m c b fun w e => hb (Finset.mem_image.mpr ⟨w, Finset.mem_univ _, e⟩)
/-- A reference that is no OUTPUT array of region 2 keeps its contents: an input array is left as entered, a buffer
    that is no array of the region bypasses it. -/
theorem W8_keep (c : Dev nD) (b : Ref sig .tc) (hb : ∀ w, Pipeline.arrRef spec2 w = b → (cfg2.win w).isOut = false) :
    W8 m c (Proc.devRef .tc b) = W7 m c (Proc.devRef .tc b) := by
  by_cases h : ∃ w, Pipeline.arrRef spec2 w = b
  · obtain ⟨w, rfl⟩ := h
    exact (W8_arr m c w).trans (((dat2 (rd (W7 m)) c).arrAt_in w (hb w rfl) _).trans (A_eq2 (rd (W7 m)) c w))
  · exact W8_of_ne m c b fun w e => h ⟨w, e⟩
theorem W8_arg (c : Dev nD) {b : Ref sig .tc} (hb : b ∈ args) :
    W8 m c (Proc.devRef .tc b) = m ((c : Thread nD τ).loc b) :=
  (W8_keep m c b (args_in out2_ge hb)).trans (W7_arg m c hb)

/-- Every reference `hostOps3` writes has index twenty or more. -/
theorem hostOps3_ge : (hostOps3_W.all fun r => decide (20 ≤ r.idx.val)) = true := by decide
/-- After `hostOps3`. -/
abbrev W9 : Dev nD → Valuation τ sig (Elt F) := fun c => StableHlo.after hostOps3 (W8 m c)
theorem W9_keep (c : Dev nD) (b : Ref sig .tc) (h : b ∉ hostOps3_W) :
    W9 m c (Proc.devRef .tc b) = W8 m c (Proc.devRef .tc b) :=
  StableHlo.after_of_writes_sub hostOps3 _ hostOps3_writes h
theorem W9_arg (c : Dev nD) {b : Ref sig .tc} (hb : b ∈ args) :
    W9 m c (Proc.devRef .tc b) = m ((c : Thread nD τ).loc b) :=
  (W9_keep m c b (args_not_mem hostOps3_ge hb)).trans (W8_arg m c hb)

/-- Every output array of region 3 has index twenty or more. -/
theorem out3_ge : ∀ w, (cfg3.win w).isOut = true → 20 ≤ (Pipeline.arrRef spec3 w).idx.val := by decide
/-- At region 3's exit: its arrays at what the pipeline leaves, every other buffer as entered. -/
def W10 (c : Dev nD) : Valuation τ sig (Elt F) :=
  Pipeline.withArrays spec3 c (W9 m c) fun w => (dat3 (rd (W9 m)) c).arrAt w cfg3.N
theorem W10_arr (c : Dev nD) (w : Fin cfg3.W) :
    W10 m c (Proc.devRef .tc (Pipeline.arrRef spec3 w)) = (dat3 (rd (W9 m)) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- At region 3's exit each of its arrays holds what the pipeline leaves (`hF3`) and every other buffer what it held
    at entry (`hrest3`). -/
theorem hF3 (c : Dev nD) (w : Fin cfg3.W) :
    (dat3 (rd (W9 m)) c).arrAt w cfg3.N = rd (W10 m) c (Pipeline.arrRef spec3 w) :=
  (W10_arr m c w).symm
theorem hrest3 (c : Dev nD) : ∀ b, b ∉ Finset.univ.image (Pipeline.arrRef spec3) → rd (W10 m) c b = rd (W9 m) c b :=
  fun b hb => W10_of_ne m c b fun w e => hb (Finset.mem_image.mpr ⟨w, Finset.mem_univ _, e⟩)
/-- A reference that is no OUTPUT array of region 3 keeps its contents: an input array is left as entered, a buffer
    that is no array of the region bypasses it. -/
theorem W10_keep (c : Dev nD) (b : Ref sig .tc) (hb : ∀ w, Pipeline.arrRef spec3 w = b → (cfg3.win w).isOut = false) :
    W10 m c (Proc.devRef .tc b) = W9 m c (Proc.devRef .tc b) := by
  by_cases h : ∃ w, Pipeline.arrRef spec3 w = b
  · obtain ⟨w, rfl⟩ := h
    exact (W10_arr m c w).trans (((dat3 (rd (W9 m)) c).arrAt_in w (hb w rfl) _).trans (A_eq3 (rd (W9 m)) c w))
  · exact W10_of_ne m c b fun w e => h ⟨w, e⟩
theorem W10_arg (c : Dev nD) {b : Ref sig .tc} (hb : b ∈ args) :
    W10 m c (Proc.devRef .tc b) = m ((c : Thread nD τ).loc b) :=
  (W10_keep m c b (args_in out3_ge hb)).trans (W9_arg m c hb)

/-- Every reference `hostOps4` writes has index twenty or more. -/
theorem hostOps4_ge : (hostOps4_W.all fun r => decide (20 ≤ r.idx.val)) = true := by decide
/-- After `hostOps4`. -/
abbrev W11 : Dev nD → Valuation τ sig (Elt F) := fun c => StableHlo.after hostOps4 (W10 m c)
theorem W11_keep (c : Dev nD) (b : Ref sig .tc) (h : b ∉ hostOps4_W) :
    W11 m c (Proc.devRef .tc b) = W10 m c (Proc.devRef .tc b) :=
  StableHlo.after_of_writes_sub hostOps4 _ hostOps4_writes h
theorem W11_arg (c : Dev nD) {b : Ref sig .tc} (hb : b ∈ args) :
    W11 m c (Proc.devRef .tc b) = m ((c : Thread nD τ).loc b) :=
  (W11_keep m c b (args_not_mem hostOps4_ge hb)).trans (W10_arg m c hb)

/-- Every output array of region 4 has index twenty or more. -/
theorem out4_ge : ∀ w, (cfg4.win w).isOut = true → 20 ≤ (Pipeline.arrRef spec4 w).idx.val := by decide
/-- At region 4's exit: its arrays at what the pipeline leaves, every other buffer as entered. -/
def W12 (c : Dev nD) : Valuation τ sig (Elt F) :=
  Pipeline.withArrays spec4 c (W11 m c) fun w => (dat4 (rd (W11 m)) c).arrAt w cfg4.N
theorem W12_arr (c : Dev nD) (w : Fin cfg4.W) :
    W12 m c (Proc.devRef .tc (Pipeline.arrRef spec4 w)) = (dat4 (rd (W11 m)) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- At region 4's exit each of its arrays holds what the pipeline leaves (`hF4`) and every other buffer what it held
    at entry (`hrest4`). -/
theorem hF4 (c : Dev nD) (w : Fin cfg4.W) :
    (dat4 (rd (W11 m)) c).arrAt w cfg4.N = rd (W12 m) c (Pipeline.arrRef spec4 w) :=
  (W12_arr m c w).symm
theorem hrest4 (c : Dev nD) : ∀ b, b ∉ Finset.univ.image (Pipeline.arrRef spec4) → rd (W12 m) c b = rd (W11 m) c b :=
  fun b hb => W12_of_ne m c b fun w e => hb (Finset.mem_image.mpr ⟨w, Finset.mem_univ _, e⟩)
/-- A reference that is no OUTPUT array of region 4 keeps its contents: an input array is left as entered, a buffer
    that is no array of the region bypasses it. -/
theorem W12_keep (c : Dev nD) (b : Ref sig .tc) (hb : ∀ w, Pipeline.arrRef spec4 w = b → (cfg4.win w).isOut = false) :
    W12 m c (Proc.devRef .tc b) = W11 m c (Proc.devRef .tc b) := by
  by_cases h : ∃ w, Pipeline.arrRef spec4 w = b
  · obtain ⟨w, rfl⟩ := h
    exact (W12_arr m c w).trans (((dat4 (rd (W11 m)) c).arrAt_in w (hb w rfl) _).trans (A_eq4 (rd (W11 m)) c w))
  · exact W12_of_ne m c b fun w e => h ⟨w, e⟩
theorem W12_arg (c : Dev nD) {b : Ref sig .tc} (hb : b ∈ args) :
    W12 m c (Proc.devRef .tc b) = m ((c : Thread nD τ).loc b) :=
  (W12_keep m c b (args_in out4_ge hb)).trans (W11_arg m c hb)

/-- Every reference `hostOps5` writes has index twenty or more. -/
theorem hostOps5_ge : (hostOps5_W.all fun r => decide (20 ≤ r.idx.val)) = true := by decide
/-- After `hostOps5`. -/
abbrev W13 : Dev nD → Valuation τ sig (Elt F) := fun c => StableHlo.after hostOps5 (W12 m c)
theorem W13_keep (c : Dev nD) (b : Ref sig .tc) (h : b ∉ hostOps5_W) :
    W13 m c (Proc.devRef .tc b) = W12 m c (Proc.devRef .tc b) :=
  StableHlo.after_of_writes_sub hostOps5 _ hostOps5_writes h
theorem W13_arg (c : Dev nD) {b : Ref sig .tc} (hb : b ∈ args) :
    W13 m c (Proc.devRef .tc b) = m ((c : Thread nD τ).loc b) :=
  (W13_keep m c b (args_not_mem hostOps5_ge hb)).trans (W12_arg m c hb)

/-- Every output array of region 5 has index twenty or more. -/
theorem out5_ge : ∀ w, (cfg5.win w).isOut = true → 20 ≤ (Pipeline.arrRef spec5 w).idx.val := by decide
/-- At region 5's exit: its arrays at what the pipeline leaves, every other buffer as entered. -/
def W14 (c : Dev nD) : Valuation τ sig (Elt F) :=
  Pipeline.withArrays spec5 c (W13 m c) fun w => (dat5 (rd (W13 m)) c).arrAt w cfg5.N
theorem W14_arr (c : Dev nD) (w : Fin cfg5.W) :
    W14 m c (Proc.devRef .tc (Pipeline.arrRef spec5 w)) = (dat5 (rd (W13 m)) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
/-- At region 5's exit each of its arrays holds what the pipeline leaves (`hF5`) and every other buffer what it held
    at entry (`hrest5`). -/
theorem hF5 (c : Dev nD) (w : Fin cfg5.W) :
    (dat5 (rd (W13 m)) c).arrAt w cfg5.N = rd (W14 m) c (Pipeline.arrRef spec5 w) :=
  (W14_arr m c w).symm
theorem hrest5 (c : Dev nD) : ∀ b, b ∉ Finset.univ.image (Pipeline.arrRef spec5) → rd (W14 m) c b = rd (W13 m) c b :=
  fun b hb => W14_of_ne m c b fun w e => hb (Finset.mem_image.mpr ⟨w, Finset.mem_univ _, e⟩)
/-- A reference that is no OUTPUT array of region 5 keeps its contents: an input array is left as entered, a buffer
    that is no array of the region bypasses it. -/
theorem W14_keep (c : Dev nD) (b : Ref sig .tc) (hb : ∀ w, Pipeline.arrRef spec5 w = b → (cfg5.win w).isOut = false) :
    W14 m c (Proc.devRef .tc b) = W13 m c (Proc.devRef .tc b) := by
  by_cases h : ∃ w, Pipeline.arrRef spec5 w = b
  · obtain ⟨w, rfl⟩ := h
    exact (W14_arr m c w).trans (((dat5 (rd (W13 m)) c).arrAt_in w (hb w rfl) _).trans (A_eq5 (rd (W13 m)) c w))
  · exact W14_of_ne m c b fun w e => h ⟨w, e⟩
theorem W14_arg (c : Dev nD) {b : Ref sig .tc} (hb : b ∈ args) :
    W14 m c (Proc.devRef .tc b) = m ((c : Thread nD τ).loc b) :=
  (W14_keep m c b (args_in out5_ge hb)).trans (W13_arg m c hb)

/-- Every reference `hostOps6` writes has index twenty or more. -/
theorem hostOps6_ge : (hostOps6_W.all fun r => decide (20 ≤ r.idx.val)) = true := by decide
/-- After `hostOps6`. -/
abbrev W15 : Dev nD → Valuation τ sig (Elt F) := fun c => StableHlo.after hostOps6 (W14 m c)
theorem W15_keep (c : Dev nD) (b : Ref sig .tc) (h : b ∉ hostOps6_W) :
    W15 m c (Proc.devRef .tc b) = W14 m c (Proc.devRef .tc b) :=
  StableHlo.after_of_writes_sub hostOps6 _ hostOps6_writes h
theorem W15_arg (c : Dev nD) {b : Ref sig .tc} (hb : b ∈ args) :
    W15 m c (Proc.devRef .tc b) = m ((c : Thread nD τ).loc b) :=
  (W15_keep m c b (args_not_mem hostOps6_ge hb)).trans (W14_arg m c hb)

/-- Every output array of region 6 has index twenty or more. -/
theorem out6_ge : ∀ w, (cfg6.win w).isOut = true → 20 ≤ (Pipeline.arrRef spec6 w).idx.val := by decide
/-- At region 6's exit: its arrays at what the pipeline leaves, every other buffer as entered. -/
def W16 (c : Dev nD) : Valuation τ sig (Elt F) :=
  Pipeline.withArrays spec6 c (W15 m c) fun w => (dat6 (rd (W15 m)) c).arrAt w cfg6.N
theorem W16_arr (c : Dev nD) (w : Fin cfg6.W) :
    W16 m c (Proc.devRef .tc (Pipeline.arrRef spec6 w)) = (dat6 (rd (W15 m)) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) := by
  unfold W16; exact Pipeline.withArrays_of_ne spec6 c _ _ b hb
/-- At region 6's exit each of its arrays holds what the pipeline leaves (`hF6`) and every other buffer what it held
    at entry (`hrest6`). -/
theorem hF6 (c : Dev nD) (w : Fin cfg6.W) :
    (dat6 (rd (W15 m)) c).arrAt w cfg6.N = rd (W16 m) c (Pipeline.arrRef spec6 w) :=
  (W16_arr m c w).symm
theorem hrest6 (c : Dev nD) : ∀ b, b ∉ Finset.univ.image (Pipeline.arrRef spec6) → rd (W16 m) c b = rd (W15 m) c b :=
  fun b hb => W16_of_ne m c b fun w e => hb (Finset.mem_image.mpr ⟨w, Finset.mem_univ _, e⟩)
/-- A reference that is no OUTPUT array of region 6 keeps its contents: an input array is left as entered, a buffer
    that is no array of the region bypasses it. -/
theorem W16_keep (c : Dev nD) (b : Ref sig .tc) (hb : ∀ w, Pipeline.arrRef spec6 w = b → (cfg6.win w).isOut = false) :
    W16 m c (Proc.devRef .tc b) = W15 m c (Proc.devRef .tc b) := by
  by_cases h : ∃ w, Pipeline.arrRef spec6 w = b
  · obtain ⟨w, rfl⟩ := h
    exact (W16_arr m c w).trans (((dat6 (rd (W15 m)) c).arrAt_in w (hb w rfl) _).trans (A_eq6 (rd (W15 m)) c w))
  · exact W16_of_ne m c b fun w e => h ⟨w, e⟩
theorem W16_arg (c : Dev nD) {b : Ref sig .tc} (hb : b ∈ args) :
    W16 m c (Proc.devRef .tc b) = m ((c : Thread nD τ).loc b) :=
  (W16_keep m c b (args_in out6_ge hb)).trans (W15_arg m c hb)

/-- Every reference `hostOps7` writes has index twenty or more. -/
theorem hostOps7_ge : (hostOps7_W.all fun r => decide (20 ≤ r.idx.val)) = true := by decide
/-- After `hostOps7`. -/
abbrev W17 : Dev nD → Valuation τ sig (Elt F) := fun c => StableHlo.after hostOps7 (W16 m c)
theorem W17_keep (c : Dev nD) (b : Ref sig .tc) (h : b ∉ hostOps7_W) :
    W17 m c (Proc.devRef .tc b) = W16 m c (Proc.devRef .tc b) :=
  StableHlo.after_of_writes_sub hostOps7 _ hostOps7_writes h
theorem W17_arg (c : Dev nD) {b : Ref sig .tc} (hb : b ∈ args) :
    W17 m c (Proc.devRef .tc b) = m ((c : Thread nD τ).loc b) :=
  (W17_keep m c b (args_not_mem hostOps7_ge hb)).trans (W16_arg m c hb)

/-- Every output array of region 7 has index twenty or more. -/
theorem out7_ge : ∀ w, (cfg7.win w).isOut = true → 20 ≤ (Pipeline.arrRef spec7 w).idx.val := by decide
/-- At region 7's exit: its arrays at what the pipeline leaves, every other buffer as entered. -/
def W18 (c : Dev nD) : Valuation τ sig (Elt F) :=
  Pipeline.withArrays spec7 c (W17 m c) fun w => (dat7 (rd (W17 m)) c).arrAt w cfg7.N
theorem W18_arr (c : Dev nD) (w : Fin cfg7.W) :
    W18 m c (Proc.devRef .tc (Pipeline.arrRef spec7 w)) = (dat7 (rd (W17 m)) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m c (Proc.devRef .tc b) = W17 m c (Proc.devRef .tc b) := by
  unfold W18; exact Pipeline.withArrays_of_ne spec7 c _ _ b hb
/-- At region 7's exit each of its arrays holds what the pipeline leaves (`hF7`) and every other buffer what it held
    at entry (`hrest7`). -/
theorem hF7 (c : Dev nD) (w : Fin cfg7.W) :
    (dat7 (rd (W17 m)) c).arrAt w cfg7.N = rd (W18 m) c (Pipeline.arrRef spec7 w) :=
  (W18_arr m c w).symm
theorem hrest7 (c : Dev nD) : ∀ b, b ∉ Finset.univ.image (Pipeline.arrRef spec7) → rd (W18 m) c b = rd (W17 m) c b :=
  fun b hb => W18_of_ne m c b fun w e => hb (Finset.mem_image.mpr ⟨w, Finset.mem_univ _, e⟩)
/-- A reference that is no OUTPUT array of region 7 keeps its contents: an input array is left as entered, a buffer
    that is no array of the region bypasses it. -/
theorem W18_keep (c : Dev nD) (b : Ref sig .tc) (hb : ∀ w, Pipeline.arrRef spec7 w = b → (cfg7.win w).isOut = false) :
    W18 m c (Proc.devRef .tc b) = W17 m c (Proc.devRef .tc b) := by
  by_cases h : ∃ w, Pipeline.arrRef spec7 w = b
  · obtain ⟨w, rfl⟩ := h
    exact (W18_arr m c w).trans (((dat7 (rd (W17 m)) c).arrAt_in w (hb w rfl) _).trans (A_eq7 (rd (W17 m)) c w))
  · exact W18_of_ne m c b fun w e => h ⟨w, e⟩
theorem W18_arg (c : Dev nD) {b : Ref sig .tc} (hb : b ∈ args) :
    W18 m c (Proc.devRef .tc b) = m ((c : Thread nD τ).loc b) :=
  (W18_keep m c b (args_in out7_ge hb)).trans (W17_arg m c hb)

/-- Every reference `hostOps8` writes has index twenty or more. -/
theorem hostOps8_ge : (hostOps8_W.all fun r => decide (20 ≤ r.idx.val)) = true := by decide
/-- After `hostOps8`. -/
abbrev W19 : Dev nD → Valuation τ sig (Elt F) := fun c => StableHlo.after hostOps8 (W18 m c)
theorem W19_keep (c : Dev nD) (b : Ref sig .tc) (h : b ∉ hostOps8_W) :
    W19 m c (Proc.devRef .tc b) = W18 m c (Proc.devRef .tc b) :=
  StableHlo.after_of_writes_sub hostOps8 _ hostOps8_writes h
theorem W19_arg (c : Dev nD) {b : Ref sig .tc} (hb : b ∈ args) :
    W19 m c (Proc.devRef .tc b) = m ((c : Thread nD τ).loc b) :=
  (W19_keep m c b (args_not_mem hostOps8_ge hb)).trans (W18_arg m c hb)

/-- Every output array of region 8 has index twenty or more. -/
theorem out8_ge : ∀ w, (cfg8.win w).isOut = true → 20 ≤ (Pipeline.arrRef spec8 w).idx.val := by decide
/-- At region 8's exit: its arrays at what the pipeline leaves, every other buffer as entered. -/
def W20 (c : Dev nD) : Valuation τ sig (Elt F) :=
  Pipeline.withArrays spec8 c (W19 m c) fun w => (dat8 (rd (W19 m)) c).arrAt w cfg8.N
theorem W20_arr (c : Dev nD) (w : Fin cfg8.W) :
    W20 m c (Proc.devRef .tc (Pipeline.arrRef spec8 w)) = (dat8 (rd (W19 m)) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m c (Proc.devRef .tc b) = W19 m c (Proc.devRef .tc b) := by
  unfold W20; exact Pipeline.withArrays_of_ne spec8 c _ _ b hb
/-- At region 8's exit each of its arrays holds what the pipeline leaves (`hF8`) and every other buffer what it held
    at entry (`hrest8`). -/
theorem hF8 (c : Dev nD) (w : Fin cfg8.W) :
    (dat8 (rd (W19 m)) c).arrAt w cfg8.N = rd (W20 m) c (Pipeline.arrRef spec8 w) :=
  (W20_arr m c w).symm
theorem hrest8 (c : Dev nD) : ∀ b, b ∉ Finset.univ.image (Pipeline.arrRef spec8) → rd (W20 m) c b = rd (W19 m) c b :=
  fun b hb => W20_of_ne m c b fun w e => hb (Finset.mem_image.mpr ⟨w, Finset.mem_univ _, e⟩)
/-- A reference that is no OUTPUT array of region 8 keeps its contents: an input array is left as entered, a buffer
    that is no array of the region bypasses it. -/
theorem W20_keep (c : Dev nD) (b : Ref sig .tc) (hb : ∀ w, Pipeline.arrRef spec8 w = b → (cfg8.win w).isOut = false) :
    W20 m c (Proc.devRef .tc b) = W19 m c (Proc.devRef .tc b) := by
  by_cases h : ∃ w, Pipeline.arrRef spec8 w = b
  · obtain ⟨w, rfl⟩ := h
    exact (W20_arr m c w).trans (((dat8 (rd (W19 m)) c).arrAt_in w (hb w rfl) _).trans (A_eq8 (rd (W19 m)) c w))
  · exact W20_of_ne m c b fun w e => h ⟨w, e⟩
theorem W20_arg (c : Dev nD) {b : Ref sig .tc} (hb : b ∈ args) :
    W20 m c (Proc.devRef .tc b) = m ((c : Thread nD τ).loc b) :=
  (W20_keep m c b (args_in out8_ge hb)).trans (W19_arg m c hb)

/-- Every output array of region 9 has index twenty or more. -/
theorem out9_ge : ∀ w, (cfg9.win w).isOut = true → 20 ≤ (Pipeline.arrRef spec9 w).idx.val := by decide
/-- At region 9's exit: its arrays at what the pipeline leaves, every other buffer as entered. -/
def W21 (c : Dev nD) : Valuation τ sig (Elt F) :=
  Pipeline.withArrays spec9 c (W20 m c) fun w => (dat9 (rd (W20 m)) c).arrAt w cfg9.N
theorem W21_arr (c : Dev nD) (w : Fin cfg9.W) :
    W21 m c (Proc.devRef .tc (Pipeline.arrRef spec9 w)) = (dat9 (rd (W20 m)) c).arrAt w cfg9.N := by
  unfold W21; exact Pipeline.withArrays_arr spec9 launch9.win.arr_inj c _ _ w
theorem W21_of_ne (c : Dev nD) (b : Ref sig .tc) (hb : ∀ w, Pipeline.arrRef spec9 w ≠ b) :
    W21 m c (Proc.devRef .tc b) = W20 m c (Proc.devRef .tc b) := by
  unfold W21; exact Pipeline.withArrays_of_ne spec9 c _ _ b hb
/-- At region 9's exit each of its arrays holds what the pipeline leaves (`hF9`) and every other buffer what it held
    at entry (`hrest9`). -/
theorem hF9 (c : Dev nD) (w : Fin cfg9.W) :
    (dat9 (rd (W20 m)) c).arrAt w cfg9.N = rd (W21 m) c (Pipeline.arrRef spec9 w) :=
  (W21_arr m c w).symm
theorem hrest9 (c : Dev nD) : ∀ b, b ∉ Finset.univ.image (Pipeline.arrRef spec9) → rd (W21 m) c b = rd (W20 m) c b :=
  fun b hb => W21_of_ne m c b fun w e => hb (Finset.mem_image.mpr ⟨w, Finset.mem_univ _, e⟩)
/-- A reference that is no OUTPUT array of region 9 keeps its contents: an input array is left as entered, a buffer
    that is no array of the region bypasses it. -/
theorem W21_keep (c : Dev nD) (b : Ref sig .tc) (hb : ∀ w, Pipeline.arrRef spec9 w = b → (cfg9.win w).isOut = false) :
    W21 m c (Proc.devRef .tc b) = W20 m c (Proc.devRef .tc b) := by
  by_cases h : ∃ w, Pipeline.arrRef spec9 w = b
  · obtain ⟨w, rfl⟩ := h
    exact (W21_arr m c w).trans (((dat9 (rd (W20 m)) c).arrAt_in w (hb w rfl) _).trans (A_eq9 (rd (W20 m)) c w))
  · exact W21_of_ne m c b fun w e => h ⟨w, e⟩
theorem W21_arg (c : Dev nD) {b : Ref sig .tc} (hb : b ∈ args) :
    W21 m c (Proc.devRef .tc b) = m ((c : Thread nD τ).loc b) :=
  (W21_keep m c b (args_in out9_ge hb)).trans (W20_arg m c hb)

end Cert.KernelIdeal.Reg

end
-- ==== Proof.KI.Reg10.lean ====
/-
  REGION 10 of the kernel program (custom_call 10, the kernel function cc10__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt10, with its two case equations outsAt10_zero and outsAt10_succ).
  Per case the body's triple is a subtype: the lists of stores (rectangle and payload, last first) each output buffer
  ends with, together with the proof that the body runs to a continuation holding exactly those stores written
  (kernelRun10_A, kernelRun10_B). What a buffer then READS is the canonical contents of its list (View.canon), since the
  last store of each list covers the block.

  Exported: the proof data dat10 (arrays at V, full shares, nothing owed), A_eq10, the body obligation
  body_obligation10, the recursion outsAt10 and its equations, after10_0 / after10_1 / after10_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond10_0 (i : grid10.Coords) : Prop :=
  (Scalar.cmpi .ne (Scalar.extui (Scalar.cmpi .eq (BitVec.ofNat 32 (i 0).val) 0#32)) 0#32) = 1#1

/-- It holds at the first point only: decided over the 50 points. -/
theorem hcond10_0 : ∀ t : Fin cfg10.N, cond10_0 (grid10.coords t) ↔ t.val = 0 :=
  (by decide +kernel : ∀ t : Fin grid10.N, cond10_0 (grid10.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun10_A (c : Dev nD) (i : grid10.Coords)
    (arg10 : Memref sig .tc .vmem S1000x256 .f32) (harg1 : arg10.IsWhole)
    (arg2 : Memref sig .tc .vmem S1x256 .f32) (harg2 : arg2.IsWhole)
    (arg3 : Memref sig .tc .vmem S1x256 .f32) (harg3 : arg3.IsWhole) (hc0 : cond10_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg10 fullShare x0 ∗ (∃ d, owns (c : Thread nD τ) arg2 fullShare d)
            ∗ (∃ d, owns (c : Thread nD τ) arg3 fullShare d)
            ∗ (iprop(owns (c : Thread nD τ) arg10 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc10__sumsq_kernel i arg10 harg1 arg2 harg2 arg3 harg3) K } := by
  refine ⟨?_, ?_, fun E K => ?run⟩
  case run =>
    simp only [cc10__sumsq_kernel_eq_skeleton]; unfold cc10__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun10_B (c : Dev nD) (i : grid10.Coords)
    (arg10 : Memref sig .tc .vmem S1000x256 .f32) (harg1 : arg10.IsWhole)
    (arg2 : Memref sig .tc .vmem S1x256 .f32) (harg2 : arg2.IsWhole)
    (arg3 : Memref sig .tc .vmem S1x256 .f32) (harg3 : arg3.IsWhole) (hc0 : ¬cond10_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg10 fullShare x0 ∗ owns (c : Thread nD τ) arg2 fullShare xo1
            ∗ owns (c : Thread nD τ) arg3 fullShare xo2
            ∗ (iprop(owns (c : Thread nD τ) arg10 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc10__sumsq_kernel i arg10 harg1 arg2 harg2 arg3 harg3) K } := by
  refine ⟨?_, ?_, fun E K => ?run⟩
  case run =>
    simp only [cc10__sumsq_kernel_eq_skeleton]; unfold cc10__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for ANY proof data
    whose array is `V`'s and whose body leaves the block in place: unfetched, the block index has not moved. The
    window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-! ## What each case leaves in the two output buffers -/

/-- The whole-block rectangle of a [1,256] buffer at zero offsets: every index lies in it. -/
private theorem mem_whole_S10x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover10_A_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) (y : S1x256.Idx) :
    ∃ pc ∈ (kernelRun10_A c i arg10 harg1 arg2 harg2 arg3 harg3 hc0 x0).1, y ∈ pc.1.set := by
  unfold kernelRun10_A
  dsimp only
  refine ⟨_, List.mem_cons_self, ?_⟩
  exact mem_whole_S10x256 inb_S1x256_S1x256_0_0 y

/-- Case A's stores into output 2 cover its block likewise. -/
theorem cover10_A_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) (y : S1x256.Idx) :
    ∃ pc ∈ (kernelRun10_A c i arg10 harg1 arg2 harg2 arg3 harg3 hc0 x0).2.1, y ∈ pc.1.set := by
  unfold kernelRun10_A
  dsimp only
  refine ⟨_, List.mem_cons_self, ?_⟩
  exact mem_whole_S10x256 inb_S1x256_S1x256_0_0 y

/-- Case B's one store into output 1 covers its block. -/
theorem cover10_B_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) (y : S1x256.Idx) :
    ∃ pc ∈ (kernelRun10_B c i arg10 harg1 arg2 harg2 arg3 harg3 hc0 x0 xo1 xo2).1, y ∈ pc.1.set := by
  unfold kernelRun10_B
  dsimp only
  refine ⟨_, List.mem_cons_self, ?_⟩
  exact mem_whole_S10x256 inb_S1x256_S1x256_0_0 y

/-- Case B's one store into output 2 covers its block. -/
theorem cover10_B_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) (y : S1x256.Idx) :
    ∃ pc ∈ (kernelRun10_B c i arg10 harg1 arg2 harg2 arg3 harg3 hc0 x0 xo1 xo2).2.1, y ∈ pc.1.set := by
  unfold kernelRun10_B
  dsimp only
  refine ⟨_, List.mem_cons_self, ?_⟩
  exact mem_whole_S10x256 inb_S1x256_S1x256_0_0 y

/-- What case A leaves in output 1's staging buffer: the canonical contents of its stores. -/
def out10_A_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) : Vec F S1x256 .f32 :=
  View.canon (kernelRun10_A c i arg10 harg1 arg2 harg2 arg3 harg3 hc0 x0).1

/-- What case A leaves in output 2's staging buffer. -/
def out10_A_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : cond10_0 i) (x0 : Vec F S1000x256 .f32) : Vec F S1x256 .f32 :=
  View.canon (kernelRun10_A c i arg10 harg1 arg2 harg2 arg3 harg3 hc0 x0).2.1

/-- What case B leaves in output 1's staging buffer, from the input block and what the two outputs held. -/
def out10_B_1 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) : Vec F S1x256 .f32 :=
  View.canon (kernelRun10_B c i arg10 harg1 arg2 harg2 arg3 harg3 hc0 x0 xo1 xo2).1

/-- What case B leaves in output 2's staging buffer. -/
def out10_B_2 (c : Dev nD) (i : grid10.Coords) (arg10 : Memref sig .tc .vmem S1000x256 .f32) (harg1 : arg10.IsWhole)
    (arg2 : Memref sig .tc .vmem S1x256 .f32) (harg2 : arg2.IsWhole) (arg3 : Memref sig .tc .vmem S1x256 .f32) (harg3 : arg3.IsWhole)
    (hc0 : ¬cond10_0 i) (x0 : Vec F S1000x256 .f32) (xo1 xo2 : Vec F S1x256 .f32) : Vec F S1x256 .f32 :=
  View.canon (kernelRun10_B c i arg10 harg1 arg2 harg2 arg3 harg3 hc0 x0 xo1 xo2).2.1

/-! ## What the outputs hold after each point -/

/-- Each window's current staging memref at point `t` is whole. -/
abbrev hs10_0 (t : Fin cfg10.N) : (st10_0 t).IsWhole := hstage10_0 ((cfg10.slots t 0).cast nbuf10_0)
abbrev hs10_1 (t : Fin cfg10.N) : (st10_1 t).IsWhole := hstage10_1 ((cfg10.slots t 1).cast nbuf10_1)
abbrev hs10_2 (t : Fin cfg10.N) : (st10_2 t).IsWhole := hstage10_2 ((cfg10.slots t 2).cast nbuf10_2)

/-- A later point is not the first, so the conditional is not taken there. -/
theorem ncond10_0 (t : Fin cfg10.N) (h0 : t.val ≠ 0) : ¬cond10_0 (grid10.coords t) := fun h => h0 ((hcond10_0 t).mp h)

/-- THE ACCUMULATION. What the two outputs' staging buffers hold after the body at point `n`: at the first point
    case A's contents of the point's input block; at a later point case B's contents of the point's input block and of
    what this recursion gives at `n - 1` (the buffers are not written back between). -/
def outsAt10 (c : Dev nD) : (n : ℕ) → n < cfg10.N → Vec F S1x256 .f32 × Vec F S1x256 .f32
  | 0, hn =>
    (out10_A_1 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
        ((hcond10_0 ⟨0, hn⟩).mpr rfl) (iblk10 V c 0 ⟨0, hn⟩),
     out10_A_2 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
        ((hcond10_0 ⟨0, hn⟩).mpr rfl) (iblk10 V c 0 ⟨0, hn⟩))
  | n + 1, hn =>
    (out10_B_1 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
        (ncond10_0 ⟨n + 1, hn⟩ (Nat.succ_ne_zero n)) (iblk10 V c 0 ⟨n + 1, hn⟩)
        (outsAt10 c n (Nat.lt_of_succ_lt hn)).1 (outsAt10 c n (Nat.lt_of_succ_lt hn)).2,
     out10_B_2 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
        (ncond10_0 ⟨n + 1, hn⟩ (Nat.succ_ne_zero n)) (iblk10 V c 0 ⟨n + 1, hn⟩)
        (outsAt10 c n (Nat.lt_of_succ_lt hn)).1 (outsAt10 c n (Nat.lt_of_succ_lt hn)).2)

/-- The recursion at point 0. -/
theorem outsAt10_zero (c : Dev nD) (hn : 0 < cfg10.N) :
    outsAt10 V c 0 hn =
      (out10_A_1 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
          ((hcond10_0 ⟨0, hn⟩).mpr rfl) (iblk10 V c 0 ⟨0, hn⟩),
       out10_A_2 c (grid10.coords ⟨0, hn⟩) (st10_0 ⟨0, hn⟩) (hs10_0 ⟨0, hn⟩) (st10_1 ⟨0, hn⟩) (hs10_1 ⟨0, hn⟩) (st10_2 ⟨0, hn⟩) (hs10_2 ⟨0, hn⟩)
          ((hcond10_0 ⟨0, hn⟩).mpr rfl) (iblk10 V c 0 ⟨0, hn⟩)) := rfl

/-- The recursion at point `n + 1`. -/
theorem outsAt10_succ (c : Dev nD) (n : ℕ) (hn : n + 1 < cfg10.N) :
    outsAt10 V c (n + 1) hn =
      (out10_B_1 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
          (ncond10_0 ⟨n + 1, hn⟩ (Nat.succ_ne_zero n)) (iblk10 V c 0 ⟨n + 1, hn⟩)
          (outsAt10 V c n (Nat.lt_of_succ_lt hn)).1 (outsAt10 V c n (Nat.lt_of_succ_lt hn)).2,
       out10_B_2 c (grid10.coords ⟨n + 1, hn⟩) (st10_0 ⟨n + 1, hn⟩) (hs10_0 ⟨n + 1, hn⟩) (st10_1 ⟨n + 1, hn⟩) (hs10_1 ⟨n + 1, hn⟩) (st10_2 ⟨n + 1, hn⟩) (hs10_2 ⟨n + 1, hn⟩)
          (ncond10_0 ⟨n + 1, hn⟩ (Nat.succ_ne_zero n)) (iblk10 V c 0 ⟨n + 1, hn⟩)
          (outsAt10 V c n (Nat.lt_of_succ_lt hn)).1 (outsAt10 V c n (Nat.lt_of_succ_lt hn)).2) := rfl

/-- The recursion at a point of case A (the first), stated at the point. -/
theorem outsAt10_A (c : Dev nD) (t : Fin cfg10.N) (h0 : t.val = 0) :
    outsAt10 V c t.val t.isLt =
      (out10_A_1 c (grid10.coords t) (st10_0 t) (hs10_0 t) (st10_1 t) (hs10_1 t) (st10_2 t) (hs10_2 t) ((hcond10_0 t).mpr h0) (iblk10 V c 0 t),
       out10_A_2 c (grid10.coords t) (st10_0 t) (hs10_0 t) (st10_1 t) (hs10_1 t) (st10_2 t) (hs10_2 t) ((hcond10_0 t).mpr h0) (iblk10 V c 0 t)) := by
  obtain ⟨n, hn⟩ := t
  cases n with
  | zero => exact rfl
  | succ n => exact absurd h0 (Nat.succ_ne_zero n)

/-- The recursion at a point of case B (a later one), stated at the point: over what the point before left. -/
theorem outsAt10_B (c : Dev nD) (t : Fin cfg10.N) (h0 : t.val ≠ 0) :
    outsAt10 V c t.val t.isLt =
      (out10_B_1 c (grid10.coords t) (st10_0 t) (hs10_0 t) (st10_1 t) (hs10_1 t) (st10_2 t) (hs10_2 t) (ncond10_0 t h0) (iblk10 V c 0 t)
          (outsAt10 V c (t.val - 1) (Nat.lt_of_le_of_lt (Nat.sub_le _ _) t.isLt)).1
          (outsAt10 V c (t.val - 1) (Nat.lt_of_le_of_lt (Nat.sub_le _ _) t.isLt)).2,
       out10_B_2 c (grid10.coords t) (st10_0 t) (hs10_0 t) (st10_1 t) (hs10_1 t) (st10_2 t) (hs10_2 t) (ncond10_0 t h0) (iblk10 V c 0 t)
          (outsAt10 V c (t.val - 1) (Nat.lt_of_le_of_lt (Nat.sub_le _ _) t.isLt)).1
          (outsAt10 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 10 on core `c`: the arrays as the region finds them (`V`); after the body at point
    `t` the input's buffer at its block and the two outputs' at `outsAt10`; the invariant the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => (outsAt10 V c t.val t.isLt).1
    | ⟨2, _⟩ => (outsAt10 V c t.val t.isLt).2
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = (outsAt10 V c t.val t.isLt).1 := by dsimp only [dat10]
theorem after10_2 (c : Dev nD) (t : Fin cfg10.N) : (dat10 V c).after 2 t = (outsAt10 V c t.val t.isLt).2 := by dsimp only [dat10]

/-- The input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d

/-- At a later point output 1's staging buffer holds what the body left at the point before: the point is not the
    first, the buffer was not written back between (it is written back after point 49 only), the window is live and
    uncut. -/
theorem before10_1_B (c : Dev nD) (t : Fin cfg10.N) (h0 : t.val ≠ 0) (d) :
    (dat10 V c).before 1 t d = (outsAt10 V c (t.val - 1) (Nat.lt_of_le_of_lt (Nat.sub_le _ _) t.isLt)).1 := by
  have hN : t.val < 50 := lt_of_lt_of_eq t.isLt (show cfg10.N = 50 from N_10)
  rw [Dat.before_out_kept _ 1 rfl t h0 (Bool.eq_false_iff.mpr fun h => by have := (flush10_1 _).mp h; dsimp only at this; omega)
    (fun _ => rfl) (fun _ _ => rfl)]
  dsimp only [dat10]

/-- Likewise output 2's. -/
theorem before10_2_B (c : Dev nD) (t : Fin cfg10.N) (h0 : t.val ≠ 0) (d) :
    (dat10 V c).before 2 t d = (outsAt10 V c (t.val - 1) (Nat.lt_of_le_of_lt (Nat.sub_le _ _) t.isLt)).2 := by
  have hN : t.val < 50 := lt_of_lt_of_eq t.isLt (show cfg10.N = 50 from N_10)
  rw [Dat.before_out_kept _ 2 rfl t h0 (Bool.eq_false_iff.mpr fun h => by have := (flush10_2 _).mp h; dsimp only at this; omega)
    (fun _ => rfl) (fun _ _ => rfl)]
  dsimp only [dat10]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).Φ t.succ = (dat10 V c).Φ t.castSucc from rfl,
    show (dat10 V c).owesAt () t.succ = (dat10 V c).owesAt () t.castSucc from rfl,
    after10_0, after10_1, after10_2]
  by_cases h0 : t.val = 0
  · rw [outsAt10_A V c t h0]
    dsimp only
    unfold out10_A_1 out10_A_2
    iintro ⟨HΦ, Ho, ⟨%d0, H0⟩, ⟨%d1, H1⟩, ⟨%d2, H2⟩⟩
    iapply ((kernelRun10_A c (grid10.coords t) _ _ _ _ _ _ ((hcond10_0 t).mpr h0) (iblk10 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover10_A_1 c _ _ _ _ _ _ _ _ _)
    · unfold owns; iexists _; isplitr
      swap; · iexact H2
      ipureintro; exact View.read_writes_eq_canon _ _ _ (cover10_A_2 c _ _ _ _ _ _ _ _ _)
  · rw [outsAt10_B V c t h0]
    dsimp only
    simp only [before10_1_B V c t h0, before10_2_B V c t h0]
    unfold out10_B_1 out10_B_2
    iintro ⟨HΦ, Ho, ⟨%d0, H0⟩, ⟨%d1, H1⟩, ⟨%d2, H2⟩⟩
    iapply ((kernelRun10_B c (grid10.coords t) _ _ _ _ _ _ (ncond10_0 t h0) (iblk10 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover10_B_1 c _ _ _ _ _ _ _ _ _ _ _)
    · unfold owns; iexists _; isplitr
      swap; · iexact H2
      ipureintro; exact View.read_writes_eq_canon _ _ _ (cover10_B_2 c _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Reg

end
-- ==== Proof.KI.Reg11.lean ====
/- REGION 11 of the kernel program: custom_call 11, `cc11__bn_relu_kernel` (pipeline 11), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out11_6`), it keeps nothing from point
   to point and names no semaphore, transfer, table or scratch: the plainest class of pipeline body.
   Stated here, for any float interpretation `F`: each window's block at a point (`iblk11`), that every input's
   staging buffer holds its block at every point (`before11_W_of`), the body's triple (`sound_kernel11`), the
   pipeline's proof data (`dat11`) and the body obligation (`body_obligation11`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole [1000,256] buffer, and the whole [1,256] buffer: every load and the one store are of a whole buffer. -/
abbrev r11_0 : Rect S1000x256 := Rect.unit (s := S1000x256) ![0, 0] S1000x256.size inb_S1000x256_S1000x256_0_0
abbrev r11_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out11_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r11_0, k11_pay1 (View.ld x0 r11_0) (View.ld x1 r11_1) (View.ld x2 r11_1) (View.ld x3 r11_1) (View.ld x4 r11_1) (View.ld x5 r11_1)⟩]

/-- The one store is of the whole buffer (checked by evaluation), so it covers it. -/
theorem cover11_6 (p0 : Vec F S1000x256 .f32) (y : S1000x256.Idx) :
    ∃ pc ∈ ([⟨r11_0, p0⟩] : List (View.Piece (Elt F) S1000x256 .f32)), y ∈ pc.1.set :=
  View.cover_of_tiled [⟨r11_0, p0⟩] S1000x256.size (by rfl) y

/-! ## The body's triple -/

set_option maxHeartbeats 1000000 in
/-- The kernel body on whole staging memrefs, the inputs' at read contents `xW` and the output's at anything, runs to
    the continuation holding the inputs' as they were and the output's at `out11_6` of the inputs': the printed function
    is its skeleton, a sequence of whole-buffer loads and one whole-buffer store, which is run step by step. -/
theorem sound_kernel11 (c : Dev nD) (E : Set ℕ) (i : grid11.Coords) (arg1 : Memref sig .tc .vmem S1000x256 .f32) (harg1 : arg1.IsWhole) (arg11 : Memref sig .tc .vmem S1x256 .f32) (harg2 : arg11.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg11 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg11 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11__bn_relu_kernel i arg1 harg1 arg11 harg2 arg3 harg3 arg4 harg4 arg5 harg5 arg6 harg6 arg7 harg7) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant that
    of the class (the scoped rest and the generator register, untouched); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents (the proof data's definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t` (the body obligation's precondition, the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks (`before11_W`), so `sound_kernel11` applies; the
    invariant and the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Reg
-- ==== Proof.KI.Reg12.lean ====
/- REGION 12 of the kernel program (custom_call 12, `cc12__matmul_kernel`, pipeline 12), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk12`); what the body leaves in the output buffer as a function
   of the two input blocks (`out12_2`); the body's triple on whole staging memrefs (`sound_kernel12`); the
   pipeline's proof data at `V` (`dat12`) with its projections; and the body obligation at every point
   (`body_obligation12`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the row block, its index moving with the point): its current staging buffer holds its block at
    every point, for ANY proof data whose array is `V`'s (`hA`) and whose body leaves the block in place
    (`hafter`); the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The full rectangle of each window's staging buffer: the row block's, the weight's, the output block's. -/
abbrev r12_0 : Rect S1000x512 := Rect.unit (s := S1000x512) ![0, 0] S1000x512.size inb_S1000x512_S1000x512_0_0
abbrev r12_1 : Rect S512x256 := Rect.unit (s := S512x256) ![0, 0] S512x256.size inb_S512x256_S512x256_0_0
abbrev r12_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out12_2 (xa : Vec F S1000x512 .f32) (xb : Vec F S512x256 .f32) : Vec F S1000x256 .f32 :=
  View.canon [⟨r12_2, k12_pay1 (View.ld xa r12_0) (View.ld xb r12_1)⟩]

/-- The one store is through the full rectangle, so it covers the buffer. -/
theorem cover12_2 (pa : Vec F S1000x256 .f32) (y : S1000x256.Idx) :
    ∃ pc ∈ ([⟨r12_2, pa⟩] : List (View.Piece (Elt F) S1000x256 .f32)), y ∈ pc.1.set :=
  View.cover_of_tiled [⟨r12_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out12_2 xa xb`: the printed function is its skeleton of three loads and one store, run one operation after
    the other; the load of the output buffer reads a value nothing uses. -/
theorem sound_kernel12 (c : Dev nD) (E : Set ℕ) (i : grid12.Coords) (ma : Memref sig .tc .vmem S1000x512 .f32) (hma : ma.IsWhole) (mb : Memref sig .tc .vmem S512x256 .f32) (hmb : mb.IsWhole) (mc : Memref sig .tc .vmem S1000x256 .f32) (hmc : mc.IsWhole)
    (xa : Vec F S1000x512 .f32) (xb : Vec F S512x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out12_2 xa xb)) -∗ K ⟨⟩))
      ⊢ wp frame (wpE (defs₀ (F := F)) Variants.none c none) E (cc12__matmul_kernel i ma hma mb hmb mc hmc) K := by
  simp only [cc12__matmul_kernel_eq_skeleton]; unfold cc12__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover12_2 _)

/-! ## The pipeline's proof data -/

/-- The proof data of pipeline 12 on core `c`: the arrays as the region finds them (`V`); after the body at
    point `t` each input's buffer at its block and the output's at `out12_2` of the input blocks; the invariant the
    class's (the scoped rest and the generator register, untouched); nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's `match` reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t` (the body obligation's precondition, the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks (`before12_0`, `before12_1`), so `sound_kernel12`
    applies; the invariant and the core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%da, Ha⟩, ⟨%db, Hb⟩, ⟨%dc, Hc⟩⟩
  iapply (sound_kernel12 c Set.univ (grid12.coords t) _ _ _ _ _ _ (iblk12 V c 0 t) (iblk12 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Reg
-- ==== Proof.KI.Reg13.lean ====
/-
  REGION 13 of the kernel program (custom_call 13, the kernel function cc13__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt13, with its two case equations outsAt13_zero and outsAt13_succ).
  Per case the body's triple is a subtype: the lists of stores (rectangle and payload, last first) each output buffer
  ends with, together with the proof that the body runs to a continuation holding exactly those stores written
  (kernelRun13_A, kernelRun13_B). What a buffer then READS is the canonical contents of its list (View.canon), since the
  last store of each list covers the block.

  Exported: the proof data dat13 (arrays at V, full shares, nothing owed), A_eq13, the body obligation
  body_obligation13, the recursion outsAt13 and its equations, after13_0 / after13_1 / after13_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond13_0 (i : grid13.Coords) : Prop :=
  (Scalar.cmpi .ne (Scalar.extui (Scalar.cmpi .eq (BitVec.ofNat 32 (i 0).val) 0#32)) 0#32) = 1#1

/-- It holds at the first point only: decided over the 50 points. -/
theorem hcond13_0 : ∀ t : Fin cfg13.N, cond13_0 (grid13.coords t) ↔ t.val = 0 :=
  (by decide +kernel : ∀ t : Fin grid13.N, cond13_0 (grid13.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun13_A (c : Dev nD) (i : grid13.Coords)
    (arg13 : Memref sig .tc .vmem S1000x256 .f32) (harg1 : arg13.IsWhole)
    (arg2 : Memref sig .tc .vmem S1x256 .f32) (harg2 : arg2.IsWhole)
    (arg3 : Memref sig .tc .vmem S1x256 .f32) (harg3 : arg3.IsWhole) (hc0 : cond13_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg13 fullShare x0 ∗ (∃ d, owns (c : Thread nD τ) arg2 fullShare d)
            ∗ (∃ d, owns (c : Thread nD τ) arg3 fullShare d)
            ∗ (iprop(owns (c : Thread nD τ) arg13 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc13__sumsq_kernel i arg13 harg1 arg2 harg2 arg3 harg3) K } := by
  refine ⟨?_, ?_, fun E K => ?run⟩
  case run =>
    simp only [cc13__sumsq_kernel_eq_skeleton]; unfold cc13__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun13_B (c : Dev nD) (i : grid13.Coords)
    (arg13 : Memref sig .tc .vmem S1000x256 .f32) (harg1 : arg13.IsWhole)
    (arg2 : Memref sig .tc .vmem S1x256 .f32) (harg2 : arg2.IsWhole)
    (arg3 : Memref sig .tc .vmem S1x256 .f32) (harg3 : arg3.IsWhole) (hc0 : ¬cond13_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg13 fullShare x0 ∗ owns (c : Thread nD τ) arg2 fullShare xo1
            ∗ owns (c : Thread nD τ) arg3 fullShare xo2
            ∗ (iprop(owns (c : Thread nD τ) arg13 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc13__sumsq_kernel i arg13 harg1 arg2 harg2 arg3 harg3) K } := by
  refine ⟨?_, ?_, fun E K => ?run⟩
  case run =>
    simp only [cc13__sumsq_kernel_eq_skeleton]; unfold cc13__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for ANY proof data
    whose array is `V`'s and whose body leaves the block in place: unfetched, the block index has not moved. The
    window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-! ## What each case leaves in the two output buffers -/

/-- The whole-block rectangle of a [1,256] buffer at zero offsets: every index lies in it. -/
private theorem mem_whole_S13x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover13_A_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) (y : S1x256.Idx) :
    ∃ pc ∈ (kernelRun13_A c i arg13 harg1 arg2 harg2 arg3 harg3 hc0 x0).1, y ∈ pc.1.set := by
  unfold kernelRun13_A
  dsimp only
  refine ⟨_, List.mem_cons_self, ?_⟩
  exact mem_whole_S13x256 inb_S1x256_S1x256_0_0 y

/-- Case A's stores into output 2 cover its block likewise. -/
theorem cover13_A_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) (y : S1x256.Idx) :
    ∃ pc ∈ (kernelRun13_A c i arg13 harg1 arg2 harg2 arg3 harg3 hc0 x0).2.1, y ∈ pc.1.set := by
  unfold kernelRun13_A
  dsimp only
  refine ⟨_, List.mem_cons_self, ?_⟩
  exact mem_whole_S13x256 inb_S1x256_S1x256_0_0 y

/-- Case B's one store into output 1 covers its block. -/
theorem cover13_B_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) (y : S1x256.Idx) :
    ∃ pc ∈ (kernelRun13_B c i arg13 harg1 arg2 harg2 arg3 harg3 hc0 x0 xo1 xo2).1, y ∈ pc.1.set := by
  unfold kernelRun13_B
  dsimp only
  refine ⟨_, List.mem_cons_self, ?_⟩
  exact mem_whole_S13x256 inb_S1x256_S1x256_0_0 y

/-- Case B's one store into output 2 covers its block. -/
theorem cover13_B_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) (y : S1x256.Idx) :
    ∃ pc ∈ (kernelRun13_B c i arg13 harg1 arg2 harg2 arg3 harg3 hc0 x0 xo1 xo2).2.1, y ∈ pc.1.set := by
  unfold kernelRun13_B
  dsimp only
  refine ⟨_, List.mem_cons_self, ?_⟩
  exact mem_whole_S13x256 inb_S1x256_S1x256_0_0 y

/-- What case A leaves in output 1's staging buffer: the canonical contents of its stores. -/
def out13_A_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) : Vec F S1x256 .f32 :=
  View.canon (kernelRun13_A c i arg13 harg1 arg2 harg2 arg3 harg3 hc0 x0).1

/-- What case A leaves in output 2's staging buffer. -/
def out13_A_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : cond13_0 i) (x0 : Vec F S1000x256 .f32) : Vec F S1x256 .f32 :=
  View.canon (kernelRun13_A c i arg13 harg1 arg2 harg2 arg3 harg3 hc0 x0).2.1

/-- What case B leaves in output 1's staging buffer, from the input block and what the two outputs held. -/
def out13_B_1 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) : Vec F S1x256 .f32 :=
  View.canon (kernelRun13_B c i arg13 harg1 arg2 harg2 arg3 harg3 hc0 x0 xo1 xo2).1

/-- What case B leaves in output 2's staging buffer. -/
def out13_B_2 (c : Dev nD) (i : grid13.Coords) (arg13 : Memref sig .tc .vmem S1000x256 .f32) (harg1 : arg13.IsWhole)
    (arg2 : Memref sig .tc .vmem S1x256 .f32) (harg2 : arg2.IsWhole) (arg3 : Memref sig .tc .vmem S1x256 .f32) (harg3 : arg3.IsWhole)
    (hc0 : ¬cond13_0 i) (x0 : Vec F S1000x256 .f32) (xo1 xo2 : Vec F S1x256 .f32) : Vec F S1x256 .f32 :=
  View.canon (kernelRun13_B c i arg13 harg1 arg2 harg2 arg3 harg3 hc0 x0 xo1 xo2).2.1

/-! ## What the outputs hold after each point -/

/-- Each window's current staging memref at point `t` is whole. -/
abbrev hs13_0 (t : Fin cfg13.N) : (st13_0 t).IsWhole := hstage13_0 ((cfg13.slots t 0).cast nbuf13_0)
abbrev hs13_1 (t : Fin cfg13.N) : (st13_1 t).IsWhole := hstage13_1 ((cfg13.slots t 1).cast nbuf13_1)
abbrev hs13_2 (t : Fin cfg13.N) : (st13_2 t).IsWhole := hstage13_2 ((cfg13.slots t 2).cast nbuf13_2)

/-- A later point is not the first, so the conditional is not taken there. -/
theorem ncond13_0 (t : Fin cfg13.N) (h0 : t.val ≠ 0) : ¬cond13_0 (grid13.coords t) := fun h => h0 ((hcond13_0 t).mp h)

/-- THE ACCUMULATION. What the two outputs' staging buffers hold after the body at point `n`: at the first point
    case A's contents of the point's input block; at a later point case B's contents of the point's input block and of
    what this recursion gives at `n - 1` (the buffers are not written back between). -/
def outsAt13 (c : Dev nD) : (n : ℕ) → n < cfg13.N → Vec F S1x256 .f32 × Vec F S1x256 .f32
  | 0, hn =>
    (out13_A_1 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
        ((hcond13_0 ⟨0, hn⟩).mpr rfl) (iblk13 V c 0 ⟨0, hn⟩),
     out13_A_2 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
        ((hcond13_0 ⟨0, hn⟩).mpr rfl) (iblk13 V c 0 ⟨0, hn⟩))
  | n + 1, hn =>
    (out13_B_1 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
        (ncond13_0 ⟨n + 1, hn⟩ (Nat.succ_ne_zero n)) (iblk13 V c 0 ⟨n + 1, hn⟩)
        (outsAt13 c n (Nat.lt_of_succ_lt hn)).1 (outsAt13 c n (Nat.lt_of_succ_lt hn)).2,
     out13_B_2 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
        (ncond13_0 ⟨n + 1, hn⟩ (Nat.succ_ne_zero n)) (iblk13 V c 0 ⟨n + 1, hn⟩)
        (outsAt13 c n (Nat.lt_of_succ_lt hn)).1 (outsAt13 c n (Nat.lt_of_succ_lt hn)).2)

/-- The recursion at point 0. -/
theorem outsAt13_zero (c : Dev nD) (hn : 0 < cfg13.N) :
    outsAt13 V c 0 hn =
      (out13_A_1 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
          ((hcond13_0 ⟨0, hn⟩).mpr rfl) (iblk13 V c 0 ⟨0, hn⟩),
       out13_A_2 c (grid13.coords ⟨0, hn⟩) (st13_0 ⟨0, hn⟩) (hs13_0 ⟨0, hn⟩) (st13_1 ⟨0, hn⟩) (hs13_1 ⟨0, hn⟩) (st13_2 ⟨0, hn⟩) (hs13_2 ⟨0, hn⟩)
          ((hcond13_0 ⟨0, hn⟩).mpr rfl) (iblk13 V c 0 ⟨0, hn⟩)) := rfl

/-- The recursion at point `n + 1`. -/
theorem outsAt13_succ (c : Dev nD) (n : ℕ) (hn : n + 1 < cfg13.N) :
    outsAt13 V c (n + 1) hn =
      (out13_B_1 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
          (ncond13_0 ⟨n + 1, hn⟩ (Nat.succ_ne_zero n)) (iblk13 V c 0 ⟨n + 1, hn⟩)
          (outsAt13 V c n (Nat.lt_of_succ_lt hn)).1 (outsAt13 V c n (Nat.lt_of_succ_lt hn)).2,
       out13_B_2 c (grid13.coords ⟨n + 1, hn⟩) (st13_0 ⟨n + 1, hn⟩) (hs13_0 ⟨n + 1, hn⟩) (st13_1 ⟨n + 1, hn⟩) (hs13_1 ⟨n + 1, hn⟩) (st13_2 ⟨n + 1, hn⟩) (hs13_2 ⟨n + 1, hn⟩)
          (ncond13_0 ⟨n + 1, hn⟩ (Nat.succ_ne_zero n)) (iblk13 V c 0 ⟨n + 1, hn⟩)
          (outsAt13 V c n (Nat.lt_of_succ_lt hn)).1 (outsAt13 V c n (Nat.lt_of_succ_lt hn)).2) := rfl

/-- The recursion at a point of case A (the first), stated at the point. -/
theorem outsAt13_A (c : Dev nD) (t : Fin cfg13.N) (h0 : t.val = 0) :
    outsAt13 V c t.val t.isLt =
      (out13_A_1 c (grid13.coords t) (st13_0 t) (hs13_0 t) (st13_1 t) (hs13_1 t) (st13_2 t) (hs13_2 t) ((hcond13_0 t).mpr h0) (iblk13 V c 0 t),
       out13_A_2 c (grid13.coords t) (st13_0 t) (hs13_0 t) (st13_1 t) (hs13_1 t) (st13_2 t) (hs13_2 t) ((hcond13_0 t).mpr h0) (iblk13 V c 0 t)) := by
  obtain ⟨n, hn⟩ := t
  cases n with
  | zero => exact rfl
  | succ n => exact absurd h0 (Nat.succ_ne_zero n)

/-- The recursion at a point of case B (a later one), stated at the point: over what the point before left. -/
theorem outsAt13_B (c : Dev nD) (t : Fin cfg13.N) (h0 : t.val ≠ 0) :
    outsAt13 V c t.val t.isLt =
      (out13_B_1 c (grid13.coords t) (st13_0 t) (hs13_0 t) (st13_1 t) (hs13_1 t) (st13_2 t) (hs13_2 t) (ncond13_0 t h0) (iblk13 V c 0 t)
          (outsAt13 V c (t.val - 1) (Nat.lt_of_le_of_lt (Nat.sub_le _ _) t.isLt)).1
          (outsAt13 V c (t.val - 1) (Nat.lt_of_le_of_lt (Nat.sub_le _ _) t.isLt)).2,
       out13_B_2 c (grid13.coords t) (st13_0 t) (hs13_0 t) (st13_1 t) (hs13_1 t) (st13_2 t) (hs13_2 t) (ncond13_0 t h0) (iblk13 V c 0 t)
          (outsAt13 V c (t.val - 1) (Nat.lt_of_le_of_lt (Nat.sub_le _ _) t.isLt)).1
          (outsAt13 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 13 on core `c`: the arrays as the region finds them (`V`); after the body at point
    `t` the input's buffer at its block and the two outputs' at `outsAt13`; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => (outsAt13 V c t.val t.isLt).1
    | ⟨2, _⟩ => (outsAt13 V c t.val t.isLt).2
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = (outsAt13 V c t.val t.isLt).1 := by dsimp only [dat13]
theorem after13_2 (c : Dev nD) (t : Fin cfg13.N) : (dat13 V c).after 2 t = (outsAt13 V c t.val t.isLt).2 := by dsimp only [dat13]

/-- The input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d

/-- At a later point output 1's staging buffer holds what the body left at the point before: the point is not the
    first, the buffer was not written back between (it is written back after point 49 only), the window is live and
    uncut. -/
theorem before13_1_B (c : Dev nD) (t : Fin cfg13.N) (h0 : t.val ≠ 0) (d) :
    (dat13 V c).before 1 t d = (outsAt13 V c (t.val - 1) (Nat.lt_of_le_of_lt (Nat.sub_le _ _) t.isLt)).1 := by
  have hN : t.val < 50 := lt_of_lt_of_eq t.isLt (show cfg13.N = 50 from N_13)
  rw [Dat.before_out_kept _ 1 rfl t h0 (Bool.eq_false_iff.mpr fun h => by have := (flush13_1 _).mp h; dsimp only at this; omega)
    (fun _ => rfl) (fun _ _ => rfl)]
  dsimp only [dat13]

/-- Likewise output 2's. -/
theorem before13_2_B (c : Dev nD) (t : Fin cfg13.N) (h0 : t.val ≠ 0) (d) :
    (dat13 V c).before 2 t d = (outsAt13 V c (t.val - 1) (Nat.lt_of_le_of_lt (Nat.sub_le _ _) t.isLt)).2 := by
  have hN : t.val < 50 := lt_of_lt_of_eq t.isLt (show cfg13.N = 50 from N_13)
  rw [Dat.before_out_kept _ 2 rfl t h0 (Bool.eq_false_iff.mpr fun h => by have := (flush13_2 _).mp h; dsimp only at this; omega)
    (fun _ => rfl) (fun _ _ => rfl)]
  dsimp only [dat13]

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).Φ t.succ = (dat13 V c).Φ t.castSucc from rfl,
    show (dat13 V c).owesAt () t.succ = (dat13 V c).owesAt () t.castSucc from rfl,
    after13_0, after13_1, after13_2]
  by_cases h0 : t.val = 0
  · rw [outsAt13_A V c t h0]
    dsimp only
    unfold out13_A_1 out13_A_2
    iintro ⟨HΦ, Ho, ⟨%d0, H0⟩, ⟨%d1, H1⟩, ⟨%d2, H2⟩⟩
    iapply ((kernelRun13_A c (grid13.coords t) _ _ _ _ _ _ ((hcond13_0 t).mpr h0) (iblk13 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover13_A_1 c _ _ _ _ _ _ _ _ _)
    · unfold owns; iexists _; isplitr
      swap; · iexact H2
      ipureintro; exact View.read_writes_eq_canon _ _ _ (cover13_A_2 c _ _ _ _ _ _ _ _ _)
  · rw [outsAt13_B V c t h0]
    dsimp only
    simp only [before13_1_B V c t h0, before13_2_B V c t h0]
    unfold out13_B_1 out13_B_2
    iintro ⟨HΦ, Ho, ⟨%d0, H0⟩, ⟨%d1, H1⟩, ⟨%d2, H2⟩⟩
    iapply ((kernelRun13_B c (grid13.coords t) _ _ _ _ _ _ (ncond13_0 t h0) (iblk13 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover13_B_1 c _ _ _ _ _ _ _ _ _ _ _)
    · unfold owns; iexists _; isplitr
      swap; · iexact H2
      ipureintro; exact View.read_writes_eq_canon _ _ _ (cover13_B_2 c _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Reg

end
-- ==== Proof.KI.Reg14.lean ====
/- REGION 14 of the kernel program: custom_call 14, `cc14__bn_relu_kernel` (pipeline 14), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out14_6`), it keeps nothing from point
   to point and names no semaphore, transfer, table or scratch: the plainest class of pipeline body.
   Stated here, for any float interpretation `F`: each window's block at a point (`iblk14`), that every input's
   staging buffer holds its block at every point (`before14_W_of`), the body's triple (`sound_kernel14`), the
   pipeline's proof data (`dat14`) and the body obligation (`body_obligation14`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole [1000,256] buffer, and the whole [1,256] buffer: every load and the one store are of a whole buffer. -/
abbrev r14_0 : Rect S1000x256 := Rect.unit (s := S1000x256) ![0, 0] S1000x256.size inb_S1000x256_S1000x256_0_0
abbrev r14_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out14_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r14_0, k14_pay1 (View.ld x0 r14_0) (View.ld x1 r14_1) (View.ld x2 r14_1) (View.ld x3 r14_1) (View.ld x4 r14_1) (View.ld x5 r14_1)⟩]

/-- The one store is of the whole buffer (checked by evaluation), so it covers it. -/
theorem cover14_6 (p0 : Vec F S1000x256 .f32) (y : S1000x256.Idx) :
    ∃ pc ∈ ([⟨r14_0, p0⟩] : List (View.Piece (Elt F) S1000x256 .f32)), y ∈ pc.1.set :=
  View.cover_of_tiled [⟨r14_0, p0⟩] S1000x256.size (by rfl) y

/-! ## The body's triple -/

set_option maxHeartbeats 1000000 in
/-- The kernel body on whole staging memrefs, the inputs' at read contents `xW` and the output's at anything, runs to
    the continuation holding the inputs' as they were and the output's at `out14_6` of the inputs': the printed function
    is its skeleton, a sequence of whole-buffer loads and one whole-buffer store, which is run step by step. -/
theorem sound_kernel14 (c : Dev nD) (E : Set ℕ) (i : grid14.Coords) (arg1 : Memref sig .tc .vmem S1000x256 .f32) (harg1 : arg1.IsWhole) (arg14 : Memref sig .tc .vmem S1x256 .f32) (harg2 : arg14.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg14 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg14 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__bn_relu_kernel i arg1 harg1 arg14 harg2 arg3 harg3 arg4 harg4 arg5 harg5 arg6 harg6 arg7 harg7) K := by
  simp only [cc14__bn_relu_kernel_eq_skeleton]; unfold cc14__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them (`V`); after the body at
    point `t` each input's buffer at its block and the output's at `out14_6` of the input blocks; the invariant that
    of the class (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents (the proof data's definition projected). -/
theorem A_eq14 (c : Dev nD) (w : Fin cfg14.W) : (dat14 V c).A w = V c (Pipeline.arrRef spec14 w) := by
  dsimp only [dat14]

/-- What the body leaves, window by window (the proof data's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t` (the body obligation's precondition, the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' memrefs hold their blocks (`before14_W`), so `sound_kernel14` applies; the
    invariant and the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Reg
-- ==== Proof.KI.Reg15.lean ====
/- REGION 15 of the kernel program (custom_call 15, `cc15__matmul_kernel`, pipeline 15), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk15`); what the body leaves in the output buffer as a function
   of the two input blocks (`out15_2`); the body's triple on whole staging memrefs (`sound_kernel15`); the
   pipeline's proof data at `V` (`dat15`) with its projections; and the body obligation at every point
   (`body_obligation15`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 (the row block, its index moving with the point): its current staging buffer holds its block at
    every point, for ANY proof data whose array is `V`'s (`hA`) and whose body leaves the block in place
    (`hafter`); the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The full rectangle of each window's staging buffer: the row block's, the weight's, the output block's. -/
abbrev r15_0 : Rect S1000x512 := Rect.unit (s := S1000x512) ![0, 0] S1000x512.size inb_S1000x512_S1000x512_0_0
abbrev r15_1 : Rect S512x256 := Rect.unit (s := S512x256) ![0, 0] S512x256.size inb_S512x256_S512x256_0_0
abbrev r15_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out15_2 (xa : Vec F S1000x512 .f32) (xb : Vec F S512x256 .f32) : Vec F S1000x256 .f32 :=
  View.canon [⟨r15_2, k15_pay1 (View.ld xa r15_0) (View.ld xb r15_1)⟩]

/-- The one store is through the full rectangle, so it covers the buffer. -/
theorem cover15_2 (pa : Vec F S1000x256 .f32) (y : S1000x256.Idx) :
    ∃ pc ∈ ([⟨r15_2, pa⟩] : List (View.Piece (Elt F) S1000x256 .f32)), y ∈ pc.1.set :=
  View.cover_of_tiled [⟨r15_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out15_2 xa xb`: the printed function is its skeleton of three loads and one store, run one operation after
    the other; the load of the output buffer reads a value nothing uses. -/
theorem sound_kernel15 (c : Dev nD) (E : Set ℕ) (i : grid15.Coords) (ma : Memref sig .tc .vmem S1000x512 .f32) (hma : ma.IsWhole) (mb : Memref sig .tc .vmem S512x256 .f32) (hmb : mb.IsWhole) (mc : Memref sig .tc .vmem S1000x256 .f32) (hmc : mc.IsWhole)
    (xa : Vec F S1000x512 .f32) (xb : Vec F S512x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out15_2 xa xb)) -∗ K ⟨⟩))
      ⊢ wp frame (wpE (defs₀ (F := F)) Variants.none c none) E (cc15__matmul_kernel i ma hma mb hmb mc hmc) K := by
  simp only [cc15__matmul_kernel_eq_skeleton]; unfold cc15__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover15_2 _)

/-! ## The pipeline's proof data -/

/-- The proof data of pipeline 15 on core `c`: the arrays as the region finds them (`V`); after the body at
    point `t` each input's buffer at its block and the output's at `out15_2` of the input blocks; the invariant the
    class's (the scoped rest and the generator register, untouched); nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

/-- The proof data's arrays are the region-entry contents (the definition projected). -/
theorem A_eq15 (c : Dev nD) (w : Fin cfg15.W) : (dat15 V c).A w = V c (Pipeline.arrRef spec15 w) := by
  dsimp only [dat15]

/-- What the body leaves, window by window (the proof data's `match` reduced). -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation, at a generic point -/

/-- What the body is called with at point `t` (the body obligation's precondition, the windows one by one), -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks (`before15_0`, `before15_1`), so `sound_kernel15`
    applies; the invariant and the core's debt pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%da, Ha⟩, ⟨%db, Hb⟩, ⟨%dc, Hc⟩⟩
  iapply (sound_kernel15 c Set.univ (grid15.coords t) _ _ _ _ _ _ (iblk15 V c 0 t) (iblk15 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Reg
-- ==== Proof.KI.Reg16.lean ====
/-
  REGION 16 of the kernel program (custom_call 16, the kernel function cc16__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt16, with its two case equations outsAt16_zero and outsAt16_succ).
  Per case the body's triple is a subtype: the lists of stores (rectangle and payload, last first) each output buffer
  ends with, together with the proof that the body runs to a continuation holding exactly those stores written
  (kernelRun16_A, kernelRun16_B). What a buffer then READS is the canonical contents of its list (View.canon), since the
  last store of each list covers the block.

  Exported: the proof data dat16 (arrays at V, full shares, nothing owed), A_eq16, the body obligation
  body_obligation16, the recursion outsAt16 and its equations, after16_0 / after16_1 / after16_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond16_0 (i : grid16.Coords) : Prop :=
  (Scalar.cmpi .ne (Scalar.extui (Scalar.cmpi .eq (BitVec.ofNat 32 (i 0).val) 0#32)) 0#32) = 1#1

/-- It holds at the first point only: decided over the 50 points. -/
theorem hcond16_0 : ∀ t : Fin cfg16.N, cond16_0 (grid16.coords t) ↔ t.val = 0 :=
  (by decide +kernel : ∀ t : Fin grid16.N, cond16_0 (grid16.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun16_A (c : Dev nD) (i : grid16.Coords)
    (arg16 : Memref sig .tc .vmem S1000x256 .f32) (harg1 : arg16.IsWhole)
    (arg2 : Memref sig .tc .vmem S1x256 .f32) (harg2 : arg2.IsWhole)
    (arg3 : Memref sig .tc .vmem S1x256 .f32) (harg3 : arg3.IsWhole) (hc0 : cond16_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg16 fullShare x0 ∗ (∃ d, owns (c : Thread nD τ) arg2 fullShare d)
            ∗ (∃ d, owns (c : Thread nD τ) arg3 fullShare d)
            ∗ (iprop(owns (c : Thread nD τ) arg16 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc16__sumsq_kernel i arg16 harg1 arg2 harg2 arg3 harg3) K } := by
  refine ⟨?_, ?_, fun E K => ?run⟩
  case run =>
    simp only [cc16__sumsq_kernel_eq_skeleton]; unfold cc16__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun16_B (c : Dev nD) (i : grid16.Coords)
    (arg16 : Memref sig .tc .vmem S1000x256 .f32) (harg1 : arg16.IsWhole)
    (arg2 : Memref sig .tc .vmem S1x256 .f32) (harg2 : arg2.IsWhole)
    (arg3 : Memref sig .tc .vmem S1x256 .f32) (harg3 : arg3.IsWhole) (hc0 : ¬cond16_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg16 fullShare x0 ∗ owns (c : Thread nD τ) arg2 fullShare xo1
            ∗ owns (c : Thread nD τ) arg3 fullShare xo2
            ∗ (iprop(owns (c : Thread nD τ) arg16 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc16__sumsq_kernel i arg16 harg1 arg2 harg2 arg3 harg3) K } := by
  refine ⟨?_, ?_, fun E K => ?run⟩
  case run =>
    simp only [cc16__sumsq_kernel_eq_skeleton]; unfold cc16__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for ANY proof data
    whose array is `V`'s and whose body leaves the block in place: unfetched, the block index has not moved. The
    window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-! ## What each case leaves in the two output buffers -/

/-- The whole-block rectangle of a [1,256] buffer at zero offsets: every index lies in it. -/
private theorem mem_whole_S16x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover16_A_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) (y : S1x256.Idx) :
    ∃ pc ∈ (kernelRun16_A c i arg16 harg1 arg2 harg2 arg3 harg3 hc0 x0).1, y ∈ pc.1.set := by
  unfold kernelRun16_A
  dsimp only
  refine ⟨_, List.mem_cons_self, ?_⟩
  exact mem_whole_S16x256 inb_S1x256_S1x256_0_0 y

/-- Case A's stores into output 2 cover its block likewise. -/
theorem cover16_A_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) (y : S1x256.Idx) :
    ∃ pc ∈ (kernelRun16_A c i arg16 harg1 arg2 harg2 arg3 harg3 hc0 x0).2.1, y ∈ pc.1.set := by
  unfold kernelRun16_A
  dsimp only
  refine ⟨_, List.mem_cons_self, ?_⟩
  exact mem_whole_S16x256 inb_S1x256_S1x256_0_0 y

/-- Case B's one store into output 1 covers its block. -/
theorem cover16_B_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) (y : S1x256.Idx) :
    ∃ pc ∈ (kernelRun16_B c i arg16 harg1 arg2 harg2 arg3 harg3 hc0 x0 xo1 xo2).1, y ∈ pc.1.set := by
  unfold kernelRun16_B
  dsimp only
  refine ⟨_, List.mem_cons_self, ?_⟩
  exact mem_whole_S16x256 inb_S1x256_S1x256_0_0 y

/-- Case B's one store into output 2 covers its block. -/
theorem cover16_B_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) (y : S1x256.Idx) :
    ∃ pc ∈ (kernelRun16_B c i arg16 harg1 arg2 harg2 arg3 harg3 hc0 x0 xo1 xo2).2.1, y ∈ pc.1.set := by
  unfold kernelRun16_B
  dsimp only
  refine ⟨_, List.mem_cons_self, ?_⟩
  exact mem_whole_S16x256 inb_S1x256_S1x256_0_0 y

/-- What case A leaves in output 1's staging buffer: the canonical contents of its stores. -/
def out16_A_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) : Vec F S1x256 .f32 :=
  View.canon (kernelRun16_A c i arg16 harg1 arg2 harg2 arg3 harg3 hc0 x0).1

/-- What case A leaves in output 2's staging buffer. -/
def out16_A_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : cond16_0 i) (x0 : Vec F S1000x256 .f32) : Vec F S1x256 .f32 :=
  View.canon (kernelRun16_A c i arg16 harg1 arg2 harg2 arg3 harg3 hc0 x0).2.1

/-- What case B leaves in output 1's staging buffer, from the input block and what the two outputs held. -/
def out16_B_1 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) : Vec F S1x256 .f32 :=
  View.canon (kernelRun16_B c i arg16 harg1 arg2 harg2 arg3 harg3 hc0 x0 xo1 xo2).1

/-- What case B leaves in output 2's staging buffer. -/
def out16_B_2 (c : Dev nD) (i : grid16.Coords) (arg16 : Memref sig .tc .vmem S1000x256 .f32) (harg1 : arg16.IsWhole)
    (arg2 : Memref sig .tc .vmem S1x256 .f32) (harg2 : arg2.IsWhole) (arg3 : Memref sig .tc .vmem S1x256 .f32) (harg3 : arg3.IsWhole)
    (hc0 : ¬cond16_0 i) (x0 : Vec F S1000x256 .f32) (xo1 xo2 : Vec F S1x256 .f32) : Vec F S1x256 .f32 :=
  View.canon (kernelRun16_B c i arg16 harg1 arg2 harg2 arg3 harg3 hc0 x0 xo1 xo2).2.1

/-! ## What the outputs hold after each point -/

/-- Each window's current staging memref at point `t` is whole. -/
abbrev hs16_0 (t : Fin cfg16.N) : (st16_0 t).IsWhole := hstage16_0 ((cfg16.slots t 0).cast nbuf16_0)
abbrev hs16_1 (t : Fin cfg16.N) : (st16_1 t).IsWhole := hstage16_1 ((cfg16.slots t 1).cast nbuf16_1)
abbrev hs16_2 (t : Fin cfg16.N) : (st16_2 t).IsWhole := hstage16_2 ((cfg16.slots t 2).cast nbuf16_2)

/-- A later point is not the first, so the conditional is not taken there. -/
theorem ncond16_0 (t : Fin cfg16.N) (h0 : t.val ≠ 0) : ¬cond16_0 (grid16.coords t) := fun h => h0 ((hcond16_0 t).mp h)

/-- THE ACCUMULATION. What the two outputs' staging buffers hold after the body at point `n`: at the first point
    case A's contents of the point's input block; at a later point case B's contents of the point's input block and of
    what this recursion gives at `n - 1` (the buffers are not written back between). -/
def outsAt16 (c : Dev nD) : (n : ℕ) → n < cfg16.N → Vec F S1x256 .f32 × Vec F S1x256 .f32
  | 0, hn =>
    (out16_A_1 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
        ((hcond16_0 ⟨0, hn⟩).mpr rfl) (iblk16 V c 0 ⟨0, hn⟩),
     out16_A_2 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
        ((hcond16_0 ⟨0, hn⟩).mpr rfl) (iblk16 V c 0 ⟨0, hn⟩))
  | n + 1, hn =>
    (out16_B_1 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
        (ncond16_0 ⟨n + 1, hn⟩ (Nat.succ_ne_zero n)) (iblk16 V c 0 ⟨n + 1, hn⟩)
        (outsAt16 c n (Nat.lt_of_succ_lt hn)).1 (outsAt16 c n (Nat.lt_of_succ_lt hn)).2,
     out16_B_2 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
        (ncond16_0 ⟨n + 1, hn⟩ (Nat.succ_ne_zero n)) (iblk16 V c 0 ⟨n + 1, hn⟩)
        (outsAt16 c n (Nat.lt_of_succ_lt hn)).1 (outsAt16 c n (Nat.lt_of_succ_lt hn)).2)

/-- The recursion at point 0. -/
theorem outsAt16_zero (c : Dev nD) (hn : 0 < cfg16.N) :
    outsAt16 V c 0 hn =
      (out16_A_1 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
          ((hcond16_0 ⟨0, hn⟩).mpr rfl) (iblk16 V c 0 ⟨0, hn⟩),
       out16_A_2 c (grid16.coords ⟨0, hn⟩) (st16_0 ⟨0, hn⟩) (hs16_0 ⟨0, hn⟩) (st16_1 ⟨0, hn⟩) (hs16_1 ⟨0, hn⟩) (st16_2 ⟨0, hn⟩) (hs16_2 ⟨0, hn⟩)
          ((hcond16_0 ⟨0, hn⟩).mpr rfl) (iblk16 V c 0 ⟨0, hn⟩)) := rfl

/-- The recursion at point `n + 1`. -/
theorem outsAt16_succ (c : Dev nD) (n : ℕ) (hn : n + 1 < cfg16.N) :
    outsAt16 V c (n + 1) hn =
      (out16_B_1 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
          (ncond16_0 ⟨n + 1, hn⟩ (Nat.succ_ne_zero n)) (iblk16 V c 0 ⟨n + 1, hn⟩)
          (outsAt16 V c n (Nat.lt_of_succ_lt hn)).1 (outsAt16 V c n (Nat.lt_of_succ_lt hn)).2,
       out16_B_2 c (grid16.coords ⟨n + 1, hn⟩) (st16_0 ⟨n + 1, hn⟩) (hs16_0 ⟨n + 1, hn⟩) (st16_1 ⟨n + 1, hn⟩) (hs16_1 ⟨n + 1, hn⟩) (st16_2 ⟨n + 1, hn⟩) (hs16_2 ⟨n + 1, hn⟩)
          (ncond16_0 ⟨n + 1, hn⟩ (Nat.succ_ne_zero n)) (iblk16 V c 0 ⟨n + 1, hn⟩)
          (outsAt16 V c n (Nat.lt_of_succ_lt hn)).1 (outsAt16 V c n (Nat.lt_of_succ_lt hn)).2) := rfl

/-- The recursion at a point of case A (the first), stated at the point. -/
theorem outsAt16_A (c : Dev nD) (t : Fin cfg16.N) (h0 : t.val = 0) :
    outsAt16 V c t.val t.isLt =
      (out16_A_1 c (grid16.coords t) (st16_0 t) (hs16_0 t) (st16_1 t) (hs16_1 t) (st16_2 t) (hs16_2 t) ((hcond16_0 t).mpr h0) (iblk16 V c 0 t),
       out16_A_2 c (grid16.coords t) (st16_0 t) (hs16_0 t) (st16_1 t) (hs16_1 t) (st16_2 t) (hs16_2 t) ((hcond16_0 t).mpr h0) (iblk16 V c 0 t)) := by
  obtain ⟨n, hn⟩ := t
  cases n with
  | zero => exact rfl
  | succ n => exact absurd h0 (Nat.succ_ne_zero n)

/-- The recursion at a point of case B (a later one), stated at the point: over what the point before left. -/
theorem outsAt16_B (c : Dev nD) (t : Fin cfg16.N) (h0 : t.val ≠ 0) :
    outsAt16 V c t.val t.isLt =
      (out16_B_1 c (grid16.coords t) (st16_0 t) (hs16_0 t) (st16_1 t) (hs16_1 t) (st16_2 t) (hs16_2 t) (ncond16_0 t h0) (iblk16 V c 0 t)
          (outsAt16 V c (t.val - 1) (Nat.lt_of_le_of_lt (Nat.sub_le _ _) t.isLt)).1
          (outsAt16 V c (t.val - 1) (Nat.lt_of_le_of_lt (Nat.sub_le _ _) t.isLt)).2,
       out16_B_2 c (grid16.coords t) (st16_0 t) (hs16_0 t) (st16_1 t) (hs16_1 t) (st16_2 t) (hs16_2 t) (ncond16_0 t h0) (iblk16 V c 0 t)
          (outsAt16 V c (t.val - 1) (Nat.lt_of_le_of_lt (Nat.sub_le _ _) t.isLt)).1
          (outsAt16 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 16 on core `c`: the arrays as the region finds them (`V`); after the body at point
    `t` the input's buffer at its block and the two outputs' at `outsAt16`; the invariant the scoped rest and the
    generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => (outsAt16 V c t.val t.isLt).1
    | ⟨2, _⟩ => (outsAt16 V c t.val t.isLt).2
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = (outsAt16 V c t.val t.isLt).1 := by dsimp only [dat16]
theorem after16_2 (c : Dev nD) (t : Fin cfg16.N) : (dat16 V c).after 2 t = (outsAt16 V c t.val t.isLt).2 := by dsimp only [dat16]

/-- The input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d

/-- At a later point output 1's staging buffer holds what the body left at the point before: the point is not the
    first, the buffer was not written back between (it is written back after point 49 only), the window is live and
    uncut. -/
theorem before16_1_B (c : Dev nD) (t : Fin cfg16.N) (h0 : t.val ≠ 0) (d) :
    (dat16 V c).before 1 t d = (outsAt16 V c (t.val - 1) (Nat.lt_of_le_of_lt (Nat.sub_le _ _) t.isLt)).1 := by
  have hN : t.val < 50 := lt_of_lt_of_eq t.isLt (show cfg16.N = 50 from N_16)
  rw [Dat.before_out_kept _ 1 rfl t h0 (Bool.eq_false_iff.mpr fun h => by have := (flush16_1 _).mp h; dsimp only at this; omega)
    (fun _ => rfl) (fun _ _ => rfl)]
  dsimp only [dat16]

/-- Likewise output 2's. -/
theorem before16_2_B (c : Dev nD) (t : Fin cfg16.N) (h0 : t.val ≠ 0) (d) :
    (dat16 V c).before 2 t d = (outsAt16 V c (t.val - 1) (Nat.lt_of_le_of_lt (Nat.sub_le _ _) t.isLt)).2 := by
  have hN : t.val < 50 := lt_of_lt_of_eq t.isLt (show cfg16.N = 50 from N_16)
  rw [Dat.before_out_kept _ 2 rfl t h0 (Bool.eq_false_iff.mpr fun h => by have := (flush16_2 _).mp h; dsimp only at this; omega)
    (fun _ => rfl) (fun _ _ => rfl)]
  dsimp only [dat16]

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0]
  rw [show (dat16 V c).Φ t.succ = (dat16 V c).Φ t.castSucc from rfl,
    show (dat16 V c).owesAt () t.succ = (dat16 V c).owesAt () t.castSucc from rfl,
    after16_0, after16_1, after16_2]
  by_cases h0 : t.val = 0
  · rw [outsAt16_A V c t h0]
    dsimp only
    unfold out16_A_1 out16_A_2
    iintro ⟨HΦ, Ho, ⟨%d0, H0⟩, ⟨%d1, H1⟩, ⟨%d2, H2⟩⟩
    iapply ((kernelRun16_A c (grid16.coords t) _ _ _ _ _ _ ((hcond16_0 t).mpr h0) (iblk16 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover16_A_1 c _ _ _ _ _ _ _ _ _)
    · unfold owns; iexists _; isplitr
      swap; · iexact H2
      ipureintro; exact View.read_writes_eq_canon _ _ _ (cover16_A_2 c _ _ _ _ _ _ _ _ _)
  · rw [outsAt16_B V c t h0]
    dsimp only
    simp only [before16_1_B V c t h0, before16_2_B V c t h0]
    unfold out16_B_1 out16_B_2
    iintro ⟨HΦ, Ho, ⟨%d0, H0⟩, ⟨%d1, H1⟩, ⟨%d2, H2⟩⟩
    iapply ((kernelRun16_B c (grid16.coords t) _ _ _ _ _ _ (ncond16_0 t h0) (iblk16 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover16_B_1 c _ _ _ _ _ _ _ _ _ _ _)
    · unfold owns; iexists _; isplitr
      swap; · iexact H2
      ipureintro; exact View.read_writes_eq_canon _ _ _ (cover16_B_2 c _ _ _ _ _ _ _ _ _ _ _)

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Reg

end
-- ==== Proof.KI.Reg17.lean ====
/- REGION 17 of the kernel program: custom_call 17, `cc17__bn_relu_kernel` (pipeline 17), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out17_6`), it keeps nothing from point
   to point and names no semaphore, transfer, table or scratch: the plainest class of pipeline body.
   Stated here, for any float interpretation `F`: each window's block at a point (`iblk17`), that every input's
   staging buffer holds its block at every point (`before17_W_of`), the body's triple (`sound_kernel17`), the
   pipeline's proof data (`dat17`) and the body obligation (`body_obligation17`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before17_5_of {c : Dev nD} (dat : Dat τ (Elt F) Unit ℕ (UR sig nD τ) ℕ cfg17 c) (hA : dat.A 5 = V c (Pipeline.arrRef spec17 5))
    (hafter : ∀ t, dat.after 5 t = iblk17 V c 5 t) (t : Fin cfg17.N) (d) : dat.before 5 t d = iblk17 V c 5 t :=
  (dat.before_in_eq_fetched 5 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses -/

/-- The whole [1000,256] buffer, and the whole [1,256] buffer: every load and the one store are of a whole buffer. -/
abbrev r17_0 : Rect S1000x256 := Rect.unit (s := S1000x256) ![0, 0] S1000x256.size inb_S1000x256_S1000x256_0_0
abbrev r17_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out17_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r17_0, k17_pay1 (View.ld x0 r17_0) (View.ld x1 r17_1) (View.ld x2 r17_1) (View.ld x3 r17_1) (View.ld x4 r17_1) (View.ld x5 r17_1)⟩]

/-- The one store is of the whole buffer (checked by evaluation), so it covers it. -/
theorem cover17_6 (p0 : Vec F S1000x256 .f32) (y : S1000x256.Idx) :
    ∃ pc ∈ ([⟨r17_0, p0⟩] : List (View.Piece (Elt F) S1000x256 .f32)), y ∈ pc.1.set :=
  View.cover_of_tiled [⟨r17_0, p0⟩] S1000x256.size (by rfl) y

/-! ## The body's triple -/

set_option maxHeartbeats 1000000 in
/-- The kernel body on whole staging memrefs, the inputs' at read contents `xW` and the output's at anything, runs to
    the continuation holding the inputs' as they were and the output's at `out17_6` of the inputs': the printed function
    is its skeleton, a sequence of whole-buffer loads and one whole-buffer store, which is run step by step. -/
theorem sound_kernel17 (c : Dev nD) (E : Set ℕ) (i : grid17.Coords) (arg1 : Memref sig .tc .vmem S1000x256 .f32) (harg1 : arg1.IsWhole) (arg17 : Memref sig .tc .vmem S1x256 .f32) (harg2 : arg17.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg17 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg17 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out17_6 x0 x1 x2 x3 x4 x5)) -∗ K ⟨⟩))
      ⊢ wp frame (wpE (defs₀ (F := F)) Variants.none c none) E (cc17__bn_relu_kernel i arg1 harg1 arg17 harg2 arg3 harg3 arg4 harg4 arg5 harg5 arg6 harg6 arg7 harg7) K := by
  simp only [cc17__bn_relu_kernel_eq_skeleton]; unfold cc17__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover17_6 _)

/-! ## The pipeline's proof data -/

/-- The proof data of pipeline 17 on core `c`: the arrays as the region finds them (`V`); after the body at
    point `t` each input's buffer at its block and the output's at `out17_6` of the input blocks; the invariant that
    of the class (the scoped rest and the generator register, untouched); nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => iblk17 V c 5 t
    | ⟨6, _⟩ => out17_6 (iblk17 V c 0 t) (iblk17 V c 1 t) (iblk17 V c 2 t) (iblk17 V c 3 t) (iblk17 V c 4 t) (iblk17 V c 5 t)
  Φ _ := Pipeline.ΦA spec17 c
  q _ := fullShare
  owed _ := 0

/-- The proof data's arrays are the region-entry contents (the proof data's definition projected). -/
theorem A_eq17 (c : Dev nD) (w : Fin cfg17.W) : (dat17 V c).A w = V c (Pipeline.arrRef spec17 w) := by
  dsimp only [dat17]

/-- What the body leaves, window by window (the proof data's `match` reduced). -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t = iblk17 V c 5 t := by dsimp only [dat17]
theorem after17_6 (c : Dev nD) (t : Fin cfg17.N) : (dat17 V c).after 6 t = out17_6 (iblk17 V c 0 t) (iblk17 V c 1 t) (iblk17 V c 2 t) (iblk17 V c 3 t) (iblk17 V c 4 t) (iblk17 V c 5 t) := by dsimp only [dat17]

/-- Each input's current staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d
theorem before17_5 (c : Dev nD) (t : Fin cfg17.N) (d) : (dat17 V c).before 5 t d = iblk17 V c 5 t :=
  before17_5_of V (dat17 V c) (A_eq17 V c 5) (after17_5 V c) t d

/-! ## The body obligation, at a generic point -/

/-- What the body is called with at point `t` (the body obligation's precondition, the windows one by one), -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d))
    ∗ (∃ d, owns (c : Thread nD τ) (st17_6 t) fullShare ((dat17 V c).before 6 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t)
    ∗ owns (c : Thread nD τ) (st17_6 t) fullShare ((dat17 V c).after 6 t))

/-- The body at any point: the inputs' memrefs hold their blocks (`before17_W`), so `sound_kernel17` applies; the
    invariant and the core's debts pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4, before17_5]
  rw [show (dat17 V c).Φ t.succ = (dat17 V c).Φ t.castSucc from rfl,
    show (dat17 V c).owesAt () t.succ = (dat17 V c).owesAt () t.castSucc from rfl,
    after17_0, after17_1, after17_2, after17_3, after17_4, after17_5, after17_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel17 c Set.univ (grid17.coords t) _ _ _ _ _ _ _ _ _ _ _ _ _ _ (iblk17 V c 0 t) (iblk17 V c 1 t) (iblk17 V c 2 t) (iblk17 V c 3 t) (iblk17 V c 4 t) (iblk17 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Reg
-- ==== Proof.KI.Reg18.lean ====
/- REGION 18 of the kernel program (custom_call 18, kernel function cc18__out_kernel), at any F, at a parameter V: the
   TensorCore's buffer contents when the region is entered. Each window's block at a point (iblk18), what the body finds
   in each input window's buffer (before18_W), what it leaves in the output window's buffer (out18_3: the one store of
   the body, whose payload is the row log-softmax of block·weight + bias), the body's triple (sound_kernel18), the
   pipeline's proof data (dat18) and the body obligation at every point (body_obligation18). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 18: custom_call 18, the output head, at the entry contents V -/

/-! ## The windows' blocks -/

/-- Window w's block at point t, read off its array as the region finds it (V). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0 (the [1000,256] block of rows, fetched at every point): its current staging buffer holds its block
    at every point, for any proof data whose array is V's (hA) and whose body leaves the block in place (hafter). -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1 (the whole [256,2] weight, fetched at the first point only): its staging buffer holds its block at
    every point, fetched there or not — unfetched, the block index has not moved. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2 (the [1,2] bias, fetched at the first point only): likewise. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

abbrev r18_0 : Rect S1000x256 := Rect.unit (s := S1000x256) ![0, 0] S1000x256.size inb_S1000x256_S1000x256_0_0
abbrev r18_1 : Rect S256x2 := Rect.unit (s := S256x2) ![0, 0] S256x2.size inb_S256x2_S256x2_0_0
abbrev r18_2 : Rect S1x2 := Rect.unit (s := S1x2) ![0, 0] S1x2.size inb_S1x2_S1x2_0_0
abbrev r18_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out18_3 (x0 : Vec F S1000x256 .f32) (x1 : Vec F S256x2 .f32) (x2 : Vec F S1x2 .f32) : Vec F S1000x2 .f32 :=
  View.canon [⟨r18_3, k18_pay1 (View.ld x0 r18_0) (View.ld x1 r18_1) (View.ld x2 r18_2)⟩]

/-- Its store tiles the buffer (checked by evaluation), so it covers it. -/
theorem cover18_3 (p0 : Vec F S1000x2 .f32) (y : S1000x2.Idx) :
    ∃ pc ∈ ([⟨r18_3, p0⟩] : List (View.Piece (Elt F) S1000x2 .f32)), y ∈ pc.1.set :=
  View.cover_of_tiled [⟨r18_3, p0⟩] S1000x2.size (by rfl) y

/-! ## The body's triple -/

set_option maxHeartbeats 1000000 in
/-- The kernel body on whole staging memrefs, the inputs' at read contents xW and the output's at anything, runs to the
    continuation holding the inputs' as they were and the output's at out18_3 of the inputs': the printed function is
    its skeleton, which the executor runs. -/
theorem sound_kernel18 (c : Dev nD) (E : Set ℕ) (i : grid18.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out18_3 x0 x1 x2)) -∗ K ⟨⟩))
      ⊢ wp frame (wpE (defs₀ (F := F)) Variants.none c none) E (cc18__out_kernel i arg1 harg1 arg2 harg2 arg3 harg3 arg4 harg4) K := by
  simp only [cc18__out_kernel_eq_skeleton]; unfold cc18__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover18_3 _)

/-! ## The pipeline's proof data -/

/-- The proof data of pipeline 18 on core c: the arrays as the region finds them (V); after the body at point t each
    input's buffer at its block and the output's at out18_3 of the input blocks; the invariant the scoped rest and the
    generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = out18_3 (iblk18 V c 0 t) (iblk18 V c 1 t) (iblk18 V c 2 t) := by dsimp only [dat18]

/-- Each input's current staging buffer holds its block at every point, fetched there or not. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body obligation, at a generic point -/

/-- What the body is called with at point t (the windows one by one), -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t))

/-- The body at any point: the inputs' memrefs hold their blocks (before18_W), so sound_kernel18 applies; the invariant
    and the core's owes pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2]
  rw [show (dat18 V c).Φ t.succ = (dat18 V c).Φ t.castSucc from rfl,
    show (dat18 V c).owesAt () t.succ = (dat18 V c).owesAt () t.castSucc from rfl,
    after18_0, after18_1, after18_2, after18_3]
  iintro ⟨HΦ, Ho, ⟨%d0, H0⟩, ⟨%d1, H1⟩, ⟨%d2, H2⟩, ⟨%d3, H3⟩⟩
  iapply (sound_kernel18 c Set.univ _ _ _ _ _ _ _ _ _ (iblk18 V c 0 t) (iblk18 V c 1 t) (iblk18 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation18 (c : Dev nD) : BodyObligation (dat18 (F := F) V c) (defs₀ (F := F)) Variants.none () Set.univ := fun t => by
  rw [bigSep_W18, bigSep_W18]
  exact sound_body18 V c t

/-- info: 'Cert.KernelIdeal.Reg.body_obligation18' depends on axioms: [propext, Classical.choice, Quot.sound] -/
#guard_msgs in #print axioms body_obligation18

end Cert.KernelIdeal.Reg

end
-- ==== Proof.KI.Reg19.lean ====
/- REGION 19 of the kernel program (custom_call 19, `cc19__matmul_kernel`, pipeline 19), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk19`); what the body leaves in the output buffer as a function
   of the two input blocks (`out19_2`); the body's triple on whole staging memrefs (`sound_kernel19`); the
   pipeline's proof data at `V` (`dat19`) with its projections; and the body obligation at every point
   (`body_obligation19`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0 (the row block, its index moving with the point): its current staging buffer holds its block at
    every point, for ANY proof data whose array is `V`'s (`hA`) and whose body leaves the block in place
    (`hafter`); the window is uncut and never idle. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses -/

/-- The full rectangle of each window's staging buffer: the row block's, the weight's, the output block's. -/
abbrev r19_0 : Rect S1000x256 := Rect.unit (s := S1000x256) ![0, 0] S1000x256.size inb_S1000x256_S1000x256_0_0
abbrev r19_1 : Rect S256x256 := Rect.unit (s := S256x256) ![0, 0] S256x256.size inb_S256x256_S256x256_0_0
abbrev r19_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out19_2 (xa : Vec F S1000x256 .f32) (xb : Vec F S256x256 .f32) : Vec F S1000x256 .f32 :=
  View.canon [⟨r19_2, k19_pay1 (View.ld xa r19_0) (View.ld xb r19_1)⟩]

/-- The one store is through the full rectangle, so it covers the buffer. -/
theorem cover19_2 (pa : Vec F S1000x256 .f32) (y : S1000x256.Idx) :
    ∃ pc ∈ ([⟨r19_2, pa⟩] : List (View.Piece (Elt F) S1000x256 .f32)), y ∈ pc.1.set :=
  View.cover_of_tiled [⟨r19_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out19_2 xa xb`: the printed function is its skeleton of three loads and one store, run one operation after
    the other; the load of the output buffer reads a value nothing uses. -/
theorem sound_kernel19 (c : Dev nD) (E : Set ℕ) (i : grid19.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out19_2 xa xb)) -∗ K ⟨⟩))
      ⊢ wp frame (wpE (defs₀ (F := F)) Variants.none c none) E (cc19__matmul_kernel i ma hma mb hmb mc hmc) K := by
  simp only [cc19__matmul_kernel_eq_skeleton]; unfold cc19__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover19_2 _)

/-! ## The pipeline's proof data -/

/-- The proof data of pipeline 19 on core `c`: the arrays as the region finds them (`V`); after the body at
    point `t` each input's buffer at its block and the output's at `out19_2` of the input blocks; the invariant the
    class's (the scoped rest and the generator register, untouched); nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

/-- The proof data's arrays are the region-entry contents (the definition projected). -/
theorem A_eq19 (c : Dev nD) (w : Fin cfg19.W) : (dat19 V c).A w = V c (Pipeline.arrRef spec19 w) := by
  dsimp only [dat19]

/-- What the body leaves, window by window (the proof data's `match` reduced). -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]

/-- Each input's current staging buffer holds its block at every point, fetched there or not. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation, at a generic point -/

/-- What the body is called with at point `t` (the body obligation's precondition, the windows one by one), -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

/-- The body at any point: the inputs' memrefs hold their blocks (`before19_0`, `before19_1`), so `sound_kernel19`
    applies; the invariant and the core's debt pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%da, Ha⟩, ⟨%db, Hb⟩, ⟨%dc, Hc⟩⟩
  iapply (sound_kernel19 c Set.univ (grid19.coords t) _ _ _ _ _ _ (iblk19 V c 0 t) (iblk19 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.KernelIdeal.Reg
-- ==== Proof.KI.ChainB.lean ====
-- laid out by: scratch/mkchain.js ChainB proof/Proof/KI/ChainB.lean
/- THE KERNEL PROGRAM'S BUFFER CONTENTS BETWEEN ITEMS, second part: from region 9's exit to the stretch before
   region 20 (boundaries 22 … 42), continuing the fold of the first part with the same statements beside each boundary. -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import proofs.«146967_j25786983645193_1_alg».proof.Proof.KI.ChainA
import proofs.«146967_j25786983645193_1_alg».proof.Proof.KI.Reg10
import proofs.«146967_j25786983645193_1_alg».proof.Proof.KI.Reg11
import proofs.«146967_j25786983645193_1_alg».proof.Proof.KI.Reg12
import proofs.«146967_j25786983645193_1_alg».proof.Proof.KI.Reg13
import proofs.«146967_j25786983645193_1_alg».proof.Proof.KI.Reg14
import proofs.«146967_j25786983645193_1_alg».proof.Proof.KI.Reg15
import proofs.«146967_j25786983645193_1_alg».proof.Proof.KI.Reg16
import proofs.«146967_j25786983645193_1_alg».proof.Proof.KI.Reg17
import proofs.«146967_j25786983645193_1_alg».proof.Proof.KI.Reg18
import proofs.«146967_j25786983645193_1_alg».proof.Proof.KI.Reg19
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every reference `hostOps10` writes has index twenty or more. -/
theorem hostOps10_ge : (hostOps10_W.all fun r => decide (20 ≤ r.idx.val)) = true := by decide
/-- After `hostOps10`. -/
abbrev W22 : Dev nD → Valuation τ sig (Elt F) := fun c => StableHlo.after hostOps10 (W21 m c)
theorem W22_keep (c : Dev nD) (b : Ref sig .tc) (h : b ∉ hostOps10_W) :
    W22 m c (Proc.devRef .tc b) = W21 m c (Proc.devRef .tc b) :=
  StableHlo.after_of_writes_sub hostOps10 _ hostOps10_writes h
theorem W22_arg (c : Dev nD) {b : Ref sig .tc} (hb : b ∈ args) :
    W22 m c (Proc.devRef .tc b) = m ((c : Thread nD τ).loc b) :=
  (W22_keep m c b (args_not_mem hostOps10_ge hb)).trans (W21_arg m c hb)

/-- Every output array of region 10 has index twenty or more. -/
theorem out10_ge : ∀ w, (cfg10.win w).isOut = true → 20 ≤ (Pipeline.arrRef spec10 w).idx.val := by decide
/-- At region 10's exit: its arrays at what the pipeline leaves, every other buffer as entered. -/
def W23 (c : Dev nD) : Valuation τ sig (Elt F) :=
  Pipeline.withArrays spec10 c (W22 m c) fun w => (dat10 (rd (W22 m)) c).arrAt w cfg10.N
theorem W23_arr (c : Dev nD) (w : Fin cfg10.W) :
    W23 m c (Proc.devRef .tc (Pipeline.arrRef spec10 w)) = (dat10 (rd (W22 m)) c).arrAt w cfg10.N := by
  unfold W23; exact Pipeline.withArrays_arr spec10 launch10.win.arr_inj c _ _ w
theorem W23_of_ne (c : Dev nD) (b : Ref sig .tc) (hb : ∀ w, Pipeline.arrRef spec10 w ≠ b) :
    W23 m c (Proc.devRef .tc b) = W22 m c (Proc.devRef .tc b) := by
  unfold W23; exact Pipeline.withArrays_of_ne spec10 c _ _ b hb
/-- At region 10's exit each of its arrays holds what the pipeline leaves (`hF10`) and every other buffer what it held
    at entry (`hrest10`). -/
theorem hF10 (c : Dev nD) (w : Fin cfg10.W) :
    (dat10 (rd (W22 m)) c).arrAt w cfg10.N = rd (W23 m) c (Pipeline.arrRef spec10 w) :=
  (W23_arr m c w).symm
theorem hrest10 (c : Dev nD) : ∀ b, b ∉ Finset.univ.image (Pipeline.arrRef spec10) → rd (W23 m) c b = rd (W22 m) c b :=
  fun b hb => W23_of_ne m c b fun w e => hb (Finset.mem_image.mpr ⟨w, Finset.mem_univ _, e⟩)
/-- A reference that is no OUTPUT array of region 10 keeps its contents: an input array is left as entered, a buffer
    that is no array of the region bypasses it. -/
theorem W23_keep (c : Dev nD) (b : Ref sig .tc) (hb : ∀ w, Pipeline.arrRef spec10 w = b → (cfg10.win w).isOut = false) :
    W23 m c (Proc.devRef .tc b) = W22 m c (Proc.devRef .tc b) := by
  by_cases h : ∃ w, Pipeline.arrRef spec10 w = b
  · obtain ⟨w, rfl⟩ := h
    exact (W23_arr m c w).trans (((dat10 (rd (W22 m)) c).arrAt_in w (hb w rfl) _).trans (A_eq10 (rd (W22 m)) c w))
  · exact W23_of_ne m c b fun w e => h ⟨w, e⟩
theorem W23_arg (c : Dev nD) {b : Ref sig .tc} (hb : b ∈ args) :
    W23 m c (Proc.devRef .tc b) = m ((c : Thread nD τ).loc b) :=
  (W23_keep m c b (args_in out10_ge hb)).trans (W22_arg m c hb)

/-- Every reference `hostOps11` writes has index twenty or more. -/
theorem hostOps11_ge : (hostOps11_W.all fun r => decide (20 ≤ r.idx.val)) = true := by decide
/-- After `hostOps11`. -/
abbrev W24 : Dev nD → Valuation τ sig (Elt F) := fun c => StableHlo.after hostOps11 (W23 m c)
theorem W24_keep (c : Dev nD) (b : Ref sig .tc) (h : b ∉ hostOps11_W) :
    W24 m c (Proc.devRef .tc b) = W23 m c (Proc.devRef .tc b) :=
  StableHlo.after_of_writes_sub hostOps11 _ hostOps11_writes h
theorem W24_arg (c : Dev nD) {b : Ref sig .tc} (hb : b ∈ args) :
    W24 m c (Proc.devRef .tc b) = m ((c : Thread nD τ).loc b) :=
  (W24_keep m c b (args_not_mem hostOps11_ge hb)).trans (W23_arg m c hb)

/-- Every output array of region 11 has index twenty or more. -/
theorem out11_ge : ∀ w, (cfg11.win w).isOut = true → 20 ≤ (Pipeline.arrRef spec11 w).idx.val := by decide
/-- At region 11's exit: its arrays at what the pipeline leaves, every other buffer as entered. -/
def W25 (c : Dev nD) : Valuation τ sig (Elt F) :=
  Pipeline.withArrays spec11 c (W24 m c) fun w => (dat11 (rd (W24 m)) c).arrAt w cfg11.N
theorem W25_arr (c : Dev nD) (w : Fin cfg11.W) :
    W25 m c (Proc.devRef .tc (Pipeline.arrRef spec11 w)) = (dat11 (rd (W24 m)) c).arrAt w cfg11.N := by
  unfold W25; exact Pipeline.withArrays_arr spec11 launch11.win.arr_inj c _ _ w
theorem W25_of_ne (c : Dev nD) (b : Ref sig .tc) (hb : ∀ w, Pipeline.arrRef spec11 w ≠ b) :
    W25 m c (Proc.devRef .tc b) = W24 m c (Proc.devRef .tc b) := by
  unfold W25; exact Pipeline.withArrays_of_ne spec11 c _ _ b hb
/-- At region 11's exit each of its arrays holds what the pipeline leaves (`hF11`) and every other buffer what it held
    at entry (`hrest11`). -/
theorem hF11 (c : Dev nD) (w : Fin cfg11.W) :
    (dat11 (rd (W24 m)) c).arrAt w cfg11.N = rd (W25 m) c (Pipeline.arrRef spec11 w) :=
  (W25_arr m c w).symm
theorem hrest11 (c : Dev nD) : ∀ b, b ∉ Finset.univ.image (Pipeline.arrRef spec11) → rd (W25 m) c b = rd (W24 m) c b :=
  fun b hb => W25_of_ne m c b fun w e => hb (Finset.mem_image.mpr ⟨w, Finset.mem_univ _, e⟩)
/-- A reference that is no OUTPUT array of region 11 keeps its contents: an input array is left as entered, a buffer
    that is no array of the region bypasses it. -/
theorem W25_keep (c : Dev nD) (b : Ref sig .tc) (hb : ∀ w, Pipeline.arrRef spec11 w = b → (cfg11.win w).isOut = false) :
    W25 m c (Proc.devRef .tc b) = W24 m c (Proc.devRef .tc b) := by
  by_cases h : ∃ w, Pipeline.arrRef spec11 w = b
  · obtain ⟨w, rfl⟩ := h
    exact (W25_arr m c w).trans (((dat11 (rd (W24 m)) c).arrAt_in w (hb w rfl) _).trans (A_eq11 (rd (W24 m)) c w))
  · exact W25_of_ne m c b fun w e => h ⟨w, e⟩
theorem W25_arg (c : Dev nD) {b : Ref sig .tc} (hb : b ∈ args) :
    W25 m c (Proc.devRef .tc b) = m ((c : Thread nD τ).loc b) :=
  (W25_keep m c b (args_in out11_ge hb)).trans (W24_arg m c hb)

/-- Every reference `hostOps12` writes has index twenty or more. -/
theorem hostOps12_ge : (hostOps12_W.all fun r => decide (20 ≤ r.idx.val)) = true := by decide
/-- After `hostOps12`. -/
abbrev W26 : Dev nD → Valuation τ sig (Elt F) := fun c => StableHlo.after hostOps12 (W25 m c)
theorem W26_keep (c : Dev nD) (b : Ref sig .tc) (h : b ∉ hostOps12_W) :
    W26 m c (Proc.devRef .tc b) = W25 m c (Proc.devRef .tc b) :=
  StableHlo.after_of_writes_sub hostOps12 _ hostOps12_writes h
theorem W26_arg (c : Dev nD) {b : Ref sig .tc} (hb : b ∈ args) :
    W26 m c (Proc.devRef .tc b) = m ((c : Thread nD τ).loc b) :=
  (W26_keep m c b (args_not_mem hostOps12_ge hb)).trans (W25_arg m c hb)

/-- Every output array of region 12 has index twenty or more. -/
theorem out12_ge : ∀ w, (cfg12.win w).isOut = true → 20 ≤ (Pipeline.arrRef spec12 w).idx.val := by decide
/-- At region 12's exit: its arrays at what the pipeline leaves, every other buffer as entered. -/
def W27 (c : Dev nD) : Valuation τ sig (Elt F) :=
  Pipeline.withArrays spec12 c (W26 m c) fun w => (dat12 (rd (W26 m)) c).arrAt w cfg12.N
theorem W27_arr (c : Dev nD) (w : Fin cfg12.W) :
    W27 m c (Proc.devRef .tc (Pipeline.arrRef spec12 w)) = (dat12 (rd (W26 m)) c).arrAt w cfg12.N := by
  unfold W27; exact Pipeline.withArrays_arr spec12 launch12.win.arr_inj c _ _ w
theorem W27_of_ne (c : Dev nD) (b : Ref sig .tc) (hb : ∀ w, Pipeline.arrRef spec12 w ≠ b) :
    W27 m c (Proc.devRef .tc b) = W26 m c (Proc.devRef .tc b) := by
  unfold W27; exact Pipeline.withArrays_of_ne spec12 c _ _ b hb
/-- At region 12's exit each of its arrays holds what the pipeline leaves (`hF12`) and every other buffer what it held
    at entry (`hrest12`). -/
theorem hF12 (c : Dev nD) (w : Fin cfg12.W) :
    (dat12 (rd (W26 m)) c).arrAt w cfg12.N = rd (W27 m) c (Pipeline.arrRef spec12 w) :=
  (W27_arr m c w).symm
theorem hrest12 (c : Dev nD) : ∀ b, b ∉ Finset.univ.image (Pipeline.arrRef spec12) → rd (W27 m) c b = rd (W26 m) c b :=
  fun b hb => W27_of_ne m c b fun w e => hb (Finset.mem_image.mpr ⟨w, Finset.mem_univ _, e⟩)
/-- A reference that is no OUTPUT array of region 12 keeps its contents: an input array is left as entered, a buffer
    that is no array of the region bypasses it. -/
theorem W27_keep (c : Dev nD) (b : Ref sig .tc) (hb : ∀ w, Pipeline.arrRef spec12 w = b → (cfg12.win w).isOut = false) :
    W27 m c (Proc.devRef .tc b) = W26 m c (Proc.devRef .tc b) := by
  by_cases h : ∃ w, Pipeline.arrRef spec12 w = b
  · obtain ⟨w, rfl⟩ := h
    exact (W27_arr m c w).trans (((dat12 (rd (W26 m)) c).arrAt_in w (hb w rfl) _).trans (A_eq12 (rd (W26 m)) c w))
  · exact W27_of_ne m c b fun w e => h ⟨w, e⟩
theorem W27_arg (c : Dev nD) {b : Ref sig .tc} (hb : b ∈ args) :
    W27 m c (Proc.devRef .tc b) = m ((c : Thread nD τ).loc b) :=
  (W27_keep m c b (args_in out12_ge hb)).trans (W26_arg m c hb)

/-- Every reference `hostOps13` writes has index twenty or more. -/
theorem hostOps13_ge : (hostOps13_W.all fun r => decide (20 ≤ r.idx.val)) = true := by decide
/-- After `hostOps13`. -/
abbrev W28 : Dev nD → Valuation τ sig (Elt F) := fun c => StableHlo.after hostOps13 (W27 m c)
theorem W28_keep (c : Dev nD) (b : Ref sig .tc) (h : b ∉ hostOps13_W) :
    W28 m c (Proc.devRef .tc b) = W27 m c (Proc.devRef .tc b) :=
  StableHlo.after_of_writes_sub hostOps13 _ hostOps13_writes h
theorem W28_arg (c : Dev nD) {b : Ref sig .tc} (hb : b ∈ args) :
    W28 m c (Proc.devRef .tc b) = m ((c : Thread nD τ).loc b) :=
  (W28_keep m c b (args_not_mem hostOps13_ge hb)).trans (W27_arg m c hb)

/-- Every output array of region 13 has index twenty or more. -/
theorem out13_ge : ∀ w, (cfg13.win w).isOut = true → 20 ≤ (Pipeline.arrRef spec13 w).idx.val := by decide
/-- At region 13's exit: its arrays at what the pipeline leaves, every other buffer as entered. -/
def W29 (c : Dev nD) : Valuation τ sig (Elt F) :=
  Pipeline.withArrays spec13 c (W28 m c) fun w => (dat13 (rd (W28 m)) c).arrAt w cfg13.N
theorem W29_arr (c : Dev nD) (w : Fin cfg13.W) :
    W29 m c (Proc.devRef .tc (Pipeline.arrRef spec13 w)) = (dat13 (rd (W28 m)) c).arrAt w cfg13.N := by
  unfold W29; exact Pipeline.withArrays_arr spec13 launch13.win.arr_inj c _ _ w
theorem W29_of_ne (c : Dev nD) (b : Ref sig .tc) (hb : ∀ w, Pipeline.arrRef spec13 w ≠ b) :
    W29 m c (Proc.devRef .tc b) = W28 m c (Proc.devRef .tc b) := by
  unfold W29; exact Pipeline.withArrays_of_ne spec13 c _ _ b hb
/-- At region 13's exit each of its arrays holds what the pipeline leaves (`hF13`) and every other buffer what it held
    at entry (`hrest13`). -/
theorem hF13 (c : Dev nD) (w : Fin cfg13.W) :
    (dat13 (rd (W28 m)) c).arrAt w cfg13.N = rd (W29 m) c (Pipeline.arrRef spec13 w) :=
  (W29_arr m c w).symm
theorem hrest13 (c : Dev nD) : ∀ b, b ∉ Finset.univ.image (Pipeline.arrRef spec13) → rd (W29 m) c b = rd (W28 m) c b :=
  fun b hb => W29_of_ne m c b fun w e => hb (Finset.mem_image.mpr ⟨w, Finset.mem_univ _, e⟩)
/-- A reference that is no OUTPUT array of region 13 keeps its contents: an input array is left as entered, a buffer
    that is no array of the region bypasses it. -/
theorem W29_keep (c : Dev nD) (b : Ref sig .tc) (hb : ∀ w, Pipeline.arrRef spec13 w = b → (cfg13.win w).isOut = false) :
    W29 m c (Proc.devRef .tc b) = W28 m c (Proc.devRef .tc b) := by
  by_cases h : ∃ w, Pipeline.arrRef spec13 w = b
  · obtain ⟨w, rfl⟩ := h
    exact (W29_arr m c w).trans (((dat13 (rd (W28 m)) c).arrAt_in w (hb w rfl) _).trans (A_eq13 (rd (W28 m)) c w))
  · exact W29_of_ne m c b fun w e => h ⟨w, e⟩
theorem W29_arg (c : Dev nD) {b : Ref sig .tc} (hb : b ∈ args) :
    W29 m c (Proc.devRef .tc b) = m ((c : Thread nD τ).loc b) :=
  (W29_keep m c b (args_in out13_ge hb)).trans (W28_arg m c hb)

/-- Every reference `hostOps14` writes has index twenty or more. -/
theorem hostOps14_ge : (hostOps14_W.all fun r => decide (20 ≤ r.idx.val)) = true := by decide
/-- After `hostOps14`. -/
abbrev W30 : Dev nD → Valuation τ sig (Elt F) := fun c => StableHlo.after hostOps14 (W29 m c)
theorem W30_keep (c : Dev nD) (b : Ref sig .tc) (h : b ∉ hostOps14_W) :
    W30 m c (Proc.devRef .tc b) = W29 m c (Proc.devRef .tc b) :=
  StableHlo.after_of_writes_sub hostOps14 _ hostOps14_writes h
theorem W30_arg (c : Dev nD) {b : Ref sig .tc} (hb : b ∈ args) :
    W30 m c (Proc.devRef .tc b) = m ((c : Thread nD τ).loc b) :=
  (W30_keep m c b (args_not_mem hostOps14_ge hb)).trans (W29_arg m c hb)

/-- Every output array of region 14 has index twenty or more. -/
theorem out14_ge : ∀ w, (cfg14.win w).isOut = true → 20 ≤ (Pipeline.arrRef spec14 w).idx.val := by decide
/-- At region 14's exit: its arrays at what the pipeline leaves, every other buffer as entered. -/
def W31 (c : Dev nD) : Valuation τ sig (Elt F) :=
  Pipeline.withArrays spec14 c (W30 m c) fun w => (dat14 (rd (W30 m)) c).arrAt w cfg14.N
theorem W31_arr (c : Dev nD) (w : Fin cfg14.W) :
    W31 m c (Proc.devRef .tc (Pipeline.arrRef spec14 w)) = (dat14 (rd (W30 m)) c).arrAt w cfg14.N := by
  unfold W31; exact Pipeline.withArrays_arr spec14 launch14.win.arr_inj c _ _ w
theorem W31_of_ne (c : Dev nD) (b : Ref sig .tc) (hb : ∀ w, Pipeline.arrRef spec14 w ≠ b) :
    W31 m c (Proc.devRef .tc b) = W30 m c (Proc.devRef .tc b) := by
  unfold W31; exact Pipeline.withArrays_of_ne spec14 c _ _ b hb
/-- At region 14's exit each of its arrays holds what the pipeline leaves (`hF14`) and every other buffer what it held
    at entry (`hrest14`). -/
theorem hF14 (c : Dev nD) (w : Fin cfg14.W) :
    (dat14 (rd (W30 m)) c).arrAt w cfg14.N = rd (W31 m) c (Pipeline.arrRef spec14 w) :=
  (W31_arr m c w).symm
theorem hrest14 (c : Dev nD) : ∀ b, b ∉ Finset.univ.image (Pipeline.arrRef spec14) → rd (W31 m) c b = rd (W30 m) c b :=
  fun b hb => W31_of_ne m c b fun w e => hb (Finset.mem_image.mpr ⟨w, Finset.mem_univ _, e⟩)
/-- A reference that is no OUTPUT array of region 14 keeps its contents: an input array is left as entered, a buffer
    that is no array of the region bypasses it. -/
theorem W31_keep (c : Dev nD) (b : Ref sig .tc) (hb : ∀ w, Pipeline.arrRef spec14 w = b → (cfg14.win w).isOut = false) :
    W31 m c (Proc.devRef .tc b) = W30 m c (Proc.devRef .tc b) := by
  by_cases h : ∃ w, Pipeline.arrRef spec14 w = b
  · obtain ⟨w, rfl⟩ := h
    exact (W31_arr m c w).trans (((dat14 (rd (W30 m)) c).arrAt_in w (hb w rfl) _).trans (A_eq14 (rd (W30 m)) c w))
  · exact W31_of_ne m c b fun w e => h ⟨w, e⟩
theorem W31_arg (c : Dev nD) {b : Ref sig .tc} (hb : b ∈ args) :
    W31 m c (Proc.devRef .tc b) = m ((c : Thread nD τ).loc b) :=
  (W31_keep m c b (args_in out14_ge hb)).trans (W30_arg m c hb)

/-- Every reference `hostOps15` writes has index twenty or more. -/
theorem hostOps15_ge : (hostOps15_W.all fun r => decide (20 ≤ r.idx.val)) = true := by decide
/-- After `hostOps15`. -/
abbrev W32 : Dev nD → Valuation τ sig (Elt F) := fun c => StableHlo.after hostOps15 (W31 m c)
theorem W32_keep (c : Dev nD) (b : Ref sig .tc) (h : b ∉ hostOps15_W) :
    W32 m c (Proc.devRef .tc b) = W31 m c (Proc.devRef .tc b) :=
  StableHlo.after_of_writes_sub hostOps15 _ hostOps15_writes h
theorem W32_arg (c : Dev nD) {b : Ref sig .tc} (hb : b ∈ args) :
    W32 m c (Proc.devRef .tc b) = m ((c : Thread nD τ).loc b) :=
  (W32_keep m c b (args_not_mem hostOps15_ge hb)).trans (W31_arg m c hb)

/-- Every output array of region 15 has index twenty or more. -/
theorem out15_ge : ∀ w, (cfg15.win w).isOut = true → 20 ≤ (Pipeline.arrRef spec15 w).idx.val := by decide
/-- At region 15's exit: its arrays at what the pipeline leaves, every other buffer as entered. -/
def W33 (c : Dev nD) : Valuation τ sig (Elt F) :=
  Pipeline.withArrays spec15 c (W32 m c) fun w => (dat15 (rd (W32 m)) c).arrAt w cfg15.N
theorem W33_arr (c : Dev nD) (w : Fin cfg15.W) :
    W33 m c (Proc.devRef .tc (Pipeline.arrRef spec15 w)) = (dat15 (rd (W32 m)) c).arrAt w cfg15.N := by
  unfold W33; exact Pipeline.withArrays_arr spec15 launch15.win.arr_inj c _ _ w
theorem W33_of_ne (c : Dev nD) (b : Ref sig .tc) (hb : ∀ w, Pipeline.arrRef spec15 w ≠ b) :
    W33 m c (Proc.devRef .tc b) = W32 m c (Proc.devRef .tc b) := by
  unfold W33; exact Pipeline.withArrays_of_ne spec15 c _ _ b hb
/-- At region 15's exit each of its arrays holds what the pipeline leaves (`hF15`) and every other buffer what it held
    at entry (`hrest15`). -/
theorem hF15 (c : Dev nD) (w : Fin cfg15.W) :
    (dat15 (rd (W32 m)) c).arrAt w cfg15.N = rd (W33 m) c (Pipeline.arrRef spec15 w) :=
  (W33_arr m c w).symm
theorem hrest15 (c : Dev nD) : ∀ b, b ∉ Finset.univ.image (Pipeline.arrRef spec15) → rd (W33 m) c b = rd (W32 m) c b :=
  fun b hb => W33_of_ne m c b fun w e => hb (Finset.mem_image.mpr ⟨w, Finset.mem_univ _, e⟩)
/-- A reference that is no OUTPUT array of region 15 keeps its contents: an input array is left as entered, a buffer
    that is no array of the region bypasses it. -/
theorem W33_keep (c : Dev nD) (b : Ref sig .tc) (hb : ∀ w, Pipeline.arrRef spec15 w = b → (cfg15.win w).isOut = false) :
    W33 m c (Proc.devRef .tc b) = W32 m c (Proc.devRef .tc b) := by
  by_cases h : ∃ w, Pipeline.arrRef spec15 w = b
  · obtain ⟨w, rfl⟩ := h
    exact (W33_arr m c w).trans (((dat15 (rd (W32 m)) c).arrAt_in w (hb w rfl) _).trans (A_eq15 (rd (W32 m)) c w))
  · exact W33_of_ne m c b fun w e => h ⟨w, e⟩
theorem W33_arg (c : Dev nD) {b : Ref sig .tc} (hb : b ∈ args) :
    W33 m c (Proc.devRef .tc b) = m ((c : Thread nD τ).loc b) :=
  (W33_keep m c b (args_in out15_ge hb)).trans (W32_arg m c hb)

/-- Every reference `hostOps16` writes has index twenty or more. -/
theorem hostOps16_ge : (hostOps16_W.all fun r => decide (20 ≤ r.idx.val)) = true := by decide
/-- After `hostOps16`. -/
abbrev W34 : Dev nD → Valuation τ sig (Elt F) := fun c => StableHlo.after hostOps16 (W33 m c)
theorem W34_keep (c : Dev nD) (b : Ref sig .tc) (h : b ∉ hostOps16_W) :
    W34 m c (Proc.devRef .tc b) = W33 m c (Proc.devRef .tc b) :=
  StableHlo.after_of_writes_sub hostOps16 _ hostOps16_writes h
theorem W34_arg (c : Dev nD) {b : Ref sig .tc} (hb : b ∈ args) :
    W34 m c (Proc.devRef .tc b) = m ((c : Thread nD τ).loc b) :=
  (W34_keep m c b (args_not_mem hostOps16_ge hb)).trans (W33_arg m c hb)

/-- Every output array of region 16 has index twenty or more. -/
theorem out16_ge : ∀ w, (cfg16.win w).isOut = true → 20 ≤ (Pipeline.arrRef spec16 w).idx.val := by decide
/-- At region 16's exit: its arrays at what the pipeline leaves, every other buffer as entered. -/
def W35 (c : Dev nD) : Valuation τ sig (Elt F) :=
  Pipeline.withArrays spec16 c (W34 m c) fun w => (dat16 (rd (W34 m)) c).arrAt w cfg16.N
theorem W35_arr (c : Dev nD) (w : Fin cfg16.W) :
    W35 m c (Proc.devRef .tc (Pipeline.arrRef spec16 w)) = (dat16 (rd (W34 m)) c).arrAt w cfg16.N := by
  unfold W35; exact Pipeline.withArrays_arr spec16 launch16.win.arr_inj c _ _ w
theorem W35_of_ne (c : Dev nD) (b : Ref sig .tc) (hb : ∀ w, Pipeline.arrRef spec16 w ≠ b) :
    W35 m c (Proc.devRef .tc b) = W34 m c (Proc.devRef .tc b) := by
  unfold W35; exact Pipeline.withArrays_of_ne spec16 c _ _ b hb
/-- At region 16's exit each of its arrays holds what the pipeline leaves (`hF16`) and every other buffer what it held
    at entry (`hrest16`). -/
theorem hF16 (c : Dev nD) (w : Fin cfg16.W) :
    (dat16 (rd (W34 m)) c).arrAt w cfg16.N = rd (W35 m) c (Pipeline.arrRef spec16 w) :=
  (W35_arr m c w).symm
theorem hrest16 (c : Dev nD) : ∀ b, b ∉ Finset.univ.image (Pipeline.arrRef spec16) → rd (W35 m) c b = rd (W34 m) c b :=
  fun b hb => W35_of_ne m c b fun w e => hb (Finset.mem_image.mpr ⟨w, Finset.mem_univ _, e⟩)
/-- A reference that is no OUTPUT array of region 16 keeps its contents: an input array is left as entered, a buffer
    that is no array of the region bypasses it. -/
theorem W35_keep (c : Dev nD) (b : Ref sig .tc) (hb : ∀ w, Pipeline.arrRef spec16 w = b → (cfg16.win w).isOut = false) :
    W35 m c (Proc.devRef .tc b) = W34 m c (Proc.devRef .tc b) := by
  by_cases h : ∃ w, Pipeline.arrRef spec16 w = b
  · obtain ⟨w, rfl⟩ := h
    exact (W35_arr m c w).trans (((dat16 (rd (W34 m)) c).arrAt_in w (hb w rfl) _).trans (A_eq16 (rd (W34 m)) c w))
  · exact W35_of_ne m c b fun w e => h ⟨w, e⟩
theorem W35_arg (c : Dev nD) {b : Ref sig .tc} (hb : b ∈ args) :
    W35 m c (Proc.devRef .tc b) = m ((c : Thread nD τ).loc b) :=
  (W35_keep m c b (args_in out16_ge hb)).trans (W34_arg m c hb)

/-- Every reference `hostOps17` writes has index twenty or more. -/
theorem hostOps17_ge : (hostOps17_W.all fun r => decide (20 ≤ r.idx.val)) = true := by decide
/-- After `hostOps17`. -/
abbrev W36 : Dev nD → Valuation τ sig (Elt F) := fun c => StableHlo.after hostOps17 (W35 m c)
theorem W36_keep (c : Dev nD) (b : Ref sig .tc) (h : b ∉ hostOps17_W) :
    W36 m c (Proc.devRef .tc b) = W35 m c (Proc.devRef .tc b) :=
  StableHlo.after_of_writes_sub hostOps17 _ hostOps17_writes h
theorem W36_arg (c : Dev nD) {b : Ref sig .tc} (hb : b ∈ args) :
    W36 m c (Proc.devRef .tc b) = m ((c : Thread nD τ).loc b) :=
  (W36_keep m c b (args_not_mem hostOps17_ge hb)).trans (W35_arg m c hb)

/-- Every output array of region 17 has index twenty or more. -/
theorem out17_ge : ∀ w, (cfg17.win w).isOut = true → 20 ≤ (Pipeline.arrRef spec17 w).idx.val := by decide
/-- At region 17's exit: its arrays at what the pipeline leaves, every other buffer as entered. -/
def W37 (c : Dev nD) : Valuation τ sig (Elt F) :=
  Pipeline.withArrays spec17 c (W36 m c) fun w => (dat17 (rd (W36 m)) c).arrAt w cfg17.N
theorem W37_arr (c : Dev nD) (w : Fin cfg17.W) :
    W37 m c (Proc.devRef .tc (Pipeline.arrRef spec17 w)) = (dat17 (rd (W36 m)) c).arrAt w cfg17.N := by
  unfold W37; exact Pipeline.withArrays_arr spec17 launch17.win.arr_inj c _ _ w
theorem W37_of_ne (c : Dev nD) (b : Ref sig .tc) (hb : ∀ w, Pipeline.arrRef spec17 w ≠ b) :
    W37 m c (Proc.devRef .tc b) = W36 m c (Proc.devRef .tc b) := by
  unfold W37; exact Pipeline.withArrays_of_ne spec17 c _ _ b hb
/-- At region 17's exit each of its arrays holds what the pipeline leaves (`hF17`) and every other buffer what it held
    at entry (`hrest17`). -/
theorem hF17 (c : Dev nD) (w : Fin cfg17.W) :
    (dat17 (rd (W36 m)) c).arrAt w cfg17.N = rd (W37 m) c (Pipeline.arrRef spec17 w) :=
  (W37_arr m c w).symm
theorem hrest17 (c : Dev nD) : ∀ b, b ∉ Finset.univ.image (Pipeline.arrRef spec17) → rd (W37 m) c b = rd (W36 m) c b :=
  fun b hb => W37_of_ne m c b fun w e => hb (Finset.mem_image.mpr ⟨w, Finset.mem_univ _, e⟩)
/-- A reference that is no OUTPUT array of region 17 keeps its contents: an input array is left as entered, a buffer
    that is no array of the region bypasses it. -/
theorem W37_keep (c : Dev nD) (b : Ref sig .tc) (hb : ∀ w, Pipeline.arrRef spec17 w = b → (cfg17.win w).isOut = false) :
    W37 m c (Proc.devRef .tc b) = W36 m c (Proc.devRef .tc b) := by
  by_cases h : ∃ w, Pipeline.arrRef spec17 w = b
  · obtain ⟨w, rfl⟩ := h
    exact (W37_arr m c w).trans (((dat17 (rd (W36 m)) c).arrAt_in w (hb w rfl) _).trans (A_eq17 (rd (W36 m)) c w))
  · exact W37_of_ne m c b fun w e => h ⟨w, e⟩
theorem W37_arg (c : Dev nD) {b : Ref sig .tc} (hb : b ∈ args) :
    W37 m c (Proc.devRef .tc b) = m ((c : Thread nD τ).loc b) :=
  (W37_keep m c b (args_in out17_ge hb)).trans (W36_arg m c hb)

/-- Every reference `hostOps18` writes has index twenty or more. -/
theorem hostOps18_ge : (hostOps18_W.all fun r => decide (20 ≤ r.idx.val)) = true := by decide
/-- After `hostOps18`. -/
abbrev W38 : Dev nD → Valuation τ sig (Elt F) := fun c => StableHlo.after hostOps18 (W37 m c)
theorem W38_keep (c : Dev nD) (b : Ref sig .tc) (h : b ∉ hostOps18_W) :
    W38 m c (Proc.devRef .tc b) = W37 m c (Proc.devRef .tc b) :=
  StableHlo.after_of_writes_sub hostOps18 _ hostOps18_writes h
theorem W38_arg (c : Dev nD) {b : Ref sig .tc} (hb : b ∈ args) :
    W38 m c (Proc.devRef .tc b) = m ((c : Thread nD τ).loc b) :=
  (W38_keep m c b (args_not_mem hostOps18_ge hb)).trans (W37_arg m c hb)

/-- Every output array of region 18 has index twenty or more. -/
theorem out18_ge : ∀ w, (cfg18.win w).isOut = true → 20 ≤ (Pipeline.arrRef spec18 w).idx.val := by decide
/-- At region 18's exit: its arrays at what the pipeline leaves, every other buffer as entered. -/
def W39 (c : Dev nD) : Valuation τ sig (Elt F) :=
  Pipeline.withArrays spec18 c (W38 m c) fun w => (dat18 (rd (W38 m)) c).arrAt w cfg18.N
theorem W39_arr (c : Dev nD) (w : Fin cfg18.W) :
    W39 m c (Proc.devRef .tc (Pipeline.arrRef spec18 w)) = (dat18 (rd (W38 m)) c).arrAt w cfg18.N := by
  unfold W39; exact Pipeline.withArrays_arr spec18 launch18.win.arr_inj c _ _ w
theorem W39_of_ne (c : Dev nD) (b : Ref sig .tc) (hb : ∀ w, Pipeline.arrRef spec18 w ≠ b) :
    W39 m c (Proc.devRef .tc b) = W38 m c (Proc.devRef .tc b) := by
  unfold W39; exact Pipeline.withArrays_of_ne spec18 c _ _ b hb
/-- At region 18's exit each of its arrays holds what the pipeline leaves (`hF18`) and every other buffer what it held
    at entry (`hrest18`). -/
theorem hF18 (c : Dev nD) (w : Fin cfg18.W) :
    (dat18 (rd (W38 m)) c).arrAt w cfg18.N = rd (W39 m) c (Pipeline.arrRef spec18 w) :=
  (W39_arr m c w).symm
theorem hrest18 (c : Dev nD) : ∀ b, b ∉ Finset.univ.image (Pipeline.arrRef spec18) → rd (W39 m) c b = rd (W38 m) c b :=
  fun b hb => W39_of_ne m c b fun w e => hb (Finset.mem_image.mpr ⟨w, Finset.mem_univ _, e⟩)
/-- A reference that is no OUTPUT array of region 18 keeps its contents: an input array is left as entered, a buffer
    that is no array of the region bypasses it. -/
theorem W39_keep (c : Dev nD) (b : Ref sig .tc) (hb : ∀ w, Pipeline.arrRef spec18 w = b → (cfg18.win w).isOut = false) :
    W39 m c (Proc.devRef .tc b) = W38 m c (Proc.devRef .tc b) := by
  by_cases h : ∃ w, Pipeline.arrRef spec18 w = b
  · obtain ⟨w, rfl⟩ := h
    exact (W39_arr m c w).trans (((dat18 (rd (W38 m)) c).arrAt_in w (hb w rfl) _).trans (A_eq18 (rd (W38 m)) c w))
  · exact W39_of_ne m c b fun w e => h ⟨w, e⟩
theorem W39_arg (c : Dev nD) {b : Ref sig .tc} (hb : b ∈ args) :
    W39 m c (Proc.devRef .tc b) = m ((c : Thread nD τ).loc b) :=
  (W39_keep m c b (args_in out18_ge hb)).trans (W38_arg m c hb)

/-- Every reference `hostOps19` writes has index twenty or more. -/
theorem hostOps19_ge : (hostOps19_W.all fun r => decide (20 ≤ r.idx.val)) = true := by decide
/-- After `hostOps19`. -/
abbrev W40 : Dev nD → Valuation τ sig (Elt F) := fun c => StableHlo.after hostOps19 (W39 m c)
theorem W40_keep (c : Dev nD) (b : Ref sig .tc) (h : b ∉ hostOps19_W) :
    W40 m c (Proc.devRef .tc b) = W39 m c (Proc.devRef .tc b) :=
  StableHlo.after_of_writes_sub hostOps19 _ hostOps19_writes h
theorem W40_arg (c : Dev nD) {b : Ref sig .tc} (hb : b ∈ args) :
    W40 m c (Proc.devRef .tc b) = m ((c : Thread nD τ).loc b) :=
  (W40_keep m c b (args_not_mem hostOps19_ge hb)).trans (W39_arg m c hb)

/-- Every output array of region 19 has index twenty or more. -/
theorem out19_ge : ∀ w, (cfg19.win w).isOut = true → 20 ≤ (Pipeline.arrRef spec19 w).idx.val := by decide
/-- At region 19's exit: its arrays at what the pipeline leaves, every other buffer as entered. -/
def W41 (c : Dev nD) : Valuation τ sig (Elt F) :=
  Pipeline.withArrays spec19 c (W40 m c) fun w => (dat19 (rd (W40 m)) c).arrAt w cfg19.N
theorem W41_arr (c : Dev nD) (w : Fin cfg19.W) :
    W41 m c (Proc.devRef .tc (Pipeline.arrRef spec19 w)) = (dat19 (rd (W40 m)) c).arrAt w cfg19.N := by
  unfold W41; exact Pipeline.withArrays_arr spec19 launch19.win.arr_inj c _ _ w
theorem W41_of_ne (c : Dev nD) (b : Ref sig .tc) (hb : ∀ w, Pipeline.arrRef spec19 w ≠ b) :
    W41 m c (Proc.devRef .tc b) = W40 m c (Proc.devRef .tc b) := by
  unfold W41; exact Pipeline.withArrays_of_ne spec19 c _ _ b hb
/-- At region 19's exit each of its arrays holds what the pipeline leaves (`hF19`) and every other buffer what it held
    at entry (`hrest19`). -/
theorem hF19 (c : Dev nD) (w : Fin cfg19.W) :
    (dat19 (rd (W40 m)) c).arrAt w cfg19.N = rd (W41 m) c (Pipeline.arrRef spec19 w) :=
  (W41_arr m c w).symm
theorem hrest19 (c : Dev nD) : ∀ b, b ∉ Finset.univ.image (Pipeline.arrRef spec19) → rd (W41 m) c b = rd (W40 m) c b :=
  fun b hb => W41_of_ne m c b fun w e => hb (Finset.mem_image.mpr ⟨w, Finset.mem_univ _, e⟩)
/-- A reference that is no OUTPUT array of region 19 keeps its contents: an input array is left as entered, a buffer
    that is no array of the region bypasses it. -/
theorem W41_keep (c : Dev nD) (b : Ref sig .tc) (hb : ∀ w, Pipeline.arrRef spec19 w = b → (cfg19.win w).isOut = false) :
    W41 m c (Proc.devRef .tc b) = W40 m c (Proc.devRef .tc b) := by
  by_cases h : ∃ w, Pipeline.arrRef spec19 w = b
  · obtain ⟨w, rfl⟩ := h
    exact (W41_arr m c w).trans (((dat19 (rd (W40 m)) c).arrAt_in w (hb w rfl) _).trans (A_eq19 (rd (W40 m)) c w))
  · exact W41_of_ne m c b fun w e => h ⟨w, e⟩
theorem W41_arg (c : Dev nD) {b : Ref sig .tc} (hb : b ∈ args) :
    W41 m c (Proc.devRef .tc b) = m ((c : Thread nD τ).loc b) :=
  (W41_keep m c b (args_in out19_ge hb)).trans (W40_arg m c hb)

/-- Every reference `hostOps20` writes has index twenty or more. -/
theorem hostOps20_ge : (hostOps20_W.all fun r => decide (20 ≤ r.idx.val)) = true := by decide
/-- After `hostOps20`. -/
abbrev W42 : Dev nD → Valuation τ sig (Elt F) := fun c => StableHlo.after hostOps20 (W41 m c)
theorem W42_keep (c : Dev nD) (b : Ref sig .tc) (h : b ∉ hostOps20_W) :
    W42 m c (Proc.devRef .tc b) = W41 m c (Proc.devRef .tc b) :=
  StableHlo.after_of_writes_sub hostOps20 _ hostOps20_writes h
theorem W42_arg (c : Dev nD) {b : Ref sig .tc} (hb : b ∈ args) :
    W42 m c (Proc.devRef .tc b) = m ((c : Thread nD τ).loc b) :=
  (W42_keep m c b (args_not_mem hostOps20_ge hb)).trans (W41_arg m c hb)

end Cert.KernelIdeal.Reg

end
-- ==== Proof.KI.Reg20.lean ====
/-
  REGION 20 of the kernel program (custom_call 20, the kernel function cc20__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt20, with its two case equations outsAt20_zero and outsAt20_succ).
  Per case the body's triple is a subtype: the lists of stores (rectangle and payload, last first) each output buffer
  ends with, together with the proof that the body runs to a continuation holding exactly those stores written
  (kernelRun20_A, kernelRun20_B). What a buffer then READS is the canonical contents of its list (View.canon), since the
  last store of each list covers the block.

  Exported: the proof data dat20 (arrays at V, full shares, nothing owed), A_eq20, the body obligation
  body_obligation20, the recursion outsAt20 and its equations, after20_0 / after20_1 / after20_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond20_0 (i : grid20.Coords) : Prop :=
  (Scalar.cmpi .ne (Scalar.extui (Scalar.cmpi .eq (BitVec.ofNat 32 (i 0).val) 0#32)) 0#32) = 1#1

/-- It holds at the first point only: decided over the 50 points. -/
theorem hcond20_0 : ∀ t : Fin cfg20.N, cond20_0 (grid20.coords t) ↔ t.val = 0 :=
  (by decide +kernel : ∀ t : Fin grid20.N, cond20_0 (grid20.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun20_A (c : Dev nD) (i : grid20.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond20_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc20__sumsq_kernel i arg1 harg1 arg2 harg2 arg3 harg3) K } := by
  refine ⟨?_, ?_, fun E K => ?run⟩
  case run =>
    simp only [cc20__sumsq_kernel_eq_skeleton]; unfold cc20__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun20_B (c : Dev nD) (i : grid20.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond20_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc20__sumsq_kernel i arg1 harg1 arg2 harg2 arg3 harg3) K } := by
  refine ⟨?_, ?_, fun E K => ?run⟩
  case run =>
    simp only [cc20__sumsq_kernel_eq_skeleton]; unfold cc20__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's current staging buffer holds its block at every point, fetched there or not, for ANY proof data
    whose array is `V`'s and whose body leaves the block in place: unfetched, the block index has not moved. The
    window is uncut and never idle. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-! ## What each case leaves in the two output buffers -/

/-- The whole-block rectangle of a [1,256] buffer at zero offsets: every index lies in it. -/
private theorem mem_whole_S20x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover20_A_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) (y : S1x256.Idx) :
    ∃ pc ∈ (kernelRun20_A c i arg1 harg1 arg2 harg2 arg3 harg3 hc0 x0).1, y ∈ pc.1.set := by
  unfold kernelRun20_A
  dsimp only
  refine ⟨_, List.mem_cons_self, ?_⟩
  exact mem_whole_S20x256 inb_S1x256_S1x256_0_0 y

/-- Case A's stores into output 2 cover its block likewise. -/
theorem cover20_A_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) (y : S1x256.Idx) :
    ∃ pc ∈ (kernelRun20_A c i arg1 harg1 arg2 harg2 arg3 harg3 hc0 x0).2.1, y ∈ pc.1.set := by
  unfold kernelRun20_A
  dsimp only
  refine ⟨_, List.mem_cons_self, ?_⟩
  exact mem_whole_S20x256 inb_S1x256_S1x256_0_0 y

/-- Case B's one store into output 1 covers its block. -/
theorem cover20_B_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) (y : S1x256.Idx) :
    ∃ pc ∈ (kernelRun20_B c i arg1 harg1 arg2 harg2 arg3 harg3 hc0 x0 xo1 xo2).1, y ∈ pc.1.set := by
  unfold kernelRun20_B
  dsimp only
  refine ⟨_, List.mem_cons_self, ?_⟩
  exact mem_whole_S20x256 inb_S1x256_S1x256_0_0 y

/-- Case B's one store into output 2 covers its block. -/
theorem cover20_B_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) (y : S1x256.Idx) :
    ∃ pc ∈ (kernelRun20_B c i arg1 harg1 arg2 harg2 arg3 harg3 hc0 x0 xo1 xo2).2.1, y ∈ pc.1.set := by
  unfold kernelRun20_B
  dsimp only
  refine ⟨_, List.mem_cons_self, ?_⟩
  exact mem_whole_S20x256 inb_S1x256_S1x256_0_0 y

/-- What case A leaves in output 1's staging buffer: the canonical contents of its stores. -/
def out20_A_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) : Vec F S1x256 .f32 :=
  View.canon (kernelRun20_A c i arg1 harg1 arg2 harg2 arg3 harg3 hc0 x0).1

/-- What case A leaves in output 2's staging buffer. -/
def out20_A_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond20_0 i) (x0 : Vec F S1000x256 .f32) : Vec F S1x256 .f32 :=
  View.canon (kernelRun20_A c i arg1 harg1 arg2 harg2 arg3 harg3 hc0 x0).2.1

/-- What case B leaves in output 1's staging buffer, from the input block and what the two outputs held. -/
def out20_B_1 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) : Vec F S1x256 .f32 :=
  View.canon (kernelRun20_B c i arg1 harg1 arg2 harg2 arg3 harg3 hc0 x0 xo1 xo2).1

/-- What case B leaves in output 2's staging buffer. -/
def out20_B_2 (c : Dev nD) (i : grid20.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond20_0 i) (x0 : Vec F S1000x256 .f32) (xo1 xo2 : Vec F S1x256 .f32) : Vec F S1x256 .f32 :=
  View.canon (kernelRun20_B c i arg1 harg1 arg2 harg2 arg3 harg3 hc0 x0 xo1 xo2).2.1

/-! ## What the outputs hold after each point -/

/-- Each window's current staging memref at point `t` is whole. -/
abbrev hs20_0 (t : Fin cfg20.N) : (st20_0 t).IsWhole := hstage20_0 ((cfg20.slots t 0).cast nbuf20_0)
abbrev hs20_1 (t : Fin cfg20.N) : (st20_1 t).IsWhole := hstage20_1 ((cfg20.slots t 1).cast nbuf20_1)
abbrev hs20_2 (t : Fin cfg20.N) : (st20_2 t).IsWhole := hstage20_2 ((cfg20.slots t 2).cast nbuf20_2)

/-- A later point is not the first, so the conditional is not taken there. -/
theorem ncond20_0 (t : Fin cfg20.N) (h0 : t.val ≠ 0) : ¬cond20_0 (grid20.coords t) := fun h => h0 ((hcond20_0 t).mp h)

/-- THE ACCUMULATION. What the two outputs' staging buffers hold after the body at point `n`: at the first point
    case A's contents of the point's input block; at a later point case B's contents of the point's input block and of
    what this recursion gives at `n - 1` (the buffers are not written back between). -/
def outsAt20 (c : Dev nD) : (n : ℕ) → n < cfg20.N → Vec F S1x256 .f32 × Vec F S1x256 .f32
  | 0, hn =>
    (out20_A_1 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
        ((hcond20_0 ⟨0, hn⟩).mpr rfl) (iblk20 V c 0 ⟨0, hn⟩),
     out20_A_2 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
        ((hcond20_0 ⟨0, hn⟩).mpr rfl) (iblk20 V c 0 ⟨0, hn⟩))
  | n + 1, hn =>
    (out20_B_1 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
        (ncond20_0 ⟨n + 1, hn⟩ (Nat.succ_ne_zero n)) (iblk20 V c 0 ⟨n + 1, hn⟩)
        (outsAt20 c n (Nat.lt_of_succ_lt hn)).1 (outsAt20 c n (Nat.lt_of_succ_lt hn)).2,
     out20_B_2 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
        (ncond20_0 ⟨n + 1, hn⟩ (Nat.succ_ne_zero n)) (iblk20 V c 0 ⟨n + 1, hn⟩)
        (outsAt20 c n (Nat.lt_of_succ_lt hn)).1 (outsAt20 c n (Nat.lt_of_succ_lt hn)).2)

/-- The recursion at point 0. -/
theorem outsAt20_zero (c : Dev nD) (hn : 0 < cfg20.N) :
    outsAt20 V c 0 hn =
      (out20_A_1 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
          ((hcond20_0 ⟨0, hn⟩).mpr rfl) (iblk20 V c 0 ⟨0, hn⟩),
       out20_A_2 c (grid20.coords ⟨0, hn⟩) (st20_0 ⟨0, hn⟩) (hs20_0 ⟨0, hn⟩) (st20_1 ⟨0, hn⟩) (hs20_1 ⟨0, hn⟩) (st20_2 ⟨0, hn⟩) (hs20_2 ⟨0, hn⟩)
          ((hcond20_0 ⟨0, hn⟩).mpr rfl) (iblk20 V c 0 ⟨0, hn⟩)) := rfl

/-- The recursion at point `n + 1`. -/
theorem outsAt20_succ (c : Dev nD) (n : ℕ) (hn : n + 1 < cfg20.N) :
    outsAt20 V c (n + 1) hn =
      (out20_B_1 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
          (ncond20_0 ⟨n + 1, hn⟩ (Nat.succ_ne_zero n)) (iblk20 V c 0 ⟨n + 1, hn⟩)
          (outsAt20 V c n (Nat.lt_of_succ_lt hn)).1 (outsAt20 V c n (Nat.lt_of_succ_lt hn)).2,
       out20_B_2 c (grid20.coords ⟨n + 1, hn⟩) (st20_0 ⟨n + 1, hn⟩) (hs20_0 ⟨n + 1, hn⟩) (st20_1 ⟨n + 1, hn⟩) (hs20_1 ⟨n + 1, hn⟩) (st20_2 ⟨n + 1, hn⟩) (hs20_2 ⟨n + 1, hn⟩)
          (ncond20_0 ⟨n + 1, hn⟩ (Nat.succ_ne_zero n)) (iblk20 V c 0 ⟨n + 1, hn⟩)
          (outsAt20 V c n (Nat.lt_of_succ_lt hn)).1 (outsAt20 V c n (Nat.lt_of_succ_lt hn)).2) := rfl

/-- The recursion at a point of case A (the first), stated at the point. -/
theorem outsAt20_A (c : Dev nD) (t : Fin cfg20.N) (h0 : t.val = 0) :
    outsAt20 V c t.val t.isLt =
      (out20_A_1 c (grid20.coords t) (st20_0 t) (hs20_0 t) (st20_1 t) (hs20_1 t) (st20_2 t) (hs20_2 t) ((hcond20_0 t).mpr h0) (iblk20 V c 0 t),
       out20_A_2 c (grid20.coords t) (st20_0 t) (hs20_0 t) (st20_1 t) (hs20_1 t) (st20_2 t) (hs20_2 t) ((hcond20_0 t).mpr h0) (iblk20 V c 0 t)) := by
  obtain ⟨n, hn⟩ := t
  cases n with
  | zero => exact rfl
  | succ n => exact absurd h0 (Nat.succ_ne_zero n)

/-- The recursion at a point of case B (a later one), stated at the point: over what the point before left. -/
theorem outsAt20_B (c : Dev nD) (t : Fin cfg20.N) (h0 : t.val ≠ 0) :
    outsAt20 V c t.val t.isLt =
      (out20_B_1 c (grid20.coords t) (st20_0 t) (hs20_0 t) (st20_1 t) (hs20_1 t) (st20_2 t) (hs20_2 t) (ncond20_0 t h0) (iblk20 V c 0 t)
          (outsAt20 V c (t.val - 1) (Nat.lt_of_le_of_lt (Nat.sub_le _ _) t.isLt)).1
          (outsAt20 V c (t.val - 1) (Nat.lt_of_le_of_lt (Nat.sub_le _ _) t.isLt)).2,
       out20_B_2 c (grid20.coords t) (st20_0 t) (hs20_0 t) (st20_1 t) (hs20_1 t) (st20_2 t) (hs20_2 t) (ncond20_0 t h0) (iblk20 V c 0 t)
          (outsAt20 V c (t.val - 1) (Nat.lt_of_le_of_lt (Nat.sub_le _ _) t.isLt)).1
          (outsAt20 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 20 on core `c`: the arrays as the region finds them (`V`); after the body at point
    `t` the input's buffer at its block and the two outputs' at `outsAt20`; the invariant the scoped rest and the
    generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => (outsAt20 V c t.val t.isLt).1
    | ⟨2, _⟩ => (outsAt20 V c t.val t.isLt).2
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = (outsAt20 V c t.val t.isLt).1 := by dsimp only [dat20]
theorem after20_2 (c : Dev nD) (t : Fin cfg20.N) : (dat20 V c).after 2 t = (outsAt20 V c t.val t.isLt).2 := by dsimp only [dat20]

/-- The input's current staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d

/-- At a later point output 1's staging buffer holds what the body left at the point before: the point is not the
    first, the buffer was not written back between (it is written back after point 49 only), the window is live and
    uncut. -/
theorem before20_1_B (c : Dev nD) (t : Fin cfg20.N) (h0 : t.val ≠ 0) (d) :
    (dat20 V c).before 1 t d = (outsAt20 V c (t.val - 1) (Nat.lt_of_le_of_lt (Nat.sub_le _ _) t.isLt)).1 := by
  have hN : t.val < 50 := lt_of_lt_of_eq t.isLt (show cfg20.N = 50 from N_20)
  rw [Dat.before_out_kept _ 1 rfl t h0 (Bool.eq_false_iff.mpr fun h => by have := (flush20_1 _).mp h; dsimp only at this; omega)
    (fun _ => rfl) (fun _ _ => rfl)]
  dsimp only [dat20]

/-- Likewise output 2's. -/
theorem before20_2_B (c : Dev nD) (t : Fin cfg20.N) (h0 : t.val ≠ 0) (d) :
    (dat20 V c).before 2 t d = (outsAt20 V c (t.val - 1) (Nat.lt_of_le_of_lt (Nat.sub_le _ _) t.isLt)).2 := by
  have hN : t.val < 50 := lt_of_lt_of_eq t.isLt (show cfg20.N = 50 from N_20)
  rw [Dat.before_out_kept _ 2 rfl t h0 (Bool.eq_false_iff.mpr fun h => by have := (flush20_2 _).mp h; dsimp only at this; omega)
    (fun _ => rfl) (fun _ _ => rfl)]
  dsimp only [dat20]

/-! ## The body obligation, at a generic point -/

/-- What the body is called with at point `t`, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0]
  rw [show (dat20 V c).Φ t.succ = (dat20 V c).Φ t.castSucc from rfl,
    show (dat20 V c).owesAt () t.succ = (dat20 V c).owesAt () t.castSucc from rfl,
    after20_0, after20_1, after20_2]
  by_cases h0 : t.val = 0
  · rw [outsAt20_A V c t h0]
    dsimp only
    unfold out20_A_1 out20_A_2
    iintro ⟨HΦ, Ho, ⟨%d0, H0⟩, ⟨%d1, H1⟩, ⟨%d2, H2⟩⟩
    iapply ((kernelRun20_A c (grid20.coords t) _ _ _ _ _ _ ((hcond20_0 t).mpr h0) (iblk20 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover20_A_1 c _ _ _ _ _ _ _ _ _)
    · unfold owns; iexists _; isplitr
      swap; · iexact H2
      ipureintro; exact View.read_writes_eq_canon _ _ _ (cover20_A_2 c _ _ _ _ _ _ _ _ _)
  · rw [outsAt20_B V c t h0]
    dsimp only
    simp only [before20_1_B V c t h0, before20_2_B V c t h0]
    unfold out20_B_1 out20_B_2
    iintro ⟨HΦ, Ho, ⟨%d0, H0⟩, ⟨%d1, H1⟩, ⟨%d2, H2⟩⟩
    iapply ((kernelRun20_B c (grid20.coords t) _ _ _ _ _ _ (ncond20_0 t h0) (iblk20 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover20_B_1 c _ _ _ _ _ _ _ _ _ _ _)
    · unfold owns; iexists _; isplitr
      swap; · iexact H2
      ipureintro; exact View.read_writes_eq_canon _ _ _ (cover20_B_2 c _ _ _ _ _ _ _ _ _ _ _)

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.KernelIdeal.Reg

end
-- ==== Proof.KI.Reg21.lean ====
/- REGION 21 of the kernel program: custom_call 21, `cc21__bn_relu_kernel` (pipeline 21), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out21_6`), it keeps nothing from point
   to point and names no semaphore, transfer, table or scratch: the plainest class of pipeline body.
   Stated here, for any float interpretation `F`: each window's block at a point (`iblk21`), that every input's
   staging buffer holds its block at every point (`before21_W_of`), the body's triple (`sound_kernel21`), the
   pipeline's proof data (`dat21`) and the body obligation (`body_obligation21`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before21_5_of {c : Dev nD} (dat : Dat τ (Elt F) Unit ℕ (UR sig nD τ) ℕ cfg21 c) (hA : dat.A 5 = V c (Pipeline.arrRef spec21 5))
    (hafter : ∀ t, dat.after 5 t = iblk21 V c 5 t) (t : Fin cfg21.N) (d) : dat.before 5 t d = iblk21 V c 5 t :=
  (dat.before_in_eq_fetched 5 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses -/

/-- The whole [1000,256] buffer, and the whole [1,256] buffer: every load and the one store are of a whole buffer. -/
abbrev r21_0 : Rect S1000x256 := Rect.unit (s := S1000x256) ![0, 0] S1000x256.size inb_S1000x256_S1000x256_0_0
abbrev r21_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out21_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r21_0, k21_pay1 (View.ld x0 r21_0) (View.ld x1 r21_1) (View.ld x2 r21_1) (View.ld x3 r21_1) (View.ld x4 r21_1) (View.ld x5 r21_1)⟩]

/-- The one store is of the whole buffer (checked by evaluation), so it covers it. -/
theorem cover21_6 (p0 : Vec F S1000x256 .f32) (y : S1000x256.Idx) :
    ∃ pc ∈ ([⟨r21_0, p0⟩] : List (View.Piece (Elt F) S1000x256 .f32)), y ∈ pc.1.set :=
  View.cover_of_tiled [⟨r21_0, p0⟩] S1000x256.size (by rfl) y

/-! ## The body's triple -/

set_option maxHeartbeats 1000000 in
/-- The kernel body on whole staging memrefs, the inputs' at read contents `xW` and the output's at anything, runs to
    the continuation holding the inputs' as they were and the output's at `out21_6` of the inputs': the printed function
    is its skeleton, a sequence of whole-buffer loads and one whole-buffer store, which is run step by step. -/
theorem sound_kernel21 (c : Dev nD) (E : Set ℕ) (i : grid21.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out21_6 x0 x1 x2 x3 x4 x5)) -∗ K ⟨⟩))
      ⊢ wp frame (wpE (defs₀ (F := F)) Variants.none c none) E (cc21__bn_relu_kernel i arg1 harg1 arg2 harg2 arg3 harg3 arg4 harg4 arg5 harg5 arg6 harg6 arg7 harg7) K := by
  simp only [cc21__bn_relu_kernel_eq_skeleton]; unfold cc21__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover21_6 _)

/-! ## The pipeline's proof data -/

/-- The proof data of pipeline 21 on core `c`: the arrays as the region finds them (`V`); after the body at
    point `t` each input's buffer at its block and the output's at `out21_6` of the input blocks; the invariant that
    of the class (the scoped rest and the generator register, untouched); nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => iblk21 V c 5 t
    | ⟨6, _⟩ => out21_6 (iblk21 V c 0 t) (iblk21 V c 1 t) (iblk21 V c 2 t) (iblk21 V c 3 t) (iblk21 V c 4 t) (iblk21 V c 5 t)
  Φ _ := Pipeline.ΦA spec21 c
  q _ := fullShare
  owed _ := 0

/-- The proof data's arrays are the region-entry contents (the proof data's definition projected). -/
theorem A_eq21 (c : Dev nD) (w : Fin cfg21.W) : (dat21 V c).A w = V c (Pipeline.arrRef spec21 w) := by
  dsimp only [dat21]

/-- What the body leaves, window by window (the proof data's `match` reduced). -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) : (dat21 V c).after 4 t = iblk21 V c 4 t := by dsimp only [dat21]
theorem after21_5 (c : Dev nD) (t : Fin cfg21.N) : (dat21 V c).after 5 t = iblk21 V c 5 t := by dsimp only [dat21]
theorem after21_6 (c : Dev nD) (t : Fin cfg21.N) : (dat21 V c).after 6 t = out21_6 (iblk21 V c 0 t) (iblk21 V c 1 t) (iblk21 V c 2 t) (iblk21 V c 3 t) (iblk21 V c 4 t) (iblk21 V c 5 t) := by dsimp only [dat21]

/-- Each input's current staging buffer holds its block at every point, fetched there or not. -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d
theorem before21_4 (c : Dev nD) (t : Fin cfg21.N) (d) : (dat21 V c).before 4 t d = iblk21 V c 4 t :=
  before21_4_of V (dat21 V c) (A_eq21 V c 4) (after21_4 V c) t d
theorem before21_5 (c : Dev nD) (t : Fin cfg21.N) (d) : (dat21 V c).before 5 t d = iblk21 V c 5 t :=
  before21_5_of V (dat21 V c) (A_eq21 V c 5) (after21_5 V c) t d

/-! ## The body obligation, at a generic point -/

/-- What the body is called with at point `t` (the body obligation's precondition, the windows one by one), -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t))

/-- The body at any point: the inputs' memrefs hold their blocks (`before21_W`), so `sound_kernel21` applies; the
    invariant and the core's debts pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4, before21_5]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel21 c Set.univ (grid21.coords t) _ _ _ _ _ _ _ _ _ _ _ _ _ _ (iblk21 V c 0 t) (iblk21 V c 1 t) (iblk21 V c 2 t) (iblk21 V c 3 t) (iblk21 V c 4 t) (iblk21 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.KernelIdeal.Reg
-- ==== Proof.KI.Reg22.lean ====
/- REGION 22 of the kernel program (custom_call 22, kernel function cc22__out_kernel), at any F, at a parameter V: the
   TensorCore's buffer contents when the region is entered. Each window's block at a point (iblk22), what the body finds
   in each input window's buffer (before22_W), what it leaves in the output window's buffer (out22_3: the one store of
   the body, whose payload is the row log-softmax of block·weight + bias), the body's triple (sound_kernel22), the
   pipeline's proof data (dat22) and the body obligation at every point (body_obligation22). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 22: custom_call 22, the output head, at the entry contents V -/

/-! ## The windows' blocks -/

/-- Window w's block at point t, read off its array as the region finds it (V). -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0 (the [1000,256] block of rows, fetched at every point): its current staging buffer holds its block
    at every point, for any proof data whose array is V's (hA) and whose body leaves the block in place (hafter). -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1 (the whole [256,2] weight, fetched at the first point only): its staging buffer holds its block at
    every point, fetched there or not — unfetched, the block index has not moved. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- Input window 2 (the [1,2] bias, fetched at the first point only): likewise. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses -/

abbrev r22_0 : Rect S1000x256 := Rect.unit (s := S1000x256) ![0, 0] S1000x256.size inb_S1000x256_S1000x256_0_0
abbrev r22_1 : Rect S256x2 := Rect.unit (s := S256x2) ![0, 0] S256x2.size inb_S256x2_S256x2_0_0
abbrev r22_2 : Rect S1x2 := Rect.unit (s := S1x2) ![0, 0] S1x2.size inb_S1x2_S1x2_0_0
abbrev r22_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out22_3 (x0 : Vec F S1000x256 .f32) (x1 : Vec F S256x2 .f32) (x2 : Vec F S1x2 .f32) : Vec F S1000x2 .f32 :=
  View.canon [⟨r22_3, k22_pay1 (View.ld x0 r22_0) (View.ld x1 r22_1) (View.ld x2 r22_2)⟩]

/-- Its store tiles the buffer (checked by evaluation), so it covers it. -/
theorem cover22_3 (p0 : Vec F S1000x2 .f32) (y : S1000x2.Idx) :
    ∃ pc ∈ ([⟨r22_3, p0⟩] : List (View.Piece (Elt F) S1000x2 .f32)), y ∈ pc.1.set :=
  View.cover_of_tiled [⟨r22_3, p0⟩] S1000x2.size (by rfl) y

/-! ## The body's triple -/

set_option maxHeartbeats 1000000 in
/-- The kernel body on whole staging memrefs, the inputs' at read contents xW and the output's at anything, runs to the
    continuation holding the inputs' as they were and the output's at out22_3 of the inputs': the printed function is
    its skeleton, which the executor runs. -/
theorem sound_kernel22 (c : Dev nD) (E : Set ℕ) (i : grid22.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out22_3 x0 x1 x2)) -∗ K ⟨⟩))
      ⊢ wp frame (wpE (defs₀ (F := F)) Variants.none c none) E (cc22__out_kernel i arg1 harg1 arg2 harg2 arg3 harg3 arg4 harg4) K := by
  simp only [cc22__out_kernel_eq_skeleton]; unfold cc22__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover22_3 _)

/-! ## The pipeline's proof data -/

/-- The proof data of pipeline 22 on core c: the arrays as the region finds them (V); after the body at point t each
    input's buffer at its block and the output's at out22_3 of the input blocks; the invariant the scoped rest and the
    generator register, untouched; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => out22_3 (iblk22 V c 0 t) (iblk22 V c 1 t) (iblk22 V c 2 t)
  Φ _ := Pipeline.ΦA spec22 c
  q _ := fullShare
  owed _ := 0

/-- The proof data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = out22_3 (iblk22 V c 0 t) (iblk22 V c 1 t) (iblk22 V c 2 t) := by dsimp only [dat22]

/-- Each input's current staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point t (the windows one by one), -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t))

/-- The body at any point: the inputs' memrefs hold their blocks (before22_W), so sound_kernel22 applies; the invariant
    and the core's owes pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2]
  rw [show (dat22 V c).Φ t.succ = (dat22 V c).Φ t.castSucc from rfl,
    show (dat22 V c).owesAt () t.succ = (dat22 V c).owesAt () t.castSucc from rfl,
    after22_0, after22_1, after22_2, after22_3]
  iintro ⟨HΦ, Ho, ⟨%d0, H0⟩, ⟨%d1, H1⟩, ⟨%d2, H2⟩, ⟨%d3, H3⟩⟩
  iapply (sound_kernel22 c Set.univ _ _ _ _ _ _ _ _ _ (iblk22 V c 0 t) (iblk22 V c 1 t) (iblk22 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation22 (c : Dev nD) : BodyObligation (dat22 (F := F) V c) (defs₀ (F := F)) Variants.none () Set.univ := fun t => by
  rw [bigSep_W22, bigSep_W22]
  exact sound_body22 V c t

/-- info: 'Cert.KernelIdeal.Reg.body_obligation22' depends on axioms: [propext, Classical.choice, Quot.sound] -/
#guard_msgs in #print axioms body_obligation22

end Cert.KernelIdeal.Reg

end
-- ==== Proof.KI.Reg23.lean ====
/- REGION 23 of the kernel program (custom_call 23, `cc23__matmul_kernel`, pipeline 23), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk23`); what the body leaves in the output buffer as a function
   of the two input blocks (`out23_2`); the body's triple on whole staging memrefs (`sound_kernel23`); the
   pipeline's proof data at `V` (`dat23`) with its projections; and the body obligation at every point
   (`body_obligation23`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0 (the row block, its index moving with the point): its current staging buffer holds its block at
    every point, for ANY proof data whose array is `V`'s (`hA`) and whose body leaves the block in place
    (`hafter`); the window is uncut and never idle. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-! ## The body's accesses -/

/-- The full rectangle of each window's staging buffer: the row block's, the weight's, the output block's. -/
abbrev r23_0 : Rect S1000x256 := Rect.unit (s := S1000x256) ![0, 0] S1000x256.size inb_S1000x256_S1000x256_0_0
abbrev r23_1 : Rect S256x256 := Rect.unit (s := S256x256) ![0, 0] S256x256.size inb_S256x256_S256x256_0_0
abbrev r23_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out23_2 (xa : Vec F S1000x256 .f32) (xb : Vec F S256x256 .f32) : Vec F S1000x256 .f32 :=
  View.canon [⟨r23_2, k23_pay1 (View.ld xa r23_0) (View.ld xb r23_1)⟩]

/-- The one store is through the full rectangle, so it covers the buffer. -/
theorem cover23_2 (pa : Vec F S1000x256 .f32) (y : S1000x256.Idx) :
    ∃ pc ∈ ([⟨r23_2, pa⟩] : List (View.Piece (Elt F) S1000x256 .f32)), y ∈ pc.1.set :=
  View.cover_of_tiled [⟨r23_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out23_2 xa xb`: the printed function is its skeleton of three loads and one store, run one operation after
    the other; the load of the output buffer reads a value nothing uses. -/
theorem sound_kernel23 (c : Dev nD) (E : Set ℕ) (i : grid23.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out23_2 xa xb)) -∗ K ⟨⟩))
      ⊢ wp frame (wpE (defs₀ (F := F)) Variants.none c none) E (cc23__matmul_kernel i ma hma mb hmb mc hmc) K := by
  simp only [cc23__matmul_kernel_eq_skeleton]; unfold cc23__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover23_2 _)

/-! ## The pipeline's proof data -/

/-- The proof data of pipeline 23 on core `c`: the arrays as the region finds them (`V`); after the body at
    point `t` each input's buffer at its block and the output's at `out23_2` of the input blocks; the invariant the
    class's (the scoped rest and the generator register, untouched); nothing owed; full shares. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => out23_2 (iblk23 V c 0 t) (iblk23 V c 1 t)
  Φ _ := Pipeline.ΦA spec23 c
  q _ := fullShare
  owed _ := 0

/-- The proof data's arrays are the region-entry contents (the definition projected). -/
theorem A_eq23 (c : Dev nD) (w : Fin cfg23.W) : (dat23 V c).A w = V c (Pipeline.arrRef spec23 w) := by
  dsimp only [dat23]

/-- What the body leaves, window by window (the proof data's `match` reduced). -/
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = out23_2 (iblk23 V c 0 t) (iblk23 V c 1 t) := by dsimp only [dat23]

/-- Each input's current staging buffer holds its block at every point, fetched there or not. -/
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-! ## The body obligation, at a generic point -/

/-- What the body is called with at point `t` (the body obligation's precondition, the windows one by one), -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d)))

/-- and what it returns. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t))

/-- The body at any point: the inputs' memrefs hold their blocks (`before23_0`, `before23_1`), so `sound_kernel23`
    applies; the invariant and the core's debt pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).Φ t.succ = (dat23 V c).Φ t.castSucc from rfl,
    show (dat23 V c).owesAt () t.succ = (dat23 V c).owesAt () t.castSucc from rfl,
    after23_0, after23_1, after23_2]
  iintro ⟨HΦ, Ho, ⟨%da, Ha⟩, ⟨%db, Hb⟩, ⟨%dc, Hc⟩⟩
  iapply (sound_kernel23 c Set.univ (grid23.coords t) _ _ _ _ _ _ (iblk23 V c 0 t) (iblk23 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation23 (c : Dev nD) : BodyObligation (dat23 (F := F) V c) (defs₀ (F := F)) Variants.none () Set.univ := fun t => by
  rw [bigSep_W23, bigSep_W23]
  exact sound_body23 V c t

end Cert.KernelIdeal.Reg
-- ==== Proof.KI.Reg24.lean ====
/-
  REGION 24 of the kernel program (custom_call 24, the kernel function cc24__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt24, with its two case equations outsAt24_zero and outsAt24_succ).
  Per case the body's triple is a subtype: the lists of stores (rectangle and payload, last first) each output buffer
  ends with, together with the proof that the body runs to a continuation holding exactly those stores written
  (kernelRun24_A, kernelRun24_B). What a buffer then READS is the canonical contents of its list (View.canon), since the
  last store of each list covers the block.

  Exported: the proof data dat24 (arrays at V, full shares, nothing owed), A_eq24, the body obligation
  body_obligation24, the recursion outsAt24 and its equations, after24_0 / after24_1 / after24_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond24_0 (i : grid24.Coords) : Prop :=
  (Scalar.cmpi .ne (Scalar.extui (Scalar.cmpi .eq (BitVec.ofNat 32 (i 0).val) 0#32)) 0#32) = 1#1

/-- It holds at the first point only: decided over the 50 points. -/
theorem hcond24_0 : ∀ t : Fin cfg24.N, cond24_0 (grid24.coords t) ↔ t.val = 0 :=
  (by decide +kernel : ∀ t : Fin grid24.N, cond24_0 (grid24.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun24_A (c : Dev nD) (i : grid24.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond24_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc24__sumsq_kernel i arg1 harg1 arg2 harg2 arg3 harg3) K } := by
  refine ⟨?_, ?_, fun E K => ?run⟩
  case run =>
    simp only [cc24__sumsq_kernel_eq_skeleton]; unfold cc24__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun24_B (c : Dev nD) (i : grid24.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond24_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc24__sumsq_kernel i arg1 harg1 arg2 harg2 arg3 harg3) K } := by
  refine ⟨?_, ?_, fun E K => ?run⟩
  case run =>
    simp only [cc24__sumsq_kernel_eq_skeleton]; unfold cc24__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's current staging buffer holds its block at every point, fetched there or not, for ANY proof data
    whose array is `V`'s and whose body leaves the block in place: unfetched, the block index has not moved. The
    window is uncut and never idle. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)

/-! ## What each case leaves in the two output buffers -/

/-- The whole-block rectangle of a [1,256] buffer at zero offsets: every index lies in it. -/
private theorem mem_whole_S24x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover24_A_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) (y : S1x256.Idx) :
    ∃ pc ∈ (kernelRun24_A c i arg1 harg1 arg2 harg2 arg3 harg3 hc0 x0).1, y ∈ pc.1.set := by
  unfold kernelRun24_A
  dsimp only
  refine ⟨_, List.mem_cons_self, ?_⟩
  exact mem_whole_S24x256 inb_S1x256_S1x256_0_0 y

/-- Case A's stores into output 2 cover its block likewise. -/
theorem cover24_A_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) (y : S1x256.Idx) :
    ∃ pc ∈ (kernelRun24_A c i arg1 harg1 arg2 harg2 arg3 harg3 hc0 x0).2.1, y ∈ pc.1.set := by
  unfold kernelRun24_A
  dsimp only
  refine ⟨_, List.mem_cons_self, ?_⟩
  exact mem_whole_S24x256 inb_S1x256_S1x256_0_0 y

/-- Case B's one store into output 1 covers its block. -/
theorem cover24_B_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) (y : S1x256.Idx) :
    ∃ pc ∈ (kernelRun24_B c i arg1 harg1 arg2 harg2 arg3 harg3 hc0 x0 xo1 xo2).1, y ∈ pc.1.set := by
  unfold kernelRun24_B
  dsimp only
  refine ⟨_, List.mem_cons_self, ?_⟩
  exact mem_whole_S24x256 inb_S1x256_S1x256_0_0 y

/-- Case B's one store into output 2 covers its block. -/
theorem cover24_B_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) (y : S1x256.Idx) :
    ∃ pc ∈ (kernelRun24_B c i arg1 harg1 arg2 harg2 arg3 harg3 hc0 x0 xo1 xo2).2.1, y ∈ pc.1.set := by
  unfold kernelRun24_B
  dsimp only
  refine ⟨_, List.mem_cons_self, ?_⟩
  exact mem_whole_S24x256 inb_S1x256_S1x256_0_0 y

/-- What case A leaves in output 1's staging buffer: the canonical contents of its stores. -/
def out24_A_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) : Vec F S1x256 .f32 :=
  View.canon (kernelRun24_A c i arg1 harg1 arg2 harg2 arg3 harg3 hc0 x0).1

/-- What case A leaves in output 2's staging buffer. -/
def out24_A_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond24_0 i) (x0 : Vec F S1000x256 .f32) : Vec F S1x256 .f32 :=
  View.canon (kernelRun24_A c i arg1 harg1 arg2 harg2 arg3 harg3 hc0 x0).2.1

/-- What case B leaves in output 1's staging buffer, from the input block and what the two outputs held. -/
def out24_B_1 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) : Vec F S1x256 .f32 :=
  View.canon (kernelRun24_B c i arg1 harg1 arg2 harg2 arg3 harg3 hc0 x0 xo1 xo2).1

/-- What case B leaves in output 2's staging buffer. -/
def out24_B_2 (c : Dev nD) (i : grid24.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond24_0 i) (x0 : Vec F S1000x256 .f32) (xo1 xo2 : Vec F S1x256 .f32) : Vec F S1x256 .f32 :=
  View.canon (kernelRun24_B c i arg1 harg1 arg2 harg2 arg3 harg3 hc0 x0 xo1 xo2).2.1

/-! ## What the outputs hold after each point -/

/-- Each window's current staging memref at point `t` is whole. -/
abbrev hs24_0 (t : Fin cfg24.N) : (st24_0 t).IsWhole := hstage24_0 ((cfg24.slots t 0).cast nbuf24_0)
abbrev hs24_1 (t : Fin cfg24.N) : (st24_1 t).IsWhole := hstage24_1 ((cfg24.slots t 1).cast nbuf24_1)
abbrev hs24_2 (t : Fin cfg24.N) : (st24_2 t).IsWhole := hstage24_2 ((cfg24.slots t 2).cast nbuf24_2)

/-- A later point is not the first, so the conditional is not taken there. -/
theorem ncond24_0 (t : Fin cfg24.N) (h0 : t.val ≠ 0) : ¬cond24_0 (grid24.coords t) := fun h => h0 ((hcond24_0 t).mp h)

/-- THE ACCUMULATION. What the two outputs' staging buffers hold after the body at point `n`: at the first point
    case A's contents of the point's input block; at a later point case B's contents of the point's input block and of
    what this recursion gives at `n - 1` (the buffers are not written back between). -/
def outsAt24 (c : Dev nD) : (n : ℕ) → n < cfg24.N → Vec F S1x256 .f32 × Vec F S1x256 .f32
  | 0, hn =>
    (out24_A_1 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
        ((hcond24_0 ⟨0, hn⟩).mpr rfl) (iblk24 V c 0 ⟨0, hn⟩),
     out24_A_2 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
        ((hcond24_0 ⟨0, hn⟩).mpr rfl) (iblk24 V c 0 ⟨0, hn⟩))
  | n + 1, hn =>
    (out24_B_1 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
        (ncond24_0 ⟨n + 1, hn⟩ (Nat.succ_ne_zero n)) (iblk24 V c 0 ⟨n + 1, hn⟩)
        (outsAt24 c n (Nat.lt_of_succ_lt hn)).1 (outsAt24 c n (Nat.lt_of_succ_lt hn)).2,
     out24_B_2 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
        (ncond24_0 ⟨n + 1, hn⟩ (Nat.succ_ne_zero n)) (iblk24 V c 0 ⟨n + 1, hn⟩)
        (outsAt24 c n (Nat.lt_of_succ_lt hn)).1 (outsAt24 c n (Nat.lt_of_succ_lt hn)).2)

/-- The recursion at point 0. -/
theorem outsAt24_zero (c : Dev nD) (hn : 0 < cfg24.N) :
    outsAt24 V c 0 hn =
      (out24_A_1 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
          ((hcond24_0 ⟨0, hn⟩).mpr rfl) (iblk24 V c 0 ⟨0, hn⟩),
       out24_A_2 c (grid24.coords ⟨0, hn⟩) (st24_0 ⟨0, hn⟩) (hs24_0 ⟨0, hn⟩) (st24_1 ⟨0, hn⟩) (hs24_1 ⟨0, hn⟩) (st24_2 ⟨0, hn⟩) (hs24_2 ⟨0, hn⟩)
          ((hcond24_0 ⟨0, hn⟩).mpr rfl) (iblk24 V c 0 ⟨0, hn⟩)) := rfl

/-- The recursion at point `n + 1`. -/
theorem outsAt24_succ (c : Dev nD) (n : ℕ) (hn : n + 1 < cfg24.N) :
    outsAt24 V c (n + 1) hn =
      (out24_B_1 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
          (ncond24_0 ⟨n + 1, hn⟩ (Nat.succ_ne_zero n)) (iblk24 V c 0 ⟨n + 1, hn⟩)
          (outsAt24 V c n (Nat.lt_of_succ_lt hn)).1 (outsAt24 V c n (Nat.lt_of_succ_lt hn)).2,
       out24_B_2 c (grid24.coords ⟨n + 1, hn⟩) (st24_0 ⟨n + 1, hn⟩) (hs24_0 ⟨n + 1, hn⟩) (st24_1 ⟨n + 1, hn⟩) (hs24_1 ⟨n + 1, hn⟩) (st24_2 ⟨n + 1, hn⟩) (hs24_2 ⟨n + 1, hn⟩)
          (ncond24_0 ⟨n + 1, hn⟩ (Nat.succ_ne_zero n)) (iblk24 V c 0 ⟨n + 1, hn⟩)
          (outsAt24 V c n (Nat.lt_of_succ_lt hn)).1 (outsAt24 V c n (Nat.lt_of_succ_lt hn)).2) := rfl

/-- The recursion at a point of case A (the first), stated at the point. -/
theorem outsAt24_A (c : Dev nD) (t : Fin cfg24.N) (h0 : t.val = 0) :
    outsAt24 V c t.val t.isLt =
      (out24_A_1 c (grid24.coords t) (st24_0 t) (hs24_0 t) (st24_1 t) (hs24_1 t) (st24_2 t) (hs24_2 t) ((hcond24_0 t).mpr h0) (iblk24 V c 0 t),
       out24_A_2 c (grid24.coords t) (st24_0 t) (hs24_0 t) (st24_1 t) (hs24_1 t) (st24_2 t) (hs24_2 t) ((hcond24_0 t).mpr h0) (iblk24 V c 0 t)) := by
  obtain ⟨n, hn⟩ := t
  cases n with
  | zero => exact rfl
  | succ n => exact absurd h0 (Nat.succ_ne_zero n)

/-- The recursion at a point of case B (a later one), stated at the point: over what the point before left. -/
theorem outsAt24_B (c : Dev nD) (t : Fin cfg24.N) (h0 : t.val ≠ 0) :
    outsAt24 V c t.val t.isLt =
      (out24_B_1 c (grid24.coords t) (st24_0 t) (hs24_0 t) (st24_1 t) (hs24_1 t) (st24_2 t) (hs24_2 t) (ncond24_0 t h0) (iblk24 V c 0 t)
          (outsAt24 V c (t.val - 1) (Nat.lt_of_le_of_lt (Nat.sub_le _ _) t.isLt)).1
          (outsAt24 V c (t.val - 1) (Nat.lt_of_le_of_lt (Nat.sub_le _ _) t.isLt)).2,
       out24_B_2 c (grid24.coords t) (st24_0 t) (hs24_0 t) (st24_1 t) (hs24_1 t) (st24_2 t) (hs24_2 t) (ncond24_0 t h0) (iblk24 V c 0 t)
          (outsAt24 V c (t.val - 1) (Nat.lt_of_le_of_lt (Nat.sub_le _ _) t.isLt)).1
          (outsAt24 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 24 on core `c`: the arrays as the region finds them (`V`); after the body at point
    `t` the input's buffer at its block and the two outputs' at `outsAt24`; the invariant the scoped rest and the
    generator register, untouched; nothing owed; full shares. -/
def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => (outsAt24 V c t.val t.isLt).1
    | ⟨2, _⟩ => (outsAt24 V c t.val t.isLt).2
  Φ _ := Pipeline.ΦA spec24 c
  q _ := fullShare
  owed _ := 0

/-- The proof data's arrays are the region-entry contents. -/
theorem A_eq24 (c : Dev nD) (w : Fin cfg24.W) : (dat24 V c).A w = V c (Pipeline.arrRef spec24 w) := by
  dsimp only [dat24]

/-- What the body leaves, window by window. -/
theorem after24_0 (c : Dev nD) (t : Fin cfg24.N) : (dat24 V c).after 0 t = iblk24 V c 0 t := by dsimp only [dat24]
theorem after24_1 (c : Dev nD) (t : Fin cfg24.N) : (dat24 V c).after 1 t = (outsAt24 V c t.val t.isLt).1 := by dsimp only [dat24]
theorem after24_2 (c : Dev nD) (t : Fin cfg24.N) : (dat24 V c).after 2 t = (outsAt24 V c t.val t.isLt).2 := by dsimp only [dat24]

/-- The input's current staging buffer holds its block at every point, fetched there or not. -/
theorem before24_0 (c : Dev nD) (t : Fin cfg24.N) (d) : (dat24 V c).before 0 t d = iblk24 V c 0 t :=
  before24_0_of V (dat24 V c) (A_eq24 V c 0) (after24_0 V c) t d

/-- At a later point output 1's staging buffer holds what the body left at the point before: the point is not the
    first, the buffer was not written back between (it is written back after point 49 only), the window is live and
    uncut. -/
theorem before24_1_B (c : Dev nD) (t : Fin cfg24.N) (h0 : t.val ≠ 0) (d) :
    (dat24 V c).before 1 t d = (outsAt24 V c (t.val - 1) (Nat.lt_of_le_of_lt (Nat.sub_le _ _) t.isLt)).1 := by
  have hN : t.val < 50 := lt_of_lt_of_eq t.isLt (show cfg24.N = 50 from N_24)
  rw [Dat.before_out_kept _ 1 rfl t h0 (Bool.eq_false_iff.mpr fun h => by have := (flush24_1 _).mp h; dsimp only at this; omega)
    (fun _ => rfl) (fun _ _ => rfl)]
  dsimp only [dat24]

/-- Likewise output 2's. -/
theorem before24_2_B (c : Dev nD) (t : Fin cfg24.N) (h0 : t.val ≠ 0) (d) :
    (dat24 V c).before 2 t d = (outsAt24 V c (t.val - 1) (Nat.lt_of_le_of_lt (Nat.sub_le _ _) t.isLt)).2 := by
  have hN : t.val < 50 := lt_of_lt_of_eq t.isLt (show cfg24.N = 50 from N_24)
  rw [Dat.before_out_kept _ 2 rfl t h0 (Bool.eq_false_iff.mpr fun h => by have := (flush24_2 _).mp h; dsimp only at this; omega)
    (fun _ => rfl) (fun _ _ => rfl)]
  dsimp only [dat24]

/-! ## The body obligation, at a generic point -/

/-- What the body is called with at point `t`, the windows one by one, -/
def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d)))

/-- and what it returns. -/
def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0]
  rw [show (dat24 V c).Φ t.succ = (dat24 V c).Φ t.castSucc from rfl,
    show (dat24 V c).owesAt () t.succ = (dat24 V c).owesAt () t.castSucc from rfl,
    after24_0, after24_1, after24_2]
  by_cases h0 : t.val = 0
  · rw [outsAt24_A V c t h0]
    dsimp only
    unfold out24_A_1 out24_A_2
    iintro ⟨HΦ, Ho, ⟨%d0, H0⟩, ⟨%d1, H1⟩, ⟨%d2, H2⟩⟩
    iapply ((kernelRun24_A c (grid24.coords t) _ _ _ _ _ _ ((hcond24_0 t).mpr h0) (iblk24 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover24_A_1 c _ _ _ _ _ _ _ _ _)
    · unfold owns; iexists _; isplitr
      swap; · iexact H2
      ipureintro; exact View.read_writes_eq_canon _ _ _ (cover24_A_2 c _ _ _ _ _ _ _ _ _)
  · rw [outsAt24_B V c t h0]
    dsimp only
    simp only [before24_1_B V c t h0, before24_2_B V c t h0]
    unfold out24_B_1 out24_B_2
    iintro ⟨HΦ, Ho, ⟨%d0, H0⟩, ⟨%d1, H1⟩, ⟨%d2, H2⟩⟩
    iapply ((kernelRun24_B c (grid24.coords t) _ _ _ _ _ _ (ncond24_0 t h0) (iblk24 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover24_B_1 c _ _ _ _ _ _ _ _ _ _ _)
    · unfold owns; iexists _; isplitr
      swap; · iexact H2
      ipureintro; exact View.read_writes_eq_canon _ _ _ (cover24_B_2 c _ _ _ _ _ _ _ _ _ _ _)

/-- The library's body obligation, at every point. -/
theorem body_obligation24 (c : Dev nD) : BodyObligation (dat24 (F := F) V c) (defs₀ (F := F)) Variants.none () Set.univ := fun t => by
  rw [bigSep_W24, bigSep_W24]
  exact sound_body24 V c t

end Cert.KernelIdeal.Reg

end
-- ==== Proof.KI.Reg25.lean ====
/- REGION 25 of the kernel program: custom_call 25, `cc25__bn_relu_kernel` (pipeline 25), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out25_6`), it keeps nothing from point
   to point and names no semaphore, transfer, table or scratch: the plainest class of pipeline body.
   Stated here, for any float interpretation `F`: each window's block at a point (`iblk25`), that every input's
   staging buffer holds its block at every point (`before25_W_of`), the body's triple (`sound_kernel25`), the
   pipeline's proof data (`dat25`) and the body obligation (`body_obligation25`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before25_2_of {c : Dev nD} (dat : Dat τ (Elt F) Unit ℕ (UR sig nD τ) ℕ cfg25 c) (hA : dat.A 2 = V c (Pipeline.arrRef spec25 2))
    (hafter : ∀ t, dat.after 2 t = iblk25 V c 2 t) (t : Fin cfg25.N) (d) : dat.before 2 t d = iblk25 V c 2 t :=
  (dat.before_in_eq_fetched 2 rfl (fun _ => rfl) (fun _ _ _ => rfl) (fun t => by rw [hafter]; unfold Dat.blockOf iblk25; rw [hA]; try rfl) t d).trans
    (by unfold Dat.fetched Dat.blockOf iblk25; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before25_3_of {c : Dev nD} (dat : Dat τ (Elt F) Unit ℕ (UR sig nD τ) ℕ cfg25 c) (hA : dat.A 3 = V c (Pipeline.arrRef spec25 3))
    (hafter : ∀ t, dat.after 3 t = iblk25 V c 3 t) (t : Fin cfg25.N) (d) : dat.before 3 t d = iblk25 V c 3 t :=
  (dat.before_in_eq_fetched 3 rfl (fun _ => rfl) (fun _ _ _ => rfl) (fun t => by rw [hafter]; unfold Dat.blockOf iblk25; rw [hA]; try rfl) t d).trans
    (by unfold Dat.fetched Dat.blockOf iblk25; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before25_4_of {c : Dev nD} (dat : Dat τ (Elt F) Unit ℕ (UR sig nD τ) ℕ cfg25 c) (hA : dat.A 4 = V c (Pipeline.arrRef spec25 4))
    (hafter : ∀ t, dat.after 4 t = iblk25 V c 4 t) (t : Fin cfg25.N) (d) : dat.before 4 t d = iblk25 V c 4 t :=
  (dat.before_in_eq_fetched 4 rfl (fun _ => rfl) (fun _ _ _ => rfl) (fun t => by rw [hafter]; unfold Dat.blockOf iblk25; rw [hA]; try rfl) t d).trans
    (by unfold Dat.fetched Dat.blockOf iblk25; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before25_5_of {c : Dev nD} (dat : Dat τ (Elt F) Unit ℕ (UR sig nD τ) ℕ cfg25 c) (hA : dat.A 5 = V c (Pipeline.arrRef spec25 5))
    (hafter : ∀ t, dat.after 5 t = iblk25 V c 5 t) (t : Fin cfg25.N) (d) : dat.before 5 t d = iblk25 V c 5 t :=
  (dat.before_in_eq_fetched 5 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses -/

/-- The whole [1000,256] buffer, and the whole [1,256] buffer: every load and the one store are of a whole buffer. -/
abbrev r25_0 : Rect S1000x256 := Rect.unit (s := S1000x256) ![0, 0] S1000x256.size inb_S1000x256_S1000x256_0_0
abbrev r25_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out25_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r25_0, k25_pay1 (View.ld x0 r25_0) (View.ld x1 r25_1) (View.ld x2 r25_1) (View.ld x3 r25_1) (View.ld x4 r25_1) (View.ld x5 r25_1)⟩]

/-- The one store is of the whole buffer (checked by evaluation), so it covers it. -/
theorem cover25_6 (p0 : Vec F S1000x256 .f32) (y : S1000x256.Idx) :
    ∃ pc ∈ ([⟨r25_0, p0⟩] : List (View.Piece (Elt F) S1000x256 .f32)), y ∈ pc.1.set :=
  View.cover_of_tiled [⟨r25_0, p0⟩] S1000x256.size (by rfl) y

/-! ## The body's triple -/

set_option maxHeartbeats 1000000 in
/-- The kernel body on whole staging memrefs, the inputs' at read contents `xW` and the output's at anything, runs to
    the continuation holding the inputs' as they were and the output's at `out25_6` of the inputs': the printed function
    is its skeleton, a sequence of whole-buffer loads and one whole-buffer store, which is run step by step. -/
theorem sound_kernel25 (c : Dev nD) (E : Set ℕ) (i : grid25.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out25_6 x0 x1 x2 x3 x4 x5)) -∗ K ⟨⟩))
      ⊢ wp frame (wpE (defs₀ (F := F)) Variants.none c none) E (cc25__bn_relu_kernel i arg1 harg1 arg2 harg2 arg3 harg3 arg4 harg4 arg5 harg5 arg6 harg6 arg7 harg7) K := by
  simp only [cc25__bn_relu_kernel_eq_skeleton]; unfold cc25__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover25_6 _)

/-! ## The pipeline's proof data -/

/-- The proof data of pipeline 25 on core `c`: the arrays as the region finds them (`V`); after the body at
    point `t` each input's buffer at its block and the output's at `out25_6` of the input blocks; the invariant that
    of the class (the scoped rest and the generator register, untouched); nothing owed; full shares. -/
def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => iblk25 V c 2 t
    | ⟨3, _⟩ => iblk25 V c 3 t
    | ⟨4, _⟩ => iblk25 V c 4 t
    | ⟨5, _⟩ => iblk25 V c 5 t
    | ⟨6, _⟩ => out25_6 (iblk25 V c 0 t) (iblk25 V c 1 t) (iblk25 V c 2 t) (iblk25 V c 3 t) (iblk25 V c 4 t) (iblk25 V c 5 t)
  Φ _ := Pipeline.ΦA spec25 c
  q _ := fullShare
  owed _ := 0

/-- The proof data's arrays are the region-entry contents (the proof data's definition projected). -/
theorem A_eq25 (c : Dev nD) (w : Fin cfg25.W) : (dat25 V c).A w = V c (Pipeline.arrRef spec25 w) := by
  dsimp only [dat25]

/-- What the body leaves, window by window (the proof data's `match` reduced). -/
theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = iblk25 V c 2 t := by dsimp only [dat25]
theorem after25_3 (c : Dev nD) (t : Fin cfg25.N) : (dat25 V c).after 3 t = iblk25 V c 3 t := by dsimp only [dat25]
theorem after25_4 (c : Dev nD) (t : Fin cfg25.N) : (dat25 V c).after 4 t = iblk25 V c 4 t := by dsimp only [dat25]
theorem after25_5 (c : Dev nD) (t : Fin cfg25.N) : (dat25 V c).after 5 t = iblk25 V c 5 t := by dsimp only [dat25]
theorem after25_6 (c : Dev nD) (t : Fin cfg25.N) : (dat25 V c).after 6 t = out25_6 (iblk25 V c 0 t) (iblk25 V c 1 t) (iblk25 V c 2 t) (iblk25 V c 3 t) (iblk25 V c 4 t) (iblk25 V c 5 t) := by dsimp only [dat25]

/-- Each input's current staging buffer holds its block at every point, fetched there or not. -/
theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d
theorem before25_2 (c : Dev nD) (t : Fin cfg25.N) (d) : (dat25 V c).before 2 t d = iblk25 V c 2 t :=
  before25_2_of V (dat25 V c) (A_eq25 V c 2) (after25_2 V c) t d
theorem before25_3 (c : Dev nD) (t : Fin cfg25.N) (d) : (dat25 V c).before 3 t d = iblk25 V c 3 t :=
  before25_3_of V (dat25 V c) (A_eq25 V c 3) (after25_3 V c) t d
theorem before25_4 (c : Dev nD) (t : Fin cfg25.N) (d) : (dat25 V c).before 4 t d = iblk25 V c 4 t :=
  before25_4_of V (dat25 V c) (A_eq25 V c 4) (after25_4 V c) t d
theorem before25_5 (c : Dev nD) (t : Fin cfg25.N) (d) : (dat25 V c).before 5 t d = iblk25 V c 5 t :=
  before25_5_of V (dat25 V c) (A_eq25 V c 5) (after25_5 V c) t d

/-! ## The body obligation, at a generic point -/

/-- What the body is called with at point `t` (the body obligation's precondition, the windows one by one), -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d))
    ∗ (∃ d, owns (c : Thread nD τ) (st25_3 t) fullShare ((dat25 V c).before 3 t d))
    ∗ (∃ d, owns (c : Thread nD τ) (st25_4 t) fullShare ((dat25 V c).before 4 t d))
    ∗ (∃ d, owns (c : Thread nD τ) (st25_5 t) fullShare ((dat25 V c).before 5 t d))
    ∗ (∃ d, owns (c : Thread nD τ) (st25_6 t) fullShare ((dat25 V c).before 6 t d)))

/-- and what it returns. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t)
    ∗ owns (c : Thread nD τ) (st25_3 t) fullShare ((dat25 V c).after 3 t)
    ∗ owns (c : Thread nD τ) (st25_4 t) fullShare ((dat25 V c).after 4 t)
    ∗ owns (c : Thread nD τ) (st25_5 t) fullShare ((dat25 V c).after 5 t)
    ∗ owns (c : Thread nD τ) (st25_6 t) fullShare ((dat25 V c).after 6 t))

/-- The body at any point: the inputs' memrefs hold their blocks (`before25_W`), so `sound_kernel25` applies; the
    invariant and the core's debts pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1, before25_2, before25_3, before25_4, before25_5]
  rw [show (dat25 V c).Φ t.succ = (dat25 V c).Φ t.castSucc from rfl,
    show (dat25 V c).owesAt () t.succ = (dat25 V c).owesAt () t.castSucc from rfl,
    after25_0, after25_1, after25_2, after25_3, after25_4, after25_5, after25_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel25 c Set.univ (grid25.coords t) _ _ _ _ _ _ _ _ _ _ _ _ _ _ (iblk25 V c 0 t) (iblk25 V c 1 t) (iblk25 V c 2 t) (iblk25 V c 3 t) (iblk25 V c 4 t) (iblk25 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation25 (c : Dev nD) : BodyObligation (dat25 (F := F) V c) (defs₀ (F := F)) Variants.none () Set.univ := fun t => by
  rw [bigSep_W25, bigSep_W25]
  exact sound_body25 V c t

end Cert.KernelIdeal.Reg
-- ==== Proof.KI.Reg26.lean ====
/- REGION 26 of the kernel program (custom_call 26, kernel function cc26__out_kernel), at any F, at a parameter V: the
   TensorCore's buffer contents when the region is entered. Each window's block at a point (iblk26), what the body finds
   in each input window's buffer (before26_W), what it leaves in the output window's buffer (out26_3: the one store of
   the body, whose payload is the row log-softmax of block·weight + bias), the body's triple (sound_kernel26), the
   pipeline's proof data (dat26) and the body obligation at every point (body_obligation26). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 26: custom_call 26, the output head, at the entry contents V -/

/-! ## The windows' blocks -/

/-- Window w's block at point t, read off its array as the region finds it (V). -/
def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0 (the [1000,256] block of rows, fetched at every point): its current staging buffer holds its block
    at every point, for any proof data whose array is V's (hA) and whose body leaves the block in place (hafter). -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- Input window 1 (the whole [256,2] weight, fetched at the first point only): its staging buffer holds its block at
    every point, fetched there or not — unfetched, the block index has not moved. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- Input window 2 (the [1,2] bias, fetched at the first point only): likewise. -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-! ## The body's accesses -/

abbrev r26_0 : Rect S1000x256 := Rect.unit (s := S1000x256) ![0, 0] S1000x256.size inb_S1000x256_S1000x256_0_0
abbrev r26_1 : Rect S256x2 := Rect.unit (s := S256x2) ![0, 0] S256x2.size inb_S256x2_S256x2_0_0
abbrev r26_2 : Rect S1x2 := Rect.unit (s := S1x2) ![0, 0] S1x2.size inb_S1x2_S1x2_0_0
abbrev r26_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out26_3 (x0 : Vec F S1000x256 .f32) (x1 : Vec F S256x2 .f32) (x2 : Vec F S1x2 .f32) : Vec F S1000x2 .f32 :=
  View.canon [⟨r26_3, k26_pay1 (View.ld x0 r26_0) (View.ld x1 r26_1) (View.ld x2 r26_2)⟩]

/-- Its store tiles the buffer (checked by evaluation), so it covers it. -/
theorem cover26_3 (p0 : Vec F S1000x2 .f32) (y : S1000x2.Idx) :
    ∃ pc ∈ ([⟨r26_3, p0⟩] : List (View.Piece (Elt F) S1000x2 .f32)), y ∈ pc.1.set :=
  View.cover_of_tiled [⟨r26_3, p0⟩] S1000x2.size (by rfl) y

/-! ## The body's triple -/

set_option maxHeartbeats 1000000 in
/-- The kernel body on whole staging memrefs, the inputs' at read contents xW and the output's at anything, runs to the
    continuation holding the inputs' as they were and the output's at out26_3 of the inputs': the printed function is
    its skeleton, which the executor runs. -/
theorem sound_kernel26 (c : Dev nD) (E : Set ℕ) (i : grid26.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out26_3 x0 x1 x2)) -∗ K ⟨⟩))
      ⊢ wp frame (wpE (defs₀ (F := F)) Variants.none c none) E (cc26__out_kernel i arg1 harg1 arg2 harg2 arg3 harg3 arg4 harg4) K := by
  simp only [cc26__out_kernel_eq_skeleton]; unfold cc26__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover26_3 _)

/-! ## The pipeline's proof data -/

/-- The proof data of pipeline 26 on core c: the arrays as the region finds them (V); after the body at point t each
    input's buffer at its block and the output's at out26_3 of the input blocks; the invariant the scoped rest and the
    generator register, untouched; nothing owed; full shares. -/
def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => out26_3 (iblk26 V c 0 t) (iblk26 V c 1 t) (iblk26 V c 2 t)
  Φ _ := Pipeline.ΦA spec26 c
  q _ := fullShare
  owed _ := 0

/-- The proof data's arrays are the region-entry contents. -/
theorem A_eq26 (c : Dev nD) (w : Fin cfg26.W) : (dat26 V c).A w = V c (Pipeline.arrRef spec26 w) := by
  dsimp only [dat26]

/-- What the body leaves, window by window. -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) : (dat26 V c).after 3 t = out26_3 (iblk26 V c 0 t) (iblk26 V c 1 t) (iblk26 V c 2 t) := by dsimp only [dat26]

/-- Each input's current staging buffer holds its block at every point, fetched there or not. -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-! ## The body obligation, at a generic point -/

/-- What the body is called with at point t (the windows one by one), -/
def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it returns. -/
def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

/-- The body at any point: the inputs' memrefs hold their blocks (before26_W), so sound_kernel26 applies; the invariant
    and the core's owes pass through unread. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ _ _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation26 (c : Dev nD) : BodyObligation (dat26 (F := F) V c) (defs₀ (F := F)) Variants.none () Set.univ := fun t => by
  rw [bigSep_W26, bigSep_W26]
  exact sound_body26 V c t

/-- info: 'Cert.KernelIdeal.Reg.body_obligation26' depends on axioms: [propext, Classical.choice, Quot.sound] -/
#guard_msgs in #print axioms body_obligation26

end Cert.KernelIdeal.Reg

end
-- ==== Proof.KI.Reg27.lean ====
/- REGION 27 of the kernel program (custom_call 27, `cc27__matmul_kernel`, pipeline 27), at a PARAMETER `V` — the
   TensorCore's buffer contents when the region is entered — and at any float model `F`.
   The body is of the plainest class: it loads the row block (window 0) and the whole weight (window 1) through
   the full rectangles of their staging buffers, multiplies them (both truncated to bf16, onto a zero accumulator),
   and stores the product through the full rectangle of the output's staging buffer (window 2); one control case.
   Stated here: each window's block at a point (`iblk27`); what the body leaves in the output buffer as a function
   of the two input blocks (`out27_2`); the body's triple on whole staging memrefs (`sound_kernel27`); the
   pipeline's proof data at `V` (`dat27`) with its projections; and the body obligation at every point
   (`body_obligation27`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- Input window 0 (the row block, its index moving with the point): its current staging buffer holds its block at
    every point, for ANY proof data whose array is `V`'s (`hA`) and whose body leaves the block in place
    (`hafter`); the window is uncut and never idle. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)
/-- Input window 1 (the weight, one block at every point, fetched at the first only): its current staging buffer
    holds that block at every point, fetched there or not — unfetched, the block index has not moved and the body
    left the block in place —, for ANY proof data whose array is `V`'s (`hA`) and whose body leaves the block
    in place (`hafter`). -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)

/-! ## The body's accesses -/

/-- The full rectangle of each window's staging buffer: the row block's, the weight's, the output block's. -/
abbrev r27_0 : Rect S1000x256 := Rect.unit (s := S1000x256) ![0, 0] S1000x256.size inb_S1000x256_S1000x256_0_0
abbrev r27_1 : Rect S256x256 := Rect.unit (s := S256x256) ![0, 0] S256x256.size inb_S256x256_S256x256_0_0
abbrev r27_2 : Rect S1000x256 := Rect.unit (s := S1000x256) ![0, 0] S1000x256.size inb_S1000x256_S1000x256_0_0

/-! ## What the body leaves in the output window's buffer -/

/-- Window 2's staging buffer after the body, from the two input windows' blocks: its one store as a piece, the
    payload the product of what the two loads read. -/
def out27_2 (xa : Vec F S1000x256 .f32) (xb : Vec F S256x256 .f32) : Vec F S1000x256 .f32 :=
  View.canon [⟨r27_2, k27_pay1 (View.ld xa r27_0) (View.ld xb r27_1)⟩]

/-- The one store is through the full rectangle, so it covers the buffer. -/
theorem cover27_2 (pa : Vec F S1000x256 .f32) (y : S1000x256.Idx) :
    ∃ pc ∈ ([⟨r27_2, pa⟩] : List (View.Piece (Elt F) S1000x256 .f32)), y ∈ pc.1.set :=
  View.cover_of_tiled [⟨r27_2, pa⟩] S1000x256.size (by rfl) y

/-! ## The body's triple -/

set_option maxHeartbeats 1000000 in
/-- The kernel body at any grid point, on whole staging memrefs — the inputs' at read contents `xa`, `xb` and the
    output's at anything —, runs to the continuation holding the inputs' as they were and the output's at
    `out27_2 xa xb`: the printed function is its skeleton of three loads and one store, run one operation after
    the other; the load of the output buffer reads a value nothing uses. -/
theorem sound_kernel27 (c : Dev nD) (E : Set ℕ) (i : grid27.Coords) (ma : Memref sig .tc .vmem S1000x256 .f32) (hma : ma.IsWhole) (mb : Memref sig .tc .vmem S256x256 .f32) (hmb : mb.IsWhole) (mc : Memref sig .tc .vmem S1000x256 .f32) (hmc : mc.IsWhole)
    (xa : Vec F S1000x256 .f32) (xb : Vec F S256x256 .f32) (K : PUnit → sProp 𝕄) :
    iprop(owns (c : Thread nD τ) ma fullShare xa ∗ owns (c : Thread nD τ) mb fullShare xb ∗ (∃ d, owns (c : Thread nD τ) mc fullShare d)
        ∗ (iprop(owns (c : Thread nD τ) ma fullShare xa ∗ owns (c : Thread nD τ) mb fullShare xb ∗ owns (c : Thread nD τ) mc fullShare (out27_2 xa xb)) -∗ K ⟨⟩))
      ⊢ wp frame (wpE (defs₀ (F := F)) Variants.none c none) E (cc27__matmul_kernel i ma hma mb hmb mc hmc) K := by
  simp only [cc27__matmul_kernel_eq_skeleton]; unfold cc27__matmul_kernel_skel
  unfold owns
  iintro ⟨⟨%fa, %hfa, Ha⟩, ⟨%fb, %hfb, Hb⟩, ⟨%dc, %fc, -, Hc⟩, Hk⟩
  subst hfa hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover27_2 _)

/-! ## The pipeline's proof data -/

/-- The proof data of pipeline 27 on core `c`: the arrays as the region finds them (`V`); after the body at
    point `t` each input's buffer at its block and the output's at `out27_2` of the input blocks; the invariant the
    class's (the scoped rest and the generator register, untouched); nothing owed; full shares. -/
def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => out27_2 (iblk27 V c 0 t) (iblk27 V c 1 t)
  Φ _ := Pipeline.ΦA spec27 c
  q _ := fullShare
  owed _ := 0

/-- The proof data's arrays are the region-entry contents (the definition projected). -/
theorem A_eq27 (c : Dev nD) (w : Fin cfg27.W) : (dat27 V c).A w = V c (Pipeline.arrRef spec27 w) := by
  dsimp only [dat27]

/-- What the body leaves, window by window (the proof data's `match` reduced). -/
theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = out27_2 (iblk27 V c 0 t) (iblk27 V c 1 t) := by dsimp only [dat27]

/-- Each input's current staging buffer holds its block at every point, fetched there or not. -/
theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d

/-! ## The body obligation, at a generic point -/

/-- What the body is called with at point `t` (the body obligation's precondition, the windows one by one), -/
def bodyPre27 (c : Dev nD) (t : Fin cfg27.N) : sProp 𝕄 :=
  iprop((dat27 V c).Φ t.castSucc ∗ (dat27 V c).owesAt () t.castSucc
    ∗ (∃ d, owns (c : Thread nD τ) (st27_0 t) fullShare ((dat27 V c).before 0 t d))
    ∗ (∃ d, owns (c : Thread nD τ) (st27_1 t) fullShare ((dat27 V c).before 1 t d))
    ∗ (∃ d, owns (c : Thread nD τ) (st27_2 t) fullShare ((dat27 V c).before 2 t d)))

/-- and what it returns. -/
def bodyPost27 (c : Dev nD) (t : Fin cfg27.N) : sProp 𝕄 :=
  iprop((dat27 V c).Φ t.succ ∗ (dat27 V c).owesAt () t.succ
    ∗ owns (c : Thread nD τ) (st27_0 t) fullShare ((dat27 V c).after 0 t)
    ∗ owns (c : Thread nD τ) (st27_1 t) fullShare ((dat27 V c).after 1 t)
    ∗ owns (c : Thread nD τ) (st27_2 t) fullShare ((dat27 V c).after 2 t))

/-- The body at any point: the inputs' memrefs hold their blocks (`before27_0`, `before27_1`), so `sound_kernel27`
    applies; the invariant and the core's debt pass through unread. -/
theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1]
  rw [show (dat27 V c).Φ t.succ = (dat27 V c).Φ t.castSucc from rfl,
    show (dat27 V c).owesAt () t.succ = (dat27 V c).owesAt () t.castSucc from rfl,
    after27_0, after27_1, after27_2]
  iintro ⟨HΦ, Ho, ⟨%da, Ha⟩, ⟨%db, Hb⟩, ⟨%dc, Hc⟩⟩
  iapply (sound_kernel27 c Set.univ (grid27.coords t) _ _ _ _ _ _ (iblk27 V c 0 t) (iblk27 V c 1 t) _)
  isplitl [Ha]; · iexact Ha
  isplitl [Hb]; · iexact Hb
  isplitl [Hc]; · iexists _; iexact Hc
  iintro ⟨Ha, Hb, Hc⟩
  isplitl [HΦ]; · iexact HΦ
  isplitl [Ho]; · iexact Ho
  isplitl [Ha]; · iexact Ha
  isplitl [Hb]; · iexact Hb
  iexact Hc

/-- The library's body obligation, at every point. -/
theorem body_obligation27 (c : Dev nD) : BodyObligation (dat27 (F := F) V c) (defs₀ (F := F)) Variants.none () Set.univ := fun t => by
  rw [bigSep_W27, bigSep_W27]
  exact sound_body27 V c t

end Cert.KernelIdeal.Reg
-- ==== Proof.KI.Reg28.lean ====
/-
  REGION 28 of the kernel program (custom_call 28, the kernel function cc28__sumsq_kernel), hand-written, at any float
  values F and at a PARAMETER V: the TensorCore's buffer contents when the region is entered.

  The region's grid has 50 points. Window 0 is a [1000,256] row block of a [50000,256] array h, a new block at every
  point. Windows 1 and 2 are two [1,256] arrays whose ONE block is revisited at every point and written back after
  the last point only: an OUTPUT CARRIED ACROSS THE GRID. At point 0 (the conditional on the first grid coordinate
  being 0) the body stores the zero row into both, reads each back, adds to it the column sums over the block's 1000
  rows (of h for window 1, of h * h for window 2) and stores the result; at every later point it reads what the point
  before left and adds this block's column sums.

  So the body has TWO CONTROL CASES (A: the first point; B: every later one), and what the two output buffers hold after
  point t is defined by recursion on the point: the case's stores, laid over one another, of this point's input block
  and (case B) of what point t - 1 left (outsAt28, with its two case equations outsAt28_zero and outsAt28_succ).
  Per case the body's triple is a subtype: the lists of stores (rectangle and payload, last first) each output buffer
  ends with, together with the proof that the body runs to a continuation holding exactly those stores written
  (kernelRun28_A, kernelRun28_B). What a buffer then READS is the canonical contents of its list (View.canon), since the
  last store of each list covers the block.

  Exported: the proof data dat28 (arrays at V, full shares, nothing owed), A_eq28, the body obligation
  body_obligation28, the recursion outsAt28 and its equations, after28_0 / after28_1 / after28_2.
-/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's conditional: the first grid coordinate, as a 32-bit word, equals 0 (the comparison,
    its extension to a word, and the test of that word against 0, as the body computes them). -/
abbrev cond28_0 (i : grid28.Coords) : Prop :=
  (Scalar.cmpi .ne (Scalar.extui (Scalar.cmpi .eq (BitVec.ofNat 32 (i 0).val) 0#32)) 0#32) = 1#1

/-- It holds at the first point only: decided over the 50 points. -/
theorem hcond28_0 : ∀ t : Fin cfg28.N, cond28_0 (grid28.coords t) ↔ t.val = 0 :=
  (by decide +kernel : ∀ t : Fin grid28.N, cond28_0 (grid28.coords t) ↔ t.val = 0)

/-! ## The kernel body on any whole staging memrefs, case by case -/

-- (the run's proof term is large: the definition's epilogue walks it past the default budget)
set_option maxHeartbeats 1000000 in
/-- CASE A (the first point: the conditional taken). The stores each output's buffer ends with, last first — the sum
    row over the zero row —, WITH the proof that on whole staging memrefs, the input's at contents x0 and the
    outputs' at anything, the body runs to a continuation holding the input's as it was and each output's with its
    stores written over what it held. -/
noncomputable def kernelRun28_A (c : Dev nD) (i : grid28.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : cond28_0 i)
    (x0 : Vec F S1000x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc28__sumsq_kernel i arg1 harg1 arg2 harg2 arg3 harg3) K } := by
  refine ⟨?_, ?_, fun E K => ?run⟩
  case run =>
    simp only [cc28__sumsq_kernel_eq_skeleton]; unfold cc28__sumsq_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in
/-- CASE B (every later point: the conditional not taken). The one store each output's buffer ends with — what it
    held plus the block's column sums —, WITH the proof that on whole staging memrefs, the input's at contents x0
    and the outputs' at their running contents xo1, xo2 (the body reads them before covering them), the body runs to a
    continuation holding the input's as it was and each output's with its store written. -/
noncomputable def kernelRun28_B (c : Dev nD) (i : grid28.Coords)
    (arg1 : Memref sig .tc .vmem S1000x256 .f32) (harg1 : arg1.IsWhole)
    (arg2 : Memref sig .tc .vmem S1x256 .f32) (harg2 : arg2.IsWhole)
    (arg3 : Memref sig .tc .vmem S1x256 .f32) (harg3 : arg3.IsWhole) (hc0 : ¬cond28_0 i)
    (x0 : Vec F S1000x256 .f32) (xo1 : Vec F S1x256 .f32) (xo2 : Vec F S1x256 .f32) :
    (L1 : List (View.Piece (Elt F) S1x256 .f32)) × { L2 : List (View.Piece (Elt F) S1x256 .f32) //
      ∀ (E : Set ℕ) (K : PUnit → sProp 𝕄),
        iprop(owns (c : Thread nD τ) arg1 fullShare x0 ∗ owns (c : Thread nD τ) arg2 fullShare xo1
            ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc28__sumsq_kernel i arg1 harg1 arg2 harg2 arg3 harg3) K } := by
  refine ⟨?_, ?_, fun E K => ?run⟩
  case run =>
    simp only [cc28__sumsq_kernel_eq_skeleton]; unfold cc28__sumsq_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- Input window 0's current staging buffer holds its block at every point, fetched there or not, for ANY proof data
    whose array is `V`'s and whose body leaves the block in place: unfetched, the block index has not moved. The
    window is uncut and never idle. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)

/-! ## What each case leaves in the two output buffers -/

/-- The whole-block rectangle of a [1,256] buffer at zero offsets: every index lies in it. -/
private theorem mem_whole_S28x256 (inb : ∀ a, (![0, 0] : Fin 2 → Nat) a + S1x256.size a ≤ S1x256.size a) (y : S1x256.Idx) :
    y ∈ (Rect.unit (s := S1x256) ![0, 0] S1x256.size inb).set := by
  rw [Rect.mem_set_unit]
  intro a
  have h0 : (y 0 : Nat) < 1 := (y 0).isLt
  have h1 : (y 1 : Nat) < 256 := (y 1).isLt
  match a with
  | ⟨0, _⟩ => exact ⟨Nat.zero_le _, by show (y 0 : Nat) < 0 + 1; omega⟩
  | ⟨1, _⟩ => exact ⟨Nat.zero_le _, by show (y 1 : Nat) < 0 + 256; omega⟩

/-- Case A's stores into output 1 cover its block: the last one is a whole-block store. -/
theorem cover28_A_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) (y : S1x256.Idx) :
    ∃ pc ∈ (kernelRun28_A c i arg1 harg1 arg2 harg2 arg3 harg3 hc0 x0).1, y ∈ pc.1.set := by
  unfold kernelRun28_A
  dsimp only
  refine ⟨_, List.mem_cons_self, ?_⟩
  exact mem_whole_S28x256 inb_S1x256_S1x256_0_0 y

/-- Case A's stores into output 2 cover its block likewise. -/
theorem cover28_A_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) (y : S1x256.Idx) :
    ∃ pc ∈ (kernelRun28_A c i arg1 harg1 arg2 harg2 arg3 harg3 hc0 x0).2.1, y ∈ pc.1.set := by
  unfold kernelRun28_A
  dsimp only
  refine ⟨_, List.mem_cons_self, ?_⟩
  exact mem_whole_S28x256 inb_S1x256_S1x256_0_0 y

/-- Case B's one store into output 1 covers its block. -/
theorem cover28_B_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) (y : S1x256.Idx) :
    ∃ pc ∈ (kernelRun28_B c i arg1 harg1 arg2 harg2 arg3 harg3 hc0 x0 xo1 xo2).1, y ∈ pc.1.set := by
  unfold kernelRun28_B
  dsimp only
  refine ⟨_, List.mem_cons_self, ?_⟩
  exact mem_whole_S28x256 inb_S1x256_S1x256_0_0 y

/-- Case B's one store into output 2 covers its block. -/
theorem cover28_B_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) (y : S1x256.Idx) :
    ∃ pc ∈ (kernelRun28_B c i arg1 harg1 arg2 harg2 arg3 harg3 hc0 x0 xo1 xo2).2.1, y ∈ pc.1.set := by
  unfold kernelRun28_B
  dsimp only
  refine ⟨_, List.mem_cons_self, ?_⟩
  exact mem_whole_S28x256 inb_S1x256_S1x256_0_0 y

/-- What case A leaves in output 1's staging buffer: the canonical contents of its stores. -/
def out28_A_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) : Vec F S1x256 .f32 :=
  View.canon (kernelRun28_A c i arg1 harg1 arg2 harg2 arg3 harg3 hc0 x0).1

/-- What case A leaves in output 2's staging buffer. -/
def out28_A_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : cond28_0 i) (x0 : Vec F S1000x256 .f32) : Vec F S1x256 .f32 :=
  View.canon (kernelRun28_A c i arg1 harg1 arg2 harg2 arg3 harg3 hc0 x0).2.1

/-- What case B leaves in output 1's staging buffer, from the input block and what the two outputs held. -/
def out28_B_1 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) : Vec F S1x256 .f32 :=
  View.canon (kernelRun28_B c i arg1 harg1 arg2 harg2 arg3 harg3 hc0 x0 xo1 xo2).1

/-- What case B leaves in output 2's staging buffer. -/
def out28_B_2 (c : Dev nD) (i : grid28.Coords) (arg1 : Memref sig .tc .vmem S1000x256 .f32) (harg1 : arg1.IsWhole)
    (arg2 : Memref sig .tc .vmem S1x256 .f32) (harg2 : arg2.IsWhole) (arg3 : Memref sig .tc .vmem S1x256 .f32) (harg3 : arg3.IsWhole)
    (hc0 : ¬cond28_0 i) (x0 : Vec F S1000x256 .f32) (xo1 xo2 : Vec F S1x256 .f32) : Vec F S1x256 .f32 :=
  View.canon (kernelRun28_B c i arg1 harg1 arg2 harg2 arg3 harg3 hc0 x0 xo1 xo2).2.1

/-! ## What the outputs hold after each point -/

/-- Each window's current staging memref at point `t` is whole. -/
abbrev hs28_0 (t : Fin cfg28.N) : (st28_0 t).IsWhole := hstage28_0 ((cfg28.slots t 0).cast nbuf28_0)
abbrev hs28_1 (t : Fin cfg28.N) : (st28_1 t).IsWhole := hstage28_1 ((cfg28.slots t 1).cast nbuf28_1)
abbrev hs28_2 (t : Fin cfg28.N) : (st28_2 t).IsWhole := hstage28_2 ((cfg28.slots t 2).cast nbuf28_2)

/-- A later point is not the first, so the conditional is not taken there. -/
theorem ncond28_0 (t : Fin cfg28.N) (h0 : t.val ≠ 0) : ¬cond28_0 (grid28.coords t) := fun h => h0 ((hcond28_0 t).mp h)

/-- THE ACCUMULATION. What the two outputs' staging buffers hold after the body at point `n`: at the first point
    case A's contents of the point's input block; at a later point case B's contents of the point's input block and of
    what this recursion gives at `n - 1` (the buffers are not written back between). -/
def outsAt28 (c : Dev nD) : (n : ℕ) → n < cfg28.N → Vec F S1x256 .f32 × Vec F S1x256 .f32
  | 0, hn =>
    (out28_A_1 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
        ((hcond28_0 ⟨0, hn⟩).mpr rfl) (iblk28 V c 0 ⟨0, hn⟩),
     out28_A_2 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
        ((hcond28_0 ⟨0, hn⟩).mpr rfl) (iblk28 V c 0 ⟨0, hn⟩))
  | n + 1, hn =>
    (out28_B_1 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
        (ncond28_0 ⟨n + 1, hn⟩ (Nat.succ_ne_zero n)) (iblk28 V c 0 ⟨n + 1, hn⟩)
        (outsAt28 c n (Nat.lt_of_succ_lt hn)).1 (outsAt28 c n (Nat.lt_of_succ_lt hn)).2,
     out28_B_2 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
        (ncond28_0 ⟨n + 1, hn⟩ (Nat.succ_ne_zero n)) (iblk28 V c 0 ⟨n + 1, hn⟩)
        (outsAt28 c n (Nat.lt_of_succ_lt hn)).1 (outsAt28 c n (Nat.lt_of_succ_lt hn)).2)

/-- The recursion at point 0. -/
theorem outsAt28_zero (c : Dev nD) (hn : 0 < cfg28.N) :
    outsAt28 V c 0 hn =
      (out28_A_1 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
          ((hcond28_0 ⟨0, hn⟩).mpr rfl) (iblk28 V c 0 ⟨0, hn⟩),
       out28_A_2 c (grid28.coords ⟨0, hn⟩) (st28_0 ⟨0, hn⟩) (hs28_0 ⟨0, hn⟩) (st28_1 ⟨0, hn⟩) (hs28_1 ⟨0, hn⟩) (st28_2 ⟨0, hn⟩) (hs28_2 ⟨0, hn⟩)
          ((hcond28_0 ⟨0, hn⟩).mpr rfl) (iblk28 V c 0 ⟨0, hn⟩)) := rfl

/-- The recursion at point `n + 1`. -/
theorem outsAt28_succ (c : Dev nD) (n : ℕ) (hn : n + 1 < cfg28.N) :
    outsAt28 V c (n + 1) hn =
      (out28_B_1 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
          (ncond28_0 ⟨n + 1, hn⟩ (Nat.succ_ne_zero n)) (iblk28 V c 0 ⟨n + 1, hn⟩)
          (outsAt28 V c n (Nat.lt_of_succ_lt hn)).1 (outsAt28 V c n (Nat.lt_of_succ_lt hn)).2,
       out28_B_2 c (grid28.coords ⟨n + 1, hn⟩) (st28_0 ⟨n + 1, hn⟩) (hs28_0 ⟨n + 1, hn⟩) (st28_1 ⟨n + 1, hn⟩) (hs28_1 ⟨n + 1, hn⟩) (st28_2 ⟨n + 1, hn⟩) (hs28_2 ⟨n + 1, hn⟩)
          (ncond28_0 ⟨n + 1, hn⟩ (Nat.succ_ne_zero n)) (iblk28 V c 0 ⟨n + 1, hn⟩)
          (outsAt28 V c n (Nat.lt_of_succ_lt hn)).1 (outsAt28 V c n (Nat.lt_of_succ_lt hn)).2) := rfl

/-- The recursion at a point of case A (the first), stated at the point. -/
theorem outsAt28_A (c : Dev nD) (t : Fin cfg28.N) (h0 : t.val = 0) :
    outsAt28 V c t.val t.isLt =
      (out28_A_1 c (grid28.coords t) (st28_0 t) (hs28_0 t) (st28_1 t) (hs28_1 t) (st28_2 t) (hs28_2 t) ((hcond28_0 t).mpr h0) (iblk28 V c 0 t),
       out28_A_2 c (grid28.coords t) (st28_0 t) (hs28_0 t) (st28_1 t) (hs28_1 t) (st28_2 t) (hs28_2 t) ((hcond28_0 t).mpr h0) (iblk28 V c 0 t)) := by
  obtain ⟨n, hn⟩ := t
  cases n with
  | zero => exact rfl
  | succ n => exact absurd h0 (Nat.succ_ne_zero n)

/-- The recursion at a point of case B (a later one), stated at the point: over what the point before left. -/
theorem outsAt28_B (c : Dev nD) (t : Fin cfg28.N) (h0 : t.val ≠ 0) :
    outsAt28 V c t.val t.isLt =
      (out28_B_1 c (grid28.coords t) (st28_0 t) (hs28_0 t) (st28_1 t) (hs28_1 t) (st28_2 t) (hs28_2 t) (ncond28_0 t h0) (iblk28 V c 0 t)
          (outsAt28 V c (t.val - 1) (Nat.lt_of_le_of_lt (Nat.sub_le _ _) t.isLt)).1
          (outsAt28 V c (t.val - 1) (Nat.lt_of_le_of_lt (Nat.sub_le _ _) t.isLt)).2,
       out28_B_2 c (grid28.coords t) (st28_0 t) (hs28_0 t) (st28_1 t) (hs28_1 t) (st28_2 t) (hs28_2 t) (ncond28_0 t h0) (iblk28 V c 0 t)
          (outsAt28 V c (t.val - 1) (Nat.lt_of_le_of_lt (Nat.sub_le _ _) t.isLt)).1
          (outsAt28 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 28 on core `c`: the arrays as the region finds them (`V`); after the body at point
    `t` the input's buffer at its block and the two outputs' at `outsAt28`; the invariant the scoped rest and the
    generator register, untouched; nothing owed; full shares. -/
def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => (outsAt28 V c t.val t.isLt).1
    | ⟨2, _⟩ => (outsAt28 V c t.val t.isLt).2
  Φ _ := Pipeline.ΦA spec28 c
  q _ := fullShare
  owed _ := 0

/-- The proof data's arrays are the region-entry contents. -/
theorem A_eq28 (c : Dev nD) (w : Fin cfg28.W) : (dat28 V c).A w = V c (Pipeline.arrRef spec28 w) := by
  dsimp only [dat28]

/-- What the body leaves, window by window. -/
theorem after28_0 (c : Dev nD) (t : Fin cfg28.N) : (dat28 V c).after 0 t = iblk28 V c 0 t := by dsimp only [dat28]
theorem after28_1 (c : Dev nD) (t : Fin cfg28.N) : (dat28 V c).after 1 t = (outsAt28 V c t.val t.isLt).1 := by dsimp only [dat28]
theorem after28_2 (c : Dev nD) (t : Fin cfg28.N) : (dat28 V c).after 2 t = (outsAt28 V c t.val t.isLt).2 := by dsimp only [dat28]

/-- The input's current staging buffer holds its block at every point, fetched there or not. -/
theorem before28_0 (c : Dev nD) (t : Fin cfg28.N) (d) : (dat28 V c).before 0 t d = iblk28 V c 0 t :=
  before28_0_of V (dat28 V c) (A_eq28 V c 0) (after28_0 V c) t d

/-- At a later point output 1's staging buffer holds what the body left at the point before: the point is not the
    first, the buffer was not written back between (it is written back after point 49 only), the window is live and
    uncut. -/
theorem before28_1_B (c : Dev nD) (t : Fin cfg28.N) (h0 : t.val ≠ 0) (d) :
    (dat28 V c).before 1 t d = (outsAt28 V c (t.val - 1) (Nat.lt_of_le_of_lt (Nat.sub_le _ _) t.isLt)).1 := by
  have hN : t.val < 50 := lt_of_lt_of_eq t.isLt (show cfg28.N = 50 from N_28)
  rw [Dat.before_out_kept _ 1 rfl t h0 (Bool.eq_false_iff.mpr fun h => by have := (flush28_1 _).mp h; dsimp only at this; omega)
    (fun _ => rfl) (fun _ _ => rfl)]
  dsimp only [dat28]

/-- Likewise output 2's. -/
theorem before28_2_B (c : Dev nD) (t : Fin cfg28.N) (h0 : t.val ≠ 0) (d) :
    (dat28 V c).before 2 t d = (outsAt28 V c (t.val - 1) (Nat.lt_of_le_of_lt (Nat.sub_le _ _) t.isLt)).2 := by
  have hN : t.val < 50 := lt_of_lt_of_eq t.isLt (show cfg28.N = 50 from N_28)
  rw [Dat.before_out_kept _ 2 rfl t h0 (Bool.eq_false_iff.mpr fun h => by have := (flush28_2 _).mp h; dsimp only at this; omega)
    (fun _ => rfl) (fun _ _ => rfl)]
  dsimp only [dat28]

/-! ## The body obligation, at a generic point -/

/-- What the body is called with at point `t`, the windows one by one, -/
def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d)))

/-- and what it returns. -/
def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t))

set_option maxHeartbeats 800000 in
/-- The body at any point: the input's memref holds its block; the point is the first or a later one; at a later one
    each output's memref holds what the point before left; so the case's run applies, and what each output's memref
    then reads is the canonical contents of the case's stores, which cover it; the invariant passes through unread;
    the core owes nothing throughout. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0]
  rw [show (dat28 V c).Φ t.succ = (dat28 V c).Φ t.castSucc from rfl,
    show (dat28 V c).owesAt () t.succ = (dat28 V c).owesAt () t.castSucc from rfl,
    after28_0, after28_1, after28_2]
  by_cases h0 : t.val = 0
  · rw [outsAt28_A V c t h0]
    dsimp only
    unfold out28_A_1 out28_A_2
    iintro ⟨HΦ, Ho, ⟨%d0, H0⟩, ⟨%d1, H1⟩, ⟨%d2, H2⟩⟩
    iapply ((kernelRun28_A c (grid28.coords t) _ _ _ _ _ _ ((hcond28_0 t).mpr h0) (iblk28 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover28_A_1 c _ _ _ _ _ _ _ _ _)
    · unfold owns; iexists _; isplitr
      swap; · iexact H2
      ipureintro; exact View.read_writes_eq_canon _ _ _ (cover28_A_2 c _ _ _ _ _ _ _ _ _)
  · rw [outsAt28_B V c t h0]
    dsimp only
    simp only [before28_1_B V c t h0, before28_2_B V c t h0]
    unfold out28_B_1 out28_B_2
    iintro ⟨HΦ, Ho, ⟨%d0, H0⟩, ⟨%d1, H1⟩, ⟨%d2, H2⟩⟩
    iapply ((kernelRun28_B c (grid28.coords t) _ _ _ _ _ _ (ncond28_0 t h0) (iblk28 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (cover28_B_1 c _ _ _ _ _ _ _ _ _ _ _)
    · unfold owns; iexists _; isplitr
      swap; · iexact H2
      ipureintro; exact View.read_writes_eq_canon _ _ _ (cover28_B_2 c _ _ _ _ _ _ _ _ _ _ _)

/-- The library's body obligation, at every point. -/
theorem body_obligation28 (c : Dev nD) : BodyObligation (dat28 (F := F) V c) (defs₀ (F := F)) Variants.none () Set.univ := fun t => by
  rw [bigSep_W28, bigSep_W28]
  exact sound_body28 V c t

end Cert.KernelIdeal.Reg

end
-- ==== Proof.KI.Reg29.lean ====
/- REGION 29 of the kernel program: custom_call 29, `cc29__bn_relu_kernel` (pipeline 29), at a PARAMETER `V` — the
   TensorCore's buffer contents when the region is entered. The kernel body is pointwise: window 0 is a [1000,256]
   block of rows of the activation, windows 1..5 are five [1,256] rows (bias, gamma, beta, mean, variance), the same
   block at every point, and window 6 is the [1000,256] output block. At a point the body loads the six input
   buffers whole, computes

     max (gamma · (h + bias − mean) · rsqrt (variance + ε) + beta, 0)

   with each [1,256] row broadcast along the 1000 rows, and stores the result over the whole output buffer. So what it
   leaves in the output buffer is a closed function of the six input blocks (`out29_6`), it keeps nothing from point
   to point and names no semaphore, transfer, table or scratch: the plainest class of pipeline body.
   Stated here, for any float interpretation `F`: each window's block at a point (`iblk29`), that every input's
   staging buffer holds its block at every point (`before29_W_of`), the body's triple (`sound_kernel29`), the
   pipeline's proof data (`dat29`) and the body obligation (`body_obligation29`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of
-- the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- Input window 0's current staging buffer holds its block at every point, fetched there or not, for any proof
    data whose array is `V`'s (`hA`) and whose body leaves the block in place (`hafter`): where the window is not
    fetched its block index has not moved, so the buffer still holds this point's block; the window is uncut and
    never idle. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)

/-- Input window 1's current staging buffer holds its block at every point, fetched there or not, for any proof
    data whose array is `V`'s (`hA`) and whose body leaves the block in place (`hafter`): where the window is not
    fetched its block index has not moved, so the buffer still holds this point's block; the window is uncut and
    never idle. -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-- Input window 2's current staging buffer holds its block at every point, fetched there or not, for any proof
    data whose array is `V`'s (`hA`) and whose body leaves the block in place (`hafter`): where the window is not
    fetched its block index has not moved, so the buffer still holds this point's block; the window is uncut and
    never idle. -/
theorem before29_2_of {c : Dev nD} (dat : Dat τ (Elt F) Unit ℕ (UR sig nD τ) ℕ cfg29 c) (hA : dat.A 2 = V c (Pipeline.arrRef spec29 2))
    (hafter : ∀ t, dat.after 2 t = iblk29 V c 2 t) (t : Fin cfg29.N) (d) : dat.before 2 t d = iblk29 V c 2 t :=
  (dat.before_in_eq_fetched 2 rfl (fun _ => rfl) (fun _ _ _ => rfl) (fun t => by rw [hafter]; unfold Dat.blockOf iblk29; rw [hA]; try rfl) t d).trans
    (by unfold Dat.fetched Dat.blockOf iblk29; rw [hA]; try rfl)

/-- Input window 3's current staging buffer holds its block at every point, fetched there or not, for any proof
    data whose array is `V`'s (`hA`) and whose body leaves the block in place (`hafter`): where the window is not
    fetched its block index has not moved, so the buffer still holds this point's block; the window is uncut and
    never idle. -/
theorem before29_3_of {c : Dev nD} (dat : Dat τ (Elt F) Unit ℕ (UR sig nD τ) ℕ cfg29 c) (hA : dat.A 3 = V c (Pipeline.arrRef spec29 3))
    (hafter : ∀ t, dat.after 3 t = iblk29 V c 3 t) (t : Fin cfg29.N) (d) : dat.before 3 t d = iblk29 V c 3 t :=
  (dat.before_in_eq_fetched 3 rfl (fun _ => rfl) (fun _ _ _ => rfl) (fun t => by rw [hafter]; unfold Dat.blockOf iblk29; rw [hA]; try rfl) t d).trans
    (by unfold Dat.fetched Dat.blockOf iblk29; rw [hA]; try rfl)

/-- Input window 4's current staging buffer holds its block at every point, fetched there or not, for any proof
    data whose array is `V`'s (`hA`) and whose body leaves the block in place (`hafter`): where the window is not
    fetched its block index has not moved, so the buffer still holds this point's block; the window is uncut and
    never idle. -/
theorem before29_4_of {c : Dev nD} (dat : Dat τ (Elt F) Unit ℕ (UR sig nD τ) ℕ cfg29 c) (hA : dat.A 4 = V c (Pipeline.arrRef spec29 4))
    (hafter : ∀ t, dat.after 4 t = iblk29 V c 4 t) (t : Fin cfg29.N) (d) : dat.before 4 t d = iblk29 V c 4 t :=
  (dat.before_in_eq_fetched 4 rfl (fun _ => rfl) (fun _ _ _ => rfl) (fun t => by rw [hafter]; unfold Dat.blockOf iblk29; rw [hA]; try rfl) t d).trans
    (by unfold Dat.fetched Dat.blockOf iblk29; rw [hA]; try rfl)

/-- Input window 5's current staging buffer holds its block at every point, fetched there or not, for any proof
    data whose array is `V`'s (`hA`) and whose body leaves the block in place (`hafter`): where the window is not
    fetched its block index has not moved, so the buffer still holds this point's block; the window is uncut and
    never idle. -/
theorem before29_5_of {c : Dev nD} (dat : Dat τ (Elt F) Unit ℕ (UR sig nD τ) ℕ cfg29 c) (hA : dat.A 5 = V c (Pipeline.arrRef spec29 5))
    (hafter : ∀ t, dat.after 5 t = iblk29 V c 5 t) (t : Fin cfg29.N) (d) : dat.before 5 t d = iblk29 V c 5 t :=
  (dat.before_in_eq_fetched 5 rfl (fun _ => rfl) (fun _ _ _ => rfl) (fun t => by rw [hafter]; unfold Dat.blockOf iblk29; rw [hA]; try rfl) t d).trans
    (by unfold Dat.fetched Dat.blockOf iblk29; rw [hA]; try rfl)

/-! ## The body's accesses -/

/-- The whole [1000,256] buffer, and the whole [1,256] buffer: every load and the one store are of a whole buffer. -/
abbrev r29_0 : Rect S1000x256 := Rect.unit (s := S1000x256) ![0, 0] S1000x256.size inb_S1000x256_S1000x256_0_0
abbrev r29_1 : Rect S1x256 := Rect.unit (s := S1x256) ![0, 0] S1x256.size inb_S1x256_S1x256_0_0

/-! ## What the body leaves in the output window's buffer -/

/-- Window 6's staging buffer after the body, from the six input windows' blocks: its one store as a piece, the
    payload the skeleton's (the normalised, scaled, shifted and clamped block). -/
def out29_6 (x0 : Vec F S1000x256 .f32) (x1 : Vec F S1x256 .f32) (x2 : Vec F S1x256 .f32) (x3 : Vec F S1x256 .f32) (x4 : Vec F S1x256 .f32) (x5 : Vec F S1x256 .f32) : Vec F S1000x256 .f32 :=
  View.canon [⟨r29_0, k29_pay1 (View.ld x0 r29_0) (View.ld x1 r29_1) (View.ld x2 r29_1) (View.ld x3 r29_1) (View.ld x4 r29_1) (View.ld x5 r29_1)⟩]

/-- The one store is of the whole buffer (checked by evaluation), so it covers it. -/
theorem cover29_6 (p0 : Vec F S1000x256 .f32) (y : S1000x256.Idx) :
    ∃ pc ∈ ([⟨r29_0, p0⟩] : List (View.Piece (Elt F) S1000x256 .f32)), y ∈ pc.1.set :=
  View.cover_of_tiled [⟨r29_0, p0⟩] S1000x256.size (by rfl) y

/-! ## The body's triple -/

set_option maxHeartbeats 1000000 in
/-- The kernel body on whole staging memrefs, the inputs' at read contents `xW` and the output's at anything, runs to
    the continuation holding the inputs' as they were and the output's at `out29_6` of the inputs': the printed function
    is its skeleton, a sequence of whole-buffer loads and one whole-buffer store, which is run step by step. -/
theorem sound_kernel29 (c : Dev nD) (E : Set ℕ) (i : grid29.Coords) (arg1 : Memref sig .tc .vmem S1000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1000x256 .f32) (harg7 : arg7.IsWhole)
    (x0 : Vec F S1000x256 .f32) (x1 : Vec F S1x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out29_6 x0 x1 x2 x3 x4 x5)) -∗ K ⟨⟩))
      ⊢ wp frame (wpE (defs₀ (F := F)) Variants.none c none) E (cc29__bn_relu_kernel i arg1 harg1 arg2 harg2 arg3 harg3 arg4 harg4 arg5 harg5 arg6 harg6 arg7 harg7) K := by
  simp only [cc29__bn_relu_kernel_eq_skeleton]; unfold cc29__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover29_6 _)

/-! ## The pipeline's proof data -/

/-- The proof data of pipeline 29 on core `c`: the arrays as the region finds them (`V`); after the body at
    point `t` each input's buffer at its block and the output's at `out29_6` of the input blocks; the invariant that
    of the class (the scoped rest and the generator register, untouched); nothing owed; full shares. -/
def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => iblk29 V c 2 t
    | ⟨3, _⟩ => iblk29 V c 3 t
    | ⟨4, _⟩ => iblk29 V c 4 t
    | ⟨5, _⟩ => iblk29 V c 5 t
    | ⟨6, _⟩ => out29_6 (iblk29 V c 0 t) (iblk29 V c 1 t) (iblk29 V c 2 t) (iblk29 V c 3 t) (iblk29 V c 4 t) (iblk29 V c 5 t)
  Φ _ := Pipeline.ΦA spec29 c
  q _ := fullShare
  owed _ := 0

/-- The proof data's arrays are the region-entry contents (the proof data's definition projected). -/
theorem A_eq29 (c : Dev nD) (w : Fin cfg29.W) : (dat29 V c).A w = V c (Pipeline.arrRef spec29 w) := by
  dsimp only [dat29]

/-- What the body leaves, window by window (the proof data's `match` reduced). -/
theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = iblk29 V c 2 t := by dsimp only [dat29]
theorem after29_3 (c : Dev nD) (t : Fin cfg29.N) : (dat29 V c).after 3 t = iblk29 V c 3 t := by dsimp only [dat29]
theorem after29_4 (c : Dev nD) (t : Fin cfg29.N) : (dat29 V c).after 4 t = iblk29 V c 4 t := by dsimp only [dat29]
theorem after29_5 (c : Dev nD) (t : Fin cfg29.N) : (dat29 V c).after 5 t = iblk29 V c 5 t := by dsimp only [dat29]
theorem after29_6 (c : Dev nD) (t : Fin cfg29.N) : (dat29 V c).after 6 t = out29_6 (iblk29 V c 0 t) (iblk29 V c 1 t) (iblk29 V c 2 t) (iblk29 V c 3 t) (iblk29 V c 4 t) (iblk29 V c 5 t) := by dsimp only [dat29]

/-- Each input's current staging buffer holds its block at every point, fetched there or not. -/
theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d
theorem before29_2 (c : Dev nD) (t : Fin cfg29.N) (d) : (dat29 V c).before 2 t d = iblk29 V c 2 t :=
  before29_2_of V (dat29 V c) (A_eq29 V c 2) (after29_2 V c) t d
theorem before29_3 (c : Dev nD) (t : Fin cfg29.N) (d) : (dat29 V c).before 3 t d = iblk29 V c 3 t :=
  before29_3_of V (dat29 V c) (A_eq29 V c 3) (after29_3 V c) t d
theorem before29_4 (c : Dev nD) (t : Fin cfg29.N) (d) : (dat29 V c).before 4 t d = iblk29 V c 4 t :=
  before29_4_of V (dat29 V c) (A_eq29 V c 4) (after29_4 V c) t d
theorem before29_5 (c : Dev nD) (t : Fin cfg29.N) (d) : (dat29 V c).before 5 t d = iblk29 V c 5 t :=
  before29_5_of V (dat29 V c) (A_eq29 V c 5) (after29_5 V c) t d

/-! ## The body obligation, at a generic point -/

/-- What the body is called with at point `t` (the body obligation's precondition, the windows one by one), -/
def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d))
    ∗ (∃ d, owns (c : Thread nD τ) (st29_3 t) fullShare ((dat29 V c).before 3 t d))
    ∗ (∃ d, owns (c : Thread nD τ) (st29_4 t) fullShare ((dat29 V c).before 4 t d))
    ∗ (∃ d, owns (c : Thread nD τ) (st29_5 t) fullShare ((dat29 V c).before 5 t d))
    ∗ (∃ d, owns (c : Thread nD τ) (st29_6 t) fullShare ((dat29 V c).before 6 t d)))

/-- and what it returns. -/
def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t)
    ∗ owns (c : Thread nD τ) (st29_3 t) fullShare ((dat29 V c).after 3 t)
    ∗ owns (c : Thread nD τ) (st29_4 t) fullShare ((dat29 V c).after 4 t)
    ∗ owns (c : Thread nD τ) (st29_5 t) fullShare ((dat29 V c).after 5 t)
    ∗ owns (c : Thread nD τ) (st29_6 t) fullShare ((dat29 V c).after 6 t))

/-- The body at any point: the inputs' memrefs hold their blocks (`before29_W`), so `sound_kernel29` applies; the
    invariant and the core's debts pass through unread. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1, before29_2, before29_3, before29_4, before29_5]
  rw [show (dat29 V c).Φ t.succ = (dat29 V c).Φ t.castSucc from rfl,
    show (dat29 V c).owesAt () t.succ = (dat29 V c).owesAt () t.castSucc from rfl,
    after29_0, after29_1, after29_2, after29_3, after29_4, after29_5, after29_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel29 c Set.univ (grid29.coords t) _ _ _ _ _ _ _ _ _ _ _ _ _ _ (iblk29 V c 0 t) (iblk29 V c 1 t) (iblk29 V c 2 t) (iblk29 V c 3 t) (iblk29 V c 4 t) (iblk29 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation29 (c : Dev nD) : BodyObligation (dat29 (F := F) V c) (defs₀ (F := F)) Variants.none () Set.univ := fun t => by
  rw [bigSep_W29, bigSep_W29]
  exact sound_body29 V c t

end Cert.KernelIdeal.Reg
-- ==== Proof.KI.Reg30.lean ====
/- REGION 30 of the kernel program (custom_call 30, kernel function cc30__out_kernel), at any F, at a parameter V: the
   TensorCore's buffer contents when the region is entered. Each window's block at a point (iblk30), what the body finds
   in each input window's buffer (before30_W), what it leaves in the output window's buffer (out30_3: the one store of
   the body, whose payload is the row log-softmax of block·weight + bias), the body's triple (sound_kernel30), the
   pipeline's proof data (dat30) and the body obligation at every point (body_obligation30). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate of the
-- long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 30: custom_call 30, the output head, at the entry contents V -/

/-! ## The windows' blocks -/

/-- Window w's block at point t, read off its array as the region finds it (V). -/
def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0 (the [1000,256] block of rows, fetched at every point): its current staging buffer holds its block
    at every point, for any proof data whose array is V's (hA) and whose body leaves the block in place (hafter). -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)

/-- Input window 1 (the whole [256,2] weight, fetched at the first point only): its staging buffer holds its block at
    every point, fetched there or not — unfetched, the block index has not moved. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

/-- Input window 2 (the [1,2] bias, fetched at the first point only): likewise. -/
theorem before30_2_of {c : Dev nD} (dat : Dat τ (Elt F) Unit ℕ (UR sig nD τ) ℕ cfg30 c) (hA : dat.A 2 = V c (Pipeline.arrRef spec30 2))
    (hafter : ∀ t, dat.after 2 t = iblk30 V c 2 t) (t : Fin cfg30.N) (d) : dat.before 2 t d = iblk30 V c 2 t :=
  (dat.before_in_eq_fetched 2 rfl (fun _ => rfl) (fun _ _ _ => rfl) (fun t => by rw [hafter]; unfold Dat.blockOf iblk30; rw [hA]; try rfl) t d).trans
    (by unfold Dat.fetched Dat.blockOf iblk30; rw [hA]; try rfl)

/-! ## The body's accesses -/

abbrev r30_0 : Rect S1000x256 := Rect.unit (s := S1000x256) ![0, 0] S1000x256.size inb_S1000x256_S1000x256_0_0
abbrev r30_1 : Rect S256x2 := Rect.unit (s := S256x2) ![0, 0] S256x2.size inb_S256x2_S256x2_0_0
abbrev r30_2 : Rect S1x2 := Rect.unit (s := S1x2) ![0, 0] S1x2.size inb_S1x2_S1x2_0_0
abbrev r30_3 : Rect S1000x2 := Rect.unit (s := S1000x2) ![0, 0] S1000x2.size inb_S1000x2_S1000x2_0_0

/-! ## What the body leaves in the output window's buffer -/

/-- Window 3's staging buffer after the body, from the input windows' blocks: its one store as a piece, whose payload
    is the skeleton's — the block times the weight (both rounded to bf16, accumulated from zero), plus the bias, minus
    the row maximum, minus the logarithm of the row sum of exponentials. -/
def out30_3 (x0 : Vec F S1000x256 .f32) (x1 : Vec F S256x2 .f32) (x2 : Vec F S1x2 .f32) : Vec F S1000x2 .f32 :=
  View.canon [⟨r30_3, k30_pay1 (View.ld x0 r30_0) (View.ld x1 r30_1) (View.ld x2 r30_2)⟩]

/-- Its store tiles the buffer (checked by evaluation), so it covers it. -/
theorem cover30_3 (p0 : Vec F S1000x2 .f32) (y : S1000x2.Idx) :
    ∃ pc ∈ ([⟨r30_3, p0⟩] : List (View.Piece (Elt F) S1000x2 .f32)), y ∈ pc.1.set :=
  View.cover_of_tiled [⟨r30_3, p0⟩] S1000x2.size (by rfl) y

/-! ## The body's triple -/

set_option maxHeartbeats 1000000 in
/-- The kernel body on whole staging memrefs, the inputs' at read contents xW and the output's at anything, runs to the
    continuation holding the inputs' as they were and the output's at out30_3 of the inputs': the printed function is
    its skeleton, which the executor runs. -/
theorem sound_kernel30 (c : Dev nD) (E : Set ℕ) (i : grid30.Coords) (arg1 : Memref sig .tc .vmem S1000x256 .f32) (harg1 : arg1.IsWhole) (arg2 : Memref sig .tc .vmem S256x2 .f32) (harg2 : arg2.IsWhole) (arg3 : Memref sig .tc .vmem S1x2 .f32) (harg3 : arg3.IsWhole) (arg4 : Memref sig .tc .vmem S1000x2 .f32) (harg4 : arg4.IsWhole)
    (x0 : Vec F S1000x256 .f32) (x1 : Vec F S256x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out30_3 x0 x1 x2)) -∗ K ⟨⟩))
      ⊢ wp frame (wpE (defs₀ (F := F)) Variants.none c none) E (cc30__out_kernel i arg1 harg1 arg2 harg2 arg3 harg3 arg4 harg4) K := by
  simp only [cc30__out_kernel_eq_skeleton]; unfold cc30__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover30_3 _)

/-! ## The pipeline's proof data -/

/-- The proof data of pipeline 30 on core c: the arrays as the region finds them (V); after the body at point t each
    input's buffer at its block and the output's at out30_3 of the input blocks; the invariant the scoped rest and the
    generator register, untouched; nothing owed; full shares. -/
def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => iblk30 V c 2 t
    | ⟨3, _⟩ => out30_3 (iblk30 V c 0 t) (iblk30 V c 1 t) (iblk30 V c 2 t)
  Φ _ := Pipeline.ΦA spec30 c
  q _ := fullShare
  owed _ := 0

/-- The proof data's arrays are the region-entry contents. -/
theorem A_eq30 (c : Dev nD) (w : Fin cfg30.W) : (dat30 V c).A w = V c (Pipeline.arrRef spec30 w) := by
  dsimp only [dat30]

/-- What the body leaves, window by window. -/
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = iblk30 V c 2 t := by dsimp only [dat30]
theorem after30_3 (c : Dev nD) (t : Fin cfg30.N) : (dat30 V c).after 3 t = out30_3 (iblk30 V c 0 t) (iblk30 V c 1 t) (iblk30 V c 2 t) := by dsimp only [dat30]

/-- Each input's current staging buffer holds its block at every point, fetched there or not. -/
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d
theorem before30_2 (c : Dev nD) (t : Fin cfg30.N) (d) : (dat30 V c).before 2 t d = iblk30 V c 2 t :=
  before30_2_of V (dat30 V c) (A_eq30 V c 2) (after30_2 V c) t d

/-! ## The body obligation, at a generic point -/

/-- What the body is called with at point t (the windows one by one), -/
def bodyPre30 (c : Dev nD) (t : Fin cfg30.N) : sProp 𝕄 :=
  iprop((dat30 V c).Φ t.castSucc ∗ (dat30 V c).owesAt () t.castSucc
    ∗ (∃ d, owns (c : Thread nD τ) (st30_0 t) fullShare ((dat30 V c).before 0 t d))
    ∗ (∃ d, owns (c : Thread nD τ) (st30_1 t) fullShare ((dat30 V c).before 1 t d))
    ∗ (∃ d, owns (c : Thread nD τ) (st30_2 t) fullShare ((dat30 V c).before 2 t d))
    ∗ (∃ d, owns (c : Thread nD τ) (st30_3 t) fullShare ((dat30 V c).before 3 t d)))

/-- and what it returns. -/
def bodyPost30 (c : Dev nD) (t : Fin cfg30.N) : sProp 𝕄 :=
  iprop((dat30 V c).Φ t.succ ∗ (dat30 V c).owesAt () t.succ
    ∗ owns (c : Thread nD τ) (st30_0 t) fullShare ((dat30 V c).after 0 t)
    ∗ owns (c : Thread nD τ) (st30_1 t) fullShare ((dat30 V c).after 1 t)
    ∗ owns (c : Thread nD τ) (st30_2 t) fullShare ((dat30 V c).after 2 t)
    ∗ owns (c : Thread nD τ) (st30_3 t) fullShare ((dat30 V c).after 3 t))

/-- The body at any point: the inputs' memrefs hold their blocks (before30_W), so sound_kernel30 applies; the invariant
    and the core's owes pass through unread. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1, before30_2]
  rw [show (dat30 V c).Φ t.succ = (dat30 V c).Φ t.castSucc from rfl,
    show (dat30 V c).owesAt () t.succ = (dat30 V c).owesAt () t.castSucc from rfl,
    after30_0, after30_1, after30_2, after30_3]
  iintro ⟨HΦ, Ho, ⟨%d0, H0⟩, ⟨%d1, H1⟩, ⟨%d2, H2⟩, ⟨%d3, H3⟩⟩
  iapply (sound_kernel30 c Set.univ _ _ _ _ _ _ _ _ _ (iblk30 V c 0 t) (iblk30 V c 1 t) (iblk30 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation30 (c : Dev nD) : BodyObligation (dat30 (F := F) V c) (defs₀ (F := F)) Variants.none () Set.univ := fun t => by
  rw [bigSep_W30, bigSep_W30]
  exact sound_body30 V c t

/-- info: 'Cert.KernelIdeal.Reg.body_obligation30' depends on axioms: [propext, Classical.choice, Quot.sound] -/
#guard_msgs in #print axioms body_obligation30

end Cert.KernelIdeal.Reg

end
-- ==== Proof.KI.ChainC.lean ====
-- laid out by: scratch/mkchain.js ChainC proof/Proof/KI/ChainC.lean
/- THE KERNEL PROGRAM'S BUFFER CONTENTS BETWEEN ITEMS, third part: from region 20 to the return (boundaries
   43 … 64), continuing the fold of the second part with the same statements beside each boundary. `W64` is what the
   cores hold when @main returns. -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import proofs.«146967_j25786983645193_1_alg».proof.Proof.KI.ChainB
import proofs.«146967_j25786983645193_1_alg».proof.Proof.KI.Reg20
import proofs.«146967_j25786983645193_1_alg».proof.Proof.KI.Reg21
import proofs.«146967_j25786983645193_1_alg».proof.Proof.KI.Reg22
import proofs.«146967_j25786983645193_1_alg».proof.Proof.KI.Reg23
import proofs.«146967_j25786983645193_1_alg».proof.Proof.KI.Reg24
import proofs.«146967_j25786983645193_1_alg».proof.Proof.KI.Reg25
import proofs.«146967_j25786983645193_1_alg».proof.Proof.KI.Reg26
import proofs.«146967_j25786983645193_1_alg».proof.Proof.KI.Reg27
import proofs.«146967_j25786983645193_1_alg».proof.Proof.KI.Reg28
import proofs.«146967_j25786983645193_1_alg».proof.Proof.KI.Reg29
import proofs.«146967_j25786983645193_1_alg».proof.Proof.KI.Reg30
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every output array of region 20 has index twenty or more. -/
theorem out20_ge : ∀ w, (cfg20.win w).isOut = true → 20 ≤ (Pipeline.arrRef spec20 w).idx.val := by decide
/-- At region 20's exit: its arrays at what the pipeline leaves, every other buffer as entered. -/
def W43 (c : Dev nD) : Valuation τ sig (Elt F) :=
  Pipeline.withArrays spec20 c (W42 m c) fun w => (dat20 (rd (W42 m)) c).arrAt w cfg20.N
theorem W43_arr (c : Dev nD) (w : Fin cfg20.W) :
    W43 m c (Proc.devRef .tc (Pipeline.arrRef spec20 w)) = (dat20 (rd (W42 m)) c).arrAt w cfg20.N := by
  unfold W43; exact Pipeline.withArrays_arr spec20 launch20.win.arr_inj c _ _ w
theorem W43_of_ne (c : Dev nD) (b : Ref sig .tc) (hb : ∀ w, Pipeline.arrRef spec20 w ≠ b) :
    W43 m c (Proc.devRef .tc b) = W42 m c (Proc.devRef .tc b) := by
  unfold W43; exact Pipeline.withArrays_of_ne spec20 c _ _ b hb
/-- At region 20's exit each of its arrays holds what the pipeline leaves (`hF20`) and every other buffer what it held
    at entry (`hrest20`). -/
theorem hF20 (c : Dev nD) (w : Fin cfg20.W) :
    (dat20 (rd (W42 m)) c).arrAt w cfg20.N = rd (W43 m) c (Pipeline.arrRef spec20 w) :=
  (W43_arr m c w).symm
theorem hrest20 (c : Dev nD) : ∀ b, b ∉ Finset.univ.image (Pipeline.arrRef spec20) → rd (W43 m) c b = rd (W42 m) c b :=
  fun b hb => W43_of_ne m c b fun w e => hb (Finset.mem_image.mpr ⟨w, Finset.mem_univ _, e⟩)
/-- A reference that is no OUTPUT array of region 20 keeps its contents: an input array is left as entered, a buffer
    that is no array of the region bypasses it. -/
theorem W43_keep (c : Dev nD) (b : Ref sig .tc) (hb : ∀ w, Pipeline.arrRef spec20 w = b → (cfg20.win w).isOut = false) :
    W43 m c (Proc.devRef .tc b) = W42 m c (Proc.devRef .tc b) := by
  by_cases h : ∃ w, Pipeline.arrRef spec20 w = b
  · obtain ⟨w, rfl⟩ := h
    exact (W43_arr m c w).trans (((dat20 (rd (W42 m)) c).arrAt_in w (hb w rfl) _).trans (A_eq20 (rd (W42 m)) c w))
  · exact W43_of_ne m c b fun w e => h ⟨w, e⟩
theorem W43_arg (c : Dev nD) {b : Ref sig .tc} (hb : b ∈ args) :
    W43 m c (Proc.devRef .tc b) = m ((c : Thread nD τ).loc b) :=
  (W43_keep m c b (args_in out20_ge hb)).trans (W42_arg m c hb)

/-- Every reference `hostOps21` writes has index twenty or more. -/
theorem hostOps21_ge : (hostOps21_W.all fun r => decide (20 ≤ r.idx.val)) = true := by decide
/-- After `hostOps21`. -/
abbrev W44 : Dev nD → Valuation τ sig (Elt F) := fun c => StableHlo.after hostOps21 (W43 m c)
theorem W44_keep (c : Dev nD) (b : Ref sig .tc) (h : b ∉ hostOps21_W) :
    W44 m c (Proc.devRef .tc b) = W43 m c (Proc.devRef .tc b) :=
  StableHlo.after_of_writes_sub hostOps21 _ hostOps21_writes h
theorem W44_arg (c : Dev nD) {b : Ref sig .tc} (hb : b ∈ args) :
    W44 m c (Proc.devRef .tc b) = m ((c : Thread nD τ).loc b) :=
  (W44_keep m c b (args_not_mem hostOps21_ge hb)).trans (W43_arg m c hb)

/-- Every output array of region 21 has index twenty or more. -/
theorem out21_ge : ∀ w, (cfg21.win w).isOut = true → 20 ≤ (Pipeline.arrRef spec21 w).idx.val := by decide
/-- At region 21's exit: its arrays at what the pipeline leaves, every other buffer as entered. -/
def W45 (c : Dev nD) : Valuation τ sig (Elt F) :=
  Pipeline.withArrays spec21 c (W44 m c) fun w => (dat21 (rd (W44 m)) c).arrAt w cfg21.N
theorem W45_arr (c : Dev nD) (w : Fin cfg21.W) :
    W45 m c (Proc.devRef .tc (Pipeline.arrRef spec21 w)) = (dat21 (rd (W44 m)) c).arrAt w cfg21.N := by
  unfold W45; exact Pipeline.withArrays_arr spec21 launch21.win.arr_inj c _ _ w
theorem W45_of_ne (c : Dev nD) (b : Ref sig .tc) (hb : ∀ w, Pipeline.arrRef spec21 w ≠ b) :
    W45 m c (Proc.devRef .tc b) = W44 m c (Proc.devRef .tc b) := by
  unfold W45; exact Pipeline.withArrays_of_ne spec21 c _ _ b hb
/-- At region 21's exit each of its arrays holds what the pipeline leaves (`hF21`) and every other buffer what it held
    at entry (`hrest21`). -/
theorem hF21 (c : Dev nD) (w : Fin cfg21.W) :
    (dat21 (rd (W44 m)) c).arrAt w cfg21.N = rd (W45 m) c (Pipeline.arrRef spec21 w) :=
  (W45_arr m c w).symm
theorem hrest21 (c : Dev nD) : ∀ b, b ∉ Finset.univ.image (Pipeline.arrRef spec21) → rd (W45 m) c b = rd (W44 m) c b :=
  fun b hb => W45_of_ne m c b fun w e => hb (Finset.mem_image.mpr ⟨w, Finset.mem_univ _, e⟩)
/-- A reference that is no OUTPUT array of region 21 keeps its contents: an input array is left as entered, a buffer
    that is no array of the region bypasses it. -/
theorem W45_keep (c : Dev nD) (b : Ref sig .tc) (hb : ∀ w, Pipeline.arrRef spec21 w = b → (cfg21.win w).isOut = false) :
    W45 m c (Proc.devRef .tc b) = W44 m c (Proc.devRef .tc b) := by
  by_cases h : ∃ w, Pipeline.arrRef spec21 w = b
  · obtain ⟨w, rfl⟩ := h
    exact (W45_arr m c w).trans (((dat21 (rd (W44 m)) c).arrAt_in w (hb w rfl) _).trans (A_eq21 (rd (W44 m)) c w))
  · exact W45_of_ne m c b fun w e => h ⟨w, e⟩
theorem W45_arg (c : Dev nD) {b : Ref sig .tc} (hb : b ∈ args) :
    W45 m c (Proc.devRef .tc b) = m ((c : Thread nD τ).loc b) :=
  (W45_keep m c b (args_in out21_ge hb)).trans (W44_arg m c hb)

/-- Every reference `hostOps22` writes has index twenty or more. -/
theorem hostOps22_ge : (hostOps22_W.all fun r => decide (20 ≤ r.idx.val)) = true := by decide
/-- After `hostOps22`. -/
abbrev W46 : Dev nD → Valuation τ sig (Elt F) := fun c => StableHlo.after hostOps22 (W45 m c)
theorem W46_keep (c : Dev nD) (b : Ref sig .tc) (h : b ∉ hostOps22_W) :
    W46 m c (Proc.devRef .tc b) = W45 m c (Proc.devRef .tc b) :=
  StableHlo.after_of_writes_sub hostOps22 _ hostOps22_writes h
theorem W46_arg (c : Dev nD) {b : Ref sig .tc} (hb : b ∈ args) :
    W46 m c (Proc.devRef .tc b) = m ((c : Thread nD τ).loc b) :=
  (W46_keep m c b (args_not_mem hostOps22_ge hb)).trans (W45_arg m c hb)

/-- Every output array of region 22 has index twenty or more. -/
theorem out22_ge : ∀ w, (cfg22.win w).isOut = true → 20 ≤ (Pipeline.arrRef spec22 w).idx.val := by decide
/-- At region 22's exit: its arrays at what the pipeline leaves, every other buffer as entered. -/
def W47 (c : Dev nD) : Valuation τ sig (Elt F) :=
  Pipeline.withArrays spec22 c (W46 m c) fun w => (dat22 (rd (W46 m)) c).arrAt w cfg22.N
theorem W47_arr (c : Dev nD) (w : Fin cfg22.W) :
    W47 m c (Proc.devRef .tc (Pipeline.arrRef spec22 w)) = (dat22 (rd (W46 m)) c).arrAt w cfg22.N := by
  unfold W47; exact Pipeline.withArrays_arr spec22 launch22.win.arr_inj c _ _ w
theorem W47_of_ne (c : Dev nD) (b : Ref sig .tc) (hb : ∀ w, Pipeline.arrRef spec22 w ≠ b) :
    W47 m c (Proc.devRef .tc b) = W46 m c (Proc.devRef .tc b) := by
  unfold W47; exact Pipeline.withArrays_of_ne spec22 c _ _ b hb
/-- At region 22's exit each of its arrays holds what the pipeline leaves (`hF22`) and every other buffer what it held
    at entry (`hrest22`). -/
theorem hF22 (c : Dev nD) (w : Fin cfg22.W) :
    (dat22 (rd (W46 m)) c).arrAt w cfg22.N = rd (W47 m) c (Pipeline.arrRef spec22 w) :=
  (W47_arr m c w).symm
theorem hrest22 (c : Dev nD) : ∀ b, b ∉ Finset.univ.image (Pipeline.arrRef spec22) → rd (W47 m) c b = rd (W46 m) c b :=
  fun b hb => W47_of_ne m c b fun w e => hb (Finset.mem_image.mpr ⟨w, Finset.mem_univ _, e⟩)
/-- A reference that is no OUTPUT array of region 22 keeps its contents: an input array is left as entered, a buffer
    that is no array of the region bypasses it. -/
theorem W47_keep (c : Dev nD) (b : Ref sig .tc) (hb : ∀ w, Pipeline.arrRef spec22 w = b → (cfg22.win w).isOut = false) :
    W47 m c (Proc.devRef .tc b) = W46 m c (Proc.devRef .tc b) := by
  by_cases h : ∃ w, Pipeline.arrRef spec22 w = b
  · obtain ⟨w, rfl⟩ := h
    exact (W47_arr m c w).trans (((dat22 (rd (W46 m)) c).arrAt_in w (hb w rfl) _).trans (A_eq22 (rd (W46 m)) c w))
  · exact W47_of_ne m c b fun w e => h ⟨w, e⟩
theorem W47_arg (c : Dev nD) {b : Ref sig .tc} (hb : b ∈ args) :
    W47 m c (Proc.devRef .tc b) = m ((c : Thread nD τ).loc b) :=
  (W47_keep m c b (args_in out22_ge hb)).trans (W46_arg m c hb)

/-- Every reference `hostOps23` writes has index twenty or more. -/
theorem hostOps23_ge : (hostOps23_W.all fun r => decide (20 ≤ r.idx.val)) = true := by decide
/-- After `hostOps23`. -/
abbrev W48 : Dev nD → Valuation τ sig (Elt F) := fun c => StableHlo.after hostOps23 (W47 m c)
theorem W48_keep (c : Dev nD) (b : Ref sig .tc) (h : b ∉ hostOps23_W) :
    W48 m c (Proc.devRef .tc b) = W47 m c (Proc.devRef .tc b) :=
  StableHlo.after_of_writes_sub hostOps23 _ hostOps23_writes h
theorem W48_arg (c : Dev nD) {b : Ref sig .tc} (hb : b ∈ args) :
    W48 m c (Proc.devRef .tc b) = m ((c : Thread nD τ).loc b) :=
  (W48_keep m c b (args_not_mem hostOps23_ge hb)).trans (W47_arg m c hb)

/-- Every output array of region 23 has index twenty or more. -/
theorem out23_ge : ∀ w, (cfg23.win w).isOut = true → 20 ≤ (Pipeline.arrRef spec23 w).idx.val := by decide
/-- At region 23's exit: its arrays at what the pipeline leaves, every other buffer as entered. -/
def W49 (c : Dev nD) : Valuation τ sig (Elt F) :=
  Pipeline.withArrays spec23 c (W48 m c) fun w => (dat23 (rd (W48 m)) c).arrAt w cfg23.N
theorem W49_arr (c : Dev nD) (w : Fin cfg23.W) :
    W49 m c (Proc.devRef .tc (Pipeline.arrRef spec23 w)) = (dat23 (rd (W48 m)) c).arrAt w cfg23.N := by
  unfold W49; exact Pipeline.withArrays_arr spec23 launch23.win.arr_inj c _ _ w
theorem W49_of_ne (c : Dev nD) (b : Ref sig .tc) (hb : ∀ w, Pipeline.arrRef spec23 w ≠ b) :
    W49 m c (Proc.devRef .tc b) = W48 m c (Proc.devRef .tc b) := by
  unfold W49; exact Pipeline.withArrays_of_ne spec23 c _ _ b hb
/-- At region 23's exit each of its arrays holds what the pipeline leaves (`hF23`) and every other buffer what it held
    at entry (`hrest23`). -/
theorem hF23 (c : Dev nD) (w : Fin cfg23.W) :
    (dat23 (rd (W48 m)) c).arrAt w cfg23.N = rd (W49 m) c (Pipeline.arrRef spec23 w) :=
  (W49_arr m c w).symm
theorem hrest23 (c : Dev nD) : ∀ b, b ∉ Finset.univ.image (Pipeline.arrRef spec23) → rd (W49 m) c b = rd (W48 m) c b :=
  fun b hb => W49_of_ne m c b fun w e => hb (Finset.mem_image.mpr ⟨w, Finset.mem_univ _, e⟩)
/-- A reference that is no OUTPUT array of region 23 keeps its contents: an input array is left as entered, a buffer
    that is no array of the region bypasses it. -/
theorem W49_keep (c : Dev nD) (b : Ref sig .tc) (hb : ∀ w, Pipeline.arrRef spec23 w = b → (cfg23.win w).isOut = false) :
    W49 m c (Proc.devRef .tc b) = W48 m c (Proc.devRef .tc b) := by
  by_cases h : ∃ w, Pipeline.arrRef spec23 w = b
  · obtain ⟨w, rfl⟩ := h
    exact (W49_arr m c w).trans (((dat23 (rd (W48 m)) c).arrAt_in w (hb w rfl) _).trans (A_eq23 (rd (W48 m)) c w))
  · exact W49_of_ne m c b fun w e => h ⟨w, e⟩
theorem W49_arg (c : Dev nD) {b : Ref sig .tc} (hb : b ∈ args) :
    W49 m c (Proc.devRef .tc b) = m ((c : Thread nD τ).loc b) :=
  (W49_keep m c b (args_in out23_ge hb)).trans (W48_arg m c hb)

/-- Every reference `hostOps24` writes has index twenty or more. -/
theorem hostOps24_ge : (hostOps24_W.all fun r => decide (20 ≤ r.idx.val)) = true := by decide
/-- After `hostOps24`. -/
abbrev W50 : Dev nD → Valuation τ sig (Elt F) := fun c => StableHlo.after hostOps24 (W49 m c)
theorem W50_keep (c : Dev nD) (b : Ref sig .tc) (h : b ∉ hostOps24_W) :
    W50 m c (Proc.devRef .tc b) = W49 m c (Proc.devRef .tc b) :=
  StableHlo.after_of_writes_sub hostOps24 _ hostOps24_writes h
theorem W50_arg (c : Dev nD) {b : Ref sig .tc} (hb : b ∈ args) :
    W50 m c (Proc.devRef .tc b) = m ((c : Thread nD τ).loc b) :=
  (W50_keep m c b (args_not_mem hostOps24_ge hb)).trans (W49_arg m c hb)

/-- Every output array of region 24 has index twenty or more. -/
theorem out24_ge : ∀ w, (cfg24.win w).isOut = true → 20 ≤ (Pipeline.arrRef spec24 w).idx.val := by decide
/-- At region 24's exit: its arrays at what the pipeline leaves, every other buffer as entered. -/
def W51 (c : Dev nD) : Valuation τ sig (Elt F) :=
  Pipeline.withArrays spec24 c (W50 m c) fun w => (dat24 (rd (W50 m)) c).arrAt w cfg24.N
theorem W51_arr (c : Dev nD) (w : Fin cfg24.W) :
    W51 m c (Proc.devRef .tc (Pipeline.arrRef spec24 w)) = (dat24 (rd (W50 m)) c).arrAt w cfg24.N := by
  unfold W51; exact Pipeline.withArrays_arr spec24 launch24.win.arr_inj c _ _ w
theorem W51_of_ne (c : Dev nD) (b : Ref sig .tc) (hb : ∀ w, Pipeline.arrRef spec24 w ≠ b) :
    W51 m c (Proc.devRef .tc b) = W50 m c (Proc.devRef .tc b) := by
  unfold W51; exact Pipeline.withArrays_of_ne spec24 c _ _ b hb
/-- At region 24's exit each of its arrays holds what the pipeline leaves (`hF24`) and every other buffer what it held
    at entry (`hrest24`). -/
theorem hF24 (c : Dev nD) (w : Fin cfg24.W) :
    (dat24 (rd (W50 m)) c).arrAt w cfg24.N = rd (W51 m) c (Pipeline.arrRef spec24 w) :=
  (W51_arr m c w).symm
theorem hrest24 (c : Dev nD) : ∀ b, b ∉ Finset.univ.image (Pipeline.arrRef spec24) → rd (W51 m) c b = rd (W50 m) c b :=
  fun b hb => W51_of_ne m c b fun w e => hb (Finset.mem_image.mpr ⟨w, Finset.mem_univ _, e⟩)
/-- A reference that is no OUTPUT array of region 24 keeps its contents: an input array is left as entered, a buffer
    that is no array of the region bypasses it. -/
theorem W51_keep (c : Dev nD) (b : Ref sig .tc) (hb : ∀ w, Pipeline.arrRef spec24 w = b → (cfg24.win w).isOut = false) :
    W51 m c (Proc.devRef .tc b) = W50 m c (Proc.devRef .tc b) := by
  by_cases h : ∃ w, Pipeline.arrRef spec24 w = b
  · obtain ⟨w, rfl⟩ := h
    exact (W51_arr m c w).trans (((dat24 (rd (W50 m)) c).arrAt_in w (hb w rfl) _).trans (A_eq24 (rd (W50 m)) c w))
  · exact W51_of_ne m c b fun w e => h ⟨w, e⟩
theorem W51_arg (c : Dev nD) {b : Ref sig .tc} (hb : b ∈ args) :
    W51 m c (Proc.devRef .tc b) = m ((c : Thread nD τ).loc b) :=
  (W51_keep m c b (args_in out24_ge hb)).trans (W50_arg m c hb)

/-- Every reference `hostOps25` writes has index twenty or more. -/
theorem hostOps25_ge : (hostOps25_W.all fun r => decide (20 ≤ r.idx.val)) = true := by decide
/-- After `hostOps25`. -/
abbrev W52 : Dev nD → Valuation τ sig (Elt F) := fun c => StableHlo.after hostOps25 (W51 m c)
theorem W52_keep (c : Dev nD) (b : Ref sig .tc) (h : b ∉ hostOps25_W) :
    W52 m c (Proc.devRef .tc b) = W51 m c (Proc.devRef .tc b) :=
  StableHlo.after_of_writes_sub hostOps25 _ hostOps25_writes h
theorem W52_arg (c : Dev nD) {b : Ref sig .tc} (hb : b ∈ args) :
    W52 m c (Proc.devRef .tc b) = m ((c : Thread nD τ).loc b) :=
  (W52_keep m c b (args_not_mem hostOps25_ge hb)).trans (W51_arg m c hb)

/-- Every output array of region 25 has index twenty or more. -/
theorem out25_ge : ∀ w, (cfg25.win w).isOut = true → 20 ≤ (Pipeline.arrRef spec25 w).idx.val := by decide
/-- At region 25's exit: its arrays at what the pipeline leaves, every other buffer as entered. -/
def W53 (c : Dev nD) : Valuation τ sig (Elt F) :=
  Pipeline.withArrays spec25 c (W52 m c) fun w => (dat25 (rd (W52 m)) c).arrAt w cfg25.N
theorem W53_arr (c : Dev nD) (w : Fin cfg25.W) :
    W53 m c (Proc.devRef .tc (Pipeline.arrRef spec25 w)) = (dat25 (rd (W52 m)) c).arrAt w cfg25.N := by
  unfold W53; exact Pipeline.withArrays_arr spec25 launch25.win.arr_inj c _ _ w
theorem W53_of_ne (c : Dev nD) (b : Ref sig .tc) (hb : ∀ w, Pipeline.arrRef spec25 w ≠ b) :
    W53 m c (Proc.devRef .tc b) = W52 m c (Proc.devRef .tc b) := by
  unfold W53; exact Pipeline.withArrays_of_ne spec25 c _ _ b hb
/-- At region 25's exit each of its arrays holds what the pipeline leaves (`hF25`) and every other buffer what it held
    at entry (`hrest25`). -/
theorem hF25 (c : Dev nD) (w : Fin cfg25.W) :
    (dat25 (rd (W52 m)) c).arrAt w cfg25.N = rd (W53 m) c (Pipeline.arrRef spec25 w) :=
  (W53_arr m c w).symm
theorem hrest25 (c : Dev nD) : ∀ b, b ∉ Finset.univ.image (Pipeline.arrRef spec25) → rd (W53 m) c b = rd (W52 m) c b :=
  fun b hb => W53_of_ne m c b fun w e => hb (Finset.mem_image.mpr ⟨w, Finset.mem_univ _, e⟩)
/-- A reference that is no OUTPUT array of region 25 keeps its contents: an input array is left as entered, a buffer
    that is no array of the region bypasses it. -/
theorem W53_keep (c : Dev nD) (b : Ref sig .tc) (hb : ∀ w, Pipeline.arrRef spec25 w = b → (cfg25.win w).isOut = false) :
    W53 m c (Proc.devRef .tc b) = W52 m c (Proc.devRef .tc b) := by
  by_cases h : ∃ w, Pipeline.arrRef spec25 w = b
  · obtain ⟨w, rfl⟩ := h
    exact (W53_arr m c w).trans (((dat25 (rd (W52 m)) c).arrAt_in w (hb w rfl) _).trans (A_eq25 (rd (W52 m)) c w))
  · exact W53_of_ne m c b fun w e => h ⟨w, e⟩
theorem W53_arg (c : Dev nD) {b : Ref sig .tc} (hb : b ∈ args) :
    W53 m c (Proc.devRef .tc b) = m ((c : Thread nD τ).loc b) :=
  (W53_keep m c b (args_in out25_ge hb)).trans (W52_arg m c hb)

/-- Every reference `hostOps26` writes has index twenty or more. -/
theorem hostOps26_ge : (hostOps26_W.all fun r => decide (20 ≤ r.idx.val)) = true := by decide
/-- After `hostOps26`. -/
abbrev W54 : Dev nD → Valuation τ sig (Elt F) := fun c => StableHlo.after hostOps26 (W53 m c)
theorem W54_keep (c : Dev nD) (b : Ref sig .tc) (h : b ∉ hostOps26_W) :
    W54 m c (Proc.devRef .tc b) = W53 m c (Proc.devRef .tc b) :=
  StableHlo.after_of_writes_sub hostOps26 _ hostOps26_writes h
theorem W54_arg (c : Dev nD) {b : Ref sig .tc} (hb : b ∈ args) :
    W54 m c (Proc.devRef .tc b) = m ((c : Thread nD τ).loc b) :=
  (W54_keep m c b (args_not_mem hostOps26_ge hb)).trans (W53_arg m c hb)

/-- Every output array of region 26 has index twenty or more. -/
theorem out26_ge : ∀ w, (cfg26.win w).isOut = true → 20 ≤ (Pipeline.arrRef spec26 w).idx.val := by decide
/-- At region 26's exit: its arrays at what the pipeline leaves, every other buffer as entered. -/
def W55 (c : Dev nD) : Valuation τ sig (Elt F) :=
  Pipeline.withArrays spec26 c (W54 m c) fun w => (dat26 (rd (W54 m)) c).arrAt w cfg26.N
theorem W55_arr (c : Dev nD) (w : Fin cfg26.W) :
    W55 m c (Proc.devRef .tc (Pipeline.arrRef spec26 w)) = (dat26 (rd (W54 m)) c).arrAt w cfg26.N := by
  unfold W55; exact Pipeline.withArrays_arr spec26 launch26.win.arr_inj c _ _ w
theorem W55_of_ne (c : Dev nD) (b : Ref sig .tc) (hb : ∀ w, Pipeline.arrRef spec26 w ≠ b) :
    W55 m c (Proc.devRef .tc b) = W54 m c (Proc.devRef .tc b) := by
  unfold W55; exact Pipeline.withArrays_of_ne spec26 c _ _ b hb
/-- At region 26's exit each of its arrays holds what the pipeline leaves (`hF26`) and every other buffer what it held
    at entry (`hrest26`). -/
theorem hF26 (c : Dev nD) (w : Fin cfg26.W) :
    (dat26 (rd (W54 m)) c).arrAt w cfg26.N = rd (W55 m) c (Pipeline.arrRef spec26 w) :=
  (W55_arr m c w).symm
theorem hrest26 (c : Dev nD) : ∀ b, b ∉ Finset.univ.image (Pipeline.arrRef spec26) → rd (W55 m) c b = rd (W54 m) c b :=
  fun b hb => W55_of_ne m c b fun w e => hb (Finset.mem_image.mpr ⟨w, Finset.mem_univ _, e⟩)
/-- A reference that is no OUTPUT array of region 26 keeps its contents: an input array is left as entered, a buffer
    that is no array of the region bypasses it. -/
theorem W55_keep (c : Dev nD) (b : Ref sig .tc) (hb : ∀ w, Pipeline.arrRef spec26 w = b → (cfg26.win w).isOut = false) :
    W55 m c (Proc.devRef .tc b) = W54 m c (Proc.devRef .tc b) := by
  by_cases h : ∃ w, Pipeline.arrRef spec26 w = b
  · obtain ⟨w, rfl⟩ := h
    exact (W55_arr m c w).trans (((dat26 (rd (W54 m)) c).arrAt_in w (hb w rfl) _).trans (A_eq26 (rd (W54 m)) c w))
  · exact W55_of_ne m c b fun w e => h ⟨w, e⟩
theorem W55_arg (c : Dev nD) {b : Ref sig .tc} (hb : b ∈ args) :
    W55 m c (Proc.devRef .tc b) = m ((c : Thread nD τ).loc b) :=
  (W55_keep m c b (args_in out26_ge hb)).trans (W54_arg m c hb)

/-- Every reference `hostOps27` writes has index twenty or more. -/
theorem hostOps27_ge : (hostOps27_W.all fun r => decide (20 ≤ r.idx.val)) = true := by decide
/-- After `hostOps27`. -/
abbrev W56 : Dev nD → Valuation τ sig (Elt F) := fun c => StableHlo.after hostOps27 (W55 m c)
theorem W56_keep (c : Dev nD) (b : Ref sig .tc) (h : b ∉ hostOps27_W) :
    W56 m c (Proc.devRef .tc b) = W55 m c (Proc.devRef .tc b) :=
  StableHlo.after_of_writes_sub hostOps27 _ hostOps27_writes h
theorem W56_arg (c : Dev nD) {b : Ref sig .tc} (hb : b ∈ args) :
    W56 m c (Proc.devRef .tc b) = m ((c : Thread nD τ).loc b) :=
  (W56_keep m c b (args_not_mem hostOps27_ge hb)).trans (W55_arg m c hb)

/-- Every output array of region 27 has index twenty or more. -/
theorem out27_ge : ∀ w, (cfg27.win w).isOut = true → 20 ≤ (Pipeline.arrRef spec27 w).idx.val := by decide
/-- At region 27's exit: its arrays at what the pipeline leaves, every other buffer as entered. -/
def W57 (c : Dev nD) : Valuation τ sig (Elt F) :=
  Pipeline.withArrays spec27 c (W56 m c) fun w => (dat27 (rd (W56 m)) c).arrAt w cfg27.N
theorem W57_arr (c : Dev nD) (w : Fin cfg27.W) :
    W57 m c (Proc.devRef .tc (Pipeline.arrRef spec27 w)) = (dat27 (rd (W56 m)) c).arrAt w cfg27.N := by
  unfold W57; exact Pipeline.withArrays_arr spec27 launch27.win.arr_inj c _ _ w
theorem W57_of_ne (c : Dev nD) (b : Ref sig .tc) (hb : ∀ w, Pipeline.arrRef spec27 w ≠ b) :
    W57 m c (Proc.devRef .tc b) = W56 m c (Proc.devRef .tc b) := by
  unfold W57; exact Pipeline.withArrays_of_ne spec27 c _ _ b hb
/-- At region 27's exit each of its arrays holds what the pipeline leaves (`hF27`) and every other buffer what it held
    at entry (`hrest27`). -/
theorem hF27 (c : Dev nD) (w : Fin cfg27.W) :
    (dat27 (rd (W56 m)) c).arrAt w cfg27.N = rd (W57 m) c (Pipeline.arrRef spec27 w) :=
  (W57_arr m c w).symm
theorem hrest27 (c : Dev nD) : ∀ b, b ∉ Finset.univ.image (Pipeline.arrRef spec27) → rd (W57 m) c b = rd (W56 m) c b :=
  fun b hb => W57_of_ne m c b fun w e => hb (Finset.mem_image.mpr ⟨w, Finset.mem_univ _, e⟩)
/-- A reference that is no OUTPUT array of region 27 keeps its contents: an input array is left as entered, a buffer
    that is no array of the region bypasses it. -/
theorem W57_keep (c : Dev nD) (b : Ref sig .tc) (hb : ∀ w, Pipeline.arrRef spec27 w = b → (cfg27.win w).isOut = false) :
    W57 m c (Proc.devRef .tc b) = W56 m c (Proc.devRef .tc b) := by
  by_cases h : ∃ w, Pipeline.arrRef spec27 w = b
  · obtain ⟨w, rfl⟩ := h
    exact (W57_arr m c w).trans (((dat27 (rd (W56 m)) c).arrAt_in w (hb w rfl) _).trans (A_eq27 (rd (W56 m)) c w))
  · exact W57_of_ne m c b fun w e => h ⟨w, e⟩
theorem W57_arg (c : Dev nD) {b : Ref sig .tc} (hb : b ∈ args) :
    W57 m c (Proc.devRef .tc b) = m ((c : Thread nD τ).loc b) :=
  (W57_keep m c b (args_in out27_ge hb)).trans (W56_arg m c hb)

/-- Every reference `hostOps28` writes has index twenty or more. -/
theorem hostOps28_ge : (hostOps28_W.all fun r => decide (20 ≤ r.idx.val)) = true := by decide
/-- After `hostOps28`. -/
abbrev W58 : Dev nD → Valuation τ sig (Elt F) := fun c => StableHlo.after hostOps28 (W57 m c)
theorem W58_keep (c : Dev nD) (b : Ref sig .tc) (h : b ∉ hostOps28_W) :
    W58 m c (Proc.devRef .tc b) = W57 m c (Proc.devRef .tc b) :=
  StableHlo.after_of_writes_sub hostOps28 _ hostOps28_writes h
theorem W58_arg (c : Dev nD) {b : Ref sig .tc} (hb : b ∈ args) :
    W58 m c (Proc.devRef .tc b) = m ((c : Thread nD τ).loc b) :=
  (W58_keep m c b (args_not_mem hostOps28_ge hb)).trans (W57_arg m c hb)

/-- Every output array of region 28 has index twenty or more. -/
theorem out28_ge : ∀ w, (cfg28.win w).isOut = true → 20 ≤ (Pipeline.arrRef spec28 w).idx.val := by decide
/-- At region 28's exit: its arrays at what the pipeline leaves, every other buffer as entered. -/
def W59 (c : Dev nD) : Valuation τ sig (Elt F) :=
  Pipeline.withArrays spec28 c (W58 m c) fun w => (dat28 (rd (W58 m)) c).arrAt w cfg28.N
theorem W59_arr (c : Dev nD) (w : Fin cfg28.W) :
    W59 m c (Proc.devRef .tc (Pipeline.arrRef spec28 w)) = (dat28 (rd (W58 m)) c).arrAt w cfg28.N := by
  unfold W59; exact Pipeline.withArrays_arr spec28 launch28.win.arr_inj c _ _ w
theorem W59_of_ne (c : Dev nD) (b : Ref sig .tc) (hb : ∀ w, Pipeline.arrRef spec28 w ≠ b) :
    W59 m c (Proc.devRef .tc b) = W58 m c (Proc.devRef .tc b) := by
  unfold W59; exact Pipeline.withArrays_of_ne spec28 c _ _ b hb
/-- At region 28's exit each of its arrays holds what the pipeline leaves (`hF28`) and every other buffer what it held
    at entry (`hrest28`). -/
theorem hF28 (c : Dev nD) (w : Fin cfg28.W) :
    (dat28 (rd (W58 m)) c).arrAt w cfg28.N = rd (W59 m) c (Pipeline.arrRef spec28 w) :=
  (W59_arr m c w).symm
theorem hrest28 (c : Dev nD) : ∀ b, b ∉ Finset.univ.image (Pipeline.arrRef spec28) → rd (W59 m) c b = rd (W58 m) c b :=
  fun b hb => W59_of_ne m c b fun w e => hb (Finset.mem_image.mpr ⟨w, Finset.mem_univ _, e⟩)
/-- A reference that is no OUTPUT array of region 28 keeps its contents: an input array is left as entered, a buffer
    that is no array of the region bypasses it. -/
theorem W59_keep (c : Dev nD) (b : Ref sig .tc) (hb : ∀ w, Pipeline.arrRef spec28 w = b → (cfg28.win w).isOut = false) :
    W59 m c (Proc.devRef .tc b) = W58 m c (Proc.devRef .tc b) := by
  by_cases h : ∃ w, Pipeline.arrRef spec28 w = b
  · obtain ⟨w, rfl⟩ := h
    exact (W59_arr m c w).trans (((dat28 (rd (W58 m)) c).arrAt_in w (hb w rfl) _).trans (A_eq28 (rd (W58 m)) c w))
  · exact W59_of_ne m c b fun w e => h ⟨w, e⟩
theorem W59_arg (c : Dev nD) {b : Ref sig .tc} (hb : b ∈ args) :
    W59 m c (Proc.devRef .tc b) = m ((c : Thread nD τ).loc b) :=
  (W59_keep m c b (args_in out28_ge hb)).trans (W58_arg m c hb)

/-- Every reference `hostOps29` writes has index twenty or more. -/
theorem hostOps29_ge : (hostOps29_W.all fun r => decide (20 ≤ r.idx.val)) = true := by decide
/-- After `hostOps29`. -/
abbrev W60 : Dev nD → Valuation τ sig (Elt F) := fun c => StableHlo.after hostOps29 (W59 m c)
theorem W60_keep (c : Dev nD) (b : Ref sig .tc) (h : b ∉ hostOps29_W) :
    W60 m c (Proc.devRef .tc b) = W59 m c (Proc.devRef .tc b) :=
  StableHlo.after_of_writes_sub hostOps29 _ hostOps29_writes h
theorem W60_arg (c : Dev nD) {b : Ref sig .tc} (hb : b ∈ args) :
    W60 m c (Proc.devRef .tc b) = m ((c : Thread nD τ).loc b) :=
  (W60_keep m c b (args_not_mem hostOps29_ge hb)).trans (W59_arg m c hb)

/-- Every output array of region 29 has index twenty or more. -/
theorem out29_ge : ∀ w, (cfg29.win w).isOut = true → 20 ≤ (Pipeline.arrRef spec29 w).idx.val := by decide
/-- At region 29's exit: its arrays at what the pipeline leaves, every other buffer as entered. -/
def W61 (c : Dev nD) : Valuation τ sig (Elt F) :=
  Pipeline.withArrays spec29 c (W60 m c) fun w => (dat29 (rd (W60 m)) c).arrAt w cfg29.N
theorem W61_arr (c : Dev nD) (w : Fin cfg29.W) :
    W61 m c (Proc.devRef .tc (Pipeline.arrRef spec29 w)) = (dat29 (rd (W60 m)) c).arrAt w cfg29.N := by
  unfold W61; exact Pipeline.withArrays_arr spec29 launch29.win.arr_inj c _ _ w
theorem W61_of_ne (c : Dev nD) (b : Ref sig .tc) (hb : ∀ w, Pipeline.arrRef spec29 w ≠ b) :
    W61 m c (Proc.devRef .tc b) = W60 m c (Proc.devRef .tc b) := by
  unfold W61; exact Pipeline.withArrays_of_ne spec29 c _ _ b hb
/-- At region 29's exit each of its arrays holds what the pipeline leaves (`hF29`) and every other buffer what it held
    at entry (`hrest29`). -/
theorem hF29 (c : Dev nD) (w : Fin cfg29.W) :
    (dat29 (rd (W60 m)) c).arrAt w cfg29.N = rd (W61 m) c (Pipeline.arrRef spec29 w) :=
  (W61_arr m c w).symm
theorem hrest29 (c : Dev nD) : ∀ b, b ∉ Finset.univ.image (Pipeline.arrRef spec29) → rd (W61 m) c b = rd (W60 m) c b :=
  fun b hb => W61_of_ne m c b fun w e => hb (Finset.mem_image.mpr ⟨w, Finset.mem_univ _, e⟩)
/-- A reference that is no OUTPUT array of region 29 keeps its contents: an input array is left as entered, a buffer
    that is no array of the region bypasses it. -/
theorem W61_keep (c : Dev nD) (b : Ref sig .tc) (hb : ∀ w, Pipeline.arrRef spec29 w = b → (cfg29.win w).isOut = false) :
    W61 m c (Proc.devRef .tc b) = W60 m c (Proc.devRef .tc b) := by
  by_cases h : ∃ w, Pipeline.arrRef spec29 w = b
  · obtain ⟨w, rfl⟩ := h
    exact (W61_arr m c w).trans (((dat29 (rd (W60 m)) c).arrAt_in w (hb w rfl) _).trans (A_eq29 (rd (W60 m)) c w))
  · exact W61_of_ne m c b fun w e => h ⟨w, e⟩
theorem W61_arg (c : Dev nD) {b : Ref sig .tc} (hb : b ∈ args) :
    W61 m c (Proc.devRef .tc b) = m ((c : Thread nD τ).loc b) :=
  (W61_keep m c b (args_in out29_ge hb)).trans (W60_arg m c hb)

/-- Every reference `hostOps30` writes has index twenty or more. -/
theorem hostOps30_ge : (hostOps30_W.all fun r => decide (20 ≤ r.idx.val)) = true := by decide
/-- After `hostOps30`. -/
abbrev W62 : Dev nD → Valuation τ sig (Elt F) := fun c => StableHlo.after hostOps30 (W61 m c)
theorem W62_keep (c : Dev nD) (b : Ref sig .tc) (h : b ∉ hostOps30_W) :
    W62 m c (Proc.devRef .tc b) = W61 m c (Proc.devRef .tc b) :=
  StableHlo.after_of_writes_sub hostOps30 _ hostOps30_writes h
theorem W62_arg (c : Dev nD) {b : Ref sig .tc} (hb : b ∈ args) :
    W62 m c (Proc.devRef .tc b) = m ((c : Thread nD τ).loc b) :=
  (W62_keep m c b (args_not_mem hostOps30_ge hb)).trans (W61_arg m c hb)

/-- Every output array of region 30 has index twenty or more. -/
theorem out30_ge : ∀ w, (cfg30.win w).isOut = true → 20 ≤ (Pipeline.arrRef spec30 w).idx.val := by decide
/-- At region 30's exit: its arrays at what the pipeline leaves, every other buffer as entered. -/
def W63 (c : Dev nD) : Valuation τ sig (Elt F) :=
  Pipeline.withArrays spec30 c (W62 m c) fun w => (dat30 (rd (W62 m)) c).arrAt w cfg30.N
theorem W63_arr (c : Dev nD) (w : Fin cfg30.W) :
    W63 m c (Proc.devRef .tc (Pipeline.arrRef spec30 w)) = (dat30 (rd (W62 m)) c).arrAt w cfg30.N := by
  unfold W63; exact Pipeline.withArrays_arr spec30 launch30.win.arr_inj c _ _ w
theorem W63_of_ne (c : Dev nD) (b : Ref sig .tc) (hb : ∀ w, Pipeline.arrRef spec30 w ≠ b) :
    W63 m c (Proc.devRef .tc b) = W62 m c (Proc.devRef .tc b) := by
  unfold W63; exact Pipeline.withArrays_of_ne spec30 c _ _ b hb
/-- At region 30's exit each of its arrays holds what the pipeline leaves (`hF30`) and every other buffer what it held
    at entry (`hrest30`). -/
theorem hF30 (c : Dev nD) (w : Fin cfg30.W) :
    (dat30 (rd (W62 m)) c).arrAt w cfg30.N = rd (W63 m) c (Pipeline.arrRef spec30 w) :=
  (W63_arr m c w).symm
theorem hrest30 (c : Dev nD) : ∀ b, b ∉ Finset.univ.image (Pipeline.arrRef spec30) → rd (W63 m) c b = rd (W62 m) c b :=
  fun b hb => W63_of_ne m c b fun w e => hb (Finset.mem_image.mpr ⟨w, Finset.mem_univ _, e⟩)
/-- A reference that is no OUTPUT array of region 30 keeps its contents: an input array is left as entered, a buffer
    that is no array of the region bypasses it. -/
theorem W63_keep (c : Dev nD) (b : Ref sig .tc) (hb : ∀ w, Pipeline.arrRef spec30 w = b → (cfg30.win w).isOut = false) :
    W63 m c (Proc.devRef .tc b) = W62 m c (Proc.devRef .tc b) := by
  by_cases h : ∃ w, Pipeline.arrRef spec30 w = b
  · obtain ⟨w, rfl⟩ := h
    exact (W63_arr m c w).trans (((dat30 (rd (W62 m)) c).arrAt_in w (hb w rfl) _).trans (A_eq30 (rd (W62 m)) c w))
  · exact W63_of_ne m c b fun w e => h ⟨w, e⟩
theorem W63_arg (c : Dev nD) {b : Ref sig .tc} (hb : b ∈ args) :
    W63 m c (Proc.devRef .tc b) = m ((c : Thread nD τ).loc b) :=
  (W63_keep m c b (args_in out30_ge hb)).trans (W62_arg m c hb)

/-- Every reference `hostOps31` writes has index twenty or more. -/
theorem hostOps31_ge : (hostOps31_W.all fun r => decide (20 ≤ r.idx.val)) = true := by decide
/-- After `hostOps31`. -/
abbrev W64 : Dev nD → Valuation τ sig (Elt F) := fun c => StableHlo.after hostOps31 (W63 m c)
theorem W64_keep (c : Dev nD) (b : Ref sig .tc) (h : b ∉ hostOps31_W) :
    W64 m c (Proc.devRef .tc b) = W63 m c (Proc.devRef .tc b) :=
  StableHlo.after_of_writes_sub hostOps31 _ hostOps31_writes h
theorem W64_arg (c : Dev nD) {b : Ref sig .tc} (hb : b ∈ args) :
    W64 m c (Proc.devRef .tc b) = m ((c : Thread nD τ).loc b) :=
  (W64_keep m c b (args_not_mem hostOps31_ge hb)).trans (W63_arg m c hb)

end Cert.KernelIdeal.Reg

end
-- ==== Proof.KI.Chain.lean ====
-- laid out by: scratch/mkchain.js Chain proof/Proof/KI/Chain.lean
/- THE PROOF DATA FAMILY AND THE THREAD STATE of the kernel program's run. Every pipeline's proof data is taken at
   the contents its region is entered from (`pdats`); between two items a core's thread state is "every unscoped
   buffer at the boundary's contents, the generator register at some state, nothing owed" (`R` beside
   `StableHlo.held`); a stretch of host operations is a segment over that state (`hseg`); the last state, read at
   the return, is `Tₙ`. -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import proofs.«146967_j25786983645193_1_alg».proof.Proof.KI.ChainC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents — a literal `match`, so that the pinned
    configuration at a numeral reduces to the printed one. -/
def pdats : (p : Fin 31) → (c : Dev nD) → Dat τ (Elt F) Unit ℕ (UR sig nD τ) ℕ (Pipeline.pin (pcfgs (F := F)) adm p) c
  | ⟨0, _⟩ => fun c => dat0 (rd (W3 m)) c
  | ⟨1, _⟩ => fun c => dat1 (rd (W5 m)) c
  | ⟨2, _⟩ => fun c => dat2 (rd (W7 m)) c
  | ⟨3, _⟩ => fun c => dat3 (rd (W9 m)) c
  | ⟨4, _⟩ => fun c => dat4 (rd (W11 m)) c
  | ⟨5, _⟩ => fun c => dat5 (rd (W13 m)) c
  | ⟨6, _⟩ => fun c => dat6 (rd (W15 m)) c
  | ⟨7, _⟩ => fun c => dat7 (rd (W17 m)) c
  | ⟨8, _⟩ => fun c => dat8 (rd (W19 m)) c
  | ⟨9, _⟩ => fun c => dat9 (rd (W20 m)) c
  | ⟨10, _⟩ => fun c => dat10 (rd (W22 m)) c
  | ⟨11, _⟩ => fun c => dat11 (rd (W24 m)) c
  | ⟨12, _⟩ => fun c => dat12 (rd (W26 m)) c
  | ⟨13, _⟩ => fun c => dat13 (rd (W28 m)) c
  | ⟨14, _⟩ => fun c => dat14 (rd (W30 m)) c
  | ⟨15, _⟩ => fun c => dat15 (rd (W32 m)) c
  | ⟨16, _⟩ => fun c => dat16 (rd (W34 m)) c
  | ⟨17, _⟩ => fun c => dat17 (rd (W36 m)) c
  | ⟨18, _⟩ => fun c => dat18 (rd (W38 m)) c
  | ⟨19, _⟩ => fun c => dat19 (rd (W40 m)) c
  | ⟨20, _⟩ => fun c => dat20 (rd (W42 m)) c
  | ⟨21, _⟩ => fun c => dat21 (rd (W44 m)) c
  | ⟨22, _⟩ => fun c => dat22 (rd (W46 m)) c
  | ⟨23, _⟩ => fun c => dat23 (rd (W48 m)) c
  | ⟨24, _⟩ => fun c => dat24 (rd (W50 m)) c
  | ⟨25, _⟩ => fun c => dat25 (rd (W52 m)) c
  | ⟨26, _⟩ => fun c => dat26 (rd (W54 m)) c
  | ⟨27, _⟩ => fun c => dat27 (rd (W56 m)) c
  | ⟨28, _⟩ => fun c => dat28 (rd (W58 m)) c
  | ⟨29, _⟩ => fun c => dat29 (rd (W60 m)) c
  | ⟨30, _⟩ => fun c => dat30 (rd (W62 m)) c
  | ⟨_ + 31, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it is left at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W64 m c) ∗ ∃ r, prngReg c r)

end Cert.KernelIdeal.Reg

end
-- ==== Proof.KI.Seg0.lean ====
/- REGION 0 of the kernel program as a segment of @main's run, at any float interpretation. Between two items of @main a
   core's thread state is "every unscoped buffer whole at the boundary's contents, the generator register at some
   state, nothing owed". The region is entered from that state at the contents `W3` and left in it at `W4`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered from every unscoped buffer at `W3`, left at `W4`. -/
def reg0 : Pipeline.RegionSeg (pcfgs (F := F)) adm (pdats m) () defs₀ 𝒱₀ L lv /-#K-/0/-#-/ where
  win := launch0.win.to₀
  block_pos := launch0.block_pos
  stage_whole := launch0.stage_whole
  K := PEmpty
  osem k := k.elim
  ho := Pipeline.OwnSemFacts.none _
  hbody c := (body_obligation0 (rd (W3 m)) c).loose
  hwaits := Pipeline.hwaits_of_owed_zero _ _ _ _ L lv /-#K-/0/-#-/ fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (rd (W3 m) c)
  hentry c := by
    rw [Pipeline.ownSems0_none]
    have hsplit := Pipeline.arrays_of_unscopedBufs (p := /-#K-/0/-#-/) (pcfgs (F := F)) adm (pdats m) launch0.win launch0.arr_whole c
      ((pdats m /-#K-/0/-#-/ c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/0/-#-/ c).Φ 0 = Pipeline.ΦA spec0 c from rfl]; unfold Pipeline.ΦA
    iintro ⟨Hp, -, Hr⟩
    isplitl [Hr]; · iexact Hr
    iexact Hp
  hout c := by
    rw [Pipeline.ownSems0_none, show (pdats m /-#K-/0/-#-/ c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := /-#K-/0/-#-/) (pcfgs (F := F)) adm (Ix := Unit) (Name := ℕ) (U := UR sig nD τ) (Lvl := ℕ)
      launch0.win launch0.arr_whole c (pdats m) ((pdats m /-#K-/0/-#-/ c).share_full fun _ => rfl)
      (rd (W3 m) c) (rd (W4 m) c) ((pdats m /-#K-/0/-#-/ c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg1.lean ====
/- REGION 1 of the kernel program as a segment of @main's run, at any float interpretation. Between two items of @main a
   core's thread state is "every unscoped buffer whole at the boundary's contents, the generator register at some
   state, nothing owed". The region is entered from that state at the contents `W5` and left in it at `W6`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 1 over the thread state: entered from every unscoped buffer at `W5`, left at `W6`. -/
def reg1 : Pipeline.RegionSeg (pcfgs (F := F)) adm (pdats m) () defs₀ 𝒱₀ L lv /-#K-/1/-#-/ where
  win := launch1.win.to₀
  block_pos := launch1.block_pos
  stage_whole := launch1.stage_whole
  K := PEmpty
  osem k := k.elim
  ho := Pipeline.OwnSemFacts.none _
  hbody c := (body_obligation1 (rd (W5 m)) c).loose
  hwaits := Pipeline.hwaits_of_owed_zero _ _ _ _ L lv /-#K-/1/-#-/ fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (rd (W5 m) c)
  hentry c := by
    rw [Pipeline.ownSems0_none]
    have hsplit := Pipeline.arrays_of_unscopedBufs (p := /-#K-/1/-#-/) (pcfgs (F := F)) adm (pdats m) launch1.win launch1.arr_whole c
      ((pdats m /-#K-/1/-#-/ c).share_full fun _ => rfl) (rd (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/1/-#-/ c).Φ 0 = Pipeline.ΦA spec1 c from rfl]; unfold Pipeline.ΦA
    iintro ⟨Hp, -, Hr⟩
    isplitl [Hr]; · iexact Hr
    iexact Hp
  hout c := by
    rw [Pipeline.ownSems0_none, show (pdats m /-#K-/1/-#-/ c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := /-#K-/1/-#-/) (pcfgs (F := F)) adm (Ix := Unit) (Name := ℕ) (U := UR sig nD τ) (Lvl := ℕ)
      launch1.win launch1.arr_whole c (pdats m) ((pdats m /-#K-/1/-#-/ c).share_full fun _ => rfl)
      (rd (W5 m) c) (rd (W6 m) c) ((pdats m /-#K-/1/-#-/ c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg2.lean ====
/- REGION 2 of the kernel program as a segment of @main's run, at any float interpretation. Between two items of @main a
   core's thread state is "every unscoped buffer whole at the boundary's contents, the generator register at some
   state, nothing owed". The region is entered from that state at the contents `W7` and left in it at `W8`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 2 over the thread state: entered from every unscoped buffer at `W7`, left at `W8`. -/
def reg2 : Pipeline.RegionSeg (pcfgs (F := F)) adm (pdats m) () defs₀ 𝒱₀ L lv /-#K-/2/-#-/ where
  win := launch2.win.to₀
  block_pos := launch2.block_pos
  stage_whole := launch2.stage_whole
  K := PEmpty
  osem k := k.elim
  ho := Pipeline.OwnSemFacts.none _
  hbody c := (body_obligation2 (rd (W7 m)) c).loose
  hwaits := Pipeline.hwaits_of_owed_zero _ _ _ _ L lv /-#K-/2/-#-/ fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (rd (W7 m) c)
  hentry c := by
    rw [Pipeline.ownSems0_none]
    have hsplit := Pipeline.arrays_of_unscopedBufs (p := /-#K-/2/-#-/) (pcfgs (F := F)) adm (pdats m) launch2.win launch2.arr_whole c
      ((pdats m /-#K-/2/-#-/ c).share_full fun _ => rfl) (rd (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/2/-#-/ c).Φ 0 = Pipeline.ΦA spec2 c from rfl]; unfold Pipeline.ΦA
    iintro ⟨Hp, -, Hr⟩
    isplitl [Hr]; · iexact Hr
    iexact Hp
  hout c := by
    rw [Pipeline.ownSems0_none, show (pdats m /-#K-/2/-#-/ c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := /-#K-/2/-#-/) (pcfgs (F := F)) adm (Ix := Unit) (Name := ℕ) (U := UR sig nD τ) (Lvl := ℕ)
      launch2.win launch2.arr_whole c (pdats m) ((pdats m /-#K-/2/-#-/ c).share_full fun _ => rfl)
      (rd (W7 m) c) (rd (W8 m) c) ((pdats m /-#K-/2/-#-/ c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg3.lean ====
/- REGION 3 of the kernel program as a segment of @main's run, at any float interpretation. Between two items of @main a
   core's thread state is "every unscoped buffer whole at the boundary's contents, the generator register at some
   state, nothing owed". The region is entered from that state at the contents `W9` and left in it at `W10`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 3 over the thread state: entered from every unscoped buffer at `W9`, left at `W10`. -/
def reg3 : Pipeline.RegionSeg (pcfgs (F := F)) adm (pdats m) () defs₀ 𝒱₀ L lv /-#K-/3/-#-/ where
  win := launch3.win.to₀
  block_pos := launch3.block_pos
  stage_whole := launch3.stage_whole
  K := PEmpty
  osem k := k.elim
  ho := Pipeline.OwnSemFacts.none _
  hbody c := (body_obligation3 (rd (W9 m)) c).loose
  hwaits := Pipeline.hwaits_of_owed_zero _ _ _ _ L lv /-#K-/3/-#-/ fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (rd (W9 m) c)
  hentry c := by
    rw [Pipeline.ownSems0_none]
    have hsplit := Pipeline.arrays_of_unscopedBufs (p := /-#K-/3/-#-/) (pcfgs (F := F)) adm (pdats m) launch3.win launch3.arr_whole c
      ((pdats m /-#K-/3/-#-/ c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/3/-#-/ c).Φ 0 = Pipeline.ΦA spec3 c from rfl]; unfold Pipeline.ΦA
    iintro ⟨Hp, -, Hr⟩
    isplitl [Hr]; · iexact Hr
    iexact Hp
  hout c := by
    rw [Pipeline.ownSems0_none, show (pdats m /-#K-/3/-#-/ c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := /-#K-/3/-#-/) (pcfgs (F := F)) adm (Ix := Unit) (Name := ℕ) (U := UR sig nD τ) (Lvl := ℕ)
      launch3.win launch3.arr_whole c (pdats m) ((pdats m /-#K-/3/-#-/ c).share_full fun _ => rfl)
      (rd (W9 m) c) (rd (W10 m) c) ((pdats m /-#K-/3/-#-/ c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg4.lean ====
/- REGION 4 of the kernel program as a segment of @main's run, at any float interpretation. Between two items of @main a
   core's thread state is "every unscoped buffer whole at the boundary's contents, the generator register at some
   state, nothing owed". The region is entered from that state at the contents `W11` and left in it at `W12`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 4 over the thread state: entered from every unscoped buffer at `W11`, left at `W12`. -/
def reg4 : Pipeline.RegionSeg (pcfgs (F := F)) adm (pdats m) () defs₀ 𝒱₀ L lv /-#K-/4/-#-/ where
  win := launch4.win.to₀
  block_pos := launch4.block_pos
  stage_whole := launch4.stage_whole
  K := PEmpty
  osem k := k.elim
  ho := Pipeline.OwnSemFacts.none _
  hbody c := (body_obligation4 (rd (W11 m)) c).loose
  hwaits := Pipeline.hwaits_of_owed_zero _ _ _ _ L lv /-#K-/4/-#-/ fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (rd (W11 m) c)
  hentry c := by
    rw [Pipeline.ownSems0_none]
    have hsplit := Pipeline.arrays_of_unscopedBufs (p := /-#K-/4/-#-/) (pcfgs (F := F)) adm (pdats m) launch4.win launch4.arr_whole c
      ((pdats m /-#K-/4/-#-/ c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/4/-#-/ c).Φ 0 = Pipeline.ΦA spec4 c from rfl]; unfold Pipeline.ΦA
    iintro ⟨Hp, -, Hr⟩
    isplitl [Hr]; · iexact Hr
    iexact Hp
  hout c := by
    rw [Pipeline.ownSems0_none, show (pdats m /-#K-/4/-#-/ c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := /-#K-/4/-#-/) (pcfgs (F := F)) adm (Ix := Unit) (Name := ℕ) (U := UR sig nD τ) (Lvl := ℕ)
      launch4.win launch4.arr_whole c (pdats m) ((pdats m /-#K-/4/-#-/ c).share_full fun _ => rfl)
      (rd (W11 m) c) (rd (W12 m) c) ((pdats m /-#K-/4/-#-/ c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg5.lean ====
/- REGION 5 of the kernel program as a segment of @main's run, at any float interpretation. Between two items of @main a
   core's thread state is "every unscoped buffer whole at the boundary's contents, the generator register at some
   state, nothing owed". The region is entered from that state at the contents `W13` and left in it at `W14`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 5 over the thread state: entered from every unscoped buffer at `W13`, left at `W14`. -/
def reg5 : Pipeline.RegionSeg (pcfgs (F := F)) adm (pdats m) () defs₀ 𝒱₀ L lv /-#K-/5/-#-/ where
  win := launch5.win.to₀
  block_pos := launch5.block_pos
  stage_whole := launch5.stage_whole
  K := PEmpty
  osem k := k.elim
  ho := Pipeline.OwnSemFacts.none _
  hbody c := (body_obligation5 (rd (W13 m)) c).loose
  hwaits := Pipeline.hwaits_of_owed_zero _ _ _ _ L lv /-#K-/5/-#-/ fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (rd (W13 m) c)
  hentry c := by
    rw [Pipeline.ownSems0_none]
    have hsplit := Pipeline.arrays_of_unscopedBufs (p := /-#K-/5/-#-/) (pcfgs (F := F)) adm (pdats m) launch5.win launch5.arr_whole c
      ((pdats m /-#K-/5/-#-/ c).share_full fun _ => rfl) (rd (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/5/-#-/ c).Φ 0 = Pipeline.ΦA spec5 c from rfl]; unfold Pipeline.ΦA
    iintro ⟨Hp, -, Hr⟩
    isplitl [Hr]; · iexact Hr
    iexact Hp
  hout c := by
    rw [Pipeline.ownSems0_none, show (pdats m /-#K-/5/-#-/ c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := /-#K-/5/-#-/) (pcfgs (F := F)) adm (Ix := Unit) (Name := ℕ) (U := UR sig nD τ) (Lvl := ℕ)
      launch5.win launch5.arr_whole c (pdats m) ((pdats m /-#K-/5/-#-/ c).share_full fun _ => rfl)
      (rd (W13 m) c) (rd (W14 m) c) ((pdats m /-#K-/5/-#-/ c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg6.lean ====
/- REGION 6 of the kernel program as a segment of @main's run, at any float interpretation. Between two items of @main a
   core's thread state is "every unscoped buffer whole at the boundary's contents, the generator register at some
   state, nothing owed". The region is entered from that state at the contents `W15` and left in it at `W16`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 6 over the thread state: entered from every unscoped buffer at `W15`, left at `W16`. -/
def reg6 : Pipeline.RegionSeg (pcfgs (F := F)) adm (pdats m) () defs₀ 𝒱₀ L lv /-#K-/6/-#-/ where
  win := launch6.win.to₀
  block_pos := launch6.block_pos
  stage_whole := launch6.stage_whole
  K := PEmpty
  osem k := k.elim
  ho := Pipeline.OwnSemFacts.none _
  hbody c := (body_obligation6 (rd (W15 m)) c).loose
  hwaits := Pipeline.hwaits_of_owed_zero _ _ _ _ L lv /-#K-/6/-#-/ fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec6 c (rd (W15 m) c)
  hentry c := by
    rw [Pipeline.ownSems0_none]
    have hsplit := Pipeline.arrays_of_unscopedBufs (p := /-#K-/6/-#-/) (pcfgs (F := F)) adm (pdats m) launch6.win launch6.arr_whole c
      ((pdats m /-#K-/6/-#-/ c).share_full fun _ => rfl) (rd (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/6/-#-/ c).Φ 0 = Pipeline.ΦA spec6 c from rfl]; unfold Pipeline.ΦA
    iintro ⟨Hp, -, Hr⟩
    isplitl [Hr]; · iexact Hr
    iexact Hp
  hout c := by
    rw [Pipeline.ownSems0_none, show (pdats m /-#K-/6/-#-/ c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := /-#K-/6/-#-/) (pcfgs (F := F)) adm (Ix := Unit) (Name := ℕ) (U := UR sig nD τ) (Lvl := ℕ)
      launch6.win launch6.arr_whole c (pdats m) ((pdats m /-#K-/6/-#-/ c).share_full fun _ => rfl)
      (rd (W15 m) c) (rd (W16 m) c) ((pdats m /-#K-/6/-#-/ c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg7.lean ====
/- REGION 7 of the kernel program as a segment of @main's run, at any float interpretation. Between two items of @main a
   core's thread state is "every unscoped buffer whole at the boundary's contents, the generator register at some
   state, nothing owed". The region is entered from that state at the contents `W17` and left in it at `W18`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 7 over the thread state: entered from every unscoped buffer at `W17`, left at `W18`. -/
def reg7 : Pipeline.RegionSeg (pcfgs (F := F)) adm (pdats m) () defs₀ 𝒱₀ L lv /-#K-/7/-#-/ where
  win := launch7.win.to₀
  block_pos := launch7.block_pos
  stage_whole := launch7.stage_whole
  K := PEmpty
  osem k := k.elim
  ho := Pipeline.OwnSemFacts.none _
  hbody c := (body_obligation7 (rd (W17 m)) c).loose
  hwaits := Pipeline.hwaits_of_owed_zero _ _ _ _ L lv /-#K-/7/-#-/ fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec7 c (rd (W17 m) c)
  hentry c := by
    rw [Pipeline.ownSems0_none]
    have hsplit := Pipeline.arrays_of_unscopedBufs (p := /-#K-/7/-#-/) (pcfgs (F := F)) adm (pdats m) launch7.win launch7.arr_whole c
      ((pdats m /-#K-/7/-#-/ c).share_full fun _ => rfl) (rd (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/7/-#-/ c).Φ 0 = Pipeline.ΦA spec7 c from rfl]; unfold Pipeline.ΦA
    iintro ⟨Hp, -, Hr⟩
    isplitl [Hr]; · iexact Hr
    iexact Hp
  hout c := by
    rw [Pipeline.ownSems0_none, show (pdats m /-#K-/7/-#-/ c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := /-#K-/7/-#-/) (pcfgs (F := F)) adm (Ix := Unit) (Name := ℕ) (U := UR sig nD τ) (Lvl := ℕ)
      launch7.win launch7.arr_whole c (pdats m) ((pdats m /-#K-/7/-#-/ c).share_full fun _ => rfl)
      (rd (W17 m) c) (rd (W18 m) c) ((pdats m /-#K-/7/-#-/ c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg8.lean ====
/- REGION 8 of the kernel program as a segment of @main's run, at any float interpretation. Between two items of @main a
   core's thread state is "every unscoped buffer whole at the boundary's contents, the generator register at some
   state, nothing owed". The region is entered from that state at the contents `W19` and left in it at `W20`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 8 over the thread state: entered from every unscoped buffer at `W19`, left at `W20`. -/
def reg8 : Pipeline.RegionSeg (pcfgs (F := F)) adm (pdats m) () defs₀ 𝒱₀ L lv /-#K-/8/-#-/ where
  win := launch8.win.to₀
  block_pos := launch8.block_pos
  stage_whole := launch8.stage_whole
  K := PEmpty
  osem k := k.elim
  ho := Pipeline.OwnSemFacts.none _
  hbody c := (body_obligation8 (rd (W19 m)) c).loose
  hwaits := Pipeline.hwaits_of_owed_zero _ _ _ _ L lv /-#K-/8/-#-/ fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec8 c (rd (W19 m) c)
  hentry c := by
    rw [Pipeline.ownSems0_none]
    have hsplit := Pipeline.arrays_of_unscopedBufs (p := /-#K-/8/-#-/) (pcfgs (F := F)) adm (pdats m) launch8.win launch8.arr_whole c
      ((pdats m /-#K-/8/-#-/ c).share_full fun _ => rfl) (rd (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/8/-#-/ c).Φ 0 = Pipeline.ΦA spec8 c from rfl]; unfold Pipeline.ΦA
    iintro ⟨Hp, -, Hr⟩
    isplitl [Hr]; · iexact Hr
    iexact Hp
  hout c := by
    rw [Pipeline.ownSems0_none, show (pdats m /-#K-/8/-#-/ c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := /-#K-/8/-#-/) (pcfgs (F := F)) adm (Ix := Unit) (Name := ℕ) (U := UR sig nD τ) (Lvl := ℕ)
      launch8.win launch8.arr_whole c (pdats m) ((pdats m /-#K-/8/-#-/ c).share_full fun _ => rfl)
      (rd (W19 m) c) (rd (W20 m) c) ((pdats m /-#K-/8/-#-/ c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg9.lean ====
/- REGION 9 of the kernel program as a segment of @main's run, at any float interpretation. Between two items of @main a
   core's thread state is "every unscoped buffer whole at the boundary's contents, the generator register at some
   state, nothing owed". The region is entered from that state at the contents `W20` and left in it at `W21`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 9 over the thread state: entered from every unscoped buffer at `W20`, left at `W21`. -/
def reg9 : Pipeline.RegionSeg (pcfgs (F := F)) adm (pdats m) () defs₀ 𝒱₀ L lv /-#K-/9/-#-/ where
  win := launch9.win.to₀
  block_pos := launch9.block_pos
  stage_whole := launch9.stage_whole
  K := PEmpty
  osem k := k.elim
  ho := Pipeline.OwnSemFacts.none _
  hbody c := (body_obligation9 (rd (W20 m)) c).loose
  hwaits := Pipeline.hwaits_of_owed_zero _ _ _ _ L lv /-#K-/9/-#-/ fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec9 c (rd (W20 m) c)
  hentry c := by
    rw [Pipeline.ownSems0_none]
    have hsplit := Pipeline.arrays_of_unscopedBufs (p := /-#K-/9/-#-/) (pcfgs (F := F)) adm (pdats m) launch9.win launch9.arr_whole c
      ((pdats m /-#K-/9/-#-/ c).share_full fun _ => rfl) (rd (W20 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/9/-#-/ c).Φ 0 = Pipeline.ΦA spec9 c from rfl]; unfold Pipeline.ΦA
    iintro ⟨Hp, -, Hr⟩
    isplitl [Hr]; · iexact Hr
    iexact Hp
  hout c := by
    rw [Pipeline.ownSems0_none, show (pdats m /-#K-/9/-#-/ c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := /-#K-/9/-#-/) (pcfgs (F := F)) adm (Ix := Unit) (Name := ℕ) (U := UR sig nD τ) (Lvl := ℕ)
      launch9.win launch9.arr_whole c (pdats m) ((pdats m /-#K-/9/-#-/ c).share_full fun _ => rfl)
      (rd (W20 m) c) (rd (W21 m) c) ((pdats m /-#K-/9/-#-/ c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg10.lean ====
/- REGION 10 of the kernel program as a segment of @main's run, at any float interpretation. Between two items of @main a
   core's thread state is "every unscoped buffer whole at the boundary's contents, the generator register at some
   state, nothing owed". The region is entered from that state at the contents `W22` and left in it at `W23`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 10 over the thread state: entered from every unscoped buffer at `W22`, left at `W23`. -/
def reg10 : Pipeline.RegionSeg (pcfgs (F := F)) adm (pdats m) () defs₀ 𝒱₀ L lv /-#K-/10/-#-/ where
  win := launch10.win.to₀
  block_pos := launch10.block_pos
  stage_whole := launch10.stage_whole
  K := PEmpty
  osem k := k.elim
  ho := Pipeline.OwnSemFacts.none _
  hbody c := (body_obligation10 (rd (W22 m)) c).loose
  hwaits := Pipeline.hwaits_of_owed_zero _ _ _ _ L lv /-#K-/10/-#-/ fun _ _ => rfl
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec10 c (rd (W22 m) c)
  hentry c := by
    rw [Pipeline.ownSems0_none]
    have hsplit := Pipeline.arrays_of_unscopedBufs (p := /-#K-/10/-#-/) (pcfgs (F := F)) adm (pdats m) launch10.win launch10.arr_whole c
      ((pdats m /-#K-/10/-#-/ c).share_full fun _ => rfl) (rd (W22 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/10/-#-/ c).Φ 0 = Pipeline.ΦA spec10 c from rfl]; unfold Pipeline.ΦA
    iintro ⟨Hp, -, Hr⟩
    isplitl [Hr]; · iexact Hr
    iexact Hp
  hout c := by
    rw [Pipeline.ownSems0_none, show (pdats m /-#K-/10/-#-/ c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := /-#K-/10/-#-/) (pcfgs (F := F)) adm (Ix := Unit) (Name := ℕ) (U := UR sig nD τ) (Lvl := ℕ)
      launch10.win launch10.arr_whole c (pdats m) ((pdats m /-#K-/10/-#-/ c).share_full fun _ => rfl)
      (rd (W22 m) c) (rd (W23 m) c) ((pdats m /-#K-/10/-#-/ c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg11.lean ====
/- REGION 11 of the kernel program as a segment of @main's run, at any float interpretation. Between two items of @main a
   core's thread state is "every unscoped buffer whole at the boundary's contents, the generator register at some
   state, nothing owed". The region is entered from that state at the contents `W24` and left in it at `W25`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 11 over the thread state: entered from every unscoped buffer at `W24`, left at `W25`. -/
def reg11 : Pipeline.RegionSeg (pcfgs (F := F)) adm (pdats m) () defs₀ 𝒱₀ L lv /-#K-/11/-#-/ where
  win := launch11.win.to₀
  block_pos := launch11.block_pos
  stage_whole := launch11.stage_whole
  K := PEmpty
  osem k := k.elim
  ho := Pipeline.OwnSemFacts.none _
  hbody c := (body_obligation11 (rd (W24 m)) c).loose
  hwaits := Pipeline.hwaits_of_owed_zero _ _ _ _ L lv /-#K-/11/-#-/ fun _ _ => rfl
  pre c := iprop(StableHlo.held (c : Thread nD τ) (Pipeline.ucRefs τ sig) (W24 m c) ∗ R c)
  post c := iprop(StableHlo.held (c : Thread nD τ) (Pipeline.ucRefs τ sig) (W25 m c) ∗ R c)
  X c := iprop(∃ r, prngReg c r)
  Y c := iprop(∃ r, prngReg c r)
  Z c := Pipeline.unscopedRest (Ix := Unit) (Name := ℕ) (U := UR sig nD τ) (Lvl := ℕ) spec11 c (rd (W24 m) c)
  hentry c := by
    rw [Pipeline.ownSems0_none]
    have hsplit := Pipeline.arrays_of_unscopedBufs (p := /-#K-/11/-#-/) (pcfgs (F := F)) adm (pdats m) launch11.win launch11.arr_whole c
      ((pdats m /-#K-/11/-#-/ c).share_full fun _ => rfl) (rd (W24 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/11/-#-/ c).Φ 0 = Pipeline.ΦA spec11 c from rfl]; unfold Pipeline.ΦA
    iintro ⟨Hp, -, Hr⟩
    isplitl [Hr]; · iexact Hr
    iexact Hp
  hout c := by
    rw [Pipeline.ownSems0_none, show (pdats m /-#K-/11/-#-/ c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := /-#K-/11/-#-/) (pcfgs (F := F)) adm (Ix := Unit) (Name := ℕ) (U := UR sig nD τ) (Lvl := ℕ)
      launch11.win launch11.arr_whole c (pdats m) ((pdats m /-#K-/11/-#-/ c).share_full fun _ => rfl)
      (rd (W24 m) c) (rd (W25 m) c) ((pdats m /-#K-/11/-#-/ c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg12.lean ====
/- REGION 12 of the kernel program as a segment of @main's run, at any float interpretation. Between two items of @main a
   core's thread state is "every unscoped buffer whole at the boundary's contents, the generator register at some
   state, nothing owed". The region is entered from that state at the contents `W26` and left in it at `W27`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 12 over the thread state: entered from every unscoped buffer at `W26`, left at `W27`. -/
def reg12 : Pipeline.RegionSeg (pcfgs (F := F)) adm (pdats m) () defs₀ 𝒱₀ L lv /-#K-/12/-#-/ where
  win := launch12.win.to₀
  block_pos := launch12.block_pos
  stage_whole := launch12.stage_whole
  K := PEmpty
  osem k := k.elim
  ho := Pipeline.OwnSemFacts.none _
  hbody c := (body_obligation12 (rd (W26 m)) c).loose
  hwaits := Pipeline.hwaits_of_owed_zero _ _ _ _ L lv /-#K-/12/-#-/ fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec12 c (rd (W26 m) c)
  hentry c := by
    rw [Pipeline.ownSems0_none]
    have hsplit := Pipeline.arrays_of_unscopedBufs (p := /-#K-/12/-#-/) (pcfgs (F := F)) adm (pdats m) launch12.win launch12.arr_whole c
      ((pdats m /-#K-/12/-#-/ c).share_full fun _ => rfl) (rd (W26 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/12/-#-/ c).Φ 0 = Pipeline.ΦA spec12 c from rfl]; unfold Pipeline.ΦA
    iintro ⟨Hp, -, Hr⟩
    isplitl [Hr]; · iexact Hr
    iexact Hp
  hout c := by
    rw [Pipeline.ownSems0_none, show (pdats m /-#K-/12/-#-/ c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := /-#K-/12/-#-/) (pcfgs (F := F)) adm (Ix := Unit) (Name := ℕ) (U := UR sig nD τ) (Lvl := ℕ)
      launch12.win launch12.arr_whole c (pdats m) ((pdats m /-#K-/12/-#-/ c).share_full fun _ => rfl)
      (rd (W26 m) c) (rd (W27 m) c) ((pdats m /-#K-/12/-#-/ c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg13.lean ====
/- REGION 13 of the kernel program as a segment of @main's run, at any float interpretation. Between two items of @main a
   core's thread state is "every unscoped buffer whole at the boundary's contents, the generator register at some
   state, nothing owed". The region is entered from that state at the contents `W28` and left in it at `W29`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 13 over the thread state: entered from every unscoped buffer at `W28`, left at `W29`. -/
def reg13 : Pipeline.RegionSeg (pcfgs (F := F)) adm (pdats m) () defs₀ 𝒱₀ L lv /-#K-/13/-#-/ where
  win := launch13.win.to₀
  block_pos := launch13.block_pos
  stage_whole := launch13.stage_whole
  K := PEmpty
  osem k := k.elim
  ho := Pipeline.OwnSemFacts.none _
  hbody c := (body_obligation13 (rd (W28 m)) c).loose
  hwaits := Pipeline.hwaits_of_owed_zero _ _ _ _ L lv /-#K-/13/-#-/ fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec13 c (rd (W28 m) c)
  hentry c := by
    rw [Pipeline.ownSems0_none]
    have hsplit := Pipeline.arrays_of_unscopedBufs (p := /-#K-/13/-#-/) (pcfgs (F := F)) adm (pdats m) launch13.win launch13.arr_whole c
      ((pdats m /-#K-/13/-#-/ c).share_full fun _ => rfl) (rd (W28 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/13/-#-/ c).Φ 0 = Pipeline.ΦA spec13 c from rfl]; unfold Pipeline.ΦA
    iintro ⟨Hp, -, Hr⟩
    isplitl [Hr]; · iexact Hr
    iexact Hp
  hout c := by
    rw [Pipeline.ownSems0_none, show (pdats m /-#K-/13/-#-/ c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := /-#K-/13/-#-/) (pcfgs (F := F)) adm (Ix := Unit) (Name := ℕ) (U := UR sig nD τ) (Lvl := ℕ)
      launch13.win launch13.arr_whole c (pdats m) ((pdats m /-#K-/13/-#-/ c).share_full fun _ => rfl)
      (rd (W28 m) c) (rd (W29 m) c) ((pdats m /-#K-/13/-#-/ c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg14.lean ====
/- REGION 14 of the kernel program as a segment of @main's run, at any float interpretation. Between two items of @main a
   core's thread state is "every unscoped buffer whole at the boundary's contents, the generator register at some
   state, nothing owed". The region is entered from that state at the contents `W30` and left in it at `W31`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 14 over the thread state: entered from every unscoped buffer at `W30`, left at `W31`. -/
def reg14 : Pipeline.RegionSeg (pcfgs (F := F)) adm (pdats m) () defs₀ 𝒱₀ L lv /-#K-/14/-#-/ where
  win := launch14.win.to₀
  block_pos := launch14.block_pos
  stage_whole := launch14.stage_whole
  K := PEmpty
  osem k := k.elim
  ho := Pipeline.OwnSemFacts.none _
  hbody c := (body_obligation14 (rd (W30 m)) c).loose
  hwaits := Pipeline.hwaits_of_owed_zero _ _ _ _ L lv /-#K-/14/-#-/ fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec14 c (rd (W30 m) c)
  hentry c := by
    rw [Pipeline.ownSems0_none]
    have hsplit := Pipeline.arrays_of_unscopedBufs (p := /-#K-/14/-#-/) (pcfgs (F := F)) adm (pdats m) launch14.win launch14.arr_whole c
      ((pdats m /-#K-/14/-#-/ c).share_full fun _ => rfl) (rd (W30 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/14/-#-/ c).Φ 0 = Pipeline.ΦA spec14 c from rfl]; unfold Pipeline.ΦA
    iintro ⟨Hp, -, Hr⟩
    isplitl [Hr]; · iexact Hr
    iexact Hp
  hout c := by
    rw [Pipeline.ownSems0_none, show (pdats m /-#K-/14/-#-/ c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := /-#K-/14/-#-/) (pcfgs (F := F)) adm (Ix := Unit) (Name := ℕ) (U := UR sig nD τ) (Lvl := ℕ)
      launch14.win launch14.arr_whole c (pdats m) ((pdats m /-#K-/14/-#-/ c).share_full fun _ => rfl)
      (rd (W30 m) c) (rd (W31 m) c) ((pdats m /-#K-/14/-#-/ c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg15.lean ====
/- REGION 15 of the kernel program as a segment of @main's run, at any float interpretation. Between two items of @main a
   core's thread state is "every unscoped buffer whole at the boundary's contents, the generator register at some
   state, nothing owed". The region is entered from that state at the contents `W32` and left in it at `W33`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 15 over the thread state: entered from every unscoped buffer at `W32`, left at `W33`. -/
def reg15 : Pipeline.RegionSeg (pcfgs (F := F)) adm (pdats m) () defs₀ 𝒱₀ L lv /-#K-/15/-#-/ where
  win := launch15.win.to₀
  block_pos := launch15.block_pos
  stage_whole := launch15.stage_whole
  K := PEmpty
  osem k := k.elim
  ho := Pipeline.OwnSemFacts.none _
  hbody c := (body_obligation15 (rd (W32 m)) c).loose
  hwaits := Pipeline.hwaits_of_owed_zero _ _ _ _ L lv /-#K-/15/-#-/ fun _ _ => rfl
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec15 c (rd (W32 m) c)
  hentry c := by
    rw [Pipeline.ownSems0_none]
    have hsplit := Pipeline.arrays_of_unscopedBufs (p := /-#K-/15/-#-/) (pcfgs (F := F)) adm (pdats m) launch15.win launch15.arr_whole c
      ((pdats m /-#K-/15/-#-/ c).share_full fun _ => rfl) (rd (W32 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/15/-#-/ c).Φ 0 = Pipeline.ΦA spec15 c from rfl]; unfold Pipeline.ΦA
    iintro ⟨Hp, -, Hr⟩
    isplitl [Hr]; · iexact Hr
    iexact Hp
  hout c := by
    rw [Pipeline.ownSems0_none, show (pdats m /-#K-/15/-#-/ c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := /-#K-/15/-#-/) (pcfgs (F := F)) adm (Ix := Unit) (Name := ℕ) (U := UR sig nD τ) (Lvl := ℕ)
      launch15.win launch15.arr_whole c (pdats m) ((pdats m /-#K-/15/-#-/ c).share_full fun _ => rfl)
      (rd (W32 m) c) (rd (W33 m) c) ((pdats m /-#K-/15/-#-/ c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg16.lean ====
/- REGION 16 of the kernel program as a segment of @main's run, at any float interpretation. Between two items of @main a
   core's thread state is "every unscoped buffer whole at the boundary's contents, the generator register at some
   state, nothing owed". The region is entered from that state at the contents `W34` and left in it at `W35`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 16 over the thread state: entered from every unscoped buffer at `W34`, left at `W35`. -/
def reg16 : Pipeline.RegionSeg (pcfgs (F := F)) adm (pdats m) () defs₀ 𝒱₀ L lv /-#K-/16/-#-/ where
  win := launch16.win.to₀
  block_pos := launch16.block_pos
  stage_whole := launch16.stage_whole
  K := PEmpty
  osem k := k.elim
  ho := Pipeline.OwnSemFacts.none _
  hbody c := (body_obligation16 (rd (W34 m)) c).loose
  hwaits := Pipeline.hwaits_of_owed_zero _ _ _ _ L lv /-#K-/16/-#-/ fun _ _ => rfl
  pre c := iprop(StableHlo.held (c : Thread nD τ) (Pipeline.ucRefs τ sig) (W34 m c) ∗ R c)
  post c := iprop(StableHlo.held (c : Thread nD τ) (Pipeline.ucRefs τ sig) (W35 m c) ∗ R c)
  X c := iprop(∃ r, prngReg c r)
  Y c := iprop(∃ r, prngReg c r)
  Z c := Pipeline.unscopedRest (Ix := Unit) (Name := ℕ) (U := UR sig nD τ) (Lvl := ℕ) spec16 c (rd (W34 m) c)
  hentry c := by
    rw [Pipeline.ownSems0_none]
    have hsplit := Pipeline.arrays_of_unscopedBufs (p := /-#K-/16/-#-/) (pcfgs (F := F)) adm (pdats m) launch16.win launch16.arr_whole c
      ((pdats m /-#K-/16/-#-/ c).share_full fun _ => rfl) (rd (W34 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/16/-#-/ c).Φ 0 = Pipeline.ΦA spec16 c from rfl]; unfold Pipeline.ΦA
    iintro ⟨Hp, -, Hr⟩
    isplitl [Hr]; · iexact Hr
    iexact Hp
  hout c := by
    rw [Pipeline.ownSems0_none, show (pdats m /-#K-/16/-#-/ c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := /-#K-/16/-#-/) (pcfgs (F := F)) adm (Ix := Unit) (Name := ℕ) (U := UR sig nD τ) (Lvl := ℕ)
      launch16.win launch16.arr_whole c (pdats m) ((pdats m /-#K-/16/-#-/ c).share_full fun _ => rfl)
      (rd (W34 m) c) (rd (W35 m) c) ((pdats m /-#K-/16/-#-/ c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg17.lean ====
/- REGION 17 of the kernel program as a segment of @main's run, at any float interpretation. Between two items of @main a
   core's thread state is "every unscoped buffer whole at the boundary's contents, the generator register at some
   state, nothing owed". The region is entered from that state at the contents `W36` and left in it at `W37`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 17 over the thread state: entered from every unscoped buffer at `W36`, left at `W37`. -/
def reg17 : Pipeline.RegionSeg (pcfgs (F := F)) adm (pdats m) () defs₀ 𝒱₀ L lv /-#K-/17/-#-/ where
  win := launch17.win.to₀
  block_pos := launch17.block_pos
  stage_whole := launch17.stage_whole
  K := PEmpty
  osem k := k.elim
  ho := Pipeline.OwnSemFacts.none _
  hbody c := (body_obligation17 (rd (W36 m)) c).loose
  hwaits := Pipeline.hwaits_of_owed_zero _ _ _ _ L lv /-#K-/17/-#-/ fun _ _ => rfl
  pre c := iprop(StableHlo.held (c : Thread nD τ) (Pipeline.ucRefs τ sig) (W36 m c) ∗ R c)
  post c := iprop(StableHlo.held (c : Thread nD τ) (Pipeline.ucRefs τ sig) (W37 m c) ∗ R c)
  X c := iprop(∃ r, prngReg c r)
  Y c := iprop(∃ r, prngReg c r)
  Z c := Pipeline.unscopedRest (Ix := Unit) (Name := ℕ) (U := UR sig nD τ) (Lvl := ℕ) spec17 c (rd (W36 m) c)
  hentry c := by
    rw [Pipeline.ownSems0_none]
    have hsplit := Pipeline.arrays_of_unscopedBufs (p := /-#K-/17/-#-/) (pcfgs (F := F)) adm (pdats m) launch17.win launch17.arr_whole c
      ((pdats m /-#K-/17/-#-/ c).share_full fun _ => rfl) (rd (W36 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/17/-#-/ c).Φ 0 = Pipeline.ΦA spec17 c from rfl]; unfold Pipeline.ΦA
    iintro ⟨Hp, -, Hr⟩
    isplitl [Hr]; · iexact Hr
    iexact Hp
  hout c := by
    rw [Pipeline.ownSems0_none, show (pdats m /-#K-/17/-#-/ c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := /-#K-/17/-#-/) (pcfgs (F := F)) adm (Ix := Unit) (Name := ℕ) (U := UR sig nD τ) (Lvl := ℕ)
      launch17.win launch17.arr_whole c (pdats m) ((pdats m /-#K-/17/-#-/ c).share_full fun _ => rfl)
      (rd (W36 m) c) (rd (W37 m) c) ((pdats m /-#K-/17/-#-/ c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg18.lean ====
/- REGION 18 of the kernel program as a segment of @main's run, at any float interpretation. Between two items of @main a
   core's thread state is "every unscoped buffer whole at the boundary's contents, the generator register at some
   state, nothing owed". The region is entered from that state at the contents `W38` and left in it at `W39`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 18 over the thread state: entered from every unscoped buffer at `W38`, left at `W39`. -/
def reg18 : Pipeline.RegionSeg (pcfgs (F := F)) adm (pdats m) () defs₀ 𝒱₀ L lv /-#K-/18/-#-/ where
  win := launch18.win.to₀
  block_pos := launch18.block_pos
  stage_whole := launch18.stage_whole
  K := PEmpty
  osem k := k.elim
  ho := Pipeline.OwnSemFacts.none _
  hbody c := (body_obligation18 (rd (W38 m)) c).loose
  hwaits := Pipeline.hwaits_of_owed_zero _ _ _ _ L lv /-#K-/18/-#-/ fun _ _ => rfl
  pre c := iprop(StableHlo.held (c : Thread nD τ) (Pipeline.ucRefs τ sig) (W38 m c) ∗ R c)
  post c := iprop(StableHlo.held (c : Thread nD τ) (Pipeline.ucRefs τ sig) (W39 m c) ∗ R c)
  X c := iprop(∃ r, prngReg c r)
  Y c := iprop(∃ r, prngReg c r)
  Z c := Pipeline.unscopedRest (Ix := Unit) (Name := ℕ) (U := UR sig nD τ) (Lvl := ℕ) spec18 c (rd (W38 m) c)
  hentry c := by
    rw [Pipeline.ownSems0_none]
    have hsplit := Pipeline.arrays_of_unscopedBufs (p := /-#K-/18/-#-/) (pcfgs (F := F)) adm (pdats m) launch18.win launch18.arr_whole c
      ((pdats m /-#K-/18/-#-/ c).share_full fun _ => rfl) (rd (W38 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/18/-#-/ c).Φ 0 = Pipeline.ΦA spec18 c from rfl]; unfold Pipeline.ΦA
    iintro ⟨Hp, -, Hr⟩
    isplitl [Hr]; · iexact Hr
    iexact Hp
  hout c := by
    rw [Pipeline.ownSems0_none, show (pdats m /-#K-/18/-#-/ c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := /-#K-/18/-#-/) (pcfgs (F := F)) adm (Ix := Unit) (Name := ℕ) (U := UR sig nD τ) (Lvl := ℕ)
      launch18.win launch18.arr_whole c (pdats m) ((pdats m /-#K-/18/-#-/ c).share_full fun _ => rfl)
      (rd (W38 m) c) (rd (W39 m) c) ((pdats m /-#K-/18/-#-/ c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg19.lean ====
/- REGION 19 of the kernel program as a segment of @main's run, at any float interpretation. Between two items of @main a
   core's thread state is "every unscoped buffer whole at the boundary's contents, the generator register at some
   state, nothing owed". The region is entered from that state at the contents `W40` and left in it at `W41`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 19 over the thread state: entered from every unscoped buffer at `W40`, left at `W41`. -/
def reg19 : Pipeline.RegionSeg (pcfgs (F := F)) adm (pdats m) () defs₀ 𝒱₀ L lv /-#K-/19/-#-/ where
  win := launch19.win.to₀
  block_pos := launch19.block_pos
  stage_whole := launch19.stage_whole
  K := PEmpty
  osem k := k.elim
  ho := Pipeline.OwnSemFacts.none _
  hbody c := (body_obligation19 (rd (W40 m)) c).loose
  hwaits := Pipeline.hwaits_of_owed_zero _ _ _ _ L lv /-#K-/19/-#-/ fun _ _ => rfl
  pre c := iprop(StableHlo.held (c : Thread nD τ) (Pipeline.ucRefs τ sig) (W40 m c) ∗ R c)
  post c := iprop(StableHlo.held (c : Thread nD τ) (Pipeline.ucRefs τ sig) (W41 m c) ∗ R c)
  X c := iprop(∃ r, prngReg c r)
  Y c := iprop(∃ r, prngReg c r)
  Z c := Pipeline.unscopedRest (Ix := Unit) (Name := ℕ) (U := UR sig nD τ) (Lvl := ℕ) spec19 c (rd (W40 m) c)
  hentry c := by
    rw [Pipeline.ownSems0_none]
    have hsplit := Pipeline.arrays_of_unscopedBufs (p := /-#K-/19/-#-/) (pcfgs (F := F)) adm (pdats m) launch19.win launch19.arr_whole c
      ((pdats m /-#K-/19/-#-/ c).share_full fun _ => rfl) (rd (W40 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/19/-#-/ c).Φ 0 = Pipeline.ΦA spec19 c from rfl]; unfold Pipeline.ΦA
    iintro ⟨Hp, -, Hr⟩
    isplitl [Hr]; · iexact Hr
    iexact Hp
  hout c := by
    rw [Pipeline.ownSems0_none, show (pdats m /-#K-/19/-#-/ c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := /-#K-/19/-#-/) (pcfgs (F := F)) adm (Ix := Unit) (Name := ℕ) (U := UR sig nD τ) (Lvl := ℕ)
      launch19.win launch19.arr_whole c (pdats m) ((pdats m /-#K-/19/-#-/ c).share_full fun _ => rfl)
      (rd (W40 m) c) (rd (W41 m) c) ((pdats m /-#K-/19/-#-/ c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg20.lean ====
/- REGION 20 of the kernel program as a segment of @main's run, at any float interpretation. Between two items of @main a
   core's thread state is "every unscoped buffer whole at the boundary's contents, the generator register at some
   state, nothing owed". The region is entered from that state at the contents `W42` and left in it at `W43`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 20 over the thread state: entered from every unscoped buffer at `W42`, left at `W43`. -/
def reg20 : Pipeline.RegionSeg (pcfgs (F := F)) adm (pdats m) () defs₀ 𝒱₀ L lv /-#K-/20/-#-/ where
  win := launch20.win.to₀
  block_pos := launch20.block_pos
  stage_whole := launch20.stage_whole
  K := PEmpty
  osem k := k.elim
  ho := Pipeline.OwnSemFacts.none _
  hbody c := (body_obligation20 (rd (W42 m)) c).loose
  hwaits := Pipeline.hwaits_of_owed_zero _ _ _ _ L lv /-#K-/20/-#-/ fun _ _ => rfl
  pre c := iprop(StableHlo.held (c : Thread nD τ) (Pipeline.ucRefs τ sig) (W42 m c) ∗ R c)
  post c := iprop(StableHlo.held (c : Thread nD τ) (Pipeline.ucRefs τ sig) (W43 m c) ∗ R c)
  X c := iprop(∃ r, prngReg c r)
  Y c := iprop(∃ r, prngReg c r)
  Z c := Pipeline.unscopedRest (Ix := Unit) (Name := ℕ) (U := UR sig nD τ) (Lvl := ℕ) spec20 c (rd (W42 m) c)
  hentry c := by
    rw [Pipeline.ownSems0_none]
    have hsplit := Pipeline.arrays_of_unscopedBufs (p := /-#K-/20/-#-/) (pcfgs (F := F)) adm (pdats m) launch20.win launch20.arr_whole c
      ((pdats m /-#K-/20/-#-/ c).share_full fun _ => rfl) (rd (W42 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/20/-#-/ c).Φ 0 = Pipeline.ΦA spec20 c from rfl]; unfold Pipeline.ΦA
    iintro ⟨Hp, -, Hr⟩
    isplitl [Hr]; · iexact Hr
    iexact Hp
  hout c := by
    rw [Pipeline.ownSems0_none, show (pdats m /-#K-/20/-#-/ c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := /-#K-/20/-#-/) (pcfgs (F := F)) adm (Ix := Unit) (Name := ℕ) (U := UR sig nD τ) (Lvl := ℕ)
      launch20.win launch20.arr_whole c (pdats m) ((pdats m /-#K-/20/-#-/ c).share_full fun _ => rfl)
      (rd (W42 m) c) (rd (W43 m) c) ((pdats m /-#K-/20/-#-/ c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg21.lean ====
/- REGION 21 of the kernel program as a segment of @main's run, at any float interpretation. Between two items of @main a
   core's thread state is "every unscoped buffer whole at the boundary's contents, the generator register at some
   state, nothing owed". The region is entered from that state at the contents `W44` and left in it at `W45`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 21 over the thread state: entered from every unscoped buffer at `W44`, left at `W45`. -/
def reg21 : Pipeline.RegionSeg (pcfgs (F := F)) adm (pdats m) () defs₀ 𝒱₀ L lv /-#K-/21/-#-/ where
  win := launch21.win.to₀
  block_pos := launch21.block_pos
  stage_whole := launch21.stage_whole
  K := PEmpty
  osem k := k.elim
  ho := Pipeline.OwnSemFacts.none _
  hbody c := (body_obligation21 (rd (W44 m)) c).loose
  hwaits := Pipeline.hwaits_of_owed_zero _ _ _ _ L lv /-#K-/21/-#-/ fun _ _ => rfl
  pre c := iprop(StableHlo.held (c : Thread nD τ) (Pipeline.ucRefs τ sig) (W44 m c) ∗ R c)
  post c := iprop(StableHlo.held (c : Thread nD τ) (Pipeline.ucRefs τ sig) (W45 m c) ∗ R c)
  X c := iprop(∃ r, prngReg c r)
  Y c := iprop(∃ r, prngReg c r)
  Z c := Pipeline.unscopedRest (Ix := Unit) (Name := ℕ) (U := UR sig nD τ) (Lvl := ℕ) spec21 c (rd (W44 m) c)
  hentry c := by
    rw [Pipeline.ownSems0_none]
    have hsplit := Pipeline.arrays_of_unscopedBufs (p := /-#K-/21/-#-/) (pcfgs (F := F)) adm (pdats m) launch21.win launch21.arr_whole c
      ((pdats m /-#K-/21/-#-/ c).share_full fun _ => rfl) (rd (W44 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/21/-#-/ c).Φ 0 = Pipeline.ΦA spec21 c from rfl]; unfold Pipeline.ΦA
    iintro ⟨Hp, -, Hr⟩
    isplitl [Hr]; · iexact Hr
    iexact Hp
  hout c := by
    rw [Pipeline.ownSems0_none, show (pdats m /-#K-/21/-#-/ c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := /-#K-/21/-#-/) (pcfgs (F := F)) adm (Ix := Unit) (Name := ℕ) (U := UR sig nD τ) (Lvl := ℕ)
      launch21.win launch21.arr_whole c (pdats m) ((pdats m /-#K-/21/-#-/ c).share_full fun _ => rfl)
      (rd (W44 m) c) (rd (W45 m) c) ((pdats m /-#K-/21/-#-/ c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg22.lean ====
/- REGION 22 of the kernel program as a segment of @main's run, at any float interpretation. Between two items of @main a
   core's thread state is "every unscoped buffer whole at the boundary's contents, the generator register at some
   state, nothing owed". The region is entered from that state at the contents `W46` and left in it at `W47`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 22 over the thread state: entered from every unscoped buffer at `W46`, left at `W47`. -/
def reg22 : Pipeline.RegionSeg (pcfgs (F := F)) adm (pdats m) () defs₀ 𝒱₀ L lv /-#K-/22/-#-/ where
  win := launch22.win.to₀
  block_pos := launch22.block_pos
  stage_whole := launch22.stage_whole
  K := PEmpty
  osem k := k.elim
  ho := Pipeline.OwnSemFacts.none _
  hbody c := (body_obligation22 (rd (W46 m)) c).loose
  hwaits := Pipeline.hwaits_of_owed_zero _ _ _ _ L lv /-#K-/22/-#-/ fun _ _ => rfl
  pre c := iprop(StableHlo.held (c : Thread nD τ) (Pipeline.ucRefs τ sig) (W46 m c) ∗ R c)
  post c := iprop(StableHlo.held (c : Thread nD τ) (Pipeline.ucRefs τ sig) (W47 m c) ∗ R c)
  X c := iprop(∃ r, prngReg c r)
  Y c := iprop(∃ r, prngReg c r)
  Z c := Pipeline.unscopedRest (Ix := Unit) (Name := ℕ) (U := UR sig nD τ) (Lvl := ℕ) spec22 c (rd (W46 m) c)
  hentry c := by
    rw [Pipeline.ownSems0_none]
    have hsplit := Pipeline.arrays_of_unscopedBufs (p := /-#K-/22/-#-/) (pcfgs (F := F)) adm (pdats m) launch22.win launch22.arr_whole c
      ((pdats m /-#K-/22/-#-/ c).share_full fun _ => rfl) (rd (W46 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/22/-#-/ c).Φ 0 = Pipeline.ΦA spec22 c from rfl]; unfold Pipeline.ΦA
    iintro ⟨Hp, -, Hr⟩
    isplitl [Hr]; · iexact Hr
    iexact Hp
  hout c := by
    rw [Pipeline.ownSems0_none, show (pdats m /-#K-/22/-#-/ c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := /-#K-/22/-#-/) (pcfgs (F := F)) adm (Ix := Unit) (Name := ℕ) (U := UR sig nD τ) (Lvl := ℕ)
      launch22.win launch22.arr_whole c (pdats m) ((pdats m /-#K-/22/-#-/ c).share_full fun _ => rfl)
      (rd (W46 m) c) (rd (W47 m) c) ((pdats m /-#K-/22/-#-/ c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg23.lean ====
/- REGION 23 of the kernel program as a segment of @main's run, at any float interpretation. Between two items of @main a
   core's thread state is "every unscoped buffer whole at the boundary's contents, the generator register at some
   state, nothing owed". The region is entered from that state at the contents `W48` and left in it at `W49`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 23 over the thread state: entered from every unscoped buffer at `W48`, left at `W49`. -/
def reg23 : Pipeline.RegionSeg (pcfgs (F := F)) adm (pdats m) () defs₀ 𝒱₀ L lv /-#K-/23/-#-/ where
  win := launch23.win.to₀
  block_pos := launch23.block_pos
  stage_whole := launch23.stage_whole
  K := PEmpty
  osem k := k.elim
  ho := Pipeline.OwnSemFacts.none _
  hbody c := (body_obligation23 (rd (W48 m)) c).loose
  hwaits := Pipeline.hwaits_of_owed_zero _ _ _ _ L lv /-#K-/23/-#-/ fun _ _ => rfl
  pre c := iprop(StableHlo.held (c : Thread nD τ) (Pipeline.ucRefs τ sig) (W48 m c) ∗ R c)
  post c := iprop(StableHlo.held (c : Thread nD τ) (Pipeline.ucRefs τ sig) (W49 m c) ∗ R c)
  X c := iprop(∃ r, prngReg c r)
  Y c := iprop(∃ r, prngReg c r)
  Z c := Pipeline.unscopedRest (Ix := Unit) (Name := ℕ) (U := UR sig nD τ) (Lvl := ℕ) spec23 c (rd (W48 m) c)
  hentry c := by
    rw [Pipeline.ownSems0_none]
    have hsplit := Pipeline.arrays_of_unscopedBufs (p := /-#K-/23/-#-/) (pcfgs (F := F)) adm (pdats m) launch23.win launch23.arr_whole c
      ((pdats m /-#K-/23/-#-/ c).share_full fun _ => rfl) (rd (W48 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/23/-#-/ c).Φ 0 = Pipeline.ΦA spec23 c from rfl]; unfold Pipeline.ΦA
    iintro ⟨Hp, -, Hr⟩
    isplitl [Hr]; · iexact Hr
    iexact Hp
  hout c := by
    rw [Pipeline.ownSems0_none, show (pdats m /-#K-/23/-#-/ c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := /-#K-/23/-#-/) (pcfgs (F := F)) adm (Ix := Unit) (Name := ℕ) (U := UR sig nD τ) (Lvl := ℕ)
      launch23.win launch23.arr_whole c (pdats m) ((pdats m /-#K-/23/-#-/ c).share_full fun _ => rfl)
      (rd (W48 m) c) (rd (W49 m) c) ((pdats m /-#K-/23/-#-/ c).arrAt · cfg23.N) (hF23 m c) (hrest23 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg24.lean ====
/- REGION 24 of the kernel program as a segment of @main's run, at any float interpretation. Between two items of @main a
   core's thread state is "every unscoped buffer whole at the boundary's contents, the generator register at some
   state, nothing owed". The region is entered from that state at the contents `W50` and left in it at `W51`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 24 over the thread state: entered from every unscoped buffer at `W50`, left at `W51`. -/
def reg24 : Pipeline.RegionSeg (pcfgs (F := F)) adm (pdats m) () defs₀ 𝒱₀ L lv /-#K-/24/-#-/ where
  win := launch24.win.to₀
  block_pos := launch24.block_pos
  stage_whole := launch24.stage_whole
  K := PEmpty
  osem k := k.elim
  ho := Pipeline.OwnSemFacts.none _
  hbody c := (body_obligation24 (rd (W50 m)) c).loose
  hwaits := Pipeline.hwaits_of_owed_zero _ _ _ _ L lv /-#K-/24/-#-/ fun _ _ => rfl
  pre c := iprop(StableHlo.held (c : Thread nD τ) (Pipeline.ucRefs τ sig) (W50 m c) ∗ R c)
  post c := iprop(StableHlo.held (c : Thread nD τ) (Pipeline.ucRefs τ sig) (W51 m c) ∗ R c)
  X c := iprop(∃ r, prngReg c r)
  Y c := iprop(∃ r, prngReg c r)
  Z c := Pipeline.unscopedRest (Ix := Unit) (Name := ℕ) (U := UR sig nD τ) (Lvl := ℕ) spec24 c (rd (W50 m) c)
  hentry c := by
    rw [Pipeline.ownSems0_none]
    have hsplit := Pipeline.arrays_of_unscopedBufs (p := /-#K-/24/-#-/) (pcfgs (F := F)) adm (pdats m) launch24.win launch24.arr_whole c
      ((pdats m /-#K-/24/-#-/ c).share_full fun _ => rfl) (rd (W50 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/24/-#-/ c).Φ 0 = Pipeline.ΦA spec24 c from rfl]; unfold Pipeline.ΦA
    iintro ⟨Hp, -, Hr⟩
    isplitl [Hr]; · iexact Hr
    iexact Hp
  hout c := by
    rw [Pipeline.ownSems0_none, show (pdats m /-#K-/24/-#-/ c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := /-#K-/24/-#-/) (pcfgs (F := F)) adm (Ix := Unit) (Name := ℕ) (U := UR sig nD τ) (Lvl := ℕ)
      launch24.win launch24.arr_whole c (pdats m) ((pdats m /-#K-/24/-#-/ c).share_full fun _ => rfl)
      (rd (W50 m) c) (rd (W51 m) c) ((pdats m /-#K-/24/-#-/ c).arrAt · cfg24.N) (hF24 m c) (hrest24 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg25.lean ====
/- REGION 25 of the kernel program as a segment of @main's run, at any float interpretation. Between two items of @main a
   core's thread state is "every unscoped buffer whole at the boundary's contents, the generator register at some
   state, nothing owed". The region is entered from that state at the contents `W52` and left in it at `W53`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 25 over the thread state: entered from every unscoped buffer at `W52`, left at `W53`. -/
def reg25 : Pipeline.RegionSeg (pcfgs (F := F)) adm (pdats m) () defs₀ 𝒱₀ L lv /-#K-/25/-#-/ where
  win := launch25.win.to₀
  block_pos := launch25.block_pos
  stage_whole := launch25.stage_whole
  K := PEmpty
  osem k := k.elim
  ho := Pipeline.OwnSemFacts.none _
  hbody c := (body_obligation25 (rd (W52 m)) c).loose
  hwaits := Pipeline.hwaits_of_owed_zero _ _ _ _ L lv /-#K-/25/-#-/ fun _ _ => rfl
  pre c := iprop(StableHlo.held (c : Thread nD τ) (Pipeline.ucRefs τ sig) (W52 m c) ∗ R c)
  post c := iprop(StableHlo.held (c : Thread nD τ) (Pipeline.ucRefs τ sig) (W53 m c) ∗ R c)
  X c := iprop(∃ r, prngReg c r)
  Y c := iprop(∃ r, prngReg c r)
  Z c := Pipeline.unscopedRest (Ix := Unit) (Name := ℕ) (U := UR sig nD τ) (Lvl := ℕ) spec25 c (rd (W52 m) c)
  hentry c := by
    rw [Pipeline.ownSems0_none]
    have hsplit := Pipeline.arrays_of_unscopedBufs (p := /-#K-/25/-#-/) (pcfgs (F := F)) adm (pdats m) launch25.win launch25.arr_whole c
      ((pdats m /-#K-/25/-#-/ c).share_full fun _ => rfl) (rd (W52 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/25/-#-/ c).Φ 0 = Pipeline.ΦA spec25 c from rfl]; unfold Pipeline.ΦA
    iintro ⟨Hp, -, Hr⟩
    isplitl [Hr]; · iexact Hr
    iexact Hp
  hout c := by
    rw [Pipeline.ownSems0_none, show (pdats m /-#K-/25/-#-/ c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := /-#K-/25/-#-/) (pcfgs (F := F)) adm (Ix := Unit) (Name := ℕ) (U := UR sig nD τ) (Lvl := ℕ)
      launch25.win launch25.arr_whole c (pdats m) ((pdats m /-#K-/25/-#-/ c).share_full fun _ => rfl)
      (rd (W52 m) c) (rd (W53 m) c) ((pdats m /-#K-/25/-#-/ c).arrAt · cfg25.N) (hF25 m c) (hrest25 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg26.lean ====
/- REGION 26 of the kernel program as a segment of @main's run, at any float interpretation. Between two items of @main a
   core's thread state is "every unscoped buffer whole at the boundary's contents, the generator register at some
   state, nothing owed". The region is entered from that state at the contents `W54` and left in it at `W55`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 26 over the thread state: entered from every unscoped buffer at `W54`, left at `W55`. -/
def reg26 : Pipeline.RegionSeg (pcfgs (F := F)) adm (pdats m) () defs₀ 𝒱₀ L lv /-#K-/26/-#-/ where
  win := launch26.win.to₀
  block_pos := launch26.block_pos
  stage_whole := launch26.stage_whole
  K := PEmpty
  osem k := k.elim
  ho := Pipeline.OwnSemFacts.none _
  hbody c := (body_obligation26 (rd (W54 m)) c).loose
  hwaits := Pipeline.hwaits_of_owed_zero _ _ _ _ L lv /-#K-/26/-#-/ fun _ _ => rfl
  pre c := iprop(StableHlo.held (c : Thread nD τ) (Pipeline.ucRefs τ sig) (W54 m c) ∗ R c)
  post c := iprop(StableHlo.held (c : Thread nD τ) (Pipeline.ucRefs τ sig) (W55 m c) ∗ R c)
  X c := iprop(∃ r, prngReg c r)
  Y c := iprop(∃ r, prngReg c r)
  Z c := Pipeline.unscopedRest (Ix := Unit) (Name := ℕ) (U := UR sig nD τ) (Lvl := ℕ) spec26 c (rd (W54 m) c)
  hentry c := by
    rw [Pipeline.ownSems0_none]
    have hsplit := Pipeline.arrays_of_unscopedBufs (p := /-#K-/26/-#-/) (pcfgs (F := F)) adm (pdats m) launch26.win launch26.arr_whole c
      ((pdats m /-#K-/26/-#-/ c).share_full fun _ => rfl) (rd (W54 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/26/-#-/ c).Φ 0 = Pipeline.ΦA spec26 c from rfl]; unfold Pipeline.ΦA
    iintro ⟨Hp, -, Hr⟩
    isplitl [Hr]; · iexact Hr
    iexact Hp
  hout c := by
    rw [Pipeline.ownSems0_none, show (pdats m /-#K-/26/-#-/ c).Φ (Fin.last _) = Pipeline.ΦA spec26 c from rfl]; unfold Pipeline.ΦA
    iintro ⟨Hr, Hp⟩
    isplitl [Hp]; · iexact Hp
    isplitr; · iempintro
    iexact Hr
  hexit c := by
    have hjoin := Pipeline.unscopedBufs_of_arrays (p := /-#K-/26/-#-/) (pcfgs (F := F)) adm (Ix := Unit) (Name := ℕ) (U := UR sig nD τ) (Lvl := ℕ)
      launch26.win launch26.arr_whole c (pdats m) ((pdats m /-#K-/26/-#-/ c).share_full fun _ => rfl)
      (rd (W54 m) c) (rd (W55 m) c) ((pdats m /-#K-/26/-#-/ c).arrAt · cfg26.N) (hF26 m c) (hrest26 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg27.lean ====
/- REGION 27 of the kernel program as a segment of @main's run, at any float interpretation. Between two items of @main a
   core's thread state is "every unscoped buffer whole at the boundary's contents, the generator register at some
   state, nothing owed". The region is entered from that state at the contents `W56` and left in it at `W57`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 27 over the thread state: entered from every unscoped buffer at `W56`, left at `W57`. -/
def reg27 : Pipeline.RegionSeg (pcfgs (F := F)) adm (pdats m) () defs₀ 𝒱₀ L lv /-#K-/27/-#-/ where
  win := launch27.win.to₀
  block_pos := launch27.block_pos
  stage_whole := launch27.stage_whole
  K := PEmpty
  osem k := k.elim
  ho := Pipeline.OwnSemFacts.none _
  hbody c := (body_obligation27 (rd (W56 m)) c).loose
  hwaits := Pipeline.hwaits_of_owed_zero _ _ _ _ L lv /-#K-/27/-#-/ fun _ _ => rfl
  pre c := iprop(StableHlo.held (c : Thread nD τ) (Pipeline.ucRefs τ sig) (W56 m c) ∗ R c)
  post c := iprop(StableHlo.held (c : Thread nD τ) (Pipeline.ucRefs τ sig) (W57 m c) ∗ R c)
  X c := iprop(∃ r, prngReg c r)
  Y c := iprop(∃ r, prngReg c r)
  Z c := Pipeline.unscopedRest (Ix := Unit) (Name := ℕ) (U := UR sig nD τ) (Lvl := ℕ) spec27 c (rd (W56 m) c)
  hentry c := by
    rw [Pipeline.ownSems0_none]
    have hsplit := Pipeline.arrays_of_unscopedBufs (p := /-#K-/27/-#-/) (pcfgs (F := F)) adm (pdats m) launch27.win launch27.arr_whole c
      ((pdats m /-#K-/27/-#-/ c).share_full fun _ => rfl) (rd (W56 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/27/-#-/ c).Φ 0 = Pipeline.ΦA spec27 c from rfl]; unfold Pipeline.ΦA
    iintro ⟨Hp, -, Hr⟩
    isplitl [Hr]; · iexact Hr
    iexact Hp
  hout c := by
    rw [Pipeline.ownSems0_none, show (pdats m /-#K-/27/-#-/ c).Φ (Fin.last _) = Pipeline.ΦA spec27 c from rfl]; unfold Pipeline.ΦA
    iintro ⟨Hr, Hp⟩
    isplitl [Hp]; · iexact Hp
    isplitr; · iempintro
    iexact Hr
  hexit c := by
    have hjoin := Pipeline.unscopedBufs_of_arrays (p := /-#K-/27/-#-/) (pcfgs (F := F)) adm (Ix := Unit) (Name := ℕ) (U := UR sig nD τ) (Lvl := ℕ)
      launch27.win launch27.arr_whole c (pdats m) ((pdats m /-#K-/27/-#-/ c).share_full fun _ => rfl)
      (rd (W56 m) c) (rd (W57 m) c) ((pdats m /-#K-/27/-#-/ c).arrAt · cfg27.N) (hF27 m c) (hrest27 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg28.lean ====
/- REGION 28 of the kernel program as a segment of @main's run, at any float interpretation. Between two items of @main a
   core's thread state is "every unscoped buffer whole at the boundary's contents, the generator register at some
   state, nothing owed". The region is entered from that state at the contents `W58` and left in it at `W59`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 28 over the thread state: entered from every unscoped buffer at `W58`, left at `W59`. -/
def reg28 : Pipeline.RegionSeg (pcfgs (F := F)) adm (pdats m) () defs₀ 𝒱₀ L lv /-#K-/28/-#-/ where
  win := launch28.win.to₀
  block_pos := launch28.block_pos
  stage_whole := launch28.stage_whole
  K := PEmpty
  osem k := k.elim
  ho := Pipeline.OwnSemFacts.none _
  hbody c := (body_obligation28 (rd (W58 m)) c).loose
  hwaits := Pipeline.hwaits_of_owed_zero _ _ _ _ L lv /-#K-/28/-#-/ fun _ _ => rfl
  pre c := iprop(StableHlo.held (c : Thread nD τ) (Pipeline.ucRefs τ sig) (W58 m c) ∗ R c)
  post c := iprop(StableHlo.held (c : Thread nD τ) (Pipeline.ucRefs τ sig) (W59 m c) ∗ R c)
  X c := iprop(∃ r, prngReg c r)
  Y c := iprop(∃ r, prngReg c r)
  Z c := Pipeline.unscopedRest (Ix := Unit) (Name := ℕ) (U := UR sig nD τ) (Lvl := ℕ) spec28 c (rd (W58 m) c)
  hentry c := by
    rw [Pipeline.ownSems0_none]
    have hsplit := Pipeline.arrays_of_unscopedBufs (p := /-#K-/28/-#-/) (pcfgs (F := F)) adm (pdats m) launch28.win launch28.arr_whole c
      ((pdats m /-#K-/28/-#-/ c).share_full fun _ => rfl) (rd (W58 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/28/-#-/ c).Φ 0 = Pipeline.ΦA spec28 c from rfl]; unfold Pipeline.ΦA
    iintro ⟨Hp, -, Hr⟩
    isplitl [Hr]; · iexact Hr
    iexact Hp
  hout c := by
    rw [Pipeline.ownSems0_none, show (pdats m /-#K-/28/-#-/ c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := /-#K-/28/-#-/) (pcfgs (F := F)) adm (Ix := Unit) (Name := ℕ) (U := UR sig nD τ) (Lvl := ℕ)
      launch28.win launch28.arr_whole c (pdats m) ((pdats m /-#K-/28/-#-/ c).share_full fun _ => rfl)
      (rd (W58 m) c) (rd (W59 m) c) ((pdats m /-#K-/28/-#-/ c).arrAt · cfg28.N) (hF28 m c) (hrest28 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg29.lean ====
/- REGION 29 of the kernel program as a segment of @main's run, at any float interpretation. Between two items of @main a
   core's thread state is "every unscoped buffer whole at the boundary's contents, the generator register at some
   state, nothing owed". The region is entered from that state at the contents `W60` and left in it at `W61`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 29 over the thread state: entered from every unscoped buffer at `W60`, left at `W61`. -/
def reg29 : Pipeline.RegionSeg (pcfgs (F := F)) adm (pdats m) () defs₀ 𝒱₀ L lv /-#K-/29/-#-/ where
  win := launch29.win.to₀
  block_pos := launch29.block_pos
  stage_whole := launch29.stage_whole
  K := PEmpty
  osem k := k.elim
  ho := Pipeline.OwnSemFacts.none _
  hbody c := (body_obligation29 (rd (W60 m)) c).loose
  hwaits := Pipeline.hwaits_of_owed_zero _ _ _ _ L lv /-#K-/29/-#-/ fun _ _ => rfl
  pre c := iprop(StableHlo.held (c : Thread nD τ) (Pipeline.ucRefs τ sig) (W60 m c) ∗ R c)
  post c := iprop(StableHlo.held (c : Thread nD τ) (Pipeline.ucRefs τ sig) (W61 m c) ∗ R c)
  X c := iprop(∃ r, prngReg c r)
  Y c := iprop(∃ r, prngReg c r)
  Z c := Pipeline.unscopedRest (Ix := Unit) (Name := ℕ) (U := UR sig nD τ) (Lvl := ℕ) spec29 c (rd (W60 m) c)
  hentry c := by
    rw [Pipeline.ownSems0_none]
    have hsplit := Pipeline.arrays_of_unscopedBufs (p := /-#K-/29/-#-/) (pcfgs (F := F)) adm (pdats m) launch29.win launch29.arr_whole c
      ((pdats m /-#K-/29/-#-/ c).share_full fun _ => rfl) (rd (W60 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/29/-#-/ c).Φ 0 = Pipeline.ΦA spec29 c from rfl]; unfold Pipeline.ΦA
    iintro ⟨Hp, -, Hr⟩
    isplitl [Hr]; · iexact Hr
    iexact Hp
  hout c := by
    rw [Pipeline.ownSems0_none, show (pdats m /-#K-/29/-#-/ c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := /-#K-/29/-#-/) (pcfgs (F := F)) adm (Ix := Unit) (Name := ℕ) (U := UR sig nD τ) (Lvl := ℕ)
      launch29.win launch29.arr_whole c (pdats m) ((pdats m /-#K-/29/-#-/ c).share_full fun _ => rfl)
      (rd (W60 m) c) (rd (W61 m) c) ((pdats m /-#K-/29/-#-/ c).arrAt · cfg29.N) (hF29 m c) (hrest29 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Seg30.lean ====
/- REGION 30 of the kernel program as a segment of @main's run, at any float interpretation. Between two items of @main a
   core's thread state is "every unscoped buffer whole at the boundary's contents, the generator register at some
   state, nothing owed". The region is entered from that state at the contents `W62` and left in it at `W63`, which has
   the region's arrays at what the pipeline's write-backs fold to and every other buffer as entered. At entry the
   region's arrays are split out of the unscoped buffers, the rest bypassing the region; the generator register goes
   into the pipeline's invariant (the invariant of a body that keeps nothing from point to point but the scoped rest
   and that register) and comes out of it at the last point; at exit the arrays are put back among the unscoped
   buffers at the exit contents. Nothing is owed at any point, so the wait evidence is free, and the kernel has no
   semaphore of its own. -/
import proofs.«146967_j25786983645193_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 30 over the thread state: entered from every unscoped buffer at `W62`, left at `W63`. -/
def reg30 : Pipeline.RegionSeg (pcfgs (F := F)) adm (pdats m) () defs₀ 𝒱₀ L lv /-#K-/30/-#-/ where
  win := launch30.win.to₀
  block_pos := launch30.block_pos
  stage_whole := launch30.stage_whole
  K := PEmpty
  osem k := k.elim
  ho := Pipeline.OwnSemFacts.none _
  hbody c := (body_obligation30 (rd (W62 m)) c).loose
  hwaits := Pipeline.hwaits_of_owed_zero _ _ _ _ L lv /-#K-/30/-#-/ fun _ _ => rfl
  pre c := iprop(StableHlo.held (c : Thread nD τ) (Pipeline.ucRefs τ sig) (W62 m c) ∗ R c)
  post c := iprop(StableHlo.held (c : Thread nD τ) (Pipeline.ucRefs τ sig) (W63 m c) ∗ R c)
  X c := iprop(∃ r, prngReg c r)
  Y c := iprop(∃ r, prngReg c r)
  Z c := Pipeline.unscopedRest (Ix := Unit) (Name := ℕ) (U := UR sig nD τ) (Lvl := ℕ) spec30 c (rd (W62 m) c)
  hentry c := by
    rw [Pipeline.ownSems0_none]
    have hsplit := Pipeline.arrays_of_unscopedBufs (p := /-#K-/30/-#-/) (pcfgs (F := F)) adm (pdats m) launch30.win launch30.arr_whole c
      ((pdats m /-#K-/30/-#-/ c).share_full fun _ => rfl) (rd (W62 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m /-#K-/30/-#-/ c).Φ 0 = Pipeline.ΦA spec30 c from rfl]; unfold Pipeline.ΦA
    iintro ⟨Hp, -, Hr⟩
    isplitl [Hr]; · iexact Hr
    iexact Hp
  hout c := by
    rw [Pipeline.ownSems0_none, show (pdats m /-#K-/30/-#-/ c).Φ (Fin.last _) = Pipeline.ΦA spec30 c from rfl]; unfold Pipeline.ΦA
    iintro ⟨Hr, Hp⟩
    isplitl [Hp]; · iexact Hp
    isplitr; · iempintro
    iexact Hr
  hexit c := by
    have hjoin := Pipeline.unscopedBufs_of_arrays (p := /-#K-/30/-#-/) (pcfgs (F := F)) adm (Ix := Unit) (Name := ℕ) (U := UR sig nD τ) (Lvl := ℕ)
      launch30.win launch30.arr_whole c (pdats m) ((pdats m /-#K-/30/-#-/ c).share_full fun _ => rfl)
      (rd (W62 m) c) (rd (W63 m) c) ((pdats m /-#K-/30/-#-/ c).arrAt · cfg30.N) (hF30 m c) (hrest30 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Run.lean ====
-- laid out by: scratch/mkchain.js Run proof/Proof/KI/Run.lean
/- THE RUN OF THE KERNEL PROGRAM, at any float interpretation: @main as its 64 segments (a host segment per stretch
   from its boundary's contents, a region per pallas_call), the segments' fragments being @main's items, each pipeline
   entered once, each item entered from the thread state the one before it left; then the launch over the segments.
   From any memory `m` with zero counters every weakly fair execution of @main on the TensorCores terminates, nothing
   faulting, and every final state holds the result buffer at the last boundary's contents `W64 m c` and each argument
   as launched (`run_main`). -/
import proofs.«146967_j25786983645193_1_alg».proof.Proof.Gen.KernelIdeal.Launch
import proofs.«146967_j25786983645193_1_alg».proof.Proof.Gen.KernelIdeal.Skeleton
import proofs.«146967_j25786983645193_1_alg».proof.Proof.Gen.KernelIdeal.Points
import proofs.«146967_j25786983645193_1_alg».proof.Proof.KI.Seg0
import proofs.«146967_j25786983645193_1_alg».proof.Proof.KI.Seg1
import proofs.«146967_j25786983645193_1_alg».proof.Proof.KI.Seg2
import proofs.«146967_j25786983645193_1_alg».proof.Proof.KI.Seg3
import proofs.«146967_j25786983645193_1_alg».proof.Proof.KI.Seg4
import proofs.«146967_j25786983645193_1_alg».proof.Proof.KI.Seg5
import proofs.«146967_j25786983645193_1_alg».proof.Proof.KI.Seg6
import proofs.«146967_j25786983645193_1_alg».proof.Proof.KI.Seg7
import proofs.«146967_j25786983645193_1_alg».proof.Proof.KI.Seg8
import proofs.«146967_j25786983645193_1_alg».proof.Proof.KI.Seg9
import proofs.«146967_j25786983645193_1_alg».proof.Proof.KI.Seg10
import proofs.«146967_j25786983645193_1_alg».proof.Proof.KI.Seg11
import proofs.«146967_j25786983645193_1_alg».proof.Proof.KI.Seg12
import proofs.«146967_j25786983645193_1_alg».proof.Proof.KI.Seg13
import proofs.«146967_j25786983645193_1_alg».proof.Proof.KI.Seg14
import proofs.«146967_j25786983645193_1_alg».proof.Proof.KI.Seg15
import proofs.«146967_j25786983645193_1_alg».proof.Proof.KI.Seg16
import proofs.«146967_j25786983645193_1_alg».proof.Proof.KI.Seg17
import proofs.«146967_j25786983645193_1_alg».proof.Proof.KI.Seg18
import proofs.«146967_j25786983645193_1_alg».proof.Proof.KI.Seg19
import proofs.«146967_j25786983645193_1_alg».proof.Proof.KI.Seg20
import proofs.«146967_j25786983645193_1_alg».proof.Proof.KI.Seg21
import proofs.«146967_j25786983645193_1_alg».proof.Proof.KI.Seg22
import proofs.«146967_j25786983645193_1_alg».proof.Proof.KI.Seg23
import proofs.«146967_j25786983645193_1_alg».proof.Proof.KI.Seg24
import proofs.«146967_j25786983645193_1_alg».proof.Proof.KI.Seg25
import proofs.«146967_j25786983645193_1_alg».proof.Proof.KI.Seg26
import proofs.«146967_j25786983645193_1_alg».proof.Proof.KI.Seg27
import proofs.«146967_j25786983645193_1_alg».proof.Proof.KI.Seg28
import proofs.«146967_j25786983645193_1_alg».proof.Proof.KI.Seg29
import proofs.«146967_j25786983645193_1_alg».proof.Proof.KI.Seg30
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a decided fact over the program's references, and a structural look through sixty-four nested items, recurse
-- past the default depth
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments -/

/-- @main's 64 items in order: a host segment per stretch from its boundary's contents, a region per pallas_call. -/
abbrev mainSegs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)),
    .region (reg7 m),
    .host (hseg hostOps8 hostOps8_sub hostOps8_fresh (W18 m)),
    .region (reg8 m),
    .region (reg9 m),
    .host (hseg hostOps10 hostOps10_sub hostOps10_fresh (W21 m)),
    .region (reg10 m),
    .host (hseg hostOps11 hostOps11_sub hostOps11_fresh (W23 m)),
    .region (reg11 m),
    .host (hseg hostOps12 hostOps12_sub hostOps12_fresh (W25 m)),
    .region (reg12 m),
    .host (hseg hostOps13 hostOps13_sub hostOps13_fresh (W27 m)),
    .region (reg13 m),
    .host (hseg hostOps14 hostOps14_sub hostOps14_fresh (W29 m)),
    .region (reg14 m),
    .host (hseg hostOps15 hostOps15_sub hostOps15_fresh (W31 m)),
    .region (reg15 m),
    .host (hseg hostOps16 hostOps16_sub hostOps16_fresh (W33 m)),
    .region (reg16 m),
    .host (hseg hostOps17 hostOps17_sub hostOps17_fresh (W35 m)),
    .region (reg17 m),
    .host (hseg hostOps18 hostOps18_sub hostOps18_fresh (W37 m)),
    .region (reg18 m),
    .host (hseg hostOps19 hostOps19_sub hostOps19_fresh (W39 m)),
    .region (reg19 m),
    .host (hseg hostOps20 hostOps20_sub hostOps20_fresh (W41 m)),
    .region (reg20 m),
    .host (hseg hostOps21 hostOps21_sub hostOps21_fresh (W43 m)),
    .region (reg21 m),
    .host (hseg hostOps22 hostOps22_sub hostOps22_fresh (W45 m)),
    .region (reg22 m),
    .host (hseg hostOps23 hostOps23_sub hostOps23_fresh (W47 m)),
    .region (reg23 m),
    .host (hseg hostOps24 hostOps24_sub hostOps24_fresh (W49 m)),
    .region (reg24 m),
    .host (hseg hostOps25 hostOps25_sub hostOps25_fresh (W51 m)),
    .region (reg25 m),
    .host (hseg hostOps26 hostOps26_sub hostOps26_fresh (W53 m)),
    .region (reg26 m),
    .host (hseg hostOps27 hostOps27_sub hostOps27_fresh (W55 m)),
    .region (reg27 m),
    .host (hseg hostOps28 hostOps28_sub hostOps28_fresh (W57 m)),
    .region (reg28 m),
    .host (hseg hostOps29 hostOps29_sub hostOps29_fresh (W59 m)),
    .region (reg29 m),
    .host (hseg hostOps30 hostOps30_sub hostOps30_fresh (W61 m)),
    .region (reg30 m),
    .host (hseg hostOps31 hostOps31_sub hostOps31_fresh (W63 m)) ]

/-- The first thread state: every unscoped buffer at the launch contents, the generator register, nothing owed. -/
abbrev T₀ (c : Dev nD) : sProp 𝕄 := iprop(StableHlo.held (c : Thread nD τ) (Pipeline.ucRefs τ sig) (W0 m c) ∗ R c)

/-- The segments' fragments are @main's items. -/
theorem mainSegs_prog : (mainSegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          Prog.lift (.customCall (Pipeline.entry 23) ()),
          StableHlo.seq hostOps24,
          Prog.lift (.customCall (Pipeline.entry 24) ()),
          StableHlo.seq hostOps25,
          Prog.lift (.customCall (Pipeline.entry 25) ()),
          StableHlo.seq hostOps26,
          Prog.lift (.customCall (Pipeline.entry 26) ()),
          StableHlo.seq hostOps27,
          Prog.lift (.customCall (Pipeline.entry 27) ()),
          StableHlo.seq hostOps28,
          Prog.lift (.customCall (Pipeline.entry 28) ()),
          StableHlo.seq hostOps29,
          Prog.lift (.customCall (Pipeline.entry 29) ()),
          StableHlo.seq hostOps30,
          Prog.lift (.customCall (Pipeline.entry 30) ()),
          StableHlo.seq hostOps31 ] := rfl

/-- A run of the segments is a run of @main. -/
theorem hmain (c : Dev nD) (Q : PUnit → sProp 𝕄) :
    wp frame (wpE (Pipeline.defs (pcfgs (F := F)) defs₀) (Variants.lift 𝒱₀) (c.tc : Thread nD τ) none) Set.univ (Pipeline.Seg.run (mainSegs m)) Q
      ⊢ wp frame (wpE (Pipeline.defs (pcfgs (F := F)) defs₀) (Variants.lift 𝒱₀) (c.tc : Thread nD τ) none) Set.univ (main (F := F) c) Q := by
  rewrite [main_chain c, Pipeline.Seg.run_eq_chain, mainSegs_prog m]
  exact .rfl

/-- Each pipeline is entered once. -/
theorem hnd : (Pipeline.Seg.pipes (mainSegs m)).Nodup := by
  simp only [mainSegs, Pipeline.Seg.pipes_host, Pipeline.Seg.pipes_region, Pipeline.Seg.pipes_nil]; decide

/-- The last stretch leaves the last thread state beside the core owing nothing. -/
theorem hlast (c : Dev nD) :
    iprop(StableHlo.held (c : Thread nD τ) (Pipeline.ucRefs τ sig) (W64 m c) ∗ R c)
      ⊢ iprop(Tₙ m c ∗ ∃ W, owes (c.tc : Thread nD τ) (0 : CellTallies nD τ sig Unit) W) := by
  iintro ⟨Hh, Hp, HO⟩
  isplitl [Hh Hp]
  · isplitl [Hh] <;> iassumption
  iexact HO

/-- Each item is entered from the thread state the one before it left: the boundaries' contents agree by name. -/
theorem hch (c : Dev nD) : Pipeline.Seg.ChainsAt c (T₀ m) (mainSegs m)
    fun c => iprop(Tₙ m c ∗ ∃ W, owes (c.tc : Thread nD τ) (0 : CellTallies nD τ sig Unit) W) :=
  ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
    hlast m c⟩

-- the launch theorem's implicit arguments are found by unifying its conclusion with this one, which takes unfolding
-- plain definitions in a metavariable's type
set_option backward.isDefEq.respectTransparency.types false in
/-- THE RUN of the kernel program at any float interpretation: from any memory with zero counters every weakly fair
    execution of @main on the TensorCores terminates, nothing faulting, and every final state holds the result buffer
    at the last boundary's contents and each argument as launched. -/
theorem run_main : θ_run defs (onTc (τ := τ) (main (F := F))) ⟨m, fun _ => 0, ρ⟩ (fun r => ∀ c : Dev nD,
      r.2.mem ((c.tc : Thread nD τ).loc main_v316) = W64 m c (Proc.devRef .tc main_v316)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_dev (pcfgs (F := F)) adm (pdats m) () cellOf_inj emb₁ defs₀ 𝒱₀ L lv m ρ main (fun _ => mainSegs m)
    (hmain m) (fun _ => hnd m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T₀ m) (Tₙ := Tₙ m)
    (hch := hch m)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W64 m c b)
    (hfin := fun c s' => by
      iintro ⟨⟨Hh, -⟩, HSI⟩
      unfold StableHlo.held
      imodintro
      iapply (pointsTo_read_all (Pipeline.ucRefs τ sig) (fun b => (((c : Thread nD τ)).1, b)) (W64 m c) s')
      isplitl [Hh] <;> iassumption)
    (hQ := fun s h c =>
      ⟨h c _ (mem_uc main_v316 (by decide)),
       (h c _ (mem_uc main_arg0 (by decide))).trans (W64_arg m c (by decide)),
       (h c _ (mem_uc main_arg1 (by decide))).trans (W64_arg m c (by decide)),
       (h c _ (mem_uc main_arg2 (by decide))).trans (W64_arg m c (by decide)),
       (h c _ (mem_uc main_arg3 (by decide))).trans (W64_arg m c (by decide)),
       (h c _ (mem_uc main_arg4 (by decide))).trans (W64_arg m c (by decide)),
       (h c _ (mem_uc main_arg5 (by decide))).trans (W64_arg m c (by decide)),
       (h c _ (mem_uc main_arg6 (by decide))).trans (W64_arg m c (by decide)),
       (h c _ (mem_uc main_arg7 (by decide))).trans (W64_arg m c (by decide)),
       (h c _ (mem_uc main_arg8 (by decide))).trans (W64_arg m c (by decide)),
       (h c _ (mem_uc main_arg9 (by decide))).trans (W64_arg m c (by decide)),
       (h c _ (mem_uc main_arg10 (by decide))).trans (W64_arg m c (by decide)),
       (h c _ (mem_uc main_arg11 (by decide))).trans (W64_arg m c (by decide)),
       (h c _ (mem_uc main_arg12 (by decide))).trans (W64_arg m c (by decide)),
       (h c _ (mem_uc main_arg13 (by decide))).trans (W64_arg m c (by decide)),
       (h c _ (mem_uc main_arg14 (by decide))).trans (W64_arg m c (by decide)),
       (h c _ (mem_uc main_arg15 (by decide))).trans (W64_arg m c (by decide)),
       (h c _ (mem_uc main_arg16 (by decide))).trans (W64_arg m c (by decide)),
       (h c _ (mem_uc main_arg17 (by decide))).trans (W64_arg m c (by decide)),
       (h c _ (mem_uc main_arg18 (by decide))).trans (W64_arg m c (by decide)),
       (h c _ (mem_uc main_arg19 (by decide))).trans (W64_arg m c (by decide))⟩)

end Cert.KernelIdeal.Reg

end
-- ==== Proof.Spec.BN.lean ====
/-
  The algebra on the extended reals that joins two ways of batch-normalising a column.

  A column has `N` rows `p r` (here `N = 50000`) and a bias `b`. One program forms the biased rows `h r = p r + b` and
  normalises them by their own statistics,
      m = (∑ r, h r) / N,          v = (∑ r, (h r - m) * (h r - m)) / N,
  the other takes the two sums `∑ r, p r` and `∑ r, p r * p r` of the rows WITHOUT the bias and uses
      m' = (∑ r, p r) / N + b,     v' = (∑ r, p r * p r) / N - ((∑ r, p r) / N) * ((∑ r, p r) / N).
  On the reals `m = m'` and `v = v'`: the bias shifts the mean and leaves the variance alone, and the variance is the mean
  of the squares less the square of the mean. On the EXTENDED reals the same holds as soon as every `p r` and `b` is a
  real; with an infinite entry `⊤ - ⊤` is a junk value and the two sides need not agree, which is why every statement
  below carries `IsReal p` and `IsFin b`. Division is written as the ideal instance divides, `Ideal.div x (N : EReal)`
  with `N` a real that is not zero (`Ideal.div_coe`: the product with the reciprocal); sums are `Finset` sums of extended
  reals and squares are products: the statements are what a program's term reads as once its operations are unfolded
  (`addf_def`, `subf_def`, `mulf_def`, `hostDivf_def`, `maximumf_def`; for the root `rsqrt_def` where a kernel takes it and
  `hostUnary_rsqrt_def` where the host does: both read `Ideal.rsqrt`). The rows are indexed by any finite type `ι` with
  `(Fintype.card ι : ℝ) = N`; the corollaries at the end take `ι = Fin 50000`.

  Contents, in order (each lemma uses only those before it):
  • `coe_sum`: the coercion `ℝ → EReal` commutes with finite sums.
  • `real_mean`, `real_var`: the two identities on the reals.
  • `IsFin x` (an extended real that is a real) and `IsReal v` (a family all of whose entries are), closed under sums and
    products over a `Finset`, sums of products, `+`, `-`, `*`, negation, `max` / `min`, `max · 0`, division by a real
    constant that is not zero, `if` and select (also when only the chosen branch is known to be real), any re-indexing;
    the same on the instance's vector operations by name, and an entry of a matrix product.
  • `rsqrt_coe_pos`, `rsqrt_pos`, `IsFin.rsqrt_of_pos`, `add_eps_pos`, `IsFin.rsqrt_add`: the reciprocal square root on
    the positive reals is the real one, positive, and so a real at `v + e` for a real `v ≥ 0` and a real `e > 0`.
  • `bn_mean` (1), `bn_var` (2), `bn_centered` (3); `real_var_nonneg`, `bn_var_nonneg`, `bn_var_isFin`,
    `bn_var_ref_nonneg`, `bn_var_ref_isFin`: the variance, in either form, is a real that is not negative;
    `bn_rsqrt_isFin`, `bn_rsqrt_ref_isFin` (4): so the variance plus a positive real has a real reciprocal square root;
    `bn_relu_eq`: the whole normalised, scaled, shifted, rectified element in the first form is the one in the second.
  • The two float constants as reals: `ofBits_50000`, `epsR`, `epsR_pos`, `ofBits_eps`, `isFin_eps`, `eps_pos`; and
    `sitofp_zero`.
  • At `Fin 50000`: `card_fin_50000`, `bn_mean_50000`, `bn_var_50000`, `bn_centered_50000`, `bn_relu_eq_50000`.
-/
import Idealize.ShloMosaic.PureOps.Ideal
import Idealize.ShloMosaic.PureOps.Ideal.Laws
import Idealize.ShloMosaic.Lib.ValueIdx
import Mathlib.Data.EReal.Inv
import Mathlib.Algebra.BigOperators.Group.Finset.Basic
import Mathlib.Tactic.Ring
import Mathlib.Tactic.FieldSimp
import Mathlib.Tactic.Positivity
import Mathlib.Tactic.NormNum

namespace Cert.Spec
open Idealize.ShloMosaic
open scoped BigOperators

/-- The coercion of the reals into the extended reals commutes with finite sums. -/
@[simp, norm_cast] theorem coe_sum {κ : Type*} (s : Finset κ) (f : κ → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section RealCore
variable {ι : Type*} [Fintype ι]

theorem real_mean (x : ι → ℝ) (β n : ℝ) (hn : (Fintype.card ι : ℝ) = n) (h0 : n ≠ 0) :
    (∑ r, (x r + β)) * (1 / n) = (∑ r, x r) * (1 / n) + β := by
  rw [Finset.sum_add_distrib, Finset.sum_const, Finset.card_univ, nsmul_eq_mul, hn]
  field_simp

theorem real_var (x : ι → ℝ) (β n : ℝ) (hn : (Fintype.card ι : ℝ) = n) (h0 : n ≠ 0) :
    (∑ r, ((x r + β) - (∑ r', (x r' + β)) * (1 / n)) * ((x r + β) - (∑ r', (x r' + β)) * (1 / n))) * (1 / n)
      = (∑ r, x r * x r) * (1 / n) - ((∑ r, x r) * (1 / n)) * ((∑ r, x r) * (1 / n)) := by
  rw [real_mean x β n hn h0]
  have h : ∀ r, ((x r + β) - ((∑ r, x r) * (1 / n) + β)) * ((x r + β) - ((∑ r, x r) * (1 / n) + β))
      = x r * x r - 2 * ((∑ r, x r) * (1 / n)) * x r + ((∑ r, x r) * (1 / n)) * ((∑ r, x r) * (1 / n)) := by
    intro r; ring
  simp_rw [h]
  rw [Finset.sum_add_distrib, Finset.sum_sub_distrib, Finset.sum_const, Finset.card_univ, nsmul_eq_mul, hn,
    ← Finset.mul_sum]
  field_simp
  ring

end RealCore

/-! ## Finiteness -/

/-- An extended real that is a real. -/
def IsFin (x : EReal) : Prop := ∃ r : ℝ, x = (r : EReal)

/-- A family of extended reals every entry of which is a real. -/
def IsReal {ι : Sort*} (v : ι → EReal) : Prop := ∀ i, ∃ x : ℝ, v i = (x : EReal)

theorem isReal_iff {ι : Sort*} {v : ι → EReal} : IsReal v ↔ ∀ i, IsFin (v i) := Iff.rfl

/-- An entry of a real family is a real. -/
theorem IsReal.apply {ι : Sort*} {v : ι → EReal} (h : IsReal v) (i : ι) : IsFin (v i) := h i

namespace IsFin
variable {x y : EReal}

theorem coe (r : ℝ) : IsFin (r : EReal) := ⟨r, rfl⟩
theorem zero : IsFin 0 := ⟨0, rfl⟩
theorem one : IsFin 1 := ⟨1, rfl⟩
theorem ne_top (h : IsFin x) : x ≠ ⊤ := by obtain ⟨r, rfl⟩ := h; exact EReal.coe_ne_top r
theorem ne_bot (h : IsFin x) : x ≠ ⊥ := by obtain ⟨r, rfl⟩ := h; exact EReal.coe_ne_bot r
theorem of_ne (ht : x ≠ ⊤) (hb : x ≠ ⊥) : IsFin x := ⟨x.toReal, (EReal.coe_toReal ht hb).symm⟩
theorem add (hx : IsFin x) (hy : IsFin y) : IsFin (x + y) := by
  obtain ⟨a, rfl⟩ := hx; obtain ⟨b, rfl⟩ := hy; exact ⟨a + b, (EReal.coe_add a b).symm⟩
theorem sub (hx : IsFin x) (hy : IsFin y) : IsFin (x - y) := by
  obtain ⟨a, rfl⟩ := hx; obtain ⟨b, rfl⟩ := hy; exact ⟨a - b, (EReal.coe_sub a b).symm⟩
theorem mul (hx : IsFin x) (hy : IsFin y) : IsFin (x * y) := by
  obtain ⟨a, rfl⟩ := hx; obtain ⟨b, rfl⟩ := hy; exact ⟨a * b, (EReal.coe_mul a b).symm⟩
theorem neg (hx : IsFin x) : IsFin (-x) := by
  obtain ⟨a, rfl⟩ := hx; exact ⟨-a, (EReal.coe_neg a).symm⟩
theorem max (hx : IsFin x) (hy : IsFin y) : IsFin (max x y) := by
  rcases max_choice x y with h | h <;> rw [h] <;> assumption
theorem min (hx : IsFin x) (hy : IsFin y) : IsFin (min x y) := by
  rcases min_choice x y with h | h <;> rw [h] <;> assumption
theorem max_zero (hx : IsFin x) : IsFin (Max.max x 0) := hx.max zero
theorem ite {c : Prop} [Decidable c] (hx : IsFin x) (hy : IsFin y) : IsFin (if c then x else y) := by
  split <;> assumption
theorem select (c : BitVec 1) (hx : IsFin x) (hy : IsFin y) : IsFin (Scalar.select c x y) := by
  unfold Scalar.select; exact hx.ite hy
/-- An `if` is a real when the branch it takes is. -/
theorem ite_of {c : Prop} [Decidable c] (hx : c → IsFin x) (hy : ¬c → IsFin y) : IsFin (if c then x else y) := by
  split
  · exact hx ‹_›
  · exact hy ‹_›
/-- A select is a real when the operand it picks is (the other may be infinite). -/
theorem select_of (c : BitVec 1) (hx : c = 1 → IsFin x) (hy : c ≠ 1 → IsFin y) : IsFin (Scalar.select c x y) := by
  unfold Scalar.select; exact ite_of hx hy
theorem sum {κ : Type*} {s : Finset κ} {f : κ → EReal} (h : ∀ k ∈ s, IsFin (f k)) : IsFin (∑ k ∈ s, f k) := by
  classical
  induction s using Finset.induction_on with
  | empty => simpa using zero
  | insert a s ha ih =>
    rw [Finset.sum_insert ha]
    exact (h a (Finset.mem_insert_self a s)).add (ih fun k hk => h k (Finset.mem_insert_of_mem hk))
theorem prod {κ : Type*} {s : Finset κ} {f : κ → EReal} (h : ∀ k ∈ s, IsFin (f k)) : IsFin (∏ k ∈ s, f k) := by
  classical
  induction s using Finset.induction_on with
  | empty => simpa using one
  | insert a s ha ih =>
    rw [Finset.prod_insert ha]
    exact (h a (Finset.mem_insert_self a s)).mul (ih fun k hk => h k (Finset.mem_insert_of_mem hk))
theorem sum_mul {κ : Type*} {s : Finset κ} {f g : κ → EReal} (hf : ∀ k ∈ s, IsFin (f k)) (hg : ∀ k ∈ s, IsFin (g k)) :
    IsFin (∑ k ∈ s, f k * g k) := sum fun k hk => (hf k hk).mul (hg k hk)
theorem div_coe {n : ℝ} (h0 : n ≠ 0) (hx : IsFin x) : IsFin (Ideal.div x (n : EReal)) := by
  rw [Ideal.div_coe h0]; exact hx.mul (coe _)
end IsFin

/-! ## The reciprocal square root on the positive reals -/

/-- On a positive real the reciprocal square root is the real one. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- … and positive. -/
theorem rsqrt_pos {r : ℝ} (h : 0 < r) : 0 < Ideal.rsqrt (r : EReal) := by
  rw [rsqrt_coe_pos h]; exact EReal.coe_pos.mpr (inv_pos.mpr (Real.sqrt_pos.mpr h))

theorem IsFin.rsqrt_of_pos {x : EReal} (hx : IsFin x) (h : 0 < x) : IsFin (Ideal.rsqrt x) := by
  obtain ⟨r, rfl⟩ := hx
  rw [rsqrt_coe_pos (EReal.coe_pos.mp h)]; exact IsFin.coe _

/-- A real that is not negative, plus a positive real, is positive. -/
theorem add_eps_pos {v e : EReal} (hv : IsFin v) (h0 : 0 ≤ v) (he : IsFin e) (hpos : 0 < e) : 0 < v + e := by
  obtain ⟨a, rfl⟩ := hv; obtain ⟨b, rfl⟩ := he
  rw [← EReal.coe_add]
  exact EReal.coe_pos.mpr (_root_.add_pos_of_nonneg_of_pos (EReal.coe_nonneg.mp h0) (EReal.coe_pos.mp hpos))

/-- The reciprocal square root of `v + e` is a real when `v` is a real that is not negative and `e` a positive real. -/
theorem IsFin.rsqrt_add {v e : EReal} (hv : IsFin v) (h0 : 0 ≤ v) (he : IsFin e) (hpos : 0 < e) :
    IsFin (Ideal.rsqrt (v + e)) :=
  (hv.add he).rsqrt_of_pos (add_eps_pos hv h0 he hpos)

/-! ## Batch normalisation: the bias leaves the mean, and drops out of the variance -/

section BN
variable {ι : Type*} [Fintype ι]

/-- (1) The mean of the biased rows is the mean of the rows plus the bias. -/
theorem bn_mean (p : ι → EReal) (b : EReal) (hp : IsReal p) (hb : IsFin b) {n : ℝ}
    (hn : (Fintype.card ι : ℝ) = n) (h0 : n ≠ 0) :
    Ideal.div (∑ r, (p r + b)) (n : EReal) = Ideal.div (∑ r, p r) (n : EReal) + b := by
  choose x hx using hp
  obtain ⟨β, rfl⟩ := hb
  simp only [hx, Ideal.div_coe h0, ← EReal.coe_add, ← coe_sum, ← EReal.coe_mul]
  exact congrArg _ (real_mean x β n hn h0)

/-- (2) The variance of the biased rows about their own mean is the mean of the squares of the rows less the square
    of their mean. -/
theorem bn_var (p : ι → EReal) (b : EReal) (hp : IsReal p) (hb : IsFin b) {n : ℝ}
    (hn : (Fintype.card ι : ℝ) = n) (h0 : n ≠ 0) :
    Ideal.div (∑ r, ((p r + b) - Ideal.div (∑ r', (p r' + b)) (n : EReal))
        * ((p r + b) - Ideal.div (∑ r', (p r' + b)) (n : EReal))) (n : EReal)
      = Ideal.div (∑ r, p r * p r) (n : EReal)
        - Ideal.div (∑ r, p r) (n : EReal) * Ideal.div (∑ r, p r) (n : EReal) := by
  choose x hx using hp
  obtain ⟨β, rfl⟩ := hb
  simp only [hx, Ideal.div_coe h0, ← EReal.coe_add, ← coe_sum, ← EReal.coe_mul, ← EReal.coe_sub]
  exact congrArg _ (real_var x β n hn h0)

/-- (3) A biased row less the biased rows' mean. -/
theorem bn_centered (p : ι → EReal) (b : EReal) (hp : IsReal p) (hb : IsFin b) {n : ℝ}
    (hn : (Fintype.card ι : ℝ) = n) (h0 : n ≠ 0) (r : ι) :
    (p r + b) - Ideal.div (∑ r', (p r' + b)) (n : EReal)
      = p r + b - (Ideal.div (∑ r', p r') (n : EReal) + b) := by
  rw [bn_mean p b hp hb hn h0]

/-- The mean of the squares less the square of the mean is not negative (on the reals). -/
theorem real_var_nonneg (x : ι → ℝ) (n : ℝ) (hn : (Fintype.card ι : ℝ) = n) (hpos : 0 < n) :
    0 ≤ (∑ r, x r * x r) * (1 / n) - ((∑ r, x r) * (1 / n)) * ((∑ r, x r) * (1 / n)) := by
  rw [← real_var x 0 n hn hpos.ne']
  exact mul_nonneg (Finset.sum_nonneg fun r _ => mul_self_nonneg _) (by positivity)

/-- The variance in the second form — the mean of the squares less the square of the mean — is not negative … -/
theorem bn_var_nonneg (p : ι → EReal) (hp : IsReal p) {n : ℝ} (hn : (Fintype.card ι : ℝ) = n) (hpos : 0 < n) :
    0 ≤ Ideal.div (∑ r, p r * p r) (n : EReal)
        - Ideal.div (∑ r, p r) (n : EReal) * Ideal.div (∑ r, p r) (n : EReal) := by
  choose x hx using hp
  simp only [hx, Ideal.div_coe hpos.ne', ← coe_sum, ← EReal.coe_mul, ← EReal.coe_sub]
  exact EReal.coe_nonneg.mpr (real_var_nonneg x n hn hpos)

/-- … and a real. -/
theorem bn_var_isFin (p : ι → EReal) (hp : IsReal p) {n : ℝ} (h0 : n ≠ 0) :
    IsFin (Ideal.div (∑ r, p r * p r) (n : EReal)
        - Ideal.div (∑ r, p r) (n : EReal) * Ideal.div (∑ r, p r) (n : EReal)) :=
  ((IsFin.sum fun r _ => (hp.apply r).mul (hp.apply r)).div_coe h0).sub
    (((IsFin.sum fun r _ => hp.apply r).div_coe h0).mul ((IsFin.sum fun r _ => hp.apply r).div_coe h0))

/-- The variance in the first form — the mean of the squared deviations of the biased rows — is the same number, so
    not negative and a real. -/
theorem bn_var_ref_nonneg (p : ι → EReal) (b : EReal) (hp : IsReal p) (hb : IsFin b) {n : ℝ}
    (hn : (Fintype.card ι : ℝ) = n) (hpos : 0 < n) :
    0 ≤ Ideal.div (∑ r, ((p r + b) - Ideal.div (∑ r', (p r' + b)) (n : EReal))
        * ((p r + b) - Ideal.div (∑ r', (p r' + b)) (n : EReal))) (n : EReal) := by
  rw [bn_var p b hp hb hn hpos.ne']; exact bn_var_nonneg p hp hn hpos

theorem bn_var_ref_isFin (p : ι → EReal) (b : EReal) (hp : IsReal p) (hb : IsFin b) {n : ℝ}
    (hn : (Fintype.card ι : ℝ) = n) (h0 : n ≠ 0) :
    IsFin (Ideal.div (∑ r, ((p r + b) - Ideal.div (∑ r', (p r' + b)) (n : EReal))
        * ((p r + b) - Ideal.div (∑ r', (p r' + b)) (n : EReal))) (n : EReal)) := by
  rw [bn_var p b hp hb hn h0]; exact bn_var_isFin p hp h0

/-- (4) The variance plus a positive real has a real reciprocal square root: second form … -/
theorem bn_rsqrt_isFin (p : ι → EReal) (hp : IsReal p) {n : ℝ} (hn : (Fintype.card ι : ℝ) = n) (hpos : 0 < n)
    {e : EReal} (he : IsFin e) (hepos : 0 < e) :
    IsFin (Ideal.rsqrt (Ideal.div (∑ r, p r * p r) (n : EReal)
        - Ideal.div (∑ r, p r) (n : EReal) * Ideal.div (∑ r, p r) (n : EReal) + e)) :=
  (bn_var_isFin p hp hpos.ne').rsqrt_add (bn_var_nonneg p hp hn hpos) he hepos

/-- … and first form. -/
theorem bn_rsqrt_ref_isFin (p : ι → EReal) (b : EReal) (hp : IsReal p) (hb : IsFin b) {n : ℝ}
    (hn : (Fintype.card ι : ℝ) = n) (hpos : 0 < n) {e : EReal} (he : IsFin e) (hepos : 0 < e) :
    IsFin (Ideal.rsqrt (Ideal.div (∑ r, ((p r + b) - Ideal.div (∑ r', (p r' + b)) (n : EReal))
        * ((p r + b) - Ideal.div (∑ r', (p r' + b)) (n : EReal))) (n : EReal) + e)) :=
  (bn_var_ref_isFin p b hp hb hn hpos.ne').rsqrt_add (bn_var_ref_nonneg p b hp hb hn hpos) he hepos

/-- The two programs' normalised, scaled, shifted and rectified element: whatever the scale `g`, the shift `bt` and
    the `e` added under the root are, the first form (rows biased before the statistics) is the second (statistics of
    the unbiased rows, the bias added to the mean). -/
theorem bn_relu_eq (p : ι → EReal) (b g bt e : EReal) (hp : IsReal p) (hb : IsFin b) {n : ℝ}
    (hn : (Fintype.card ι : ℝ) = n) (h0 : n ≠ 0) (r : ι) :
    max (g * ((p r + b) - Ideal.div (∑ r', (p r' + b)) (n : EReal))
          * Ideal.rsqrt (Ideal.div (∑ r₁, ((p r₁ + b) - Ideal.div (∑ r', (p r' + b)) (n : EReal))
              * ((p r₁ + b) - Ideal.div (∑ r', (p r' + b)) (n : EReal))) (n : EReal) + e) + bt) 0
      = max (g * (p r + b - (Ideal.div (∑ r', p r') (n : EReal) + b))
          * Ideal.rsqrt (Ideal.div (∑ r', p r' * p r') (n : EReal)
              - Ideal.div (∑ r', p r') (n : EReal) * Ideal.div (∑ r', p r') (n : EReal) + e) + bt) 0 := by
  rw [bn_var p b hp hb hn h0, bn_mean p b hp hb hn h0]

end BN

/-! ## Real families: the closure lemmas, entry by entry -/

namespace IsReal
variable {ι : Sort*} {v w : ι → EReal}

theorem const (r : ℝ) : IsReal (fun _ : ι => (r : EReal)) := fun _ => ⟨r, rfl⟩
theorem of_isFin {x : EReal} (h : IsFin x) : IsReal (fun _ : ι => x) := fun _ => h
/-- Reading a real family through any map of indices (a broadcast, a slice, a reshape, a transpose). -/
theorem comp {κ : Sort*} (h : IsReal v) (f : κ → ι) : IsReal (fun k => v (f k)) := fun k => h (f k)
theorem add (hv : IsReal v) (hw : IsReal w) : IsReal (fun i => v i + w i) := fun i => (hv.apply i).add (hw.apply i)
theorem sub (hv : IsReal v) (hw : IsReal w) : IsReal (fun i => v i - w i) := fun i => (hv.apply i).sub (hw.apply i)
theorem mul (hv : IsReal v) (hw : IsReal w) : IsReal (fun i => v i * w i) := fun i => (hv.apply i).mul (hw.apply i)
theorem neg (hv : IsReal v) : IsReal (fun i => -v i) := fun i => (hv.apply i).neg
theorem max (hv : IsReal v) (hw : IsReal w) : IsReal (fun i => Max.max (v i) (w i)) :=
  fun i => (hv.apply i).max (hw.apply i)
theorem max_zero (hv : IsReal v) : IsReal (fun i => Max.max (v i) 0) := fun i => (hv.apply i).max_zero
/-- Division by a real constant that is not zero. -/
theorem div_const {n : ℝ} (h0 : n ≠ 0) (hv : IsReal v) : IsReal (fun i => Ideal.div (v i) (n : EReal)) :=
  fun i => (hv.apply i).div_coe h0
/-- A select between two real families, whatever the condition. -/
theorem select (c : ι → BitVec 1) (hv : IsReal v) (hw : IsReal w) :
    IsReal (fun i => Scalar.select (c i) (v i) (w i)) := fun i => (hv.apply i).select (c i) (hw.apply i)
theorem sum {κ : Type*} {s : Finset κ} {f : κ → ι → EReal} (h : ∀ k ∈ s, IsReal (f k)) :
    IsReal (fun i => ∑ k ∈ s, f k i) := fun i => IsFin.sum fun k hk => (h k hk).apply i
theorem prod {κ : Type*} {s : Finset κ} {f : κ → ι → EReal} (h : ∀ k ∈ s, IsReal (f k)) :
    IsReal (fun i => ∏ k ∈ s, f k i) := fun i => IsFin.prod fun k hk => (h k hk).apply i
theorem sum_mul {κ : Type*} {s : Finset κ} {f g : κ → ι → EReal} (hf : ∀ k ∈ s, IsReal (f k))
    (hg : ∀ k ∈ s, IsReal (g k)) : IsReal (fun i => ∑ k ∈ s, f k i * g k i) :=
  fun i => IsFin.sum_mul (fun k hk => (hf k hk).apply i) (fun k hk => (hg k hk).apply i)
/-- An entry of a matrix product: an accumulator plus the sum, over the contraction index, of products of entries of
    two real families read through any two index maps. -/
theorem matmul_entry {α β κ : Type*} [Fintype κ] {lhs : α → EReal} {rhs : β → EReal} {acc : ι → EReal}
    (L : ι → κ → α) (R : ι → κ → β) (hl : IsReal lhs) (hr : IsReal rhs) (ha : IsReal acc) :
    IsReal (fun j => acc j + ∑ k, lhs (L j k) * rhs (R j k)) :=
  fun j => (ha.apply j).add (IsFin.sum_mul (fun k _ => hl.apply (L j k)) (fun k _ => hr.apply (R j k)))
/-- The reciprocal square root of a real family that is nowhere negative, plus a positive real. -/
theorem rsqrt_add {e : EReal} (hv : IsReal v) (h0 : ∀ i, 0 ≤ v i) (he : IsFin e) (hpos : 0 < e) :
    IsReal (fun i => Ideal.rsqrt (v i + e)) := fun i => (hv.apply i).rsqrt_add (h0 i) he hpos

/-! The same on the instance's vector operations, by name. -/

section Vector
variable {s t : Shape} {φ : FTy} {a b : FVec Ideal s φ}

theorem addf (ha : IsReal a) (hb : IsReal b) : IsReal (Idealize.ShloMosaic.addf a b) := ha.add hb
theorem subf (ha : IsReal a) (hb : IsReal b) : IsReal (Idealize.ShloMosaic.subf a b) := ha.sub hb
theorem mulf (ha : IsReal a) (hb : IsReal b) : IsReal (Idealize.ShloMosaic.mulf a b) := ha.mul hb
theorem maximumf (ha : IsReal a) (hb : IsReal b) : IsReal (Idealize.ShloMosaic.maximumf a b) := ha.max hb
theorem vselect (c : IVec s 1) (ha : IsReal a) (hb : IsReal b) : IsReal (Idealize.ShloMosaic.select c a b) :=
  ha.select c hb
theorem broadcast (t : Shape) {x : EReal} (hx : IsFin x) : IsReal (Idealize.ShloMosaic.broadcast t x) := fun _ => hx
theorem broadcastTo (x : s.Idx → EReal) (h : s.Broadcasts t) (hx : IsReal x) :
    IsReal (Idealize.ShloMosaic.broadcastTo t x h) := fun _ => hx _
/-- The host's quotient by a splat of a real constant that is not zero. -/
theorem hostDivf {n : ℝ} (h0 : n ≠ 0) (ha : IsReal a) (hb : ∀ i, b i = (n : EReal)) :
    IsReal (Host.divf a b) := fun i => by
  show IsFin (Ideal.div (a i) (b i)); rw [hb i]; exact (ha.apply i).div_coe h0
/-- A matrix product of real operands onto a real accumulator. -/
theorem matmul {sl sr so : Shape} (d : DotDims sl sr so) {lhs : sl.Idx → EReal} {rhs : sr.Idx → EReal}
    {acc : so.Idx → EReal} (hl : IsReal lhs) (hr : IsReal rhs) (hacc : IsReal acc) :
    IsReal (Ideal.matmul d lhs rhs acc) := matmul_entry d.lhsIdx d.rhsIdx hl hr hacc

end Vector
end IsReal

/-! ## The two float constants, as reals -/

/-- The divisor: the bit pattern `0x47435000` denotes `50000`. -/
theorem ofBits_50000 : Ideal.ofBits .f32 0x47435000#32 = ((50000 : ℝ) : EReal) := by
  simp only [Ideal.ofBits, Ideal.ieee]
  simp
  rw [← EReal.coe_mul, EReal.coe_eq_coe_iff]
  norm_num

/-- The constant both programs add under the root, as a real: `10995116 / 2 ^ 40`, what the bit pattern
    `0x3727C5AC` denotes (about `1e-5`). -/
noncomputable def epsR : ℝ := 10995116 / 2 ^ 40

theorem epsR_pos : 0 < epsR := by unfold epsR; positivity

theorem ofBits_eps : Ideal.ofBits .f32 0x3727C5AC#32 = ((epsR : ℝ) : EReal) := by
  simp only [Ideal.ofBits, Ideal.ieee]
  simp
  rw [← EReal.coe_mul, EReal.coe_eq_coe_iff]
  unfold epsR
  norm_num

theorem isFin_eps : IsFin ((epsR : ℝ) : EReal) := IsFin.coe _
theorem eps_pos : (0 : EReal) < ((epsR : ℝ) : EReal) := EReal.coe_pos.mpr epsR_pos

/-- The integer zero converted to a float is zero (the `0` a variance's divisor `N - 0` subtracts). -/
theorem sitofp_zero : FloatOps.sitofp (F := Ideal) .f32 (0#32 : BitVec 32) = 0 := by
  show (((0#32 : BitVec 32).toInt : ℝ) : EReal) = 0
  simp

/-! ## At fifty thousand rows -/

theorem card_fin_50000 : (Fintype.card (Fin 50000) : ℝ) = 50000 := by simp
theorem fifty_thousand_pos : (0 : ℝ) < 50000 := by norm_num
theorem fifty_thousand_ne_zero : (50000 : ℝ) ≠ 0 := by norm_num

theorem bn_mean_50000 (p : Fin 50000 → EReal) (b : EReal) (hp : IsReal p) (hb : IsFin b) :
    Ideal.div (∑ r, (p r + b)) ((50000 : ℝ) : EReal) = Ideal.div (∑ r, p r) ((50000 : ℝ) : EReal) + b :=
  bn_mean p b hp hb card_fin_50000 fifty_thousand_ne_zero

theorem bn_var_50000 (p : Fin 50000 → EReal) (b : EReal) (hp : IsReal p) (hb : IsFin b) :
    Ideal.div (∑ r, ((p r + b) - Ideal.div (∑ r', (p r' + b)) ((50000 : ℝ) : EReal))
        * ((p r + b) - Ideal.div (∑ r', (p r' + b)) ((50000 : ℝ) : EReal))) ((50000 : ℝ) : EReal)
      = Ideal.div (∑ r, p r * p r) ((50000 : ℝ) : EReal)
        - Ideal.div (∑ r, p r) ((50000 : ℝ) : EReal) * Ideal.div (∑ r, p r) ((50000 : ℝ) : EReal) :=
  bn_var p b hp hb card_fin_50000 fifty_thousand_ne_zero

theorem bn_centered_50000 (p : Fin 50000 → EReal) (b : EReal) (hp : IsReal p) (hb : IsFin b) (r : Fin 50000) :
    (p r + b) - Ideal.div (∑ r', (p r' + b)) ((50000 : ℝ) : EReal)
      = p r + b - (Ideal.div (∑ r', p r') ((50000 : ℝ) : EReal) + b) :=
  bn_centered p b hp hb card_fin_50000 fifty_thousand_ne_zero r

theorem bn_relu_eq_50000 (p : Fin 50000 → EReal) (b g bt e : EReal) (hp : IsReal p) (hb : IsFin b) (r : Fin 50000) :
    max (g * ((p r + b) - Ideal.div (∑ r', (p r' + b)) ((50000 : ℝ) : EReal))
          * Ideal.rsqrt (Ideal.div (∑ r₁, ((p r₁ + b) - Ideal.div (∑ r', (p r' + b)) ((50000 : ℝ) : EReal))
              * ((p r₁ + b) - Ideal.div (∑ r', (p r' + b)) ((50000 : ℝ) : EReal))) ((50000 : ℝ) : EReal) + e) + bt) 0
      = max (g * (p r + b - (Ideal.div (∑ r', p r') ((50000 : ℝ) : EReal) + b))
          * Ideal.rsqrt (Ideal.div (∑ r', p r' * p r') ((50000 : ℝ) : EReal)
              - Ideal.div (∑ r', p r') ((50000 : ℝ) : EReal) * Ideal.div (∑ r', p r') ((50000 : ℝ) : EReal) + e) + bt) 0 :=
  bn_relu_eq p b g bt e hp hb card_fin_50000 fifty_thousand_ne_zero r

end Cert.Spec
-- ==== Proof.Spec.Graph.lean ====
/-
  The graph part of the computation, which both programs spell with the same operations: the edge weights of the
  symmetric normalisation (self loops added, `D^{-1/2} A D^{-1/2}`) and the propagation of a feature array along the
  edges. Stated over the library's operations at the ideal values only — no program is imported, shapes are literals.
  Proved here: every edge weight is a real and the propagation of a real array is a real array, for EVERY edge list
  (an index out of range is clamped by the gather and dropped by the scatter, so nothing is asked of the indices).
-/
import proofs.«146967_j25786983645193_1_alg».proof.Proof.Spec.BN
import Idealize.ShloMosaic.PureOps
import Idealize.ShloMosaic.PureOps.Ideal
import Idealize.ShloMosaic.PureOps.Ideal.Laws
import Idealize.ShloMosaic.Lib.IdealHost
import Mathlib.Data.EReal.Basic
import Mathlib.Algebra.BigOperators.Group.Finset.Basic

noncomputable section

namespace Cert.Spec
open Idealize.ShloMosaic
open scoped BigOperators

namespace Graph

/-! ## The graph part of the computation, shared by both programs

From the edge list `ei : i32[2, 800000]` over `50000` nodes both programs compute, with the same
operations in the same order:

* `rows = ei[0] ++ iota 50000`, `cols = ei[1] ++ iota 50000` (every node gets a self loop);
* `deg = ∑ ones` scattered at `rows` into `zeros[50000]`;
* `dinv = if deg > 0 then deg^(-1/2) else 0`;
* `ew = dinv[wrap rows] * dinv[wrap cols]`, where `wrap v = if v < 0 then v + 50000 else v`;
* the propagation of a `[50000, 256]` array `hw`:
  `msg = hw[wrap cols] * ew` (the weight broadcast along the features), scattered with addition at `rows`
  into `zeros[50000, 256]`.

The definitions below are these operations composed, at the ideal values (extended reals). What is proved about them
here is finiteness only: every weight is a real, and the propagation of a real array is a real array, for every edge
list whatever — an index out of range is clamped by the gather and dropped by the scatter, so no hypothesis on the
indices is needed. -/

/-! ### Shapes -/

/-- The edge list: two rows of `800000` indices. -/
abbrev sEI : Shape := ⟨2, ![2, 800000]⟩
/-- One row of the edge list, as a slice. -/
abbrev sE1 : Shape := ⟨2, ![1, 800000]⟩
/-- One row of the edge list, as a vector. -/
abbrev sE : Shape := ⟨1, ![800000]⟩
/-- One entry per node. -/
abbrev sN : Shape := ⟨1, ![50000]⟩
/-- One entry per edge, the self loops included. -/
abbrev sM : Shape := ⟨1, ![850000]⟩
/-- The same, as a column of one-component index vectors. -/
abbrev sM1 : Shape := ⟨2, ![850000, 1]⟩
/-- A scalar. -/
abbrev s0 : Shape := ⟨0, ![]⟩
/-- A feature row per node. -/
abbrev sNF : Shape := ⟨2, ![50000, 256]⟩
/-- A feature row per edge. -/
abbrev sMF : Shape := ⟨2, ![850000, 256]⟩

/-! ### The shape conditions the operations ask for -/

theorem slices_row0 : sEI.Slices ![0, 0] sE1 := by decide
theorem slices_row1 : sEI.Slices ![1, 0] sE1 := by decide
theorem casts_E1_E : sE1.ShapeCasts sE := by decide
theorem concat_E_N_M : Shape.Concatenates [sE, sN] sM 0 := by decide
theorem bcast_0_M : s0.BroadcastsInDim sM (![] : Fin 0 → Fin sM.rank) := by decide
theorem bcast_0_N : s0.BroadcastsInDim sN (![] : Fin 0 → Fin sN.rank) := by decide
theorem bcast_M_M1 : sM.BroadcastsInDim sM1 (![0] : Fin 1 → Fin sM1.rank) := by decide
theorem bcast_M1_MF : sM1.BroadcastsInDim sMF (![0, 1] : Fin 2 → Fin sMF.rank) := by decide
theorem bcast_0_NF : s0.BroadcastsInDim sNF (![] : Fin 0 → Fin sNF.rank) := by decide
theorem scatterN_wf : ScatterDims.WF sN sM1 sM [] [0] [0] 1 := by decide
theorem gatherN_wf : GatherDims.WF sN sM1 sM [] [0] [] [0] [] 1 ![1] := by decide
theorem gatherNF_wf : GatherDims.WF sNF sM1 sMF [1] [0] [] [0] [] 1 ![1, 256] := by decide
theorem scatterNF_wf : ScatterDims.WF sNF sM1 sMF [1] [0] [0] 1 := by decide

/-- Scatter of one scalar per edge into a vector over the nodes, the index its only component. -/
def scatterN : ScatterDims sN sM1 sM where
  updateWindowDims := []
  insertedWindowDims := [0]
  scatterDimsToOperandDims := [0]
  indexVectorDim := 1
  wf := scatterN_wf
/-- Gather of one scalar per edge out of a vector over the nodes. -/
def gatherN : GatherDims sN sM1 sM where
  offsetDims := []
  collapsedSliceDims := [0]
  operandBatchingDims := []
  startIndicesBatchingDims := []
  startIndexMap := [0]
  indexVectorDim := 1
  sliceSizes := ![1]
  wf := gatherN_wf
/-- Gather of one feature row per edge out of the rows of the nodes. -/
def gatherNF : GatherDims sNF sM1 sMF where
  offsetDims := [1]
  collapsedSliceDims := [0]
  operandBatchingDims := []
  startIndicesBatchingDims := []
  startIndexMap := [0]
  indexVectorDim := 1
  sliceSizes := ![1, 256]
  wf := gatherNF_wf
/-- Scatter of one feature row per edge into the rows of the nodes. -/
def scatterNF : ScatterDims sNF sM1 sMF where
  updateWindowDims := [1]
  insertedWindowDims := [0]
  scatterDimsToOperandDims := [0]
  indexVectorDim := 1
  wf := scatterNF_wf

/-! ### The operations composed -/

/-- The target of every edge, then every node once: `ei[0] ++ iota`. -/
def rows (ei : Vec Ideal sEI .i32) : IVec sM 32 :=
  concatenate sM 0
    [⟨sE, shapeCast sE (extractStridedSlice sE1 ![0, 0] ei slices_row0) casts_E1_E⟩, ⟨sN, iotaInDim sN 32 0⟩]
    concat_E_N_M

/-- The source of every edge, then every node once: `ei[1] ++ iota`. -/
def cols (ei : Vec Ideal sEI .i32) : IVec sM 32 :=
  concatenate sM 0
    [⟨sE, shapeCast sE (extractStridedSlice sE1 ![1, 0] ei slices_row1) casts_E1_E⟩, ⟨sN, iotaInDim sN 32 0⟩]
    concat_E_N_M

/-- A negative index counted from the end: `v + 50000` where `v < 0`, else `v`. -/
def wrap (v : IVec sM 32) : IVec sM 32 :=
  select (cmpi .slt v (broadcastInDim sM ![] bcast_0_M (constantI s0 32 0#32)))
    (addi v (broadcastInDim sM ![] bcast_0_M (constantI s0 32 50000#32))) v

/-- The degrees over ANY vector `r` of edge targets: a one for every entry that lands on a node, added up from zero. -/
def degOf (r : IVec sM 32) : FVec Ideal sN .f32 :=
  Host.scatterAdd (F := Ideal) scatterN
    (broadcastInDim sN ![] bcast_0_N (constant (F := Ideal) s0 .f32 0x00000000#32))
    (broadcastInDim sM1 ![0] bcast_M_M1 r)
    (broadcastInDim sM ![] bcast_0_M (constant (F := Ideal) s0 .f32 0x3F800000#32))

/-- The degree of every node. -/
def deg (ei : Vec Ideal sEI .i32) : FVec Ideal sN .f32 := degOf (rows ei)

/-- Over ANY degree vector `d`: its inverse square root where it is positive, zero elsewhere. -/
def dinvOf (d : FVec Ideal sN .f32) : FVec Ideal sN .f32 :=
  select
    (cmpf (F := Ideal) .ogt d (broadcastInDim sN ![] bcast_0_N (constant (F := Ideal) s0 .f32 0x00000000#32)))
    (Host.rsqrt (F := Ideal) d)
    (broadcastInDim sN ![] bcast_0_N (id (constant (F := Ideal) s0 .f32 0x00000000#32)))

/-- The inverse square root of the degree where it is positive, zero elsewhere. -/
def dinv (ei : Vec Ideal sEI .i32) : FVec Ideal sN .f32 := dinvOf (deg ei)

/-- The weights over ANY inverse-root vector `dv` and index vectors `r`, `c`: the product of the two ends' entries. -/
def edgeWOf (dv : FVec Ideal sN .f32) (r c : IVec sM 32) : FVec Ideal sM .f32 :=
  mulf (F := Ideal)
    (Host.gather gatherN dv (broadcastInDim sM1 ![0] bcast_M_M1 (wrap r)))
    (Host.gather gatherN dv (broadcastInDim sM1 ![0] bcast_M_M1 (wrap c)))

/-- The propagation over ANY index vectors `r`, `c` and weights `ew`: every edge carries its source's row times
    its weight to its target, where the rows that arrive are added up from zero. -/
def propOf (r c : IVec sM 32) (ew : FVec Ideal sM .f32) (hw : FVec Ideal sNF .f32) : FVec Ideal sNF .f32 :=
  Host.scatterAdd (F := Ideal) scatterNF
    (broadcastInDim sNF ![] bcast_0_NF (constant (F := Ideal) s0 .f32 0x00000000#32))
    (broadcastInDim sM1 ![0] bcast_M_M1 r)
    (mulf (F := Ideal)
      (Host.gather gatherNF hw (broadcastInDim sM1 ![0] bcast_M_M1 (wrap c)))
      (broadcastInDim sMF ![0, 1] bcast_M1_MF (broadcastInDim sM1 ![0] bcast_M_M1 ew)))

end Graph

open Graph

/-- The weight of every edge: the product of the inverse square roots of the degrees of its two ends. -/
def edgeW (ei : Vec Ideal ⟨2, ![2, 800000]⟩ .i32) : Vec Ideal ⟨1, ![850000]⟩ .f32 :=
  edgeWOf (dinv ei) (rows ei) (cols ei)

/-- One propagation: every edge carries its source's row times its weight to its target, where the
    rows that arrive are added up from zero. -/
def prop (ei : Vec Ideal ⟨2, ![2, 800000]⟩ .i32) (hw : Vec Ideal ⟨2, ![50000, 256]⟩ .f32) :
    Vec Ideal ⟨2, ![50000, 256]⟩ .f32 :=
  propOf (rows ei) (cols ei) (edgeW ei) hw

/-! ### The definitions unfolded, one step each

Each definition is one of the forms over arbitrary operands (`degOf`, `dinvOf`, `edgeWOf`, `propOf`) at the
operands the edge list gives. A comparison with a program's own term is best made against those forms, the operands
already compared being variables: a comparison that leaves the operands written out may evaluate a selection or a sum
at an index, and the sums here run over `850000` edges. -/

namespace Graph
theorem deg_def (ei : Vec Ideal sEI .i32) : deg ei = degOf (rows ei) := rfl
theorem dinv_def (ei : Vec Ideal sEI .i32) : dinv ei = dinvOf (deg ei) := rfl
end Graph

theorem edgeW_def (ei : Vec Ideal ⟨2, ![2, 800000]⟩ .i32) :
    edgeW ei = Graph.edgeWOf (Graph.dinv ei) (Graph.rows ei) (Graph.cols ei) := rfl

theorem prop_def (ei : Vec Ideal ⟨2, ![2, 800000]⟩ .i32) (hw : Vec Ideal ⟨2, ![50000, 256]⟩ .f32) :
    prop ei hw = Graph.propOf (Graph.rows ei) (Graph.cols ei) (edgeW ei) hw := rfl

/-- The weights from the edge list, all in one: what the chain of the four forms gives. -/
theorem edgeW_eq (ei : Vec Ideal ⟨2, ![2, 800000]⟩ .i32) :
    Graph.edgeWOf (Graph.dinvOf (Graph.degOf (Graph.rows ei))) (Graph.rows ei) (Graph.cols ei) = edgeW ei := rfl

/-! ## Finiteness -/

namespace Graph

/-- A finite sum of reals is a real. -/
theorem exists_real_sum {κ : Type*} (s : Finset κ) (f : κ → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨ra, hra⟩ := hf a (Finset.mem_insert_self a s)
    obtain ⟨rs, hrs⟩ := ih fun k hk => hf k (Finset.mem_insert_of_mem hk)
    exact ⟨ra + rs, by rw [Finset.sum_insert ha, hra, hrs, EReal.coe_add]⟩

/-- A gathered entry is an entry of the operand, whatever the indices. -/
theorem isReal_gather {s si t : Shape} {w : ℕ} (d : GatherDims s si t) (x : s.Idx → EReal) (idx : IVec si w)
    (hx : IsReal x) : IsReal (Host.gather d x idx) :=
  fun j => hx (d.operandIdx j idx)

/-- A broadcast entry is an entry of the operand. -/
theorem isReal_broadcastInDim {s t : Shape} (dims : Fin s.rank → Fin t.rank) (h : s.BroadcastsInDim t dims)
    (x : s.Idx → EReal) (hx : IsReal x) : IsReal (broadcastInDim t dims h x) :=
  fun _ => hx _

/-- A product of reals is a real. -/
theorem isReal_mulf {s : Shape} {φ : FTy} (x y : FVec Ideal s φ) (hx : IsReal x) (hy : IsReal y) :
    IsReal (mulf (F := Ideal) x y) := by
  intro i
  obtain ⟨a, ha⟩ := hx i
  obtain ⟨b, hb⟩ := hy i
  exact ⟨a * b, by show x i * y i = _; rw [ha, hb, EReal.coe_mul]⟩

/-- An entry of an accumulating scatter is the operand's entry plus a finite sum of update entries: a real
    when those are, whatever the indices. -/
theorem isReal_scatterAdd {s si u : Shape} {φ : FTy} {w : ℕ} (d : ScatterDims s si u) (x : FVec Ideal s φ)
    (idx : IVec si w) (upd : FVec Ideal u φ) (hx : IsReal x) (hu : IsReal upd) :
    IsReal (Host.scatterAdd (F := Ideal) d x idx upd) := by
  intro i
  obtain ⟨a, ha⟩ := hx i
  obtain ⟨b, hb⟩ := exists_real_sum (Finset.univ.filter fun j => d.resultIdx? j idx = some i) upd fun k _ => hu k
  refine ⟨a + b, ?_⟩
  show Ideal.hostScatterAdd d x idx upd i = _
  unfold Ideal.hostScatterAdd
  rw [ha, EReal.coe_add, ← hb]

/-- The splat of the zero pattern is real. -/
theorem isReal_zeros (s : Shape) : IsReal (constant (F := Ideal) s .f32 0x00000000#32) :=
  fun _ => ⟨0, by show Ideal.ofBits .f32 0x00000000#32 = _; rw [Ideal.ofBits_zero_f32]; rfl⟩

/-- The splat of the pattern of one is real. -/
theorem isReal_ones (s : Shape) : IsReal (constant (F := Ideal) s .f32 0x3F800000#32) :=
  fun _ => ⟨1, by show Ideal.ofBits .f32 0x3F800000#32 = _; rw [Ideal.ofBits_one_f32]; rfl⟩

/-- Every degree is a real, whatever the targets. -/
theorem isReal_degOf (r : IVec sM 32) : IsReal (degOf r) :=
  isReal_scatterAdd _ _ _ _ (isReal_broadcastInDim _ _ _ (isReal_zeros _)) (isReal_broadcastInDim _ _ _ (isReal_ones _))

theorem isReal_deg (ei : Vec Ideal sEI .i32) : IsReal (deg ei) := isReal_degOf _

/-- The inverse square root where the argument is positive and zero elsewhere is a real at EVERY extended real:
    at `⊤` it is `0`, at `⊥` and at a real that is not positive the zero is chosen, at a positive real it is
    the real `(√r)⁻¹`. -/
theorem exists_real_select_rsqrt (d z : EReal) (hz : z = 0) :
    ∃ r : ℝ, Scalar.select (Ideal.cmp .ogt d z) (Ideal.rsqrt d) z = (r : EReal) := by
  subst hz
  induction d using EReal.rec with
  | bot => exact ⟨0, by simp [Scalar.select, Ideal.cmp]⟩
  | top => exact ⟨0, by simp [Scalar.select, Ideal.cmp]⟩
  | coe r =>
    by_cases hr : 0 < r
    · refine ⟨(Real.sqrt r)⁻¹, ?_⟩
      have h1 : Ideal.cmp .ogt (r : EReal) 0 = 1 := by
        simp [Ideal.cmp, EReal.coe_pos.2 hr]
      rw [Scalar.select, if_pos h1, Ideal.rsqrt_coe, if_neg (not_lt.2 hr.le), if_neg hr.ne']
    · refine ⟨0, ?_⟩
      have h1 : Ideal.cmp .ogt (r : EReal) 0 ≠ 1 := by
        have : ¬ (0 : EReal) < (r : EReal) := fun h => hr (EReal.coe_pos.1 h)
        simp [Ideal.cmp, this]
      rw [Scalar.select, if_neg h1]; rfl

/-- The broadcast of the zero splat reads zero everywhere. -/
theorem broadcast_zeros_apply {s t : Shape} (dims : Fin s.rank → Fin t.rank) (h : s.BroadcastsInDim t dims) (i : t.Idx) :
    broadcastInDim t dims h (constant (F := Ideal) s .f32 0x00000000#32) i = 0 := by
  show Ideal.ofBits .f32 0x00000000#32 = 0
  exact Ideal.ofBits_zero_f32

/-- The selection "inverse square root where positive, else zero" of ANY vector is a real vector. -/
theorem isReal_select_rsqrt {s : Shape} (d z z' : FVec Ideal s .f32) (hz : ∀ i, z i = 0) (hz' : ∀ i, z' i = 0) :
    IsReal (select (cmpf (F := Ideal) .ogt d z) (Host.rsqrt (F := Ideal) d) z') := by
  intro i
  obtain ⟨r, hr⟩ := exists_real_select_rsqrt (d i) 0 rfl
  refine ⟨r, ?_⟩
  show Scalar.select (Ideal.cmp .ogt (d i) (z i)) (Ideal.rsqrt (d i)) (z' i) = _
  rw [hz i, hz' i, hr]

/-- The selected inverse square roots are reals, over ANY degree vector. -/
theorem isReal_dinvOf (d : FVec Ideal sN .f32) : IsReal (dinvOf d) := by
  unfold dinvOf
  exact isReal_select_rsqrt _ _ _ (fun i => broadcast_zeros_apply _ _ i) (fun i => broadcast_zeros_apply _ _ i)

theorem isReal_dinv (ei : Vec Ideal sEI .i32) : IsReal (dinv ei) := isReal_dinvOf _

/-- Weights made of real inverse roots are reals, whatever the indices. -/
theorem isReal_edgeWOf (dv : FVec Ideal sN .f32) (r c : IVec sM 32) (h : IsReal dv) : IsReal (edgeWOf dv r c) :=
  isReal_mulf _ _ (isReal_gather _ _ _ h) (isReal_gather _ _ _ h)

/-- The propagation of a real array along real weights is a real array, whatever the indices. -/
theorem isReal_propOf (r c : IVec sM 32) (ew : FVec Ideal sM .f32) (hw : FVec Ideal sNF .f32) (hew : IsReal ew)
    (hhw : IsReal hw) : IsReal (propOf r c ew hw) :=
  isReal_scatterAdd _ _ _ _ (isReal_broadcastInDim _ _ _ (isReal_zeros _))
    (isReal_mulf _ _ (isReal_gather _ _ _ hhw)
      (isReal_broadcastInDim _ _ _ (isReal_broadcastInDim _ _ _ hew)))

end Graph

/-- Every edge weight is a real, for every edge list. -/
theorem isReal_edgeW (ei : Vec Ideal ⟨2, ![2, 800000]⟩ .i32) : IsReal (edgeW ei) :=
  isReal_edgeWOf _ _ _ (isReal_dinv ei)

/-- The propagation of a real array is a real array, for every edge list. -/
theorem isReal_prop (ei : Vec Ideal ⟨2, ![2, 800000]⟩ .i32) (hw : Vec Ideal ⟨2, ![50000, 256]⟩ .f32)
    (h : IsReal hw) : IsReal (prop ei hw) :=
  isReal_propOf _ _ _ _ (isReal_edgeW ei) h

end Cert.Spec
-- ==== Proof.KI.ReadGraph.lean ====
/-
  The graph buffers of the first program, read as the shared graph functions of the edge list.

  The host statements that compute the edge weights and each propagation are the same operations, in the same order,
  as the definitions of `Cert.Spec.Graph`. Each stretch is read stage by stage: a stage is a short run of statements,
  its operands are VARIABLES (what the entering valuation holds in the buffers the stage reads), and its result is
  one of the forms `rows`, `cols`, `degOf`, `dinvOf`, `edgeWOf`, `propOf` at those variables. Nothing is ever
  compared with its operands written out, so no comparison can evaluate a selection or a sum at an index.
-/
import proofs.«146967_j25786983645193_1_alg».proof.Proof.Gen.KernelIdeal.Launch
import proofs.«146967_j25786983645193_1_alg».proof.Proof.Spec.Graph
import Idealize.ShloMosaic.Lib.StableHlo.Run

noncomputable section

namespace Cert.KernelIdeal.Reg

open Cert.KernelIdeal Cert.KernelIdeal.Gen
open Idealize.ShloMosaic Idealize.ShloMosaic.TcCoe Idealize.ShloMosaic.StableHlo
open Cert.Spec (edgeW prop)
open Cert.Spec.Graph (rows cols degOf dinvOf edgeWOf propOf)

/-- Two runs of statements one after the other are their concatenation run as one. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## The stages of the first three stretches -/

/-- Statements 1 … 7: the two index vectors. -/
abbrev gsegA : List (HloOp τ sig (Elt Ideal)) := (hostOps0 (F := Ideal)).take 7
/-- Statements 8 … 13: the degrees. -/
abbrev gsegB : List (HloOp τ sig (Elt Ideal)) := ((hostOps0 (F := Ideal)).drop 7).take 6
/-- Statements 14 … 18 and the three of the selection they feed: the inverse roots. -/
abbrev gsegC : List (HloOp τ sig (Elt Ideal)) := (hostOps0 (F := Ideal)).drop 13

theorem hostOps0_split : (hostOps0 : List (HloOp τ sig (Elt Ideal))) = gsegA ++ (gsegB ++ gsegC) := rfl

theorem stageA_rows (V : Valuation τ sig (Elt Ideal)) (ei : Vec Ideal ⟨2, ![2, 800000]⟩ .i32)
    (h : V (Proc.devRef .tc main_arg1) = ei) : after gsegA V (Proc.devRef .tc main_v3) = rows ei := by
  simp only [gsegA, hostOps0, List.take]
  after_results
  rw [h]
  rfl

theorem stageA_cols (V : Valuation τ sig (Elt Ideal)) (ei : Vec Ideal ⟨2, ![2, 800000]⟩ .i32)
    (h : V (Proc.devRef .tc main_arg1) = ei) : after gsegA V (Proc.devRef .tc main_v6) = cols ei := by
  simp only [gsegA, hostOps0, List.take]
  after_results
  rw [h]
  rfl

theorem stageB_deg (V : Valuation τ sig (Elt Ideal)) (r : IVec ⟨1, ![850000]⟩ 32)
    (h3 : V (Proc.devRef .tc main_v3) = r) : after gsegB V (Proc.devRef .tc main_v10) = degOf r := by
  simp only [gsegB, hostOps0, List.take, List.drop]
  after_results
  rw [h3]
  rfl

theorem stageB_keep3 (V : Valuation τ sig (Elt Ideal)) :
    after gsegB V (Proc.devRef .tc main_v3) = V (Proc.devRef .tc main_v3) := by
  simp only [gsegB, hostOps0, List.take, List.drop]
  after_results

theorem stageB_keep6 (V : Valuation τ sig (Elt Ideal)) :
    after gsegB V (Proc.devRef .tc main_v6) = V (Proc.devRef .tc main_v6) := by
  simp only [gsegB, hostOps0, List.take, List.drop]
  after_results

theorem stageC_dinv (V : Valuation τ sig (Elt Ideal)) (d : FVec Ideal ⟨1, ![50000]⟩ .f32)
    (h10 : V (Proc.devRef .tc main_v10) = d) :
    after (gsegC ++ hostOps0_1) V (Proc.devRef .tc main_v14) = dinvOf d := by
  simp only [gsegC, hostOps0, hostOps0_1, List.drop, List.cons_append, List.nil_append]
  after_results
  rw [h10]
  rfl

theorem stageC_keep3 (V : Valuation τ sig (Elt Ideal)) :
    after (gsegC ++ hostOps0_1) V (Proc.devRef .tc main_v3) = V (Proc.devRef .tc main_v3) := by
  simp only [gsegC, hostOps0, hostOps0_1, List.drop, List.cons_append, List.nil_append]
  after_results

theorem stageC_keep6 (V : Valuation τ sig (Elt Ideal)) :
    after (gsegC ++ hostOps0_1) V (Proc.devRef .tc main_v6) = V (Proc.devRef .tc main_v6) := by
  simp only [gsegC, hostOps0, hostOps0_1, List.drop, List.cons_append, List.nil_append]
  after_results

set_option maxHeartbeats 1600000 in -- some twenty statements rewritten one by one
theorem stageD_ew (V : Valuation τ sig (Elt Ideal)) (dv : FVec Ideal ⟨1, ![50000]⟩ .f32) (r c : IVec ⟨1, ![850000]⟩ 32)
    (h3 : V (Proc.devRef .tc main_v3) = r) (h6 : V (Proc.devRef .tc main_v6) = c)
    (h14 : V (Proc.devRef .tc main_v14) = dv) :
    after hostOps0_2 V (Proc.devRef .tc main_v29) = edgeWOf dv r c := by
  simp only [hostOps0_2]
  after_results
  rw [h3, h6, h14]
  rfl

theorem stageD_keep3 (V : Valuation τ sig (Elt Ideal)) :
    after hostOps0_2 V (Proc.devRef .tc main_v3) = V (Proc.devRef .tc main_v3) := by
  simp only [hostOps0_2]
  after_results

theorem stageD_keep6 (V : Valuation τ sig (Elt Ideal)) :
    after hostOps0_2 V (Proc.devRef .tc main_v6) = V (Proc.devRef .tc main_v6) := by
  simp only [hostOps0_2]
  after_results

/-- After the first three stretches the two index vectors and the weights are the graph functions of the edge list. -/
theorem read_graph (V : Valuation τ sig (Elt Ideal)) :
    after hostOps0_2 (after hostOps0_1 (after hostOps0 V)) (Proc.devRef .tc main_v3)
        = rows (V (Proc.devRef .tc main_arg1)) ∧
    after hostOps0_2 (after hostOps0_1 (after hostOps0 V)) (Proc.devRef .tc main_v6)
        = cols (V (Proc.devRef .tc main_arg1)) ∧
    after hostOps0_2 (after hostOps0_1 (after hostOps0 V)) (Proc.devRef .tc main_v29)
        = edgeW (V (Proc.devRef .tc main_arg1)) := by
  generalize hei : V (Proc.devRef .tc main_arg1) = ei
  rw [hostOps0_split, after_append', after_append', ← after_append' gsegC hostOps0_1]
  have hA3 := stageA_rows V ei hei
  have hA6 := stageA_cols V ei hei
  generalize after gsegA V = VA at hA3 hA6 ⊢
  have hB10 := stageB_deg VA _ hA3
  have hB3 := (stageB_keep3 VA).trans hA3
  have hB6 := (stageB_keep6 VA).trans hA6
  generalize after gsegB VA = VB at hB10 hB3 hB6 ⊢
  have hC14 := stageC_dinv VB _ hB10
  have hC3 := (stageC_keep3 VB).trans hB3
  have hC6 := (stageC_keep6 VB).trans hB6
  generalize after (gsegC ++ hostOps0_1) VB = VC at hC14 hC3 hC6 ⊢
  exact ⟨(stageD_keep3 VC).trans hC3, (stageD_keep6 VC).trans hC6,
    (stageD_ew VC _ _ _ hC3 hC6 hC14).trans (Cert.Spec.edgeW_eq ei)⟩

theorem read_rows (V : Valuation τ sig (Elt Ideal)) :
    after hostOps0_2 (after hostOps0_1 (after hostOps0 V)) (Proc.devRef .tc main_v3)
      = rows (V (Proc.devRef .tc main_arg1)) := (read_graph V).1

theorem read_cols (V : Valuation τ sig (Elt Ideal)) :
    after hostOps0_2 (after hostOps0_1 (after hostOps0 V)) (Proc.devRef .tc main_v6)
      = cols (V (Proc.devRef .tc main_arg1)) := (read_graph V).2.1

theorem read_edgeW (V : Valuation τ sig (Elt Ideal)) :
    after hostOps0_2 (after hostOps0_1 (after hostOps0 V)) (Proc.devRef .tc main_v29)
      = edgeW (V (Proc.devRef .tc main_arg1)) := (read_graph V).2.2

/-! ## The three propagations -/

set_option maxHeartbeats 1600000 in -- some twenty statements rewritten one by one
theorem stage_prop1 (V : Valuation τ sig (Elt Ideal)) (r c : IVec ⟨1, ![850000]⟩ 32) (ew : FVec Ideal ⟨1, ![850000]⟩ .f32)
    (hw : FVec Ideal ⟨2, ![50000, 256]⟩ .f32) (h3 : V (Proc.devRef .tc main_v3) = r) (h6 : V (Proc.devRef .tc main_v6) = c)
    (h29 : V (Proc.devRef .tc main_v29) = ew) (h30 : V (Proc.devRef .tc main_v30) = hw) :
    after hostOps1 V (Proc.devRef .tc main_v43) = propOf r c ew hw := by
  simp only [hostOps1]
  after_results
  rw [h3, h6, h29, h30]
  rfl

set_option maxHeartbeats 1600000 in -- some twenty statements rewritten one by one
theorem stage_prop2 (V : Valuation τ sig (Elt Ideal)) (r c : IVec ⟨1, ![850000]⟩ 32) (ew : FVec Ideal ⟨1, ![850000]⟩ .f32)
    (hw : FVec Ideal ⟨2, ![50000, 256]⟩ .f32) (h3 : V (Proc.devRef .tc main_v3) = r) (h6 : V (Proc.devRef .tc main_v6) = c)
    (h29 : V (Proc.devRef .tc main_v29) = ew) (h68 : V (Proc.devRef .tc main_v68) = hw) :
    after hostOps4 V (Proc.devRef .tc main_v81) = propOf r c ew hw := by
  simp only [hostOps4]
  after_results
  rw [h3, h6, h29, h68]
  rfl

set_option maxHeartbeats 1600000 in -- some twenty statements rewritten one by one
theorem stage_prop3 (V : Valuation τ sig (Elt Ideal)) (r c : IVec ⟨1, ![850000]⟩ 32) (ew : FVec Ideal ⟨1, ![850000]⟩ .f32)
    (hw : FVec Ideal ⟨2, ![50000, 256]⟩ .f32) (h3 : V (Proc.devRef .tc main_v3) = r) (h6 : V (Proc.devRef .tc main_v6) = c)
    (h29 : V (Proc.devRef .tc main_v29) = ew) (h106 : V (Proc.devRef .tc main_v106) = hw) :
    after hostOps7 V (Proc.devRef .tc main_v119) = propOf r c ew hw := by
  simp only [hostOps7]
  after_results
  rw [h3, h6, h29, h106]
  rfl

/-- The first propagation: of what the entering valuation holds in the first product's buffer. -/
theorem read_prop1 (V : Valuation τ sig (Elt Ideal)) (ei : Vec Ideal ⟨2, ![2, 800000]⟩ .i32)
    (h3 : V (Proc.devRef .tc main_v3) = rows ei) (h6 : V (Proc.devRef .tc main_v6) = cols ei)
    (h29 : V (Proc.devRef .tc main_v29) = edgeW ei) :
    after hostOps1 V (Proc.devRef .tc main_v43) = prop ei (V (Proc.devRef .tc main_v30)) :=
  stage_prop1 V _ _ _ _ h3 h6 h29 rfl

/-- The second propagation. -/
theorem read_prop2 (V : Valuation τ sig (Elt Ideal)) (ei : Vec Ideal ⟨2, ![2, 800000]⟩ .i32)
    (h3 : V (Proc.devRef .tc main_v3) = rows ei) (h6 : V (Proc.devRef .tc main_v6) = cols ei)
    (h29 : V (Proc.devRef .tc main_v29) = edgeW ei) :
    after hostOps4 V (Proc.devRef .tc main_v81) = prop ei (V (Proc.devRef .tc main_v68)) :=
  stage_prop2 V _ _ _ _ h3 h6 h29 rfl

/-- The third propagation. -/
theorem read_prop3 (V : Valuation τ sig (Elt Ideal)) (ei : Vec Ideal ⟨2, ![2, 800000]⟩ .i32)
    (h3 : V (Proc.devRef .tc main_v3) = rows ei) (h6 : V (Proc.devRef .tc main_v6) = cols ei)
    (h29 : V (Proc.devRef .tc main_v29) = edgeW ei) :
    after hostOps7 V (Proc.devRef .tc main_v119) = prop ei (V (Proc.devRef .tc main_v106)) :=
  stage_prop3 V _ _ _ _ h3 h6 h29 rfl

end Cert.KernelIdeal.Reg
-- ==== Proof.Spec.OpMM.lean ====
/- The whole-array matrix product at the ideal values, stated free of any program: `mm a w`, the product of an
   `M × K` array by a `K × N` array as ONE function of its two operands, at any sizes; and the reading of a
   matrix-unit product with the plain dimension numbers (left operand contracted on its second axis, right operand
   on its first, no batch axis) into a zero accumulator as that sum, index by index.
   At the ideal values a product is the sum over the contraction coordinate of the products of the operands'
   elements: there is no rounding and no order of summation in it. -/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The product of an `M × K` array by a `K × N` array: at row `i 0` and column `i 1`, the sum over the
    contraction coordinate `k` of `a (i 0, k) * w (k, i 1)`. -/
def mm {M K N : Nat} (a : Vec Ideal ⟨2, ![M, K]⟩ .f32) (w : Vec Ideal ⟨2, ![K, N]⟩ .f32) : Vec Ideal ⟨2, ![M, N]⟩ .f32 :=
  fun i => ∑ k : Fin K, a (ix2 (i 0) k) * w (ix2 k (i 1))

/-- The product read at an index (the definition unfolded). -/
theorem mm_apply {M K N : Nat} (a : Vec Ideal ⟨2, ![M, K]⟩ .f32) (w : Vec Ideal ⟨2, ![K, N]⟩ .f32) (i : (⟨2, ![M, N]⟩ : Shape).Idx) :
    mm a w i = ∑ k : Fin K, a (ix2 (i 0) k) * w (ix2 k (i 1)) := rfl

/-- Rows of a product are products of rows: if `a'` is `a` read from row `r` on (`ha`), then `mm a' w` at row `x`
    is `mm a w` at row `r + x`: the contraction never looks at another row. Stated index by index, the row of the
    larger array named by the caller (`i`, with `hi`: same column; `hrow`: what `a'`'s row `j 0` is in `a`). -/
theorem mm_rows {M M' K N : Nat} (a : Vec Ideal ⟨2, ![M, K]⟩ .f32) (a' : Vec Ideal ⟨2, ![M', K]⟩ .f32) (w : Vec Ideal ⟨2, ![K, N]⟩ .f32)
    (j : (⟨2, ![M', N]⟩ : Shape).Idx) (i : (⟨2, ![M, N]⟩ : Shape).Idx) (hi : i 1 = j 1)
    (hrow : ∀ k : Fin K, a' (ix2 (j 0) k) = a (ix2 (i 0) k)) : mm a' w j = mm a w i := by
  rw [mm_apply, mm_apply, hi]
  exact Finset.sum_congr rfl fun k _ => by rw [hrow k]

/-- A matrix-unit product with the plain dimension numbers — the left operand contracted on its second axis, the
    right on its first, the result's axes the left's rows then the right's columns, no batch axis — into the zero
    accumulator, read at an index: the sum over the contraction coordinate of the products. The contraction index
    of such a product is its one coordinate (`contrEquiv1`), through which the sum is re-indexed. -/
theorem matmul_plain_zero_apply {m K N : Nat} {φ₁ φ₂ : FTy} (d : DotDims ⟨2, ![m, K]⟩ ⟨2, ![K, N]⟩ ⟨2, ![m, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![m, K]⟩ φ₁) (y : FVec Ideal ⟨2, ![K, N]⟩ φ₂)
    (j : (⟨2, ![m, N]⟩ : Shape).Idx) :
    FloatOps.matmul d prec x y (constant ⟨2, ![m, N]⟩ .f32 0x00000000#32) j = ∑ k : Fin K, x (ix2 (j 0) k) * y (ix2 k (j 1)) := by
  rw [Ideal.matmul_constant_zero_apply]
  obtain ⟨lc, rc, ln, rn, lb, rb, wf⟩ := d
  dsimp only at hlc hrc hln hrn hlb hrb
  subst hlc hrc hln hrn hlb hrb
  -- the contraction index is its one coordinate
  let e := contrEquiv1 (⟨[1], [0], [0], [1], [], [], wf⟩ : DotDims ⟨2, ![m, K]⟩ ⟨2, ![K, N]⟩ ⟨2, ![m, N]⟩) K rfl rfl
  rw [← Equiv.sum_comp e.symm]
  refine Finset.sum_congr rfl fun k _ => ?_
  have hk : ((e.symm k) ⟨0, Nat.zero_lt_one⟩ : ℕ) = k.val := contrEquiv1_symm_val _ K rfl rfl k
  have hl : (⟨[1], [0], [0], [1], [], [], wf⟩ : DotDims ⟨2, ![m, K]⟩ ⟨2, ![K, N]⟩ ⟨2, ![m, N]⟩).lhsIdx j (e.symm k) = ix2 (j 0) k := by
    funext a
    match a with
    | ⟨0, _⟩ => exact Fin.ext rfl
    | ⟨1, _⟩ => exact Fin.ext hk
  have hr : (⟨[1], [0], [0], [1], [], [], wf⟩ : DotDims ⟨2, ![m, K]⟩ ⟨2, ![K, N]⟩ ⟨2, ![m, N]⟩).rhsIdx j (e.symm k) = ix2 k (j 1) := by
    funext a
    match a with
    | ⟨0, _⟩ => exact Fin.ext hk
    | ⟨1, _⟩ => exact Fin.ext rfl
  rw [hl, hr]
  rfl

end Cert.Spec
-- ==== Proof.KI.Val0.lean ====
/- REGION 0's output array after the region, at the ideal values, as ONE whole-array function of the region's two
   input arrays as it finds them: the [50000, 256] array ends holding the matrix product of the [50000, 512] array
   by the [512, 256] weight (`Cert.Spec.mm`).
   The road: at the ideal values narrowing to bf16 changes nothing and the product onto a zero accumulator is the
   sum over the contraction coordinate, so the body's payload at row `x`, column `y` of a block is
   `∑ k, block (x, k) * weight (k, y)` (`pay0_apply`). Point `t`'s row block is rows `1000 t …` of the array and
   its output block the same rows of the output, while the weight's block is the whole weight at every point
   (`idx_facts0`, decided over the 50 points); a product's rows are the products of the rows, so what point `t`
   writes back is block `t` of the whole product (`flushed0_2_eq`). Every point writes back, and row `r` lies in
   the block of point `r / 1000` (`cover0_out`), so the array ends holding the product and nothing of what it held
   before (`arrAt0_out`). -/
import proofs.«146967_j25786983645193_1_alg».proof.Proof.KI.Reg0
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz0 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay0_apply (xa : Vec Ideal S1000x512 .f32) (xb : Vec Ideal S512x256 .f32) (j : S1000x256.Idx) :
    k0_pay1 (F := Ideal) xa xb j = ∑ k : Fin 512, xa (ix2 (j 0) k) * xb (ix2 k (j 1)) := by
  unfold k0_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed0_2_eq (c : Dev nD) (t : Fin cfg0.N) :
    (dat0 (F := Ideal) V c).flushed 2 t
      = ((cfg0.win 2).blk t).view.read (Elt Ideal)
          (Cert.Spec.mm (M := 50000) (K := 512) (N := 256) (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S1000x512) hz0, View.ld_unit_zero (S := S512x256) hz0]
  obtain ⟨e0, e1, e2, e3, e4, e5⟩ := idx_facts0 t
  funext j
  show k0_pay1 (F := Ideal) (iblk0 V c 0 t) (iblk0 V c 1 t) j
    = Cert.Spec.mm (M := 50000) (K := 512) (N := 256) (V c (Pipeline.arrRef spec0 0)) (V c (Pipeline.arrRef spec0 1)) (((cfg0.win 2).blk t).view.emb j)
  rw [pay0_apply, Cert.Spec.mm_apply]
  refine Finset.sum_congr rfl fun k _ => ?_
  -- the row block's element (j 0, k) is the array's at the output block's row and column k
  have ha : ((cfg0.win 0).blk t).view.emb (ix2 (j 0) k) = ix2 ((((cfg0.win 2).blk t).view.emb j) 0) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 512 + 1 * k.val = k.val; omega
  -- the weight's element (k, j 1) is the array's at row k and the output block's column
  have hb : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  -- each block's element is its array's at the embedded index (a read through a view is precomposition)
  unfold iblk0
  rw [View.read_apply, View.read_apply]
  rewrite [ha, hb]
  rfl

/-! ## The output blocks cover the array -/

/-- An index of the output array is in point `t`'s block iff each coordinate is in the block's range on its axis. -/
theorem mem_blk0_2 (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole (Pipeline.arrRef spec0 2)).slice (win0_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover0_out (i : S50000x256.Idx) :
    ∃ t : Fin cfg0.N, (cfg0.win 2).flush t = true ∧ i ∈ ((cfg0.win 2).blk t).view.set := by
  have hr : (i 0).val < 50000 := idx2_lt0 i
  have hc : (i 1).val < 256 := idx2_lt1 i
  have hN : cfg0.N = 50 := N_0
  let t : Fin cfg0.N := ⟨(i 0).val / 1000, by rw [hN]; omega⟩
  have ht : t.val = (i 0).val / 1000 := rfl
  obtain ⟨-, -, -, -, e4, e5⟩ := idx_facts0 t
  refine ⟨t, flush0_2 t, (mem_blk0_2 t i).mpr fun a => ?_⟩
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-! ## The output array after the region -/

/-- The product of the region's two arrays, at the program's shapes: `Cert.Spec.mm` at 50000 × 512 by 512 × 256. -/
abbrev mm0 (a : Vec Ideal S50000x512 .f32) (w : Vec Ideal S512x256 .f32) : Vec Ideal S50000x256 .f32 :=
  Cert.Spec.mm (M := 50000) (K := 512) (N := 256) a w

/-- THE OUTPUT ARRAY after the region, as one whole-array function of the two input arrays as the region finds
    them: their product. Every point writes back its block of that product (`flushed0_2_eq`) and the blocks cover
    the array (`cover0_out`), so nothing of what the array held before remains. -/
theorem arrAt0_out (c : Dev nD) :
    (dat0 (F := Ideal) V c).arrAt 2 cfg0.N = mm0 (V c (Pipeline.arrRef spec0 0)) (V c (Pipeline.arrRef spec0 1)) :=
  (dat0 (F := Ideal) V c).arrAt_eq_of_cover 2 _ (fun t _ => flushed0_2_eq V c t) cover0_out

end Cert.KernelIdeal.Reg
-- ==== Proof.Spec.OpSum.lean ====
/- The column sums of an array and of its elementwise square, as functions of whole arrays at the ideal
   (extended-real) float values, index by index: for an array `h` of `n` rows and `d` columns,

     colsum h (0, k)   = ∑ r < n, h (r, k)
     colsumsq h (0, k) = ∑ r < n, h (r, k) · h (r, k),

   each a `[1, d]` array. Addition of extended reals is commutative and associative, so the sum needs no order and
   no finiteness. Nothing of any program is named: shapes are literals, the sizes are parameters. -/
import Idealize.ShloMosaic.PureOps.Ideal
import Idealize.ShloMosaic.PureOps.Ideal.Laws
import Idealize.ShloMosaic.Lib.ValueIdx
import Idealize.ShloMosaic.Lib.FinSumWindow

noncomputable section

namespace Cert.Spec

open Idealize.ShloMosaic Idealize.ShloMosaic.ValueIdx

/-- The sum of each column of `h` over all its rows. -/
def colsum {n d : Nat} (h : Vec Ideal ⟨2, ![n, d]⟩ .f32) : Vec Ideal ⟨2, ![1, d]⟩ .f32 :=
  fun j => ∑ r : Fin n, h (ix2 r (j 1))

/-- The sum of the squares of each column of `h` over all its rows. -/
def colsumsq {n d : Nat} (h : Vec Ideal ⟨2, ![n, d]⟩ .f32) : Vec Ideal ⟨2, ![1, d]⟩ .f32 :=
  fun j => ∑ r : Fin n, h (ix2 r (j 1)) * h (ix2 r (j 1))

/-- `colsum` at an index, unfolded. -/
theorem colsum_apply {n d : Nat} (h : Vec Ideal ⟨2, ![n, d]⟩ .f32) (j : (⟨2, ![1, d]⟩ : Shape).Idx) :
    colsum h j = ∑ r : Fin n, h (ix2 r (j 1)) := rfl

/-- `colsumsq` at an index, unfolded. -/
theorem colsumsq_apply {n d : Nat} (h : Vec Ideal ⟨2, ![n, d]⟩ .f32) (j : (⟨2, ![1, d]⟩ : Shape).Idx) :
    colsumsq h j = ∑ r : Fin n, h (ix2 r (j 1)) * h (ix2 r (j 1)) := rfl

/-! ## A sum over rows, accumulated one block of rows after another

A grid that visits an array's rows block by block, `W` rows at a time, and adds each block's sum to a running
total, holds after block `n` the sum over the rows below `W · (n + 1)`; after the last block that is the sum
over all rows. Stated for any additive commutative monoid, as a sum over ALL rows of a function cut off at the bound, so
that no row index changes type along the way. -/

section Blocks
variable {R : Type*} [AddCommMonoid R]

/-- The sum of `g` over the rows below `W · (n + 1)`: the first `n + 1` blocks of `W` rows. -/
def rowsBelow {N : ℕ} (W : ℕ) (g : Fin N → R) (n : ℕ) : R :=
  ∑ P : Fin N, if P.val < W * (n + 1) then g P else 0

/-- One block's sum, as a sum over all rows of `g` cut off outside the block's rows `[lo, lo + W)`. -/
theorem sum_block_eq {N : ℕ} (W lo : ℕ) (hlo : lo + W ≤ N) (g : Fin N → R) :
    ∑ p : Fin W, g ⟨lo + p.val, by have := p.isLt; omega⟩
      = ∑ P : Fin N, if lo ≤ P.val ∧ P.val < lo + W then g P else 0 := by
  rw [FinSumWindow.sum_window lo hlo (fun P : Fin N => if lo ≤ P.val ∧ P.val < lo + W then g P else 0)
    (fun P hP => if_neg hP)]
  exact Finset.sum_congr rfl fun p _ => (if_pos ⟨Nat.le_add_right _ _, Nat.add_lt_add_left p.isLt lo⟩).symm

/-- After the first block: that block's sum. -/
theorem rowsBelow_zero {N : ℕ} (W : ℕ) (hW : W ≤ N) (g : Fin N → R) :
    rowsBelow W g 0 = ∑ p : Fin W, g ⟨p.val, by have := p.isLt; omega⟩ := by
  have e := sum_block_eq W 0 (by omega) g
  simp only [Nat.zero_add, Nat.zero_le, true_and] at e
  unfold rowsBelow
  rw [e]
  exact Finset.sum_congr rfl fun P _ => by rw [Nat.zero_add, Nat.mul_one]

/-- One more block: what was there plus that block's sum. -/
theorem rowsBelow_succ {N : ℕ} (W : ℕ) (g : Fin N → R) (n : ℕ) (h : W * (n + 1) + W ≤ N) :
    rowsBelow W g (n + 1)
      = rowsBelow W g n + ∑ p : Fin W, g ⟨W * (n + 1) + p.val, by have := p.isLt; omega⟩ := by
  rw [sum_block_eq W (W * (n + 1)) h g]
  unfold rowsBelow
  rw [← Finset.sum_add_distrib]
  refine Finset.sum_congr rfl fun P _ => ?_
  have hs : W * (n + 1 + 1) = W * (n + 1) + W := Nat.mul_succ W (n + 1)
  rw [hs]
  by_cases h1 : P.val < W * (n + 1)
  · rw [if_pos (by omega), if_pos h1, if_neg (by omega), add_zero]
  · by_cases h2 : P.val < W * (n + 1) + W
    · rw [if_pos h2, if_neg h1, if_pos ⟨by omega, h2⟩, zero_add]
    · rw [if_neg h2, if_neg h1, if_neg (fun hh => h2 hh.2), add_zero]

/-- After the last block: the sum over all rows. -/
theorem rowsBelow_all {N : ℕ} (W : ℕ) (g : Fin N → R) (n : ℕ) (h : N ≤ W * (n + 1)) :
    rowsBelow W g n = ∑ P : Fin N, g P :=
  Finset.sum_congr rfl fun P _ => if_pos (by have := P.isLt; omega)

end Blocks

end Cert.Spec
-- ==== Proof.KI.Val1.lean ====
/-
  THE VALUE of REGION 1 of the kernel program (custom_call 1, cc1__sumsq_kernel) at the ideal (extended-real) float
  values: after the region, the two [1,256] arrays its windows 1 and 2 write hold, at column k, the sum over all 50000
  rows of the [50000,256] array h the region read, and the sum of the squares:

      arrAt1_1 : (dat1 V c).arrAt 1 cfg1.N = colsum   (V c (Pipeline.arrRef spec1 0))
      arrAt1_2 : (dat1 V c).arrAt 2 cfg1.N = colsumsq (V c (Pipeline.arrRef spec1 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg1
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out1_B_1_eq (c : Dev nD) (i : grid1.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S1000x256 .f32) (xo1 xo2 : Vec F S1x256 .f32) :
    out1_B_1 c i a1 h1 a2 h2 a3 h3 hc x xo1 xo2 = k1_pay4 x xo1 := by
  unfold out1_B_1 kernelRun1_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out1_B_2_eq (c : Dev nD) (i : grid1.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S1000x256 .f32) (xo1 xo2 : Vec F S1x256 .f32) :
    out1_B_2 c i a1 h1 a2 h2 a3 h3 hc x xo1 xo2 = k1_pay5 x xo2 := by
  unfold out1_B_2 kernelRun1_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out1_A_1_eq (c : Dev nD) (i : grid1.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S1000x256 .f32) :
    out1_A_1 c i a1 h1 a2 h2 a3 h3 hc x = k1_pay4 x (k1_pay1 (F := F)) := by
  unfold out1_A_1 kernelRun1_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out1_A_2_eq (c : Dev nD) (i : grid1.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S1000x256 .f32) :
    out1_A_2 c i a1 h1 a2 h2 a3 h3 hc x = k1_pay5 x (k1_pay2 (F := F)) := by
  unfold out1_A_2 kernelRun1_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k1_pay1_apply (j : S1x256.Idx) : k1_pay1 (F := Ideal) j = 0 := Ideal.ofBits_zero_f32
theorem k1_pay2_apply (j : S1x256.Idx) : k1_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k1_pay4_apply (x : Vec Ideal S1000x256 .f32) (acc : Vec Ideal S1x256 .f32) (j : S1x256.Idx) :
    k1_pay4 x acc j = acc j + ∑ r : Fin 1000, x (ix2 r (j 1)) := by
  unfold k1_pay4 k1_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k1_pay5_apply (x : Vec Ideal S1000x256 .f32) (acc : Vec Ideal S1x256 .f32) (j : S1x256.Idx) :
    k1_pay5 x acc j = acc j + ∑ r : Fin 1000, x (ix2 r (j 1)) * x (ix2 r (j 1)) := by
  unfold k1_pay5 k1_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr1 (c : Dev nD) : Vec F S50000x256 .f32 := V c (Pipeline.arrRef spec1 0)

/-- Window 0's block index at point `t` is (t, 0): decided over the 50 points. -/
private theorem index1_0 : ∀ t : Fin cfg1.N, win1_0.index t 0 = t.val ∧ win1_0.index t 1 = 0 :=
  (by decide +kernel : ∀ t : Fin grid1.N, win1_0.index t 0 = t.val ∧ win1_0.index t 1 = 0)

/-- The input block at point `t` reads the array at rows `1000 t + r`. -/
theorem iblk1_0_apply (c : Dev nD) (t : Fin cfg1.N) (r : Fin 1000) (k : Fin 256) (P : Fin 50000)
    (hP : P.val = 1000 * t.val + r.val) :
    (iblk1 V c 0 t : Vec F S1000x256 .f32) (ix2 r k) = harr1 V c (ix2 P k) := by
  unfold iblk1
  rw [View.read_apply]
  show V c (Pipeline.arrRef spec1 0) _ = V c (Pipeline.arrRef spec1 0) _
  congr 1
  funext a
  apply Fin.ext
  match a with
  | ⟨0, _⟩ => show win1_0.index t 0 * 1000 + 1 * r.val = P.val; rw [(index1_0 t).1, hP]; omega
  | ⟨1, _⟩ => show win1_0.index t 1 * 256 + 1 * k.val = k.val; rw [(index1_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt1_eq (c : Dev nD) : ∀ (n : ℕ) (hn : n < cfg1.N) (j : S1x256.Idx),
    (outsAt1 V c n hn).1 j = rowsBelow 1000 (fun P : Fin 50000 => harr1 V c (ix2 P (j 1))) n
    ∧ (outsAt1 V c n hn).2 j
        = rowsBelow 1000 (fun P : Fin 50000 => harr1 V c (ix2 P (j 1)) * harr1 V c (ix2 P (j 1))) n
  | 0, hn, j => by
    rw [outsAt1_zero]
    dsimp only
    rw [out1_A_1_eq, out1_A_2_eq, k1_pay4_apply, k1_pay5_apply, k1_pay1_apply, k1_pay2_apply, zero_add, zero_add,
      rowsBelow_zero 1000 (by decide), rowsBelow_zero 1000 (by decide)]
    refine ⟨Finset.sum_congr rfl fun r _ => ?_, Finset.sum_congr rfl fun r _ => ?_⟩
    · exact iblk1_0_apply V c ⟨0, hn⟩ r (j 1) _ (by show r.val = 1000 * 0 + r.val; omega)
    · rw [iblk1_0_apply V c ⟨0, hn⟩ r (j 1) ⟨r.val, by have := r.isLt; omega⟩ (by show r.val = 1000 * 0 + r.val; omega)]
  | n + 1, hn, j => by
    have hN : n + 1 < 50 := lt_of_lt_of_eq hn (show cfg1.N = 50 from N_1)
    rw [outsAt1_succ]
    dsimp only
    rw [out1_B_1_eq, out1_B_2_eq, k1_pay4_apply, k1_pay5_apply,
      (outsAt1_eq c n (Nat.lt_of_succ_lt hn) j).1, (outsAt1_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk1_0_apply V c ⟨n + 1, hn⟩ r (j 1) _ rfl
    · rw [iblk1_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t1_last : Fin cfg1.N := ⟨49, lt_of_lt_of_eq (by decide : 49 < 50) (show cfg1.N = 50 from N_1).symm⟩

/-- After the last point output 1's buffer holds the column sums of the whole array, -/
theorem outsAt1_last_1 (c : Dev nD) :
    (outsAt1 V c t1_last.val t1_last.isLt).1 = colsum (n := 50000) (d := 256) (harr1 V c) :=
  funext fun j => by
    rw [(outsAt1_eq V c _ _ j).1, rowsBelow_all 1000 _ _ (by decide)]; rfl

/-- and output 2's the column sums of its squares. -/
theorem outsAt1_last_2 (c : Dev nD) :
    (outsAt1 V c t1_last.val t1_last.isLt).2 = colsumsq (n := 50000) (d := 256) (harr1 V c) :=
  funext fun j => by
    rw [(outsAt1_eq V c _ _ j).2, rowsBelow_all 1000 _ _ (by decide)]; rfl

/-- The one write-back of output 1, after the last point, writes the column sums: its block is the whole [1,256] array,
    read through zero offsets. -/
theorem flushed1_1_eq (c : Dev nD) (t : Fin cfg1.N) (hf : (cfg1.win 1).flush t = true) :
    (dat1 V c).flushed 1 t
      = ((cfg1.win 1).blk t).view.read (Elt Ideal) (colsum (n := 50000) (d := 256) (harr1 V c)) := by
  have hN : t.val < 50 := lt_of_lt_of_eq t.isLt (show cfg1.N = 50 from N_1)
  have h49 : t.val = 49 := by have := (flush1_1 t).mp hf; omega
  obtain rfl : t = t1_last := Fin.ext h49
  show (cfg1.win 1).cut (grid1.coords t1_last) ((dat1 V c).after 1 t1_last) = _
  rw [after1_1, outsAt1_last_1]
  have hz' : (fun a => win1_1.index t1_last a * (Pipeline.arrRef spec1 1).ty.shape.size a) = fun _ => 0 :=
    funext fun a => by fin_cases a <;> decide +kernel
  exact (Memref.read_access_unit_zero (Elt Ideal) (Pipeline.arrRef spec1 1) hz' (fun a => by rw [congrFun hz' a]; simp)
    (colsum (n := 50000) (d := 256) (harr1 V c))).symm

/-- Likewise output 2's. -/
theorem flushed1_2_eq (c : Dev nD) (t : Fin cfg1.N) (hf : (cfg1.win 2).flush t = true) :
    (dat1 V c).flushed 2 t
      = ((cfg1.win 2).blk t).view.read (Elt Ideal) (colsumsq (n := 50000) (d := 256) (harr1 V c)) := by
  have hN : t.val < 50 := lt_of_lt_of_eq t.isLt (show cfg1.N = 50 from N_1)
  have h49 : t.val = 49 := by have := (flush1_2 t).mp hf; omega
  obtain rfl : t = t1_last := Fin.ext h49
  show (cfg1.win 2).cut (grid1.coords t1_last) ((dat1 V c).after 2 t1_last) = _
  rw [after1_2, outsAt1_last_2]
  have hz' : (fun a => win1_2.index t1_last a * (Pipeline.arrRef spec1 2).ty.shape.size a) = fun _ => 0 :=
    funext fun a => by fin_cases a <;> decide +kernel
  exact (Memref.read_access_unit_zero (Elt Ideal) (Pipeline.arrRef spec1 2) hz' (fun a => by rw [congrFun hz' a]; simp)
    (colsumsq (n := 50000) (d := 256) (harr1 V c))).symm

/-- THE FIRST RESULT: after the region the [1,256] array of window 1 holds the column sums of the [50000,256] array
    the region read (the last point's write-back covers it). -/
theorem arrAt1_1 (c : Dev nD) :
    (dat1 V c).arrAt 1 cfg1.N = colsum (n := 50000) (d := 256) (V c (Pipeline.arrRef spec1 0)) :=
  (dat1 V c).arrAt_eq_of_cover 1 (colsum (n := 50000) (d := 256) (harr1 V c)) (flushed1_1_eq V c) fun i =>
    ⟨t1_last, (flush1_1 t1_last).mpr rfl, by
      show i ∈ ((View.whole (Pipeline.arrRef spec1 1)).slice (win1_1.rect t1_last)).set
      rw [View.set_slice_whole, Rect.mem_set_unit]
      intro a
      have h0 : (i 0 : Nat) < 1 := (i 0).isLt
      have h1 : (i 1 : Nat) < 256 := (i 1).isLt
      match a with
      | ⟨0, _⟩ =>
        show win1_1.index t1_last 0 * win1_1.size 0 ≤ (i 0 : Nat)
          ∧ (i 0 : Nat) < win1_1.index t1_last 0 * win1_1.size 0 + win1_1.xsize (grid1.coords t1_last) 0
        rw [show win1_1.index t1_last 0 * win1_1.size 0 = 0 from by decide +kernel,
          show win1_1.xsize (grid1.coords t1_last) 0 = 1 from by decide +kernel]; omega
      | ⟨1, _⟩ =>
        show win1_1.index t1_last 1 * win1_1.size 1 ≤ (i 1 : Nat)
          ∧ (i 1 : Nat) < win1_1.index t1_last 1 * win1_1.size 1 + win1_1.xsize (grid1.coords t1_last) 1
        rw [show win1_1.index t1_last 1 * win1_1.size 1 = 0 from by decide +kernel,
          show win1_1.xsize (grid1.coords t1_last) 1 = 256 from by decide +kernel]; omega⟩

/-- THE SECOND RESULT: the [1,256] array of window 2 holds the column sums of the squares. -/
theorem arrAt1_2 (c : Dev nD) :
    (dat1 V c).arrAt 2 cfg1.N = colsumsq (n := 50000) (d := 256) (V c (Pipeline.arrRef spec1 0)) :=
  (dat1 V c).arrAt_eq_of_cover 2 (colsumsq (n := 50000) (d := 256) (harr1 V c)) (flushed1_2_eq V c) fun i =>
    ⟨t1_last, (flush1_2 t1_last).mpr rfl, by
      show i ∈ ((View.whole (Pipeline.arrRef spec1 2)).slice (win1_2.rect t1_last)).set
      rw [View.set_slice_whole, Rect.mem_set_unit]
      intro a
      have h0 : (i 0 : Nat) < 1 := (i 0).isLt
      have h1 : (i 1 : Nat) < 256 := (i 1).isLt
      match a with
      | ⟨0, _⟩ =>
        show win1_2.index t1_last 0 * win1_2.size 0 ≤ (i 0 : Nat)
          ∧ (i 0 : Nat) < win1_2.index t1_last 0 * win1_2.size 0 + win1_2.xsize (grid1.coords t1_last) 0
        rw [show win1_2.index t1_last 0 * win1_2.size 0 = 0 from by decide +kernel,
          show win1_2.xsize (grid1.coords t1_last) 0 = 1 from by decide +kernel]; omega
      | ⟨1, _⟩ =>
        show win1_2.index t1_last 1 * win1_2.size 1 ≤ (i 1 : Nat)
          ∧ (i 1 : Nat) < win1_2.index t1_last 1 * win1_2.size 1 + win1_2.xsize (grid1.coords t1_last) 1
        rw [show win1_2.index t1_last 1 * win1_2.size 1 = 0 from by decide +kernel,
          show win1_2.xsize (grid1.coords t1_last) 1 = 256 from by decide +kernel]; omega⟩

end AtIdeal

end Cert.KernelIdeal.Reg

end
-- ==== Proof.Spec.OpBN.lean ====
/- Batch normalisation with learned scale and shift followed by the rectifier, as ONE function of whole arrays at the
   ideal (extended-real) float values, index by index: for an activation `h` of `n` rows and `d` columns and five rows of
   `d` columns (bias, scale `gamma`, shift `beta`, mean, variance),

     bnrelu h bias gamma beta mean var (r, k)
       = max (gamma k · ((h (r, k) + bias k) − mean k) · rsqrt (var k + ε) + beta k, 0),

   with ε the float32 word `0x3727C5AC` (about 1e-5) and 0 the word `0x00000000`, both kept as the words' values. The
   operations and their order are those a kernel computes block by block; no algebra is done here. Nothing of any
   program is named: shapes are literals, the sizes are parameters. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The one row index of a `[1, d]` array under column `k`. -/
abbrev rowIx {d : Nat} (k : Fin d) : (⟨2, ![1, d]⟩ : Shape).Idx := ix2 (0 : Fin 1) k

/-- Normalise, scale, shift, clamp at zero — element `(r, k)` from `h (r, k)` and the five rows at column `k`, in
    this order: add the bias, subtract the mean; add ε to the variance and take the reciprocal square root; multiply
    the scale by the centred value, then by the reciprocal square root; add the shift; take the maximum with zero. -/
def bnrelu {n d : Nat} (h : Vec Ideal ⟨2, ![n, d]⟩ .f32)
    (bias gamma beta mean var : Vec Ideal ⟨2, ![1, d]⟩ .f32) : Vec Ideal ⟨2, ![n, d]⟩ .f32 :=
  fun i =>
    max (gamma (rowIx (i 1)) * ((h i + bias (rowIx (i 1))) - mean (rowIx (i 1)))
          * Ideal.rsqrt (var (rowIx (i 1)) + Ideal.ofBits .f32 0x3727C5AC#32)
        + beta (rowIx (i 1)))
      (Ideal.ofBits .f32 0x00000000#32)

/-- `bnrelu` at an index, unfolded. -/
theorem bnrelu_apply {n d : Nat} (h : Vec Ideal ⟨2, ![n, d]⟩ .f32)
    (bias gamma beta mean var : Vec Ideal ⟨2, ![1, d]⟩ .f32) (i : (⟨2, ![n, d]⟩ : Shape).Idx) :
    bnrelu h bias gamma beta mean var i
      = max (gamma (rowIx (i 1)) * ((h i + bias (rowIx (i 1))) - mean (rowIx (i 1)))
            * Ideal.rsqrt (var (rowIx (i 1)) + Ideal.ofBits .f32 0x3727C5AC#32)
          + beta (rowIx (i 1)))
        (Ideal.ofBits .f32 0x00000000#32) := rfl

end Cert.Spec
-- ==== Proof.KI.Val2.lean ====
/- The VALUE of region 2 (custom_call 2, `cc2__bn_relu_kernel`) at the ideal float values: after the region's grid
   has run, its output array is `Cert.Spec.bnrelu` of the six input arrays as the region finds them,

     (dat2 V c).arrAt 6 cfg2.N = bnrelu (V c h) (V c bias) (V c gamma) (V c beta) (V c mean) (V c var).

   The steps: the body's payload read at one element of a block is `bnrelu`'s expression of the loaded block's element
   and the five rows' elements at its column (`pay2_apply`); the activation's block at point `t` lies under the
   output's block (both are rows `1000 t … 1000 t + 999`) and each row's one block is the whole row (`idx_facts2`,
   `iblk2_W_apply`); so what point `t` writes back is block `t` of `bnrelu` of the arrays (`flushed2_6_eq`: a flushed
   block is a restriction of one whole-array function); row `r` of the output is in the block of point `r / 1000`, so
   the blocks cover the array (`covered2_6`); hence the array ends holding `bnrelu` of the arrays (`final2_6`). -/
import proofs.«146967_j25786983645193_1_alg».proof.Proof.KI.Reg2
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz2 : (![0, 0] : Fin 2 → Nat) = fun _ => 0 := funext fun a => by fin_cases a <;> rfl

/-- A [1,256] row broadcast along the 1000 rows of a block, read at `j`: the row at `j`'s column. -/
theorem bcast_row2 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay2_apply (x0 : Vec Ideal S1000x256 .f32) (x1 x2 x3 x4 x5 : Vec Ideal S1x256 .f32) (j : S1000x256.Idx) :
    k2_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k2_pay1
  simp only [shapeCast_self]
  rw [maximumf_apply, addf_apply, mulf_apply, mulf_apply, subf_apply, addf_apply]
  simp only [bcast_row2]
  rfl

/-! ## The windows' index maps -/

/-- The printed index maps, decided over the grid: the activation's and the output's block at point `t` is block
    `(t, 0)`; each of the five rows' is block `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The input blocks at an index, as elements of the arrays -/

/-- The column of an element of the output's block at point `t` is its column in the block. -/
theorem emb2_6_col (t : Fin cfg2.N) (j : S1000x256.Idx) :
    ((((cfg2.win 6).blk t).view.emb j : S50000x256.Idx) 1 : Fin 256) = j 1 := by
  obtain ⟨-, -, -, -, -, -, -, -, -, -, -, -, a6, b6⟩ := idx_facts2 t
  apply Fin.ext
  show win2_6.index t (1 : Fin 2) * 256 + 1 * (j 1).val = (j 1).val
  omega

/-- Input window 0 (the activation's [1000,256] block) read at `j`: the activation at the element of the array that the
    OUTPUT's block at the same point has at `j` — the two windows move together. -/
theorem iblk2_0_apply (c : Dev nD) (t : Fin cfg2.N) (j : S1000x256.Idx) :
    (iblk2 V c 0 t : Vec Ideal S1000x256 .f32) j
      = (V c (Pipeline.arrRef spec2 0) : Vec Ideal S50000x256 .f32) (((cfg2.win 6).blk t).view.emb j) := by
  obtain ⟨a0, b0, -, -, -, -, -, -, -, -, -, -, a6, b6⟩ := idx_facts2 t
  unfold iblk2
  rw [View.read_apply]
  refine congrArg (V c (Pipeline.arrRef spec2 0) : Vec Ideal S50000x256 .f32) ?_
  funext a; apply Fin.ext
  match a with
  | ⟨0, _⟩ => show win2_0.index t (0 : Fin 2) * 1000 + 1 * (j 0).val = win2_6.index t (0 : Fin 2) * 1000 + 1 * (j 0).val; omega
  | ⟨1, _⟩ => show win2_0.index t (1 : Fin 2) * 256 + 1 * (j 1).val = win2_6.index t (1 : Fin 2) * 256 + 1 * (j 1).val; omega

/-- Input window 1 (a [1,256] row, one block, the same at every point) read at column `k`: the row at `k`. -/
theorem iblk2_1_apply (c : Dev nD) (t : Fin cfg2.N) (k : Fin 256) :
    (iblk2 V c 1 t : Vec Ideal S1x256 .f32) (rowIx k) = (V c (Pipeline.arrRef spec2 1) : Vec Ideal S1x256 .f32) (rowIx k) := by
  obtain ⟨-, -, a1, b1, a2, b2, a3, b3, a4, b4, a5, b5, -, -⟩ := idx_facts2 t
  unfold iblk2
  rw [View.read_apply]
  refine congrArg (V c (Pipeline.arrRef spec2 1) : Vec Ideal S1x256 .f32) ?_
  funext a; apply Fin.ext
  match a with
  | ⟨0, _⟩ => show win2_1.index t (0 : Fin 2) * 1 + 1 * 0 = 0; omega
  | ⟨1, _⟩ => show win2_1.index t (1 : Fin 2) * 256 + 1 * k.val = k.val; omega

/-- Input window 2 (a [1,256] row, one block, the same at every point) read at column `k`: the row at `k`. -/
theorem iblk2_2_apply (c : Dev nD) (t : Fin cfg2.N) (k : Fin 256) :
    (iblk2 V c 2 t : Vec Ideal S1x256 .f32) (rowIx k) = (V c (Pipeline.arrRef spec2 2) : Vec Ideal S1x256 .f32) (rowIx k) := by
  obtain ⟨-, -, a1, b1, a2, b2, a3, b3, a4, b4, a5, b5, -, -⟩ := idx_facts2 t
  unfold iblk2
  rw [View.read_apply]
  refine congrArg (V c (Pipeline.arrRef spec2 2) : Vec Ideal S1x256 .f32) ?_
  funext a; apply Fin.ext
  match a with
  | ⟨0, _⟩ => show win2_2.index t (0 : Fin 2) * 1 + 1 * 0 = 0; omega
  | ⟨1, _⟩ => show win2_2.index t (1 : Fin 2) * 256 + 1 * k.val = k.val; omega

/-- Input window 3 (a [1,256] row, one block, the same at every point) read at column `k`: the row at `k`. -/
theorem iblk2_3_apply (c : Dev nD) (t : Fin cfg2.N) (k : Fin 256) :
    (iblk2 V c 3 t : Vec Ideal S1x256 .f32) (rowIx k) = (V c (Pipeline.arrRef spec2 3) : Vec Ideal S1x256 .f32) (rowIx k) := by
  obtain ⟨-, -, a1, b1, a2, b2, a3, b3, a4, b4, a5, b5, -, -⟩ := idx_facts2 t
  unfold iblk2
  rw [View.read_apply]
  refine congrArg (V c (Pipeline.arrRef spec2 3) : Vec Ideal S1x256 .f32) ?_
  funext a; apply Fin.ext
  match a with
  | ⟨0, _⟩ => show win2_3.index t (0 : Fin 2) * 1 + 1 * 0 = 0; omega
  | ⟨1, _⟩ => show win2_3.index t (1 : Fin 2) * 256 + 1 * k.val = k.val; omega

/-- Input window 4 (a [1,256] row, one block, the same at every point) read at column `k`: the row at `k`. -/
theorem iblk2_4_apply (c : Dev nD) (t : Fin cfg2.N) (k : Fin 256) :
    (iblk2 V c 4 t : Vec Ideal S1x256 .f32) (rowIx k) = (V c (Pipeline.arrRef spec2 4) : Vec Ideal S1x256 .f32) (rowIx k) := by
  obtain ⟨-, -, a1, b1, a2, b2, a3, b3, a4, b4, a5, b5, -, -⟩ := idx_facts2 t
  unfold iblk2
  rw [View.read_apply]
  refine congrArg (V c (Pipeline.arrRef spec2 4) : Vec Ideal S1x256 .f32) ?_
  funext a; apply Fin.ext
  match a with
  | ⟨0, _⟩ => show win2_4.index t (0 : Fin 2) * 1 + 1 * 0 = 0; omega
  | ⟨1, _⟩ => show win2_4.index t (1 : Fin 2) * 256 + 1 * k.val = k.val; omega

/-- Input window 5 (a [1,256] row, one block, the same at every point) read at column `k`: the row at `k`. -/
theorem iblk2_5_apply (c : Dev nD) (t : Fin cfg2.N) (k : Fin 256) :
    (iblk2 V c 5 t : Vec Ideal S1x256 .f32) (rowIx k) = (V c (Pipeline.arrRef spec2 5) : Vec Ideal S1x256 .f32) (rowIx k) := by
  obtain ⟨-, -, a1, b1, a2, b2, a3, b3, a4, b4, a5, b5, -, -⟩ := idx_facts2 t
  unfold iblk2
  rw [View.read_apply]
  refine congrArg (V c (Pipeline.arrRef spec2 5) : Vec Ideal S1x256 .f32) ?_
  funext a; apply Fin.ext
  match a with
  | ⟨0, _⟩ => show win2_5.index t (0 : Fin 2) * 1 + 1 * 0 = 0; omega
  | ⟨1, _⟩ => show win2_5.index t (1 : Fin 2) * 256 + 1 * k.val = k.val; omega

/-! ## What a point writes back -/

set_option maxHeartbeats 1000000 in
/-- WHAT POINT `t` WRITES BACK is block `t` of `bnrelu` of the six arrays as the region finds them. -/
theorem flushed2_6_eq (c : Dev nD) (t : Fin cfg2.N) :
    (dat2 V c).flushed 6 t = ((cfg2.win 6).blk t).view.read (Elt Ideal)
      (bnrelu (n := 50000) (d := 256) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz2]
  simp only [View.ld_unit_zero (S := S1000x256) hz2, View.ld_unit_zero (S := S1x256) hz2]
  refine funext fun (j : S1000x256.Idx) => ?_
  show k2_pay1 (iblk2 V c 0 t) (iblk2 V c 1 t) (iblk2 V c 2 t) (iblk2 V c 3 t) (iblk2 V c 4 t) (iblk2 V c 5 t) j
    = bnrelu (n := 50000) (d := 256) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (((cfg2.win 6).blk t).view.emb j)
  rw [pay2_apply, bnrelu_apply, emb2_6_col t j, iblk2_0_apply, iblk2_1_apply V c t (j 1), iblk2_2_apply V c t (j 1),
    iblk2_3_apply V c t (j 1), iblk2_4_apply V c t (j 1), iblk2_5_apply V c t (j 1)]

/-! ## The blocks cover the array -/

/-- An index of the array is in point `t`'s block iff each coordinate is in the block's range on its axis. -/
theorem mem_blk2_6 (t : Fin cfg2.N) (i : S50000x256.Idx) :
    i ∈ ((cfg2.win 6).blk t).view.set ↔ ∀ a : Fin 2, win2_6.index t a * S1000x256.size a ≤ (i a).val ∧ (i a).val < win2_6.index t a * S1000x256.size a + S1000x256.size a := by
  show i ∈ ((View.whole main_v65).slice (win2_6.rect t)).set ↔ _
  rw [View.set_slice_whole, Rect.mem_set_unit]
  exact Iff.rfl

/-- Every element of the output array is in some point's block: row `r` is in the block of point `r / 1000`. -/
theorem covered2_6 (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 50 := N_2
  have hlt : (i 0).val / 1000 < cfg2.N := by rw [hN]; omega
  obtain ⟨-, -, -, -, -, -, -, -, -, -, -, -, a6, b6⟩ := idx_facts2 ⟨(i 0).val / 1000, hlt⟩
  refine ⟨⟨(i 0).val / 1000, hlt⟩, flush2_6 _, ?_⟩
  rw [mem_blk2_6]
  intro a
  match a with
  | ⟨0, _⟩ =>
    show win2_6.index ⟨(i 0).val / 1000, hlt⟩ (0 : Fin 2) * 1000 ≤ (i 0).val ∧ (i 0).val < win2_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win2_6.index ⟨(i 0).val / 1000, hlt⟩ (1 : Fin 2) * 256 ≤ (i 1).val ∧ (i 1).val < win2_6.index ⟨(i 0).val / 1000, hlt⟩ (1 : Fin 2) * 256 + 256
    rw [b6]; omega

/-! ## The output array after the region -/

/-- THE OUTPUT ARRAY after the region's grid has run is `bnrelu` of the six input arrays as the region finds them. -/
theorem final2_6 (c : Dev nD) :
    (dat2 V c).arrAt 6 cfg2.N = bnrelu (n := 50000) (d := 256) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 6 _ (fun t _ => flushed2_6_eq V c t) covered2_6

end Cert.KernelIdeal.Reg
-- ==== Proof.KI.Val3.lean ====
/- REGION 3's output array after the region, at the ideal values, as ONE whole-array function of the region's two
   input arrays as it finds them: the [50000, 256] array ends holding the matrix product of the [50000, 256] array
   by the [256, 256] weight (`Cert.Spec.mm`).
   The road: at the ideal values narrowing to bf16 changes nothing and the product onto a zero accumulator is the
   sum over the contraction coordinate, so the body's payload at row `x`, column `y` of a block is
   `∑ k, block (x, k) * weight (k, y)` (`pay3_apply`). Point `t`'s row block is rows `1000 t …` of the array and
   its output block the same rows of the output, while the weight's block is the whole weight at every point
   (`idx_facts3`, decided over the 50 points); a product's rows are the products of the rows, so what point `t`
   writes back is block `t` of the whole product (`flushed3_2_eq`). Every point writes back, and row `r` lies in
   the block of point `r / 1000` (`cover3_out`), so the array ends holding the product and nothing of what it held
   before (`arrAt3_out`). -/
import proofs.«146967_j25786983645193_1_alg».proof.Proof.KI.Reg3
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz3 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay3_apply (xa : Vec Ideal S1000x256 .f32) (xb : Vec Ideal S256x256 .f32) (j : S1000x256.Idx) :
    k3_pay1 (F := Ideal) xa xb j = ∑ k : Fin 256, xa (ix2 (j 0) k) * xb (ix2 k (j 1)) := by
  unfold k3_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed3_2_eq (c : Dev nD) (t : Fin cfg3.N) :
    (dat3 (F := Ideal) V c).flushed 2 t
      = ((cfg3.win 2).blk t).view.read (Elt Ideal)
          (Cert.Spec.mm (M := 50000) (K := 256) (N := 256) (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S1000x256) hz3, View.ld_unit_zero (S := S256x256) hz3]
  obtain ⟨e0, e1, e2, e3, e4, e5⟩ := idx_facts3 t
  funext j
  show k3_pay1 (F := Ideal) (iblk3 V c 0 t) (iblk3 V c 1 t) j
    = Cert.Spec.mm (M := 50000) (K := 256) (N := 256) (V c (Pipeline.arrRef spec3 0)) (V c (Pipeline.arrRef spec3 1)) (((cfg3.win 2).blk t).view.emb j)
  rw [pay3_apply, Cert.Spec.mm_apply]
  refine Finset.sum_congr rfl fun k _ => ?_
  -- the row block's element (j 0, k) is the array's at the output block's row and column k
  have ha : ((cfg3.win 0).blk t).view.emb (ix2 (j 0) k) = ix2 ((((cfg3.win 2).blk t).view.emb j) 0) k := by
    funext a; apply Fin.ext
    match a with
    | ⟨0, _⟩ => show win3_0.index t (0 : Fin 2) * 1000 + 1 * (j 0).val = win3_2.index t (0 : Fin 2) * 1000 + 1 * (j 0).val; omega
    | ⟨1, _⟩ => show win3_0.index t (1 : Fin 2) * 256 + 1 * k.val = k.val; omega
  -- the weight's element (k, j 1) is the array's at row k and the output block's column
  have hb : ((cfg3.win 1).blk t).view.emb (ix2 k (j 1)) = ix2 k ((((cfg3.win 2).blk t).view.emb j) 1) := by
    funext a; apply Fin.ext
    match a with
    | ⟨0, _⟩ => show win3_1.index t (0 : Fin 2) * 256 + 1 * k.val = k.val; omega
    | ⟨1, _⟩ => show win3_1.index t (1 : Fin 2) * 256 + 1 * (j 1).val = win3_2.index t (1 : Fin 2) * 256 + 1 * (j 1).val; omega
  -- each block's element is its array's at the embedded index (a read through a view is precomposition)
  unfold iblk3
  rw [View.read_apply, View.read_apply]
  rewrite [ha, hb]
  rfl

/-! ## The output blocks cover the array -/

/-- An index of the output array is in point `t`'s block iff each coordinate is in the block's range on its axis. -/
theorem mem_blk3_2 (t : Fin cfg3.N) (i : S50000x256.Idx) :
    i ∈ ((cfg3.win 2).blk t).view.set ↔ ∀ a : Fin 2, win3_2.index t a * S1000x256.size a ≤ (i a).val ∧ (i a).val < win3_2.index t a * S1000x256.size a + S1000x256.size a := by
  show i ∈ ((View.whole (Pipeline.arrRef spec3 2)).slice (win3_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover3_out (i : S50000x256.Idx) :
    ∃ t : Fin cfg3.N, (cfg3.win 2).flush t = true ∧ i ∈ ((cfg3.win 2).blk t).view.set := by
  have hr : (i 0).val < 50000 := idx2_lt0 i
  have hc : (i 1).val < 256 := idx2_lt1 i
  have hN : cfg3.N = 50 := N_3
  let t : Fin cfg3.N := ⟨(i 0).val / 1000, by rw [hN]; omega⟩
  have ht : t.val = (i 0).val / 1000 := rfl
  obtain ⟨-, -, -, -, e4, e5⟩ := idx_facts3 t
  refine ⟨t, flush3_2 t, (mem_blk3_2 t i).mpr fun a => ?_⟩
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 256 ≤ (i 1).val ∧ (i 1).val < win3_2.index t (1 : Fin 2) * 256 + 256; omega

/-! ## The output array after the region -/

/-- The product of the region's two arrays, at the program's shapes: `Cert.Spec.mm` at 50000 × 256 by 256 × 256. -/
abbrev mm3 (a : Vec Ideal S50000x256 .f32) (w : Vec Ideal S256x256 .f32) : Vec Ideal S50000x256 .f32 :=
  Cert.Spec.mm (M := 50000) (K := 256) (N := 256) a w

/-- THE OUTPUT ARRAY after the region, as one whole-array function of the two input arrays as the region finds
    them: their product. Every point writes back its block of that product (`flushed3_2_eq`) and the blocks cover
    the array (`cover3_out`), so nothing of what the array held before remains. -/
theorem arrAt3_out (c : Dev nD) :
    (dat3 (F := Ideal) V c).arrAt 2 cfg3.N = mm3 (V c (Pipeline.arrRef spec3 0)) (V c (Pipeline.arrRef spec3 1)) :=
  (dat3 (F := Ideal) V c).arrAt_eq_of_cover 2 _ (fun t _ => flushed3_2_eq V c t) cover3_out

end Cert.KernelIdeal.Reg
-- ==== Proof.KI.Val4.lean ====
/-
  THE VALUE of REGION 4 of the kernel program (custom_call 4, cc4__sumsq_kernel) at the ideal (extended-real) float
  values: after the region, the two [1,256] arrays its windows 1 and 2 write hold, at column k, the sum over all 50000
  rows of the [50000,256] array h the region read, and the sum of the squares:

      arrAt4_1 : (dat4 V c).arrAt 1 cfg4.N = colsum   (V c (Pipeline.arrRef spec4 0))
      arrAt4_2 : (dat4 V c).arrAt 2 cfg4.N = colsumsq (V c (Pipeline.arrRef spec4 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg4
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out4_B_1_eq (c : Dev nD) (i : grid4.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond4_0 i) (x : Vec F S1000x256 .f32) (xo1 xo2 : Vec F S1x256 .f32) :
    out4_B_1 c i a1 h1 a2 h2 a3 h3 hc x xo1 xo2 = k4_pay4 x xo1 := by
  unfold out4_B_1 kernelRun4_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out4_B_2_eq (c : Dev nD) (i : grid4.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond4_0 i) (x : Vec F S1000x256 .f32) (xo1 xo2 : Vec F S1x256 .f32) :
    out4_B_2 c i a1 h1 a2 h2 a3 h3 hc x xo1 xo2 = k4_pay5 x xo2 := by
  unfold out4_B_2 kernelRun4_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out4_A_1_eq (c : Dev nD) (i : grid4.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond4_0 i) (x : Vec F S1000x256 .f32) :
    out4_A_1 c i a1 h1 a2 h2 a3 h3 hc x = k4_pay4 x (k4_pay1 (F := F)) := by
  unfold out4_A_1 kernelRun4_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out4_A_2_eq (c : Dev nD) (i : grid4.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond4_0 i) (x : Vec F S1000x256 .f32) :
    out4_A_2 c i a1 h1 a2 h2 a3 h3 hc x = k4_pay5 x (k4_pay2 (F := F)) := by
  unfold out4_A_2 kernelRun4_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k4_pay1_apply (j : S1x256.Idx) : k4_pay1 (F := Ideal) j = 0 := Ideal.ofBits_zero_f32
theorem k4_pay2_apply (j : S1x256.Idx) : k4_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k4_pay4_apply (x : Vec Ideal S1000x256 .f32) (acc : Vec Ideal S1x256 .f32) (j : S1x256.Idx) :
    k4_pay4 x acc j = acc j + ∑ r : Fin 1000, x (ix2 r (j 1)) := by
  unfold k4_pay4 k4_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k4_pay5_apply (x : Vec Ideal S1000x256 .f32) (acc : Vec Ideal S1x256 .f32) (j : S1x256.Idx) :
    k4_pay5 x acc j = acc j + ∑ r : Fin 1000, x (ix2 r (j 1)) * x (ix2 r (j 1)) := by
  unfold k4_pay5 k4_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr4 (c : Dev nD) : Vec F S50000x256 .f32 := V c (Pipeline.arrRef spec4 0)

/-- Window 0's block index at point `t` is (t, 0): decided over the 50 points. -/
private theorem index4_0 : ∀ t : Fin cfg4.N, win4_0.index t 0 = t.val ∧ win4_0.index t 1 = 0 :=
  (by decide +kernel : ∀ t : Fin grid4.N, win4_0.index t 0 = t.val ∧ win4_0.index t 1 = 0)

/-- The input block at point `t` reads the array at rows `1000 t + r`. -/
theorem iblk4_0_apply (c : Dev nD) (t : Fin cfg4.N) (r : Fin 1000) (k : Fin 256) (P : Fin 50000)
    (hP : P.val = 1000 * t.val + r.val) :
    (iblk4 V c 0 t : Vec F S1000x256 .f32) (ix2 r k) = harr4 V c (ix2 P k) := by
  unfold iblk4
  rw [View.read_apply]
  show V c (Pipeline.arrRef spec4 0) _ = V c (Pipeline.arrRef spec4 0) _
  congr 1
  funext a
  apply Fin.ext
  match a with
  | ⟨0, _⟩ => show win4_0.index t 0 * 1000 + 1 * r.val = P.val; rw [(index4_0 t).1, hP]; omega
  | ⟨1, _⟩ => show win4_0.index t 1 * 256 + 1 * k.val = k.val; rw [(index4_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt4_eq (c : Dev nD) : ∀ (n : ℕ) (hn : n < cfg4.N) (j : S1x256.Idx),
    (outsAt4 V c n hn).1 j = rowsBelow 1000 (fun P : Fin 50000 => harr4 V c (ix2 P (j 1))) n
    ∧ (outsAt4 V c n hn).2 j
        = rowsBelow 1000 (fun P : Fin 50000 => harr4 V c (ix2 P (j 1)) * harr4 V c (ix2 P (j 1))) n
  | 0, hn, j => by
    rw [outsAt4_zero]
    dsimp only
    rw [out4_A_1_eq, out4_A_2_eq, k4_pay4_apply, k4_pay5_apply, k4_pay1_apply, k4_pay2_apply, zero_add, zero_add,
      rowsBelow_zero 1000 (by decide), rowsBelow_zero 1000 (by decide)]
    refine ⟨Finset.sum_congr rfl fun r _ => ?_, Finset.sum_congr rfl fun r _ => ?_⟩
    · exact iblk4_0_apply V c ⟨0, hn⟩ r (j 1) _ (by show r.val = 1000 * 0 + r.val; omega)
    · rw [iblk4_0_apply V c ⟨0, hn⟩ r (j 1) ⟨r.val, by have := r.isLt; omega⟩ (by show r.val = 1000 * 0 + r.val; omega)]
  | n + 1, hn, j => by
    have hN : n + 1 < 50 := lt_of_lt_of_eq hn (show cfg4.N = 50 from N_4)
    rw [outsAt4_succ]
    dsimp only
    rw [out4_B_1_eq, out4_B_2_eq, k4_pay4_apply, k4_pay5_apply,
      (outsAt4_eq c n (Nat.lt_of_succ_lt hn) j).1, (outsAt4_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk4_0_apply V c ⟨n + 1, hn⟩ r (j 1) _ rfl
    · rw [iblk4_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t4_last : Fin cfg4.N := ⟨49, lt_of_lt_of_eq (by decide : 49 < 50) (show cfg4.N = 50 from N_4).symm⟩

/-- After the last point output 1's buffer holds the column sums of the whole array, -/
theorem outsAt4_last_1 (c : Dev nD) :
    (outsAt4 V c t4_last.val t4_last.isLt).1 = colsum (n := 50000) (d := 256) (harr4 V c) :=
  funext fun j => by
    rw [(outsAt4_eq V c _ _ j).1, rowsBelow_all 1000 _ _ (by decide)]; rfl

/-- and output 2's the column sums of its squares. -/
theorem outsAt4_last_2 (c : Dev nD) :
    (outsAt4 V c t4_last.val t4_last.isLt).2 = colsumsq (n := 50000) (d := 256) (harr4 V c) :=
  funext fun j => by
    rw [(outsAt4_eq V c _ _ j).2, rowsBelow_all 1000 _ _ (by decide)]; rfl

/-- The one write-back of output 1, after the last point, writes the column sums: its block is the whole [1,256] array,
    read through zero offsets. -/
theorem flushed4_1_eq (c : Dev nD) (t : Fin cfg4.N) (hf : (cfg4.win 1).flush t = true) :
    (dat4 V c).flushed 1 t
      = ((cfg4.win 1).blk t).view.read (Elt Ideal) (colsum (n := 50000) (d := 256) (harr4 V c)) := by
  have hN : t.val < 50 := lt_of_lt_of_eq t.isLt (show cfg4.N = 50 from N_4)
  have h49 : t.val = 49 := by have := (flush4_1 t).mp hf; omega
  obtain rfl : t = t4_last := Fin.ext h49
  show (cfg4.win 1).cut (grid4.coords t4_last) ((dat4 V c).after 1 t4_last) = _
  rw [after4_1, outsAt4_last_1]
  have hz' : (fun a => win4_1.index t4_last a * (Pipeline.arrRef spec4 1).ty.shape.size a) = fun _ => 0 :=
    funext fun a => by fin_cases a <;> decide +kernel
  exact (Memref.read_access_unit_zero (Elt Ideal) (Pipeline.arrRef spec4 1) hz' (fun a => by rw [congrFun hz' a]; simp)
    (colsum (n := 50000) (d := 256) (harr4 V c))).symm

/-- Likewise output 2's. -/
theorem flushed4_2_eq (c : Dev nD) (t : Fin cfg4.N) (hf : (cfg4.win 2).flush t = true) :
    (dat4 V c).flushed 2 t
      = ((cfg4.win 2).blk t).view.read (Elt Ideal) (colsumsq (n := 50000) (d := 256) (harr4 V c)) := by
  have hN : t.val < 50 := lt_of_lt_of_eq t.isLt (show cfg4.N = 50 from N_4)
  have h49 : t.val = 49 := by have := (flush4_2 t).mp hf; omega
  obtain rfl : t = t4_last := Fin.ext h49
  show (cfg4.win 2).cut (grid4.coords t4_last) ((dat4 V c).after 2 t4_last) = _
  rw [after4_2, outsAt4_last_2]
  have hz' : (fun a => win4_2.index t4_last a * (Pipeline.arrRef spec4 2).ty.shape.size a) = fun _ => 0 :=
    funext fun a => by fin_cases a <;> decide +kernel
  exact (Memref.read_access_unit_zero (Elt Ideal) (Pipeline.arrRef spec4 2) hz' (fun a => by rw [congrFun hz' a]; simp)
    (colsumsq (n := 50000) (d := 256) (harr4 V c))).symm

/-- THE FIRST RESULT: after the region the [1,256] array of window 1 holds the column sums of the [50000,256] array
    the region read (the last point's write-back covers it). -/
theorem arrAt4_1 (c : Dev nD) :
    (dat4 V c).arrAt 1 cfg4.N = colsum (n := 50000) (d := 256) (V c (Pipeline.arrRef spec4 0)) :=
  (dat4 V c).arrAt_eq_of_cover 1 (colsum (n := 50000) (d := 256) (harr4 V c)) (flushed4_1_eq V c) fun i =>
    ⟨t4_last, (flush4_1 t4_last).mpr rfl, by
      show i ∈ ((View.whole (Pipeline.arrRef spec4 1)).slice (win4_1.rect t4_last)).set
      rw [View.set_slice_whole, Rect.mem_set_unit]
      intro a
      have h0 : (i 0 : Nat) < 1 := (i 0).isLt
      have h1 : (i 1 : Nat) < 256 := (i 1).isLt
      match a with
      | ⟨0, _⟩ =>
        show win4_1.index t4_last 0 * win4_1.size 0 ≤ (i 0 : Nat)
          ∧ (i 0 : Nat) < win4_1.index t4_last 0 * win4_1.size 0 + win4_1.xsize (grid4.coords t4_last) 0
        rw [show win4_1.index t4_last 0 * win4_1.size 0 = 0 from by decide +kernel,
          show win4_1.xsize (grid4.coords t4_last) 0 = 1 from by decide +kernel]; omega
      | ⟨1, _⟩ =>
        show win4_1.index t4_last 1 * win4_1.size 1 ≤ (i 1 : Nat)
          ∧ (i 1 : Nat) < win4_1.index t4_last 1 * win4_1.size 1 + win4_1.xsize (grid4.coords t4_last) 1
        rw [show win4_1.index t4_last 1 * win4_1.size 1 = 0 from by decide +kernel,
          show win4_1.xsize (grid4.coords t4_last) 1 = 256 from by decide +kernel]; omega⟩

/-- THE SECOND RESULT: the [1,256] array of window 2 holds the column sums of the squares. -/
theorem arrAt4_2 (c : Dev nD) :
    (dat4 V c).arrAt 2 cfg4.N = colsumsq (n := 50000) (d := 256) (V c (Pipeline.arrRef spec4 0)) :=
  (dat4 V c).arrAt_eq_of_cover 2 (colsumsq (n := 50000) (d := 256) (harr4 V c)) (flushed4_2_eq V c) fun i =>
    ⟨t4_last, (flush4_2 t4_last).mpr rfl, by
      show i ∈ ((View.whole (Pipeline.arrRef spec4 2)).slice (win4_2.rect t4_last)).set
      rw [View.set_slice_whole, Rect.mem_set_unit]
      intro a
      have h0 : (i 0 : Nat) < 1 := (i 0).isLt
      have h1 : (i 1 : Nat) < 256 := (i 1).isLt
      match a with
      | ⟨0, _⟩ =>
        show win4_2.index t4_last 0 * win4_2.size 0 ≤ (i 0 : Nat)
          ∧ (i 0 : Nat) < win4_2.index t4_last 0 * win4_2.size 0 + win4_2.xsize (grid4.coords t4_last) 0
        rw [show win4_2.index t4_last 0 * win4_2.size 0 = 0 from by decide +kernel,
          show win4_2.xsize (grid4.coords t4_last) 0 = 1 from by decide +kernel]; omega
      | ⟨1, _⟩ =>
        show win4_2.index t4_last 1 * win4_2.size 1 ≤ (i 1 : Nat)
          ∧ (i 1 : Nat) < win4_2.index t4_last 1 * win4_2.size 1 + win4_2.xsize (grid4.coords t4_last) 1
        rw [show win4_2.index t4_last 1 * win4_2.size 1 = 0 from by decide +kernel,
          show win4_2.xsize (grid4.coords t4_last) 1 = 256 from by decide +kernel]; omega⟩

end AtIdeal

end Cert.KernelIdeal.Reg

end
-- ==== Proof.KI.Val5.lean ====
/- The VALUE of region 5 (custom_call 5, `cc5__bn_relu_kernel`) at the ideal float values: after the region's grid
   has run, its output array is `Cert.Spec.bnrelu` of the six input arrays as the region finds them,

     (dat5 V c).arrAt 6 cfg5.N = bnrelu (V c h) (V c bias) (V c gamma) (V c beta) (V c mean) (V c var).

   The steps: the body's payload read at one element of a block is `bnrelu`'s expression of the loaded block's element
   and the five rows' elements at its column (`pay5_apply`); the activation's block at point `t` lies under the
   output's block (both are rows `1000 t … 1000 t + 999`) and each row's one block is the whole row (`idx_facts5`,
   `iblk5_W_apply`); so what point `t` writes back is block `t` of `bnrelu` of the arrays (`flushed5_6_eq`: a flushed
   block is a restriction of one whole-array function); row `r` of the output is in the block of point `r / 1000`, so
   the blocks cover the array (`covered5_6`); hence the array ends holding `bnrelu` of the arrays (`final5_6`). -/
import proofs.«146967_j25786983645193_1_alg».proof.Proof.KI.Reg5
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz5 : (![0, 0] : Fin 2 → Nat) = fun _ => 0 := funext fun a => by fin_cases a <;> rfl

/-- A [1,256] row broadcast along the 1000 rows of a block, read at `j`: the row at `j`'s column. -/
theorem bcast_row5 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay5_apply (x0 : Vec Ideal S1000x256 .f32) (x1 x2 x3 x4 x5 : Vec Ideal S1x256 .f32) (j : S1000x256.Idx) :
    k5_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k5_pay1
  simp only [shapeCast_self]
  rw [maximumf_apply, addf_apply, mulf_apply, mulf_apply, subf_apply, addf_apply]
  simp only [bcast_row5]
  rfl

/-! ## The windows' index maps -/

/-- The printed index maps, decided over the grid: the activation's and the output's block at point `t` is block
    `(t, 0)`; each of the five rows' is block `(0, 0)`. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-! ## The input blocks at an index, as elements of the arrays -/

/-- The column of an element of the output's block at point `t` is its column in the block. -/
theorem emb5_6_col (t : Fin cfg5.N) (j : S1000x256.Idx) :
    ((((cfg5.win 6).blk t).view.emb j : S50000x256.Idx) 1 : Fin 256) = j 1 := by
  obtain ⟨-, -, -, -, -, -, -, -, -, -, -, -, a6, b6⟩ := idx_facts5 t
  apply Fin.ext
  show win5_6.index t (1 : Fin 2) * 256 + 1 * (j 1).val = (j 1).val
  omega

/-- Input window 0 (the activation's [1000,256] block) read at `j`: the activation at the element of the array that the
    OUTPUT's block at the same point has at `j` — the two windows move together. -/
theorem iblk5_0_apply (c : Dev nD) (t : Fin cfg5.N) (j : S1000x256.Idx) :
    (iblk5 V c 0 t : Vec Ideal S1000x256 .f32) j
      = (V c (Pipeline.arrRef spec5 0) : Vec Ideal S50000x256 .f32) (((cfg5.win 6).blk t).view.emb j) := by
  obtain ⟨a0, b0, -, -, -, -, -, -, -, -, -, -, a6, b6⟩ := idx_facts5 t
  unfold iblk5
  rw [View.read_apply]
  refine congrArg (V c (Pipeline.arrRef spec5 0) : Vec Ideal S50000x256 .f32) ?_
  funext a; apply Fin.ext
  match a with
  | ⟨0, _⟩ => show win5_0.index t (0 : Fin 2) * 1000 + 1 * (j 0).val = win5_6.index t (0 : Fin 2) * 1000 + 1 * (j 0).val; omega
  | ⟨1, _⟩ => show win5_0.index t (1 : Fin 2) * 256 + 1 * (j 1).val = win5_6.index t (1 : Fin 2) * 256 + 1 * (j 1).val; omega

/-- Input window 1 (a [1,256] row, one block, the same at every point) read at column `k`: the row at `k`. -/
theorem iblk5_1_apply (c : Dev nD) (t : Fin cfg5.N) (k : Fin 256) :
    (iblk5 V c 1 t : Vec Ideal S1x256 .f32) (rowIx k) = (V c (Pipeline.arrRef spec5 1) : Vec Ideal S1x256 .f32) (rowIx k) := by
  obtain ⟨-, -, a1, b1, a2, b2, a3, b3, a4, b4, a5, b5, -, -⟩ := idx_facts5 t
  unfold iblk5
  rw [View.read_apply]
  refine congrArg (V c (Pipeline.arrRef spec5 1) : Vec Ideal S1x256 .f32) ?_
  funext a; apply Fin.ext
  match a with
  | ⟨0, _⟩ => show win5_1.index t (0 : Fin 2) * 1 + 1 * 0 = 0; omega
  | ⟨1, _⟩ => show win5_1.index t (1 : Fin 2) * 256 + 1 * k.val = k.val; omega

/-- Input window 2 (a [1,256] row, one block, the same at every point) read at column `k`: the row at `k`. -/
theorem iblk5_2_apply (c : Dev nD) (t : Fin cfg5.N) (k : Fin 256) :
    (iblk5 V c 2 t : Vec Ideal S1x256 .f32) (rowIx k) = (V c (Pipeline.arrRef spec5 2) : Vec Ideal S1x256 .f32) (rowIx k) := by
  obtain ⟨-, -, a1, b1, a2, b2, a3, b3, a4, b4, a5, b5, -, -⟩ := idx_facts5 t
  unfold iblk5
  rw [View.read_apply]
  refine congrArg (V c (Pipeline.arrRef spec5 2) : Vec Ideal S1x256 .f32) ?_
  funext a; apply Fin.ext
  match a with
  | ⟨0, _⟩ => show win5_2.index t (0 : Fin 2) * 1 + 1 * 0 = 0; omega
  | ⟨1, _⟩ => show win5_2.index t (1 : Fin 2) * 256 + 1 * k.val = k.val; omega

/-- Input window 3 (a [1,256] row, one block, the same at every point) read at column `k`: the row at `k`. -/
theorem iblk5_3_apply (c : Dev nD) (t : Fin cfg5.N) (k : Fin 256) :
    (iblk5 V c 3 t : Vec Ideal S1x256 .f32) (rowIx k) = (V c (Pipeline.arrRef spec5 3) : Vec Ideal S1x256 .f32) (rowIx k) := by
  obtain ⟨-, -, a1, b1, a2, b2, a3, b3, a4, b4, a5, b5, -, -⟩ := idx_facts5 t
  unfold iblk5
  rw [View.read_apply]
  refine congrArg (V c (Pipeline.arrRef spec5 3) : Vec Ideal S1x256 .f32) ?_
  funext a; apply Fin.ext
  match a with
  | ⟨0, _⟩ => show win5_3.index t (0 : Fin 2) * 1 + 1 * 0 = 0; omega
  | ⟨1, _⟩ => show win5_3.index t (1 : Fin 2) * 256 + 1 * k.val = k.val; omega

/-- Input window 4 (a [1,256] row, one block, the same at every point) read at column `k`: the row at `k`. -/
theorem iblk5_4_apply (c : Dev nD) (t : Fin cfg5.N) (k : Fin 256) :
    (iblk5 V c 4 t : Vec Ideal S1x256 .f32) (rowIx k) = (V c (Pipeline.arrRef spec5 4) : Vec Ideal S1x256 .f32) (rowIx k) := by
  obtain ⟨-, -, a1, b1, a2, b2, a3, b3, a4, b4, a5, b5, -, -⟩ := idx_facts5 t
  unfold iblk5
  rw [View.read_apply]
  refine congrArg (V c (Pipeline.arrRef spec5 4) : Vec Ideal S1x256 .f32) ?_
  funext a; apply Fin.ext
  match a with
  | ⟨0, _⟩ => show win5_4.index t (0 : Fin 2) * 1 + 1 * 0 = 0; omega
  | ⟨1, _⟩ => show win5_4.index t (1 : Fin 2) * 256 + 1 * k.val = k.val; omega

/-- Input window 5 (a [1,256] row, one block, the same at every point) read at column `k`: the row at `k`. -/
theorem iblk5_5_apply (c : Dev nD) (t : Fin cfg5.N) (k : Fin 256) :
    (iblk5 V c 5 t : Vec Ideal S1x256 .f32) (rowIx k) = (V c (Pipeline.arrRef spec5 5) : Vec Ideal S1x256 .f32) (rowIx k) := by
  obtain ⟨-, -, a1, b1, a2, b2, a3, b3, a4, b4, a5, b5, -, -⟩ := idx_facts5 t
  unfold iblk5
  rw [View.read_apply]
  refine congrArg (V c (Pipeline.arrRef spec5 5) : Vec Ideal S1x256 .f32) ?_
  funext a; apply Fin.ext
  match a with
  | ⟨0, _⟩ => show win5_5.index t (0 : Fin 2) * 1 + 1 * 0 = 0; omega
  | ⟨1, _⟩ => show win5_5.index t (1 : Fin 2) * 256 + 1 * k.val = k.val; omega

/-! ## What a point writes back -/

set_option maxHeartbeats 1000000 in
/-- WHAT POINT `t` WRITES BACK is block `t` of `bnrelu` of the six arrays as the region finds them. -/
theorem flushed5_6_eq (c : Dev nD) (t : Fin cfg5.N) :
    (dat5 V c).flushed 6 t = ((cfg5.win 6).blk t).view.read (Elt Ideal)
      (bnrelu (n := 50000) (d := 256) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz5]
  simp only [View.ld_unit_zero (S := S1000x256) hz5, View.ld_unit_zero (S := S1x256) hz5]
  refine funext fun (j : S1000x256.Idx) => ?_
  show k5_pay1 (iblk5 V c 0 t) (iblk5 V c 1 t) (iblk5 V c 2 t) (iblk5 V c 3 t) (iblk5 V c 4 t) (iblk5 V c 5 t) j
    = bnrelu (n := 50000) (d := 256) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (((cfg5.win 6).blk t).view.emb j)
  rw [pay5_apply, bnrelu_apply, emb5_6_col t j, iblk5_0_apply, iblk5_1_apply V c t (j 1), iblk5_2_apply V c t (j 1),
    iblk5_3_apply V c t (j 1), iblk5_4_apply V c t (j 1), iblk5_5_apply V c t (j 1)]

/-! ## The blocks cover the array -/

/-- An index of the array is in point `t`'s block iff each coordinate is in the block's range on its axis. -/
theorem mem_blk5_6 (t : Fin cfg5.N) (i : S50000x256.Idx) :
    i ∈ ((cfg5.win 6).blk t).view.set ↔ ∀ a : Fin 2, win5_6.index t a * S1000x256.size a ≤ (i a).val ∧ (i a).val < win5_6.index t a * S1000x256.size a + S1000x256.size a := by
  show i ∈ ((View.whole main_v65).slice (win5_6.rect t)).set ↔ _
  rw [View.set_slice_whole, Rect.mem_set_unit]
  exact Iff.rfl

/-- Every element of the output array is in some point's block: row `r` is in the block of point `r / 1000`. -/
theorem covered5_6 (i : S50000x256.Idx) :
    ∃ t : Fin cfg5.N, (cfg5.win 6).flush t = true ∧ i ∈ ((cfg5.win 6).blk t).view.set := by
  have hi0 : (i 0).val < 50000 := (i 0).isLt
  have hi1 : (i 1).val < 256 := (i 1).isLt
  have hN : cfg5.N = 50 := N_5
  have hlt : (i 0).val / 1000 < cfg5.N := by rw [hN]; omega
  obtain ⟨-, -, -, -, -, -, -, -, -, -, -, -, a6, b6⟩ := idx_facts5 ⟨(i 0).val / 1000, hlt⟩
  refine ⟨⟨(i 0).val / 1000, hlt⟩, flush5_6 _, ?_⟩
  rw [mem_blk5_6]
  intro a
  match a with
  | ⟨0, _⟩ =>
    show win5_6.index ⟨(i 0).val / 1000, hlt⟩ (0 : Fin 2) * 1000 ≤ (i 0).val ∧ (i 0).val < win5_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win5_6.index ⟨(i 0).val / 1000, hlt⟩ (1 : Fin 2) * 256 ≤ (i 1).val ∧ (i 1).val < win5_6.index ⟨(i 0).val / 1000, hlt⟩ (1 : Fin 2) * 256 + 256
    rw [b6]; omega

/-! ## The output array after the region -/

/-- THE OUTPUT ARRAY after the region's grid has run is `bnrelu` of the six input arrays as the region finds them. -/
theorem final5_6 (c : Dev nD) :
    (dat5 V c).arrAt 6 cfg5.N = bnrelu (n := 50000) (d := 256) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat5 V c).arrAt_eq_of_cover 6 _ (fun t _ => flushed5_6_eq V c t) covered5_6

end Cert.KernelIdeal.Reg
-- ==== Proof.KI.Val6.lean ====
/- REGION 6's output array after the region, at the ideal values, as ONE whole-array function of the region's two
   input arrays as it finds them: the [50000, 256] array ends holding the matrix product of the [50000, 256] array
   by the [256, 256] weight (`Cert.Spec.mm`).
   The road: at the ideal values narrowing to bf16 changes nothing and the product onto a zero accumulator is the
   sum over the contraction coordinate, so the body's payload at row `x`, column `y` of a block is
   `∑ k, block (x, k) * weight (k, y)` (`pay6_apply`). Point `t`'s row block is rows `1000 t …` of the array and
   its output block the same rows of the output, while the weight's block is the whole weight at every point
   (`idx_facts6`, decided over the 50 points); a product's rows are the products of the rows, so what point `t`
   writes back is block `t` of the whole product (`flushed6_2_eq`). Every point writes back, and row `r` lies in
   the block of point `r / 1000` (`cover6_out`), so the array ends holding the product and nothing of what it held
   before (`arrAt6_out`). -/
import proofs.«146967_j25786983645193_1_alg».proof.Proof.KI.Reg6
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz6 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay6_apply (xa : Vec Ideal S1000x256 .f32) (xb : Vec Ideal S256x256 .f32) (j : S1000x256.Idx) :
    k6_pay1 (F := Ideal) xa xb j = ∑ k : Fin 256, xa (ix2 (j 0) k) * xb (ix2 k (j 1)) := by
  unfold k6_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts6 : ∀ t : Fin cfg6.N,
    win6_0.index t (0 : Fin 2) = win6_2.index t (0 : Fin 2) ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed6_2_eq (c : Dev nD) (t : Fin cfg6.N) :
    (dat6 (F := Ideal) V c).flushed 2 t
      = ((cfg6.win 2).blk t).view.read (Elt Ideal)
          (Cert.Spec.mm (M := 50000) (K := 256) (N := 256) (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero hz6]
  simp only [View.ld_unit_zero (S := S1000x256) hz6, View.ld_unit_zero (S := S256x256) hz6]
  obtain ⟨e0, e1, e2, e3, e4, e5⟩ := idx_facts6 t
  funext j
  show k6_pay1 (F := Ideal) (iblk6 V c 0 t) (iblk6 V c 1 t) j
    = Cert.Spec.mm (M := 50000) (K := 256) (N := 256) (V c (Pipeline.arrRef spec6 0)) (V c (Pipeline.arrRef spec6 1)) (((cfg6.win 2).blk t).view.emb j)
  rw [pay6_apply, Cert.Spec.mm_apply]
  refine Finset.sum_congr rfl fun k _ => ?_
  -- the row block's element (j 0, k) is the array's at the output block's row and column k
  have ha : ((cfg6.win 0).blk t).view.emb (ix2 (j 0) k) = ix2 ((((cfg6.win 2).blk t).view.emb j) 0) k := by
    funext a; apply Fin.ext
    match a with
    | ⟨0, _⟩ => show win6_0.index t (0 : Fin 2) * 1000 + 1 * (j 0).val = win6_2.index t (0 : Fin 2) * 1000 + 1 * (j 0).val; omega
    | ⟨1, _⟩ => show win6_0.index t (1 : Fin 2) * 256 + 1 * k.val = k.val; omega
  -- the weight's element (k, j 1) is the array's at row k and the output block's column
  have hb : ((cfg6.win 1).blk t).view.emb (ix2 k (j 1)) = ix2 k ((((cfg6.win 2).blk t).view.emb j) 1) := by
    funext a; apply Fin.ext
    match a with
    | ⟨0, _⟩ => show win6_1.index t (0 : Fin 2) * 256 + 1 * k.val = k.val; omega
    | ⟨1, _⟩ => show win6_1.index t (1 : Fin 2) * 256 + 1 * (j 1).val = win6_2.index t (1 : Fin 2) * 256 + 1 * (j 1).val; omega
  -- each block's element is its array's at the embedded index (a read through a view is precomposition)
  unfold iblk6
  rw [View.read_apply, View.read_apply]
  rewrite [ha, hb]
  rfl

/-! ## The output blocks cover the array -/

/-- An index of the output array is in point `t`'s block iff each coordinate is in the block's range on its axis. -/
theorem mem_blk6_2 (t : Fin cfg6.N) (i : S50000x256.Idx) :
    i ∈ ((cfg6.win 2).blk t).view.set ↔ ∀ a : Fin 2, win6_2.index t a * S1000x256.size a ≤ (i a).val ∧ (i a).val < win6_2.index t a * S1000x256.size a + S1000x256.size a := by
  show i ∈ ((View.whole (Pipeline.arrRef spec6 2)).slice (win6_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover6_out (i : S50000x256.Idx) :
    ∃ t : Fin cfg6.N, (cfg6.win 2).flush t = true ∧ i ∈ ((cfg6.win 2).blk t).view.set := by
  have hr : (i 0).val < 50000 := idx2_lt0 i
  have hc : (i 1).val < 256 := idx2_lt1 i
  have hN : cfg6.N = 50 := N_6
  let t : Fin cfg6.N := ⟨(i 0).val / 1000, by rw [hN]; omega⟩
  have ht : t.val = (i 0).val / 1000 := rfl
  obtain ⟨-, -, -, -, e4, e5⟩ := idx_facts6 t
  refine ⟨t, flush6_2 t, (mem_blk6_2 t i).mpr fun a => ?_⟩
  match a with
  | ⟨0, _⟩ => show win6_2.index t (0 : Fin 2) * 1000 ≤ (i 0).val ∧ (i 0).val < win6_2.index t (0 : Fin 2) * 1000 + 1000; omega
  | ⟨1, _⟩ => show win6_2.index t (1 : Fin 2) * 256 ≤ (i 1).val ∧ (i 1).val < win6_2.index t (1 : Fin 2) * 256 + 256; omega

/-! ## The output array after the region -/

/-- The product of the region's two arrays, at the program's shapes: `Cert.Spec.mm` at 50000 × 256 by 256 × 256. -/
abbrev mm6 (a : Vec Ideal S50000x256 .f32) (w : Vec Ideal S256x256 .f32) : Vec Ideal S50000x256 .f32 :=
  Cert.Spec.mm (M := 50000) (K := 256) (N := 256) a w

/-- THE OUTPUT ARRAY after the region, as one whole-array function of the two input arrays as the region finds
    them: their product. Every point writes back its block of that product (`flushed6_2_eq`) and the blocks cover
    the array (`cover6_out`), so nothing of what the array held before remains. -/
theorem arrAt6_out (c : Dev nD) :
    (dat6 (F := Ideal) V c).arrAt 2 cfg6.N = mm6 (V c (Pipeline.arrRef spec6 0)) (V c (Pipeline.arrRef spec6 1)) :=
  (dat6 (F := Ideal) V c).arrAt_eq_of_cover 2 _ (fun t _ => flushed6_2_eq V c t) cover6_out

end Cert.KernelIdeal.Reg
-- ==== Proof.KI.Val7.lean ====
/-
  THE VALUE of REGION 7 of the kernel program (custom_call 7, cc7__sumsq_kernel) at the ideal (extended-real) float
  values: after the region, the two [1,256] arrays its windows 1 and 2 write hold, at column k, the sum over all 50000
  rows of the [50000,256] array h the region read, and the sum of the squares:

      arrAt7_1 : (dat7 V c).arrAt 1 cfg7.N = colsum   (V c (Pipeline.arrRef spec7 0))
      arrAt7_2 : (dat7 V c).arrAt 2 cfg7.N = colsumsq (V c (Pipeline.arrRef spec7 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg7
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out7_B_1_eq (c : Dev nD) (i : grid7.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond7_0 i) (x : Vec F S1000x256 .f32) (xo1 xo2 : Vec F S1x256 .f32) :
    out7_B_1 c i a1 h1 a2 h2 a3 h3 hc x xo1 xo2 = k7_pay4 x xo1 := by
  unfold out7_B_1 kernelRun7_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out7_B_2_eq (c : Dev nD) (i : grid7.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond7_0 i) (x : Vec F S1000x256 .f32) (xo1 xo2 : Vec F S1x256 .f32) :
    out7_B_2 c i a1 h1 a2 h2 a3 h3 hc x xo1 xo2 = k7_pay5 x xo2 := by
  unfold out7_B_2 kernelRun7_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out7_A_1_eq (c : Dev nD) (i : grid7.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond7_0 i) (x : Vec F S1000x256 .f32) :
    out7_A_1 c i a1 h1 a2 h2 a3 h3 hc x = k7_pay4 x (k7_pay1 (F := F)) := by
  unfold out7_A_1 kernelRun7_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out7_A_2_eq (c : Dev nD) (i : grid7.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond7_0 i) (x : Vec F S1000x256 .f32) :
    out7_A_2 c i a1 h1 a2 h2 a3 h3 hc x = k7_pay5 x (k7_pay2 (F := F)) := by
  unfold out7_A_2 kernelRun7_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k7_pay1_apply (j : S1x256.Idx) : k7_pay1 (F := Ideal) j = 0 := Ideal.ofBits_zero_f32
theorem k7_pay2_apply (j : S1x256.Idx) : k7_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k7_pay4_apply (x : Vec Ideal S1000x256 .f32) (acc : Vec Ideal S1x256 .f32) (j : S1x256.Idx) :
    k7_pay4 x acc j = acc j + ∑ r : Fin 1000, x (ix2 r (j 1)) := by
  unfold k7_pay4 k7_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k7_pay5_apply (x : Vec Ideal S1000x256 .f32) (acc : Vec Ideal S1x256 .f32) (j : S1x256.Idx) :
    k7_pay5 x acc j = acc j + ∑ r : Fin 1000, x (ix2 r (j 1)) * x (ix2 r (j 1)) := by
  unfold k7_pay5 k7_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr7 (c : Dev nD) : Vec F S50000x256 .f32 := V c (Pipeline.arrRef spec7 0)

/-- Window 0's block index at point `t` is (t, 0): decided over the 50 points. -/
private theorem index7_0 : ∀ t : Fin cfg7.N, win7_0.index t 0 = t.val ∧ win7_0.index t 1 = 0 :=
  (by decide +kernel : ∀ t : Fin grid7.N, win7_0.index t 0 = t.val ∧ win7_0.index t 1 = 0)

/-- The input block at point `t` reads the array at rows `1000 t + r`. -/
theorem iblk7_0_apply (c : Dev nD) (t : Fin cfg7.N) (r : Fin 1000) (k : Fin 256) (P : Fin 50000)
    (hP : P.val = 1000 * t.val + r.val) :
    (iblk7 V c 0 t : Vec F S1000x256 .f32) (ix2 r k) = harr7 V c (ix2 P k) := by
  unfold iblk7
  rw [View.read_apply]
  show V c (Pipeline.arrRef spec7 0) _ = V c (Pipeline.arrRef spec7 0) _
  congr 1
  funext a
  apply Fin.ext
  match a with
  | ⟨0, _⟩ => show win7_0.index t 0 * 1000 + 1 * r.val = P.val; rw [(index7_0 t).1, hP]; omega
  | ⟨1, _⟩ => show win7_0.index t 1 * 256 + 1 * k.val = k.val; rw [(index7_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt7_eq (c : Dev nD) : ∀ (n : ℕ) (hn : n < cfg7.N) (j : S1x256.Idx),
    (outsAt7 V c n hn).1 j = rowsBelow 1000 (fun P : Fin 50000 => harr7 V c (ix2 P (j 1))) n
    ∧ (outsAt7 V c n hn).2 j
        = rowsBelow 1000 (fun P : Fin 50000 => harr7 V c (ix2 P (j 1)) * harr7 V c (ix2 P (j 1))) n
  | 0, hn, j => by
    rw [outsAt7_zero]
    dsimp only
    rw [out7_A_1_eq, out7_A_2_eq, k7_pay4_apply, k7_pay5_apply, k7_pay1_apply, k7_pay2_apply, zero_add, zero_add,
      rowsBelow_zero 1000 (by decide), rowsBelow_zero 1000 (by decide)]
    refine ⟨Finset.sum_congr rfl fun r _ => ?_, Finset.sum_congr rfl fun r _ => ?_⟩
    · exact iblk7_0_apply V c ⟨0, hn⟩ r (j 1) _ (by show r.val = 1000 * 0 + r.val; omega)
    · rw [iblk7_0_apply V c ⟨0, hn⟩ r (j 1) ⟨r.val, by have := r.isLt; omega⟩ (by show r.val = 1000 * 0 + r.val; omega)]
  | n + 1, hn, j => by
    have hN : n + 1 < 50 := lt_of_lt_of_eq hn (show cfg7.N = 50 from N_7)
    rw [outsAt7_succ]
    dsimp only
    rw [out7_B_1_eq, out7_B_2_eq, k7_pay4_apply, k7_pay5_apply,
      (outsAt7_eq c n (Nat.lt_of_succ_lt hn) j).1, (outsAt7_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk7_0_apply V c ⟨n + 1, hn⟩ r (j 1) _ rfl
    · rw [iblk7_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t7_last : Fin cfg7.N := ⟨49, lt_of_lt_of_eq (by decide : 49 < 50) (show cfg7.N = 50 from N_7).symm⟩

/-- After the last point output 1's buffer holds the column sums of the whole array, -/
theorem outsAt7_last_1 (c : Dev nD) :
    (outsAt7 V c t7_last.val t7_last.isLt).1 = colsum (n := 50000) (d := 256) (harr7 V c) :=
  funext fun j => by
    rw [(outsAt7_eq V c _ _ j).1, rowsBelow_all 1000 _ _ (by decide)]; rfl

/-- and output 2's the column sums of its squares. -/
theorem outsAt7_last_2 (c : Dev nD) :
    (outsAt7 V c t7_last.val t7_last.isLt).2 = colsumsq (n := 50000) (d := 256) (harr7 V c) :=
  funext fun j => by
    rw [(outsAt7_eq V c _ _ j).2, rowsBelow_all 1000 _ _ (by decide)]; rfl

/-- The one write-back of output 1, after the last point, writes the column sums: its block is the whole [1,256] array,
    read through zero offsets. -/
theorem flushed7_1_eq (c : Dev nD) (t : Fin cfg7.N) (hf : (cfg7.win 1).flush t = true) :
    (dat7 V c).flushed 1 t
      = ((cfg7.win 1).blk t).view.read (Elt Ideal) (colsum (n := 50000) (d := 256) (harr7 V c)) := by
  have hN : t.val < 50 := lt_of_lt_of_eq t.isLt (show cfg7.N = 50 from N_7)
  have h49 : t.val = 49 := by have := (flush7_1 t).mp hf; omega
  obtain rfl : t = t7_last := Fin.ext h49
  show (cfg7.win 1).cut (grid7.coords t7_last) ((dat7 V c).after 1 t7_last) = _
  rw [after7_1, outsAt7_last_1]
  have hz' : (fun a => win7_1.index t7_last a * (Pipeline.arrRef spec7 1).ty.shape.size a) = fun _ => 0 :=
    funext fun a => by fin_cases a <;> decide +kernel
  exact (Memref.read_access_unit_zero (Elt Ideal) (Pipeline.arrRef spec7 1) hz' (fun a => by rw [congrFun hz' a]; simp)
    (colsum (n := 50000) (d := 256) (harr7 V c))).symm

/-- Likewise output 2's. -/
theorem flushed7_2_eq (c : Dev nD) (t : Fin cfg7.N) (hf : (cfg7.win 2).flush t = true) :
    (dat7 V c).flushed 2 t
      = ((cfg7.win 2).blk t).view.read (Elt Ideal) (colsumsq (n := 50000) (d := 256) (harr7 V c)) := by
  have hN : t.val < 50 := lt_of_lt_of_eq t.isLt (show cfg7.N = 50 from N_7)
  have h49 : t.val = 49 := by have := (flush7_2 t).mp hf; omega
  obtain rfl : t = t7_last := Fin.ext h49
  show (cfg7.win 2).cut (grid7.coords t7_last) ((dat7 V c).after 2 t7_last) = _
  rw [after7_2, outsAt7_last_2]
  have hz' : (fun a => win7_2.index t7_last a * (Pipeline.arrRef spec7 2).ty.shape.size a) = fun _ => 0 :=
    funext fun a => by fin_cases a <;> decide +kernel
  exact (Memref.read_access_unit_zero (Elt Ideal) (Pipeline.arrRef spec7 2) hz' (fun a => by rw [congrFun hz' a]; simp)
    (colsumsq (n := 50000) (d := 256) (harr7 V c))).symm

/-- THE FIRST RESULT: after the region the [1,256] array of window 1 holds the column sums of the [50000,256] array
    the region read (the last point's write-back covers it). -/
theorem arrAt7_1 (c : Dev nD) :
    (dat7 V c).arrAt 1 cfg7.N = colsum (n := 50000) (d := 256) (V c (Pipeline.arrRef spec7 0)) :=
  (dat7 V c).arrAt_eq_of_cover 1 (colsum (n := 50000) (d := 256) (harr7 V c)) (flushed7_1_eq V c) fun i =>
    ⟨t7_last, (flush7_1 t7_last).mpr rfl, by
      show i ∈ ((View.whole (Pipeline.arrRef spec7 1)).slice (win7_1.rect t7_last)).set
      rw [View.set_slice_whole, Rect.mem_set_unit]
      intro a
      have h0 : (i 0 : Nat) < 1 := (i 0).isLt
      have h1 : (i 1 : Nat) < 256 := (i 1).isLt
      match a with
      | ⟨0, _⟩ =>
        show win7_1.index t7_last 0 * win7_1.size 0 ≤ (i 0 : Nat)
          ∧ (i 0 : Nat) < win7_1.index t7_last 0 * win7_1.size 0 + win7_1.xsize (grid7.coords t7_last) 0
        rw [show win7_1.index t7_last 0 * win7_1.size 0 = 0 from by decide +kernel,
          show win7_1.xsize (grid7.coords t7_last) 0 = 1 from by decide +kernel]; omega
      | ⟨1, _⟩ =>
        show win7_1.index t7_last 1 * win7_1.size 1 ≤ (i 1 : Nat)
          ∧ (i 1 : Nat) < win7_1.index t7_last 1 * win7_1.size 1 + win7_1.xsize (grid7.coords t7_last) 1
        rw [show win7_1.index t7_last 1 * win7_1.size 1 = 0 from by decide +kernel,
          show win7_1.xsize (grid7.coords t7_last) 1 = 256 from by decide +kernel]; omega⟩

/-- THE SECOND RESULT: the [1,256] array of window 2 holds the column sums of the squares. -/
theorem arrAt7_2 (c : Dev nD) :
    (dat7 V c).arrAt 2 cfg7.N = colsumsq (n := 50000) (d := 256) (V c (Pipeline.arrRef spec7 0)) :=
  (dat7 V c).arrAt_eq_of_cover 2 (colsumsq (n := 50000) (d := 256) (harr7 V c)) (flushed7_2_eq V c) fun i =>
    ⟨t7_last, (flush7_2 t7_last).mpr rfl, by
      show i ∈ ((View.whole (Pipeline.arrRef spec7 2)).slice (win7_2.rect t7_last)).set
      rw [View.set_slice_whole, Rect.mem_set_unit]
      intro a
      have h0 : (i 0 : Nat) < 1 := (i 0).isLt
      have h1 : (i 1 : Nat) < 256 := (i 1).isLt
      match a with
      | ⟨0, _⟩ =>
        show win7_2.index t7_last 0 * win7_2.size 0 ≤ (i 0 : Nat)
          ∧ (i 0 : Nat) < win7_2.index t7_last 0 * win7_2.size 0 + win7_2.xsize (grid7.coords t7_last) 0
        rw [show win7_2.index t7_last 0 * win7_2.size 0 = 0 from by decide +kernel,
          show win7_2.xsize (grid7.coords t7_last) 0 = 1 from by decide +kernel]; omega
      | ⟨1, _⟩ =>
        show win7_2.index t7_last 1 * win7_2.size 1 ≤ (i 1 : Nat)
          ∧ (i 1 : Nat) < win7_2.index t7_last 1 * win7_2.size 1 + win7_2.xsize (grid7.coords t7_last) 1
        rw [show win7_2.index t7_last 1 * win7_2.size 1 = 0 from by decide +kernel,
          show win7_2.xsize (grid7.coords t7_last) 1 = 256 from by decide +kernel]; omega⟩

end AtIdeal

end Cert.KernelIdeal.Reg

end
-- ==== Proof.KI.Val8.lean ====
/- The VALUE of region 8 (custom_call 8, `cc8__bn_relu_kernel`) at the ideal float values: after the region's grid
   has run, its output array is `Cert.Spec.bnrelu` of the six input arrays as the region finds them,

     (dat8 V c).arrAt 6 cfg8.N = bnrelu (V c h) (V c bias) (V c gamma) (V c beta) (V c mean) (V c var).

   The steps: the body's payload read at one element of a block is `bnrelu`'s expression of the loaded block's element
   and the five rows' elements at its column (`pay8_apply`); the activation's block at point `t` lies under the
   output's block (both are rows `1000 t … 1000 t + 999`) and each row's one block is the whole row (`idx_facts8`,
   `iblk8_W_apply`); so what point `t` writes back is block `t` of `bnrelu` of the arrays (`flushed8_6_eq`: a flushed
   block is a restriction of one whole-array function); row `r` of the output is in the block of point `r / 1000`, so
   the blocks cover the array (`covered8_6`); hence the array ends holding `bnrelu` of the arrays (`final8_6`). -/
import proofs.«146967_j25786983645193_1_alg».proof.Proof.KI.Reg8
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz8 : (![0, 0] : Fin 2 → Nat) = fun _ => 0 := funext fun a => by fin_cases a <;> rfl

/-- A [1,256] row broadcast along the 1000 rows of a block, read at `j`: the row at `j`'s column. -/
theorem bcast_row8 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay8_apply (x0 : Vec Ideal S1000x256 .f32) (x1 x2 x3 x4 x5 : Vec Ideal S1x256 .f32) (j : S1000x256.Idx) :
    k8_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k8_pay1
  simp only [shapeCast_self]
  rw [maximumf_apply, addf_apply, mulf_apply, mulf_apply, subf_apply, addf_apply]
  simp only [bcast_row8]
  rfl

/-! ## The windows' index maps -/

/-- The printed index maps, decided over the grid: the activation's and the output's block at point `t` is block
    `(t, 0)`; each of the five rows' is block `(0, 0)`. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-! ## The input blocks at an index, as elements of the arrays -/

/-- The column of an element of the output's block at point `t` is its column in the block. -/
theorem emb8_6_col (t : Fin cfg8.N) (j : S1000x256.Idx) :
    ((((cfg8.win 6).blk t).view.emb j : S50000x256.Idx) 1 : Fin 256) = j 1 := by
  obtain ⟨-, -, -, -, -, -, -, -, -, -, -, -, a6, b6⟩ := idx_facts8 t
  apply Fin.ext
  show win8_6.index t (1 : Fin 2) * 256 + 1 * (j 1).val = (j 1).val
  omega

/-- Input window 0 (the activation's [1000,256] block) read at `j`: the activation at the element of the array that the
    OUTPUT's block at the same point has at `j` — the two windows move together. -/
theorem iblk8_0_apply (c : Dev nD) (t : Fin cfg8.N) (j : S1000x256.Idx) :
    (iblk8 V c 0 t : Vec Ideal S1000x256 .f32) j
      = (V c (Pipeline.arrRef spec8 0) : Vec Ideal S50000x256 .f32) (((cfg8.win 6).blk t).view.emb j) := by
  obtain ⟨a0, b0, -, -, -, -, -, -, -, -, -, -, a6, b6⟩ := idx_facts8 t
  unfold iblk8
  rw [View.read_apply]
  refine congrArg (V c (Pipeline.arrRef spec8 0) : Vec Ideal S50000x256 .f32) ?_
  funext a; apply Fin.ext
  match a with
  | ⟨0, _⟩ => show win8_0.index t (0 : Fin 2) * 1000 + 1 * (j 0).val = win8_6.index t (0 : Fin 2) * 1000 + 1 * (j 0).val; omega
  | ⟨1, _⟩ => show win8_0.index t (1 : Fin 2) * 256 + 1 * (j 1).val = win8_6.index t (1 : Fin 2) * 256 + 1 * (j 1).val; omega

/-- Input window 1 (a [1,256] row, one block, the same at every point) read at column `k`: the row at `k`. -/
theorem iblk8_1_apply (c : Dev nD) (t : Fin cfg8.N) (k : Fin 256) :
    (iblk8 V c 1 t : Vec Ideal S1x256 .f32) (rowIx k) = (V c (Pipeline.arrRef spec8 1) : Vec Ideal S1x256 .f32) (rowIx k) := by
  obtain ⟨-, -, a1, b1, a2, b2, a3, b3, a4, b4, a5, b5, -, -⟩ := idx_facts8 t
  unfold iblk8
  rw [View.read_apply]
  refine congrArg (V c (Pipeline.arrRef spec8 1) : Vec Ideal S1x256 .f32) ?_
  funext a; apply Fin.ext
  match a with
  | ⟨0, _⟩ => show win8_1.index t (0 : Fin 2) * 1 + 1 * 0 = 0; omega
  | ⟨1, _⟩ => show win8_1.index t (1 : Fin 2) * 256 + 1 * k.val = k.val; omega

/-- Input window 2 (a [1,256] row, one block, the same at every point) read at column `k`: the row at `k`. -/
theorem iblk8_2_apply (c : Dev nD) (t : Fin cfg8.N) (k : Fin 256) :
    (iblk8 V c 2 t : Vec Ideal S1x256 .f32) (rowIx k) = (V c (Pipeline.arrRef spec8 2) : Vec Ideal S1x256 .f32) (rowIx k) := by
  obtain ⟨-, -, a1, b1, a2, b2, a3, b3, a4, b4, a5, b5, -, -⟩ := idx_facts8 t
  unfold iblk8
  rw [View.read_apply]
  refine congrArg (V c (Pipeline.arrRef spec8 2) : Vec Ideal S1x256 .f32) ?_
  funext a; apply Fin.ext
  match a with
  | ⟨0, _⟩ => show win8_2.index t (0 : Fin 2) * 1 + 1 * 0 = 0; omega
  | ⟨1, _⟩ => show win8_2.index t (1 : Fin 2) * 256 + 1 * k.val = k.val; omega

/-- Input window 3 (a [1,256] row, one block, the same at every point) read at column `k`: the row at `k`. -/
theorem iblk8_3_apply (c : Dev nD) (t : Fin cfg8.N) (k : Fin 256) :
    (iblk8 V c 3 t : Vec Ideal S1x256 .f32) (rowIx k) = (V c (Pipeline.arrRef spec8 3) : Vec Ideal S1x256 .f32) (rowIx k) := by
  obtain ⟨-, -, a1, b1, a2, b2, a3, b3, a4, b4, a5, b5, -, -⟩ := idx_facts8 t
  unfold iblk8
  rw [View.read_apply]
  refine congrArg (V c (Pipeline.arrRef spec8 3) : Vec Ideal S1x256 .f32) ?_
  funext a; apply Fin.ext
  match a with
  | ⟨0, _⟩ => show win8_3.index t (0 : Fin 2) * 1 + 1 * 0 = 0; omega
  | ⟨1, _⟩ => show win8_3.index t (1 : Fin 2) * 256 + 1 * k.val = k.val; omega

/-- Input window 4 (a [1,256] row, one block, the same at every point) read at column `k`: the row at `k`. -/
theorem iblk8_4_apply (c : Dev nD) (t : Fin cfg8.N) (k : Fin 256) :
    (iblk8 V c 4 t : Vec Ideal S1x256 .f32) (rowIx k) = (V c (Pipeline.arrRef spec8 4) : Vec Ideal S1x256 .f32) (rowIx k) := by
  obtain ⟨-, -, a1, b1, a2, b2, a3, b3, a4, b4, a5, b5, -, -⟩ := idx_facts8 t
  unfold iblk8
  rw [View.read_apply]
  refine congrArg (V c (Pipeline.arrRef spec8 4) : Vec Ideal S1x256 .f32) ?_
  funext a; apply Fin.ext
  match a with
  | ⟨0, _⟩ => show win8_4.index t (0 : Fin 2) * 1 + 1 * 0 = 0; omega
  | ⟨1, _⟩ => show win8_4.index t (1 : Fin 2) * 256 + 1 * k.val = k.val; omega

/-- Input window 5 (a [1,256] row, one block, the same at every point) read at column `k`: the row at `k`. -/
theorem iblk8_5_apply (c : Dev nD) (t : Fin cfg8.N) (k : Fin 256) :
    (iblk8 V c 5 t : Vec Ideal S1x256 .f32) (rowIx k) = (V c (Pipeline.arrRef spec8 5) : Vec Ideal S1x256 .f32) (rowIx k) := by
  obtain ⟨-, -, a1, b1, a2, b2, a3, b3, a4, b4, a5, b5, -, -⟩ := idx_facts8 t
  unfold iblk8
  rw [View.read_apply]
  refine congrArg (V c (Pipeline.arrRef spec8 5) : Vec Ideal S1x256 .f32) ?_
  funext a; apply Fin.ext
  match a with
  | ⟨0, _⟩ => show win8_5.index t (0 : Fin 2) * 1 + 1 * 0 = 0; omega
  | ⟨1, _⟩ => show win8_5.index t (1 : Fin 2) * 256 + 1 * k.val = k.val; omega

/-! ## What a point writes back -/

set_option maxHeartbeats 1000000 in
/-- WHAT POINT `t` WRITES BACK is block `t` of `bnrelu` of the six arrays as the region finds them. -/
theorem flushed8_6_eq (c : Dev nD) (t : Fin cfg8.N) :
    (dat8 V c).flushed 6 t = ((cfg8.win 6).blk t).view.read (Elt Ideal)
      (bnrelu (n := 50000) (d := 256) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero hz8]
  simp only [View.ld_unit_zero (S := S1000x256) hz8, View.ld_unit_zero (S := S1x256) hz8]
  refine funext fun (j : S1000x256.Idx) => ?_
  show k8_pay1 (iblk8 V c 0 t) (iblk8 V c 1 t) (iblk8 V c 2 t) (iblk8 V c 3 t) (iblk8 V c 4 t) (iblk8 V c 5 t) j
    = bnrelu (n := 50000) (d := 256) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (((cfg8.win 6).blk t).view.emb j)
  rw [pay8_apply, bnrelu_apply, emb8_6_col t j, iblk8_0_apply, iblk8_1_apply V c t (j 1), iblk8_2_apply V c t (j 1),
    iblk8_3_apply V c t (j 1), iblk8_4_apply V c t (j 1), iblk8_5_apply V c t (j 1)]

/-! ## The blocks cover the array -/

/-- An index of the array is in point `t`'s block iff each coordinate is in the block's range on its axis. -/
theorem mem_blk8_6 (t : Fin cfg8.N) (i : S50000x256.Idx) :
    i ∈ ((cfg8.win 6).blk t).view.set ↔ ∀ a : Fin 2, win8_6.index t a * S1000x256.size a ≤ (i a).val ∧ (i a).val < win8_6.index t a * S1000x256.size a + S1000x256.size a := by
  show i ∈ ((View.whole main_v65).slice (win8_6.rect t)).set ↔ _
  rw [View.set_slice_whole, Rect.mem_set_unit]
  exact Iff.rfl

/-- Every element of the output array is in some point's block: row `r` is in the block of point `r / 1000`. -/
theorem covered8_6 (i : S50000x256.Idx) :
    ∃ t : Fin cfg8.N, (cfg8.win 6).flush t = true ∧ i ∈ ((cfg8.win 6).blk t).view.set := by
  have hi0 : (i 0).val < 50000 := (i 0).isLt
  have hi1 : (i 1).val < 256 := (i 1).isLt
  have hN : cfg8.N = 50 := N_8
  have hlt : (i 0).val / 1000 < cfg8.N := by rw [hN]; omega
  obtain ⟨-, -, -, -, -, -, -, -, -, -, -, -, a6, b6⟩ := idx_facts8 ⟨(i 0).val / 1000, hlt⟩
  refine ⟨⟨(i 0).val / 1000, hlt⟩, flush8_6 _, ?_⟩
  rw [mem_blk8_6]
  intro a
  match a with
  | ⟨0, _⟩ =>
    show win8_6.index ⟨(i 0).val / 1000, hlt⟩ (0 : Fin 2) * 1000 ≤ (i 0).val ∧ (i 0).val < win8_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win8_6.index ⟨(i 0).val / 1000, hlt⟩ (1 : Fin 2) * 256 ≤ (i 1).val ∧ (i 1).val < win8_6.index ⟨(i 0).val / 1000, hlt⟩ (1 : Fin 2) * 256 + 256
    rw [b6]; omega

/-! ## The output array after the region -/

/-- THE OUTPUT ARRAY after the region's grid has run is `bnrelu` of the six input arrays as the region finds them. -/
theorem final8_6 (c : Dev nD) :
    (dat8 V c).arrAt 6 cfg8.N = bnrelu (n := 50000) (d := 256) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) :=
  (dat8 V c).arrAt_eq_of_cover 6 _ (fun t _ => flushed8_6_eq V c t) covered8_6

end Cert.KernelIdeal.Reg
-- ==== Proof.Spec.OpHead.lean ====
/- THE OUTPUT HEAD as a function of whole arrays, at the ideal values, index by index and in the kernel's own operations and
   order: for rows a : [R, K], a weight w : [K, C] and a bias b : [1, C],
     logits r j = (∑ k, a(r,k) · w(k,j)) + b(0,j)
     m r        = the maximum over j of logits r j (the fold of max from -∞)
     out r j    = (logits r j − m r) − log (∑ j', exp (logits r j' − m r)),
   the row log-softmax of the affine map, with exp and log the ideal values' own. Generic in R, K and C: the same
   function reads one block of rows of the kernel and the whole array. No program is imported. -/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

variable {R K C : Nat}

/-- The affine map's value at row r and class j: the sum over the contraction index of the products, then the bias. -/
def headLogit (a : Vec Ideal ⟨2, ![R, K]⟩ .f32) (w : Vec Ideal ⟨2, ![K, C]⟩ .f32) (b : Vec Ideal ⟨2, ![1, C]⟩ .f32)
    (r : Fin R) (j : Fin C) : EReal :=
  (∑ k : Fin K, a (ix2 r k) * w (ix2 k j)) + b (ix2 (0 : Fin 1) j)

/-- Row r's maximum over the classes: the fold of max from -∞ (the extended reals' ⊥). -/
def headMax (a : Vec Ideal ⟨2, ![R, K]⟩ .f32) (w : Vec Ideal ⟨2, ![K, C]⟩ .f32) (b : Vec Ideal ⟨2, ![1, C]⟩ .f32)
    (r : Fin R) : EReal :=
  (Finset.univ : Finset (Fin C)).fold max ⊥ (fun j => headLogit a w b r j)

/-- The output head: each row's shifted logits minus the logarithm of the row sum of their exponentials. -/
def outhead (a : Vec Ideal ⟨2, ![R, K]⟩ .f32) (w : Vec Ideal ⟨2, ![K, C]⟩ .f32) (b : Vec Ideal ⟨2, ![1, C]⟩ .f32) :
    Vec Ideal ⟨2, ![R, C]⟩ .f32 := fun i =>
  (headLogit a w b (i 0) (i 1) - headMax a w b (i 0))
    - Ideal.log (∑ j' : Fin C, Ideal.exp (headLogit a w b (i 0) j' - headMax a w b (i 0)))

/-- The head reads row r of a only: two arrays of rows that agree on a row (r of the first, r' of the second) give the
    same logits there. -/
theorem headLogit_congr {R' : Nat} (a : Vec Ideal ⟨2, ![R, K]⟩ .f32) (a' : Vec Ideal ⟨2, ![R', K]⟩ .f32)
    (w : Vec Ideal ⟨2, ![K, C]⟩ .f32) (b : Vec Ideal ⟨2, ![1, C]⟩ .f32) (r : Fin R) (r' : Fin R')
    (h : ∀ k : Fin K, a (ix2 r k) = a' (ix2 r' k)) (j : Fin C) : headLogit a w b r j = headLogit a' w b r' j := by
  unfold headLogit
  exact congrArg (· + b (ix2 (0 : Fin 1) j)) (Finset.sum_congr rfl fun k _ => by rw [h k])

/-- So the whole head at a row is the head of any array of rows that holds that row: a block of rows of the array, read
    at the block's row, gives the array's head at the row under it. -/
theorem outhead_congr {R' : Nat} (a : Vec Ideal ⟨2, ![R, K]⟩ .f32) (a' : Vec Ideal ⟨2, ![R', K]⟩ .f32)
    (w : Vec Ideal ⟨2, ![K, C]⟩ .f32) (b : Vec Ideal ⟨2, ![1, C]⟩ .f32) (r : Fin R) (r' : Fin R')
    (h : ∀ k : Fin K, a (ix2 r k) = a' (ix2 r' k)) (j : Fin C) : outhead a w b (ix2 r j) = outhead a' w b (ix2 r' j) := by
  have hl : ∀ j', headLogit a w b r j' = headLogit a' w b r' j' := headLogit_congr a a' w b r r' h
  have hm : headMax a w b r = headMax a' w b r' := by
    unfold headMax; exact congrArg (fun f => (Finset.univ : Finset (Fin C)).fold max ⊥ f) (funext hl)
  show (headLogit a w b r j - headMax a w b r) - Ideal.log (∑ j' : Fin C, Ideal.exp (headLogit a w b r j' - headMax a w b r))
    = (headLogit a' w b r' j - headMax a' w b r') - Ideal.log (∑ j' : Fin C, Ideal.exp (headLogit a' w b r' j' - headMax a' w b r'))
  rw [hm, hl j]
  exact congrArg (fun s => (headLogit a' w b r' j - headMax a' w b r') - Ideal.log s)
    (Finset.sum_congr rfl fun j' _ => by rw [hl j'])

end Cert.Spec

end
-- ==== Proof.Spec.Net.lean ====
/- The network both programs compute, as functions of whole arrays at the ideal (extended-real) float values.

   The two programs agree operation for operation except in the batch-norm block. On an activation p of 50000 rows
   and 256 columns and a bias row, one of them (bnK below) takes the column sums s = ∑ rows p and ss = ∑ rows p·p,
   and normalises p + bias by the mean s/50000 + bias and the variance ss/50000 − (s/50000)²; the other (bnR below)
   first forms h = p + bias and normalises it by its own mean (∑ rows h)/50000 and its own variance
   (∑ rows (h − mean)²)/(50000 − 0). For real p and bias these are the same numbers:

     (∑ (p + b))/n = (∑ p)/n + b,      (∑ ((p + b) − ((∑ p)/n + b))²)/n = (∑ p²)/n − ((∑ p)/n)²,

   and everything after them is the same chain (scale, reciprocal square root, shift, maximum with zero).

   Every definition here is written with the array operations the programs themselves print, at the ideal values;
   no program is imported, and shapes are literals. -/
import proofs.«146967_j25786983645193_1_alg».proof.Proof.Spec.BN
import proofs.«146967_j25786983645193_1_alg».proof.Proof.Spec.OpSum
import proofs.«146967_j25786983645193_1_alg».proof.Proof.Spec.OpBN
import proofs.«146967_j25786983645193_1_alg».proof.Proof.Spec.OpMM
import proofs.«146967_j25786983645193_1_alg».proof.Proof.Spec.OpHead
import proofs.«146967_j25786983645193_1_alg».proof.Proof.Spec.Graph
import Idealize.ShloMosaic.Lib.IdealHost
import Idealize.ShloMosaic.Lib.ValueLayout
import Idealize.ShloMosaic.Lib.KernelVsHost
import Idealize.ShloMosaic.Lib.Pipeline.Value

noncomputable section

open scoped BigOperators

namespace Cert.Spec

open Idealize.ShloMosaic Idealize.ShloMosaic.ValueIdx

/-! ## Shapes and the shape relations the operations cite -/

abbrev S_ : Shape := ⟨0, ![]⟩
abbrev S256 : Shape := ⟨1, ![256]⟩
abbrev S1x256 : Shape := ⟨2, ![1, 256]⟩
abbrev S50000x256 : Shape := ⟨2, ![50000, 256]⟩

theorem shapeCasts_S1x256_S256 : S1x256.ShapeCasts S256 := by decide
theorem shapeCasts_S256_S1x256 : S256.ShapeCasts S1x256 := by decide
theorem bcast_S_S256 : S_.BroadcastsInDim S256 (![] : Fin 0 → Fin S256.rank) := by decide
theorem bcast_S_S1x256 : S_.BroadcastsInDim S1x256 (![] : Fin 0 → Fin S1x256.rank) := by decide
theorem bcast_S_S50000x256 : S_.BroadcastsInDim S50000x256 (![] : Fin 0 → Fin S50000x256.rank) := by decide
theorem bcast_S256_S1x256_1 : S256.BroadcastsInDim S1x256 (![1] : Fin 1 → Fin S1x256.rank) := by decide
theorem bcast_S1x256_S50000x256_0_1 : S1x256.BroadcastsInDim S50000x256 (![0, 1] : Fin 2 → Fin S50000x256.rank) := by decide
theorem reducesTo_S50000x256_S256_d0 : S50000x256.ReducesTo [0] S256 := by decide
theorem h_S_ : 0 < S_.numel := by decide

/-! ## The batch-norm block, the column-sum way -/

/-- The mean row the first program hands its normalising kernel: the column sums as a flat row, divided by the
    constant 50000 (the float32 word 0x47435000) spread over the row, plus the bias. -/
def meanK (p : Vec Ideal S50000x256 .f32) (bias : Vec Ideal S256 .f32) : Vec Ideal S256 .f32 :=
  addf (F := Ideal) (φ := .f32) (Host.divf (F := Ideal) (φ := .f32) (shapeCast S256 (colsum p) shapeCasts_S1x256_S256)
      (broadcastInDim S256 ![] bcast_S_S256 (constant (F := Ideal) S_ .f32 0x47435000#32))) bias

/-- The variance row the first program hands its normalising kernel: the column sums of squares over 50000, minus
    the square of the column sums over 50000. -/
def varK (p : Vec Ideal S50000x256 .f32) : Vec Ideal S256 .f32 :=
  subf (F := Ideal) (φ := .f32) (Host.divf (F := Ideal) (φ := .f32) (shapeCast S256 (colsumsq p) shapeCasts_S1x256_S256)
      (broadcastInDim S256 ![] bcast_S_S256 (constant (F := Ideal) S_ .f32 0x47435000#32)))
    (mulf (F := Ideal) (φ := .f32) (Host.divf (F := Ideal) (φ := .f32) (shapeCast S256 (colsum p) shapeCasts_S1x256_S256)
        (broadcastInDim S256 ![] bcast_S_S256 (constant (F := Ideal) S_ .f32 0x47435000#32)))
      (Host.divf (F := Ideal) (φ := .f32) (shapeCast S256 (colsum p) shapeCasts_S1x256_S256)
        (broadcastInDim S256 ![] bcast_S_S256 (constant (F := Ideal) S_ .f32 0x47435000#32))))

/-- The first program's block: the normalising kernel on p, the bias, scale and shift rows as one-row arrays, and the
    mean and variance rows above as one-row arrays. -/
def bnK (p : Vec Ideal ⟨2, ![50000, 256]⟩ .f32) (bias gamma beta : Vec Ideal ⟨1, ![256]⟩ .f32) :
    Vec Ideal ⟨2, ![50000, 256]⟩ .f32 :=
  bnrelu p (shapeCast S1x256 bias shapeCasts_S256_S1x256) (shapeCast S1x256 gamma shapeCasts_S256_S1x256)
    (shapeCast S1x256 beta shapeCasts_S256_S1x256) (shapeCast S1x256 (meanK p bias) shapeCasts_S256_S1x256)
    (shapeCast S1x256 (varK p) shapeCasts_S256_S1x256)

/-! ## The batch-norm block, the two-pass way -/

/-- A flat row spread over the 50000 rows: first made a one-row array (its axis the second), then repeated. -/
def spread (v : Vec Ideal S256 .f32) : Vec Ideal S50000x256 .f32 :=
  broadcastInDim S50000x256 ![0, 1] bcast_S1x256_S50000x256_0_1 (broadcastInDim S1x256 ![1] bcast_S256_S1x256_1 v)

/-- The mean of each column: the sum over the rows from the constant 0 (the word 0x00000000), over the constant
    50000 spread over the row. -/
def meanR (h : Vec Ideal S50000x256 .f32) : Vec Ideal S256 .f32 :=
  Host.divf (F := Ideal) (φ := .f32)
    (Host.reduceAdd (F := Ideal) (φ := .f32) h (constant (F := Ideal) S_ .f32 0x00000000#32)
      reducesTo_S50000x256_S256_d0 h_S_)
    (broadcastInDim S256 ![] bcast_S_S256 (constant (F := Ideal) S_ .f32 0x47435000#32))

/-- The array minus its own column means, the means taken as a one-row array: sum over the rows, made one row,
    divided by 50000 spread over that row, repeated over the rows, subtracted. -/
def centredR (h : Vec Ideal S50000x256 .f32) : Vec Ideal S50000x256 .f32 :=
  subf (F := Ideal) (φ := .f32) h (broadcastInDim S50000x256 ![0, 1] bcast_S1x256_S50000x256_0_1
    (Host.divf (F := Ideal) (φ := .f32) (broadcastInDim S1x256 ![1] bcast_S256_S1x256_1
        (Host.reduceAdd (F := Ideal) (φ := .f32) h (constant (F := Ideal) S_ .f32 0x00000000#32)
          reducesTo_S50000x256_S256_d0 h_S_))
      (broadcastInDim S1x256 ![] bcast_S_S1x256 (constant (F := Ideal) S_ .f32 0x47435000#32))))

/-- The divisor of the variance: 50000 minus the correction, the integer 0 made a float. A rank-zero array. -/
def ddofR : Vec Ideal S_ .f32 :=
  subf (F := Ideal) (φ := .f32) (constant (F := Ideal) S_ .f32 0x47435000#32)
    (sitofp (F := Ideal) .f32 (constantI S_ 32 0#32))

/-- The variance of each column: the sum over the rows of the squared centred values, over the divisor spread over
    the row; where the divisor is not positive, the float32 word 0x7FC00000 instead (one test for the whole row). -/
def varR (h : Vec Ideal S50000x256 .f32) : Vec Ideal S256 .f32 :=
  select
    (broadcastInDim S256 ![] bcast_S_S256
      (cmpf (F := Ideal) (φ := .f32) .ogt ddofR (constant (F := Ideal) S_ .f32 0x00000000#32)))
    (Host.divf (F := Ideal) (φ := .f32)
      (Host.reduceAdd (F := Ideal) (φ := .f32) (mulf (F := Ideal) (φ := .f32) (centredR h) (centredR h))
        (constant (F := Ideal) S_ .f32 0x00000000#32) reducesTo_S50000x256_S256_d0 h_S_)
      (broadcastInDim S256 ![] bcast_S_S256 ddofR))
    (broadcastInDim S256 ![] bcast_S_S256 (id (constant (F := Ideal) S_ .f32 0x7FC00000#32)))

/-- The maximum with the constant 0 spread over the array. -/
def reluR (x : Vec Ideal S50000x256 .f32) : Vec Ideal S50000x256 .f32 :=
  maximumf (F := Ideal) (φ := .f32) x
    (broadcastInDim S50000x256 ![] bcast_S_S50000x256 (constant (F := Ideal) S_ .f32 0x00000000#32))

/-- The second program's block: h = p + bias; the scale times (h minus its mean), times the reciprocal square root
    of (its variance plus the constant ε, the word 0x3727C5AC), plus the shift; then the maximum with zero. -/
def bnR (p : Vec Ideal ⟨2, ![50000, 256]⟩ .f32) (bias gamma beta : Vec Ideal ⟨1, ![256]⟩ .f32) :
    Vec Ideal ⟨2, ![50000, 256]⟩ .f32 :=
  reluR (addf (F := Ideal) (φ := .f32)
    (mulf (F := Ideal) (φ := .f32)
      (mulf (F := Ideal) (φ := .f32) (spread gamma)
        (subf (F := Ideal) (φ := .f32) (addf (F := Ideal) (φ := .f32) p (spread bias))
          (spread (meanR (addf (F := Ideal) (φ := .f32) p (spread bias))))))
      (spread (Host.rsqrt (F := Ideal) (φ := .f32)
        (addf (F := Ideal) (φ := .f32) (varR (addf (F := Ideal) (φ := .f32) p (spread bias)))
          (broadcastInDim S256 ![] bcast_S_S256 (constant (F := Ideal) S_ .f32 0x3727C5AC#32))))))
    (spread beta))

/-! ## The operations read at an index -/

/-- A flat row spread over the rows reads, at row r and column k, the row's entry k. -/
theorem spread_apply (v : Vec Ideal S256 .f32) (r : Fin 50000) (k : Fin 256) : spread v (ix2 r k) = v (ix1 k) := by
  unfold spread
  rw [broadcastInDim_oneRow_apply]
  exact broadcastInDim_apply ![1] bcast_S256_S1x256_1 v (ix2 (0 : Fin 1) k) (ix1 k) (by
    intro a; match a with | ⟨0, _⟩ => rfl)

/-- A rank-zero constant spread over any shape reads the constant's value. -/
theorem splat_apply {T : Shape} (h : S_.BroadcastsInDim T ![]) (b : BitVec 32) (j : T.Idx) :
    broadcastInDim T ![] h (constant (F := Ideal) S_ .f32 b) j = Ideal.ofBits .f32 b :=
  broadcastInDim_scalar_apply h _ j

/-- The host's sum over the rows from the constant zero, at column k. -/
theorem reduceRows_apply (h : Vec Ideal S50000x256 .f32) (k : Fin 256) :
    Host.reduceAdd (F := Ideal) (φ := .f32) h (constant (F := Ideal) S_ .f32 0x00000000#32)
        reducesTo_S50000x256_S256_d0 h_S_ (ix1 k)
      = ∑ r : Fin 50000, h (ix2 r k) := by
  rw [hostReduceAdd_apply,
    Ideal.hostReduceAdd_single reducesTo_S50000x256_S256_d0 (by decide : S50000x256.Reduces [0] S256)]
  rw [show constant (F := Ideal) S_ .f32 0x00000000#32 (Shape.Idx.first h_S_) = 0 from Ideal.ofBits_zero_f32, zero_add]
  refine Finset.sum_congr rfl fun r _ => congrArg h ?_
  funext a
  match a with
  | ⟨0, _⟩ => exact Fin.ext rfl
  | ⟨1, _⟩ => exact Fin.ext rfl

/-- Fifty thousand, the number of rows, as an extended real. -/
abbrev nRows : EReal := ((50000 : ℝ) : EReal)

/-- The constant ε under the root: the value of the float32 word 0x3727C5AC. -/
abbrev epsBN : EReal := Ideal.ofBits .f32 0x3727C5AC#32

/-- The first program's mean row at column k: the column's sum over fifty thousand, plus the bias. -/
theorem meanK_apply (p : Vec Ideal S50000x256 .f32) (bias : Vec Ideal S256 .f32) (k : Fin 256) :
    meanK p bias (ix1 k) = Ideal.div (∑ r : Fin 50000, p (ix2 r k)) nRows + bias (ix1 k) := by
  show Ideal.div (shapeCast S256 (colsum p) shapeCasts_S1x256_S256 (ix1 k))
      (broadcastInDim S256 ![] bcast_S_S256 (constant (F := Ideal) S_ .f32 0x47435000#32) (ix1 k)) + bias (ix1 k) = _
  rw [shapeCast_1a_a_apply, splat_apply, ofBits_50000]
  rfl

/-- The first program's variance row at column k: the column's sum of squares over fifty thousand, minus the square of
    its sum over fifty thousand. -/
theorem varK_apply (p : Vec Ideal S50000x256 .f32) (k : Fin 256) :
    varK p (ix1 k) = Ideal.div (∑ r : Fin 50000, p (ix2 r k) * p (ix2 r k)) nRows
      - Ideal.div (∑ r : Fin 50000, p (ix2 r k)) nRows * Ideal.div (∑ r : Fin 50000, p (ix2 r k)) nRows := by
  show Ideal.div (shapeCast S256 (colsumsq p) shapeCasts_S1x256_S256 (ix1 k))
        (broadcastInDim S256 ![] bcast_S_S256 (constant (F := Ideal) S_ .f32 0x47435000#32) (ix1 k))
      - Ideal.div (shapeCast S256 (colsum p) shapeCasts_S1x256_S256 (ix1 k))
          (broadcastInDim S256 ![] bcast_S_S256 (constant (F := Ideal) S_ .f32 0x47435000#32) (ix1 k))
        * Ideal.div (shapeCast S256 (colsum p) shapeCasts_S1x256_S256 (ix1 k))
          (broadcastInDim S256 ![] bcast_S_S256 (constant (F := Ideal) S_ .f32 0x47435000#32) (ix1 k)) = _
  rw [shapeCast_1a_a_apply, shapeCast_1a_a_apply, splat_apply, ofBits_50000]
  rfl

/-- The first program's block at row r and column k. -/
theorem bnK_apply (p : Vec Ideal S50000x256 .f32) (bias gamma beta : Vec Ideal S256 .f32) (r : Fin 50000) (k : Fin 256) :
    bnK p bias gamma beta (ix2 r k)
      = max (gamma (ix1 k) * ((p (ix2 r k) + bias (ix1 k)) - meanK p bias (ix1 k))
          * Ideal.rsqrt (varK p (ix1 k) + epsBN) + beta (ix1 k)) 0 := by
  show max (shapeCast S1x256 gamma shapeCasts_S256_S1x256 (ix2 (0 : Fin 1) k)
        * ((p (ix2 r k) + shapeCast S1x256 bias shapeCasts_S256_S1x256 (ix2 (0 : Fin 1) k))
          - shapeCast S1x256 (meanK p bias) shapeCasts_S256_S1x256 (ix2 (0 : Fin 1) k))
        * Ideal.rsqrt (shapeCast S1x256 (varK p) shapeCasts_S256_S1x256 (ix2 (0 : Fin 1) k) + epsBN)
      + shapeCast S1x256 beta shapeCasts_S256_S1x256 (ix2 (0 : Fin 1) k)) (Ideal.ofBits .f32 0x00000000#32) = _
  simp only [shapeCast_a_1a_apply, Ideal.ofBits_zero_f32]

/-- The second program's mean row at column k: the column's sum over fifty thousand. -/
theorem meanR_apply (h : Vec Ideal S50000x256 .f32) (k : Fin 256) :
    meanR h (ix1 k) = Ideal.div (∑ r : Fin 50000, h (ix2 r k)) nRows := by
  show Ideal.div (Host.reduceAdd (F := Ideal) (φ := .f32) h (constant (F := Ideal) S_ .f32 0x00000000#32)
        reducesTo_S50000x256_S256_d0 h_S_ (ix1 k))
      (broadcastInDim S256 ![] bcast_S_S256 (constant (F := Ideal) S_ .f32 0x47435000#32) (ix1 k)) = _
  rw [reduceRows_apply, splat_apply, ofBits_50000]

/-- The centred array at row r and column k: the entry minus the column's sum over fifty thousand. -/
theorem centredR_apply (h : Vec Ideal S50000x256 .f32) (r : Fin 50000) (k : Fin 256) :
    centredR h (ix2 r k) = h (ix2 r k) - Ideal.div (∑ r' : Fin 50000, h (ix2 r' k)) nRows := by
  show h (ix2 r k) - broadcastInDim S50000x256 ![0, 1] bcast_S1x256_S50000x256_0_1
      (Host.divf (F := Ideal) (φ := .f32) (broadcastInDim S1x256 ![1] bcast_S256_S1x256_1
          (Host.reduceAdd (F := Ideal) (φ := .f32) h (constant (F := Ideal) S_ .f32 0x00000000#32)
            reducesTo_S50000x256_S256_d0 h_S_))
        (broadcastInDim S1x256 ![] bcast_S_S1x256 (constant (F := Ideal) S_ .f32 0x47435000#32))) (ix2 r k) = _
  rw [broadcastInDim_oneRow_apply]
  show h (ix2 r k) - Ideal.div (broadcastInDim S1x256 ![1] bcast_S256_S1x256_1
        (Host.reduceAdd (F := Ideal) (φ := .f32) h (constant (F := Ideal) S_ .f32 0x00000000#32)
          reducesTo_S50000x256_S256_d0 h_S_) (ix2 (0 : Fin 1) k))
      (broadcastInDim S1x256 ![] bcast_S_S1x256 (constant (F := Ideal) S_ .f32 0x47435000#32) (ix2 (0 : Fin 1) k)) = _
  rw [splat_apply, ofBits_50000,
    broadcastInDim_apply ![1] bcast_S256_S1x256_1 _ (ix2 (0 : Fin 1) k) (ix1 k) (by
      intro a; match a with | ⟨0, _⟩ => rfl),
    reduceRows_apply]

/-- The variance's divisor is fifty thousand: fifty thousand minus the integer zero made a float. -/
theorem ddofR_apply (j : S_.Idx) : ddofR j = nRows := by
  show Ideal.ofBits .f32 0x47435000#32 - (((0#32 : BitVec 32).toInt : ℝ) : EReal) = _
  rw [ofBits_50000]; simp

/-- The second program's variance row at column k: the column's sum of squared centred entries over fifty thousand
    (the divisor is positive, so the test picks the quotient). -/
theorem varR_apply (h : Vec Ideal S50000x256 .f32) (k : Fin 256) :
    varR h (ix1 k) = Ideal.div (∑ r : Fin 50000,
        (h (ix2 r k) - Ideal.div (∑ r' : Fin 50000, h (ix2 r' k)) nRows)
          * (h (ix2 r k) - Ideal.div (∑ r' : Fin 50000, h (ix2 r' k)) nRows)) nRows := by
  have hc : broadcastInDim S256 ![] bcast_S_S256
      (cmpf (F := Ideal) (φ := .f32) .ogt ddofR (constant (F := Ideal) S_ .f32 0x00000000#32)) (ix1 k) = 1#1 := by
    rw [broadcastInDim_scalar_apply]
    show Ideal.cmp .ogt (ddofR ix0) (Ideal.ofBits .f32 0x00000000#32) = 1#1
    rw [ddofR_apply, Ideal.ofBits_zero_f32]
    have : (0 : EReal) < nRows := EReal.coe_pos.mpr (by norm_num)
    simp [Ideal.cmp, this]
  show Scalar.select (broadcastInDim S256 ![] bcast_S_S256
        (cmpf (F := Ideal) (φ := .f32) .ogt ddofR (constant (F := Ideal) S_ .f32 0x00000000#32)) (ix1 k))
      (Ideal.div (Host.reduceAdd (F := Ideal) (φ := .f32) (mulf (F := Ideal) (φ := .f32) (centredR h) (centredR h))
          (constant (F := Ideal) S_ .f32 0x00000000#32) reducesTo_S50000x256_S256_d0 h_S_ (ix1 k))
        (broadcastInDim S256 ![] bcast_S_S256 ddofR (ix1 k))) _ = _
  rw [hc, broadcastInDim_scalar_apply, ddofR_apply, reduceRows_apply]
  show Ideal.div (∑ r : Fin 50000, centredR h (ix2 r k) * centredR h (ix2 r k)) nRows = _
  simp only [centredR_apply]

/-- The second program's block at row r and column k. -/
theorem bnR_apply (p : Vec Ideal S50000x256 .f32) (bias gamma beta : Vec Ideal S256 .f32) (r : Fin 50000) (k : Fin 256) :
    bnR p bias gamma beta (ix2 r k)
      = max (gamma (ix1 k)
            * ((p (ix2 r k) + bias (ix1 k)) - meanR (addf (F := Ideal) (φ := .f32) p (spread bias)) (ix1 k))
          * Ideal.rsqrt (varR (addf (F := Ideal) (φ := .f32) p (spread bias)) (ix1 k) + epsBN) + beta (ix1 k)) 0 := by
  show max (spread gamma (ix2 r k)
          * ((p (ix2 r k) + spread bias (ix2 r k))
            - spread (meanR (addf (F := Ideal) (φ := .f32) p (spread bias))) (ix2 r k))
        * spread (Host.rsqrt (F := Ideal) (φ := .f32) (addf (F := Ideal) (φ := .f32)
            (varR (addf (F := Ideal) (φ := .f32) p (spread bias)))
            (broadcastInDim S256 ![] bcast_S_S256 (constant (F := Ideal) S_ .f32 0x3727C5AC#32)))) (ix2 r k)
      + spread beta (ix2 r k))
      (broadcastInDim S50000x256 ![] bcast_S_S50000x256 (constant (F := Ideal) S_ .f32 0x00000000#32) (ix2 r k)) = _
  rw [spread_apply, spread_apply, spread_apply, spread_apply, spread_apply, splat_apply, Ideal.ofBits_zero_f32]
  show max (gamma (ix1 k)
          * ((p (ix2 r k) + bias (ix1 k)) - meanR (addf (F := Ideal) (φ := .f32) p (spread bias)) (ix1 k))
        * Ideal.rsqrt (varR (addf (F := Ideal) (φ := .f32) p (spread bias)) (ix1 k)
            + broadcastInDim S256 ![] bcast_S_S256 (constant (F := Ideal) S_ .f32 0x3727C5AC#32) (ix1 k))
      + beta (ix1 k)) 0 = _
  rw [splat_apply]

/-- The biased activation at row r and column k. -/
theorem biased_apply (p : Vec Ideal S50000x256 .f32) (bias : Vec Ideal S256 .f32) (r : Fin 50000) (k : Fin 256) :
    addf (F := Ideal) (φ := .f32) p (spread bias) (ix2 r k) = p (ix2 r k) + bias (ix1 k) := by
  show p (ix2 r k) + spread bias (ix2 r k) = _
  rw [spread_apply]

/-! ## The two blocks agree on real data -/

/-- On an activation and a bias all of whose entries are reals, the two blocks are the same array, whatever the scale
    and the shift. -/
theorem bnK_eq_bnR {p : Vec Ideal ⟨2, ![50000, 256]⟩ .f32} {bias gamma beta : Vec Ideal ⟨1, ![256]⟩ .f32}
    (hp : IsReal p) (hb : IsReal bias) :
    bnK p bias gamma beta = bnR p bias gamma beta := by
  funext i
  obtain ⟨r, k, rfl⟩ : ∃ (r : Fin 50000) (k : Fin 256), i = ix2 r k := ⟨i 0, i 1, eq_ix2 i⟩
  rw [bnK_apply, bnR_apply, meanK_apply, varK_apply, meanR_apply, varR_apply]
  simp only [biased_apply]
  exact (bn_relu_eq_50000 (fun r' : Fin 50000 => p (ix2 r' k)) (bias (ix1 k)) (gamma (ix1 k)) (beta (ix1 k))
    epsBN (fun r' => hp _) (hb _) r).symm

/-- On real data, with a real scale and shift, the second block's result is real: the variance is a real that is not
    negative, so the root is of a positive real. -/
theorem isReal_bnR {p : Vec Ideal ⟨2, ![50000, 256]⟩ .f32} {bias gamma beta : Vec Ideal ⟨1, ![256]⟩ .f32}
    (hp : IsReal p) (hb : IsReal bias) (hg : IsReal gamma) (hβ : IsReal beta) : IsReal (bnR p bias gamma beta) := by
  intro i
  obtain ⟨r, k, rfl⟩ : ∃ (r : Fin 50000) (k : Fin 256), i = ix2 r k := ⟨i 0, i 1, eq_ix2 i⟩
  show IsFin (bnR p bias gamma beta (ix2 r k))
  rw [bnR_apply, meanR_apply, varR_apply]
  simp only [biased_apply]
  rw [show epsBN = ((epsR : ℝ) : EReal) from ofBits_eps]
  exact ((((hg.apply _).mul (((hp.apply _).add (hb.apply _)).sub
      ((IsFin.sum fun r' _ => (hp.apply (ix2 r' k)).add (hb.apply (ix1 k))).div_coe fifty_thousand_ne_zero))).mul
    (bn_rsqrt_ref_isFin (fun r' : Fin 50000 => p (ix2 r' k)) (bias (ix1 k)) (fun r' => hp _) (hb _) card_fin_50000
      fifty_thousand_pos isFin_eps eps_pos)).add (hβ.apply _)).max_zero

/-- So is the first block's, being the same array. -/
theorem isReal_bnK {p : Vec Ideal ⟨2, ![50000, 256]⟩ .f32} {bias gamma beta : Vec Ideal ⟨1, ![256]⟩ .f32}
    (hp : IsReal p) (hb : IsReal bias) (hg : IsReal gamma) (hβ : IsReal beta) : IsReal (bnK p bias gamma beta) := by
  rw [bnK_eq_bnR hp hb]; exact isReal_bnR hp hb hg hβ

/-! ## Slices of the stacked parameters

A stacked parameter is read one slab at a time: the slab is sliced out at unit thickness and the unit axis dropped. -/

abbrev S2 : Shape := ⟨1, ![2]⟩
abbrev S1x2 : Shape := ⟨2, ![1, 2]⟩
abbrev S3x2 : Shape := ⟨2, ![3, 2]⟩
abbrev S3x256 : Shape := ⟨2, ![3, 256]⟩
abbrev S256x2 : Shape := ⟨2, ![256, 2]⟩
abbrev S256x256 : Shape := ⟨2, ![256, 256]⟩
abbrev S512x256 : Shape := ⟨2, ![512, 256]⟩
abbrev S50000 : Shape := ⟨1, ![50000]⟩
abbrev S50000x1 : Shape := ⟨2, ![50000, 1]⟩
abbrev S50000x2 : Shape := ⟨2, ![50000, 2]⟩
abbrev S50000x512 : Shape := ⟨2, ![50000, 512]⟩
abbrev S1x256x2 : Shape := ⟨3, ![1, 256, 2]⟩
abbrev S3x256x2 : Shape := ⟨3, ![3, 256, 2]⟩
abbrev S1x256x256 : Shape := ⟨3, ![1, 256, 256]⟩
abbrev S2x256x256 : Shape := ⟨3, ![2, 256, 256]⟩
abbrev S3x256x256 : Shape := ⟨3, ![3, 256, 256]⟩
abbrev S1x512x256 : Shape := ⟨3, ![1, 512, 256]⟩
abbrev S2x512x256 : Shape := ⟨3, ![2, 512, 256]⟩
abbrev S1x50000x2 : Shape := ⟨3, ![1, 50000, 2]⟩
abbrev S4x50000x2 : Shape := ⟨3, ![4, 50000, 2]⟩
abbrev S2x800000 : Shape := ⟨2, ![2, 800000]⟩

theorem shapeCasts_S1x256x256_S256x256 : S1x256x256.ShapeCasts S256x256 := by decide
theorem shapeCasts_S1x512x256_S512x256 : S1x512x256.ShapeCasts S512x256 := by decide
theorem shapeCasts_S1x256x2_S256x2 : S1x256x2.ShapeCasts S256x2 := by decide
theorem shapeCasts_S1x2_S2 : S1x2.ShapeCasts S2 := by decide
theorem shapeCasts_S2_S1x2 : S2.ShapeCasts S1x2 := by decide
theorem concatenates_S50000x256_S50000x256_S50000x512_d1 :
    Shape.Concatenates [S50000x256, S50000x256] S50000x512 1 := by decide
theorem bcast_S50000x2_S1x50000x2_1_2 : S50000x2.BroadcastsInDim S1x50000x2 (![1, 2] : Fin 2 → Fin S1x50000x2.rank) := by
  decide
theorem concatenates_S1x50000x2_S1x50000x2_S1x50000x2_S1x50000x2_S4x50000x2_d0 :
    Shape.Concatenates [S1x50000x2, S1x50000x2, S1x50000x2, S1x50000x2] S4x50000x2 0 := by decide

/-- Row i of a three-row array as a flat row: the one-row slice at offset (i, 0), made rank one. -/
def row3 (a : Vec Ideal S3x256 .f32) (i : ℕ) (h : S3x256.Slices ![i, 0] S1x256) : Vec Ideal S256 .f32 :=
  shapeCast S256 (extractStridedSlice S1x256 ![i, 0] a h) shapeCasts_S1x256_S256

/-- Matrix i of a stack of two 256 × 256 matrices: the one-matrix slice at offset (i, 0, 0), made rank two. -/
def mat2 (a : Vec Ideal S2x256x256 .f32) (i : ℕ) (h : S2x256x256.Slices ![i, 0, 0] S1x256x256) :
    Vec Ideal S256x256 .f32 :=
  shapeCast S256x256 (extractStridedSlice S1x256x256 ![i, 0, 0] a h) shapeCasts_S1x256x256_S256x256

/-- Matrix i of a stack of two 512 × 256 matrices. -/
def mat2w (a : Vec Ideal S2x512x256 .f32) (i : ℕ) (h : S2x512x256.Slices ![i, 0, 0] S1x512x256) :
    Vec Ideal S512x256 .f32 :=
  shapeCast S512x256 (extractStridedSlice S1x512x256 ![i, 0, 0] a h) shapeCasts_S1x512x256_S512x256

/-- Matrix i of a stack of three 256 × 256 matrices. -/
def mat3 (a : Vec Ideal S3x256x256 .f32) (i : ℕ) (h : S3x256x256.Slices ![i, 0, 0] S1x256x256) :
    Vec Ideal S256x256 .f32 :=
  shapeCast S256x256 (extractStridedSlice S1x256x256 ![i, 0, 0] a h) shapeCasts_S1x256x256_S256x256

/-- Matrix i of a stack of three 256 × 2 matrices. -/
def mat3o (a : Vec Ideal S3x256x2 .f32) (i : ℕ) (h : S3x256x2.Slices ![i, 0, 0] S1x256x2) : Vec Ideal S256x2 .f32 :=
  shapeCast S256x2 (extractStridedSlice S1x256x2 ![i, 0, 0] a h) shapeCasts_S1x256x2_S256x2

/-- Row i of a three-row array of two columns, as a flat row. -/
def row3o (a : Vec Ideal S3x2 .f32) (i : ℕ) (h : S3x2.Slices ![i, 0] S1x2) : Vec Ideal S2 .f32 :=
  shapeCast S2 (extractStridedSlice S1x2 ![i, 0] a h) shapeCasts_S1x2_S2

/-! ## The output head, the second program's way -/

theorem bcast_S2_S1x2_1 : S2.BroadcastsInDim S1x2 (![1] : Fin 1 → Fin S1x2.rank) := by decide
theorem bcast_S1x2_S50000x2_0_1 : S1x2.BroadcastsInDim S50000x2 (![0, 1] : Fin 2 → Fin S50000x2.rank) := by decide
theorem bcast_S_S50000 : S_.BroadcastsInDim S50000 (![] : Fin 0 → Fin S50000.rank) := by decide
theorem bcast_S50000_S50000x1_0 : S50000.BroadcastsInDim S50000x1 (![0] : Fin 1 → Fin S50000x1.rank) := by decide
theorem bcast_S50000x1_S50000x2_0_1 : S50000x1.BroadcastsInDim S50000x2 (![0, 1] : Fin 2 → Fin S50000x2.rank) := by
  decide
theorem reducesTo_S50000x2_S50000_d1 : S50000x2.ReducesTo [1] S50000 := by decide

/-- The dimension numbers of rows × matrix: the left operand contracted on its second axis, the right on its first. -/
def dotHead : DotDims S50000x256 S256x2 S50000x2 where
  lhsContracting := [1]
  rhsContracting := [0]
  lhsNonContracting := [0]
  rhsNonContracting := [1]
  lhsBatch := []
  rhsBatch := []
  wf := by decide

/-- Each row's maximum: the fold of the maximum from −∞ (the word 0xFF800000) along the row, and once more
    against −∞ spread over the rows. -/
def rowMaxR (x : Vec Ideal S50000x2 .f32) : Vec Ideal S50000 .f32 :=
  maximumf (F := Ideal) (φ := .f32)
    (broadcastInDim S50000 ![] bcast_S_S50000 (constant (F := Ideal) S_ .f32 0xFF800000#32))
    (Host.reduce (FloatOps.maximumf (F := Ideal) (φ := .f32)) x (constant (F := Ideal) S_ .f32 0xFF800000#32)
      reducesTo_S50000x2_S50000_d1 h_S_)

/-- A value per row spread along the rows: first made a one-column array, then repeated. -/
def spreadRows (v : Vec Ideal S50000 .f32) : Vec Ideal S50000x2 .f32 :=
  broadcastInDim S50000x2 ![0, 1] bcast_S50000x1_S50000x2_0_1 (broadcastInDim S50000x1 ![0] bcast_S50000_S50000x1_0 v)

/-- The rows minus their maxima. -/
def shiftedR (x : Vec Ideal S50000x2 .f32) : Vec Ideal S50000x2 .f32 :=
  subf (F := Ideal) (φ := .f32) x (spreadRows (rowMaxR x))

/-- The row log-softmax: the shifted rows minus the logarithm of the row sums, from zero, of their exponentials (the
    logarithm taken on the one-column array of sums). -/
def logSoftmaxR (x : Vec Ideal S50000x2 .f32) : Vec Ideal S50000x2 .f32 :=
  subf (F := Ideal) (φ := .f32) (shiftedR x)
    (broadcastInDim S50000x2 ![0, 1] bcast_S50000x1_S50000x2_0_1
      (Host.log (F := Ideal) (φ := .f32) (broadcastInDim S50000x1 ![0] bcast_S50000_S50000x1_0
        (Host.reduceAdd (F := Ideal) (φ := .f32) (Host.exp (F := Ideal) (φ := .f32) (shiftedR x))
          (constant (F := Ideal) S_ .f32 0x00000000#32) reducesTo_S50000x2_S50000_d1 h_S_))))

/-- The second program's head: rows times the weight, plus the bias row spread over the rows, then the row
    log-softmax. -/
def headR (a : Vec Ideal S50000x256 .f32) (w : Vec Ideal S256x2 .f32) (b : Vec Ideal S2 .f32) :
    Vec Ideal S50000x2 .f32 :=
  logSoftmaxR (addf (F := Ideal) (φ := .f32) (Host.dotGeneral (F := Ideal) (φ₁ := .f32) (φ₂ := .f32) dotHead none a w)
    (broadcastInDim S50000x2 ![0, 1] bcast_S1x2_S50000x2_0_1 (broadcastInDim S1x2 ![1] bcast_S2_S1x2_1 b)))

/-- The first program's head: its head kernel on the bias made a one-row array. -/
def headK (a : Vec Ideal S50000x256 .f32) (w : Vec Ideal S256x2 .f32) (b : Vec Ideal S2 .f32) :
    Vec Ideal S50000x2 .f32 :=
  outhead a w (shapeCast S1x2 b shapeCasts_S2_S1x2)

/-! ## The network -/

/-- One graph layer, the first program's way: the linear map, the propagation along the edges, the block. -/
def gcnK {K : Nat} (ei : Vec Ideal S2x800000 .i32) (h : Vec Ideal ⟨2, ![50000, K]⟩ .f32)
    (w : Vec Ideal ⟨2, ![K, 256]⟩ .f32) (bias gamma beta : Vec Ideal S256 .f32) : Vec Ideal S50000x256 .f32 :=
  bnK (prop ei (mm h w)) bias gamma beta

/-- One graph layer, the second program's way. -/
def gcnR {K : Nat} (ei : Vec Ideal S2x800000 .i32) (h : Vec Ideal ⟨2, ![50000, K]⟩ .f32)
    (w : Vec Ideal ⟨2, ![K, 256]⟩ .f32) (bias gamma beta : Vec Ideal S256 .f32) : Vec Ideal S50000x256 .f32 :=
  bnR (prop ei (mm h w)) bias gamma beta

/-- The three graph layers, the first program's way. -/
def h3K (x : Vec Ideal S50000x512 .f32) (ei : Vec Ideal S2x800000 .i32) (w0 : Vec Ideal S512x256 .f32)
    (ws : Vec Ideal S2x256x256 .f32) (cb g bt : Vec Ideal S3x256 .f32) : Vec Ideal S50000x256 .f32 :=
  gcnK ei (gcnK ei (gcnK ei x w0 (row3 cb 0 (by decide)) (row3 g 0 (by decide)) (row3 bt 0 (by decide)))
      (mat2 ws 0 (by decide)) (row3 cb 1 (by decide)) (row3 g 1 (by decide)) (row3 bt 1 (by decide)))
    (mat2 ws 1 (by decide)) (row3 cb 2 (by decide)) (row3 g 2 (by decide)) (row3 bt 2 (by decide))

/-- The three graph layers, the second program's way. -/
def h3R (x : Vec Ideal S50000x512 .f32) (ei : Vec Ideal S2x800000 .i32) (w0 : Vec Ideal S512x256 .f32)
    (ws : Vec Ideal S2x256x256 .f32) (cb g bt : Vec Ideal S3x256 .f32) : Vec Ideal S50000x256 .f32 :=
  gcnR ei (gcnR ei (gcnR ei x w0 (row3 cb 0 (by decide)) (row3 g 0 (by decide)) (row3 bt 0 (by decide)))
      (mat2 ws 0 (by decide)) (row3 cb 1 (by decide)) (row3 g 1 (by decide)) (row3 bt 1 (by decide)))
    (mat2 ws 1 (by decide)) (row3 cb 2 (by decide)) (row3 g 2 (by decide)) (row3 bt 2 (by decide))

/-- A dense layer, the first program's way: the linear map, then the block. -/
def denseK {K : Nat} (h : Vec Ideal ⟨2, ![50000, K]⟩ .f32) (w : Vec Ideal ⟨2, ![K, 256]⟩ .f32)
    (bias gamma beta : Vec Ideal S256 .f32) : Vec Ideal S50000x256 .f32 :=
  bnK (mm h w) bias gamma beta

/-- A dense layer, the second program's way. -/
def denseR {K : Nat} (h : Vec Ideal ⟨2, ![50000, K]⟩ .f32) (w : Vec Ideal ⟨2, ![K, 256]⟩ .f32)
    (bias gamma beta : Vec Ideal S256 .f32) : Vec Ideal S50000x256 .f32 :=
  bnR (mm h w) bias gamma beta

/-- Two arrays of 256 columns side by side. -/
def cat (a b : Vec Ideal S50000x256 .f32) : Vec Ideal S50000x512 .f32 :=
  concatenate S50000x512 1 [⟨S50000x256, a⟩, ⟨S50000x256, b⟩] concatenates_S50000x256_S50000x256_S50000x512_d1

/-- Four results stacked along a new leading axis. -/
def stack4 (a b c d : Vec Ideal S50000x2 .f32) : Vec Ideal S4x50000x2 .f32 :=
  concatenate S4x50000x2 0
    [⟨S1x50000x2, broadcastInDim S1x50000x2 ![1, 2] bcast_S50000x2_S1x50000x2_1_2 a⟩,
     ⟨S1x50000x2, broadcastInDim S1x50000x2 ![1, 2] bcast_S50000x2_S1x50000x2_1_2 b⟩,
     ⟨S1x50000x2, broadcastInDim S1x50000x2 ![1, 2] bcast_S50000x2_S1x50000x2_1_2 c⟩,
     ⟨S1x50000x2, broadcastInDim S1x50000x2 ![1, 2] bcast_S50000x2_S1x50000x2_1_2 d⟩]
    concatenates_S1x50000x2_S1x50000x2_S1x50000x2_S1x50000x2_S4x50000x2_d0

/-- The whole network, the first program's way: the three graph layers; the global path, each step on the previous
    step's result beside the graph layers' result; the global head on the last step; one local dense layer and head
    per step; the four heads stacked. -/
def netK (x : Vec Ideal S50000x512 .f32) (ei : Vec Ideal S2x800000 .i32) (conv_w0 : Vec Ideal S512x256 .f32)
    (conv_ws : Vec Ideal S2x256x256 .f32) (conv_b bn_g bn_b : Vec Ideal S3x256 .f32)
    (fcg_w0 : Vec Ideal S256x256 .f32) (fcg_ws : Vec Ideal S2x512x256 .f32) (fcg_b bng_g bng_b : Vec Ideal S3x256 .f32)
    (fcl_w : Vec Ideal S3x256x256 .f32) (fcl_b bnl_g bnl_b : Vec Ideal S3x256 .f32)
    (outg_w : Vec Ideal S256x2 .f32) (outg_b : Vec Ideal S2 .f32) (outl_w : Vec Ideal S3x256x2 .f32)
    (outl_b : Vec Ideal S3x2 .f32) : Vec Ideal ⟨3, ![4, 50000, 2]⟩ .f32 :=
  let h3 := h3K x ei conv_w0 conv_ws conv_b bn_g bn_b
  let xg0 := denseK h3 fcg_w0 (row3 fcg_b 0 (by decide)) (row3 bng_g 0 (by decide)) (row3 bng_b 0 (by decide))
  let xg1 := denseK (cat xg0 h3) (mat2w fcg_ws 0 (by decide)) (row3 fcg_b 1 (by decide)) (row3 bng_g 1 (by decide))
    (row3 bng_b 1 (by decide))
  let xg2 := denseK (cat xg1 h3) (mat2w fcg_ws 1 (by decide)) (row3 fcg_b 2 (by decide)) (row3 bng_g 2 (by decide))
    (row3 bng_b 2 (by decide))
  stack4 (headK xg2 outg_w outg_b)
    (headK (denseK xg0 (mat3 fcl_w 0 (by decide)) (row3 fcl_b 0 (by decide)) (row3 bnl_g 0 (by decide))
      (row3 bnl_b 0 (by decide))) (mat3o outl_w 0 (by decide)) (row3o outl_b 0 (by decide)))
    (headK (denseK xg1 (mat3 fcl_w 1 (by decide)) (row3 fcl_b 1 (by decide)) (row3 bnl_g 1 (by decide))
      (row3 bnl_b 1 (by decide))) (mat3o outl_w 1 (by decide)) (row3o outl_b 1 (by decide)))
    (headK (denseK xg2 (mat3 fcl_w 2 (by decide)) (row3 fcl_b 2 (by decide)) (row3 bnl_g 2 (by decide))
      (row3 bnl_b 2 (by decide))) (mat3o outl_w 2 (by decide)) (row3o outl_b 2 (by decide)))

/-- The whole network, the second program's way. -/
def netR (x : Vec Ideal S50000x512 .f32) (ei : Vec Ideal S2x800000 .i32) (conv_w0 : Vec Ideal S512x256 .f32)
    (conv_ws : Vec Ideal S2x256x256 .f32) (conv_b bn_g bn_b : Vec Ideal S3x256 .f32)
    (fcg_w0 : Vec Ideal S256x256 .f32) (fcg_ws : Vec Ideal S2x512x256 .f32) (fcg_b bng_g bng_b : Vec Ideal S3x256 .f32)
    (fcl_w : Vec Ideal S3x256x256 .f32) (fcl_b bnl_g bnl_b : Vec Ideal S3x256 .f32)
    (outg_w : Vec Ideal S256x2 .f32) (outg_b : Vec Ideal S2 .f32) (outl_w : Vec Ideal S3x256x2 .f32)
    (outl_b : Vec Ideal S3x2 .f32) : Vec Ideal ⟨3, ![4, 50000, 2]⟩ .f32 :=
  let h3 := h3R x ei conv_w0 conv_ws conv_b bn_g bn_b
  let xg0 := denseR h3 fcg_w0 (row3 fcg_b 0 (by decide)) (row3 bng_g 0 (by decide)) (row3 bng_b 0 (by decide))
  let xg1 := denseR (cat xg0 h3) (mat2w fcg_ws 0 (by decide)) (row3 fcg_b 1 (by decide)) (row3 bng_g 1 (by decide))
    (row3 bng_b 1 (by decide))
  let xg2 := denseR (cat xg1 h3) (mat2w fcg_ws 1 (by decide)) (row3 fcg_b 2 (by decide)) (row3 bng_g 2 (by decide))
    (row3 bng_b 2 (by decide))
  stack4 (headR xg2 outg_w outg_b)
    (headR (denseR xg0 (mat3 fcl_w 0 (by decide)) (row3 fcl_b 0 (by decide)) (row3 bnl_g 0 (by decide))
      (row3 bnl_b 0 (by decide))) (mat3o outl_w 0 (by decide)) (row3o outl_b 0 (by decide)))
    (headR (denseR xg1 (mat3 fcl_w 1 (by decide)) (row3 fcl_b 1 (by decide)) (row3 bnl_g 1 (by decide))
      (row3 bnl_b 1 (by decide))) (mat3o outl_w 1 (by decide)) (row3o outl_b 1 (by decide)))
    (headR (denseR xg2 (mat3 fcl_w 2 (by decide)) (row3 fcl_b 2 (by decide)) (row3 bnl_g 2 (by decide))
      (row3 bnl_b 2 (by decide))) (mat3o outl_w 2 (by decide)) (row3o outl_b 2 (by decide)))

/-! ## The two heads are the same function -/

/-- The float32 word 0xFF800000 is −∞. -/
theorem ofBits_neg_inf : Ideal.ofBits .f32 0xFF800000#32 = ⊥ := by
  simp [Ideal.ofBits, Ideal.ieee]

/-- The host's product with the plain dimension numbers — the left operand contracted on its second axis, the right
    on its first — is the product of the two arrays. -/
theorem hostDot_eq_mm {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (a : Vec Ideal ⟨2, ![M, K]⟩ .f32) (w : Vec Ideal ⟨2, ![K, N]⟩ .f32) :
    Host.dotGeneral (F := Ideal) (φ₁ := .f32) (φ₂ := .f32) d prec a w = mm a w := by
  funext j
  have h0 : (fun _ : (⟨2, ![M, N]⟩ : Shape).Idx => (0 : EReal))
      = constant (F := Ideal) ⟨2, ![M, N]⟩ .f32 0x00000000#32 := funext fun _ => Ideal.ofBits_zero_f32.symm
  show Ideal.matmul d a w (fun _ => 0) j = _
  rw [h0]
  exact matmul_plain_zero_apply (φ₁ := .f32) (φ₂ := .f32) d hlc hrc hln hrn hlb hrb prec a w j

/-- The second program's logits at row r and class j are the head kernel's. -/
theorem logitR_apply (a : Vec Ideal S50000x256 .f32) (w : Vec Ideal S256x2 .f32) (b : Vec Ideal S2 .f32)
    (r : Fin 50000) (j : Fin 2) :
    addf (F := Ideal) (φ := .f32) (Host.dotGeneral (F := Ideal) (φ₁ := .f32) (φ₂ := .f32) dotHead none a w)
        (broadcastInDim S50000x2 ![0, 1] bcast_S1x2_S50000x2_0_1 (broadcastInDim S1x2 ![1] bcast_S2_S1x2_1 b)) (ix2 r j)
      = headLogit a w (shapeCast S1x2 b shapeCasts_S2_S1x2) r j := by
  rw [addf_apply, hostDot_eq_mm dotHead rfl rfl rfl rfl rfl rfl, broadcastInDim_oneRow_apply,
    broadcastInDim_apply ![1] bcast_S2_S1x2_1 b (ix2 (0 : Fin 1) j) (ix1 j) (by
      intro a; match a with | ⟨0, _⟩ => rfl)]
  show mm a w (ix2 r j) + b (ix1 j)
    = (∑ k : Fin 256, a (ix2 r k) * w (ix2 k j)) + shapeCast S1x2 b shapeCasts_S2_S1x2 (ix2 (0 : Fin 1) j)
  rw [shapeCast_a_1a_apply]
  rfl

/-- The host's logarithm and exponential at an index. -/
theorem hostLog_apply {s : Shape} (y : FVec Ideal s .f32) (i : s.Idx) : Host.log y i = Ideal.log (y i) := rfl
theorem hostExp_apply {s : Shape} (y : FVec Ideal s .f32) (i : s.Idx) : Host.exp y i = Ideal.exp (y i) := rfl

/-- Row r's index with class j inserted is (r, j). -/
theorem lift_row (h : S50000x2.Reduces [1] S50000) (r : Fin 50000) (j : Fin 2) : h.lift (ix1 r) j = ix2 r j := by
  funext a
  match a with
  | ⟨0, _⟩ => exact Fin.ext rfl
  | ⟨1, _⟩ => exact Fin.ext rfl

/-- The second program's row maximum at row r: the fold of the maximum from −∞ over the row. -/
theorem rowMaxR_apply (x : Vec Ideal S50000x2 .f32) (r : Fin 50000) :
    rowMaxR x (ix1 r) = (Finset.univ : Finset (Fin 2)).fold max ⊥ (fun j => x (ix2 r j)) := by
  show max (broadcastInDim S50000 ![] bcast_S_S50000 (constant (F := Ideal) S_ .f32 0xFF800000#32) (ix1 r))
      (Host.reduce (FloatOps.maximumf (F := Ideal) (φ := .f32)) x (constant (F := Ideal) S_ .f32 0xFF800000#32)
        reducesTo_S50000x2_S50000_d1 h_S_ (ix1 r)) = _
  rw [splat_apply, ofBits_neg_inf, max_eq_right bot_le,
    Host.reduce_eq_fold_single (FloatOps.maximumf (F := Ideal) (φ := .f32)) x _ reducesTo_S50000x2_S50000_d1
      (by decide : S50000x2.Reduces [1] S50000) h_S_ (ix1 r)]
  show (Finset.univ : Finset (Fin 2)).fold max (Ideal.ofBits .f32 0xFF800000#32)
      (fun j => x ((by decide : S50000x2.Reduces [1] S50000).lift (ix1 r) j)) = _
  rw [ofBits_neg_inf]
  exact congrArg (fun f => (Finset.univ : Finset (Fin 2)).fold max ⊥ f) (funext fun j => congrArg x (lift_row _ r j))

/-- The host's sum along a row from the constant zero, at row r. -/
theorem reduceCols_apply (e : Vec Ideal S50000x2 .f32) (r : Fin 50000) :
    Host.reduceAdd (F := Ideal) (φ := .f32) e (constant (F := Ideal) S_ .f32 0x00000000#32)
        reducesTo_S50000x2_S50000_d1 h_S_ (ix1 r)
      = ∑ j : Fin 2, e (ix2 r j) := by
  rw [hostReduceAdd_apply,
    Ideal.hostReduceAdd_single reducesTo_S50000x2_S50000_d1 (by decide : S50000x2.Reduces [1] S50000)]
  rw [show constant (F := Ideal) S_ .f32 0x00000000#32 (Shape.Idx.first h_S_) = 0 from Ideal.ofBits_zero_f32, zero_add]
  exact Finset.sum_congr rfl fun j _ => congrArg e (lift_row _ r j)

/-- A one-column array repeated along the rows reads, at (r, j), its entry (r, 0). -/
theorem colSpread_apply (v : Vec Ideal S50000x1 .f32) (r : Fin 50000) (j : Fin 2) :
    broadcastInDim S50000x2 ![0, 1] bcast_S50000x1_S50000x2_0_1 v (ix2 r j) = v (ix2 r (0 : Fin 1)) :=
  broadcastInDim_apply ![0, 1] bcast_S50000x1_S50000x2_0_1 v (ix2 r j) (ix2 r (0 : Fin 1)) (by
    intro a
    match a with
    | ⟨0, _⟩ => rfl
    | ⟨1, _⟩ => rfl)

/-- A value per row made a one-column array reads, at (r, 0), the value of row r. -/
theorem colOf_apply (v : Vec Ideal S50000 .f32) (r : Fin 50000) (u : Fin 1) :
    broadcastInDim S50000x1 ![0] bcast_S50000_S50000x1_0 v (ix2 r u) = v (ix1 r) :=
  broadcastInDim_apply ![0] bcast_S50000_S50000x1_0 v (ix2 r u) (ix1 r) (by
    intro a; match a with | ⟨0, _⟩ => rfl)

/-- A value per row spread along the rows reads, at (r, j), the value of row r. -/
theorem spreadRows_apply (v : Vec Ideal S50000 .f32) (r : Fin 50000) (j : Fin 2) : spreadRows v (ix2 r j) = v (ix1 r) := by
  unfold spreadRows; rw [colSpread_apply, colOf_apply]

/-- The shifted rows at (r, j). -/
theorem shiftedR_apply (x : Vec Ideal S50000x2 .f32) (r : Fin 50000) (j : Fin 2) :
    shiftedR x (ix2 r j) = x (ix2 r j) - (Finset.univ : Finset (Fin 2)).fold max ⊥ (fun j' => x (ix2 r j')) := by
  unfold shiftedR
  rw [subf_apply, spreadRows_apply, rowMaxR_apply]

/-- The second program's row log-softmax at (r, j). -/
theorem logSoftmaxR_apply (x : Vec Ideal S50000x2 .f32) (r : Fin 50000) (j : Fin 2) :
    logSoftmaxR x (ix2 r j)
      = (x (ix2 r j) - (Finset.univ : Finset (Fin 2)).fold max ⊥ (fun j' => x (ix2 r j')))
        - Ideal.log (∑ j₁ : Fin 2,
            Ideal.exp (x (ix2 r j₁) - (Finset.univ : Finset (Fin 2)).fold max ⊥ (fun j' => x (ix2 r j')))) := by
  unfold logSoftmaxR
  rw [subf_apply, colSpread_apply, hostLog_apply, colOf_apply, reduceCols_apply, shiftedR_apply]
  simp only [hostExp_apply, shiftedR_apply]

/-- The head kernel's function on the bias as a one-row array is the second program's head: the same operations in
    the same order, a fold of two along an axis against a reduction of the host. No finiteness is needed. -/
theorem outhead_eq_headR (a : Vec Ideal S50000x256 .f32) (w : Vec Ideal S256x2 .f32) (b : Vec Ideal S2 .f32) :
    outhead a w (shapeCast S1x2 b shapeCasts_S2_S1x2) = headR a w b := by
  funext i
  obtain ⟨r, j, rfl⟩ : ∃ (r : Fin 50000) (j : Fin 2), i = ix2 r j := ⟨i 0, i 1, eq_ix2 i⟩
  unfold headR
  rw [logSoftmaxR_apply, logitR_apply]
  have hl : ∀ j' : Fin 2, addf (F := Ideal) (φ := .f32)
      (Host.dotGeneral (F := Ideal) (φ₁ := .f32) (φ₂ := .f32) dotHead none a w)
      (broadcastInDim S50000x2 ![0, 1] bcast_S1x2_S50000x2_0_1 (broadcastInDim S1x2 ![1] bcast_S2_S1x2_1 b)) (ix2 r j')
        = headLogit a w (shapeCast S1x2 b shapeCasts_S2_S1x2) r j' := logitR_apply a w b r
  simp only [hl]
  rfl

/-- The two heads agree. -/
theorem headK_eq_headR (a : Vec Ideal S50000x256 .f32) (w : Vec Ideal S256x2 .f32) (b : Vec Ideal S2 .f32) :
    headK a w b = headR a w b := outhead_eq_headR a w b

/-! ## The two networks agree on real data -/

/-- A product of real arrays is real. -/
theorem isReal_mm {M K N : Nat} {a : Vec Ideal ⟨2, ![M, K]⟩ .f32} {w : Vec Ideal ⟨2, ![K, N]⟩ .f32}
    (ha : IsReal a) (hw : IsReal w) : IsReal (mm a w) := fun i => by
  show IsFin (∑ k : Fin K, a (ix2 (i 0) k) * w (ix2 k (i 1)))
  exact IsFin.sum_mul (fun k _ => ha.apply _) (fun k _ => hw.apply _)

theorem isReal_row3 {a : Vec Ideal S3x256 .f32} (ha : IsReal a) (i : ℕ) (h : S3x256.Slices ![i, 0] S1x256) :
    IsReal (row3 a i h) := fun _ => ha _
theorem isReal_mat2 {a : Vec Ideal S2x256x256 .f32} (ha : IsReal a) (i : ℕ) (h : S2x256x256.Slices ![i, 0, 0] S1x256x256) :
    IsReal (mat2 a i h) := fun _ => ha _
theorem isReal_mat2w {a : Vec Ideal S2x512x256 .f32} (ha : IsReal a) (i : ℕ) (h : S2x512x256.Slices ![i, 0, 0] S1x512x256) :
    IsReal (mat2w a i h) := fun _ => ha _
theorem isReal_mat3 {a : Vec Ideal S3x256x256 .f32} (ha : IsReal a) (i : ℕ) (h : S3x256x256.Slices ![i, 0, 0] S1x256x256) :
    IsReal (mat3 a i h) := fun _ => ha _

/-- A concatenation of real arrays is real: each entry is an entry of one of them. -/
theorem isReal_concatenate {t : Shape} (ax : Fin t.rank) (xs : List ((s : Shape) × (s.Idx → EReal)))
    (h : Shape.Concatenates (xs.map (·.1)) t ax) (hall : ∀ p ∈ xs, IsReal p.2) : IsReal (concatenate t ax xs h) := by
  intro j
  unfold concatenate
  exact hall _ (List.getElem_mem _) _

theorem isReal_cat {a b : Vec Ideal S50000x256 .f32} (ha : IsReal a) (hb : IsReal b) : IsReal (cat a b) :=
  isReal_concatenate _ _ _ (by
    intro p hp
    simp only [List.mem_cons, List.not_mem_nil, or_false] at hp
    rcases hp with rfl | rfl
    · exact ha
    · exact hb)

theorem gcnK_eq_gcnR {K : Nat} (ei : Vec Ideal S2x800000 .i32) {h : Vec Ideal ⟨2, ![50000, K]⟩ .f32}
    {w : Vec Ideal ⟨2, ![K, 256]⟩ .f32} {bias gamma beta : Vec Ideal S256 .f32} (hh : IsReal h) (hw : IsReal w)
    (hb : IsReal bias) : gcnK ei h w bias gamma beta = gcnR ei h w bias gamma beta :=
  bnK_eq_bnR (isReal_prop ei _ (isReal_mm hh hw)) hb

theorem isReal_gcnR {K : Nat} (ei : Vec Ideal S2x800000 .i32) {h : Vec Ideal ⟨2, ![50000, K]⟩ .f32}
    {w : Vec Ideal ⟨2, ![K, 256]⟩ .f32} {bias gamma beta : Vec Ideal S256 .f32} (hh : IsReal h) (hw : IsReal w)
    (hb : IsReal bias) (hg : IsReal gamma) (hβ : IsReal beta) : IsReal (gcnR ei h w bias gamma beta) :=
  isReal_bnR (isReal_prop ei _ (isReal_mm hh hw)) hb hg hβ

theorem denseK_eq_denseR {K : Nat} {h : Vec Ideal ⟨2, ![50000, K]⟩ .f32} {w : Vec Ideal ⟨2, ![K, 256]⟩ .f32}
    {bias gamma beta : Vec Ideal S256 .f32} (hh : IsReal h) (hw : IsReal w) (hb : IsReal bias) :
    denseK h w bias gamma beta = denseR h w bias gamma beta :=
  bnK_eq_bnR (isReal_mm hh hw) hb

theorem isReal_denseR {K : Nat} {h : Vec Ideal ⟨2, ![50000, K]⟩ .f32} {w : Vec Ideal ⟨2, ![K, 256]⟩ .f32}
    {bias gamma beta : Vec Ideal S256 .f32} (hh : IsReal h) (hw : IsReal w) (hb : IsReal bias) (hg : IsReal gamma)
    (hβ : IsReal beta) : IsReal (denseR h w bias gamma beta) :=
  isReal_bnR (isReal_mm hh hw) hb hg hβ

/-- The three graph layers give a real array on real data … -/
theorem isReal_h3R {x : Vec Ideal S50000x512 .f32} (ei : Vec Ideal S2x800000 .i32) {w0 : Vec Ideal S512x256 .f32}
    {ws : Vec Ideal S2x256x256 .f32} {cb g bt : Vec Ideal S3x256 .f32} (hx : IsReal x) (hw0 : IsReal w0)
    (hws : IsReal ws) (hcb : IsReal cb) (hg : IsReal g) (hbt : IsReal bt) : IsReal (h3R x ei w0 ws cb g bt) :=
  isReal_gcnR ei (isReal_gcnR ei (isReal_gcnR ei hx hw0 (isReal_row3 hcb _ _) (isReal_row3 hg _ _) (isReal_row3 hbt _ _))
      (isReal_mat2 hws _ _) (isReal_row3 hcb _ _) (isReal_row3 hg _ _) (isReal_row3 hbt _ _))
    (isReal_mat2 hws _ _) (isReal_row3 hcb _ _) (isReal_row3 hg _ _) (isReal_row3 hbt _ _)

/-- … and the same array both ways. -/
theorem h3K_eq_h3R {x : Vec Ideal S50000x512 .f32} (ei : Vec Ideal S2x800000 .i32) {w0 : Vec Ideal S512x256 .f32}
    {ws : Vec Ideal S2x256x256 .f32} {cb g bt : Vec Ideal S3x256 .f32} (hx : IsReal x) (hw0 : IsReal w0)
    (hws : IsReal ws) (hcb : IsReal cb) (hg : IsReal g) (hbt : IsReal bt) :
    h3K x ei w0 ws cb g bt = h3R x ei w0 ws cb g bt := by
  have r1 := isReal_gcnR ei hx hw0 (isReal_row3 hcb 0 (by decide)) (isReal_row3 hg 0 (by decide))
    (isReal_row3 hbt 0 (by decide))
  have r2 := isReal_gcnR ei r1 (isReal_mat2 hws 0 (by decide)) (isReal_row3 hcb 1 (by decide))
    (isReal_row3 hg 1 (by decide)) (isReal_row3 hbt 1 (by decide))
  unfold h3K h3R
  rw [gcnK_eq_gcnR ei hx hw0 (isReal_row3 hcb 0 (by decide)),
    gcnK_eq_gcnR ei r1 (isReal_mat2 hws 0 (by decide)) (isReal_row3 hcb 1 (by decide)),
    gcnK_eq_gcnR ei r2 (isReal_mat2 hws 1 (by decide)) (isReal_row3 hcb 2 (by decide))]

/-- The two networks are the same array when every entry of the activation and of the parameters of the layers that
    are normalised is a real (the heads' parameters may be anything). -/
theorem netK_eq_netR {x : Vec Ideal S50000x512 .f32} (ei : Vec Ideal S2x800000 .i32) {conv_w0 : Vec Ideal S512x256 .f32}
    {conv_ws : Vec Ideal S2x256x256 .f32} {conv_b bn_g bn_b : Vec Ideal S3x256 .f32}
    {fcg_w0 : Vec Ideal S256x256 .f32} {fcg_ws : Vec Ideal S2x512x256 .f32} {fcg_b bng_g bng_b : Vec Ideal S3x256 .f32}
    {fcl_w : Vec Ideal S3x256x256 .f32} {fcl_b bnl_g bnl_b : Vec Ideal S3x256 .f32}
    (outg_w : Vec Ideal S256x2 .f32) (outg_b : Vec Ideal S2 .f32) (outl_w : Vec Ideal S3x256x2 .f32)
    (outl_b : Vec Ideal S3x2 .f32)
    (hx : IsReal x) (hw0 : IsReal conv_w0) (hws : IsReal conv_ws) (hcb : IsReal conv_b) (hg : IsReal bn_g)
    (hbt : IsReal bn_b) (hfw0 : IsReal fcg_w0) (hfws : IsReal fcg_ws) (hfb : IsReal fcg_b) (hgg : IsReal bng_g)
    (hgb : IsReal bng_b) (hlw : IsReal fcl_w) (hlb : IsReal fcl_b) :
    netK x ei conv_w0 conv_ws conv_b bn_g bn_b fcg_w0 fcg_ws fcg_b bng_g bng_b fcl_w fcl_b bnl_g bnl_b outg_w outg_b
        outl_w outl_b
      = netR x ei conv_w0 conv_ws conv_b bn_g bn_b fcg_w0 fcg_ws fcg_b bng_g bng_b fcl_w fcl_b bnl_g bnl_b outg_w outg_b
        outl_w outl_b := by
  have r3 := isReal_h3R ei hx hw0 hws hcb hg hbt
  have r0 := isReal_denseR r3 hfw0 (isReal_row3 hfb 0 (by decide)) (isReal_row3 hgg 0 (by decide))
    (isReal_row3 hgb 0 (by decide))
  have r1 := isReal_denseR (isReal_cat r0 r3) (isReal_mat2w hfws 0 (by decide)) (isReal_row3 hfb 1 (by decide))
    (isReal_row3 hgg 1 (by decide)) (isReal_row3 hgb 1 (by decide))
  have r2 := isReal_denseR (isReal_cat r1 r3) (isReal_mat2w hfws 1 (by decide)) (isReal_row3 hfb 2 (by decide))
    (isReal_row3 hgg 2 (by decide)) (isReal_row3 hgb 2 (by decide))
  simp only [netK, netR]
  rw [h3K_eq_h3R ei hx hw0 hws hcb hg hbt,
    denseK_eq_denseR r3 hfw0 (isReal_row3 hfb 0 (by decide)),
    denseK_eq_denseR (isReal_cat r0 r3) (isReal_mat2w hfws 0 (by decide)) (isReal_row3 hfb 1 (by decide)),
    denseK_eq_denseR (isReal_cat r1 r3) (isReal_mat2w hfws 1 (by decide)) (isReal_row3 hfb 2 (by decide)),
    denseK_eq_denseR r0 (isReal_mat3 hlw 0 (by decide)) (isReal_row3 hlb 0 (by decide)),
    denseK_eq_denseR r1 (isReal_mat3 hlw 1 (by decide)) (isReal_row3 hlb 1 (by decide)),
    denseK_eq_denseR r2 (isReal_mat3 hlw 2 (by decide)) (isReal_row3 hlb 2 (by decide))]
  simp only [headK_eq_headR]

end Cert.Spec

end
-- ==== Proof.KI.Read1.lean ====
/- THE KERNEL PROGRAM'S VALUE, first part: the three graph layers (items 0 to 20 of @main).

   After the graph part (the edges' targets, sources and weights), @main runs three times the same five steps on
   different buffers: a matrix product h · W (a kernel region); the propagation of the product along the edges,
   together with row k of the bias, scale and shift arguments made flat rows (a host stretch); the column sums and the
   column sums of squares of the propagated product (a region); the mean row, sums / 50000 + bias, and the variance row,
   sums of squares / 50000 − (sums / 50000)², with the five rows made one-row arrays (a stretch); and the normalising
   region on the propagated product and those five rows. The weight of the first layer is an argument whole, that of
   layer k ≥ 1 matrix k − 1 of a stacked argument.

   Read over the chain of buffer contents between the items, each step's result is ONE function of whole arrays: the
   regions' by their value lemmas, a stretch's by running its operations on the contents before it. Every buffer is
   written once, so a value read later than it was written is carried there by the items' stability facts, and each
   value already read is kept as a named term and substituted, never unfolded. Composed: layer k's output is the
   specification's layer (`Cert.Spec.gcnK`) of the previous layer's output, and after item 20 the buffer of the third
   layer's output holds `Cert.Spec.h3K` of the seven arguments as launched (`read_h3`); no item up to 37 writes it
   (`W21_v141` … `W37_v141`). -/
import proofs.«146967_j25786983645193_1_alg».proof.Proof.KI.ChainB
import proofs.«146967_j25786983645193_1_alg».proof.Proof.KI.ReadGraph
import proofs.«146967_j25786983645193_1_alg».proof.Proof.KI.Val0
import proofs.«146967_j25786983645193_1_alg».proof.Proof.KI.Val1
import proofs.«146967_j25786983645193_1_alg».proof.Proof.KI.Val2
import proofs.«146967_j25786983645193_1_alg».proof.Proof.KI.Val3
import proofs.«146967_j25786983645193_1_alg».proof.Proof.KI.Val4
import proofs.«146967_j25786983645193_1_alg».proof.Proof.KI.Val5
import proofs.«146967_j25786983645193_1_alg».proof.Proof.KI.Val6
import proofs.«146967_j25786983645193_1_alg».proof.Proof.KI.Val7
import proofs.«146967_j25786983645193_1_alg».proof.Proof.KI.Val8
import proofs.«146967_j25786983645193_1_alg».proof.Proof.Spec.Net
import Idealize.ShloMosaic.Lib.Tactic
import Idealize.ShloMosaic.PureOps.Ideal
import Idealize.ShloMosaic.PureOps.Ideal.Laws
import Idealize.ShloMosaic.Lib.ValueIdx
import Idealize.ShloMosaic.Lib.IdealHost

-- a decided fact over the program's references recurses past the default depth
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL.Sem

variable (m : (ℓ : Loc nD τ sig) → Buf (Elt Ideal) ℓ)

namespace Read1

/-! ## The arguments stay as launched (no item writes an argument) -/

theorem W3_arg0 (c : Dev nD) : W3 m c (Proc.devRef .tc main_arg0) = W0 m c (Proc.devRef .tc main_arg0) :=
  W3_arg m c (b := main_arg0) (by decide)
theorem W3_arg2 (c : Dev nD) : W3 m c (Proc.devRef .tc main_arg2) = W0 m c (Proc.devRef .tc main_arg2) :=
  W3_arg m c (b := main_arg2) (by decide)
theorem W4_arg4 (c : Dev nD) : W4 m c (Proc.devRef .tc main_arg4) = W0 m c (Proc.devRef .tc main_arg4) :=
  W4_arg m c (b := main_arg4) (by decide)
theorem W10_arg4 (c : Dev nD) : W10 m c (Proc.devRef .tc main_arg4) = W0 m c (Proc.devRef .tc main_arg4) :=
  W10_arg m c (b := main_arg4) (by decide)
theorem W16_arg4 (c : Dev nD) : W16 m c (Proc.devRef .tc main_arg4) = W0 m c (Proc.devRef .tc main_arg4) :=
  W16_arg m c (b := main_arg4) (by decide)
theorem W4_arg5 (c : Dev nD) : W4 m c (Proc.devRef .tc main_arg5) = W0 m c (Proc.devRef .tc main_arg5) :=
  W4_arg m c (b := main_arg5) (by decide)
theorem W10_arg5 (c : Dev nD) : W10 m c (Proc.devRef .tc main_arg5) = W0 m c (Proc.devRef .tc main_arg5) :=
  W10_arg m c (b := main_arg5) (by decide)
theorem W16_arg5 (c : Dev nD) : W16 m c (Proc.devRef .tc main_arg5) = W0 m c (Proc.devRef .tc main_arg5) :=
  W16_arg m c (b := main_arg5) (by decide)
theorem W4_arg6 (c : Dev nD) : W4 m c (Proc.devRef .tc main_arg6) = W0 m c (Proc.devRef .tc main_arg6) :=
  W4_arg m c (b := main_arg6) (by decide)
theorem W10_arg6 (c : Dev nD) : W10 m c (Proc.devRef .tc main_arg6) = W0 m c (Proc.devRef .tc main_arg6) :=
  W10_arg m c (b := main_arg6) (by decide)
theorem W16_arg6 (c : Dev nD) : W16 m c (Proc.devRef .tc main_arg6) = W0 m c (Proc.devRef .tc main_arg6) :=
  W16_arg m c (b := main_arg6) (by decide)
theorem W8_arg3 (c : Dev nD) : W8 m c (Proc.devRef .tc main_arg3) = W0 m c (Proc.devRef .tc main_arg3) :=
  W8_arg m c (b := main_arg3) (by decide)
theorem W14_arg3 (c : Dev nD) : W14 m c (Proc.devRef .tc main_arg3) = W0 m c (Proc.devRef .tc main_arg3) :=
  W14_arg m c (b := main_arg3) (by decide)

/-! ## The edges' targets, sources and weights

Made by the first three host stretches from the edge list (the graph module reads them); each is written once and read
by all three propagations, entered at items 4, 10 and 16. -/

theorem W3_v3 (c : Dev nD) : (W3 m c (Proc.devRef .tc main_v3) : IVec S850000 32) = Cert.Spec.Graph.rows (W0 m c (Proc.devRef .tc main_arg1)) :=
  read_rows (W0 m c)
theorem W3_v6 (c : Dev nD) : (W3 m c (Proc.devRef .tc main_v6) : IVec S850000 32) = Cert.Spec.Graph.cols (W0 m c (Proc.devRef .tc main_arg1)) :=
  read_cols (W0 m c)
theorem W3_v29 (c : Dev nD) : (W3 m c (Proc.devRef .tc main_v29) : FVec Ideal S850000 .f32) = Cert.Spec.edgeW (W0 m c (Proc.devRef .tc main_arg1)) :=
  read_edgeW (W0 m c)
theorem W4_v3 (c : Dev nD) : (W4 m c (Proc.devRef .tc main_v3) : IVec S850000 32) = Cert.Spec.Graph.rows (W0 m c (Proc.devRef .tc main_arg1)) :=
  (W4_keep m c main_v3 (by decide)).trans (W3_v3 m c)
theorem W10_v3 (c : Dev nD) : (W10 m c (Proc.devRef .tc main_v3) : IVec S850000 32) = Cert.Spec.Graph.rows (W0 m c (Proc.devRef .tc main_arg1)) :=
  ((W10_keep m c main_v3 (by decide)).trans ((W9_keep m c main_v3 (by decide)).trans ((W8_keep m c main_v3 (by decide)).trans ((W7_keep m c main_v3 (by decide)).trans ((W6_keep m c main_v3 (by decide)).trans (W5_keep m c main_v3 (by decide))))))).trans (W4_v3 m c)
theorem W16_v3 (c : Dev nD) : (W16 m c (Proc.devRef .tc main_v3) : IVec S850000 32) = Cert.Spec.Graph.rows (W0 m c (Proc.devRef .tc main_arg1)) :=
  ((W16_keep m c main_v3 (by decide)).trans ((W15_keep m c main_v3 (by decide)).trans ((W14_keep m c main_v3 (by decide)).trans ((W13_keep m c main_v3 (by decide)).trans ((W12_keep m c main_v3 (by decide)).trans (W11_keep m c main_v3 (by decide))))))).trans (W10_v3 m c)
theorem W4_v6 (c : Dev nD) : (W4 m c (Proc.devRef .tc main_v6) : IVec S850000 32) = Cert.Spec.Graph.cols (W0 m c (Proc.devRef .tc main_arg1)) :=
  (W4_keep m c main_v6 (by decide)).trans (W3_v6 m c)
theorem W10_v6 (c : Dev nD) : (W10 m c (Proc.devRef .tc main_v6) : IVec S850000 32) = Cert.Spec.Graph.cols (W0 m c (Proc.devRef .tc main_arg1)) :=
  ((W10_keep m c main_v6 (by decide)).trans ((W9_keep m c main_v6 (by decide)).trans ((W8_keep m c main_v6 (by decide)).trans ((W7_keep m c main_v6 (by decide)).trans ((W6_keep m c main_v6 (by decide)).trans (W5_keep m c main_v6 (by decide))))))).trans (W4_v6 m c)
theorem W16_v6 (c : Dev nD) : (W16 m c (Proc.devRef .tc main_v6) : IVec S850000 32) = Cert.Spec.Graph.cols (W0 m c (Proc.devRef .tc main_arg1)) :=
  ((W16_keep m c main_v6 (by decide)).trans ((W15_keep m c main_v6 (by decide)).trans ((W14_keep m c main_v6 (by decide)).trans ((W13_keep m c main_v6 (by decide)).trans ((W12_keep m c main_v6 (by decide)).trans (W11_keep m c main_v6 (by decide))))))).trans (W10_v6 m c)
theorem W4_v29 (c : Dev nD) : (W4 m c (Proc.devRef .tc main_v29) : FVec Ideal S850000 .f32) = Cert.Spec.edgeW (W0 m c (Proc.devRef .tc main_arg1)) :=
  (W4_keep m c main_v29 (by decide)).trans (W3_v29 m c)
theorem W10_v29 (c : Dev nD) : (W10 m c (Proc.devRef .tc main_v29) : FVec Ideal S850000 .f32) = Cert.Spec.edgeW (W0 m c (Proc.devRef .tc main_arg1)) :=
  ((W10_keep m c main_v29 (by decide)).trans ((W9_keep m c main_v29 (by decide)).trans ((W8_keep m c main_v29 (by decide)).trans ((W7_keep m c main_v29 (by decide)).trans ((W6_keep m c main_v29 (by decide)).trans (W5_keep m c main_v29 (by decide))))))).trans (W4_v29 m c)
theorem W16_v29 (c : Dev nD) : (W16 m c (Proc.devRef .tc main_v29) : FVec Ideal S850000 .f32) = Cert.Spec.edgeW (W0 m c (Proc.devRef .tc main_arg1)) :=
  ((W16_keep m c main_v29 (by decide)).trans ((W15_keep m c main_v29 (by decide)).trans ((W14_keep m c main_v29 (by decide)).trans ((W13_keep m c main_v29 (by decide)).trans ((W12_keep m c main_v29 (by decide)).trans (W11_keep m c main_v29 (by decide))))))).trans (W10_v29 m c)

/-! ## The host stretches' operations on named operands

The three layers run the same host operations on different buffers; each is stated once, over variables. -/

/-- The mean row a stretch hands the normalising kernel, from the column sums and the bias. -/
def meanKf (s : Vec Ideal S1x256 .f32) (bias : Vec Ideal S256 .f32) : Vec Ideal S256 .f32 :=
  addf (F := Ideal) (Host.divf (F := Ideal) (shapeCast S256 s shapeCasts_S1x256_S256)
    (broadcastInDim S256 ![] bcast_S_S256 (constant (F := Ideal) S_ .f32 0x47435000#32))) bias

/-- The variance row a stretch hands the normalising kernel, from the column sums and the column sums of squares. -/
def varKf (s ss : Vec Ideal S1x256 .f32) : Vec Ideal S256 .f32 :=
  subf (F := Ideal) (Host.divf (F := Ideal) (shapeCast S256 ss shapeCasts_S1x256_S256)
      (broadcastInDim S256 ![] bcast_S_S256 (constant (F := Ideal) S_ .f32 0x47435000#32)))
    (mulf (F := Ideal) (Host.divf (F := Ideal) (shapeCast S256 s shapeCasts_S1x256_S256)
        (broadcastInDim S256 ![] bcast_S_S256 (constant (F := Ideal) S_ .f32 0x47435000#32)))
      (Host.divf (F := Ideal) (shapeCast S256 s shapeCasts_S1x256_S256)
        (broadcastInDim S256 ![] bcast_S_S256 (constant (F := Ideal) S_ .f32 0x47435000#32))))

/-- The normalising kernel on an activation, the three rows as one-row arrays, and the mean and variance rows made
    from the activation's own column sums: the specification's batch-norm block. -/
theorem bnK_form (p : Vec Ideal S50000x256 .f32) (b g bt : Vec Ideal S256 .f32) :
    Cert.Spec.bnrelu p (shapeCast S1x256 b shapeCasts_S256_S1x256) (shapeCast S1x256 g shapeCasts_S256_S1x256)
        (shapeCast S1x256 bt shapeCasts_S256_S1x256)
        (shapeCast S1x256 (meanKf (Cert.Spec.colsum p) b) shapeCasts_S256_S1x256)
        (shapeCast S1x256 (varKf (Cert.Spec.colsum p) (Cert.Spec.colsumsq p)) shapeCasts_S256_S1x256)
      = Cert.Spec.bnK p b g bt := rfl

/-! ## The three layers

`Pk m c` is layer k's propagated product and `Hk m c` its output, as functions of the arguments at launch. -/

/-- Layer 0's product, propagated along the edges. -/
def P0 (c : Dev nD) : Vec Ideal S50000x256 .f32 :=
  Cert.Spec.prop (W0 m c (Proc.devRef .tc main_arg1)) (Cert.Spec.mm (W0 m c (Proc.devRef .tc main_arg0)) (W0 m c (Proc.devRef .tc main_arg2)))
/-- Layer 0's output. -/
def H1 (c : Dev nD) : Vec Ideal S50000x256 .f32 :=
  Cert.Spec.gcnK (W0 m c (Proc.devRef .tc main_arg1)) (W0 m c (Proc.devRef .tc main_arg0)) (W0 m c (Proc.devRef .tc main_arg2)) (Cert.Spec.row3 (W0 m c (Proc.devRef .tc main_arg4)) 0 (by decide)) (Cert.Spec.row3 (W0 m c (Proc.devRef .tc main_arg5)) 0 (by decide)) (Cert.Spec.row3 (W0 m c (Proc.devRef .tc main_arg6)) 0 (by decide))

/-- Layer 1's product, propagated along the edges. -/
def P1 (c : Dev nD) : Vec Ideal S50000x256 .f32 :=
  Cert.Spec.prop (W0 m c (Proc.devRef .tc main_arg1)) (Cert.Spec.mm (H1 m c) (Cert.Spec.mat2 (W0 m c (Proc.devRef .tc main_arg3)) 0 (by decide)))
/-- Layer 1's output. -/
def H2 (c : Dev nD) : Vec Ideal S50000x256 .f32 :=
  Cert.Spec.gcnK (W0 m c (Proc.devRef .tc main_arg1)) (H1 m c) (Cert.Spec.mat2 (W0 m c (Proc.devRef .tc main_arg3)) 0 (by decide)) (Cert.Spec.row3 (W0 m c (Proc.devRef .tc main_arg4)) 1 (by decide)) (Cert.Spec.row3 (W0 m c (Proc.devRef .tc main_arg5)) 1 (by decide)) (Cert.Spec.row3 (W0 m c (Proc.devRef .tc main_arg6)) 1 (by decide))

/-- Layer 2's product, propagated along the edges. -/
def P2 (c : Dev nD) : Vec Ideal S50000x256 .f32 :=
  Cert.Spec.prop (W0 m c (Proc.devRef .tc main_arg1)) (Cert.Spec.mm (H2 m c) (Cert.Spec.mat2 (W0 m c (Proc.devRef .tc main_arg3)) 1 (by decide)))
/-- Layer 2's output. -/
def H3 (c : Dev nD) : Vec Ideal S50000x256 .f32 :=
  Cert.Spec.gcnK (W0 m c (Proc.devRef .tc main_arg1)) (H2 m c) (Cert.Spec.mat2 (W0 m c (Proc.devRef .tc main_arg3)) 1 (by decide)) (Cert.Spec.row3 (W0 m c (Proc.devRef .tc main_arg4)) 2 (by decide)) (Cert.Spec.row3 (W0 m c (Proc.devRef .tc main_arg5)) 2 (by decide)) (Cert.Spec.row3 (W0 m c (Proc.devRef .tc main_arg6)) 2 (by decide))

/-! ### Layer 0 -/

theorem W4_v30 (c : Dev nD) : (W4 m c (Proc.devRef .tc main_v30) : Vec Ideal S50000x256 .f32) = Cert.Spec.mm (W0 m c (Proc.devRef .tc main_arg0)) (W0 m c (Proc.devRef .tc main_arg2)) := by
  refine ((W4_arr m c 2).trans (arrAt0_out (rd (W3 m)) c)).trans ?_
  show Cert.Spec.mm (W3 m c (Proc.devRef .tc main_arg0)) (W3 m c (Proc.devRef .tc main_arg2)) = _
  rw [W3_arg0 m c, W3_arg2 m c]
theorem W5_v43 (c : Dev nD) : (W5 m c (Proc.devRef .tc main_v43) : Vec Ideal S50000x256 .f32) = P0 m c :=
  (read_prop1 (W4 m c) (W0 m c (Proc.devRef .tc main_arg1)) (W4_v3 m c) (W4_v6 m c) (W4_v29 m c)).trans
    (congrArg (Cert.Spec.prop (W0 m c (Proc.devRef .tc main_arg1))) (W4_v30 m c))
theorem W5_v45 (c : Dev nD) : (W5 m c (Proc.devRef .tc main_v45) : Vec Ideal S256 .f32) = Cert.Spec.row3 (W0 m c (Proc.devRef .tc main_arg4)) 0 (by decide) := by
  show StableHlo.after hostOps1 (W4 m c) (Proc.devRef .tc main_v45) = _
  after_results
  rw [W4_arg4 m c]
  rfl
theorem W5_v47 (c : Dev nD) : (W5 m c (Proc.devRef .tc main_v47) : Vec Ideal S256 .f32) = Cert.Spec.row3 (W0 m c (Proc.devRef .tc main_arg5)) 0 (by decide) := by
  show StableHlo.after hostOps1 (W4 m c) (Proc.devRef .tc main_v47) = _
  after_results
  rw [W4_arg5 m c]
  rfl
theorem W5_v49 (c : Dev nD) : (W5 m c (Proc.devRef .tc main_v49) : Vec Ideal S256 .f32) = Cert.Spec.row3 (W0 m c (Proc.devRef .tc main_arg6)) 0 (by decide) := by
  show StableHlo.after hostOps1 (W4 m c) (Proc.devRef .tc main_v49) = _
  after_results
  rw [W4_arg6 m c]
  rfl
theorem W6_v50_0 (c : Dev nD) : (W6 m c (Proc.devRef .tc main_v50_0) : Vec Ideal S1x256 .f32) = Cert.Spec.colsum (P0 m c) := by
  refine ((W6_arr m c 1).trans (arrAt1_1 (rd (W5 m)) c)).trans ?_
  show Cert.Spec.colsum (W5 m c (Proc.devRef .tc main_v43)) = _
  rw [W5_v43 m c]
theorem W6_v50_1 (c : Dev nD) : (W6 m c (Proc.devRef .tc main_v50_1) : Vec Ideal S1x256 .f32) = Cert.Spec.colsumsq (P0 m c) := by
  refine ((W6_arr m c 2).trans (arrAt1_2 (rd (W5 m)) c)).trans ?_
  show Cert.Spec.colsumsq (W5 m c (Proc.devRef .tc main_v43)) = _
  rw [W5_v43 m c]
theorem W6_v45 (c : Dev nD) : (W6 m c (Proc.devRef .tc main_v45) : Vec Ideal S256 .f32) = Cert.Spec.row3 (W0 m c (Proc.devRef .tc main_arg4)) 0 (by decide) :=
  (W6_keep m c main_v45 (by decide)).trans (W5_v45 m c)
theorem W6_v47 (c : Dev nD) : (W6 m c (Proc.devRef .tc main_v47) : Vec Ideal S256 .f32) = Cert.Spec.row3 (W0 m c (Proc.devRef .tc main_arg5)) 0 (by decide) :=
  (W6_keep m c main_v47 (by decide)).trans (W5_v47 m c)
theorem W6_v49 (c : Dev nD) : (W6 m c (Proc.devRef .tc main_v49) : Vec Ideal S256 .f32) = Cert.Spec.row3 (W0 m c (Proc.devRef .tc main_arg6)) 0 (by decide) :=
  (W6_keep m c main_v49 (by decide)).trans (W5_v49 m c)
theorem W7_v60 (c : Dev nD) : (W7 m c (Proc.devRef .tc main_v60) : Vec Ideal S1x256 .f32) = shapeCast S1x256 (Cert.Spec.row3 (W0 m c (Proc.devRef .tc main_arg4)) 0 (by decide)) shapeCasts_S256_S1x256 := by
  show StableHlo.after hostOps2 (W6 m c) (Proc.devRef .tc main_v60) = _
  after_results
  rw [W6_v45 m c]
  rfl
theorem W7_v61 (c : Dev nD) : (W7 m c (Proc.devRef .tc main_v61) : Vec Ideal S1x256 .f32) = shapeCast S1x256 (Cert.Spec.row3 (W0 m c (Proc.devRef .tc main_arg5)) 0 (by decide)) shapeCasts_S256_S1x256 := by
  show StableHlo.after hostOps2 (W6 m c) (Proc.devRef .tc main_v61) = _
  after_results
  rw [W6_v47 m c]
  rfl
theorem W7_v62 (c : Dev nD) : (W7 m c (Proc.devRef .tc main_v62) : Vec Ideal S1x256 .f32) = shapeCast S1x256 (Cert.Spec.row3 (W0 m c (Proc.devRef .tc main_arg6)) 0 (by decide)) shapeCasts_S256_S1x256 := by
  show StableHlo.after hostOps2 (W6 m c) (Proc.devRef .tc main_v62) = _
  after_results
  rw [W6_v49 m c]
  rfl
theorem W7_v63 (c : Dev nD) : (W7 m c (Proc.devRef .tc main_v63) : Vec Ideal S1x256 .f32)
    = shapeCast S1x256 (meanKf (Cert.Spec.colsum (P0 m c)) (Cert.Spec.row3 (W0 m c (Proc.devRef .tc main_arg4)) 0 (by decide))) shapeCasts_S256_S1x256 := by
  show StableHlo.after hostOps2 (W6 m c) (Proc.devRef .tc main_v63) = _
  after_results
  rw [W6_v50_0 m c, W6_v45 m c]
  rfl
theorem W7_v64 (c : Dev nD) : (W7 m c (Proc.devRef .tc main_v64) : Vec Ideal S1x256 .f32)
    = shapeCast S1x256 (varKf (Cert.Spec.colsum (P0 m c)) (Cert.Spec.colsumsq (P0 m c))) shapeCasts_S256_S1x256 := by
  show StableHlo.after hostOps2 (W6 m c) (Proc.devRef .tc main_v64) = _
  after_results
  rw [W6_v50_0 m c, W6_v50_1 m c]
  rfl
theorem W7_v43 (c : Dev nD) : (W7 m c (Proc.devRef .tc main_v43) : Vec Ideal S50000x256 .f32) = P0 m c :=
  ((W7_keep m c main_v43 (by decide)).trans (W6_keep m c main_v43 (by decide))).trans (W5_v43 m c)
theorem W8_v65 (c : Dev nD) : (W8 m c (Proc.devRef .tc main_v65) : Vec Ideal S50000x256 .f32) = H1 m c := by
  refine ((W8_arr m c 6).trans (final2_6 (rd (W7 m)) c)).trans ?_
  show Cert.Spec.bnrelu (W7 m c (Proc.devRef .tc main_v43)) (W7 m c (Proc.devRef .tc main_v60)) (W7 m c (Proc.devRef .tc main_v61)) (W7 m c (Proc.devRef .tc main_v62)) (W7 m c (Proc.devRef .tc main_v63)) (W7 m c (Proc.devRef .tc main_v64)) = _
  rw [W7_v43 m c, W7_v60 m c, W7_v61 m c, W7_v62 m c, W7_v63 m c, W7_v64 m c]
  exact bnK_form _ _ _ _

/-! ### Layer 1 -/

theorem W9_v67 (c : Dev nD) : (W9 m c (Proc.devRef .tc main_v67) : Vec Ideal S256x256 .f32) = Cert.Spec.mat2 (W0 m c (Proc.devRef .tc main_arg3)) 0 (by decide) := by
  show StableHlo.after hostOps3 (W8 m c) (Proc.devRef .tc main_v67) = _
  after_results
  rw [W8_arg3 m c]
  rfl
theorem W9_v65 (c : Dev nD) : (W9 m c (Proc.devRef .tc main_v65) : Vec Ideal S50000x256 .f32) = H1 m c :=
  (W9_keep m c main_v65 (by decide)).trans (W8_v65 m c)
theorem W10_v68 (c : Dev nD) : (W10 m c (Proc.devRef .tc main_v68) : Vec Ideal S50000x256 .f32) = Cert.Spec.mm (H1 m c) (Cert.Spec.mat2 (W0 m c (Proc.devRef .tc main_arg3)) 0 (by decide)) := by
  refine ((W10_arr m c 2).trans (arrAt3_out (rd (W9 m)) c)).trans ?_
  show Cert.Spec.mm (W9 m c (Proc.devRef .tc main_v65)) (W9 m c (Proc.devRef .tc main_v67)) = _
  rw [W9_v65 m c, W9_v67 m c]
theorem W11_v81 (c : Dev nD) : (W11 m c (Proc.devRef .tc main_v81) : Vec Ideal S50000x256 .f32) = P1 m c :=
  (read_prop2 (W10 m c) (W0 m c (Proc.devRef .tc main_arg1)) (W10_v3 m c) (W10_v6 m c) (W10_v29 m c)).trans
    (congrArg (Cert.Spec.prop (W0 m c (Proc.devRef .tc main_arg1))) (W10_v68 m c))
theorem W11_v83 (c : Dev nD) : (W11 m c (Proc.devRef .tc main_v83) : Vec Ideal S256 .f32) = Cert.Spec.row3 (W0 m c (Proc.devRef .tc main_arg4)) 1 (by decide) := by
  show StableHlo.after hostOps4 (W10 m c) (Proc.devRef .tc main_v83) = _
  after_results
  rw [W10_arg4 m c]
  rfl
theorem W11_v85 (c : Dev nD) : (W11 m c (Proc.devRef .tc main_v85) : Vec Ideal S256 .f32) = Cert.Spec.row3 (W0 m c (Proc.devRef .tc main_arg5)) 1 (by decide) := by
  show StableHlo.after hostOps4 (W10 m c) (Proc.devRef .tc main_v85) = _
  after_results
  rw [W10_arg5 m c]
  rfl
theorem W11_v87 (c : Dev nD) : (W11 m c (Proc.devRef .tc main_v87) : Vec Ideal S256 .f32) = Cert.Spec.row3 (W0 m c (Proc.devRef .tc main_arg6)) 1 (by decide) := by
  show StableHlo.after hostOps4 (W10 m c) (Proc.devRef .tc main_v87) = _
  after_results
  rw [W10_arg6 m c]
  rfl
theorem W12_v88_0 (c : Dev nD) : (W12 m c (Proc.devRef .tc main_v88_0) : Vec Ideal S1x256 .f32) = Cert.Spec.colsum (P1 m c) := by
  refine ((W12_arr m c 1).trans (arrAt4_1 (rd (W11 m)) c)).trans ?_
  show Cert.Spec.colsum (W11 m c (Proc.devRef .tc main_v81)) = _
  rw [W11_v81 m c]
theorem W12_v88_1 (c : Dev nD) : (W12 m c (Proc.devRef .tc main_v88_1) : Vec Ideal S1x256 .f32) = Cert.Spec.colsumsq (P1 m c) := by
  refine ((W12_arr m c 2).trans (arrAt4_2 (rd (W11 m)) c)).trans ?_
  show Cert.Spec.colsumsq (W11 m c (Proc.devRef .tc main_v81)) = _
  rw [W11_v81 m c]
theorem W12_v83 (c : Dev nD) : (W12 m c (Proc.devRef .tc main_v83) : Vec Ideal S256 .f32) = Cert.Spec.row3 (W0 m c (Proc.devRef .tc main_arg4)) 1 (by decide) :=
  (W12_keep m c main_v83 (by decide)).trans (W11_v83 m c)
theorem W12_v85 (c : Dev nD) : (W12 m c (Proc.devRef .tc main_v85) : Vec Ideal S256 .f32) = Cert.Spec.row3 (W0 m c (Proc.devRef .tc main_arg5)) 1 (by decide) :=
  (W12_keep m c main_v85 (by decide)).trans (W11_v85 m c)
theorem W12_v87 (c : Dev nD) : (W12 m c (Proc.devRef .tc main_v87) : Vec Ideal S256 .f32) = Cert.Spec.row3 (W0 m c (Proc.devRef .tc main_arg6)) 1 (by decide) :=
  (W12_keep m c main_v87 (by decide)).trans (W11_v87 m c)
theorem W13_v98 (c : Dev nD) : (W13 m c (Proc.devRef .tc main_v98) : Vec Ideal S1x256 .f32) = shapeCast S1x256 (Cert.Spec.row3 (W0 m c (Proc.devRef .tc main_arg4)) 1 (by decide)) shapeCasts_S256_S1x256 := by
  show StableHlo.after hostOps5 (W12 m c) (Proc.devRef .tc main_v98) = _
  after_results
  rw [W12_v83 m c]
  rfl
theorem W13_v99 (c : Dev nD) : (W13 m c (Proc.devRef .tc main_v99) : Vec Ideal S1x256 .f32) = shapeCast S1x256 (Cert.Spec.row3 (W0 m c (Proc.devRef .tc main_arg5)) 1 (by decide)) shapeCasts_S256_S1x256 := by
  show StableHlo.after hostOps5 (W12 m c) (Proc.devRef .tc main_v99) = _
  after_results
  rw [W12_v85 m c]
  rfl
theorem W13_v100 (c : Dev nD) : (W13 m c (Proc.devRef .tc main_v100) : Vec Ideal S1x256 .f32) = shapeCast S1x256 (Cert.Spec.row3 (W0 m c (Proc.devRef .tc main_arg6)) 1 (by decide)) shapeCasts_S256_S1x256 := by
  show StableHlo.after hostOps5 (W12 m c) (Proc.devRef .tc main_v100) = _
  after_results
  rw [W12_v87 m c]
  rfl
theorem W13_v101 (c : Dev nD) : (W13 m c (Proc.devRef .tc main_v101) : Vec Ideal S1x256 .f32)
    = shapeCast S1x256 (meanKf (Cert.Spec.colsum (P1 m c)) (Cert.Spec.row3 (W0 m c (Proc.devRef .tc main_arg4)) 1 (by decide))) shapeCasts_S256_S1x256 := by
  show StableHlo.after hostOps5 (W12 m c) (Proc.devRef .tc main_v101) = _
  after_results
  rw [W12_v88_0 m c, W12_v83 m c]
  rfl
theorem W13_v102 (c : Dev nD) : (W13 m c (Proc.devRef .tc main_v102) : Vec Ideal S1x256 .f32)
    = shapeCast S1x256 (varKf (Cert.Spec.colsum (P1 m c)) (Cert.Spec.colsumsq (P1 m c))) shapeCasts_S256_S1x256 := by
  show StableHlo.after hostOps5 (W12 m c) (Proc.devRef .tc main_v102) = _
  after_results
  rw [W12_v88_0 m c, W12_v88_1 m c]
  rfl
theorem W13_v81 (c : Dev nD) : (W13 m c (Proc.devRef .tc main_v81) : Vec Ideal S50000x256 .f32) = P1 m c :=
  ((W13_keep m c main_v81 (by decide)).trans (W12_keep m c main_v81 (by decide))).trans (W11_v81 m c)
theorem W14_v103 (c : Dev nD) : (W14 m c (Proc.devRef .tc main_v103) : Vec Ideal S50000x256 .f32) = H2 m c := by
  refine ((W14_arr m c 6).trans (final5_6 (rd (W13 m)) c)).trans ?_
  show Cert.Spec.bnrelu (W13 m c (Proc.devRef .tc main_v81)) (W13 m c (Proc.devRef .tc main_v98)) (W13 m c (Proc.devRef .tc main_v99)) (W13 m c (Proc.devRef .tc main_v100)) (W13 m c (Proc.devRef .tc main_v101)) (W13 m c (Proc.devRef .tc main_v102)) = _
  rw [W13_v81 m c, W13_v98 m c, W13_v99 m c, W13_v100 m c, W13_v101 m c, W13_v102 m c]
  exact bnK_form _ _ _ _

/-! ### Layer 2 -/

theorem W15_v105 (c : Dev nD) : (W15 m c (Proc.devRef .tc main_v105) : Vec Ideal S256x256 .f32) = Cert.Spec.mat2 (W0 m c (Proc.devRef .tc main_arg3)) 1 (by decide) := by
  show StableHlo.after hostOps6 (W14 m c) (Proc.devRef .tc main_v105) = _
  after_results
  rw [W14_arg3 m c]
  rfl
theorem W15_v103 (c : Dev nD) : (W15 m c (Proc.devRef .tc main_v103) : Vec Ideal S50000x256 .f32) = H2 m c :=
  (W15_keep m c main_v103 (by decide)).trans (W14_v103 m c)
theorem W16_v106 (c : Dev nD) : (W16 m c (Proc.devRef .tc main_v106) : Vec Ideal S50000x256 .f32) = Cert.Spec.mm (H2 m c) (Cert.Spec.mat2 (W0 m c (Proc.devRef .tc main_arg3)) 1 (by decide)) := by
  refine ((W16_arr m c 2).trans (arrAt6_out (rd (W15 m)) c)).trans ?_
  show Cert.Spec.mm (W15 m c (Proc.devRef .tc main_v103)) (W15 m c (Proc.devRef .tc main_v105)) = _
  rw [W15_v103 m c, W15_v105 m c]
theorem W17_v119 (c : Dev nD) : (W17 m c (Proc.devRef .tc main_v119) : Vec Ideal S50000x256 .f32) = P2 m c :=
  (read_prop3 (W16 m c) (W0 m c (Proc.devRef .tc main_arg1)) (W16_v3 m c) (W16_v6 m c) (W16_v29 m c)).trans
    (congrArg (Cert.Spec.prop (W0 m c (Proc.devRef .tc main_arg1))) (W16_v106 m c))
theorem W17_v121 (c : Dev nD) : (W17 m c (Proc.devRef .tc main_v121) : Vec Ideal S256 .f32) = Cert.Spec.row3 (W0 m c (Proc.devRef .tc main_arg4)) 2 (by decide) := by
  show StableHlo.after hostOps7 (W16 m c) (Proc.devRef .tc main_v121) = _
  after_results
  rw [W16_arg4 m c]
  rfl
theorem W17_v123 (c : Dev nD) : (W17 m c (Proc.devRef .tc main_v123) : Vec Ideal S256 .f32) = Cert.Spec.row3 (W0 m c (Proc.devRef .tc main_arg5)) 2 (by decide) := by
  show StableHlo.after hostOps7 (W16 m c) (Proc.devRef .tc main_v123) = _
  after_results
  rw [W16_arg5 m c]
  rfl
theorem W17_v125 (c : Dev nD) : (W17 m c (Proc.devRef .tc main_v125) : Vec Ideal S256 .f32) = Cert.Spec.row3 (W0 m c (Proc.devRef .tc main_arg6)) 2 (by decide) := by
  show StableHlo.after hostOps7 (W16 m c) (Proc.devRef .tc main_v125) = _
  after_results
  rw [W16_arg6 m c]
  rfl
theorem W18_v126_0 (c : Dev nD) : (W18 m c (Proc.devRef .tc main_v126_0) : Vec Ideal S1x256 .f32) = Cert.Spec.colsum (P2 m c) := by
  refine ((W18_arr m c 1).trans (arrAt7_1 (rd (W17 m)) c)).trans ?_
  show Cert.Spec.colsum (W17 m c (Proc.devRef .tc main_v119)) = _
  rw [W17_v119 m c]
theorem W18_v126_1 (c : Dev nD) : (W18 m c (Proc.devRef .tc main_v126_1) : Vec Ideal S1x256 .f32) = Cert.Spec.colsumsq (P2 m c) := by
  refine ((W18_arr m c 2).trans (arrAt7_2 (rd (W17 m)) c)).trans ?_
  show Cert.Spec.colsumsq (W17 m c (Proc.devRef .tc main_v119)) = _
  rw [W17_v119 m c]
theorem W18_v121 (c : Dev nD) : (W18 m c (Proc.devRef .tc main_v121) : Vec Ideal S256 .f32) = Cert.Spec.row3 (W0 m c (Proc.devRef .tc main_arg4)) 2 (by decide) :=
  (W18_keep m c main_v121 (by decide)).trans (W17_v121 m c)
theorem W18_v123 (c : Dev nD) : (W18 m c (Proc.devRef .tc main_v123) : Vec Ideal S256 .f32) = Cert.Spec.row3 (W0 m c (Proc.devRef .tc main_arg5)) 2 (by decide) :=
  (W18_keep m c main_v123 (by decide)).trans (W17_v123 m c)
theorem W18_v125 (c : Dev nD) : (W18 m c (Proc.devRef .tc main_v125) : Vec Ideal S256 .f32) = Cert.Spec.row3 (W0 m c (Proc.devRef .tc main_arg6)) 2 (by decide) :=
  (W18_keep m c main_v125 (by decide)).trans (W17_v125 m c)
theorem W19_v136 (c : Dev nD) : (W19 m c (Proc.devRef .tc main_v136) : Vec Ideal S1x256 .f32) = shapeCast S1x256 (Cert.Spec.row3 (W0 m c (Proc.devRef .tc main_arg4)) 2 (by decide)) shapeCasts_S256_S1x256 := by
  show StableHlo.after hostOps8 (W18 m c) (Proc.devRef .tc main_v136) = _
  after_results
  rw [W18_v121 m c]
  rfl
theorem W19_v137 (c : Dev nD) : (W19 m c (Proc.devRef .tc main_v137) : Vec Ideal S1x256 .f32) = shapeCast S1x256 (Cert.Spec.row3 (W0 m c (Proc.devRef .tc main_arg5)) 2 (by decide)) shapeCasts_S256_S1x256 := by
  show StableHlo.after hostOps8 (W18 m c) (Proc.devRef .tc main_v137) = _
  after_results
  rw [W18_v123 m c]
  rfl
theorem W19_v138 (c : Dev nD) : (W19 m c (Proc.devRef .tc main_v138) : Vec Ideal S1x256 .f32) = shapeCast S1x256 (Cert.Spec.row3 (W0 m c (Proc.devRef .tc main_arg6)) 2 (by decide)) shapeCasts_S256_S1x256 := by
  show StableHlo.after hostOps8 (W18 m c) (Proc.devRef .tc main_v138) = _
  after_results
  rw [W18_v125 m c]
  rfl
theorem W19_v139 (c : Dev nD) : (W19 m c (Proc.devRef .tc main_v139) : Vec Ideal S1x256 .f32)
    = shapeCast S1x256 (meanKf (Cert.Spec.colsum (P2 m c)) (Cert.Spec.row3 (W0 m c (Proc.devRef .tc main_arg4)) 2 (by decide))) shapeCasts_S256_S1x256 := by
  show StableHlo.after hostOps8 (W18 m c) (Proc.devRef .tc main_v139) = _
  after_results
  rw [W18_v126_0 m c, W18_v121 m c]
  rfl
theorem W19_v140 (c : Dev nD) : (W19 m c (Proc.devRef .tc main_v140) : Vec Ideal S1x256 .f32)
    = shapeCast S1x256 (varKf (Cert.Spec.colsum (P2 m c)) (Cert.Spec.colsumsq (P2 m c))) shapeCasts_S256_S1x256 := by
  show StableHlo.after hostOps8 (W18 m c) (Proc.devRef .tc main_v140) = _
  after_results
  rw [W18_v126_0 m c, W18_v126_1 m c]
  rfl
theorem W19_v119 (c : Dev nD) : (W19 m c (Proc.devRef .tc main_v119) : Vec Ideal S50000x256 .f32) = P2 m c :=
  ((W19_keep m c main_v119 (by decide)).trans (W18_keep m c main_v119 (by decide))).trans (W17_v119 m c)
theorem W20_v141 (c : Dev nD) : (W20 m c (Proc.devRef .tc main_v141) : Vec Ideal S50000x256 .f32) = H3 m c := by
  refine ((W20_arr m c 6).trans (final8_6 (rd (W19 m)) c)).trans ?_
  show Cert.Spec.bnrelu (W19 m c (Proc.devRef .tc main_v119)) (W19 m c (Proc.devRef .tc main_v136)) (W19 m c (Proc.devRef .tc main_v137)) (W19 m c (Proc.devRef .tc main_v138)) (W19 m c (Proc.devRef .tc main_v139)) (W19 m c (Proc.devRef .tc main_v140)) = _
  rw [W19_v119 m c, W19_v136 m c, W19_v137 m c, W19_v138 m c, W19_v139 m c, W19_v140 m c]
  exact bnK_form _ _ _ _

end Read1

/-! ## What the three layers leave: the interface of this part -/

/-- The third layer's output is the specification's three-layer network on the arguments at launch. -/
theorem Read1.H3_eq (c : Dev nD) : Read1.H3 m c = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) := rfl

/-- After region 8 the buffer of the third layer's output holds the three-layer network of the arguments. -/
theorem read_h3 (c : Dev nD) :
    (W20 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (Read1.W20_v141 m c).trans (Read1.H3_eq m c)

/-! It is written once: every later item up to region 17 leaves it there. -/

theorem W21_v141 (c : Dev nD) :
    (W21 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W21_keep m c main_v141 (by decide)).trans (read_h3 m c)
theorem W22_v141 (c : Dev nD) :
    (W22 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W22_keep m c main_v141 (by decide)).trans (W21_v141 m c)
theorem W23_v141 (c : Dev nD) :
    (W23 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W23_keep m c main_v141 (by decide)).trans (W22_v141 m c)
theorem W24_v141 (c : Dev nD) :
    (W24 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W24_keep m c main_v141 (by decide)).trans (W23_v141 m c)
theorem W25_v141 (c : Dev nD) :
    (W25 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W25_keep m c main_v141 (by decide)).trans (W24_v141 m c)
theorem W26_v141 (c : Dev nD) :
    (W26 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W26_keep m c main_v141 (by decide)).trans (W25_v141 m c)
theorem W27_v141 (c : Dev nD) :
    (W27 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W27_keep m c main_v141 (by decide)).trans (W26_v141 m c)
theorem W28_v141 (c : Dev nD) :
    (W28 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W28_keep m c main_v141 (by decide)).trans (W27_v141 m c)
theorem W29_v141 (c : Dev nD) :
    (W29 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W29_keep m c main_v141 (by decide)).trans (W28_v141 m c)
theorem W30_v141 (c : Dev nD) :
    (W30 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W30_keep m c main_v141 (by decide)).trans (W29_v141 m c)
theorem W31_v141 (c : Dev nD) :
    (W31 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W31_keep m c main_v141 (by decide)).trans (W30_v141 m c)
theorem W32_v141 (c : Dev nD) :
    (W32 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W32_keep m c main_v141 (by decide)).trans (W31_v141 m c)
theorem W33_v141 (c : Dev nD) :
    (W33 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W33_keep m c main_v141 (by decide)).trans (W32_v141 m c)
theorem W34_v141 (c : Dev nD) :
    (W34 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W34_keep m c main_v141 (by decide)).trans (W33_v141 m c)
theorem W35_v141 (c : Dev nD) :
    (W35 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W35_keep m c main_v141 (by decide)).trans (W34_v141 m c)
theorem W36_v141 (c : Dev nD) :
    (W36 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W36_keep m c main_v141 (by decide)).trans (W35_v141 m c)
theorem W37_v141 (c : Dev nD) :
    (W37 m c (Proc.devRef .tc main_v141) : Vec Ideal S50000x256 .f32) = Cert.Spec.h3K (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) :=
  (W37_keep m c main_v141 (by decide)).trans (W36_v141 m c)

end Cert.KernelIdeal.Reg
-- ==== Proof.KI.Val9.lean ====
/- REGION 9's output array after the region, at the ideal values, as ONE whole-array function of the region's two
   input arrays as it finds them: the [50000, 256] array ends holding the matrix product of the [50000, 256] array
   by the [256, 256] weight (`Cert.Spec.mm`).
   The road: at the ideal values narrowing to bf16 changes nothing and the product onto a zero accumulator is the
   sum over the contraction coordinate, so the body's payload at row `x`, column `y` of a block is
   `∑ k, block (x, k) * weight (k, y)` (`pay9_apply`). Point `t`'s row block is rows `1000 t …` of the array and
   its output block the same rows of the output, while the weight's block is the whole weight at every point
   (`idx_facts9`, decided over the 50 points); a product's rows are the products of the rows, so what point `t`
   writes back is block `t` of the whole product (`flushed9_2_eq`). Every point writes back, and row `r` lies in
   the block of point `r / 1000` (`cover9_out`), so the array ends holding the product and nothing of what it held
   before (`arrAt9_out`). -/
import proofs.«146967_j25786983645193_1_alg».proof.Proof.KI.Reg9
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz9 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay9_apply (xa : Vec Ideal S1000x256 .f32) (xb : Vec Ideal S256x256 .f32) (j : S1000x256.Idx) :
    k9_pay1 (F := Ideal) xa xb j = ∑ k : Fin 256, xa (ix2 (j 0) k) * xb (ix2 k (j 1)) := by
  unfold k9_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts9 : ∀ t : Fin cfg9.N,
    win9_0.index t (0 : Fin 2) = win9_2.index t (0 : Fin 2) ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed9_2_eq (c : Dev nD) (t : Fin cfg9.N) :
    (dat9 (F := Ideal) V c).flushed 2 t
      = ((cfg9.win 2).blk t).view.read (Elt Ideal)
          (Cert.Spec.mm (M := 50000) (K := 256) (N := 256) (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero hz9]
  simp only [View.ld_unit_zero (S := S1000x256) hz9, View.ld_unit_zero (S := S256x256) hz9]
  obtain ⟨e0, e1, e2, e3, e4, e5⟩ := idx_facts9 t
  funext j
  show k9_pay1 (F := Ideal) (iblk9 V c 0 t) (iblk9 V c 1 t) j
    = Cert.Spec.mm (M := 50000) (K := 256) (N := 256) (V c (Pipeline.arrRef spec9 0)) (V c (Pipeline.arrRef spec9 1)) (((cfg9.win 2).blk t).view.emb j)
  rw [pay9_apply, Cert.Spec.mm_apply]
  refine Finset.sum_congr rfl fun k _ => ?_
  -- the row block's element (j 0, k) is the array's at the output block's row and column k
  have ha : ((cfg9.win 0).blk t).view.emb (ix2 (j 0) k) = ix2 ((((cfg9.win 2).blk t).view.emb j) 0) k := by
    funext a; apply Fin.ext
    match a with
    | ⟨0, _⟩ => show win9_0.index t (0 : Fin 2) * 1000 + 1 * (j 0).val = win9_2.index t (0 : Fin 2) * 1000 + 1 * (j 0).val; omega
    | ⟨1, _⟩ => show win9_0.index t (1 : Fin 2) * 256 + 1 * k.val = k.val; omega
  -- the weight's element (k, j 1) is the array's at row k and the output block's column
  have hb : ((cfg9.win 1).blk t).view.emb (ix2 k (j 1)) = ix2 k ((((cfg9.win 2).blk t).view.emb j) 1) := by
    funext a; apply Fin.ext
    match a with
    | ⟨0, _⟩ => show win9_1.index t (0 : Fin 2) * 256 + 1 * k.val = k.val; omega
    | ⟨1, _⟩ => show win9_1.index t (1 : Fin 2) * 256 + 1 * (j 1).val = win9_2.index t (1 : Fin 2) * 256 + 1 * (j 1).val; omega
  -- each block's element is its array's at the embedded index (a read through a view is precomposition)
  unfold iblk9
  rw [View.read_apply, View.read_apply]
  rewrite [ha, hb]
  rfl

/-! ## The output blocks cover the array -/

/-- An index of the output array is in point `t`'s block iff each coordinate is in the block's range on its axis. -/
theorem mem_blk9_2 (t : Fin cfg9.N) (i : S50000x256.Idx) :
    i ∈ ((cfg9.win 2).blk t).view.set ↔ ∀ a : Fin 2, win9_2.index t a * S1000x256.size a ≤ (i a).val ∧ (i a).val < win9_2.index t a * S1000x256.size a + S1000x256.size a := by
  show i ∈ ((View.whole (Pipeline.arrRef spec9 2)).slice (win9_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover9_out (i : S50000x256.Idx) :
    ∃ t : Fin cfg9.N, (cfg9.win 2).flush t = true ∧ i ∈ ((cfg9.win 2).blk t).view.set := by
  have hr : (i 0).val < 50000 := idx2_lt0 i
  have hc : (i 1).val < 256 := idx2_lt1 i
  have hN : cfg9.N = 50 := N_9
  let t : Fin cfg9.N := ⟨(i 0).val / 1000, by rw [hN]; omega⟩
  have ht : t.val = (i 0).val / 1000 := rfl
  obtain ⟨-, -, -, -, e4, e5⟩ := idx_facts9 t
  refine ⟨t, flush9_2 t, (mem_blk9_2 t i).mpr fun a => ?_⟩
  match a with
  | ⟨0, _⟩ => show win9_2.index t (0 : Fin 2) * 1000 ≤ (i 0).val ∧ (i 0).val < win9_2.index t (0 : Fin 2) * 1000 + 1000; omega
  | ⟨1, _⟩ => show win9_2.index t (1 : Fin 2) * 256 ≤ (i 1).val ∧ (i 1).val < win9_2.index t (1 : Fin 2) * 256 + 256; omega

/-! ## The output array after the region -/

/-- The product of the region's two arrays, at the program's shapes: `Cert.Spec.mm` at 50000 × 256 by 256 × 256. -/
abbrev mm9 (a : Vec Ideal S50000x256 .f32) (w : Vec Ideal S256x256 .f32) : Vec Ideal S50000x256 .f32 :=
  Cert.Spec.mm (M := 50000) (K := 256) (N := 256) a w

/-- THE OUTPUT ARRAY after the region, as one whole-array function of the two input arrays as the region finds
    them: their product. Every point writes back its block of that product (`flushed9_2_eq`) and the blocks cover
    the array (`cover9_out`), so nothing of what the array held before remains. -/
theorem arrAt9_out (c : Dev nD) :
    (dat9 (F := Ideal) V c).arrAt 2 cfg9.N = mm9 (V c (Pipeline.arrRef spec9 0)) (V c (Pipeline.arrRef spec9 1)) :=
  (dat9 (F := Ideal) V c).arrAt_eq_of_cover 2 _ (fun t _ => flushed9_2_eq V c t) cover9_out

end Cert.KernelIdeal.Reg
-- ==== Proof.KI.Val10.lean ====
/-
  THE VALUE of REGION 10 of the kernel program (custom_call 10, cc10__sumsq_kernel) at the ideal (extended-real) float
  values: after the region, the two [1,256] arrays its windows 1 and 2 write hold, at column k, the sum over all 50000
  rows of the [50000,256] array h the region read, and the sum of the squares:

      arrAt10_1 : (dat10 V c).arrAt 1 cfg10.N = colsum   (V c (Pipeline.arrRef spec10 0))
      arrAt10_2 : (dat10 V c).arrAt 2 cfg10.N = colsumsq (V c (Pipeline.arrRef spec10 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg10
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out10_B_1_eq (c : Dev nD) (i : grid10.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond10_0 i) (x : Vec F S1000x256 .f32) (xo1 xo2 : Vec F S1x256 .f32) :
    out10_B_1 c i a1 h1 a2 h2 a3 h3 hc x xo1 xo2 = k10_pay4 x xo1 := by
  unfold out10_B_1 kernelRun10_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out10_B_2_eq (c : Dev nD) (i : grid10.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond10_0 i) (x : Vec F S1000x256 .f32) (xo1 xo2 : Vec F S1x256 .f32) :
    out10_B_2 c i a1 h1 a2 h2 a3 h3 hc x xo1 xo2 = k10_pay5 x xo2 := by
  unfold out10_B_2 kernelRun10_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out10_A_1_eq (c : Dev nD) (i : grid10.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond10_0 i) (x : Vec F S1000x256 .f32) :
    out10_A_1 c i a1 h1 a2 h2 a3 h3 hc x = k10_pay4 x (k10_pay1 (F := F)) := by
  unfold out10_A_1 kernelRun10_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out10_A_2_eq (c : Dev nD) (i : grid10.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond10_0 i) (x : Vec F S1000x256 .f32) :
    out10_A_2 c i a1 h1 a2 h2 a3 h3 hc x = k10_pay5 x (k10_pay2 (F := F)) := by
  unfold out10_A_2 kernelRun10_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k10_pay1_apply (j : S1x256.Idx) : k10_pay1 (F := Ideal) j = 0 := Ideal.ofBits_zero_f32
theorem k10_pay2_apply (j : S1x256.Idx) : k10_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k10_pay4_apply (x : Vec Ideal S1000x256 .f32) (acc : Vec Ideal S1x256 .f32) (j : S1x256.Idx) :
    k10_pay4 x acc j = acc j + ∑ r : Fin 1000, x (ix2 r (j 1)) := by
  unfold k10_pay4 k10_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k10_pay5_apply (x : Vec Ideal S1000x256 .f32) (acc : Vec Ideal S1x256 .f32) (j : S1x256.Idx) :
    k10_pay5 x acc j = acc j + ∑ r : Fin 1000, x (ix2 r (j 1)) * x (ix2 r (j 1)) := by
  unfold k10_pay5 k10_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr10 (c : Dev nD) : Vec F S50000x256 .f32 := V c (Pipeline.arrRef spec10 0)

/-- Window 0's block index at point `t` is (t, 0): decided over the 50 points. -/
private theorem index10_0 : ∀ t : Fin cfg10.N, win10_0.index t 0 = t.val ∧ win10_0.index t 1 = 0 :=
  (by decide +kernel : ∀ t : Fin grid10.N, win10_0.index t 0 = t.val ∧ win10_0.index t 1 = 0)

/-- The input block at point `t` reads the array at rows `1000 t + r`. -/
theorem iblk10_0_apply (c : Dev nD) (t : Fin cfg10.N) (r : Fin 1000) (k : Fin 256) (P : Fin 50000)
    (hP : P.val = 1000 * t.val + r.val) :
    (iblk10 V c 0 t : Vec F S1000x256 .f32) (ix2 r k) = harr10 V c (ix2 P k) := by
  unfold iblk10
  rw [View.read_apply]
  show V c (Pipeline.arrRef spec10 0) _ = V c (Pipeline.arrRef spec10 0) _
  congr 1
  funext a
  apply Fin.ext
  match a with
  | ⟨0, _⟩ => show win10_0.index t 0 * 1000 + 1 * r.val = P.val; rw [(index10_0 t).1, hP]; omega
  | ⟨1, _⟩ => show win10_0.index t 1 * 256 + 1 * k.val = k.val; rw [(index10_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt10_eq (c : Dev nD) : ∀ (n : ℕ) (hn : n < cfg10.N) (j : S1x256.Idx),
    (outsAt10 V c n hn).1 j = rowsBelow 1000 (fun P : Fin 50000 => harr10 V c (ix2 P (j 1))) n
    ∧ (outsAt10 V c n hn).2 j
        = rowsBelow 1000 (fun P : Fin 50000 => harr10 V c (ix2 P (j 1)) * harr10 V c (ix2 P (j 1))) n
  | 0, hn, j => by
    rw [outsAt10_zero]
    dsimp only
    rw [out10_A_1_eq, out10_A_2_eq, k10_pay4_apply, k10_pay5_apply, k10_pay1_apply, k10_pay2_apply, zero_add, zero_add,
      rowsBelow_zero 1000 (by decide), rowsBelow_zero 1000 (by decide)]
    refine ⟨Finset.sum_congr rfl fun r _ => ?_, Finset.sum_congr rfl fun r _ => ?_⟩
    · exact iblk10_0_apply V c ⟨0, hn⟩ r (j 1) _ (by show r.val = 1000 * 0 + r.val; omega)
    · rw [iblk10_0_apply V c ⟨0, hn⟩ r (j 1) ⟨r.val, by have := r.isLt; omega⟩ (by show r.val = 1000 * 0 + r.val; omega)]
  | n + 1, hn, j => by
    have hN : n + 1 < 50 := lt_of_lt_of_eq hn (show cfg10.N = 50 from N_10)
    rw [outsAt10_succ]
    dsimp only
    rw [out10_B_1_eq, out10_B_2_eq, k10_pay4_apply, k10_pay5_apply,
      (outsAt10_eq c n (Nat.lt_of_succ_lt hn) j).1, (outsAt10_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk10_0_apply V c ⟨n + 1, hn⟩ r (j 1) _ rfl
    · rw [iblk10_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t10_last : Fin cfg10.N := ⟨49, lt_of_lt_of_eq (by decide : 49 < 50) (show cfg10.N = 50 from N_10).symm⟩

/-- After the last point output 1's buffer holds the column sums of the whole array, -/
theorem outsAt10_last_1 (c : Dev nD) :
    (outsAt10 V c t10_last.val t10_last.isLt).1 = colsum (n := 50000) (d := 256) (harr10 V c) :=
  funext fun j => by
    rw [(outsAt10_eq V c _ _ j).1, rowsBelow_all 1000 _ _ (by decide)]; rfl

/-- and output 2's the column sums of its squares. -/
theorem outsAt10_last_2 (c : Dev nD) :
    (outsAt10 V c t10_last.val t10_last.isLt).2 = colsumsq (n := 50000) (d := 256) (harr10 V c) :=
  funext fun j => by
    rw [(outsAt10_eq V c _ _ j).2, rowsBelow_all 1000 _ _ (by decide)]; rfl

/-- The one write-back of output 1, after the last point, writes the column sums: its block is the whole [1,256] array,
    read through zero offsets. -/
theorem flushed10_1_eq (c : Dev nD) (t : Fin cfg10.N) (hf : (cfg10.win 1).flush t = true) :
    (dat10 V c).flushed 1 t
      = ((cfg10.win 1).blk t).view.read (Elt Ideal) (colsum (n := 50000) (d := 256) (harr10 V c)) := by
  have hN : t.val < 50 := lt_of_lt_of_eq t.isLt (show cfg10.N = 50 from N_10)
  have h49 : t.val = 49 := by have := (flush10_1 t).mp hf; omega
  obtain rfl : t = t10_last := Fin.ext h49
  show (cfg10.win 1).cut (grid10.coords t10_last) ((dat10 V c).after 1 t10_last) = _
  rw [after10_1, outsAt10_last_1]
  have hz' : (fun a => win10_1.index t10_last a * (Pipeline.arrRef spec10 1).ty.shape.size a) = fun _ => 0 :=
    funext fun a => by fin_cases a <;> decide +kernel
  exact (Memref.read_access_unit_zero (Elt Ideal) (Pipeline.arrRef spec10 1) hz' (fun a => by rw [congrFun hz' a]; simp)
    (colsum (n := 50000) (d := 256) (harr10 V c))).symm

/-- Likewise output 2's. -/
theorem flushed10_2_eq (c : Dev nD) (t : Fin cfg10.N) (hf : (cfg10.win 2).flush t = true) :
    (dat10 V c).flushed 2 t
      = ((cfg10.win 2).blk t).view.read (Elt Ideal) (colsumsq (n := 50000) (d := 256) (harr10 V c)) := by
  have hN : t.val < 50 := lt_of_lt_of_eq t.isLt (show cfg10.N = 50 from N_10)
  have h49 : t.val = 49 := by have := (flush10_2 t).mp hf; omega
  obtain rfl : t = t10_last := Fin.ext h49
  show (cfg10.win 2).cut (grid10.coords t10_last) ((dat10 V c).after 2 t10_last) = _
  rw [after10_2, outsAt10_last_2]
  have hz' : (fun a => win10_2.index t10_last a * (Pipeline.arrRef spec10 2).ty.shape.size a) = fun _ => 0 :=
    funext fun a => by fin_cases a <;> decide +kernel
  exact (Memref.read_access_unit_zero (Elt Ideal) (Pipeline.arrRef spec10 2) hz' (fun a => by rw [congrFun hz' a]; simp)
    (colsumsq (n := 50000) (d := 256) (harr10 V c))).symm

/-- THE FIRST RESULT: after the region the [1,256] array of window 1 holds the column sums of the [50000,256] array
    the region read (the last point's write-back covers it). -/
theorem arrAt10_1 (c : Dev nD) :
    (dat10 V c).arrAt 1 cfg10.N = colsum (n := 50000) (d := 256) (V c (Pipeline.arrRef spec10 0)) :=
  (dat10 V c).arrAt_eq_of_cover 1 (colsum (n := 50000) (d := 256) (harr10 V c)) (flushed10_1_eq V c) fun i =>
    ⟨t10_last, (flush10_1 t10_last).mpr rfl, by
      show i ∈ ((View.whole (Pipeline.arrRef spec10 1)).slice (win10_1.rect t10_last)).set
      rw [View.set_slice_whole, Rect.mem_set_unit]
      intro a
      have h0 : (i 0 : Nat) < 1 := (i 0).isLt
      have h1 : (i 1 : Nat) < 256 := (i 1).isLt
      match a with
      | ⟨0, _⟩ =>
        show win10_1.index t10_last 0 * win10_1.size 0 ≤ (i 0 : Nat)
          ∧ (i 0 : Nat) < win10_1.index t10_last 0 * win10_1.size 0 + win10_1.xsize (grid10.coords t10_last) 0
        rw [show win10_1.index t10_last 0 * win10_1.size 0 = 0 from by decide +kernel,
          show win10_1.xsize (grid10.coords t10_last) 0 = 1 from by decide +kernel]; omega
      | ⟨1, _⟩ =>
        show win10_1.index t10_last 1 * win10_1.size 1 ≤ (i 1 : Nat)
          ∧ (i 1 : Nat) < win10_1.index t10_last 1 * win10_1.size 1 + win10_1.xsize (grid10.coords t10_last) 1
        rw [show win10_1.index t10_last 1 * win10_1.size 1 = 0 from by decide +kernel,
          show win10_1.xsize (grid10.coords t10_last) 1 = 256 from by decide +kernel]; omega⟩

/-- THE SECOND RESULT: the [1,256] array of window 2 holds the column sums of the squares. -/
theorem arrAt10_2 (c : Dev nD) :
    (dat10 V c).arrAt 2 cfg10.N = colsumsq (n := 50000) (d := 256) (V c (Pipeline.arrRef spec10 0)) :=
  (dat10 V c).arrAt_eq_of_cover 2 (colsumsq (n := 50000) (d := 256) (harr10 V c)) (flushed10_2_eq V c) fun i =>
    ⟨t10_last, (flush10_2 t10_last).mpr rfl, by
      show i ∈ ((View.whole (Pipeline.arrRef spec10 2)).slice (win10_2.rect t10_last)).set
      rw [View.set_slice_whole, Rect.mem_set_unit]
      intro a
      have h0 : (i 0 : Nat) < 1 := (i 0).isLt
      have h1 : (i 1 : Nat) < 256 := (i 1).isLt
      match a with
      | ⟨0, _⟩ =>
        show win10_2.index t10_last 0 * win10_2.size 0 ≤ (i 0 : Nat)
          ∧ (i 0 : Nat) < win10_2.index t10_last 0 * win10_2.size 0 + win10_2.xsize (grid10.coords t10_last) 0
        rw [show win10_2.index t10_last 0 * win10_2.size 0 = 0 from by decide +kernel,
          show win10_2.xsize (grid10.coords t10_last) 0 = 1 from by decide +kernel]; omega
      | ⟨1, _⟩ =>
        show win10_2.index t10_last 1 * win10_2.size 1 ≤ (i 1 : Nat)
          ∧ (i 1 : Nat) < win10_2.index t10_last 1 * win10_2.size 1 + win10_2.xsize (grid10.coords t10_last) 1
        rw [show win10_2.index t10_last 1 * win10_2.size 1 = 0 from by decide +kernel,
          show win10_2.xsize (grid10.coords t10_last) 1 = 256 from by decide +kernel]; omega⟩

end AtIdeal

end Cert.KernelIdeal.Reg

end
-- ==== Proof.KI.Val11.lean ====
/- The VALUE of region 11 (custom_call 11, `cc11__bn_relu_kernel`) at the ideal float values: after the region's grid
   has run, its output array is `Cert.Spec.bnrelu` of the six input arrays as the region finds them,

     (dat11 V c).arrAt 6 cfg11.N = bnrelu (V c h) (V c bias) (V c gamma) (V c beta) (V c mean) (V c var).

   The steps: the body's payload read at one element of a block is `bnrelu`'s expression of the loaded block's element
   and the five rows' elements at its column (`pay11_apply`); the activation's block at point `t` lies under the
   output's block (both are rows `1000 t … 1000 t + 999`) and each row's one block is the whole row (`idx_facts11`,
   `iblk11_W_apply`); so what point `t` writes back is block `t` of `bnrelu` of the arrays (`flushed11_6_eq`: a flushed
   block is a restriction of one whole-array function); row `r` of the output is in the block of point `r / 1000`, so
   the blocks cover the array (`covered11_6`); hence the array ends holding `bnrelu` of the arrays (`final11_6`). -/
import proofs.«146967_j25786983645193_1_alg».proof.Proof.KI.Reg11
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz11 : (![0, 0] : Fin 2 → Nat) = fun _ => 0 := funext fun a => by fin_cases a <;> rfl

/-- A [1,256] row broadcast along the 1000 rows of a block, read at `j`: the row at `j`'s column. -/
theorem bcast_row11 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay11_apply (x0 : Vec Ideal S1000x256 .f32) (x1 x2 x3 x4 x5 : Vec Ideal S1x256 .f32) (j : S1000x256.Idx) :
    k11_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k11_pay1
  simp only [shapeCast_self]
  rw [maximumf_apply, addf_apply, mulf_apply, mulf_apply, subf_apply, addf_apply]
  simp only [bcast_row11]
  rfl

/-! ## The windows' index maps -/

/-- The printed index maps, decided over the grid: the activation's and the output's block at point `t` is block
    `(t, 0)`; each of the five rows' is block `(0, 0)`. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

/-! ## The input blocks at an index, as elements of the arrays -/

/-- The column of an element of the output's block at point `t` is its column in the block. -/
theorem emb11_6_col (t : Fin cfg11.N) (j : S1000x256.Idx) :
    ((((cfg11.win 6).blk t).view.emb j : S50000x256.Idx) 1 : Fin 256) = j 1 := by
  obtain ⟨-, -, -, -, -, -, -, -, -, -, -, -, a6, b6⟩ := idx_facts11 t
  apply Fin.ext
  show win11_6.index t (1 : Fin 2) * 256 + 1 * (j 1).val = (j 1).val
  omega

/-- Input window 0 (the activation's [1000,256] block) read at `j`: the activation at the element of the array that the
    OUTPUT's block at the same point has at `j` — the two windows move together. -/
theorem iblk11_0_apply (c : Dev nD) (t : Fin cfg11.N) (j : S1000x256.Idx) :
    (iblk11 V c 0 t : Vec Ideal S1000x256 .f32) j
      = (V c (Pipeline.arrRef spec11 0) : Vec Ideal S50000x256 .f32) (((cfg11.win 6).blk t).view.emb j) := by
  obtain ⟨a0, b0, -, -, -, -, -, -, -, -, -, -, a6, b6⟩ := idx_facts11 t
  unfold iblk11
  rw [View.read_apply]
  refine congrArg (V c (Pipeline.arrRef spec11 0) : Vec Ideal S50000x256 .f32) ?_
  funext a; apply Fin.ext
  match a with
  | ⟨0, _⟩ => show win11_0.index t (0 : Fin 2) * 1000 + 1 * (j 0).val = win11_6.index t (0 : Fin 2) * 1000 + 1 * (j 0).val; omega
  | ⟨1, _⟩ => show win11_0.index t (1 : Fin 2) * 256 + 1 * (j 1).val = win11_6.index t (1 : Fin 2) * 256 + 1 * (j 1).val; omega

/-- Input window 1 (a [1,256] row, one block, the same at every point) read at column `k`: the row at `k`. -/
theorem iblk11_1_apply (c : Dev nD) (t : Fin cfg11.N) (k : Fin 256) :
    (iblk11 V c 1 t : Vec Ideal S1x256 .f32) (rowIx k) = (V c (Pipeline.arrRef spec11 1) : Vec Ideal S1x256 .f32) (rowIx k) := by
  obtain ⟨-, -, a1, b1, a2, b2, a3, b3, a4, b4, a5, b5, -, -⟩ := idx_facts11 t
  unfold iblk11
  rw [View.read_apply]
  refine congrArg (V c (Pipeline.arrRef spec11 1) : Vec Ideal S1x256 .f32) ?_
  funext a; apply Fin.ext
  match a with
  | ⟨0, _⟩ => show win11_1.index t (0 : Fin 2) * 1 + 1 * 0 = 0; omega
  | ⟨1, _⟩ => show win11_1.index t (1 : Fin 2) * 256 + 1 * k.val = k.val; omega

/-- Input window 2 (a [1,256] row, one block, the same at every point) read at column `k`: the row at `k`. -/
theorem iblk11_2_apply (c : Dev nD) (t : Fin cfg11.N) (k : Fin 256) :
    (iblk11 V c 2 t : Vec Ideal S1x256 .f32) (rowIx k) = (V c (Pipeline.arrRef spec11 2) : Vec Ideal S1x256 .f32) (rowIx k) := by
  obtain ⟨-, -, a1, b1, a2, b2, a3, b3, a4, b4, a5, b5, -, -⟩ := idx_facts11 t
  unfold iblk11
  rw [View.read_apply]
  refine congrArg (V c (Pipeline.arrRef spec11 2) : Vec Ideal S1x256 .f32) ?_
  funext a; apply Fin.ext
  match a with
  | ⟨0, _⟩ => show win11_2.index t (0 : Fin 2) * 1 + 1 * 0 = 0; omega
  | ⟨1, _⟩ => show win11_2.index t (1 : Fin 2) * 256 + 1 * k.val = k.val; omega

/-- Input window 3 (a [1,256] row, one block, the same at every point) read at column `k`: the row at `k`. -/
theorem iblk11_3_apply (c : Dev nD) (t : Fin cfg11.N) (k : Fin 256) :
    (iblk11 V c 3 t : Vec Ideal S1x256 .f32) (rowIx k) = (V c (Pipeline.arrRef spec11 3) : Vec Ideal S1x256 .f32) (rowIx k) := by
  obtain ⟨-, -, a1, b1, a2, b2, a3, b3, a4, b4, a5, b5, -, -⟩ := idx_facts11 t
  unfold iblk11
  rw [View.read_apply]
  refine congrArg (V c (Pipeline.arrRef spec11 3) : Vec Ideal S1x256 .f32) ?_
  funext a; apply Fin.ext
  match a with
  | ⟨0, _⟩ => show win11_3.index t (0 : Fin 2) * 1 + 1 * 0 = 0; omega
  | ⟨1, _⟩ => show win11_3.index t (1 : Fin 2) * 256 + 1 * k.val = k.val; omega

/-- Input window 4 (a [1,256] row, one block, the same at every point) read at column `k`: the row at `k`. -/
theorem iblk11_4_apply (c : Dev nD) (t : Fin cfg11.N) (k : Fin 256) :
    (iblk11 V c 4 t : Vec Ideal S1x256 .f32) (rowIx k) = (V c (Pipeline.arrRef spec11 4) : Vec Ideal S1x256 .f32) (rowIx k) := by
  obtain ⟨-, -, a1, b1, a2, b2, a3, b3, a4, b4, a5, b5, -, -⟩ := idx_facts11 t
  unfold iblk11
  rw [View.read_apply]
  refine congrArg (V c (Pipeline.arrRef spec11 4) : Vec Ideal S1x256 .f32) ?_
  funext a; apply Fin.ext
  match a with
  | ⟨0, _⟩ => show win11_4.index t (0 : Fin 2) * 1 + 1 * 0 = 0; omega
  | ⟨1, _⟩ => show win11_4.index t (1 : Fin 2) * 256 + 1 * k.val = k.val; omega

/-- Input window 5 (a [1,256] row, one block, the same at every point) read at column `k`: the row at `k`. -/
theorem iblk11_5_apply (c : Dev nD) (t : Fin cfg11.N) (k : Fin 256) :
    (iblk11 V c 5 t : Vec Ideal S1x256 .f32) (rowIx k) = (V c (Pipeline.arrRef spec11 5) : Vec Ideal S1x256 .f32) (rowIx k) := by
  obtain ⟨-, -, a1, b1, a2, b2, a3, b3, a4, b4, a5, b5, -, -⟩ := idx_facts11 t
  unfold iblk11
  rw [View.read_apply]
  refine congrArg (V c (Pipeline.arrRef spec11 5) : Vec Ideal S1x256 .f32) ?_
  funext a; apply Fin.ext
  match a with
  | ⟨0, _⟩ => show win11_5.index t (0 : Fin 2) * 1 + 1 * 0 = 0; omega
  | ⟨1, _⟩ => show win11_5.index t (1 : Fin 2) * 256 + 1 * k.val = k.val; omega

/-! ## What a point writes back -/

set_option maxHeartbeats 1000000 in
/-- WHAT POINT `t` WRITES BACK is block `t` of `bnrelu` of the six arrays as the region finds them. -/
theorem flushed11_6_eq (c : Dev nD) (t : Fin cfg11.N) :
    (dat11 V c).flushed 6 t = ((cfg11.win 6).blk t).view.read (Elt Ideal)
      (bnrelu (n := 50000) (d := 256) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5))) := by
  show (cfg11.win 6).cut (grid11.coords t) ((dat11 V c).after 6 t) = _
  rw [after11_6]
  unfold out11_6
  rw [View.canon_unit_zero hz11]
  simp only [View.ld_unit_zero (S := S1000x256) hz11, View.ld_unit_zero (S := S1x256) hz11]
  refine funext fun (j : S1000x256.Idx) => ?_
  show k11_pay1 (iblk11 V c 0 t) (iblk11 V c 1 t) (iblk11 V c 2 t) (iblk11 V c 3 t) (iblk11 V c 4 t) (iblk11 V c 5 t) j
    = bnrelu (n := 50000) (d := 256) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) (((cfg11.win 6).blk t).view.emb j)
  rw [pay11_apply, bnrelu_apply, emb11_6_col t j, iblk11_0_apply, iblk11_1_apply V c t (j 1), iblk11_2_apply V c t (j 1),
    iblk11_3_apply V c t (j 1), iblk11_4_apply V c t (j 1), iblk11_5_apply V c t (j 1)]

/-! ## The blocks cover the array -/

/-- An index of the array is in point `t`'s block iff each coordinate is in the block's range on its axis. -/
theorem mem_blk11_6 (t : Fin cfg11.N) (i : S50000x256.Idx) :
    i ∈ ((cfg11.win 6).blk t).view.set ↔ ∀ a : Fin 2, win11_6.index t a * S1000x256.size a ≤ (i a).val ∧ (i a).val < win11_6.index t a * S1000x256.size a + S1000x256.size a := by
  show i ∈ ((View.whole main_v65).slice (win11_6.rect t)).set ↔ _
  rw [View.set_slice_whole, Rect.mem_set_unit]
  exact Iff.rfl

/-- Every element of the output array is in some point's block: row `r` is in the block of point `r / 1000`. -/
theorem covered11_6 (i : S50000x256.Idx) :
    ∃ t : Fin cfg11.N, (cfg11.win 6).flush t = true ∧ i ∈ ((cfg11.win 6).blk t).view.set := by
  have hi0 : (i 0).val < 50000 := (i 0).isLt
  have hi1 : (i 1).val < 256 := (i 1).isLt
  have hN : cfg11.N = 50 := N_11
  have hlt : (i 0).val / 1000 < cfg11.N := by rw [hN]; omega
  obtain ⟨-, -, -, -, -, -, -, -, -, -, -, -, a6, b6⟩ := idx_facts11 ⟨(i 0).val / 1000, hlt⟩
  refine ⟨⟨(i 0).val / 1000, hlt⟩, flush11_6 _, ?_⟩
  rw [mem_blk11_6]
  intro a
  match a with
  | ⟨0, _⟩ =>
    show win11_6.index ⟨(i 0).val / 1000, hlt⟩ (0 : Fin 2) * 1000 ≤ (i 0).val ∧ (i 0).val < win11_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win11_6.index ⟨(i 0).val / 1000, hlt⟩ (1 : Fin 2) * 256 ≤ (i 1).val ∧ (i 1).val < win11_6.index ⟨(i 0).val / 1000, hlt⟩ (1 : Fin 2) * 256 + 256
    rw [b6]; omega

/-! ## The output array after the region -/

/-- THE OUTPUT ARRAY after the region's grid has run is `bnrelu` of the six input arrays as the region finds them. -/
theorem final11_6 (c : Dev nD) :
    (dat11 V c).arrAt 6 cfg11.N = bnrelu (n := 50000) (d := 256) (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) :=
  (dat11 V c).arrAt_eq_of_cover 6 _ (fun t _ => flushed11_6_eq V c t) covered11_6

end Cert.KernelIdeal.Reg
-- ==== Proof.KI.Val12.lean ====
/- REGION 12's output array after the region, at the ideal values, as ONE whole-array function of the region's two
   input arrays as it finds them: the [50000, 256] array ends holding the matrix product of the [50000, 512] array
   by the [512, 256] weight (`Cert.Spec.mm`).
   The road: at the ideal values narrowing to bf16 changes nothing and the product onto a zero accumulator is the
   sum over the contraction coordinate, so the body's payload at row `x`, column `y` of a block is
   `∑ k, block (x, k) * weight (k, y)` (`pay12_apply`). Point `t`'s row block is rows `1000 t …` of the array and
   its output block the same rows of the output, while the weight's block is the whole weight at every point
   (`idx_facts12`, decided over the 50 points); a product's rows are the products of the rows, so what point `t`
   writes back is block `t` of the whole product (`flushed12_2_eq`). Every point writes back, and row `r` lies in
   the block of point `r / 1000` (`cover12_out`), so the array ends holding the product and nothing of what it held
   before (`arrAt12_out`). -/
import proofs.«146967_j25786983645193_1_alg».proof.Proof.KI.Reg12
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz12 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay12_apply (xa : Vec Ideal S1000x512 .f32) (xb : Vec Ideal S512x256 .f32) (j : S1000x256.Idx) :
    k12_pay1 (F := Ideal) xa xb j = ∑ k : Fin 512, xa (ix2 (j 0) k) * xb (ix2 k (j 1)) := by
  unfold k12_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts12 : ∀ t : Fin cfg12.N,
    win12_0.index t (0 : Fin 2) = win12_2.index t (0 : Fin 2) ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed12_2_eq (c : Dev nD) (t : Fin cfg12.N) :
    (dat12 (F := Ideal) V c).flushed 2 t
      = ((cfg12.win 2).blk t).view.read (Elt Ideal)
          (Cert.Spec.mm (M := 50000) (K := 512) (N := 256) (V c (Pipeline.arrRef spec12 0)) (V c (Pipeline.arrRef spec12 1))) := by
  show (cfg12.win 2).cut (grid12.coords t) ((dat12 (F := Ideal) V c).after 2 t) = _
  rw [after12_2]
  unfold out12_2
  rw [View.canon_unit_zero hz12]
  simp only [View.ld_unit_zero (S := S1000x512) hz12, View.ld_unit_zero (S := S512x256) hz12]
  obtain ⟨e0, e1, e2, e3, e4, e5⟩ := idx_facts12 t
  funext j
  show k12_pay1 (F := Ideal) (iblk12 V c 0 t) (iblk12 V c 1 t) j
    = Cert.Spec.mm (M := 50000) (K := 512) (N := 256) (V c (Pipeline.arrRef spec12 0)) (V c (Pipeline.arrRef spec12 1)) (((cfg12.win 2).blk t).view.emb j)
  rw [pay12_apply, Cert.Spec.mm_apply]
  refine Finset.sum_congr rfl fun k _ => ?_
  -- the row block's element (j 0, k) is the array's at the output block's row and column k
  have ha : ((cfg12.win 0).blk t).view.emb (ix2 (j 0) k) = ix2 ((((cfg12.win 2).blk t).view.emb j) 0) k := by
    funext a; apply Fin.ext
    match a with
    | ⟨0, _⟩ => show win12_0.index t (0 : Fin 2) * 1000 + 1 * (j 0).val = win12_2.index t (0 : Fin 2) * 1000 + 1 * (j 0).val; omega
    | ⟨1, _⟩ => show win12_0.index t (1 : Fin 2) * 512 + 1 * k.val = k.val; omega
  -- the weight's element (k, j 1) is the array's at row k and the output block's column
  have hb : ((cfg12.win 1).blk t).view.emb (ix2 k (j 1)) = ix2 k ((((cfg12.win 2).blk t).view.emb j) 1) := by
    funext a; apply Fin.ext
    match a with
    | ⟨0, _⟩ => show win12_1.index t (0 : Fin 2) * 512 + 1 * k.val = k.val; omega
    | ⟨1, _⟩ => show win12_1.index t (1 : Fin 2) * 256 + 1 * (j 1).val = win12_2.index t (1 : Fin 2) * 256 + 1 * (j 1).val; omega
  -- each block's element is its array's at the embedded index (a read through a view is precomposition)
  unfold iblk12
  rw [View.read_apply, View.read_apply]
  rewrite [ha, hb]
  rfl

/-! ## The output blocks cover the array -/

/-- An index of the output array is in point `t`'s block iff each coordinate is in the block's range on its axis. -/
theorem mem_blk12_2 (t : Fin cfg12.N) (i : S50000x256.Idx) :
    i ∈ ((cfg12.win 2).blk t).view.set ↔ ∀ a : Fin 2, win12_2.index t a * S1000x256.size a ≤ (i a).val ∧ (i a).val < win12_2.index t a * S1000x256.size a + S1000x256.size a := by
  show i ∈ ((View.whole (Pipeline.arrRef spec12 2)).slice (win12_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover12_out (i : S50000x256.Idx) :
    ∃ t : Fin cfg12.N, (cfg12.win 2).flush t = true ∧ i ∈ ((cfg12.win 2).blk t).view.set := by
  have hr : (i 0).val < 50000 := idx2_lt0 i
  have hc : (i 1).val < 256 := idx2_lt1 i
  have hN : cfg12.N = 50 := N_12
  let t : Fin cfg12.N := ⟨(i 0).val / 1000, by rw [hN]; omega⟩
  have ht : t.val = (i 0).val / 1000 := rfl
  obtain ⟨-, -, -, -, e4, e5⟩ := idx_facts12 t
  refine ⟨t, flush12_2 t, (mem_blk12_2 t i).mpr fun a => ?_⟩
  match a with
  | ⟨0, _⟩ => show win12_2.index t (0 : Fin 2) * 1000 ≤ (i 0).val ∧ (i 0).val < win12_2.index t (0 : Fin 2) * 1000 + 1000; omega
  | ⟨1, _⟩ => show win12_2.index t (1 : Fin 2) * 256 ≤ (i 1).val ∧ (i 1).val < win12_2.index t (1 : Fin 2) * 256 + 256; omega

/-! ## The output array after the region -/

/-- The product of the region's two arrays, at the program's shapes: `Cert.Spec.mm` at 50000 × 512 by 512 × 256. -/
abbrev mm12 (a : Vec Ideal S50000x512 .f32) (w : Vec Ideal S512x256 .f32) : Vec Ideal S50000x256 .f32 :=
  Cert.Spec.mm (M := 50000) (K := 512) (N := 256) a w

/-- THE OUTPUT ARRAY after the region, as one whole-array function of the two input arrays as the region finds
    them: their product. Every point writes back its block of that product (`flushed12_2_eq`) and the blocks cover
    the array (`cover12_out`), so nothing of what the array held before remains. -/
theorem arrAt12_out (c : Dev nD) :
    (dat12 (F := Ideal) V c).arrAt 2 cfg12.N = mm12 (V c (Pipeline.arrRef spec12 0)) (V c (Pipeline.arrRef spec12 1)) :=
  (dat12 (F := Ideal) V c).arrAt_eq_of_cover 2 _ (fun t _ => flushed12_2_eq V c t) cover12_out

end Cert.KernelIdeal.Reg
-- ==== Proof.KI.Val13.lean ====
/-
  THE VALUE of REGION 13 of the kernel program (custom_call 13, cc13__sumsq_kernel) at the ideal (extended-real) float
  values: after the region, the two [1,256] arrays its windows 1 and 2 write hold, at column k, the sum over all 50000
  rows of the [50000,256] array h the region read, and the sum of the squares:

      arrAt13_1 : (dat13 V c).arrAt 1 cfg13.N = colsum   (V c (Pipeline.arrRef spec13 0))
      arrAt13_2 : (dat13 V c).arrAt 2 cfg13.N = colsumsq (V c (Pipeline.arrRef spec13 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg13
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out13_B_1_eq (c : Dev nD) (i : grid13.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond13_0 i) (x : Vec F S1000x256 .f32) (xo1 xo2 : Vec F S1x256 .f32) :
    out13_B_1 c i a1 h1 a2 h2 a3 h3 hc x xo1 xo2 = k13_pay4 x xo1 := by
  unfold out13_B_1 kernelRun13_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out13_B_2_eq (c : Dev nD) (i : grid13.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond13_0 i) (x : Vec F S1000x256 .f32) (xo1 xo2 : Vec F S1x256 .f32) :
    out13_B_2 c i a1 h1 a2 h2 a3 h3 hc x xo1 xo2 = k13_pay5 x xo2 := by
  unfold out13_B_2 kernelRun13_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out13_A_1_eq (c : Dev nD) (i : grid13.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond13_0 i) (x : Vec F S1000x256 .f32) :
    out13_A_1 c i a1 h1 a2 h2 a3 h3 hc x = k13_pay4 x (k13_pay1 (F := F)) := by
  unfold out13_A_1 kernelRun13_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out13_A_2_eq (c : Dev nD) (i : grid13.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond13_0 i) (x : Vec F S1000x256 .f32) :
    out13_A_2 c i a1 h1 a2 h2 a3 h3 hc x = k13_pay5 x (k13_pay2 (F := F)) := by
  unfold out13_A_2 kernelRun13_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k13_pay1_apply (j : S1x256.Idx) : k13_pay1 (F := Ideal) j = 0 := Ideal.ofBits_zero_f32
theorem k13_pay2_apply (j : S1x256.Idx) : k13_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k13_pay4_apply (x : Vec Ideal S1000x256 .f32) (acc : Vec Ideal S1x256 .f32) (j : S1x256.Idx) :
    k13_pay4 x acc j = acc j + ∑ r : Fin 1000, x (ix2 r (j 1)) := by
  unfold k13_pay4 k13_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k13_pay5_apply (x : Vec Ideal S1000x256 .f32) (acc : Vec Ideal S1x256 .f32) (j : S1x256.Idx) :
    k13_pay5 x acc j = acc j + ∑ r : Fin 1000, x (ix2 r (j 1)) * x (ix2 r (j 1)) := by
  unfold k13_pay5 k13_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr13 (c : Dev nD) : Vec F S50000x256 .f32 := V c (Pipeline.arrRef spec13 0)

/-- Window 0's block index at point `t` is (t, 0): decided over the 50 points. -/
private theorem index13_0 : ∀ t : Fin cfg13.N, win13_0.index t 0 = t.val ∧ win13_0.index t 1 = 0 :=
  (by decide +kernel : ∀ t : Fin grid13.N, win13_0.index t 0 = t.val ∧ win13_0.index t 1 = 0)

/-- The input block at point `t` reads the array at rows `1000 t + r`. -/
theorem iblk13_0_apply (c : Dev nD) (t : Fin cfg13.N) (r : Fin 1000) (k : Fin 256) (P : Fin 50000)
    (hP : P.val = 1000 * t.val + r.val) :
    (iblk13 V c 0 t : Vec F S1000x256 .f32) (ix2 r k) = harr13 V c (ix2 P k) := by
  unfold iblk13
  rw [View.read_apply]
  show V c (Pipeline.arrRef spec13 0) _ = V c (Pipeline.arrRef spec13 0) _
  congr 1
  funext a
  apply Fin.ext
  match a with
  | ⟨0, _⟩ => show win13_0.index t 0 * 1000 + 1 * r.val = P.val; rw [(index13_0 t).1, hP]; omega
  | ⟨1, _⟩ => show win13_0.index t 1 * 256 + 1 * k.val = k.val; rw [(index13_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt13_eq (c : Dev nD) : ∀ (n : ℕ) (hn : n < cfg13.N) (j : S1x256.Idx),
    (outsAt13 V c n hn).1 j = rowsBelow 1000 (fun P : Fin 50000 => harr13 V c (ix2 P (j 1))) n
    ∧ (outsAt13 V c n hn).2 j
        = rowsBelow 1000 (fun P : Fin 50000 => harr13 V c (ix2 P (j 1)) * harr13 V c (ix2 P (j 1))) n
  | 0, hn, j => by
    rw [outsAt13_zero]
    dsimp only
    rw [out13_A_1_eq, out13_A_2_eq, k13_pay4_apply, k13_pay5_apply, k13_pay1_apply, k13_pay2_apply, zero_add, zero_add,
      rowsBelow_zero 1000 (by decide), rowsBelow_zero 1000 (by decide)]
    refine ⟨Finset.sum_congr rfl fun r _ => ?_, Finset.sum_congr rfl fun r _ => ?_⟩
    · exact iblk13_0_apply V c ⟨0, hn⟩ r (j 1) _ (by show r.val = 1000 * 0 + r.val; omega)
    · rw [iblk13_0_apply V c ⟨0, hn⟩ r (j 1) ⟨r.val, by have := r.isLt; omega⟩ (by show r.val = 1000 * 0 + r.val; omega)]
  | n + 1, hn, j => by
    have hN : n + 1 < 50 := lt_of_lt_of_eq hn (show cfg13.N = 50 from N_13)
    rw [outsAt13_succ]
    dsimp only
    rw [out13_B_1_eq, out13_B_2_eq, k13_pay4_apply, k13_pay5_apply,
      (outsAt13_eq c n (Nat.lt_of_succ_lt hn) j).1, (outsAt13_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk13_0_apply V c ⟨n + 1, hn⟩ r (j 1) _ rfl
    · rw [iblk13_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t13_last : Fin cfg13.N := ⟨49, lt_of_lt_of_eq (by decide : 49 < 50) (show cfg13.N = 50 from N_13).symm⟩

/-- After the last point output 1's buffer holds the column sums of the whole array, -/
theorem outsAt13_last_1 (c : Dev nD) :
    (outsAt13 V c t13_last.val t13_last.isLt).1 = colsum (n := 50000) (d := 256) (harr13 V c) :=
  funext fun j => by
    rw [(outsAt13_eq V c _ _ j).1, rowsBelow_all 1000 _ _ (by decide)]; rfl

/-- and output 2's the column sums of its squares. -/
theorem outsAt13_last_2 (c : Dev nD) :
    (outsAt13 V c t13_last.val t13_last.isLt).2 = colsumsq (n := 50000) (d := 256) (harr13 V c) :=
  funext fun j => by
    rw [(outsAt13_eq V c _ _ j).2, rowsBelow_all 1000 _ _ (by decide)]; rfl

/-- The one write-back of output 1, after the last point, writes the column sums: its block is the whole [1,256] array,
    read through zero offsets. -/
theorem flushed13_1_eq (c : Dev nD) (t : Fin cfg13.N) (hf : (cfg13.win 1).flush t = true) :
    (dat13 V c).flushed 1 t
      = ((cfg13.win 1).blk t).view.read (Elt Ideal) (colsum (n := 50000) (d := 256) (harr13 V c)) := by
  have hN : t.val < 50 := lt_of_lt_of_eq t.isLt (show cfg13.N = 50 from N_13)
  have h49 : t.val = 49 := by have := (flush13_1 t).mp hf; omega
  obtain rfl : t = t13_last := Fin.ext h49
  show (cfg13.win 1).cut (grid13.coords t13_last) ((dat13 V c).after 1 t13_last) = _
  rw [after13_1, outsAt13_last_1]
  have hz' : (fun a => win13_1.index t13_last a * (Pipeline.arrRef spec13 1).ty.shape.size a) = fun _ => 0 :=
    funext fun a => by fin_cases a <;> decide +kernel
  exact (Memref.read_access_unit_zero (Elt Ideal) (Pipeline.arrRef spec13 1) hz' (fun a => by rw [congrFun hz' a]; simp)
    (colsum (n := 50000) (d := 256) (harr13 V c))).symm

/-- Likewise output 2's. -/
theorem flushed13_2_eq (c : Dev nD) (t : Fin cfg13.N) (hf : (cfg13.win 2).flush t = true) :
    (dat13 V c).flushed 2 t
      = ((cfg13.win 2).blk t).view.read (Elt Ideal) (colsumsq (n := 50000) (d := 256) (harr13 V c)) := by
  have hN : t.val < 50 := lt_of_lt_of_eq t.isLt (show cfg13.N = 50 from N_13)
  have h49 : t.val = 49 := by have := (flush13_2 t).mp hf; omega
  obtain rfl : t = t13_last := Fin.ext h49
  show (cfg13.win 2).cut (grid13.coords t13_last) ((dat13 V c).after 2 t13_last) = _
  rw [after13_2, outsAt13_last_2]
  have hz' : (fun a => win13_2.index t13_last a * (Pipeline.arrRef spec13 2).ty.shape.size a) = fun _ => 0 :=
    funext fun a => by fin_cases a <;> decide +kernel
  exact (Memref.read_access_unit_zero (Elt Ideal) (Pipeline.arrRef spec13 2) hz' (fun a => by rw [congrFun hz' a]; simp)
    (colsumsq (n := 50000) (d := 256) (harr13 V c))).symm

/-- THE FIRST RESULT: after the region the [1,256] array of window 1 holds the column sums of the [50000,256] array
    the region read (the last point's write-back covers it). -/
theorem arrAt13_1 (c : Dev nD) :
    (dat13 V c).arrAt 1 cfg13.N = colsum (n := 50000) (d := 256) (V c (Pipeline.arrRef spec13 0)) :=
  (dat13 V c).arrAt_eq_of_cover 1 (colsum (n := 50000) (d := 256) (harr13 V c)) (flushed13_1_eq V c) fun i =>
    ⟨t13_last, (flush13_1 t13_last).mpr rfl, by
      show i ∈ ((View.whole (Pipeline.arrRef spec13 1)).slice (win13_1.rect t13_last)).set
      rw [View.set_slice_whole, Rect.mem_set_unit]
      intro a
      have h0 : (i 0 : Nat) < 1 := (i 0).isLt
      have h1 : (i 1 : Nat) < 256 := (i 1).isLt
      match a with
      | ⟨0, _⟩ =>
        show win13_1.index t13_last 0 * win13_1.size 0 ≤ (i 0 : Nat)
          ∧ (i 0 : Nat) < win13_1.index t13_last 0 * win13_1.size 0 + win13_1.xsize (grid13.coords t13_last) 0
        rw [show win13_1.index t13_last 0 * win13_1.size 0 = 0 from by decide +kernel,
          show win13_1.xsize (grid13.coords t13_last) 0 = 1 from by decide +kernel]; omega
      | ⟨1, _⟩ =>
        show win13_1.index t13_last 1 * win13_1.size 1 ≤ (i 1 : Nat)
          ∧ (i 1 : Nat) < win13_1.index t13_last 1 * win13_1.size 1 + win13_1.xsize (grid13.coords t13_last) 1
        rw [show win13_1.index t13_last 1 * win13_1.size 1 = 0 from by decide +kernel,
          show win13_1.xsize (grid13.coords t13_last) 1 = 256 from by decide +kernel]; omega⟩

/-- THE SECOND RESULT: the [1,256] array of window 2 holds the column sums of the squares. -/
theorem arrAt13_2 (c : Dev nD) :
    (dat13 V c).arrAt 2 cfg13.N = colsumsq (n := 50000) (d := 256) (V c (Pipeline.arrRef spec13 0)) :=
  (dat13 V c).arrAt_eq_of_cover 2 (colsumsq (n := 50000) (d := 256) (harr13 V c)) (flushed13_2_eq V c) fun i =>
    ⟨t13_last, (flush13_2 t13_last).mpr rfl, by
      show i ∈ ((View.whole (Pipeline.arrRef spec13 2)).slice (win13_2.rect t13_last)).set
      rw [View.set_slice_whole, Rect.mem_set_unit]
      intro a
      have h0 : (i 0 : Nat) < 1 := (i 0).isLt
      have h1 : (i 1 : Nat) < 256 := (i 1).isLt
      match a with
      | ⟨0, _⟩ =>
        show win13_2.index t13_last 0 * win13_2.size 0 ≤ (i 0 : Nat)
          ∧ (i 0 : Nat) < win13_2.index t13_last 0 * win13_2.size 0 + win13_2.xsize (grid13.coords t13_last) 0
        rw [show win13_2.index t13_last 0 * win13_2.size 0 = 0 from by decide +kernel,
          show win13_2.xsize (grid13.coords t13_last) 0 = 1 from by decide +kernel]; omega
      | ⟨1, _⟩ =>
        show win13_2.index t13_last 1 * win13_2.size 1 ≤ (i 1 : Nat)
          ∧ (i 1 : Nat) < win13_2.index t13_last 1 * win13_2.size 1 + win13_2.xsize (grid13.coords t13_last) 1
        rw [show win13_2.index t13_last 1 * win13_2.size 1 = 0 from by decide +kernel,
          show win13_2.xsize (grid13.coords t13_last) 1 = 256 from by decide +kernel]; omega⟩

end AtIdeal

end Cert.KernelIdeal.Reg

end
-- ==== Proof.KI.Val14.lean ====
/- The VALUE of region 14 (custom_call 14, `cc14__bn_relu_kernel`) at the ideal float values: after the region's grid
   has run, its output array is `Cert.Spec.bnrelu` of the six input arrays as the region finds them,

     (dat14 V c).arrAt 6 cfg14.N = bnrelu (V c h) (V c bias) (V c gamma) (V c beta) (V c mean) (V c var).

   The steps: the body's payload read at one element of a block is `bnrelu`'s expression of the loaded block's element
   and the five rows' elements at its column (`pay14_apply`); the activation's block at point `t` lies under the
   output's block (both are rows `1000 t … 1000 t + 999`) and each row's one block is the whole row (`idx_facts14`,
   `iblk14_W_apply`); so what point `t` writes back is block `t` of `bnrelu` of the arrays (`flushed14_6_eq`: a flushed
   block is a restriction of one whole-array function); row `r` of the output is in the block of point `r / 1000`, so
   the blocks cover the array (`covered14_6`); hence the array ends holding `bnrelu` of the arrays (`final14_6`). -/
import proofs.«146967_j25786983645193_1_alg».proof.Proof.KI.Reg14
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz14 : (![0, 0] : Fin 2 → Nat) = fun _ => 0 := funext fun a => by fin_cases a <;> rfl

/-- A [1,256] row broadcast along the 1000 rows of a block, read at `j`: the row at `j`'s column. -/
theorem bcast_row14 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay14_apply (x0 : Vec Ideal S1000x256 .f32) (x1 x2 x3 x4 x5 : Vec Ideal S1x256 .f32) (j : S1000x256.Idx) :
    k14_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k14_pay1
  simp only [shapeCast_self]
  rw [maximumf_apply, addf_apply, mulf_apply, mulf_apply, subf_apply, addf_apply]
  simp only [bcast_row14]
  rfl

/-! ## The windows' index maps -/

/-- The printed index maps, decided over the grid: the activation's and the output's block at point `t` is block
    `(t, 0)`; each of the five rows' is block `(0, 0)`. -/
theorem idx_facts14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = t.val ∧ win14_6.index t (1 : Fin 2) = 0 :=
  (by decide +kernel : ∀ t : Fin grid14.N, _)

/-! ## The input blocks at an index, as elements of the arrays -/

/-- The column of an element of the output's block at point `t` is its column in the block. -/
theorem emb14_6_col (t : Fin cfg14.N) (j : S1000x256.Idx) :
    ((((cfg14.win 6).blk t).view.emb j : S50000x256.Idx) 1 : Fin 256) = j 1 := by
  obtain ⟨-, -, -, -, -, -, -, -, -, -, -, -, a6, b6⟩ := idx_facts14 t
  apply Fin.ext
  show win14_6.index t (1 : Fin 2) * 256 + 1 * (j 1).val = (j 1).val
  omega

/-- Input window 0 (the activation's [1000,256] block) read at `j`: the activation at the element of the array that the
    OUTPUT's block at the same point has at `j` — the two windows move together. -/
theorem iblk14_0_apply (c : Dev nD) (t : Fin cfg14.N) (j : S1000x256.Idx) :
    (iblk14 V c 0 t : Vec Ideal S1000x256 .f32) j
      = (V c (Pipeline.arrRef spec14 0) : Vec Ideal S50000x256 .f32) (((cfg14.win 6).blk t).view.emb j) := by
  obtain ⟨a0, b0, -, -, -, -, -, -, -, -, -, -, a6, b6⟩ := idx_facts14 t
  unfold iblk14
  rw [View.read_apply]
  refine congrArg (V c (Pipeline.arrRef spec14 0) : Vec Ideal S50000x256 .f32) ?_
  funext a; apply Fin.ext
  match a with
  | ⟨0, _⟩ => show win14_0.index t (0 : Fin 2) * 1000 + 1 * (j 0).val = win14_6.index t (0 : Fin 2) * 1000 + 1 * (j 0).val; omega
  | ⟨1, _⟩ => show win14_0.index t (1 : Fin 2) * 256 + 1 * (j 1).val = win14_6.index t (1 : Fin 2) * 256 + 1 * (j 1).val; omega

/-- Input window 1 (a [1,256] row, one block, the same at every point) read at column `k`: the row at `k`. -/
theorem iblk14_1_apply (c : Dev nD) (t : Fin cfg14.N) (k : Fin 256) :
    (iblk14 V c 1 t : Vec Ideal S1x256 .f32) (rowIx k) = (V c (Pipeline.arrRef spec14 1) : Vec Ideal S1x256 .f32) (rowIx k) := by
  obtain ⟨-, -, a1, b1, a2, b2, a3, b3, a4, b4, a5, b5, -, -⟩ := idx_facts14 t
  unfold iblk14
  rw [View.read_apply]
  refine congrArg (V c (Pipeline.arrRef spec14 1) : Vec Ideal S1x256 .f32) ?_
  funext a; apply Fin.ext
  match a with
  | ⟨0, _⟩ => show win14_1.index t (0 : Fin 2) * 1 + 1 * 0 = 0; omega
  | ⟨1, _⟩ => show win14_1.index t (1 : Fin 2) * 256 + 1 * k.val = k.val; omega

/-- Input window 2 (a [1,256] row, one block, the same at every point) read at column `k`: the row at `k`. -/
theorem iblk14_2_apply (c : Dev nD) (t : Fin cfg14.N) (k : Fin 256) :
    (iblk14 V c 2 t : Vec Ideal S1x256 .f32) (rowIx k) = (V c (Pipeline.arrRef spec14 2) : Vec Ideal S1x256 .f32) (rowIx k) := by
  obtain ⟨-, -, a1, b1, a2, b2, a3, b3, a4, b4, a5, b5, -, -⟩ := idx_facts14 t
  unfold iblk14
  rw [View.read_apply]
  refine congrArg (V c (Pipeline.arrRef spec14 2) : Vec Ideal S1x256 .f32) ?_
  funext a; apply Fin.ext
  match a with
  | ⟨0, _⟩ => show win14_2.index t (0 : Fin 2) * 1 + 1 * 0 = 0; omega
  | ⟨1, _⟩ => show win14_2.index t (1 : Fin 2) * 256 + 1 * k.val = k.val; omega

/-- Input window 3 (a [1,256] row, one block, the same at every point) read at column `k`: the row at `k`. -/
theorem iblk14_3_apply (c : Dev nD) (t : Fin cfg14.N) (k : Fin 256) :
    (iblk14 V c 3 t : Vec Ideal S1x256 .f32) (rowIx k) = (V c (Pipeline.arrRef spec14 3) : Vec Ideal S1x256 .f32) (rowIx k) := by
  obtain ⟨-, -, a1, b1, a2, b2, a3, b3, a4, b4, a5, b5, -, -⟩ := idx_facts14 t
  unfold iblk14
  rw [View.read_apply]
  refine congrArg (V c (Pipeline.arrRef spec14 3) : Vec Ideal S1x256 .f32) ?_
  funext a; apply Fin.ext
  match a with
  | ⟨0, _⟩ => show win14_3.index t (0 : Fin 2) * 1 + 1 * 0 = 0; omega
  | ⟨1, _⟩ => show win14_3.index t (1 : Fin 2) * 256 + 1 * k.val = k.val; omega

/-- Input window 4 (a [1,256] row, one block, the same at every point) read at column `k`: the row at `k`. -/
theorem iblk14_4_apply (c : Dev nD) (t : Fin cfg14.N) (k : Fin 256) :
    (iblk14 V c 4 t : Vec Ideal S1x256 .f32) (rowIx k) = (V c (Pipeline.arrRef spec14 4) : Vec Ideal S1x256 .f32) (rowIx k) := by
  obtain ⟨-, -, a1, b1, a2, b2, a3, b3, a4, b4, a5, b5, -, -⟩ := idx_facts14 t
  unfold iblk14
  rw [View.read_apply]
  refine congrArg (V c (Pipeline.arrRef spec14 4) : Vec Ideal S1x256 .f32) ?_
  funext a; apply Fin.ext
  match a with
  | ⟨0, _⟩ => show win14_4.index t (0 : Fin 2) * 1 + 1 * 0 = 0; omega
  | ⟨1, _⟩ => show win14_4.index t (1 : Fin 2) * 256 + 1 * k.val = k.val; omega

/-- Input window 5 (a [1,256] row, one block, the same at every point) read at column `k`: the row at `k`. -/
theorem iblk14_5_apply (c : Dev nD) (t : Fin cfg14.N) (k : Fin 256) :
    (iblk14 V c 5 t : Vec Ideal S1x256 .f32) (rowIx k) = (V c (Pipeline.arrRef spec14 5) : Vec Ideal S1x256 .f32) (rowIx k) := by
  obtain ⟨-, -, a1, b1, a2, b2, a3, b3, a4, b4, a5, b5, -, -⟩ := idx_facts14 t
  unfold iblk14
  rw [View.read_apply]
  refine congrArg (V c (Pipeline.arrRef spec14 5) : Vec Ideal S1x256 .f32) ?_
  funext a; apply Fin.ext
  match a with
  | ⟨0, _⟩ => show win14_5.index t (0 : Fin 2) * 1 + 1 * 0 = 0; omega
  | ⟨1, _⟩ => show win14_5.index t (1 : Fin 2) * 256 + 1 * k.val = k.val; omega

/-! ## What a point writes back -/

set_option maxHeartbeats 1000000 in
/-- WHAT POINT `t` WRITES BACK is block `t` of `bnrelu` of the six arrays as the region finds them. -/
theorem flushed14_6_eq (c : Dev nD) (t : Fin cfg14.N) :
    (dat14 V c).flushed 6 t = ((cfg14.win 6).blk t).view.read (Elt Ideal)
      (bnrelu (n := 50000) (d := 256) (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5))) := by
  show (cfg14.win 6).cut (grid14.coords t) ((dat14 V c).after 6 t) = _
  rw [after14_6]
  unfold out14_6
  rw [View.canon_unit_zero hz14]
  simp only [View.ld_unit_zero (S := S1000x256) hz14, View.ld_unit_zero (S := S1x256) hz14]
  refine funext fun (j : S1000x256.Idx) => ?_
  show k14_pay1 (iblk14 V c 0 t) (iblk14 V c 1 t) (iblk14 V c 2 t) (iblk14 V c 3 t) (iblk14 V c 4 t) (iblk14 V c 5 t) j
    = bnrelu (n := 50000) (d := 256) (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5)) (((cfg14.win 6).blk t).view.emb j)
  rw [pay14_apply, bnrelu_apply, emb14_6_col t j, iblk14_0_apply, iblk14_1_apply V c t (j 1), iblk14_2_apply V c t (j 1),
    iblk14_3_apply V c t (j 1), iblk14_4_apply V c t (j 1), iblk14_5_apply V c t (j 1)]

/-! ## The blocks cover the array -/

/-- An index of the array is in point `t`'s block iff each coordinate is in the block's range on its axis. -/
theorem mem_blk14_6 (t : Fin cfg14.N) (i : S50000x256.Idx) :
    i ∈ ((cfg14.win 6).blk t).view.set ↔ ∀ a : Fin 2, win14_6.index t a * S1000x256.size a ≤ (i a).val ∧ (i a).val < win14_6.index t a * S1000x256.size a + S1000x256.size a := by
  show i ∈ ((View.whole main_v65).slice (win14_6.rect t)).set ↔ _
  rw [View.set_slice_whole, Rect.mem_set_unit]
  exact Iff.rfl

/-- Every element of the output array is in some point's block: row `r` is in the block of point `r / 1000`. -/
theorem covered14_6 (i : S50000x256.Idx) :
    ∃ t : Fin cfg14.N, (cfg14.win 6).flush t = true ∧ i ∈ ((cfg14.win 6).blk t).view.set := by
  have hi0 : (i 0).val < 50000 := (i 0).isLt
  have hi1 : (i 1).val < 256 := (i 1).isLt
  have hN : cfg14.N = 50 := N_14
  have hlt : (i 0).val / 1000 < cfg14.N := by rw [hN]; omega
  obtain ⟨-, -, -, -, -, -, -, -, -, -, -, -, a6, b6⟩ := idx_facts14 ⟨(i 0).val / 1000, hlt⟩
  refine ⟨⟨(i 0).val / 1000, hlt⟩, flush14_6 _, ?_⟩
  rw [mem_blk14_6]
  intro a
  match a with
  | ⟨0, _⟩ =>
    show win14_6.index ⟨(i 0).val / 1000, hlt⟩ (0 : Fin 2) * 1000 ≤ (i 0).val ∧ (i 0).val < win14_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win14_6.index ⟨(i 0).val / 1000, hlt⟩ (1 : Fin 2) * 256 ≤ (i 1).val ∧ (i 1).val < win14_6.index ⟨(i 0).val / 1000, hlt⟩ (1 : Fin 2) * 256 + 256
    rw [b6]; omega

/-! ## The output array after the region -/

/-- THE OUTPUT ARRAY after the region's grid has run is `bnrelu` of the six input arrays as the region finds them. -/
theorem final14_6 (c : Dev nD) :
    (dat14 V c).arrAt 6 cfg14.N = bnrelu (n := 50000) (d := 256) (V c (Pipeline.arrRef spec14 0)) (V c (Pipeline.arrRef spec14 1)) (V c (Pipeline.arrRef spec14 2))
        (V c (Pipeline.arrRef spec14 3)) (V c (Pipeline.arrRef spec14 4)) (V c (Pipeline.arrRef spec14 5)) :=
  (dat14 V c).arrAt_eq_of_cover 6 _ (fun t _ => flushed14_6_eq V c t) covered14_6

end Cert.KernelIdeal.Reg
-- ==== Proof.KI.Val15.lean ====
/- REGION 15's output array after the region, at the ideal values, as ONE whole-array function of the region's two
   input arrays as it finds them: the [50000, 256] array ends holding the matrix product of the [50000, 512] array
   by the [512, 256] weight (`Cert.Spec.mm`).
   The road: at the ideal values narrowing to bf16 changes nothing and the product onto a zero accumulator is the
   sum over the contraction coordinate, so the body's payload at row `x`, column `y` of a block is
   `∑ k, block (x, k) * weight (k, y)` (`pay15_apply`). Point `t`'s row block is rows `1000 t …` of the array and
   its output block the same rows of the output, while the weight's block is the whole weight at every point
   (`idx_facts15`, decided over the 50 points); a product's rows are the products of the rows, so what point `t`
   writes back is block `t` of the whole product (`flushed15_2_eq`). Every point writes back, and row `r` lies in
   the block of point `r / 1000` (`cover15_out`), so the array ends holding the product and nothing of what it held
   before (`arrAt15_out`). -/
import proofs.«146967_j25786983645193_1_alg».proof.Proof.KI.Reg15
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz15 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay15_apply (xa : Vec Ideal S1000x512 .f32) (xb : Vec Ideal S512x256 .f32) (j : S1000x256.Idx) :
    k15_pay1 (F := Ideal) xa xb j = ∑ k : Fin 512, xa (ix2 (j 0) k) * xb (ix2 k (j 1)) := by
  unfold k15_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts15 : ∀ t : Fin cfg15.N,
    win15_0.index t (0 : Fin 2) = win15_2.index t (0 : Fin 2) ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed15_2_eq (c : Dev nD) (t : Fin cfg15.N) :
    (dat15 (F := Ideal) V c).flushed 2 t
      = ((cfg15.win 2).blk t).view.read (Elt Ideal)
          (Cert.Spec.mm (M := 50000) (K := 512) (N := 256) (V c (Pipeline.arrRef spec15 0)) (V c (Pipeline.arrRef spec15 1))) := by
  show (cfg15.win 2).cut (grid15.coords t) ((dat15 (F := Ideal) V c).after 2 t) = _
  rw [after15_2]
  unfold out15_2
  rw [View.canon_unit_zero hz15]
  simp only [View.ld_unit_zero (S := S1000x512) hz15, View.ld_unit_zero (S := S512x256) hz15]
  obtain ⟨e0, e1, e2, e3, e4, e5⟩ := idx_facts15 t
  funext j
  show k15_pay1 (F := Ideal) (iblk15 V c 0 t) (iblk15 V c 1 t) j
    = Cert.Spec.mm (M := 50000) (K := 512) (N := 256) (V c (Pipeline.arrRef spec15 0)) (V c (Pipeline.arrRef spec15 1)) (((cfg15.win 2).blk t).view.emb j)
  rw [pay15_apply, Cert.Spec.mm_apply]
  refine Finset.sum_congr rfl fun k _ => ?_
  -- the row block's element (j 0, k) is the array's at the output block's row and column k
  have ha : ((cfg15.win 0).blk t).view.emb (ix2 (j 0) k) = ix2 ((((cfg15.win 2).blk t).view.emb j) 0) k := by
    funext a; apply Fin.ext
    match a with
    | ⟨0, _⟩ => show win15_0.index t (0 : Fin 2) * 1000 + 1 * (j 0).val = win15_2.index t (0 : Fin 2) * 1000 + 1 * (j 0).val; omega
    | ⟨1, _⟩ => show win15_0.index t (1 : Fin 2) * 512 + 1 * k.val = k.val; omega
  -- the weight's element (k, j 1) is the array's at row k and the output block's column
  have hb : ((cfg15.win 1).blk t).view.emb (ix2 k (j 1)) = ix2 k ((((cfg15.win 2).blk t).view.emb j) 1) := by
    funext a; apply Fin.ext
    match a with
    | ⟨0, _⟩ => show win15_1.index t (0 : Fin 2) * 512 + 1 * k.val = k.val; omega
    | ⟨1, _⟩ => show win15_1.index t (1 : Fin 2) * 256 + 1 * (j 1).val = win15_2.index t (1 : Fin 2) * 256 + 1 * (j 1).val; omega
  -- each block's element is its array's at the embedded index (a read through a view is precomposition)
  unfold iblk15
  rw [View.read_apply, View.read_apply]
  rewrite [ha, hb]
  rfl

/-! ## The output blocks cover the array -/

/-- An index of the output array is in point `t`'s block iff each coordinate is in the block's range on its axis. -/
theorem mem_blk15_2 (t : Fin cfg15.N) (i : S50000x256.Idx) :
    i ∈ ((cfg15.win 2).blk t).view.set ↔ ∀ a : Fin 2, win15_2.index t a * S1000x256.size a ≤ (i a).val ∧ (i a).val < win15_2.index t a * S1000x256.size a + S1000x256.size a := by
  show i ∈ ((View.whole (Pipeline.arrRef spec15 2)).slice (win15_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover15_out (i : S50000x256.Idx) :
    ∃ t : Fin cfg15.N, (cfg15.win 2).flush t = true ∧ i ∈ ((cfg15.win 2).blk t).view.set := by
  have hr : (i 0).val < 50000 := idx2_lt0 i
  have hc : (i 1).val < 256 := idx2_lt1 i
  have hN : cfg15.N = 50 := N_15
  let t : Fin cfg15.N := ⟨(i 0).val / 1000, by rw [hN]; omega⟩
  have ht : t.val = (i 0).val / 1000 := rfl
  obtain ⟨-, -, -, -, e4, e5⟩ := idx_facts15 t
  refine ⟨t, flush15_2 t, (mem_blk15_2 t i).mpr fun a => ?_⟩
  match a with
  | ⟨0, _⟩ => show win15_2.index t (0 : Fin 2) * 1000 ≤ (i 0).val ∧ (i 0).val < win15_2.index t (0 : Fin 2) * 1000 + 1000; omega
  | ⟨1, _⟩ => show win15_2.index t (1 : Fin 2) * 256 ≤ (i 1).val ∧ (i 1).val < win15_2.index t (1 : Fin 2) * 256 + 256; omega

/-! ## The output array after the region -/

/-- The product of the region's two arrays, at the program's shapes: `Cert.Spec.mm` at 50000 × 512 by 512 × 256. -/
abbrev mm15 (a : Vec Ideal S50000x512 .f32) (w : Vec Ideal S512x256 .f32) : Vec Ideal S50000x256 .f32 :=
  Cert.Spec.mm (M := 50000) (K := 512) (N := 256) a w

/-- THE OUTPUT ARRAY after the region, as one whole-array function of the two input arrays as the region finds
    them: their product. Every point writes back its block of that product (`flushed15_2_eq`) and the blocks cover
    the array (`cover15_out`), so nothing of what the array held before remains. -/
theorem arrAt15_out (c : Dev nD) :
    (dat15 (F := Ideal) V c).arrAt 2 cfg15.N = mm15 (V c (Pipeline.arrRef spec15 0)) (V c (Pipeline.arrRef spec15 1)) :=
  (dat15 (F := Ideal) V c).arrAt_eq_of_cover 2 _ (fun t _ => flushed15_2_eq V c t) cover15_out

end Cert.KernelIdeal.Reg
-- ==== Proof.KI.Val16.lean ====
/-
  THE VALUE of REGION 16 of the kernel program (custom_call 16, cc16__sumsq_kernel) at the ideal (extended-real) float
  values: after the region, the two [1,256] arrays its windows 1 and 2 write hold, at column k, the sum over all 50000
  rows of the [50000,256] array h the region read, and the sum of the squares:

      arrAt16_1 : (dat16 V c).arrAt 1 cfg16.N = colsum   (V c (Pipeline.arrRef spec16 0))
      arrAt16_2 : (dat16 V c).arrAt 2 cfg16.N = colsumsq (V c (Pipeline.arrRef spec16 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg16
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out16_B_1_eq (c : Dev nD) (i : grid16.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond16_0 i) (x : Vec F S1000x256 .f32) (xo1 xo2 : Vec F S1x256 .f32) :
    out16_B_1 c i a1 h1 a2 h2 a3 h3 hc x xo1 xo2 = k16_pay4 x xo1 := by
  unfold out16_B_1 kernelRun16_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out16_B_2_eq (c : Dev nD) (i : grid16.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond16_0 i) (x : Vec F S1000x256 .f32) (xo1 xo2 : Vec F S1x256 .f32) :
    out16_B_2 c i a1 h1 a2 h2 a3 h3 hc x xo1 xo2 = k16_pay5 x xo2 := by
  unfold out16_B_2 kernelRun16_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out16_A_1_eq (c : Dev nD) (i : grid16.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond16_0 i) (x : Vec F S1000x256 .f32) :
    out16_A_1 c i a1 h1 a2 h2 a3 h3 hc x = k16_pay4 x (k16_pay1 (F := F)) := by
  unfold out16_A_1 kernelRun16_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out16_A_2_eq (c : Dev nD) (i : grid16.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond16_0 i) (x : Vec F S1000x256 .f32) :
    out16_A_2 c i a1 h1 a2 h2 a3 h3 hc x = k16_pay5 x (k16_pay2 (F := F)) := by
  unfold out16_A_2 kernelRun16_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k16_pay1_apply (j : S1x256.Idx) : k16_pay1 (F := Ideal) j = 0 := Ideal.ofBits_zero_f32
theorem k16_pay2_apply (j : S1x256.Idx) : k16_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k16_pay4_apply (x : Vec Ideal S1000x256 .f32) (acc : Vec Ideal S1x256 .f32) (j : S1x256.Idx) :
    k16_pay4 x acc j = acc j + ∑ r : Fin 1000, x (ix2 r (j 1)) := by
  unfold k16_pay4 k16_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k16_pay5_apply (x : Vec Ideal S1000x256 .f32) (acc : Vec Ideal S1x256 .f32) (j : S1x256.Idx) :
    k16_pay5 x acc j = acc j + ∑ r : Fin 1000, x (ix2 r (j 1)) * x (ix2 r (j 1)) := by
  unfold k16_pay5 k16_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr16 (c : Dev nD) : Vec F S50000x256 .f32 := V c (Pipeline.arrRef spec16 0)

/-- Window 0's block index at point `t` is (t, 0): decided over the 50 points. -/
private theorem index16_0 : ∀ t : Fin cfg16.N, win16_0.index t 0 = t.val ∧ win16_0.index t 1 = 0 :=
  (by decide +kernel : ∀ t : Fin grid16.N, win16_0.index t 0 = t.val ∧ win16_0.index t 1 = 0)

/-- The input block at point `t` reads the array at rows `1000 t + r`. -/
theorem iblk16_0_apply (c : Dev nD) (t : Fin cfg16.N) (r : Fin 1000) (k : Fin 256) (P : Fin 50000)
    (hP : P.val = 1000 * t.val + r.val) :
    (iblk16 V c 0 t : Vec F S1000x256 .f32) (ix2 r k) = harr16 V c (ix2 P k) := by
  unfold iblk16
  rw [View.read_apply]
  show V c (Pipeline.arrRef spec16 0) _ = V c (Pipeline.arrRef spec16 0) _
  congr 1
  funext a
  apply Fin.ext
  match a with
  | ⟨0, _⟩ => show win16_0.index t 0 * 1000 + 1 * r.val = P.val; rw [(index16_0 t).1, hP]; omega
  | ⟨1, _⟩ => show win16_0.index t 1 * 256 + 1 * k.val = k.val; rw [(index16_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt16_eq (c : Dev nD) : ∀ (n : ℕ) (hn : n < cfg16.N) (j : S1x256.Idx),
    (outsAt16 V c n hn).1 j = rowsBelow 1000 (fun P : Fin 50000 => harr16 V c (ix2 P (j 1))) n
    ∧ (outsAt16 V c n hn).2 j
        = rowsBelow 1000 (fun P : Fin 50000 => harr16 V c (ix2 P (j 1)) * harr16 V c (ix2 P (j 1))) n
  | 0, hn, j => by
    rw [outsAt16_zero]
    dsimp only
    rw [out16_A_1_eq, out16_A_2_eq, k16_pay4_apply, k16_pay5_apply, k16_pay1_apply, k16_pay2_apply, zero_add, zero_add,
      rowsBelow_zero 1000 (by decide), rowsBelow_zero 1000 (by decide)]
    refine ⟨Finset.sum_congr rfl fun r _ => ?_, Finset.sum_congr rfl fun r _ => ?_⟩
    · exact iblk16_0_apply V c ⟨0, hn⟩ r (j 1) _ (by show r.val = 1000 * 0 + r.val; omega)
    · rw [iblk16_0_apply V c ⟨0, hn⟩ r (j 1) ⟨r.val, by have := r.isLt; omega⟩ (by show r.val = 1000 * 0 + r.val; omega)]
  | n + 1, hn, j => by
    have hN : n + 1 < 50 := lt_of_lt_of_eq hn (show cfg16.N = 50 from N_16)
    rw [outsAt16_succ]
    dsimp only
    rw [out16_B_1_eq, out16_B_2_eq, k16_pay4_apply, k16_pay5_apply,
      (outsAt16_eq c n (Nat.lt_of_succ_lt hn) j).1, (outsAt16_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk16_0_apply V c ⟨n + 1, hn⟩ r (j 1) _ rfl
    · rw [iblk16_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t16_last : Fin cfg16.N := ⟨49, lt_of_lt_of_eq (by decide : 49 < 50) (show cfg16.N = 50 from N_16).symm⟩

/-- After the last point output 1's buffer holds the column sums of the whole array, -/
theorem outsAt16_last_1 (c : Dev nD) :
    (outsAt16 V c t16_last.val t16_last.isLt).1 = colsum (n := 50000) (d := 256) (harr16 V c) :=
  funext fun j => by
    rw [(outsAt16_eq V c _ _ j).1, rowsBelow_all 1000 _ _ (by decide)]; rfl

/-- and output 2's the column sums of its squares. -/
theorem outsAt16_last_2 (c : Dev nD) :
    (outsAt16 V c t16_last.val t16_last.isLt).2 = colsumsq (n := 50000) (d := 256) (harr16 V c) :=
  funext fun j => by
    rw [(outsAt16_eq V c _ _ j).2, rowsBelow_all 1000 _ _ (by decide)]; rfl

/-- The one write-back of output 1, after the last point, writes the column sums: its block is the whole [1,256] array,
    read through zero offsets. -/
theorem flushed16_1_eq (c : Dev nD) (t : Fin cfg16.N) (hf : (cfg16.win 1).flush t = true) :
    (dat16 V c).flushed 1 t
      = ((cfg16.win 1).blk t).view.read (Elt Ideal) (colsum (n := 50000) (d := 256) (harr16 V c)) := by
  have hN : t.val < 50 := lt_of_lt_of_eq t.isLt (show cfg16.N = 50 from N_16)
  have h49 : t.val = 49 := by have := (flush16_1 t).mp hf; omega
  obtain rfl : t = t16_last := Fin.ext h49
  show (cfg16.win 1).cut (grid16.coords t16_last) ((dat16 V c).after 1 t16_last) = _
  rw [after16_1, outsAt16_last_1]
  have hz' : (fun a => win16_1.index t16_last a * (Pipeline.arrRef spec16 1).ty.shape.size a) = fun _ => 0 :=
    funext fun a => by fin_cases a <;> decide +kernel
  exact (Memref.read_access_unit_zero (Elt Ideal) (Pipeline.arrRef spec16 1) hz' (fun a => by rw [congrFun hz' a]; simp)
    (colsum (n := 50000) (d := 256) (harr16 V c))).symm

/-- Likewise output 2's. -/
theorem flushed16_2_eq (c : Dev nD) (t : Fin cfg16.N) (hf : (cfg16.win 2).flush t = true) :
    (dat16 V c).flushed 2 t
      = ((cfg16.win 2).blk t).view.read (Elt Ideal) (colsumsq (n := 50000) (d := 256) (harr16 V c)) := by
  have hN : t.val < 50 := lt_of_lt_of_eq t.isLt (show cfg16.N = 50 from N_16)
  have h49 : t.val = 49 := by have := (flush16_2 t).mp hf; omega
  obtain rfl : t = t16_last := Fin.ext h49
  show (cfg16.win 2).cut (grid16.coords t16_last) ((dat16 V c).after 2 t16_last) = _
  rw [after16_2, outsAt16_last_2]
  have hz' : (fun a => win16_2.index t16_last a * (Pipeline.arrRef spec16 2).ty.shape.size a) = fun _ => 0 :=
    funext fun a => by fin_cases a <;> decide +kernel
  exact (Memref.read_access_unit_zero (Elt Ideal) (Pipeline.arrRef spec16 2) hz' (fun a => by rw [congrFun hz' a]; simp)
    (colsumsq (n := 50000) (d := 256) (harr16 V c))).symm

/-- THE FIRST RESULT: after the region the [1,256] array of window 1 holds the column sums of the [50000,256] array
    the region read (the last point's write-back covers it). -/
theorem arrAt16_1 (c : Dev nD) :
    (dat16 V c).arrAt 1 cfg16.N = colsum (n := 50000) (d := 256) (V c (Pipeline.arrRef spec16 0)) :=
  (dat16 V c).arrAt_eq_of_cover 1 (colsum (n := 50000) (d := 256) (harr16 V c)) (flushed16_1_eq V c) fun i =>
    ⟨t16_last, (flush16_1 t16_last).mpr rfl, by
      show i ∈ ((View.whole (Pipeline.arrRef spec16 1)).slice (win16_1.rect t16_last)).set
      rw [View.set_slice_whole, Rect.mem_set_unit]
      intro a
      have h0 : (i 0 : Nat) < 1 := (i 0).isLt
      have h1 : (i 1 : Nat) < 256 := (i 1).isLt
      match a with
      | ⟨0, _⟩ =>
        show win16_1.index t16_last 0 * win16_1.size 0 ≤ (i 0 : Nat)
          ∧ (i 0 : Nat) < win16_1.index t16_last 0 * win16_1.size 0 + win16_1.xsize (grid16.coords t16_last) 0
        rw [show win16_1.index t16_last 0 * win16_1.size 0 = 0 from by decide +kernel,
          show win16_1.xsize (grid16.coords t16_last) 0 = 1 from by decide +kernel]; omega
      | ⟨1, _⟩ =>
        show win16_1.index t16_last 1 * win16_1.size 1 ≤ (i 1 : Nat)
          ∧ (i 1 : Nat) < win16_1.index t16_last 1 * win16_1.size 1 + win16_1.xsize (grid16.coords t16_last) 1
        rw [show win16_1.index t16_last 1 * win16_1.size 1 = 0 from by decide +kernel,
          show win16_1.xsize (grid16.coords t16_last) 1 = 256 from by decide +kernel]; omega⟩

/-- THE SECOND RESULT: the [1,256] array of window 2 holds the column sums of the squares. -/
theorem arrAt16_2 (c : Dev nD) :
    (dat16 V c).arrAt 2 cfg16.N = colsumsq (n := 50000) (d := 256) (V c (Pipeline.arrRef spec16 0)) :=
  (dat16 V c).arrAt_eq_of_cover 2 (colsumsq (n := 50000) (d := 256) (harr16 V c)) (flushed16_2_eq V c) fun i =>
    ⟨t16_last, (flush16_2 t16_last).mpr rfl, by
      show i ∈ ((View.whole (Pipeline.arrRef spec16 2)).slice (win16_2.rect t16_last)).set
      rw [View.set_slice_whole, Rect.mem_set_unit]
      intro a
      have h0 : (i 0 : Nat) < 1 := (i 0).isLt
      have h1 : (i 1 : Nat) < 256 := (i 1).isLt
      match a with
      | ⟨0, _⟩ =>
        show win16_2.index t16_last 0 * win16_2.size 0 ≤ (i 0 : Nat)
          ∧ (i 0 : Nat) < win16_2.index t16_last 0 * win16_2.size 0 + win16_2.xsize (grid16.coords t16_last) 0
        rw [show win16_2.index t16_last 0 * win16_2.size 0 = 0 from by decide +kernel,
          show win16_2.xsize (grid16.coords t16_last) 0 = 1 from by decide +kernel]; omega
      | ⟨1, _⟩ =>
        show win16_2.index t16_last 1 * win16_2.size 1 ≤ (i 1 : Nat)
          ∧ (i 1 : Nat) < win16_2.index t16_last 1 * win16_2.size 1 + win16_2.xsize (grid16.coords t16_last) 1
        rw [show win16_2.index t16_last 1 * win16_2.size 1 = 0 from by decide +kernel,
          show win16_2.xsize (grid16.coords t16_last) 1 = 256 from by decide +kernel]; omega⟩

end AtIdeal

end Cert.KernelIdeal.Reg

end
-- ==== Proof.KI.Val17.lean ====
/- The VALUE of region 17 (custom_call 17, `cc17__bn_relu_kernel`) at the ideal float values: after the region's grid
   has run, its output array is `Cert.Spec.bnrelu` of the six input arrays as the region finds them,

     (dat17 V c).arrAt 6 cfg17.N = bnrelu (V c h) (V c bias) (V c gamma) (V c beta) (V c mean) (V c var).

   The steps: the body's payload read at one element of a block is `bnrelu`'s expression of the loaded block's element
   and the five rows' elements at its column (`pay17_apply`); the activation's block at point `t` lies under the
   output's block (both are rows `1000 t … 1000 t + 999`) and each row's one block is the whole row (`idx_facts17`,
   `iblk17_W_apply`); so what point `t` writes back is block `t` of `bnrelu` of the arrays (`flushed17_6_eq`: a flushed
   block is a restriction of one whole-array function); row `r` of the output is in the block of point `r / 1000`, so
   the blocks cover the array (`covered17_6`); hence the array ends holding `bnrelu` of the arrays (`final17_6`). -/
import proofs.«146967_j25786983645193_1_alg».proof.Proof.KI.Reg17
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz17 : (![0, 0] : Fin 2 → Nat) = fun _ => 0 := funext fun a => by fin_cases a <;> rfl

/-- A [1,256] row broadcast along the 1000 rows of a block, read at `j`: the row at `j`'s column. -/
theorem bcast_row17 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay17_apply (x0 : Vec Ideal S1000x256 .f32) (x1 x2 x3 x4 x5 : Vec Ideal S1x256 .f32) (j : S1000x256.Idx) :
    k17_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k17_pay1
  simp only [shapeCast_self]
  rw [maximumf_apply, addf_apply, mulf_apply, mulf_apply, subf_apply, addf_apply]
  simp only [bcast_row17]
  rfl

/-! ## The windows' index maps -/

/-- The printed index maps, decided over the grid: the activation's and the output's block at point `t` is block
    `(t, 0)`; each of the five rows' is block `(0, 0)`. -/
theorem idx_facts17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0
    ∧ win17_5.index t (0 : Fin 2) = 0 ∧ win17_5.index t (1 : Fin 2) = 0
    ∧ win17_6.index t (0 : Fin 2) = t.val ∧ win17_6.index t (1 : Fin 2) = 0 :=
  (by decide +kernel : ∀ t : Fin grid17.N, _)

/-! ## The input blocks at an index, as elements of the arrays -/

/-- The column of an element of the output's block at point `t` is its column in the block. -/
theorem emb17_6_col (t : Fin cfg17.N) (j : S1000x256.Idx) :
    ((((cfg17.win 6).blk t).view.emb j : S50000x256.Idx) 1 : Fin 256) = j 1 := by
  obtain ⟨-, -, -, -, -, -, -, -, -, -, -, -, a6, b6⟩ := idx_facts17 t
  apply Fin.ext
  show win17_6.index t (1 : Fin 2) * 256 + 1 * (j 1).val = (j 1).val
  omega

/-- Input window 0 (the activation's [1000,256] block) read at `j`: the activation at the element of the array that the
    OUTPUT's block at the same point has at `j` — the two windows move together. -/
theorem iblk17_0_apply (c : Dev nD) (t : Fin cfg17.N) (j : S1000x256.Idx) :
    (iblk17 V c 0 t : Vec Ideal S1000x256 .f32) j
      = (V c (Pipeline.arrRef spec17 0) : Vec Ideal S50000x256 .f32) (((cfg17.win 6).blk t).view.emb j) := by
  obtain ⟨a0, b0, -, -, -, -, -, -, -, -, -, -, a6, b6⟩ := idx_facts17 t
  unfold iblk17
  rw [View.read_apply]
  refine congrArg (V c (Pipeline.arrRef spec17 0) : Vec Ideal S50000x256 .f32) ?_
  funext a; apply Fin.ext
  match a with
  | ⟨0, _⟩ => show win17_0.index t (0 : Fin 2) * 1000 + 1 * (j 0).val = win17_6.index t (0 : Fin 2) * 1000 + 1 * (j 0).val; omega
  | ⟨1, _⟩ => show win17_0.index t (1 : Fin 2) * 256 + 1 * (j 1).val = win17_6.index t (1 : Fin 2) * 256 + 1 * (j 1).val; omega

/-- Input window 1 (a [1,256] row, one block, the same at every point) read at column `k`: the row at `k`. -/
theorem iblk17_1_apply (c : Dev nD) (t : Fin cfg17.N) (k : Fin 256) :
    (iblk17 V c 1 t : Vec Ideal S1x256 .f32) (rowIx k) = (V c (Pipeline.arrRef spec17 1) : Vec Ideal S1x256 .f32) (rowIx k) := by
  obtain ⟨-, -, a1, b1, a2, b2, a3, b3, a4, b4, a5, b5, -, -⟩ := idx_facts17 t
  unfold iblk17
  rw [View.read_apply]
  refine congrArg (V c (Pipeline.arrRef spec17 1) : Vec Ideal S1x256 .f32) ?_
  funext a; apply Fin.ext
  match a with
  | ⟨0, _⟩ => show win17_1.index t (0 : Fin 2) * 1 + 1 * 0 = 0; omega
  | ⟨1, _⟩ => show win17_1.index t (1 : Fin 2) * 256 + 1 * k.val = k.val; omega

/-- Input window 2 (a [1,256] row, one block, the same at every point) read at column `k`: the row at `k`. -/
theorem iblk17_2_apply (c : Dev nD) (t : Fin cfg17.N) (k : Fin 256) :
    (iblk17 V c 2 t : Vec Ideal S1x256 .f32) (rowIx k) = (V c (Pipeline.arrRef spec17 2) : Vec Ideal S1x256 .f32) (rowIx k) := by
  obtain ⟨-, -, a1, b1, a2, b2, a3, b3, a4, b4, a5, b5, -, -⟩ := idx_facts17 t
  unfold iblk17
  rw [View.read_apply]
  refine congrArg (V c (Pipeline.arrRef spec17 2) : Vec Ideal S1x256 .f32) ?_
  funext a; apply Fin.ext
  match a with
  | ⟨0, _⟩ => show win17_2.index t (0 : Fin 2) * 1 + 1 * 0 = 0; omega
  | ⟨1, _⟩ => show win17_2.index t (1 : Fin 2) * 256 + 1 * k.val = k.val; omega

/-- Input window 3 (a [1,256] row, one block, the same at every point) read at column `k`: the row at `k`. -/
theorem iblk17_3_apply (c : Dev nD) (t : Fin cfg17.N) (k : Fin 256) :
    (iblk17 V c 3 t : Vec Ideal S1x256 .f32) (rowIx k) = (V c (Pipeline.arrRef spec17 3) : Vec Ideal S1x256 .f32) (rowIx k) := by
  obtain ⟨-, -, a1, b1, a2, b2, a3, b3, a4, b4, a5, b5, -, -⟩ := idx_facts17 t
  unfold iblk17
  rw [View.read_apply]
  refine congrArg (V c (Pipeline.arrRef spec17 3) : Vec Ideal S1x256 .f32) ?_
  funext a; apply Fin.ext
  match a with
  | ⟨0, _⟩ => show win17_3.index t (0 : Fin 2) * 1 + 1 * 0 = 0; omega
  | ⟨1, _⟩ => show win17_3.index t (1 : Fin 2) * 256 + 1 * k.val = k.val; omega

/-- Input window 4 (a [1,256] row, one block, the same at every point) read at column `k`: the row at `k`. -/
theorem iblk17_4_apply (c : Dev nD) (t : Fin cfg17.N) (k : Fin 256) :
    (iblk17 V c 4 t : Vec Ideal S1x256 .f32) (rowIx k) = (V c (Pipeline.arrRef spec17 4) : Vec Ideal S1x256 .f32) (rowIx k) := by
  obtain ⟨-, -, a1, b1, a2, b2, a3, b3, a4, b4, a5, b5, -, -⟩ := idx_facts17 t
  unfold iblk17
  rw [View.read_apply]
  refine congrArg (V c (Pipeline.arrRef spec17 4) : Vec Ideal S1x256 .f32) ?_
  funext a; apply Fin.ext
  match a with
  | ⟨0, _⟩ => show win17_4.index t (0 : Fin 2) * 1 + 1 * 0 = 0; omega
  | ⟨1, _⟩ => show win17_4.index t (1 : Fin 2) * 256 + 1 * k.val = k.val; omega

/-- Input window 5 (a [1,256] row, one block, the same at every point) read at column `k`: the row at `k`. -/
theorem iblk17_5_apply (c : Dev nD) (t : Fin cfg17.N) (k : Fin 256) :
    (iblk17 V c 5 t : Vec Ideal S1x256 .f32) (rowIx k) = (V c (Pipeline.arrRef spec17 5) : Vec Ideal S1x256 .f32) (rowIx k) := by
  obtain ⟨-, -, a1, b1, a2, b2, a3, b3, a4, b4, a5, b5, -, -⟩ := idx_facts17 t
  unfold iblk17
  rw [View.read_apply]
  refine congrArg (V c (Pipeline.arrRef spec17 5) : Vec Ideal S1x256 .f32) ?_
  funext a; apply Fin.ext
  match a with
  | ⟨0, _⟩ => show win17_5.index t (0 : Fin 2) * 1 + 1 * 0 = 0; omega
  | ⟨1, _⟩ => show win17_5.index t (1 : Fin 2) * 256 + 1 * k.val = k.val; omega

/-! ## What a point writes back -/

set_option maxHeartbeats 1000000 in
/-- WHAT POINT `t` WRITES BACK is block `t` of `bnrelu` of the six arrays as the region finds them. -/
theorem flushed17_6_eq (c : Dev nD) (t : Fin cfg17.N) :
    (dat17 V c).flushed 6 t = ((cfg17.win 6).blk t).view.read (Elt Ideal)
      (bnrelu (n := 50000) (d := 256) (V c (Pipeline.arrRef spec17 0)) (V c (Pipeline.arrRef spec17 1)) (V c (Pipeline.arrRef spec17 2))
        (V c (Pipeline.arrRef spec17 3)) (V c (Pipeline.arrRef spec17 4)) (V c (Pipeline.arrRef spec17 5))) := by
  show (cfg17.win 6).cut (grid17.coords t) ((dat17 V c).after 6 t) = _
  rw [after17_6]
  unfold out17_6
  rw [View.canon_unit_zero hz17]
  simp only [View.ld_unit_zero (S := S1000x256) hz17, View.ld_unit_zero (S := S1x256) hz17]
  refine funext fun (j : S1000x256.Idx) => ?_
  show k17_pay1 (iblk17 V c 0 t) (iblk17 V c 1 t) (iblk17 V c 2 t) (iblk17 V c 3 t) (iblk17 V c 4 t) (iblk17 V c 5 t) j
    = bnrelu (n := 50000) (d := 256) (V c (Pipeline.arrRef spec17 0)) (V c (Pipeline.arrRef spec17 1)) (V c (Pipeline.arrRef spec17 2))
        (V c (Pipeline.arrRef spec17 3)) (V c (Pipeline.arrRef spec17 4)) (V c (Pipeline.arrRef spec17 5)) (((cfg17.win 6).blk t).view.emb j)
  rw [pay17_apply, bnrelu_apply, emb17_6_col t j, iblk17_0_apply, iblk17_1_apply V c t (j 1), iblk17_2_apply V c t (j 1),
    iblk17_3_apply V c t (j 1), iblk17_4_apply V c t (j 1), iblk17_5_apply V c t (j 1)]

/-! ## The blocks cover the array -/

/-- An index of the array is in point `t`'s block iff each coordinate is in the block's range on its axis. -/
theorem mem_blk17_6 (t : Fin cfg17.N) (i : S50000x256.Idx) :
    i ∈ ((cfg17.win 6).blk t).view.set ↔ ∀ a : Fin 2, win17_6.index t a * S1000x256.size a ≤ (i a).val ∧ (i a).val < win17_6.index t a * S1000x256.size a + S1000x256.size a := by
  show i ∈ ((View.whole main_v65).slice (win17_6.rect t)).set ↔ _
  rw [View.set_slice_whole, Rect.mem_set_unit]
  exact Iff.rfl

/-- Every element of the output array is in some point's block: row `r` is in the block of point `r / 1000`. -/
theorem covered17_6 (i : S50000x256.Idx) :
    ∃ t : Fin cfg17.N, (cfg17.win 6).flush t = true ∧ i ∈ ((cfg17.win 6).blk t).view.set := by
  have hi0 : (i 0).val < 50000 := (i 0).isLt
  have hi1 : (i 1).val < 256 := (i 1).isLt
  have hN : cfg17.N = 50 := N_17
  have hlt : (i 0).val / 1000 < cfg17.N := by rw [hN]; omega
  obtain ⟨-, -, -, -, -, -, -, -, -, -, -, -, a6, b6⟩ := idx_facts17 ⟨(i 0).val / 1000, hlt⟩
  refine ⟨⟨(i 0).val / 1000, hlt⟩, flush17_6 _, ?_⟩
  rw [mem_blk17_6]
  intro a
  match a with
  | ⟨0, _⟩ =>
    show win17_6.index ⟨(i 0).val / 1000, hlt⟩ (0 : Fin 2) * 1000 ≤ (i 0).val ∧ (i 0).val < win17_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win17_6.index ⟨(i 0).val / 1000, hlt⟩ (1 : Fin 2) * 256 ≤ (i 1).val ∧ (i 1).val < win17_6.index ⟨(i 0).val / 1000, hlt⟩ (1 : Fin 2) * 256 + 256
    rw [b6]; omega

/-! ## The output array after the region -/

/-- THE OUTPUT ARRAY after the region's grid has run is `bnrelu` of the six input arrays as the region finds them. -/
theorem final17_6 (c : Dev nD) :
    (dat17 V c).arrAt 6 cfg17.N = bnrelu (n := 50000) (d := 256) (V c (Pipeline.arrRef spec17 0)) (V c (Pipeline.arrRef spec17 1)) (V c (Pipeline.arrRef spec17 2))
        (V c (Pipeline.arrRef spec17 3)) (V c (Pipeline.arrRef spec17 4)) (V c (Pipeline.arrRef spec17 5)) :=
  (dat17 V c).arrAt_eq_of_cover 6 _ (fun t _ => flushed17_6_eq V c t) covered17_6

end Cert.KernelIdeal.Reg
-- ==== Proof.KI.Read2.lean ====
/- THE GLOBAL PATH read off the chain of buffer contents: items W21 … W37 of @main (regions 9 – 17).

   Three times the same block. A product is formed (regions 9, 12, 15); its column sums and column sums of squares are
   taken (regions 10, 13, 16); a stretch of host operations forms from them the mean row (sums over 50000, plus the
   bias) and the variance row (sums of squares over 50000, minus the squared sums over 50000) and makes them and the
   bias, scale and shift rows one-row arrays; the normalising kernel is applied (regions 11, 14, 17). As one function
   of the product and the three rows that is `Cert.Spec.bnK`, and with the product `Cert.Spec.denseK`.
   The first product is of the graph layers' result `h3` (`main_v141`, written by region 8) by `main_arg7`; the second
   and the third are of the previous block's result set beside `h3` (`Cert.Spec.cat`) by matrix 0 and matrix 1 of
   `main_arg8`. Block k takes row k of `main_arg9`, `main_arg10`, `main_arg11` as its bias, scale and shift.

     xg0 = main_v164 = denseK h3 arg7 (row 0 of arg9, arg10, arg11)                      (read_xg0)
     xg1 = main_v190 = denseK (cat xg0 h3) (matrix 0 of arg8) (row 1 …)                  (read_xg1)
     xg2 = main_v216 = denseK (cat xg1 h3) (matrix 1 of arg8) (row 2 …)                  (read_xg2)

   `h3` and the arguments are taken as the chain holds them when region 9 is entered (W20); they are opaque here.
   Every buffer is written once. A value read later than it was written is carried there item by item: across a
   stretch of host operations that does not write it, across a region of which it is no output array. The last section
   carries the three results to where the local path reads them (regions 18, 19, 23, 27). -/
import proofs.«146967_j25786983645193_1_alg».proof.Proof.KI.Chain
import proofs.«146967_j25786983645193_1_alg».proof.Proof.KI.Val9
import proofs.«146967_j25786983645193_1_alg».proof.Proof.KI.Val10
import proofs.«146967_j25786983645193_1_alg».proof.Proof.KI.Val11
import proofs.«146967_j25786983645193_1_alg».proof.Proof.KI.Val12
import proofs.«146967_j25786983645193_1_alg».proof.Proof.KI.Val13
import proofs.«146967_j25786983645193_1_alg».proof.Proof.KI.Val14
import proofs.«146967_j25786983645193_1_alg».proof.Proof.KI.Val15
import proofs.«146967_j25786983645193_1_alg».proof.Proof.KI.Val16
import proofs.«146967_j25786983645193_1_alg».proof.Proof.KI.Val17
import proofs.«146967_j25786983645193_1_alg».proof.Proof.Spec.Net
import Idealize.ShloMosaic.Lib.StableHlo.Run

-- decided memberships over the program's references recurse past the default depth
set_option maxRecDepth 16384

noncomputable section

namespace Cert.KernelIdeal.Reg

open Cert.KernelIdeal Cert.KernelIdeal.Gen Cert.KernelIdeal.GenP
open Idealize.ShloMosaic Idealize.ShloMosaic.TcCoe Idealize.SL.Sem

/-- The normalising kernel's function applied to what the stretch before it hands over — the bias, scale and shift rows
    as one-row arrays, the mean row (column sums over 50000, plus the bias) and the variance row (column sums of squares
    over 50000, minus the squared column sums over 50000) as one-row arrays — is the batch-norm block `bnK`: its
    definition, spelled with this program's shape names. -/
theorem bnK_of_parts (p : Vec Ideal S50000x256 .f32) (bias gamma beta : Vec Ideal S256 .f32) :
    Cert.Spec.bnrelu p (shapeCast S1x256 bias shapeCasts_S256_S1x256) (shapeCast S1x256 gamma shapeCasts_S256_S1x256)
        (shapeCast S1x256 beta shapeCasts_S256_S1x256)
        (shapeCast S1x256 (addf (F := Ideal) (φ := .f32) (Host.divf (F := Ideal) (φ := .f32) (shapeCast S256 (Cert.Spec.colsum p) shapeCasts_S1x256_S256) (broadcastInDim S256 ![] bcast_S_S256 (constant (F := Ideal) S_ .f32 0x47435000#32))) bias) shapeCasts_S256_S1x256)
        (shapeCast S1x256 (subf (F := Ideal) (φ := .f32) (Host.divf (F := Ideal) (φ := .f32) (shapeCast S256 (Cert.Spec.colsumsq p) shapeCasts_S1x256_S256) (broadcastInDim S256 ![] bcast_S_S256 (constant (F := Ideal) S_ .f32 0x47435000#32))) (mulf (F := Ideal) (φ := .f32) (Host.divf (F := Ideal) (φ := .f32) (shapeCast S256 (Cert.Spec.colsum p) shapeCasts_S1x256_S256) (broadcastInDim S256 ![] bcast_S_S256 (constant (F := Ideal) S_ .f32 0x47435000#32))) (Host.divf (F := Ideal) (φ := .f32) (shapeCast S256 (Cert.Spec.colsum p) shapeCasts_S1x256_S256) (broadcastInDim S256 ![] bcast_S_S256 (constant (F := Ideal) S_ .f32 0x47435000#32))))) shapeCasts_S256_S1x256)
      = Cert.Spec.bnK p bias gamma beta := rfl

/-! ## The host stretches read, over any contents `X` at the stretch's start

Each result buffer of a stretch as the stretch's operations applied to what the stretch finds in the buffers it reads. -/

/-! ### The stretches of the first block (after regions 9 and 10) -/

/-- After the stretch, `main_v144` holds row 0 of `main_arg9` as a flat row. -/
theorem host10_v144 (X : Valuation τ sig (Elt Ideal)) :
    (StableHlo.after hostOps10 X (Proc.devRef .tc main_v144) : (⟨S256, .f32⟩ : BufTy).Contents (Elt Ideal))
      = Cert.Spec.row3 (X (Proc.devRef .tc main_arg9)) 0 slices_S3x256_S1x256_0_0 := by
  after_results <;> rfl
/-- After the stretch, `main_v146` holds row 0 of `main_arg10` as a flat row. -/
theorem host10_v146 (X : Valuation τ sig (Elt Ideal)) :
    (StableHlo.after hostOps10 X (Proc.devRef .tc main_v146) : (⟨S256, .f32⟩ : BufTy).Contents (Elt Ideal))
      = Cert.Spec.row3 (X (Proc.devRef .tc main_arg10)) 0 slices_S3x256_S1x256_0_0 := by
  after_results <;> rfl
/-- After the stretch, `main_v148` holds row 0 of `main_arg11` as a flat row. -/
theorem host10_v148 (X : Valuation τ sig (Elt Ideal)) :
    (StableHlo.after hostOps10 X (Proc.devRef .tc main_v148) : (⟨S256, .f32⟩ : BufTy).Contents (Elt Ideal))
      = Cert.Spec.row3 (X (Proc.devRef .tc main_arg11)) 0 slices_S3x256_S1x256_0_0 := by
  after_results <;> rfl
/-- After the stretch, `main_v159` holds `main_v144` as a one-row array. -/
theorem host11_v159 (X : Valuation τ sig (Elt Ideal)) :
    (StableHlo.after hostOps11 X (Proc.devRef .tc main_v159) : (⟨S1x256, .f32⟩ : BufTy).Contents (Elt Ideal))
      = shapeCast S1x256 (X (Proc.devRef .tc main_v144)) shapeCasts_S256_S1x256 := by
  after_results <;> rfl
/-- After the stretch, `main_v160` holds `main_v146` as a one-row array. -/
theorem host11_v160 (X : Valuation τ sig (Elt Ideal)) :
    (StableHlo.after hostOps11 X (Proc.devRef .tc main_v160) : (⟨S1x256, .f32⟩ : BufTy).Contents (Elt Ideal))
      = shapeCast S1x256 (X (Proc.devRef .tc main_v146)) shapeCasts_S256_S1x256 := by
  after_results <;> rfl
/-- After the stretch, `main_v161` holds `main_v148` as a one-row array. -/
theorem host11_v161 (X : Valuation τ sig (Elt Ideal)) :
    (StableHlo.after hostOps11 X (Proc.devRef .tc main_v161) : (⟨S1x256, .f32⟩ : BufTy).Contents (Elt Ideal))
      = shapeCast S1x256 (X (Proc.devRef .tc main_v148)) shapeCasts_S256_S1x256 := by
  after_results <;> rfl
/-- After the stretch, `main_v162` holds the mean row: the column sums over 50000, plus the bias row; as a one-row array. -/
theorem host11_v162 (X : Valuation τ sig (Elt Ideal)) :
    (StableHlo.after hostOps11 X (Proc.devRef .tc main_v162) : (⟨S1x256, .f32⟩ : BufTy).Contents (Elt Ideal))
      = shapeCast S1x256 (addf (F := Ideal) (φ := .f32) (Host.divf (F := Ideal) (φ := .f32) (shapeCast S256 (X (Proc.devRef .tc main_v149_0)) shapeCasts_S1x256_S256) (broadcastInDim S256 ![] bcast_S_S256 (constant (F := Ideal) S_ .f32 0x47435000#32))) (X (Proc.devRef .tc main_v144))) shapeCasts_S256_S1x256 := by
  after_results <;> rfl
/-- After the stretch, `main_v163` holds the variance row: the column sums of squares over 50000, minus the square of the column
    sums over 50000; as a one-row array. -/
theorem host11_v163 (X : Valuation τ sig (Elt Ideal)) :
    (StableHlo.after hostOps11 X (Proc.devRef .tc main_v163) : (⟨S1x256, .f32⟩ : BufTy).Contents (Elt Ideal))
      = shapeCast S1x256 (subf (F := Ideal) (φ := .f32) (Host.divf (F := Ideal) (φ := .f32) (shapeCast S256 (X (Proc.devRef .tc main_v149_1)) shapeCasts_S1x256_S256) (broadcastInDim S256 ![] bcast_S_S256 (constant (F := Ideal) S_ .f32 0x47435000#32))) (mulf (F := Ideal) (φ := .f32) (Host.divf (F := Ideal) (φ := .f32) (shapeCast S256 (X (Proc.devRef .tc main_v149_0)) shapeCasts_S1x256_S256) (broadcastInDim S256 ![] bcast_S_S256 (constant (F := Ideal) S_ .f32 0x47435000#32))) (Host.divf (F := Ideal) (φ := .f32) (shapeCast S256 (X (Proc.devRef .tc main_v149_0)) shapeCasts_S1x256_S256) (broadcastInDim S256 ![] bcast_S_S256 (constant (F := Ideal) S_ .f32 0x47435000#32))))) shapeCasts_S256_S1x256 := by
  after_results <;> rfl

/-! ### The stretches of the second block (after regions 12 and 13) -/

/-- After the stretch, `main_v170` holds row 1 of `main_arg9` as a flat row. -/
theorem host13_v170 (X : Valuation τ sig (Elt Ideal)) :
    (StableHlo.after hostOps13 X (Proc.devRef .tc main_v170) : (⟨S256, .f32⟩ : BufTy).Contents (Elt Ideal))
      = Cert.Spec.row3 (X (Proc.devRef .tc main_arg9)) 1 slices_S3x256_S1x256_1_0 := by
  after_results <;> rfl
/-- After the stretch, `main_v172` holds row 1 of `main_arg10` as a flat row. -/
theorem host13_v172 (X : Valuation τ sig (Elt Ideal)) :
    (StableHlo.after hostOps13 X (Proc.devRef .tc main_v172) : (⟨S256, .f32⟩ : BufTy).Contents (Elt Ideal))
      = Cert.Spec.row3 (X (Proc.devRef .tc main_arg10)) 1 slices_S3x256_S1x256_1_0 := by
  after_results <;> rfl
/-- After the stretch, `main_v174` holds row 1 of `main_arg11` as a flat row. -/
theorem host13_v174 (X : Valuation τ sig (Elt Ideal)) :
    (StableHlo.after hostOps13 X (Proc.devRef .tc main_v174) : (⟨S256, .f32⟩ : BufTy).Contents (Elt Ideal))
      = Cert.Spec.row3 (X (Proc.devRef .tc main_arg11)) 1 slices_S3x256_S1x256_1_0 := by
  after_results <;> rfl
/-- After the stretch, `main_v185` holds `main_v170` as a one-row array. -/
theorem host14_v185 (X : Valuation τ sig (Elt Ideal)) :
    (StableHlo.after hostOps14 X (Proc.devRef .tc main_v185) : (⟨S1x256, .f32⟩ : BufTy).Contents (Elt Ideal))
      = shapeCast S1x256 (X (Proc.devRef .tc main_v170)) shapeCasts_S256_S1x256 := by
  after_results <;> rfl
/-- After the stretch, `main_v186` holds `main_v172` as a one-row array. -/
theorem host14_v186 (X : Valuation τ sig (Elt Ideal)) :
    (StableHlo.after hostOps14 X (Proc.devRef .tc main_v186) : (⟨S1x256, .f32⟩ : BufTy).Contents (Elt Ideal))
      = shapeCast S1x256 (X (Proc.devRef .tc main_v172)) shapeCasts_S256_S1x256 := by
  after_results <;> rfl
/-- After the stretch, `main_v187` holds `main_v174` as a one-row array. -/
theorem host14_v187 (X : Valuation τ sig (Elt Ideal)) :
    (StableHlo.after hostOps14 X (Proc.devRef .tc main_v187) : (⟨S1x256, .f32⟩ : BufTy).Contents (Elt Ideal))
      = shapeCast S1x256 (X (Proc.devRef .tc main_v174)) shapeCasts_S256_S1x256 := by
  after_results <;> rfl
/-- After the stretch, `main_v188` holds the mean row: the column sums over 50000, plus the bias row; as a one-row array. -/
theorem host14_v188 (X : Valuation τ sig (Elt Ideal)) :
    (StableHlo.after hostOps14 X (Proc.devRef .tc main_v188) : (⟨S1x256, .f32⟩ : BufTy).Contents (Elt Ideal))
      = shapeCast S1x256 (addf (F := Ideal) (φ := .f32) (Host.divf (F := Ideal) (φ := .f32) (shapeCast S256 (X (Proc.devRef .tc main_v175_0)) shapeCasts_S1x256_S256) (broadcastInDim S256 ![] bcast_S_S256 (constant (F := Ideal) S_ .f32 0x47435000#32))) (X (Proc.devRef .tc main_v170))) shapeCasts_S256_S1x256 := by
  after_results <;> rfl
/-- After the stretch, `main_v189` holds the variance row: the column sums of squares over 50000, minus the square of the column
    sums over 50000; as a one-row array. -/
theorem host14_v189 (X : Valuation τ sig (Elt Ideal)) :
    (StableHlo.after hostOps14 X (Proc.devRef .tc main_v189) : (⟨S1x256, .f32⟩ : BufTy).Contents (Elt Ideal))
      = shapeCast S1x256 (subf (F := Ideal) (φ := .f32) (Host.divf (F := Ideal) (φ := .f32) (shapeCast S256 (X (Proc.devRef .tc main_v175_1)) shapeCasts_S1x256_S256) (broadcastInDim S256 ![] bcast_S_S256 (constant (F := Ideal) S_ .f32 0x47435000#32))) (mulf (F := Ideal) (φ := .f32) (Host.divf (F := Ideal) (φ := .f32) (shapeCast S256 (X (Proc.devRef .tc main_v175_0)) shapeCasts_S1x256_S256) (broadcastInDim S256 ![] bcast_S_S256 (constant (F := Ideal) S_ .f32 0x47435000#32))) (Host.divf (F := Ideal) (φ := .f32) (shapeCast S256 (X (Proc.devRef .tc main_v175_0)) shapeCasts_S1x256_S256) (broadcastInDim S256 ![] bcast_S_S256 (constant (F := Ideal) S_ .f32 0x47435000#32))))) shapeCasts_S256_S1x256 := by
  after_results <;> rfl

/-! ### The stretches of the third block (after regions 15 and 16) -/

/-- After the stretch, `main_v196` holds row 2 of `main_arg9` as a flat row. -/
theorem host16_v196 (X : Valuation τ sig (Elt Ideal)) :
    (StableHlo.after hostOps16 X (Proc.devRef .tc main_v196) : (⟨S256, .f32⟩ : BufTy).Contents (Elt Ideal))
      = Cert.Spec.row3 (X (Proc.devRef .tc main_arg9)) 2 slices_S3x256_S1x256_2_0 := by
  after_results <;> rfl
/-- After the stretch, `main_v198` holds row 2 of `main_arg10` as a flat row. -/
theorem host16_v198 (X : Valuation τ sig (Elt Ideal)) :
    (StableHlo.after hostOps16 X (Proc.devRef .tc main_v198) : (⟨S256, .f32⟩ : BufTy).Contents (Elt Ideal))
      = Cert.Spec.row3 (X (Proc.devRef .tc main_arg10)) 2 slices_S3x256_S1x256_2_0 := by
  after_results <;> rfl
/-- After the stretch, `main_v200` holds row 2 of `main_arg11` as a flat row. -/
theorem host16_v200 (X : Valuation τ sig (Elt Ideal)) :
    (StableHlo.after hostOps16 X (Proc.devRef .tc main_v200) : (⟨S256, .f32⟩ : BufTy).Contents (Elt Ideal))
      = Cert.Spec.row3 (X (Proc.devRef .tc main_arg11)) 2 slices_S3x256_S1x256_2_0 := by
  after_results <;> rfl
/-- After the stretch, `main_v211` holds `main_v196` as a one-row array. -/
theorem host17_v211 (X : Valuation τ sig (Elt Ideal)) :
    (StableHlo.after hostOps17 X (Proc.devRef .tc main_v211) : (⟨S1x256, .f32⟩ : BufTy).Contents (Elt Ideal))
      = shapeCast S1x256 (X (Proc.devRef .tc main_v196)) shapeCasts_S256_S1x256 := by
  after_results <;> rfl
/-- After the stretch, `main_v212` holds `main_v198` as a one-row array. -/
theorem host17_v212 (X : Valuation τ sig (Elt Ideal)) :
    (StableHlo.after hostOps17 X (Proc.devRef .tc main_v212) : (⟨S1x256, .f32⟩ : BufTy).Contents (Elt Ideal))
      = shapeCast S1x256 (X (Proc.devRef .tc main_v198)) shapeCasts_S256_S1x256 := by
  after_results <;> rfl
/-- After the stretch, `main_v213` holds `main_v200` as a one-row array. -/
theorem host17_v213 (X : Valuation τ sig (Elt Ideal)) :
    (StableHlo.after hostOps17 X (Proc.devRef .tc main_v213) : (⟨S1x256, .f32⟩ : BufTy).Contents (Elt Ideal))
      = shapeCast S1x256 (X (Proc.devRef .tc main_v200)) shapeCasts_S256_S1x256 := by
  after_results <;> rfl
/-- After the stretch, `main_v214` holds the mean row: the column sums over 50000, plus the bias row; as a one-row array. -/
theorem host17_v214 (X : Valuation τ sig (Elt Ideal)) :
    (StableHlo.after hostOps17 X (Proc.devRef .tc main_v214) : (⟨S1x256, .f32⟩ : BufTy).Contents (Elt Ideal))
      = shapeCast S1x256 (addf (F := Ideal) (φ := .f32) (Host.divf (F := Ideal) (φ := .f32) (shapeCast S256 (X (Proc.devRef .tc main_v201_0)) shapeCasts_S1x256_S256) (broadcastInDim S256 ![] bcast_S_S256 (constant (F := Ideal) S_ .f32 0x47435000#32))) (X (Proc.devRef .tc main_v196))) shapeCasts_S256_S1x256 := by
  after_results <;> rfl
/-- After the stretch, `main_v215` holds the variance row: the column sums of squares over 50000, minus the square of the column
    sums over 50000; as a one-row array. -/
theorem host17_v215 (X : Valuation τ sig (Elt Ideal)) :
    (StableHlo.after hostOps17 X (Proc.devRef .tc main_v215) : (⟨S1x256, .f32⟩ : BufTy).Contents (Elt Ideal))
      = shapeCast S1x256 (subf (F := Ideal) (φ := .f32) (Host.divf (F := Ideal) (φ := .f32) (shapeCast S256 (X (Proc.devRef .tc main_v201_1)) shapeCasts_S1x256_S256) (broadcastInDim S256 ![] bcast_S_S256 (constant (F := Ideal) S_ .f32 0x47435000#32))) (mulf (F := Ideal) (φ := .f32) (Host.divf (F := Ideal) (φ := .f32) (shapeCast S256 (X (Proc.devRef .tc main_v201_0)) shapeCasts_S1x256_S256) (broadcastInDim S256 ![] bcast_S_S256 (constant (F := Ideal) S_ .f32 0x47435000#32))) (Host.divf (F := Ideal) (φ := .f32) (shapeCast S256 (X (Proc.devRef .tc main_v201_0)) shapeCasts_S1x256_S256) (broadcastInDim S256 ![] bcast_S_S256 (constant (F := Ideal) S_ .f32 0x47435000#32))))) shapeCasts_S256_S1x256 := by
  after_results <;> rfl

/-! ### The stretches between the blocks (before regions 12 and 15) -/

/-- After the stretch, `main_v165` holds `main_v164` and `main_v141` side by side. -/
theorem host12_v165 (X : Valuation τ sig (Elt Ideal)) :
    (StableHlo.after hostOps12 X (Proc.devRef .tc main_v165) : (⟨S50000x512, .f32⟩ : BufTy).Contents (Elt Ideal))
      = Cert.Spec.cat (X (Proc.devRef .tc main_v164)) (X (Proc.devRef .tc main_v141)) := by
  after_results <;> rfl
/-- After the stretch, `main_v167` holds matrix 0 of `main_arg8`. -/
theorem host12_v167 (X : Valuation τ sig (Elt Ideal)) :
    (StableHlo.after hostOps12 X (Proc.devRef .tc main_v167) : (⟨S512x256, .f32⟩ : BufTy).Contents (Elt Ideal))
      = Cert.Spec.mat2w (X (Proc.devRef .tc main_arg8)) 0 slices_S2x512x256_S1x512x256_0_0_0 := by
  after_results <;> rfl

/-- After the stretch, `main_v191` holds `main_v190` and `main_v141` side by side. -/
theorem host15_v191 (X : Valuation τ sig (Elt Ideal)) :
    (StableHlo.after hostOps15 X (Proc.devRef .tc main_v191) : (⟨S50000x512, .f32⟩ : BufTy).Contents (Elt Ideal))
      = Cert.Spec.cat (X (Proc.devRef .tc main_v190)) (X (Proc.devRef .tc main_v141)) := by
  after_results <;> rfl
/-- After the stretch, `main_v193` holds matrix 1 of `main_arg8`. -/
theorem host15_v193 (X : Valuation τ sig (Elt Ideal)) :
    (StableHlo.after hostOps15 X (Proc.devRef .tc main_v193) : (⟨S512x256, .f32⟩ : BufTy).Contents (Elt Ideal))
      = Cert.Spec.mat2w (X (Proc.devRef .tc main_arg8)) 1 slices_S2x512x256_S1x512x256_1_0_0 := by
  after_results <;> rfl

/-! ## Along the chain -/

section Read
variable (m : (ℓ : Loc nD τ sig) → Buf (Elt Ideal) ℓ) (c : Dev nD)

/-- Region 9 leaves in `main_v142` the product of `h3` by `main_arg7`. -/
theorem r21_v142 : W21 m c (Proc.devRef .tc main_v142)
    = Cert.Spec.mm (W20 m c (Proc.devRef .tc main_v141)) (W20 m c (Proc.devRef .tc main_arg7)) :=
  (W21_arr m c 2).trans (arrAt9_out (rd (W20 m)) c)

/-! ### The first block: the product `main_v142`, its sums `main_v149_0` and `main_v149_1`, the result `main_v164` -/

theorem r22_v144 : W22 m c (Proc.devRef .tc main_v144) = Cert.Spec.row3 (W21 m c (Proc.devRef .tc main_arg9)) 0 slices_S3x256_S1x256_0_0 :=
  host10_v144 (W21 m c)
theorem r22_v146 : W22 m c (Proc.devRef .tc main_v146) = Cert.Spec.row3 (W21 m c (Proc.devRef .tc main_arg10)) 0 slices_S3x256_S1x256_0_0 :=
  host10_v146 (W21 m c)
theorem r22_v148 : W22 m c (Proc.devRef .tc main_v148) = Cert.Spec.row3 (W21 m c (Proc.devRef .tc main_arg11)) 0 slices_S3x256_S1x256_0_0 :=
  host10_v148 (W21 m c)
/-- The product is written by region 9 only: it is there when region 10 reads it, -/
theorem k22_v142 : W22 m c (Proc.devRef .tc main_v142) = W21 m c (Proc.devRef .tc main_v142) :=
  (W22_keep m c main_v142 (by decide))
/-- and when region 11 reads it. -/
theorem k24_v142 : W24 m c (Proc.devRef .tc main_v142) = W21 m c (Proc.devRef .tc main_v142) :=
  (W24_keep m c main_v142 (by decide)).trans <|
    (W23_keep m c main_v142 (by decide)).trans <|
    (W22_keep m c main_v142 (by decide))
/-- Region 10 leaves the column sums of the product in `main_v149_0`. -/
theorem r23_v149_0 : W23 m c (Proc.devRef .tc main_v149_0) = Cert.Spec.colsum (W22 m c (Proc.devRef .tc main_v142)) :=
  (W23_arr m c 1).trans (arrAt10_1 (rd (W22 m)) c)
/-- Region 10 leaves the column sums of squares of the product in `main_v149_1`. -/
theorem r23_v149_1 : W23 m c (Proc.devRef .tc main_v149_1) = Cert.Spec.colsumsq (W22 m c (Proc.devRef .tc main_v142)) :=
  (W23_arr m c 2).trans (arrAt10_2 (rd (W22 m)) c)
/-- The three flat rows are no arrays of region 10. -/
theorem k23_v144 : W23 m c (Proc.devRef .tc main_v144) = W22 m c (Proc.devRef .tc main_v144) :=
  (W23_keep m c main_v144 (by decide))
theorem k23_v146 : W23 m c (Proc.devRef .tc main_v146) = W22 m c (Proc.devRef .tc main_v146) :=
  (W23_keep m c main_v146 (by decide))
theorem k23_v148 : W23 m c (Proc.devRef .tc main_v148) = W22 m c (Proc.devRef .tc main_v148) :=
  (W23_keep m c main_v148 (by decide))
theorem r24_v159 : W24 m c (Proc.devRef .tc main_v159) = shapeCast S1x256 (W23 m c (Proc.devRef .tc main_v144)) shapeCasts_S256_S1x256 :=
  host11_v159 (W23 m c)
theorem r24_v160 : W24 m c (Proc.devRef .tc main_v160) = shapeCast S1x256 (W23 m c (Proc.devRef .tc main_v146)) shapeCasts_S256_S1x256 :=
  host11_v160 (W23 m c)
theorem r24_v161 : W24 m c (Proc.devRef .tc main_v161) = shapeCast S1x256 (W23 m c (Proc.devRef .tc main_v148)) shapeCasts_S256_S1x256 :=
  host11_v161 (W23 m c)
theorem r24_v162 : W24 m c (Proc.devRef .tc main_v162)
    = shapeCast S1x256 (addf (F := Ideal) (φ := .f32) (Host.divf (F := Ideal) (φ := .f32) (shapeCast S256 (W23 m c (Proc.devRef .tc main_v149_0)) shapeCasts_S1x256_S256) (broadcastInDim S256 ![] bcast_S_S256 (constant (F := Ideal) S_ .f32 0x47435000#32))) (W23 m c (Proc.devRef .tc main_v144))) shapeCasts_S256_S1x256 :=
  host11_v162 (W23 m c)
theorem r24_v163 : W24 m c (Proc.devRef .tc main_v163)
    = shapeCast S1x256 (subf (F := Ideal) (φ := .f32) (Host.divf (F := Ideal) (φ := .f32) (shapeCast S256 (W23 m c (Proc.devRef .tc main_v149_1)) shapeCasts_S1x256_S256) (broadcastInDim S256 ![] bcast_S_S256 (constant (F := Ideal) S_ .f32 0x47435000#32))) (mulf (F := Ideal) (φ := .f32) (Host.divf (F := Ideal) (φ := .f32) (shapeCast S256 (W23 m c (Proc.devRef .tc main_v149_0)) shapeCasts_S1x256_S256) (broadcastInDim S256 ![] bcast_S_S256 (constant (F := Ideal) S_ .f32 0x47435000#32))) (Host.divf (F := Ideal) (φ := .f32) (shapeCast S256 (W23 m c (Proc.devRef .tc main_v149_0)) shapeCasts_S1x256_S256) (broadcastInDim S256 ![] bcast_S_S256 (constant (F := Ideal) S_ .f32 0x47435000#32))))) shapeCasts_S256_S1x256 :=
  host11_v163 (W23 m c)
/-- Region 11 leaves in `main_v164` the normalising kernel's function of the product and the five one-row arrays. -/
theorem r25_v164 : W25 m c (Proc.devRef .tc main_v164)
    = Cert.Spec.bnrelu (W24 m c (Proc.devRef .tc main_v142)) (W24 m c (Proc.devRef .tc main_v159)) (W24 m c (Proc.devRef .tc main_v160)) (W24 m c (Proc.devRef .tc main_v161)) (W24 m c (Proc.devRef .tc main_v162)) (W24 m c (Proc.devRef .tc main_v163)) :=
  (W25_arr m c 6).trans (final11_6 (rd (W24 m)) c)
/-- The block as one function: `main_v164` is the batch-norm block of the product, with row 0 of the bias, scale and shift arrays. -/
theorem blk0_v164 : W25 m c (Proc.devRef .tc main_v164)
    = Cert.Spec.bnK (W21 m c (Proc.devRef .tc main_v142)) (Cert.Spec.row3 (W21 m c (Proc.devRef .tc main_arg9)) 0 slices_S3x256_S1x256_0_0) (Cert.Spec.row3 (W21 m c (Proc.devRef .tc main_arg10)) 0 slices_S3x256_S1x256_0_0)
        (Cert.Spec.row3 (W21 m c (Proc.devRef .tc main_arg11)) 0 slices_S3x256_S1x256_0_0) := by
  rw [r25_v164, r24_v159, r24_v160, r24_v161, r24_v162, r24_v163, k24_v142,
    r23_v149_0, r23_v149_1, k23_v144, k23_v146, k23_v148, k22_v142,
    r22_v144, r22_v146, r22_v148]
  exact bnK_of_parts _ _ _ _
/-- The arguments of @main are never written: each still holds, where a stretch reads it, what it held when region 9 was entered. -/
theorem k21_arg9 : W21 m c (Proc.devRef .tc main_arg9) = W20 m c (Proc.devRef .tc main_arg9) :=
  (W21_arg m c (by decide)).trans (W20_arg m c (by decide)).symm
theorem k21_arg10 : W21 m c (Proc.devRef .tc main_arg10) = W20 m c (Proc.devRef .tc main_arg10) :=
  (W21_arg m c (by decide)).trans (W20_arg m c (by decide)).symm
theorem k21_arg11 : W21 m c (Proc.devRef .tc main_arg11) = W20 m c (Proc.devRef .tc main_arg11) :=
  (W21_arg m c (by decide)).trans (W20_arg m c (by decide)).symm

/-- **The first global block.** `xg0 = main_v164` at region 11's exit, as a function of `h3` and the arguments. -/
theorem read_xg0 : W25 m c (Proc.devRef .tc main_v164)
    = Cert.Spec.denseK (W20 m c (Proc.devRef .tc main_v141)) (W20 m c (Proc.devRef .tc main_arg7))
        (Cert.Spec.row3 (W20 m c (Proc.devRef .tc main_arg9)) 0 slices_S3x256_S1x256_0_0) (Cert.Spec.row3 (W20 m c (Proc.devRef .tc main_arg10)) 0 slices_S3x256_S1x256_0_0)
        (Cert.Spec.row3 (W20 m c (Proc.devRef .tc main_arg11)) 0 slices_S3x256_S1x256_0_0) := by
  unfold Cert.Spec.denseK
  rw [blk0_v164, r21_v142, k21_arg9, k21_arg10, k21_arg11]

/-! ### From the first block to the second -/

theorem r26_v165 : W26 m c (Proc.devRef .tc main_v165) = Cert.Spec.cat (W25 m c (Proc.devRef .tc main_v164)) (W25 m c (Proc.devRef .tc main_v141)) :=
  host12_v165 (W25 m c)
theorem r26_v167 : W26 m c (Proc.devRef .tc main_v167) = Cert.Spec.mat2w (W25 m c (Proc.devRef .tc main_arg8)) 0 slices_S2x512x256_S1x512x256_0_0_0 :=
  host12_v167 (W25 m c)
/-- Region 12 leaves in `main_v168` the product of the two arrays side by side by matrix 0. -/
theorem r27_v168 : W27 m c (Proc.devRef .tc main_v168)
    = Cert.Spec.mm (W26 m c (Proc.devRef .tc main_v165)) (W26 m c (Proc.devRef .tc main_v167)) :=
  (W27_arr m c 2).trans (arrAt12_out (rd (W26 m)) c)
/-- `h3` is written by region 8 only: it is there when the stretch after the first block reads it. -/
theorem k25_v141 : W25 m c (Proc.devRef .tc main_v141) = W20 m c (Proc.devRef .tc main_v141) :=
  (W25_keep m c main_v141 (by decide)).trans <|
    (W24_keep m c main_v141 (by decide)).trans <|
    (W23_keep m c main_v141 (by decide)).trans <|
    (W22_keep m c main_v141 (by decide)).trans <|
    (W21_keep m c main_v141 (by decide))
theorem k25_arg8 : W25 m c (Proc.devRef .tc main_arg8) = W20 m c (Proc.devRef .tc main_arg8) :=
  (W25_arg m c (by decide)).trans (W20_arg m c (by decide)).symm

/-! ### The second block: the product `main_v168`, its sums `main_v175_0` and `main_v175_1`, the result `main_v190` -/

theorem r28_v170 : W28 m c (Proc.devRef .tc main_v170) = Cert.Spec.row3 (W27 m c (Proc.devRef .tc main_arg9)) 1 slices_S3x256_S1x256_1_0 :=
  host13_v170 (W27 m c)
theorem r28_v172 : W28 m c (Proc.devRef .tc main_v172) = Cert.Spec.row3 (W27 m c (Proc.devRef .tc main_arg10)) 1 slices_S3x256_S1x256_1_0 :=
  host13_v172 (W27 m c)
theorem r28_v174 : W28 m c (Proc.devRef .tc main_v174) = Cert.Spec.row3 (W27 m c (Proc.devRef .tc main_arg11)) 1 slices_S3x256_S1x256_1_0 :=
  host13_v174 (W27 m c)
/-- The product is written by region 12 only: it is there when region 13 reads it, -/
theorem k28_v168 : W28 m c (Proc.devRef .tc main_v168) = W27 m c (Proc.devRef .tc main_v168) :=
  (W28_keep m c main_v168 (by decide))
/-- and when region 14 reads it. -/
theorem k30_v168 : W30 m c (Proc.devRef .tc main_v168) = W27 m c (Proc.devRef .tc main_v168) :=
  (W30_keep m c main_v168 (by decide)).trans <|
    (W29_keep m c main_v168 (by decide)).trans <|
    (W28_keep m c main_v168 (by decide))
/-- Region 13 leaves the column sums of the product in `main_v175_0`. -/
theorem r29_v175_0 : W29 m c (Proc.devRef .tc main_v175_0) = Cert.Spec.colsum (W28 m c (Proc.devRef .tc main_v168)) :=
  (W29_arr m c 1).trans (arrAt13_1 (rd (W28 m)) c)
/-- Region 13 leaves the column sums of squares of the product in `main_v175_1`. -/
theorem r29_v175_1 : W29 m c (Proc.devRef .tc main_v175_1) = Cert.Spec.colsumsq (W28 m c (Proc.devRef .tc main_v168)) :=
  (W29_arr m c 2).trans (arrAt13_2 (rd (W28 m)) c)
/-- The three flat rows are no arrays of region 13. -/
theorem k29_v170 : W29 m c (Proc.devRef .tc main_v170) = W28 m c (Proc.devRef .tc main_v170) :=
  (W29_keep m c main_v170 (by decide))
theorem k29_v172 : W29 m c (Proc.devRef .tc main_v172) = W28 m c (Proc.devRef .tc main_v172) :=
  (W29_keep m c main_v172 (by decide))
theorem k29_v174 : W29 m c (Proc.devRef .tc main_v174) = W28 m c (Proc.devRef .tc main_v174) :=
  (W29_keep m c main_v174 (by decide))
theorem r30_v185 : W30 m c (Proc.devRef .tc main_v185) = shapeCast S1x256 (W29 m c (Proc.devRef .tc main_v170)) shapeCasts_S256_S1x256 :=
  host14_v185 (W29 m c)
theorem r30_v186 : W30 m c (Proc.devRef .tc main_v186) = shapeCast S1x256 (W29 m c (Proc.devRef .tc main_v172)) shapeCasts_S256_S1x256 :=
  host14_v186 (W29 m c)
theorem r30_v187 : W30 m c (Proc.devRef .tc main_v187) = shapeCast S1x256 (W29 m c (Proc.devRef .tc main_v174)) shapeCasts_S256_S1x256 :=
  host14_v187 (W29 m c)
theorem r30_v188 : W30 m c (Proc.devRef .tc main_v188)
    = shapeCast S1x256 (addf (F := Ideal) (φ := .f32) (Host.divf (F := Ideal) (φ := .f32) (shapeCast S256 (W29 m c (Proc.devRef .tc main_v175_0)) shapeCasts_S1x256_S256) (broadcastInDim S256 ![] bcast_S_S256 (constant (F := Ideal) S_ .f32 0x47435000#32))) (W29 m c (Proc.devRef .tc main_v170))) shapeCasts_S256_S1x256 :=
  host14_v188 (W29 m c)
theorem r30_v189 : W30 m c (Proc.devRef .tc main_v189)
    = shapeCast S1x256 (subf (F := Ideal) (φ := .f32) (Host.divf (F := Ideal) (φ := .f32) (shapeCast S256 (W29 m c (Proc.devRef .tc main_v175_1)) shapeCasts_S1x256_S256) (broadcastInDim S256 ![] bcast_S_S256 (constant (F := Ideal) S_ .f32 0x47435000#32))) (mulf (F := Ideal) (φ := .f32) (Host.divf (F := Ideal) (φ := .f32) (shapeCast S256 (W29 m c (Proc.devRef .tc main_v175_0)) shapeCasts_S1x256_S256) (broadcastInDim S256 ![] bcast_S_S256 (constant (F := Ideal) S_ .f32 0x47435000#32))) (Host.divf (F := Ideal) (φ := .f32) (shapeCast S256 (W29 m c (Proc.devRef .tc main_v175_0)) shapeCasts_S1x256_S256) (broadcastInDim S256 ![] bcast_S_S256 (constant (F := Ideal) S_ .f32 0x47435000#32))))) shapeCasts_S256_S1x256 :=
  host14_v189 (W29 m c)
/-- Region 14 leaves in `main_v190` the normalising kernel's function of the product and the five one-row arrays. -/
theorem r31_v190 : W31 m c (Proc.devRef .tc main_v190)
    = Cert.Spec.bnrelu (W30 m c (Proc.devRef .tc main_v168)) (W30 m c (Proc.devRef .tc main_v185)) (W30 m c (Proc.devRef .tc main_v186)) (W30 m c (Proc.devRef .tc main_v187)) (W30 m c (Proc.devRef .tc main_v188)) (W30 m c (Proc.devRef .tc main_v189)) :=
  (W31_arr m c 6).trans (final14_6 (rd (W30 m)) c)
/-- The block as one function: `main_v190` is the batch-norm block of the product, with row 1 of the bias, scale and shift arrays. -/
theorem blk1_v190 : W31 m c (Proc.devRef .tc main_v190)
    = Cert.Spec.bnK (W27 m c (Proc.devRef .tc main_v168)) (Cert.Spec.row3 (W27 m c (Proc.devRef .tc main_arg9)) 1 slices_S3x256_S1x256_1_0) (Cert.Spec.row3 (W27 m c (Proc.devRef .tc main_arg10)) 1 slices_S3x256_S1x256_1_0)
        (Cert.Spec.row3 (W27 m c (Proc.devRef .tc main_arg11)) 1 slices_S3x256_S1x256_1_0) := by
  rw [r31_v190, r30_v185, r30_v186, r30_v187, r30_v188, r30_v189, k30_v168,
    r29_v175_0, r29_v175_1, k29_v170, k29_v172, k29_v174, k28_v168,
    r28_v170, r28_v172, r28_v174]
  exact bnK_of_parts _ _ _ _
theorem k27_arg9 : W27 m c (Proc.devRef .tc main_arg9) = W20 m c (Proc.devRef .tc main_arg9) :=
  (W27_arg m c (by decide)).trans (W20_arg m c (by decide)).symm
theorem k27_arg10 : W27 m c (Proc.devRef .tc main_arg10) = W20 m c (Proc.devRef .tc main_arg10) :=
  (W27_arg m c (by decide)).trans (W20_arg m c (by decide)).symm
theorem k27_arg11 : W27 m c (Proc.devRef .tc main_arg11) = W20 m c (Proc.devRef .tc main_arg11) :=
  (W27_arg m c (by decide)).trans (W20_arg m c (by decide)).symm

/-- **The second global block.** `xg1 = main_v190` at region 14's exit, as a function of `xg0` (as region 11 left it),
    `h3` and the arguments. -/
theorem read_xg1 : W31 m c (Proc.devRef .tc main_v190)
    = Cert.Spec.denseK (Cert.Spec.cat (W25 m c (Proc.devRef .tc main_v164)) (W20 m c (Proc.devRef .tc main_v141)))
        (Cert.Spec.mat2w (W20 m c (Proc.devRef .tc main_arg8)) 0 slices_S2x512x256_S1x512x256_0_0_0)
        (Cert.Spec.row3 (W20 m c (Proc.devRef .tc main_arg9)) 1 slices_S3x256_S1x256_1_0) (Cert.Spec.row3 (W20 m c (Proc.devRef .tc main_arg10)) 1 slices_S3x256_S1x256_1_0)
        (Cert.Spec.row3 (W20 m c (Proc.devRef .tc main_arg11)) 1 slices_S3x256_S1x256_1_0) := by
  unfold Cert.Spec.denseK
  rw [blk1_v190, r27_v168, r26_v165, r26_v167, k25_v141, k25_arg8, k27_arg9, k27_arg10, k27_arg11]

/-! ### From the second block to the third -/

theorem r32_v191 : W32 m c (Proc.devRef .tc main_v191) = Cert.Spec.cat (W31 m c (Proc.devRef .tc main_v190)) (W31 m c (Proc.devRef .tc main_v141)) :=
  host15_v191 (W31 m c)
theorem r32_v193 : W32 m c (Proc.devRef .tc main_v193) = Cert.Spec.mat2w (W31 m c (Proc.devRef .tc main_arg8)) 1 slices_S2x512x256_S1x512x256_1_0_0 :=
  host15_v193 (W31 m c)
/-- Region 15 leaves in `main_v194` the product of the two arrays side by side by matrix 1. -/
theorem r33_v194 : W33 m c (Proc.devRef .tc main_v194)
    = Cert.Spec.mm (W32 m c (Proc.devRef .tc main_v191)) (W32 m c (Proc.devRef .tc main_v193)) :=
  (W33_arr m c 2).trans (arrAt15_out (rd (W32 m)) c)
/-- `h3` is still there when the stretch after the second block reads it. -/
theorem k31_v141 : W31 m c (Proc.devRef .tc main_v141) = W20 m c (Proc.devRef .tc main_v141) :=
  (W31_keep m c main_v141 (by decide)).trans <|
    (W30_keep m c main_v141 (by decide)).trans <|
    (W29_keep m c main_v141 (by decide)).trans <|
    (W28_keep m c main_v141 (by decide)).trans <|
    (W27_keep m c main_v141 (by decide)).trans <|
    (W26_keep m c main_v141 (by decide)).trans <|
    (W25_keep m c main_v141 (by decide)).trans <|
    (W24_keep m c main_v141 (by decide)).trans <|
    (W23_keep m c main_v141 (by decide)).trans <|
    (W22_keep m c main_v141 (by decide)).trans <|
    (W21_keep m c main_v141 (by decide))
theorem k31_arg8 : W31 m c (Proc.devRef .tc main_arg8) = W20 m c (Proc.devRef .tc main_arg8) :=
  (W31_arg m c (by decide)).trans (W20_arg m c (by decide)).symm

/-! ### The third block: the product `main_v194`, its sums `main_v201_0` and `main_v201_1`, the result `main_v216` -/

theorem r34_v196 : W34 m c (Proc.devRef .tc main_v196) = Cert.Spec.row3 (W33 m c (Proc.devRef .tc main_arg9)) 2 slices_S3x256_S1x256_2_0 :=
  host16_v196 (W33 m c)
theorem r34_v198 : W34 m c (Proc.devRef .tc main_v198) = Cert.Spec.row3 (W33 m c (Proc.devRef .tc main_arg10)) 2 slices_S3x256_S1x256_2_0 :=
  host16_v198 (W33 m c)
theorem r34_v200 : W34 m c (Proc.devRef .tc main_v200) = Cert.Spec.row3 (W33 m c (Proc.devRef .tc main_arg11)) 2 slices_S3x256_S1x256_2_0 :=
  host16_v200 (W33 m c)
/-- The product is written by region 15 only: it is there when region 16 reads it, -/
theorem k34_v194 : W34 m c (Proc.devRef .tc main_v194) = W33 m c (Proc.devRef .tc main_v194) :=
  (W34_keep m c main_v194 (by decide))
/-- and when region 17 reads it. -/
theorem k36_v194 : W36 m c (Proc.devRef .tc main_v194) = W33 m c (Proc.devRef .tc main_v194) :=
  (W36_keep m c main_v194 (by decide)).trans <|
    (W35_keep m c main_v194 (by decide)).trans <|
    (W34_keep m c main_v194 (by decide))
/-- Region 16 leaves the column sums of the product in `main_v201_0`. -/
theorem r35_v201_0 : W35 m c (Proc.devRef .tc main_v201_0) = Cert.Spec.colsum (W34 m c (Proc.devRef .tc main_v194)) :=
  (W35_arr m c 1).trans (arrAt16_1 (rd (W34 m)) c)
/-- Region 16 leaves the column sums of squares of the product in `main_v201_1`. -/
theorem r35_v201_1 : W35 m c (Proc.devRef .tc main_v201_1) = Cert.Spec.colsumsq (W34 m c (Proc.devRef .tc main_v194)) :=
  (W35_arr m c 2).trans (arrAt16_2 (rd (W34 m)) c)
/-- The three flat rows are no arrays of region 16. -/
theorem k35_v196 : W35 m c (Proc.devRef .tc main_v196) = W34 m c (Proc.devRef .tc main_v196) :=
  (W35_keep m c main_v196 (by decide))
theorem k35_v198 : W35 m c (Proc.devRef .tc main_v198) = W34 m c (Proc.devRef .tc main_v198) :=
  (W35_keep m c main_v198 (by decide))
theorem k35_v200 : W35 m c (Proc.devRef .tc main_v200) = W34 m c (Proc.devRef .tc main_v200) :=
  (W35_keep m c main_v200 (by decide))
theorem r36_v211 : W36 m c (Proc.devRef .tc main_v211) = shapeCast S1x256 (W35 m c (Proc.devRef .tc main_v196)) shapeCasts_S256_S1x256 :=
  host17_v211 (W35 m c)
theorem r36_v212 : W36 m c (Proc.devRef .tc main_v212) = shapeCast S1x256 (W35 m c (Proc.devRef .tc main_v198)) shapeCasts_S256_S1x256 :=
  host17_v212 (W35 m c)
theorem r36_v213 : W36 m c (Proc.devRef .tc main_v213) = shapeCast S1x256 (W35 m c (Proc.devRef .tc main_v200)) shapeCasts_S256_S1x256 :=
  host17_v213 (W35 m c)
theorem r36_v214 : W36 m c (Proc.devRef .tc main_v214)
    = shapeCast S1x256 (addf (F := Ideal) (φ := .f32) (Host.divf (F := Ideal) (φ := .f32) (shapeCast S256 (W35 m c (Proc.devRef .tc main_v201_0)) shapeCasts_S1x256_S256) (broadcastInDim S256 ![] bcast_S_S256 (constant (F := Ideal) S_ .f32 0x47435000#32))) (W35 m c (Proc.devRef .tc main_v196))) shapeCasts_S256_S1x256 :=
  host17_v214 (W35 m c)
theorem r36_v215 : W36 m c (Proc.devRef .tc main_v215)
    = shapeCast S1x256 (subf (F := Ideal) (φ := .f32) (Host.divf (F := Ideal) (φ := .f32) (shapeCast S256 (W35 m c (Proc.devRef .tc main_v201_1)) shapeCasts_S1x256_S256) (broadcastInDim S256 ![] bcast_S_S256 (constant (F := Ideal) S_ .f32 0x47435000#32))) (mulf (F := Ideal) (φ := .f32) (Host.divf (F := Ideal) (φ := .f32) (shapeCast S256 (W35 m c (Proc.devRef .tc main_v201_0)) shapeCasts_S1x256_S256) (broadcastInDim S256 ![] bcast_S_S256 (constant (F := Ideal) S_ .f32 0x47435000#32))) (Host.divf (F := Ideal) (φ := .f32) (shapeCast S256 (W35 m c (Proc.devRef .tc main_v201_0)) shapeCasts_S1x256_S256) (broadcastInDim S256 ![] bcast_S_S256 (constant (F := Ideal) S_ .f32 0x47435000#32))))) shapeCasts_S256_S1x256 :=
  host17_v215 (W35 m c)
/-- Region 17 leaves in `main_v216` the normalising kernel's function of the product and the five one-row arrays. -/
theorem r37_v216 : W37 m c (Proc.devRef .tc main_v216)
    = Cert.Spec.bnrelu (W36 m c (Proc.devRef .tc main_v194)) (W36 m c (Proc.devRef .tc main_v211)) (W36 m c (Proc.devRef .tc main_v212)) (W36 m c (Proc.devRef .tc main_v213)) (W36 m c (Proc.devRef .tc main_v214)) (W36 m c (Proc.devRef .tc main_v215)) :=
  (W37_arr m c 6).trans (final17_6 (rd (W36 m)) c)
/-- The block as one function: `main_v216` is the batch-norm block of the product, with row 2 of the bias, scale and shift arrays. -/
theorem blk2_v216 : W37 m c (Proc.devRef .tc main_v216)
    = Cert.Spec.bnK (W33 m c (Proc.devRef .tc main_v194)) (Cert.Spec.row3 (W33 m c (Proc.devRef .tc main_arg9)) 2 slices_S3x256_S1x256_2_0) (Cert.Spec.row3 (W33 m c (Proc.devRef .tc main_arg10)) 2 slices_S3x256_S1x256_2_0)
        (Cert.Spec.row3 (W33 m c (Proc.devRef .tc main_arg11)) 2 slices_S3x256_S1x256_2_0) := by
  rw [r37_v216, r36_v211, r36_v212, r36_v213, r36_v214, r36_v215, k36_v194,
    r35_v201_0, r35_v201_1, k35_v196, k35_v198, k35_v200, k34_v194,
    r34_v196, r34_v198, r34_v200]
  exact bnK_of_parts _ _ _ _
theorem k33_arg9 : W33 m c (Proc.devRef .tc main_arg9) = W20 m c (Proc.devRef .tc main_arg9) :=
  (W33_arg m c (by decide)).trans (W20_arg m c (by decide)).symm
theorem k33_arg10 : W33 m c (Proc.devRef .tc main_arg10) = W20 m c (Proc.devRef .tc main_arg10) :=
  (W33_arg m c (by decide)).trans (W20_arg m c (by decide)).symm
theorem k33_arg11 : W33 m c (Proc.devRef .tc main_arg11) = W20 m c (Proc.devRef .tc main_arg11) :=
  (W33_arg m c (by decide)).trans (W20_arg m c (by decide)).symm

/-- **The third global block.** `xg2 = main_v216` at region 17's exit, as a function of `xg1` (as region 14 left it),
    `h3` and the arguments. -/
theorem read_xg2 : W37 m c (Proc.devRef .tc main_v216)
    = Cert.Spec.denseK (Cert.Spec.cat (W31 m c (Proc.devRef .tc main_v190)) (W20 m c (Proc.devRef .tc main_v141)))
        (Cert.Spec.mat2w (W20 m c (Proc.devRef .tc main_arg8)) 1 slices_S2x512x256_S1x512x256_1_0_0)
        (Cert.Spec.row3 (W20 m c (Proc.devRef .tc main_arg9)) 2 slices_S3x256_S1x256_2_0) (Cert.Spec.row3 (W20 m c (Proc.devRef .tc main_arg10)) 2 slices_S3x256_S1x256_2_0)
        (Cert.Spec.row3 (W20 m c (Proc.devRef .tc main_arg11)) 2 slices_S3x256_S1x256_2_0) := by
  unfold Cert.Spec.denseK
  rw [blk2_v216, r33_v194, r32_v191, r32_v193, k31_v141, k31_arg8, k33_arg9, k33_arg10, k33_arg11]

/-! ## The same three, the arguments at their launch contents

An argument of @main holds at every boundary what the launch memory `m` holds there; `h3` stays the buffer as region 8 left it. -/

theorem read_xg0_m : W25 m c (Proc.devRef .tc main_v164)
    = Cert.Spec.denseK (W20 m c (Proc.devRef .tc main_v141)) (m ((c : Thread nD τ).loc main_arg7))
        (Cert.Spec.row3 (m ((c : Thread nD τ).loc main_arg9)) 0 slices_S3x256_S1x256_0_0) (Cert.Spec.row3 (m ((c : Thread nD τ).loc main_arg10)) 0 slices_S3x256_S1x256_0_0)
        (Cert.Spec.row3 (m ((c : Thread nD τ).loc main_arg11)) 0 slices_S3x256_S1x256_0_0) := by
  rw [read_xg0, W20_arg m c (b := main_arg7) (by decide), W20_arg m c (b := main_arg9) (by decide), W20_arg m c (b := main_arg10) (by decide), W20_arg m c (b := main_arg11) (by decide)]

theorem read_xg1_m : W31 m c (Proc.devRef .tc main_v190)
    = Cert.Spec.denseK (Cert.Spec.cat (W25 m c (Proc.devRef .tc main_v164)) (W20 m c (Proc.devRef .tc main_v141)))
        (Cert.Spec.mat2w (m ((c : Thread nD τ).loc main_arg8)) 0 slices_S2x512x256_S1x512x256_0_0_0)
        (Cert.Spec.row3 (m ((c : Thread nD τ).loc main_arg9)) 1 slices_S3x256_S1x256_1_0) (Cert.Spec.row3 (m ((c : Thread nD τ).loc main_arg10)) 1 slices_S3x256_S1x256_1_0)
        (Cert.Spec.row3 (m ((c : Thread nD τ).loc main_arg11)) 1 slices_S3x256_S1x256_1_0) := by
  rw [read_xg1, W20_arg m c (b := main_arg8) (by decide), W20_arg m c (b := main_arg9) (by decide), W20_arg m c (b := main_arg10) (by decide), W20_arg m c (b := main_arg11) (by decide)]

theorem read_xg2_m : W37 m c (Proc.devRef .tc main_v216)
    = Cert.Spec.denseK (Cert.Spec.cat (W31 m c (Proc.devRef .tc main_v190)) (W20 m c (Proc.devRef .tc main_v141)))
        (Cert.Spec.mat2w (m ((c : Thread nD τ).loc main_arg8)) 1 slices_S2x512x256_S1x512x256_1_0_0)
        (Cert.Spec.row3 (m ((c : Thread nD τ).loc main_arg9)) 2 slices_S3x256_S1x256_2_0) (Cert.Spec.row3 (m ((c : Thread nD τ).loc main_arg10)) 2 slices_S3x256_S1x256_2_0)
        (Cert.Spec.row3 (m ((c : Thread nD τ).loc main_arg11)) 2 slices_S3x256_S1x256_2_0) := by
  rw [read_xg2, W20_arg m c (b := main_arg8) (by decide), W20_arg m c (b := main_arg9) (by decide), W20_arg m c (b := main_arg10) (by decide), W20_arg m c (b := main_arg11) (by decide)]

/-! ## The three results where the local path reads them

`xg0` is region 19's first array (entered at W40), `xg1` region 23's (entered at W48), `xg2` region 18's (entered at W38)
and region 27's (entered at W56). None is written after its block. -/

/-- `xg0` where region 19 reads it. -/
theorem xg0_at40 : W40 m c (Proc.devRef .tc main_v164) = W25 m c (Proc.devRef .tc main_v164) :=
  (W40_keep m c main_v164 (by decide)).trans <|
    (W39_keep m c main_v164 (by decide)).trans <|
    (W38_keep m c main_v164 (by decide)).trans <|
    (W37_keep m c main_v164 (by decide)).trans <|
    (W36_keep m c main_v164 (by decide)).trans <|
    (W35_keep m c main_v164 (by decide)).trans <|
    (W34_keep m c main_v164 (by decide)).trans <|
    (W33_keep m c main_v164 (by decide)).trans <|
    (W32_keep m c main_v164 (by decide)).trans <|
    (W31_keep m c main_v164 (by decide)).trans <|
    (W30_keep m c main_v164 (by decide)).trans <|
    (W29_keep m c main_v164 (by decide)).trans <|
    (W28_keep m c main_v164 (by decide)).trans <|
    (W27_keep m c main_v164 (by decide)).trans <|
    (W26_keep m c main_v164 (by decide))
/-- `xg1` where region 23 reads it. -/
theorem xg1_at48 : W48 m c (Proc.devRef .tc main_v190) = W31 m c (Proc.devRef .tc main_v190) :=
  (W48_keep m c main_v190 (by decide)).trans <|
    (W47_keep m c main_v190 (by decide)).trans <|
    (W46_keep m c main_v190 (by decide)).trans <|
    (W45_keep m c main_v190 (by decide)).trans <|
    (W44_keep m c main_v190 (by decide)).trans <|
    (W43_keep m c main_v190 (by decide)).trans <|
    (W42_keep m c main_v190 (by decide)).trans <|
    (W41_keep m c main_v190 (by decide)).trans <|
    (W40_keep m c main_v190 (by decide)).trans <|
    (W39_keep m c main_v190 (by decide)).trans <|
    (W38_keep m c main_v190 (by decide)).trans <|
    (W37_keep m c main_v190 (by decide)).trans <|
    (W36_keep m c main_v190 (by decide)).trans <|
    (W35_keep m c main_v190 (by decide)).trans <|
    (W34_keep m c main_v190 (by decide)).trans <|
    (W33_keep m c main_v190 (by decide)).trans <|
    (W32_keep m c main_v190 (by decide))
/-- `xg2` where region 18 reads it. -/
theorem xg2_at38 : W38 m c (Proc.devRef .tc main_v216) = W37 m c (Proc.devRef .tc main_v216) :=
  (W38_keep m c main_v216 (by decide))
/-- `xg2` where region 27 reads it. -/
theorem xg2_at56 : W56 m c (Proc.devRef .tc main_v216) = W37 m c (Proc.devRef .tc main_v216) :=
  (W56_keep m c main_v216 (by decide)).trans <|
    (W55_keep m c main_v216 (by decide)).trans <|
    (W54_keep m c main_v216 (by decide)).trans <|
    (W53_keep m c main_v216 (by decide)).trans <|
    (W52_keep m c main_v216 (by decide)).trans <|
    (W51_keep m c main_v216 (by decide)).trans <|
    (W50_keep m c main_v216 (by decide)).trans <|
    (W49_keep m c main_v216 (by decide)).trans <|
    (W48_keep m c main_v216 (by decide)).trans <|
    (W47_keep m c main_v216 (by decide)).trans <|
    (W46_keep m c main_v216 (by decide)).trans <|
    (W45_keep m c main_v216 (by decide)).trans <|
    (W44_keep m c main_v216 (by decide)).trans <|
    (W43_keep m c main_v216 (by decide)).trans <|
    (W42_keep m c main_v216 (by decide)).trans <|
    (W41_keep m c main_v216 (by decide)).trans <|
    (W40_keep m c main_v216 (by decide)).trans <|
    (W39_keep m c main_v216 (by decide)).trans <|
    (W38_keep m c main_v216 (by decide))

end Read

end Cert.KernelIdeal.Reg

end
-- ==== Proof.KI.Val18.lean ====
/- THE VALUE of region 18 at the ideal values: the output array after the region is the output head (Spec/OpHead.lean
   outhead: each row's logits block·weight + bias, shifted by the row maximum, minus the logarithm of the row sum of
   exponentials) of the three input arrays as the region finds them, at every index. Two halves. THE PAYLOAD: the one
   store's payload, read at an index of a block, is outhead of the loaded blocks there — each operation of the printed
   payload read at an index (the format changes vanish; the matmul into zero is the sum over the contraction index; the
   two one-axis reductions are the fold of max from -∞ and the sum over the two classes; the shape casts and broadcasts
   re-index). FROM THE BLOCKS TO THE ARRAY: point t's block of rows is rows 1000·t … 1000·t + 999 of the array and so is
   its output block, the weight's and the bias's one block is the whole array, the head at a row reads that row only, and
   the 50 output blocks cover the array. -/
import proofs.«146967_j25786983645193_1_alg».proof.Proof.KI.Reg18
import proofs.«146967_j25786983645193_1_alg».proof.Proof.Spec.OpHead
import Idealize.ShloMosaic.Lib.Pipeline.Value
import Idealize.ShloMosaic.PureOps.Ideal
import Idealize.ShloMosaic.PureOps.Ideal.Laws
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open Cert.Spec
open scoped BigOperators

/-! ## The payload, read at an index -/

/-- The f32 pattern of -∞ denotes the extended reals' ⊥. -/
theorem negInf18 : Ideal.ofBits .f32 0xFF800000#32 = ⊥ := by simp [Ideal.ofBits, Ideal.ieee]

section Cols
variable {α : Type}

/-- A column [1000,1] broadcast along the classes reads the column's row. -/
theorem bcastCol18_apply (u : S1000x1.Idx → α) (r : Fin 1000) (j : Fin 2) :
    broadcastTo S1000x2 u broadcasts_S1000x1_S1000x2 (ix2 r j) = u (ix2 r (0 : Fin 1)) :=
  broadcastTo_apply u _ (ix2 r j) (ix2 r (0 : Fin 1)) fun a => match a with | ⟨0, _⟩ => rfl | ⟨1, _⟩ => rfl

/-- A [1000] vector cast to a column reads the same row. -/
theorem castCol18_apply (u : S1000.Idx → α) (r : Fin 1000) :
    shapeCast S1000x1 u shapeCasts_S1000_S1000x1 (ix2 r (0 : Fin 1)) = u (ix1 r) :=
  shapeCast_apply u _ (ix2 r (0 : Fin 1)) (ix1 r) (by rw [Shape.rowMajor_val_one, Shape.rowMajor_val_two]; show r.val = r.val * 1 + 0; omega)

/-- The bias row [1,2] broadcast along the rows reads the bias at the class. -/
theorem bcastRow18_apply (u : S1x2.Idx → α) (r : Fin 1000) (j : Fin 2) :
    broadcastTo S1000x2 u broadcasts_S1x2_S1000x2 (ix2 r j) = u (ix2 (0 : Fin 1) j) :=
  broadcastTo_apply u _ (ix2 r j) (ix2 (0 : Fin 1) j) fun a => match a with | ⟨0, _⟩ => rfl | ⟨1, _⟩ => rfl
end Cols

/-- The reduced index (row r) with class k inserted on the reduced axis is (r, k). -/
theorem lift18 (r : Fin 1000) (k : Fin 2) : reduces_S1000x2_S1000.lift (ix1 r) k = ix2 r k :=
  funext fun a => Fin.ext (match a with | ⟨0, _⟩ => rfl | ⟨1, _⟩ => rfl)

/-- The exponential and the logarithm of a vector, at an index, are the ideal values' own of the element. -/
theorem exp18_apply {s : Shape} {φ : FTy} (v : FVec Ideal s φ) (i : s.Idx) : exp v i = Ideal.exp (v i) := rfl
theorem log18_apply {s : Shape} {φ : FTy} (v : FVec Ideal s φ) (i : s.Idx) : log v i = Ideal.log (v i) := rfl

/-- The maximum over the class axis at row r: the fold of max from -∞ over the two classes. -/
theorem rowmax18_apply (v : FVec Ideal S1000x2 .f32) (hφ : FKind.Formats .f32)
    (hacc : (0xFF800000#32 : BitVec 32) = FKind.maximumf.neutral .f32 hφ) (r : Fin 1000) :
    multiReduction .maximumf [1] S1000 v 0xFF800000#32 reduces_S1000x2_S1000 hφ hacc (ix1 r)
      = (Finset.univ : Finset (Fin 2)).fold max ⊥ (fun j => v (ix2 r j)) := by
  rw [Ideal.multiReduction_maximumf_single]
  show (Finset.univ : Finset (Fin 2)).fold max (Ideal.ofBits .f32 0xFF800000#32) (v ∘ reduces_S1000x2_S1000.lift (ix1 r)) = _
  rw [negInf18]
  exact congrArg (fun f => (Finset.univ : Finset (Fin 2)).fold max ⊥ f) (funext fun k => congrArg v (lift18 r k))

/-- The sum over the class axis at row r: the sum over the two classes. -/
theorem rowsum18_apply (v : FVec Ideal S1000x2 .f32) (hφ : FKind.Formats .f32)
    (hacc : (0x00000000#32 : BitVec 32) = FKind.add.neutral .f32 hφ) (r : Fin 1000) :
    multiReduction .add [1] S1000 v 0x00000000#32 reduces_S1000x2_S1000 hφ hacc (ix1 r)
      = ∑ j : Fin 2, v (ix2 r j) := by
  rw [Ideal.multiReduction_add_single]
  exact Finset.sum_congr rfl fun k _ => congrArg v (lift18 r k)

/-- The affine map at (r, j), the same-shape casts of its operands already dropped: the format changes are the identity, the matmul into zero is the sum over the contraction
    index — re-indexed through its one coordinate — of the products, and the bias is read at the class. -/
theorem logit18_apply (x0 : Vec Ideal S1000x256 .f32) (x1 : Vec Ideal S256x2 .f32) (x2 : Vec Ideal S1x2 .f32) (r : Fin 1000) (j : Fin 2) :
    addf (F := Ideal) (matmul dot_S1000x256_S256x2_S1000x2_1_0_0_1_n_n none (truncf .bf16 x0 bitsLt_bf16_f32) (truncf .bf16 x1 bitsLt_bf16_f32) (constant S1000x2 .f32 0x00000000#32))
      (broadcastTo S1000x2 x2 broadcasts_S1x2_S1000x2) (ix2 r j)
    = headLogit x0 x1 x2 r j := by
  rw [addf_apply, bcastRow18_apply]
  unfold headLogit
  congr 1
  simp only [Idealize.ShloMosaic.matmul]
  rw [Ideal.matmul_constant_zero_apply]
  rw [← Equiv.sum_comp (contrEquiv1 dot_S1000x256_S256x2_S1000x2_1_0_0_1_n_n 256 rfl rfl) (fun k => x0 (ix2 r k) * x1 (ix2 k j))]
  refine Finset.sum_congr rfl fun q _ => ?_
  rw [truncf_apply, truncf_apply]
  have hl : dot_S1000x256_S256x2_S1000x2_1_0_0_1_n_n.lhsIdx (ix2 r j) q
      = ix2 r (contrEquiv1 dot_S1000x256_S256x2_S1000x2_1_0_0_1_n_n 256 rfl rfl q) :=
    funext fun a => Fin.ext (match a with | ⟨0, _⟩ => rfl | ⟨1, _⟩ => rfl)
  have hr : dot_S1000x256_S256x2_S1000x2_1_0_0_1_n_n.rhsIdx (ix2 r j) q
      = ix2 (contrEquiv1 dot_S1000x256_S256x2_S1000x2_1_0_0_1_n_n 256 rfl rfl q) j :=
    funext fun a => Fin.ext (match a with | ⟨0, _⟩ => rfl | ⟨1, _⟩ => rfl)
  rw [hl, hr]

/-- THE PAYLOAD is the output head of the loaded blocks: each operation read at the index (r, j), the two reductions at row r. -/
theorem pay18_eq (x0 : Vec Ideal S1000x256 .f32) (x1 : Vec Ideal S256x2 .f32) (x2 : Vec Ideal S1x2 .f32) :
    k18_pay1 x0 x1 x2 = outhead x0 x1 x2 := by
  funext i
  obtain ⟨r, j, rfl⟩ : ∃ (r : Fin 1000) (j : Fin 2), i = ix2 r j := ⟨i 0, i 1, eq_ix2 i⟩
  unfold k18_pay1
  -- a shape cast to the same shape is the identity
  simp only [shapeCast_self]
  simp only [subf_apply, bcastCol18_apply, castCol18_apply, logit18_apply, exp18_apply, log18_apply]
  erw [rowsum18_apply]
  simp only [subf_apply, bcastCol18_apply, castCol18_apply, logit18_apply, exp18_apply]
  erw [rowmax18_apply]
  simp only [logit18_apply]
  rfl

/-! ## From the blocks to the array -/

variable (V : (c : Dev nD) → (b : Ref sig .tc) → Buf (Elt Ideal) ((c : Thread nD τ).loc b))

/-- The whole-block rectangle's offsets are zero. -/
theorem hz18 : (![0, 0] : Fin 2 → Nat) = fun _ => 0 := funext fun a => match a with | ⟨0, _⟩ => rfl | ⟨1, _⟩ => rfl

/-- The printed index maps, decided over the grid's 50 points: the block of rows and the output block are at the
    point's own number on the row axis, the weight and the bias at block 0. -/
theorem idx_facts18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = t.val ∧ win18_3.index t (1 : Fin 2) = 0 :=
  (by decide +kernel : ∀ t : Fin grid18.N, _)

set_option maxHeartbeats 4000000 in
/-- WHAT POINT t WRITES BACK is block t of the output head of the three arrays as the region finds them. -/
theorem flushed18_3_eq (c : Dev nD) (t : Fin cfg18.N) :
    (dat18 V c).flushed 3 t = ((cfg18.win 3).blk t).view.read (Elt Ideal)
      (outhead (R := 50000) (K := 256) (C := 2) (V c (Pipeline.arrRef spec18 0)) (V c (Pipeline.arrRef spec18 1)) (V c (Pipeline.arrRef spec18 2))) := by
  show (cfg18.win 3).cut (grid18.coords t) ((dat18 V c).after 3 t) = _
  rw [after18_3]
  unfold out18_3
  rw [View.canon_unit_zero hz18]
  simp only [View.ld_unit_zero (S := S1000x256) hz18, View.ld_unit_zero (S := S256x2) hz18, View.ld_unit_zero (S := S1x2) hz18]
  rw [pay18_eq]
  obtain ⟨e00, e01, e10, e11, e20, e21, e30, e31⟩ := idx_facts18 t
  have hN : cfg18.N = 50 := N_18
  have key : ∀ (r : Fin 1000) (k : Fin 2),
      outhead (iblk18 V c 0 t) (iblk18 V c 1 t) (iblk18 V c 2 t) (ix2 r k)
        = outhead (R := 50000) (K := 256) (C := 2) (V c (Pipeline.arrRef spec18 0)) (V c (Pipeline.arrRef spec18 1)) (V c (Pipeline.arrRef spec18 2))
            (((cfg18.win 3).blk t).view.emb (ix2 r k)) := by
    intro r k
    -- the weight's and the bias's one block is the whole array
    have h1 : (iblk18 V c 1 t : Vec Ideal S256x2 .f32) = V c (Pipeline.arrRef spec18 1) := by
      funext y
      show V c (Pipeline.arrRef spec18 1) (((cfg18.win 1).blk t).view.emb y) = V c (Pipeline.arrRef spec18 1) y
      congr 1
      funext a; apply Fin.ext
      match a with
      | ⟨0, _⟩ => show win18_1.index t (0 : Fin 2) * 256 + 1 * (y 0).val = (y 0).val; omega
      | ⟨1, _⟩ => show win18_1.index t (1 : Fin 2) * 2 + 1 * (y 1).val = (y 1).val; omega
    have h2 : (iblk18 V c 2 t : Vec Ideal S1x2 .f32) = V c (Pipeline.arrRef spec18 2) := by
      funext y
      show V c (Pipeline.arrRef spec18 2) (((cfg18.win 2).blk t).view.emb y) = V c (Pipeline.arrRef spec18 2) y
      congr 1
      funext a; apply Fin.ext
      match a with
      | ⟨0, _⟩ => show win18_2.index t (0 : Fin 2) * 1 + 1 * (y 0).val = (y 0).val; omega
      | ⟨1, _⟩ => show win18_2.index t (1 : Fin 2) * 2 + 1 * (y 1).val = (y 1).val; omega
    -- row r of point t's block of rows is row 1000·t + r of the array, and so is row r of its output block
    have hr' : t.val * 1000 + r.val < 50000 := by have := t.isLt; have := r.isLt; omega
    have h0 : ∀ k' : Fin 256, iblk18 V c 0 t (ix2 r k') = V c (Pipeline.arrRef spec18 0) (ix2 (n0 := 50000) (n1 := 256) ⟨t.val * 1000 + r.val, hr'⟩ k') := by
      intro k'
      show V c (Pipeline.arrRef spec18 0) (((cfg18.win 0).blk t).view.emb (ix2 r k')) = _
      congr 1
      funext a; apply Fin.ext
      match a with
      | ⟨0, _⟩ => show win18_0.index t (0 : Fin 2) * 1000 + 1 * r.val = t.val * 1000 + r.val; omega
      | ⟨1, _⟩ => show win18_0.index t (1 : Fin 2) * 256 + 1 * k'.val = k'.val; omega
    have he : ((cfg18.win 3).blk t).view.emb (ix2 r k) = ix2 (n0 := 50000) (n1 := 2) ⟨t.val * 1000 + r.val, hr'⟩ k := by
      funext a; apply Fin.ext
      match a with
      | ⟨0, _⟩ => show win18_3.index t (0 : Fin 2) * 1000 + 1 * r.val = t.val * 1000 + r.val; omega
      | ⟨1, _⟩ => show win18_3.index t (1 : Fin 2) * 2 + 1 * k.val = k.val; omega
    rw [he, h1, h2]
    exact outhead_congr (iblk18 V c 0 t) (V c (Pipeline.arrRef spec18 0)) (V c (Pipeline.arrRef spec18 1)) (V c (Pipeline.arrRef spec18 2)) r ⟨t.val * 1000 + r.val, hr'⟩ h0 k
  funext x
  rw [eq_ix2 (n0 := 1000) (n1 := 2) x]
  exact key (x 0) (x 1)

set_option maxHeartbeats 4000000 in
/-- An index of the output array is in point t's block iff each coordinate is in the block's range on its axis. -/
theorem mem_blk18_3 (t : Fin cfg18.N) (i : S50000x2.Idx) :
    i ∈ ((cfg18.win 3).blk t).view.set ↔ ∀ a : Fin 2, win18_3.index t a * S1000x2.size a ≤ (i a).val ∧ (i a).val < win18_3.index t a * S1000x2.size a + S1000x2.size a := by
  show i ∈ ((View.whole (Pipeline.arrRef spec18 3)).slice (win18_3.rect t)).set ↔ _
  rw [View.set_slice_whole, Rect.mem_set_unit]
  exact Iff.rfl

set_option maxHeartbeats 4000000 in
/-- Every index of the output array is in some point's block: row i is in block i / 1000 of the 50. -/
theorem cover18_arr (i : S50000x2.Idx) : ∃ t : Fin cfg18.N, (cfg18.win 3).flush t = true ∧ i ∈ ((cfg18.win 3).blk t).view.set := by
  have hN : cfg18.N = 50 := N_18
  have hi0 : (i 0).val < 50000 := (i 0).isLt
  have hi1 : (i 1).val < 2 := (i 1).isLt
  have ht : (i 0).val / 1000 < cfg18.N := by rw [hN]; omega
  obtain ⟨-, -, -, -, -, -, e30, e31⟩ := idx_facts18 ⟨(i 0).val / 1000, ht⟩
  refine ⟨⟨(i 0).val / 1000, ht⟩, flush18_3 _, ?_⟩
  rw [mem_blk18_3]
  intro a
  match a with
  | ⟨0, _⟩ =>
    show win18_3.index ⟨(i 0).val / 1000, ht⟩ (0 : Fin 2) * 1000 ≤ (i 0).val ∧ (i 0).val < win18_3.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win18_3.index ⟨(i 0).val / 1000, ht⟩ (1 : Fin 2) * 2 ≤ (i 1).val ∧ (i 1).val < win18_3.index ⟨(i 0).val / 1000, ht⟩ (1 : Fin 2) * 2 + 2
    omega

set_option maxHeartbeats 4000000 in
/-- THE OUTPUT ARRAY after the region: the output head of the three input arrays as the region finds them, at every index. -/
theorem arr18_3 (c : Dev nD) : (dat18 V c).arrAt 3 cfg18.N
    = outhead (R := 50000) (K := 256) (C := 2) (V c (Pipeline.arrRef spec18 0)) (V c (Pipeline.arrRef spec18 1)) (V c (Pipeline.arrRef spec18 2)) :=
  (dat18 V c).arrAt_eq_of_cover 3 _ (fun t _ => flushed18_3_eq V c t) (fun i => cover18_arr i)

/-- info: 'Cert.KernelIdeal.Reg.arr18_3' depends on axioms: [propext, Classical.choice, Quot.sound] -/
#guard_msgs in #print axioms arr18_3

end Cert.KernelIdeal.Reg

end
-- ==== Proof.KI.Read3G.lean ====
/- THE VALUE OF THE KERNEL PROGRAM, the heads (first module): how a buffer's contents are carried along the chain of
   boundaries between the items of @main, and the global head.

   Every buffer of @main is written by exactly one item (a host operation's result, or a kernel region's output array).
   So the contents of a buffer at a boundary are its contents at any earlier boundary after the item that wrote it:
   no host stretch in between has it as a result, and no region in between has it as an output array. The tactic
   keep_down walks a buffer back in this way, one boundary at a time.

   The global head (region 18, entered at boundary 38): its rows are region 17's output, its weight the argument
   main_arg16, its bias the argument main_arg17 made a one-row array by the one host operation before the region. At
   the ideal values its output array is the output-head function of the three (the region's whole-array value), which
   is headK of the rows, the weight and the flat bias. -/
import proofs.«146967_j25786983645193_1_alg».proof.Proof.KI.Chain
import proofs.«146967_j25786983645193_1_alg».proof.Proof.KI.Val18
import proofs.«146967_j25786983645193_1_alg».proof.Proof.Spec.Net

-- decided memberships over the program's references recurse past the default depth
set_option maxRecDepth 16384

noncomputable section

namespace Cert.KernelIdeal.Reg

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Spec (mm colsum colsumsq bnrelu outhead denseK headK stack4 row3 mat3 mat3o row3o)

-- the launch memory, at the ideal values
variable (m : (ℓ : Loc nD τ sig) → Buf (Elt Ideal) ℓ)

/-! ## Carrying a buffer back along the chain -/

/-- keep_down b walks the contents of the reference b back along the chain of boundaries (26 … 64): at a boundary it
    replaces them by the contents at the boundary before, as long as the item in between does not write b — a stretch
    of host operations none of which has b as its result (b is not in the stretch's list of results), or a kernel
    region of which b is no output array (each window whose array is b is an input) — and stops at the item that
    writes b. Both side conditions are decided. -/
macro "keep_down " b:term : tactic =>
  `(tactic| repeat (first
    | rw [W64_keep _ _ $b (by decide)] | rw [W63_keep _ _ $b (by decide)] | rw [W62_keep _ _ $b (by decide)]
    | rw [W61_keep _ _ $b (by decide)] | rw [W60_keep _ _ $b (by decide)] | rw [W59_keep _ _ $b (by decide)]
    | rw [W58_keep _ _ $b (by decide)] | rw [W57_keep _ _ $b (by decide)] | rw [W56_keep _ _ $b (by decide)]
    | rw [W55_keep _ _ $b (by decide)] | rw [W54_keep _ _ $b (by decide)] | rw [W53_keep _ _ $b (by decide)]
    | rw [W52_keep _ _ $b (by decide)] | rw [W51_keep _ _ $b (by decide)] | rw [W50_keep _ _ $b (by decide)]
    | rw [W49_keep _ _ $b (by decide)] | rw [W48_keep _ _ $b (by decide)] | rw [W47_keep _ _ $b (by decide)]
    | rw [W46_keep _ _ $b (by decide)] | rw [W45_keep _ _ $b (by decide)] | rw [W44_keep _ _ $b (by decide)]
    | rw [W43_keep _ _ $b (by decide)] | rw [W42_keep _ _ $b (by decide)] | rw [W41_keep _ _ $b (by decide)]
    | rw [W40_keep _ _ $b (by decide)] | rw [W39_keep _ _ $b (by decide)] | rw [W38_keep _ _ $b (by decide)]
    | rw [W37_keep _ _ $b (by decide)] | rw [W36_keep _ _ $b (by decide)] | rw [W35_keep _ _ $b (by decide)]
    | rw [W34_keep _ _ $b (by decide)] | rw [W33_keep _ _ $b (by decide)] | rw [W32_keep _ _ $b (by decide)]
    | rw [W31_keep _ _ $b (by decide)] | rw [W30_keep _ _ $b (by decide)] | rw [W29_keep _ _ $b (by decide)]
    | rw [W28_keep _ _ $b (by decide)] | rw [W27_keep _ _ $b (by decide)] | rw [W26_keep _ _ $b (by decide)]))

/-! ## The global head -/

/-- The host stretch before region 18: the bias made a one-row array. -/
theorem read_v217 (c : Dev nD) :
    W38 m c (Proc.devRef .tc main_v217)
      = shapeCast S1x2 (W37 m c (Proc.devRef .tc main_arg17) : Vec Ideal S2 .f32) shapeCasts_S2_S1x2 := by
  show StableHlo.after hostOps18 _ (Proc.devRef .tc main_v217) = _
  after_results; rfl

/-- Region 18's output array, from the contents it is entered with: the output head of its three input arrays. -/
theorem read_v218 (c : Dev nD) :
    W39 m c (Proc.devRef .tc main_v218)
      = outhead (R := 50000) (K := 256) (C := 2) (W38 m c (Proc.devRef .tc main_v216))
          (W38 m c (Proc.devRef .tc main_arg16)) (W38 m c (Proc.devRef .tc main_v217)) :=
  (W39_arr m c 3).trans (arr18_3 (rd (W38 m)) c)

/-- THE GLOBAL HEAD: what region 18 leaves in main_v218 is headK of region 17's output (as boundary 37 has it), the
    weight argument and the flat bias argument as launched. -/
theorem read_og (c : Dev nD) :
    W39 m c (Proc.devRef .tc main_v218)
      = headK (W37 m c (Proc.devRef .tc main_v216)) (m ((c : Thread nD τ).loc main_arg16))
          (m ((c : Thread nD τ).loc main_arg17)) := by
  rw [read_v218, read_v217]
  keep_down main_v216
  rw [W38_arg m c (b := main_arg16) (by decide), W37_arg m c (b := main_arg17) (by decide)]
  rfl

end Cert.KernelIdeal.Reg

end
-- ==== Proof.KI.Val19.lean ====
/- REGION 19's output array after the region, at the ideal values, as ONE whole-array function of the region's two
   input arrays as it finds them: the [50000, 256] array ends holding the matrix product of the [50000, 256] array
   by the [256, 256] weight (`Cert.Spec.mm`).
   The road: at the ideal values narrowing to bf16 changes nothing and the product onto a zero accumulator is the
   sum over the contraction coordinate, so the body's payload at row `x`, column `y` of a block is
   `∑ k, block (x, k) * weight (k, y)` (`pay19_apply`). Point `t`'s row block is rows `1000 t …` of the array and
   its output block the same rows of the output, while the weight's block is the whole weight at every point
   (`idx_facts19`, decided over the 50 points); a product's rows are the products of the rows, so what point `t`
   writes back is block `t` of the whole product (`flushed19_2_eq`). Every point writes back, and row `r` lies in
   the block of point `r / 1000` (`cover19_out`), so the array ends holding the product and nothing of what it held
   before (`arrAt19_out`). -/
import proofs.«146967_j25786983645193_1_alg».proof.Proof.KI.Reg19
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz19 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay19_apply (xa : Vec Ideal S1000x256 .f32) (xb : Vec Ideal S256x256 .f32) (j : S1000x256.Idx) :
    k19_pay1 (F := Ideal) xa xb j = ∑ k : Fin 256, xa (ix2 (j 0) k) * xb (ix2 k (j 1)) := by
  unfold k19_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts19 : ∀ t : Fin cfg19.N,
    win19_0.index t (0 : Fin 2) = win19_2.index t (0 : Fin 2) ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0 :=
  (by decide +kernel : ∀ t : Fin grid19.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed19_2_eq (c : Dev nD) (t : Fin cfg19.N) :
    (dat19 (F := Ideal) V c).flushed 2 t
      = ((cfg19.win 2).blk t).view.read (Elt Ideal)
          (Cert.Spec.mm (M := 50000) (K := 256) (N := 256) (V c (Pipeline.arrRef spec19 0)) (V c (Pipeline.arrRef spec19 1))) := by
  show (cfg19.win 2).cut (grid19.coords t) ((dat19 (F := Ideal) V c).after 2 t) = _
  rw [after19_2]
  unfold out19_2
  rw [View.canon_unit_zero hz19]
  simp only [View.ld_unit_zero (S := S1000x256) hz19, View.ld_unit_zero (S := S256x256) hz19]
  obtain ⟨e0, e1, e2, e3, e4, e5⟩ := idx_facts19 t
  funext j
  show k19_pay1 (F := Ideal) (iblk19 V c 0 t) (iblk19 V c 1 t) j
    = Cert.Spec.mm (M := 50000) (K := 256) (N := 256) (V c (Pipeline.arrRef spec19 0)) (V c (Pipeline.arrRef spec19 1)) (((cfg19.win 2).blk t).view.emb j)
  rw [pay19_apply, Cert.Spec.mm_apply]
  refine Finset.sum_congr rfl fun k _ => ?_
  -- the row block's element (j 0, k) is the array's at the output block's row and column k
  have ha : ((cfg19.win 0).blk t).view.emb (ix2 (j 0) k) = ix2 ((((cfg19.win 2).blk t).view.emb j) 0) k := by
    funext a; apply Fin.ext
    match a with
    | ⟨0, _⟩ => show win19_0.index t (0 : Fin 2) * 1000 + 1 * (j 0).val = win19_2.index t (0 : Fin 2) * 1000 + 1 * (j 0).val; omega
    | ⟨1, _⟩ => show win19_0.index t (1 : Fin 2) * 256 + 1 * k.val = k.val; omega
  -- the weight's element (k, j 1) is the array's at row k and the output block's column
  have hb : ((cfg19.win 1).blk t).view.emb (ix2 k (j 1)) = ix2 k ((((cfg19.win 2).blk t).view.emb j) 1) := by
    funext a; apply Fin.ext
    match a with
    | ⟨0, _⟩ => show win19_1.index t (0 : Fin 2) * 256 + 1 * k.val = k.val; omega
    | ⟨1, _⟩ => show win19_1.index t (1 : Fin 2) * 256 + 1 * (j 1).val = win19_2.index t (1 : Fin 2) * 256 + 1 * (j 1).val; omega
  -- each block's element is its array's at the embedded index (a read through a view is precomposition)
  unfold iblk19
  rw [View.read_apply, View.read_apply]
  rewrite [ha, hb]
  rfl

/-! ## The output blocks cover the array -/

/-- An index of the output array is in point `t`'s block iff each coordinate is in the block's range on its axis. -/
theorem mem_blk19_2 (t : Fin cfg19.N) (i : S50000x256.Idx) :
    i ∈ ((cfg19.win 2).blk t).view.set ↔ ∀ a : Fin 2, win19_2.index t a * S1000x256.size a ≤ (i a).val ∧ (i a).val < win19_2.index t a * S1000x256.size a + S1000x256.size a := by
  show i ∈ ((View.whole (Pipeline.arrRef spec19 2)).slice (win19_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover19_out (i : S50000x256.Idx) :
    ∃ t : Fin cfg19.N, (cfg19.win 2).flush t = true ∧ i ∈ ((cfg19.win 2).blk t).view.set := by
  have hr : (i 0).val < 50000 := idx2_lt0 i
  have hc : (i 1).val < 256 := idx2_lt1 i
  have hN : cfg19.N = 50 := N_19
  let t : Fin cfg19.N := ⟨(i 0).val / 1000, by rw [hN]; omega⟩
  have ht : t.val = (i 0).val / 1000 := rfl
  obtain ⟨-, -, -, -, e4, e5⟩ := idx_facts19 t
  refine ⟨t, flush19_2 t, (mem_blk19_2 t i).mpr fun a => ?_⟩
  match a with
  | ⟨0, _⟩ => show win19_2.index t (0 : Fin 2) * 1000 ≤ (i 0).val ∧ (i 0).val < win19_2.index t (0 : Fin 2) * 1000 + 1000; omega
  | ⟨1, _⟩ => show win19_2.index t (1 : Fin 2) * 256 ≤ (i 1).val ∧ (i 1).val < win19_2.index t (1 : Fin 2) * 256 + 256; omega

/-! ## The output array after the region -/

/-- The product of the region's two arrays, at the program's shapes: `Cert.Spec.mm` at 50000 × 256 by 256 × 256. -/
abbrev mm19 (a : Vec Ideal S50000x256 .f32) (w : Vec Ideal S256x256 .f32) : Vec Ideal S50000x256 .f32 :=
  Cert.Spec.mm (M := 50000) (K := 256) (N := 256) a w

/-- THE OUTPUT ARRAY after the region, as one whole-array function of the two input arrays as the region finds
    them: their product. Every point writes back its block of that product (`flushed19_2_eq`) and the blocks cover
    the array (`cover19_out`), so nothing of what the array held before remains. -/
theorem arrAt19_out (c : Dev nD) :
    (dat19 (F := Ideal) V c).arrAt 2 cfg19.N = mm19 (V c (Pipeline.arrRef spec19 0)) (V c (Pipeline.arrRef spec19 1)) :=
  (dat19 (F := Ideal) V c).arrAt_eq_of_cover 2 _ (fun t _ => flushed19_2_eq V c t) cover19_out

end Cert.KernelIdeal.Reg
-- ==== Proof.KI.Val20.lean ====
/-
  THE VALUE of REGION 20 of the kernel program (custom_call 20, cc20__sumsq_kernel) at the ideal (extended-real) float
  values: after the region, the two [1,256] arrays its windows 1 and 2 write hold, at column k, the sum over all 50000
  rows of the [50000,256] array h the region read, and the sum of the squares:

      arrAt20_1 : (dat20 V c).arrAt 1 cfg20.N = colsum   (V c (Pipeline.arrRef spec20 0))
      arrAt20_2 : (dat20 V c).arrAt 2 cfg20.N = colsumsq (V c (Pipeline.arrRef spec20 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg20
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out20_B_1_eq (c : Dev nD) (i : grid20.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond20_0 i) (x : Vec F S1000x256 .f32) (xo1 xo2 : Vec F S1x256 .f32) :
    out20_B_1 c i a1 h1 a2 h2 a3 h3 hc x xo1 xo2 = k20_pay4 x xo1 := by
  unfold out20_B_1 kernelRun20_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out20_B_2_eq (c : Dev nD) (i : grid20.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond20_0 i) (x : Vec F S1000x256 .f32) (xo1 xo2 : Vec F S1x256 .f32) :
    out20_B_2 c i a1 h1 a2 h2 a3 h3 hc x xo1 xo2 = k20_pay5 x xo2 := by
  unfold out20_B_2 kernelRun20_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out20_A_1_eq (c : Dev nD) (i : grid20.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond20_0 i) (x : Vec F S1000x256 .f32) :
    out20_A_1 c i a1 h1 a2 h2 a3 h3 hc x = k20_pay4 x (k20_pay1 (F := F)) := by
  unfold out20_A_1 kernelRun20_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out20_A_2_eq (c : Dev nD) (i : grid20.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond20_0 i) (x : Vec F S1000x256 .f32) :
    out20_A_2 c i a1 h1 a2 h2 a3 h3 hc x = k20_pay5 x (k20_pay2 (F := F)) := by
  unfold out20_A_2 kernelRun20_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k20_pay1_apply (j : S1x256.Idx) : k20_pay1 (F := Ideal) j = 0 := Ideal.ofBits_zero_f32
theorem k20_pay2_apply (j : S1x256.Idx) : k20_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k20_pay4_apply (x : Vec Ideal S1000x256 .f32) (acc : Vec Ideal S1x256 .f32) (j : S1x256.Idx) :
    k20_pay4 x acc j = acc j + ∑ r : Fin 1000, x (ix2 r (j 1)) := by
  unfold k20_pay4 k20_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k20_pay5_apply (x : Vec Ideal S1000x256 .f32) (acc : Vec Ideal S1x256 .f32) (j : S1x256.Idx) :
    k20_pay5 x acc j = acc j + ∑ r : Fin 1000, x (ix2 r (j 1)) * x (ix2 r (j 1)) := by
  unfold k20_pay5 k20_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr20 (c : Dev nD) : Vec F S50000x256 .f32 := V c (Pipeline.arrRef spec20 0)

/-- Window 0's block index at point `t` is (t, 0): decided over the 50 points. -/
private theorem index20_0 : ∀ t : Fin cfg20.N, win20_0.index t 0 = t.val ∧ win20_0.index t 1 = 0 :=
  (by decide +kernel : ∀ t : Fin grid20.N, win20_0.index t 0 = t.val ∧ win20_0.index t 1 = 0)

/-- The input block at point `t` reads the array at rows `1000 t + r`. -/
theorem iblk20_0_apply (c : Dev nD) (t : Fin cfg20.N) (r : Fin 1000) (k : Fin 256) (P : Fin 50000)
    (hP : P.val = 1000 * t.val + r.val) :
    (iblk20 V c 0 t : Vec F S1000x256 .f32) (ix2 r k) = harr20 V c (ix2 P k) := by
  unfold iblk20
  rw [View.read_apply]
  show V c (Pipeline.arrRef spec20 0) _ = V c (Pipeline.arrRef spec20 0) _
  congr 1
  funext a
  apply Fin.ext
  match a with
  | ⟨0, _⟩ => show win20_0.index t 0 * 1000 + 1 * r.val = P.val; rw [(index20_0 t).1, hP]; omega
  | ⟨1, _⟩ => show win20_0.index t 1 * 256 + 1 * k.val = k.val; rw [(index20_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt20_eq (c : Dev nD) : ∀ (n : ℕ) (hn : n < cfg20.N) (j : S1x256.Idx),
    (outsAt20 V c n hn).1 j = rowsBelow 1000 (fun P : Fin 50000 => harr20 V c (ix2 P (j 1))) n
    ∧ (outsAt20 V c n hn).2 j
        = rowsBelow 1000 (fun P : Fin 50000 => harr20 V c (ix2 P (j 1)) * harr20 V c (ix2 P (j 1))) n
  | 0, hn, j => by
    rw [outsAt20_zero]
    dsimp only
    rw [out20_A_1_eq, out20_A_2_eq, k20_pay4_apply, k20_pay5_apply, k20_pay1_apply, k20_pay2_apply, zero_add, zero_add,
      rowsBelow_zero 1000 (by decide), rowsBelow_zero 1000 (by decide)]
    refine ⟨Finset.sum_congr rfl fun r _ => ?_, Finset.sum_congr rfl fun r _ => ?_⟩
    · exact iblk20_0_apply V c ⟨0, hn⟩ r (j 1) _ (by show r.val = 1000 * 0 + r.val; omega)
    · rw [iblk20_0_apply V c ⟨0, hn⟩ r (j 1) ⟨r.val, by have := r.isLt; omega⟩ (by show r.val = 1000 * 0 + r.val; omega)]
  | n + 1, hn, j => by
    have hN : n + 1 < 50 := lt_of_lt_of_eq hn (show cfg20.N = 50 from N_20)
    rw [outsAt20_succ]
    dsimp only
    rw [out20_B_1_eq, out20_B_2_eq, k20_pay4_apply, k20_pay5_apply,
      (outsAt20_eq c n (Nat.lt_of_succ_lt hn) j).1, (outsAt20_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk20_0_apply V c ⟨n + 1, hn⟩ r (j 1) _ rfl
    · rw [iblk20_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t20_last : Fin cfg20.N := ⟨49, lt_of_lt_of_eq (by decide : 49 < 50) (show cfg20.N = 50 from N_20).symm⟩

/-- After the last point output 1's buffer holds the column sums of the whole array, -/
theorem outsAt20_last_1 (c : Dev nD) :
    (outsAt20 V c t20_last.val t20_last.isLt).1 = colsum (n := 50000) (d := 256) (harr20 V c) :=
  funext fun j => by
    rw [(outsAt20_eq V c _ _ j).1, rowsBelow_all 1000 _ _ (by decide)]; rfl

/-- and output 2's the column sums of its squares. -/
theorem outsAt20_last_2 (c : Dev nD) :
    (outsAt20 V c t20_last.val t20_last.isLt).2 = colsumsq (n := 50000) (d := 256) (harr20 V c) :=
  funext fun j => by
    rw [(outsAt20_eq V c _ _ j).2, rowsBelow_all 1000 _ _ (by decide)]; rfl

/-- The one write-back of output 1, after the last point, writes the column sums: its block is the whole [1,256] array,
    read through zero offsets. -/
theorem flushed20_1_eq (c : Dev nD) (t : Fin cfg20.N) (hf : (cfg20.win 1).flush t = true) :
    (dat20 V c).flushed 1 t
      = ((cfg20.win 1).blk t).view.read (Elt Ideal) (colsum (n := 50000) (d := 256) (harr20 V c)) := by
  have hN : t.val < 50 := lt_of_lt_of_eq t.isLt (show cfg20.N = 50 from N_20)
  have h49 : t.val = 49 := by have := (flush20_1 t).mp hf; omega
  obtain rfl : t = t20_last := Fin.ext h49
  show (cfg20.win 1).cut (grid20.coords t20_last) ((dat20 V c).after 1 t20_last) = _
  rw [after20_1, outsAt20_last_1]
  have hz' : (fun a => win20_1.index t20_last a * (Pipeline.arrRef spec20 1).ty.shape.size a) = fun _ => 0 :=
    funext fun a => by fin_cases a <;> decide +kernel
  exact (Memref.read_access_unit_zero (Elt Ideal) (Pipeline.arrRef spec20 1) hz' (fun a => by rw [congrFun hz' a]; simp)
    (colsum (n := 50000) (d := 256) (harr20 V c))).symm

/-- Likewise output 2's. -/
theorem flushed20_2_eq (c : Dev nD) (t : Fin cfg20.N) (hf : (cfg20.win 2).flush t = true) :
    (dat20 V c).flushed 2 t
      = ((cfg20.win 2).blk t).view.read (Elt Ideal) (colsumsq (n := 50000) (d := 256) (harr20 V c)) := by
  have hN : t.val < 50 := lt_of_lt_of_eq t.isLt (show cfg20.N = 50 from N_20)
  have h49 : t.val = 49 := by have := (flush20_2 t).mp hf; omega
  obtain rfl : t = t20_last := Fin.ext h49
  show (cfg20.win 2).cut (grid20.coords t20_last) ((dat20 V c).after 2 t20_last) = _
  rw [after20_2, outsAt20_last_2]
  have hz' : (fun a => win20_2.index t20_last a * (Pipeline.arrRef spec20 2).ty.shape.size a) = fun _ => 0 :=
    funext fun a => by fin_cases a <;> decide +kernel
  exact (Memref.read_access_unit_zero (Elt Ideal) (Pipeline.arrRef spec20 2) hz' (fun a => by rw [congrFun hz' a]; simp)
    (colsumsq (n := 50000) (d := 256) (harr20 V c))).symm

/-- THE FIRST RESULT: after the region the [1,256] array of window 1 holds the column sums of the [50000,256] array
    the region read (the last point's write-back covers it). -/
theorem arrAt20_1 (c : Dev nD) :
    (dat20 V c).arrAt 1 cfg20.N = colsum (n := 50000) (d := 256) (V c (Pipeline.arrRef spec20 0)) :=
  (dat20 V c).arrAt_eq_of_cover 1 (colsum (n := 50000) (d := 256) (harr20 V c)) (flushed20_1_eq V c) fun i =>
    ⟨t20_last, (flush20_1 t20_last).mpr rfl, by
      show i ∈ ((View.whole (Pipeline.arrRef spec20 1)).slice (win20_1.rect t20_last)).set
      rw [View.set_slice_whole, Rect.mem_set_unit]
      intro a
      have h0 : (i 0 : Nat) < 1 := (i 0).isLt
      have h1 : (i 1 : Nat) < 256 := (i 1).isLt
      match a with
      | ⟨0, _⟩ =>
        show win20_1.index t20_last 0 * win20_1.size 0 ≤ (i 0 : Nat)
          ∧ (i 0 : Nat) < win20_1.index t20_last 0 * win20_1.size 0 + win20_1.xsize (grid20.coords t20_last) 0
        rw [show win20_1.index t20_last 0 * win20_1.size 0 = 0 from by decide +kernel,
          show win20_1.xsize (grid20.coords t20_last) 0 = 1 from by decide +kernel]; omega
      | ⟨1, _⟩ =>
        show win20_1.index t20_last 1 * win20_1.size 1 ≤ (i 1 : Nat)
          ∧ (i 1 : Nat) < win20_1.index t20_last 1 * win20_1.size 1 + win20_1.xsize (grid20.coords t20_last) 1
        rw [show win20_1.index t20_last 1 * win20_1.size 1 = 0 from by decide +kernel,
          show win20_1.xsize (grid20.coords t20_last) 1 = 256 from by decide +kernel]; omega⟩

/-- THE SECOND RESULT: the [1,256] array of window 2 holds the column sums of the squares. -/
theorem arrAt20_2 (c : Dev nD) :
    (dat20 V c).arrAt 2 cfg20.N = colsumsq (n := 50000) (d := 256) (V c (Pipeline.arrRef spec20 0)) :=
  (dat20 V c).arrAt_eq_of_cover 2 (colsumsq (n := 50000) (d := 256) (harr20 V c)) (flushed20_2_eq V c) fun i =>
    ⟨t20_last, (flush20_2 t20_last).mpr rfl, by
      show i ∈ ((View.whole (Pipeline.arrRef spec20 2)).slice (win20_2.rect t20_last)).set
      rw [View.set_slice_whole, Rect.mem_set_unit]
      intro a
      have h0 : (i 0 : Nat) < 1 := (i 0).isLt
      have h1 : (i 1 : Nat) < 256 := (i 1).isLt
      match a with
      | ⟨0, _⟩ =>
        show win20_2.index t20_last 0 * win20_2.size 0 ≤ (i 0 : Nat)
          ∧ (i 0 : Nat) < win20_2.index t20_last 0 * win20_2.size 0 + win20_2.xsize (grid20.coords t20_last) 0
        rw [show win20_2.index t20_last 0 * win20_2.size 0 = 0 from by decide +kernel,
          show win20_2.xsize (grid20.coords t20_last) 0 = 1 from by decide +kernel]; omega
      | ⟨1, _⟩ =>
        show win20_2.index t20_last 1 * win20_2.size 1 ≤ (i 1 : Nat)
          ∧ (i 1 : Nat) < win20_2.index t20_last 1 * win20_2.size 1 + win20_2.xsize (grid20.coords t20_last) 1
        rw [show win20_2.index t20_last 1 * win20_2.size 1 = 0 from by decide +kernel,
          show win20_2.xsize (grid20.coords t20_last) 1 = 256 from by decide +kernel]; omega⟩

end AtIdeal

end Cert.KernelIdeal.Reg

end
-- ==== Proof.KI.Val21.lean ====
/- The VALUE of region 21 (custom_call 21, `cc21__bn_relu_kernel`) at the ideal float values: after the region's grid
   has run, its output array is `Cert.Spec.bnrelu` of the six input arrays as the region finds them,

     (dat21 V c).arrAt 6 cfg21.N = bnrelu (V c h) (V c bias) (V c gamma) (V c beta) (V c mean) (V c var).

   The steps: the body's payload read at one element of a block is `bnrelu`'s expression of the loaded block's element
   and the five rows' elements at its column (`pay21_apply`); the activation's block at point `t` lies under the
   output's block (both are rows `1000 t … 1000 t + 999`) and each row's one block is the whole row (`idx_facts21`,
   `iblk21_W_apply`); so what point `t` writes back is block `t` of `bnrelu` of the arrays (`flushed21_6_eq`: a flushed
   block is a restriction of one whole-array function); row `r` of the output is in the block of point `r / 1000`, so
   the blocks cover the array (`covered21_6`); hence the array ends holding `bnrelu` of the arrays (`final21_6`). -/
import proofs.«146967_j25786983645193_1_alg».proof.Proof.KI.Reg21
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz21 : (![0, 0] : Fin 2 → Nat) = fun _ => 0 := funext fun a => by fin_cases a <;> rfl

/-- A [1,256] row broadcast along the 1000 rows of a block, read at `j`: the row at `j`'s column. -/
theorem bcast_row21 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay21_apply (x0 : Vec Ideal S1000x256 .f32) (x1 x2 x3 x4 x5 : Vec Ideal S1x256 .f32) (j : S1000x256.Idx) :
    k21_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k21_pay1
  simp only [shapeCast_self]
  rw [maximumf_apply, addf_apply, mulf_apply, mulf_apply, subf_apply, addf_apply]
  simp only [bcast_row21]
  rfl

/-! ## The windows' index maps -/

/-- The printed index maps, decided over the grid: the activation's and the output's block at point `t` is block
    `(t, 0)`; each of the five rows' is block `(0, 0)`. -/
theorem idx_facts21 : ∀ t : Fin cfg21.N, win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = 0 ∧ win21_3.index t (1 : Fin 2) = 0
    ∧ win21_4.index t (0 : Fin 2) = 0 ∧ win21_4.index t (1 : Fin 2) = 0
    ∧ win21_5.index t (0 : Fin 2) = 0 ∧ win21_5.index t (1 : Fin 2) = 0
    ∧ win21_6.index t (0 : Fin 2) = t.val ∧ win21_6.index t (1 : Fin 2) = 0 :=
  (by decide +kernel : ∀ t : Fin grid21.N, _)

/-! ## The input blocks at an index, as elements of the arrays -/

/-- The column of an element of the output's block at point `t` is its column in the block. -/
theorem emb21_6_col (t : Fin cfg21.N) (j : S1000x256.Idx) :
    ((((cfg21.win 6).blk t).view.emb j : S50000x256.Idx) 1 : Fin 256) = j 1 := by
  obtain ⟨-, -, -, -, -, -, -, -, -, -, -, -, a6, b6⟩ := idx_facts21 t
  apply Fin.ext
  show win21_6.index t (1 : Fin 2) * 256 + 1 * (j 1).val = (j 1).val
  omega

/-- Input window 0 (the activation's [1000,256] block) read at `j`: the activation at the element of the array that the
    OUTPUT's block at the same point has at `j` — the two windows move together. -/
theorem iblk21_0_apply (c : Dev nD) (t : Fin cfg21.N) (j : S1000x256.Idx) :
    (iblk21 V c 0 t : Vec Ideal S1000x256 .f32) j
      = (V c (Pipeline.arrRef spec21 0) : Vec Ideal S50000x256 .f32) (((cfg21.win 6).blk t).view.emb j) := by
  obtain ⟨a0, b0, -, -, -, -, -, -, -, -, -, -, a6, b6⟩ := idx_facts21 t
  unfold iblk21
  rw [View.read_apply]
  refine congrArg (V c (Pipeline.arrRef spec21 0) : Vec Ideal S50000x256 .f32) ?_
  funext a; apply Fin.ext
  match a with
  | ⟨0, _⟩ => show win21_0.index t (0 : Fin 2) * 1000 + 1 * (j 0).val = win21_6.index t (0 : Fin 2) * 1000 + 1 * (j 0).val; omega
  | ⟨1, _⟩ => show win21_0.index t (1 : Fin 2) * 256 + 1 * (j 1).val = win21_6.index t (1 : Fin 2) * 256 + 1 * (j 1).val; omega

/-- Input window 1 (a [1,256] row, one block, the same at every point) read at column `k`: the row at `k`. -/
theorem iblk21_1_apply (c : Dev nD) (t : Fin cfg21.N) (k : Fin 256) :
    (iblk21 V c 1 t : Vec Ideal S1x256 .f32) (rowIx k) = (V c (Pipeline.arrRef spec21 1) : Vec Ideal S1x256 .f32) (rowIx k) := by
  obtain ⟨-, -, a1, b1, a2, b2, a3, b3, a4, b4, a5, b5, -, -⟩ := idx_facts21 t
  unfold iblk21
  rw [View.read_apply]
  refine congrArg (V c (Pipeline.arrRef spec21 1) : Vec Ideal S1x256 .f32) ?_
  funext a; apply Fin.ext
  match a with
  | ⟨0, _⟩ => show win21_1.index t (0 : Fin 2) * 1 + 1 * 0 = 0; omega
  | ⟨1, _⟩ => show win21_1.index t (1 : Fin 2) * 256 + 1 * k.val = k.val; omega

/-- Input window 2 (a [1,256] row, one block, the same at every point) read at column `k`: the row at `k`. -/
theorem iblk21_2_apply (c : Dev nD) (t : Fin cfg21.N) (k : Fin 256) :
    (iblk21 V c 2 t : Vec Ideal S1x256 .f32) (rowIx k) = (V c (Pipeline.arrRef spec21 2) : Vec Ideal S1x256 .f32) (rowIx k) := by
  obtain ⟨-, -, a1, b1, a2, b2, a3, b3, a4, b4, a5, b5, -, -⟩ := idx_facts21 t
  unfold iblk21
  rw [View.read_apply]
  refine congrArg (V c (Pipeline.arrRef spec21 2) : Vec Ideal S1x256 .f32) ?_
  funext a; apply Fin.ext
  match a with
  | ⟨0, _⟩ => show win21_2.index t (0 : Fin 2) * 1 + 1 * 0 = 0; omega
  | ⟨1, _⟩ => show win21_2.index t (1 : Fin 2) * 256 + 1 * k.val = k.val; omega

/-- Input window 3 (a [1,256] row, one block, the same at every point) read at column `k`: the row at `k`. -/
theorem iblk21_3_apply (c : Dev nD) (t : Fin cfg21.N) (k : Fin 256) :
    (iblk21 V c 3 t : Vec Ideal S1x256 .f32) (rowIx k) = (V c (Pipeline.arrRef spec21 3) : Vec Ideal S1x256 .f32) (rowIx k) := by
  obtain ⟨-, -, a1, b1, a2, b2, a3, b3, a4, b4, a5, b5, -, -⟩ := idx_facts21 t
  unfold iblk21
  rw [View.read_apply]
  refine congrArg (V c (Pipeline.arrRef spec21 3) : Vec Ideal S1x256 .f32) ?_
  funext a; apply Fin.ext
  match a with
  | ⟨0, _⟩ => show win21_3.index t (0 : Fin 2) * 1 + 1 * 0 = 0; omega
  | ⟨1, _⟩ => show win21_3.index t (1 : Fin 2) * 256 + 1 * k.val = k.val; omega

/-- Input window 4 (a [1,256] row, one block, the same at every point) read at column `k`: the row at `k`. -/
theorem iblk21_4_apply (c : Dev nD) (t : Fin cfg21.N) (k : Fin 256) :
    (iblk21 V c 4 t : Vec Ideal S1x256 .f32) (rowIx k) = (V c (Pipeline.arrRef spec21 4) : Vec Ideal S1x256 .f32) (rowIx k) := by
  obtain ⟨-, -, a1, b1, a2, b2, a3, b3, a4, b4, a5, b5, -, -⟩ := idx_facts21 t
  unfold iblk21
  rw [View.read_apply]
  refine congrArg (V c (Pipeline.arrRef spec21 4) : Vec Ideal S1x256 .f32) ?_
  funext a; apply Fin.ext
  match a with
  | ⟨0, _⟩ => show win21_4.index t (0 : Fin 2) * 1 + 1 * 0 = 0; omega
  | ⟨1, _⟩ => show win21_4.index t (1 : Fin 2) * 256 + 1 * k.val = k.val; omega

/-- Input window 5 (a [1,256] row, one block, the same at every point) read at column `k`: the row at `k`. -/
theorem iblk21_5_apply (c : Dev nD) (t : Fin cfg21.N) (k : Fin 256) :
    (iblk21 V c 5 t : Vec Ideal S1x256 .f32) (rowIx k) = (V c (Pipeline.arrRef spec21 5) : Vec Ideal S1x256 .f32) (rowIx k) := by
  obtain ⟨-, -, a1, b1, a2, b2, a3, b3, a4, b4, a5, b5, -, -⟩ := idx_facts21 t
  unfold iblk21
  rw [View.read_apply]
  refine congrArg (V c (Pipeline.arrRef spec21 5) : Vec Ideal S1x256 .f32) ?_
  funext a; apply Fin.ext
  match a with
  | ⟨0, _⟩ => show win21_5.index t (0 : Fin 2) * 1 + 1 * 0 = 0; omega
  | ⟨1, _⟩ => show win21_5.index t (1 : Fin 2) * 256 + 1 * k.val = k.val; omega

/-! ## What a point writes back -/

set_option maxHeartbeats 1000000 in
/-- WHAT POINT `t` WRITES BACK is block `t` of `bnrelu` of the six arrays as the region finds them. -/
theorem flushed21_6_eq (c : Dev nD) (t : Fin cfg21.N) :
    (dat21 V c).flushed 6 t = ((cfg21.win 6).blk t).view.read (Elt Ideal)
      (bnrelu (n := 50000) (d := 256) (V c (Pipeline.arrRef spec21 0)) (V c (Pipeline.arrRef spec21 1)) (V c (Pipeline.arrRef spec21 2))
        (V c (Pipeline.arrRef spec21 3)) (V c (Pipeline.arrRef spec21 4)) (V c (Pipeline.arrRef spec21 5))) := by
  show (cfg21.win 6).cut (grid21.coords t) ((dat21 V c).after 6 t) = _
  rw [after21_6]
  unfold out21_6
  rw [View.canon_unit_zero hz21]
  simp only [View.ld_unit_zero (S := S1000x256) hz21, View.ld_unit_zero (S := S1x256) hz21]
  refine funext fun (j : S1000x256.Idx) => ?_
  show k21_pay1 (iblk21 V c 0 t) (iblk21 V c 1 t) (iblk21 V c 2 t) (iblk21 V c 3 t) (iblk21 V c 4 t) (iblk21 V c 5 t) j
    = bnrelu (n := 50000) (d := 256) (V c (Pipeline.arrRef spec21 0)) (V c (Pipeline.arrRef spec21 1)) (V c (Pipeline.arrRef spec21 2))
        (V c (Pipeline.arrRef spec21 3)) (V c (Pipeline.arrRef spec21 4)) (V c (Pipeline.arrRef spec21 5)) (((cfg21.win 6).blk t).view.emb j)
  rw [pay21_apply, bnrelu_apply, emb21_6_col t j, iblk21_0_apply, iblk21_1_apply V c t (j 1), iblk21_2_apply V c t (j 1),
    iblk21_3_apply V c t (j 1), iblk21_4_apply V c t (j 1), iblk21_5_apply V c t (j 1)]

/-! ## The blocks cover the array -/

/-- An index of the array is in point `t`'s block iff each coordinate is in the block's range on its axis. -/
theorem mem_blk21_6 (t : Fin cfg21.N) (i : S50000x256.Idx) :
    i ∈ ((cfg21.win 6).blk t).view.set ↔ ∀ a : Fin 2, win21_6.index t a * S1000x256.size a ≤ (i a).val ∧ (i a).val < win21_6.index t a * S1000x256.size a + S1000x256.size a := by
  show i ∈ ((View.whole main_v65).slice (win21_6.rect t)).set ↔ _
  rw [View.set_slice_whole, Rect.mem_set_unit]
  exact Iff.rfl

/-- Every element of the output array is in some point's block: row `r` is in the block of point `r / 1000`. -/
theorem covered21_6 (i : S50000x256.Idx) :
    ∃ t : Fin cfg21.N, (cfg21.win 6).flush t = true ∧ i ∈ ((cfg21.win 6).blk t).view.set := by
  have hi0 : (i 0).val < 50000 := (i 0).isLt
  have hi1 : (i 1).val < 256 := (i 1).isLt
  have hN : cfg21.N = 50 := N_21
  have hlt : (i 0).val / 1000 < cfg21.N := by rw [hN]; omega
  obtain ⟨-, -, -, -, -, -, -, -, -, -, -, -, a6, b6⟩ := idx_facts21 ⟨(i 0).val / 1000, hlt⟩
  refine ⟨⟨(i 0).val / 1000, hlt⟩, flush21_6 _, ?_⟩
  rw [mem_blk21_6]
  intro a
  match a with
  | ⟨0, _⟩ =>
    show win21_6.index ⟨(i 0).val / 1000, hlt⟩ (0 : Fin 2) * 1000 ≤ (i 0).val ∧ (i 0).val < win21_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win21_6.index ⟨(i 0).val / 1000, hlt⟩ (1 : Fin 2) * 256 ≤ (i 1).val ∧ (i 1).val < win21_6.index ⟨(i 0).val / 1000, hlt⟩ (1 : Fin 2) * 256 + 256
    rw [b6]; omega

/-! ## The output array after the region -/

/-- THE OUTPUT ARRAY after the region's grid has run is `bnrelu` of the six input arrays as the region finds them. -/
theorem final21_6 (c : Dev nD) :
    (dat21 V c).arrAt 6 cfg21.N = bnrelu (n := 50000) (d := 256) (V c (Pipeline.arrRef spec21 0)) (V c (Pipeline.arrRef spec21 1)) (V c (Pipeline.arrRef spec21 2))
        (V c (Pipeline.arrRef spec21 3)) (V c (Pipeline.arrRef spec21 4)) (V c (Pipeline.arrRef spec21 5)) :=
  (dat21 V c).arrAt_eq_of_cover 6 _ (fun t _ => flushed21_6_eq V c t) covered21_6

end Cert.KernelIdeal.Reg
-- ==== Proof.KI.Val22.lean ====
/- THE VALUE of region 22 at the ideal values: the output array after the region is the output head (Spec/OpHead.lean
   outhead: each row's logits block·weight + bias, shifted by the row maximum, minus the logarithm of the row sum of
   exponentials) of the three input arrays as the region finds them, at every index. Two halves. THE PAYLOAD: the one
   store's payload, read at an index of a block, is outhead of the loaded blocks there — each operation of the printed
   payload read at an index (the format changes vanish; the matmul into zero is the sum over the contraction index; the
   two one-axis reductions are the fold of max from -∞ and the sum over the two classes; the shape casts and broadcasts
   re-index). FROM THE BLOCKS TO THE ARRAY: point t's block of rows is rows 1000·t … 1000·t + 999 of the array and so is
   its output block, the weight's and the bias's one block is the whole array, the head at a row reads that row only, and
   the 50 output blocks cover the array. -/
import proofs.«146967_j25786983645193_1_alg».proof.Proof.KI.Reg22
import proofs.«146967_j25786983645193_1_alg».proof.Proof.Spec.OpHead
import Idealize.ShloMosaic.Lib.Pipeline.Value
import Idealize.ShloMosaic.PureOps.Ideal
import Idealize.ShloMosaic.PureOps.Ideal.Laws
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open Cert.Spec
open scoped BigOperators

/-! ## The payload, read at an index -/

/-- The f32 pattern of -∞ denotes the extended reals' ⊥. -/
theorem negInf22 : Ideal.ofBits .f32 0xFF800000#32 = ⊥ := by simp [Ideal.ofBits, Ideal.ieee]

section Cols
variable {α : Type}

/-- A column [1000,1] broadcast along the classes reads the column's row. -/
theorem bcastCol22_apply (u : S1000x1.Idx → α) (r : Fin 1000) (j : Fin 2) :
    broadcastTo S1000x2 u broadcasts_S1000x1_S1000x2 (ix2 r j) = u (ix2 r (0 : Fin 1)) :=
  broadcastTo_apply u _ (ix2 r j) (ix2 r (0 : Fin 1)) fun a => match a with | ⟨0, _⟩ => rfl | ⟨1, _⟩ => rfl

/-- A [1000] vector cast to a column reads the same row. -/
theorem castCol22_apply (u : S1000.Idx → α) (r : Fin 1000) :
    shapeCast S1000x1 u shapeCasts_S1000_S1000x1 (ix2 r (0 : Fin 1)) = u (ix1 r) :=
  shapeCast_apply u _ (ix2 r (0 : Fin 1)) (ix1 r) (by rw [Shape.rowMajor_val_one, Shape.rowMajor_val_two]; show r.val = r.val * 1 + 0; omega)

/-- The bias row [1,2] broadcast along the rows reads the bias at the class. -/
theorem bcastRow22_apply (u : S1x2.Idx → α) (r : Fin 1000) (j : Fin 2) :
    broadcastTo S1000x2 u broadcasts_S1x2_S1000x2 (ix2 r j) = u (ix2 (0 : Fin 1) j) :=
  broadcastTo_apply u _ (ix2 r j) (ix2 (0 : Fin 1) j) fun a => match a with | ⟨0, _⟩ => rfl | ⟨1, _⟩ => rfl
end Cols

/-- The reduced index (row r) with class k inserted on the reduced axis is (r, k). -/
theorem lift22 (r : Fin 1000) (k : Fin 2) : reduces_S1000x2_S1000.lift (ix1 r) k = ix2 r k :=
  funext fun a => Fin.ext (match a with | ⟨0, _⟩ => rfl | ⟨1, _⟩ => rfl)

/-- The exponential and the logarithm of a vector, at an index, are the ideal values' own of the element. -/
theorem exp22_apply {s : Shape} {φ : FTy} (v : FVec Ideal s φ) (i : s.Idx) : exp v i = Ideal.exp (v i) := rfl
theorem log22_apply {s : Shape} {φ : FTy} (v : FVec Ideal s φ) (i : s.Idx) : log v i = Ideal.log (v i) := rfl

/-- The maximum over the class axis at row r: the fold of max from -∞ over the two classes. -/
theorem rowmax22_apply (v : FVec Ideal S1000x2 .f32) (hφ : FKind.Formats .f32)
    (hacc : (0xFF800000#32 : BitVec 32) = FKind.maximumf.neutral .f32 hφ) (r : Fin 1000) :
    multiReduction .maximumf [1] S1000 v 0xFF800000#32 reduces_S1000x2_S1000 hφ hacc (ix1 r)
      = (Finset.univ : Finset (Fin 2)).fold max ⊥ (fun j => v (ix2 r j)) := by
  rw [Ideal.multiReduction_maximumf_single]
  show (Finset.univ : Finset (Fin 2)).fold max (Ideal.ofBits .f32 0xFF800000#32) (v ∘ reduces_S1000x2_S1000.lift (ix1 r)) = _
  rw [negInf22]
  exact congrArg (fun f => (Finset.univ : Finset (Fin 2)).fold max ⊥ f) (funext fun k => congrArg v (lift22 r k))

/-- The sum over the class axis at row r: the sum over the two classes. -/
theorem rowsum22_apply (v : FVec Ideal S1000x2 .f32) (hφ : FKind.Formats .f32)
    (hacc : (0x00000000#32 : BitVec 32) = FKind.add.neutral .f32 hφ) (r : Fin 1000) :
    multiReduction .add [1] S1000 v 0x00000000#32 reduces_S1000x2_S1000 hφ hacc (ix1 r)
      = ∑ j : Fin 2, v (ix2 r j) := by
  rw [Ideal.multiReduction_add_single]
  exact Finset.sum_congr rfl fun k _ => congrArg v (lift22 r k)

/-- The affine map at (r, j), the same-shape casts of its operands already dropped: the format changes are the identity, the matmul into zero is the sum over the contraction
    index — re-indexed through its one coordinate — of the products, and the bias is read at the class. -/
theorem logit22_apply (x0 : Vec Ideal S1000x256 .f32) (x1 : Vec Ideal S256x2 .f32) (x2 : Vec Ideal S1x2 .f32) (r : Fin 1000) (j : Fin 2) :
    addf (F := Ideal) (matmul dot_S1000x256_S256x2_S1000x2_1_0_0_1_n_n none (truncf .bf16 x0 bitsLt_bf16_f32) (truncf .bf16 x1 bitsLt_bf16_f32) (constant S1000x2 .f32 0x00000000#32))
      (broadcastTo S1000x2 x2 broadcasts_S1x2_S1000x2) (ix2 r j)
    = headLogit x0 x1 x2 r j := by
  rw [addf_apply, bcastRow22_apply]
  unfold headLogit
  congr 1
  simp only [Idealize.ShloMosaic.matmul]
  rw [Ideal.matmul_constant_zero_apply]
  rw [← Equiv.sum_comp (contrEquiv1 dot_S1000x256_S256x2_S1000x2_1_0_0_1_n_n 256 rfl rfl) (fun k => x0 (ix2 r k) * x1 (ix2 k j))]
  refine Finset.sum_congr rfl fun q _ => ?_
  rw [truncf_apply, truncf_apply]
  have hl : dot_S1000x256_S256x2_S1000x2_1_0_0_1_n_n.lhsIdx (ix2 r j) q
      = ix2 r (contrEquiv1 dot_S1000x256_S256x2_S1000x2_1_0_0_1_n_n 256 rfl rfl q) :=
    funext fun a => Fin.ext (match a with | ⟨0, _⟩ => rfl | ⟨1, _⟩ => rfl)
  have hr : dot_S1000x256_S256x2_S1000x2_1_0_0_1_n_n.rhsIdx (ix2 r j) q
      = ix2 (contrEquiv1 dot_S1000x256_S256x2_S1000x2_1_0_0_1_n_n 256 rfl rfl q) j :=
    funext fun a => Fin.ext (match a with | ⟨0, _⟩ => rfl | ⟨1, _⟩ => rfl)
  rw [hl, hr]

/-- THE PAYLOAD is the output head of the loaded blocks: each operation read at the index (r, j), the two reductions at row r. -/
theorem pay22_eq (x0 : Vec Ideal S1000x256 .f32) (x1 : Vec Ideal S256x2 .f32) (x2 : Vec Ideal S1x2 .f32) :
    k22_pay1 x0 x1 x2 = outhead x0 x1 x2 := by
  funext i
  obtain ⟨r, j, rfl⟩ : ∃ (r : Fin 1000) (j : Fin 2), i = ix2 r j := ⟨i 0, i 1, eq_ix2 i⟩
  unfold k22_pay1
  -- a shape cast to the same shape is the identity
  simp only [shapeCast_self]
  simp only [subf_apply, bcastCol22_apply, castCol22_apply, logit22_apply, exp22_apply, log22_apply]
  erw [rowsum22_apply]
  simp only [subf_apply, bcastCol22_apply, castCol22_apply, logit22_apply, exp22_apply]
  erw [rowmax22_apply]
  simp only [logit22_apply]
  rfl

/-! ## From the blocks to the array -/

variable (V : (c : Dev nD) → (b : Ref sig .tc) → Buf (Elt Ideal) ((c : Thread nD τ).loc b))

/-- The whole-block rectangle's offsets are zero. -/
theorem hz22 : (![0, 0] : Fin 2 → Nat) = fun _ => 0 := funext fun a => match a with | ⟨0, _⟩ => rfl | ⟨1, _⟩ => rfl

/-- The printed index maps, decided over the grid's 50 points: the block of rows and the output block are at the
    point's own number on the row axis, the weight and the bias at block 0. -/
theorem idx_facts22 : ∀ t : Fin cfg22.N, win22_0.index t (0 : Fin 2) = t.val ∧ win22_0.index t (1 : Fin 2) = 0
    ∧ win22_1.index t (0 : Fin 2) = 0 ∧ win22_1.index t (1 : Fin 2) = 0
    ∧ win22_2.index t (0 : Fin 2) = 0 ∧ win22_2.index t (1 : Fin 2) = 0
    ∧ win22_3.index t (0 : Fin 2) = t.val ∧ win22_3.index t (1 : Fin 2) = 0 :=
  (by decide +kernel : ∀ t : Fin grid22.N, _)

set_option maxHeartbeats 4000000 in
/-- WHAT POINT t WRITES BACK is block t of the output head of the three arrays as the region finds them. -/
theorem flushed22_3_eq (c : Dev nD) (t : Fin cfg22.N) :
    (dat22 V c).flushed 3 t = ((cfg22.win 3).blk t).view.read (Elt Ideal)
      (outhead (R := 50000) (K := 256) (C := 2) (V c (Pipeline.arrRef spec22 0)) (V c (Pipeline.arrRef spec22 1)) (V c (Pipeline.arrRef spec22 2))) := by
  show (cfg22.win 3).cut (grid22.coords t) ((dat22 V c).after 3 t) = _
  rw [after22_3]
  unfold out22_3
  rw [View.canon_unit_zero hz22]
  simp only [View.ld_unit_zero (S := S1000x256) hz22, View.ld_unit_zero (S := S256x2) hz22, View.ld_unit_zero (S := S1x2) hz22]
  rw [pay22_eq]
  obtain ⟨e00, e01, e10, e11, e20, e21, e30, e31⟩ := idx_facts22 t
  have hN : cfg22.N = 50 := N_22
  have key : ∀ (r : Fin 1000) (k : Fin 2),
      outhead (iblk22 V c 0 t) (iblk22 V c 1 t) (iblk22 V c 2 t) (ix2 r k)
        = outhead (R := 50000) (K := 256) (C := 2) (V c (Pipeline.arrRef spec22 0)) (V c (Pipeline.arrRef spec22 1)) (V c (Pipeline.arrRef spec22 2))
            (((cfg22.win 3).blk t).view.emb (ix2 r k)) := by
    intro r k
    -- the weight's and the bias's one block is the whole array
    have h1 : (iblk22 V c 1 t : Vec Ideal S256x2 .f32) = V c (Pipeline.arrRef spec22 1) := by
      funext y
      show V c (Pipeline.arrRef spec22 1) (((cfg22.win 1).blk t).view.emb y) = V c (Pipeline.arrRef spec22 1) y
      congr 1
      funext a; apply Fin.ext
      match a with
      | ⟨0, _⟩ => show win22_1.index t (0 : Fin 2) * 256 + 1 * (y 0).val = (y 0).val; omega
      | ⟨1, _⟩ => show win22_1.index t (1 : Fin 2) * 2 + 1 * (y 1).val = (y 1).val; omega
    have h2 : (iblk22 V c 2 t : Vec Ideal S1x2 .f32) = V c (Pipeline.arrRef spec22 2) := by
      funext y
      show V c (Pipeline.arrRef spec22 2) (((cfg22.win 2).blk t).view.emb y) = V c (Pipeline.arrRef spec22 2) y
      congr 1
      funext a; apply Fin.ext
      match a with
      | ⟨0, _⟩ => show win22_2.index t (0 : Fin 2) * 1 + 1 * (y 0).val = (y 0).val; omega
      | ⟨1, _⟩ => show win22_2.index t (1 : Fin 2) * 2 + 1 * (y 1).val = (y 1).val; omega
    -- row r of point t's block of rows is row 1000·t + r of the array, and so is row r of its output block
    have hr' : t.val * 1000 + r.val < 50000 := by have := t.isLt; have := r.isLt; omega
    have h0 : ∀ k' : Fin 256, iblk22 V c 0 t (ix2 r k') = V c (Pipeline.arrRef spec22 0) (ix2 (n0 := 50000) (n1 := 256) ⟨t.val * 1000 + r.val, hr'⟩ k') := by
      intro k'
      show V c (Pipeline.arrRef spec22 0) (((cfg22.win 0).blk t).view.emb (ix2 r k')) = _
      congr 1
      funext a; apply Fin.ext
      match a with
      | ⟨0, _⟩ => show win22_0.index t (0 : Fin 2) * 1000 + 1 * r.val = t.val * 1000 + r.val; omega
      | ⟨1, _⟩ => show win22_0.index t (1 : Fin 2) * 256 + 1 * k'.val = k'.val; omega
    have he : ((cfg22.win 3).blk t).view.emb (ix2 r k) = ix2 (n0 := 50000) (n1 := 2) ⟨t.val * 1000 + r.val, hr'⟩ k := by
      funext a; apply Fin.ext
      match a with
      | ⟨0, _⟩ => show win22_3.index t (0 : Fin 2) * 1000 + 1 * r.val = t.val * 1000 + r.val; omega
      | ⟨1, _⟩ => show win22_3.index t (1 : Fin 2) * 2 + 1 * k.val = k.val; omega
    rw [he, h1, h2]
    exact outhead_congr (iblk22 V c 0 t) (V c (Pipeline.arrRef spec22 0)) (V c (Pipeline.arrRef spec22 1)) (V c (Pipeline.arrRef spec22 2)) r ⟨t.val * 1000 + r.val, hr'⟩ h0 k
  funext x
  rw [eq_ix2 (n0 := 1000) (n1 := 2) x]
  exact key (x 0) (x 1)

set_option maxHeartbeats 4000000 in
/-- An index of the output array is in point t's block iff each coordinate is in the block's range on its axis. -/
theorem mem_blk22_3 (t : Fin cfg22.N) (i : S50000x2.Idx) :
    i ∈ ((cfg22.win 3).blk t).view.set ↔ ∀ a : Fin 2, win22_3.index t a * S1000x2.size a ≤ (i a).val ∧ (i a).val < win22_3.index t a * S1000x2.size a + S1000x2.size a := by
  show i ∈ ((View.whole (Pipeline.arrRef spec22 3)).slice (win22_3.rect t)).set ↔ _
  rw [View.set_slice_whole, Rect.mem_set_unit]
  exact Iff.rfl

set_option maxHeartbeats 4000000 in
/-- Every index of the output array is in some point's block: row i is in block i / 1000 of the 50. -/
theorem cover22_arr (i : S50000x2.Idx) : ∃ t : Fin cfg22.N, (cfg22.win 3).flush t = true ∧ i ∈ ((cfg22.win 3).blk t).view.set := by
  have hN : cfg22.N = 50 := N_22
  have hi0 : (i 0).val < 50000 := (i 0).isLt
  have hi1 : (i 1).val < 2 := (i 1).isLt
  have ht : (i 0).val / 1000 < cfg22.N := by rw [hN]; omega
  obtain ⟨-, -, -, -, -, -, e30, e31⟩ := idx_facts22 ⟨(i 0).val / 1000, ht⟩
  refine ⟨⟨(i 0).val / 1000, ht⟩, flush22_3 _, ?_⟩
  rw [mem_blk22_3]
  intro a
  match a with
  | ⟨0, _⟩ =>
    show win22_3.index ⟨(i 0).val / 1000, ht⟩ (0 : Fin 2) * 1000 ≤ (i 0).val ∧ (i 0).val < win22_3.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win22_3.index ⟨(i 0).val / 1000, ht⟩ (1 : Fin 2) * 2 ≤ (i 1).val ∧ (i 1).val < win22_3.index ⟨(i 0).val / 1000, ht⟩ (1 : Fin 2) * 2 + 2
    omega

set_option maxHeartbeats 4000000 in
/-- THE OUTPUT ARRAY after the region: the output head of the three input arrays as the region finds them, at every index. -/
theorem arr22_3 (c : Dev nD) : (dat22 V c).arrAt 3 cfg22.N
    = outhead (R := 50000) (K := 256) (C := 2) (V c (Pipeline.arrRef spec22 0)) (V c (Pipeline.arrRef spec22 1)) (V c (Pipeline.arrRef spec22 2)) :=
  (dat22 V c).arrAt_eq_of_cover 3 _ (fun t _ => flushed22_3_eq V c t) (fun i => cover22_arr i)

/-- info: 'Cert.KernelIdeal.Reg.arr22_3' depends on axioms: [propext, Classical.choice, Quot.sound] -/
#guard_msgs in #print axioms arr22_3

end Cert.KernelIdeal.Reg

end
-- ==== Proof.KI.Read3L0.lean ====
/- THE VALUE OF THE KERNEL PROGRAM, the heads: local head /-#I-/0/-#-/ (items 39 … 46 of @main: regions 19, 20, 21, 22 and the host
   stretches before them).

   The block takes one of the global path's results (main_v164, written by region 11 and unchanged since boundary 25)
   through a dense layer and an output head:
     region 19: the product of the rows with slab /-#I-/0/-#-/ of the stacked weights main_arg12;
     region 20: the column sums of the product and of its square;
     the host stretch after it: the mean row (sums over 50000, plus the bias) and the variance row (sums of squares over
       50000, minus the squared sums over 50000), and the bias, scale, shift, mean and variance rows made one-row arrays;
     region 21: the normalising kernel on the product and the five rows;
     region 22: the output head on its result, with slab /-#I-/0/-#-/ of main_arg18 and row /-#I-/0/-#-/ of main_arg19 (sliced, made flat,
       made a one-row array).
   Each item is read once, as a function of the contents at the boundary before it; the readings are then chained, every
   buffer carried back to the item that wrote it, and the chain is the dense layer and head of the network's definition. -/
import proofs.«146967_j25786983645193_1_alg».proof.Proof.KI.Read3G
import proofs.«146967_j25786983645193_1_alg».proof.Proof.KI.Val19
import proofs.«146967_j25786983645193_1_alg».proof.Proof.KI.Val20
import proofs.«146967_j25786983645193_1_alg».proof.Proof.KI.Val21
import proofs.«146967_j25786983645193_1_alg».proof.Proof.KI.Val22

-- decided memberships over the program's references recurse past the default depth
set_option maxRecDepth 16384

noncomputable section

namespace Cert.KernelIdeal.Reg

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Spec (mm colsum colsumsq bnrelu outhead denseK headK stack4 row3 mat3 mat3o row3o)

-- the launch memory, at the ideal values
variable (m : (ℓ : Loc nD τ sig) → Buf (Elt Ideal) ℓ)

/-! ## The items, one by one -/

/-- Before region 19: slab /-#I-/0/-#-/ of the stacked local weights, as a matrix. -/
theorem L0_w (c : Dev nD) :
    W40 m c (Proc.devRef .tc main_v220)
      = mat3 (W39 m c (Proc.devRef .tc main_arg12) : Vec Ideal S3x256x256 .f32) /-#I-/0/-#-/ (by decide) := by
  show StableHlo.after hostOps19 _ (Proc.devRef .tc main_v220) = _
  after_results; rfl

/-- Region 19: the product of its rows and its weight. -/
theorem L0_mm (c : Dev nD) :
    W41 m c (Proc.devRef .tc main_v221)
      = mm (M := 50000) (K := 256) (N := 256) (W40 m c (Proc.devRef .tc main_v164)) (W40 m c (Proc.devRef .tc main_v220)) :=
  (W41_arr m c 2).trans (arrAt19_out (rd (W40 m)) c)

/-- Before region 20: row /-#I-/0/-#-/ of the stacked biases, scales and shifts, each as a flat row. -/
theorem L0_b (c : Dev nD) :
    W42 m c (Proc.devRef .tc main_v223)
      = row3 (W41 m c (Proc.devRef .tc main_arg13) : Vec Ideal S3x256 .f32) /-#I-/0/-#-/ (by decide) := by
  show StableHlo.after hostOps20 _ (Proc.devRef .tc main_v223) = _
  after_results; rfl
theorem L0_g (c : Dev nD) :
    W42 m c (Proc.devRef .tc main_v225)
      = row3 (W41 m c (Proc.devRef .tc main_arg14) : Vec Ideal S3x256 .f32) /-#I-/0/-#-/ (by decide) := by
  show StableHlo.after hostOps20 _ (Proc.devRef .tc main_v225) = _
  after_results; rfl
theorem L0_bt (c : Dev nD) :
    W42 m c (Proc.devRef .tc main_v227)
      = row3 (W41 m c (Proc.devRef .tc main_arg15) : Vec Ideal S3x256 .f32) /-#I-/0/-#-/ (by decide) := by
  show StableHlo.after hostOps20 _ (Proc.devRef .tc main_v227) = _
  after_results; rfl

/-- Region 20: the column sums of its input, and of the input's square. -/
theorem L0_s (c : Dev nD) :
    W43 m c (Proc.devRef .tc main_v228_0) = colsum (n := 50000) (d := 256) (W42 m c (Proc.devRef .tc main_v221)) :=
  (W43_arr m c 1).trans (arrAt20_1 (rd (W42 m)) c)
theorem L0_ss (c : Dev nD) :
    W43 m c (Proc.devRef .tc main_v228_1) = colsumsq (n := 50000) (d := 256) (W42 m c (Proc.devRef .tc main_v221)) :=
  (W43_arr m c 2).trans (arrAt20_2 (rd (W42 m)) c)

/-- Before region 21: the bias, scale and shift rows made one-row arrays; -/
theorem L0_r1 (c : Dev nD) :
    W44 m c (Proc.devRef .tc main_v238)
      = shapeCast S1x256 (W43 m c (Proc.devRef .tc main_v223) : Vec Ideal S256 .f32) shapeCasts_S256_S1x256 := by
  show StableHlo.after hostOps21 _ (Proc.devRef .tc main_v238) = _
  after_results; rfl
theorem L0_r2 (c : Dev nD) :
    W44 m c (Proc.devRef .tc main_v239)
      = shapeCast S1x256 (W43 m c (Proc.devRef .tc main_v225) : Vec Ideal S256 .f32) shapeCasts_S256_S1x256 := by
  show StableHlo.after hostOps21 _ (Proc.devRef .tc main_v239) = _
  after_results; rfl
theorem L0_r3 (c : Dev nD) :
    W44 m c (Proc.devRef .tc main_v240)
      = shapeCast S1x256 (W43 m c (Proc.devRef .tc main_v227) : Vec Ideal S256 .f32) shapeCasts_S256_S1x256 := by
  show StableHlo.after hostOps21 _ (Proc.devRef .tc main_v240) = _
  after_results; rfl

/-- the mean row: the column sums as a flat row over the constant 50000 spread over the row, plus the bias; -/
theorem L0_r4 (c : Dev nD) :
    W44 m c (Proc.devRef .tc main_v241)
      = shapeCast S1x256
          (addf (F := Ideal) (φ := .f32)
            (Host.divf (F := Ideal) (φ := .f32)
              (shapeCast S256 (W43 m c (Proc.devRef .tc main_v228_0) : Vec Ideal S1x256 .f32) shapeCasts_S1x256_S256)
              (broadcastInDim S256 ![] bcast_S_S256 (constant (F := Ideal) S_ .f32 0x47435000#32)))
            (W43 m c (Proc.devRef .tc main_v223) : Vec Ideal S256 .f32))
          shapeCasts_S256_S1x256 := by
  show StableHlo.after hostOps21 _ (Proc.devRef .tc main_v241) = _
  after_results; rfl

/-- the variance row: the column sums of squares over 50000, minus the square of the column sums over 50000. -/
theorem L0_r5 (c : Dev nD) :
    W44 m c (Proc.devRef .tc main_v242)
      = shapeCast S1x256
          (subf (F := Ideal) (φ := .f32)
            (Host.divf (F := Ideal) (φ := .f32)
              (shapeCast S256 (W43 m c (Proc.devRef .tc main_v228_1) : Vec Ideal S1x256 .f32) shapeCasts_S1x256_S256)
              (broadcastInDim S256 ![] bcast_S_S256 (constant (F := Ideal) S_ .f32 0x47435000#32)))
            (mulf (F := Ideal) (φ := .f32)
              (Host.divf (F := Ideal) (φ := .f32)
                (shapeCast S256 (W43 m c (Proc.devRef .tc main_v228_0) : Vec Ideal S1x256 .f32) shapeCasts_S1x256_S256)
                (broadcastInDim S256 ![] bcast_S_S256 (constant (F := Ideal) S_ .f32 0x47435000#32)))
              (Host.divf (F := Ideal) (φ := .f32)
                (shapeCast S256 (W43 m c (Proc.devRef .tc main_v228_0) : Vec Ideal S1x256 .f32) shapeCasts_S1x256_S256)
                (broadcastInDim S256 ![] bcast_S_S256 (constant (F := Ideal) S_ .f32 0x47435000#32)))))
          shapeCasts_S256_S1x256 := by
  show StableHlo.after hostOps21 _ (Proc.devRef .tc main_v242) = _
  after_results; rfl

/-- Region 21: the normalising function of its input and its five rows. -/
theorem L0_bn (c : Dev nD) :
    W45 m c (Proc.devRef .tc main_v243)
      = bnrelu (n := 50000) (d := 256) (W44 m c (Proc.devRef .tc main_v221)) (W44 m c (Proc.devRef .tc main_v238))
          (W44 m c (Proc.devRef .tc main_v239)) (W44 m c (Proc.devRef .tc main_v240)) (W44 m c (Proc.devRef .tc main_v241))
          (W44 m c (Proc.devRef .tc main_v242)) :=
  (W45_arr m c 6).trans (final21_6 (rd (W44 m)) c)

/-- Before region 22: slab /-#I-/0/-#-/ of the stacked head weights as a matrix, and row /-#I-/0/-#-/ of the stacked head biases, made flat and
    then a one-row array. -/
theorem L0_ow (c : Dev nD) :
    W46 m c (Proc.devRef .tc main_v245)
      = mat3o (W45 m c (Proc.devRef .tc main_arg18) : Vec Ideal S3x256x2 .f32) /-#I-/0/-#-/ (by decide) := by
  show StableHlo.after hostOps22 _ (Proc.devRef .tc main_v245) = _
  after_results; rfl
theorem L0_ob (c : Dev nD) :
    W46 m c (Proc.devRef .tc main_v248)
      = shapeCast S1x2 (row3o (W45 m c (Proc.devRef .tc main_arg19) : Vec Ideal S3x2 .f32) /-#I-/0/-#-/ (by decide)) shapeCasts_S2_S1x2 := by
  show StableHlo.after hostOps22 _ (Proc.devRef .tc main_v248) = _
  after_results; rfl

/-- Region 22: the output head of its three input arrays. -/
theorem L0_hd (c : Dev nD) :
    W47 m c (Proc.devRef .tc main_v249)
      = outhead (R := 50000) (K := 256) (C := 2) (W46 m c (Proc.devRef .tc main_v243))
          (W46 m c (Proc.devRef .tc main_v245)) (W46 m c (Proc.devRef .tc main_v248)) :=
  (W47_arr m c 3).trans (arr22_3 (rd (W46 m)) c)

/-! ## The chain -/

/-- THE DENSE LAYER: what region 21 leaves in main_v243 is the dense layer of the network's definition on main_v164
    as boundary 25 has it, with slab /-#I-/0/-#-/ of main_arg12 and row /-#I-/0/-#-/ of main_arg13, main_arg14, main_arg15 as launched: the
    normalising kernel's five rows are the block's own rows of the product's column sums. -/
theorem L0_hl (c : Dev nD) :
    W45 m c (Proc.devRef .tc main_v243)
      = denseK (W25 m c (Proc.devRef .tc main_v164)) (mat3 (m ((c : Thread nD τ).loc main_arg12)) /-#I-/0/-#-/ (by decide))
          (row3 (m ((c : Thread nD τ).loc main_arg13)) /-#I-/0/-#-/ (by decide)) (row3 (m ((c : Thread nD τ).loc main_arg14)) /-#I-/0/-#-/ (by decide))
          (row3 (m ((c : Thread nD τ).loc main_arg15)) /-#I-/0/-#-/ (by decide)) := by
  rw [L0_bn, L0_r1, L0_r2, L0_r3, L0_r4, L0_r5, L0_s, L0_ss]
  keep_down main_v221
  keep_down main_v223
  keep_down main_v225
  keep_down main_v227
  rw [L0_mm, L0_b, L0_g, L0_bt, L0_w]
  keep_down main_v164
  rw [W39_arg m c (b := main_arg12) (by decide), W41_arg m c (b := main_arg13) (by decide),
    W41_arg m c (b := main_arg14) (by decide), W41_arg m c (b := main_arg15) (by decide)]
  rfl

/-- LOCAL HEAD /-#I-/0/-#-/: what region 22 leaves in main_v249 is the head of that dense layer, with slab /-#I-/0/-#-/ of main_arg18 and
    row /-#I-/0/-#-/ of main_arg19 as launched. -/
theorem read_ol0 (c : Dev nD) :
    W47 m c (Proc.devRef .tc main_v249)
      = headK (denseK (W25 m c (Proc.devRef .tc main_v164)) (mat3 (m ((c : Thread nD τ).loc main_arg12)) /-#I-/0/-#-/ (by decide))
            (row3 (m ((c : Thread nD τ).loc main_arg13)) /-#I-/0/-#-/ (by decide)) (row3 (m ((c : Thread nD τ).loc main_arg14)) /-#I-/0/-#-/ (by decide))
            (row3 (m ((c : Thread nD τ).loc main_arg15)) /-#I-/0/-#-/ (by decide)))
          (mat3o (m ((c : Thread nD τ).loc main_arg18)) /-#I-/0/-#-/ (by decide)) (row3o (m ((c : Thread nD τ).loc main_arg19)) /-#I-/0/-#-/ (by decide)) := by
  rw [L0_hd, L0_ow, L0_ob]
  keep_down main_v243
  rw [L0_hl, W45_arg m c (b := main_arg18) (by decide), W45_arg m c (b := main_arg19) (by decide)]
  rfl

end Cert.KernelIdeal.Reg

end
-- ==== Proof.KI.Val23.lean ====
/- REGION 23's output array after the region, at the ideal values, as ONE whole-array function of the region's two
   input arrays as it finds them: the [50000, 256] array ends holding the matrix product of the [50000, 256] array
   by the [256, 256] weight (`Cert.Spec.mm`).
   The road: at the ideal values narrowing to bf16 changes nothing and the product onto a zero accumulator is the
   sum over the contraction coordinate, so the body's payload at row `x`, column `y` of a block is
   `∑ k, block (x, k) * weight (k, y)` (`pay23_apply`). Point `t`'s row block is rows `1000 t …` of the array and
   its output block the same rows of the output, while the weight's block is the whole weight at every point
   (`idx_facts23`, decided over the 50 points); a product's rows are the products of the rows, so what point `t`
   writes back is block `t` of the whole product (`flushed23_2_eq`). Every point writes back, and row `r` lies in
   the block of point `r / 1000` (`cover23_out`), so the array ends holding the product and nothing of what it held
   before (`arrAt23_out`). -/
import proofs.«146967_j25786983645193_1_alg».proof.Proof.KI.Reg23
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz23 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay23_apply (xa : Vec Ideal S1000x256 .f32) (xb : Vec Ideal S256x256 .f32) (j : S1000x256.Idx) :
    k23_pay1 (F := Ideal) xa xb j = ∑ k : Fin 256, xa (ix2 (j 0) k) * xb (ix2 k (j 1)) := by
  unfold k23_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts23 : ∀ t : Fin cfg23.N,
    win23_0.index t (0 : Fin 2) = win23_2.index t (0 : Fin 2) ∧ win23_0.index t (1 : Fin 2) = 0
    ∧ win23_1.index t (0 : Fin 2) = 0 ∧ win23_1.index t (1 : Fin 2) = 0
    ∧ win23_2.index t (0 : Fin 2) = t.val ∧ win23_2.index t (1 : Fin 2) = 0 :=
  (by decide +kernel : ∀ t : Fin grid23.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed23_2_eq (c : Dev nD) (t : Fin cfg23.N) :
    (dat23 (F := Ideal) V c).flushed 2 t
      = ((cfg23.win 2).blk t).view.read (Elt Ideal)
          (Cert.Spec.mm (M := 50000) (K := 256) (N := 256) (V c (Pipeline.arrRef spec23 0)) (V c (Pipeline.arrRef spec23 1))) := by
  show (cfg23.win 2).cut (grid23.coords t) ((dat23 (F := Ideal) V c).after 2 t) = _
  rw [after23_2]
  unfold out23_2
  rw [View.canon_unit_zero hz23]
  simp only [View.ld_unit_zero (S := S1000x256) hz23, View.ld_unit_zero (S := S256x256) hz23]
  obtain ⟨e0, e1, e2, e3, e4, e5⟩ := idx_facts23 t
  funext j
  show k23_pay1 (F := Ideal) (iblk23 V c 0 t) (iblk23 V c 1 t) j
    = Cert.Spec.mm (M := 50000) (K := 256) (N := 256) (V c (Pipeline.arrRef spec23 0)) (V c (Pipeline.arrRef spec23 1)) (((cfg23.win 2).blk t).view.emb j)
  rw [pay23_apply, Cert.Spec.mm_apply]
  refine Finset.sum_congr rfl fun k _ => ?_
  -- the row block's element (j 0, k) is the array's at the output block's row and column k
  have ha : ((cfg23.win 0).blk t).view.emb (ix2 (j 0) k) = ix2 ((((cfg23.win 2).blk t).view.emb j) 0) k := by
    funext a; apply Fin.ext
    match a with
    | ⟨0, _⟩ => show win23_0.index t (0 : Fin 2) * 1000 + 1 * (j 0).val = win23_2.index t (0 : Fin 2) * 1000 + 1 * (j 0).val; omega
    | ⟨1, _⟩ => show win23_0.index t (1 : Fin 2) * 256 + 1 * k.val = k.val; omega
  -- the weight's element (k, j 1) is the array's at row k and the output block's column
  have hb : ((cfg23.win 1).blk t).view.emb (ix2 k (j 1)) = ix2 k ((((cfg23.win 2).blk t).view.emb j) 1) := by
    funext a; apply Fin.ext
    match a with
    | ⟨0, _⟩ => show win23_1.index t (0 : Fin 2) * 256 + 1 * k.val = k.val; omega
    | ⟨1, _⟩ => show win23_1.index t (1 : Fin 2) * 256 + 1 * (j 1).val = win23_2.index t (1 : Fin 2) * 256 + 1 * (j 1).val; omega
  -- each block's element is its array's at the embedded index (a read through a view is precomposition)
  unfold iblk23
  rw [View.read_apply, View.read_apply]
  rewrite [ha, hb]
  rfl

/-! ## The output blocks cover the array -/

/-- An index of the output array is in point `t`'s block iff each coordinate is in the block's range on its axis. -/
theorem mem_blk23_2 (t : Fin cfg23.N) (i : S50000x256.Idx) :
    i ∈ ((cfg23.win 2).blk t).view.set ↔ ∀ a : Fin 2, win23_2.index t a * S1000x256.size a ≤ (i a).val ∧ (i a).val < win23_2.index t a * S1000x256.size a + S1000x256.size a := by
  show i ∈ ((View.whole (Pipeline.arrRef spec23 2)).slice (win23_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover23_out (i : S50000x256.Idx) :
    ∃ t : Fin cfg23.N, (cfg23.win 2).flush t = true ∧ i ∈ ((cfg23.win 2).blk t).view.set := by
  have hr : (i 0).val < 50000 := idx2_lt0 i
  have hc : (i 1).val < 256 := idx2_lt1 i
  have hN : cfg23.N = 50 := N_23
  let t : Fin cfg23.N := ⟨(i 0).val / 1000, by rw [hN]; omega⟩
  have ht : t.val = (i 0).val / 1000 := rfl
  obtain ⟨-, -, -, -, e4, e5⟩ := idx_facts23 t
  refine ⟨t, flush23_2 t, (mem_blk23_2 t i).mpr fun a => ?_⟩
  match a with
  | ⟨0, _⟩ => show win23_2.index t (0 : Fin 2) * 1000 ≤ (i 0).val ∧ (i 0).val < win23_2.index t (0 : Fin 2) * 1000 + 1000; omega
  | ⟨1, _⟩ => show win23_2.index t (1 : Fin 2) * 256 ≤ (i 1).val ∧ (i 1).val < win23_2.index t (1 : Fin 2) * 256 + 256; omega

/-! ## The output array after the region -/

/-- The product of the region's two arrays, at the program's shapes: `Cert.Spec.mm` at 50000 × 256 by 256 × 256. -/
abbrev mm23 (a : Vec Ideal S50000x256 .f32) (w : Vec Ideal S256x256 .f32) : Vec Ideal S50000x256 .f32 :=
  Cert.Spec.mm (M := 50000) (K := 256) (N := 256) a w

/-- THE OUTPUT ARRAY after the region, as one whole-array function of the two input arrays as the region finds
    them: their product. Every point writes back its block of that product (`flushed23_2_eq`) and the blocks cover
    the array (`cover23_out`), so nothing of what the array held before remains. -/
theorem arrAt23_out (c : Dev nD) :
    (dat23 (F := Ideal) V c).arrAt 2 cfg23.N = mm23 (V c (Pipeline.arrRef spec23 0)) (V c (Pipeline.arrRef spec23 1)) :=
  (dat23 (F := Ideal) V c).arrAt_eq_of_cover 2 _ (fun t _ => flushed23_2_eq V c t) cover23_out

end Cert.KernelIdeal.Reg
-- ==== Proof.KI.Val24.lean ====
/-
  THE VALUE of REGION 24 of the kernel program (custom_call 24, cc24__sumsq_kernel) at the ideal (extended-real) float
  values: after the region, the two [1,256] arrays its windows 1 and 2 write hold, at column k, the sum over all 50000
  rows of the [50000,256] array h the region read, and the sum of the squares:

      arrAt24_1 : (dat24 V c).arrAt 1 cfg24.N = colsum   (V c (Pipeline.arrRef spec24 0))
      arrAt24_2 : (dat24 V c).arrAt 2 cfg24.N = colsumsq (V c (Pipeline.arrRef spec24 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg24
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out24_B_1_eq (c : Dev nD) (i : grid24.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond24_0 i) (x : Vec F S1000x256 .f32) (xo1 xo2 : Vec F S1x256 .f32) :
    out24_B_1 c i a1 h1 a2 h2 a3 h3 hc x xo1 xo2 = k24_pay4 x xo1 := by
  unfold out24_B_1 kernelRun24_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out24_B_2_eq (c : Dev nD) (i : grid24.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond24_0 i) (x : Vec F S1000x256 .f32) (xo1 xo2 : Vec F S1x256 .f32) :
    out24_B_2 c i a1 h1 a2 h2 a3 h3 hc x xo1 xo2 = k24_pay5 x xo2 := by
  unfold out24_B_2 kernelRun24_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out24_A_1_eq (c : Dev nD) (i : grid24.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond24_0 i) (x : Vec F S1000x256 .f32) :
    out24_A_1 c i a1 h1 a2 h2 a3 h3 hc x = k24_pay4 x (k24_pay1 (F := F)) := by
  unfold out24_A_1 kernelRun24_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out24_A_2_eq (c : Dev nD) (i : grid24.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond24_0 i) (x : Vec F S1000x256 .f32) :
    out24_A_2 c i a1 h1 a2 h2 a3 h3 hc x = k24_pay5 x (k24_pay2 (F := F)) := by
  unfold out24_A_2 kernelRun24_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k24_pay1_apply (j : S1x256.Idx) : k24_pay1 (F := Ideal) j = 0 := Ideal.ofBits_zero_f32
theorem k24_pay2_apply (j : S1x256.Idx) : k24_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k24_pay4_apply (x : Vec Ideal S1000x256 .f32) (acc : Vec Ideal S1x256 .f32) (j : S1x256.Idx) :
    k24_pay4 x acc j = acc j + ∑ r : Fin 1000, x (ix2 r (j 1)) := by
  unfold k24_pay4 k24_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k24_pay5_apply (x : Vec Ideal S1000x256 .f32) (acc : Vec Ideal S1x256 .f32) (j : S1x256.Idx) :
    k24_pay5 x acc j = acc j + ∑ r : Fin 1000, x (ix2 r (j 1)) * x (ix2 r (j 1)) := by
  unfold k24_pay5 k24_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr24 (c : Dev nD) : Vec F S50000x256 .f32 := V c (Pipeline.arrRef spec24 0)

/-- Window 0's block index at point `t` is (t, 0): decided over the 50 points. -/
private theorem index24_0 : ∀ t : Fin cfg24.N, win24_0.index t 0 = t.val ∧ win24_0.index t 1 = 0 :=
  (by decide +kernel : ∀ t : Fin grid24.N, win24_0.index t 0 = t.val ∧ win24_0.index t 1 = 0)

/-- The input block at point `t` reads the array at rows `1000 t + r`. -/
theorem iblk24_0_apply (c : Dev nD) (t : Fin cfg24.N) (r : Fin 1000) (k : Fin 256) (P : Fin 50000)
    (hP : P.val = 1000 * t.val + r.val) :
    (iblk24 V c 0 t : Vec F S1000x256 .f32) (ix2 r k) = harr24 V c (ix2 P k) := by
  unfold iblk24
  rw [View.read_apply]
  show V c (Pipeline.arrRef spec24 0) _ = V c (Pipeline.arrRef spec24 0) _
  congr 1
  funext a
  apply Fin.ext
  match a with
  | ⟨0, _⟩ => show win24_0.index t 0 * 1000 + 1 * r.val = P.val; rw [(index24_0 t).1, hP]; omega
  | ⟨1, _⟩ => show win24_0.index t 1 * 256 + 1 * k.val = k.val; rw [(index24_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt24_eq (c : Dev nD) : ∀ (n : ℕ) (hn : n < cfg24.N) (j : S1x256.Idx),
    (outsAt24 V c n hn).1 j = rowsBelow 1000 (fun P : Fin 50000 => harr24 V c (ix2 P (j 1))) n
    ∧ (outsAt24 V c n hn).2 j
        = rowsBelow 1000 (fun P : Fin 50000 => harr24 V c (ix2 P (j 1)) * harr24 V c (ix2 P (j 1))) n
  | 0, hn, j => by
    rw [outsAt24_zero]
    dsimp only
    rw [out24_A_1_eq, out24_A_2_eq, k24_pay4_apply, k24_pay5_apply, k24_pay1_apply, k24_pay2_apply, zero_add, zero_add,
      rowsBelow_zero 1000 (by decide), rowsBelow_zero 1000 (by decide)]
    refine ⟨Finset.sum_congr rfl fun r _ => ?_, Finset.sum_congr rfl fun r _ => ?_⟩
    · exact iblk24_0_apply V c ⟨0, hn⟩ r (j 1) _ (by show r.val = 1000 * 0 + r.val; omega)
    · rw [iblk24_0_apply V c ⟨0, hn⟩ r (j 1) ⟨r.val, by have := r.isLt; omega⟩ (by show r.val = 1000 * 0 + r.val; omega)]
  | n + 1, hn, j => by
    have hN : n + 1 < 50 := lt_of_lt_of_eq hn (show cfg24.N = 50 from N_24)
    rw [outsAt24_succ]
    dsimp only
    rw [out24_B_1_eq, out24_B_2_eq, k24_pay4_apply, k24_pay5_apply,
      (outsAt24_eq c n (Nat.lt_of_succ_lt hn) j).1, (outsAt24_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk24_0_apply V c ⟨n + 1, hn⟩ r (j 1) _ rfl
    · rw [iblk24_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t24_last : Fin cfg24.N := ⟨49, lt_of_lt_of_eq (by decide : 49 < 50) (show cfg24.N = 50 from N_24).symm⟩

/-- After the last point output 1's buffer holds the column sums of the whole array, -/
theorem outsAt24_last_1 (c : Dev nD) :
    (outsAt24 V c t24_last.val t24_last.isLt).1 = colsum (n := 50000) (d := 256) (harr24 V c) :=
  funext fun j => by
    rw [(outsAt24_eq V c _ _ j).1, rowsBelow_all 1000 _ _ (by decide)]; rfl

/-- and output 2's the column sums of its squares. -/
theorem outsAt24_last_2 (c : Dev nD) :
    (outsAt24 V c t24_last.val t24_last.isLt).2 = colsumsq (n := 50000) (d := 256) (harr24 V c) :=
  funext fun j => by
    rw [(outsAt24_eq V c _ _ j).2, rowsBelow_all 1000 _ _ (by decide)]; rfl

/-- The one write-back of output 1, after the last point, writes the column sums: its block is the whole [1,256] array,
    read through zero offsets. -/
theorem flushed24_1_eq (c : Dev nD) (t : Fin cfg24.N) (hf : (cfg24.win 1).flush t = true) :
    (dat24 V c).flushed 1 t
      = ((cfg24.win 1).blk t).view.read (Elt Ideal) (colsum (n := 50000) (d := 256) (harr24 V c)) := by
  have hN : t.val < 50 := lt_of_lt_of_eq t.isLt (show cfg24.N = 50 from N_24)
  have h49 : t.val = 49 := by have := (flush24_1 t).mp hf; omega
  obtain rfl : t = t24_last := Fin.ext h49
  show (cfg24.win 1).cut (grid24.coords t24_last) ((dat24 V c).after 1 t24_last) = _
  rw [after24_1, outsAt24_last_1]
  have hz' : (fun a => win24_1.index t24_last a * (Pipeline.arrRef spec24 1).ty.shape.size a) = fun _ => 0 :=
    funext fun a => by fin_cases a <;> decide +kernel
  exact (Memref.read_access_unit_zero (Elt Ideal) (Pipeline.arrRef spec24 1) hz' (fun a => by rw [congrFun hz' a]; simp)
    (colsum (n := 50000) (d := 256) (harr24 V c))).symm

/-- Likewise output 2's. -/
theorem flushed24_2_eq (c : Dev nD) (t : Fin cfg24.N) (hf : (cfg24.win 2).flush t = true) :
    (dat24 V c).flushed 2 t
      = ((cfg24.win 2).blk t).view.read (Elt Ideal) (colsumsq (n := 50000) (d := 256) (harr24 V c)) := by
  have hN : t.val < 50 := lt_of_lt_of_eq t.isLt (show cfg24.N = 50 from N_24)
  have h49 : t.val = 49 := by have := (flush24_2 t).mp hf; omega
  obtain rfl : t = t24_last := Fin.ext h49
  show (cfg24.win 2).cut (grid24.coords t24_last) ((dat24 V c).after 2 t24_last) = _
  rw [after24_2, outsAt24_last_2]
  have hz' : (fun a => win24_2.index t24_last a * (Pipeline.arrRef spec24 2).ty.shape.size a) = fun _ => 0 :=
    funext fun a => by fin_cases a <;> decide +kernel
  exact (Memref.read_access_unit_zero (Elt Ideal) (Pipeline.arrRef spec24 2) hz' (fun a => by rw [congrFun hz' a]; simp)
    (colsumsq (n := 50000) (d := 256) (harr24 V c))).symm

/-- THE FIRST RESULT: after the region the [1,256] array of window 1 holds the column sums of the [50000,256] array
    the region read (the last point's write-back covers it). -/
theorem arrAt24_1 (c : Dev nD) :
    (dat24 V c).arrAt 1 cfg24.N = colsum (n := 50000) (d := 256) (V c (Pipeline.arrRef spec24 0)) :=
  (dat24 V c).arrAt_eq_of_cover 1 (colsum (n := 50000) (d := 256) (harr24 V c)) (flushed24_1_eq V c) fun i =>
    ⟨t24_last, (flush24_1 t24_last).mpr rfl, by
      show i ∈ ((View.whole (Pipeline.arrRef spec24 1)).slice (win24_1.rect t24_last)).set
      rw [View.set_slice_whole, Rect.mem_set_unit]
      intro a
      have h0 : (i 0 : Nat) < 1 := (i 0).isLt
      have h1 : (i 1 : Nat) < 256 := (i 1).isLt
      match a with
      | ⟨0, _⟩ =>
        show win24_1.index t24_last 0 * win24_1.size 0 ≤ (i 0 : Nat)
          ∧ (i 0 : Nat) < win24_1.index t24_last 0 * win24_1.size 0 + win24_1.xsize (grid24.coords t24_last) 0
        rw [show win24_1.index t24_last 0 * win24_1.size 0 = 0 from by decide +kernel,
          show win24_1.xsize (grid24.coords t24_last) 0 = 1 from by decide +kernel]; omega
      | ⟨1, _⟩ =>
        show win24_1.index t24_last 1 * win24_1.size 1 ≤ (i 1 : Nat)
          ∧ (i 1 : Nat) < win24_1.index t24_last 1 * win24_1.size 1 + win24_1.xsize (grid24.coords t24_last) 1
        rw [show win24_1.index t24_last 1 * win24_1.size 1 = 0 from by decide +kernel,
          show win24_1.xsize (grid24.coords t24_last) 1 = 256 from by decide +kernel]; omega⟩

/-- THE SECOND RESULT: the [1,256] array of window 2 holds the column sums of the squares. -/
theorem arrAt24_2 (c : Dev nD) :
    (dat24 V c).arrAt 2 cfg24.N = colsumsq (n := 50000) (d := 256) (V c (Pipeline.arrRef spec24 0)) :=
  (dat24 V c).arrAt_eq_of_cover 2 (colsumsq (n := 50000) (d := 256) (harr24 V c)) (flushed24_2_eq V c) fun i =>
    ⟨t24_last, (flush24_2 t24_last).mpr rfl, by
      show i ∈ ((View.whole (Pipeline.arrRef spec24 2)).slice (win24_2.rect t24_last)).set
      rw [View.set_slice_whole, Rect.mem_set_unit]
      intro a
      have h0 : (i 0 : Nat) < 1 := (i 0).isLt
      have h1 : (i 1 : Nat) < 256 := (i 1).isLt
      match a with
      | ⟨0, _⟩ =>
        show win24_2.index t24_last 0 * win24_2.size 0 ≤ (i 0 : Nat)
          ∧ (i 0 : Nat) < win24_2.index t24_last 0 * win24_2.size 0 + win24_2.xsize (grid24.coords t24_last) 0
        rw [show win24_2.index t24_last 0 * win24_2.size 0 = 0 from by decide +kernel,
          show win24_2.xsize (grid24.coords t24_last) 0 = 1 from by decide +kernel]; omega
      | ⟨1, _⟩ =>
        show win24_2.index t24_last 1 * win24_2.size 1 ≤ (i 1 : Nat)
          ∧ (i 1 : Nat) < win24_2.index t24_last 1 * win24_2.size 1 + win24_2.xsize (grid24.coords t24_last) 1
        rw [show win24_2.index t24_last 1 * win24_2.size 1 = 0 from by decide +kernel,
          show win24_2.xsize (grid24.coords t24_last) 1 = 256 from by decide +kernel]; omega⟩

end AtIdeal

end Cert.KernelIdeal.Reg

end
-- ==== Proof.KI.Val25.lean ====
/- The VALUE of region 25 (custom_call 25, `cc25__bn_relu_kernel`) at the ideal float values: after the region's grid
   has run, its output array is `Cert.Spec.bnrelu` of the six input arrays as the region finds them,

     (dat25 V c).arrAt 6 cfg25.N = bnrelu (V c h) (V c bias) (V c gamma) (V c beta) (V c mean) (V c var).

   The steps: the body's payload read at one element of a block is `bnrelu`'s expression of the loaded block's element
   and the five rows' elements at its column (`pay25_apply`); the activation's block at point `t` lies under the
   output's block (both are rows `1000 t … 1000 t + 999`) and each row's one block is the whole row (`idx_facts25`,
   `iblk25_W_apply`); so what point `t` writes back is block `t` of `bnrelu` of the arrays (`flushed25_6_eq`: a flushed
   block is a restriction of one whole-array function); row `r` of the output is in the block of point `r / 1000`, so
   the blocks cover the array (`covered25_6`); hence the array ends holding `bnrelu` of the arrays (`final25_6`). -/
import proofs.«146967_j25786983645193_1_alg».proof.Proof.KI.Reg25
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz25 : (![0, 0] : Fin 2 → Nat) = fun _ => 0 := funext fun a => by fin_cases a <;> rfl

/-- A [1,256] row broadcast along the 1000 rows of a block, read at `j`: the row at `j`'s column. -/
theorem bcast_row25 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay25_apply (x0 : Vec Ideal S1000x256 .f32) (x1 x2 x3 x4 x5 : Vec Ideal S1x256 .f32) (j : S1000x256.Idx) :
    k25_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k25_pay1
  simp only [shapeCast_self]
  rw [maximumf_apply, addf_apply, mulf_apply, mulf_apply, subf_apply, addf_apply]
  simp only [bcast_row25]
  rfl

/-! ## The windows' index maps -/

/-- The printed index maps, decided over the grid: the activation's and the output's block at point `t` is block
    `(t, 0)`; each of the five rows' is block `(0, 0)`. -/
theorem idx_facts25 : ∀ t : Fin cfg25.N, win25_0.index t (0 : Fin 2) = t.val ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = 0 ∧ win25_3.index t (1 : Fin 2) = 0
    ∧ win25_4.index t (0 : Fin 2) = 0 ∧ win25_4.index t (1 : Fin 2) = 0
    ∧ win25_5.index t (0 : Fin 2) = 0 ∧ win25_5.index t (1 : Fin 2) = 0
    ∧ win25_6.index t (0 : Fin 2) = t.val ∧ win25_6.index t (1 : Fin 2) = 0 :=
  (by decide +kernel : ∀ t : Fin grid25.N, _)

/-! ## The input blocks at an index, as elements of the arrays -/

/-- The column of an element of the output's block at point `t` is its column in the block. -/
theorem emb25_6_col (t : Fin cfg25.N) (j : S1000x256.Idx) :
    ((((cfg25.win 6).blk t).view.emb j : S50000x256.Idx) 1 : Fin 256) = j 1 := by
  obtain ⟨-, -, -, -, -, -, -, -, -, -, -, -, a6, b6⟩ := idx_facts25 t
  apply Fin.ext
  show win25_6.index t (1 : Fin 2) * 256 + 1 * (j 1).val = (j 1).val
  omega

/-- Input window 0 (the activation's [1000,256] block) read at `j`: the activation at the element of the array that the
    OUTPUT's block at the same point has at `j` — the two windows move together. -/
theorem iblk25_0_apply (c : Dev nD) (t : Fin cfg25.N) (j : S1000x256.Idx) :
    (iblk25 V c 0 t : Vec Ideal S1000x256 .f32) j
      = (V c (Pipeline.arrRef spec25 0) : Vec Ideal S50000x256 .f32) (((cfg25.win 6).blk t).view.emb j) := by
  obtain ⟨a0, b0, -, -, -, -, -, -, -, -, -, -, a6, b6⟩ := idx_facts25 t
  unfold iblk25
  rw [View.read_apply]
  refine congrArg (V c (Pipeline.arrRef spec25 0) : Vec Ideal S50000x256 .f32) ?_
  funext a; apply Fin.ext
  match a with
  | ⟨0, _⟩ => show win25_0.index t (0 : Fin 2) * 1000 + 1 * (j 0).val = win25_6.index t (0 : Fin 2) * 1000 + 1 * (j 0).val; omega
  | ⟨1, _⟩ => show win25_0.index t (1 : Fin 2) * 256 + 1 * (j 1).val = win25_6.index t (1 : Fin 2) * 256 + 1 * (j 1).val; omega

/-- Input window 1 (a [1,256] row, one block, the same at every point) read at column `k`: the row at `k`. -/
theorem iblk25_1_apply (c : Dev nD) (t : Fin cfg25.N) (k : Fin 256) :
    (iblk25 V c 1 t : Vec Ideal S1x256 .f32) (rowIx k) = (V c (Pipeline.arrRef spec25 1) : Vec Ideal S1x256 .f32) (rowIx k) := by
  obtain ⟨-, -, a1, b1, a2, b2, a3, b3, a4, b4, a5, b5, -, -⟩ := idx_facts25 t
  unfold iblk25
  rw [View.read_apply]
  refine congrArg (V c (Pipeline.arrRef spec25 1) : Vec Ideal S1x256 .f32) ?_
  funext a; apply Fin.ext
  match a with
  | ⟨0, _⟩ => show win25_1.index t (0 : Fin 2) * 1 + 1 * 0 = 0; omega
  | ⟨1, _⟩ => show win25_1.index t (1 : Fin 2) * 256 + 1 * k.val = k.val; omega

/-- Input window 2 (a [1,256] row, one block, the same at every point) read at column `k`: the row at `k`. -/
theorem iblk25_2_apply (c : Dev nD) (t : Fin cfg25.N) (k : Fin 256) :
    (iblk25 V c 2 t : Vec Ideal S1x256 .f32) (rowIx k) = (V c (Pipeline.arrRef spec25 2) : Vec Ideal S1x256 .f32) (rowIx k) := by
  obtain ⟨-, -, a1, b1, a2, b2, a3, b3, a4, b4, a5, b5, -, -⟩ := idx_facts25 t
  unfold iblk25
  rw [View.read_apply]
  refine congrArg (V c (Pipeline.arrRef spec25 2) : Vec Ideal S1x256 .f32) ?_
  funext a; apply Fin.ext
  match a with
  | ⟨0, _⟩ => show win25_2.index t (0 : Fin 2) * 1 + 1 * 0 = 0; omega
  | ⟨1, _⟩ => show win25_2.index t (1 : Fin 2) * 256 + 1 * k.val = k.val; omega

/-- Input window 3 (a [1,256] row, one block, the same at every point) read at column `k`: the row at `k`. -/
theorem iblk25_3_apply (c : Dev nD) (t : Fin cfg25.N) (k : Fin 256) :
    (iblk25 V c 3 t : Vec Ideal S1x256 .f32) (rowIx k) = (V c (Pipeline.arrRef spec25 3) : Vec Ideal S1x256 .f32) (rowIx k) := by
  obtain ⟨-, -, a1, b1, a2, b2, a3, b3, a4, b4, a5, b5, -, -⟩ := idx_facts25 t
  unfold iblk25
  rw [View.read_apply]
  refine congrArg (V c (Pipeline.arrRef spec25 3) : Vec Ideal S1x256 .f32) ?_
  funext a; apply Fin.ext
  match a with
  | ⟨0, _⟩ => show win25_3.index t (0 : Fin 2) * 1 + 1 * 0 = 0; omega
  | ⟨1, _⟩ => show win25_3.index t (1 : Fin 2) * 256 + 1 * k.val = k.val; omega

/-- Input window 4 (a [1,256] row, one block, the same at every point) read at column `k`: the row at `k`. -/
theorem iblk25_4_apply (c : Dev nD) (t : Fin cfg25.N) (k : Fin 256) :
    (iblk25 V c 4 t : Vec Ideal S1x256 .f32) (rowIx k) = (V c (Pipeline.arrRef spec25 4) : Vec Ideal S1x256 .f32) (rowIx k) := by
  obtain ⟨-, -, a1, b1, a2, b2, a3, b3, a4, b4, a5, b5, -, -⟩ := idx_facts25 t
  unfold iblk25
  rw [View.read_apply]
  refine congrArg (V c (Pipeline.arrRef spec25 4) : Vec Ideal S1x256 .f32) ?_
  funext a; apply Fin.ext
  match a with
  | ⟨0, _⟩ => show win25_4.index t (0 : Fin 2) * 1 + 1 * 0 = 0; omega
  | ⟨1, _⟩ => show win25_4.index t (1 : Fin 2) * 256 + 1 * k.val = k.val; omega

/-- Input window 5 (a [1,256] row, one block, the same at every point) read at column `k`: the row at `k`. -/
theorem iblk25_5_apply (c : Dev nD) (t : Fin cfg25.N) (k : Fin 256) :
    (iblk25 V c 5 t : Vec Ideal S1x256 .f32) (rowIx k) = (V c (Pipeline.arrRef spec25 5) : Vec Ideal S1x256 .f32) (rowIx k) := by
  obtain ⟨-, -, a1, b1, a2, b2, a3, b3, a4, b4, a5, b5, -, -⟩ := idx_facts25 t
  unfold iblk25
  rw [View.read_apply]
  refine congrArg (V c (Pipeline.arrRef spec25 5) : Vec Ideal S1x256 .f32) ?_
  funext a; apply Fin.ext
  match a with
  | ⟨0, _⟩ => show win25_5.index t (0 : Fin 2) * 1 + 1 * 0 = 0; omega
  | ⟨1, _⟩ => show win25_5.index t (1 : Fin 2) * 256 + 1 * k.val = k.val; omega

/-! ## What a point writes back -/

set_option maxHeartbeats 1000000 in
/-- WHAT POINT `t` WRITES BACK is block `t` of `bnrelu` of the six arrays as the region finds them. -/
theorem flushed25_6_eq (c : Dev nD) (t : Fin cfg25.N) :
    (dat25 V c).flushed 6 t = ((cfg25.win 6).blk t).view.read (Elt Ideal)
      (bnrelu (n := 50000) (d := 256) (V c (Pipeline.arrRef spec25 0)) (V c (Pipeline.arrRef spec25 1)) (V c (Pipeline.arrRef spec25 2))
        (V c (Pipeline.arrRef spec25 3)) (V c (Pipeline.arrRef spec25 4)) (V c (Pipeline.arrRef spec25 5))) := by
  show (cfg25.win 6).cut (grid25.coords t) ((dat25 V c).after 6 t) = _
  rw [after25_6]
  unfold out25_6
  rw [View.canon_unit_zero hz25]
  simp only [View.ld_unit_zero (S := S1000x256) hz25, View.ld_unit_zero (S := S1x256) hz25]
  refine funext fun (j : S1000x256.Idx) => ?_
  show k25_pay1 (iblk25 V c 0 t) (iblk25 V c 1 t) (iblk25 V c 2 t) (iblk25 V c 3 t) (iblk25 V c 4 t) (iblk25 V c 5 t) j
    = bnrelu (n := 50000) (d := 256) (V c (Pipeline.arrRef spec25 0)) (V c (Pipeline.arrRef spec25 1)) (V c (Pipeline.arrRef spec25 2))
        (V c (Pipeline.arrRef spec25 3)) (V c (Pipeline.arrRef spec25 4)) (V c (Pipeline.arrRef spec25 5)) (((cfg25.win 6).blk t).view.emb j)
  rw [pay25_apply, bnrelu_apply, emb25_6_col t j, iblk25_0_apply, iblk25_1_apply V c t (j 1), iblk25_2_apply V c t (j 1),
    iblk25_3_apply V c t (j 1), iblk25_4_apply V c t (j 1), iblk25_5_apply V c t (j 1)]

/-! ## The blocks cover the array -/

/-- An index of the array is in point `t`'s block iff each coordinate is in the block's range on its axis. -/
theorem mem_blk25_6 (t : Fin cfg25.N) (i : S50000x256.Idx) :
    i ∈ ((cfg25.win 6).blk t).view.set ↔ ∀ a : Fin 2, win25_6.index t a * S1000x256.size a ≤ (i a).val ∧ (i a).val < win25_6.index t a * S1000x256.size a + S1000x256.size a := by
  show i ∈ ((View.whole main_v65).slice (win25_6.rect t)).set ↔ _
  rw [View.set_slice_whole, Rect.mem_set_unit]
  exact Iff.rfl

/-- Every element of the output array is in some point's block: row `r` is in the block of point `r / 1000`. -/
theorem covered25_6 (i : S50000x256.Idx) :
    ∃ t : Fin cfg25.N, (cfg25.win 6).flush t = true ∧ i ∈ ((cfg25.win 6).blk t).view.set := by
  have hi0 : (i 0).val < 50000 := (i 0).isLt
  have hi1 : (i 1).val < 256 := (i 1).isLt
  have hN : cfg25.N = 50 := N_25
  have hlt : (i 0).val / 1000 < cfg25.N := by rw [hN]; omega
  obtain ⟨-, -, -, -, -, -, -, -, -, -, -, -, a6, b6⟩ := idx_facts25 ⟨(i 0).val / 1000, hlt⟩
  refine ⟨⟨(i 0).val / 1000, hlt⟩, flush25_6 _, ?_⟩
  rw [mem_blk25_6]
  intro a
  match a with
  | ⟨0, _⟩ =>
    show win25_6.index ⟨(i 0).val / 1000, hlt⟩ (0 : Fin 2) * 1000 ≤ (i 0).val ∧ (i 0).val < win25_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win25_6.index ⟨(i 0).val / 1000, hlt⟩ (1 : Fin 2) * 256 ≤ (i 1).val ∧ (i 1).val < win25_6.index ⟨(i 0).val / 1000, hlt⟩ (1 : Fin 2) * 256 + 256
    rw [b6]; omega

/-! ## The output array after the region -/

/-- THE OUTPUT ARRAY after the region's grid has run is `bnrelu` of the six input arrays as the region finds them. -/
theorem final25_6 (c : Dev nD) :
    (dat25 V c).arrAt 6 cfg25.N = bnrelu (n := 50000) (d := 256) (V c (Pipeline.arrRef spec25 0)) (V c (Pipeline.arrRef spec25 1)) (V c (Pipeline.arrRef spec25 2))
        (V c (Pipeline.arrRef spec25 3)) (V c (Pipeline.arrRef spec25 4)) (V c (Pipeline.arrRef spec25 5)) :=
  (dat25 V c).arrAt_eq_of_cover 6 _ (fun t _ => flushed25_6_eq V c t) covered25_6

end Cert.KernelIdeal.Reg
-- ==== Proof.KI.Val26.lean ====
/- THE VALUE of region 26 at the ideal values: the output array after the region is the output head (Spec/OpHead.lean
   outhead: each row's logits block·weight + bias, shifted by the row maximum, minus the logarithm of the row sum of
   exponentials) of the three input arrays as the region finds them, at every index. Two halves. THE PAYLOAD: the one
   store's payload, read at an index of a block, is outhead of the loaded blocks there — each operation of the printed
   payload read at an index (the format changes vanish; the matmul into zero is the sum over the contraction index; the
   two one-axis reductions are the fold of max from -∞ and the sum over the two classes; the shape casts and broadcasts
   re-index). FROM THE BLOCKS TO THE ARRAY: point t's block of rows is rows 1000·t … 1000·t + 999 of the array and so is
   its output block, the weight's and the bias's one block is the whole array, the head at a row reads that row only, and
   the 50 output blocks cover the array. -/
import proofs.«146967_j25786983645193_1_alg».proof.Proof.KI.Reg26
import proofs.«146967_j25786983645193_1_alg».proof.Proof.Spec.OpHead
import Idealize.ShloMosaic.Lib.Pipeline.Value
import Idealize.ShloMosaic.PureOps.Ideal
import Idealize.ShloMosaic.PureOps.Ideal.Laws
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open Cert.Spec
open scoped BigOperators

/-! ## The payload, read at an index -/

/-- The f32 pattern of -∞ denotes the extended reals' ⊥. -/
theorem negInf26 : Ideal.ofBits .f32 0xFF800000#32 = ⊥ := by simp [Ideal.ofBits, Ideal.ieee]

section Cols
variable {α : Type}

/-- A column [1000,1] broadcast along the classes reads the column's row. -/
theorem bcastCol26_apply (u : S1000x1.Idx → α) (r : Fin 1000) (j : Fin 2) :
    broadcastTo S1000x2 u broadcasts_S1000x1_S1000x2 (ix2 r j) = u (ix2 r (0 : Fin 1)) :=
  broadcastTo_apply u _ (ix2 r j) (ix2 r (0 : Fin 1)) fun a => match a with | ⟨0, _⟩ => rfl | ⟨1, _⟩ => rfl

/-- A [1000] vector cast to a column reads the same row. -/
theorem castCol26_apply (u : S1000.Idx → α) (r : Fin 1000) :
    shapeCast S1000x1 u shapeCasts_S1000_S1000x1 (ix2 r (0 : Fin 1)) = u (ix1 r) :=
  shapeCast_apply u _ (ix2 r (0 : Fin 1)) (ix1 r) (by rw [Shape.rowMajor_val_one, Shape.rowMajor_val_two]; show r.val = r.val * 1 + 0; omega)

/-- The bias row [1,2] broadcast along the rows reads the bias at the class. -/
theorem bcastRow26_apply (u : S1x2.Idx → α) (r : Fin 1000) (j : Fin 2) :
    broadcastTo S1000x2 u broadcasts_S1x2_S1000x2 (ix2 r j) = u (ix2 (0 : Fin 1) j) :=
  broadcastTo_apply u _ (ix2 r j) (ix2 (0 : Fin 1) j) fun a => match a with | ⟨0, _⟩ => rfl | ⟨1, _⟩ => rfl
end Cols

/-- The reduced index (row r) with class k inserted on the reduced axis is (r, k). -/
theorem lift26 (r : Fin 1000) (k : Fin 2) : reduces_S1000x2_S1000.lift (ix1 r) k = ix2 r k :=
  funext fun a => Fin.ext (match a with | ⟨0, _⟩ => rfl | ⟨1, _⟩ => rfl)

/-- The exponential and the logarithm of a vector, at an index, are the ideal values' own of the element. -/
theorem exp26_apply {s : Shape} {φ : FTy} (v : FVec Ideal s φ) (i : s.Idx) : exp v i = Ideal.exp (v i) := rfl
theorem log26_apply {s : Shape} {φ : FTy} (v : FVec Ideal s φ) (i : s.Idx) : log v i = Ideal.log (v i) := rfl

/-- The maximum over the class axis at row r: the fold of max from -∞ over the two classes. -/
theorem rowmax26_apply (v : FVec Ideal S1000x2 .f32) (hφ : FKind.Formats .f32)
    (hacc : (0xFF800000#32 : BitVec 32) = FKind.maximumf.neutral .f32 hφ) (r : Fin 1000) :
    multiReduction .maximumf [1] S1000 v 0xFF800000#32 reduces_S1000x2_S1000 hφ hacc (ix1 r)
      = (Finset.univ : Finset (Fin 2)).fold max ⊥ (fun j => v (ix2 r j)) := by
  rw [Ideal.multiReduction_maximumf_single]
  show (Finset.univ : Finset (Fin 2)).fold max (Ideal.ofBits .f32 0xFF800000#32) (v ∘ reduces_S1000x2_S1000.lift (ix1 r)) = _
  rw [negInf26]
  exact congrArg (fun f => (Finset.univ : Finset (Fin 2)).fold max ⊥ f) (funext fun k => congrArg v (lift26 r k))

/-- The sum over the class axis at row r: the sum over the two classes. -/
theorem rowsum26_apply (v : FVec Ideal S1000x2 .f32) (hφ : FKind.Formats .f32)
    (hacc : (0x00000000#32 : BitVec 32) = FKind.add.neutral .f32 hφ) (r : Fin 1000) :
    multiReduction .add [1] S1000 v 0x00000000#32 reduces_S1000x2_S1000 hφ hacc (ix1 r)
      = ∑ j : Fin 2, v (ix2 r j) := by
  rw [Ideal.multiReduction_add_single]
  exact Finset.sum_congr rfl fun k _ => congrArg v (lift26 r k)

/-- The affine map at (r, j), the same-shape casts of its operands already dropped: the format changes are the identity, the matmul into zero is the sum over the contraction
    index — re-indexed through its one coordinate — of the products, and the bias is read at the class. -/
theorem logit26_apply (x0 : Vec Ideal S1000x256 .f32) (x1 : Vec Ideal S256x2 .f32) (x2 : Vec Ideal S1x2 .f32) (r : Fin 1000) (j : Fin 2) :
    addf (F := Ideal) (matmul dot_S1000x256_S256x2_S1000x2_1_0_0_1_n_n none (truncf .bf16 x0 bitsLt_bf16_f32) (truncf .bf16 x1 bitsLt_bf16_f32) (constant S1000x2 .f32 0x00000000#32))
      (broadcastTo S1000x2 x2 broadcasts_S1x2_S1000x2) (ix2 r j)
    = headLogit x0 x1 x2 r j := by
  rw [addf_apply, bcastRow26_apply]
  unfold headLogit
  congr 1
  simp only [Idealize.ShloMosaic.matmul]
  rw [Ideal.matmul_constant_zero_apply]
  rw [← Equiv.sum_comp (contrEquiv1 dot_S1000x256_S256x2_S1000x2_1_0_0_1_n_n 256 rfl rfl) (fun k => x0 (ix2 r k) * x1 (ix2 k j))]
  refine Finset.sum_congr rfl fun q _ => ?_
  rw [truncf_apply, truncf_apply]
  have hl : dot_S1000x256_S256x2_S1000x2_1_0_0_1_n_n.lhsIdx (ix2 r j) q
      = ix2 r (contrEquiv1 dot_S1000x256_S256x2_S1000x2_1_0_0_1_n_n 256 rfl rfl q) :=
    funext fun a => Fin.ext (match a with | ⟨0, _⟩ => rfl | ⟨1, _⟩ => rfl)
  have hr : dot_S1000x256_S256x2_S1000x2_1_0_0_1_n_n.rhsIdx (ix2 r j) q
      = ix2 (contrEquiv1 dot_S1000x256_S256x2_S1000x2_1_0_0_1_n_n 256 rfl rfl q) j :=
    funext fun a => Fin.ext (match a with | ⟨0, _⟩ => rfl | ⟨1, _⟩ => rfl)
  rw [hl, hr]

/-- THE PAYLOAD is the output head of the loaded blocks: each operation read at the index (r, j), the two reductions at row r. -/
theorem pay26_eq (x0 : Vec Ideal S1000x256 .f32) (x1 : Vec Ideal S256x2 .f32) (x2 : Vec Ideal S1x2 .f32) :
    k26_pay1 x0 x1 x2 = outhead x0 x1 x2 := by
  funext i
  obtain ⟨r, j, rfl⟩ : ∃ (r : Fin 1000) (j : Fin 2), i = ix2 r j := ⟨i 0, i 1, eq_ix2 i⟩
  unfold k26_pay1
  -- a shape cast to the same shape is the identity
  simp only [shapeCast_self]
  simp only [subf_apply, bcastCol26_apply, castCol26_apply, logit26_apply, exp26_apply, log26_apply]
  erw [rowsum26_apply]
  simp only [subf_apply, bcastCol26_apply, castCol26_apply, logit26_apply, exp26_apply]
  erw [rowmax26_apply]
  simp only [logit26_apply]
  rfl

/-! ## From the blocks to the array -/

variable (V : (c : Dev nD) → (b : Ref sig .tc) → Buf (Elt Ideal) ((c : Thread nD τ).loc b))

/-- The whole-block rectangle's offsets are zero. -/
theorem hz26 : (![0, 0] : Fin 2 → Nat) = fun _ => 0 := funext fun a => match a with | ⟨0, _⟩ => rfl | ⟨1, _⟩ => rfl

/-- The printed index maps, decided over the grid's 50 points: the block of rows and the output block are at the
    point's own number on the row axis, the weight and the bias at block 0. -/
theorem idx_facts26 : ∀ t : Fin cfg26.N, win26_0.index t (0 : Fin 2) = t.val ∧ win26_0.index t (1 : Fin 2) = 0
    ∧ win26_1.index t (0 : Fin 2) = 0 ∧ win26_1.index t (1 : Fin 2) = 0
    ∧ win26_2.index t (0 : Fin 2) = 0 ∧ win26_2.index t (1 : Fin 2) = 0
    ∧ win26_3.index t (0 : Fin 2) = t.val ∧ win26_3.index t (1 : Fin 2) = 0 :=
  (by decide +kernel : ∀ t : Fin grid26.N, _)

set_option maxHeartbeats 4000000 in
/-- WHAT POINT t WRITES BACK is block t of the output head of the three arrays as the region finds them. -/
theorem flushed26_3_eq (c : Dev nD) (t : Fin cfg26.N) :
    (dat26 V c).flushed 3 t = ((cfg26.win 3).blk t).view.read (Elt Ideal)
      (outhead (R := 50000) (K := 256) (C := 2) (V c (Pipeline.arrRef spec26 0)) (V c (Pipeline.arrRef spec26 1)) (V c (Pipeline.arrRef spec26 2))) := by
  show (cfg26.win 3).cut (grid26.coords t) ((dat26 V c).after 3 t) = _
  rw [after26_3]
  unfold out26_3
  rw [View.canon_unit_zero hz26]
  simp only [View.ld_unit_zero (S := S1000x256) hz26, View.ld_unit_zero (S := S256x2) hz26, View.ld_unit_zero (S := S1x2) hz26]
  rw [pay26_eq]
  obtain ⟨e00, e01, e10, e11, e20, e21, e30, e31⟩ := idx_facts26 t
  have hN : cfg26.N = 50 := N_26
  have key : ∀ (r : Fin 1000) (k : Fin 2),
      outhead (iblk26 V c 0 t) (iblk26 V c 1 t) (iblk26 V c 2 t) (ix2 r k)
        = outhead (R := 50000) (K := 256) (C := 2) (V c (Pipeline.arrRef spec26 0)) (V c (Pipeline.arrRef spec26 1)) (V c (Pipeline.arrRef spec26 2))
            (((cfg26.win 3).blk t).view.emb (ix2 r k)) := by
    intro r k
    -- the weight's and the bias's one block is the whole array
    have h1 : (iblk26 V c 1 t : Vec Ideal S256x2 .f32) = V c (Pipeline.arrRef spec26 1) := by
      funext y
      show V c (Pipeline.arrRef spec26 1) (((cfg26.win 1).blk t).view.emb y) = V c (Pipeline.arrRef spec26 1) y
      congr 1
      funext a; apply Fin.ext
      match a with
      | ⟨0, _⟩ => show win26_1.index t (0 : Fin 2) * 256 + 1 * (y 0).val = (y 0).val; omega
      | ⟨1, _⟩ => show win26_1.index t (1 : Fin 2) * 2 + 1 * (y 1).val = (y 1).val; omega
    have h2 : (iblk26 V c 2 t : Vec Ideal S1x2 .f32) = V c (Pipeline.arrRef spec26 2) := by
      funext y
      show V c (Pipeline.arrRef spec26 2) (((cfg26.win 2).blk t).view.emb y) = V c (Pipeline.arrRef spec26 2) y
      congr 1
      funext a; apply Fin.ext
      match a with
      | ⟨0, _⟩ => show win26_2.index t (0 : Fin 2) * 1 + 1 * (y 0).val = (y 0).val; omega
      | ⟨1, _⟩ => show win26_2.index t (1 : Fin 2) * 2 + 1 * (y 1).val = (y 1).val; omega
    -- row r of point t's block of rows is row 1000·t + r of the array, and so is row r of its output block
    have hr' : t.val * 1000 + r.val < 50000 := by have := t.isLt; have := r.isLt; omega
    have h0 : ∀ k' : Fin 256, iblk26 V c 0 t (ix2 r k') = V c (Pipeline.arrRef spec26 0) (ix2 (n0 := 50000) (n1 := 256) ⟨t.val * 1000 + r.val, hr'⟩ k') := by
      intro k'
      show V c (Pipeline.arrRef spec26 0) (((cfg26.win 0).blk t).view.emb (ix2 r k')) = _
      congr 1
      funext a; apply Fin.ext
      match a with
      | ⟨0, _⟩ => show win26_0.index t (0 : Fin 2) * 1000 + 1 * r.val = t.val * 1000 + r.val; omega
      | ⟨1, _⟩ => show win26_0.index t (1 : Fin 2) * 256 + 1 * k'.val = k'.val; omega
    have he : ((cfg26.win 3).blk t).view.emb (ix2 r k) = ix2 (n0 := 50000) (n1 := 2) ⟨t.val * 1000 + r.val, hr'⟩ k := by
      funext a; apply Fin.ext
      match a with
      | ⟨0, _⟩ => show win26_3.index t (0 : Fin 2) * 1000 + 1 * r.val = t.val * 1000 + r.val; omega
      | ⟨1, _⟩ => show win26_3.index t (1 : Fin 2) * 2 + 1 * k.val = k.val; omega
    rw [he, h1, h2]
    exact outhead_congr (iblk26 V c 0 t) (V c (Pipeline.arrRef spec26 0)) (V c (Pipeline.arrRef spec26 1)) (V c (Pipeline.arrRef spec26 2)) r ⟨t.val * 1000 + r.val, hr'⟩ h0 k
  funext x
  rw [eq_ix2 (n0 := 1000) (n1 := 2) x]
  exact key (x 0) (x 1)

set_option maxHeartbeats 4000000 in
/-- An index of the output array is in point t's block iff each coordinate is in the block's range on its axis. -/
theorem mem_blk26_3 (t : Fin cfg26.N) (i : S50000x2.Idx) :
    i ∈ ((cfg26.win 3).blk t).view.set ↔ ∀ a : Fin 2, win26_3.index t a * S1000x2.size a ≤ (i a).val ∧ (i a).val < win26_3.index t a * S1000x2.size a + S1000x2.size a := by
  show i ∈ ((View.whole (Pipeline.arrRef spec26 3)).slice (win26_3.rect t)).set ↔ _
  rw [View.set_slice_whole, Rect.mem_set_unit]
  exact Iff.rfl

set_option maxHeartbeats 4000000 in
/-- Every index of the output array is in some point's block: row i is in block i / 1000 of the 50. -/
theorem cover26_arr (i : S50000x2.Idx) : ∃ t : Fin cfg26.N, (cfg26.win 3).flush t = true ∧ i ∈ ((cfg26.win 3).blk t).view.set := by
  have hN : cfg26.N = 50 := N_26
  have hi0 : (i 0).val < 50000 := (i 0).isLt
  have hi1 : (i 1).val < 2 := (i 1).isLt
  have ht : (i 0).val / 1000 < cfg26.N := by rw [hN]; omega
  obtain ⟨-, -, -, -, -, -, e30, e31⟩ := idx_facts26 ⟨(i 0).val / 1000, ht⟩
  refine ⟨⟨(i 0).val / 1000, ht⟩, flush26_3 _, ?_⟩
  rw [mem_blk26_3]
  intro a
  match a with
  | ⟨0, _⟩ =>
    show win26_3.index ⟨(i 0).val / 1000, ht⟩ (0 : Fin 2) * 1000 ≤ (i 0).val ∧ (i 0).val < win26_3.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win26_3.index ⟨(i 0).val / 1000, ht⟩ (1 : Fin 2) * 2 ≤ (i 1).val ∧ (i 1).val < win26_3.index ⟨(i 0).val / 1000, ht⟩ (1 : Fin 2) * 2 + 2
    omega

set_option maxHeartbeats 4000000 in
/-- THE OUTPUT ARRAY after the region: the output head of the three input arrays as the region finds them, at every index. -/
theorem arr26_3 (c : Dev nD) : (dat26 V c).arrAt 3 cfg26.N
    = outhead (R := 50000) (K := 256) (C := 2) (V c (Pipeline.arrRef spec26 0)) (V c (Pipeline.arrRef spec26 1)) (V c (Pipeline.arrRef spec26 2)) :=
  (dat26 V c).arrAt_eq_of_cover 3 _ (fun t _ => flushed26_3_eq V c t) (fun i => cover26_arr i)

/-- info: 'Cert.KernelIdeal.Reg.arr26_3' depends on axioms: [propext, Classical.choice, Quot.sound] -/
#guard_msgs in #print axioms arr26_3

end Cert.KernelIdeal.Reg

end
-- ==== Proof.KI.Read3L1.lean ====
/- THE VALUE OF THE KERNEL PROGRAM, the heads: local head /-#I-/1/-#-/ (items 47 … 54 of @main: regions 23, 24, 25, 26 and the host
   stretches before them).

   The block takes one of the global path's results (main_v190, written by region 14 and unchanged since boundary 31)
   through a dense layer and an output head:
     region 23: the product of the rows with slab /-#I-/1/-#-/ of the stacked weights main_arg12;
     region 24: the column sums of the product and of its square;
     the host stretch after it: the mean row (sums over 50000, plus the bias) and the variance row (sums of squares over
       50000, minus the squared sums over 50000), and the bias, scale, shift, mean and variance rows made one-row arrays;
     region 25: the normalising kernel on the product and the five rows;
     region 26: the output head on its result, with slab /-#I-/1/-#-/ of main_arg18 and row /-#I-/1/-#-/ of main_arg19 (sliced, made flat,
       made a one-row array).
   Each item is read once, as a function of the contents at the boundary before it; the readings are then chained, every
   buffer carried back to the item that wrote it, and the chain is the dense layer and head of the network's definition. -/
import proofs.«146967_j25786983645193_1_alg».proof.Proof.KI.Read3G
import proofs.«146967_j25786983645193_1_alg».proof.Proof.KI.Val23
import proofs.«146967_j25786983645193_1_alg».proof.Proof.KI.Val24
import proofs.«146967_j25786983645193_1_alg».proof.Proof.KI.Val25
import proofs.«146967_j25786983645193_1_alg».proof.Proof.KI.Val26

-- decided memberships over the program's references recurse past the default depth
set_option maxRecDepth 16384

noncomputable section

namespace Cert.KernelIdeal.Reg

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Spec (mm colsum colsumsq bnrelu outhead denseK headK stack4 row3 mat3 mat3o row3o)

-- the launch memory, at the ideal values
variable (m : (ℓ : Loc nD τ sig) → Buf (Elt Ideal) ℓ)

/-! ## The items, one by one -/

/-- Before region 23: slab /-#I-/1/-#-/ of the stacked local weights, as a matrix. -/
theorem L1_w (c : Dev nD) :
    W48 m c (Proc.devRef .tc main_v251)
      = mat3 (W47 m c (Proc.devRef .tc main_arg12) : Vec Ideal S3x256x256 .f32) /-#I-/1/-#-/ (by decide) := by
  show StableHlo.after hostOps23 _ (Proc.devRef .tc main_v251) = _
  after_results; rfl

/-- Region 23: the product of its rows and its weight. -/
theorem L1_mm (c : Dev nD) :
    W49 m c (Proc.devRef .tc main_v252)
      = mm (M := 50000) (K := 256) (N := 256) (W48 m c (Proc.devRef .tc main_v190)) (W48 m c (Proc.devRef .tc main_v251)) :=
  (W49_arr m c 2).trans (arrAt23_out (rd (W48 m)) c)

/-- Before region 24: row /-#I-/1/-#-/ of the stacked biases, scales and shifts, each as a flat row. -/
theorem L1_b (c : Dev nD) :
    W50 m c (Proc.devRef .tc main_v254)
      = row3 (W49 m c (Proc.devRef .tc main_arg13) : Vec Ideal S3x256 .f32) /-#I-/1/-#-/ (by decide) := by
  show StableHlo.after hostOps24 _ (Proc.devRef .tc main_v254) = _
  after_results; rfl
theorem L1_g (c : Dev nD) :
    W50 m c (Proc.devRef .tc main_v256)
      = row3 (W49 m c (Proc.devRef .tc main_arg14) : Vec Ideal S3x256 .f32) /-#I-/1/-#-/ (by decide) := by
  show StableHlo.after hostOps24 _ (Proc.devRef .tc main_v256) = _
  after_results; rfl
theorem L1_bt (c : Dev nD) :
    W50 m c (Proc.devRef .tc main_v258)
      = row3 (W49 m c (Proc.devRef .tc main_arg15) : Vec Ideal S3x256 .f32) /-#I-/1/-#-/ (by decide) := by
  show StableHlo.after hostOps24 _ (Proc.devRef .tc main_v258) = _
  after_results; rfl

/-- Region 24: the column sums of its input, and of the input's square. -/
theorem L1_s (c : Dev nD) :
    W51 m c (Proc.devRef .tc main_v259_0) = colsum (n := 50000) (d := 256) (W50 m c (Proc.devRef .tc main_v252)) :=
  (W51_arr m c 1).trans (arrAt24_1 (rd (W50 m)) c)
theorem L1_ss (c : Dev nD) :
    W51 m c (Proc.devRef .tc main_v259_1) = colsumsq (n := 50000) (d := 256) (W50 m c (Proc.devRef .tc main_v252)) :=
  (W51_arr m c 2).trans (arrAt24_2 (rd (W50 m)) c)

/-- Before region 25: the bias, scale and shift rows made one-row arrays; -/
theorem L1_r1 (c : Dev nD) :
    W52 m c (Proc.devRef .tc main_v269)
      = shapeCast S1x256 (W51 m c (Proc.devRef .tc main_v254) : Vec Ideal S256 .f32) shapeCasts_S256_S1x256 := by
  show StableHlo.after hostOps25 _ (Proc.devRef .tc main_v269) = _
  after_results; rfl
theorem L1_r2 (c : Dev nD) :
    W52 m c (Proc.devRef .tc main_v270)
      = shapeCast S1x256 (W51 m c (Proc.devRef .tc main_v256) : Vec Ideal S256 .f32) shapeCasts_S256_S1x256 := by
  show StableHlo.after hostOps25 _ (Proc.devRef .tc main_v270) = _
  after_results; rfl
theorem L1_r3 (c : Dev nD) :
    W52 m c (Proc.devRef .tc main_v271)
      = shapeCast S1x256 (W51 m c (Proc.devRef .tc main_v258) : Vec Ideal S256 .f32) shapeCasts_S256_S1x256 := by
  show StableHlo.after hostOps25 _ (Proc.devRef .tc main_v271) = _
  after_results; rfl

/-- the mean row: the column sums as a flat row over the constant 50000 spread over the row, plus the bias; -/
theorem L1_r4 (c : Dev nD) :
    W52 m c (Proc.devRef .tc main_v272)
      = shapeCast S1x256
          (addf (F := Ideal) (φ := .f32)
            (Host.divf (F := Ideal) (φ := .f32)
              (shapeCast S256 (W51 m c (Proc.devRef .tc main_v259_0) : Vec Ideal S1x256 .f32) shapeCasts_S1x256_S256)
              (broadcastInDim S256 ![] bcast_S_S256 (constant (F := Ideal) S_ .f32 0x47435000#32)))
            (W51 m c (Proc.devRef .tc main_v254) : Vec Ideal S256 .f32))
          shapeCasts_S256_S1x256 := by
  show StableHlo.after hostOps25 _ (Proc.devRef .tc main_v272) = _
  after_results; rfl

/-- the variance row: the column sums of squares over 50000, minus the square of the column sums over 50000. -/
theorem L1_r5 (c : Dev nD) :
    W52 m c (Proc.devRef .tc main_v273)
      = shapeCast S1x256
          (subf (F := Ideal) (φ := .f32)
            (Host.divf (F := Ideal) (φ := .f32)
              (shapeCast S256 (W51 m c (Proc.devRef .tc main_v259_1) : Vec Ideal S1x256 .f32) shapeCasts_S1x256_S256)
              (broadcastInDim S256 ![] bcast_S_S256 (constant (F := Ideal) S_ .f32 0x47435000#32)))
            (mulf (F := Ideal) (φ := .f32)
              (Host.divf (F := Ideal) (φ := .f32)
                (shapeCast S256 (W51 m c (Proc.devRef .tc main_v259_0) : Vec Ideal S1x256 .f32) shapeCasts_S1x256_S256)
                (broadcastInDim S256 ![] bcast_S_S256 (constant (F := Ideal) S_ .f32 0x47435000#32)))
              (Host.divf (F := Ideal) (φ := .f32)
                (shapeCast S256 (W51 m c (Proc.devRef .tc main_v259_0) : Vec Ideal S1x256 .f32) shapeCasts_S1x256_S256)
                (broadcastInDim S256 ![] bcast_S_S256 (constant (F := Ideal) S_ .f32 0x47435000#32)))))
          shapeCasts_S256_S1x256 := by
  show StableHlo.after hostOps25 _ (Proc.devRef .tc main_v273) = _
  after_results; rfl

/-- Region 25: the normalising function of its input and its five rows. -/
theorem L1_bn (c : Dev nD) :
    W53 m c (Proc.devRef .tc main_v274)
      = bnrelu (n := 50000) (d := 256) (W52 m c (Proc.devRef .tc main_v252)) (W52 m c (Proc.devRef .tc main_v269))
          (W52 m c (Proc.devRef .tc main_v270)) (W52 m c (Proc.devRef .tc main_v271)) (W52 m c (Proc.devRef .tc main_v272))
          (W52 m c (Proc.devRef .tc main_v273)) :=
  (W53_arr m c 6).trans (final25_6 (rd (W52 m)) c)

/-- Before region 26: slab /-#I-/1/-#-/ of the stacked head weights as a matrix, and row /-#I-/1/-#-/ of the stacked head biases, made flat and
    then a one-row array. -/
theorem L1_ow (c : Dev nD) :
    W54 m c (Proc.devRef .tc main_v276)
      = mat3o (W53 m c (Proc.devRef .tc main_arg18) : Vec Ideal S3x256x2 .f32) /-#I-/1/-#-/ (by decide) := by
  show StableHlo.after hostOps26 _ (Proc.devRef .tc main_v276) = _
  after_results; rfl
theorem L1_ob (c : Dev nD) :
    W54 m c (Proc.devRef .tc main_v279)
      = shapeCast S1x2 (row3o (W53 m c (Proc.devRef .tc main_arg19) : Vec Ideal S3x2 .f32) /-#I-/1/-#-/ (by decide)) shapeCasts_S2_S1x2 := by
  show StableHlo.after hostOps26 _ (Proc.devRef .tc main_v279) = _
  after_results; rfl

/-- Region 26: the output head of its three input arrays. -/
theorem L1_hd (c : Dev nD) :
    W55 m c (Proc.devRef .tc main_v280)
      = outhead (R := 50000) (K := 256) (C := 2) (W54 m c (Proc.devRef .tc main_v274))
          (W54 m c (Proc.devRef .tc main_v276)) (W54 m c (Proc.devRef .tc main_v279)) :=
  (W55_arr m c 3).trans (arr26_3 (rd (W54 m)) c)

/-! ## The chain -/

/-- THE DENSE LAYER: what region 25 leaves in main_v274 is the dense layer of the network's definition on main_v190
    as boundary 31 has it, with slab /-#I-/1/-#-/ of main_arg12 and row /-#I-/1/-#-/ of main_arg13, main_arg14, main_arg15 as launched: the
    normalising kernel's five rows are the block's own rows of the product's column sums. -/
theorem L1_hl (c : Dev nD) :
    W53 m c (Proc.devRef .tc main_v274)
      = denseK (W31 m c (Proc.devRef .tc main_v190)) (mat3 (m ((c : Thread nD τ).loc main_arg12)) /-#I-/1/-#-/ (by decide))
          (row3 (m ((c : Thread nD τ).loc main_arg13)) /-#I-/1/-#-/ (by decide)) (row3 (m ((c : Thread nD τ).loc main_arg14)) /-#I-/1/-#-/ (by decide))
          (row3 (m ((c : Thread nD τ).loc main_arg15)) /-#I-/1/-#-/ (by decide)) := by
  rw [L1_bn, L1_r1, L1_r2, L1_r3, L1_r4, L1_r5, L1_s, L1_ss]
  keep_down main_v252
  keep_down main_v254
  keep_down main_v256
  keep_down main_v258
  rw [L1_mm, L1_b, L1_g, L1_bt, L1_w]
  keep_down main_v190
  rw [W47_arg m c (b := main_arg12) (by decide), W49_arg m c (b := main_arg13) (by decide),
    W49_arg m c (b := main_arg14) (by decide), W49_arg m c (b := main_arg15) (by decide)]
  rfl

/-- LOCAL HEAD /-#I-/1/-#-/: what region 26 leaves in main_v280 is the head of that dense layer, with slab /-#I-/1/-#-/ of main_arg18 and
    row /-#I-/1/-#-/ of main_arg19 as launched. -/
theorem read_ol1 (c : Dev nD) :
    W55 m c (Proc.devRef .tc main_v280)
      = headK (denseK (W31 m c (Proc.devRef .tc main_v190)) (mat3 (m ((c : Thread nD τ).loc main_arg12)) /-#I-/1/-#-/ (by decide))
            (row3 (m ((c : Thread nD τ).loc main_arg13)) /-#I-/1/-#-/ (by decide)) (row3 (m ((c : Thread nD τ).loc main_arg14)) /-#I-/1/-#-/ (by decide))
            (row3 (m ((c : Thread nD τ).loc main_arg15)) /-#I-/1/-#-/ (by decide)))
          (mat3o (m ((c : Thread nD τ).loc main_arg18)) /-#I-/1/-#-/ (by decide)) (row3o (m ((c : Thread nD τ).loc main_arg19)) /-#I-/1/-#-/ (by decide)) := by
  rw [L1_hd, L1_ow, L1_ob]
  keep_down main_v274
  rw [L1_hl, W53_arg m c (b := main_arg18) (by decide), W53_arg m c (b := main_arg19) (by decide)]
  rfl

end Cert.KernelIdeal.Reg

end
-- ==== Proof.KI.Val27.lean ====
/- REGION 27's output array after the region, at the ideal values, as ONE whole-array function of the region's two
   input arrays as it finds them: the [50000, 256] array ends holding the matrix product of the [50000, 256] array
   by the [256, 256] weight (`Cert.Spec.mm`).
   The road: at the ideal values narrowing to bf16 changes nothing and the product onto a zero accumulator is the
   sum over the contraction coordinate, so the body's payload at row `x`, column `y` of a block is
   `∑ k, block (x, k) * weight (k, y)` (`pay27_apply`). Point `t`'s row block is rows `1000 t …` of the array and
   its output block the same rows of the output, while the weight's block is the whole weight at every point
   (`idx_facts27`, decided over the 50 points); a product's rows are the products of the rows, so what point `t`
   writes back is block `t` of the whole product (`flushed27_2_eq`). Every point writes back, and row `r` lies in
   the block of point `r / 1000` (`cover27_out`), so the array ends holding the product and nothing of what it held
   before (`arrAt27_out`). -/
import proofs.«146967_j25786983645193_1_alg».proof.Proof.KI.Reg27
import proofs.«146967_j25786983645193_1_alg».proof.Proof.Spec.OpMM
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The rectangles' offsets, however the zeros are spelt. -/
theorem hz27 : (![0, 0] : Fin 2 → Nat) = fun _ => 0 := funext fun a => by fin_cases a <;> rfl

/-! ## The body's payload at an index -/

/-- At the ideal values the body's payload — both operands narrowed to bf16, which changes nothing there, and
    multiplied onto the zero accumulator — is, at row `j 0` and column `j 1` of the block, the sum over the contraction
    coordinate of the products of the row block's and the weight's elements. -/
theorem pay27_apply (xa : Vec Ideal S1000x256 .f32) (xb : Vec Ideal S256x256 .f32) (j : S1000x256.Idx) :
    k27_pay1 (F := Ideal) xa xb j = ∑ k : Fin 256, xa (ix2 (j 0) k) * xb (ix2 k (j 1)) := by
  unfold k27_pay1
  -- a sibling's payload casts each operand to its own shape first: the identity
  have hcast := @shapeCast_self
  try simp only [hcast]
  exact Cert.Spec.matmul_plain_zero_apply _ rfl rfl rfl rfl rfl rfl _ _ _ j

/-! ## The windows' index maps, decided over the grid -/

/-- At every point: the row block's index moves with the output block's on the rows and is zero on the columns; the
    weight's is zero on both axes; the output block's is the point on the rows and zero on the columns. -/
theorem idx_facts27 : ∀ t : Fin cfg27.N,
    win27_0.index t (0 : Fin 2) = win27_2.index t (0 : Fin 2) ∧ win27_0.index t (1 : Fin 2) = 0
    ∧ win27_1.index t (0 : Fin 2) = 0 ∧ win27_1.index t (1 : Fin 2) = 0
    ∧ win27_2.index t (0 : Fin 2) = t.val ∧ win27_2.index t (1 : Fin 2) = 0 :=
  (by decide +kernel : ∀ t : Fin grid27.N, _)

/-! ## What each point writes back -/

-- the last step below is a definitional equality; for some regions checking it takes more than the default number of steps
set_option maxHeartbeats 2000000 in
/-- WHAT POINT `t` WRITES BACK is block `t` of the product of the two arrays as the region finds them: row `x` of the
    block is row `1000 t + x` of the array, whose product with the weight looks at no other row. -/
theorem flushed27_2_eq (c : Dev nD) (t : Fin cfg27.N) :
    (dat27 (F := Ideal) V c).flushed 2 t
      = ((cfg27.win 2).blk t).view.read (Elt Ideal)
          (Cert.Spec.mm (M := 50000) (K := 256) (N := 256) (V c (Pipeline.arrRef spec27 0)) (V c (Pipeline.arrRef spec27 1))) := by
  show (cfg27.win 2).cut (grid27.coords t) ((dat27 (F := Ideal) V c).after 2 t) = _
  rw [after27_2]
  unfold out27_2
  rw [View.canon_unit_zero hz27]
  simp only [View.ld_unit_zero (S := S1000x256) hz27, View.ld_unit_zero (S := S256x256) hz27]
  obtain ⟨e0, e1, e2, e3, e4, e5⟩ := idx_facts27 t
  funext j
  show k27_pay1 (F := Ideal) (iblk27 V c 0 t) (iblk27 V c 1 t) j
    = Cert.Spec.mm (M := 50000) (K := 256) (N := 256) (V c (Pipeline.arrRef spec27 0)) (V c (Pipeline.arrRef spec27 1)) (((cfg27.win 2).blk t).view.emb j)
  rw [pay27_apply, Cert.Spec.mm_apply]
  refine Finset.sum_congr rfl fun k _ => ?_
  -- the row block's element (j 0, k) is the array's at the output block's row and column k
  have ha : ((cfg27.win 0).blk t).view.emb (ix2 (j 0) k) = ix2 ((((cfg27.win 2).blk t).view.emb j) 0) k := by
    funext a; apply Fin.ext
    match a with
    | ⟨0, _⟩ => show win27_0.index t (0 : Fin 2) * 1000 + 1 * (j 0).val = win27_2.index t (0 : Fin 2) * 1000 + 1 * (j 0).val; omega
    | ⟨1, _⟩ => show win27_0.index t (1 : Fin 2) * 256 + 1 * k.val = k.val; omega
  -- the weight's element (k, j 1) is the array's at row k and the output block's column
  have hb : ((cfg27.win 1).blk t).view.emb (ix2 k (j 1)) = ix2 k ((((cfg27.win 2).blk t).view.emb j) 1) := by
    funext a; apply Fin.ext
    match a with
    | ⟨0, _⟩ => show win27_1.index t (0 : Fin 2) * 256 + 1 * k.val = k.val; omega
    | ⟨1, _⟩ => show win27_1.index t (1 : Fin 2) * 256 + 1 * (j 1).val = win27_2.index t (1 : Fin 2) * 256 + 1 * (j 1).val; omega
  -- each block's element is its array's at the embedded index (a read through a view is precomposition)
  unfold iblk27
  rw [View.read_apply, View.read_apply]
  rewrite [ha, hb]
  rfl

/-! ## The output blocks cover the array -/

/-- An index of the output array is in point `t`'s block iff each coordinate is in the block's range on its axis. -/
theorem mem_blk27_2 (t : Fin cfg27.N) (i : S50000x256.Idx) :
    i ∈ ((cfg27.win 2).blk t).view.set ↔ ∀ a : Fin 2, win27_2.index t a * S1000x256.size a ≤ (i a).val ∧ (i a).val < win27_2.index t a * S1000x256.size a + S1000x256.size a := by
  show i ∈ ((View.whole (Pipeline.arrRef spec27 2)).slice (win27_2.rect t)).set ↔ _
  rw [View.set_slice_whole, Rect.mem_set_unit]
  exact Iff.rfl

/-- Every index of the output array is in some point's block: row `r` is in the block of point `r / 1000`, whose rows
    are `1000 (r / 1000) … 1000 (r / 1000) + 999` and whose columns are all of them; every point writes back. -/
theorem cover27_out (i : S50000x256.Idx) :
    ∃ t : Fin cfg27.N, (cfg27.win 2).flush t = true ∧ i ∈ ((cfg27.win 2).blk t).view.set := by
  have hr : (i 0).val < 50000 := idx2_lt0 i
  have hc : (i 1).val < 256 := idx2_lt1 i
  have hN : cfg27.N = 50 := N_27
  let t : Fin cfg27.N := ⟨(i 0).val / 1000, by rw [hN]; omega⟩
  have ht : t.val = (i 0).val / 1000 := rfl
  obtain ⟨-, -, -, -, e4, e5⟩ := idx_facts27 t
  refine ⟨t, flush27_2 t, (mem_blk27_2 t i).mpr fun a => ?_⟩
  match a with
  | ⟨0, _⟩ => show win27_2.index t (0 : Fin 2) * 1000 ≤ (i 0).val ∧ (i 0).val < win27_2.index t (0 : Fin 2) * 1000 + 1000; omega
  | ⟨1, _⟩ => show win27_2.index t (1 : Fin 2) * 256 ≤ (i 1).val ∧ (i 1).val < win27_2.index t (1 : Fin 2) * 256 + 256; omega

/-! ## The output array after the region -/

/-- The product of the region's two arrays, at the program's shapes: `Cert.Spec.mm` at 50000 × 256 by 256 × 256. -/
abbrev mm27 (a : Vec Ideal S50000x256 .f32) (w : Vec Ideal S256x256 .f32) : Vec Ideal S50000x256 .f32 :=
  Cert.Spec.mm (M := 50000) (K := 256) (N := 256) a w

/-- THE OUTPUT ARRAY after the region, as one whole-array function of the two input arrays as the region finds
    them: their product. Every point writes back its block of that product (`flushed27_2_eq`) and the blocks cover
    the array (`cover27_out`), so nothing of what the array held before remains. -/
theorem arrAt27_out (c : Dev nD) :
    (dat27 (F := Ideal) V c).arrAt 2 cfg27.N = mm27 (V c (Pipeline.arrRef spec27 0)) (V c (Pipeline.arrRef spec27 1)) :=
  (dat27 (F := Ideal) V c).arrAt_eq_of_cover 2 _ (fun t _ => flushed27_2_eq V c t) cover27_out

end Cert.KernelIdeal.Reg
-- ==== Proof.KI.Val28.lean ====
/-
  THE VALUE of REGION 28 of the kernel program (custom_call 28, cc28__sumsq_kernel) at the ideal (extended-real) float
  values: after the region, the two [1,256] arrays its windows 1 and 2 write hold, at column k, the sum over all 50000
  rows of the [50000,256] array h the region read, and the sum of the squares:

      arrAt28_1 : (dat28 V c).arrAt 1 cfg28.N = colsum   (V c (Pipeline.arrRef spec28 0))
      arrAt28_2 : (dat28 V c).arrAt 2 cfg28.N = colsumsq (V c (Pipeline.arrRef spec28 0)).

  The road. (1) Each control case's stores, read back, are the body's payloads of the point's input block and of what
  the buffer held (any float values): the first point leaves the payload over the zero row it has just stored and read
  back, a later point the payload over what the point before left. (2) At the ideal values the payload at column k is
  what the buffer held plus the sum over the block's 1000 rows (the reduction over the row axis read as a sum indexed by
  the row; the casts between [256] and [1,256] read at an index), and the zero word is 0. (3) The input block at point
  t reads the array at rows 1000 t + r. (4) By induction on the point, after point n the buffers hold the sums over the
  rows below 1000 (n + 1): addition of extended reals is commutative and associative, so the order in which the
  blocks were added does not matter and nothing need be finite. (5) After the last point that is the sum over all rows;
  the one write-back, after the last point, writes it, and its block is the whole array.
-/
import proofs.«146967_j25786983645193_1_alg».proof.Proof.KI.Reg28
import proofs.«146967_j25786983645193_1_alg».proof.Proof.Spec.OpSum
import Idealize.ShloMosaic.Lib.Pipeline.Value
import Idealize.ShloMosaic.PureOps.Ideal.Laws
import Idealize.ShloMosaic.Lib.ValueIdx
import Idealize.ShloMosaic.Lib.Tactic

-- membership in a rectangle of 1000 rows: the elaborator's structural look recurses once per coordinate
set_option maxRecDepth 16384

noncomputable section

namespace Cert.KernelIdeal.Reg

open Cert.KernelIdeal Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat)

/-! ## What each case leaves, as the body's payloads (any float values) -/

section AnyValues
variable {F : FTy → Type} [FloatOps F]

private theorem hz2 : (![0, 0] : Fin 2 → Nat) = fun _ => 0 := funext fun a => by fin_cases a <;> rfl

/-- CASE B, output 1: the one whole-block store's payload, whose loads read the whole buffers: the sum row over
    what the buffer held. -/
theorem out28_B_1_eq (c : Dev nD) (i : grid28.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond28_0 i) (x : Vec F S1000x256 .f32) (xo1 xo2 : Vec F S1x256 .f32) :
    out28_B_1 c i a1 h1 a2 h2 a3 h3 hc x xo1 xo2 = k28_pay4 x xo1 := by
  unfold out28_B_1 kernelRun28_B
  dsimp only
  rw [View.canon_unit_zero hz2]
  simp only [View.readAt_eq_ld, h1.read_unread, h2.read_unread, View.ld_unit_zero (S := S1000x256) hz2,
    View.ld_unit_zero (S := S1x256) hz2]

/-- CASE B, output 2. -/
theorem out28_B_2_eq (c : Dev nD) (i : grid28.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : ¬cond28_0 i) (x : Vec F S1000x256 .f32) (xo1 xo2 : Vec F S1x256 .f32) :
    out28_B_2 c i a1 h1 a2 h2 a3 h3 hc x xo1 xo2 = k28_pay5 x xo2 := by
  unfold out28_B_2 kernelRun28_B
  dsimp only
  rw [View.canon_unit_zero hz2]
  simp only [View.readAt_eq_ld, h1.read_unread, h3.read_unread, View.ld_unit_zero (S := S1000x256) hz2,
    View.ld_unit_zero (S := S1x256) hz2]

/-- CASE A, output 1: the body stores the zero row, reads it back, and leaves the sum row over it. -/
theorem out28_A_1_eq (c : Dev nD) (i : grid28.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond28_0 i) (x : Vec F S1000x256 .f32) :
    out28_A_1 c i a1 h1 a2 h2 a3 h3 hc x = k28_pay4 x (k28_pay1 (F := F)) := by
  unfold out28_A_1 kernelRun28_A
  dsimp only
  sl_unfold_words
  rw [View.canon_cons_unit_zero (S := S1x256) hz2, View.readCov_unit_zero (S := S1x256) _ hz2]
  simp only [View.readAt_eq_ld, h1.read_unread, View.ld_unit_zero (S := S1000x256) hz2]

/-- CASE A, output 2. -/
theorem out28_A_2_eq (c : Dev nD) (i : grid28.Coords) (a1 : Memref sig .tc .vmem S1000x256 .f32) (h1 : a1.IsWhole)
    (a2 : Memref sig .tc .vmem S1x256 .f32) (h2 : a2.IsWhole) (a3 : Memref sig .tc .vmem S1x256 .f32) (h3 : a3.IsWhole)
    (hc : cond28_0 i) (x : Vec F S1000x256 .f32) :
    out28_A_2 c i a1 h1 a2 h2 a3 h3 hc x = k28_pay5 x (k28_pay2 (F := F)) := by
  unfold out28_A_2 kernelRun28_A
  dsimp only
  sl_unfold_words
  rw [View.canon_cons_unit_zero (S := S1x256) hz2, View.readCov_unit_zero (S := S1x256) _ hz2]
  simp only [View.readAt_eq_ld, h1.read_unread, View.ld_unit_zero (S := S1000x256) hz2]

end AnyValues

/-! ## The payloads at the ideal values, read at an index -/

/-- The zero row the first point stores, at the ideal values: zero. -/
theorem k28_pay1_apply (j : S1x256.Idx) : k28_pay1 (F := Ideal) j = 0 := Ideal.ofBits_zero_f32
theorem k28_pay2_apply (j : S1x256.Idx) : k28_pay2 (F := Ideal) j = 0 := Ideal.ofBits_zero_f32

/-- The row index (0, k) of a one-row block under column `k`, as the reduction's result index lifts it. -/
private theorem lift_eq (j : S1x256.Idx) (r : Fin 1000) :
    reduces_S1000x256_S256.lift (fun a => j a.succ) r = ix2 r (j 1) := by
  funext a
  match a with
  | ⟨0, _⟩ => rfl
  | ⟨1, _⟩ => rfl

/-- Output 1's payload: what the buffer held plus the block's column sum. -/
theorem k28_pay4_apply (x : Vec Ideal S1000x256 .f32) (acc : Vec Ideal S1x256 .f32) (j : S1x256.Idx) :
    k28_pay4 x acc j = acc j + ∑ r : Fin 1000, x (ix2 r (j 1)) := by
  unfold k28_pay4 k28_pay3
  dsimp only
  rw [shapeCast_self, shapeCast_self, addf_apply, shapeCast_addUnit_apply]
  refine congrArg (acc j + ·) ((Ideal.multiReduction_add_single _ _ _ _ _ _).trans ?_)
  exact Finset.sum_congr rfl fun r _ => congrArg x (lift_eq j r)

/-- Output 2's payload: what the buffer held plus the column sum of the block's squares. -/
theorem k28_pay5_apply (x : Vec Ideal S1000x256 .f32) (acc : Vec Ideal S1x256 .f32) (j : S1x256.Idx) :
    k28_pay5 x acc j = acc j + ∑ r : Fin 1000, x (ix2 r (j 1)) * x (ix2 r (j 1)) := by
  unfold k28_pay5 k28_pay3
  dsimp only
  rw [shapeCast_self, shapeCast_self, addf_apply, shapeCast_addUnit_apply]
  refine congrArg (acc j + ·) ((Ideal.multiReduction_add_single _ _ _ _ _ _).trans ?_)
  refine Finset.sum_congr rfl fun r _ => ?_
  rw [mulf_apply, lift_eq j r]
  rfl

/-! ## The input block at an index -/

section AnyValues
variable {F : FTy → Type} [FloatOps F]
variable (V : (c : Dev nD) → (b : Ref sig .tc) → Buf (Elt F) ((c : Thread nD τ).loc b))

/-- The [50000,256] array the region reads, as it finds it. -/
abbrev harr28 (c : Dev nD) : Vec F S50000x256 .f32 := V c (Pipeline.arrRef spec28 0)

/-- Window 0's block index at point `t` is (t, 0): decided over the 50 points. -/
private theorem index28_0 : ∀ t : Fin cfg28.N, win28_0.index t 0 = t.val ∧ win28_0.index t 1 = 0 :=
  (by decide +kernel : ∀ t : Fin grid28.N, win28_0.index t 0 = t.val ∧ win28_0.index t 1 = 0)

/-- The input block at point `t` reads the array at rows `1000 t + r`. -/
theorem iblk28_0_apply (c : Dev nD) (t : Fin cfg28.N) (r : Fin 1000) (k : Fin 256) (P : Fin 50000)
    (hP : P.val = 1000 * t.val + r.val) :
    (iblk28 V c 0 t : Vec F S1000x256 .f32) (ix2 r k) = harr28 V c (ix2 P k) := by
  unfold iblk28
  rw [View.read_apply]
  show V c (Pipeline.arrRef spec28 0) _ = V c (Pipeline.arrRef spec28 0) _
  congr 1
  funext a
  apply Fin.ext
  match a with
  | ⟨0, _⟩ => show win28_0.index t 0 * 1000 + 1 * r.val = P.val; rw [(index28_0 t).1, hP]; omega
  | ⟨1, _⟩ => show win28_0.index t 1 * 256 + 1 * k.val = k.val; rw [(index28_0 t).2]; omega

end AnyValues

/-! ## The accumulation at the ideal values: after point n, the sums over the rows below 1000 (n + 1) -/

section AtIdeal
variable (V : (c : Dev nD) → (b : Ref sig .tc) → Buf (Elt Ideal) ((c : Thread nD τ).loc b))

/-- What the two outputs' buffers hold after point `n`: at column `k` the sum over the rows below
    `1000 (n + 1)` of the array's entries, and of their squares — by induction on the point. -/
theorem outsAt28_eq (c : Dev nD) : ∀ (n : ℕ) (hn : n < cfg28.N) (j : S1x256.Idx),
    (outsAt28 V c n hn).1 j = rowsBelow 1000 (fun P : Fin 50000 => harr28 V c (ix2 P (j 1))) n
    ∧ (outsAt28 V c n hn).2 j
        = rowsBelow 1000 (fun P : Fin 50000 => harr28 V c (ix2 P (j 1)) * harr28 V c (ix2 P (j 1))) n
  | 0, hn, j => by
    rw [outsAt28_zero]
    dsimp only
    rw [out28_A_1_eq, out28_A_2_eq, k28_pay4_apply, k28_pay5_apply, k28_pay1_apply, k28_pay2_apply, zero_add, zero_add,
      rowsBelow_zero 1000 (by decide), rowsBelow_zero 1000 (by decide)]
    refine ⟨Finset.sum_congr rfl fun r _ => ?_, Finset.sum_congr rfl fun r _ => ?_⟩
    · exact iblk28_0_apply V c ⟨0, hn⟩ r (j 1) _ (by show r.val = 1000 * 0 + r.val; omega)
    · rw [iblk28_0_apply V c ⟨0, hn⟩ r (j 1) ⟨r.val, by have := r.isLt; omega⟩ (by show r.val = 1000 * 0 + r.val; omega)]
  | n + 1, hn, j => by
    have hN : n + 1 < 50 := lt_of_lt_of_eq hn (show cfg28.N = 50 from N_28)
    rw [outsAt28_succ]
    dsimp only
    rw [out28_B_1_eq, out28_B_2_eq, k28_pay4_apply, k28_pay5_apply,
      (outsAt28_eq c n (Nat.lt_of_succ_lt hn) j).1, (outsAt28_eq c n (Nat.lt_of_succ_lt hn) j).2,
      rowsBelow_succ 1000 _ n (by omega), rowsBelow_succ 1000 _ n (by omega)]
    refine ⟨congrArg _ (Finset.sum_congr rfl fun r _ => ?_), congrArg _ (Finset.sum_congr rfl fun r _ => ?_)⟩
    · exact iblk28_0_apply V c ⟨n + 1, hn⟩ r (j 1) _ rfl
    · rw [iblk28_0_apply V c ⟨n + 1, hn⟩ r (j 1) ⟨1000 * (n + 1) + r.val, by have := r.isLt; omega⟩ rfl]

end AtIdeal

/-! ## The two result arrays after the run -/

section AtIdeal
variable (V : (c : Dev nD) → (b : Ref sig .tc) → Buf (Elt Ideal) ((c : Thread nD τ).loc b))

/-- The last point, the only one after which the outputs are written back. -/
private abbrev t28_last : Fin cfg28.N := ⟨49, lt_of_lt_of_eq (by decide : 49 < 50) (show cfg28.N = 50 from N_28).symm⟩

/-- After the last point output 1's buffer holds the column sums of the whole array, -/
theorem outsAt28_last_1 (c : Dev nD) :
    (outsAt28 V c t28_last.val t28_last.isLt).1 = colsum (n := 50000) (d := 256) (harr28 V c) :=
  funext fun j => by
    rw [(outsAt28_eq V c _ _ j).1, rowsBelow_all 1000 _ _ (by decide)]; rfl

/-- and output 2's the column sums of its squares. -/
theorem outsAt28_last_2 (c : Dev nD) :
    (outsAt28 V c t28_last.val t28_last.isLt).2 = colsumsq (n := 50000) (d := 256) (harr28 V c) :=
  funext fun j => by
    rw [(outsAt28_eq V c _ _ j).2, rowsBelow_all 1000 _ _ (by decide)]; rfl

/-- The one write-back of output 1, after the last point, writes the column sums: its block is the whole [1,256] array,
    read through zero offsets. -/
theorem flushed28_1_eq (c : Dev nD) (t : Fin cfg28.N) (hf : (cfg28.win 1).flush t = true) :
    (dat28 V c).flushed 1 t
      = ((cfg28.win 1).blk t).view.read (Elt Ideal) (colsum (n := 50000) (d := 256) (harr28 V c)) := by
  have hN : t.val < 50 := lt_of_lt_of_eq t.isLt (show cfg28.N = 50 from N_28)
  have h49 : t.val = 49 := by have := (flush28_1 t).mp hf; omega
  obtain rfl : t = t28_last := Fin.ext h49
  show (cfg28.win 1).cut (grid28.coords t28_last) ((dat28 V c).after 1 t28_last) = _
  rw [after28_1, outsAt28_last_1]
  have hz' : (fun a => win28_1.index t28_last a * (Pipeline.arrRef spec28 1).ty.shape.size a) = fun _ => 0 :=
    funext fun a => by fin_cases a <;> decide +kernel
  exact (Memref.read_access_unit_zero (Elt Ideal) (Pipeline.arrRef spec28 1) hz' (fun a => by rw [congrFun hz' a]; simp)
    (colsum (n := 50000) (d := 256) (harr28 V c))).symm

/-- Likewise output 2's. -/
theorem flushed28_2_eq (c : Dev nD) (t : Fin cfg28.N) (hf : (cfg28.win 2).flush t = true) :
    (dat28 V c).flushed 2 t
      = ((cfg28.win 2).blk t).view.read (Elt Ideal) (colsumsq (n := 50000) (d := 256) (harr28 V c)) := by
  have hN : t.val < 50 := lt_of_lt_of_eq t.isLt (show cfg28.N = 50 from N_28)
  have h49 : t.val = 49 := by have := (flush28_2 t).mp hf; omega
  obtain rfl : t = t28_last := Fin.ext h49
  show (cfg28.win 2).cut (grid28.coords t28_last) ((dat28 V c).after 2 t28_last) = _
  rw [after28_2, outsAt28_last_2]
  have hz' : (fun a => win28_2.index t28_last a * (Pipeline.arrRef spec28 2).ty.shape.size a) = fun _ => 0 :=
    funext fun a => by fin_cases a <;> decide +kernel
  exact (Memref.read_access_unit_zero (Elt Ideal) (Pipeline.arrRef spec28 2) hz' (fun a => by rw [congrFun hz' a]; simp)
    (colsumsq (n := 50000) (d := 256) (harr28 V c))).symm

/-- THE FIRST RESULT: after the region the [1,256] array of window 1 holds the column sums of the [50000,256] array
    the region read (the last point's write-back covers it). -/
theorem arrAt28_1 (c : Dev nD) :
    (dat28 V c).arrAt 1 cfg28.N = colsum (n := 50000) (d := 256) (V c (Pipeline.arrRef spec28 0)) :=
  (dat28 V c).arrAt_eq_of_cover 1 (colsum (n := 50000) (d := 256) (harr28 V c)) (flushed28_1_eq V c) fun i =>
    ⟨t28_last, (flush28_1 t28_last).mpr rfl, by
      show i ∈ ((View.whole (Pipeline.arrRef spec28 1)).slice (win28_1.rect t28_last)).set
      rw [View.set_slice_whole, Rect.mem_set_unit]
      intro a
      have h0 : (i 0 : Nat) < 1 := (i 0).isLt
      have h1 : (i 1 : Nat) < 256 := (i 1).isLt
      match a with
      | ⟨0, _⟩ =>
        show win28_1.index t28_last 0 * win28_1.size 0 ≤ (i 0 : Nat)
          ∧ (i 0 : Nat) < win28_1.index t28_last 0 * win28_1.size 0 + win28_1.xsize (grid28.coords t28_last) 0
        rw [show win28_1.index t28_last 0 * win28_1.size 0 = 0 from by decide +kernel,
          show win28_1.xsize (grid28.coords t28_last) 0 = 1 from by decide +kernel]; omega
      | ⟨1, _⟩ =>
        show win28_1.index t28_last 1 * win28_1.size 1 ≤ (i 1 : Nat)
          ∧ (i 1 : Nat) < win28_1.index t28_last 1 * win28_1.size 1 + win28_1.xsize (grid28.coords t28_last) 1
        rw [show win28_1.index t28_last 1 * win28_1.size 1 = 0 from by decide +kernel,
          show win28_1.xsize (grid28.coords t28_last) 1 = 256 from by decide +kernel]; omega⟩

/-- THE SECOND RESULT: the [1,256] array of window 2 holds the column sums of the squares. -/
theorem arrAt28_2 (c : Dev nD) :
    (dat28 V c).arrAt 2 cfg28.N = colsumsq (n := 50000) (d := 256) (V c (Pipeline.arrRef spec28 0)) :=
  (dat28 V c).arrAt_eq_of_cover 2 (colsumsq (n := 50000) (d := 256) (harr28 V c)) (flushed28_2_eq V c) fun i =>
    ⟨t28_last, (flush28_2 t28_last).mpr rfl, by
      show i ∈ ((View.whole (Pipeline.arrRef spec28 2)).slice (win28_2.rect t28_last)).set
      rw [View.set_slice_whole, Rect.mem_set_unit]
      intro a
      have h0 : (i 0 : Nat) < 1 := (i 0).isLt
      have h1 : (i 1 : Nat) < 256 := (i 1).isLt
      match a with
      | ⟨0, _⟩ =>
        show win28_2.index t28_last 0 * win28_2.size 0 ≤ (i 0 : Nat)
          ∧ (i 0 : Nat) < win28_2.index t28_last 0 * win28_2.size 0 + win28_2.xsize (grid28.coords t28_last) 0
        rw [show win28_2.index t28_last 0 * win28_2.size 0 = 0 from by decide +kernel,
          show win28_2.xsize (grid28.coords t28_last) 0 = 1 from by decide +kernel]; omega
      | ⟨1, _⟩ =>
        show win28_2.index t28_last 1 * win28_2.size 1 ≤ (i 1 : Nat)
          ∧ (i 1 : Nat) < win28_2.index t28_last 1 * win28_2.size 1 + win28_2.xsize (grid28.coords t28_last) 1
        rw [show win28_2.index t28_last 1 * win28_2.size 1 = 0 from by decide +kernel,
          show win28_2.xsize (grid28.coords t28_last) 1 = 256 from by decide +kernel]; omega⟩

end AtIdeal

end Cert.KernelIdeal.Reg

end
-- ==== Proof.KI.Val29.lean ====
/- The VALUE of region 29 (custom_call 29, `cc29__bn_relu_kernel`) at the ideal float values: after the region's grid
   has run, its output array is `Cert.Spec.bnrelu` of the six input arrays as the region finds them,

     (dat29 V c).arrAt 6 cfg29.N = bnrelu (V c h) (V c bias) (V c gamma) (V c beta) (V c mean) (V c var).

   The steps: the body's payload read at one element of a block is `bnrelu`'s expression of the loaded block's element
   and the five rows' elements at its column (`pay29_apply`); the activation's block at point `t` lies under the
   output's block (both are rows `1000 t … 1000 t + 999`) and each row's one block is the whole row (`idx_facts29`,
   `iblk29_W_apply`); so what point `t` writes back is block `t` of `bnrelu` of the arrays (`flushed29_6_eq`: a flushed
   block is a restriction of one whole-array function); row `r` of the output is in the block of point `r / 1000`, so
   the blocks cover the array (`covered29_6`); hence the array ends holding `bnrelu` of the arrays (`final29_6`). -/
import proofs.«146967_j25786983645193_1_alg».proof.Proof.KI.Reg29
import proofs.«146967_j25786983645193_1_alg».proof.Proof.Spec.OpBN
import Idealize.ShloMosaic.Lib.Pipeline.Value
import Idealize.ShloMosaic.Lib.ValueIdx

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (bnrelu rowIx bnrelu_apply)

-- the TensorCore's buffer contents when the region is entered, at the ideal float values
variable (V : (c : Dev nD) → (b : Ref sig .tc) → Buf (Elt Ideal) ((c : Thread nD τ).loc b))

/-! ## The payload at an index -/

theorem hz29 : (![0, 0] : Fin 2 → Nat) = fun _ => 0 := funext fun a => by fin_cases a <;> rfl

/-- A [1,256] row broadcast along the 1000 rows of a block, read at `j`: the row at `j`'s column. -/
theorem bcast_row29 {α : Type} (x : S1x256.Idx → α) (h : S1x256.Broadcasts S1000x256) (j : S1000x256.Idx) :
    broadcastTo S1000x256 x h j = x (rowIx (j 1)) :=
  broadcastTo_apply x h j _ (fun a => by match a with | ⟨0, _⟩ => rfl | ⟨1, _⟩ => rfl)

/-- The body's payload read at one element of the block: the operations of `bnrelu`, in its order, of the loaded
    block's element and the five rows' elements at its column (the shape casts are of a shape to itself; every
    arithmetic operation is elementwise). -/
theorem pay29_apply (x0 : Vec Ideal S1000x256 .f32) (x1 x2 x3 x4 x5 : Vec Ideal S1x256 .f32) (j : S1000x256.Idx) :
    k29_pay1 x0 x1 x2 x3 x4 x5 j
      = max (x2 (rowIx (j 1)) * ((x0 j + x1 (rowIx (j 1))) - x4 (rowIx (j 1)))
            * Ideal.rsqrt (x5 (rowIx (j 1)) + Ideal.ofBits .f32 0x3727C5AC#32)
          + x3 (rowIx (j 1)))
        (Ideal.ofBits .f32 0x00000000#32) := by
  unfold k29_pay1
  simp only [shapeCast_self]
  rw [maximumf_apply, addf_apply, mulf_apply, mulf_apply, subf_apply, addf_apply]
  simp only [bcast_row29]
  rfl

/-! ## The windows' index maps -/

/-- The printed index maps, decided over the grid: the activation's and the output's block at point `t` is block
    `(t, 0)`; each of the five rows' is block `(0, 0)`. -/
theorem idx_facts29 : ∀ t : Fin cfg29.N, win29_0.index t (0 : Fin 2) = t.val ∧ win29_0.index t (1 : Fin 2) = 0
    ∧ win29_1.index t (0 : Fin 2) = 0 ∧ win29_1.index t (1 : Fin 2) = 0
    ∧ win29_2.index t (0 : Fin 2) = 0 ∧ win29_2.index t (1 : Fin 2) = 0
    ∧ win29_3.index t (0 : Fin 2) = 0 ∧ win29_3.index t (1 : Fin 2) = 0
    ∧ win29_4.index t (0 : Fin 2) = 0 ∧ win29_4.index t (1 : Fin 2) = 0
    ∧ win29_5.index t (0 : Fin 2) = 0 ∧ win29_5.index t (1 : Fin 2) = 0
    ∧ win29_6.index t (0 : Fin 2) = t.val ∧ win29_6.index t (1 : Fin 2) = 0 :=
  (by decide +kernel : ∀ t : Fin grid29.N, _)

/-! ## The input blocks at an index, as elements of the arrays -/

/-- The column of an element of the output's block at point `t` is its column in the block. -/
theorem emb29_6_col (t : Fin cfg29.N) (j : S1000x256.Idx) :
    ((((cfg29.win 6).blk t).view.emb j : S50000x256.Idx) 1 : Fin 256) = j 1 := by
  obtain ⟨-, -, -, -, -, -, -, -, -, -, -, -, a6, b6⟩ := idx_facts29 t
  apply Fin.ext
  show win29_6.index t (1 : Fin 2) * 256 + 1 * (j 1).val = (j 1).val
  omega

/-- Input window 0 (the activation's [1000,256] block) read at `j`: the activation at the element of the array that the
    OUTPUT's block at the same point has at `j` — the two windows move together. -/
theorem iblk29_0_apply (c : Dev nD) (t : Fin cfg29.N) (j : S1000x256.Idx) :
    (iblk29 V c 0 t : Vec Ideal S1000x256 .f32) j
      = (V c (Pipeline.arrRef spec29 0) : Vec Ideal S50000x256 .f32) (((cfg29.win 6).blk t).view.emb j) := by
  obtain ⟨a0, b0, -, -, -, -, -, -, -, -, -, -, a6, b6⟩ := idx_facts29 t
  unfold iblk29
  rw [View.read_apply]
  refine congrArg (V c (Pipeline.arrRef spec29 0) : Vec Ideal S50000x256 .f32) ?_
  funext a; apply Fin.ext
  match a with
  | ⟨0, _⟩ => show win29_0.index t (0 : Fin 2) * 1000 + 1 * (j 0).val = win29_6.index t (0 : Fin 2) * 1000 + 1 * (j 0).val; omega
  | ⟨1, _⟩ => show win29_0.index t (1 : Fin 2) * 256 + 1 * (j 1).val = win29_6.index t (1 : Fin 2) * 256 + 1 * (j 1).val; omega

/-- Input window 1 (a [1,256] row, one block, the same at every point) read at column `k`: the row at `k`. -/
theorem iblk29_1_apply (c : Dev nD) (t : Fin cfg29.N) (k : Fin 256) :
    (iblk29 V c 1 t : Vec Ideal S1x256 .f32) (rowIx k) = (V c (Pipeline.arrRef spec29 1) : Vec Ideal S1x256 .f32) (rowIx k) := by
  obtain ⟨-, -, a1, b1, a2, b2, a3, b3, a4, b4, a5, b5, -, -⟩ := idx_facts29 t
  unfold iblk29
  rw [View.read_apply]
  refine congrArg (V c (Pipeline.arrRef spec29 1) : Vec Ideal S1x256 .f32) ?_
  funext a; apply Fin.ext
  match a with
  | ⟨0, _⟩ => show win29_1.index t (0 : Fin 2) * 1 + 1 * 0 = 0; omega
  | ⟨1, _⟩ => show win29_1.index t (1 : Fin 2) * 256 + 1 * k.val = k.val; omega

/-- Input window 2 (a [1,256] row, one block, the same at every point) read at column `k`: the row at `k`. -/
theorem iblk29_2_apply (c : Dev nD) (t : Fin cfg29.N) (k : Fin 256) :
    (iblk29 V c 2 t : Vec Ideal S1x256 .f32) (rowIx k) = (V c (Pipeline.arrRef spec29 2) : Vec Ideal S1x256 .f32) (rowIx k) := by
  obtain ⟨-, -, a1, b1, a2, b2, a3, b3, a4, b4, a5, b5, -, -⟩ := idx_facts29 t
  unfold iblk29
  rw [View.read_apply]
  refine congrArg (V c (Pipeline.arrRef spec29 2) : Vec Ideal S1x256 .f32) ?_
  funext a; apply Fin.ext
  match a with
  | ⟨0, _⟩ => show win29_2.index t (0 : Fin 2) * 1 + 1 * 0 = 0; omega
  | ⟨1, _⟩ => show win29_2.index t (1 : Fin 2) * 256 + 1 * k.val = k.val; omega

/-- Input window 3 (a [1,256] row, one block, the same at every point) read at column `k`: the row at `k`. -/
theorem iblk29_3_apply (c : Dev nD) (t : Fin cfg29.N) (k : Fin 256) :
    (iblk29 V c 3 t : Vec Ideal S1x256 .f32) (rowIx k) = (V c (Pipeline.arrRef spec29 3) : Vec Ideal S1x256 .f32) (rowIx k) := by
  obtain ⟨-, -, a1, b1, a2, b2, a3, b3, a4, b4, a5, b5, -, -⟩ := idx_facts29 t
  unfold iblk29
  rw [View.read_apply]
  refine congrArg (V c (Pipeline.arrRef spec29 3) : Vec Ideal S1x256 .f32) ?_
  funext a; apply Fin.ext
  match a with
  | ⟨0, _⟩ => show win29_3.index t (0 : Fin 2) * 1 + 1 * 0 = 0; omega
  | ⟨1, _⟩ => show win29_3.index t (1 : Fin 2) * 256 + 1 * k.val = k.val; omega

/-- Input window 4 (a [1,256] row, one block, the same at every point) read at column `k`: the row at `k`. -/
theorem iblk29_4_apply (c : Dev nD) (t : Fin cfg29.N) (k : Fin 256) :
    (iblk29 V c 4 t : Vec Ideal S1x256 .f32) (rowIx k) = (V c (Pipeline.arrRef spec29 4) : Vec Ideal S1x256 .f32) (rowIx k) := by
  obtain ⟨-, -, a1, b1, a2, b2, a3, b3, a4, b4, a5, b5, -, -⟩ := idx_facts29 t
  unfold iblk29
  rw [View.read_apply]
  refine congrArg (V c (Pipeline.arrRef spec29 4) : Vec Ideal S1x256 .f32) ?_
  funext a; apply Fin.ext
  match a with
  | ⟨0, _⟩ => show win29_4.index t (0 : Fin 2) * 1 + 1 * 0 = 0; omega
  | ⟨1, _⟩ => show win29_4.index t (1 : Fin 2) * 256 + 1 * k.val = k.val; omega

/-- Input window 5 (a [1,256] row, one block, the same at every point) read at column `k`: the row at `k`. -/
theorem iblk29_5_apply (c : Dev nD) (t : Fin cfg29.N) (k : Fin 256) :
    (iblk29 V c 5 t : Vec Ideal S1x256 .f32) (rowIx k) = (V c (Pipeline.arrRef spec29 5) : Vec Ideal S1x256 .f32) (rowIx k) := by
  obtain ⟨-, -, a1, b1, a2, b2, a3, b3, a4, b4, a5, b5, -, -⟩ := idx_facts29 t
  unfold iblk29
  rw [View.read_apply]
  refine congrArg (V c (Pipeline.arrRef spec29 5) : Vec Ideal S1x256 .f32) ?_
  funext a; apply Fin.ext
  match a with
  | ⟨0, _⟩ => show win29_5.index t (0 : Fin 2) * 1 + 1 * 0 = 0; omega
  | ⟨1, _⟩ => show win29_5.index t (1 : Fin 2) * 256 + 1 * k.val = k.val; omega

/-! ## What a point writes back -/

set_option maxHeartbeats 1000000 in
/-- WHAT POINT `t` WRITES BACK is block `t` of `bnrelu` of the six arrays as the region finds them. -/
theorem flushed29_6_eq (c : Dev nD) (t : Fin cfg29.N) :
    (dat29 V c).flushed 6 t = ((cfg29.win 6).blk t).view.read (Elt Ideal)
      (bnrelu (n := 50000) (d := 256) (V c (Pipeline.arrRef spec29 0)) (V c (Pipeline.arrRef spec29 1)) (V c (Pipeline.arrRef spec29 2))
        (V c (Pipeline.arrRef spec29 3)) (V c (Pipeline.arrRef spec29 4)) (V c (Pipeline.arrRef spec29 5))) := by
  show (cfg29.win 6).cut (grid29.coords t) ((dat29 V c).after 6 t) = _
  rw [after29_6]
  unfold out29_6
  rw [View.canon_unit_zero hz29]
  simp only [View.ld_unit_zero (S := S1000x256) hz29, View.ld_unit_zero (S := S1x256) hz29]
  refine funext fun (j : S1000x256.Idx) => ?_
  show k29_pay1 (iblk29 V c 0 t) (iblk29 V c 1 t) (iblk29 V c 2 t) (iblk29 V c 3 t) (iblk29 V c 4 t) (iblk29 V c 5 t) j
    = bnrelu (n := 50000) (d := 256) (V c (Pipeline.arrRef spec29 0)) (V c (Pipeline.arrRef spec29 1)) (V c (Pipeline.arrRef spec29 2))
        (V c (Pipeline.arrRef spec29 3)) (V c (Pipeline.arrRef spec29 4)) (V c (Pipeline.arrRef spec29 5)) (((cfg29.win 6).blk t).view.emb j)
  rw [pay29_apply, bnrelu_apply, emb29_6_col t j, iblk29_0_apply, iblk29_1_apply V c t (j 1), iblk29_2_apply V c t (j 1),
    iblk29_3_apply V c t (j 1), iblk29_4_apply V c t (j 1), iblk29_5_apply V c t (j 1)]

/-! ## The blocks cover the array -/

/-- An index of the array is in point `t`'s block iff each coordinate is in the block's range on its axis. -/
theorem mem_blk29_6 (t : Fin cfg29.N) (i : S50000x256.Idx) :
    i ∈ ((cfg29.win 6).blk t).view.set ↔ ∀ a : Fin 2, win29_6.index t a * S1000x256.size a ≤ (i a).val ∧ (i a).val < win29_6.index t a * S1000x256.size a + S1000x256.size a := by
  show i ∈ ((View.whole main_v65).slice (win29_6.rect t)).set ↔ _
  rw [View.set_slice_whole, Rect.mem_set_unit]
  exact Iff.rfl

/-- Every element of the output array is in some point's block: row `r` is in the block of point `r / 1000`. -/
theorem covered29_6 (i : S50000x256.Idx) :
    ∃ t : Fin cfg29.N, (cfg29.win 6).flush t = true ∧ i ∈ ((cfg29.win 6).blk t).view.set := by
  have hi0 : (i 0).val < 50000 := (i 0).isLt
  have hi1 : (i 1).val < 256 := (i 1).isLt
  have hN : cfg29.N = 50 := N_29
  have hlt : (i 0).val / 1000 < cfg29.N := by rw [hN]; omega
  obtain ⟨-, -, -, -, -, -, -, -, -, -, -, -, a6, b6⟩ := idx_facts29 ⟨(i 0).val / 1000, hlt⟩
  refine ⟨⟨(i 0).val / 1000, hlt⟩, flush29_6 _, ?_⟩
  rw [mem_blk29_6]
  intro a
  match a with
  | ⟨0, _⟩ =>
    show win29_6.index ⟨(i 0).val / 1000, hlt⟩ (0 : Fin 2) * 1000 ≤ (i 0).val ∧ (i 0).val < win29_6.index ⟨(i 0).val / 1000, hlt⟩ (0 : Fin 2) * 1000 + 1000
    rw [a6]; show (i 0).val / 1000 * 1000 ≤ (i 0).val ∧ (i 0).val < (i 0).val / 1000 * 1000 + 1000; omega
  | ⟨1, _⟩ =>
    show win29_6.index ⟨(i 0).val / 1000, hlt⟩ (1 : Fin 2) * 256 ≤ (i 1).val ∧ (i 1).val < win29_6.index ⟨(i 0).val / 1000, hlt⟩ (1 : Fin 2) * 256 + 256
    rw [b6]; omega

/-! ## The output array after the region -/

/-- THE OUTPUT ARRAY after the region's grid has run is `bnrelu` of the six input arrays as the region finds them. -/
theorem final29_6 (c : Dev nD) :
    (dat29 V c).arrAt 6 cfg29.N = bnrelu (n := 50000) (d := 256) (V c (Pipeline.arrRef spec29 0)) (V c (Pipeline.arrRef spec29 1)) (V c (Pipeline.arrRef spec29 2))
        (V c (Pipeline.arrRef spec29 3)) (V c (Pipeline.arrRef spec29 4)) (V c (Pipeline.arrRef spec29 5)) :=
  (dat29 V c).arrAt_eq_of_cover 6 _ (fun t _ => flushed29_6_eq V c t) covered29_6

end Cert.KernelIdeal.Reg
-- ==== Proof.KI.Val30.lean ====
/- THE VALUE of region 30 at the ideal values: the output array after the region is the output head (Spec/OpHead.lean
   outhead: each row's logits block·weight + bias, shifted by the row maximum, minus the logarithm of the row sum of
   exponentials) of the three input arrays as the region finds them, at every index. Two halves. THE PAYLOAD: the one
   store's payload, read at an index of a block, is outhead of the loaded blocks there — each operation of the printed
   payload read at an index (the format changes vanish; the matmul into zero is the sum over the contraction index; the
   two one-axis reductions are the fold of max from -∞ and the sum over the two classes; the shape casts and broadcasts
   re-index). FROM THE BLOCKS TO THE ARRAY: point t's block of rows is rows 1000·t … 1000·t + 999 of the array and so is
   its output block, the weight's and the bias's one block is the whole array, the head at a row reads that row only, and
   the 50 output blocks cover the array. -/
import proofs.«146967_j25786983645193_1_alg».proof.Proof.KI.Reg30
import proofs.«146967_j25786983645193_1_alg».proof.Proof.Spec.OpHead
import Idealize.ShloMosaic.Lib.Pipeline.Value
import Idealize.ShloMosaic.PureOps.Ideal
import Idealize.ShloMosaic.PureOps.Ideal.Laws
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)
open Cert.Spec
open scoped BigOperators

/-! ## The payload, read at an index -/

/-- The f32 pattern of -∞ denotes the extended reals' ⊥. -/
theorem negInf30 : Ideal.ofBits .f32 0xFF800000#32 = ⊥ := by simp [Ideal.ofBits, Ideal.ieee]

section Cols
variable {α : Type}

/-- A column [1000,1] broadcast along the classes reads the column's row. -/
theorem bcastCol30_apply (u : S1000x1.Idx → α) (r : Fin 1000) (j : Fin 2) :
    broadcastTo S1000x2 u broadcasts_S1000x1_S1000x2 (ix2 r j) = u (ix2 r (0 : Fin 1)) :=
  broadcastTo_apply u _ (ix2 r j) (ix2 r (0 : Fin 1)) fun a => match a with | ⟨0, _⟩ => rfl | ⟨1, _⟩ => rfl

/-- A [1000] vector cast to a column reads the same row. -/
theorem castCol30_apply (u : S1000.Idx → α) (r : Fin 1000) :
    shapeCast S1000x1 u shapeCasts_S1000_S1000x1 (ix2 r (0 : Fin 1)) = u (ix1 r) :=
  shapeCast_apply u _ (ix2 r (0 : Fin 1)) (ix1 r) (by rw [Shape.rowMajor_val_one, Shape.rowMajor_val_two]; show r.val = r.val * 1 + 0; omega)

/-- The bias row [1,2] broadcast along the rows reads the bias at the class. -/
theorem bcastRow30_apply (u : S1x2.Idx → α) (r : Fin 1000) (j : Fin 2) :
    broadcastTo S1000x2 u broadcasts_S1x2_S1000x2 (ix2 r j) = u (ix2 (0 : Fin 1) j) :=
  broadcastTo_apply u _ (ix2 r j) (ix2 (0 : Fin 1) j) fun a => match a with | ⟨0, _⟩ => rfl | ⟨1, _⟩ => rfl
end Cols

/-- The reduced index (row r) with class k inserted on the reduced axis is (r, k). -/
theorem lift30 (r : Fin 1000) (k : Fin 2) : reduces_S1000x2_S1000.lift (ix1 r) k = ix2 r k :=
  funext fun a => Fin.ext (match a with | ⟨0, _⟩ => rfl | ⟨1, _⟩ => rfl)

/-- The exponential and the logarithm of a vector, at an index, are the ideal values' own of the element. -/
theorem exp30_apply {s : Shape} {φ : FTy} (v : FVec Ideal s φ) (i : s.Idx) : exp v i = Ideal.exp (v i) := rfl
theorem log30_apply {s : Shape} {φ : FTy} (v : FVec Ideal s φ) (i : s.Idx) : log v i = Ideal.log (v i) := rfl

/-- The maximum over the class axis at row r: the fold of max from -∞ over the two classes. -/
theorem rowmax30_apply (v : FVec Ideal S1000x2 .f32) (hφ : FKind.Formats .f32)
    (hacc : (0xFF800000#32 : BitVec 32) = FKind.maximumf.neutral .f32 hφ) (r : Fin 1000) :
    multiReduction .maximumf [1] S1000 v 0xFF800000#32 reduces_S1000x2_S1000 hφ hacc (ix1 r)
      = (Finset.univ : Finset (Fin 2)).fold max ⊥ (fun j => v (ix2 r j)) := by
  rw [Ideal.multiReduction_maximumf_single]
  show (Finset.univ : Finset (Fin 2)).fold max (Ideal.ofBits .f32 0xFF800000#32) (v ∘ reduces_S1000x2_S1000.lift (ix1 r)) = _
  rw [negInf30]
  exact congrArg (fun f => (Finset.univ : Finset (Fin 2)).fold max ⊥ f) (funext fun k => congrArg v (lift30 r k))

/-- The sum over the class axis at row r: the sum over the two classes. -/
theorem rowsum30_apply (v : FVec Ideal S1000x2 .f32) (hφ : FKind.Formats .f32)
    (hacc : (0x00000000#32 : BitVec 32) = FKind.add.neutral .f32 hφ) (r : Fin 1000) :
    multiReduction .add [1] S1000 v 0x00000000#32 reduces_S1000x2_S1000 hφ hacc (ix1 r)
      = ∑ j : Fin 2, v (ix2 r j) := by
  rw [Ideal.multiReduction_add_single]
  exact Finset.sum_congr rfl fun k _ => congrArg v (lift30 r k)

/-- The affine map at (r, j), the same-shape casts of its operands already dropped: the format changes are the identity, the matmul into zero is the sum over the contraction
    index — re-indexed through its one coordinate — of the products, and the bias is read at the class. -/
theorem logit30_apply (x0 : Vec Ideal S1000x256 .f32) (x1 : Vec Ideal S256x2 .f32) (x2 : Vec Ideal S1x2 .f32) (r : Fin 1000) (j : Fin 2) :
    addf (F := Ideal) (matmul dot_S1000x256_S256x2_S1000x2_1_0_0_1_n_n none (truncf .bf16 x0 bitsLt_bf16_f32) (truncf .bf16 x1 bitsLt_bf16_f32) (constant S1000x2 .f32 0x00000000#32))
      (broadcastTo S1000x2 x2 broadcasts_S1x2_S1000x2) (ix2 r j)
    = headLogit x0 x1 x2 r j := by
  rw [addf_apply, bcastRow30_apply]
  unfold headLogit
  congr 1
  simp only [Idealize.ShloMosaic.matmul]
  rw [Ideal.matmul_constant_zero_apply]
  rw [← Equiv.sum_comp (contrEquiv1 dot_S1000x256_S256x2_S1000x2_1_0_0_1_n_n 256 rfl rfl) (fun k => x0 (ix2 r k) * x1 (ix2 k j))]
  refine Finset.sum_congr rfl fun q _ => ?_
  rw [truncf_apply, truncf_apply]
  have hl : dot_S1000x256_S256x2_S1000x2_1_0_0_1_n_n.lhsIdx (ix2 r j) q
      = ix2 r (contrEquiv1 dot_S1000x256_S256x2_S1000x2_1_0_0_1_n_n 256 rfl rfl q) :=
    funext fun a => Fin.ext (match a with | ⟨0, _⟩ => rfl | ⟨1, _⟩ => rfl)
  have hr : dot_S1000x256_S256x2_S1000x2_1_0_0_1_n_n.rhsIdx (ix2 r j) q
      = ix2 (contrEquiv1 dot_S1000x256_S256x2_S1000x2_1_0_0_1_n_n 256 rfl rfl q) j :=
    funext fun a => Fin.ext (match a with | ⟨0, _⟩ => rfl | ⟨1, _⟩ => rfl)
  rw [hl, hr]

/-- THE PAYLOAD is the output head of the loaded blocks: each operation read at the index (r, j), the two reductions at row r. -/
theorem pay30_eq (x0 : Vec Ideal S1000x256 .f32) (x1 : Vec Ideal S256x2 .f32) (x2 : Vec Ideal S1x2 .f32) :
    k30_pay1 x0 x1 x2 = outhead x0 x1 x2 := by
  funext i
  obtain ⟨r, j, rfl⟩ : ∃ (r : Fin 1000) (j : Fin 2), i = ix2 r j := ⟨i 0, i 1, eq_ix2 i⟩
  unfold k30_pay1
  -- a shape cast to the same shape is the identity
  simp only [shapeCast_self]
  simp only [subf_apply, bcastCol30_apply, castCol30_apply, logit30_apply, exp30_apply, log30_apply]
  erw [rowsum30_apply]
  simp only [subf_apply, bcastCol30_apply, castCol30_apply, logit30_apply, exp30_apply]
  erw [rowmax30_apply]
  simp only [logit30_apply]
  rfl

/-! ## From the blocks to the array -/

variable (V : (c : Dev nD) → (b : Ref sig .tc) → Buf (Elt Ideal) ((c : Thread nD τ).loc b))

/-- The whole-block rectangle's offsets are zero. -/
theorem hz30 : (![0, 0] : Fin 2 → Nat) = fun _ => 0 := funext fun a => match a with | ⟨0, _⟩ => rfl | ⟨1, _⟩ => rfl

/-- The printed index maps, decided over the grid's 50 points: the block of rows and the output block are at the
    point's own number on the row axis, the weight and the bias at block 0. -/
theorem idx_facts30 : ∀ t : Fin cfg30.N, win30_0.index t (0 : Fin 2) = t.val ∧ win30_0.index t (1 : Fin 2) = 0
    ∧ win30_1.index t (0 : Fin 2) = 0 ∧ win30_1.index t (1 : Fin 2) = 0
    ∧ win30_2.index t (0 : Fin 2) = 0 ∧ win30_2.index t (1 : Fin 2) = 0
    ∧ win30_3.index t (0 : Fin 2) = t.val ∧ win30_3.index t (1 : Fin 2) = 0 :=
  (by decide +kernel : ∀ t : Fin grid30.N, _)

set_option maxHeartbeats 4000000 in
/-- WHAT POINT t WRITES BACK is block t of the output head of the three arrays as the region finds them. -/
theorem flushed30_3_eq (c : Dev nD) (t : Fin cfg30.N) :
    (dat30 V c).flushed 3 t = ((cfg30.win 3).blk t).view.read (Elt Ideal)
      (outhead (R := 50000) (K := 256) (C := 2) (V c (Pipeline.arrRef spec30 0)) (V c (Pipeline.arrRef spec30 1)) (V c (Pipeline.arrRef spec30 2))) := by
  show (cfg30.win 3).cut (grid30.coords t) ((dat30 V c).after 3 t) = _
  rw [after30_3]
  unfold out30_3
  rw [View.canon_unit_zero hz30]
  simp only [View.ld_unit_zero (S := S1000x256) hz30, View.ld_unit_zero (S := S256x2) hz30, View.ld_unit_zero (S := S1x2) hz30]
  rw [pay30_eq]
  obtain ⟨e00, e01, e10, e11, e20, e21, e30, e31⟩ := idx_facts30 t
  have hN : cfg30.N = 50 := N_30
  have key : ∀ (r : Fin 1000) (k : Fin 2),
      outhead (iblk30 V c 0 t) (iblk30 V c 1 t) (iblk30 V c 2 t) (ix2 r k)
        = outhead (R := 50000) (K := 256) (C := 2) (V c (Pipeline.arrRef spec30 0)) (V c (Pipeline.arrRef spec30 1)) (V c (Pipeline.arrRef spec30 2))
            (((cfg30.win 3).blk t).view.emb (ix2 r k)) := by
    intro r k
    -- the weight's and the bias's one block is the whole array
    have h1 : (iblk30 V c 1 t : Vec Ideal S256x2 .f32) = V c (Pipeline.arrRef spec30 1) := by
      funext y
      show V c (Pipeline.arrRef spec30 1) (((cfg30.win 1).blk t).view.emb y) = V c (Pipeline.arrRef spec30 1) y
      congr 1
      funext a; apply Fin.ext
      match a with
      | ⟨0, _⟩ => show win30_1.index t (0 : Fin 2) * 256 + 1 * (y 0).val = (y 0).val; omega
      | ⟨1, _⟩ => show win30_1.index t (1 : Fin 2) * 2 + 1 * (y 1).val = (y 1).val; omega
    have h2 : (iblk30 V c 2 t : Vec Ideal S1x2 .f32) = V c (Pipeline.arrRef spec30 2) := by
      funext y
      show V c (Pipeline.arrRef spec30 2) (((cfg30.win 2).blk t).view.emb y) = V c (Pipeline.arrRef spec30 2) y
      congr 1
      funext a; apply Fin.ext
      match a with
      | ⟨0, _⟩ => show win30_2.index t (0 : Fin 2) * 1 + 1 * (y 0).val = (y 0).val; omega
      | ⟨1, _⟩ => show win30_2.index t (1 : Fin 2) * 2 + 1 * (y 1).val = (y 1).val; omega
    -- row r of point t's block of rows is row 1000·t + r of the array, and so is row r of its output block
    have hr' : t.val * 1000 + r.val < 50000 := by have := t.isLt; have := r.isLt; omega
    have h0 : ∀ k' : Fin 256, iblk30 V c 0 t (ix2 r k') = V c (Pipeline.arrRef spec30 0) (ix2 (n0 := 50000) (n1 := 256) ⟨t.val * 1000 + r.val, hr'⟩ k') := by
      intro k'
      show V c (Pipeline.arrRef spec30 0) (((cfg30.win 0).blk t).view.emb (ix2 r k')) = _
      congr 1
      funext a; apply Fin.ext
      match a with
      | ⟨0, _⟩ => show win30_0.index t (0 : Fin 2) * 1000 + 1 * r.val = t.val * 1000 + r.val; omega
      | ⟨1, _⟩ => show win30_0.index t (1 : Fin 2) * 256 + 1 * k'.val = k'.val; omega
    have he : ((cfg30.win 3).blk t).view.emb (ix2 r k) = ix2 (n0 := 50000) (n1 := 2) ⟨t.val * 1000 + r.val, hr'⟩ k := by
      funext a; apply Fin.ext
      match a with
      | ⟨0, _⟩ => show win30_3.index t (0 : Fin 2) * 1000 + 1 * r.val = t.val * 1000 + r.val; omega
      | ⟨1, _⟩ => show win30_3.index t (1 : Fin 2) * 2 + 1 * k.val = k.val; omega
    rw [he, h1, h2]
    exact outhead_congr (iblk30 V c 0 t) (V c (Pipeline.arrRef spec30 0)) (V c (Pipeline.arrRef spec30 1)) (V c (Pipeline.arrRef spec30 2)) r ⟨t.val * 1000 + r.val, hr'⟩ h0 k
  funext x
  rw [eq_ix2 (n0 := 1000) (n1 := 2) x]
  exact key (x 0) (x 1)

set_option maxHeartbeats 4000000 in
/-- An index of the output array is in point t's block iff each coordinate is in the block's range on its axis. -/
theorem mem_blk30_3 (t : Fin cfg30.N) (i : S50000x2.Idx) :
    i ∈ ((cfg30.win 3).blk t).view.set ↔ ∀ a : Fin 2, win30_3.index t a * S1000x2.size a ≤ (i a).val ∧ (i a).val < win30_3.index t a * S1000x2.size a + S1000x2.size a := by
  show i ∈ ((View.whole (Pipeline.arrRef spec30 3)).slice (win30_3.rect t)).set ↔ _
  rw [View.set_slice_whole, Rect.mem_set_unit]
  exact Iff.rfl

set_option maxHeartbeats 4000000 in
/-- Every index of the output array is in some point's block: row i is in block i / 1000 of the 50. -/
theorem cover30_arr (i : S50000x2.Idx) : ∃ t : Fin cfg30.N, (cfg30.win 3).flush t = true ∧ i ∈ ((cfg30.win 3).blk t).view.set := by
  have hN : cfg30.N = 50 := N_30
  have hi0 : (i 0).val < 50000 := (i 0).isLt
  have hi1 : (i 1).val < 2 := (i 1).isLt
  have ht : (i 0).val / 1000 < cfg30.N := by rw [hN]; omega
  obtain ⟨-, -, -, -, -, -, e30, e31⟩ := idx_facts30 ⟨(i 0).val / 1000, ht⟩
  refine ⟨⟨(i 0).val / 1000, ht⟩, flush30_3 _, ?_⟩
  rw [mem_blk30_3]
  intro a
  match a with
  | ⟨0, _⟩ =>
    show win30_3.index ⟨(i 0).val / 1000, ht⟩ (0 : Fin 2) * 1000 ≤ (i 0).val ∧ (i 0).val < win30_3.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win30_3.index ⟨(i 0).val / 1000, ht⟩ (1 : Fin 2) * 2 ≤ (i 1).val ∧ (i 1).val < win30_3.index ⟨(i 0).val / 1000, ht⟩ (1 : Fin 2) * 2 + 2
    omega

set_option maxHeartbeats 4000000 in
/-- THE OUTPUT ARRAY after the region: the output head of the three input arrays as the region finds them, at every index. -/
theorem arr30_3 (c : Dev nD) : (dat30 V c).arrAt 3 cfg30.N
    = outhead (R := 50000) (K := 256) (C := 2) (V c (Pipeline.arrRef spec30 0)) (V c (Pipeline.arrRef spec30 1)) (V c (Pipeline.arrRef spec30 2)) :=
  (dat30 V c).arrAt_eq_of_cover 3 _ (fun t _ => flushed30_3_eq V c t) (fun i => cover30_arr i)

/-- info: 'Cert.KernelIdeal.Reg.arr30_3' depends on axioms: [propext, Classical.choice, Quot.sound] -/
#guard_msgs in #print axioms arr30_3

end Cert.KernelIdeal.Reg

end
-- ==== Proof.KI.Read3L2.lean ====
/- THE VALUE OF THE KERNEL PROGRAM, the heads: local head /-#I-/2/-#-/ (items 55 … 62 of @main: regions 27, 28, 29, 30 and the host
   stretches before them).

   The block takes one of the global path's results (main_v216, written by region 17 and unchanged since boundary 37)
   through a dense layer and an output head:
     region 27: the product of the rows with slab /-#I-/2/-#-/ of the stacked weights main_arg12;
     region 28: the column sums of the product and of its square;
     the host stretch after it: the mean row (sums over 50000, plus the bias) and the variance row (sums of squares over
       50000, minus the squared sums over 50000), and the bias, scale, shift, mean and variance rows made one-row arrays;
     region 29: the normalising kernel on the product and the five rows;
     region 30: the output head on its result, with slab /-#I-/2/-#-/ of main_arg18 and row /-#I-/2/-#-/ of main_arg19 (sliced, made flat,
       made a one-row array).
   Each item is read once, as a function of the contents at the boundary before it; the readings are then chained, every
   buffer carried back to the item that wrote it, and the chain is the dense layer and head of the network's definition. -/
import proofs.«146967_j25786983645193_1_alg».proof.Proof.KI.Read3G
import proofs.«146967_j25786983645193_1_alg».proof.Proof.KI.Val27
import proofs.«146967_j25786983645193_1_alg».proof.Proof.KI.Val28
import proofs.«146967_j25786983645193_1_alg».proof.Proof.KI.Val29
import proofs.«146967_j25786983645193_1_alg».proof.Proof.KI.Val30

-- decided memberships over the program's references recurse past the default depth
set_option maxRecDepth 16384

noncomputable section

namespace Cert.KernelIdeal.Reg

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Spec (mm colsum colsumsq bnrelu outhead denseK headK stack4 row3 mat3 mat3o row3o)

-- the launch memory, at the ideal values
variable (m : (ℓ : Loc nD τ sig) → Buf (Elt Ideal) ℓ)

/-! ## The items, one by one -/

/-- Before region 27: slab /-#I-/2/-#-/ of the stacked local weights, as a matrix. -/
theorem L2_w (c : Dev nD) :
    W56 m c (Proc.devRef .tc main_v282)
      = mat3 (W55 m c (Proc.devRef .tc main_arg12) : Vec Ideal S3x256x256 .f32) /-#I-/2/-#-/ (by decide) := by
  show StableHlo.after hostOps27 _ (Proc.devRef .tc main_v282) = _
  after_results; rfl

/-- Region 27: the product of its rows and its weight. -/
theorem L2_mm (c : Dev nD) :
    W57 m c (Proc.devRef .tc main_v283)
      = mm (M := 50000) (K := 256) (N := 256) (W56 m c (Proc.devRef .tc main_v216)) (W56 m c (Proc.devRef .tc main_v282)) :=
  (W57_arr m c 2).trans (arrAt27_out (rd (W56 m)) c)

/-- Before region 28: row /-#I-/2/-#-/ of the stacked biases, scales and shifts, each as a flat row. -/
theorem L2_b (c : Dev nD) :
    W58 m c (Proc.devRef .tc main_v285)
      = row3 (W57 m c (Proc.devRef .tc main_arg13) : Vec Ideal S3x256 .f32) /-#I-/2/-#-/ (by decide) := by
  show StableHlo.after hostOps28 _ (Proc.devRef .tc main_v285) = _
  after_results; rfl
theorem L2_g (c : Dev nD) :
    W58 m c (Proc.devRef .tc main_v287)
      = row3 (W57 m c (Proc.devRef .tc main_arg14) : Vec Ideal S3x256 .f32) /-#I-/2/-#-/ (by decide) := by
  show StableHlo.after hostOps28 _ (Proc.devRef .tc main_v287) = _
  after_results; rfl
theorem L2_bt (c : Dev nD) :
    W58 m c (Proc.devRef .tc main_v289)
      = row3 (W57 m c (Proc.devRef .tc main_arg15) : Vec Ideal S3x256 .f32) /-#I-/2/-#-/ (by decide) := by
  show StableHlo.after hostOps28 _ (Proc.devRef .tc main_v289) = _
  after_results; rfl

/-- Region 28: the column sums of its input, and of the input's square. -/
theorem L2_s (c : Dev nD) :
    W59 m c (Proc.devRef .tc main_v290_0) = colsum (n := 50000) (d := 256) (W58 m c (Proc.devRef .tc main_v283)) :=
  (W59_arr m c 1).trans (arrAt28_1 (rd (W58 m)) c)
theorem L2_ss (c : Dev nD) :
    W59 m c (Proc.devRef .tc main_v290_1) = colsumsq (n := 50000) (d := 256) (W58 m c (Proc.devRef .tc main_v283)) :=
  (W59_arr m c 2).trans (arrAt28_2 (rd (W58 m)) c)

/-- Before region 29: the bias, scale and shift rows made one-row arrays; -/
theorem L2_r1 (c : Dev nD) :
    W60 m c (Proc.devRef .tc main_v300)
      = shapeCast S1x256 (W59 m c (Proc.devRef .tc main_v285) : Vec Ideal S256 .f32) shapeCasts_S256_S1x256 := by
  show StableHlo.after hostOps29 _ (Proc.devRef .tc main_v300) = _
  after_results; rfl
theorem L2_r2 (c : Dev nD) :
    W60 m c (Proc.devRef .tc main_v301)
      = shapeCast S1x256 (W59 m c (Proc.devRef .tc main_v287) : Vec Ideal S256 .f32) shapeCasts_S256_S1x256 := by
  show StableHlo.after hostOps29 _ (Proc.devRef .tc main_v301) = _
  after_results; rfl
theorem L2_r3 (c : Dev nD) :
    W60 m c (Proc.devRef .tc main_v302)
      = shapeCast S1x256 (W59 m c (Proc.devRef .tc main_v289) : Vec Ideal S256 .f32) shapeCasts_S256_S1x256 := by
  show StableHlo.after hostOps29 _ (Proc.devRef .tc main_v302) = _
  after_results; rfl

/-- the mean row: the column sums as a flat row over the constant 50000 spread over the row, plus the bias; -/
theorem L2_r4 (c : Dev nD) :
    W60 m c (Proc.devRef .tc main_v303)
      = shapeCast S1x256
          (addf (F := Ideal) (φ := .f32)
            (Host.divf (F := Ideal) (φ := .f32)
              (shapeCast S256 (W59 m c (Proc.devRef .tc main_v290_0) : Vec Ideal S1x256 .f32) shapeCasts_S1x256_S256)
              (broadcastInDim S256 ![] bcast_S_S256 (constant (F := Ideal) S_ .f32 0x47435000#32)))
            (W59 m c (Proc.devRef .tc main_v285) : Vec Ideal S256 .f32))
          shapeCasts_S256_S1x256 := by
  show StableHlo.after hostOps29 _ (Proc.devRef .tc main_v303) = _
  after_results; rfl

/-- the variance row: the column sums of squares over 50000, minus the square of the column sums over 50000. -/
theorem L2_r5 (c : Dev nD) :
    W60 m c (Proc.devRef .tc main_v304)
      = shapeCast S1x256
          (subf (F := Ideal) (φ := .f32)
            (Host.divf (F := Ideal) (φ := .f32)
              (shapeCast S256 (W59 m c (Proc.devRef .tc main_v290_1) : Vec Ideal S1x256 .f32) shapeCasts_S1x256_S256)
              (broadcastInDim S256 ![] bcast_S_S256 (constant (F := Ideal) S_ .f32 0x47435000#32)))
            (mulf (F := Ideal) (φ := .f32)
              (Host.divf (F := Ideal) (φ := .f32)
                (shapeCast S256 (W59 m c (Proc.devRef .tc main_v290_0) : Vec Ideal S1x256 .f32) shapeCasts_S1x256_S256)
                (broadcastInDim S256 ![] bcast_S_S256 (constant (F := Ideal) S_ .f32 0x47435000#32)))
              (Host.divf (F := Ideal) (φ := .f32)
                (shapeCast S256 (W59 m c (Proc.devRef .tc main_v290_0) : Vec Ideal S1x256 .f32) shapeCasts_S1x256_S256)
                (broadcastInDim S256 ![] bcast_S_S256 (constant (F := Ideal) S_ .f32 0x47435000#32)))))
          shapeCasts_S256_S1x256 := by
  show StableHlo.after hostOps29 _ (Proc.devRef .tc main_v304) = _
  after_results; rfl

/-- Region 29: the normalising function of its input and its five rows. -/
theorem L2_bn (c : Dev nD) :
    W61 m c (Proc.devRef .tc main_v305)
      = bnrelu (n := 50000) (d := 256) (W60 m c (Proc.devRef .tc main_v283)) (W60 m c (Proc.devRef .tc main_v300))
          (W60 m c (Proc.devRef .tc main_v301)) (W60 m c (Proc.devRef .tc main_v302)) (W60 m c (Proc.devRef .tc main_v303))
          (W60 m c (Proc.devRef .tc main_v304)) :=
  (W61_arr m c 6).trans (final29_6 (rd (W60 m)) c)

/-- Before region 30: slab /-#I-/2/-#-/ of the stacked head weights as a matrix, and row /-#I-/2/-#-/ of the stacked head biases, made flat and
    then a one-row array. -/
theorem L2_ow (c : Dev nD) :
    W62 m c (Proc.devRef .tc main_v307)
      = mat3o (W61 m c (Proc.devRef .tc main_arg18) : Vec Ideal S3x256x2 .f32) /-#I-/2/-#-/ (by decide) := by
  show StableHlo.after hostOps30 _ (Proc.devRef .tc main_v307) = _
  after_results; rfl
theorem L2_ob (c : Dev nD) :
    W62 m c (Proc.devRef .tc main_v310)
      = shapeCast S1x2 (row3o (W61 m c (Proc.devRef .tc main_arg19) : Vec Ideal S3x2 .f32) /-#I-/2/-#-/ (by decide)) shapeCasts_S2_S1x2 := by
  show StableHlo.after hostOps30 _ (Proc.devRef .tc main_v310) = _
  after_results; rfl

/-- Region 30: the output head of its three input arrays. -/
theorem L2_hd (c : Dev nD) :
    W63 m c (Proc.devRef .tc main_v311)
      = outhead (R := 50000) (K := 256) (C := 2) (W62 m c (Proc.devRef .tc main_v305))
          (W62 m c (Proc.devRef .tc main_v307)) (W62 m c (Proc.devRef .tc main_v310)) :=
  (W63_arr m c 3).trans (arr30_3 (rd (W62 m)) c)

/-! ## The chain -/

/-- THE DENSE LAYER: what region 29 leaves in main_v305 is the dense layer of the network's definition on main_v216
    as boundary 37 has it, with slab /-#I-/2/-#-/ of main_arg12 and row /-#I-/2/-#-/ of main_arg13, main_arg14, main_arg15 as launched: the
    normalising kernel's five rows are the block's own rows of the product's column sums. -/
theorem L2_hl (c : Dev nD) :
    W61 m c (Proc.devRef .tc main_v305)
      = denseK (W37 m c (Proc.devRef .tc main_v216)) (mat3 (m ((c : Thread nD τ).loc main_arg12)) /-#I-/2/-#-/ (by decide))
          (row3 (m ((c : Thread nD τ).loc main_arg13)) /-#I-/2/-#-/ (by decide)) (row3 (m ((c : Thread nD τ).loc main_arg14)) /-#I-/2/-#-/ (by decide))
          (row3 (m ((c : Thread nD τ).loc main_arg15)) /-#I-/2/-#-/ (by decide)) := by
  rw [L2_bn, L2_r1, L2_r2, L2_r3, L2_r4, L2_r5, L2_s, L2_ss]
  keep_down main_v283
  keep_down main_v285
  keep_down main_v287
  keep_down main_v289
  rw [L2_mm, L2_b, L2_g, L2_bt, L2_w]
  keep_down main_v216
  rw [W55_arg m c (b := main_arg12) (by decide), W57_arg m c (b := main_arg13) (by decide),
    W57_arg m c (b := main_arg14) (by decide), W57_arg m c (b := main_arg15) (by decide)]
  rfl

/-- LOCAL HEAD /-#I-/2/-#-/: what region 30 leaves in main_v311 is the head of that dense layer, with slab /-#I-/2/-#-/ of main_arg18 and
    row /-#I-/2/-#-/ of main_arg19 as launched. -/
theorem read_ol2 (c : Dev nD) :
    W63 m c (Proc.devRef .tc main_v311)
      = headK (denseK (W37 m c (Proc.devRef .tc main_v216)) (mat3 (m ((c : Thread nD τ).loc main_arg12)) /-#I-/2/-#-/ (by decide))
            (row3 (m ((c : Thread nD τ).loc main_arg13)) /-#I-/2/-#-/ (by decide)) (row3 (m ((c : Thread nD τ).loc main_arg14)) /-#I-/2/-#-/ (by decide))
            (row3 (m ((c : Thread nD τ).loc main_arg15)) /-#I-/2/-#-/ (by decide)))
          (mat3o (m ((c : Thread nD τ).loc main_arg18)) /-#I-/2/-#-/ (by decide)) (row3o (m ((c : Thread nD τ).loc main_arg19)) /-#I-/2/-#-/ (by decide)) := by
  rw [L2_hd, L2_ow, L2_ob]
  keep_down main_v305
  rw [L2_hl, W61_arg m c (b := main_arg18) (by decide), W61_arg m c (b := main_arg19) (by decide)]
  rfl

end Cert.KernelIdeal.Reg

end
-- ==== Proof.KI.Read3.lean ====
/- THE VALUE OF THE KERNEL PROGRAM, the heads (last module): the result.

   The four heads' arrays — main_v218 (region 18), main_v249 (region 22), main_v280 (region 26), main_v311 (region 30) —
   are written once and left alone until the last host stretch, which gives each a leading axis of extent one and lays
   the four end to end along it: the result main_v316. Carried back to the regions that wrote them, the four are the
   global head and the three local heads, so the result is the four heads of the network's definition, stacked: a
   function of the three global-path results (as the boundaries after their regions have them) and of the head
   parameters as launched. -/
import proofs.«146967_j25786983645193_1_alg».proof.Proof.KI.Read3G
import proofs.«146967_j25786983645193_1_alg».proof.Proof.KI.Read3L0
import proofs.«146967_j25786983645193_1_alg».proof.Proof.KI.Read3L1
import proofs.«146967_j25786983645193_1_alg».proof.Proof.KI.Read3L2

-- decided memberships over the program's references recurse past the default depth
set_option maxRecDepth 16384

noncomputable section

namespace Cert.KernelIdeal.Reg

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Spec (mm colsum colsumsq bnrelu outhead denseK headK stack4 row3 mat3 mat3o row3o)

-- the launch memory, at the ideal values
variable (m : (ℓ : Loc nD τ sig) → Buf (Elt Ideal) ℓ)

/-- The last host stretch: the four heads' arrays, stacked along a new leading axis. -/
theorem read_v316 (c : Dev nD) :
    W64 m c (Proc.devRef .tc main_v316)
      = stack4 (W63 m c (Proc.devRef .tc main_v218)) (W63 m c (Proc.devRef .tc main_v249))
          (W63 m c (Proc.devRef .tc main_v280)) (W63 m c (Proc.devRef .tc main_v311)) := by
  show StableHlo.after hostOps31 _ (Proc.devRef .tc main_v316) = _
  after_results; rfl

/-- THE RESULT of the kernel program: the global head on the last global-path result, and on each global-path result
    its local dense layer and head, stacked. -/
theorem read_out (c : Dev nD) :
    W64 m c (Proc.devRef .tc main_v316)
      = stack4
          (headK (W37 m c (Proc.devRef .tc main_v216)) (m ((c : Thread nD τ).loc main_arg16)) (m ((c : Thread nD τ).loc main_arg17)))
          (headK (denseK (W25 m c (Proc.devRef .tc main_v164)) (mat3 (m ((c : Thread nD τ).loc main_arg12)) 0 (by decide))
              (row3 (m ((c : Thread nD τ).loc main_arg13)) 0 (by decide)) (row3 (m ((c : Thread nD τ).loc main_arg14)) 0 (by decide))
              (row3 (m ((c : Thread nD τ).loc main_arg15)) 0 (by decide)))
            (mat3o (m ((c : Thread nD τ).loc main_arg18)) 0 (by decide)) (row3o (m ((c : Thread nD τ).loc main_arg19)) 0 (by decide)))
          (headK (denseK (W31 m c (Proc.devRef .tc main_v190)) (mat3 (m ((c : Thread nD τ).loc main_arg12)) 1 (by decide))
              (row3 (m ((c : Thread nD τ).loc main_arg13)) 1 (by decide)) (row3 (m ((c : Thread nD τ).loc main_arg14)) 1 (by decide))
              (row3 (m ((c : Thread nD τ).loc main_arg15)) 1 (by decide)))
            (mat3o (m ((c : Thread nD τ).loc main_arg18)) 1 (by decide)) (row3o (m ((c : Thread nD τ).loc main_arg19)) 1 (by decide)))
          (headK (denseK (W37 m c (Proc.devRef .tc main_v216)) (mat3 (m ((c : Thread nD τ).loc main_arg12)) 2 (by decide))
              (row3 (m ((c : Thread nD τ).loc main_arg13)) 2 (by decide)) (row3 (m ((c : Thread nD τ).loc main_arg14)) 2 (by decide))
              (row3 (m ((c : Thread nD τ).loc main_arg15)) 2 (by decide)))
            (mat3o (m ((c : Thread nD τ).loc main_arg18)) 2 (by decide)) (row3o (m ((c : Thread nD τ).loc main_arg19)) 2 (by decide))) := by
  rw [read_v316]
  keep_down main_v218
  keep_down main_v249
  keep_down main_v280
  rw [read_og, read_ol0, read_ol1, read_ol2]

end Cert.KernelIdeal.Reg

end
-- ==== Proof.KI.Value.lean ====
/- THE KERNEL PROGRAM'S VALUE at the ideal values: the result buffer after the run, as ONE function of the twenty
   argument arrays — the network written the column-sum way (Spec/Net.lean netK). The run's buffer contents are a fold
   through the program's stretches of host operations and its 31 regions; the readers give each stage's buffer as its
   function of the stage before (the graph layers' result h3; the global path's steps xg0, xg1, xg2 over h3; the four
   heads and their stack over xg0, xg1, xg2), and this module substitutes them into one another. -/
import proofs.«146967_j25786983645193_1_alg».proof.Proof.KI.Chain
import proofs.«146967_j25786983645193_1_alg».proof.Proof.KI.Read1
import proofs.«146967_j25786983645193_1_alg».proof.Proof.KI.Read2
import proofs.«146967_j25786983645193_1_alg».proof.Proof.KI.Read3
import proofs.«146967_j25786983645193_1_alg».proof.Proof.Spec.Net

noncomputable section

namespace Cert.KernelIdeal.Reg

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ)

/-- THE RESULT BUFFER after the kernel program's run is the network, the column-sum way, of the twenty arguments as
    launched. The four heads stacked, over the three steps of the global path (each a dense layer on the previous step
    beside the graph layers' result), over the three graph layers: each stage's buffer read as its function of the
    stage before, the stages substituted into one another from the last to the first, and every argument read back to
    its launch contents (no operation and no region writes an argument). What is left is the network's own definition
    with its intermediate results named. -/
theorem kernel_value (c : Dev nD) :
    W64 m c (Proc.devRef .tc main_v316)
      = Cert.Spec.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [read_out m c, read_xg2 m c, read_xg1 m c, read_xg0 m c, read_h3 m c]
  rw [W20_arg m c (b := main_arg7) (by decide), W20_arg m c (b := main_arg8) (by decide),
    W20_arg m c (b := main_arg9) (by decide), W20_arg m c (b := main_arg10) (by decide),
    W20_arg m c (b := main_arg11) (by decide),
    W0_arg m c (b := main_arg0) (by decide), W0_arg m c (b := main_arg1) (by decide),
    W0_arg m c (b := main_arg2) (by decide), W0_arg m c (b := main_arg3) (by decide),
    W0_arg m c (b := main_arg4) (by decide), W0_arg m c (b := main_arg5) (by decide),
    W0_arg m c (b := main_arg6) (by decide)]
  rfl

end Cert.KernelIdeal.Reg

end
-- ==== Proof.Ref.Base.lean ====
/- Buffers an operation list leaves alone, by index range.

   Every operation of the reference writes exactly one buffer, and the buffers are numbered in the order the
   operations run. So a stretch of operations writes a contiguous range of indices, and a buffer outside that
   range holds after the stretch what it held before it. -/
import proofs.«146967_j25786983645193_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every buffer the operation writes is a TensorCore buffer whose index lies in `[lo, hi)`. -/
def WritesIn (lo hi : ℕ) (op : HloOp τ sig (Elt F)) : Prop :=
  ∀ b ∈ op.writes, ∃ y : Ref sig .tc, b = Proc.devRef (τ := τ) .tc y ∧ lo ≤ y.idx.val ∧ y.idx.val < hi

/-- An operation whose only written buffer is `y`, with `y`'s index in the range. -/
theorem writesIn_of {lo hi : ℕ} {op : HloOp τ sig (Elt F)} {y : Ref sig .tc}
    (hw : op.writes = {Proc.devRef (τ := τ) .tc y}) (hy : lo ≤ y.idx.val ∧ y.idx.val < hi) : WritesIn lo hi op :=
  fun b hb => ⟨y, Finset.mem_singleton.mp (hw ▸ hb), hy⟩

/-- A wider range holds of what a narrower one does. -/
theorem WritesIn.mono {lo hi lo' hi' : ℕ} {op : HloOp τ sig (Elt F)} (h : WritesIn lo hi op) (hlo : lo' ≤ lo) (hhi : hi ≤ hi') :
    WritesIn lo' hi' op :=
  fun b hb => let ⟨y, e, h1, h2⟩ := h b hb; ⟨y, e, le_trans hlo h1, lt_of_lt_of_le h2 hhi⟩

/-- The same, for every operation of a list. -/
theorem forall_writesIn_mono {lo hi lo' hi' : ℕ} {ops : List (HloOp τ sig (Elt F))} (h : ops.Forall (WritesIn lo hi))
    (hlo : lo' ≤ lo) (hhi : hi ≤ hi') : ops.Forall (WritesIn lo' hi') :=
  List.forall_iff_forall_mem.mpr fun op hop => (List.forall_iff_forall_mem.mp h op hop).mono hlo hhi

/-- Two lists that both write inside a range: so does their concatenation. -/
theorem forall_writesIn_append {lo hi : ℕ} {l₁ l₂ : List (HloOp τ sig (Elt F))} (h₁ : l₁.Forall (WritesIn lo hi))
    (h₂ : l₂.Forall (WritesIn lo hi)) : (l₁ ++ l₂).Forall (WritesIn lo hi) :=
  List.forall_iff_forall_mem.mpr fun op hop => (List.mem_append.mp hop).elim
    (List.forall_iff_forall_mem.mp h₁ op) (List.forall_iff_forall_mem.mp h₂ op)

/-- A buffer whose index is outside the range the operations write keeps its contents. -/
theorem after_keep {lo hi : ℕ} (ops : List (HloOp τ sig (Elt F))) (h : ops.Forall (WritesIn lo hi))
    (V : Valuation τ sig (Elt F)) (r : Ref sig .tc) (hr : r.idx.val < lo ∨ hi ≤ r.idx.val) :
    after ops V (Proc.devRef .tc r) = V (Proc.devRef .tc r) :=
  after_of_forall_not_mem ops V fun op hop hb => by
    obtain ⟨y, e, h1, h2⟩ := List.forall_iff_forall_mem.mp h op hop _ hb
    have hry : r = y := Proc.devRef_injective _ e
    subst hry
    omega

end Cert.ReferenceIdeal.RefRun

end
-- ==== Proof.Ref.W0.lean ====
/- The reference's statements 1 … 60 as the list of the 62 host operations they run, each call's body
   written out over that call's own buffers; the window's program is that list run in order; each operation
   touches TensorCore buffers only, determines what it writes, and writes the one buffer whose index is its
   place in the running order (indices 20 … 81). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main: 62 operations, in order. -/
abbrev ops0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v3 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (TRef.of main_cst_2 : StableHlo.TRef sig ⟨S_, .f32⟩) main_call0.v0 id,
    StableHlo.TRef.unary main_call0.v0 main_call0.v1 (broadcastInDim S50000 ![] bcast_S_S50000),
    StableHlo.TRef.ternary (TRef.of main_v12 : StableHlo.TRef sig ⟨S50000, .i1⟩) (TRef.of main_v13 : StableHlo.TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v6 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v6 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v3 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg4 main_v44 ((extractStridedSlice S1x256 ![0, 0] · slices_S3x256_S1x256_0_0) : (⟨S3x256, .f32⟩ : BufTy).Contents (Elt F) → (⟨S1x256, .f32⟩ : BufTy).Contents (Elt F)),
    StableHlo.reshape main_v44 main_v45 rfl shapeCasts_S1x256_S256,
    StableHlo.unary main_v45 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v47 main_v48 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
/-- The window is that straight line: the called functions unfolded at their calls, sequencing reassociated. -/
theorem main_part0_eq (c : Dev nD) : main_part0 (F := F) c = seq ops0 := by
  simp only [main_part0, fn_where.body, seq, bind_assoc, pure_bind] <;> rfl

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops0_writes : (ops0 : List (HloOp τ sig (Elt F))).Forall (WritesIn 20 82) :=
  ⟨writesIn_of (nullary_writes ..) (by decide), writesIn_of (unary_writes ..) (by decide), writesIn_of (reshape_writes ..) (by decide), writesIn_of (binary_writes ..) (by decide), writesIn_of (unary_writes ..) (by decide), writesIn_of (reshape_writes ..) (by decide), writesIn_of (binary_writes ..) (by decide), writesIn_of (nullary_writes ..) (by decide), writesIn_of (unary_writes ..) (by decide), writesIn_of (nullary_writes ..) (by decide), writesIn_of (unary_writes ..) (by decide), writesIn_of (unary_writes ..) (by decide), writesIn_of (ternary_writes ..) (by decide), writesIn_of (nullary_writes ..) (by decide), writesIn_of (unary_writes ..) (by decide), writesIn_of (binary_writes ..) (by decide), writesIn_of (unary_writes ..) (by decide), writesIn_of (nullary_writes ..) (by decide), writesIn_of (unary_writes ..) (by decide), writesIn_of (unary_writes ..) (by decide), writesIn_of (ternary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (binary_writes ..) (by decide), writesIn_of (binary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide)⟩

end Cert.ReferenceIdeal.RefRun

end
-- ==== Proof.Ref.W1.lean ====
/- The reference's statements 61 … 120 as the list of the 83 host operations they run, each call's body
   written out over that call's own buffers; the window's program is that list run in order; each operation
   touches TensorCore buffers only, determines what it writes, and writes the one buffer whose index is its
   place in the running order (indices 82 … 164). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 61 … 120 of @main: 83 operations, in order. -/
abbrev ops1 : List (HloOp τ sig (Elt F)) :=
  [ StableHlo.unary main_arg5 main_v49 ((extractStridedSlice S1x256 ![0, 0] · slices_S3x256_S1x256_0_0) : (⟨S3x256, .f32⟩ : BufTy).Contents (Elt F) → (⟨S1x256, .f32⟩ : BufTy).Contents (Elt F)),
    StableHlo.reshape main_v49 main_v50 rfl shapeCasts_S1x256_S256,
    StableHlo.unary main_arg6 main_v51 ((extractStridedSlice S1x256 ![0, 0] · slices_S3x256_S1x256_0_0) : (⟨S3x256, .f32⟩ : BufTy).Contents (Elt F) → (⟨S1x256, .f32⟩ : BufTy).Contents (Elt F)),
    StableHlo.reshape main_v51 main_v52 rfl shapeCasts_S1x256_S256,
    StableHlo.nullary main_cst_9 (constant S_ .f32 0x00000000#32),
    StableHlo.binary main_v48 main_cst_9 main_v53 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_10 (constant S_ .f32 0x47435000#32),
    StableHlo.unary main_cst_10 main_v54 (broadcastInDim S256 ![] bcast_S_S256 : (⟨S_, .f32⟩ : BufTy).Contents (Elt F) → (⟨S256, .f32⟩ : BufTy).Contents (Elt F)),
    StableHlo.binary main_v53 main_v54 main_v55 (Host.divf : (⟨S256, .f32⟩ : BufTy).Contents (Elt F) → (⟨S256, .f32⟩ : BufTy).Contents (Elt F) → (⟨S256, .f32⟩ : BufTy).Contents (Elt F)),
    StableHlo.nullary main_c_11 (constantI S_ 32 0#32),
    StableHlo.TRef.nullary main_call1.cst (constant S_ .f32 0x00000000#32),
    StableHlo.TRef.binary (TRef.of main_v48 : StableHlo.TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (TRef.of main_v48 : StableHlo.TRef sig ⟨S50000x256, .f32⟩) main_call1.v4 main_call1.v5 subf,
    StableHlo.TRef.binary main_call1.v5 main_call1.v5 main_call1.v6 mulf,
    StableHlo.TRef.unary (TRef.of main_c_11 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v55 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v58 main_v59 (subf : (⟨S50000x256, .f32⟩ : BufTy).Contents (Elt F) → (⟨S50000x256, .f32⟩ : BufTy).Contents (Elt F) → (⟨S50000x256, .f32⟩ : BufTy).Contents (Elt F)),
    StableHlo.unary main_v50 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v59 main_v62 (mulf : (⟨S50000x256, .f32⟩ : BufTy).Contents (Elt F) → (⟨S50000x256, .f32⟩ : BufTy).Contents (Elt F) → (⟨S50000x256, .f32⟩ : BufTy).Contents (Elt F)),
    StableHlo.nullary main_cst_12 (constant S_ .f32 0x3727C5AC#32),
    StableHlo.unary main_cst_12 main_v63 (broadcastInDim S256 ![] bcast_S_S256 : (⟨S_, .f32⟩ : BufTy).Contents (Elt F) → (⟨S256, .f32⟩ : BufTy).Contents (Elt F)),
    StableHlo.binary main_v56 main_v63 main_v64 (addf : (⟨S256, .f32⟩ : BufTy).Contents (Elt F) → (⟨S256, .f32⟩ : BufTy).Contents (Elt F) → (⟨S256, .f32⟩ : BufTy).Contents (Elt F)),
    StableHlo.unary main_v64 main_v65 (Host.rsqrt : (⟨S256, .f32⟩ : BufTy).Contents (Elt F) → (⟨S256, .f32⟩ : BufTy).Contents (Elt F)),
    StableHlo.unary main_v65 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S50000x256 ![0, 1] bcast_S1x256_S50000x256_0_1 : (⟨S1x256, .f32⟩ : BufTy).Contents (Elt F) → (⟨S50000x256, .f32⟩ : BufTy).Contents (Elt F)),
    StableHlo.binary main_v62 main_v67 main_v68 (mulf : (⟨S50000x256, .f32⟩ : BufTy).Contents (Elt F) → (⟨S50000x256, .f32⟩ : BufTy).Contents (Elt F) → (⟨S50000x256, .f32⟩ : BufTy).Contents (Elt F)),
    StableHlo.unary main_v52 main_v69 (broadcastInDim S1x256 ![1] bcast_S256_S1x256_1 : (⟨S256, .f32⟩ : BufTy).Contents (Elt F) → (⟨S1x256, .f32⟩ : BufTy).Contents (Elt F)),
    StableHlo.unary main_v69 main_v70 (broadcastInDim S50000x256 ![0, 1] bcast_S1x256_S50000x256_0_1 : (⟨S1x256, .f32⟩ : BufTy).Contents (Elt F) → (⟨S50000x256, .f32⟩ : BufTy).Contents (Elt F)),
    StableHlo.binary main_v68 main_v70 main_v71 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (TRef.of main_v71 : StableHlo.TRef sig ⟨S50000x256, .f32⟩) main_call2.v0 main_call2.v1 maximumf,
    StableHlo.unary main_arg3 main_v73 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v73 main_v74 rfl shapeCasts_S1x256x256_S256x256,
    StableHlo.binary main_v72 main_v74 main_v75 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_13 (constantI S_ 32 0#32),
    StableHlo.unary main_c_13 main_v76 (broadcastInDim S850000 ![] bcast_S_S850000 : (⟨S_, .i32⟩ : BufTy).Contents (Elt F) → (⟨S850000, .i32⟩ : BufTy).Contents (Elt F)),
    StableHlo.binary main_v6 main_v76 main_v77 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v78 (broadcastInDim S850000 ![] bcast_S_S850000 : (⟨S_, .i32⟩ : BufTy).Contents (Elt F) → (⟨S850000, .i32⟩ : BufTy).Contents (Elt F)),
    StableHlo.binary main_v6 main_v78 main_v79 (addi : (⟨S850000, .i32⟩ : BufTy).Contents (Elt F) → (⟨S850000, .i32⟩ : BufTy).Contents (Elt F) → (⟨S850000, .i32⟩ : BufTy).Contents (Elt F)),
    StableHlo.ternary main_v77 main_v79 main_v6 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v80 main_v81 (broadcastInDim S850000x1 ![0] bcast_S850000_S850000x1_0 : (⟨S850000, .i32⟩ : BufTy).Contents (Elt F) → (⟨S850000x1, .i32⟩ : BufTy).Contents (Elt F)),
    StableHlo.binary main_v75 main_v81 main_v82 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v83 (broadcastInDim S850000x1 ![0] bcast_S850000_S850000x1_0 : (⟨S850000, .f32⟩ : BufTy).Contents (Elt F) → (⟨S850000x1, .f32⟩ : BufTy).Contents (Elt F)),
    StableHlo.unary main_v83 main_v84 (broadcastInDim S850000x256 ![0, 1] bcast_S850000x1_S850000x256_0_1 : (⟨S850000x1, .f32⟩ : BufTy).Contents (Elt F) → (⟨S850000x256, .f32⟩ : BufTy).Contents (Elt F)),
    StableHlo.binary main_v82 main_v84 main_v85 (mulf : (⟨S850000x256, .f32⟩ : BufTy).Contents (Elt F) → (⟨S850000x256, .f32⟩ : BufTy).Contents (Elt F) → (⟨S850000x256, .f32⟩ : BufTy).Contents (Elt F)),
    StableHlo.nullary main_cst_15 (constant S_ .f32 0x00000000#32),
    StableHlo.unary main_cst_15 main_v86 (broadcastInDim S50000x256 ![] bcast_S_S50000x256 : (⟨S_, .f32⟩ : BufTy).Contents (Elt F) → (⟨S50000x256, .f32⟩ : BufTy).Contents (Elt F)),
    StableHlo.unary main_v3 main_v87 (broadcastInDim S850000x1 ![0] bcast_S850000_S850000x1_0 : (⟨S850000, .i32⟩ : BufTy).Contents (Elt F) → (⟨S850000x1, .i32⟩ : BufTy).Contents (Elt F)),
    StableHlo.ternary main_v86 main_v87 main_v85 main_v88 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg4 main_v89 ((extractStridedSlice S1x256 ![1, 0] · slices_S3x256_S1x256_1_0) : (⟨S3x256, .f32⟩ : BufTy).Contents (Elt F) → (⟨S1x256, .f32⟩ : BufTy).Contents (Elt F)),
    StableHlo.reshape main_v89 main_v90 rfl shapeCasts_S1x256_S256,
    StableHlo.unary main_v90 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S50000x256 ![0, 1] bcast_S1x256_S50000x256_0_1 : (⟨S1x256, .f32⟩ : BufTy).Contents (Elt F) → (⟨S50000x256, .f32⟩ : BufTy).Contents (Elt F)),
    StableHlo.binary main_v88 main_v92 main_v93 (addf : (⟨S50000x256, .f32⟩ : BufTy).Contents (Elt F) → (⟨S50000x256, .f32⟩ : BufTy).Contents (Elt F) → (⟨S50000x256, .f32⟩ : BufTy).Contents (Elt F)),
    StableHlo.unary main_arg5 main_v94 ((extractStridedSlice S1x256 ![1, 0] · slices_S3x256_S1x256_1_0) : (⟨S3x256, .f32⟩ : BufTy).Contents (Elt F) → (⟨S1x256, .f32⟩ : BufTy).Contents (Elt F)),
    StableHlo.reshape main_v94 main_v95 rfl shapeCasts_S1x256_S256,
    StableHlo.unary main_arg6 main_v96 ((extractStridedSlice S1x256 ![1, 0] · slices_S3x256_S1x256_1_0) : (⟨S3x256, .f32⟩ : BufTy).Contents (Elt F) → (⟨S1x256, .f32⟩ : BufTy).Contents (Elt F)),
    StableHlo.reshape main_v96 main_v97 rfl shapeCasts_S1x256_S256,
    StableHlo.nullary main_cst_16 (constant S_ .f32 0x00000000#32),
    StableHlo.binary main_v93 main_cst_16 main_v98 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_17 (constant S_ .f32 0x47435000#32),
    StableHlo.unary main_cst_17 main_v99 (broadcastInDim S256 ![] bcast_S_S256 : (⟨S_, .f32⟩ : BufTy).Contents (Elt F) → (⟨S256, .f32⟩ : BufTy).Contents (Elt F)) ]

set_option maxRecDepth 8192 in
set_option maxHeartbeats 4000000 in
/-- The window is that straight line: the called functions unfolded at their calls, sequencing reassociated. -/
theorem main_part1_eq (c : Dev nD) : main_part1 (F := F) c = seq ops1 := by
  simp only [main_part1, fn_relu.body, fn_var.body, fn_where_0.body, seq, bind_assoc, pure_bind] <;> rfl

set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_writes : (ops1 : List (HloOp τ sig (Elt F))).Forall (WritesIn 82 165) :=
  ⟨writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (reshape_writes ..) (by decide), writesIn_of (binary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide)⟩

end Cert.ReferenceIdeal.RefRun

end
-- ==== Proof.Ref.W2.lean ====
/- The reference's statements 121 … 180 as the list of the 104 host operations they run, each call's body
   written out over that call's own buffers; the window's program is that list run in order; each operation
   touches TensorCore buffers only, determines what it writes, and writes the one buffer whose index is its
   place in the running order (indices 165 … 268). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 121 … 180 of @main: 104 operations, in order. -/
abbrev ops2 : List (HloOp τ sig (Elt F)) :=
  [ StableHlo.binary main_v98 main_v99 main_v100 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32),
    StableHlo.TRef.nullary main_call3.cst (constant S_ .f32 0x00000000#32),
    StableHlo.TRef.binary (TRef.of main_v93 : StableHlo.TRef sig ⟨S50000x256, .f32⟩) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (TRef.of main_v93 : StableHlo.TRef sig ⟨S50000x256, .f32⟩) main_call3.v4 main_call3.v5 subf,
    StableHlo.TRef.binary main_call3.v5 main_call3.v5 main_call3.v6 mulf,
    StableHlo.TRef.unary (TRef.of main_c_18 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b),
    StableHlo.unary main_v100 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v103 main_v104 (subf : (⟨S50000x256, .f32⟩ : BufTy).Contents (Elt F) → (⟨S50000x256, .f32⟩ : BufTy).Contents (Elt F) → (⟨S50000x256, .f32⟩ : BufTy).Contents (Elt F)),
    StableHlo.unary main_v95 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v104 main_v107 (mulf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x3727C5AC#32),
    StableHlo.unary main_cst_19 main_v108 (broadcastInDim S256 ![] bcast_S_S256 : (⟨S_, .f32⟩ : BufTy).Contents (Elt F) → (⟨S256, .f32⟩ : BufTy).Contents (Elt F)),
    StableHlo.binary main_v101 main_v108 main_v109 (addf : (⟨S256, .f32⟩ : BufTy).Contents (Elt F) → (⟨S256, .f32⟩ : BufTy).Contents (Elt F) → (⟨S256, .f32⟩ : BufTy).Contents (Elt F)),
    StableHlo.unary main_v109 main_v110 (Host.rsqrt : (⟨S256, .f32⟩ : BufTy).Contents (Elt F) → (⟨S256, .f32⟩ : BufTy).Contents (Elt F)),
    StableHlo.unary main_v110 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v107 main_v112 main_v113 (mulf : (⟨S50000x256, .f32⟩ : BufTy).Contents (Elt F) → (⟨S50000x256, .f32⟩ : BufTy).Contents (Elt F) → (⟨S50000x256, .f32⟩ : BufTy).Contents (Elt F)),
    StableHlo.unary main_v97 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S50000x256 ![0, 1] bcast_S1x256_S50000x256_0_1 : (⟨S1x256, .f32⟩ : BufTy).Contents (Elt F) → (⟨S50000x256, .f32⟩ : BufTy).Contents (Elt F)),
    StableHlo.binary main_v113 main_v115 main_v116 (addf : (⟨S50000x256, .f32⟩ : BufTy).Contents (Elt F) → (⟨S50000x256, .f32⟩ : BufTy).Contents (Elt F) → (⟨S50000x256, .f32⟩ : BufTy).Contents (Elt F)),
    StableHlo.TRef.nullary main_call4.cst (constant S_ .f32 0x00000000#32),
    StableHlo.TRef.unary main_call4.cst main_call4.v0 (broadcastInDim S50000x256 ![] bcast_S_S50000x256),
    StableHlo.TRef.binary (TRef.of main_v116 : StableHlo.TRef sig ⟨S50000x256, .f32⟩) main_call4.v0 main_call4.v1 maximumf,
    StableHlo.unary main_arg3 main_v118 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v118 main_v119 rfl shapeCasts_S1x256x256_S256x256,
    StableHlo.binary main_v117 main_v119 main_v120 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_20 (constantI S_ 32 0#32),
    StableHlo.unary main_c_20 main_v121 (broadcastInDim S850000 ![] bcast_S_S850000 : (⟨S_, .i32⟩ : BufTy).Contents (Elt F) → (⟨S850000, .i32⟩ : BufTy).Contents (Elt F)),
    StableHlo.binary main_v6 main_v121 main_v122 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v123 (broadcastInDim S850000 ![] bcast_S_S850000 : (⟨S_, .i32⟩ : BufTy).Contents (Elt F) → (⟨S850000, .i32⟩ : BufTy).Contents (Elt F)),
    StableHlo.binary main_v6 main_v123 main_v124 (addi : (⟨S850000, .i32⟩ : BufTy).Contents (Elt F) → (⟨S850000, .i32⟩ : BufTy).Contents (Elt F) → (⟨S850000, .i32⟩ : BufTy).Contents (Elt F)),
    StableHlo.ternary main_v122 main_v124 main_v6 main_v125 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v125 main_v126 (broadcastInDim S850000x1 ![0] bcast_S850000_S850000x1_0 : (⟨S850000, .i32⟩ : BufTy).Contents (Elt F) → (⟨S850000x1, .i32⟩ : BufTy).Contents (Elt F)),
    StableHlo.binary main_v120 main_v126 main_v127 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v128 (broadcastInDim S850000x1 ![0] bcast_S850000_S850000x1_0 : (⟨S850000, .f32⟩ : BufTy).Contents (Elt F) → (⟨S850000x1, .f32⟩ : BufTy).Contents (Elt F)),
    StableHlo.unary main_v128 main_v129 (broadcastInDim S850000x256 ![0, 1] bcast_S850000x1_S850000x256_0_1 : (⟨S850000x1, .f32⟩ : BufTy).Contents (Elt F) → (⟨S850000x256, .f32⟩ : BufTy).Contents (Elt F)),
    StableHlo.binary main_v127 main_v129 main_v130 (mulf : (⟨S850000x256, .f32⟩ : BufTy).Contents (Elt F) → (⟨S850000x256, .f32⟩ : BufTy).Contents (Elt F) → (⟨S850000x256, .f32⟩ : BufTy).Contents (Elt F)),
    StableHlo.nullary main_cst_22 (constant S_ .f32 0x00000000#32),
    StableHlo.unary main_cst_22 main_v131 (broadcastInDim S50000x256 ![] bcast_S_S50000x256 : (⟨S_, .f32⟩ : BufTy).Contents (Elt F) → (⟨S50000x256, .f32⟩ : BufTy).Contents (Elt F)),
    StableHlo.unary main_v3 main_v132 (broadcastInDim S850000x1 ![0] bcast_S850000_S850000x1_0 : (⟨S850000, .i32⟩ : BufTy).Contents (Elt F) → (⟨S850000x1, .i32⟩ : BufTy).Contents (Elt F)),
    StableHlo.ternary main_v131 main_v132 main_v130 main_v133 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg4 main_v134 ((extractStridedSlice S1x256 ![2, 0] · slices_S3x256_S1x256_2_0) : (⟨S3x256, .f32⟩ : BufTy).Contents (Elt F) → (⟨S1x256, .f32⟩ : BufTy).Contents (Elt F)),
    StableHlo.reshape main_v134 main_v135 rfl shapeCasts_S1x256_S256,
    StableHlo.unary main_v135 main_v136 (broadcastInDim S1x256 ![1] bcast_S256_S1x256_1 : (⟨S256, .f32⟩ : BufTy).Contents (Elt F) → (⟨S1x256, .f32⟩ : BufTy).Contents (Elt F)),
    StableHlo.unary main_v136 main_v137 (broadcastInDim S50000x256 ![0, 1] bcast_S1x256_S50000x256_0_1 : (⟨S1x256, .f32⟩ : BufTy).Contents (Elt F) → (⟨S50000x256, .f32⟩ : BufTy).Contents (Elt F)),
    StableHlo.binary main_v133 main_v137 main_v138 (addf : (⟨S50000x256, .f32⟩ : BufTy).Contents (Elt F) → (⟨S50000x256, .f32⟩ : BufTy).Contents (Elt F) → (⟨S50000x256, .f32⟩ : BufTy).Contents (Elt F)),
    StableHlo.unary main_arg5 main_v139 ((extractStridedSlice S1x256 ![2, 0] · slices_S3x256_S1x256_2_0) : (⟨S3x256, .f32⟩ : BufTy).Contents (Elt F) → (⟨S1x256, .f32⟩ : BufTy).Contents (Elt F)),
    StableHlo.reshape main_v139 main_v140 rfl shapeCasts_S1x256_S256,
    StableHlo.unary main_arg6 main_v141 ((extractStridedSlice S1x256 ![2, 0] · slices_S3x256_S1x256_2_0) : (⟨S3x256, .f32⟩ : BufTy).Contents (Elt F) → (⟨S1x256, .f32⟩ : BufTy).Contents (Elt F)),
    StableHlo.reshape main_v141 main_v142 rfl shapeCasts_S1x256_S256,
    StableHlo.nullary main_cst_23 (constant S_ .f32 0x00000000#32),
    StableHlo.binary main_v138 main_cst_23 main_v143 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_24 (constant S_ .f32 0x47435000#32),
    StableHlo.unary main_cst_24 main_v144 (broadcastInDim S256 ![] bcast_S_S256 : (⟨S_, .f32⟩ : BufTy).Contents (Elt F) → (⟨S256, .f32⟩ : BufTy).Contents (Elt F)),
    StableHlo.binary main_v143 main_v144 main_v145 (Host.divf : (⟨S256, .f32⟩ : BufTy).Contents (Elt F) → (⟨S256, .f32⟩ : BufTy).Contents (Elt F) → (⟨S256, .f32⟩ : BufTy).Contents (Elt F)),
    StableHlo.nullary main_c_25 (constantI S_ 32 0#32),
    StableHlo.TRef.nullary main_call5.cst (constant S_ .f32 0x00000000#32),
    StableHlo.TRef.binary (TRef.of main_v138 : StableHlo.TRef sig ⟨S50000x256, .f32⟩) main_call5.cst main_call5.v0 (fun x v => Host.reduceAdd x v reducesTo_S50000x256_S256_d0 h_S_),
    StableHlo.TRef.unary main_call5.v0 main_call5.v1 (broadcastInDim S1x256 ![1] bcast_S256_S1x256_1),
    StableHlo.TRef.nullary main_call5.cst_0 (constant S_ .f32 0x47435000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S50000x256 ![0, 1] bcast_S1x256_S50000x256_0_1),
    StableHlo.TRef.binary (TRef.of main_v138 : StableHlo.TRef sig ⟨S50000x256, .f32⟩) main_call5.v4 main_call5.v5 subf,
    StableHlo.TRef.binary main_call5.v5 main_call5.v5 main_call5.v6 mulf,
    StableHlo.TRef.unary (TRef.of main_c_25 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v145 main_v147 (broadcastInDim S1x256 ![1] bcast_S256_S1x256_1 : (⟨S256, .f32⟩ : BufTy).Contents (Elt F) → (⟨S1x256, .f32⟩ : BufTy).Contents (Elt F)),
    StableHlo.unary main_v147 main_v148 (broadcastInDim S50000x256 ![0, 1] bcast_S1x256_S50000x256_0_1 : (⟨S1x256, .f32⟩ : BufTy).Contents (Elt F) → (⟨S50000x256, .f32⟩ : BufTy).Contents (Elt F)),
    StableHlo.binary main_v138 main_v148 main_v149 (subf : (⟨S50000x256, .f32⟩ : BufTy).Contents (Elt F) → (⟨S50000x256, .f32⟩ : BufTy).Contents (Elt F) → (⟨S50000x256, .f32⟩ : BufTy).Contents (Elt F)),
    StableHlo.unary main_v140 main_v150 (broadcastInDim S1x256 ![1] bcast_S256_S1x256_1 : (⟨S256, .f32⟩ : BufTy).Contents (Elt F) → (⟨S1x256, .f32⟩ : BufTy).Contents (Elt F)),
    StableHlo.unary main_v150 main_v151 (broadcastInDim S50000x256 ![0, 1] bcast_S1x256_S50000x256_0_1 : (⟨S1x256, .f32⟩ : BufTy).Contents (Elt F) → (⟨S50000x256, .f32⟩ : BufTy).Contents (Elt F)) ]

set_option maxRecDepth 8192 in
set_option maxHeartbeats 4000000 in
/-- The window is that straight line: the called functions unfolded at their calls, sequencing reassociated. -/
theorem main_part2_eq (c : Dev nD) : main_part2 (F := F) c = seq ops2 := by
  simp only [main_part2, fn_relu.body, fn_var.body, fn_where_0.body, seq, bind_assoc, pure_bind] <;> rfl

set_option maxRecDepth 8192 in
theorem ops2_sub : (ops2 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_writes : (ops2 : List (HloOp τ sig (Elt F))).Forall (WritesIn 165 269) :=
  ⟨writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (reshape_writes ..) (by decide), writesIn_of (binary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide)⟩

end Cert.ReferenceIdeal.RefRun

end
-- ==== Proof.Ref.W3.lean ====
/- The reference's statements 181 … 240 as the list of the 85 host operations they run, each call's body
   written out over that call's own buffers; the window's program is that list run in order; each operation
   touches TensorCore buffers only, determines what it writes, and writes the one buffer whose index is its
   place in the running order (indices 269 … 353). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 181 … 240 of @main: 85 operations, in order. -/
abbrev ops3 : List (HloOp τ sig (Elt F)) :=
  [ StableHlo.binary main_v151 main_v149 main_v152 (mulf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x3727C5AC#32),
    StableHlo.unary main_cst_26 main_v153 (broadcastInDim S256 ![] bcast_S_S256 : (⟨S_, .f32⟩ : BufTy).Contents (Elt F) → (⟨S256, .f32⟩ : BufTy).Contents (Elt F)),
    StableHlo.binary main_v146 main_v153 main_v154 (addf : (⟨S256, .f32⟩ : BufTy).Contents (Elt F) → (⟨S256, .f32⟩ : BufTy).Contents (Elt F) → (⟨S256, .f32⟩ : BufTy).Contents (Elt F)),
    StableHlo.unary main_v154 main_v155 (Host.rsqrt : (⟨S256, .f32⟩ : BufTy).Contents (Elt F) → (⟨S256, .f32⟩ : BufTy).Contents (Elt F)),
    StableHlo.unary main_v155 main_v156 (broadcastInDim S1x256 ![1] bcast_S256_S1x256_1 : (⟨S256, .f32⟩ : BufTy).Contents (Elt F) → (⟨S1x256, .f32⟩ : BufTy).Contents (Elt F)),
    StableHlo.unary main_v156 main_v157 (broadcastInDim S50000x256 ![0, 1] bcast_S1x256_S50000x256_0_1 : (⟨S1x256, .f32⟩ : BufTy).Contents (Elt F) → (⟨S50000x256, .f32⟩ : BufTy).Contents (Elt F)),
    StableHlo.binary main_v152 main_v157 main_v158 (mulf : (⟨S50000x256, .f32⟩ : BufTy).Contents (Elt F) → (⟨S50000x256, .f32⟩ : BufTy).Contents (Elt F) → (⟨S50000x256, .f32⟩ : BufTy).Contents (Elt F)),
    StableHlo.unary main_v142 main_v159 (broadcastInDim S1x256 ![1] bcast_S256_S1x256_1 : (⟨S256, .f32⟩ : BufTy).Contents (Elt F) → (⟨S1x256, .f32⟩ : BufTy).Contents (Elt F)),
    StableHlo.unary main_v159 main_v160 (broadcastInDim S50000x256 ![0, 1] bcast_S1x256_S50000x256_0_1 : (⟨S1x256, .f32⟩ : BufTy).Contents (Elt F) → (⟨S50000x256, .f32⟩ : BufTy).Contents (Elt F)),
    StableHlo.binary main_v158 main_v160 main_v161 (addf : (⟨S50000x256, .f32⟩ : BufTy).Contents (Elt F) → (⟨S50000x256, .f32⟩ : BufTy).Contents (Elt F) → (⟨S50000x256, .f32⟩ : BufTy).Contents (Elt F)),
    StableHlo.TRef.nullary main_call6.cst (constant S_ .f32 0x00000000#32),
    StableHlo.TRef.unary main_call6.cst main_call6.v0 (broadcastInDim S50000x256 ![] bcast_S_S50000x256),
    StableHlo.TRef.binary (TRef.of main_v161 : StableHlo.TRef sig ⟨S50000x256, .f32⟩) main_call6.v0 main_call6.v1 maximumf,
    StableHlo.binary main_v162 main_arg7 main_v163 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg9 main_v164 ((extractStridedSlice S1x256 ![0, 0] · slices_S3x256_S1x256_0_0) : (⟨S3x256, .f32⟩ : BufTy).Contents (Elt F) → (⟨S1x256, .f32⟩ : BufTy).Contents (Elt F)),
    StableHlo.reshape main_v164 main_v165 rfl shapeCasts_S1x256_S256,
    StableHlo.unary main_v165 main_v166 (broadcastInDim S1x256 ![1] bcast_S256_S1x256_1 : (⟨S256, .f32⟩ : BufTy).Contents (Elt F) → (⟨S1x256, .f32⟩ : BufTy).Contents (Elt F)),
    StableHlo.unary main_v166 main_v167 (broadcastInDim S50000x256 ![0, 1] bcast_S1x256_S50000x256_0_1 : (⟨S1x256, .f32⟩ : BufTy).Contents (Elt F) → (⟨S50000x256, .f32⟩ : BufTy).Contents (Elt F)),
    StableHlo.binary main_v163 main_v167 main_v168 (addf : (⟨S50000x256, .f32⟩ : BufTy).Contents (Elt F) → (⟨S50000x256, .f32⟩ : BufTy).Contents (Elt F) → (⟨S50000x256, .f32⟩ : BufTy).Contents (Elt F)),
    StableHlo.unary main_arg10 main_v169 ((extractStridedSlice S1x256 ![0, 0] · slices_S3x256_S1x256_0_0) : (⟨S3x256, .f32⟩ : BufTy).Contents (Elt F) → (⟨S1x256, .f32⟩ : BufTy).Contents (Elt F)),
    StableHlo.reshape main_v169 main_v170 rfl shapeCasts_S1x256_S256,
    StableHlo.unary main_arg11 main_v171 ((extractStridedSlice S1x256 ![0, 0] · slices_S3x256_S1x256_0_0) : (⟨S3x256, .f32⟩ : BufTy).Contents (Elt F) → (⟨S1x256, .f32⟩ : BufTy).Contents (Elt F)),
    StableHlo.reshape main_v171 main_v172 rfl shapeCasts_S1x256_S256,
    StableHlo.nullary main_cst_27 (constant S_ .f32 0x00000000#32),
    StableHlo.binary main_v168 main_cst_27 main_v173 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_28 (constant S_ .f32 0x47435000#32),
    StableHlo.unary main_cst_28 main_v174 (broadcastInDim S256 ![] bcast_S_S256 : (⟨S_, .f32⟩ : BufTy).Contents (Elt F) → (⟨S256, .f32⟩ : BufTy).Contents (Elt F)),
    StableHlo.binary main_v173 main_v174 main_v175 (Host.divf : (⟨S256, .f32⟩ : BufTy).Contents (Elt F) → (⟨S256, .f32⟩ : BufTy).Contents (Elt F) → (⟨S256, .f32⟩ : BufTy).Contents (Elt F)),
    StableHlo.nullary main_c_29 (constantI S_ 32 0#32),
    StableHlo.TRef.nullary main_call7.cst (constant S_ .f32 0x00000000#32),
    StableHlo.TRef.binary (TRef.of main_v168 : StableHlo.TRef sig ⟨S50000x256, .f32⟩) main_call7.cst main_call7.v0 (fun x v => Host.reduceAdd x v reducesTo_S50000x256_S256_d0 h_S_),
    StableHlo.TRef.unary main_call7.v0 main_call7.v1 (broadcastInDim S1x256 ![1] bcast_S256_S1x256_1),
    StableHlo.TRef.nullary main_call7.cst_0 (constant S_ .f32 0x47435000#32),
    StableHlo.TRef.unary main_call7.cst_0 main_call7.v2 (broadcastInDim S1x256 ![] bcast_S_S1x256),
    StableHlo.TRef.binary main_call7.v1 main_call7.v2 main_call7.v3 Host.divf,
    StableHlo.TRef.unary main_call7.v3 main_call7.v4 (broadcastInDim S50000x256 ![0, 1] bcast_S1x256_S50000x256_0_1),
    StableHlo.TRef.binary (TRef.of main_v168 : StableHlo.TRef sig ⟨S50000x256, .f32⟩) main_call7.v4 main_call7.v5 subf,
    StableHlo.TRef.binary main_call7.v5 main_call7.v5 main_call7.v6 mulf,
    StableHlo.TRef.unary (TRef.of main_c_29 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x256_S256_d0 h_S_),
    StableHlo.TRef.unary main_call7.v8 main_call7.v10 (broadcastInDim S256 ![] bcast_S_S256),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S256 ![] bcast_S_S256),
    StableHlo.TRef.ternary main_call7.v12 main_call7.v11 main_call7.call0.v1 main_call7.call0.v2 (fun p a b => select (broadcastInDim S256 ![] bcast_S_S256 p) a b),
    StableHlo.unary main_v175 main_v177 (broadcastInDim S1x256 ![1] bcast_S256_S1x256_1 : (⟨S256, .f32⟩ : BufTy).Contents (Elt F) → (⟨S1x256, .f32⟩ : BufTy).Contents (Elt F)),
    StableHlo.unary main_v177 main_v178 (broadcastInDim S50000x256 ![0, 1] bcast_S1x256_S50000x256_0_1 : (⟨S1x256, .f32⟩ : BufTy).Contents (Elt F) → (⟨S50000x256, .f32⟩ : BufTy).Contents (Elt F)),
    StableHlo.binary main_v168 main_v178 main_v179 (subf : (⟨S50000x256, .f32⟩ : BufTy).Contents (Elt F) → (⟨S50000x256, .f32⟩ : BufTy).Contents (Elt F) → (⟨S50000x256, .f32⟩ : BufTy).Contents (Elt F)),
    StableHlo.unary main_v170 main_v180 (broadcastInDim S1x256 ![1] bcast_S256_S1x256_1 : (⟨S256, .f32⟩ : BufTy).Contents (Elt F) → (⟨S1x256, .f32⟩ : BufTy).Contents (Elt F)),
    StableHlo.unary main_v180 main_v181 (broadcastInDim S50000x256 ![0, 1] bcast_S1x256_S50000x256_0_1 : (⟨S1x256, .f32⟩ : BufTy).Contents (Elt F) → (⟨S50000x256, .f32⟩ : BufTy).Contents (Elt F)),
    StableHlo.binary main_v181 main_v179 main_v182 (mulf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x3727C5AC#32),
    StableHlo.unary main_cst_30 main_v183 (broadcastInDim S256 ![] bcast_S_S256 : (⟨S_, .f32⟩ : BufTy).Contents (Elt F) → (⟨S256, .f32⟩ : BufTy).Contents (Elt F)),
    StableHlo.binary main_v176 main_v183 main_v184 (addf : (⟨S256, .f32⟩ : BufTy).Contents (Elt F) → (⟨S256, .f32⟩ : BufTy).Contents (Elt F) → (⟨S256, .f32⟩ : BufTy).Contents (Elt F)),
    StableHlo.unary main_v184 main_v185 (Host.rsqrt : (⟨S256, .f32⟩ : BufTy).Contents (Elt F) → (⟨S256, .f32⟩ : BufTy).Contents (Elt F)),
    StableHlo.unary main_v185 main_v186 (broadcastInDim S1x256 ![1] bcast_S256_S1x256_1 : (⟨S256, .f32⟩ : BufTy).Contents (Elt F) → (⟨S1x256, .f32⟩ : BufTy).Contents (Elt F)),
    StableHlo.unary main_v186 main_v187 (broadcastInDim S50000x256 ![0, 1] bcast_S1x256_S50000x256_0_1 : (⟨S1x256, .f32⟩ : BufTy).Contents (Elt F) → (⟨S50000x256, .f32⟩ : BufTy).Contents (Elt F)),
    StableHlo.binary main_v182 main_v187 main_v188 (mulf : (⟨S50000x256, .f32⟩ : BufTy).Contents (Elt F) → (⟨S50000x256, .f32⟩ : BufTy).Contents (Elt F) → (⟨S50000x256, .f32⟩ : BufTy).Contents (Elt F)),
    StableHlo.unary main_v172 main_v189 (broadcastInDim S1x256 ![1] bcast_S256_S1x256_1 : (⟨S256, .f32⟩ : BufTy).Contents (Elt F) → (⟨S1x256, .f32⟩ : BufTy).Contents (Elt F)),
    StableHlo.unary main_v189 main_v190 (broadcastInDim S50000x256 ![0, 1] bcast_S1x256_S50000x256_0_1 : (⟨S1x256, .f32⟩ : BufTy).Contents (Elt F) → (⟨S50000x256, .f32⟩ : BufTy).Contents (Elt F)),
    StableHlo.binary main_v188 main_v190 main_v191 (addf : (⟨S50000x256, .f32⟩ : BufTy).Contents (Elt F) → (⟨S50000x256, .f32⟩ : BufTy).Contents (Elt F) → (⟨S50000x256, .f32⟩ : BufTy).Contents (Elt F)),
    StableHlo.TRef.nullary main_call8.cst (constant S_ .f32 0x00000000#32),
    StableHlo.TRef.unary main_call8.cst main_call8.v0 (broadcastInDim S50000x256 ![] bcast_S_S50000x256),
    StableHlo.TRef.binary (TRef.of main_v191 : StableHlo.TRef sig ⟨S50000x256, .f32⟩) main_call8.v0 main_call8.v1 maximumf,
    StableHlo.binary main_v192 main_v162 main_v193 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg8 main_v194 ((extractStridedSlice S1x512x256 ![0, 0, 0] · slices_S2x512x256_S1x512x256_0_0_0) : (⟨S2x512x256, .f32⟩ : BufTy).Contents (Elt F) → (⟨S1x512x256, .f32⟩ : BufTy).Contents (Elt F)),
    StableHlo.reshape main_v194 main_v195 rfl shapeCasts_S1x512x256_S512x256,
    StableHlo.binary main_v193 main_v195 main_v196 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg9 main_v197 ((extractStridedSlice S1x256 ![1, 0] · slices_S3x256_S1x256_1_0) : (⟨S3x256, .f32⟩ : BufTy).Contents (Elt F) → (⟨S1x256, .f32⟩ : BufTy).Contents (Elt F)),
    StableHlo.reshape main_v197 main_v198 rfl shapeCasts_S1x256_S256,
    StableHlo.unary main_v198 main_v199 (broadcastInDim S1x256 ![1] bcast_S256_S1x256_1 : (⟨S256, .f32⟩ : BufTy).Contents (Elt F) → (⟨S1x256, .f32⟩ : BufTy).Contents (Elt F)),
    StableHlo.unary main_v199 main_v200 (broadcastInDim S50000x256 ![0, 1] bcast_S1x256_S50000x256_0_1 : (⟨S1x256, .f32⟩ : BufTy).Contents (Elt F) → (⟨S50000x256, .f32⟩ : BufTy).Contents (Elt F)),
    StableHlo.binary main_v196 main_v200 main_v201 (addf : (⟨S50000x256, .f32⟩ : BufTy).Contents (Elt F) → (⟨S50000x256, .f32⟩ : BufTy).Contents (Elt F) → (⟨S50000x256, .f32⟩ : BufTy).Contents (Elt F)),
    StableHlo.unary main_arg10 main_v202 ((extractStridedSlice S1x256 ![1, 0] · slices_S3x256_S1x256_1_0) : (⟨S3x256, .f32⟩ : BufTy).Contents (Elt F) → (⟨S1x256, .f32⟩ : BufTy).Contents (Elt F)),
    StableHlo.reshape main_v202 main_v203 rfl shapeCasts_S1x256_S256,
    StableHlo.unary main_arg11 main_v204 ((extractStridedSlice S1x256 ![1, 0] · slices_S3x256_S1x256_1_0) : (⟨S3x256, .f32⟩ : BufTy).Contents (Elt F) → (⟨S1x256, .f32⟩ : BufTy).Contents (Elt F)),
    StableHlo.reshape main_v204 main_v205 rfl shapeCasts_S1x256_S256,
    StableHlo.nullary main_cst_31 (constant S_ .f32 0x00000000#32) ]

set_option maxRecDepth 8192 in
set_option maxHeartbeats 4000000 in
/-- The window is that straight line: the called functions unfolded at their calls, sequencing reassociated. -/
theorem main_part3_eq (c : Dev nD) : main_part3 (F := F) c = seq ops3 := by
  simp only [main_part3, fn_relu.body, fn_var.body, fn_where_0.body, seq, bind_assoc, pure_bind] <;> rfl

set_option maxRecDepth 8192 in
theorem ops3_sub : (ops3 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_writes : (ops3 : List (HloOp τ sig (Elt F))).Forall (WritesIn 269 354) :=
  ⟨writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide)⟩

end Cert.ReferenceIdeal.RefRun

end
-- ==== Proof.Ref.W4.lean ====
/- The reference's statements 241 … 300 as the list of the 106 host operations they run, each call's body
   written out over that call's own buffers; the window's program is that list run in order; each operation
   touches TensorCore buffers only, determines what it writes, and writes the one buffer whose index is its
   place in the running order (indices 354 … 459). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 241 … 300 of @main: 106 operations, in order. -/
abbrev ops4 : List (HloOp τ sig (Elt F)) :=
  [ StableHlo.binary main_v201 main_cst_31 main_v206 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_32 (constant S_ .f32 0x47435000#32),
    StableHlo.unary main_cst_32 main_v207 (broadcastInDim S256 ![] bcast_S_S256 : (⟨S_, .f32⟩ : BufTy).Contents (Elt F) → (⟨S256, .f32⟩ : BufTy).Contents (Elt F)),
    StableHlo.binary main_v206 main_v207 main_v208 (Host.divf : (⟨S256, .f32⟩ : BufTy).Contents (Elt F) → (⟨S256, .f32⟩ : BufTy).Contents (Elt F) → (⟨S256, .f32⟩ : BufTy).Contents (Elt F)),
    StableHlo.nullary main_c_33 (constantI S_ 32 0#32),
    StableHlo.TRef.nullary main_call9.cst (constant S_ .f32 0x00000000#32),
    StableHlo.TRef.binary (TRef.of main_v201 : StableHlo.TRef sig ⟨S50000x256, .f32⟩) main_call9.cst main_call9.v0 (fun x v => Host.reduceAdd x v reducesTo_S50000x256_S256_d0 h_S_),
    StableHlo.TRef.unary main_call9.v0 main_call9.v1 (broadcastInDim S1x256 ![1] bcast_S256_S1x256_1),
    StableHlo.TRef.nullary main_call9.cst_0 (constant S_ .f32 0x47435000#32),
    StableHlo.TRef.unary main_call9.cst_0 main_call9.v2 (broadcastInDim S1x256 ![] bcast_S_S1x256),
    StableHlo.TRef.binary main_call9.v1 main_call9.v2 main_call9.v3 Host.divf,
    StableHlo.TRef.unary main_call9.v3 main_call9.v4 (broadcastInDim S50000x256 ![0, 1] bcast_S1x256_S50000x256_0_1),
    StableHlo.TRef.binary (TRef.of main_v201 : StableHlo.TRef sig ⟨S50000x256, .f32⟩) main_call9.v4 main_call9.v5 subf,
    StableHlo.TRef.binary main_call9.v5 main_call9.v5 main_call9.v6 mulf,
    StableHlo.TRef.unary (TRef.of main_c_33 : StableHlo.TRef sig ⟨S_, .i32⟩) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x256_S256_d0 h_S_),
    StableHlo.TRef.unary main_call9.v8 main_call9.v10 (broadcastInDim S256 ![] bcast_S_S256),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S256 ![] bcast_S_S256),
    StableHlo.TRef.ternary main_call9.v12 main_call9.v11 main_call9.call0.v1 main_call9.call0.v2 (fun p a b => select (broadcastInDim S256 ![] bcast_S_S256 p) a b),
    StableHlo.unary main_v208 main_v210 (broadcastInDim S1x256 ![1] bcast_S256_S1x256_1 : (⟨S256, .f32⟩ : BufTy).Contents (Elt F) → (⟨S1x256, .f32⟩ : BufTy).Contents (Elt F)),
    StableHlo.unary main_v210 main_v211 (broadcastInDim S50000x256 ![0, 1] bcast_S1x256_S50000x256_0_1 : (⟨S1x256, .f32⟩ : BufTy).Contents (Elt F) → (⟨S50000x256, .f32⟩ : BufTy).Contents (Elt F)),
    StableHlo.binary main_v201 main_v211 main_v212 (subf : (⟨S50000x256, .f32⟩ : BufTy).Contents (Elt F) → (⟨S50000x256, .f32⟩ : BufTy).Contents (Elt F) → (⟨S50000x256, .f32⟩ : BufTy).Contents (Elt F)),
    StableHlo.unary main_v203 main_v213 (broadcastInDim S1x256 ![1] bcast_S256_S1x256_1 : (⟨S256, .f32⟩ : BufTy).Contents (Elt F) → (⟨S1x256, .f32⟩ : BufTy).Contents (Elt F)),
    StableHlo.unary main_v213 main_v214 (broadcastInDim S50000x256 ![0, 1] bcast_S1x256_S50000x256_0_1 : (⟨S1x256, .f32⟩ : BufTy).Contents (Elt F) → (⟨S50000x256, .f32⟩ : BufTy).Contents (Elt F)),
    StableHlo.binary main_v214 main_v212 main_v215 (mulf : (⟨S50000x256, .f32⟩ : BufTy).Contents (Elt F) → (⟨S50000x256, .f32⟩ : BufTy).Contents (Elt F) → (⟨S50000x256, .f32⟩ : BufTy).Contents (Elt F)),
    StableHlo.nullary main_cst_34 (constant S_ .f32 0x3727C5AC#32),
    StableHlo.unary main_cst_34 main_v216 (broadcastInDim S256 ![] bcast_S_S256 : (⟨S_, .f32⟩ : BufTy).Contents (Elt F) → (⟨S256, .f32⟩ : BufTy).Contents (Elt F)),
    StableHlo.binary main_v209 main_v216 main_v217 (addf : (⟨S256, .f32⟩ : BufTy).Contents (Elt F) → (⟨S256, .f32⟩ : BufTy).Contents (Elt F) → (⟨S256, .f32⟩ : BufTy).Contents (Elt F)),
    StableHlo.unary main_v217 main_v218 (Host.rsqrt : (⟨S256, .f32⟩ : BufTy).Contents (Elt F) → (⟨S256, .f32⟩ : BufTy).Contents (Elt F)),
    StableHlo.unary main_v218 main_v219 (broadcastInDim S1x256 ![1] bcast_S256_S1x256_1 : (⟨S256, .f32⟩ : BufTy).Contents (Elt F) → (⟨S1x256, .f32⟩ : BufTy).Contents (Elt F)),
    StableHlo.unary main_v219 main_v220 (broadcastInDim S50000x256 ![0, 1] bcast_S1x256_S50000x256_0_1 : (⟨S1x256, .f32⟩ : BufTy).Contents (Elt F) → (⟨S50000x256, .f32⟩ : BufTy).Contents (Elt F)),
    StableHlo.binary main_v215 main_v220 main_v221 (mulf : (⟨S50000x256, .f32⟩ : BufTy).Contents (Elt F) → (⟨S50000x256, .f32⟩ : BufTy).Contents (Elt F) → (⟨S50000x256, .f32⟩ : BufTy).Contents (Elt F)),
    StableHlo.unary main_v205 main_v222 (broadcastInDim S1x256 ![1] bcast_S256_S1x256_1 : (⟨S256, .f32⟩ : BufTy).Contents (Elt F) → (⟨S1x256, .f32⟩ : BufTy).Contents (Elt F)),
    StableHlo.unary main_v222 main_v223 (broadcastInDim S50000x256 ![0, 1] bcast_S1x256_S50000x256_0_1 : (⟨S1x256, .f32⟩ : BufTy).Contents (Elt F) → (⟨S50000x256, .f32⟩ : BufTy).Contents (Elt F)),
    StableHlo.binary main_v221 main_v223 main_v224 (addf : (⟨S50000x256, .f32⟩ : BufTy).Contents (Elt F) → (⟨S50000x256, .f32⟩ : BufTy).Contents (Elt F) → (⟨S50000x256, .f32⟩ : BufTy).Contents (Elt F)),
    StableHlo.TRef.nullary main_call10.cst (constant S_ .f32 0x00000000#32),
    StableHlo.TRef.unary main_call10.cst main_call10.v0 (broadcastInDim S50000x256 ![] bcast_S_S50000x256),
    StableHlo.TRef.binary (TRef.of main_v224 : StableHlo.TRef sig ⟨S50000x256, .f32⟩) main_call10.v0 main_call10.v1 maximumf,
    StableHlo.binary main_v225 main_v162 main_v226 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg8 main_v227 ((extractStridedSlice S1x512x256 ![1, 0, 0] · slices_S2x512x256_S1x512x256_1_0_0) : (⟨S2x512x256, .f32⟩ : BufTy).Contents (Elt F) → (⟨S1x512x256, .f32⟩ : BufTy).Contents (Elt F)),
    StableHlo.reshape main_v227 main_v228 rfl shapeCasts_S1x512x256_S512x256,
    StableHlo.binary main_v226 main_v228 main_v229 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg9 main_v230 ((extractStridedSlice S1x256 ![2, 0] · slices_S3x256_S1x256_2_0) : (⟨S3x256, .f32⟩ : BufTy).Contents (Elt F) → (⟨S1x256, .f32⟩ : BufTy).Contents (Elt F)),
    StableHlo.reshape main_v230 main_v231 rfl shapeCasts_S1x256_S256,
    StableHlo.unary main_v231 main_v232 (broadcastInDim S1x256 ![1] bcast_S256_S1x256_1 : (⟨S256, .f32⟩ : BufTy).Contents (Elt F) → (⟨S1x256, .f32⟩ : BufTy).Contents (Elt F)),
    StableHlo.unary main_v232 main_v233 (broadcastInDim S50000x256 ![0, 1] bcast_S1x256_S50000x256_0_1 : (⟨S1x256, .f32⟩ : BufTy).Contents (Elt F) → (⟨S50000x256, .f32⟩ : BufTy).Contents (Elt F)),
    StableHlo.binary main_v229 main_v233 main_v234 (addf : (⟨S50000x256, .f32⟩ : BufTy).Contents (Elt F) → (⟨S50000x256, .f32⟩ : BufTy).Contents (Elt F) → (⟨S50000x256, .f32⟩ : BufTy).Contents (Elt F)),
    StableHlo.unary main_arg10 main_v235 ((extractStridedSlice S1x256 ![2, 0] · slices_S3x256_S1x256_2_0) : (⟨S3x256, .f32⟩ : BufTy).Contents (Elt F) → (⟨S1x256, .f32⟩ : BufTy).Contents (Elt F)),
    StableHlo.reshape main_v235 main_v236 rfl shapeCasts_S1x256_S256,
    StableHlo.unary main_arg11 main_v237 ((extractStridedSlice S1x256 ![2, 0] · slices_S3x256_S1x256_2_0) : (⟨S3x256, .f32⟩ : BufTy).Contents (Elt F) → (⟨S1x256, .f32⟩ : BufTy).Contents (Elt F)),
    StableHlo.reshape main_v237 main_v238 rfl shapeCasts_S1x256_S256,
    StableHlo.nullary main_cst_35 (constant S_ .f32 0x00000000#32),
    StableHlo.binary main_v234 main_cst_35 main_v239 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_36 (constant S_ .f32 0x47435000#32),
    StableHlo.unary main_cst_36 main_v240 (broadcastInDim S256 ![] bcast_S_S256 : (⟨S_, .f32⟩ : BufTy).Contents (Elt F) → (⟨S256, .f32⟩ : BufTy).Contents (Elt F)),
    StableHlo.binary main_v239 main_v240 main_v241 (Host.divf : (⟨S256, .f32⟩ : BufTy).Contents (Elt F) → (⟨S256, .f32⟩ : BufTy).Contents (Elt F) → (⟨S256, .f32⟩ : BufTy).Contents (Elt F)),
    StableHlo.nullary main_c_37 (constantI S_ 32 0#32),
    StableHlo.TRef.nullary main_call11.cst (constant S_ .f32 0x00000000#32),
    StableHlo.TRef.binary (TRef.of main_v234 : StableHlo.TRef sig ⟨S50000x256, .f32⟩) main_call11.cst main_call11.v0 (fun x v => Host.reduceAdd x v reducesTo_S50000x256_S256_d0 h_S_),
    StableHlo.TRef.unary main_call11.v0 main_call11.v1 (broadcastInDim S1x256 ![1] bcast_S256_S1x256_1),
    StableHlo.TRef.nullary main_call11.cst_0 (constant S_ .f32 0x47435000#32),
    StableHlo.TRef.unary main_call11.cst_0 main_call11.v2 (broadcastInDim S1x256 ![] bcast_S_S1x256),
    StableHlo.TRef.binary main_call11.v1 main_call11.v2 main_call11.v3 Host.divf,
    StableHlo.TRef.unary main_call11.v3 main_call11.v4 (broadcastInDim S50000x256 ![0, 1] bcast_S1x256_S50000x256_0_1),
    StableHlo.TRef.binary (TRef.of main_v234 : StableHlo.TRef sig ⟨S50000x256, .f32⟩) main_call11.v4 main_call11.v5 subf,
    StableHlo.TRef.binary main_call11.v5 main_call11.v5 main_call11.v6 mulf,
    StableHlo.TRef.unary (TRef.of main_c_37 : StableHlo.TRef sig ⟨S_, .i32⟩) main_call11.v7 (sitofp .f32),
    StableHlo.TRef.nullary main_call11.cst_1 (constant S_ .f32 0x47435000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S50000x256_S256_d0 h_S_),
    StableHlo.TRef.unary main_call11.v8 main_call11.v10 (broadcastInDim S256 ![] bcast_S_S256),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S256 ![] bcast_S_S256),
    StableHlo.TRef.ternary main_call11.v12 main_call11.v11 main_call11.call0.v1 main_call11.call0.v2 (fun p a b => select (broadcastInDim S256 ![] bcast_S_S256 p) a b),
    StableHlo.unary main_v241 main_v243 (broadcastInDim S1x256 ![1] bcast_S256_S1x256_1 : (⟨S256, .f32⟩ : BufTy).Contents (Elt F) → (⟨S1x256, .f32⟩ : BufTy).Contents (Elt F)),
    StableHlo.unary main_v243 main_v244 (broadcastInDim S50000x256 ![0, 1] bcast_S1x256_S50000x256_0_1 : (⟨S1x256, .f32⟩ : BufTy).Contents (Elt F) → (⟨S50000x256, .f32⟩ : BufTy).Contents (Elt F)),
    StableHlo.binary main_v234 main_v244 main_v245 (subf : (⟨S50000x256, .f32⟩ : BufTy).Contents (Elt F) → (⟨S50000x256, .f32⟩ : BufTy).Contents (Elt F) → (⟨S50000x256, .f32⟩ : BufTy).Contents (Elt F)),
    StableHlo.unary main_v236 main_v246 (broadcastInDim S1x256 ![1] bcast_S256_S1x256_1 : (⟨S256, .f32⟩ : BufTy).Contents (Elt F) → (⟨S1x256, .f32⟩ : BufTy).Contents (Elt F)),
    StableHlo.unary main_v246 main_v247 (broadcastInDim S50000x256 ![0, 1] bcast_S1x256_S50000x256_0_1 : (⟨S1x256, .f32⟩ : BufTy).Contents (Elt F) → (⟨S50000x256, .f32⟩ : BufTy).Contents (Elt F)),
    StableHlo.binary main_v247 main_v245 main_v248 (mulf : (⟨S50000x256, .f32⟩ : BufTy).Contents (Elt F) → (⟨S50000x256, .f32⟩ : BufTy).Contents (Elt F) → (⟨S50000x256, .f32⟩ : BufTy).Contents (Elt F)),
    StableHlo.nullary main_cst_38 (constant S_ .f32 0x3727C5AC#32),
    StableHlo.unary main_cst_38 main_v249 (broadcastInDim S256 ![] bcast_S_S256 : (⟨S_, .f32⟩ : BufTy).Contents (Elt F) → (⟨S256, .f32⟩ : BufTy).Contents (Elt F)),
    StableHlo.binary main_v242 main_v249 main_v250 (addf : (⟨S256, .f32⟩ : BufTy).Contents (Elt F) → (⟨S256, .f32⟩ : BufTy).Contents (Elt F) → (⟨S256, .f32⟩ : BufTy).Contents (Elt F)),
    StableHlo.unary main_v250 main_v251 (Host.rsqrt : (⟨S256, .f32⟩ : BufTy).Contents (Elt F) → (⟨S256, .f32⟩ : BufTy).Contents (Elt F)),
    StableHlo.unary main_v251 main_v252 (broadcastInDim S1x256 ![1] bcast_S256_S1x256_1 : (⟨S256, .f32⟩ : BufTy).Contents (Elt F) → (⟨S1x256, .f32⟩ : BufTy).Contents (Elt F)),
    StableHlo.unary main_v252 main_v253 (broadcastInDim S50000x256 ![0, 1] bcast_S1x256_S50000x256_0_1 : (⟨S1x256, .f32⟩ : BufTy).Contents (Elt F) → (⟨S50000x256, .f32⟩ : BufTy).Contents (Elt F)),
    StableHlo.binary main_v248 main_v253 main_v254 (mulf : (⟨S50000x256, .f32⟩ : BufTy).Contents (Elt F) → (⟨S50000x256, .f32⟩ : BufTy).Contents (Elt F) → (⟨S50000x256, .f32⟩ : BufTy).Contents (Elt F)),
    StableHlo.unary main_v238 main_v255 (broadcastInDim S1x256 ![1] bcast_S256_S1x256_1 : (⟨S256, .f32⟩ : BufTy).Contents (Elt F) → (⟨S1x256, .f32⟩ : BufTy).Contents (Elt F)),
    StableHlo.unary main_v255 main_v256 (broadcastInDim S50000x256 ![0, 1] bcast_S1x256_S50000x256_0_1 : (⟨S1x256, .f32⟩ : BufTy).Contents (Elt F) → (⟨S50000x256, .f32⟩ : BufTy).Contents (Elt F)),
    StableHlo.binary main_v254 main_v256 main_v257 (addf : (⟨S50000x256, .f32⟩ : BufTy).Contents (Elt F) → (⟨S50000x256, .f32⟩ : BufTy).Contents (Elt F) → (⟨S50000x256, .f32⟩ : BufTy).Contents (Elt F)),
    StableHlo.TRef.nullary main_call12.cst (constant S_ .f32 0x00000000#32),
    StableHlo.TRef.unary main_call12.cst main_call12.v0 (broadcastInDim S50000x256 ![] bcast_S_S50000x256),
    StableHlo.TRef.binary (TRef.of main_v257 : StableHlo.TRef sig ⟨S50000x256, .f32⟩) main_call12.v0 main_call12.v1 maximumf ]

set_option maxRecDepth 8192 in
set_option maxHeartbeats 4000000 in
/-- The window is that straight line: the called functions unfolded at their calls, sequencing reassociated. -/
theorem main_part4_eq (c : Dev nD) : main_part4 (F := F) c = seq ops4 := by
  simp only [main_part4, fn_relu.body, fn_var.body, fn_where_0.body, seq, bind_assoc, pure_bind] <;> rfl

set_option maxRecDepth 8192 in
theorem ops4_sub : (ops4 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_writes : (ops4 : List (HloOp τ sig (Elt F))).Forall (WritesIn 354 460) :=
  ⟨writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide)⟩

end Cert.ReferenceIdeal.RefRun

end
-- ==== Proof.Ref.W5.lean ====
/- The reference's statements 301 … 360 as the list of the 111 host operations they run, each call's body
   written out over that call's own buffers; the window's program is that list run in order; each operation
   touches TensorCore buffers only, determines what it writes, and writes the one buffer whose index is its
   place in the running order (indices 460 … 570). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 301 … 360 of @main: 111 operations, in order. -/
abbrev ops5 : List (HloOp τ sig (Elt F)) :=
  [ StableHlo.binary main_v258 main_arg16 main_v259 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg17 main_v260 (broadcastInDim S1x2 ![1] bcast_S2_S1x2_1 : (⟨S2, .f32⟩ : BufTy).Contents (Elt F) → (⟨S1x2, .f32⟩ : BufTy).Contents (Elt F)),
    StableHlo.unary main_v260 main_v261 (broadcastInDim S50000x2 ![0, 1] bcast_S1x2_S50000x2_0_1 : (⟨S1x2, .f32⟩ : BufTy).Contents (Elt F) → (⟨S50000x2, .f32⟩ : BufTy).Contents (Elt F)),
    StableHlo.binary main_v259 main_v261 main_v262 (addf : (⟨S50000x2, .f32⟩ : BufTy).Contents (Elt F) → (⟨S50000x2, .f32⟩ : BufTy).Contents (Elt F) → (⟨S50000x2, .f32⟩ : BufTy).Contents (Elt F)),
    StableHlo.TRef.nullary main_call13.cst (constant S_ .f32 0xFF800000#32),
    StableHlo.TRef.binary (TRef.of main_v262 : StableHlo.TRef sig ⟨S50000x2, .f32⟩) main_call13.cst main_call13.v0 (fun x v => Host.reduce FloatOps.maximumf x v reducesTo_S50000x2_S50000_d1 h_S_),
    StableHlo.TRef.nullary main_call13.cst_0 (constant S_ .f32 0xFF800000#32),
    StableHlo.TRef.unary main_call13.cst_0 main_call13.v1 (broadcastInDim S50000 ![] bcast_S_S50000),
    StableHlo.TRef.binary main_call13.v1 main_call13.v0 main_call13.v2 maximumf,
    StableHlo.TRef.unary main_call13.v2 main_call13.v3 (broadcastInDim S50000x1 ![0] bcast_S50000_S50000x1_0),
    StableHlo.TRef.unary main_call13.v3 main_call13.v4 (broadcastInDim S50000x2 ![0, 1] bcast_S50000x1_S50000x2_0_1),
    StableHlo.TRef.binary (TRef.of main_v262 : StableHlo.TRef sig ⟨S50000x2, .f32⟩) main_call13.v4 main_call13.v5 subf,
    StableHlo.TRef.unary main_call13.v5 main_call13.v6 Host.exp,
    StableHlo.TRef.nullary main_call13.cst_1 (constant S_ .f32 0x00000000#32),
    StableHlo.TRef.binary main_call13.v6 main_call13.cst_1 main_call13.v7 (fun x v => Host.reduceAdd x v reducesTo_S50000x2_S50000_d1 h_S_),
    StableHlo.TRef.unary main_call13.v7 main_call13.v8 (broadcastInDim S50000x1 ![0] bcast_S50000_S50000x1_0),
    StableHlo.TRef.unary main_call13.v8 main_call13.v9 Host.log,
    StableHlo.TRef.unary main_call13.v9 main_call13.v10 (broadcastInDim S50000x2 ![0, 1] bcast_S50000x1_S50000x2_0_1),
    StableHlo.TRef.binary main_call13.v5 main_call13.v10 main_call13.v11 subf,
    StableHlo.unary main_arg12 main_v264 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v264 main_v265 rfl shapeCasts_S1x256x256_S256x256,
    StableHlo.binary main_v192 main_v265 main_v266 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v267 ((extractStridedSlice S1x256 ![0, 0] · slices_S3x256_S1x256_0_0) : (⟨S3x256, .f32⟩ : BufTy).Contents (Elt F) → (⟨S1x256, .f32⟩ : BufTy).Contents (Elt F)),
    StableHlo.reshape main_v267 main_v268 rfl shapeCasts_S1x256_S256,
    StableHlo.unary main_v268 main_v269 (broadcastInDim S1x256 ![1] bcast_S256_S1x256_1 : (⟨S256, .f32⟩ : BufTy).Contents (Elt F) → (⟨S1x256, .f32⟩ : BufTy).Contents (Elt F)),
    StableHlo.unary main_v269 main_v270 (broadcastInDim S50000x256 ![0, 1] bcast_S1x256_S50000x256_0_1 : (⟨S1x256, .f32⟩ : BufTy).Contents (Elt F) → (⟨S50000x256, .f32⟩ : BufTy).Contents (Elt F)),
    StableHlo.binary main_v266 main_v270 main_v271 (addf : (⟨S50000x256, .f32⟩ : BufTy).Contents (Elt F) → (⟨S50000x256, .f32⟩ : BufTy).Contents (Elt F) → (⟨S50000x256, .f32⟩ : BufTy).Contents (Elt F)),
    StableHlo.unary main_arg14 main_v272 ((extractStridedSlice S1x256 ![0, 0] · slices_S3x256_S1x256_0_0) : (⟨S3x256, .f32⟩ : BufTy).Contents (Elt F) → (⟨S1x256, .f32⟩ : BufTy).Contents (Elt F)),
    StableHlo.reshape main_v272 main_v273 rfl shapeCasts_S1x256_S256,
    StableHlo.unary main_arg15 main_v274 ((extractStridedSlice S1x256 ![0, 0] · slices_S3x256_S1x256_0_0) : (⟨S3x256, .f32⟩ : BufTy).Contents (Elt F) → (⟨S1x256, .f32⟩ : BufTy).Contents (Elt F)),
    StableHlo.reshape main_v274 main_v275 rfl shapeCasts_S1x256_S256,
    StableHlo.nullary main_cst_39 (constant S_ .f32 0x00000000#32),
    StableHlo.binary main_v271 main_cst_39 main_v276 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_40 (constant S_ .f32 0x47435000#32),
    StableHlo.unary main_cst_40 main_v277 (broadcastInDim S256 ![] bcast_S_S256 : (⟨S_, .f32⟩ : BufTy).Contents (Elt F) → (⟨S256, .f32⟩ : BufTy).Contents (Elt F)),
    StableHlo.binary main_v276 main_v277 main_v278 (Host.divf : (⟨S256, .f32⟩ : BufTy).Contents (Elt F) → (⟨S256, .f32⟩ : BufTy).Contents (Elt F) → (⟨S256, .f32⟩ : BufTy).Contents (Elt F)),
    StableHlo.nullary main_c_41 (constantI S_ 32 0#32),
    StableHlo.TRef.nullary main_call14.cst (constant S_ .f32 0x00000000#32),
    StableHlo.TRef.binary (TRef.of main_v271 : StableHlo.TRef sig ⟨S50000x256, .f32⟩) main_call14.cst main_call14.v0 (fun x v => Host.reduceAdd x v reducesTo_S50000x256_S256_d0 h_S_),
    StableHlo.TRef.unary main_call14.v0 main_call14.v1 (broadcastInDim S1x256 ![1] bcast_S256_S1x256_1),
    StableHlo.TRef.nullary main_call14.cst_0 (constant S_ .f32 0x47435000#32),
    StableHlo.TRef.unary main_call14.cst_0 main_call14.v2 (broadcastInDim S1x256 ![] bcast_S_S1x256),
    StableHlo.TRef.binary main_call14.v1 main_call14.v2 main_call14.v3 Host.divf,
    StableHlo.TRef.unary main_call14.v3 main_call14.v4 (broadcastInDim S50000x256 ![0, 1] bcast_S1x256_S50000x256_0_1),
    StableHlo.TRef.binary (TRef.of main_v271 : StableHlo.TRef sig ⟨S50000x256, .f32⟩) main_call14.v4 main_call14.v5 subf,
    StableHlo.TRef.binary main_call14.v5 main_call14.v5 main_call14.v6 mulf,
    StableHlo.TRef.unary (TRef.of main_c_41 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x256_S256_d0 h_S_),
    StableHlo.TRef.unary main_call14.v8 main_call14.v10 (broadcastInDim S256 ![] bcast_S_S256),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S256 ![] bcast_S_S256),
    StableHlo.TRef.ternary main_call14.v12 main_call14.v11 main_call14.call0.v1 main_call14.call0.v2 (fun p a b => select (broadcastInDim S256 ![] bcast_S_S256 p) a b),
    StableHlo.unary main_v278 main_v280 (broadcastInDim S1x256 ![1] bcast_S256_S1x256_1 : (⟨S256, .f32⟩ : BufTy).Contents (Elt F) → (⟨S1x256, .f32⟩ : BufTy).Contents (Elt F)),
    StableHlo.unary main_v280 main_v281 (broadcastInDim S50000x256 ![0, 1] bcast_S1x256_S50000x256_0_1 : (⟨S1x256, .f32⟩ : BufTy).Contents (Elt F) → (⟨S50000x256, .f32⟩ : BufTy).Contents (Elt F)),
    StableHlo.binary main_v271 main_v281 main_v282 (subf : (⟨S50000x256, .f32⟩ : BufTy).Contents (Elt F) → (⟨S50000x256, .f32⟩ : BufTy).Contents (Elt F) → (⟨S50000x256, .f32⟩ : BufTy).Contents (Elt F)),
    StableHlo.unary main_v273 main_v283 (broadcastInDim S1x256 ![1] bcast_S256_S1x256_1 : (⟨S256, .f32⟩ : BufTy).Contents (Elt F) → (⟨S1x256, .f32⟩ : BufTy).Contents (Elt F)),
    StableHlo.unary main_v283 main_v284 (broadcastInDim S50000x256 ![0, 1] bcast_S1x256_S50000x256_0_1 : (⟨S1x256, .f32⟩ : BufTy).Contents (Elt F) → (⟨S50000x256, .f32⟩ : BufTy).Contents (Elt F)),
    StableHlo.binary main_v284 main_v282 main_v285 (mulf : (⟨S50000x256, .f32⟩ : BufTy).Contents (Elt F) → (⟨S50000x256, .f32⟩ : BufTy).Contents (Elt F) → (⟨S50000x256, .f32⟩ : BufTy).Contents (Elt F)),
    StableHlo.nullary main_cst_42 (constant S_ .f32 0x3727C5AC#32),
    StableHlo.unary main_cst_42 main_v286 (broadcastInDim S256 ![] bcast_S_S256 : (⟨S_, .f32⟩ : BufTy).Contents (Elt F) → (⟨S256, .f32⟩ : BufTy).Contents (Elt F)),
    StableHlo.binary main_v279 main_v286 main_v287 (addf : (⟨S256, .f32⟩ : BufTy).Contents (Elt F) → (⟨S256, .f32⟩ : BufTy).Contents (Elt F) → (⟨S256, .f32⟩ : BufTy).Contents (Elt F)),
    StableHlo.unary main_v287 main_v288 (Host.rsqrt : (⟨S256, .f32⟩ : BufTy).Contents (Elt F) → (⟨S256, .f32⟩ : BufTy).Contents (Elt F)),
    StableHlo.unary main_v288 main_v289 (broadcastInDim S1x256 ![1] bcast_S256_S1x256_1 : (⟨S256, .f32⟩ : BufTy).Contents (Elt F) → (⟨S1x256, .f32⟩ : BufTy).Contents (Elt F)),
    StableHlo.unary main_v289 main_v290 (broadcastInDim S50000x256 ![0, 1] bcast_S1x256_S50000x256_0_1 : (⟨S1x256, .f32⟩ : BufTy).Contents (Elt F) → (⟨S50000x256, .f32⟩ : BufTy).Contents (Elt F)),
    StableHlo.binary main_v285 main_v290 main_v291 (mulf : (⟨S50000x256, .f32⟩ : BufTy).Contents (Elt F) → (⟨S50000x256, .f32⟩ : BufTy).Contents (Elt F) → (⟨S50000x256, .f32⟩ : BufTy).Contents (Elt F)),
    StableHlo.unary main_v275 main_v292 (broadcastInDim S1x256 ![1] bcast_S256_S1x256_1 : (⟨S256, .f32⟩ : BufTy).Contents (Elt F) → (⟨S1x256, .f32⟩ : BufTy).Contents (Elt F)),
    StableHlo.unary main_v292 main_v293 (broadcastInDim S50000x256 ![0, 1] bcast_S1x256_S50000x256_0_1 : (⟨S1x256, .f32⟩ : BufTy).Contents (Elt F) → (⟨S50000x256, .f32⟩ : BufTy).Contents (Elt F)),
    StableHlo.binary main_v291 main_v293 main_v294 (addf : (⟨S50000x256, .f32⟩ : BufTy).Contents (Elt F) → (⟨S50000x256, .f32⟩ : BufTy).Contents (Elt F) → (⟨S50000x256, .f32⟩ : BufTy).Contents (Elt F)),
    StableHlo.TRef.nullary main_call15.cst (constant S_ .f32 0x00000000#32),
    StableHlo.TRef.unary main_call15.cst main_call15.v0 (broadcastInDim S50000x256 ![] bcast_S_S50000x256),
    StableHlo.TRef.binary (TRef.of main_v294 : StableHlo.TRef sig ⟨S50000x256, .f32⟩) main_call15.v0 main_call15.v1 maximumf,
    StableHlo.unary main_arg18 main_v296 ((extractStridedSlice S1x256x2 ![0, 0, 0] · slices_S3x256x2_S1x256x2_0_0_0) : (⟨S3x256x2, .f32⟩ : BufTy).Contents (Elt F) → (⟨S1x256x2, .f32⟩ : BufTy).Contents (Elt F)),
    StableHlo.reshape main_v296 main_v297 rfl shapeCasts_S1x256x2_S256x2,
    StableHlo.binary main_v295 main_v297 main_v298 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg19 main_v299 ((extractStridedSlice S1x2 ![0, 0] · slices_S3x2_S1x2_0_0) : (⟨S3x2, .f32⟩ : BufTy).Contents (Elt F) → (⟨S1x2, .f32⟩ : BufTy).Contents (Elt F)),
    StableHlo.reshape main_v299 main_v300 rfl shapeCasts_S1x2_S2,
    StableHlo.unary main_v300 main_v301 (broadcastInDim S1x2 ![1] bcast_S2_S1x2_1 : (⟨S2, .f32⟩ : BufTy).Contents (Elt F) → (⟨S1x2, .f32⟩ : BufTy).Contents (Elt F)),
    StableHlo.unary main_v301 main_v302 (broadcastInDim S50000x2 ![0, 1] bcast_S1x2_S50000x2_0_1 : (⟨S1x2, .f32⟩ : BufTy).Contents (Elt F) → (⟨S50000x2, .f32⟩ : BufTy).Contents (Elt F)),
    StableHlo.binary main_v298 main_v302 main_v303 (addf : (⟨S50000x2, .f32⟩ : BufTy).Contents (Elt F) → (⟨S50000x2, .f32⟩ : BufTy).Contents (Elt F) → (⟨S50000x2, .f32⟩ : BufTy).Contents (Elt F)),
    StableHlo.TRef.nullary main_call16.cst (constant S_ .f32 0xFF800000#32),
    StableHlo.TRef.binary (TRef.of main_v303 : StableHlo.TRef sig ⟨S50000x2, .f32⟩) main_call16.cst main_call16.v0 (fun x v => Host.reduce FloatOps.maximumf x v reducesTo_S50000x2_S50000_d1 h_S_),
    StableHlo.TRef.nullary main_call16.cst_0 (constant S_ .f32 0xFF800000#32),
    StableHlo.TRef.unary main_call16.cst_0 main_call16.v1 (broadcastInDim S50000 ![] bcast_S_S50000),
    StableHlo.TRef.binary main_call16.v1 main_call16.v0 main_call16.v2 maximumf,
    StableHlo.TRef.unary main_call16.v2 main_call16.v3 (broadcastInDim S50000x1 ![0] bcast_S50000_S50000x1_0),
    StableHlo.TRef.unary main_call16.v3 main_call16.v4 (broadcastInDim S50000x2 ![0, 1] bcast_S50000x1_S50000x2_0_1),
    StableHlo.TRef.binary (TRef.of main_v303 : StableHlo.TRef sig ⟨S50000x2, .f32⟩) main_call16.v4 main_call16.v5 subf,
    StableHlo.TRef.unary main_call16.v5 main_call16.v6 Host.exp,
    StableHlo.TRef.nullary main_call16.cst_1 (constant S_ .f32 0x00000000#32),
    StableHlo.TRef.binary main_call16.v6 main_call16.cst_1 main_call16.v7 (fun x v => Host.reduceAdd x v reducesTo_S50000x2_S50000_d1 h_S_),
    StableHlo.TRef.unary main_call16.v7 main_call16.v8 (broadcastInDim S50000x1 ![0] bcast_S50000_S50000x1_0),
    StableHlo.TRef.unary main_call16.v8 main_call16.v9 Host.log,
    StableHlo.TRef.unary main_call16.v9 main_call16.v10 (broadcastInDim S50000x2 ![0, 1] bcast_S50000x1_S50000x2_0_1),
    StableHlo.TRef.binary main_call16.v5 main_call16.v10 main_call16.v11 subf,
    StableHlo.unary main_arg12 main_v305 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v305 main_v306 rfl shapeCasts_S1x256x256_S256x256,
    StableHlo.binary main_v225 main_v306 main_v307 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v308 ((extractStridedSlice S1x256 ![1, 0] · slices_S3x256_S1x256_1_0) : (⟨S3x256, .f32⟩ : BufTy).Contents (Elt F) → (⟨S1x256, .f32⟩ : BufTy).Contents (Elt F)),
    StableHlo.reshape main_v308 main_v309 rfl shapeCasts_S1x256_S256,
    StableHlo.unary main_v309 main_v310 (broadcastInDim S1x256 ![1] bcast_S256_S1x256_1 : (⟨S256, .f32⟩ : BufTy).Contents (Elt F) → (⟨S1x256, .f32⟩ : BufTy).Contents (Elt F)),
    StableHlo.unary main_v310 main_v311 (broadcastInDim S50000x256 ![0, 1] bcast_S1x256_S50000x256_0_1 : (⟨S1x256, .f32⟩ : BufTy).Contents (Elt F) → (⟨S50000x256, .f32⟩ : BufTy).Contents (Elt F)),
    StableHlo.binary main_v307 main_v311 main_v312 (addf : (⟨S50000x256, .f32⟩ : BufTy).Contents (Elt F) → (⟨S50000x256, .f32⟩ : BufTy).Contents (Elt F) → (⟨S50000x256, .f32⟩ : BufTy).Contents (Elt F)),
    StableHlo.unary main_arg14 main_v313 ((extractStridedSlice S1x256 ![1, 0] · slices_S3x256_S1x256_1_0) : (⟨S3x256, .f32⟩ : BufTy).Contents (Elt F) → (⟨S1x256, .f32⟩ : BufTy).Contents (Elt F)),
    StableHlo.reshape main_v313 main_v314 rfl shapeCasts_S1x256_S256 ]

set_option maxRecDepth 8192 in
set_option maxHeartbeats 4000000 in
/-- The window is that straight line: the called functions unfolded at their calls, sequencing reassociated. -/
theorem main_part5_eq (c : Dev nD) : main_part5 (F := F) c = seq ops5 := by
  simp only [main_part5, fn_log_softmax.body, fn_relu.body, fn_var.body, fn_where_0.body, seq, bind_assoc, pure_bind] <;> rfl

set_option maxRecDepth 8192 in
theorem ops5_sub : (ops5 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops5_writes : (ops5 : List (HloOp τ sig (Elt F))).Forall (WritesIn 460 571) :=
  ⟨writesIn_of (binary_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide)⟩

end Cert.ReferenceIdeal.RefRun

end
-- ==== Proof.Ref.W6.lean ====
/- The reference's statements 361 … 420 as the list of the 118 host operations they run, each call's body
   written out over that call's own buffers; the window's program is that list run in order; each operation
   touches TensorCore buffers only, determines what it writes, and writes the one buffer whose index is its
   place in the running order (indices 571 … 688). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 361 … 420 of @main: 118 operations, in order. -/
abbrev ops6 : List (HloOp τ sig (Elt F)) :=
  [ StableHlo.unary main_arg15 main_v315 ((extractStridedSlice S1x256 ![1, 0] · slices_S3x256_S1x256_1_0) : (⟨S3x256, .f32⟩ : BufTy).Contents (Elt F) → (⟨S1x256, .f32⟩ : BufTy).Contents (Elt F)),
    StableHlo.reshape main_v315 main_v316 rfl shapeCasts_S1x256_S256,
    StableHlo.nullary main_cst_43 (constant S_ .f32 0x00000000#32),
    StableHlo.binary main_v312 main_cst_43 main_v317 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_44 (constant S_ .f32 0x47435000#32),
    StableHlo.unary main_cst_44 main_v318 (broadcastInDim S256 ![] bcast_S_S256 : (⟨S_, .f32⟩ : BufTy).Contents (Elt F) → (⟨S256, .f32⟩ : BufTy).Contents (Elt F)),
    StableHlo.binary main_v317 main_v318 main_v319 (Host.divf : (⟨S256, .f32⟩ : BufTy).Contents (Elt F) → (⟨S256, .f32⟩ : BufTy).Contents (Elt F) → (⟨S256, .f32⟩ : BufTy).Contents (Elt F)),
    StableHlo.nullary main_c_45 (constantI S_ 32 0#32),
    StableHlo.TRef.nullary main_call17.cst (constant S_ .f32 0x00000000#32),
    StableHlo.TRef.binary (TRef.of main_v312 : StableHlo.TRef sig ⟨S50000x256, .f32⟩) main_call17.cst main_call17.v0 (fun x v => Host.reduceAdd x v reducesTo_S50000x256_S256_d0 h_S_),
    StableHlo.TRef.unary main_call17.v0 main_call17.v1 (broadcastInDim S1x256 ![1] bcast_S256_S1x256_1),
    StableHlo.TRef.nullary main_call17.cst_0 (constant S_ .f32 0x47435000#32),
    StableHlo.TRef.unary main_call17.cst_0 main_call17.v2 (broadcastInDim S1x256 ![] bcast_S_S1x256),
    StableHlo.TRef.binary main_call17.v1 main_call17.v2 main_call17.v3 Host.divf,
    StableHlo.TRef.unary main_call17.v3 main_call17.v4 (broadcastInDim S50000x256 ![0, 1] bcast_S1x256_S50000x256_0_1),
    StableHlo.TRef.binary (TRef.of main_v312 : StableHlo.TRef sig ⟨S50000x256, .f32⟩) main_call17.v4 main_call17.v5 subf,
    StableHlo.TRef.binary main_call17.v5 main_call17.v5 main_call17.v6 mulf,
    StableHlo.TRef.unary (TRef.of main_c_45 : StableHlo.TRef sig ⟨S_, .i32⟩) main_call17.v7 (sitofp .f32),
    StableHlo.TRef.nullary main_call17.cst_1 (constant S_ .f32 0x47435000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S50000x256_S256_d0 h_S_),
    StableHlo.TRef.unary main_call17.v8 main_call17.v10 (broadcastInDim S256 ![] bcast_S_S256),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S256 ![] bcast_S_S256),
    StableHlo.TRef.ternary main_call17.v12 main_call17.v11 main_call17.call0.v1 main_call17.call0.v2 (fun p a b => select (broadcastInDim S256 ![] bcast_S_S256 p) a b),
    StableHlo.unary main_v319 main_v321 (broadcastInDim S1x256 ![1] bcast_S256_S1x256_1 : (⟨S256, .f32⟩ : BufTy).Contents (Elt F) → (⟨S1x256, .f32⟩ : BufTy).Contents (Elt F)),
    StableHlo.unary main_v321 main_v322 (broadcastInDim S50000x256 ![0, 1] bcast_S1x256_S50000x256_0_1 : (⟨S1x256, .f32⟩ : BufTy).Contents (Elt F) → (⟨S50000x256, .f32⟩ : BufTy).Contents (Elt F)),
    StableHlo.binary main_v312 main_v322 main_v323 (subf : (⟨S50000x256, .f32⟩ : BufTy).Contents (Elt F) → (⟨S50000x256, .f32⟩ : BufTy).Contents (Elt F) → (⟨S50000x256, .f32⟩ : BufTy).Contents (Elt F)),
    StableHlo.unary main_v314 main_v324 (broadcastInDim S1x256 ![1] bcast_S256_S1x256_1 : (⟨S256, .f32⟩ : BufTy).Contents (Elt F) → (⟨S1x256, .f32⟩ : BufTy).Contents (Elt F)),
    StableHlo.unary main_v324 main_v325 (broadcastInDim S50000x256 ![0, 1] bcast_S1x256_S50000x256_0_1 : (⟨S1x256, .f32⟩ : BufTy).Contents (Elt F) → (⟨S50000x256, .f32⟩ : BufTy).Contents (Elt F)),
    StableHlo.binary main_v325 main_v323 main_v326 (mulf : (⟨S50000x256, .f32⟩ : BufTy).Contents (Elt F) → (⟨S50000x256, .f32⟩ : BufTy).Contents (Elt F) → (⟨S50000x256, .f32⟩ : BufTy).Contents (Elt F)),
    StableHlo.nullary main_cst_46 (constant S_ .f32 0x3727C5AC#32),
    StableHlo.unary main_cst_46 main_v327 (broadcastInDim S256 ![] bcast_S_S256 : (⟨S_, .f32⟩ : BufTy).Contents (Elt F) → (⟨S256, .f32⟩ : BufTy).Contents (Elt F)),
    StableHlo.binary main_v320 main_v327 main_v328 (addf : (⟨S256, .f32⟩ : BufTy).Contents (Elt F) → (⟨S256, .f32⟩ : BufTy).Contents (Elt F) → (⟨S256, .f32⟩ : BufTy).Contents (Elt F)),
    StableHlo.unary main_v328 main_v329 (Host.rsqrt : (⟨S256, .f32⟩ : BufTy).Contents (Elt F) → (⟨S256, .f32⟩ : BufTy).Contents (Elt F)),
    StableHlo.unary main_v329 main_v330 (broadcastInDim S1x256 ![1] bcast_S256_S1x256_1 : (⟨S256, .f32⟩ : BufTy).Contents (Elt F) → (⟨S1x256, .f32⟩ : BufTy).Contents (Elt F)),
    StableHlo.unary main_v330 main_v331 (broadcastInDim S50000x256 ![0, 1] bcast_S1x256_S50000x256_0_1 : (⟨S1x256, .f32⟩ : BufTy).Contents (Elt F) → (⟨S50000x256, .f32⟩ : BufTy).Contents (Elt F)),
    StableHlo.binary main_v326 main_v331 main_v332 (mulf : (⟨S50000x256, .f32⟩ : BufTy).Contents (Elt F) → (⟨S50000x256, .f32⟩ : BufTy).Contents (Elt F) → (⟨S50000x256, .f32⟩ : BufTy).Contents (Elt F)),
    StableHlo.unary main_v316 main_v333 (broadcastInDim S1x256 ![1] bcast_S256_S1x256_1 : (⟨S256, .f32⟩ : BufTy).Contents (Elt F) → (⟨S1x256, .f32⟩ : BufTy).Contents (Elt F)),
    StableHlo.unary main_v333 main_v334 (broadcastInDim S50000x256 ![0, 1] bcast_S1x256_S50000x256_0_1 : (⟨S1x256, .f32⟩ : BufTy).Contents (Elt F) → (⟨S50000x256, .f32⟩ : BufTy).Contents (Elt F)),
    StableHlo.binary main_v332 main_v334 main_v335 (addf : (⟨S50000x256, .f32⟩ : BufTy).Contents (Elt F) → (⟨S50000x256, .f32⟩ : BufTy).Contents (Elt F) → (⟨S50000x256, .f32⟩ : BufTy).Contents (Elt F)),
    StableHlo.TRef.nullary main_call18.cst (constant S_ .f32 0x00000000#32),
    StableHlo.TRef.unary main_call18.cst main_call18.v0 (broadcastInDim S50000x256 ![] bcast_S_S50000x256),
    StableHlo.TRef.binary (TRef.of main_v335 : StableHlo.TRef sig ⟨S50000x256, .f32⟩) main_call18.v0 main_call18.v1 maximumf,
    StableHlo.unary main_arg18 main_v337 ((extractStridedSlice S1x256x2 ![1, 0, 0] · slices_S3x256x2_S1x256x2_1_0_0) : (⟨S3x256x2, .f32⟩ : BufTy).Contents (Elt F) → (⟨S1x256x2, .f32⟩ : BufTy).Contents (Elt F)),
    StableHlo.reshape main_v337 main_v338 rfl shapeCasts_S1x256x2_S256x2,
    StableHlo.binary main_v336 main_v338 main_v339 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg19 main_v340 ((extractStridedSlice S1x2 ![1, 0] · slices_S3x2_S1x2_1_0) : (⟨S3x2, .f32⟩ : BufTy).Contents (Elt F) → (⟨S1x2, .f32⟩ : BufTy).Contents (Elt F)),
    StableHlo.reshape main_v340 main_v341 rfl shapeCasts_S1x2_S2,
    StableHlo.unary main_v341 main_v342 (broadcastInDim S1x2 ![1] bcast_S2_S1x2_1 : (⟨S2, .f32⟩ : BufTy).Contents (Elt F) → (⟨S1x2, .f32⟩ : BufTy).Contents (Elt F)),
    StableHlo.unary main_v342 main_v343 (broadcastInDim S50000x2 ![0, 1] bcast_S1x2_S50000x2_0_1 : (⟨S1x2, .f32⟩ : BufTy).Contents (Elt F) → (⟨S50000x2, .f32⟩ : BufTy).Contents (Elt F)),
    StableHlo.binary main_v339 main_v343 main_v344 (addf : (⟨S50000x2, .f32⟩ : BufTy).Contents (Elt F) → (⟨S50000x2, .f32⟩ : BufTy).Contents (Elt F) → (⟨S50000x2, .f32⟩ : BufTy).Contents (Elt F)),
    StableHlo.TRef.nullary main_call19.cst (constant S_ .f32 0xFF800000#32),
    StableHlo.TRef.binary (TRef.of main_v344 : StableHlo.TRef sig ⟨S50000x2, .f32⟩) main_call19.cst main_call19.v0 (fun x v => Host.reduce FloatOps.maximumf x v reducesTo_S50000x2_S50000_d1 h_S_),
    StableHlo.TRef.nullary main_call19.cst_0 (constant S_ .f32 0xFF800000#32),
    StableHlo.TRef.unary main_call19.cst_0 main_call19.v1 (broadcastInDim S50000 ![] bcast_S_S50000),
    StableHlo.TRef.binary main_call19.v1 main_call19.v0 main_call19.v2 maximumf,
    StableHlo.TRef.unary main_call19.v2 main_call19.v3 (broadcastInDim S50000x1 ![0] bcast_S50000_S50000x1_0),
    StableHlo.TRef.unary main_call19.v3 main_call19.v4 (broadcastInDim S50000x2 ![0, 1] bcast_S50000x1_S50000x2_0_1),
    StableHlo.TRef.binary (TRef.of main_v344 : StableHlo.TRef sig ⟨S50000x2, .f32⟩) main_call19.v4 main_call19.v5 subf,
    StableHlo.TRef.unary main_call19.v5 main_call19.v6 Host.exp,
    StableHlo.TRef.nullary main_call19.cst_1 (constant S_ .f32 0x00000000#32),
    StableHlo.TRef.binary main_call19.v6 main_call19.cst_1 main_call19.v7 (fun x v => Host.reduceAdd x v reducesTo_S50000x2_S50000_d1 h_S_),
    StableHlo.TRef.unary main_call19.v7 main_call19.v8 (broadcastInDim S50000x1 ![0] bcast_S50000_S50000x1_0),
    StableHlo.TRef.unary main_call19.v8 main_call19.v9 Host.log,
    StableHlo.TRef.unary main_call19.v9 main_call19.v10 (broadcastInDim S50000x2 ![0, 1] bcast_S50000x1_S50000x2_0_1),
    StableHlo.TRef.binary main_call19.v5 main_call19.v10 main_call19.v11 subf,
    StableHlo.unary main_arg12 main_v346 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v346 main_v347 rfl shapeCasts_S1x256x256_S256x256,
    StableHlo.binary main_v258 main_v347 main_v348 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v349 ((extractStridedSlice S1x256 ![2, 0] · slices_S3x256_S1x256_2_0) : (⟨S3x256, .f32⟩ : BufTy).Contents (Elt F) → (⟨S1x256, .f32⟩ : BufTy).Contents (Elt F)),
    StableHlo.reshape main_v349 main_v350 rfl shapeCasts_S1x256_S256,
    StableHlo.unary main_v350 main_v351 (broadcastInDim S1x256 ![1] bcast_S256_S1x256_1 : (⟨S256, .f32⟩ : BufTy).Contents (Elt F) → (⟨S1x256, .f32⟩ : BufTy).Contents (Elt F)),
    StableHlo.unary main_v351 main_v352 (broadcastInDim S50000x256 ![0, 1] bcast_S1x256_S50000x256_0_1 : (⟨S1x256, .f32⟩ : BufTy).Contents (Elt F) → (⟨S50000x256, .f32⟩ : BufTy).Contents (Elt F)),
    StableHlo.binary main_v348 main_v352 main_v353 (addf : (⟨S50000x256, .f32⟩ : BufTy).Contents (Elt F) → (⟨S50000x256, .f32⟩ : BufTy).Contents (Elt F) → (⟨S50000x256, .f32⟩ : BufTy).Contents (Elt F)),
    StableHlo.unary main_arg14 main_v354 ((extractStridedSlice S1x256 ![2, 0] · slices_S3x256_S1x256_2_0) : (⟨S3x256, .f32⟩ : BufTy).Contents (Elt F) → (⟨S1x256, .f32⟩ : BufTy).Contents (Elt F)),
    StableHlo.reshape main_v354 main_v355 rfl shapeCasts_S1x256_S256,
    StableHlo.unary main_arg15 main_v356 ((extractStridedSlice S1x256 ![2, 0] · slices_S3x256_S1x256_2_0) : (⟨S3x256, .f32⟩ : BufTy).Contents (Elt F) → (⟨S1x256, .f32⟩ : BufTy).Contents (Elt F)),
    StableHlo.reshape main_v356 main_v357 rfl shapeCasts_S1x256_S256,
    StableHlo.nullary main_cst_47 (constant S_ .f32 0x00000000#32),
    StableHlo.binary main_v353 main_cst_47 main_v358 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_48 (constant S_ .f32 0x47435000#32),
    StableHlo.unary main_cst_48 main_v359 (broadcastInDim S256 ![] bcast_S_S256 : (⟨S_, .f32⟩ : BufTy).Contents (Elt F) → (⟨S256, .f32⟩ : BufTy).Contents (Elt F)),
    StableHlo.binary main_v358 main_v359 main_v360 (Host.divf : (⟨S256, .f32⟩ : BufTy).Contents (Elt F) → (⟨S256, .f32⟩ : BufTy).Contents (Elt F) → (⟨S256, .f32⟩ : BufTy).Contents (Elt F)),
    StableHlo.nullary main_c_49 (constantI S_ 32 0#32),
    StableHlo.TRef.nullary main_call20.cst (constant S_ .f32 0x00000000#32),
    StableHlo.TRef.binary (TRef.of main_v353 : StableHlo.TRef sig ⟨S50000x256, .f32⟩) main_call20.cst main_call20.v0 (fun x v => Host.reduceAdd x v reducesTo_S50000x256_S256_d0 h_S_),
    StableHlo.TRef.unary main_call20.v0 main_call20.v1 (broadcastInDim S1x256 ![1] bcast_S256_S1x256_1),
    StableHlo.TRef.nullary main_call20.cst_0 (constant S_ .f32 0x47435000#32),
    StableHlo.TRef.unary main_call20.cst_0 main_call20.v2 (broadcastInDim S1x256 ![] bcast_S_S1x256),
    StableHlo.TRef.binary main_call20.v1 main_call20.v2 main_call20.v3 Host.divf,
    StableHlo.TRef.unary main_call20.v3 main_call20.v4 (broadcastInDim S50000x256 ![0, 1] bcast_S1x256_S50000x256_0_1),
    StableHlo.TRef.binary (TRef.of main_v353 : StableHlo.TRef sig ⟨S50000x256, .f32⟩) main_call20.v4 main_call20.v5 subf,
    StableHlo.TRef.binary main_call20.v5 main_call20.v5 main_call20.v6 mulf,
    StableHlo.TRef.unary (TRef.of main_c_49 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x256_S256_d0 h_S_),
    StableHlo.TRef.unary main_call20.v8 main_call20.v10 (broadcastInDim S256 ![] bcast_S_S256),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S256 ![] bcast_S_S256),
    StableHlo.TRef.ternary main_call20.v12 main_call20.v11 main_call20.call0.v1 main_call20.call0.v2 (fun p a b => select (broadcastInDim S256 ![] bcast_S_S256 p) a b),
    StableHlo.unary main_v360 main_v362 (broadcastInDim S1x256 ![1] bcast_S256_S1x256_1 : (⟨S256, .f32⟩ : BufTy).Contents (Elt F) → (⟨S1x256, .f32⟩ : BufTy).Contents (Elt F)),
    StableHlo.unary main_v362 main_v363 (broadcastInDim S50000x256 ![0, 1] bcast_S1x256_S50000x256_0_1 : (⟨S1x256, .f32⟩ : BufTy).Contents (Elt F) → (⟨S50000x256, .f32⟩ : BufTy).Contents (Elt F)),
    StableHlo.binary main_v353 main_v363 main_v364 (subf : (⟨S50000x256, .f32⟩ : BufTy).Contents (Elt F) → (⟨S50000x256, .f32⟩ : BufTy).Contents (Elt F) → (⟨S50000x256, .f32⟩ : BufTy).Contents (Elt F)),
    StableHlo.unary main_v355 main_v365 (broadcastInDim S1x256 ![1] bcast_S256_S1x256_1 : (⟨S256, .f32⟩ : BufTy).Contents (Elt F) → (⟨S1x256, .f32⟩ : BufTy).Contents (Elt F)),
    StableHlo.unary main_v365 main_v366 (broadcastInDim S50000x256 ![0, 1] bcast_S1x256_S50000x256_0_1 : (⟨S1x256, .f32⟩ : BufTy).Contents (Elt F) → (⟨S50000x256, .f32⟩ : BufTy).Contents (Elt F)),
    StableHlo.binary main_v366 main_v364 main_v367 (mulf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
/-- The window is that straight line: the called functions unfolded at their calls, sequencing reassociated. -/
theorem main_part6_eq (c : Dev nD) : main_part6 (F := F) c = seq ops6 := by
  simp only [main_part6, fn_log_softmax.body, fn_relu.body, fn_var.body, fn_where_0.body, seq, bind_assoc, pure_bind] <;> rfl

set_option maxRecDepth 8192 in
theorem ops6_sub : (ops6 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops6_writes : (ops6 : List (HloOp τ sig (Elt F))).Forall (WritesIn 571 689) :=
  ⟨writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide)⟩

end Cert.ReferenceIdeal.RefRun

end
-- ==== Proof.Ref.W7.lean ====
/- The reference's statements 421 … 445 as the list of the 41 host operations they run, each call's body
   written out over that call's own buffers; the window's program is that list run in order; each operation
   touches TensorCore buffers only, determines what it writes, and writes the one buffer whose index is its
   place in the running order (indices 689 … 729). -/
import proofs.«146967_j25786983645193_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 421 … 445 of @main: 41 operations, in order. -/
abbrev ops7 : List (HloOp τ sig (Elt F)) :=
  [ StableHlo.nullary main_cst_50 (constant S_ .f32 0x3727C5AC#32),
    StableHlo.unary main_cst_50 main_v368 (broadcastInDim S256 ![] bcast_S_S256 : (⟨S_, .f32⟩ : BufTy).Contents (Elt F) → (⟨S256, .f32⟩ : BufTy).Contents (Elt F)),
    StableHlo.binary main_v361 main_v368 main_v369 (addf : (⟨S256, .f32⟩ : BufTy).Contents (Elt F) → (⟨S256, .f32⟩ : BufTy).Contents (Elt F) → (⟨S256, .f32⟩ : BufTy).Contents (Elt F)),
    StableHlo.unary main_v369 main_v370 (Host.rsqrt : (⟨S256, .f32⟩ : BufTy).Contents (Elt F) → (⟨S256, .f32⟩ : BufTy).Contents (Elt F)),
    StableHlo.unary main_v370 main_v371 (broadcastInDim S1x256 ![1] bcast_S256_S1x256_1 : (⟨S256, .f32⟩ : BufTy).Contents (Elt F) → (⟨S1x256, .f32⟩ : BufTy).Contents (Elt F)),
    StableHlo.unary main_v371 main_v372 (broadcastInDim S50000x256 ![0, 1] bcast_S1x256_S50000x256_0_1 : (⟨S1x256, .f32⟩ : BufTy).Contents (Elt F) → (⟨S50000x256, .f32⟩ : BufTy).Contents (Elt F)),
    StableHlo.binary main_v367 main_v372 main_v373 (mulf : (⟨S50000x256, .f32⟩ : BufTy).Contents (Elt F) → (⟨S50000x256, .f32⟩ : BufTy).Contents (Elt F) → (⟨S50000x256, .f32⟩ : BufTy).Contents (Elt F)),
    StableHlo.unary main_v357 main_v374 (broadcastInDim S1x256 ![1] bcast_S256_S1x256_1 : (⟨S256, .f32⟩ : BufTy).Contents (Elt F) → (⟨S1x256, .f32⟩ : BufTy).Contents (Elt F)),
    StableHlo.unary main_v374 main_v375 (broadcastInDim S50000x256 ![0, 1] bcast_S1x256_S50000x256_0_1 : (⟨S1x256, .f32⟩ : BufTy).Contents (Elt F) → (⟨S50000x256, .f32⟩ : BufTy).Contents (Elt F)),
    StableHlo.binary main_v373 main_v375 main_v376 (addf : (⟨S50000x256, .f32⟩ : BufTy).Contents (Elt F) → (⟨S50000x256, .f32⟩ : BufTy).Contents (Elt F) → (⟨S50000x256, .f32⟩ : BufTy).Contents (Elt F)),
    StableHlo.TRef.nullary main_call21.cst (constant S_ .f32 0x00000000#32),
    StableHlo.TRef.unary main_call21.cst main_call21.v0 (broadcastInDim S50000x256 ![] bcast_S_S50000x256),
    StableHlo.TRef.binary (TRef.of main_v376 : StableHlo.TRef sig ⟨S50000x256, .f32⟩) main_call21.v0 main_call21.v1 maximumf,
    StableHlo.unary main_arg18 main_v378 ((extractStridedSlice S1x256x2 ![2, 0, 0] · slices_S3x256x2_S1x256x2_2_0_0) : (⟨S3x256x2, .f32⟩ : BufTy).Contents (Elt F) → (⟨S1x256x2, .f32⟩ : BufTy).Contents (Elt F)),
    StableHlo.reshape main_v378 main_v379 rfl shapeCasts_S1x256x2_S256x2,
    StableHlo.binary main_v377 main_v379 main_v380 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg19 main_v381 ((extractStridedSlice S1x2 ![2, 0] · slices_S3x2_S1x2_2_0) : (⟨S3x2, .f32⟩ : BufTy).Contents (Elt F) → (⟨S1x2, .f32⟩ : BufTy).Contents (Elt F)),
    StableHlo.reshape main_v381 main_v382 rfl shapeCasts_S1x2_S2,
    StableHlo.unary main_v382 main_v383 (broadcastInDim S1x2 ![1] bcast_S2_S1x2_1 : (⟨S2, .f32⟩ : BufTy).Contents (Elt F) → (⟨S1x2, .f32⟩ : BufTy).Contents (Elt F)),
    StableHlo.unary main_v383 main_v384 (broadcastInDim S50000x2 ![0, 1] bcast_S1x2_S50000x2_0_1 : (⟨S1x2, .f32⟩ : BufTy).Contents (Elt F) → (⟨S50000x2, .f32⟩ : BufTy).Contents (Elt F)),
    StableHlo.binary main_v380 main_v384 main_v385 (addf : (⟨S50000x2, .f32⟩ : BufTy).Contents (Elt F) → (⟨S50000x2, .f32⟩ : BufTy).Contents (Elt F) → (⟨S50000x2, .f32⟩ : BufTy).Contents (Elt F)),
    StableHlo.TRef.nullary main_call22.cst (constant S_ .f32 0xFF800000#32),
    StableHlo.TRef.binary (TRef.of main_v385 : StableHlo.TRef sig ⟨S50000x2, .f32⟩) main_call22.cst main_call22.v0 (fun x v => Host.reduce FloatOps.maximumf x v reducesTo_S50000x2_S50000_d1 h_S_),
    StableHlo.TRef.nullary main_call22.cst_0 (constant S_ .f32 0xFF800000#32),
    StableHlo.TRef.unary main_call22.cst_0 main_call22.v1 (broadcastInDim S50000 ![] bcast_S_S50000),
    StableHlo.TRef.binary main_call22.v1 main_call22.v0 main_call22.v2 maximumf,
    StableHlo.TRef.unary main_call22.v2 main_call22.v3 (broadcastInDim S50000x1 ![0] bcast_S50000_S50000x1_0),
    StableHlo.TRef.unary main_call22.v3 main_call22.v4 (broadcastInDim S50000x2 ![0, 1] bcast_S50000x1_S50000x2_0_1),
    StableHlo.TRef.binary (TRef.of main_v385 : StableHlo.TRef sig ⟨S50000x2, .f32⟩) main_call22.v4 main_call22.v5 subf,
    StableHlo.TRef.unary main_call22.v5 main_call22.v6 Host.exp,
    StableHlo.TRef.nullary main_call22.cst_1 (constant S_ .f32 0x00000000#32),
    StableHlo.TRef.binary main_call22.v6 main_call22.cst_1 main_call22.v7 (fun x v => Host.reduceAdd x v reducesTo_S50000x2_S50000_d1 h_S_),
    StableHlo.TRef.unary main_call22.v7 main_call22.v8 (broadcastInDim S50000x1 ![0] bcast_S50000_S50000x1_0),
    StableHlo.TRef.unary main_call22.v8 main_call22.v9 Host.log,
    StableHlo.TRef.unary main_call22.v9 main_call22.v10 (broadcastInDim S50000x2 ![0, 1] bcast_S50000x1_S50000x2_0_1),
    StableHlo.TRef.binary main_call22.v5 main_call22.v10 main_call22.v11 subf,
    StableHlo.unary main_v263 main_v387 (broadcastInDim S1x50000x2 ![1, 2] bcast_S50000x2_S1x50000x2_1_2 : (⟨S50000x2, .f32⟩ : BufTy).Contents (Elt F) → (⟨S1x50000x2, .f32⟩ : BufTy).Contents (Elt F)),
    StableHlo.unary main_v304 main_v388 (broadcastInDim S1x50000x2 ![1, 2] bcast_S50000x2_S1x50000x2_1_2 : (⟨S50000x2, .f32⟩ : BufTy).Contents (Elt F) → (⟨S1x50000x2, .f32⟩ : BufTy).Contents (Elt F)),
    StableHlo.unary main_v345 main_v389 (broadcastInDim S1x50000x2 ![1, 2] bcast_S50000x2_S1x50000x2_1_2 : (⟨S50000x2, .f32⟩ : BufTy).Contents (Elt F) → (⟨S1x50000x2, .f32⟩ : BufTy).Contents (Elt F)),
    StableHlo.unary main_v386 main_v390 (broadcastInDim S1x50000x2 ![1, 2] bcast_S50000x2_S1x50000x2_1_2 : (⟨S50000x2, .f32⟩ : BufTy).Contents (Elt F) → (⟨S1x50000x2, .f32⟩ : BufTy).Contents (Elt F)),
    StableHlo.nary ![main_v387, main_v388, main_v389, main_v390] main_v391 (fun u => concatenate S4x50000x2 0 [⟨S1x50000x2, u 0⟩, ⟨S1x50000x2, u 1⟩, ⟨S1x50000x2, u 2⟩, ⟨S1x50000x2, u 3⟩] concatenates_S1x50000x2_S1x50000x2_S1x50000x2_S1x50000x2_S4x50000x2_d0) ]

set_option maxRecDepth 8192 in
set_option maxHeartbeats 4000000 in
/-- The window is that straight line: the called functions unfolded at their calls, sequencing reassociated. -/
theorem main_part7_eq (c : Dev nD) : main_part7 (F := F) c = seq ops7 := by
  simp only [main_part7, fn_log_softmax.body, fn_relu.body, seq, bind_assoc, pure_bind] <;> rfl

set_option maxRecDepth 8192 in
theorem ops7_sub : (ops7 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., unary_bufs_sub .., nary_bufs_sub ..⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops7_writes : (ops7 : List (HloOp τ sig (Elt F))).Forall (WritesIn 689 730) :=
  ⟨writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (unary_writes ..) (by decide), writesIn_of (unary_writes ..) (by decide), writesIn_of (nary_writes ..) (by decide)⟩

end Cert.ReferenceIdeal.RefRun

end
-- ==== Proof.Ref.Ops.lean ====
/- @main's 710 host operations as one list, the eight windows' lists one after the other; the facts about
   every operation of it, from the windows' own; and the buffers' contents after each window, by name, so that a
   value can be read one window at a time: `valK m c` is what device `c`'s buffers hold after windows 0 … K from
   launch contents `m`, a buffer outside window K's index range holds in `valK` what it held in the one before. -/
import proofs.«146967_j25786983645193_1_alg».proof.Proof.Ref.W0
import proofs.«146967_j25786983645193_1_alg».proof.Proof.Ref.W1
import proofs.«146967_j25786983645193_1_alg».proof.Proof.Ref.W2
import proofs.«146967_j25786983645193_1_alg».proof.Proof.Ref.W3
import proofs.«146967_j25786983645193_1_alg».proof.Proof.Ref.W4
import proofs.«146967_j25786983645193_1_alg».proof.Proof.Ref.W5
import proofs.«146967_j25786983645193_1_alg».proof.Proof.Ref.W6
import proofs.«146967_j25786983645193_1_alg».proof.Proof.Ref.W7
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 710 operations, in order. -/
abbrev ops : List (HloOp τ sig (Elt F)) :=
  ops0 ++ (ops1 ++ (ops2 ++ (ops3 ++ (ops4 ++ (ops5 ++ (ops6 ++ ops7))))))

/-- What holds of every operation of two lists holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun op hop => (List.mem_append.mp hop).elim
    (List.forall_iff_forall_mem.mp h₁ op) (List.forall_iff_forall_mem.mp h₂ op)

/-- @main is the eight windows in order, each its list run; lists run one after the other are their concatenation run. -/
theorem main_eq (c : Dev nD) : main (F := F) c = seq ops := by
  rw [seq_append, seq_append, seq_append, seq_append, seq_append, seq_append, seq_append, ← main_part0_eq c, ← main_part1_eq c, ← main_part2_eq c, ← main_part3_eq c, ← main_part4_eq c, ← main_part5_eq c, ← main_part6_eq c, ← main_part7_eq c]
  rfl

theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub ops7_sub))))))

theorem ops_fresh : (ops : List (HloOp τ sig (Elt F))).Forall fun op => op.fresh = ∅ :=
  forall_append ops0_fresh (forall_append ops1_fresh (forall_append ops2_fresh (forall_append ops3_fresh (forall_append ops4_fresh (forall_append ops5_fresh (forall_append ops6_fresh ops7_fresh))))))

/-- Every operation writes a buffer past the arguments'. -/
theorem ops_writes : (ops : List (HloOp τ sig (Elt F))).Forall (WritesIn 20 730) :=
  forall_append (forall_writesIn_mono ops0_writes (by decide) (by decide)) (forall_append (forall_writesIn_mono ops1_writes (by decide) (by decide)) (forall_append (forall_writesIn_mono ops2_writes (by decide) (by decide)) (forall_append (forall_writesIn_mono ops3_writes (by decide) (by decide)) (forall_append (forall_writesIn_mono ops4_writes (by decide) (by decide)) (forall_append (forall_writesIn_mono ops5_writes (by decide) (by decide)) (forall_append (forall_writesIn_mono ops6_writes (by decide) (by decide)) (forall_writesIn_mono ops7_writes (by decide) (by decide))))))))

/-- An argument's buffer holds after @main what it held at launch. -/
theorem after_ops_arg (V : Valuation τ sig (Elt F)) (r : Ref sig .tc) (hr : r.idx.val < 20) :
    after ops V (Proc.devRef .tc r) = V (Proc.devRef .tc r) :=
  after_keep ops ops_writes V r (Or.inl hr)

/-- Device `c`'s buffers after windows 0 … 0: window 0's operations run from launch contents. -/
def val0 (m : (ℓ : Loc nD τ sig) → Buf (Elt F) ℓ) (c : Dev nD) : Valuation τ sig (Elt F) := after ops0 (fun b => m (c, b))
theorem val0_eq (m : (ℓ : Loc nD τ sig) → Buf (Elt F) ℓ) (c : Dev nD) : val0 m c = after ops0 (fun b => m (c, b)) := rfl
/-- A buffer outside window 0's range [20, 82) is as before it. -/
theorem val0_keep (m : (ℓ : Loc nD τ sig) → Buf (Elt F) ℓ) (c : Dev nD) (r : Ref sig .tc) (hr : r.idx.val < 20 ∨ 82 ≤ r.idx.val) :
    val0 m c (Proc.devRef .tc r) = (fun b => m (c, b)) (Proc.devRef .tc r) :=
  after_keep ops0 ops0_writes _ r hr

/-- Device `c`'s buffers after windows 0 … 1: window 1's operations run from the contents after window 0. -/
def val1 (m : (ℓ : Loc nD τ sig) → Buf (Elt F) ℓ) (c : Dev nD) : Valuation τ sig (Elt F) := after ops1 (val0 m c)
theorem val1_eq (m : (ℓ : Loc nD τ sig) → Buf (Elt F) ℓ) (c : Dev nD) : val1 m c = after ops1 (val0 m c) := rfl
/-- A buffer outside window 1's range [82, 165) is as before it. -/
theorem val1_keep (m : (ℓ : Loc nD τ sig) → Buf (Elt F) ℓ) (c : Dev nD) (r : Ref sig .tc) (hr : r.idx.val < 82 ∨ 165 ≤ r.idx.val) :
    val1 m c (Proc.devRef .tc r) = (val0 m c) (Proc.devRef .tc r) :=
  after_keep ops1 ops1_writes _ r hr

/-- Device `c`'s buffers after windows 0 … 2: window 2's operations run from the contents after window 1. -/
def val2 (m : (ℓ : Loc nD τ sig) → Buf (Elt F) ℓ) (c : Dev nD) : Valuation τ sig (Elt F) := after ops2 (val1 m c)
theorem val2_eq (m : (ℓ : Loc nD τ sig) → Buf (Elt F) ℓ) (c : Dev nD) : val2 m c = after ops2 (val1 m c) := rfl
/-- A buffer outside window 2's range [165, 269) is as before it. -/
theorem val2_keep (m : (ℓ : Loc nD τ sig) → Buf (Elt F) ℓ) (c : Dev nD) (r : Ref sig .tc) (hr : r.idx.val < 165 ∨ 269 ≤ r.idx.val) :
    val2 m c (Proc.devRef .tc r) = (val1 m c) (Proc.devRef .tc r) :=
  after_keep ops2 ops2_writes _ r hr

/-- Device `c`'s buffers after windows 0 … 3: window 3's operations run from the contents after window 2. -/
def val3 (m : (ℓ : Loc nD τ sig) → Buf (Elt F) ℓ) (c : Dev nD) : Valuation τ sig (Elt F) := after ops3 (val2 m c)
theorem val3_eq (m : (ℓ : Loc nD τ sig) → Buf (Elt F) ℓ) (c : Dev nD) : val3 m c = after ops3 (val2 m c) := rfl
/-- A buffer outside window 3's range [269, 354) is as before it. -/
theorem val3_keep (m : (ℓ : Loc nD τ sig) → Buf (Elt F) ℓ) (c : Dev nD) (r : Ref sig .tc) (hr : r.idx.val < 269 ∨ 354 ≤ r.idx.val) :
    val3 m c (Proc.devRef .tc r) = (val2 m c) (Proc.devRef .tc r) :=
  after_keep ops3 ops3_writes _ r hr

/-- Device `c`'s buffers after windows 0 … 4: window 4's operations run from the contents after window 3. -/
def val4 (m : (ℓ : Loc nD τ sig) → Buf (Elt F) ℓ) (c : Dev nD) : Valuation τ sig (Elt F) := after ops4 (val3 m c)
theorem val4_eq (m : (ℓ : Loc nD τ sig) → Buf (Elt F) ℓ) (c : Dev nD) : val4 m c = after ops4 (val3 m c) := rfl
/-- A buffer outside window 4's range [354, 460) is as before it. -/
theorem val4_keep (m : (ℓ : Loc nD τ sig) → Buf (Elt F) ℓ) (c : Dev nD) (r : Ref sig .tc) (hr : r.idx.val < 354 ∨ 460 ≤ r.idx.val) :
    val4 m c (Proc.devRef .tc r) = (val3 m c) (Proc.devRef .tc r) :=
  after_keep ops4 ops4_writes _ r hr

/-- Device `c`'s buffers after windows 0 … 5: window 5's operations run from the contents after window 4. -/
def val5 (m : (ℓ : Loc nD τ sig) → Buf (Elt F) ℓ) (c : Dev nD) : Valuation τ sig (Elt F) := after ops5 (val4 m c)
theorem val5_eq (m : (ℓ : Loc nD τ sig) → Buf (Elt F) ℓ) (c : Dev nD) : val5 m c = after ops5 (val4 m c) := rfl
/-- A buffer outside window 5's range [460, 571) is as before it. -/
theorem val5_keep (m : (ℓ : Loc nD τ sig) → Buf (Elt F) ℓ) (c : Dev nD) (r : Ref sig .tc) (hr : r.idx.val < 460 ∨ 571 ≤ r.idx.val) :
    val5 m c (Proc.devRef .tc r) = (val4 m c) (Proc.devRef .tc r) :=
  after_keep ops5 ops5_writes _ r hr

/-- Device `c`'s buffers after windows 0 … 6: window 6's operations run from the contents after window 5. -/
def val6 (m : (ℓ : Loc nD τ sig) → Buf (Elt F) ℓ) (c : Dev nD) : Valuation τ sig (Elt F) := after ops6 (val5 m c)
theorem val6_eq (m : (ℓ : Loc nD τ sig) → Buf (Elt F) ℓ) (c : Dev nD) : val6 m c = after ops6 (val5 m c) := rfl
/-- A buffer outside window 6's range [571, 689) is as before it. -/
theorem val6_keep (m : (ℓ : Loc nD τ sig) → Buf (Elt F) ℓ) (c : Dev nD) (r : Ref sig .tc) (hr : r.idx.val < 571 ∨ 689 ≤ r.idx.val) :
    val6 m c (Proc.devRef .tc r) = (val5 m c) (Proc.devRef .tc r) :=
  after_keep ops6 ops6_writes _ r hr

/-- Device `c`'s buffers after windows 0 … 7: window 7's operations run from the contents after window 6. -/
def val7 (m : (ℓ : Loc nD τ sig) → Buf (Elt F) ℓ) (c : Dev nD) : Valuation τ sig (Elt F) := after ops7 (val6 m c)
theorem val7_eq (m : (ℓ : Loc nD τ sig) → Buf (Elt F) ℓ) (c : Dev nD) : val7 m c = after ops7 (val6 m c) := rfl
/-- A buffer outside window 7's range [689, 730) is as before it. -/
theorem val7_keep (m : (ℓ : Loc nD τ sig) → Buf (Elt F) ℓ) (c : Dev nD) (r : Ref sig .tc) (hr : r.idx.val < 689 ∨ 730 ≤ r.idx.val) :
    val7 m c (Proc.devRef .tc r) = (val6 m c) (Proc.devRef .tc r) :=
  after_keep ops7 ops7_writes _ r hr

/-- After all of @main the buffers hold the last window's contents. -/
theorem after_ops_eq (m : (ℓ : Loc nD τ sig) → Buf (Elt F) ℓ) (c : Dev nD) : after ops (fun b => m (c, b)) = val7 m c := by
  rw [StableHlo.after_append, StableHlo.after_append, StableHlo.after_append, StableHlo.after_append, StableHlo.after_append, StableHlo.after_append, StableHlo.after_append]
  rfl

/-- A buffer written by window 0 or before (index below 82) holds at the end what it held after window 0. -/
theorem val7_eq_val0 (m : (ℓ : Loc nD τ sig) → Buf (Elt F) ℓ) (c : Dev nD) (r : Ref sig .tc) (hr : r.idx.val < 82) :
    val7 m c (Proc.devRef .tc r) = val0 m c (Proc.devRef .tc r) :=
  (val7_keep m c r (Or.inl (by omega))) |>.trans <| (val6_keep m c r (Or.inl (by omega))) |>.trans <| (val5_keep m c r (Or.inl (by omega))) |>.trans <| (val4_keep m c r (Or.inl (by omega))) |>.trans <| (val3_keep m c r (Or.inl (by omega))) |>.trans <| (val2_keep m c r (Or.inl (by omega))) |>.trans <| (val1_keep m c r (Or.inl (by omega)))

/-- A buffer written by window 1 or before (index below 165) holds at the end what it held after window 1. -/
theorem val7_eq_val1 (m : (ℓ : Loc nD τ sig) → Buf (Elt F) ℓ) (c : Dev nD) (r : Ref sig .tc) (hr : r.idx.val < 165) :
    val7 m c (Proc.devRef .tc r) = val1 m c (Proc.devRef .tc r) :=
  (val7_keep m c r (Or.inl (by omega))) |>.trans <| (val6_keep m c r (Or.inl (by omega))) |>.trans <| (val5_keep m c r (Or.inl (by omega))) |>.trans <| (val4_keep m c r (Or.inl (by omega))) |>.trans <| (val3_keep m c r (Or.inl (by omega))) |>.trans <| (val2_keep m c r (Or.inl (by omega)))

/-- A buffer written by window 2 or before (index below 269) holds at the end what it held after window 2. -/
theorem val7_eq_val2 (m : (ℓ : Loc nD τ sig) → Buf (Elt F) ℓ) (c : Dev nD) (r : Ref sig .tc) (hr : r.idx.val < 269) :
    val7 m c (Proc.devRef .tc r) = val2 m c (Proc.devRef .tc r) :=
  (val7_keep m c r (Or.inl (by omega))) |>.trans <| (val6_keep m c r (Or.inl (by omega))) |>.trans <| (val5_keep m c r (Or.inl (by omega))) |>.trans <| (val4_keep m c r (Or.inl (by omega))) |>.trans <| (val3_keep m c r (Or.inl (by omega)))

/-- A buffer written by window 3 or before (index below 354) holds at the end what it held after window 3. -/
theorem val7_eq_val3 (m : (ℓ : Loc nD τ sig) → Buf (Elt F) ℓ) (c : Dev nD) (r : Ref sig .tc) (hr : r.idx.val < 354) :
    val7 m c (Proc.devRef .tc r) = val3 m c (Proc.devRef .tc r) :=
  (val7_keep m c r (Or.inl (by omega))) |>.trans <| (val6_keep m c r (Or.inl (by omega))) |>.trans <| (val5_keep m c r (Or.inl (by omega))) |>.trans <| (val4_keep m c r (Or.inl (by omega)))

/-- A buffer written by window 4 or before (index below 460) holds at the end what it held after window 4. -/
theorem val7_eq_val4 (m : (ℓ : Loc nD τ sig) → Buf (Elt F) ℓ) (c : Dev nD) (r : Ref sig .tc) (hr : r.idx.val < 460) :
    val7 m c (Proc.devRef .tc r) = val4 m c (Proc.devRef .tc r) :=
  (val7_keep m c r (Or.inl (by omega))) |>.trans <| (val6_keep m c r (Or.inl (by omega))) |>.trans <| (val5_keep m c r (Or.inl (by omega)))

/-- A buffer written by window 5 or before (index below 571) holds at the end what it held after window 5. -/
theorem val7_eq_val5 (m : (ℓ : Loc nD τ sig) → Buf (Elt F) ℓ) (c : Dev nD) (r : Ref sig .tc) (hr : r.idx.val < 571) :
    val7 m c (Proc.devRef .tc r) = val5 m c (Proc.devRef .tc r) :=
  (val7_keep m c r (Or.inl (by omega))) |>.trans <| (val6_keep m c r (Or.inl (by omega)))

/-- A buffer written by window 6 or before (index below 689) holds at the end what it held after window 6. -/
theorem val7_eq_val6 (m : (ℓ : Loc nD τ sig) → Buf (Elt F) ℓ) (c : Dev nD) (r : Ref sig .tc) (hr : r.idx.val < 689) :
    val7 m c (Proc.devRef .tc r) = val6 m c (Proc.devRef .tc r) :=
  (val7_keep m c r (Or.inl (by omega)))

end Cert.ReferenceIdeal.RefRun

end
-- ==== Proof.Ref.Run.lean ====
/- The reference's run. @main is a straight line of host operations on a signature that scopes no buffer and no
   semaphore, so from any memory with zero counters every weakly fair execution terminates, each TensorCore buffer
   at the operations' fold over the launch contents: the result buffer at that fold (kept folded; read it through
   `after_ops_eq` and the windows' `valK`), each argument as at launch because no operation writes it. -/
import proofs.«146967_j25786983645193_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every TensorCore buffer after @main, as the fold of its operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- On every device, for any float values, from any memory with zero counters: every weakly fair execution of @main
    terminates with the result buffer at the fold of the operations over the launch contents and each argument unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v391) = StableHlo.after ops (fun b => m (c, b)) (Proc.devRef .tc main_v391)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨h c main_v391,
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide)),
      (h c main_arg16).trans (after_ops_arg _ main_arg16 (by decide)),
      (h c main_arg17).trans (after_ops_arg _ main_arg17 (by decide)),
      (h c main_arg18).trans (after_ops_arg _ main_arg18 (by decide)),
      (h c main_arg19).trans (after_ops_arg _ main_arg19 (by decide))⟩)
    (run_all m ρ)

end Cert.ReferenceIdeal.RefRun

end
-- ==== Proof.Ref.ReadGraph.lean ====
/-
  The graph buffers of the second program, read as the shared graph functions of the edge list.

  The statements that compute the edge weights and each propagation are the same operations, in the same order, as
  the definitions of `Cert.Spec.Graph`. Each window's list is cut into short runs of statements; a run is read over
  VARIABLE operands (what the entering valuation holds in the buffers the run reads) as one of the forms `rows`,
  `cols`, `degOf`, `dinvOf`, `edgeWOf`, `propOf` at those variables; a buffer a later run does not write is
  carried over it by the index ranges the runs write (statement `i` of a window writes the buffer of index
  `base + i`). Nothing is ever compared with its operands written out.
-/
import proofs.«146967_j25786983645193_1_alg».proof.Proof.Ref.W0
import proofs.«146967_j25786983645193_1_alg».proof.Proof.Ref.W1
import proofs.«146967_j25786983645193_1_alg».proof.Proof.Ref.W2
import proofs.«146967_j25786983645193_1_alg».proof.Proof.Spec.Graph

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Spec (edgeW prop)
open Cert.Spec.Graph (rows cols degOf dinvOf edgeWOf propOf)

/-! ## Lists of statements cut in two, and what holds of a part of a list -/

/-- Two runs of statements one after the other are their concatenation run as one. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- What holds of every statement from place `a₀` on holds of every statement of the run of length `b` at place `a ≥ a₀`. -/
theorem forall_seg {p : HloOp τ sig (Elt Ideal) → Prop} {l : List (HloOp τ sig (Elt Ideal))} {a₀ : ℕ} (a b : ℕ)
    (h : (l.drop a₀).Forall p) (ha : a₀ ≤ a) : ((l.drop a).take b).Forall p :=
  List.forall_iff_forall_mem.mpr fun x hx => by
    have hx' : x ∈ l.drop a := List.mem_of_mem_take hx
    have e : l.drop a = (l.drop a₀).drop (a - a₀) := by rw [List.drop_drop]; congr 1; omega
    rw [e] at hx'
    exact List.forall_iff_forall_mem.mp h x (List.mem_of_mem_drop hx')

/-- The same for the whole rest from place `a ≥ a₀`. -/
theorem forall_rest {p : HloOp τ sig (Elt Ideal) → Prop} {l : List (HloOp τ sig (Elt Ideal))} {a₀ : ℕ} (a : ℕ)
    (h : (l.drop a₀).Forall p) (ha : a₀ ≤ a) : (l.drop a).Forall p :=
  List.forall_iff_forall_mem.mpr fun x hx => by
    have e : l.drop a = (l.drop a₀).drop (a - a₀) := by rw [List.drop_drop]; congr 1; omega
    rw [e] at hx
    exact List.forall_iff_forall_mem.mp h x (List.mem_of_mem_drop hx)

/-- What holds of every statement of a list holds of every statement of its first `n`. -/
theorem forall_take {p : HloOp τ sig (Elt Ideal) → Prop} {l : List (HloOp τ sig (Elt Ideal))} (n : ℕ) (h : l.Forall p) :
    (l.take n).Forall p :=
  List.forall_iff_forall_mem.mpr fun x hx => List.forall_iff_forall_mem.mp h x (List.mem_of_mem_take hx)

/-! ## Window 0: the index vectors, the weights, the first propagation -/

/-- Statements 1 … 7: the two index vectors. -/
abbrev g0A : List (HloOp τ sig (Elt Ideal)) := (ops0 (F := Ideal)).take 7
/-- The next 6: the degrees. -/
abbrev g0B : List (HloOp τ sig (Elt Ideal)) := ((ops0 (F := Ideal)).drop 7).take 6
/-- The next 8: the inverse roots (the selection's three statements among them). -/
abbrev g0C : List (HloOp τ sig (Elt Ideal)) := ((ops0 (F := Ideal)).drop 13).take 8
/-- The next 19: the weights. -/
abbrev g0D : List (HloOp τ sig (Elt Ideal)) := ((ops0 (F := Ideal)).drop 21).take 19
/-- The next one: the first product. -/
abbrev g0E : List (HloOp τ sig (Elt Ideal)) := ((ops0 (F := Ideal)).drop 40).take 1
/-- The next 16: the first propagation. -/
abbrev g0P : List (HloOp τ sig (Elt Ideal)) := ((ops0 (F := Ideal)).drop 41).take 16
/-- The rest of the window. -/
abbrev g0R : List (HloOp τ sig (Elt Ideal)) := (ops0 (F := Ideal)).drop 57

set_option maxRecDepth 8192 in
theorem ops0_split : (ops0 : List (HloOp τ sig (Elt Ideal))) = g0A ++ (g0B ++ (g0C ++ (g0D ++ (g0E ++ (g0P ++ g0R))))) := rfl

set_option maxRecDepth 8192 in
/-- From statement 8 on the window writes buffers past the index vectors'. -/
theorem ops0_writes7 : ((ops0 : List (HloOp τ sig (Elt Ideal))).drop 7).Forall (WritesIn 27 82) := by
  simp only [ops0, List.drop]
  exact ⟨writesIn_of (nullary_writes ..) (by decide), writesIn_of (unary_writes ..) (by decide), writesIn_of (nullary_writes ..) (by decide), writesIn_of (unary_writes ..) (by decide), writesIn_of (unary_writes ..) (by decide), writesIn_of (ternary_writes ..) (by decide), writesIn_of (nullary_writes ..) (by decide), writesIn_of (unary_writes ..) (by decide), writesIn_of (binary_writes ..) (by decide), writesIn_of (unary_writes ..) (by decide), writesIn_of (nullary_writes ..) (by decide), writesIn_of (unary_writes ..) (by decide), writesIn_of (unary_writes ..) (by decide), writesIn_of (ternary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (binary_writes ..) (by decide), writesIn_of (binary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide)⟩

set_option maxRecDepth 8192 in
/-- From statement 41 on: past the weights'. -/
theorem ops0_writes40 : ((ops0 : List (HloOp τ sig (Elt Ideal))).drop 40).Forall (WritesIn 60 82) := by
  simp only [ops0, List.drop]
  exact ⟨writesIn_of (binary_writes ..) (by decide), writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide)⟩

set_option maxRecDepth 8192 in
/-- From statement 42 on: past the first product's. -/
theorem ops0_writes41 : ((ops0 : List (HloOp τ sig (Elt Ideal))).drop 41).Forall (WritesIn 61 82) := by
  simp only [ops0, List.drop]
  exact ⟨writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide)⟩

set_option maxRecDepth 8192 in
/-- From statement 58 on: past the first propagation's. -/
theorem ops0_writes57 : ((ops0 : List (HloOp τ sig (Elt Ideal))).drop 57).Forall (WritesIn 77 82) := by
  simp only [ops0, List.drop]
  exact ⟨writesIn_of (unary_writes ..) (by decide), writesIn_of (reshape_writes ..) (by decide), writesIn_of (unary_writes ..) (by decide), writesIn_of (unary_writes ..) (by decide), writesIn_of (binary_writes ..) (by decide)⟩

theorem g0A_rows (V : Valuation τ sig (Elt Ideal)) (ei : Vec Ideal ⟨2, ![2, 800000]⟩ .i32)
    (h : V (Proc.devRef .tc main_arg1) = ei) : after g0A V (Proc.devRef .tc main_v3) = rows ei := by
  simp only [g0A, ops0, List.take]
  after_results
  rw [h]
  rfl

theorem g0A_cols (V : Valuation τ sig (Elt Ideal)) (ei : Vec Ideal ⟨2, ![2, 800000]⟩ .i32)
    (h : V (Proc.devRef .tc main_arg1) = ei) : after g0A V (Proc.devRef .tc main_v6) = cols ei := by
  simp only [g0A, ops0, List.take]
  after_results
  rw [h]
  rfl

theorem g0B_deg (V : Valuation τ sig (Elt Ideal)) (r : IVec ⟨1, ![850000]⟩ 32)
    (h3 : V (Proc.devRef .tc main_v3) = r) : after g0B V (Proc.devRef .tc main_v10) = degOf r := by
  simp only [g0B, ops0, List.take, List.drop]
  after_results
  rw [h3]
  rfl

theorem g0C_dinv (V : Valuation τ sig (Elt Ideal)) (d : FVec Ideal ⟨1, ![50000]⟩ .f32)
    (h10 : V (Proc.devRef .tc main_v10) = d) : after g0C V (Proc.devRef .tc main_v14) = dinvOf d := by
  simp only [g0C, ops0, List.take, List.drop]
  after_results
  rw [h10]
  rfl

set_option maxHeartbeats 1600000 in -- some twenty statements rewritten one by one
theorem g0D_ew (V : Valuation τ sig (Elt Ideal)) (dv : FVec Ideal ⟨1, ![50000]⟩ .f32) (r c : IVec ⟨1, ![850000]⟩ 32)
    (h3 : V (Proc.devRef .tc main_v3) = r) (h6 : V (Proc.devRef .tc main_v6) = c)
    (h14 : V (Proc.devRef .tc main_v14) = dv) : after g0D V (Proc.devRef .tc main_v29) = edgeWOf dv r c := by
  simp only [g0D, ops0, List.take, List.drop]
  after_results
  rw [h3, h6, h14]
  rfl

set_option maxHeartbeats 1600000 in -- sixteen statements rewritten one by one
theorem g0P_prop (V : Valuation τ sig (Elt Ideal)) (r c : IVec ⟨1, ![850000]⟩ 32) (ew : FVec Ideal ⟨1, ![850000]⟩ .f32)
    (hw : FVec Ideal ⟨2, ![50000, 256]⟩ .f32) (h3 : V (Proc.devRef .tc main_v3) = r) (h6 : V (Proc.devRef .tc main_v6) = c)
    (h29 : V (Proc.devRef .tc main_v29) = ew) (h30 : V (Proc.devRef .tc main_v30) = hw) :
    after g0P V (Proc.devRef .tc main_v43) = propOf r c ew hw := by
  simp only [g0P, ops0, List.take, List.drop]
  after_results
  rw [h3, h6, h29, h30]
  rfl

/-- After window 0: the two index vectors, the weights and the first propagation (of the window's own first product). -/
theorem read_window0 (V : Valuation τ sig (Elt Ideal)) :
    after ops0 V (Proc.devRef .tc main_v3) = rows (V (Proc.devRef .tc main_arg1)) ∧
    after ops0 V (Proc.devRef .tc main_v6) = cols (V (Proc.devRef .tc main_arg1)) ∧
    after ops0 V (Proc.devRef .tc main_v29) = edgeW (V (Proc.devRef .tc main_arg1)) ∧
    after ops0 V (Proc.devRef .tc main_v43)
      = prop (V (Proc.devRef .tc main_arg1)) (after ops0 V (Proc.devRef .tc main_v30)) := by
  generalize hei : V (Proc.devRef .tc main_arg1) = ei
  rw [ops0_split, after_append', after_append', after_append', after_append', after_append', after_append']
  -- the buffers each run leaves alone, by the index ranges
  have kB : ∀ (W : Valuation τ sig (Elt Ideal)) (y : Ref sig .tc), y.idx.val < 27 →
      after g0B W (Proc.devRef .tc y) = W (Proc.devRef .tc y) :=
    fun W y hy => after_keep g0B (forall_seg 7 6 ops0_writes7 (le_refl _)) W y (Or.inl hy)
  have kC : ∀ (W : Valuation τ sig (Elt Ideal)) (y : Ref sig .tc), y.idx.val < 27 →
      after g0C W (Proc.devRef .tc y) = W (Proc.devRef .tc y) :=
    fun W y hy => after_keep g0C (forall_seg 13 8 ops0_writes7 (by decide)) W y (Or.inl hy)
  have kD : ∀ (W : Valuation τ sig (Elt Ideal)) (y : Ref sig .tc), y.idx.val < 27 →
      after g0D W (Proc.devRef .tc y) = W (Proc.devRef .tc y) :=
    fun W y hy => after_keep g0D (forall_seg 21 19 ops0_writes7 (by decide)) W y (Or.inl hy)
  have kE : ∀ (W : Valuation τ sig (Elt Ideal)) (y : Ref sig .tc), y.idx.val < 60 →
      after g0E W (Proc.devRef .tc y) = W (Proc.devRef .tc y) :=
    fun W y hy => after_keep g0E (forall_seg 40 1 ops0_writes40 (le_refl _)) W y (Or.inl hy)
  have kP : ∀ (W : Valuation τ sig (Elt Ideal)) (y : Ref sig .tc), y.idx.val < 61 →
      after g0P W (Proc.devRef .tc y) = W (Proc.devRef .tc y) :=
    fun W y hy => after_keep g0P (forall_seg 41 16 ops0_writes41 (le_refl _)) W y (Or.inl hy)
  have kR : ∀ (W : Valuation τ sig (Elt Ideal)) (y : Ref sig .tc), y.idx.val < 77 →
      after g0R W (Proc.devRef .tc y) = W (Proc.devRef .tc y) :=
    fun W y hy => after_keep g0R ops0_writes57 W y (Or.inl hy)
  have hA3 := g0A_rows V ei hei
  have hA6 := g0A_cols V ei hei
  generalize after g0A V = VA at hA3 hA6 ⊢
  have hB10 := g0B_deg VA _ hA3
  have hB3 := (kB VA main_v3 (by decide)).trans hA3
  have hB6 := (kB VA main_v6 (by decide)).trans hA6
  generalize after g0B VA = VB at hB10 hB3 hB6 ⊢
  have hC14 := g0C_dinv VB _ hB10
  have hC3 := (kC VB main_v3 (by decide)).trans hB3
  have hC6 := (kC VB main_v6 (by decide)).trans hB6
  generalize after g0C VB = VC at hC14 hC3 hC6 ⊢
  have hD29 := (g0D_ew VC _ _ _ hC3 hC6 hC14).trans (Cert.Spec.edgeW_eq ei)
  have hD3 := (kD VC main_v3 (by decide)).trans hC3
  have hD6 := (kD VC main_v6 (by decide)).trans hC6
  generalize after g0D VC = VD at hD29 hD3 hD6 ⊢
  have hE29 := (kE VD main_v29 (by decide)).trans hD29
  have hE3 := (kE VD main_v3 (by decide)).trans hD3
  have hE6 := (kE VD main_v6 (by decide)).trans hD6
  generalize after g0E VD = VE at hE29 hE3 hE6 ⊢
  have hP43 : after g0P VE (Proc.devRef .tc main_v43) = prop ei (VE (Proc.devRef .tc main_v30)) :=
    g0P_prop VE _ _ _ _ hE3 hE6 hE29 rfl
  have hP30 := kP VE main_v30 (by decide)
  have hP29 := (kP VE main_v29 (by decide)).trans hE29
  have hP3 := (kP VE main_v3 (by decide)).trans hE3
  have hP6 := (kP VE main_v6 (by decide)).trans hE6
  generalize after g0P VE = VP at hP43 hP30 hP29 hP3 hP6 ⊢
  refine ⟨(kR VP main_v3 (by decide)).trans hP3, (kR VP main_v6 (by decide)).trans hP6,
    (kR VP main_v29 (by decide)).trans hP29, ?_⟩
  rw [kR VP main_v43 (by decide), kR VP main_v30 (by decide), hP30]
  exact hP43

theorem read_rows (V : Valuation τ sig (Elt Ideal)) :
    after ops0 V (Proc.devRef .tc main_v3) = rows (V (Proc.devRef .tc main_arg1)) := (read_window0 V).1

theorem read_cols (V : Valuation τ sig (Elt Ideal)) :
    after ops0 V (Proc.devRef .tc main_v6) = cols (V (Proc.devRef .tc main_arg1)) := (read_window0 V).2.1

theorem read_edgeW (V : Valuation τ sig (Elt Ideal)) :
    after ops0 V (Proc.devRef .tc main_v29) = edgeW (V (Proc.devRef .tc main_arg1)) := (read_window0 V).2.2.1

/-- The first propagation: of the window's own first product. -/
theorem read_prop1 (V : Valuation τ sig (Elt Ideal)) :
    after ops0 V (Proc.devRef .tc main_v43)
      = prop (V (Proc.devRef .tc main_arg1)) (after ops0 V (Proc.devRef .tc main_v30)) := (read_window0 V).2.2.2

/-! ## Window 1: the second propagation -/

/-- The statements before the propagation; the last of them writes the product it gathers from. -/
abbrev g1T : List (HloOp τ sig (Elt Ideal)) := (ops1 (F := Ideal)).take 54
/-- The propagation's 16 statements. -/
abbrev g1P : List (HloOp τ sig (Elt Ideal)) := ((ops1 (F := Ideal)).drop 54).take 16
/-- The rest of the window. -/
abbrev g1R : List (HloOp τ sig (Elt Ideal)) := (ops1 (F := Ideal)).drop 70

set_option maxRecDepth 8192 in
theorem ops1_split : (ops1 : List (HloOp τ sig (Elt Ideal))) = g1T ++ (g1P ++ g1R) := rfl

set_option maxRecDepth 8192 in
/-- From the propagation on the window writes buffers past the product's. -/
theorem ops1_writes54 : ((ops1 : List (HloOp τ sig (Elt Ideal))).drop 54).Forall (WritesIn 136 165) := by
  simp only [ops1, List.drop]
  exact ⟨writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide)⟩

set_option maxRecDepth 8192 in
/-- After the propagation: past its result's. -/
theorem ops1_writes70 : ((ops1 : List (HloOp τ sig (Elt Ideal))).drop 70).Forall (WritesIn 152 165) := by
  simp only [ops1, List.drop]
  exact ⟨writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide)⟩

set_option maxHeartbeats 1600000 in -- sixteen statements rewritten one by one
theorem g1P_prop (V : Valuation τ sig (Elt Ideal)) (r c : IVec ⟨1, ![850000]⟩ 32) (ew : FVec Ideal ⟨1, ![850000]⟩ .f32)
    (hw : FVec Ideal ⟨2, ![50000, 256]⟩ .f32) (h3 : V (Proc.devRef .tc main_v3) = r) (h6 : V (Proc.devRef .tc main_v6) = c)
    (h29 : V (Proc.devRef .tc main_v29) = ew) (hhw : V (Proc.devRef .tc main_v75) = hw) :
    after g1P V (Proc.devRef .tc main_v88) = propOf r c ew hw := by
  simp only [g1P, ops1, List.take, List.drop]
  after_results
  rw [h3, h6, h29, hhw]
  rfl

/-- The second propagation: of the window's own product, given the index vectors and the weights on entry. -/
theorem read_prop2 (V : Valuation τ sig (Elt Ideal)) (ei : Vec Ideal ⟨2, ![2, 800000]⟩ .i32)
    (h3 : V (Proc.devRef .tc main_v3) = rows ei) (h6 : V (Proc.devRef .tc main_v6) = cols ei)
    (h29 : V (Proc.devRef .tc main_v29) = edgeW ei) :
    after ops1 V (Proc.devRef .tc main_v88) = prop ei (after ops1 V (Proc.devRef .tc main_v75)) := by
  rw [ops1_split, after_append', after_append']
  have kT : ∀ (y : Ref sig .tc), y.idx.val < 82 → after g1T V (Proc.devRef .tc y) = V (Proc.devRef .tc y) :=
    fun y hy => after_keep g1T (forall_take 54 ops1_writes) V y (Or.inl hy)
  have hT3 := (kT main_v3 (by decide)).trans h3
  have hT6 := (kT main_v6 (by decide)).trans h6
  have hT29 := (kT main_v29 (by decide)).trans h29
  generalize after g1T V = VT at hT3 hT6 hT29 ⊢
  have hP : after g1P VT (Proc.devRef .tc main_v88) = prop ei (VT (Proc.devRef .tc main_v75)) :=
    g1P_prop VT _ _ _ _ hT3 hT6 hT29 rfl
  have hPhw : after g1P VT (Proc.devRef .tc main_v75) = VT (Proc.devRef .tc main_v75) :=
    after_keep g1P (forall_seg 54 16 ops1_writes54 (le_refl _)) VT main_v75 (Or.inl (by decide))
  generalize after g1P VT = VP at hP hPhw ⊢
  rw [after_keep g1R ops1_writes70 VP main_v88 (Or.inl (by decide)),
    after_keep g1R (forall_rest 70 ops1_writes54 (by decide)) VP main_v75 (Or.inl (by decide)), hPhw]
  exact hP

/-! ## Window 2: the third propagation -/

/-- The statements before the propagation; the last of them writes the product it gathers from. -/
abbrev g2T : List (HloOp τ sig (Elt Ideal)) := (ops2 (F := Ideal)).take 46
/-- The propagation's 16 statements. -/
abbrev g2P : List (HloOp τ sig (Elt Ideal)) := ((ops2 (F := Ideal)).drop 46).take 16
/-- The rest of the window. -/
abbrev g2R : List (HloOp τ sig (Elt Ideal)) := (ops2 (F := Ideal)).drop 62

set_option maxRecDepth 8192 in
theorem ops2_split : (ops2 : List (HloOp τ sig (Elt Ideal))) = g2T ++ (g2P ++ g2R) := rfl

set_option maxRecDepth 8192 in
/-- From the propagation on the window writes buffers past the product's. -/
theorem ops2_writes46 : ((ops2 : List (HloOp τ sig (Elt Ideal))).drop 46).Forall (WritesIn 211 269) := by
  simp only [ops2, List.drop]
  exact ⟨writesIn_of (nullary_writes ..) (by decide), writesIn_of (unary_writes ..) (by decide), writesIn_of (binary_writes ..) (by decide), writesIn_of (nullary_writes ..) (by decide), writesIn_of (unary_writes ..) (by decide), writesIn_of (binary_writes ..) (by decide), writesIn_of (ternary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide)⟩

set_option maxRecDepth 8192 in
/-- After the propagation: past its result's. -/
theorem ops2_writes62 : ((ops2 : List (HloOp τ sig (Elt Ideal))).drop 62).Forall (WritesIn 227 269) := by
  simp only [ops2, List.drop]
  exact ⟨writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide)⟩

set_option maxHeartbeats 1600000 in -- sixteen statements rewritten one by one
theorem g2P_prop (V : Valuation τ sig (Elt Ideal)) (r c : IVec ⟨1, ![850000]⟩ 32) (ew : FVec Ideal ⟨1, ![850000]⟩ .f32)
    (hw : FVec Ideal ⟨2, ![50000, 256]⟩ .f32) (h3 : V (Proc.devRef .tc main_v3) = r) (h6 : V (Proc.devRef .tc main_v6) = c)
    (h29 : V (Proc.devRef .tc main_v29) = ew) (hhw : V (Proc.devRef .tc main_v120) = hw) :
    after g2P V (Proc.devRef .tc main_v133) = propOf r c ew hw := by
  simp only [g2P, ops2, List.take, List.drop]
  after_results
  rw [h3, h6, h29, hhw]
  rfl

/-- The third propagation: of the window's own product, given the index vectors and the weights on entry. -/
theorem read_prop3 (V : Valuation τ sig (Elt Ideal)) (ei : Vec Ideal ⟨2, ![2, 800000]⟩ .i32)
    (h3 : V (Proc.devRef .tc main_v3) = rows ei) (h6 : V (Proc.devRef .tc main_v6) = cols ei)
    (h29 : V (Proc.devRef .tc main_v29) = edgeW ei) :
    after ops2 V (Proc.devRef .tc main_v133) = prop ei (after ops2 V (Proc.devRef .tc main_v120)) := by
  rw [ops2_split, after_append', after_append']
  have kT : ∀ (y : Ref sig .tc), y.idx.val < 165 → after g2T V (Proc.devRef .tc y) = V (Proc.devRef .tc y) :=
    fun y hy => after_keep g2T (forall_take 46 ops2_writes) V y (Or.inl hy)
  have hT3 := (kT main_v3 (by decide)).trans h3
  have hT6 := (kT main_v6 (by decide)).trans h6
  have hT29 := (kT main_v29 (by decide)).trans h29
  generalize after g2T V = VT at hT3 hT6 hT29 ⊢
  have hP : after g2P VT (Proc.devRef .tc main_v133) = prop ei (VT (Proc.devRef .tc main_v120)) :=
    g2P_prop VT _ _ _ _ hT3 hT6 hT29 rfl
  have hPhw : after g2P VT (Proc.devRef .tc main_v120) = VT (Proc.devRef .tc main_v120) :=
    after_keep g2P (forall_seg 46 16 ops2_writes46 (le_refl _)) VT main_v120 (Or.inl (by decide))
  generalize after g2P VT = VP at hP hPhw ⊢
  rw [after_keep g2R ops2_writes62 VP main_v133 (Or.inl (by decide)),
    after_keep g2R (forall_rest 62 ops2_writes46 (by decide)) VP main_v120 (Or.inl (by decide)), hPhw]
  exact hP

end Cert.ReferenceIdeal.RefRun
-- ==== Proof.Ref.Read1.lean ====
/-
  The reference's value, first part: from the arguments to the result of the third graph layer.

  The reference first makes the graph's arrays from the edge list (every edge's target and source, a self loop added
  for every node, and every edge's weight, the product of the inverse square roots of its ends' degrees), then runs
  three graph layers. A layer multiplies its input by a weight matrix, propagates the product along the edges
  (every edge carries its source's row times its weight to its target, the arriving rows added up), and passes
  the result through the batch-norm block: the bias row added, the column means and variances of the sum taken, the
  sum normalised, scaled, shifted and cut off below at zero. Layer 1 multiplies the 50000 × 512 input by the 512 × 256
  weight; layers 2 and 3 multiply the previous layer's result by matrix 0 and matrix 1 of the stacked 256 × 256
  weights; layer `i` uses row `i` of the stacked bias, scale and shift arrays. In the program-free vocabulary:

      h1 = gcnR ei x w0 (row3 cb 0) (row3 g 0) (row3 bt 0)
      h2 = gcnR ei h1 (mat2 ws 0) (row3 cb 1) (row3 g 1) (row3 bt 1)
      h3 = gcnR ei h2 (mat2 ws 1) (row3 cb 2) (row3 g 2) (row3 bt 2)          (= h3R x ei w0 ws cb g bt)

  How a buffer is read. Every operation writes one buffer, once. To read what an operation leaves, the window's list
  is cut just before that operation and the contents at the cut are taken as they are, whatever they are: the
  operation's result is then its function of those contents at its operands, and an operand written before the cut
  holds after the whole window what it held at the cut (one equation per operation, section "One operation at a
  time"). A stage of several operations is these equations substituted into one another (section "Stages"), never a
  comparison of two whole arrays' terms; the stages are chained the same way, across the windows by the fact that a
  window leaves the earlier windows' buffers alone.
-/
import proofs.«146967_j25786983645193_1_alg».proof.Proof.Ref.Ops
import proofs.«146967_j25786983645193_1_alg».proof.Proof.Ref.ReadGraph
import proofs.«146967_j25786983645193_1_alg».proof.Proof.Spec.Net
import Idealize.ShloMosaic.Lib.StackMember

set_option maxRecDepth 16384
set_option maxHeartbeats 1000000

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

/-- A host product with the plain dimension numbers (left operand contracted on its second axis, right on its first,
    no batch axis) is the sum over the contraction coordinate of the products of the entries. -/
theorem dotGeneral_plain_eq {M K N : Nat} (d : DotDims ⟨2, ![M, K]⟩ ⟨2, ![K, N]⟩ ⟨2, ![M, N]⟩)
    (hd : d = DotDims.plain M K N) (prec : Option ContractPrecision)
    (a : FVec Ideal ⟨2, ![M, K]⟩ .f32) (w : FVec Ideal ⟨2, ![K, N]⟩ .f32) :
    Host.dotGeneral d prec a w = Cert.Spec.mm a w := by
  subst hd
  funext i
  obtain ⟨r, k, rfl⟩ : ∃ (r : Fin M) (k : Fin N), i = ix2 r k := ⟨i 0, i 1, eq_ix2 i⟩
  exact StackMember.dotGeneral_plain_apply prec a w r k

/-- The chain that follows the statistics in the batch-norm block: from the biased activation `H`, its column means
    `M`, a scale row `G` and a shift row `B`: `G · (H − M)`, times the reciprocal square root of the column variances
    of `H` plus ε, plus `B`, cut off below at zero. With `M` the column means of `H` it is the block itself. -/
def bnChain (H : Vec Ideal Cert.Spec.S50000x256 .f32) (M G B : Vec Ideal Cert.Spec.S256 .f32) :
    Vec Ideal Cert.Spec.S50000x256 .f32 :=
  Cert.Spec.reluR (addf (F := Ideal) (φ := .f32)
    (mulf (F := Ideal) (φ := .f32)
      (mulf (F := Ideal) (φ := .f32) (Cert.Spec.spread G) (subf (F := Ideal) (φ := .f32) H (Cert.Spec.spread M)))
      (Cert.Spec.spread (Host.rsqrt (F := Ideal) (φ := .f32) (addf (F := Ideal) (φ := .f32) (Cert.Spec.varR H)
        (broadcastInDim Cert.Spec.S256 ![] Cert.Spec.bcast_S_S256 (constant (F := Ideal) Cert.Spec.S_ .f32 0x3727C5AC#32))))))
    (Cert.Spec.spread B))

variable (m : (ℓ : Loc nD τ sig) → Buf (Elt Ideal) ℓ) (c : Dev nD)

/-! ## One operation at a time

For each operation the stages below pass through: what its buffer holds after its window is its function of what
its operands' buffers hold after that window. -/

/-! ### Window 0 -/

theorem op0_main_v30 : val0 m c (Proc.devRef .tc main_v30) = Host.dotGeneral (F := Ideal) (φ₁ := .f32) (φ₂ := .f32) dot_S50000x512_S512x256_S50000x256_1_0_0_1_n_n none (val0 m c (Proc.devRef .tc main_arg0) : Vec Ideal S50000x512 .f32) (val0 m c (Proc.devRef .tc main_arg2) : Vec Ideal S512x256 .f32) := by
  simp only [val0_eq]
  rw [← List.take_append_drop 40 (ops0 (F := Ideal)), StableHlo.after_append]
  generalize after (List.take 40 (ops0 (F := Ideal))) (fun b => m (c, b)) = W
  simp only [List.drop_succ_cons, List.drop_zero]
  after_results_simp
  try rfl

theorem op0_main_v44 : val0 m c (Proc.devRef .tc main_v44) = extractStridedSlice S1x256 ![0, 0] (val0 m c (Proc.devRef .tc main_arg4) : Vec Ideal S3x256 .f32) slices_S3x256_S1x256_0_0 := by
  simp only [val0_eq]
  rw [← List.take_append_drop 57 (ops0 (F := Ideal)), StableHlo.after_append]
  generalize after (List.take 57 (ops0 (F := Ideal))) (fun b => m (c, b)) = W
  simp only [List.drop_succ_cons, List.drop_zero]
  after_results_simp
  try rfl

theorem op0_main_v45 : val0 m c (Proc.devRef .tc main_v45) = shapeCast S256 (val0 m c (Proc.devRef .tc main_v44) : Vec Ideal S1x256 .f32) shapeCasts_S1x256_S256 := by
  simp only [val0_eq]
  rw [← List.take_append_drop 58 (ops0 (F := Ideal)), StableHlo.after_append]
  generalize after (List.take 58 (ops0 (F := Ideal))) (fun b => m (c, b)) = W
  simp only [List.drop_succ_cons, List.drop_zero]
  after_results_simp
  try rfl

theorem op0_main_v46 : val0 m c (Proc.devRef .tc main_v46) = broadcastInDim S1x256 ![1] bcast_S256_S1x256_1 (val0 m c (Proc.devRef .tc main_v45) : Vec Ideal S256 .f32) := by
  simp only [val0_eq]
  rw [← List.take_append_drop 59 (ops0 (F := Ideal)), StableHlo.after_append]
  generalize after (List.take 59 (ops0 (F := Ideal))) (fun b => m (c, b)) = W
  simp only [List.drop_succ_cons, List.drop_zero]
  after_results_simp
  try rfl

theorem op0_main_v47 : val0 m c (Proc.devRef .tc main_v47) = broadcastInDim S50000x256 ![0, 1] bcast_S1x256_S50000x256_0_1 (val0 m c (Proc.devRef .tc main_v46) : Vec Ideal S1x256 .f32) := by
  simp only [val0_eq]
  rw [← List.take_append_drop 60 (ops0 (F := Ideal)), StableHlo.after_append]
  generalize after (List.take 60 (ops0 (F := Ideal))) (fun b => m (c, b)) = W
  simp only [List.drop_succ_cons, List.drop_zero]
  after_results_simp
  try rfl

theorem op0_main_v48 : val0 m c (Proc.devRef .tc main_v48) = addf (F := Ideal) (φ := .f32) (val0 m c (Proc.devRef .tc main_v43) : Vec Ideal S50000x256 .f32) (val0 m c (Proc.devRef .tc main_v47) : Vec Ideal S50000x256 .f32) := by
  simp only [val0_eq]
  rw [← List.take_append_drop 61 (ops0 (F := Ideal)), StableHlo.after_append]
  generalize after (List.take 61 (ops0 (F := Ideal))) (fun b => m (c, b)) = W
  simp only [List.drop_succ_cons, List.drop_zero]
  after_results_simp
  try rfl

/-! ### Window 1 -/

theorem op1_main_v49 : val1 m c (Proc.devRef .tc main_v49) = extractStridedSlice S1x256 ![0, 0] (val1 m c (Proc.devRef .tc main_arg5) : Vec Ideal S3x256 .f32) slices_S3x256_S1x256_0_0 := by
  simp only [val1_eq]
  rw [← List.take_append_drop 0 (ops1 (F := Ideal)), StableHlo.after_append]
  generalize after (List.take 0 (ops1 (F := Ideal))) (val0 m c) = W
  simp only [List.drop_succ_cons, List.drop_zero]
  after_results_simp
  try rfl

theorem op1_main_v50 : val1 m c (Proc.devRef .tc main_v50) = shapeCast S256 (val1 m c (Proc.devRef .tc main_v49) : Vec Ideal S1x256 .f32) shapeCasts_S1x256_S256 := by
  simp only [val1_eq]
  rw [← List.take_append_drop 1 (ops1 (F := Ideal)), StableHlo.after_append]
  generalize after (List.take 1 (ops1 (F := Ideal))) (val0 m c) = W
  simp only [List.drop_succ_cons, List.drop_zero]
  after_results_simp
  try rfl

theorem op1_main_v51 : val1 m c (Proc.devRef .tc main_v51) = extractStridedSlice S1x256 ![0, 0] (val1 m c (Proc.devRef .tc main_arg6) : Vec Ideal S3x256 .f32) slices_S3x256_S1x256_0_0 := by
  simp only [val1_eq]
  rw [← List.take_append_drop 2 (ops1 (F := Ideal)), StableHlo.after_append]
  generalize after (List.take 2 (ops1 (F := Ideal))) (val0 m c) = W
  simp only [List.drop_succ_cons, List.drop_zero]
  after_results_simp
  try rfl

theorem op1_main_v52 : val1 m c (Proc.devRef .tc main_v52) = shapeCast S256 (val1 m c (Proc.devRef .tc main_v51) : Vec Ideal S1x256 .f32) shapeCasts_S1x256_S256 := by
  simp only [val1_eq]
  rw [← List.take_append_drop 3 (ops1 (F := Ideal)), StableHlo.after_append]
  generalize after (List.take 3 (ops1 (F := Ideal))) (val0 m c) = W
  simp only [List.drop_succ_cons, List.drop_zero]
  after_results_simp
  try rfl

theorem op1_main_cst_9 : val1 m c (Proc.devRef .tc main_cst_9) = constant (F := Ideal) S_ .f32 0x00000000#32 := by
  simp only [val1_eq]
  rw [← List.take_append_drop 4 (ops1 (F := Ideal)), StableHlo.after_append]
  generalize after (List.take 4 (ops1 (F := Ideal))) (val0 m c) = W
  simp only [List.drop_succ_cons, List.drop_zero]
  after_results_simp
  try rfl

theorem op1_main_v53 : val1 m c (Proc.devRef .tc main_v53) = Host.reduceAdd (F := Ideal) (φ := .f32) (val1 m c (Proc.devRef .tc main_v48) : Vec Ideal S50000x256 .f32) (val1 m c (Proc.devRef .tc main_cst_9) : Vec Ideal S_ .f32) reducesTo_S50000x256_S256_d0 h_S_ := by
  simp only [val1_eq]
  rw [← List.take_append_drop 5 (ops1 (F := Ideal)), StableHlo.after_append]
  generalize after (List.take 5 (ops1 (F := Ideal))) (val0 m c) = W
  simp only [List.drop_succ_cons, List.drop_zero]
  after_results_simp
  try rfl

theorem op1_main_cst_10 : val1 m c (Proc.devRef .tc main_cst_10) = constant (F := Ideal) S_ .f32 0x47435000#32 := by
  simp only [val1_eq]
  rw [← List.take_append_drop 6 (ops1 (F := Ideal)), StableHlo.after_append]
  generalize after (List.take 6 (ops1 (F := Ideal))) (val0 m c) = W
  simp only [List.drop_succ_cons, List.drop_zero]
  after_results_simp
  try rfl

theorem op1_main_v54 : val1 m c (Proc.devRef .tc main_v54) = broadcastInDim S256 ![] bcast_S_S256 (val1 m c (Proc.devRef .tc main_cst_10) : Vec Ideal S_ .f32) := by
  simp only [val1_eq]
  rw [← List.take_append_drop 7 (ops1 (F := Ideal)), StableHlo.after_append]
  generalize after (List.take 7 (ops1 (F := Ideal))) (val0 m c) = W
  simp only [List.drop_succ_cons, List.drop_zero]
  after_results_simp
  try rfl

theorem op1_main_v55 : val1 m c (Proc.devRef .tc main_v55) = Host.divf (F := Ideal) (φ := .f32) (val1 m c (Proc.devRef .tc main_v53) : Vec Ideal S256 .f32) (val1 m c (Proc.devRef .tc main_v54) : Vec Ideal S256 .f32) := by
  simp only [val1_eq]
  rw [← List.take_append_drop 8 (ops1 (F := Ideal)), StableHlo.after_append]
  generalize after (List.take 8 (ops1 (F := Ideal))) (val0 m c) = W
  simp only [List.drop_succ_cons, List.drop_zero]
  after_results_simp
  try rfl

theorem op1_main_c_11 : val1 m c (Proc.devRef .tc main_c_11) = constantI S_ 32 0#32 := by
  simp only [val1_eq]
  rw [← List.take_append_drop 9 (ops1 (F := Ideal)), StableHlo.after_append]
  generalize after (List.take 9 (ops1 (F := Ideal))) (val0 m c) = W
  simp only [List.drop_succ_cons, List.drop_zero]
  after_results_simp
  try rfl

theorem op1_main_call1_cst : val1 m c (Proc.devRef .tc main_call1_cst) = constant (F := Ideal) S_ .f32 0x00000000#32 := by
  simp only [val1_eq]
  rw [← List.take_append_drop 10 (ops1 (F := Ideal)), StableHlo.after_append]
  generalize after (List.take 10 (ops1 (F := Ideal))) (val0 m c) = W
  simp only [List.drop_succ_cons, List.drop_zero]
  after_results_simp
  try rfl

theorem op1_main_call1_v0 : val1 m c (Proc.devRef .tc main_call1_v0) = Host.reduceAdd (F := Ideal) (φ := .f32) (val1 m c (Proc.devRef .tc main_v48) : Vec Ideal S50000x256 .f32) (val1 m c (Proc.devRef .tc main_call1_cst) : Vec Ideal S_ .f32) reducesTo_S50000x256_S256_d0 h_S_ := by
  simp only [val1_eq]
  rw [← List.take_append_drop 11 (ops1 (F := Ideal)), StableHlo.after_append]
  generalize after (List.take 11 (ops1 (F := Ideal))) (val0 m c) = W
  simp only [List.drop_succ_cons, List.drop_zero]
  after_results_simp
  try rfl

theorem op1_main_call1_v1 : val1 m c (Proc.devRef .tc main_call1_v1) = broadcastInDim S1x256 ![1] bcast_S256_S1x256_1 (val1 m c (Proc.devRef .tc main_call1_v0) : Vec Ideal S256 .f32) := by
  simp only [val1_eq]
  rw [← List.take_append_drop 12 (ops1 (F := Ideal)), StableHlo.after_append]
  generalize after (List.take 12 (ops1 (F := Ideal))) (val0 m c) = W
  simp only [List.drop_succ_cons, List.drop_zero]
  after_results_simp
  try rfl

theorem op1_main_call1_cst_0 : val1 m c (Proc.devRef .tc main_call1_cst_0) = constant (F := Ideal) S_ .f32 0x47435000#32 := by
  simp only [val1_eq]
  rw [← List.take_append_drop 13 (ops1 (F := Ideal)), StableHlo.after_append]
  generalize after (List.take 13 (ops1 (F := Ideal))) (val0 m c) = W
  simp only [List.drop_succ_cons, List.drop_zero]
  after_results_simp
  try rfl

theorem op1_main_call1_v2 : val1 m c (Proc.devRef .tc main_call1_v2) = broadcastInDim S1x256 ![] bcast_S_S1x256 (val1 m c (Proc.devRef .tc main_call1_cst_0) : Vec Ideal S_ .f32) := by
  simp only [val1_eq]
  rw [← List.take_append_drop 14 (ops1 (F := Ideal)), StableHlo.after_append]
  generalize after (List.take 14 (ops1 (F := Ideal))) (val0 m c) = W
  simp only [List.drop_succ_cons, List.drop_zero]
  after_results_simp
  try rfl

theorem op1_main_call1_v3 : val1 m c (Proc.devRef .tc main_call1_v3) = Host.divf (F := Ideal) (φ := .f32) (val1 m c (Proc.devRef .tc main_call1_v1) : Vec Ideal S1x256 .f32) (val1 m c (Proc.devRef .tc main_call1_v2) : Vec Ideal S1x256 .f32) := by
  simp only [val1_eq]
  rw [← List.take_append_drop 15 (ops1 (F := Ideal)), StableHlo.after_append]
  generalize after (List.take 15 (ops1 (F := Ideal))) (val0 m c) = W
  simp only [List.drop_succ_cons, List.drop_zero]
  after_results_simp
  try rfl

theorem op1_main_call1_v4 : val1 m c (Proc.devRef .tc main_call1_v4) = broadcastInDim S50000x256 ![0, 1] bcast_S1x256_S50000x256_0_1 (val1 m c (Proc.devRef .tc main_call1_v3) : Vec Ideal S1x256 .f32) := by
  simp only [val1_eq]
  rw [← List.take_append_drop 16 (ops1 (F := Ideal)), StableHlo.after_append]
  generalize after (List.take 16 (ops1 (F := Ideal))) (val0 m c) = W
  simp only [List.drop_succ_cons, List.drop_zero]
  after_results_simp
  try rfl

theorem op1_main_call1_v5 : val1 m c (Proc.devRef .tc main_call1_v5) = subf (F := Ideal) (φ := .f32) (val1 m c (Proc.devRef .tc main_v48) : Vec Ideal S50000x256 .f32) (val1 m c (Proc.devRef .tc main_call1_v4) : Vec Ideal S50000x256 .f32) := by
  simp only [val1_eq]
  rw [← List.take_append_drop 17 (ops1 (F := Ideal)), StableHlo.after_append]
  generalize after (List.take 17 (ops1 (F := Ideal))) (val0 m c) = W
  simp only [List.drop_succ_cons, List.drop_zero]
  after_results_simp
  try rfl

theorem op1_main_call1_v6 : val1 m c (Proc.devRef .tc main_call1_v6) = mulf (F := Ideal) (φ := .f32) (val1 m c (Proc.devRef .tc main_call1_v5) : Vec Ideal S50000x256 .f32) (val1 m c (Proc.devRef .tc main_call1_v5) : Vec Ideal S50000x256 .f32) := by
  simp only [val1_eq]
  rw [← List.take_append_drop 18 (ops1 (F := Ideal)), StableHlo.after_append]
  generalize after (List.take 18 (ops1 (F := Ideal))) (val0 m c) = W
  simp only [List.drop_succ_cons, List.drop_zero]
  after_results_simp
  try rfl

theorem op1_main_call1_v7 : val1 m c (Proc.devRef .tc main_call1_v7) = sitofp (F := Ideal) .f32 (val1 m c (Proc.devRef .tc main_c_11) : Vec Ideal S_ .i32) := by
  simp only [val1_eq]
  rw [← List.take_append_drop 19 (ops1 (F := Ideal)), StableHlo.after_append]
  generalize after (List.take 19 (ops1 (F := Ideal))) (val0 m c) = W
  simp only [List.drop_succ_cons, List.drop_zero]
  after_results_simp
  try rfl

theorem op1_main_call1_cst_1 : val1 m c (Proc.devRef .tc main_call1_cst_1) = constant (F := Ideal) S_ .f32 0x47435000#32 := by
  simp only [val1_eq]
  rw [← List.take_append_drop 20 (ops1 (F := Ideal)), StableHlo.after_append]
  generalize after (List.take 20 (ops1 (F := Ideal))) (val0 m c) = W
  simp only [List.drop_succ_cons, List.drop_zero]
  after_results_simp
  try rfl

theorem op1_main_call1_v8 : val1 m c (Proc.devRef .tc main_call1_v8) = subf (F := Ideal) (φ := .f32) (val1 m c (Proc.devRef .tc main_call1_cst_1) : Vec Ideal S_ .f32) (val1 m c (Proc.devRef .tc main_call1_v7) : Vec Ideal S_ .f32) := by
  simp only [val1_eq]
  rw [← List.take_append_drop 21 (ops1 (F := Ideal)), StableHlo.after_append]
  generalize after (List.take 21 (ops1 (F := Ideal))) (val0 m c) = W
  simp only [List.drop_succ_cons, List.drop_zero]
  after_results_simp
  try rfl

theorem op1_main_call1_cst_2 : val1 m c (Proc.devRef .tc main_call1_cst_2) = constant (F := Ideal) S_ .f32 0x00000000#32 := by
  simp only [val1_eq]
  rw [← List.take_append_drop 22 (ops1 (F := Ideal)), StableHlo.after_append]
  generalize after (List.take 22 (ops1 (F := Ideal))) (val0 m c) = W
  simp only [List.drop_succ_cons, List.drop_zero]
  after_results_simp
  try rfl

theorem op1_main_call1_v9 : val1 m c (Proc.devRef .tc main_call1_v9) = Host.reduceAdd (F := Ideal) (φ := .f32) (val1 m c (Proc.devRef .tc main_call1_v6) : Vec Ideal S50000x256 .f32) (val1 m c (Proc.devRef .tc main_call1_cst_2) : Vec Ideal S_ .f32) reducesTo_S50000x256_S256_d0 h_S_ := by
  simp only [val1_eq]
  rw [← List.take_append_drop 23 (ops1 (F := Ideal)), StableHlo.after_append]
  generalize after (List.take 23 (ops1 (F := Ideal))) (val0 m c) = W
  simp only [List.drop_succ_cons, List.drop_zero]
  after_results_simp
  try rfl

theorem op1_main_call1_v10 : val1 m c (Proc.devRef .tc main_call1_v10) = broadcastInDim S256 ![] bcast_S_S256 (val1 m c (Proc.devRef .tc main_call1_v8) : Vec Ideal S_ .f32) := by
  simp only [val1_eq]
  rw [← List.take_append_drop 24 (ops1 (F := Ideal)), StableHlo.after_append]
  generalize after (List.take 24 (ops1 (F := Ideal))) (val0 m c) = W
  simp only [List.drop_succ_cons, List.drop_zero]
  after_results_simp
  try rfl

theorem op1_main_call1_v11 : val1 m c (Proc.devRef .tc main_call1_v11) = Host.divf (F := Ideal) (φ := .f32) (val1 m c (Proc.devRef .tc main_call1_v9) : Vec Ideal S256 .f32) (val1 m c (Proc.devRef .tc main_call1_v10) : Vec Ideal S256 .f32) := by
  simp only [val1_eq]
  rw [← List.take_append_drop 25 (ops1 (F := Ideal)), StableHlo.after_append]
  generalize after (List.take 25 (ops1 (F := Ideal))) (val0 m c) = W
  simp only [List.drop_succ_cons, List.drop_zero]
  after_results_simp
  try rfl

theorem op1_main_call1_cst_3 : val1 m c (Proc.devRef .tc main_call1_cst_3) = constant (F := Ideal) S_ .f32 0x00000000#32 := by
  simp only [val1_eq]
  rw [← List.take_append_drop 26 (ops1 (F := Ideal)), StableHlo.after_append]
  generalize after (List.take 26 (ops1 (F := Ideal))) (val0 m c) = W
  simp only [List.drop_succ_cons, List.drop_zero]
  after_results_simp
  try rfl

theorem op1_main_call1_v12 : val1 m c (Proc.devRef .tc main_call1_v12) = cmpf (F := Ideal) (φ := .f32) .ogt (val1 m c (Proc.devRef .tc main_call1_v8) : Vec Ideal S_ .f32) (val1 m c (Proc.devRef .tc main_call1_cst_3) : Vec Ideal S_ .f32) := by
  simp only [val1_eq]
  rw [← List.take_append_drop 27 (ops1 (F := Ideal)), StableHlo.after_append]
  generalize after (List.take 27 (ops1 (F := Ideal))) (val0 m c) = W
  simp only [List.drop_succ_cons, List.drop_zero]
  after_results_simp
  try rfl

theorem op1_main_call1_cst_4 : val1 m c (Proc.devRef .tc main_call1_cst_4) = constant (F := Ideal) S_ .f32 0x7FC00000#32 := by
  simp only [val1_eq]
  rw [← List.take_append_drop 28 (ops1 (F := Ideal)), StableHlo.after_append]
  generalize after (List.take 28 (ops1 (F := Ideal))) (val0 m c) = W
  simp only [List.drop_succ_cons, List.drop_zero]
  after_results_simp
  try rfl

theorem op1_main_call1_call0_v0 : val1 m c (Proc.devRef .tc main_call1_call0_v0) = id (val1 m c (Proc.devRef .tc main_call1_cst_4) : Vec Ideal S_ .f32) := by
  simp only [val1_eq]
  rw [← List.take_append_drop 29 (ops1 (F := Ideal)), StableHlo.after_append]
  generalize after (List.take 29 (ops1 (F := Ideal))) (val0 m c) = W
  simp only [List.drop_succ_cons, List.drop_zero]
  after_results_simp
  try rfl

theorem op1_main_call1_call0_v1 : val1 m c (Proc.devRef .tc main_call1_call0_v1) = broadcastInDim S256 ![] bcast_S_S256 (val1 m c (Proc.devRef .tc main_call1_call0_v0) : Vec Ideal S_ .f32) := by
  simp only [val1_eq]
  rw [← List.take_append_drop 30 (ops1 (F := Ideal)), StableHlo.after_append]
  generalize after (List.take 30 (ops1 (F := Ideal))) (val0 m c) = W
  simp only [List.drop_succ_cons, List.drop_zero]
  after_results_simp
  try rfl

theorem op1_main_v56 : val1 m c (Proc.devRef .tc main_v56) = select (broadcastInDim S256 ![] bcast_S_S256 (val1 m c (Proc.devRef .tc main_call1_v12) : Vec Ideal S_ .i1)) (val1 m c (Proc.devRef .tc main_call1_v11) : Vec Ideal S256 .f32) (val1 m c (Proc.devRef .tc main_call1_call0_v1) : Vec Ideal S256 .f32) := by
  simp only [val1_eq]
  rw [← List.take_append_drop 31 (ops1 (F := Ideal)), StableHlo.after_append]
  generalize after (List.take 31 (ops1 (F := Ideal))) (val0 m c) = W
  simp only [List.drop_succ_cons, List.drop_zero]
  after_results_simp
  try rfl

theorem op1_main_v57 : val1 m c (Proc.devRef .tc main_v57) = broadcastInDim S1x256 ![1] bcast_S256_S1x256_1 (val1 m c (Proc.devRef .tc main_v55) : Vec Ideal S256 .f32) := by
  simp only [val1_eq]
  rw [← List.take_append_drop 32 (ops1 (F := Ideal)), StableHlo.after_append]
  generalize after (List.take 32 (ops1 (F := Ideal))) (val0 m c) = W
  simp only [List.drop_succ_cons, List.drop_zero]
  after_results_simp
  try rfl

theorem op1_main_v58 : val1 m c (Proc.devRef .tc main_v58) = broadcastInDim S50000x256 ![0, 1] bcast_S1x256_S50000x256_0_1 (val1 m c (Proc.devRef .tc main_v57) : Vec Ideal S1x256 .f32) := by
  simp only [val1_eq]
  rw [← List.take_append_drop 33 (ops1 (F := Ideal)), StableHlo.after_append]
  generalize after (List.take 33 (ops1 (F := Ideal))) (val0 m c) = W
  simp only [List.drop_succ_cons, List.drop_zero]
  after_results_simp
  try rfl

theorem op1_main_v59 : val1 m c (Proc.devRef .tc main_v59) = subf (F := Ideal) (φ := .f32) (val1 m c (Proc.devRef .tc main_v48) : Vec Ideal S50000x256 .f32) (val1 m c (Proc.devRef .tc main_v58) : Vec Ideal S50000x256 .f32) := by
  simp only [val1_eq]
  rw [← List.take_append_drop 34 (ops1 (F := Ideal)), StableHlo.after_append]
  generalize after (List.take 34 (ops1 (F := Ideal))) (val0 m c) = W
  simp only [List.drop_succ_cons, List.drop_zero]
  after_results_simp
  try rfl

theorem op1_main_v60 : val1 m c (Proc.devRef .tc main_v60) = broadcastInDim S1x256 ![1] bcast_S256_S1x256_1 (val1 m c (Proc.devRef .tc main_v50) : Vec Ideal S256 .f32) := by
  simp only [val1_eq]
  rw [← List.take_append_drop 35 (ops1 (F := Ideal)), StableHlo.after_append]
  generalize after (List.take 35 (ops1 (F := Ideal))) (val0 m c) = W
  simp only [List.drop_succ_cons, List.drop_zero]
  after_results_simp
  try rfl

theorem op1_main_v61 : val1 m c (Proc.devRef .tc main_v61) = broadcastInDim S50000x256 ![0, 1] bcast_S1x256_S50000x256_0_1 (val1 m c (Proc.devRef .tc main_v60) : Vec Ideal S1x256 .f32) := by
  simp only [val1_eq]
  rw [← List.take_append_drop 36 (ops1 (F := Ideal)), StableHlo.after_append]
  generalize after (List.take 36 (ops1 (F := Ideal))) (val0 m c) = W
  simp only [List.drop_succ_cons, List.drop_zero]
  after_results_simp
  try rfl

theorem op1_main_v62 : val1 m c (Proc.devRef .tc main_v62) = mulf (F := Ideal) (φ := .f32) (val1 m c (Proc.devRef .tc main_v61) : Vec Ideal S50000x256 .f32) (val1 m c (Proc.devRef .tc main_v59) : Vec Ideal S50000x256 .f32) := by
  simp only [val1_eq]
  rw [← List.take_append_drop 37 (ops1 (F := Ideal)), StableHlo.after_append]
  generalize after (List.take 37 (ops1 (F := Ideal))) (val0 m c) = W
  simp only [List.drop_succ_cons, List.drop_zero]
  after_results_simp
  try rfl

theorem op1_main_cst_12 : val1 m c (Proc.devRef .tc main_cst_12) = constant (F := Ideal) S_ .f32 0x3727C5AC#32 := by
  simp only [val1_eq]
  rw [← List.take_append_drop 38 (ops1 (F := Ideal)), StableHlo.after_append]
  generalize after (List.take 38 (ops1 (F := Ideal))) (val0 m c) = W
  simp only [List.drop_succ_cons, List.drop_zero]
  after_results_simp
  try rfl

theorem op1_main_v63 : val1 m c (Proc.devRef .tc main_v63) = broadcastInDim S256 ![] bcast_S_S256 (val1 m c (Proc.devRef .tc main_cst_12) : Vec Ideal S_ .f32) := by
  simp only [val1_eq]
  rw [← List.take_append_drop 39 (ops1 (F := Ideal)), StableHlo.after_append]
  generalize after (List.take 39 (ops1 (F := Ideal))) (val0 m c) = W
  simp only [List.drop_succ_cons, List.drop_zero]
  after_results_simp
  try rfl

theorem op1_main_v64 : val1 m c (Proc.devRef .tc main_v64) = addf (F := Ideal) (φ := .f32) (val1 m c (Proc.devRef .tc main_v56) : Vec Ideal S256 .f32) (val1 m c (Proc.devRef .tc main_v63) : Vec Ideal S256 .f32) := by
  simp only [val1_eq]
  rw [← List.take_append_drop 40 (ops1 (F := Ideal)), StableHlo.after_append]
  generalize after (List.take 40 (ops1 (F := Ideal))) (val0 m c) = W
  simp only [List.drop_succ_cons, List.drop_zero]
  after_results_simp
  try rfl

theorem op1_main_v65 : val1 m c (Proc.devRef .tc main_v65) = Host.rsqrt (F := Ideal) (φ := .f32) (val1 m c (Proc.devRef .tc main_v64) : Vec Ideal S256 .f32) := by
  simp only [val1_eq]
  rw [← List.take_append_drop 41 (ops1 (F := Ideal)), StableHlo.after_append]
  generalize after (List.take 41 (ops1 (F := Ideal))) (val0 m c) = W
  simp only [List.drop_succ_cons, List.drop_zero]
  after_results_simp
  try rfl

theorem op1_main_v66 : val1 m c (Proc.devRef .tc main_v66) = broadcastInDim S1x256 ![1] bcast_S256_S1x256_1 (val1 m c (Proc.devRef .tc main_v65) : Vec Ideal S256 .f32) := by
  simp only [val1_eq]
  rw [← List.take_append_drop 42 (ops1 (F := Ideal)), StableHlo.after_append]
  generalize after (List.take 42 (ops1 (F := Ideal))) (val0 m c) = W
  simp only [List.drop_succ_cons, List.drop_zero]
  after_results_simp
  try rfl

theorem op1_main_v67 : val1 m c (Proc.devRef .tc main_v67) = broadcastInDim S50000x256 ![0, 1] bcast_S1x256_S50000x256_0_1 (val1 m c (Proc.devRef .tc main_v66) : Vec Ideal S1x256 .f32) := by
  simp only [val1_eq]
  rw [← List.take_append_drop 43 (ops1 (F := Ideal)), StableHlo.after_append]
  generalize after (List.take 43 (ops1 (F := Ideal))) (val0 m c) = W
  simp only [List.drop_succ_cons, List.drop_zero]
  after_results_simp
  try rfl

theorem op1_main_v68 : val1 m c (Proc.devRef .tc main_v68) = mulf (F := Ideal) (φ := .f32) (val1 m c (Proc.devRef .tc main_v62) : Vec Ideal S50000x256 .f32) (val1 m c (Proc.devRef .tc main_v67) : Vec Ideal S50000x256 .f32) := by
  simp only [val1_eq]
  rw [← List.take_append_drop 44 (ops1 (F := Ideal)), StableHlo.after_append]
  generalize after (List.take 44 (ops1 (F := Ideal))) (val0 m c) = W
  simp only [List.drop_succ_cons, List.drop_zero]
  after_results_simp
  try rfl

theorem op1_main_v69 : val1 m c (Proc.devRef .tc main_v69) = broadcastInDim S1x256 ![1] bcast_S256_S1x256_1 (val1 m c (Proc.devRef .tc main_v52) : Vec Ideal S256 .f32) := by
  simp only [val1_eq]
  rw [← List.take_append_drop 45 (ops1 (F := Ideal)), StableHlo.after_append]
  generalize after (List.take 45 (ops1 (F := Ideal))) (val0 m c) = W
  simp only [List.drop_succ_cons, List.drop_zero]
  after_results_simp
  try rfl

theorem op1_main_v70 : val1 m c (Proc.devRef .tc main_v70) = broadcastInDim S50000x256 ![0, 1] bcast_S1x256_S50000x256_0_1 (val1 m c (Proc.devRef .tc main_v69) : Vec Ideal S1x256 .f32) := by
  simp only [val1_eq]
  rw [← List.take_append_drop 46 (ops1 (F := Ideal)), StableHlo.after_append]
  generalize after (List.take 46 (ops1 (F := Ideal))) (val0 m c) = W
  simp only [List.drop_succ_cons, List.drop_zero]
  after_results_simp
  try rfl

theorem op1_main_v71 : val1 m c (Proc.devRef .tc main_v71) = addf (F := Ideal) (φ := .f32) (val1 m c (Proc.devRef .tc main_v68) : Vec Ideal S50000x256 .f32) (val1 m c (Proc.devRef .tc main_v70) : Vec Ideal S50000x256 .f32) := by
  simp only [val1_eq]
  rw [← List.take_append_drop 47 (ops1 (F := Ideal)), StableHlo.after_append]
  generalize after (List.take 47 (ops1 (F := Ideal))) (val0 m c) = W
  simp only [List.drop_succ_cons, List.drop_zero]
  after_results_simp
  try rfl

theorem op1_main_call2_cst : val1 m c (Proc.devRef .tc main_call2_cst) = constant (F := Ideal) S_ .f32 0x00000000#32 := by
  simp only [val1_eq]
  rw [← List.take_append_drop 48 (ops1 (F := Ideal)), StableHlo.after_append]
  generalize after (List.take 48 (ops1 (F := Ideal))) (val0 m c) = W
  simp only [List.drop_succ_cons, List.drop_zero]
  after_results_simp
  try rfl

theorem op1_main_call2_v0 : val1 m c (Proc.devRef .tc main_call2_v0) = broadcastInDim S50000x256 ![] bcast_S_S50000x256 (val1 m c (Proc.devRef .tc main_call2_cst) : Vec Ideal S_ .f32) := by
  simp only [val1_eq]
  rw [← List.take_append_drop 49 (ops1 (F := Ideal)), StableHlo.after_append]
  generalize after (List.take 49 (ops1 (F := Ideal))) (val0 m c) = W
  simp only [List.drop_succ_cons, List.drop_zero]
  after_results_simp
  try rfl

theorem op1_main_v72 : val1 m c (Proc.devRef .tc main_v72) = maximumf (F := Ideal) (φ := .f32) (val1 m c (Proc.devRef .tc main_v71) : Vec Ideal S50000x256 .f32) (val1 m c (Proc.devRef .tc main_call2_v0) : Vec Ideal S50000x256 .f32) := by
  simp only [val1_eq]
  rw [← List.take_append_drop 50 (ops1 (F := Ideal)), StableHlo.after_append]
  generalize after (List.take 50 (ops1 (F := Ideal))) (val0 m c) = W
  simp only [List.drop_succ_cons, List.drop_zero]
  after_results_simp
  try rfl

theorem op1_main_v73 : val1 m c (Proc.devRef .tc main_v73) = extractStridedSlice S1x256x256 ![0, 0, 0] (val1 m c (Proc.devRef .tc main_arg3) : Vec Ideal S2x256x256 .f32) slices_S2x256x256_S1x256x256_0_0_0 := by
  simp only [val1_eq]
  rw [← List.take_append_drop 51 (ops1 (F := Ideal)), StableHlo.after_append]
  generalize after (List.take 51 (ops1 (F := Ideal))) (val0 m c) = W
  simp only [List.drop_succ_cons, List.drop_zero]
  after_results_simp
  try rfl

theorem op1_main_v74 : val1 m c (Proc.devRef .tc main_v74) = shapeCast S256x256 (val1 m c (Proc.devRef .tc main_v73) : Vec Ideal S1x256x256 .f32) shapeCasts_S1x256x256_S256x256 := by
  simp only [val1_eq]
  rw [← List.take_append_drop 52 (ops1 (F := Ideal)), StableHlo.after_append]
  generalize after (List.take 52 (ops1 (F := Ideal))) (val0 m c) = W
  simp only [List.drop_succ_cons, List.drop_zero]
  after_results_simp
  try rfl

theorem op1_main_v75 : val1 m c (Proc.devRef .tc main_v75) = Host.dotGeneral (F := Ideal) (φ₁ := .f32) (φ₂ := .f32) dot_S50000x256_S256x256_S50000x256_1_0_0_1_n_n none (val1 m c (Proc.devRef .tc main_v72) : Vec Ideal S50000x256 .f32) (val1 m c (Proc.devRef .tc main_v74) : Vec Ideal S256x256 .f32) := by
  simp only [val1_eq]
  rw [← List.take_append_drop 53 (ops1 (F := Ideal)), StableHlo.after_append]
  generalize after (List.take 53 (ops1 (F := Ideal))) (val0 m c) = W
  simp only [List.drop_succ_cons, List.drop_zero]
  after_results_simp
  try rfl

theorem op1_main_v89 : val1 m c (Proc.devRef .tc main_v89) = extractStridedSlice S1x256 ![1, 0] (val1 m c (Proc.devRef .tc main_arg4) : Vec Ideal S3x256 .f32) slices_S3x256_S1x256_1_0 := by
  simp only [val1_eq]
  rw [← List.take_append_drop 70 (ops1 (F := Ideal)), StableHlo.after_append]
  generalize after (List.take 70 (ops1 (F := Ideal))) (val0 m c) = W
  simp only [List.drop_succ_cons, List.drop_zero]
  after_results_simp
  try rfl

theorem op1_main_v90 : val1 m c (Proc.devRef .tc main_v90) = shapeCast S256 (val1 m c (Proc.devRef .tc main_v89) : Vec Ideal S1x256 .f32) shapeCasts_S1x256_S256 := by
  simp only [val1_eq]
  rw [← List.take_append_drop 71 (ops1 (F := Ideal)), StableHlo.after_append]
  generalize after (List.take 71 (ops1 (F := Ideal))) (val0 m c) = W
  simp only [List.drop_succ_cons, List.drop_zero]
  after_results_simp
  try rfl

theorem op1_main_v91 : val1 m c (Proc.devRef .tc main_v91) = broadcastInDim S1x256 ![1] bcast_S256_S1x256_1 (val1 m c (Proc.devRef .tc main_v90) : Vec Ideal S256 .f32) := by
  simp only [val1_eq]
  rw [← List.take_append_drop 72 (ops1 (F := Ideal)), StableHlo.after_append]
  generalize after (List.take 72 (ops1 (F := Ideal))) (val0 m c) = W
  simp only [List.drop_succ_cons, List.drop_zero]
  after_results_simp
  try rfl

theorem op1_main_v92 : val1 m c (Proc.devRef .tc main_v92) = broadcastInDim S50000x256 ![0, 1] bcast_S1x256_S50000x256_0_1 (val1 m c (Proc.devRef .tc main_v91) : Vec Ideal S1x256 .f32) := by
  simp only [val1_eq]
  rw [← List.take_append_drop 73 (ops1 (F := Ideal)), StableHlo.after_append]
  generalize after (List.take 73 (ops1 (F := Ideal))) (val0 m c) = W
  simp only [List.drop_succ_cons, List.drop_zero]
  after_results_simp
  try rfl

theorem op1_main_v93 : val1 m c (Proc.devRef .tc main_v93) = addf (F := Ideal) (φ := .f32) (val1 m c (Proc.devRef .tc main_v88) : Vec Ideal S50000x256 .f32) (val1 m c (Proc.devRef .tc main_v92) : Vec Ideal S50000x256 .f32) := by
  simp only [val1_eq]
  rw [← List.take_append_drop 74 (ops1 (F := Ideal)), StableHlo.after_append]
  generalize after (List.take 74 (ops1 (F := Ideal))) (val0 m c) = W
  simp only [List.drop_succ_cons, List.drop_zero]
  after_results_simp
  try rfl

theorem op1_main_v94 : val1 m c (Proc.devRef .tc main_v94) = extractStridedSlice S1x256 ![1, 0] (val1 m c (Proc.devRef .tc main_arg5) : Vec Ideal S3x256 .f32) slices_S3x256_S1x256_1_0 := by
  simp only [val1_eq]
  rw [← List.take_append_drop 75 (ops1 (F := Ideal)), StableHlo.after_append]
  generalize after (List.take 75 (ops1 (F := Ideal))) (val0 m c) = W
  simp only [List.drop_succ_cons, List.drop_zero]
  after_results_simp
  try rfl

theorem op1_main_v95 : val1 m c (Proc.devRef .tc main_v95) = shapeCast S256 (val1 m c (Proc.devRef .tc main_v94) : Vec Ideal S1x256 .f32) shapeCasts_S1x256_S256 := by
  simp only [val1_eq]
  rw [← List.take_append_drop 76 (ops1 (F := Ideal)), StableHlo.after_append]
  generalize after (List.take 76 (ops1 (F := Ideal))) (val0 m c) = W
  simp only [List.drop_succ_cons, List.drop_zero]
  after_results_simp
  try rfl

theorem op1_main_v96 : val1 m c (Proc.devRef .tc main_v96) = extractStridedSlice S1x256 ![1, 0] (val1 m c (Proc.devRef .tc main_arg6) : Vec Ideal S3x256 .f32) slices_S3x256_S1x256_1_0 := by
  simp only [val1_eq]
  rw [← List.take_append_drop 77 (ops1 (F := Ideal)), StableHlo.after_append]
  generalize after (List.take 77 (ops1 (F := Ideal))) (val0 m c) = W
  simp only [List.drop_succ_cons, List.drop_zero]
  after_results_simp
  try rfl

theorem op1_main_v97 : val1 m c (Proc.devRef .tc main_v97) = shapeCast S256 (val1 m c (Proc.devRef .tc main_v96) : Vec Ideal S1x256 .f32) shapeCasts_S1x256_S256 := by
  simp only [val1_eq]
  rw [← List.take_append_drop 78 (ops1 (F := Ideal)), StableHlo.after_append]
  generalize after (List.take 78 (ops1 (F := Ideal))) (val0 m c) = W
  simp only [List.drop_succ_cons, List.drop_zero]
  after_results_simp
  try rfl

theorem op1_main_cst_16 : val1 m c (Proc.devRef .tc main_cst_16) = constant (F := Ideal) S_ .f32 0x00000000#32 := by
  simp only [val1_eq]
  rw [← List.take_append_drop 79 (ops1 (F := Ideal)), StableHlo.after_append]
  generalize after (List.take 79 (ops1 (F := Ideal))) (val0 m c) = W
  simp only [List.drop_succ_cons, List.drop_zero]
  after_results_simp
  try rfl

theorem op1_main_v98 : val1 m c (Proc.devRef .tc main_v98) = Host.reduceAdd (F := Ideal) (φ := .f32) (val1 m c (Proc.devRef .tc main_v93) : Vec Ideal S50000x256 .f32) (val1 m c (Proc.devRef .tc main_cst_16) : Vec Ideal S_ .f32) reducesTo_S50000x256_S256_d0 h_S_ := by
  simp only [val1_eq]
  rw [← List.take_append_drop 80 (ops1 (F := Ideal)), StableHlo.after_append]
  generalize after (List.take 80 (ops1 (F := Ideal))) (val0 m c) = W
  simp only [List.drop_succ_cons, List.drop_zero]
  after_results_simp
  try rfl

theorem op1_main_cst_17 : val1 m c (Proc.devRef .tc main_cst_17) = constant (F := Ideal) S_ .f32 0x47435000#32 := by
  simp only [val1_eq]
  rw [← List.take_append_drop 81 (ops1 (F := Ideal)), StableHlo.after_append]
  generalize after (List.take 81 (ops1 (F := Ideal))) (val0 m c) = W
  simp only [List.drop_succ_cons, List.drop_zero]
  after_results_simp
  try rfl

theorem op1_main_v99 : val1 m c (Proc.devRef .tc main_v99) = broadcastInDim S256 ![] bcast_S_S256 (val1 m c (Proc.devRef .tc main_cst_17) : Vec Ideal S_ .f32) := by
  simp only [val1_eq]
  rw [← List.take_append_drop 82 (ops1 (F := Ideal)), StableHlo.after_append]
  generalize after (List.take 82 (ops1 (F := Ideal))) (val0 m c) = W
  simp only [List.drop_succ_cons, List.drop_zero]
  after_results_simp
  try rfl

/-! ### Window 2 -/

theorem op2_main_v100 : val2 m c (Proc.devRef .tc main_v100) = Host.divf (F := Ideal) (φ := .f32) (val2 m c (Proc.devRef .tc main_v98) : Vec Ideal S256 .f32) (val2 m c (Proc.devRef .tc main_v99) : Vec Ideal S256 .f32) := by
  simp only [val2_eq]
  rw [← List.take_append_drop 0 (ops2 (F := Ideal)), StableHlo.after_append]
  generalize after (List.take 0 (ops2 (F := Ideal))) (val1 m c) = W
  simp only [List.drop_succ_cons, List.drop_zero]
  after_results_simp
  try rfl

theorem op2_main_c_18 : val2 m c (Proc.devRef .tc main_c_18) = constantI S_ 32 0#32 := by
  simp only [val2_eq]
  rw [← List.take_append_drop 1 (ops2 (F := Ideal)), StableHlo.after_append]
  generalize after (List.take 1 (ops2 (F := Ideal))) (val1 m c) = W
  simp only [List.drop_succ_cons, List.drop_zero]
  after_results_simp
  try rfl

theorem op2_main_call3_cst : val2 m c (Proc.devRef .tc main_call3_cst) = constant (F := Ideal) S_ .f32 0x00000000#32 := by
  simp only [val2_eq]
  rw [← List.take_append_drop 2 (ops2 (F := Ideal)), StableHlo.after_append]
  generalize after (List.take 2 (ops2 (F := Ideal))) (val1 m c) = W
  simp only [List.drop_succ_cons, List.drop_zero]
  after_results_simp
  try rfl

theorem op2_main_call3_v0 : val2 m c (Proc.devRef .tc main_call3_v0) = Host.reduceAdd (F := Ideal) (φ := .f32) (val2 m c (Proc.devRef .tc main_v93) : Vec Ideal S50000x256 .f32) (val2 m c (Proc.devRef .tc main_call3_cst) : Vec Ideal S_ .f32) reducesTo_S50000x256_S256_d0 h_S_ := by
  simp only [val2_eq]
  rw [← List.take_append_drop 3 (ops2 (F := Ideal)), StableHlo.after_append]
  generalize after (List.take 3 (ops2 (F := Ideal))) (val1 m c) = W
  simp only [List.drop_succ_cons, List.drop_zero]
  after_results_simp
  try rfl

theorem op2_main_call3_v1 : val2 m c (Proc.devRef .tc main_call3_v1) = broadcastInDim S1x256 ![1] bcast_S256_S1x256_1 (val2 m c (Proc.devRef .tc main_call3_v0) : Vec Ideal S256 .f32) := by
  simp only [val2_eq]
  rw [← List.take_append_drop 4 (ops2 (F := Ideal)), StableHlo.after_append]
  generalize after (List.take 4 (ops2 (F := Ideal))) (val1 m c) = W
  simp only [List.drop_succ_cons, List.drop_zero]
  after_results_simp
  try rfl

theorem op2_main_call3_cst_0 : val2 m c (Proc.devRef .tc main_call3_cst_0) = constant (F := Ideal) S_ .f32 0x47435000#32 := by
  simp only [val2_eq]
  rw [← List.take_append_drop 5 (ops2 (F := Ideal)), StableHlo.after_append]
  generalize after (List.take 5 (ops2 (F := Ideal))) (val1 m c) = W
  simp only [List.drop_succ_cons, List.drop_zero]
  after_results_simp
  try rfl

theorem op2_main_call3_v2 : val2 m c (Proc.devRef .tc main_call3_v2) = broadcastInDim S1x256 ![] bcast_S_S1x256 (val2 m c (Proc.devRef .tc main_call3_cst_0) : Vec Ideal S_ .f32) := by
  simp only [val2_eq]
  rw [← List.take_append_drop 6 (ops2 (F := Ideal)), StableHlo.after_append]
  generalize after (List.take 6 (ops2 (F := Ideal))) (val1 m c) = W
  simp only [List.drop_succ_cons, List.drop_zero]
  after_results_simp
  try rfl

theorem op2_main_call3_v3 : val2 m c (Proc.devRef .tc main_call3_v3) = Host.divf (F := Ideal) (φ := .f32) (val2 m c (Proc.devRef .tc main_call3_v1) : Vec Ideal S1x256 .f32) (val2 m c (Proc.devRef .tc main_call3_v2) : Vec Ideal S1x256 .f32) := by
  simp only [val2_eq]
  rw [← List.take_append_drop 7 (ops2 (F := Ideal)), StableHlo.after_append]
  generalize after (List.take 7 (ops2 (F := Ideal))) (val1 m c) = W
  simp only [List.drop_succ_cons, List.drop_zero]
  after_results_simp
  try rfl

theorem op2_main_call3_v4 : val2 m c (Proc.devRef .tc main_call3_v4) = broadcastInDim S50000x256 ![0, 1] bcast_S1x256_S50000x256_0_1 (val2 m c (Proc.devRef .tc main_call3_v3) : Vec Ideal S1x256 .f32) := by
  simp only [val2_eq]
  rw [← List.take_append_drop 8 (ops2 (F := Ideal)), StableHlo.after_append]
  generalize after (List.take 8 (ops2 (F := Ideal))) (val1 m c) = W
  simp only [List.drop_succ_cons, List.drop_zero]
  after_results_simp
  try rfl

theorem op2_main_call3_v5 : val2 m c (Proc.devRef .tc main_call3_v5) = subf (F := Ideal) (φ := .f32) (val2 m c (Proc.devRef .tc main_v93) : Vec Ideal S50000x256 .f32) (val2 m c (Proc.devRef .tc main_call3_v4) : Vec Ideal S50000x256 .f32) := by
  simp only [val2_eq]
  rw [← List.take_append_drop 9 (ops2 (F := Ideal)), StableHlo.after_append]
  generalize after (List.take 9 (ops2 (F := Ideal))) (val1 m c) = W
  simp only [List.drop_succ_cons, List.drop_zero]
  after_results_simp
  try rfl

theorem op2_main_call3_v6 : val2 m c (Proc.devRef .tc main_call3_v6) = mulf (F := Ideal) (φ := .f32) (val2 m c (Proc.devRef .tc main_call3_v5) : Vec Ideal S50000x256 .f32) (val2 m c (Proc.devRef .tc main_call3_v5) : Vec Ideal S50000x256 .f32) := by
  simp only [val2_eq]
  rw [← List.take_append_drop 10 (ops2 (F := Ideal)), StableHlo.after_append]
  generalize after (List.take 10 (ops2 (F := Ideal))) (val1 m c) = W
  simp only [List.drop_succ_cons, List.drop_zero]
  after_results_simp
  try rfl

theorem op2_main_call3_v7 : val2 m c (Proc.devRef .tc main_call3_v7) = sitofp (F := Ideal) .f32 (val2 m c (Proc.devRef .tc main_c_18) : Vec Ideal S_ .i32) := by
  simp only [val2_eq]
  rw [← List.take_append_drop 11 (ops2 (F := Ideal)), StableHlo.after_append]
  generalize after (List.take 11 (ops2 (F := Ideal))) (val1 m c) = W
  simp only [List.drop_succ_cons, List.drop_zero]
  after_results_simp
  try rfl

theorem op2_main_call3_cst_1 : val2 m c (Proc.devRef .tc main_call3_cst_1) = constant (F := Ideal) S_ .f32 0x47435000#32 := by
  simp only [val2_eq]
  rw [← List.take_append_drop 12 (ops2 (F := Ideal)), StableHlo.after_append]
  generalize after (List.take 12 (ops2 (F := Ideal))) (val1 m c) = W
  simp only [List.drop_succ_cons, List.drop_zero]
  after_results_simp
  try rfl

theorem op2_main_call3_v8 : val2 m c (Proc.devRef .tc main_call3_v8) = subf (F := Ideal) (φ := .f32) (val2 m c (Proc.devRef .tc main_call3_cst_1) : Vec Ideal S_ .f32) (val2 m c (Proc.devRef .tc main_call3_v7) : Vec Ideal S_ .f32) := by
  simp only [val2_eq]
  rw [← List.take_append_drop 13 (ops2 (F := Ideal)), StableHlo.after_append]
  generalize after (List.take 13 (ops2 (F := Ideal))) (val1 m c) = W
  simp only [List.drop_succ_cons, List.drop_zero]
  after_results_simp
  try rfl

theorem op2_main_call3_cst_2 : val2 m c (Proc.devRef .tc main_call3_cst_2) = constant (F := Ideal) S_ .f32 0x00000000#32 := by
  simp only [val2_eq]
  rw [← List.take_append_drop 14 (ops2 (F := Ideal)), StableHlo.after_append]
  generalize after (List.take 14 (ops2 (F := Ideal))) (val1 m c) = W
  simp only [List.drop_succ_cons, List.drop_zero]
  after_results_simp
  try rfl

theorem op2_main_call3_v9 : val2 m c (Proc.devRef .tc main_call3_v9) = Host.reduceAdd (F := Ideal) (φ := .f32) (val2 m c (Proc.devRef .tc main_call3_v6) : Vec Ideal S50000x256 .f32) (val2 m c (Proc.devRef .tc main_call3_cst_2) : Vec Ideal S_ .f32) reducesTo_S50000x256_S256_d0 h_S_ := by
  simp only [val2_eq]
  rw [← List.take_append_drop 15 (ops2 (F := Ideal)), StableHlo.after_append]
  generalize after (List.take 15 (ops2 (F := Ideal))) (val1 m c) = W
  simp only [List.drop_succ_cons, List.drop_zero]
  after_results_simp
  try rfl

theorem op2_main_call3_v10 : val2 m c (Proc.devRef .tc main_call3_v10) = broadcastInDim S256 ![] bcast_S_S256 (val2 m c (Proc.devRef .tc main_call3_v8) : Vec Ideal S_ .f32) := by
  simp only [val2_eq]
  rw [← List.take_append_drop 16 (ops2 (F := Ideal)), StableHlo.after_append]
  generalize after (List.take 16 (ops2 (F := Ideal))) (val1 m c) = W
  simp only [List.drop_succ_cons, List.drop_zero]
  after_results_simp
  try rfl

theorem op2_main_call3_v11 : val2 m c (Proc.devRef .tc main_call3_v11) = Host.divf (F := Ideal) (φ := .f32) (val2 m c (Proc.devRef .tc main_call3_v9) : Vec Ideal S256 .f32) (val2 m c (Proc.devRef .tc main_call3_v10) : Vec Ideal S256 .f32) := by
  simp only [val2_eq]
  rw [← List.take_append_drop 17 (ops2 (F := Ideal)), StableHlo.after_append]
  generalize after (List.take 17 (ops2 (F := Ideal))) (val1 m c) = W
  simp only [List.drop_succ_cons, List.drop_zero]
  after_results_simp
  try rfl

theorem op2_main_call3_cst_3 : val2 m c (Proc.devRef .tc main_call3_cst_3) = constant (F := Ideal) S_ .f32 0x00000000#32 := by
  simp only [val2_eq]
  rw [← List.take_append_drop 18 (ops2 (F := Ideal)), StableHlo.after_append]
  generalize after (List.take 18 (ops2 (F := Ideal))) (val1 m c) = W
  simp only [List.drop_succ_cons, List.drop_zero]
  after_results_simp
  try rfl

theorem op2_main_call3_v12 : val2 m c (Proc.devRef .tc main_call3_v12) = cmpf (F := Ideal) (φ := .f32) .ogt (val2 m c (Proc.devRef .tc main_call3_v8) : Vec Ideal S_ .f32) (val2 m c (Proc.devRef .tc main_call3_cst_3) : Vec Ideal S_ .f32) := by
  simp only [val2_eq]
  rw [← List.take_append_drop 19 (ops2 (F := Ideal)), StableHlo.after_append]
  generalize after (List.take 19 (ops2 (F := Ideal))) (val1 m c) = W
  simp only [List.drop_succ_cons, List.drop_zero]
  after_results_simp
  try rfl

theorem op2_main_call3_cst_4 : val2 m c (Proc.devRef .tc main_call3_cst_4) = constant (F := Ideal) S_ .f32 0x7FC00000#32 := by
  simp only [val2_eq]
  rw [← List.take_append_drop 20 (ops2 (F := Ideal)), StableHlo.after_append]
  generalize after (List.take 20 (ops2 (F := Ideal))) (val1 m c) = W
  simp only [List.drop_succ_cons, List.drop_zero]
  after_results_simp
  try rfl

theorem op2_main_call3_call0_v0 : val2 m c (Proc.devRef .tc main_call3_call0_v0) = id (val2 m c (Proc.devRef .tc main_call3_cst_4) : Vec Ideal S_ .f32) := by
  simp only [val2_eq]
  rw [← List.take_append_drop 21 (ops2 (F := Ideal)), StableHlo.after_append]
  generalize after (List.take 21 (ops2 (F := Ideal))) (val1 m c) = W
  simp only [List.drop_succ_cons, List.drop_zero]
  after_results_simp
  try rfl

theorem op2_main_call3_call0_v1 : val2 m c (Proc.devRef .tc main_call3_call0_v1) = broadcastInDim S256 ![] bcast_S_S256 (val2 m c (Proc.devRef .tc main_call3_call0_v0) : Vec Ideal S_ .f32) := by
  simp only [val2_eq]
  rw [← List.take_append_drop 22 (ops2 (F := Ideal)), StableHlo.after_append]
  generalize after (List.take 22 (ops2 (F := Ideal))) (val1 m c) = W
  simp only [List.drop_succ_cons, List.drop_zero]
  after_results_simp
  try rfl

theorem op2_main_v101 : val2 m c (Proc.devRef .tc main_v101) = select (broadcastInDim S256 ![] bcast_S_S256 (val2 m c (Proc.devRef .tc main_call3_v12) : Vec Ideal S_ .i1)) (val2 m c (Proc.devRef .tc main_call3_v11) : Vec Ideal S256 .f32) (val2 m c (Proc.devRef .tc main_call3_call0_v1) : Vec Ideal S256 .f32) := by
  simp only [val2_eq]
  rw [← List.take_append_drop 23 (ops2 (F := Ideal)), StableHlo.after_append]
  generalize after (List.take 23 (ops2 (F := Ideal))) (val1 m c) = W
  simp only [List.drop_succ_cons, List.drop_zero]
  after_results_simp
  try rfl

theorem op2_main_v102 : val2 m c (Proc.devRef .tc main_v102) = broadcastInDim S1x256 ![1] bcast_S256_S1x256_1 (val2 m c (Proc.devRef .tc main_v100) : Vec Ideal S256 .f32) := by
  simp only [val2_eq]
  rw [← List.take_append_drop 24 (ops2 (F := Ideal)), StableHlo.after_append]
  generalize after (List.take 24 (ops2 (F := Ideal))) (val1 m c) = W
  simp only [List.drop_succ_cons, List.drop_zero]
  after_results_simp
  try rfl

theorem op2_main_v103 : val2 m c (Proc.devRef .tc main_v103) = broadcastInDim S50000x256 ![0, 1] bcast_S1x256_S50000x256_0_1 (val2 m c (Proc.devRef .tc main_v102) : Vec Ideal S1x256 .f32) := by
  simp only [val2_eq]
  rw [← List.take_append_drop 25 (ops2 (F := Ideal)), StableHlo.after_append]
  generalize after (List.take 25 (ops2 (F := Ideal))) (val1 m c) = W
  simp only [List.drop_succ_cons, List.drop_zero]
  after_results_simp
  try rfl

theorem op2_main_v104 : val2 m c (Proc.devRef .tc main_v104) = subf (F := Ideal) (φ := .f32) (val2 m c (Proc.devRef .tc main_v93) : Vec Ideal S50000x256 .f32) (val2 m c (Proc.devRef .tc main_v103) : Vec Ideal S50000x256 .f32) := by
  simp only [val2_eq]
  rw [← List.take_append_drop 26 (ops2 (F := Ideal)), StableHlo.after_append]
  generalize after (List.take 26 (ops2 (F := Ideal))) (val1 m c) = W
  simp only [List.drop_succ_cons, List.drop_zero]
  after_results_simp
  try rfl

theorem op2_main_v105 : val2 m c (Proc.devRef .tc main_v105) = broadcastInDim S1x256 ![1] bcast_S256_S1x256_1 (val2 m c (Proc.devRef .tc main_v95) : Vec Ideal S256 .f32) := by
  simp only [val2_eq]
  rw [← List.take_append_drop 27 (ops2 (F := Ideal)), StableHlo.after_append]
  generalize after (List.take 27 (ops2 (F := Ideal))) (val1 m c) = W
  simp only [List.drop_succ_cons, List.drop_zero]
  after_results_simp
  try rfl

theorem op2_main_v106 : val2 m c (Proc.devRef .tc main_v106) = broadcastInDim S50000x256 ![0, 1] bcast_S1x256_S50000x256_0_1 (val2 m c (Proc.devRef .tc main_v105) : Vec Ideal S1x256 .f32) := by
  simp only [val2_eq]
  rw [← List.take_append_drop 28 (ops2 (F := Ideal)), StableHlo.after_append]
  generalize after (List.take 28 (ops2 (F := Ideal))) (val1 m c) = W
  simp only [List.drop_succ_cons, List.drop_zero]
  after_results_simp
  try rfl

theorem op2_main_v107 : val2 m c (Proc.devRef .tc main_v107) = mulf (F := Ideal) (φ := .f32) (val2 m c (Proc.devRef .tc main_v106) : Vec Ideal S50000x256 .f32) (val2 m c (Proc.devRef .tc main_v104) : Vec Ideal S50000x256 .f32) := by
  simp only [val2_eq]
  rw [← List.take_append_drop 29 (ops2 (F := Ideal)), StableHlo.after_append]
  generalize after (List.take 29 (ops2 (F := Ideal))) (val1 m c) = W
  simp only [List.drop_succ_cons, List.drop_zero]
  after_results_simp
  try rfl

theorem op2_main_cst_19 : val2 m c (Proc.devRef .tc main_cst_19) = constant (F := Ideal) S_ .f32 0x3727C5AC#32 := by
  simp only [val2_eq]
  rw [← List.take_append_drop 30 (ops2 (F := Ideal)), StableHlo.after_append]
  generalize after (List.take 30 (ops2 (F := Ideal))) (val1 m c) = W
  simp only [List.drop_succ_cons, List.drop_zero]
  after_results_simp
  try rfl

theorem op2_main_v108 : val2 m c (Proc.devRef .tc main_v108) = broadcastInDim S256 ![] bcast_S_S256 (val2 m c (Proc.devRef .tc main_cst_19) : Vec Ideal S_ .f32) := by
  simp only [val2_eq]
  rw [← List.take_append_drop 31 (ops2 (F := Ideal)), StableHlo.after_append]
  generalize after (List.take 31 (ops2 (F := Ideal))) (val1 m c) = W
  simp only [List.drop_succ_cons, List.drop_zero]
  after_results_simp
  try rfl

theorem op2_main_v109 : val2 m c (Proc.devRef .tc main_v109) = addf (F := Ideal) (φ := .f32) (val2 m c (Proc.devRef .tc main_v101) : Vec Ideal S256 .f32) (val2 m c (Proc.devRef .tc main_v108) : Vec Ideal S256 .f32) := by
  simp only [val2_eq]
  rw [← List.take_append_drop 32 (ops2 (F := Ideal)), StableHlo.after_append]
  generalize after (List.take 32 (ops2 (F := Ideal))) (val1 m c) = W
  simp only [List.drop_succ_cons, List.drop_zero]
  after_results_simp
  try rfl

theorem op2_main_v110 : val2 m c (Proc.devRef .tc main_v110) = Host.rsqrt (F := Ideal) (φ := .f32) (val2 m c (Proc.devRef .tc main_v109) : Vec Ideal S256 .f32) := by
  simp only [val2_eq]
  rw [← List.take_append_drop 33 (ops2 (F := Ideal)), StableHlo.after_append]
  generalize after (List.take 33 (ops2 (F := Ideal))) (val1 m c) = W
  simp only [List.drop_succ_cons, List.drop_zero]
  after_results_simp
  try rfl

theorem op2_main_v111 : val2 m c (Proc.devRef .tc main_v111) = broadcastInDim S1x256 ![1] bcast_S256_S1x256_1 (val2 m c (Proc.devRef .tc main_v110) : Vec Ideal S256 .f32) := by
  simp only [val2_eq]
  rw [← List.take_append_drop 34 (ops2 (F := Ideal)), StableHlo.after_append]
  generalize after (List.take 34 (ops2 (F := Ideal))) (val1 m c) = W
  simp only [List.drop_succ_cons, List.drop_zero]
  after_results_simp
  try rfl

theorem op2_main_v112 : val2 m c (Proc.devRef .tc main_v112) = broadcastInDim S50000x256 ![0, 1] bcast_S1x256_S50000x256_0_1 (val2 m c (Proc.devRef .tc main_v111) : Vec Ideal S1x256 .f32) := by
  simp only [val2_eq]
  rw [← List.take_append_drop 35 (ops2 (F := Ideal)), StableHlo.after_append]
  generalize after (List.take 35 (ops2 (F := Ideal))) (val1 m c) = W
  simp only [List.drop_succ_cons, List.drop_zero]
  after_results_simp
  try rfl

theorem op2_main_v113 : val2 m c (Proc.devRef .tc main_v113) = mulf (F := Ideal) (φ := .f32) (val2 m c (Proc.devRef .tc main_v107) : Vec Ideal S50000x256 .f32) (val2 m c (Proc.devRef .tc main_v112) : Vec Ideal S50000x256 .f32) := by
  simp only [val2_eq]
  rw [← List.take_append_drop 36 (ops2 (F := Ideal)), StableHlo.after_append]
  generalize after (List.take 36 (ops2 (F := Ideal))) (val1 m c) = W
  simp only [List.drop_succ_cons, List.drop_zero]
  after_results_simp
  try rfl

theorem op2_main_v114 : val2 m c (Proc.devRef .tc main_v114) = broadcastInDim S1x256 ![1] bcast_S256_S1x256_1 (val2 m c (Proc.devRef .tc main_v97) : Vec Ideal S256 .f32) := by
  simp only [val2_eq]
  rw [← List.take_append_drop 37 (ops2 (F := Ideal)), StableHlo.after_append]
  generalize after (List.take 37 (ops2 (F := Ideal))) (val1 m c) = W
  simp only [List.drop_succ_cons, List.drop_zero]
  after_results_simp
  try rfl

theorem op2_main_v115 : val2 m c (Proc.devRef .tc main_v115) = broadcastInDim S50000x256 ![0, 1] bcast_S1x256_S50000x256_0_1 (val2 m c (Proc.devRef .tc main_v114) : Vec Ideal S1x256 .f32) := by
  simp only [val2_eq]
  rw [← List.take_append_drop 38 (ops2 (F := Ideal)), StableHlo.after_append]
  generalize after (List.take 38 (ops2 (F := Ideal))) (val1 m c) = W
  simp only [List.drop_succ_cons, List.drop_zero]
  after_results_simp
  try rfl

theorem op2_main_v116 : val2 m c (Proc.devRef .tc main_v116) = addf (F := Ideal) (φ := .f32) (val2 m c (Proc.devRef .tc main_v113) : Vec Ideal S50000x256 .f32) (val2 m c (Proc.devRef .tc main_v115) : Vec Ideal S50000x256 .f32) := by
  simp only [val2_eq]
  rw [← List.take_append_drop 39 (ops2 (F := Ideal)), StableHlo.after_append]
  generalize after (List.take 39 (ops2 (F := Ideal))) (val1 m c) = W
  simp only [List.drop_succ_cons, List.drop_zero]
  after_results_simp
  try rfl

theorem op2_main_call4_cst : val2 m c (Proc.devRef .tc main_call4_cst) = constant (F := Ideal) S_ .f32 0x00000000#32 := by
  simp only [val2_eq]
  rw [← List.take_append_drop 40 (ops2 (F := Ideal)), StableHlo.after_append]
  generalize after (List.take 40 (ops2 (F := Ideal))) (val1 m c) = W
  simp only [List.drop_succ_cons, List.drop_zero]
  after_results_simp
  try rfl

theorem op2_main_call4_v0 : val2 m c (Proc.devRef .tc main_call4_v0) = broadcastInDim S50000x256 ![] bcast_S_S50000x256 (val2 m c (Proc.devRef .tc main_call4_cst) : Vec Ideal S_ .f32) := by
  simp only [val2_eq]
  rw [← List.take_append_drop 41 (ops2 (F := Ideal)), StableHlo.after_append]
  generalize after (List.take 41 (ops2 (F := Ideal))) (val1 m c) = W
  simp only [List.drop_succ_cons, List.drop_zero]
  after_results_simp
  try rfl

theorem op2_main_v117 : val2 m c (Proc.devRef .tc main_v117) = maximumf (F := Ideal) (φ := .f32) (val2 m c (Proc.devRef .tc main_v116) : Vec Ideal S50000x256 .f32) (val2 m c (Proc.devRef .tc main_call4_v0) : Vec Ideal S50000x256 .f32) := by
  simp only [val2_eq]
  rw [← List.take_append_drop 42 (ops2 (F := Ideal)), StableHlo.after_append]
  generalize after (List.take 42 (ops2 (F := Ideal))) (val1 m c) = W
  simp only [List.drop_succ_cons, List.drop_zero]
  after_results_simp
  try rfl

theorem op2_main_v118 : val2 m c (Proc.devRef .tc main_v118) = extractStridedSlice S1x256x256 ![1, 0, 0] (val2 m c (Proc.devRef .tc main_arg3) : Vec Ideal S2x256x256 .f32) slices_S2x256x256_S1x256x256_1_0_0 := by
  simp only [val2_eq]
  rw [← List.take_append_drop 43 (ops2 (F := Ideal)), StableHlo.after_append]
  generalize after (List.take 43 (ops2 (F := Ideal))) (val1 m c) = W
  simp only [List.drop_succ_cons, List.drop_zero]
  after_results_simp
  try rfl

theorem op2_main_v119 : val2 m c (Proc.devRef .tc main_v119) = shapeCast S256x256 (val2 m c (Proc.devRef .tc main_v118) : Vec Ideal S1x256x256 .f32) shapeCasts_S1x256x256_S256x256 := by
  simp only [val2_eq]
  rw [← List.take_append_drop 44 (ops2 (F := Ideal)), StableHlo.after_append]
  generalize after (List.take 44 (ops2 (F := Ideal))) (val1 m c) = W
  simp only [List.drop_succ_cons, List.drop_zero]
  after_results_simp
  try rfl

theorem op2_main_v120 : val2 m c (Proc.devRef .tc main_v120) = Host.dotGeneral (F := Ideal) (φ₁ := .f32) (φ₂ := .f32) dot_S50000x256_S256x256_S50000x256_1_0_0_1_n_n none (val2 m c (Proc.devRef .tc main_v117) : Vec Ideal S50000x256 .f32) (val2 m c (Proc.devRef .tc main_v119) : Vec Ideal S256x256 .f32) := by
  simp only [val2_eq]
  rw [← List.take_append_drop 45 (ops2 (F := Ideal)), StableHlo.after_append]
  generalize after (List.take 45 (ops2 (F := Ideal))) (val1 m c) = W
  simp only [List.drop_succ_cons, List.drop_zero]
  after_results_simp
  try rfl

theorem op2_main_v134 : val2 m c (Proc.devRef .tc main_v134) = extractStridedSlice S1x256 ![2, 0] (val2 m c (Proc.devRef .tc main_arg4) : Vec Ideal S3x256 .f32) slices_S3x256_S1x256_2_0 := by
  simp only [val2_eq]
  rw [← List.take_append_drop 62 (ops2 (F := Ideal)), StableHlo.after_append]
  generalize after (List.take 62 (ops2 (F := Ideal))) (val1 m c) = W
  simp only [List.drop_succ_cons, List.drop_zero]
  after_results_simp
  try rfl

theorem op2_main_v135 : val2 m c (Proc.devRef .tc main_v135) = shapeCast S256 (val2 m c (Proc.devRef .tc main_v134) : Vec Ideal S1x256 .f32) shapeCasts_S1x256_S256 := by
  simp only [val2_eq]
  rw [← List.take_append_drop 63 (ops2 (F := Ideal)), StableHlo.after_append]
  generalize after (List.take 63 (ops2 (F := Ideal))) (val1 m c) = W
  simp only [List.drop_succ_cons, List.drop_zero]
  after_results_simp
  try rfl

theorem op2_main_v136 : val2 m c (Proc.devRef .tc main_v136) = broadcastInDim S1x256 ![1] bcast_S256_S1x256_1 (val2 m c (Proc.devRef .tc main_v135) : Vec Ideal S256 .f32) := by
  simp only [val2_eq]
  rw [← List.take_append_drop 64 (ops2 (F := Ideal)), StableHlo.after_append]
  generalize after (List.take 64 (ops2 (F := Ideal))) (val1 m c) = W
  simp only [List.drop_succ_cons, List.drop_zero]
  after_results_simp
  try rfl

theorem op2_main_v137 : val2 m c (Proc.devRef .tc main_v137) = broadcastInDim S50000x256 ![0, 1] bcast_S1x256_S50000x256_0_1 (val2 m c (Proc.devRef .tc main_v136) : Vec Ideal S1x256 .f32) := by
  simp only [val2_eq]
  rw [← List.take_append_drop 65 (ops2 (F := Ideal)), StableHlo.after_append]
  generalize after (List.take 65 (ops2 (F := Ideal))) (val1 m c) = W
  simp only [List.drop_succ_cons, List.drop_zero]
  after_results_simp
  try rfl

theorem op2_main_v138 : val2 m c (Proc.devRef .tc main_v138) = addf (F := Ideal) (φ := .f32) (val2 m c (Proc.devRef .tc main_v133) : Vec Ideal S50000x256 .f32) (val2 m c (Proc.devRef .tc main_v137) : Vec Ideal S50000x256 .f32) := by
  simp only [val2_eq]
  rw [← List.take_append_drop 66 (ops2 (F := Ideal)), StableHlo.after_append]
  generalize after (List.take 66 (ops2 (F := Ideal))) (val1 m c) = W
  simp only [List.drop_succ_cons, List.drop_zero]
  after_results_simp
  try rfl

theorem op2_main_v139 : val2 m c (Proc.devRef .tc main_v139) = extractStridedSlice S1x256 ![2, 0] (val2 m c (Proc.devRef .tc main_arg5) : Vec Ideal S3x256 .f32) slices_S3x256_S1x256_2_0 := by
  simp only [val2_eq]
  rw [← List.take_append_drop 67 (ops2 (F := Ideal)), StableHlo.after_append]
  generalize after (List.take 67 (ops2 (F := Ideal))) (val1 m c) = W
  simp only [List.drop_succ_cons, List.drop_zero]
  after_results_simp
  try rfl

theorem op2_main_v140 : val2 m c (Proc.devRef .tc main_v140) = shapeCast S256 (val2 m c (Proc.devRef .tc main_v139) : Vec Ideal S1x256 .f32) shapeCasts_S1x256_S256 := by
  simp only [val2_eq]
  rw [← List.take_append_drop 68 (ops2 (F := Ideal)), StableHlo.after_append]
  generalize after (List.take 68 (ops2 (F := Ideal))) (val1 m c) = W
  simp only [List.drop_succ_cons, List.drop_zero]
  after_results_simp
  try rfl

theorem op2_main_v141 : val2 m c (Proc.devRef .tc main_v141) = extractStridedSlice S1x256 ![2, 0] (val2 m c (Proc.devRef .tc main_arg6) : Vec Ideal S3x256 .f32) slices_S3x256_S1x256_2_0 := by
  simp only [val2_eq]
  rw [← List.take_append_drop 69 (ops2 (F := Ideal)), StableHlo.after_append]
  generalize after (List.take 69 (ops2 (F := Ideal))) (val1 m c) = W
  simp only [List.drop_succ_cons, List.drop_zero]
  after_results_simp
  try rfl

theorem op2_main_v142 : val2 m c (Proc.devRef .tc main_v142) = shapeCast S256 (val2 m c (Proc.devRef .tc main_v141) : Vec Ideal S1x256 .f32) shapeCasts_S1x256_S256 := by
  simp only [val2_eq]
  rw [← List.take_append_drop 70 (ops2 (F := Ideal)), StableHlo.after_append]
  generalize after (List.take 70 (ops2 (F := Ideal))) (val1 m c) = W
  simp only [List.drop_succ_cons, List.drop_zero]
  after_results_simp
  try rfl

theorem op2_main_cst_23 : val2 m c (Proc.devRef .tc main_cst_23) = constant (F := Ideal) S_ .f32 0x00000000#32 := by
  simp only [val2_eq]
  rw [← List.take_append_drop 71 (ops2 (F := Ideal)), StableHlo.after_append]
  generalize after (List.take 71 (ops2 (F := Ideal))) (val1 m c) = W
  simp only [List.drop_succ_cons, List.drop_zero]
  after_results_simp
  try rfl

theorem op2_main_v143 : val2 m c (Proc.devRef .tc main_v143) = Host.reduceAdd (F := Ideal) (φ := .f32) (val2 m c (Proc.devRef .tc main_v138) : Vec Ideal S50000x256 .f32) (val2 m c (Proc.devRef .tc main_cst_23) : Vec Ideal S_ .f32) reducesTo_S50000x256_S256_d0 h_S_ := by
  simp only [val2_eq]
  rw [← List.take_append_drop 72 (ops2 (F := Ideal)), StableHlo.after_append]
  generalize after (List.take 72 (ops2 (F := Ideal))) (val1 m c) = W
  simp only [List.drop_succ_cons, List.drop_zero]
  after_results_simp
  try rfl

theorem op2_main_cst_24 : val2 m c (Proc.devRef .tc main_cst_24) = constant (F := Ideal) S_ .f32 0x47435000#32 := by
  simp only [val2_eq]
  rw [← List.take_append_drop 73 (ops2 (F := Ideal)), StableHlo.after_append]
  generalize after (List.take 73 (ops2 (F := Ideal))) (val1 m c) = W
  simp only [List.drop_succ_cons, List.drop_zero]
  after_results_simp
  try rfl

theorem op2_main_v144 : val2 m c (Proc.devRef .tc main_v144) = broadcastInDim S256 ![] bcast_S_S256 (val2 m c (Proc.devRef .tc main_cst_24) : Vec Ideal S_ .f32) := by
  simp only [val2_eq]
  rw [← List.take_append_drop 74 (ops2 (F := Ideal)), StableHlo.after_append]
  generalize after (List.take 74 (ops2 (F := Ideal))) (val1 m c) = W
  simp only [List.drop_succ_cons, List.drop_zero]
  after_results_simp
  try rfl

theorem op2_main_v145 : val2 m c (Proc.devRef .tc main_v145) = Host.divf (F := Ideal) (φ := .f32) (val2 m c (Proc.devRef .tc main_v143) : Vec Ideal S256 .f32) (val2 m c (Proc.devRef .tc main_v144) : Vec Ideal S256 .f32) := by
  simp only [val2_eq]
  rw [← List.take_append_drop 75 (ops2 (F := Ideal)), StableHlo.after_append]
  generalize after (List.take 75 (ops2 (F := Ideal))) (val1 m c) = W
  simp only [List.drop_succ_cons, List.drop_zero]
  after_results_simp
  try rfl

theorem op2_main_c_25 : val2 m c (Proc.devRef .tc main_c_25) = constantI S_ 32 0#32 := by
  simp only [val2_eq]
  rw [← List.take_append_drop 76 (ops2 (F := Ideal)), StableHlo.after_append]
  generalize after (List.take 76 (ops2 (F := Ideal))) (val1 m c) = W
  simp only [List.drop_succ_cons, List.drop_zero]
  after_results_simp
  try rfl

theorem op2_main_call5_cst : val2 m c (Proc.devRef .tc main_call5_cst) = constant (F := Ideal) S_ .f32 0x00000000#32 := by
  simp only [val2_eq]
  rw [← List.take_append_drop 77 (ops2 (F := Ideal)), StableHlo.after_append]
  generalize after (List.take 77 (ops2 (F := Ideal))) (val1 m c) = W
  simp only [List.drop_succ_cons, List.drop_zero]
  after_results_simp
  try rfl

theorem op2_main_call5_v0 : val2 m c (Proc.devRef .tc main_call5_v0) = Host.reduceAdd (F := Ideal) (φ := .f32) (val2 m c (Proc.devRef .tc main_v138) : Vec Ideal S50000x256 .f32) (val2 m c (Proc.devRef .tc main_call5_cst) : Vec Ideal S_ .f32) reducesTo_S50000x256_S256_d0 h_S_ := by
  simp only [val2_eq]
  rw [← List.take_append_drop 78 (ops2 (F := Ideal)), StableHlo.after_append]
  generalize after (List.take 78 (ops2 (F := Ideal))) (val1 m c) = W
  simp only [List.drop_succ_cons, List.drop_zero]
  after_results_simp
  try rfl

theorem op2_main_call5_v1 : val2 m c (Proc.devRef .tc main_call5_v1) = broadcastInDim S1x256 ![1] bcast_S256_S1x256_1 (val2 m c (Proc.devRef .tc main_call5_v0) : Vec Ideal S256 .f32) := by
  simp only [val2_eq]
  rw [← List.take_append_drop 79 (ops2 (F := Ideal)), StableHlo.after_append]
  generalize after (List.take 79 (ops2 (F := Ideal))) (val1 m c) = W
  simp only [List.drop_succ_cons, List.drop_zero]
  after_results_simp
  try rfl

theorem op2_main_call5_cst_0 : val2 m c (Proc.devRef .tc main_call5_cst_0) = constant (F := Ideal) S_ .f32 0x47435000#32 := by
  simp only [val2_eq]
  rw [← List.take_append_drop 80 (ops2 (F := Ideal)), StableHlo.after_append]
  generalize after (List.take 80 (ops2 (F := Ideal))) (val1 m c) = W
  simp only [List.drop_succ_cons, List.drop_zero]
  after_results_simp
  try rfl

theorem op2_main_call5_v2 : val2 m c (Proc.devRef .tc main_call5_v2) = broadcastInDim S1x256 ![] bcast_S_S1x256 (val2 m c (Proc.devRef .tc main_call5_cst_0) : Vec Ideal S_ .f32) := by
  simp only [val2_eq]
  rw [← List.take_append_drop 81 (ops2 (F := Ideal)), StableHlo.after_append]
  generalize after (List.take 81 (ops2 (F := Ideal))) (val1 m c) = W
  simp only [List.drop_succ_cons, List.drop_zero]
  after_results_simp
  try rfl

theorem op2_main_call5_v3 : val2 m c (Proc.devRef .tc main_call5_v3) = Host.divf (F := Ideal) (φ := .f32) (val2 m c (Proc.devRef .tc main_call5_v1) : Vec Ideal S1x256 .f32) (val2 m c (Proc.devRef .tc main_call5_v2) : Vec Ideal S1x256 .f32) := by
  simp only [val2_eq]
  rw [← List.take_append_drop 82 (ops2 (F := Ideal)), StableHlo.after_append]
  generalize after (List.take 82 (ops2 (F := Ideal))) (val1 m c) = W
  simp only [List.drop_succ_cons, List.drop_zero]
  after_results_simp
  try rfl

theorem op2_main_call5_v4 : val2 m c (Proc.devRef .tc main_call5_v4) = broadcastInDim S50000x256 ![0, 1] bcast_S1x256_S50000x256_0_1 (val2 m c (Proc.devRef .tc main_call5_v3) : Vec Ideal S1x256 .f32) := by
  simp only [val2_eq]
  rw [← List.take_append_drop 83 (ops2 (F := Ideal)), StableHlo.after_append]
  generalize after (List.take 83 (ops2 (F := Ideal))) (val1 m c) = W
  simp only [List.drop_succ_cons, List.drop_zero]
  after_results_simp
  try rfl

theorem op2_main_call5_v5 : val2 m c (Proc.devRef .tc main_call5_v5) = subf (F := Ideal) (φ := .f32) (val2 m c (Proc.devRef .tc main_v138) : Vec Ideal S50000x256 .f32) (val2 m c (Proc.devRef .tc main_call5_v4) : Vec Ideal S50000x256 .f32) := by
  simp only [val2_eq]
  rw [← List.take_append_drop 84 (ops2 (F := Ideal)), StableHlo.after_append]
  generalize after (List.take 84 (ops2 (F := Ideal))) (val1 m c) = W
  simp only [List.drop_succ_cons, List.drop_zero]
  after_results_simp
  try rfl

theorem op2_main_call5_v6 : val2 m c (Proc.devRef .tc main_call5_v6) = mulf (F := Ideal) (φ := .f32) (val2 m c (Proc.devRef .tc main_call5_v5) : Vec Ideal S50000x256 .f32) (val2 m c (Proc.devRef .tc main_call5_v5) : Vec Ideal S50000x256 .f32) := by
  simp only [val2_eq]
  rw [← List.take_append_drop 85 (ops2 (F := Ideal)), StableHlo.after_append]
  generalize after (List.take 85 (ops2 (F := Ideal))) (val1 m c) = W
  simp only [List.drop_succ_cons, List.drop_zero]
  after_results_simp
  try rfl

theorem op2_main_call5_v7 : val2 m c (Proc.devRef .tc main_call5_v7) = sitofp (F := Ideal) .f32 (val2 m c (Proc.devRef .tc main_c_25) : Vec Ideal S_ .i32) := by
  simp only [val2_eq]
  rw [← List.take_append_drop 86 (ops2 (F := Ideal)), StableHlo.after_append]
  generalize after (List.take 86 (ops2 (F := Ideal))) (val1 m c) = W
  simp only [List.drop_succ_cons, List.drop_zero]
  after_results_simp
  try rfl

theorem op2_main_call5_cst_1 : val2 m c (Proc.devRef .tc main_call5_cst_1) = constant (F := Ideal) S_ .f32 0x47435000#32 := by
  simp only [val2_eq]
  rw [← List.take_append_drop 87 (ops2 (F := Ideal)), StableHlo.after_append]
  generalize after (List.take 87 (ops2 (F := Ideal))) (val1 m c) = W
  simp only [List.drop_succ_cons, List.drop_zero]
  after_results_simp
  try rfl

theorem op2_main_call5_v8 : val2 m c (Proc.devRef .tc main_call5_v8) = subf (F := Ideal) (φ := .f32) (val2 m c (Proc.devRef .tc main_call5_cst_1) : Vec Ideal S_ .f32) (val2 m c (Proc.devRef .tc main_call5_v7) : Vec Ideal S_ .f32) := by
  simp only [val2_eq]
  rw [← List.take_append_drop 88 (ops2 (F := Ideal)), StableHlo.after_append]
  generalize after (List.take 88 (ops2 (F := Ideal))) (val1 m c) = W
  simp only [List.drop_succ_cons, List.drop_zero]
  after_results_simp
  try rfl

theorem op2_main_call5_cst_2 : val2 m c (Proc.devRef .tc main_call5_cst_2) = constant (F := Ideal) S_ .f32 0x00000000#32 := by
  simp only [val2_eq]
  rw [← List.take_append_drop 89 (ops2 (F := Ideal)), StableHlo.after_append]
  generalize after (List.take 89 (ops2 (F := Ideal))) (val1 m c) = W
  simp only [List.drop_succ_cons, List.drop_zero]
  after_results_simp
  try rfl

theorem op2_main_call5_v9 : val2 m c (Proc.devRef .tc main_call5_v9) = Host.reduceAdd (F := Ideal) (φ := .f32) (val2 m c (Proc.devRef .tc main_call5_v6) : Vec Ideal S50000x256 .f32) (val2 m c (Proc.devRef .tc main_call5_cst_2) : Vec Ideal S_ .f32) reducesTo_S50000x256_S256_d0 h_S_ := by
  simp only [val2_eq]
  rw [← List.take_append_drop 90 (ops2 (F := Ideal)), StableHlo.after_append]
  generalize after (List.take 90 (ops2 (F := Ideal))) (val1 m c) = W
  simp only [List.drop_succ_cons, List.drop_zero]
  after_results_simp
  try rfl

theorem op2_main_call5_v10 : val2 m c (Proc.devRef .tc main_call5_v10) = broadcastInDim S256 ![] bcast_S_S256 (val2 m c (Proc.devRef .tc main_call5_v8) : Vec Ideal S_ .f32) := by
  simp only [val2_eq]
  rw [← List.take_append_drop 91 (ops2 (F := Ideal)), StableHlo.after_append]
  generalize after (List.take 91 (ops2 (F := Ideal))) (val1 m c) = W
  simp only [List.drop_succ_cons, List.drop_zero]
  after_results_simp
  try rfl

theorem op2_main_call5_v11 : val2 m c (Proc.devRef .tc main_call5_v11) = Host.divf (F := Ideal) (φ := .f32) (val2 m c (Proc.devRef .tc main_call5_v9) : Vec Ideal S256 .f32) (val2 m c (Proc.devRef .tc main_call5_v10) : Vec Ideal S256 .f32) := by
  simp only [val2_eq]
  rw [← List.take_append_drop 92 (ops2 (F := Ideal)), StableHlo.after_append]
  generalize after (List.take 92 (ops2 (F := Ideal))) (val1 m c) = W
  simp only [List.drop_succ_cons, List.drop_zero]
  after_results_simp
  try rfl

theorem op2_main_call5_cst_3 : val2 m c (Proc.devRef .tc main_call5_cst_3) = constant (F := Ideal) S_ .f32 0x00000000#32 := by
  simp only [val2_eq]
  rw [← List.take_append_drop 93 (ops2 (F := Ideal)), StableHlo.after_append]
  generalize after (List.take 93 (ops2 (F := Ideal))) (val1 m c) = W
  simp only [List.drop_succ_cons, List.drop_zero]
  after_results_simp
  try rfl

theorem op2_main_call5_v12 : val2 m c (Proc.devRef .tc main_call5_v12) = cmpf (F := Ideal) (φ := .f32) .ogt (val2 m c (Proc.devRef .tc main_call5_v8) : Vec Ideal S_ .f32) (val2 m c (Proc.devRef .tc main_call5_cst_3) : Vec Ideal S_ .f32) := by
  simp only [val2_eq]
  rw [← List.take_append_drop 94 (ops2 (F := Ideal)), StableHlo.after_append]
  generalize after (List.take 94 (ops2 (F := Ideal))) (val1 m c) = W
  simp only [List.drop_succ_cons, List.drop_zero]
  after_results_simp
  try rfl

theorem op2_main_call5_cst_4 : val2 m c (Proc.devRef .tc main_call5_cst_4) = constant (F := Ideal) S_ .f32 0x7FC00000#32 := by
  simp only [val2_eq]
  rw [← List.take_append_drop 95 (ops2 (F := Ideal)), StableHlo.after_append]
  generalize after (List.take 95 (ops2 (F := Ideal))) (val1 m c) = W
  simp only [List.drop_succ_cons, List.drop_zero]
  after_results_simp
  try rfl

theorem op2_main_call5_call0_v0 : val2 m c (Proc.devRef .tc main_call5_call0_v0) = id (val2 m c (Proc.devRef .tc main_call5_cst_4) : Vec Ideal S_ .f32) := by
  simp only [val2_eq]
  rw [← List.take_append_drop 96 (ops2 (F := Ideal)), StableHlo.after_append]
  generalize after (List.take 96 (ops2 (F := Ideal))) (val1 m c) = W
  simp only [List.drop_succ_cons, List.drop_zero]
  after_results_simp
  try rfl

theorem op2_main_call5_call0_v1 : val2 m c (Proc.devRef .tc main_call5_call0_v1) = broadcastInDim S256 ![] bcast_S_S256 (val2 m c (Proc.devRef .tc main_call5_call0_v0) : Vec Ideal S_ .f32) := by
  simp only [val2_eq]
  rw [← List.take_append_drop 97 (ops2 (F := Ideal)), StableHlo.after_append]
  generalize after (List.take 97 (ops2 (F := Ideal))) (val1 m c) = W
  simp only [List.drop_succ_cons, List.drop_zero]
  after_results_simp
  try rfl

theorem op2_main_v146 : val2 m c (Proc.devRef .tc main_v146) = select (broadcastInDim S256 ![] bcast_S_S256 (val2 m c (Proc.devRef .tc main_call5_v12) : Vec Ideal S_ .i1)) (val2 m c (Proc.devRef .tc main_call5_v11) : Vec Ideal S256 .f32) (val2 m c (Proc.devRef .tc main_call5_call0_v1) : Vec Ideal S256 .f32) := by
  simp only [val2_eq]
  rw [← List.take_append_drop 98 (ops2 (F := Ideal)), StableHlo.after_append]
  generalize after (List.take 98 (ops2 (F := Ideal))) (val1 m c) = W
  simp only [List.drop_succ_cons, List.drop_zero]
  after_results_simp
  try rfl

theorem op2_main_v147 : val2 m c (Proc.devRef .tc main_v147) = broadcastInDim S1x256 ![1] bcast_S256_S1x256_1 (val2 m c (Proc.devRef .tc main_v145) : Vec Ideal S256 .f32) := by
  simp only [val2_eq]
  rw [← List.take_append_drop 99 (ops2 (F := Ideal)), StableHlo.after_append]
  generalize after (List.take 99 (ops2 (F := Ideal))) (val1 m c) = W
  simp only [List.drop_succ_cons, List.drop_zero]
  after_results_simp
  try rfl

theorem op2_main_v148 : val2 m c (Proc.devRef .tc main_v148) = broadcastInDim S50000x256 ![0, 1] bcast_S1x256_S50000x256_0_1 (val2 m c (Proc.devRef .tc main_v147) : Vec Ideal S1x256 .f32) := by
  simp only [val2_eq]
  rw [← List.take_append_drop 100 (ops2 (F := Ideal)), StableHlo.after_append]
  generalize after (List.take 100 (ops2 (F := Ideal))) (val1 m c) = W
  simp only [List.drop_succ_cons, List.drop_zero]
  after_results_simp
  try rfl

theorem op2_main_v149 : val2 m c (Proc.devRef .tc main_v149) = subf (F := Ideal) (φ := .f32) (val2 m c (Proc.devRef .tc main_v138) : Vec Ideal S50000x256 .f32) (val2 m c (Proc.devRef .tc main_v148) : Vec Ideal S50000x256 .f32) := by
  simp only [val2_eq]
  rw [← List.take_append_drop 101 (ops2 (F := Ideal)), StableHlo.after_append]
  generalize after (List.take 101 (ops2 (F := Ideal))) (val1 m c) = W
  simp only [List.drop_succ_cons, List.drop_zero]
  after_results_simp
  try rfl

theorem op2_main_v150 : val2 m c (Proc.devRef .tc main_v150) = broadcastInDim S1x256 ![1] bcast_S256_S1x256_1 (val2 m c (Proc.devRef .tc main_v140) : Vec Ideal S256 .f32) := by
  simp only [val2_eq]
  rw [← List.take_append_drop 102 (ops2 (F := Ideal)), StableHlo.after_append]
  generalize after (List.take 102 (ops2 (F := Ideal))) (val1 m c) = W
  simp only [List.drop_succ_cons, List.drop_zero]
  after_results_simp
  try rfl

theorem op2_main_v151 : val2 m c (Proc.devRef .tc main_v151) = broadcastInDim S50000x256 ![0, 1] bcast_S1x256_S50000x256_0_1 (val2 m c (Proc.devRef .tc main_v150) : Vec Ideal S1x256 .f32) := by
  simp only [val2_eq]
  rw [← List.take_append_drop 103 (ops2 (F := Ideal)), StableHlo.after_append]
  generalize after (List.take 103 (ops2 (F := Ideal))) (val1 m c) = W
  simp only [List.drop_succ_cons, List.drop_zero]
  after_results_simp
  try rfl

/-! ### Window 3 -/

theorem op3_main_v152 : val3 m c (Proc.devRef .tc main_v152) = mulf (F := Ideal) (φ := .f32) (val3 m c (Proc.devRef .tc main_v151) : Vec Ideal S50000x256 .f32) (val3 m c (Proc.devRef .tc main_v149) : Vec Ideal S50000x256 .f32) := by
  simp only [val3_eq]
  rw [← List.take_append_drop 0 (ops3 (F := Ideal)), StableHlo.after_append]
  generalize after (List.take 0 (ops3 (F := Ideal))) (val2 m c) = W
  simp only [List.drop_succ_cons, List.drop_zero]
  after_results_simp
  try rfl

theorem op3_main_cst_26 : val3 m c (Proc.devRef .tc main_cst_26) = constant (F := Ideal) S_ .f32 0x3727C5AC#32 := by
  simp only [val3_eq]
  rw [← List.take_append_drop 1 (ops3 (F := Ideal)), StableHlo.after_append]
  generalize after (List.take 1 (ops3 (F := Ideal))) (val2 m c) = W
  simp only [List.drop_succ_cons, List.drop_zero]
  after_results_simp
  try rfl

theorem op3_main_v153 : val3 m c (Proc.devRef .tc main_v153) = broadcastInDim S256 ![] bcast_S_S256 (val3 m c (Proc.devRef .tc main_cst_26) : Vec Ideal S_ .f32) := by
  simp only [val3_eq]
  rw [← List.take_append_drop 2 (ops3 (F := Ideal)), StableHlo.after_append]
  generalize after (List.take 2 (ops3 (F := Ideal))) (val2 m c) = W
  simp only [List.drop_succ_cons, List.drop_zero]
  after_results_simp
  try rfl

theorem op3_main_v154 : val3 m c (Proc.devRef .tc main_v154) = addf (F := Ideal) (φ := .f32) (val3 m c (Proc.devRef .tc main_v146) : Vec Ideal S256 .f32) (val3 m c (Proc.devRef .tc main_v153) : Vec Ideal S256 .f32) := by
  simp only [val3_eq]
  rw [← List.take_append_drop 3 (ops3 (F := Ideal)), StableHlo.after_append]
  generalize after (List.take 3 (ops3 (F := Ideal))) (val2 m c) = W
  simp only [List.drop_succ_cons, List.drop_zero]
  after_results_simp
  try rfl

theorem op3_main_v155 : val3 m c (Proc.devRef .tc main_v155) = Host.rsqrt (F := Ideal) (φ := .f32) (val3 m c (Proc.devRef .tc main_v154) : Vec Ideal S256 .f32) := by
  simp only [val3_eq]
  rw [← List.take_append_drop 4 (ops3 (F := Ideal)), StableHlo.after_append]
  generalize after (List.take 4 (ops3 (F := Ideal))) (val2 m c) = W
  simp only [List.drop_succ_cons, List.drop_zero]
  after_results_simp
  try rfl

theorem op3_main_v156 : val3 m c (Proc.devRef .tc main_v156) = broadcastInDim S1x256 ![1] bcast_S256_S1x256_1 (val3 m c (Proc.devRef .tc main_v155) : Vec Ideal S256 .f32) := by
  simp only [val3_eq]
  rw [← List.take_append_drop 5 (ops3 (F := Ideal)), StableHlo.after_append]
  generalize after (List.take 5 (ops3 (F := Ideal))) (val2 m c) = W
  simp only [List.drop_succ_cons, List.drop_zero]
  after_results_simp
  try rfl

theorem op3_main_v157 : val3 m c (Proc.devRef .tc main_v157) = broadcastInDim S50000x256 ![0, 1] bcast_S1x256_S50000x256_0_1 (val3 m c (Proc.devRef .tc main_v156) : Vec Ideal S1x256 .f32) := by
  simp only [val3_eq]
  rw [← List.take_append_drop 6 (ops3 (F := Ideal)), StableHlo.after_append]
  generalize after (List.take 6 (ops3 (F := Ideal))) (val2 m c) = W
  simp only [List.drop_succ_cons, List.drop_zero]
  after_results_simp
  try rfl

theorem op3_main_v158 : val3 m c (Proc.devRef .tc main_v158) = mulf (F := Ideal) (φ := .f32) (val3 m c (Proc.devRef .tc main_v152) : Vec Ideal S50000x256 .f32) (val3 m c (Proc.devRef .tc main_v157) : Vec Ideal S50000x256 .f32) := by
  simp only [val3_eq]
  rw [← List.take_append_drop 7 (ops3 (F := Ideal)), StableHlo.after_append]
  generalize after (List.take 7 (ops3 (F := Ideal))) (val2 m c) = W
  simp only [List.drop_succ_cons, List.drop_zero]
  after_results_simp
  try rfl

theorem op3_main_v159 : val3 m c (Proc.devRef .tc main_v159) = broadcastInDim S1x256 ![1] bcast_S256_S1x256_1 (val3 m c (Proc.devRef .tc main_v142) : Vec Ideal S256 .f32) := by
  simp only [val3_eq]
  rw [← List.take_append_drop 8 (ops3 (F := Ideal)), StableHlo.after_append]
  generalize after (List.take 8 (ops3 (F := Ideal))) (val2 m c) = W
  simp only [List.drop_succ_cons, List.drop_zero]
  after_results_simp
  try rfl

theorem op3_main_v160 : val3 m c (Proc.devRef .tc main_v160) = broadcastInDim S50000x256 ![0, 1] bcast_S1x256_S50000x256_0_1 (val3 m c (Proc.devRef .tc main_v159) : Vec Ideal S1x256 .f32) := by
  simp only [val3_eq]
  rw [← List.take_append_drop 9 (ops3 (F := Ideal)), StableHlo.after_append]
  generalize after (List.take 9 (ops3 (F := Ideal))) (val2 m c) = W
  simp only [List.drop_succ_cons, List.drop_zero]
  after_results_simp
  try rfl

theorem op3_main_v161 : val3 m c (Proc.devRef .tc main_v161) = addf (F := Ideal) (φ := .f32) (val3 m c (Proc.devRef .tc main_v158) : Vec Ideal S50000x256 .f32) (val3 m c (Proc.devRef .tc main_v160) : Vec Ideal S50000x256 .f32) := by
  simp only [val3_eq]
  rw [← List.take_append_drop 10 (ops3 (F := Ideal)), StableHlo.after_append]
  generalize after (List.take 10 (ops3 (F := Ideal))) (val2 m c) = W
  simp only [List.drop_succ_cons, List.drop_zero]
  after_results_simp
  try rfl

theorem op3_main_call6_cst : val3 m c (Proc.devRef .tc main_call6_cst) = constant (F := Ideal) S_ .f32 0x00000000#32 := by
  simp only [val3_eq]
  rw [← List.take_append_drop 11 (ops3 (F := Ideal)), StableHlo.after_append]
  generalize after (List.take 11 (ops3 (F := Ideal))) (val2 m c) = W
  simp only [List.drop_succ_cons, List.drop_zero]
  after_results_simp
  try rfl

theorem op3_main_call6_v0 : val3 m c (Proc.devRef .tc main_call6_v0) = broadcastInDim S50000x256 ![] bcast_S_S50000x256 (val3 m c (Proc.devRef .tc main_call6_cst) : Vec Ideal S_ .f32) := by
  simp only [val3_eq]
  rw [← List.take_append_drop 12 (ops3 (F := Ideal)), StableHlo.after_append]
  generalize after (List.take 12 (ops3 (F := Ideal))) (val2 m c) = W
  simp only [List.drop_succ_cons, List.drop_zero]
  after_results_simp
  try rfl

theorem op3_main_v162 : val3 m c (Proc.devRef .tc main_v162) = maximumf (F := Ideal) (φ := .f32) (val3 m c (Proc.devRef .tc main_v161) : Vec Ideal S50000x256 .f32) (val3 m c (Proc.devRef .tc main_call6_v0) : Vec Ideal S50000x256 .f32) := by
  simp only [val3_eq]
  rw [← List.take_append_drop 13 (ops3 (F := Ideal)), StableHlo.after_append]
  generalize after (List.take 13 (ops3 (F := Ideal))) (val2 m c) = W
  simp only [List.drop_succ_cons, List.drop_zero]
  after_results_simp
  try rfl

/-! ## Stages

The equations above substituted into one another, from a stage's result down to the buffers the stage starts from,
and the outcome recognised as the program-free function of those buffers' contents. -/

theorem blk0_v30 : val0 m c (Proc.devRef .tc main_v30) = Cert.Spec.mm (M := 50000) (K := 512) (N := 256) (val0 m c (Proc.devRef .tc main_arg0) : Vec Ideal S50000x512 .f32) (val0 m c (Proc.devRef .tc main_arg2) : Vec Ideal S512x256 .f32) := by
  rw [op0_main_v30 m c]
  exact dotGeneral_plain_eq dot_S50000x512_S512x256_S50000x256_1_0_0_1_n_n rfl none _ _

theorem blk0_v48 : val0 m c (Proc.devRef .tc main_v48) = addf (F := Ideal) (φ := .f32) (val0 m c (Proc.devRef .tc main_v43) : Vec Ideal S50000x256 .f32) (Cert.Spec.spread (Cert.Spec.row3 (val0 m c (Proc.devRef .tc main_arg4) : Vec Ideal S3x256 .f32) 0 (by decide))) := by
  rw [op0_main_v48 m c, op0_main_v47 m c, op0_main_v46 m c, op0_main_v45 m c]
  rw [op0_main_v44 m c]
  try simp only [Cert.Spec.spread, Cert.Spec.row3]
  try (with_reducible rfl)

theorem blk1_v72 : val1 m c (Proc.devRef .tc main_v72) = bnChain (val1 m c (Proc.devRef .tc main_v48) : Vec Ideal S50000x256 .f32) (Cert.Spec.meanR (val1 m c (Proc.devRef .tc main_v48) : Vec Ideal S50000x256 .f32)) (Cert.Spec.row3 (val1 m c (Proc.devRef .tc main_arg5) : Vec Ideal S3x256 .f32) 0 (by decide)) (Cert.Spec.row3 (val1 m c (Proc.devRef .tc main_arg6) : Vec Ideal S3x256 .f32) 0 (by decide)) := by
  rw [op1_main_v72 m c, op1_main_call2_v0 m c, op1_main_call2_cst m c, op1_main_v71 m c]
  rw [op1_main_v70 m c, op1_main_v69 m c, op1_main_v68 m c, op1_main_v67 m c]
  rw [op1_main_v66 m c, op1_main_v65 m c, op1_main_v64 m c, op1_main_v63 m c]
  rw [op1_main_cst_12 m c, op1_main_v62 m c, op1_main_v61 m c, op1_main_v60 m c]
  rw [op1_main_v59 m c, op1_main_v58 m c, op1_main_v57 m c, op1_main_v56 m c]
  rw [op1_main_call1_call0_v1 m c, op1_main_call1_call0_v0 m c, op1_main_call1_cst_4 m c, op1_main_call1_v12 m c]
  rw [op1_main_call1_cst_3 m c, op1_main_call1_v11 m c, op1_main_call1_v10 m c, op1_main_call1_v9 m c]
  rw [op1_main_call1_cst_2 m c, op1_main_call1_v8 m c, op1_main_call1_cst_1 m c, op1_main_call1_v7 m c]
  rw [op1_main_call1_v6 m c, op1_main_call1_v5 m c, op1_main_call1_v4 m c, op1_main_call1_v3 m c]
  rw [op1_main_call1_v2 m c, op1_main_call1_cst_0 m c, op1_main_call1_v1 m c, op1_main_call1_v0 m c]
  rw [op1_main_call1_cst m c, op1_main_c_11 m c, op1_main_v55 m c, op1_main_v54 m c]
  rw [op1_main_cst_10 m c, op1_main_v53 m c, op1_main_cst_9 m c, op1_main_v52 m c]
  rw [op1_main_v51 m c, op1_main_v50 m c, op1_main_v49 m c]
  try simp only [bnChain, Cert.Spec.reluR, Cert.Spec.spread, Cert.Spec.meanR, Cert.Spec.varR, Cert.Spec.centredR, Cert.Spec.ddofR, Cert.Spec.row3]
  try (with_reducible rfl)

theorem blk1_v75 : val1 m c (Proc.devRef .tc main_v75) = Cert.Spec.mm (M := 50000) (K := 256) (N := 256) (val1 m c (Proc.devRef .tc main_v72) : Vec Ideal S50000x256 .f32) (Cert.Spec.mat2 (val1 m c (Proc.devRef .tc main_arg3) : Vec Ideal S2x256x256 .f32) 0 (by decide)) := by
  rw [op1_main_v75 m c, op1_main_v74 m c, op1_main_v73 m c]
  simp only [Cert.Spec.mat2]
  exact dotGeneral_plain_eq dot_S50000x256_S256x256_S50000x256_1_0_0_1_n_n rfl none _ _

theorem blk1_v93 : val1 m c (Proc.devRef .tc main_v93) = addf (F := Ideal) (φ := .f32) (val1 m c (Proc.devRef .tc main_v88) : Vec Ideal S50000x256 .f32) (Cert.Spec.spread (Cert.Spec.row3 (val1 m c (Proc.devRef .tc main_arg4) : Vec Ideal S3x256 .f32) 1 (by decide))) := by
  rw [op1_main_v93 m c, op1_main_v92 m c, op1_main_v91 m c, op1_main_v90 m c]
  rw [op1_main_v89 m c]
  try simp only [Cert.Spec.spread, Cert.Spec.row3]
  try (with_reducible rfl)

theorem blk1_v95 : val1 m c (Proc.devRef .tc main_v95) = Cert.Spec.row3 (val1 m c (Proc.devRef .tc main_arg5) : Vec Ideal S3x256 .f32) 1 (by decide) := by
  rw [op1_main_v95 m c, op1_main_v94 m c]
  try simp only [Cert.Spec.row3]
  try (with_reducible rfl)

theorem blk1_v97 : val1 m c (Proc.devRef .tc main_v97) = Cert.Spec.row3 (val1 m c (Proc.devRef .tc main_arg6) : Vec Ideal S3x256 .f32) 1 (by decide) := by
  rw [op1_main_v97 m c, op1_main_v96 m c]
  try simp only [Cert.Spec.row3]
  try (with_reducible rfl)

theorem blk1_v98 : val1 m c (Proc.devRef .tc main_v98) = Host.reduceAdd (F := Ideal) (φ := .f32) (val1 m c (Proc.devRef .tc main_v93) : Vec Ideal S50000x256 .f32) (constant (F := Ideal) Cert.Spec.S_ .f32 0x00000000#32) Cert.Spec.reducesTo_S50000x256_S256_d0 Cert.Spec.h_S_ := by
  rw [op1_main_v98 m c, op1_main_cst_16 m c]
  try (with_reducible rfl)

theorem blk1_v99 : val1 m c (Proc.devRef .tc main_v99) = broadcastInDim Cert.Spec.S256 ![] Cert.Spec.bcast_S_S256 (constant (F := Ideal) Cert.Spec.S_ .f32 0x47435000#32) := by
  rw [op1_main_v99 m c, op1_main_cst_17 m c]
  try (with_reducible rfl)

theorem blk2_v117 : val2 m c (Proc.devRef .tc main_v117) = bnChain (val2 m c (Proc.devRef .tc main_v93) : Vec Ideal S50000x256 .f32) (Host.divf (F := Ideal) (φ := .f32) (val2 m c (Proc.devRef .tc main_v98) : Vec Ideal S256 .f32) (val2 m c (Proc.devRef .tc main_v99) : Vec Ideal S256 .f32)) (val2 m c (Proc.devRef .tc main_v95) : Vec Ideal S256 .f32) (val2 m c (Proc.devRef .tc main_v97) : Vec Ideal S256 .f32) := by
  rw [op2_main_v117 m c, op2_main_call4_v0 m c, op2_main_call4_cst m c, op2_main_v116 m c]
  rw [op2_main_v115 m c, op2_main_v114 m c, op2_main_v113 m c, op2_main_v112 m c]
  rw [op2_main_v111 m c, op2_main_v110 m c, op2_main_v109 m c, op2_main_v108 m c]
  rw [op2_main_cst_19 m c, op2_main_v107 m c, op2_main_v106 m c, op2_main_v105 m c]
  rw [op2_main_v104 m c, op2_main_v103 m c, op2_main_v102 m c, op2_main_v101 m c]
  rw [op2_main_call3_call0_v1 m c, op2_main_call3_call0_v0 m c, op2_main_call3_cst_4 m c, op2_main_call3_v12 m c]
  rw [op2_main_call3_cst_3 m c, op2_main_call3_v11 m c, op2_main_call3_v10 m c, op2_main_call3_v9 m c]
  rw [op2_main_call3_cst_2 m c, op2_main_call3_v8 m c, op2_main_call3_cst_1 m c, op2_main_call3_v7 m c]
  rw [op2_main_call3_v6 m c, op2_main_call3_v5 m c, op2_main_call3_v4 m c, op2_main_call3_v3 m c]
  rw [op2_main_call3_v2 m c, op2_main_call3_cst_0 m c, op2_main_call3_v1 m c, op2_main_call3_v0 m c]
  rw [op2_main_call3_cst m c, op2_main_c_18 m c, op2_main_v100 m c]
  try simp only [bnChain, Cert.Spec.reluR, Cert.Spec.spread, Cert.Spec.meanR, Cert.Spec.varR, Cert.Spec.centredR, Cert.Spec.ddofR, Cert.Spec.row3]
  try (with_reducible rfl)

theorem blk2_v120 : val2 m c (Proc.devRef .tc main_v120) = Cert.Spec.mm (M := 50000) (K := 256) (N := 256) (val2 m c (Proc.devRef .tc main_v117) : Vec Ideal S50000x256 .f32) (Cert.Spec.mat2 (val2 m c (Proc.devRef .tc main_arg3) : Vec Ideal S2x256x256 .f32) 1 (by decide)) := by
  rw [op2_main_v120 m c, op2_main_v119 m c, op2_main_v118 m c]
  simp only [Cert.Spec.mat2]
  exact dotGeneral_plain_eq dot_S50000x256_S256x256_S50000x256_1_0_0_1_n_n rfl none _ _

theorem blk2_v138 : val2 m c (Proc.devRef .tc main_v138) = addf (F := Ideal) (φ := .f32) (val2 m c (Proc.devRef .tc main_v133) : Vec Ideal S50000x256 .f32) (Cert.Spec.spread (Cert.Spec.row3 (val2 m c (Proc.devRef .tc main_arg4) : Vec Ideal S3x256 .f32) 2 (by decide))) := by
  rw [op2_main_v138 m c, op2_main_v137 m c, op2_main_v136 m c, op2_main_v135 m c]
  rw [op2_main_v134 m c]
  try simp only [Cert.Spec.spread, Cert.Spec.row3]
  try (with_reducible rfl)

theorem blk2_v140 : val2 m c (Proc.devRef .tc main_v140) = Cert.Spec.row3 (val2 m c (Proc.devRef .tc main_arg5) : Vec Ideal S3x256 .f32) 2 (by decide) := by
  rw [op2_main_v140 m c, op2_main_v139 m c]
  try simp only [Cert.Spec.row3]
  try (with_reducible rfl)

theorem blk2_v142 : val2 m c (Proc.devRef .tc main_v142) = Cert.Spec.row3 (val2 m c (Proc.devRef .tc main_arg6) : Vec Ideal S3x256 .f32) 2 (by decide) := by
  rw [op2_main_v142 m c, op2_main_v141 m c]
  try simp only [Cert.Spec.row3]
  try (with_reducible rfl)

theorem blk2_v145 : val2 m c (Proc.devRef .tc main_v145) = Cert.Spec.meanR (val2 m c (Proc.devRef .tc main_v138) : Vec Ideal S50000x256 .f32) := by
  rw [op2_main_v145 m c, op2_main_v144 m c, op2_main_cst_24 m c, op2_main_v143 m c]
  rw [op2_main_cst_23 m c]
  try simp only [Cert.Spec.meanR]
  try (with_reducible rfl)

theorem blk2_v146 : val2 m c (Proc.devRef .tc main_v146) = Cert.Spec.varR (val2 m c (Proc.devRef .tc main_v138) : Vec Ideal S50000x256 .f32) := by
  rw [op2_main_v146 m c, op2_main_call5_call0_v1 m c, op2_main_call5_call0_v0 m c, op2_main_call5_cst_4 m c]
  rw [op2_main_call5_v12 m c, op2_main_call5_cst_3 m c, op2_main_call5_v11 m c, op2_main_call5_v10 m c]
  rw [op2_main_call5_v9 m c, op2_main_call5_cst_2 m c, op2_main_call5_v8 m c, op2_main_call5_cst_1 m c]
  rw [op2_main_call5_v7 m c, op2_main_call5_v6 m c, op2_main_call5_v5 m c, op2_main_call5_v4 m c]
  rw [op2_main_call5_v3 m c, op2_main_call5_v2 m c, op2_main_call5_cst_0 m c, op2_main_call5_v1 m c]
  rw [op2_main_call5_v0 m c, op2_main_call5_cst m c, op2_main_c_25 m c]
  try simp only [Cert.Spec.varR, Cert.Spec.centredR, Cert.Spec.ddofR]
  try (with_reducible rfl)

theorem blk2_v149 : val2 m c (Proc.devRef .tc main_v149) = subf (F := Ideal) (φ := .f32) (val2 m c (Proc.devRef .tc main_v138) : Vec Ideal S50000x256 .f32) (Cert.Spec.spread ((val2 m c (Proc.devRef .tc main_v145) : Vec Ideal S256 .f32))) := by
  rw [op2_main_v149 m c, op2_main_v148 m c, op2_main_v147 m c]
  try simp only [Cert.Spec.spread]
  try (with_reducible rfl)

theorem blk2_v151 : val2 m c (Proc.devRef .tc main_v151) = Cert.Spec.spread ((val2 m c (Proc.devRef .tc main_v140) : Vec Ideal S256 .f32)) := by
  rw [op2_main_v151 m c, op2_main_v150 m c]
  try simp only [Cert.Spec.spread]
  try (with_reducible rfl)

theorem blk3_v162 : val3 m c (Proc.devRef .tc main_v162) = Cert.Spec.reluR (addf (F := Ideal) (φ := .f32) (mulf (F := Ideal) (φ := .f32) (mulf (F := Ideal) (φ := .f32) (val3 m c (Proc.devRef .tc main_v151) : Vec Ideal S50000x256 .f32) (val3 m c (Proc.devRef .tc main_v149) : Vec Ideal S50000x256 .f32)) (Cert.Spec.spread (Host.rsqrt (F := Ideal) (φ := .f32) (addf (F := Ideal) (φ := .f32) (val3 m c (Proc.devRef .tc main_v146) : Vec Ideal S256 .f32) (broadcastInDim Cert.Spec.S256 ![] Cert.Spec.bcast_S_S256 (constant (F := Ideal) Cert.Spec.S_ .f32 0x3727C5AC#32)))))) (Cert.Spec.spread (val3 m c (Proc.devRef .tc main_v142) : Vec Ideal S256 .f32))) := by
  rw [op3_main_v162 m c, op3_main_call6_v0 m c, op3_main_call6_cst m c, op3_main_v161 m c]
  rw [op3_main_v160 m c, op3_main_v159 m c, op3_main_v158 m c, op3_main_v157 m c]
  rw [op3_main_v156 m c, op3_main_v155 m c, op3_main_v154 m c, op3_main_v153 m c]
  rw [op3_main_cst_26 m c, op3_main_v152 m c]
  try simp only [Cert.Spec.reluR, Cert.Spec.spread]
  try (with_reducible rfl)

/-! ## Arguments through the windows

No operation writes an argument's buffer, so after every window it holds the launch contents. -/

theorem val0_arg (r : Ref sig .tc) (hr : r.idx.val < 20) :
    val0 m c (Proc.devRef .tc r) = m ((c.tc : Thread nD τ).loc r) :=
  val0_keep m c r (Or.inl hr)

theorem val1_arg (r : Ref sig .tc) (hr : r.idx.val < 20) :
    val1 m c (Proc.devRef .tc r) = m ((c.tc : Thread nD τ).loc r) :=
  (val1_keep m c r (Or.inl (by omega))).trans (val0_arg m c r hr)

theorem val2_arg (r : Ref sig .tc) (hr : r.idx.val < 20) :
    val2 m c (Proc.devRef .tc r) = m ((c.tc : Thread nD τ).loc r) :=
  (val2_keep m c r (Or.inl (by omega))).trans (val1_arg m c r hr)

/-! ## The graph arrays and the three propagations

The edge targets, the edge sources and the edge weights are made once, in window 0, from the edge list; windows 1
and 2 read them where window 0 left them. Each propagation is the scatter of the gathered, weighted rows. -/

theorem rows0 : val0 m c (Proc.devRef .tc main_v3) = Cert.Spec.Graph.rows (m ((c.tc : Thread nD τ).loc main_arg1)) :=
  read_rows (fun b => m (c, b))
theorem cols0 : val0 m c (Proc.devRef .tc main_v6) = Cert.Spec.Graph.cols (m ((c.tc : Thread nD τ).loc main_arg1)) :=
  read_cols (fun b => m (c, b))
theorem edgeW0 : val0 m c (Proc.devRef .tc main_v29) = Cert.Spec.edgeW (m ((c.tc : Thread nD τ).loc main_arg1)) :=
  read_edgeW (fun b => m (c, b))
theorem rows1 : val1 m c (Proc.devRef .tc main_v3) = Cert.Spec.Graph.rows (m ((c.tc : Thread nD τ).loc main_arg1)) :=
  (val1_keep m c main_v3 (Or.inl (by decide))).trans (rows0 m c)
theorem cols1 : val1 m c (Proc.devRef .tc main_v6) = Cert.Spec.Graph.cols (m ((c.tc : Thread nD τ).loc main_arg1)) :=
  (val1_keep m c main_v6 (Or.inl (by decide))).trans (cols0 m c)
theorem edgeW1 : val1 m c (Proc.devRef .tc main_v29) = Cert.Spec.edgeW (m ((c.tc : Thread nD τ).loc main_arg1)) :=
  (val1_keep m c main_v29 (Or.inl (by decide))).trans (edgeW0 m c)

theorem prop1 : val0 m c (Proc.devRef .tc main_v43)
    = Cert.Spec.prop (m ((c.tc : Thread nD τ).loc main_arg1)) (val0 m c (Proc.devRef .tc main_v30) : Vec Ideal S50000x256 .f32) :=
  read_prop1 (fun b => m (c, b))
theorem prop2 : val1 m c (Proc.devRef .tc main_v88)
    = Cert.Spec.prop (m ((c.tc : Thread nD τ).loc main_arg1)) (val1 m c (Proc.devRef .tc main_v75) : Vec Ideal S50000x256 .f32) :=
  read_prop2 (val0 m c) _ (rows0 m c) (cols0 m c) (edgeW0 m c)
theorem prop3 : val2 m c (Proc.devRef .tc main_v133)
    = Cert.Spec.prop (m ((c.tc : Thread nD τ).loc main_arg1)) (val2 m c (Proc.devRef .tc main_v120) : Vec Ideal S50000x256 .f32) :=
  read_prop3 (val1 m c) _ (rows1 m c) (cols1 m c) (edgeW1 m c)

/-! ## The three layers

Each layer's result is read by substituting, into the block's chain, the stages before it down to the arguments; what
is left is the second program's layer with its definitions unfolded. -/

/-- The first layer's result. -/
theorem readR_h1 : val1 m c (Proc.devRef .tc main_v72) = (Cert.Spec.gcnR (K := 512) (m ((c.tc : Thread nD τ).loc main_arg1)) (m ((c.tc : Thread nD τ).loc main_arg0)) (m ((c.tc : Thread nD τ).loc main_arg2)) (Cert.Spec.row3 (m ((c.tc : Thread nD τ).loc main_arg4)) 0 (by decide)) (Cert.Spec.row3 (m ((c.tc : Thread nD τ).loc main_arg5)) 0 (by decide)) (Cert.Spec.row3 (m ((c.tc : Thread nD τ).loc main_arg6)) 0 (by decide))) := by
  have e := blk1_v72 m c
  rw [val1_keep m c main_v48 (Or.inl (by decide)), val1_arg m c main_arg5 (by decide), val1_arg m c main_arg6 (by decide),
    blk0_v48 m c, val0_arg m c main_arg4 (by decide), prop1 m c, blk0_v30 m c, val0_arg m c main_arg0 (by decide), val0_arg m c main_arg2 (by decide)] at e
  refine e.trans ?_
  simp only [Cert.Spec.gcnR, Cert.Spec.bnR, bnChain]
  try (with_reducible rfl)

/-- The second layer's result. -/
theorem readR_h2 : val2 m c (Proc.devRef .tc main_v117) = (Cert.Spec.gcnR (K := 256) (m ((c.tc : Thread nD τ).loc main_arg1)) (Cert.Spec.gcnR (K := 512) (m ((c.tc : Thread nD τ).loc main_arg1)) (m ((c.tc : Thread nD τ).loc main_arg0)) (m ((c.tc : Thread nD τ).loc main_arg2)) (Cert.Spec.row3 (m ((c.tc : Thread nD τ).loc main_arg4)) 0 (by decide)) (Cert.Spec.row3 (m ((c.tc : Thread nD τ).loc main_arg5)) 0 (by decide)) (Cert.Spec.row3 (m ((c.tc : Thread nD τ).loc main_arg6)) 0 (by decide))) (Cert.Spec.mat2 (m ((c.tc : Thread nD τ).loc main_arg3)) 0 (by decide)) (Cert.Spec.row3 (m ((c.tc : Thread nD τ).loc main_arg4)) 1 (by decide)) (Cert.Spec.row3 (m ((c.tc : Thread nD τ).loc main_arg5)) 1 (by decide)) (Cert.Spec.row3 (m ((c.tc : Thread nD τ).loc main_arg6)) 1 (by decide))) := by
  have e := blk2_v117 m c
  rw [val2_keep m c main_v93 (Or.inl (by decide)), val2_keep m c main_v98 (Or.inl (by decide)), val2_keep m c main_v99 (Or.inl (by decide)), val2_keep m c main_v95 (Or.inl (by decide)), val2_keep m c main_v97 (Or.inl (by decide)),
    blk1_v98 m c, blk1_v99 m c, blk1_v95 m c, blk1_v97 m c, blk1_v93 m c, prop2 m c, blk1_v75 m c, readR_h1 m c,
    val1_arg m c main_arg3 (by decide), val1_arg m c main_arg4 (by decide), val1_arg m c main_arg5 (by decide), val1_arg m c main_arg6 (by decide)] at e
  refine e.trans ?_
  simp only [Cert.Spec.gcnR, Cert.Spec.bnR, bnChain, Cert.Spec.meanR]
  try (with_reducible rfl)

/-- The third layer's result, as the three layers nested. -/
theorem readR_h3_layers : val3 m c (Proc.devRef .tc main_v162) = (Cert.Spec.gcnR (K := 256) (m ((c.tc : Thread nD τ).loc main_arg1)) (Cert.Spec.gcnR (K := 256) (m ((c.tc : Thread nD τ).loc main_arg1)) (Cert.Spec.gcnR (K := 512) (m ((c.tc : Thread nD τ).loc main_arg1)) (m ((c.tc : Thread nD τ).loc main_arg0)) (m ((c.tc : Thread nD τ).loc main_arg2)) (Cert.Spec.row3 (m ((c.tc : Thread nD τ).loc main_arg4)) 0 (by decide)) (Cert.Spec.row3 (m ((c.tc : Thread nD τ).loc main_arg5)) 0 (by decide)) (Cert.Spec.row3 (m ((c.tc : Thread nD τ).loc main_arg6)) 0 (by decide))) (Cert.Spec.mat2 (m ((c.tc : Thread nD τ).loc main_arg3)) 0 (by decide)) (Cert.Spec.row3 (m ((c.tc : Thread nD τ).loc main_arg4)) 1 (by decide)) (Cert.Spec.row3 (m ((c.tc : Thread nD τ).loc main_arg5)) 1 (by decide)) (Cert.Spec.row3 (m ((c.tc : Thread nD τ).loc main_arg6)) 1 (by decide))) (Cert.Spec.mat2 (m ((c.tc : Thread nD τ).loc main_arg3)) 1 (by decide)) (Cert.Spec.row3 (m ((c.tc : Thread nD τ).loc main_arg4)) 2 (by decide)) (Cert.Spec.row3 (m ((c.tc : Thread nD τ).loc main_arg5)) 2 (by decide)) (Cert.Spec.row3 (m ((c.tc : Thread nD τ).loc main_arg6)) 2 (by decide))) := by
  have e := blk3_v162 m c
  rw [val3_keep m c main_v151 (Or.inl (by decide)), val3_keep m c main_v149 (Or.inl (by decide)), val3_keep m c main_v146 (Or.inl (by decide)), val3_keep m c main_v142 (Or.inl (by decide)),
    blk2_v151 m c, blk2_v149 m c, blk2_v145 m c, blk2_v146 m c, blk2_v142 m c, blk2_v140 m c, blk2_v138 m c,
    prop3 m c, blk2_v120 m c, readR_h2 m c,
    val2_arg m c main_arg3 (by decide), val2_arg m c main_arg4 (by decide), val2_arg m c main_arg5 (by decide), val2_arg m c main_arg6 (by decide)] at e
  refine e.trans ?_
  simp only [Cert.Spec.gcnR, Cert.Spec.bnR]
  try (with_reducible rfl)

/-- The third graph layer's result, where window 3 leaves it, is the three graph layers of the launch arguments. -/
theorem readR_h3 : val3 m c (Proc.devRef .tc main_v162)
    = Cert.Spec.h3R (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  unfold Cert.Spec.h3R
  exact readR_h3_layers m c

/-- The same at the end of the run: no later window writes the buffer. -/
theorem readR_h3_end : val7 m c (Proc.devRef .tc main_v162)
    = Cert.Spec.h3R (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) :=
  (val7_eq_val3 m c main_v162 (by decide)).trans (readR_h3 m c)

end Cert.ReferenceIdeal.RefRun

end
-- ==== Proof.Ref.Read2.lean ====
/-
  The reference's value, second part: the three dense layers after the graph layers.

  After the third graph layer (its result an array `h3` of 50000 rows and 256 columns, taken here as it stands in
  its buffer) the reference runs three dense layers. Each is a matrix product, then the batch-norm block over the
  product: the bias row added, the column means and variances of the sum taken, the sum normalised, scaled, shifted and
  cut off below at zero. The first layer multiplies `h3` by the 256 × 256 weight; the second and the third multiply
  the previous layer's result set beside `h3` (512 columns) by matrix 0 and matrix 1 of the stacked 512 × 256
  weights; layer `i` uses row `i` of the stacked bias, scale and shift arrays. In the program-free vocabulary:

      xg0 = denseR h3 w7 (row3 b 0) (row3 g 0) (row3 s 0)
      xg1 = denseR (cat xg0 h3) (mat2w w8 0) (row3 b 1) (row3 g 1) (row3 s 1)
      xg2 = denseR (cat xg1 h3) (mat2w w8 1) (row3 b 2) (row3 g 2) (row3 s 2)

  (`readR_xg0`, `readR_xg1`, `readR_xg2`, over the buffers' contents after the whole run and the launch contents of
  the arguments).

  How a buffer is read. The operations are in static single assignment form and operation `i` of a window writes
  the buffer whose index is the window's first index plus `i` (`WritesAt`). So a buffer holds after the whole list
  what it holds after any prefix that contains its operation (`after_take`), and a stretch of operations can be read
  from the contents at its start, whatever they are (`after_take_split`, then the contents generalised): the result
  and the operands of one stage are opened only between the stage's first operation and its last, never down to the
  launch contents. The two windows the three layers span are read as one list.
-/
import proofs.«146967_j25786983645193_1_alg».proof.Proof.Ref.Ops
import proofs.«146967_j25786983645193_1_alg».proof.Proof.Spec.Net
import Idealize.ShloMosaic.PureOps.Ideal.Laws
import Idealize.ShloMosaic.Lib.ValueIdx

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Reading a buffer at the prefix that defines it -/

/-- Operation `i` of the list writes exactly the buffer whose index is `b + i`. -/
def WritesAt : ℕ → List (HloOp τ sig (Elt F)) → Prop
  | _, [] => True
  | b, op :: l => WritesIn b (b + 1) op ∧ WritesAt (b + 1) l

theorem WritesAt.drop : ∀ (k : ℕ) {b : ℕ} {l : List (HloOp τ sig (Elt F))}, WritesAt b l → WritesAt (b + k) (l.drop k)
  | 0, _, _, h => h
  | _ + 1, _, [], _ => trivial
  | k + 1, b, _ :: l, h => by
      have h' := WritesAt.drop k h.2
      rw [Nat.add_assoc, Nat.add_comm 1 k] at h'
      exact h'

theorem WritesAt.forall_ge : ∀ {b : ℕ} {l : List (HloOp τ sig (Elt F))}, WritesAt b l →
    ∀ op ∈ l, ∀ x ∈ op.writes, ∃ y : Ref sig .tc, x = Proc.devRef (τ := τ) .tc y ∧ b ≤ y.idx.val
  | _, [], _, _, hop => absurd hop List.not_mem_nil
  | _, _ :: _, h, op, hop => by
      rcases List.mem_cons.mp hop with rfl | hl
      · intro x hx; obtain ⟨y, e, h1, _⟩ := h.1 x hx; exact ⟨y, e, h1⟩
      · intro x hx; obtain ⟨y, e, h1⟩ := WritesAt.forall_ge h.2 op hl x hx; exact ⟨y, e, by omega⟩

/-- A buffer whose index is below `b + k` holds after the whole list what it holds after the first `k` operations. -/
theorem after_take {b : ℕ} {l : List (HloOp τ sig (Elt F))} (hW : WritesAt b l) (V : Valuation τ sig (Elt F))
    (r : Ref sig .tc) (k : ℕ) (hr : r.idx.val < b + k) :
    after l V (Proc.devRef .tc r) = after (l.take k) V (Proc.devRef .tc r) := by
  conv_lhs => rw [← List.take_append_drop k l]
  rw [StableHlo.after_append]
  exact after_of_forall_not_mem _ _ fun op hop hb => by
    obtain ⟨y, e, h1⟩ := (hW.drop k).forall_ge op hop _ hb
    have hry : r = y := Proc.devRef_injective _ e
    subst hry
    omega

theorem after_take_succ_cons (op : HloOp τ sig (Elt F)) (l : List (HloOp τ sig (Elt F))) (n : ℕ) (V : Valuation τ sig (Elt F)) :
    after ((op :: l).take (n + 1)) V = after (l.take n) (op.result V) := rfl
theorem after_take_zero (l : List (HloOp τ sig (Elt F))) (V : Valuation τ sig (Elt F)) : after (l.take 0) V = V := rfl

theorem WritesAt.append : ∀ {b : ℕ} {l₁ l₂ : List (HloOp τ sig (Elt F))}, WritesAt b l₁ → WritesAt (b + l₁.length) l₂ →
    WritesAt b (l₁ ++ l₂)
  | _, [], _, _, h₂ => h₂
  | _, _ :: l₁, _, h₁, h₂ => ⟨h₁.1, WritesAt.append h₁.2 (by
      rw [Nat.add_assoc, Nat.add_comm 1 l₁.length]; exact h₂)⟩

/-- The first `k` operations run as the first `c` of them, then the rest of the `k`. -/
theorem after_take_split (l : List (HloOp τ sig (Elt F))) (V : Valuation τ sig (Elt F)) (c k : ℕ) (h : c ≤ k) :
    after (l.take k) V = after ((l.take k).drop c) (after (l.take c) V) := by
  conv_lhs => rw [← List.take_append_drop c (l.take k)]
  rw [StableHlo.after_append, List.take_take, Nat.min_eq_left h]

/-! A stretch of a list written `drop c (take k (l ++ l'))`, stepped to its first operation and then run: every
    equation holds by computation. -/
section Slice
variable (op : HloOp τ sig (Elt F)) (l l' : List (HloOp τ sig (Elt F))) (n k : ℕ) (W : Valuation τ sig (Elt F))
theorem slice_skip_app : after (List.drop (n + 1) (List.take (k + 1) ((op :: l) ++ l'))) W
    = after (List.drop n (List.take k (l ++ l'))) W := rfl
theorem slice_nil_app : after (List.drop n (List.take k (([] : List (HloOp τ sig (Elt F))) ++ l'))) W
    = after (List.drop n (List.take k l')) W := rfl
theorem slice_skip : after (List.drop (n + 1) (List.take (k + 1) (op :: l))) W = after (List.drop n (List.take k l)) W := rfl
theorem slice_step_app : after (List.drop 0 (List.take (k + 1) ((op :: l) ++ l'))) W
    = after (List.drop 0 (List.take k (l ++ l'))) (op.result W) := rfl
theorem slice_step : after (List.drop 0 (List.take (k + 1) (op :: l))) W
    = after (List.drop 0 (List.take k l)) (op.result W) := rfl
theorem slice_done : after (List.drop 0 (List.take 0 l)) W = W := rfl
end Slice

/-! ## The two windows' operations write their buffers in order -/

set_option maxRecDepth 8192 in
theorem ops3_at : WritesAt 269 (ops3 : List (HloOp τ sig (Elt F))) :=
  ⟨writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), trivial⟩

set_option maxRecDepth 8192 in
theorem ops4_at : WritesAt 354 (ops4 : List (HloOp τ sig (Elt F))) :=
  ⟨writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (binary_writes ..) (by decide), writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (unary_writes ..) (by decide), writesIn_of (reshape_writes ..) (by decide), writesIn_of (unary_writes ..) (by decide), writesIn_of (reshape_writes ..) (by decide), writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide), trivial⟩

/-- The two windows as one list. -/
theorem L_at : WritesAt 269 ((ops3 ++ ops4 : List (HloOp τ sig (Elt F)))) :=
  WritesAt.append ops3_at (show WritesAt (269 + (ops3 : List (HloOp τ sig (Elt F))).length) ops4 from ops4_at)

/-! ## A host product with the plain dimension numbers is the matrix product -/

open Idealize.ShloMosaic.ValueIdx in
/-- The host's `dot_general` of an `M × K` by a `K × N` array, the left operand contracted on its second axis and
    the right on its first, no batch axis, is the sum over the contraction coordinate of the products. -/
theorem hostDot_plain_eq_mm {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : Vec Ideal ⟨2, ![M, K]⟩ .f32) (y : Vec Ideal ⟨2, ![K, N]⟩ .f32) :
    Host.dotGeneral (F := Ideal) (φ₁ := .f32) (φ₂ := .f32) d prec x y = Cert.Spec.mm x y := by
  funext j
  rw [Cert.Spec.mm_apply]
  show FloatOps.dotGeneral (F := Ideal) (φ₁ := .f32) (φ₂ := .f32) d prec .single x y j = _
  rw [Ideal.dotGeneral_apply]
  obtain ⟨lc, rc, ln, rn, lb, rb, wf⟩ := d
  dsimp only at hlc hrc hln hrn hlb hrb
  subst hlc hrc hln hrn hlb hrb
  let e := contrEquiv1 (⟨[1], [0], [0], [1], [], [], wf⟩ : DotDims ⟨2, ![M, K]⟩ ⟨2, ![K, N]⟩ ⟨2, ![M, N]⟩) K rfl rfl
  rw [← Equiv.sum_comp e.symm]
  refine Finset.sum_congr rfl fun k _ => ?_
  have hk : ((e.symm k) ⟨0, Nat.zero_lt_one⟩ : ℕ) = k.val := contrEquiv1_symm_val _ K rfl rfl k
  have hl : (⟨[1], [0], [0], [1], [], [], wf⟩ : DotDims ⟨2, ![M, K]⟩ ⟨2, ![K, N]⟩ ⟨2, ![M, N]⟩).lhsIdx j (e.symm k) = ix2 (j 0) k := by
    funext a
    match a with
    | ⟨0, _⟩ => exact Fin.ext rfl
    | ⟨1, _⟩ => exact Fin.ext hk
  have hr : (⟨[1], [0], [0], [1], [], [], wf⟩ : DotDims ⟨2, ![M, K]⟩ ⟨2, ![K, N]⟩ ⟨2, ![M, N]⟩).rhsIdx j (e.symm k) = ix2 k (j 1) := by
    funext a
    match a with
    | ⟨0, _⟩ => exact Fin.ext hk
    | ⟨1, _⟩ => exact Fin.ext rfl
  rw [hl, hr]
  rfl

/-! ## The stages -/

section AtIdeal
variable (m : (ℓ : Loc nD τ sig) → Buf (Elt Ideal) ℓ) (c : Dev nD)

/-- The contents after the fourth window are the two windows' operations run, as one list, from the contents before
    the third. -/
theorem val4_eq34 : val4 m c = after (ops3 ++ ops4) (val2 m c) := by
  rw [StableHlo.after_append]; rfl

/-- An argument's buffer holds after the fourth window what it held at launch. -/
theorem val4_arg (r : Ref sig .tc) (hr : r.idx.val < 20) : val4 m c (Proc.devRef .tc r) = m (c, Proc.devRef .tc r) :=
  (val4_keep m c r (Or.inl (by omega))).trans <| (val3_keep m c r (Or.inl (by omega))).trans <|
    (val2_keep m c r (Or.inl (by omega))).trans <| (val1_keep m c r (Or.inl (by omega))).trans <|
      val0_keep m c r (Or.inl hr)

set_option maxRecDepth 8192 in
set_option maxHeartbeats 2000000 in
/-- The first dense layer's product: the third graph layer's output times the 256 × 256 weight. -/
theorem st_v163 : val4 m c (Proc.devRef .tc main_v163) = Host.dotGeneral (F := Ideal) (φ₁ := .f32) (φ₂ := .f32) dot_S50000x256_S256x256_S50000x256_1_0_0_1_n_n none (val4 m c (Proc.devRef .tc main_v162) : (⟨S50000x256, .f32⟩ : BufTy).Contents (Elt Ideal)) (val4 m c (Proc.devRef .tc main_arg7) : (⟨S256x256, .f32⟩ : BufTy).Contents (Elt Ideal)) := by
  rw [val4_eq34 m c]
  rw [after_take L_at _ main_v163 15 (by decide),
    after_take L_at _ main_v162 14 (by decide),
    after_take L_at _ main_arg7 14 (by decide)]
  rw [after_take_split _ _ 14 15 (by decide)]
  generalize after (List.take 14 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 0 of the bias array, as a flat row. -/
theorem st_v165 : val4 m c (Proc.devRef .tc main_v165) = Cert.Spec.row3 (val4 m c (Proc.devRef .tc main_arg9) : (⟨S3x256, .f32⟩ : BufTy).Contents (Elt Ideal)) 0 (by decide) := by
  rw [val4_eq34 m c]
  rw [after_take L_at _ main_v165 17 (by decide),
    after_take L_at _ main_arg9 15 (by decide)]
  rw [after_take_split _ _ 15 17 (by decide)]
  generalize after (List.take 15 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 0 of the scale array, as a flat row. -/
theorem st_v170 : val4 m c (Proc.devRef .tc main_v170) = Cert.Spec.row3 (val4 m c (Proc.devRef .tc main_arg10) : (⟨S3x256, .f32⟩ : BufTy).Contents (Elt Ideal)) 0 (by decide) := by
  rw [val4_eq34 m c]
  rw [after_take L_at _ main_v170 22 (by decide),
    after_take L_at _ main_arg10 20 (by decide)]
  rw [after_take_split _ _ 20 22 (by decide)]
  generalize after (List.take 20 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 0 of the shift array, as a flat row. -/
theorem st_v172 : val4 m c (Proc.devRef .tc main_v172) = Cert.Spec.row3 (val4 m c (Proc.devRef .tc main_arg11) : (⟨S3x256, .f32⟩ : BufTy).Contents (Elt Ideal)) 0 (by decide) := by
  rw [val4_eq34 m c]
  rw [after_take L_at _ main_v172 24 (by decide),
    after_take L_at _ main_arg11 22 (by decide)]
  rw [after_take_split _ _ 22 24 (by decide)]
  generalize after (List.take 22 (ops3 ++ ops4)) (val2 m c) = W
  simp only [slice_skip_app, slice_nil_app, slice_skip, slice_step_app, slice_step, slice_done]
  after_results_simp
  all_goals rfl

set_option maxRecDepth 8192 in
set_option maxHeartbeats 2000000 in
/-- The first dense layer's block: bias, the column statistics of the biased product, normalisation, scale and shift, maximum with zero. -/
theorem st_v192 : val4 m c (Proc.devRef .tc main_v192) = Cert.Spec.bnR (val4 m c (Proc.devRef .tc main_v163) : (⟨S50000x256, .f32⟩ : BufTy).Contents (Elt Ideal)) (val4 m c (Proc.devRef .tc main_v165) : (⟨S256, .f32⟩ : BufTy).Contents (Elt Ideal)) (val4 m c (Proc.devRef .tc main_v170) : (⟨S256, .f32⟩ : BufTy).Contents (Elt Ideal)) (val4 m c (Proc.devRef .tc main_v172) : (⟨S256, .f32⟩ : BufTy).Contents (Elt Ideal)) := by
  rw [val4_eq34 m c]
  rw [after_take L_at _ main_v192 71 (by decide),
    after_take L_at _ main_v163 17 (by decide),
    after_take L_at _ main_v165 17 (by decide),
    after_take L_at _ main_v170 22 (by decide),
    after_take L_at _ main_v172 24 (by decide)]
  rw [after_take_split _ _ 17 71 (by decide), after_take_split _ _ 17 22 (by decide), after_take_split _ _ 17 24 (by decide)]
  generalize after (List.take 17 (ops3 ++ ops4)) (val2 m c) = W
  simp only [slice_skip_app, slice_nil_app, slice_skip, slice_step_app, slice_step, slice_done]
  after_results_simp
  all_goals rfl

set_option maxRecDepth 8192 in
set_option maxHeartbeats 2000000 in
/-- The first dense layer's output and the third graph layer's output side by side. -/
theorem st_v193 : val4 m c (Proc.devRef .tc main_v193) = Cert.Spec.cat (val4 m c (Proc.devRef .tc main_v192) : (⟨S50000x256, .f32⟩ : BufTy).Contents (Elt Ideal)) (val4 m c (Proc.devRef .tc main_v162) : (⟨S50000x256, .f32⟩ : BufTy).Contents (Elt Ideal)) := by
  rw [val4_eq34 m c]
  rw [after_take L_at _ main_v193 72 (by decide),
    after_take L_at _ main_v192 71 (by decide),
    after_take L_at _ main_v162 71 (by decide)]
  rw [after_take_split _ _ 71 72 (by decide)]
  generalize after (List.take 71 (ops3 ++ ops4)) (val2 m c) = W
  simp only [slice_skip_app, slice_nil_app, slice_skip, slice_step_app, slice_step, slice_done]
  after_results_simp
  all_goals rfl

set_option maxRecDepth 8192 in
set_option maxHeartbeats 2000000 in
/-- Matrix 0 of the stacked 512 × 256 weights. -/
theorem st_v195 : val4 m c (Proc.devRef .tc main_v195) = Cert.Spec.mat2w (val4 m c (Proc.devRef .tc main_arg8) : (⟨S2x512x256, .f32⟩ : BufTy).Contents (Elt Ideal)) 0 (by decide) := by
  rw [val4_eq34 m c]
  rw [after_take L_at _ main_v195 74 (by decide),
    after_take L_at _ main_arg8 72 (by decide)]
  rw [after_take_split _ _ 72 74 (by decide)]
  generalize after (List.take 72 (ops3 ++ ops4)) (val2 m c) = W
  simp only [slice_skip_app, slice_nil_app, slice_skip, slice_step_app, slice_step, slice_done]
  after_results_simp
  all_goals rfl

set_option maxRecDepth 8192 in
set_option maxHeartbeats 2000000 in
/-- The second dense layer's product. -/
theorem st_v196 : val4 m c (Proc.devRef .tc main_v196) = Host.dotGeneral (F := Ideal) (φ₁ := .f32) (φ₂ := .f32) dot_S50000x512_S512x256_S50000x256_1_0_0_1_n_n none (val4 m c (Proc.devRef .tc main_v193) : (⟨S50000x512, .f32⟩ : BufTy).Contents (Elt Ideal)) (val4 m c (Proc.devRef .tc main_v195) : (⟨S512x256, .f32⟩ : BufTy).Contents (Elt Ideal)) := by
  rw [val4_eq34 m c]
  rw [after_take L_at _ main_v196 75 (by decide),
    after_take L_at _ main_v193 74 (by decide),
    after_take L_at _ main_v195 74 (by decide)]
  rw [after_take_split _ _ 74 75 (by decide)]
  generalize after (List.take 74 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 1 of the bias array, as a flat row. -/
theorem st_v198 : val4 m c (Proc.devRef .tc main_v198) = Cert.Spec.row3 (val4 m c (Proc.devRef .tc main_arg9) : (⟨S3x256, .f32⟩ : BufTy).Contents (Elt Ideal)) 1 (by decide) := by
  rw [val4_eq34 m c]
  rw [after_take L_at _ main_v198 77 (by decide),
    after_take L_at _ main_arg9 75 (by decide)]
  rw [after_take_split _ _ 75 77 (by decide)]
  generalize after (List.take 75 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 1 of the scale array, as a flat row. -/
theorem st_v203 : val4 m c (Proc.devRef .tc main_v203) = Cert.Spec.row3 (val4 m c (Proc.devRef .tc main_arg10) : (⟨S3x256, .f32⟩ : BufTy).Contents (Elt Ideal)) 1 (by decide) := by
  rw [val4_eq34 m c]
  rw [after_take L_at _ main_v203 82 (by decide),
    after_take L_at _ main_arg10 80 (by decide)]
  rw [after_take_split _ _ 80 82 (by decide)]
  generalize after (List.take 80 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 1 of the shift array, as a flat row. -/
theorem st_v205 : val4 m c (Proc.devRef .tc main_v205) = Cert.Spec.row3 (val4 m c (Proc.devRef .tc main_arg11) : (⟨S3x256, .f32⟩ : BufTy).Contents (Elt Ideal)) 1 (by decide) := by
  rw [val4_eq34 m c]
  rw [after_take L_at _ main_v205 84 (by decide),
    after_take L_at _ main_arg11 82 (by decide)]
  rw [after_take_split _ _ 82 84 (by decide)]
  generalize after (List.take 82 (ops3 ++ ops4)) (val2 m c) = W
  simp only [slice_skip_app, slice_nil_app, slice_skip, slice_step_app, slice_step, slice_done]
  after_results_simp
  all_goals rfl

set_option maxRecDepth 8192 in
set_option maxHeartbeats 2000000 in
/-- The second dense layer's block. -/
theorem st_v225 : val4 m c (Proc.devRef .tc main_v225) = Cert.Spec.bnR (val4 m c (Proc.devRef .tc main_v196) : (⟨S50000x256, .f32⟩ : BufTy).Contents (Elt Ideal)) (val4 m c (Proc.devRef .tc main_v198) : (⟨S256, .f32⟩ : BufTy).Contents (Elt Ideal)) (val4 m c (Proc.devRef .tc main_v203) : (⟨S256, .f32⟩ : BufTy).Contents (Elt Ideal)) (val4 m c (Proc.devRef .tc main_v205) : (⟨S256, .f32⟩ : BufTy).Contents (Elt Ideal)) := by
  rw [val4_eq34 m c]
  rw [after_take L_at _ main_v225 131 (by decide),
    after_take L_at _ main_v196 77 (by decide),
    after_take L_at _ main_v198 77 (by decide),
    after_take L_at _ main_v203 82 (by decide),
    after_take L_at _ main_v205 84 (by decide)]
  rw [after_take_split _ _ 77 131 (by decide), after_take_split _ _ 77 82 (by decide), after_take_split _ _ 77 84 (by decide)]
  generalize after (List.take 77 (ops3 ++ ops4)) (val2 m c) = W
  simp only [slice_skip_app, slice_nil_app, slice_skip, slice_step_app, slice_step, slice_done]
  after_results_simp
  all_goals rfl

set_option maxRecDepth 8192 in
set_option maxHeartbeats 2000000 in
/-- The second dense layer's output and the third graph layer's output side by side. -/
theorem st_v226 : val4 m c (Proc.devRef .tc main_v226) = Cert.Spec.cat (val4 m c (Proc.devRef .tc main_v225) : (⟨S50000x256, .f32⟩ : BufTy).Contents (Elt Ideal)) (val4 m c (Proc.devRef .tc main_v162) : (⟨S50000x256, .f32⟩ : BufTy).Contents (Elt Ideal)) := by
  rw [val4_eq34 m c]
  rw [after_take L_at _ main_v226 132 (by decide),
    after_take L_at _ main_v225 131 (by decide),
    after_take L_at _ main_v162 131 (by decide)]
  rw [after_take_split _ _ 131 132 (by decide)]
  generalize after (List.take 131 (ops3 ++ ops4)) (val2 m c) = W
  simp only [slice_skip_app, slice_nil_app, slice_skip, slice_step_app, slice_step, slice_done]
  after_results_simp
  all_goals rfl

set_option maxRecDepth 8192 in
set_option maxHeartbeats 2000000 in
/-- Matrix 1 of the stacked 512 × 256 weights. -/
theorem st_v228 : val4 m c (Proc.devRef .tc main_v228) = Cert.Spec.mat2w (val4 m c (Proc.devRef .tc main_arg8) : (⟨S2x512x256, .f32⟩ : BufTy).Contents (Elt Ideal)) 1 (by decide) := by
  rw [val4_eq34 m c]
  rw [after_take L_at _ main_v228 134 (by decide),
    after_take L_at _ main_arg8 132 (by decide)]
  rw [after_take_split _ _ 132 134 (by decide)]
  generalize after (List.take 132 (ops3 ++ ops4)) (val2 m c) = W
  simp only [slice_skip_app, slice_nil_app, slice_skip, slice_step_app, slice_step, slice_done]
  after_results_simp
  all_goals rfl

set_option maxRecDepth 8192 in
set_option maxHeartbeats 2000000 in
/-- The third dense layer's product. -/
theorem st_v229 : val4 m c (Proc.devRef .tc main_v229) = Host.dotGeneral (F := Ideal) (φ₁ := .f32) (φ₂ := .f32) dot_S50000x512_S512x256_S50000x256_1_0_0_1_n_n none (val4 m c (Proc.devRef .tc main_v226) : (⟨S50000x512, .f32⟩ : BufTy).Contents (Elt Ideal)) (val4 m c (Proc.devRef .tc main_v228) : (⟨S512x256, .f32⟩ : BufTy).Contents (Elt Ideal)) := by
  rw [val4_eq34 m c]
  rw [after_take L_at _ main_v229 135 (by decide),
    after_take L_at _ main_v226 134 (by decide),
    after_take L_at _ main_v228 134 (by decide)]
  rw [after_take_split _ _ 134 135 (by decide)]
  generalize after (List.take 134 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 2 of the bias array, as a flat row. -/
theorem st_v231 : val4 m c (Proc.devRef .tc main_v231) = Cert.Spec.row3 (val4 m c (Proc.devRef .tc main_arg9) : (⟨S3x256, .f32⟩ : BufTy).Contents (Elt Ideal)) 2 (by decide) := by
  rw [val4_eq34 m c]
  rw [after_take L_at _ main_v231 137 (by decide),
    after_take L_at _ main_arg9 135 (by decide)]
  rw [after_take_split _ _ 135 137 (by decide)]
  generalize after (List.take 135 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 2 of the scale array, as a flat row. -/
theorem st_v236 : val4 m c (Proc.devRef .tc main_v236) = Cert.Spec.row3 (val4 m c (Proc.devRef .tc main_arg10) : (⟨S3x256, .f32⟩ : BufTy).Contents (Elt Ideal)) 2 (by decide) := by
  rw [val4_eq34 m c]
  rw [after_take L_at _ main_v236 142 (by decide),
    after_take L_at _ main_arg10 140 (by decide)]
  rw [after_take_split _ _ 140 142 (by decide)]
  generalize after (List.take 140 (ops3 ++ ops4)) (val2 m c) = W
  simp only [slice_skip_app, slice_nil_app, slice_skip, slice_step_app, slice_step, slice_done]
  after_results_simp
  all_goals rfl

set_option maxRecDepth 8192 in
set_option maxHeartbeats 2000000 in
/-- Row 2 of the shift array, as a flat row. -/
theorem st_v238 : val4 m c (Proc.devRef .tc main_v238) = Cert.Spec.row3 (val4 m c (Proc.devRef .tc main_arg11) : (⟨S3x256, .f32⟩ : BufTy).Contents (Elt Ideal)) 2 (by decide) := by
  rw [val4_eq34 m c]
  rw [after_take L_at _ main_v238 144 (by decide),
    after_take L_at _ main_arg11 142 (by decide)]
  rw [after_take_split _ _ 142 144 (by decide)]
  generalize after (List.take 142 (ops3 ++ ops4)) (val2 m c) = W
  simp only [slice_skip_app, slice_nil_app, slice_skip, slice_step_app, slice_step, slice_done]
  after_results_simp
  all_goals rfl

set_option maxRecDepth 8192 in
set_option maxHeartbeats 2000000 in
/-- The third dense layer's block. -/
theorem st_v258 : val4 m c (Proc.devRef .tc main_v258) = Cert.Spec.bnR (val4 m c (Proc.devRef .tc main_v229) : (⟨S50000x256, .f32⟩ : BufTy).Contents (Elt Ideal)) (val4 m c (Proc.devRef .tc main_v231) : (⟨S256, .f32⟩ : BufTy).Contents (Elt Ideal)) (val4 m c (Proc.devRef .tc main_v236) : (⟨S256, .f32⟩ : BufTy).Contents (Elt Ideal)) (val4 m c (Proc.devRef .tc main_v238) : (⟨S256, .f32⟩ : BufTy).Contents (Elt Ideal)) := by
  rw [val4_eq34 m c]
  rw [after_take L_at _ main_v258 191 (by decide),
    after_take L_at _ main_v229 137 (by decide),
    after_take L_at _ main_v231 137 (by decide),
    after_take L_at _ main_v236 142 (by decide),
    after_take L_at _ main_v238 144 (by decide)]
  rw [after_take_split _ _ 137 191 (by decide), after_take_split _ _ 137 142 (by decide), after_take_split _ _ 137 144 (by decide)]
  generalize after (List.take 137 (ops3 ++ ops4)) (val2 m c) = W
  simp only [slice_skip_app, slice_nil_app, slice_skip, slice_step_app, slice_step, slice_done]
  after_results_simp
  all_goals rfl

/-! ## The three dense layers -/

/-- The first dense layer's result: the dense layer of the third graph layer's result, the 256 × 256 weight and row 0
    of the bias, scale and shift arrays. -/
theorem readR_xg0 : val7 m c (Proc.devRef .tc main_v192)
    = Cert.Spec.denseR (val7 m c (Proc.devRef .tc main_v162) : (⟨S50000x256, .f32⟩ : BufTy).Contents (Elt Ideal)) (m (c, Proc.devRef .tc main_arg7) : (⟨S256x256, .f32⟩ : BufTy).Contents (Elt Ideal))
        (Cert.Spec.row3 (m (c, Proc.devRef .tc main_arg9) : (⟨S3x256, .f32⟩ : BufTy).Contents (Elt Ideal)) 0 (by decide)) (Cert.Spec.row3 (m (c, Proc.devRef .tc main_arg10) : (⟨S3x256, .f32⟩ : BufTy).Contents (Elt Ideal)) 0 (by decide))
        (Cert.Spec.row3 (m (c, Proc.devRef .tc main_arg11) : (⟨S3x256, .f32⟩ : BufTy).Contents (Elt Ideal)) 0 (by decide)) := by
  rw [val7_eq_val4 m c main_v192 (by decide), val7_eq_val4 m c main_v162 (by decide)]
  rw [st_v192 m c, st_v163 m c, st_v165 m c, st_v170 m c, st_v172 m c]
  rw [val4_arg m c main_arg7 (by decide), val4_arg m c main_arg9 (by decide), val4_arg m c main_arg10 (by decide), val4_arg m c main_arg11 (by decide)]
  rw [hostDot_plain_eq_mm dot_S50000x256_S256x256_S50000x256_1_0_0_1_n_n rfl rfl rfl rfl rfl rfl]
  rfl

/-- The second dense layer's result: the dense layer of the first's result set beside the third graph layer's, matrix
    0 of the stacked weights and row 1 of the bias, scale and shift arrays. -/
theorem readR_xg1 : val7 m c (Proc.devRef .tc main_v225)
    = Cert.Spec.denseR (Cert.Spec.cat (val7 m c (Proc.devRef .tc main_v192) : (⟨S50000x256, .f32⟩ : BufTy).Contents (Elt Ideal)) (val7 m c (Proc.devRef .tc main_v162) : (⟨S50000x256, .f32⟩ : BufTy).Contents (Elt Ideal)))
        (Cert.Spec.mat2w (m (c, Proc.devRef .tc main_arg8) : (⟨S2x512x256, .f32⟩ : BufTy).Contents (Elt Ideal)) 0 (by decide))
        (Cert.Spec.row3 (m (c, Proc.devRef .tc main_arg9) : (⟨S3x256, .f32⟩ : BufTy).Contents (Elt Ideal)) 1 (by decide)) (Cert.Spec.row3 (m (c, Proc.devRef .tc main_arg10) : (⟨S3x256, .f32⟩ : BufTy).Contents (Elt Ideal)) 1 (by decide))
        (Cert.Spec.row3 (m (c, Proc.devRef .tc main_arg11) : (⟨S3x256, .f32⟩ : BufTy).Contents (Elt Ideal)) 1 (by decide)) := by
  rw [val7_eq_val4 m c main_v225 (by decide), val7_eq_val4 m c main_v192 (by decide),
    val7_eq_val4 m c main_v162 (by decide)]
  rw [st_v225 m c, st_v196 m c, st_v193 m c, st_v195 m c, st_v198 m c, st_v203 m c, st_v205 m c]
  rw [val4_arg m c main_arg8 (by decide), val4_arg m c main_arg9 (by decide), val4_arg m c main_arg10 (by decide), val4_arg m c main_arg11 (by decide)]
  rw [hostDot_plain_eq_mm dot_S50000x512_S512x256_S50000x256_1_0_0_1_n_n rfl rfl rfl rfl rfl rfl]
  rfl

/-- The third dense layer's result: the dense layer of the second's result set beside the third graph layer's, matrix
    1 of the stacked weights and row 2 of the bias, scale and shift arrays. -/
theorem readR_xg2 : val7 m c (Proc.devRef .tc main_v258)
    = Cert.Spec.denseR (Cert.Spec.cat (val7 m c (Proc.devRef .tc main_v225) : (⟨S50000x256, .f32⟩ : BufTy).Contents (Elt Ideal)) (val7 m c (Proc.devRef .tc main_v162) : (⟨S50000x256, .f32⟩ : BufTy).Contents (Elt Ideal)))
        (Cert.Spec.mat2w (m (c, Proc.devRef .tc main_arg8) : (⟨S2x512x256, .f32⟩ : BufTy).Contents (Elt Ideal)) 1 (by decide))
        (Cert.Spec.row3 (m (c, Proc.devRef .tc main_arg9) : (⟨S3x256, .f32⟩ : BufTy).Contents (Elt Ideal)) 2 (by decide)) (Cert.Spec.row3 (m (c, Proc.devRef .tc main_arg10) : (⟨S3x256, .f32⟩ : BufTy).Contents (Elt Ideal)) 2 (by decide))
        (Cert.Spec.row3 (m (c, Proc.devRef .tc main_arg11) : (⟨S3x256, .f32⟩ : BufTy).Contents (Elt Ideal)) 2 (by decide)) := by
  rw [val7_eq_val4 m c main_v258 (by decide), val7_eq_val4 m c main_v225 (by decide),
    val7_eq_val4 m c main_v162 (by decide)]
  rw [st_v258 m c, st_v229 m c, st_v226 m c, st_v228 m c, st_v231 m c, st_v236 m c, st_v238 m c]
  rw [val4_arg m c main_arg8 (by decide), val4_arg m c main_arg9 (by decide), val4_arg m c main_arg10 (by decide), val4_arg m c main_arg11 (by decide)]
  rw [hostDot_plain_eq_mm dot_S50000x512_S512x256_S50000x256_1_0_0_1_n_n rfl rfl rfl rfl rfl rfl]
  rfl

end AtIdeal

end Cert.ReferenceIdeal.RefRun

end
-- ==== Proof.Ref.Cut3.lean ====
/- Windows 5, 6 and 7 of the reference cut into 21 short stretches, each ending right after a buffer the reading
   names. `uT m c` is what device `c`'s buffers hold after stretch T (stretch 0 runs from the contents after window 4);
   the last stretch's is the final contents. Every buffer is written once, by the operation whose place its index is:
   so the final contents at a buffer of index below a stretch's upper bound are the contents right after that stretch
   (`z_outT`), and what a stretch reads of an earlier buffer is that buffer's final contents (`z_inT`). -/
import proofs.«146967_j25786983645193_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0 (window 5, indices 460 … 478): 19 operations. -/
abbrev t0 : List (HloOp τ sig (Elt F)) :=
  [ StableHlo.binary main_v258 main_arg16 main_v259 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg17 main_v260 (broadcastInDim S1x2 ![1] bcast_S2_S1x2_1 : (⟨S2, .f32⟩ : BufTy).Contents (Elt F) → (⟨S1x2, .f32⟩ : BufTy).Contents (Elt F)),
    StableHlo.unary main_v260 main_v261 (broadcastInDim S50000x2 ![0, 1] bcast_S1x2_S50000x2_0_1 : (⟨S1x2, .f32⟩ : BufTy).Contents (Elt F) → (⟨S50000x2, .f32⟩ : BufTy).Contents (Elt F)),
    StableHlo.binary main_v259 main_v261 main_v262 (addf : (⟨S50000x2, .f32⟩ : BufTy).Contents (Elt F) → (⟨S50000x2, .f32⟩ : BufTy).Contents (Elt F) → (⟨S50000x2, .f32⟩ : BufTy).Contents (Elt F)),
    StableHlo.TRef.nullary main_call13.cst (constant S_ .f32 0xFF800000#32),
    StableHlo.TRef.binary (TRef.of main_v262 : StableHlo.TRef sig ⟨S50000x2, .f32⟩) main_call13.cst main_call13.v0 (fun x v => Host.reduce FloatOps.maximumf x v reducesTo_S50000x2_S50000_d1 h_S_),
    StableHlo.TRef.nullary main_call13.cst_0 (constant S_ .f32 0xFF800000#32),
    StableHlo.TRef.unary main_call13.cst_0 main_call13.v1 (broadcastInDim S50000 ![] bcast_S_S50000),
    StableHlo.TRef.binary main_call13.v1 main_call13.v0 main_call13.v2 maximumf,
    StableHlo.TRef.unary main_call13.v2 main_call13.v3 (broadcastInDim S50000x1 ![0] bcast_S50000_S50000x1_0),
    StableHlo.TRef.unary main_call13.v3 main_call13.v4 (broadcastInDim S50000x2 ![0, 1] bcast_S50000x1_S50000x2_0_1),
    StableHlo.TRef.binary (TRef.of main_v262 : StableHlo.TRef sig ⟨S50000x2, .f32⟩) main_call13.v4 main_call13.v5 subf,
    StableHlo.TRef.unary main_call13.v5 main_call13.v6 Host.exp,
    StableHlo.TRef.nullary main_call13.cst_1 (constant S_ .f32 0x00000000#32),
    StableHlo.TRef.binary main_call13.v6 main_call13.cst_1 main_call13.v7 (fun x v => Host.reduceAdd x v reducesTo_S50000x2_S50000_d1 h_S_),
    StableHlo.TRef.unary main_call13.v7 main_call13.v8 (broadcastInDim S50000x1 ![0] bcast_S50000_S50000x1_0),
    StableHlo.TRef.unary main_call13.v8 main_call13.v9 Host.log,
    StableHlo.TRef.unary main_call13.v9 main_call13.v10 (broadcastInDim S50000x2 ![0, 1] bcast_S50000x1_S50000x2_0_1),
    StableHlo.TRef.binary main_call13.v5 main_call13.v10 main_call13.v11 subf ]
theorem t0_writes : (t0 : List (HloOp τ sig (Elt F))).Forall (WritesIn 460 479) :=
  ⟨writesIn_of (binary_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide)⟩

/-- Stretch 1 (window 5, indices 479 … 486): 8 operations. -/
abbrev t1 : List (HloOp τ sig (Elt F)) :=
  [ StableHlo.unary main_arg12 main_v264 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v264 main_v265 rfl shapeCasts_S1x256x256_S256x256,
    StableHlo.binary main_v192 main_v265 main_v266 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v267 ((extractStridedSlice S1x256 ![0, 0] · slices_S3x256_S1x256_0_0) : (⟨S3x256, .f32⟩ : BufTy).Contents (Elt F) → (⟨S1x256, .f32⟩ : BufTy).Contents (Elt F)),
    StableHlo.reshape main_v267 main_v268 rfl shapeCasts_S1x256_S256,
    StableHlo.unary main_v268 main_v269 (broadcastInDim S1x256 ![1] bcast_S256_S1x256_1 : (⟨S256, .f32⟩ : BufTy).Contents (Elt F) → (⟨S1x256, .f32⟩ : BufTy).Contents (Elt F)),
    StableHlo.unary main_v269 main_v270 (broadcastInDim S50000x256 ![0, 1] bcast_S1x256_S50000x256_0_1 : (⟨S1x256, .f32⟩ : BufTy).Contents (Elt F) → (⟨S50000x256, .f32⟩ : BufTy).Contents (Elt F)),
    StableHlo.binary main_v266 main_v270 main_v271 (addf : (⟨S50000x256, .f32⟩ : BufTy).Contents (Elt F) → (⟨S50000x256, .f32⟩ : BufTy).Contents (Elt F) → (⟨S50000x256, .f32⟩ : BufTy).Contents (Elt F)) ]
theorem t1_writes : (t1 : List (HloOp τ sig (Elt F))).Forall (WritesIn 479 487) :=
  ⟨writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide)⟩

/-- Stretch 2 (window 5, indices 487 … 490): 4 operations. -/
abbrev t2 : List (HloOp τ sig (Elt F)) :=
  [ StableHlo.unary main_arg14 main_v272 ((extractStridedSlice S1x256 ![0, 0] · slices_S3x256_S1x256_0_0) : (⟨S3x256, .f32⟩ : BufTy).Contents (Elt F) → (⟨S1x256, .f32⟩ : BufTy).Contents (Elt F)),
    StableHlo.reshape main_v272 main_v273 rfl shapeCasts_S1x256_S256,
    StableHlo.unary main_arg15 main_v274 ((extractStridedSlice S1x256 ![0, 0] · slices_S3x256_S1x256_0_0) : (⟨S3x256, .f32⟩ : BufTy).Contents (Elt F) → (⟨S1x256, .f32⟩ : BufTy).Contents (Elt F)),
    StableHlo.reshape main_v274 main_v275 rfl shapeCasts_S1x256_S256 ]
theorem t2_writes : (t2 : List (HloOp τ sig (Elt F))).Forall (WritesIn 487 491) :=
  ⟨writesIn_of (unary_writes ..) (by decide), writesIn_of (reshape_writes ..) (by decide), writesIn_of (unary_writes ..) (by decide), writesIn_of (reshape_writes ..) (by decide)⟩

/-- Stretch 3 (window 5, indices 491 … 518): 28 operations. -/
abbrev t3 : List (HloOp τ sig (Elt F)) :=
  [ StableHlo.nullary main_cst_39 (constant S_ .f32 0x00000000#32),
    StableHlo.binary main_v271 main_cst_39 main_v276 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_40 (constant S_ .f32 0x47435000#32),
    StableHlo.unary main_cst_40 main_v277 (broadcastInDim S256 ![] bcast_S_S256 : (⟨S_, .f32⟩ : BufTy).Contents (Elt F) → (⟨S256, .f32⟩ : BufTy).Contents (Elt F)),
    StableHlo.binary main_v276 main_v277 main_v278 (Host.divf : (⟨S256, .f32⟩ : BufTy).Contents (Elt F) → (⟨S256, .f32⟩ : BufTy).Contents (Elt F) → (⟨S256, .f32⟩ : BufTy).Contents (Elt F)),
    StableHlo.nullary main_c_41 (constantI S_ 32 0#32),
    StableHlo.TRef.nullary main_call14.cst (constant S_ .f32 0x00000000#32),
    StableHlo.TRef.binary (TRef.of main_v271 : StableHlo.TRef sig ⟨S50000x256, .f32⟩) main_call14.cst main_call14.v0 (fun x v => Host.reduceAdd x v reducesTo_S50000x256_S256_d0 h_S_),
    StableHlo.TRef.unary main_call14.v0 main_call14.v1 (broadcastInDim S1x256 ![1] bcast_S256_S1x256_1),
    StableHlo.TRef.nullary main_call14.cst_0 (constant S_ .f32 0x47435000#32),
    StableHlo.TRef.unary main_call14.cst_0 main_call14.v2 (broadcastInDim S1x256 ![] bcast_S_S1x256),
    StableHlo.TRef.binary main_call14.v1 main_call14.v2 main_call14.v3 Host.divf,
    StableHlo.TRef.unary main_call14.v3 main_call14.v4 (broadcastInDim S50000x256 ![0, 1] bcast_S1x256_S50000x256_0_1),
    StableHlo.TRef.binary (TRef.of main_v271 : StableHlo.TRef sig ⟨S50000x256, .f32⟩) main_call14.v4 main_call14.v5 subf,
    StableHlo.TRef.binary main_call14.v5 main_call14.v5 main_call14.v6 mulf,
    StableHlo.TRef.unary (TRef.of main_c_41 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x256_S256_d0 h_S_),
    StableHlo.TRef.unary main_call14.v8 main_call14.v10 (broadcastInDim S256 ![] bcast_S_S256),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S256 ![] bcast_S_S256),
    StableHlo.TRef.ternary main_call14.v12 main_call14.v11 main_call14.call0.v1 main_call14.call0.v2 (fun p a b => select (broadcastInDim S256 ![] bcast_S_S256 p) a b) ]
theorem t3_writes : (t3 : List (HloOp τ sig (Elt F))).Forall (WritesIn 491 519) :=
  ⟨writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide)⟩

/-- Stretch 4 (window 5, indices 519 … 524): 6 operations. -/
abbrev t4 : List (HloOp τ sig (Elt F)) :=
  [ StableHlo.unary main_v278 main_v280 (broadcastInDim S1x256 ![1] bcast_S256_S1x256_1 : (⟨S256, .f32⟩ : BufTy).Contents (Elt F) → (⟨S1x256, .f32⟩ : BufTy).Contents (Elt F)),
    StableHlo.unary main_v280 main_v281 (broadcastInDim S50000x256 ![0, 1] bcast_S1x256_S50000x256_0_1 : (⟨S1x256, .f32⟩ : BufTy).Contents (Elt F) → (⟨S50000x256, .f32⟩ : BufTy).Contents (Elt F)),
    StableHlo.binary main_v271 main_v281 main_v282 (subf : (⟨S50000x256, .f32⟩ : BufTy).Contents (Elt F) → (⟨S50000x256, .f32⟩ : BufTy).Contents (Elt F) → (⟨S50000x256, .f32⟩ : BufTy).Contents (Elt F)),
    StableHlo.unary main_v273 main_v283 (broadcastInDim S1x256 ![1] bcast_S256_S1x256_1 : (⟨S256, .f32⟩ : BufTy).Contents (Elt F) → (⟨S1x256, .f32⟩ : BufTy).Contents (Elt F)),
    StableHlo.unary main_v283 main_v284 (broadcastInDim S50000x256 ![0, 1] bcast_S1x256_S50000x256_0_1 : (⟨S1x256, .f32⟩ : BufTy).Contents (Elt F) → (⟨S50000x256, .f32⟩ : BufTy).Contents (Elt F)),
    StableHlo.binary main_v284 main_v282 main_v285 (mulf : (⟨S50000x256, .f32⟩ : BufTy).Contents (Elt F) → (⟨S50000x256, .f32⟩ : BufTy).Contents (Elt F) → (⟨S50000x256, .f32⟩ : BufTy).Contents (Elt F)) ]
theorem t4_writes : (t4 : List (HloOp τ sig (Elt F))).Forall (WritesIn 519 525) :=
  ⟨writesIn_of (unary_writes ..) (by decide), writesIn_of (unary_writes ..) (by decide), writesIn_of (binary_writes ..) (by decide), writesIn_of (unary_writes ..) (by decide), writesIn_of (unary_writes ..) (by decide), writesIn_of (binary_writes ..) (by decide)⟩

/-- Stretch 5 (window 5, indices 525 … 537): 13 operations. -/
abbrev t5 : List (HloOp τ sig (Elt F)) :=
  [ StableHlo.nullary main_cst_42 (constant S_ .f32 0x3727C5AC#32),
    StableHlo.unary main_cst_42 main_v286 (broadcastInDim S256 ![] bcast_S_S256 : (⟨S_, .f32⟩ : BufTy).Contents (Elt F) → (⟨S256, .f32⟩ : BufTy).Contents (Elt F)),
    StableHlo.binary main_v279 main_v286 main_v287 (addf : (⟨S256, .f32⟩ : BufTy).Contents (Elt F) → (⟨S256, .f32⟩ : BufTy).Contents (Elt F) → (⟨S256, .f32⟩ : BufTy).Contents (Elt F)),
    StableHlo.unary main_v287 main_v288 (Host.rsqrt : (⟨S256, .f32⟩ : BufTy).Contents (Elt F) → (⟨S256, .f32⟩ : BufTy).Contents (Elt F)),
    StableHlo.unary main_v288 main_v289 (broadcastInDim S1x256 ![1] bcast_S256_S1x256_1 : (⟨S256, .f32⟩ : BufTy).Contents (Elt F) → (⟨S1x256, .f32⟩ : BufTy).Contents (Elt F)),
    StableHlo.unary main_v289 main_v290 (broadcastInDim S50000x256 ![0, 1] bcast_S1x256_S50000x256_0_1 : (⟨S1x256, .f32⟩ : BufTy).Contents (Elt F) → (⟨S50000x256, .f32⟩ : BufTy).Contents (Elt F)),
    StableHlo.binary main_v285 main_v290 main_v291 (mulf : (⟨S50000x256, .f32⟩ : BufTy).Contents (Elt F) → (⟨S50000x256, .f32⟩ : BufTy).Contents (Elt F) → (⟨S50000x256, .f32⟩ : BufTy).Contents (Elt F)),
    StableHlo.unary main_v275 main_v292 (broadcastInDim S1x256 ![1] bcast_S256_S1x256_1 : (⟨S256, .f32⟩ : BufTy).Contents (Elt F) → (⟨S1x256, .f32⟩ : BufTy).Contents (Elt F)),
    StableHlo.unary main_v292 main_v293 (broadcastInDim S50000x256 ![0, 1] bcast_S1x256_S50000x256_0_1 : (⟨S1x256, .f32⟩ : BufTy).Contents (Elt F) → (⟨S50000x256, .f32⟩ : BufTy).Contents (Elt F)),
    StableHlo.binary main_v291 main_v293 main_v294 (addf : (⟨S50000x256, .f32⟩ : BufTy).Contents (Elt F) → (⟨S50000x256, .f32⟩ : BufTy).Contents (Elt F) → (⟨S50000x256, .f32⟩ : BufTy).Contents (Elt F)),
    StableHlo.TRef.nullary main_call15.cst (constant S_ .f32 0x00000000#32),
    StableHlo.TRef.unary main_call15.cst main_call15.v0 (broadcastInDim S50000x256 ![] bcast_S_S50000x256),
    StableHlo.TRef.binary (TRef.of main_v294 : StableHlo.TRef sig ⟨S50000x256, .f32⟩) main_call15.v0 main_call15.v1 maximumf ]
theorem t5_writes : (t5 : List (HloOp τ sig (Elt F))).Forall (WritesIn 525 538) :=
  ⟨writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide)⟩

/-- Stretch 6 (window 5, indices 538 … 560): 23 operations. -/
abbrev t6 : List (HloOp τ sig (Elt F)) :=
  [ StableHlo.unary main_arg18 main_v296 ((extractStridedSlice S1x256x2 ![0, 0, 0] · slices_S3x256x2_S1x256x2_0_0_0) : (⟨S3x256x2, .f32⟩ : BufTy).Contents (Elt F) → (⟨S1x256x2, .f32⟩ : BufTy).Contents (Elt F)),
    StableHlo.reshape main_v296 main_v297 rfl shapeCasts_S1x256x2_S256x2,
    StableHlo.binary main_v295 main_v297 main_v298 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg19 main_v299 ((extractStridedSlice S1x2 ![0, 0] · slices_S3x2_S1x2_0_0) : (⟨S3x2, .f32⟩ : BufTy).Contents (Elt F) → (⟨S1x2, .f32⟩ : BufTy).Contents (Elt F)),
    StableHlo.reshape main_v299 main_v300 rfl shapeCasts_S1x2_S2,
    StableHlo.unary main_v300 main_v301 (broadcastInDim S1x2 ![1] bcast_S2_S1x2_1 : (⟨S2, .f32⟩ : BufTy).Contents (Elt F) → (⟨S1x2, .f32⟩ : BufTy).Contents (Elt F)),
    StableHlo.unary main_v301 main_v302 (broadcastInDim S50000x2 ![0, 1] bcast_S1x2_S50000x2_0_1 : (⟨S1x2, .f32⟩ : BufTy).Contents (Elt F) → (⟨S50000x2, .f32⟩ : BufTy).Contents (Elt F)),
    StableHlo.binary main_v298 main_v302 main_v303 (addf : (⟨S50000x2, .f32⟩ : BufTy).Contents (Elt F) → (⟨S50000x2, .f32⟩ : BufTy).Contents (Elt F) → (⟨S50000x2, .f32⟩ : BufTy).Contents (Elt F)),
    StableHlo.TRef.nullary main_call16.cst (constant S_ .f32 0xFF800000#32),
    StableHlo.TRef.binary (TRef.of main_v303 : StableHlo.TRef sig ⟨S50000x2, .f32⟩) main_call16.cst main_call16.v0 (fun x v => Host.reduce FloatOps.maximumf x v reducesTo_S50000x2_S50000_d1 h_S_),
    StableHlo.TRef.nullary main_call16.cst_0 (constant S_ .f32 0xFF800000#32),
    StableHlo.TRef.unary main_call16.cst_0 main_call16.v1 (broadcastInDim S50000 ![] bcast_S_S50000),
    StableHlo.TRef.binary main_call16.v1 main_call16.v0 main_call16.v2 maximumf,
    StableHlo.TRef.unary main_call16.v2 main_call16.v3 (broadcastInDim S50000x1 ![0] bcast_S50000_S50000x1_0),
    StableHlo.TRef.unary main_call16.v3 main_call16.v4 (broadcastInDim S50000x2 ![0, 1] bcast_S50000x1_S50000x2_0_1),
    StableHlo.TRef.binary (TRef.of main_v303 : StableHlo.TRef sig ⟨S50000x2, .f32⟩) main_call16.v4 main_call16.v5 subf,
    StableHlo.TRef.unary main_call16.v5 main_call16.v6 Host.exp,
    StableHlo.TRef.nullary main_call16.cst_1 (constant S_ .f32 0x00000000#32),
    StableHlo.TRef.binary main_call16.v6 main_call16.cst_1 main_call16.v7 (fun x v => Host.reduceAdd x v reducesTo_S50000x2_S50000_d1 h_S_),
    StableHlo.TRef.unary main_call16.v7 main_call16.v8 (broadcastInDim S50000x1 ![0] bcast_S50000_S50000x1_0),
    StableHlo.TRef.unary main_call16.v8 main_call16.v9 Host.log,
    StableHlo.TRef.unary main_call16.v9 main_call16.v10 (broadcastInDim S50000x2 ![0, 1] bcast_S50000x1_S50000x2_0_1),
    StableHlo.TRef.binary main_call16.v5 main_call16.v10 main_call16.v11 subf ]
theorem t6_writes : (t6 : List (HloOp τ sig (Elt F))).Forall (WritesIn 538 561) :=
  ⟨writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide)⟩

/-- Stretch 7 (window 5, indices 561 … 568): 8 operations. -/
abbrev t7 : List (HloOp τ sig (Elt F)) :=
  [ StableHlo.unary main_arg12 main_v305 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v305 main_v306 rfl shapeCasts_S1x256x256_S256x256,
    StableHlo.binary main_v225 main_v306 main_v307 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v308 ((extractStridedSlice S1x256 ![1, 0] · slices_S3x256_S1x256_1_0) : (⟨S3x256, .f32⟩ : BufTy).Contents (Elt F) → (⟨S1x256, .f32⟩ : BufTy).Contents (Elt F)),
    StableHlo.reshape main_v308 main_v309 rfl shapeCasts_S1x256_S256,
    StableHlo.unary main_v309 main_v310 (broadcastInDim S1x256 ![1] bcast_S256_S1x256_1 : (⟨S256, .f32⟩ : BufTy).Contents (Elt F) → (⟨S1x256, .f32⟩ : BufTy).Contents (Elt F)),
    StableHlo.unary main_v310 main_v311 (broadcastInDim S50000x256 ![0, 1] bcast_S1x256_S50000x256_0_1 : (⟨S1x256, .f32⟩ : BufTy).Contents (Elt F) → (⟨S50000x256, .f32⟩ : BufTy).Contents (Elt F)),
    StableHlo.binary main_v307 main_v311 main_v312 (addf : (⟨S50000x256, .f32⟩ : BufTy).Contents (Elt F) → (⟨S50000x256, .f32⟩ : BufTy).Contents (Elt F) → (⟨S50000x256, .f32⟩ : BufTy).Contents (Elt F)) ]
theorem t7_writes : (t7 : List (HloOp τ sig (Elt F))).Forall (WritesIn 561 569) :=
  ⟨writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide)⟩

/-- Stretch 8 (window 5, indices 569 … 570): 2 operations. -/
abbrev t8 : List (HloOp τ sig (Elt F)) :=
  [ StableHlo.unary main_arg14 main_v313 ((extractStridedSlice S1x256 ![1, 0] · slices_S3x256_S1x256_1_0) : (⟨S3x256, .f32⟩ : BufTy).Contents (Elt F) → (⟨S1x256, .f32⟩ : BufTy).Contents (Elt F)),
    StableHlo.reshape main_v313 main_v314 rfl shapeCasts_S1x256_S256 ]
theorem t8_writes : (t8 : List (HloOp τ sig (Elt F))).Forall (WritesIn 569 571) :=
  ⟨writesIn_of (unary_writes ..) (by decide), writesIn_of (reshape_writes ..) (by decide)⟩

/-- Stretch 9 (window 6, indices 571 … 572): 2 operations. -/
abbrev t9 : List (HloOp τ sig (Elt F)) :=
  [ StableHlo.unary main_arg15 main_v315 ((extractStridedSlice S1x256 ![1, 0] · slices_S3x256_S1x256_1_0) : (⟨S3x256, .f32⟩ : BufTy).Contents (Elt F) → (⟨S1x256, .f32⟩ : BufTy).Contents (Elt F)),
    StableHlo.reshape main_v315 main_v316 rfl shapeCasts_S1x256_S256 ]
theorem t9_writes : (t9 : List (HloOp τ sig (Elt F))).Forall (WritesIn 571 573) :=
  ⟨writesIn_of (unary_writes ..) (by decide), writesIn_of (reshape_writes ..) (by decide)⟩

/-- Stretch 10 (window 6, indices 573 … 600): 28 operations. -/
abbrev t10 : List (HloOp τ sig (Elt F)) :=
  [ StableHlo.nullary main_cst_43 (constant S_ .f32 0x00000000#32),
    StableHlo.binary main_v312 main_cst_43 main_v317 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_44 (constant S_ .f32 0x47435000#32),
    StableHlo.unary main_cst_44 main_v318 (broadcastInDim S256 ![] bcast_S_S256 : (⟨S_, .f32⟩ : BufTy).Contents (Elt F) → (⟨S256, .f32⟩ : BufTy).Contents (Elt F)),
    StableHlo.binary main_v317 main_v318 main_v319 (Host.divf : (⟨S256, .f32⟩ : BufTy).Contents (Elt F) → (⟨S256, .f32⟩ : BufTy).Contents (Elt F) → (⟨S256, .f32⟩ : BufTy).Contents (Elt F)),
    StableHlo.nullary main_c_45 (constantI S_ 32 0#32),
    StableHlo.TRef.nullary main_call17.cst (constant S_ .f32 0x00000000#32),
    StableHlo.TRef.binary (TRef.of main_v312 : StableHlo.TRef sig ⟨S50000x256, .f32⟩) main_call17.cst main_call17.v0 (fun x v => Host.reduceAdd x v reducesTo_S50000x256_S256_d0 h_S_),
    StableHlo.TRef.unary main_call17.v0 main_call17.v1 (broadcastInDim S1x256 ![1] bcast_S256_S1x256_1),
    StableHlo.TRef.nullary main_call17.cst_0 (constant S_ .f32 0x47435000#32),
    StableHlo.TRef.unary main_call17.cst_0 main_call17.v2 (broadcastInDim S1x256 ![] bcast_S_S1x256),
    StableHlo.TRef.binary main_call17.v1 main_call17.v2 main_call17.v3 Host.divf,
    StableHlo.TRef.unary main_call17.v3 main_call17.v4 (broadcastInDim S50000x256 ![0, 1] bcast_S1x256_S50000x256_0_1),
    StableHlo.TRef.binary (TRef.of main_v312 : StableHlo.TRef sig ⟨S50000x256, .f32⟩) main_call17.v4 main_call17.v5 subf,
    StableHlo.TRef.binary main_call17.v5 main_call17.v5 main_call17.v6 mulf,
    StableHlo.TRef.unary (TRef.of main_c_45 : StableHlo.TRef sig ⟨S_, .i32⟩) main_call17.v7 (sitofp .f32),
    StableHlo.TRef.nullary main_call17.cst_1 (constant S_ .f32 0x47435000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S50000x256_S256_d0 h_S_),
    StableHlo.TRef.unary main_call17.v8 main_call17.v10 (broadcastInDim S256 ![] bcast_S_S256),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S256 ![] bcast_S_S256),
    StableHlo.TRef.ternary main_call17.v12 main_call17.v11 main_call17.call0.v1 main_call17.call0.v2 (fun p a b => select (broadcastInDim S256 ![] bcast_S_S256 p) a b) ]
theorem t10_writes : (t10 : List (HloOp τ sig (Elt F))).Forall (WritesIn 573 601) :=
  ⟨writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide)⟩

/-- Stretch 11 (window 6, indices 601 … 606): 6 operations. -/
abbrev t11 : List (HloOp τ sig (Elt F)) :=
  [ StableHlo.unary main_v319 main_v321 (broadcastInDim S1x256 ![1] bcast_S256_S1x256_1 : (⟨S256, .f32⟩ : BufTy).Contents (Elt F) → (⟨S1x256, .f32⟩ : BufTy).Contents (Elt F)),
    StableHlo.unary main_v321 main_v322 (broadcastInDim S50000x256 ![0, 1] bcast_S1x256_S50000x256_0_1 : (⟨S1x256, .f32⟩ : BufTy).Contents (Elt F) → (⟨S50000x256, .f32⟩ : BufTy).Contents (Elt F)),
    StableHlo.binary main_v312 main_v322 main_v323 (subf : (⟨S50000x256, .f32⟩ : BufTy).Contents (Elt F) → (⟨S50000x256, .f32⟩ : BufTy).Contents (Elt F) → (⟨S50000x256, .f32⟩ : BufTy).Contents (Elt F)),
    StableHlo.unary main_v314 main_v324 (broadcastInDim S1x256 ![1] bcast_S256_S1x256_1 : (⟨S256, .f32⟩ : BufTy).Contents (Elt F) → (⟨S1x256, .f32⟩ : BufTy).Contents (Elt F)),
    StableHlo.unary main_v324 main_v325 (broadcastInDim S50000x256 ![0, 1] bcast_S1x256_S50000x256_0_1 : (⟨S1x256, .f32⟩ : BufTy).Contents (Elt F) → (⟨S50000x256, .f32⟩ : BufTy).Contents (Elt F)),
    StableHlo.binary main_v325 main_v323 main_v326 (mulf : (⟨S50000x256, .f32⟩ : BufTy).Contents (Elt F) → (⟨S50000x256, .f32⟩ : BufTy).Contents (Elt F) → (⟨S50000x256, .f32⟩ : BufTy).Contents (Elt F)) ]
theorem t11_writes : (t11 : List (HloOp τ sig (Elt F))).Forall (WritesIn 601 607) :=
  ⟨writesIn_of (unary_writes ..) (by decide), writesIn_of (unary_writes ..) (by decide), writesIn_of (binary_writes ..) (by decide), writesIn_of (unary_writes ..) (by decide), writesIn_of (unary_writes ..) (by decide), writesIn_of (binary_writes ..) (by decide)⟩

/-- Stretch 12 (window 6, indices 607 … 619): 13 operations. -/
abbrev t12 : List (HloOp τ sig (Elt F)) :=
  [ StableHlo.nullary main_cst_46 (constant S_ .f32 0x3727C5AC#32),
    StableHlo.unary main_cst_46 main_v327 (broadcastInDim S256 ![] bcast_S_S256 : (⟨S_, .f32⟩ : BufTy).Contents (Elt F) → (⟨S256, .f32⟩ : BufTy).Contents (Elt F)),
    StableHlo.binary main_v320 main_v327 main_v328 (addf : (⟨S256, .f32⟩ : BufTy).Contents (Elt F) → (⟨S256, .f32⟩ : BufTy).Contents (Elt F) → (⟨S256, .f32⟩ : BufTy).Contents (Elt F)),
    StableHlo.unary main_v328 main_v329 (Host.rsqrt : (⟨S256, .f32⟩ : BufTy).Contents (Elt F) → (⟨S256, .f32⟩ : BufTy).Contents (Elt F)),
    StableHlo.unary main_v329 main_v330 (broadcastInDim S1x256 ![1] bcast_S256_S1x256_1 : (⟨S256, .f32⟩ : BufTy).Contents (Elt F) → (⟨S1x256, .f32⟩ : BufTy).Contents (Elt F)),
    StableHlo.unary main_v330 main_v331 (broadcastInDim S50000x256 ![0, 1] bcast_S1x256_S50000x256_0_1 : (⟨S1x256, .f32⟩ : BufTy).Contents (Elt F) → (⟨S50000x256, .f32⟩ : BufTy).Contents (Elt F)),
    StableHlo.binary main_v326 main_v331 main_v332 (mulf : (⟨S50000x256, .f32⟩ : BufTy).Contents (Elt F) → (⟨S50000x256, .f32⟩ : BufTy).Contents (Elt F) → (⟨S50000x256, .f32⟩ : BufTy).Contents (Elt F)),
    StableHlo.unary main_v316 main_v333 (broadcastInDim S1x256 ![1] bcast_S256_S1x256_1 : (⟨S256, .f32⟩ : BufTy).Contents (Elt F) → (⟨S1x256, .f32⟩ : BufTy).Contents (Elt F)),
    StableHlo.unary main_v333 main_v334 (broadcastInDim S50000x256 ![0, 1] bcast_S1x256_S50000x256_0_1 : (⟨S1x256, .f32⟩ : BufTy).Contents (Elt F) → (⟨S50000x256, .f32⟩ : BufTy).Contents (Elt F)),
    StableHlo.binary main_v332 main_v334 main_v335 (addf : (⟨S50000x256, .f32⟩ : BufTy).Contents (Elt F) → (⟨S50000x256, .f32⟩ : BufTy).Contents (Elt F) → (⟨S50000x256, .f32⟩ : BufTy).Contents (Elt F)),
    StableHlo.TRef.nullary main_call18.cst (constant S_ .f32 0x00000000#32),
    StableHlo.TRef.unary main_call18.cst main_call18.v0 (broadcastInDim S50000x256 ![] bcast_S_S50000x256),
    StableHlo.TRef.binary (TRef.of main_v335 : StableHlo.TRef sig ⟨S50000x256, .f32⟩) main_call18.v0 main_call18.v1 maximumf ]
theorem t12_writes : (t12 : List (HloOp τ sig (Elt F))).Forall (WritesIn 607 620) :=
  ⟨writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide)⟩

/-- Stretch 13 (window 6, indices 620 … 642): 23 operations. -/
abbrev t13 : List (HloOp τ sig (Elt F)) :=
  [ StableHlo.unary main_arg18 main_v337 ((extractStridedSlice S1x256x2 ![1, 0, 0] · slices_S3x256x2_S1x256x2_1_0_0) : (⟨S3x256x2, .f32⟩ : BufTy).Contents (Elt F) → (⟨S1x256x2, .f32⟩ : BufTy).Contents (Elt F)),
    StableHlo.reshape main_v337 main_v338 rfl shapeCasts_S1x256x2_S256x2,
    StableHlo.binary main_v336 main_v338 main_v339 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg19 main_v340 ((extractStridedSlice S1x2 ![1, 0] · slices_S3x2_S1x2_1_0) : (⟨S3x2, .f32⟩ : BufTy).Contents (Elt F) → (⟨S1x2, .f32⟩ : BufTy).Contents (Elt F)),
    StableHlo.reshape main_v340 main_v341 rfl shapeCasts_S1x2_S2,
    StableHlo.unary main_v341 main_v342 (broadcastInDim S1x2 ![1] bcast_S2_S1x2_1 : (⟨S2, .f32⟩ : BufTy).Contents (Elt F) → (⟨S1x2, .f32⟩ : BufTy).Contents (Elt F)),
    StableHlo.unary main_v342 main_v343 (broadcastInDim S50000x2 ![0, 1] bcast_S1x2_S50000x2_0_1 : (⟨S1x2, .f32⟩ : BufTy).Contents (Elt F) → (⟨S50000x2, .f32⟩ : BufTy).Contents (Elt F)),
    StableHlo.binary main_v339 main_v343 main_v344 (addf : (⟨S50000x2, .f32⟩ : BufTy).Contents (Elt F) → (⟨S50000x2, .f32⟩ : BufTy).Contents (Elt F) → (⟨S50000x2, .f32⟩ : BufTy).Contents (Elt F)),
    StableHlo.TRef.nullary main_call19.cst (constant S_ .f32 0xFF800000#32),
    StableHlo.TRef.binary (TRef.of main_v344 : StableHlo.TRef sig ⟨S50000x2, .f32⟩) main_call19.cst main_call19.v0 (fun x v => Host.reduce FloatOps.maximumf x v reducesTo_S50000x2_S50000_d1 h_S_),
    StableHlo.TRef.nullary main_call19.cst_0 (constant S_ .f32 0xFF800000#32),
    StableHlo.TRef.unary main_call19.cst_0 main_call19.v1 (broadcastInDim S50000 ![] bcast_S_S50000),
    StableHlo.TRef.binary main_call19.v1 main_call19.v0 main_call19.v2 maximumf,
    StableHlo.TRef.unary main_call19.v2 main_call19.v3 (broadcastInDim S50000x1 ![0] bcast_S50000_S50000x1_0),
    StableHlo.TRef.unary main_call19.v3 main_call19.v4 (broadcastInDim S50000x2 ![0, 1] bcast_S50000x1_S50000x2_0_1),
    StableHlo.TRef.binary (TRef.of main_v344 : StableHlo.TRef sig ⟨S50000x2, .f32⟩) main_call19.v4 main_call19.v5 subf,
    StableHlo.TRef.unary main_call19.v5 main_call19.v6 Host.exp,
    StableHlo.TRef.nullary main_call19.cst_1 (constant S_ .f32 0x00000000#32),
    StableHlo.TRef.binary main_call19.v6 main_call19.cst_1 main_call19.v7 (fun x v => Host.reduceAdd x v reducesTo_S50000x2_S50000_d1 h_S_),
    StableHlo.TRef.unary main_call19.v7 main_call19.v8 (broadcastInDim S50000x1 ![0] bcast_S50000_S50000x1_0),
    StableHlo.TRef.unary main_call19.v8 main_call19.v9 Host.log,
    StableHlo.TRef.unary main_call19.v9 main_call19.v10 (broadcastInDim S50000x2 ![0, 1] bcast_S50000x1_S50000x2_0_1),
    StableHlo.TRef.binary main_call19.v5 main_call19.v10 main_call19.v11 subf ]
theorem t13_writes : (t13 : List (HloOp τ sig (Elt F))).Forall (WritesIn 620 643) :=
  ⟨writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide)⟩

/-- Stretch 14 (window 6, indices 643 … 650): 8 operations. -/
abbrev t14 : List (HloOp τ sig (Elt F)) :=
  [ StableHlo.unary main_arg12 main_v346 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v346 main_v347 rfl shapeCasts_S1x256x256_S256x256,
    StableHlo.binary main_v258 main_v347 main_v348 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg13 main_v349 ((extractStridedSlice S1x256 ![2, 0] · slices_S3x256_S1x256_2_0) : (⟨S3x256, .f32⟩ : BufTy).Contents (Elt F) → (⟨S1x256, .f32⟩ : BufTy).Contents (Elt F)),
    StableHlo.reshape main_v349 main_v350 rfl shapeCasts_S1x256_S256,
    StableHlo.unary main_v350 main_v351 (broadcastInDim S1x256 ![1] bcast_S256_S1x256_1 : (⟨S256, .f32⟩ : BufTy).Contents (Elt F) → (⟨S1x256, .f32⟩ : BufTy).Contents (Elt F)),
    StableHlo.unary main_v351 main_v352 (broadcastInDim S50000x256 ![0, 1] bcast_S1x256_S50000x256_0_1 : (⟨S1x256, .f32⟩ : BufTy).Contents (Elt F) → (⟨S50000x256, .f32⟩ : BufTy).Contents (Elt F)),
    StableHlo.binary main_v348 main_v352 main_v353 (addf : (⟨S50000x256, .f32⟩ : BufTy).Contents (Elt F) → (⟨S50000x256, .f32⟩ : BufTy).Contents (Elt F) → (⟨S50000x256, .f32⟩ : BufTy).Contents (Elt F)) ]
theorem t14_writes : (t14 : List (HloOp τ sig (Elt F))).Forall (WritesIn 643 651) :=
  ⟨writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide)⟩

/-- Stretch 15 (window 6, indices 651 … 654): 4 operations. -/
abbrev t15 : List (HloOp τ sig (Elt F)) :=
  [ StableHlo.unary main_arg14 main_v354 ((extractStridedSlice S1x256 ![2, 0] · slices_S3x256_S1x256_2_0) : (⟨S3x256, .f32⟩ : BufTy).Contents (Elt F) → (⟨S1x256, .f32⟩ : BufTy).Contents (Elt F)),
    StableHlo.reshape main_v354 main_v355 rfl shapeCasts_S1x256_S256,
    StableHlo.unary main_arg15 main_v356 ((extractStridedSlice S1x256 ![2, 0] · slices_S3x256_S1x256_2_0) : (⟨S3x256, .f32⟩ : BufTy).Contents (Elt F) → (⟨S1x256, .f32⟩ : BufTy).Contents (Elt F)),
    StableHlo.reshape main_v356 main_v357 rfl shapeCasts_S1x256_S256 ]
theorem t15_writes : (t15 : List (HloOp τ sig (Elt F))).Forall (WritesIn 651 655) :=
  ⟨writesIn_of (unary_writes ..) (by decide), writesIn_of (reshape_writes ..) (by decide), writesIn_of (unary_writes ..) (by decide), writesIn_of (reshape_writes ..) (by decide)⟩

/-- Stretch 16 (window 6, indices 655 … 682): 28 operations. -/
abbrev t16 : List (HloOp τ sig (Elt F)) :=
  [ StableHlo.nullary main_cst_47 (constant S_ .f32 0x00000000#32),
    StableHlo.binary main_v353 main_cst_47 main_v358 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_48 (constant S_ .f32 0x47435000#32),
    StableHlo.unary main_cst_48 main_v359 (broadcastInDim S256 ![] bcast_S_S256 : (⟨S_, .f32⟩ : BufTy).Contents (Elt F) → (⟨S256, .f32⟩ : BufTy).Contents (Elt F)),
    StableHlo.binary main_v358 main_v359 main_v360 (Host.divf : (⟨S256, .f32⟩ : BufTy).Contents (Elt F) → (⟨S256, .f32⟩ : BufTy).Contents (Elt F) → (⟨S256, .f32⟩ : BufTy).Contents (Elt F)),
    StableHlo.nullary main_c_49 (constantI S_ 32 0#32),
    StableHlo.TRef.nullary main_call20.cst (constant S_ .f32 0x00000000#32),
    StableHlo.TRef.binary (TRef.of main_v353 : StableHlo.TRef sig ⟨S50000x256, .f32⟩) main_call20.cst main_call20.v0 (fun x v => Host.reduceAdd x v reducesTo_S50000x256_S256_d0 h_S_),
    StableHlo.TRef.unary main_call20.v0 main_call20.v1 (broadcastInDim S1x256 ![1] bcast_S256_S1x256_1),
    StableHlo.TRef.nullary main_call20.cst_0 (constant S_ .f32 0x47435000#32),
    StableHlo.TRef.unary main_call20.cst_0 main_call20.v2 (broadcastInDim S1x256 ![] bcast_S_S1x256),
    StableHlo.TRef.binary main_call20.v1 main_call20.v2 main_call20.v3 Host.divf,
    StableHlo.TRef.unary main_call20.v3 main_call20.v4 (broadcastInDim S50000x256 ![0, 1] bcast_S1x256_S50000x256_0_1),
    StableHlo.TRef.binary (TRef.of main_v353 : StableHlo.TRef sig ⟨S50000x256, .f32⟩) main_call20.v4 main_call20.v5 subf,
    StableHlo.TRef.binary main_call20.v5 main_call20.v5 main_call20.v6 mulf,
    StableHlo.TRef.unary (TRef.of main_c_49 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x256_S256_d0 h_S_),
    StableHlo.TRef.unary main_call20.v8 main_call20.v10 (broadcastInDim S256 ![] bcast_S_S256),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S256 ![] bcast_S_S256),
    StableHlo.TRef.ternary main_call20.v12 main_call20.v11 main_call20.call0.v1 main_call20.call0.v2 (fun p a b => select (broadcastInDim S256 ![] bcast_S_S256 p) a b) ]
theorem t16_writes : (t16 : List (HloOp τ sig (Elt F))).Forall (WritesIn 655 683) :=
  ⟨writesIn_of (nullary_writes ..) (by decide), writesIn_of (binary_writes ..) (by decide), writesIn_of (nullary_writes ..) (by decide), writesIn_of (unary_writes ..) (by decide), writesIn_of (binary_writes ..) (by decide), writesIn_of (nullary_writes ..) (by decide), writesIn_of (nullary_writes ..) (by decide), writesIn_of (binary_writes ..) (by decide), writesIn_of (unary_writes ..) (by decide), writesIn_of (nullary_writes ..) (by decide), writesIn_of (unary_writes ..) (by decide), writesIn_of (binary_writes ..) (by decide), writesIn_of (unary_writes ..) (by decide), writesIn_of (binary_writes ..) (by decide), writesIn_of (binary_writes ..) (by decide), writesIn_of (unary_writes ..) (by decide), writesIn_of (nullary_writes ..) (by decide), writesIn_of (binary_writes ..) (by decide), writesIn_of (nullary_writes ..) (by decide), writesIn_of (binary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (unary_writes ..) (by decide), writesIn_of (ternary_writes ..) (by decide)⟩

/-- Stretch 17 (window 6, indices 683 … 688): 6 operations. -/
abbrev t17 : List (HloOp τ sig (Elt F)) :=
  [ StableHlo.unary main_v360 main_v362 (broadcastInDim S1x256 ![1] bcast_S256_S1x256_1 : (⟨S256, .f32⟩ : BufTy).Contents (Elt F) → (⟨S1x256, .f32⟩ : BufTy).Contents (Elt F)),
    StableHlo.unary main_v362 main_v363 (broadcastInDim S50000x256 ![0, 1] bcast_S1x256_S50000x256_0_1 : (⟨S1x256, .f32⟩ : BufTy).Contents (Elt F) → (⟨S50000x256, .f32⟩ : BufTy).Contents (Elt F)),
    StableHlo.binary main_v353 main_v363 main_v364 (subf : (⟨S50000x256, .f32⟩ : BufTy).Contents (Elt F) → (⟨S50000x256, .f32⟩ : BufTy).Contents (Elt F) → (⟨S50000x256, .f32⟩ : BufTy).Contents (Elt F)),
    StableHlo.unary main_v355 main_v365 (broadcastInDim S1x256 ![1] bcast_S256_S1x256_1 : (⟨S256, .f32⟩ : BufTy).Contents (Elt F) → (⟨S1x256, .f32⟩ : BufTy).Contents (Elt F)),
    StableHlo.unary main_v365 main_v366 (broadcastInDim S50000x256 ![0, 1] bcast_S1x256_S50000x256_0_1 : (⟨S1x256, .f32⟩ : BufTy).Contents (Elt F) → (⟨S50000x256, .f32⟩ : BufTy).Contents (Elt F)),
    StableHlo.binary main_v366 main_v364 main_v367 (mulf : (⟨S50000x256, .f32⟩ : BufTy).Contents (Elt F) → (⟨S50000x256, .f32⟩ : BufTy).Contents (Elt F) → (⟨S50000x256, .f32⟩ : BufTy).Contents (Elt F)) ]
theorem t17_writes : (t17 : List (HloOp τ sig (Elt F))).Forall (WritesIn 683 689) :=
  ⟨writesIn_of (unary_writes ..) (by decide), writesIn_of (unary_writes ..) (by decide), writesIn_of (binary_writes ..) (by decide), writesIn_of (unary_writes ..) (by decide), writesIn_of (unary_writes ..) (by decide), writesIn_of (binary_writes ..) (by decide)⟩

/-- Stretch 18 (window 7, indices 689 … 701): 13 operations. -/
abbrev t18 : List (HloOp τ sig (Elt F)) :=
  [ StableHlo.nullary main_cst_50 (constant S_ .f32 0x3727C5AC#32),
    StableHlo.unary main_cst_50 main_v368 (broadcastInDim S256 ![] bcast_S_S256 : (⟨S_, .f32⟩ : BufTy).Contents (Elt F) → (⟨S256, .f32⟩ : BufTy).Contents (Elt F)),
    StableHlo.binary main_v361 main_v368 main_v369 (addf : (⟨S256, .f32⟩ : BufTy).Contents (Elt F) → (⟨S256, .f32⟩ : BufTy).Contents (Elt F) → (⟨S256, .f32⟩ : BufTy).Contents (Elt F)),
    StableHlo.unary main_v369 main_v370 (Host.rsqrt : (⟨S256, .f32⟩ : BufTy).Contents (Elt F) → (⟨S256, .f32⟩ : BufTy).Contents (Elt F)),
    StableHlo.unary main_v370 main_v371 (broadcastInDim S1x256 ![1] bcast_S256_S1x256_1 : (⟨S256, .f32⟩ : BufTy).Contents (Elt F) → (⟨S1x256, .f32⟩ : BufTy).Contents (Elt F)),
    StableHlo.unary main_v371 main_v372 (broadcastInDim S50000x256 ![0, 1] bcast_S1x256_S50000x256_0_1 : (⟨S1x256, .f32⟩ : BufTy).Contents (Elt F) → (⟨S50000x256, .f32⟩ : BufTy).Contents (Elt F)),
    StableHlo.binary main_v367 main_v372 main_v373 (mulf : (⟨S50000x256, .f32⟩ : BufTy).Contents (Elt F) → (⟨S50000x256, .f32⟩ : BufTy).Contents (Elt F) → (⟨S50000x256, .f32⟩ : BufTy).Contents (Elt F)),
    StableHlo.unary main_v357 main_v374 (broadcastInDim S1x256 ![1] bcast_S256_S1x256_1 : (⟨S256, .f32⟩ : BufTy).Contents (Elt F) → (⟨S1x256, .f32⟩ : BufTy).Contents (Elt F)),
    StableHlo.unary main_v374 main_v375 (broadcastInDim S50000x256 ![0, 1] bcast_S1x256_S50000x256_0_1 : (⟨S1x256, .f32⟩ : BufTy).Contents (Elt F) → (⟨S50000x256, .f32⟩ : BufTy).Contents (Elt F)),
    StableHlo.binary main_v373 main_v375 main_v376 (addf : (⟨S50000x256, .f32⟩ : BufTy).Contents (Elt F) → (⟨S50000x256, .f32⟩ : BufTy).Contents (Elt F) → (⟨S50000x256, .f32⟩ : BufTy).Contents (Elt F)),
    StableHlo.TRef.nullary main_call21.cst (constant S_ .f32 0x00000000#32),
    StableHlo.TRef.unary main_call21.cst main_call21.v0 (broadcastInDim S50000x256 ![] bcast_S_S50000x256),
    StableHlo.TRef.binary (TRef.of main_v376 : StableHlo.TRef sig ⟨S50000x256, .f32⟩) main_call21.v0 main_call21.v1 maximumf ]
theorem t18_writes : (t18 : List (HloOp τ sig (Elt F))).Forall (WritesIn 689 702) :=
  ⟨writesIn_of (nullary_writes ..) (by decide), writesIn_of (unary_writes ..) (by decide), writesIn_of (binary_writes ..) (by decide), writesIn_of (unary_writes ..) (by decide), writesIn_of (unary_writes ..) (by decide), writesIn_of (unary_writes ..) (by decide), writesIn_of (binary_writes ..) (by decide), writesIn_of (unary_writes ..) (by decide), writesIn_of (unary_writes ..) (by decide), writesIn_of (binary_writes ..) (by decide), writesIn_of (nullary_writes ..) (by decide), writesIn_of (unary_writes ..) (by decide), writesIn_of (binary_writes ..) (by decide)⟩

/-- Stretch 19 (window 7, indices 702 … 724): 23 operations. -/
abbrev t19 : List (HloOp τ sig (Elt F)) :=
  [ StableHlo.unary main_arg18 main_v378 ((extractStridedSlice S1x256x2 ![2, 0, 0] · slices_S3x256x2_S1x256x2_2_0_0) : (⟨S3x256x2, .f32⟩ : BufTy).Contents (Elt F) → (⟨S1x256x2, .f32⟩ : BufTy).Contents (Elt F)),
    StableHlo.reshape main_v378 main_v379 rfl shapeCasts_S1x256x2_S256x2,
    StableHlo.binary main_v377 main_v379 main_v380 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg19 main_v381 ((extractStridedSlice S1x2 ![2, 0] · slices_S3x2_S1x2_2_0) : (⟨S3x2, .f32⟩ : BufTy).Contents (Elt F) → (⟨S1x2, .f32⟩ : BufTy).Contents (Elt F)),
    StableHlo.reshape main_v381 main_v382 rfl shapeCasts_S1x2_S2,
    StableHlo.unary main_v382 main_v383 (broadcastInDim S1x2 ![1] bcast_S2_S1x2_1 : (⟨S2, .f32⟩ : BufTy).Contents (Elt F) → (⟨S1x2, .f32⟩ : BufTy).Contents (Elt F)),
    StableHlo.unary main_v383 main_v384 (broadcastInDim S50000x2 ![0, 1] bcast_S1x2_S50000x2_0_1 : (⟨S1x2, .f32⟩ : BufTy).Contents (Elt F) → (⟨S50000x2, .f32⟩ : BufTy).Contents (Elt F)),
    StableHlo.binary main_v380 main_v384 main_v385 (addf : (⟨S50000x2, .f32⟩ : BufTy).Contents (Elt F) → (⟨S50000x2, .f32⟩ : BufTy).Contents (Elt F) → (⟨S50000x2, .f32⟩ : BufTy).Contents (Elt F)),
    StableHlo.TRef.nullary main_call22.cst (constant S_ .f32 0xFF800000#32),
    StableHlo.TRef.binary (TRef.of main_v385 : StableHlo.TRef sig ⟨S50000x2, .f32⟩) main_call22.cst main_call22.v0 (fun x v => Host.reduce FloatOps.maximumf x v reducesTo_S50000x2_S50000_d1 h_S_),
    StableHlo.TRef.nullary main_call22.cst_0 (constant S_ .f32 0xFF800000#32),
    StableHlo.TRef.unary main_call22.cst_0 main_call22.v1 (broadcastInDim S50000 ![] bcast_S_S50000),
    StableHlo.TRef.binary main_call22.v1 main_call22.v0 main_call22.v2 maximumf,
    StableHlo.TRef.unary main_call22.v2 main_call22.v3 (broadcastInDim S50000x1 ![0] bcast_S50000_S50000x1_0),
    StableHlo.TRef.unary main_call22.v3 main_call22.v4 (broadcastInDim S50000x2 ![0, 1] bcast_S50000x1_S50000x2_0_1),
    StableHlo.TRef.binary (TRef.of main_v385 : StableHlo.TRef sig ⟨S50000x2, .f32⟩) main_call22.v4 main_call22.v5 subf,
    StableHlo.TRef.unary main_call22.v5 main_call22.v6 Host.exp,
    StableHlo.TRef.nullary main_call22.cst_1 (constant S_ .f32 0x00000000#32),
    StableHlo.TRef.binary main_call22.v6 main_call22.cst_1 main_call22.v7 (fun x v => Host.reduceAdd x v reducesTo_S50000x2_S50000_d1 h_S_),
    StableHlo.TRef.unary main_call22.v7 main_call22.v8 (broadcastInDim S50000x1 ![0] bcast_S50000_S50000x1_0),
    StableHlo.TRef.unary main_call22.v8 main_call22.v9 Host.log,
    StableHlo.TRef.unary main_call22.v9 main_call22.v10 (broadcastInDim S50000x2 ![0, 1] bcast_S50000x1_S50000x2_0_1),
    StableHlo.TRef.binary main_call22.v5 main_call22.v10 main_call22.v11 subf ]
theorem t19_writes : (t19 : List (HloOp τ sig (Elt F))).Forall (WritesIn 702 725) :=
  ⟨writesIn_of (unary_writes ..) (by decide), writesIn_of (reshape_writes ..) (by decide), writesIn_of (binary_writes ..) (by decide), writesIn_of (unary_writes ..) (by decide), writesIn_of (reshape_writes ..) (by decide), writesIn_of (unary_writes ..) (by decide), writesIn_of (unary_writes ..) (by decide), writesIn_of (binary_writes ..) (by decide), writesIn_of (nullary_writes ..) (by decide), writesIn_of (binary_writes ..) (by decide), writesIn_of (nullary_writes ..) (by decide), writesIn_of (unary_writes ..) (by decide), writesIn_of (binary_writes ..) (by decide), writesIn_of (unary_writes ..) (by decide), writesIn_of (unary_writes ..) (by decide), writesIn_of (binary_writes ..) (by decide), writesIn_of (unary_writes ..) (by decide), writesIn_of (nullary_writes ..) (by decide), writesIn_of (binary_writes ..) (by decide), writesIn_of (unary_writes ..) (by decide), writesIn_of (unary_writes ..) (by decide), writesIn_of (unary_writes ..) (by decide), writesIn_of (binary_writes ..) (by decide)⟩

/-- Stretch 20 (window 7, indices 725 … 729): 5 operations. -/
abbrev t20 : List (HloOp τ sig (Elt F)) :=
  [ StableHlo.unary main_v263 main_v387 (broadcastInDim S1x50000x2 ![1, 2] bcast_S50000x2_S1x50000x2_1_2 : (⟨S50000x2, .f32⟩ : BufTy).Contents (Elt F) → (⟨S1x50000x2, .f32⟩ : BufTy).Contents (Elt F)),
    StableHlo.unary main_v304 main_v388 (broadcastInDim S1x50000x2 ![1, 2] bcast_S50000x2_S1x50000x2_1_2 : (⟨S50000x2, .f32⟩ : BufTy).Contents (Elt F) → (⟨S1x50000x2, .f32⟩ : BufTy).Contents (Elt F)),
    StableHlo.unary main_v345 main_v389 (broadcastInDim S1x50000x2 ![1, 2] bcast_S50000x2_S1x50000x2_1_2 : (⟨S50000x2, .f32⟩ : BufTy).Contents (Elt F) → (⟨S1x50000x2, .f32⟩ : BufTy).Contents (Elt F)),
    StableHlo.unary main_v386 main_v390 (broadcastInDim S1x50000x2 ![1, 2] bcast_S50000x2_S1x50000x2_1_2 : (⟨S50000x2, .f32⟩ : BufTy).Contents (Elt F) → (⟨S1x50000x2, .f32⟩ : BufTy).Contents (Elt F)),
    StableHlo.nary ![main_v387, main_v388, main_v389, main_v390] main_v391 (fun u => concatenate S4x50000x2 0 [⟨S1x50000x2, u 0⟩, ⟨S1x50000x2, u 1⟩, ⟨S1x50000x2, u 2⟩, ⟨S1x50000x2, u 3⟩] concatenates_S1x50000x2_S1x50000x2_S1x50000x2_S1x50000x2_S4x50000x2_d0) ]
theorem t20_writes : (t20 : List (HloOp τ sig (Elt F))).Forall (WritesIn 725 730) :=
  ⟨writesIn_of (unary_writes ..) (by decide), writesIn_of (unary_writes ..) (by decide), writesIn_of (unary_writes ..) (by decide), writesIn_of (unary_writes ..) (by decide), writesIn_of (nary_writes ..) (by decide)⟩

set_option maxRecDepth 8192 in
/-- Window 5 is its stretches one after the other. -/
theorem ops5_cut : (ops5 : List (HloOp τ sig (Elt F))) = t0 ++ (t1 ++ (t2 ++ (t3 ++ (t4 ++ (t5 ++ (t6 ++ (t7 ++ t8))))))) := rfl

set_option maxRecDepth 8192 in
/-- Window 6 is its stretches one after the other. -/
theorem ops6_cut : (ops6 : List (HloOp τ sig (Elt F))) = t9 ++ (t10 ++ (t11 ++ (t12 ++ (t13 ++ (t14 ++ (t15 ++ (t16 ++ t17))))))) := rfl

set_option maxRecDepth 8192 in
/-- Window 7 is its stretches one after the other. -/
theorem ops7_cut : (ops7 : List (HloOp τ sig (Elt F))) = t18 ++ (t19 ++ t20) := rfl

/-- Device `c`'s buffers after stretch 0. -/
def u0 (m : (ℓ : Loc nD τ sig) → Buf (Elt F) ℓ) (c : Dev nD) : Valuation τ sig (Elt F) := after t0 (val4 m c)
theorem u0_eq (m : (ℓ : Loc nD τ sig) → Buf (Elt F) ℓ) (c : Dev nD) : u0 m c = after t0 (val4 m c) := rfl
theorem u0_keep (m : (ℓ : Loc nD τ sig) → Buf (Elt F) ℓ) (c : Dev nD) (r : Ref sig .tc) (hr : r.idx.val < 460 ∨ 479 ≤ r.idx.val) :
    u0 m c (Proc.devRef .tc r) = (val4 m c) (Proc.devRef .tc r) :=
  after_keep t0 t0_writes _ r hr

/-- Device `c`'s buffers after stretch 1. -/
def u1 (m : (ℓ : Loc nD τ sig) → Buf (Elt F) ℓ) (c : Dev nD) : Valuation τ sig (Elt F) := after t1 (u0 m c)
theorem u1_eq (m : (ℓ : Loc nD τ sig) → Buf (Elt F) ℓ) (c : Dev nD) : u1 m c = after t1 (u0 m c) := rfl
theorem u1_keep (m : (ℓ : Loc nD τ sig) → Buf (Elt F) ℓ) (c : Dev nD) (r : Ref sig .tc) (hr : r.idx.val < 479 ∨ 487 ≤ r.idx.val) :
    u1 m c (Proc.devRef .tc r) = (u0 m c) (Proc.devRef .tc r) :=
  after_keep t1 t1_writes _ r hr

/-- Device `c`'s buffers after stretch 2. -/
def u2 (m : (ℓ : Loc nD τ sig) → Buf (Elt F) ℓ) (c : Dev nD) : Valuation τ sig (Elt F) := after t2 (u1 m c)
theorem u2_eq (m : (ℓ : Loc nD τ sig) → Buf (Elt F) ℓ) (c : Dev nD) : u2 m c = after t2 (u1 m c) := rfl
theorem u2_keep (m : (ℓ : Loc nD τ sig) → Buf (Elt F) ℓ) (c : Dev nD) (r : Ref sig .tc) (hr : r.idx.val < 487 ∨ 491 ≤ r.idx.val) :
    u2 m c (Proc.devRef .tc r) = (u1 m c) (Proc.devRef .tc r) :=
  after_keep t2 t2_writes _ r hr

/-- Device `c`'s buffers after stretch 3. -/
def u3 (m : (ℓ : Loc nD τ sig) → Buf (Elt F) ℓ) (c : Dev nD) : Valuation τ sig (Elt F) := after t3 (u2 m c)
theorem u3_eq (m : (ℓ : Loc nD τ sig) → Buf (Elt F) ℓ) (c : Dev nD) : u3 m c = after t3 (u2 m c) := rfl
theorem u3_keep (m : (ℓ : Loc nD τ sig) → Buf (Elt F) ℓ) (c : Dev nD) (r : Ref sig .tc) (hr : r.idx.val < 491 ∨ 519 ≤ r.idx.val) :
    u3 m c (Proc.devRef .tc r) = (u2 m c) (Proc.devRef .tc r) :=
  after_keep t3 t3_writes _ r hr

/-- Device `c`'s buffers after stretch 4. -/
def u4 (m : (ℓ : Loc nD τ sig) → Buf (Elt F) ℓ) (c : Dev nD) : Valuation τ sig (Elt F) := after t4 (u3 m c)
theorem u4_eq (m : (ℓ : Loc nD τ sig) → Buf (Elt F) ℓ) (c : Dev nD) : u4 m c = after t4 (u3 m c) := rfl
theorem u4_keep (m : (ℓ : Loc nD τ sig) → Buf (Elt F) ℓ) (c : Dev nD) (r : Ref sig .tc) (hr : r.idx.val < 519 ∨ 525 ≤ r.idx.val) :
    u4 m c (Proc.devRef .tc r) = (u3 m c) (Proc.devRef .tc r) :=
  after_keep t4 t4_writes _ r hr

/-- Device `c`'s buffers after stretch 5. -/
def u5 (m : (ℓ : Loc nD τ sig) → Buf (Elt F) ℓ) (c : Dev nD) : Valuation τ sig (Elt F) := after t5 (u4 m c)
theorem u5_eq (m : (ℓ : Loc nD τ sig) → Buf (Elt F) ℓ) (c : Dev nD) : u5 m c = after t5 (u4 m c) := rfl
theorem u5_keep (m : (ℓ : Loc nD τ sig) → Buf (Elt F) ℓ) (c : Dev nD) (r : Ref sig .tc) (hr : r.idx.val < 525 ∨ 538 ≤ r.idx.val) :
    u5 m c (Proc.devRef .tc r) = (u4 m c) (Proc.devRef .tc r) :=
  after_keep t5 t5_writes _ r hr

/-- Device `c`'s buffers after stretch 6. -/
def u6 (m : (ℓ : Loc nD τ sig) → Buf (Elt F) ℓ) (c : Dev nD) : Valuation τ sig (Elt F) := after t6 (u5 m c)
theorem u6_eq (m : (ℓ : Loc nD τ sig) → Buf (Elt F) ℓ) (c : Dev nD) : u6 m c = after t6 (u5 m c) := rfl
theorem u6_keep (m : (ℓ : Loc nD τ sig) → Buf (Elt F) ℓ) (c : Dev nD) (r : Ref sig .tc) (hr : r.idx.val < 538 ∨ 561 ≤ r.idx.val) :
    u6 m c (Proc.devRef .tc r) = (u5 m c) (Proc.devRef .tc r) :=
  after_keep t6 t6_writes _ r hr

/-- Device `c`'s buffers after stretch 7. -/
def u7 (m : (ℓ : Loc nD τ sig) → Buf (Elt F) ℓ) (c : Dev nD) : Valuation τ sig (Elt F) := after t7 (u6 m c)
theorem u7_eq (m : (ℓ : Loc nD τ sig) → Buf (Elt F) ℓ) (c : Dev nD) : u7 m c = after t7 (u6 m c) := rfl
theorem u7_keep (m : (ℓ : Loc nD τ sig) → Buf (Elt F) ℓ) (c : Dev nD) (r : Ref sig .tc) (hr : r.idx.val < 561 ∨ 569 ≤ r.idx.val) :
    u7 m c (Proc.devRef .tc r) = (u6 m c) (Proc.devRef .tc r) :=
  after_keep t7 t7_writes _ r hr

/-- Device `c`'s buffers after stretch 8. -/
def u8 (m : (ℓ : Loc nD τ sig) → Buf (Elt F) ℓ) (c : Dev nD) : Valuation τ sig (Elt F) := after t8 (u7 m c)
theorem u8_eq (m : (ℓ : Loc nD τ sig) → Buf (Elt F) ℓ) (c : Dev nD) : u8 m c = after t8 (u7 m c) := rfl
theorem u8_keep (m : (ℓ : Loc nD τ sig) → Buf (Elt F) ℓ) (c : Dev nD) (r : Ref sig .tc) (hr : r.idx.val < 569 ∨ 571 ≤ r.idx.val) :
    u8 m c (Proc.devRef .tc r) = (u7 m c) (Proc.devRef .tc r) :=
  after_keep t8 t8_writes _ r hr

/-- Device `c`'s buffers after stretch 9. -/
def u9 (m : (ℓ : Loc nD τ sig) → Buf (Elt F) ℓ) (c : Dev nD) : Valuation τ sig (Elt F) := after t9 (u8 m c)
theorem u9_eq (m : (ℓ : Loc nD τ sig) → Buf (Elt F) ℓ) (c : Dev nD) : u9 m c = after t9 (u8 m c) := rfl
theorem u9_keep (m : (ℓ : Loc nD τ sig) → Buf (Elt F) ℓ) (c : Dev nD) (r : Ref sig .tc) (hr : r.idx.val < 571 ∨ 573 ≤ r.idx.val) :
    u9 m c (Proc.devRef .tc r) = (u8 m c) (Proc.devRef .tc r) :=
  after_keep t9 t9_writes _ r hr

/-- Device `c`'s buffers after stretch 10. -/
def u10 (m : (ℓ : Loc nD τ sig) → Buf (Elt F) ℓ) (c : Dev nD) : Valuation τ sig (Elt F) := after t10 (u9 m c)
theorem u10_eq (m : (ℓ : Loc nD τ sig) → Buf (Elt F) ℓ) (c : Dev nD) : u10 m c = after t10 (u9 m c) := rfl
theorem u10_keep (m : (ℓ : Loc nD τ sig) → Buf (Elt F) ℓ) (c : Dev nD) (r : Ref sig .tc) (hr : r.idx.val < 573 ∨ 601 ≤ r.idx.val) :
    u10 m c (Proc.devRef .tc r) = (u9 m c) (Proc.devRef .tc r) :=
  after_keep t10 t10_writes _ r hr

/-- Device `c`'s buffers after stretch 11. -/
def u11 (m : (ℓ : Loc nD τ sig) → Buf (Elt F) ℓ) (c : Dev nD) : Valuation τ sig (Elt F) := after t11 (u10 m c)
theorem u11_eq (m : (ℓ : Loc nD τ sig) → Buf (Elt F) ℓ) (c : Dev nD) : u11 m c = after t11 (u10 m c) := rfl
theorem u11_keep (m : (ℓ : Loc nD τ sig) → Buf (Elt F) ℓ) (c : Dev nD) (r : Ref sig .tc) (hr : r.idx.val < 601 ∨ 607 ≤ r.idx.val) :
    u11 m c (Proc.devRef .tc r) = (u10 m c) (Proc.devRef .tc r) :=
  after_keep t11 t11_writes _ r hr

/-- Device `c`'s buffers after stretch 12. -/
def u12 (m : (ℓ : Loc nD τ sig) → Buf (Elt F) ℓ) (c : Dev nD) : Valuation τ sig (Elt F) := after t12 (u11 m c)
theorem u12_eq (m : (ℓ : Loc nD τ sig) → Buf (Elt F) ℓ) (c : Dev nD) : u12 m c = after t12 (u11 m c) := rfl
theorem u12_keep (m : (ℓ : Loc nD τ sig) → Buf (Elt F) ℓ) (c : Dev nD) (r : Ref sig .tc) (hr : r.idx.val < 607 ∨ 620 ≤ r.idx.val) :
    u12 m c (Proc.devRef .tc r) = (u11 m c) (Proc.devRef .tc r) :=
  after_keep t12 t12_writes _ r hr

/-- Device `c`'s buffers after stretch 13. -/
def u13 (m : (ℓ : Loc nD τ sig) → Buf (Elt F) ℓ) (c : Dev nD) : Valuation τ sig (Elt F) := after t13 (u12 m c)
theorem u13_eq (m : (ℓ : Loc nD τ sig) → Buf (Elt F) ℓ) (c : Dev nD) : u13 m c = after t13 (u12 m c) := rfl
theorem u13_keep (m : (ℓ : Loc nD τ sig) → Buf (Elt F) ℓ) (c : Dev nD) (r : Ref sig .tc) (hr : r.idx.val < 620 ∨ 643 ≤ r.idx.val) :
    u13 m c (Proc.devRef .tc r) = (u12 m c) (Proc.devRef .tc r) :=
  after_keep t13 t13_writes _ r hr

/-- Device `c`'s buffers after stretch 14. -/
def u14 (m : (ℓ : Loc nD τ sig) → Buf (Elt F) ℓ) (c : Dev nD) : Valuation τ sig (Elt F) := after t14 (u13 m c)
theorem u14_eq (m : (ℓ : Loc nD τ sig) → Buf (Elt F) ℓ) (c : Dev nD) : u14 m c = after t14 (u13 m c) := rfl
theorem u14_keep (m : (ℓ : Loc nD τ sig) → Buf (Elt F) ℓ) (c : Dev nD) (r : Ref sig .tc) (hr : r.idx.val < 643 ∨ 651 ≤ r.idx.val) :
    u14 m c (Proc.devRef .tc r) = (u13 m c) (Proc.devRef .tc r) :=
  after_keep t14 t14_writes _ r hr

/-- Device `c`'s buffers after stretch 15. -/
def u15 (m : (ℓ : Loc nD τ sig) → Buf (Elt F) ℓ) (c : Dev nD) : Valuation τ sig (Elt F) := after t15 (u14 m c)
theorem u15_eq (m : (ℓ : Loc nD τ sig) → Buf (Elt F) ℓ) (c : Dev nD) : u15 m c = after t15 (u14 m c) := rfl
theorem u15_keep (m : (ℓ : Loc nD τ sig) → Buf (Elt F) ℓ) (c : Dev nD) (r : Ref sig .tc) (hr : r.idx.val < 651 ∨ 655 ≤ r.idx.val) :
    u15 m c (Proc.devRef .tc r) = (u14 m c) (Proc.devRef .tc r) :=
  after_keep t15 t15_writes _ r hr

/-- Device `c`'s buffers after stretch 16. -/
def u16 (m : (ℓ : Loc nD τ sig) → Buf (Elt F) ℓ) (c : Dev nD) : Valuation τ sig (Elt F) := after t16 (u15 m c)
theorem u16_eq (m : (ℓ : Loc nD τ sig) → Buf (Elt F) ℓ) (c : Dev nD) : u16 m c = after t16 (u15 m c) := rfl
theorem u16_keep (m : (ℓ : Loc nD τ sig) → Buf (Elt F) ℓ) (c : Dev nD) (r : Ref sig .tc) (hr : r.idx.val < 655 ∨ 683 ≤ r.idx.val) :
    u16 m c (Proc.devRef .tc r) = (u15 m c) (Proc.devRef .tc r) :=
  after_keep t16 t16_writes _ r hr

/-- Device `c`'s buffers after stretch 17. -/
def u17 (m : (ℓ : Loc nD τ sig) → Buf (Elt F) ℓ) (c : Dev nD) : Valuation τ sig (Elt F) := after t17 (u16 m c)
theorem u17_eq (m : (ℓ : Loc nD τ sig) → Buf (Elt F) ℓ) (c : Dev nD) : u17 m c = after t17 (u16 m c) := rfl
theorem u17_keep (m : (ℓ : Loc nD τ sig) → Buf (Elt F) ℓ) (c : Dev nD) (r : Ref sig .tc) (hr : r.idx.val < 683 ∨ 689 ≤ r.idx.val) :
    u17 m c (Proc.devRef .tc r) = (u16 m c) (Proc.devRef .tc r) :=
  after_keep t17 t17_writes _ r hr

/-- Device `c`'s buffers after stretch 18. -/
def u18 (m : (ℓ : Loc nD τ sig) → Buf (Elt F) ℓ) (c : Dev nD) : Valuation τ sig (Elt F) := after t18 (u17 m c)
theorem u18_eq (m : (ℓ : Loc nD τ sig) → Buf (Elt F) ℓ) (c : Dev nD) : u18 m c = after t18 (u17 m c) := rfl
theorem u18_keep (m : (ℓ : Loc nD τ sig) → Buf (Elt F) ℓ) (c : Dev nD) (r : Ref sig .tc) (hr : r.idx.val < 689 ∨ 702 ≤ r.idx.val) :
    u18 m c (Proc.devRef .tc r) = (u17 m c) (Proc.devRef .tc r) :=
  after_keep t18 t18_writes _ r hr

/-- Device `c`'s buffers after stretch 19. -/
def u19 (m : (ℓ : Loc nD τ sig) → Buf (Elt F) ℓ) (c : Dev nD) : Valuation τ sig (Elt F) := after t19 (u18 m c)
theorem u19_eq (m : (ℓ : Loc nD τ sig) → Buf (Elt F) ℓ) (c : Dev nD) : u19 m c = after t19 (u18 m c) := rfl
theorem u19_keep (m : (ℓ : Loc nD τ sig) → Buf (Elt F) ℓ) (c : Dev nD) (r : Ref sig .tc) (hr : r.idx.val < 702 ∨ 725 ≤ r.idx.val) :
    u19 m c (Proc.devRef .tc r) = (u18 m c) (Proc.devRef .tc r) :=
  after_keep t19 t19_writes _ r hr

/-- Device `c`'s buffers after stretch 20. -/
def u20 (m : (ℓ : Loc nD τ sig) → Buf (Elt F) ℓ) (c : Dev nD) : Valuation τ sig (Elt F) := after t20 (u19 m c)
theorem u20_eq (m : (ℓ : Loc nD τ sig) → Buf (Elt F) ℓ) (c : Dev nD) : u20 m c = after t20 (u19 m c) := rfl
theorem u20_keep (m : (ℓ : Loc nD τ sig) → Buf (Elt F) ℓ) (c : Dev nD) (r : Ref sig .tc) (hr : r.idx.val < 725 ∨ 730 ≤ r.idx.val) :
    u20 m c (Proc.devRef .tc r) = (u19 m c) (Proc.devRef .tc r) :=
  after_keep t20 t20_writes _ r hr

/-- The contents after window 5 are those after its last stretch. -/
theorem val5_eq_u (m : (ℓ : Loc nD τ sig) → Buf (Elt F) ℓ) (c : Dev nD) : val5 m c = u8 m c := by
  rw [val5_eq, ops5_cut, StableHlo.after_append, StableHlo.after_append, StableHlo.after_append, StableHlo.after_append, StableHlo.after_append, StableHlo.after_append, StableHlo.after_append, StableHlo.after_append]
  rfl

/-- The contents after window 6 are those after its last stretch. -/
theorem val6_eq_u (m : (ℓ : Loc nD τ sig) → Buf (Elt F) ℓ) (c : Dev nD) : val6 m c = u17 m c := by
  rw [val6_eq, ops6_cut, StableHlo.after_append, StableHlo.after_append, StableHlo.after_append, StableHlo.after_append, StableHlo.after_append, StableHlo.after_append, StableHlo.after_append, StableHlo.after_append, val5_eq_u]
  rfl

/-- The contents after window 7 are those after its last stretch. -/
theorem val7_eq_u (m : (ℓ : Loc nD τ sig) → Buf (Elt F) ℓ) (c : Dev nD) : val7 m c = u20 m c := by
  rw [val7_eq, ops7_cut, StableHlo.after_append, StableHlo.after_append, val6_eq_u]
  rfl

/-- A buffer of index below 479: its final contents are those right after stretch 0. -/
theorem z_out0 (m : (ℓ : Loc nD τ sig) → Buf (Elt F) ℓ) (c : Dev nD) (r : Ref sig .tc) (hr : r.idx.val < 479) :
    val7 m c (Proc.devRef .tc r) = after t0 (val4 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (u7_keep m c r (Or.inl (by omega))) |>.trans <| (u6_keep m c r (Or.inl (by omega))) |>.trans <| (u5_keep m c r (Or.inl (by omega))) |>.trans <| (u4_keep m c r (Or.inl (by omega))) |>.trans <| (u3_keep m c r (Or.inl (by omega))) |>.trans <| (u2_keep m c r (Or.inl (by omega))) |>.trans <| (u1_keep m c r (Or.inl (by omega))) |>.trans <| (congrFun (u0_eq m c) _)

/-- What stretch 0 reads of a buffer written before window 5 is that buffer's final contents. -/
theorem z_in0 (m : (ℓ : Loc nD τ sig) → Buf (Elt F) ℓ) (c : Dev nD) (r : Ref sig .tc) (hr : r.idx.val < 460) :
    val4 m c (Proc.devRef .tc r) = val7 m c (Proc.devRef .tc r) :=
  (val7_eq_val4 m c r hr).symm

/-- A buffer of index below 487: its final contents are those right after stretch 1. -/
theorem z_out1 (m : (ℓ : Loc nD τ sig) → Buf (Elt F) ℓ) (c : Dev nD) (r : Ref sig .tc) (hr : r.idx.val < 487) :
    val7 m c (Proc.devRef .tc r) = after t1 (u0 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (u7_keep m c r (Or.inl (by omega))) |>.trans <| (u6_keep m c r (Or.inl (by omega))) |>.trans <| (u5_keep m c r (Or.inl (by omega))) |>.trans <| (u4_keep m c r (Or.inl (by omega))) |>.trans <| (u3_keep m c r (Or.inl (by omega))) |>.trans <| (u2_keep m c r (Or.inl (by omega))) |>.trans <| (congrFun (u1_eq m c) _)

/-- What stretch 1 reads of an earlier buffer is that buffer's final contents. -/
theorem z_in1 (m : (ℓ : Loc nD τ sig) → Buf (Elt F) ℓ) (c : Dev nD) (r : Ref sig .tc) (hr : r.idx.val < 479) :
    u0 m c (Proc.devRef .tc r) = val7 m c (Proc.devRef .tc r) :=
  (z_out0 m c r hr).symm

/-- A buffer of index below 491: its final contents are those right after stretch 2. -/
theorem z_out2 (m : (ℓ : Loc nD τ sig) → Buf (Elt F) ℓ) (c : Dev nD) (r : Ref sig .tc) (hr : r.idx.val < 491) :
    val7 m c (Proc.devRef .tc r) = after t2 (u1 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (u7_keep m c r (Or.inl (by omega))) |>.trans <| (u6_keep m c r (Or.inl (by omega))) |>.trans <| (u5_keep m c r (Or.inl (by omega))) |>.trans <| (u4_keep m c r (Or.inl (by omega))) |>.trans <| (u3_keep m c r (Or.inl (by omega))) |>.trans <| (congrFun (u2_eq m c) _)

/-- What stretch 2 reads of an earlier buffer is that buffer's final contents. -/
theorem z_in2 (m : (ℓ : Loc nD τ sig) → Buf (Elt F) ℓ) (c : Dev nD) (r : Ref sig .tc) (hr : r.idx.val < 487) :
    u1 m c (Proc.devRef .tc r) = val7 m c (Proc.devRef .tc r) :=
  (z_out1 m c r hr).symm

/-- A buffer of index below 519: its final contents are those right after stretch 3. -/
theorem z_out3 (m : (ℓ : Loc nD τ sig) → Buf (Elt F) ℓ) (c : Dev nD) (r : Ref sig .tc) (hr : r.idx.val < 519) :
    val7 m c (Proc.devRef .tc r) = after t3 (u2 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (u7_keep m c r (Or.inl (by omega))) |>.trans <| (u6_keep m c r (Or.inl (by omega))) |>.trans <| (u5_keep m c r (Or.inl (by omega))) |>.trans <| (u4_keep m c r (Or.inl (by omega))) |>.trans <| (congrFun (u3_eq m c) _)

/-- What stretch 3 reads of an earlier buffer is that buffer's final contents. -/
theorem z_in3 (m : (ℓ : Loc nD τ sig) → Buf (Elt F) ℓ) (c : Dev nD) (r : Ref sig .tc) (hr : r.idx.val < 491) :
    u2 m c (Proc.devRef .tc r) = val7 m c (Proc.devRef .tc r) :=
  (z_out2 m c r hr).symm

/-- A buffer of index below 525: its final contents are those right after stretch 4. -/
theorem z_out4 (m : (ℓ : Loc nD τ sig) → Buf (Elt F) ℓ) (c : Dev nD) (r : Ref sig .tc) (hr : r.idx.val < 525) :
    val7 m c (Proc.devRef .tc r) = after t4 (u3 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (u7_keep m c r (Or.inl (by omega))) |>.trans <| (u6_keep m c r (Or.inl (by omega))) |>.trans <| (u5_keep m c r (Or.inl (by omega))) |>.trans <| (congrFun (u4_eq m c) _)

/-- What stretch 4 reads of an earlier buffer is that buffer's final contents. -/
theorem z_in4 (m : (ℓ : Loc nD τ sig) → Buf (Elt F) ℓ) (c : Dev nD) (r : Ref sig .tc) (hr : r.idx.val < 519) :
    u3 m c (Proc.devRef .tc r) = val7 m c (Proc.devRef .tc r) :=
  (z_out3 m c r hr).symm

/-- A buffer of index below 538: its final contents are those right after stretch 5. -/
theorem z_out5 (m : (ℓ : Loc nD τ sig) → Buf (Elt F) ℓ) (c : Dev nD) (r : Ref sig .tc) (hr : r.idx.val < 538) :
    val7 m c (Proc.devRef .tc r) = after t5 (u4 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (u7_keep m c r (Or.inl (by omega))) |>.trans <| (u6_keep m c r (Or.inl (by omega))) |>.trans <| (congrFun (u5_eq m c) _)

/-- What stretch 5 reads of an earlier buffer is that buffer's final contents. -/
theorem z_in5 (m : (ℓ : Loc nD τ sig) → Buf (Elt F) ℓ) (c : Dev nD) (r : Ref sig .tc) (hr : r.idx.val < 525) :
    u4 m c (Proc.devRef .tc r) = val7 m c (Proc.devRef .tc r) :=
  (z_out4 m c r hr).symm

/-- A buffer of index below 561: its final contents are those right after stretch 6. -/
theorem z_out6 (m : (ℓ : Loc nD τ sig) → Buf (Elt F) ℓ) (c : Dev nD) (r : Ref sig .tc) (hr : r.idx.val < 561) :
    val7 m c (Proc.devRef .tc r) = after t6 (u5 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (u7_keep m c r (Or.inl (by omega))) |>.trans <| (congrFun (u6_eq m c) _)

/-- What stretch 6 reads of an earlier buffer is that buffer's final contents. -/
theorem z_in6 (m : (ℓ : Loc nD τ sig) → Buf (Elt F) ℓ) (c : Dev nD) (r : Ref sig .tc) (hr : r.idx.val < 538) :
    u5 m c (Proc.devRef .tc r) = val7 m c (Proc.devRef .tc r) :=
  (z_out5 m c r hr).symm

/-- A buffer of index below 569: its final contents are those right after stretch 7. -/
theorem z_out7 (m : (ℓ : Loc nD τ sig) → Buf (Elt F) ℓ) (c : Dev nD) (r : Ref sig .tc) (hr : r.idx.val < 569) :
    val7 m c (Proc.devRef .tc r) = after t7 (u6 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (u8_keep m c r (Or.inl (by omega))) |>.trans <| (congrFun (u7_eq m c) _)

/-- What stretch 7 reads of an earlier buffer is that buffer's final contents. -/
theorem z_in7 (m : (ℓ : Loc nD τ sig) → Buf (Elt F) ℓ) (c : Dev nD) (r : Ref sig .tc) (hr : r.idx.val < 561) :
    u6 m c (Proc.devRef .tc r) = val7 m c (Proc.devRef .tc r) :=
  (z_out6 m c r hr).symm

/-- A buffer of index below 571: its final contents are those right after stretch 8. -/
theorem z_out8 (m : (ℓ : Loc nD τ sig) → Buf (Elt F) ℓ) (c : Dev nD) (r : Ref sig .tc) (hr : r.idx.val < 571) :
    val7 m c (Proc.devRef .tc r) = after t8 (u7 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (u9_keep m c r (Or.inl (by omega))) |>.trans <| (congrFun (u8_eq m c) _)

/-- What stretch 8 reads of an earlier buffer is that buffer's final contents. -/
theorem z_in8 (m : (ℓ : Loc nD τ sig) → Buf (Elt F) ℓ) (c : Dev nD) (r : Ref sig .tc) (hr : r.idx.val < 569) :
    u7 m c (Proc.devRef .tc r) = val7 m c (Proc.devRef .tc r) :=
  (z_out7 m c r hr).symm

/-- A buffer of index below 573: its final contents are those right after stretch 9. -/
theorem z_out9 (m : (ℓ : Loc nD τ sig) → Buf (Elt F) ℓ) (c : Dev nD) (r : Ref sig .tc) (hr : r.idx.val < 573) :
    val7 m c (Proc.devRef .tc r) = after t9 (u8 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (u10_keep m c r (Or.inl (by omega))) |>.trans <| (congrFun (u9_eq m c) _)

/-- What stretch 9 reads of an earlier buffer is that buffer's final contents. -/
theorem z_in9 (m : (ℓ : Loc nD τ sig) → Buf (Elt F) ℓ) (c : Dev nD) (r : Ref sig .tc) (hr : r.idx.val < 571) :
    u8 m c (Proc.devRef .tc r) = val7 m c (Proc.devRef .tc r) :=
  (z_out8 m c r hr).symm

/-- A buffer of index below 601: its final contents are those right after stretch 10. -/
theorem z_out10 (m : (ℓ : Loc nD τ sig) → Buf (Elt F) ℓ) (c : Dev nD) (r : Ref sig .tc) (hr : r.idx.val < 601) :
    val7 m c (Proc.devRef .tc r) = after t10 (u9 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (u11_keep m c r (Or.inl (by omega))) |>.trans <| (congrFun (u10_eq m c) _)

/-- What stretch 10 reads of an earlier buffer is that buffer's final contents. -/
theorem z_in10 (m : (ℓ : Loc nD τ sig) → Buf (Elt F) ℓ) (c : Dev nD) (r : Ref sig .tc) (hr : r.idx.val < 573) :
    u9 m c (Proc.devRef .tc r) = val7 m c (Proc.devRef .tc r) :=
  (z_out9 m c r hr).symm

/-- A buffer of index below 607: its final contents are those right after stretch 11. -/
theorem z_out11 (m : (ℓ : Loc nD τ sig) → Buf (Elt F) ℓ) (c : Dev nD) (r : Ref sig .tc) (hr : r.idx.val < 607) :
    val7 m c (Proc.devRef .tc r) = after t11 (u10 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (u12_keep m c r (Or.inl (by omega))) |>.trans <| (congrFun (u11_eq m c) _)

/-- What stretch 11 reads of an earlier buffer is that buffer's final contents. -/
theorem z_in11 (m : (ℓ : Loc nD τ sig) → Buf (Elt F) ℓ) (c : Dev nD) (r : Ref sig .tc) (hr : r.idx.val < 601) :
    u10 m c (Proc.devRef .tc r) = val7 m c (Proc.devRef .tc r) :=
  (z_out10 m c r hr).symm

/-- A buffer of index below 620: its final contents are those right after stretch 12. -/
theorem z_out12 (m : (ℓ : Loc nD τ sig) → Buf (Elt F) ℓ) (c : Dev nD) (r : Ref sig .tc) (hr : r.idx.val < 620) :
    val7 m c (Proc.devRef .tc r) = after t12 (u11 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (u13_keep m c r (Or.inl (by omega))) |>.trans <| (congrFun (u12_eq m c) _)

/-- What stretch 12 reads of an earlier buffer is that buffer's final contents. -/
theorem z_in12 (m : (ℓ : Loc nD τ sig) → Buf (Elt F) ℓ) (c : Dev nD) (r : Ref sig .tc) (hr : r.idx.val < 607) :
    u11 m c (Proc.devRef .tc r) = val7 m c (Proc.devRef .tc r) :=
  (z_out11 m c r hr).symm

/-- A buffer of index below 643: its final contents are those right after stretch 13. -/
theorem z_out13 (m : (ℓ : Loc nD τ sig) → Buf (Elt F) ℓ) (c : Dev nD) (r : Ref sig .tc) (hr : r.idx.val < 643) :
    val7 m c (Proc.devRef .tc r) = after t13 (u12 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (u14_keep m c r (Or.inl (by omega))) |>.trans <| (congrFun (u13_eq m c) _)

/-- What stretch 13 reads of an earlier buffer is that buffer's final contents. -/
theorem z_in13 (m : (ℓ : Loc nD τ sig) → Buf (Elt F) ℓ) (c : Dev nD) (r : Ref sig .tc) (hr : r.idx.val < 620) :
    u12 m c (Proc.devRef .tc r) = val7 m c (Proc.devRef .tc r) :=
  (z_out12 m c r hr).symm

/-- A buffer of index below 651: its final contents are those right after stretch 14. -/
theorem z_out14 (m : (ℓ : Loc nD τ sig) → Buf (Elt F) ℓ) (c : Dev nD) (r : Ref sig .tc) (hr : r.idx.val < 651) :
    val7 m c (Proc.devRef .tc r) = after t14 (u13 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (u15_keep m c r (Or.inl (by omega))) |>.trans <| (congrFun (u14_eq m c) _)

/-- What stretch 14 reads of an earlier buffer is that buffer's final contents. -/
theorem z_in14 (m : (ℓ : Loc nD τ sig) → Buf (Elt F) ℓ) (c : Dev nD) (r : Ref sig .tc) (hr : r.idx.val < 643) :
    u13 m c (Proc.devRef .tc r) = val7 m c (Proc.devRef .tc r) :=
  (z_out13 m c r hr).symm

/-- A buffer of index below 655: its final contents are those right after stretch 15. -/
theorem z_out15 (m : (ℓ : Loc nD τ sig) → Buf (Elt F) ℓ) (c : Dev nD) (r : Ref sig .tc) (hr : r.idx.val < 655) :
    val7 m c (Proc.devRef .tc r) = after t15 (u14 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (u16_keep m c r (Or.inl (by omega))) |>.trans <| (congrFun (u15_eq m c) _)

/-- What stretch 15 reads of an earlier buffer is that buffer's final contents. -/
theorem z_in15 (m : (ℓ : Loc nD τ sig) → Buf (Elt F) ℓ) (c : Dev nD) (r : Ref sig .tc) (hr : r.idx.val < 651) :
    u14 m c (Proc.devRef .tc r) = val7 m c (Proc.devRef .tc r) :=
  (z_out14 m c r hr).symm

/-- A buffer of index below 683: its final contents are those right after stretch 16. -/
theorem z_out16 (m : (ℓ : Loc nD τ sig) → Buf (Elt F) ℓ) (c : Dev nD) (r : Ref sig .tc) (hr : r.idx.val < 683) :
    val7 m c (Proc.devRef .tc r) = after t16 (u15 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (u17_keep m c r (Or.inl (by omega))) |>.trans <| (congrFun (u16_eq m c) _)

/-- What stretch 16 reads of an earlier buffer is that buffer's final contents. -/
theorem z_in16 (m : (ℓ : Loc nD τ sig) → Buf (Elt F) ℓ) (c : Dev nD) (r : Ref sig .tc) (hr : r.idx.val < 655) :
    u15 m c (Proc.devRef .tc r) = val7 m c (Proc.devRef .tc r) :=
  (z_out15 m c r hr).symm

/-- A buffer of index below 689: its final contents are those right after stretch 17. -/
theorem z_out17 (m : (ℓ : Loc nD τ sig) → Buf (Elt F) ℓ) (c : Dev nD) (r : Ref sig .tc) (hr : r.idx.val < 689) :
    val7 m c (Proc.devRef .tc r) = after t17 (u16 m c) (Proc.devRef .tc r) :=
  (congrFun (val7_eq_u m c) _) |>.trans <| (u20_keep m c r (Or.inl (by omega))) |>.trans <| (u19_keep m c r (Or.inl (by omega))) |>.trans <| (u18_keep m c r (Or.inl (by omega))) |>.trans <| (congrFun (u17_eq m c) _)

/-- What stretch 17 reads of an earlier buffer is that buffer's final contents. -/
theorem z_in17 (m : (ℓ : Loc nD τ sig) → Buf (Elt F) ℓ) (c : Dev nD) (r : Ref sig .tc) (hr : r.idx.val < 683) :
    u16 m c (Proc.devRef .tc r) = val7 m c (Proc.devRef .tc r) :=
  (z_out16 m c r hr).symm

/-- A buffer of index below 702: its final contents are those right after stretch 18. -/
theorem z_out18 (m : (ℓ : Loc nD τ sig) → Buf (Elt F) ℓ) (c : Dev nD) (r : Ref sig .tc) (hr : r.idx.val < 702) :
    val7 m c (Proc.devRef .tc r) = after t18 (u17 m c) (Proc.devRef .tc r) :=
  (congrFun (val7_eq_u m c) _) |>.trans <| (u20_keep m c r (Or.inl (by omega))) |>.trans <| (u19_keep m c r (Or.inl (by omega))) |>.trans <| (congrFun (u18_eq m c) _)

/-- What stretch 18 reads of an earlier buffer is that buffer's final contents. -/
theorem z_in18 (m : (ℓ : Loc nD τ sig) → Buf (Elt F) ℓ) (c : Dev nD) (r : Ref sig .tc) (hr : r.idx.val < 689) :
    u17 m c (Proc.devRef .tc r) = val7 m c (Proc.devRef .tc r) :=
  (z_out17 m c r hr).symm

/-- A buffer of index below 725: its final contents are those right after stretch 19. -/
theorem z_out19 (m : (ℓ : Loc nD τ sig) → Buf (Elt F) ℓ) (c : Dev nD) (r : Ref sig .tc) (hr : r.idx.val < 725) :
    val7 m c (Proc.devRef .tc r) = after t19 (u18 m c) (Proc.devRef .tc r) :=
  (congrFun (val7_eq_u m c) _) |>.trans <| (u20_keep m c r (Or.inl (by omega))) |>.trans <| (congrFun (u19_eq m c) _)

/-- What stretch 19 reads of an earlier buffer is that buffer's final contents. -/
theorem z_in19 (m : (ℓ : Loc nD τ sig) → Buf (Elt F) ℓ) (c : Dev nD) (r : Ref sig .tc) (hr : r.idx.val < 702) :
    u18 m c (Proc.devRef .tc r) = val7 m c (Proc.devRef .tc r) :=
  (z_out18 m c r hr).symm

/-- A buffer of index below 730: its final contents are those right after stretch 20. -/
theorem z_out20 (m : (ℓ : Loc nD τ sig) → Buf (Elt F) ℓ) (c : Dev nD) (r : Ref sig .tc) (hr : r.idx.val < 730) :
    val7 m c (Proc.devRef .tc r) = after t20 (u19 m c) (Proc.devRef .tc r) :=
  (congrFun (val7_eq_u m c) _) |>.trans <| (congrFun (u20_eq m c) _)

/-- What stretch 20 reads of an earlier buffer is that buffer's final contents. -/
theorem z_in20 (m : (ℓ : Loc nD τ sig) → Buf (Elt F) ℓ) (c : Dev nD) (r : Ref sig .tc) (hr : r.idx.val < 725) :
    u19 m c (Proc.devRef .tc r) = val7 m c (Proc.devRef .tc r) :=
  (z_out19 m c r hr).symm

end Cert.ReferenceIdeal.RefRun

end
-- ==== Proof.Ref.Read3.lean ====
/- The reference's heads and result, read. The three local blocks and the four heads are the dense layer and the head
   of the network's definition, on the three global activations; the result is the four heads stacked. Each named
   buffer is read from the short stretch that writes it, over any contents before the stretch; the same fact at the
   final contents follows because every buffer is written once; a block is its seven readings composed. Blocks 1
   and 2 and heads 1 and 2 are block 0's and head 0's text with the buffers, stretches and row renumbered. -/
import proofs.«146967_j25786983645193_1_alg».proof.Proof.Ref.Cut3
import proofs.«146967_j25786983645193_1_alg».proof.Proof.Spec.Net

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo

local notation "𝕍" => Valuation τ sig (Elt Ideal)

/-- An argument's final contents are its launch contents: no operation writes it. -/
theorem val7_arg (m : (ℓ : Loc nD τ sig) → Buf (Elt Ideal) ℓ) (c : Dev nD) (r : Ref sig .tc) (hr : r.idx.val < 20) :
    val7 (F := Ideal) m c (Proc.devRef .tc r) = m ((c.tc : Thread nD τ).loc r) :=
  (congrFun (after_ops_eq m c) _).symm.trans (after_ops_arg _ r hr)

/-- The host product of 50000 × 256 by 256 × 256, contracted on the left's second axis and the right's first, is the
    matrix product: at the ideal values, the sum over the contraction coordinate of the products. -/
theorem dot256_eq_mm (a : Vec Ideal Cert.Spec.S50000x256 .f32) (w : Vec Ideal Cert.Spec.S256x256 .f32) :
    Host.dotGeneral (F := Ideal) (φ₁ := .f32) (φ₂ := .f32) dot_S50000x256_S256x256_S50000x256_1_0_0_1_n_n none a w = Cert.Spec.mm a w := by
  funext j
  exact (Ideal.dotGeneral_apply _ none .single a w j).trans
    ((Ideal.matmul_constant_zero_apply _ none a w j).symm.trans
      (Cert.Spec.matmul_plain_zero_apply dot_S50000x256_S256x256_S50000x256_1_0_0_1_n_n rfl rfl rfl rfl rfl rfl none a w j))

/-! ## The global head -/

attribute [local irreducible] Host.reduce Host.reduceAdd Host.exp Host.log in
set_option maxRecDepth 8192 in
/-- The product with the head's weight, the bias row spread over the rows, the row log-softmax. -/
theorem st_v263 (W : 𝕍) :
    after (t0 (F := Ideal)) W (Proc.devRef .tc main_v263)
      = Cert.Spec.headR (W (Proc.devRef .tc main_v258)) (W (Proc.devRef .tc main_arg16)) (W (Proc.devRef .tc main_arg17)) := by
  after_results_simp
  rfl
theorem z_v263 (m : (ℓ : Loc nD τ sig) → Buf (Elt Ideal) ℓ) (c : Dev nD) :
    val7 (F := Ideal) m c (Proc.devRef .tc main_v263) = Cert.Spec.headR (val7 (F := Ideal) m c (Proc.devRef .tc main_v258)) (m ((c.tc : Thread nD τ).loc main_arg16)) (m ((c.tc : Thread nD τ).loc main_arg17)) := by
  rw [z_out0 m c main_v263 (by decide), st_v263, z_in0 m c main_v258 (by decide), z_in0 m c main_arg16 (by decide), z_in0 m c main_arg17 (by decide), val7_arg m c main_arg16 (by decide), val7_arg m c main_arg17 (by decide)]

/-! ## Local block 0: from v192 to v295 -/

/-- The linear part: the product with matrix 0 of the local weights, plus bias row 0 spread over the rows. -/
theorem st_v271 (W : 𝕍) :
    after (t1 (F := Ideal)) W (Proc.devRef .tc main_v271)
      = addf (F := Ideal) (φ := .f32)
          (Host.dotGeneral (F := Ideal) (φ₁ := .f32) (φ₂ := .f32) dot_S50000x256_S256x256_S50000x256_1_0_0_1_n_n none
            (W (Proc.devRef .tc main_v192)) (Cert.Spec.mat3 (W (Proc.devRef .tc main_arg12)) 0 (by decide)))
          (Cert.Spec.spread (Cert.Spec.row3 (W (Proc.devRef .tc main_arg13)) 0 (by decide))) := by
  after_results_simp
  rfl

/-- The scale row and the shift row. -/
theorem st_v273 (W : 𝕍) :
    after (t2 (F := Ideal)) W (Proc.devRef .tc main_v273) = Cert.Spec.row3 (W (Proc.devRef .tc main_arg14)) 0 (by decide) := by
  after_results_simp
  rfl
theorem st_v275 (W : 𝕍) :
    after (t2 (F := Ideal)) W (Proc.devRef .tc main_v275) = Cert.Spec.row3 (W (Proc.devRef .tc main_arg15)) 0 (by decide) := by
  after_results_simp
  rfl

/-- The column means and the column variances of the linear part. -/
theorem st_v278 (W : 𝕍) :
    after (t3 (F := Ideal)) W (Proc.devRef .tc main_v278) = Cert.Spec.meanR (W (Proc.devRef .tc main_v271)) := by
  after_results_simp
  rfl
theorem st_v279 (W : 𝕍) :
    after (t3 (F := Ideal)) W (Proc.devRef .tc main_v279) = Cert.Spec.varR (W (Proc.devRef .tc main_v271)) := by
  after_results_simp
  rfl

/-- The scale times the centred linear part. -/
theorem st_v285 (W : 𝕍) :
    after (t4 (F := Ideal)) W (Proc.devRef .tc main_v285)
      = mulf (F := Ideal) (φ := .f32) (Cert.Spec.spread (W (Proc.devRef .tc main_v273)))
          (subf (F := Ideal) (φ := .f32) (W (Proc.devRef .tc main_v271)) (Cert.Spec.spread (W (Proc.devRef .tc main_v278)))) := by
  after_results_simp
  rfl

/-- Times the reciprocal square root of the variance plus ε, plus the shift, then the maximum with zero. -/
theorem st_v295 (W : 𝕍) :
    after (t5 (F := Ideal)) W (Proc.devRef .tc main_v295)
      = Cert.Spec.reluR (addf (F := Ideal) (φ := .f32)
          (mulf (F := Ideal) (φ := .f32) (W (Proc.devRef .tc main_v285))
            (Cert.Spec.spread (Host.rsqrt (F := Ideal) (φ := .f32) (addf (F := Ideal) (φ := .f32) (W (Proc.devRef .tc main_v279)) (broadcastInDim Cert.Spec.S256 ![] Cert.Spec.bcast_S_S256 (constant (F := Ideal) Cert.Spec.S_ .f32 0x3727C5AC#32))))))
          (Cert.Spec.spread (W (Proc.devRef .tc main_v275)))) := by
  after_results_simp
  rfl

section
variable (m : (ℓ : Loc nD τ sig) → Buf (Elt Ideal) ℓ) (c : Dev nD)

theorem z_v271 :
    val7 (F := Ideal) m c (Proc.devRef .tc main_v271)
      = addf (F := Ideal) (φ := .f32) (Cert.Spec.mm (val7 (F := Ideal) m c (Proc.devRef .tc main_v192)) (Cert.Spec.mat3 (m ((c.tc : Thread nD τ).loc main_arg12)) 0 (by decide)))
          (Cert.Spec.spread (Cert.Spec.row3 (m ((c.tc : Thread nD τ).loc main_arg13)) 0 (by decide))) := by
  rw [z_out1 m c main_v271 (by decide), st_v271, dot256_eq_mm, z_in1 m c main_v192 (by decide), z_in1 m c main_arg12 (by decide), z_in1 m c main_arg13 (by decide), val7_arg m c main_arg12 (by decide), val7_arg m c main_arg13 (by decide)]
theorem z_v273 : val7 (F := Ideal) m c (Proc.devRef .tc main_v273) = Cert.Spec.row3 (m ((c.tc : Thread nD τ).loc main_arg14)) 0 (by decide) := by
  rw [z_out2 m c main_v273 (by decide), st_v273, z_in2 m c main_arg14 (by decide), val7_arg m c main_arg14 (by decide)]
theorem z_v275 : val7 (F := Ideal) m c (Proc.devRef .tc main_v275) = Cert.Spec.row3 (m ((c.tc : Thread nD τ).loc main_arg15)) 0 (by decide) := by
  rw [z_out2 m c main_v275 (by decide), st_v275, z_in2 m c main_arg15 (by decide), val7_arg m c main_arg15 (by decide)]
theorem z_v278 : val7 (F := Ideal) m c (Proc.devRef .tc main_v278) = Cert.Spec.meanR (val7 (F := Ideal) m c (Proc.devRef .tc main_v271)) := by
  rw [z_out3 m c main_v278 (by decide), st_v278, z_in3 m c main_v271 (by decide)]
theorem z_v279 : val7 (F := Ideal) m c (Proc.devRef .tc main_v279) = Cert.Spec.varR (val7 (F := Ideal) m c (Proc.devRef .tc main_v271)) := by
  rw [z_out3 m c main_v279 (by decide), st_v279, z_in3 m c main_v271 (by decide)]
theorem z_v285 :
    val7 (F := Ideal) m c (Proc.devRef .tc main_v285)
      = mulf (F := Ideal) (φ := .f32) (Cert.Spec.spread (val7 (F := Ideal) m c (Proc.devRef .tc main_v273)))
          (subf (F := Ideal) (φ := .f32) (val7 (F := Ideal) m c (Proc.devRef .tc main_v271)) (Cert.Spec.spread (val7 (F := Ideal) m c (Proc.devRef .tc main_v278)))) := by
  rw [z_out4 m c main_v285 (by decide), st_v285, z_in4 m c main_v273 (by decide), z_in4 m c main_v271 (by decide), z_in4 m c main_v278 (by decide)]
theorem z_v295 :
    val7 (F := Ideal) m c (Proc.devRef .tc main_v295)
      = Cert.Spec.reluR (addf (F := Ideal) (φ := .f32)
          (mulf (F := Ideal) (φ := .f32) (val7 (F := Ideal) m c (Proc.devRef .tc main_v285))
            (Cert.Spec.spread (Host.rsqrt (F := Ideal) (φ := .f32) (addf (F := Ideal) (φ := .f32) (val7 (F := Ideal) m c (Proc.devRef .tc main_v279)) (broadcastInDim Cert.Spec.S256 ![] Cert.Spec.bcast_S_S256 (constant (F := Ideal) Cert.Spec.S_ .f32 0x3727C5AC#32))))))
          (Cert.Spec.spread (val7 (F := Ideal) m c (Proc.devRef .tc main_v275)))) := by
  rw [z_out5 m c main_v295 (by decide), st_v295, z_in5 m c main_v285 (by decide), z_in5 m c main_v279 (by decide), z_in5 m c main_v275 (by decide)]

/-- Local block 0 is the dense layer on v192: the seven readings composed are the block unfolded. -/
theorem z_hl0 :
    val7 (F := Ideal) m c (Proc.devRef .tc main_v295)
      = Cert.Spec.denseR (val7 (F := Ideal) m c (Proc.devRef .tc main_v192)) (Cert.Spec.mat3 (m ((c.tc : Thread nD τ).loc main_arg12)) 0 (by decide)) (Cert.Spec.row3 (m ((c.tc : Thread nD τ).loc main_arg13)) 0 (by decide))
          (Cert.Spec.row3 (m ((c.tc : Thread nD τ).loc main_arg14)) 0 (by decide)) (Cert.Spec.row3 (m ((c.tc : Thread nD τ).loc main_arg15)) 0 (by decide)) := by
  rw [z_v295 m c, z_v285 m c, z_v279 m c, z_v278 m c, z_v275 m c, z_v273 m c, z_v271 m c]
  rfl
end

attribute [local irreducible] Host.reduce Host.reduceAdd Host.exp Host.log in
set_option maxRecDepth 8192 in
/-- Local head 0: the product with matrix 0 of the heads' weights, bias row 0 spread, the row log-softmax. -/
theorem st_v304 (W : 𝕍) :
    after (t6 (F := Ideal)) W (Proc.devRef .tc main_v304)
      = Cert.Spec.headR (W (Proc.devRef .tc main_v295)) (Cert.Spec.mat3o (W (Proc.devRef .tc main_arg18)) 0 (by decide))
          (Cert.Spec.row3o (W (Proc.devRef .tc main_arg19)) 0 (by decide)) := by
  after_results_simp
  rfl
theorem z_v304 (m : (ℓ : Loc nD τ sig) → Buf (Elt Ideal) ℓ) (c : Dev nD) :
    val7 (F := Ideal) m c (Proc.devRef .tc main_v304)
      = Cert.Spec.headR (val7 (F := Ideal) m c (Proc.devRef .tc main_v295)) (Cert.Spec.mat3o (m ((c.tc : Thread nD τ).loc main_arg18)) 0 (by decide)) (Cert.Spec.row3o (m ((c.tc : Thread nD τ).loc main_arg19)) 0 (by decide)) := by
  rw [z_out6 m c main_v304 (by decide), st_v304, z_in6 m c main_v295 (by decide), z_in6 m c main_arg18 (by decide), z_in6 m c main_arg19 (by decide), val7_arg m c main_arg18 (by decide), val7_arg m c main_arg19 (by decide)]

/-! ## Local block 1: from v225 to v336 -/

/-- The linear part: the product with matrix 1 of the local weights, plus bias row 1 spread over the rows. -/
theorem st_v312 (W : 𝕍) :
    after (t7 (F := Ideal)) W (Proc.devRef .tc main_v312)
      = addf (F := Ideal) (φ := .f32)
          (Host.dotGeneral (F := Ideal) (φ₁ := .f32) (φ₂ := .f32) dot_S50000x256_S256x256_S50000x256_1_0_0_1_n_n none
            (W (Proc.devRef .tc main_v225)) (Cert.Spec.mat3 (W (Proc.devRef .tc main_arg12)) 1 (by decide)))
          (Cert.Spec.spread (Cert.Spec.row3 (W (Proc.devRef .tc main_arg13)) 1 (by decide))) := by
  after_results_simp
  rfl

/-- The scale row and the shift row. -/
theorem st_v314 (W : 𝕍) :
    after (t8 (F := Ideal)) W (Proc.devRef .tc main_v314) = Cert.Spec.row3 (W (Proc.devRef .tc main_arg14)) 1 (by decide) := by
  after_results_simp
  rfl
theorem st_v316 (W : 𝕍) :
    after (t9 (F := Ideal)) W (Proc.devRef .tc main_v316) = Cert.Spec.row3 (W (Proc.devRef .tc main_arg15)) 1 (by decide) := by
  after_results_simp
  rfl

/-- The column means and the column variances of the linear part. -/
theorem st_v319 (W : 𝕍) :
    after (t10 (F := Ideal)) W (Proc.devRef .tc main_v319) = Cert.Spec.meanR (W (Proc.devRef .tc main_v312)) := by
  after_results_simp
  rfl
theorem st_v320 (W : 𝕍) :
    after (t10 (F := Ideal)) W (Proc.devRef .tc main_v320) = Cert.Spec.varR (W (Proc.devRef .tc main_v312)) := by
  after_results_simp
  rfl

/-- The scale times the centred linear part. -/
theorem st_v326 (W : 𝕍) :
    after (t11 (F := Ideal)) W (Proc.devRef .tc main_v326)
      = mulf (F := Ideal) (φ := .f32) (Cert.Spec.spread (W (Proc.devRef .tc main_v314)))
          (subf (F := Ideal) (φ := .f32) (W (Proc.devRef .tc main_v312)) (Cert.Spec.spread (W (Proc.devRef .tc main_v319)))) := by
  after_results_simp
  rfl

/-- Times the reciprocal square root of the variance plus ε, plus the shift, then the maximum with zero. -/
theorem st_v336 (W : 𝕍) :
    after (t12 (F := Ideal)) W (Proc.devRef .tc main_v336)
      = Cert.Spec.reluR (addf (F := Ideal) (φ := .f32)
          (mulf (F := Ideal) (φ := .f32) (W (Proc.devRef .tc main_v326))
            (Cert.Spec.spread (Host.rsqrt (F := Ideal) (φ := .f32) (addf (F := Ideal) (φ := .f32) (W (Proc.devRef .tc main_v320)) (broadcastInDim Cert.Spec.S256 ![] Cert.Spec.bcast_S_S256 (constant (F := Ideal) Cert.Spec.S_ .f32 0x3727C5AC#32))))))
          (Cert.Spec.spread (W (Proc.devRef .tc main_v316)))) := by
  after_results_simp
  rfl

section
variable (m : (ℓ : Loc nD τ sig) → Buf (Elt Ideal) ℓ) (c : Dev nD)

theorem z_v312 :
    val7 (F := Ideal) m c (Proc.devRef .tc main_v312)
      = addf (F := Ideal) (φ := .f32) (Cert.Spec.mm (val7 (F := Ideal) m c (Proc.devRef .tc main_v225)) (Cert.Spec.mat3 (m ((c.tc : Thread nD τ).loc main_arg12)) 1 (by decide)))
          (Cert.Spec.spread (Cert.Spec.row3 (m ((c.tc : Thread nD τ).loc main_arg13)) 1 (by decide))) := by
  rw [z_out7 m c main_v312 (by decide), st_v312, dot256_eq_mm, z_in7 m c main_v225 (by decide), z_in7 m c main_arg12 (by decide), z_in7 m c main_arg13 (by decide), val7_arg m c main_arg12 (by decide), val7_arg m c main_arg13 (by decide)]
theorem z_v314 : val7 (F := Ideal) m c (Proc.devRef .tc main_v314) = Cert.Spec.row3 (m ((c.tc : Thread nD τ).loc main_arg14)) 1 (by decide) := by
  rw [z_out8 m c main_v314 (by decide), st_v314, z_in8 m c main_arg14 (by decide), val7_arg m c main_arg14 (by decide)]
theorem z_v316 : val7 (F := Ideal) m c (Proc.devRef .tc main_v316) = Cert.Spec.row3 (m ((c.tc : Thread nD τ).loc main_arg15)) 1 (by decide) := by
  rw [z_out9 m c main_v316 (by decide), st_v316, z_in9 m c main_arg15 (by decide), val7_arg m c main_arg15 (by decide)]
theorem z_v319 : val7 (F := Ideal) m c (Proc.devRef .tc main_v319) = Cert.Spec.meanR (val7 (F := Ideal) m c (Proc.devRef .tc main_v312)) := by
  rw [z_out10 m c main_v319 (by decide), st_v319, z_in10 m c main_v312 (by decide)]
theorem z_v320 : val7 (F := Ideal) m c (Proc.devRef .tc main_v320) = Cert.Spec.varR (val7 (F := Ideal) m c (Proc.devRef .tc main_v312)) := by
  rw [z_out10 m c main_v320 (by decide), st_v320, z_in10 m c main_v312 (by decide)]
theorem z_v326 :
    val7 (F := Ideal) m c (Proc.devRef .tc main_v326)
      = mulf (F := Ideal) (φ := .f32) (Cert.Spec.spread (val7 (F := Ideal) m c (Proc.devRef .tc main_v314)))
          (subf (F := Ideal) (φ := .f32) (val7 (F := Ideal) m c (Proc.devRef .tc main_v312)) (Cert.Spec.spread (val7 (F := Ideal) m c (Proc.devRef .tc main_v319)))) := by
  rw [z_out11 m c main_v326 (by decide), st_v326, z_in11 m c main_v314 (by decide), z_in11 m c main_v312 (by decide), z_in11 m c main_v319 (by decide)]
theorem z_v336 :
    val7 (F := Ideal) m c (Proc.devRef .tc main_v336)
      = Cert.Spec.reluR (addf (F := Ideal) (φ := .f32)
          (mulf (F := Ideal) (φ := .f32) (val7 (F := Ideal) m c (Proc.devRef .tc main_v326))
            (Cert.Spec.spread (Host.rsqrt (F := Ideal) (φ := .f32) (addf (F := Ideal) (φ := .f32) (val7 (F := Ideal) m c (Proc.devRef .tc main_v320)) (broadcastInDim Cert.Spec.S256 ![] Cert.Spec.bcast_S_S256 (constant (F := Ideal) Cert.Spec.S_ .f32 0x3727C5AC#32))))))
          (Cert.Spec.spread (val7 (F := Ideal) m c (Proc.devRef .tc main_v316)))) := by
  rw [z_out12 m c main_v336 (by decide), st_v336, z_in12 m c main_v326 (by decide), z_in12 m c main_v320 (by decide), z_in12 m c main_v316 (by decide)]

/-- Local block 1 is the dense layer on v225: the seven readings composed are the block unfolded. -/
theorem z_hl1 :
    val7 (F := Ideal) m c (Proc.devRef .tc main_v336)
      = Cert.Spec.denseR (val7 (F := Ideal) m c (Proc.devRef .tc main_v225)) (Cert.Spec.mat3 (m ((c.tc : Thread nD τ).loc main_arg12)) 1 (by decide)) (Cert.Spec.row3 (m ((c.tc : Thread nD τ).loc main_arg13)) 1 (by decide))
          (Cert.Spec.row3 (m ((c.tc : Thread nD τ).loc main_arg14)) 1 (by decide)) (Cert.Spec.row3 (m ((c.tc : Thread nD τ).loc main_arg15)) 1 (by decide)) := by
  rw [z_v336 m c, z_v326 m c, z_v320 m c, z_v319 m c, z_v316 m c, z_v314 m c, z_v312 m c]
  rfl
end

attribute [local irreducible] Host.reduce Host.reduceAdd Host.exp Host.log in
set_option maxRecDepth 8192 in
/-- Local head 1: the product with matrix 1 of the heads' weights, bias row 1 spread, the row log-softmax. -/
theorem st_v345 (W : 𝕍) :
    after (t13 (F := Ideal)) W (Proc.devRef .tc main_v345)
      = Cert.Spec.headR (W (Proc.devRef .tc main_v336)) (Cert.Spec.mat3o (W (Proc.devRef .tc main_arg18)) 1 (by decide))
          (Cert.Spec.row3o (W (Proc.devRef .tc main_arg19)) 1 (by decide)) := by
  after_results_simp
  rfl
theorem z_v345 (m : (ℓ : Loc nD τ sig) → Buf (Elt Ideal) ℓ) (c : Dev nD) :
    val7 (F := Ideal) m c (Proc.devRef .tc main_v345)
      = Cert.Spec.headR (val7 (F := Ideal) m c (Proc.devRef .tc main_v336)) (Cert.Spec.mat3o (m ((c.tc : Thread nD τ).loc main_arg18)) 1 (by decide)) (Cert.Spec.row3o (m ((c.tc : Thread nD τ).loc main_arg19)) 1 (by decide)) := by
  rw [z_out13 m c main_v345 (by decide), st_v345, z_in13 m c main_v336 (by decide), z_in13 m c main_arg18 (by decide), z_in13 m c main_arg19 (by decide), val7_arg m c main_arg18 (by decide), val7_arg m c main_arg19 (by decide)]

/-! ## Local block 2: from v258 to v377 -/

/-- The linear part: the product with matrix 2 of the local weights, plus bias row 2 spread over the rows. -/
theorem st_v353 (W : 𝕍) :
    after (t14 (F := Ideal)) W (Proc.devRef .tc main_v353)
      = addf (F := Ideal) (φ := .f32)
          (Host.dotGeneral (F := Ideal) (φ₁ := .f32) (φ₂ := .f32) dot_S50000x256_S256x256_S50000x256_1_0_0_1_n_n none
            (W (Proc.devRef .tc main_v258)) (Cert.Spec.mat3 (W (Proc.devRef .tc main_arg12)) 2 (by decide)))
          (Cert.Spec.spread (Cert.Spec.row3 (W (Proc.devRef .tc main_arg13)) 2 (by decide))) := by
  after_results_simp
  rfl

/-- The scale row and the shift row. -/
theorem st_v355 (W : 𝕍) :
    after (t15 (F := Ideal)) W (Proc.devRef .tc main_v355) = Cert.Spec.row3 (W (Proc.devRef .tc main_arg14)) 2 (by decide) := by
  after_results_simp
  rfl
theorem st_v357 (W : 𝕍) :
    after (t15 (F := Ideal)) W (Proc.devRef .tc main_v357) = Cert.Spec.row3 (W (Proc.devRef .tc main_arg15)) 2 (by decide) := by
  after_results_simp
  rfl

/-- The column means and the column variances of the linear part. -/
theorem st_v360 (W : 𝕍) :
    after (t16 (F := Ideal)) W (Proc.devRef .tc main_v360) = Cert.Spec.meanR (W (Proc.devRef .tc main_v353)) := by
  after_results_simp
  rfl
theorem st_v361 (W : 𝕍) :
    after (t16 (F := Ideal)) W (Proc.devRef .tc main_v361) = Cert.Spec.varR (W (Proc.devRef .tc main_v353)) := by
  after_results_simp
  rfl

/-- The scale times the centred linear part. -/
theorem st_v367 (W : 𝕍) :
    after (t17 (F := Ideal)) W (Proc.devRef .tc main_v367)
      = mulf (F := Ideal) (φ := .f32) (Cert.Spec.spread (W (Proc.devRef .tc main_v355)))
          (subf (F := Ideal) (φ := .f32) (W (Proc.devRef .tc main_v353)) (Cert.Spec.spread (W (Proc.devRef .tc main_v360)))) := by
  after_results_simp
  rfl

/-- Times the reciprocal square root of the variance plus ε, plus the shift, then the maximum with zero. -/
theorem st_v377 (W : 𝕍) :
    after (t18 (F := Ideal)) W (Proc.devRef .tc main_v377)
      = Cert.Spec.reluR (addf (F := Ideal) (φ := .f32)
          (mulf (F := Ideal) (φ := .f32) (W (Proc.devRef .tc main_v367))
            (Cert.Spec.spread (Host.rsqrt (F := Ideal) (φ := .f32) (addf (F := Ideal) (φ := .f32) (W (Proc.devRef .tc main_v361)) (broadcastInDim Cert.Spec.S256 ![] Cert.Spec.bcast_S_S256 (constant (F := Ideal) Cert.Spec.S_ .f32 0x3727C5AC#32))))))
          (Cert.Spec.spread (W (Proc.devRef .tc main_v357)))) := by
  after_results_simp
  rfl

section
variable (m : (ℓ : Loc nD τ sig) → Buf (Elt Ideal) ℓ) (c : Dev nD)

theorem z_v353 :
    val7 (F := Ideal) m c (Proc.devRef .tc main_v353)
      = addf (F := Ideal) (φ := .f32) (Cert.Spec.mm (val7 (F := Ideal) m c (Proc.devRef .tc main_v258)) (Cert.Spec.mat3 (m ((c.tc : Thread nD τ).loc main_arg12)) 2 (by decide)))
          (Cert.Spec.spread (Cert.Spec.row3 (m ((c.tc : Thread nD τ).loc main_arg13)) 2 (by decide))) := by
  rw [z_out14 m c main_v353 (by decide), st_v353, dot256_eq_mm, z_in14 m c main_v258 (by decide), z_in14 m c main_arg12 (by decide), z_in14 m c main_arg13 (by decide), val7_arg m c main_arg12 (by decide), val7_arg m c main_arg13 (by decide)]
theorem z_v355 : val7 (F := Ideal) m c (Proc.devRef .tc main_v355) = Cert.Spec.row3 (m ((c.tc : Thread nD τ).loc main_arg14)) 2 (by decide) := by
  rw [z_out15 m c main_v355 (by decide), st_v355, z_in15 m c main_arg14 (by decide), val7_arg m c main_arg14 (by decide)]
theorem z_v357 : val7 (F := Ideal) m c (Proc.devRef .tc main_v357) = Cert.Spec.row3 (m ((c.tc : Thread nD τ).loc main_arg15)) 2 (by decide) := by
  rw [z_out15 m c main_v357 (by decide), st_v357, z_in15 m c main_arg15 (by decide), val7_arg m c main_arg15 (by decide)]
theorem z_v360 : val7 (F := Ideal) m c (Proc.devRef .tc main_v360) = Cert.Spec.meanR (val7 (F := Ideal) m c (Proc.devRef .tc main_v353)) := by
  rw [z_out16 m c main_v360 (by decide), st_v360, z_in16 m c main_v353 (by decide)]
theorem z_v361 : val7 (F := Ideal) m c (Proc.devRef .tc main_v361) = Cert.Spec.varR (val7 (F := Ideal) m c (Proc.devRef .tc main_v353)) := by
  rw [z_out16 m c main_v361 (by decide), st_v361, z_in16 m c main_v353 (by decide)]
theorem z_v367 :
    val7 (F := Ideal) m c (Proc.devRef .tc main_v367)
      = mulf (F := Ideal) (φ := .f32) (Cert.Spec.spread (val7 (F := Ideal) m c (Proc.devRef .tc main_v355)))
          (subf (F := Ideal) (φ := .f32) (val7 (F := Ideal) m c (Proc.devRef .tc main_v353)) (Cert.Spec.spread (val7 (F := Ideal) m c (Proc.devRef .tc main_v360)))) := by
  rw [z_out17 m c main_v367 (by decide), st_v367, z_in17 m c main_v355 (by decide), z_in17 m c main_v353 (by decide), z_in17 m c main_v360 (by decide)]
theorem z_v377 :
    val7 (F := Ideal) m c (Proc.devRef .tc main_v377)
      = Cert.Spec.reluR (addf (F := Ideal) (φ := .f32)
          (mulf (F := Ideal) (φ := .f32) (val7 (F := Ideal) m c (Proc.devRef .tc main_v367))
            (Cert.Spec.spread (Host.rsqrt (F := Ideal) (φ := .f32) (addf (F := Ideal) (φ := .f32) (val7 (F := Ideal) m c (Proc.devRef .tc main_v361)) (broadcastInDim Cert.Spec.S256 ![] Cert.Spec.bcast_S_S256 (constant (F := Ideal) Cert.Spec.S_ .f32 0x3727C5AC#32))))))
          (Cert.Spec.spread (val7 (F := Ideal) m c (Proc.devRef .tc main_v357)))) := by
  rw [z_out18 m c main_v377 (by decide), st_v377, z_in18 m c main_v367 (by decide), z_in18 m c main_v361 (by decide), z_in18 m c main_v357 (by decide)]

/-- Local block 2 is the dense layer on v258: the seven readings composed are the block unfolded. -/
theorem z_hl2 :
    val7 (F := Ideal) m c (Proc.devRef .tc main_v377)
      = Cert.Spec.denseR (val7 (F := Ideal) m c (Proc.devRef .tc main_v258)) (Cert.Spec.mat3 (m ((c.tc : Thread nD τ).loc main_arg12)) 2 (by decide)) (Cert.Spec.row3 (m ((c.tc : Thread nD τ).loc main_arg13)) 2 (by decide))
          (Cert.Spec.row3 (m ((c.tc : Thread nD τ).loc main_arg14)) 2 (by decide)) (Cert.Spec.row3 (m ((c.tc : Thread nD τ).loc main_arg15)) 2 (by decide)) := by
  rw [z_v377 m c, z_v367 m c, z_v361 m c, z_v360 m c, z_v357 m c, z_v355 m c, z_v353 m c]
  rfl
end

attribute [local irreducible] Host.reduce Host.reduceAdd Host.exp Host.log in
set_option maxRecDepth 8192 in
/-- Local head 2: the product with matrix 2 of the heads' weights, bias row 2 spread, the row log-softmax. -/
theorem st_v386 (W : 𝕍) :
    after (t19 (F := Ideal)) W (Proc.devRef .tc main_v386)
      = Cert.Spec.headR (W (Proc.devRef .tc main_v377)) (Cert.Spec.mat3o (W (Proc.devRef .tc main_arg18)) 2 (by decide))
          (Cert.Spec.row3o (W (Proc.devRef .tc main_arg19)) 2 (by decide)) := by
  after_results_simp
  rfl
theorem z_v386 (m : (ℓ : Loc nD τ sig) → Buf (Elt Ideal) ℓ) (c : Dev nD) :
    val7 (F := Ideal) m c (Proc.devRef .tc main_v386)
      = Cert.Spec.headR (val7 (F := Ideal) m c (Proc.devRef .tc main_v377)) (Cert.Spec.mat3o (m ((c.tc : Thread nD τ).loc main_arg18)) 2 (by decide)) (Cert.Spec.row3o (m ((c.tc : Thread nD τ).loc main_arg19)) 2 (by decide)) := by
  rw [z_out19 m c main_v386 (by decide), st_v386, z_in19 m c main_v377 (by decide), z_in19 m c main_arg18 (by decide), z_in19 m c main_arg19 (by decide), val7_arg m c main_arg18 (by decide), val7_arg m c main_arg19 (by decide)]

/-! ## The result -/

/-- The four heads, each given a leading axis of size one, concatenated along it. -/
theorem st_v391 (W : 𝕍) :
    after (t20 (F := Ideal)) W (Proc.devRef .tc main_v391)
      = Cert.Spec.stack4 (W (Proc.devRef .tc main_v263)) (W (Proc.devRef .tc main_v304)) (W (Proc.devRef .tc main_v345)) (W (Proc.devRef .tc main_v386)) := by
  after_results_simp
  rfl
theorem z_v391 (m : (ℓ : Loc nD τ sig) → Buf (Elt Ideal) ℓ) (c : Dev nD) :
    val7 (F := Ideal) m c (Proc.devRef .tc main_v391) = Cert.Spec.stack4 (val7 (F := Ideal) m c (Proc.devRef .tc main_v263)) (val7 (F := Ideal) m c (Proc.devRef .tc main_v304)) (val7 (F := Ideal) m c (Proc.devRef .tc main_v345)) (val7 (F := Ideal) m c (Proc.devRef .tc main_v386)) := by
  rw [z_out20 m c main_v391 (by decide), st_v391, z_in20 m c main_v263 (by decide), z_in20 m c main_v304 (by decide), z_in20 m c main_v345 (by decide), z_in20 m c main_v386 (by decide)]

/-- The reference's result, from the three global activations and the arguments: the global head on the last
    activation, and on each activation its local dense layer and head; stacked. -/
theorem readR_out (m : (ℓ : Loc nD τ sig) → Buf (Elt Ideal) ℓ) (c : Dev nD) :
    val7 (F := Ideal) m c (Proc.devRef .tc main_v391)
      = Cert.Spec.stack4
        (Cert.Spec.headR (val7 (F := Ideal) m c (Proc.devRef .tc main_v258)) (m ((c.tc : Thread nD τ).loc main_arg16)) (m ((c.tc : Thread nD τ).loc main_arg17)))
        (Cert.Spec.headR (Cert.Spec.denseR (val7 (F := Ideal) m c (Proc.devRef .tc main_v192)) (Cert.Spec.mat3 (m ((c.tc : Thread nD τ).loc main_arg12)) 0 (by decide)) (Cert.Spec.row3 (m ((c.tc : Thread nD τ).loc main_arg13)) 0 (by decide))
            (Cert.Spec.row3 (m ((c.tc : Thread nD τ).loc main_arg14)) 0 (by decide)) (Cert.Spec.row3 (m ((c.tc : Thread nD τ).loc main_arg15)) 0 (by decide)))
          (Cert.Spec.mat3o (m ((c.tc : Thread nD τ).loc main_arg18)) 0 (by decide)) (Cert.Spec.row3o (m ((c.tc : Thread nD τ).loc main_arg19)) 0 (by decide)))
        (Cert.Spec.headR (Cert.Spec.denseR (val7 (F := Ideal) m c (Proc.devRef .tc main_v225)) (Cert.Spec.mat3 (m ((c.tc : Thread nD τ).loc main_arg12)) 1 (by decide)) (Cert.Spec.row3 (m ((c.tc : Thread nD τ).loc main_arg13)) 1 (by decide))
            (Cert.Spec.row3 (m ((c.tc : Thread nD τ).loc main_arg14)) 1 (by decide)) (Cert.Spec.row3 (m ((c.tc : Thread nD τ).loc main_arg15)) 1 (by decide)))
          (Cert.Spec.mat3o (m ((c.tc : Thread nD τ).loc main_arg18)) 1 (by decide)) (Cert.Spec.row3o (m ((c.tc : Thread nD τ).loc main_arg19)) 1 (by decide)))
        (Cert.Spec.headR (Cert.Spec.denseR (val7 (F := Ideal) m c (Proc.devRef .tc main_v258)) (Cert.Spec.mat3 (m ((c.tc : Thread nD τ).loc main_arg12)) 2 (by decide)) (Cert.Spec.row3 (m ((c.tc : Thread nD τ).loc main_arg13)) 2 (by decide))
            (Cert.Spec.row3 (m ((c.tc : Thread nD τ).loc main_arg14)) 2 (by decide)) (Cert.Spec.row3 (m ((c.tc : Thread nD τ).loc main_arg15)) 2 (by decide)))
          (Cert.Spec.mat3o (m ((c.tc : Thread nD τ).loc main_arg18)) 2 (by decide)) (Cert.Spec.row3o (m ((c.tc : Thread nD τ).loc main_arg19)) 2 (by decide))) := by
  rw [z_v391 m c, z_v263 m c, z_v304 m c, z_v345 m c, z_v386 m c, z_hl0 m c, z_hl1 m c, z_hl2 m c]

end Cert.ReferenceIdeal.RefRun

end
-- ==== Proof.Ref.Value.lean ====
/- THE REFERENCE'S VALUE at the ideal values: the result buffer after the run, as ONE function of the twenty argument
   arrays — the network written the two-pass way (Spec/Net.lean netR). The reference is a straight line of host
   operations, read window by window; the readers give each stage's buffer, in the last window's valuation, as its
   function of the stage before, and this module substitutes them into one another. -/
import proofs.«146967_j25786983645193_1_alg».proof.Proof.Ref.Ops
import proofs.«146967_j25786983645193_1_alg».proof.Proof.Ref.Read1
import proofs.«146967_j25786983645193_1_alg».proof.Proof.Ref.Read2
import proofs.«146967_j25786983645193_1_alg».proof.Proof.Ref.Read3
import proofs.«146967_j25786983645193_1_alg».proof.Proof.Spec.Net

noncomputable section

namespace Cert.ReferenceIdeal.RefRun

open Cert.ReferenceIdeal Cert.ReferenceIdeal.Gen Idealize.ShloMosaic Idealize.ShloMosaic.TcCoe Idealize.SL.Sem Idealize.ShloMosaic.StableHlo

/-- THE RESULT BUFFER after the reference's run — the fold of all its operations over the launch contents, read at the
    result — is the network, the two-pass way, of the twenty arguments as launched: the fold is the last window's
    valuation; there the result is the four heads stacked over the global path's three steps, each step its dense layer
    over the step before beside the graph layers' result, and that result the three graph layers of the arguments; the
    stages substituted into one another from the last to the first leave the network's own definition with its
    intermediate results named. -/
theorem ref_value (m : (ℓ : Loc nD τ sig) → Buf (Elt Ideal) ℓ) (c : Dev nD) :
    StableHlo.after ops (fun b => m (c, b)) (Proc.devRef .tc main_v391)
      = Cert.Spec.netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [after_ops_eq m c, readR_out m c, readR_xg2 m c, readR_xg1 m c, readR_xg0 m c, readR_h3_end m c]
  rfl

end Cert.ReferenceIdeal.RefRun

end
-- ==== Proof.PreReal.lean ====
/- From the precondition to real-valued arguments.

   The precondition is a predicate of the twenty argument arrays. For each of the nineteen float arrays `a` it
   compares `|a i|` with the float32 word `0x7F800000` (plus infinity) at every index, reduces the comparisons
   over all axes by `and` starting from 1, and conjoins the nineteen results by `and`; the integer array takes no
   part. At the ideal values a float is an extended real, `|x|` is `max x (-x)`, the word `0x7F800000` is `⊤`,
   and the comparison is the order's `<`. So the predicate being all ones says `max (a i) (-(a i)) < ⊤` for every
   float array `a` and every index `i`, and an extended real `x` with `max x (-x) < ⊤` is neither `⊤` nor `⊥`: it is
   a real. -/
import proofs.«146967_j25786983645193_1_alg».proof.Pre_finite_inputs
import proofs.«146967_j25786983645193_1_alg».proof.Proof.Gen.Pre_finite_inputs
import proofs.«146967_j25786983645193_1_alg».proof.Defs
import Idealize.ShloMosaic.Lib.ReduceAll
import Idealize.ShloMosaic.Lib.ValueIdx

noncomputable section

namespace Cert.PreReal

open Idealize.ShloMosaic Idealize.SL.Sem Cert.Pre_finite_inputs

/-- The shape of rank zero has exactly one index. -/
instance : Subsingleton S_.Idx := ⟨fun a b => funext fun d => d.elim0⟩

/-- The float32 word `0x7F800000` (exponent all ones, significand zero, sign clear) is plus infinity. -/
theorem ofBits_inf : Ideal.ofBits .f32 0x7F800000#32 = ⊤ := by simp [Ideal.ofBits, Ideal.ieee]

/-- An extended real whose absolute value `max x (-x)` is below plus infinity is a real: at `⊤` and at `⊥` the
    absolute value is `⊤`, which is not below itself. -/
theorem exists_real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array's share of the predicate: if the comparisons `|a i| < +∞`, reduced over all axes by `and` from 1,
    give 1, then every entry of `a` is a real. The reduction being 1 gives each comparison 1; the comparison at
    `i` is `max (a i) (-(a i)) < 0x7F800000` by unfolding the elementwise operations. -/
theorem isReal_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32)))
          (constantI S_ 1 1#1) hr hu j = 1#1) (i : s.Idx) : ∃ x : ℝ, a i = (x : EReal) :=
  exists_real_of_abs_lt_inf (a i) (Host.reduce_andi_all _ _ hr hu j e i)

variable [hP : Cert.Pre_finite_inputs.Facts]

/-- The predicate all ones: every entry of every float argument is a real. The predicate's one element is a
    nineteen-fold `and`, nested to the left in argument order; each conjunct is one array's reduction. -/
theorem isReal_of_pre {a0 : FVec Ideal S50000x512 .f32} {a1 : IVec S2x800000 32} {a2 : FVec Ideal S512x256 .f32} {a3 : FVec Ideal S2x256x256 .f32}
    {a4 : FVec Ideal S3x256 .f32} {a5 : FVec Ideal S3x256 .f32} {a6 : FVec Ideal S3x256 .f32} {a7 : FVec Ideal S256x256 .f32}
    {a8 : FVec Ideal S2x512x256 .f32} {a9 : FVec Ideal S3x256 .f32} {a10 : FVec Ideal S3x256 .f32} {a11 : FVec Ideal S3x256 .f32}
    {a12 : FVec Ideal S3x256x256 .f32} {a13 : FVec Ideal S3x256 .f32} {a14 : FVec Ideal S3x256 .f32} {a15 : FVec Ideal S3x256 .f32}
    {a16 : FVec Ideal S256x2 .f32} {a17 : FVec Ideal S2 .f32} {a18 : FVec Ideal S3x256x2 .f32} {a19 : FVec Ideal S3x2 .f32}
    (h : fn (F := Ideal) a0 a1 a2 a3 a4 a5 a6 a7 a8 a9 a10 a11 a12 a13 a14 a15 a16 a17 a18 a19 = fun _ => 1#1) :
    (∀ i, ∃ x : ℝ, a0 i = (x : EReal))
      ∧ (∀ i, ∃ x : ℝ, a2 i = (x : EReal))
      ∧ (∀ i, ∃ x : ℝ, a3 i = (x : EReal))
      ∧ (∀ i, ∃ x : ℝ, a4 i = (x : EReal))
      ∧ (∀ i, ∃ x : ℝ, a5 i = (x : EReal))
      ∧ (∀ i, ∃ x : ℝ, a6 i = (x : EReal))
      ∧ (∀ i, ∃ x : ℝ, a7 i = (x : EReal))
      ∧ (∀ i, ∃ x : ℝ, a8 i = (x : EReal))
      ∧ (∀ i, ∃ x : ℝ, a9 i = (x : EReal))
      ∧ (∀ i, ∃ x : ℝ, a10 i = (x : EReal))
      ∧ (∀ i, ∃ x : ℝ, a11 i = (x : EReal))
      ∧ (∀ i, ∃ x : ℝ, a12 i = (x : EReal))
      ∧ (∀ i, ∃ x : ℝ, a13 i = (x : EReal))
      ∧ (∀ i, ∃ x : ℝ, a14 i = (x : EReal))
      ∧ (∀ i, ∃ x : ℝ, a15 i = (x : EReal))
      ∧ (∀ i, ∃ x : ℝ, a16 i = (x : EReal))
      ∧ (∀ i, ∃ x : ℝ, a17 i = (x : EReal))
      ∧ (∀ i, ∃ x : ℝ, a18 i = (x : EReal))
      ∧ (∀ i, ∃ x : ℝ, a19 i = (x : EReal)) := by
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩, e19⟩ := h0
  exact ⟨isReal_of_all a0 _ _ _ _ e0,
    isReal_of_all a2 _ _ _ _ e2,
    isReal_of_all a3 _ _ _ _ e3,
    isReal_of_all a4 _ _ _ _ e4,
    isReal_of_all a5 _ _ _ _ e5,
    isReal_of_all a6 _ _ _ _ e6,
    isReal_of_all a7 _ _ _ _ e7,
    isReal_of_all a8 _ _ _ _ e8,
    isReal_of_all a9 _ _ _ _ e9,
    isReal_of_all a10 _ _ _ _ e10,
    isReal_of_all a11 _ _ _ _ e11,
    isReal_of_all a12 _ _ _ _ e12,
    isReal_of_all a13 _ _ _ _ e13,
    isReal_of_all a14 _ _ _ _ e14,
    isReal_of_all a15 _ _ _ _ e15,
    isReal_of_all a16 _ _ _ _ e16,
    isReal_of_all a17 _ _ _ _ e17,
    isReal_of_all a18 _ _ _ _ e18,
    isReal_of_all a19 _ _ _ _ e19⟩

/-- The same of the kernel program's argument buffers on a core, from its precondition. -/
theorem isReal_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg4) i = (x : EReal))
      ∧ (∀ i, ∃ x : ℝ, m ((c.tc : Thread Cert.KernelIdeal.nD Cert.KernelIdeal.τ).loc Cert.KernelIdeal.main_arg5) i = (x : EReal))
      ∧ (∀ i, ∃ x : ℝ, m ((c.tc : Thread Cert.KernelIdeal.nD Cert.KernelIdeal.τ).loc Cert.KernelIdeal.main_arg6) i = (x : EReal))
      ∧ (∀ i, ∃ x : ℝ, m ((c.tc : Thread Cert.KernelIdeal.nD Cert.KernelIdeal.τ).loc Cert.KernelIdeal.main_arg7) i = (x : EReal))
      ∧ (∀ i, ∃ x : ℝ, m ((c.tc : Thread Cert.KernelIdeal.nD Cert.KernelIdeal.τ).loc Cert.KernelIdeal.main_arg8) i = (x : EReal))
      ∧ (∀ i, ∃ x : ℝ, m ((c.tc : Thread Cert.KernelIdeal.nD Cert.KernelIdeal.τ).loc Cert.KernelIdeal.main_arg9) i = (x : EReal))
      ∧ (∀ i, ∃ x : ℝ, m ((c.tc : Thread Cert.KernelIdeal.nD Cert.KernelIdeal.τ).loc Cert.KernelIdeal.main_arg10) i = (x : EReal))
      ∧ (∀ i, ∃ x : ℝ, m ((c.tc : Thread Cert.KernelIdeal.nD Cert.KernelIdeal.τ).loc Cert.KernelIdeal.main_arg11) i = (x : EReal))
      ∧ (∀ i, ∃ x : ℝ, m ((c.tc : Thread Cert.KernelIdeal.nD Cert.KernelIdeal.τ).loc Cert.KernelIdeal.main_arg12) i = (x : EReal))
      ∧ (∀ i, ∃ x : ℝ, m ((c.tc : Thread Cert.KernelIdeal.nD Cert.KernelIdeal.τ).loc Cert.KernelIdeal.main_arg13) i = (x : EReal))
      ∧ (∀ i, ∃ x : ℝ, m ((c.tc : Thread Cert.KernelIdeal.nD Cert.KernelIdeal.τ).loc Cert.KernelIdeal.main_arg14) i = (x : EReal))
      ∧ (∀ i, ∃ x : ℝ, m ((c.tc : Thread Cert.KernelIdeal.nD Cert.KernelIdeal.τ).loc Cert.KernelIdeal.main_arg15) i = (x : EReal))
      ∧ (∀ i, ∃ x : ℝ, m ((c.tc : Thread Cert.KernelIdeal.nD Cert.KernelIdeal.τ).loc Cert.KernelIdeal.main_arg16) i = (x : EReal))
      ∧ (∀ i, ∃ x : ℝ, m ((c.tc : Thread Cert.KernelIdeal.nD Cert.KernelIdeal.τ).loc Cert.KernelIdeal.main_arg17) i = (x : EReal))
      ∧ (∀ i, ∃ x : ℝ, m ((c.tc : Thread Cert.KernelIdeal.nD Cert.KernelIdeal.τ).loc Cert.KernelIdeal.main_arg18) i = (x : EReal))
      ∧ (∀ i, ∃ x : ℝ, m ((c.tc : Thread Cert.KernelIdeal.nD Cert.KernelIdeal.τ).loc Cert.KernelIdeal.main_arg19) i = (x : EReal)) :=
  isReal_of_pre (h c)

/-- Argument 0 holds only reals. -/
theorem isReal_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg0) i = (x : EReal) :=
  (isReal_args m h c).1

/-- Argument 2 holds only reals. -/
theorem isReal_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg2) i = (x : EReal) :=
  (isReal_args m h c).2.1

/-- Argument 3 holds only reals. -/
theorem isReal_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg3) i = (x : EReal) :=
  (isReal_args m h c).2.2.1

/-- Argument 4 holds only reals. -/
theorem isReal_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg4) i = (x : EReal) :=
  (isReal_args m h c).2.2.2.1

/-- Argument 5 holds only reals. -/
theorem isReal_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg5) i = (x : EReal) :=
  (isReal_args m h c).2.2.2.2.1

/-- Argument 6 holds only reals. -/
theorem isReal_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg6) i = (x : EReal) :=
  (isReal_args m h c).2.2.2.2.2.1

/-- Argument 7 holds only reals. -/
theorem isReal_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg7) i = (x : EReal) :=
  (isReal_args m h c).2.2.2.2.2.2.1

/-- Argument 8 holds only reals. -/
theorem isReal_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg8) i = (x : EReal) :=
  (isReal_args m h c).2.2.2.2.2.2.2.1

/-- Argument 9 holds only reals. -/
theorem isReal_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg9) i = (x : EReal) :=
  (isReal_args m h c).2.2.2.2.2.2.2.2.1

/-- Argument 10 holds only reals. -/
theorem isReal_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg10) i = (x : EReal) :=
  (isReal_args m h c).2.2.2.2.2.2.2.2.2.1

/-- Argument 11 holds only reals. -/
theorem isReal_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg11) i = (x : EReal) :=
  (isReal_args m h c).2.2.2.2.2.2.2.2.2.2.1

/-- Argument 12 holds only reals. -/
theorem isReal_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg12) i = (x : EReal) :=
  (isReal_args m h c).2.2.2.2.2.2.2.2.2.2.2.1

/-- Argument 13 holds only reals. -/
theorem isReal_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg13) i = (x : EReal) :=
  (isReal_args m h c).2.2.2.2.2.2.2.2.2.2.2.2.1

/-- Argument 14 holds only reals. -/
theorem isReal_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg14) i = (x : EReal) :=
  (isReal_args m h c).2.2.2.2.2.2.2.2.2.2.2.2.2.1

/-- Argument 15 holds only reals. -/
theorem isReal_arg15 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg15) i = (x : EReal) :=
  (isReal_args m h c).2.2.2.2.2.2.2.2.2.2.2.2.2.2.1

/-- Argument 16 holds only reals. -/
theorem isReal_arg16 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg16) i = (x : EReal) :=
  (isReal_args m h c).2.2.2.2.2.2.2.2.2.2.2.2.2.2.2.1

/-- Argument 17 holds only reals. -/
theorem isReal_arg17 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg17) i = (x : EReal) :=
  (isReal_args m h c).2.2.2.2.2.2.2.2.2.2.2.2.2.2.2.2.1

/-- Argument 18 holds only reals. -/
theorem isReal_arg18 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg18) i = (x : EReal) :=
  (isReal_args m h c).2.2.2.2.2.2.2.2.2.2.2.2.2.2.2.2.2.1

/-- Argument 19 holds only reals. -/
theorem isReal_arg19 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg19) i = (x : EReal) :=
  (isReal_args m h c).2.2.2.2.2.2.2.2.2.2.2.2.2.2.2.2.2.2

end Cert.PreReal

end
-- ==== Proof.lean ====
/- The proof of `Cert.Claim` (proofs.«146967_j25786983645193_1_alg».proof.Defs): frame_Kernel ∧ frame_KernelIdeal ∧
   frame_ReferenceIdeal ∧ preserves_Kernel_KernelIdeal ∧ algebraic_KernelIdeal_ReferenceIdeal.

   THE NETWORK. Both programs compute, on 50000 nodes, a graph network's four class scores per node: three graph layers
   (a linear map, a degree-normalised propagation along the 800000 edges and the self loops, a batch-norm block with
   ReLU) give h3; a global path takes three dense steps xg0, xg1, xg2, each a linear map and a batch-norm block on the
   previous step set beside h3; a head on xg2 and, per step, one more dense layer and a head give four arrays of
   [50000, 2] row log-softmax scores, stacked. The kernel program does this in 31 pipelined regions between stretches of
   host operations, the reference in one straight line of host operations.

   WHERE THEY DIFFER. Operation for operation the two agree except in the batch-norm block. On an activation p and a bias
   row b the kernel program takes the column sums s = ∑ p and ss = ∑ p² over the rows in one pass and normalises p + b
   by the mean s/n + b and the variance ss/n − (s/n)²; the reference forms h = p + b and normalises it by its own mean
   (∑ h)/n and its own variance (∑ (h − mean)²)/n. On the reals these are the same numbers,
       (∑ (p + b))/n = (∑ p)/n + b,      (∑ ((p + b) − ((∑ p)/n + b))²)/n = (∑ p²)/n − ((∑ p)/n)²,
   and everything after them is the same chain. The heads agree with no hypothesis: the kernel's row maximum and row sum
   over the two classes are a fold and a sum of two terms, the reference's the host's reductions of the same two.

   WHERE FINITENESS ENTERS. The two identities above are identities of REAL numbers; over the extended reals a sum holding
   +∞ and −∞ has no such algebra. The precondition says every float argument is finite, so every argument array holds
   reals; products, sums, the propagation and each block (its variance a real that is not negative, the root of a
   positive real) keep the activations real from layer to layer, which is what lets the two blocks be identified at
   every one of the nine places they occur.

   THE PROOF. Each program's run is a frame: it terminates, nothing faulting, each argument as launched, and the result
   buffer at a named fold of the program's operations (the launch over the segments for the kernel program, at any float
   instance — so for the word-level text too, which only this frame is claimed of; the straight line's fold for the
   reference). At the ideal values each fold, read stage by stage, is the network's definition: netK of the arguments
   for the kernel program, netR for the reference. The arguments agree, the networks agree on reals, so the results do. -/
import proofs.«146967_j25786983645193_1_alg».proof.Defs
import proofs.«146967_j25786983645193_1_alg».proof.Proof.Gen.Kernel
import proofs.«146967_j25786983645193_1_alg».proof.Proof.Gen.KernelIdeal
import proofs.«146967_j25786983645193_1_alg».proof.Proof.Gen.ReferenceIdeal
import proofs.«146967_j25786983645193_1_alg».proof.Proof.Gen.Pre_finite_inputs
import proofs.«146967_j25786983645193_1_alg».proof.Proof.KB.Run
import proofs.«146967_j25786983645193_1_alg».proof.Proof.KI.Run
import proofs.«146967_j25786983645193_1_alg».proof.Proof.KI.Value
import proofs.«146967_j25786983645193_1_alg».proof.Proof.Ref.Run
import proofs.«146967_j25786983645193_1_alg».proof.Proof.Ref.Value
import proofs.«146967_j25786983645193_1_alg».proof.Proof.PreReal
import proofs.«146967_j25786983645193_1_alg».proof.Proof.Spec.Net

noncomputable section

namespace Cert.Proof

open Idealize.ShloMosaic Idealize.SL.Sem

/-- The word-level kernel program runs and leaves its arguments as launched: the launch's run, the result's equation
    dropped. -/
theorem frameK : Cert.frame_Kernel :=
  fun m ρ _ => (θ_run _ _ _).mono (fun _ h c => (h c).2) (Cert.Kernel.Reg.run_main (F := Bits) m ρ)

/-- The same program read at the ideal values. -/
theorem frameKI : Cert.frame_KernelIdeal :=
  fun m ρ _ => (θ_run _ _ _).mono (fun _ h c => (h c).2) (Cert.KernelIdeal.Reg.run_main (F := Ideal) m ρ)

/-- The reference runs and leaves its arguments as launched. -/
theorem frameR : Cert.frame_ReferenceIdeal :=
  fun m ρ _ => (θ_run _ _ _).mono (fun _ h c => (h c).2) (Cert.ReferenceIdeal.RefRun.run (F := Ideal) m ρ)

/-- AT THE IDEAL VALUES THE TWO PROGRAMS END WITH THE SAME RESULT, from memories that agree on the arguments and hold
    only finite floats there. The kernel program's result is the network the column-sum way (netK) of its arguments, the
    reference's the network the two-pass way (netR) of its own; the arguments agree; and on real arrays the two ways are
    one function (Spec/Net.lean netK_eq_netR: the batch-norm blocks agree on the reals, everything else is the same
    text) — real, because the precondition says every float argument is finite. -/
theorem algebraic : Cert.algebraic_KernelIdeal_ReferenceIdeal := by
  intro m ρ m' ρ' hpre hagree
  refine ⟨fun c => Cert.KernelIdeal.Reg.W64 m c (Proc.devRef .tc Cert.KernelIdeal.main_v316),
    Cert.KernelIdeal.Reg.run_main (F := Ideal) m ρ, ?_⟩
  refine (θ_run _ _ _).mono (fun _ h c => ⟨(h c).1.trans ?_, (h c).2⟩) (Cert.ReferenceIdeal.RefRun.run (F := Ideal) m' ρ')
  obtain ⟨e0, e1, e2, e3, e4, e5, e6, e7, e8, e9, e10, e11, e12, e13, e14, e15, e16, e17, e18, e19⟩ := hagree c
  show _ = Cert.KernelIdeal.Reg.W64 m c (Proc.devRef .tc Cert.KernelIdeal.main_v316)
  rw [Cert.ReferenceIdeal.RefRun.ref_value m' c, Cert.KernelIdeal.Reg.kernel_value m c,
    e0, e1, e2, e3, e4, e5, e6, e7, e8, e9, e10, e11, e12, e13, e14, e15, e16, e17, e18, e19]
  exact (Cert.Spec.netK_eq_netR _ _ _ _ _
    (Cert.PreReal.isReal_arg0 m hpre c)
    (Cert.PreReal.isReal_arg2 m hpre c)
    (Cert.PreReal.isReal_arg3 m hpre c)
    (Cert.PreReal.isReal_arg4 m hpre c)
    (Cert.PreReal.isReal_arg5 m hpre c)
    (Cert.PreReal.isReal_arg6 m hpre c)
    (Cert.PreReal.isReal_arg7 m hpre c)
    (Cert.PreReal.isReal_arg8 m hpre c)
    (Cert.PreReal.isReal_arg9 m hpre c)
    (Cert.PreReal.isReal_arg10 m hpre c)
    (Cert.PreReal.isReal_arg11 m hpre c)
    (Cert.PreReal.isReal_arg12 m hpre c)
    (Cert.PreReal.isReal_arg13 m hpre c)).symm

theorem claim : Cert.Claim :=
  ⟨Cert.Kernel.Gen.facts, Cert.KernelIdeal.Gen.facts, Cert.ReferenceIdeal.Gen.facts, Cert.Pre_finite_inputs.Gen.facts,
    frameK, frameKI, frameR, trivial, algebraic⟩

end Cert.Proof

end
